-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2048x1024 : Shape := ⟨2, ![2048, 1024]⟩
abbrev S1024x2048 : Shape := ⟨2, ![1024, 2048]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_

variable [Facts]

def fn {F : FTy → Type} [FloatOps F] (main_arg0 : FVec F S2048x1024 .f32) (main_arg1 : FVec F S1024x2048 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  main_v8
-- ==== Pre_finite_inputs_ReferenceIdeal.lean ====
abbrev S2048x4096 : Shape := ⟨2, ![2048, 4096]⟩
abbrev S4096x2048 : Shape := ⟨2, ![4096, 2048]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S2048x4096 .f32) (main_arg1 : FVec F S4096x2048 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  main_v8
-- ==== Kernel.lean ====
abbrev S2048x1024 : Shape := ⟨2, ![2048, 1024]⟩
abbrev S1024x2048 : Shape := ⟨2, ![1024, 2048]⟩
abbrev S2048x2048 : Shape := ⟨2, ![2048, 2048]⟩
abbrev S8x4x512x256 : Shape := ⟨4, ![8, 4, 512, 256]⟩
abbrev S8x3 : Shape := ⟨2, ![8, 3]⟩
abbrev S_ : Shape := ⟨0, ![]⟩
abbrev S512x1024 : Shape := ⟨2, ![512, 1024]⟩
abbrev S1024x256 : Shape := ⟨2, ![1024, 256]⟩
abbrev S512x256 : Shape := ⟨2, ![512, 256]⟩
abbrev S1x1x512x256 : Shape := ⟨4, ![1, 1, 512, 256]⟩
abbrev S1x1 : Shape := ⟨2, ![1, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .bf16⟩
  | .local _ .vmem, ⟨0, _⟩ => ⟨S2048x1024, .f32⟩
  | .local _ .vmem, ⟨1, _⟩ => ⟨S1024x2048, .f32⟩
  | .local _ .vmem, ⟨2, _⟩ => ⟨S2048x2048, .bf16⟩
  | .local _ .vmem, ⟨3, _⟩ => ⟨S8x4x512x256, .bf16⟩
  | .local _ .vmem, ⟨4, _⟩ => ⟨S1024x2048, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 99 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | _ => false

abbrev sig : RefSig :=
  (ofTc nBuf bufTy 1 99 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_70 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_69 : BitVec 32 := 1#32
  let v114 : BitVec 32 := Scalar.muli v13 c1_i32_69
  let v115 : BitVec 32 := Scalar.addi c0_i32_70 v114
  v115.toNat
def k0_dev2 (d0 : Dev nD) : Nat :=
  let c0_i32_73 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_72 : BitVec 32 := 1#32
  let v116 : BitVec 32 := Scalar.muli v24 c1_i32_72
  let v117 : BitVec 32 := Scalar.addi c0_i32_73 v116
  v117.toNat
def k0_off1 (d0 : Dev nD) (c1_i32_77 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v124 : BitVec 32 := Scalar.subi v2 c1_i32_77
  let c4_i32_78 : BitVec 32 := 4#32
  let c0_i32_79 : BitVec 32 := 0#32
  let v125 : BitVec 1 := Scalar.cmpi .eq c4_i32_78 c0_i32_79
  let c1_i32_80 : BitVec 32 := 1#32
  let v126 : BitVec 32 := Scalar.select v125 c1_i32_80 c4_i32_78
  let v127 : BitVec 32 := Scalar.remsi v124 v126
  let c0_i32_82 : BitVec 32 := 0#32
  let v129 : BitVec 1 := Scalar.cmpi .slt v127 c0_i32_82
  let c0_i32_83 : BitVec 32 := 0#32
  let v130 : BitVec 1 := Scalar.cmpi .slt v126 c0_i32_83
  let v131 : BitVec 1 := Scalar.xori v129 v130
  let c0_i32_81 : BitVec 32 := 0#32
  let v128 : BitVec 1 := Scalar.cmpi .ne v127 c0_i32_81
  let v132 : BitVec 1 := Scalar.andi v131 v128
  let v133 : BitVec 32 := Scalar.addi v127 v126
  let v134 : BitVec 32 := Scalar.select v132 v133 v127
  let c512_i32 : BitVec 32 := 512#32
  let v135 : BitVec 32 := Scalar.muli v134 c512_i32
  let v136 : Index := Scalar.indexCast v135
  let c0_84 : Index := 0#32
  ![v136.toNat, 0]
def k0_off1_at (r : Fin 8) : BitVec 32 :=
  if r.val < 4 then
    if r.val < 2 then
      if r.val < 1 then
        1#32
      else
        4294967295#32
    else
      if r.val < 3 then
        2#32
      else
        4294967294#32
  else
    if r.val < 6 then
      if r.val < 5 then
        3#32
      else
        4294967293#32
    else
      if r.val < 7 then
        4#32
      else
        4294967292#32
def k0_dev3 (d0 : Dev nD) : Nat :=
  let c0_i32_114 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v25 : BitVec 32 := Scalar.addi v2 c1_i32_13
  let c4_i32_14 : BitVec 32 := 4#32
  let c0_i32_15 : BitVec 32 := 0#32
  let v26 : BitVec 1 := Scalar.cmpi .eq c4_i32_14 c0_i32_15
  let c1_i32_16 : BitVec 32 := 1#32
  let v27 : BitVec 32 := Scalar.select v26 c1_i32_16 c4_i32_14
  let v28 : BitVec 32 := Scalar.remsi v25 v27
  let c0_i32_18 : BitVec 32 := 0#32
  let v30 : BitVec 1 := Scalar.cmpi .slt v28 c0_i32_18
  let c0_i32_19 : BitVec 32 := 0#32
  let v31 : BitVec 1 := Scalar.cmpi .slt v27 c0_i32_19
  let v32 : BitVec 1 := Scalar.xori v30 v31
  let c0_i32_17 : BitVec 32 := 0#32
  let v29 : BitVec 1 := Scalar.cmpi .ne v28 c0_i32_17
  let v33 : BitVec 1 := Scalar.andi v32 v29
  let v34 : BitVec 32 := Scalar.addi v28 v27
  let v35 : BitVec 32 := Scalar.select v33 v34 v28
  let c1_i32_113 : BitVec 32 := 1#32
  let v168 : BitVec 32 := Scalar.muli v35 c1_i32_113
  let v169 : BitVec 32 := Scalar.addi c0_i32_114 v168
  v169.toNat
def k0_dev4 (d0 : Dev nD) : Nat :=
  let c0_i32_128 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32 : BitVec 32 := 4294967295#32
  let v69 : BitVec 32 := Scalar.addi v2 c_m1_i32
  let c4_i32_41 : BitVec 32 := 4#32
  let c0_i32_42 : BitVec 32 := 0#32
  let v70 : BitVec 1 := Scalar.cmpi .eq c4_i32_41 c0_i32_42
  let c1_i32_43 : BitVec 32 := 1#32
  let v71 : BitVec 32 := Scalar.select v70 c1_i32_43 c4_i32_41
  let v72 : BitVec 32 := Scalar.remsi v69 v71
  let c0_i32_45 : BitVec 32 := 0#32
  let v74 : BitVec 1 := Scalar.cmpi .slt v72 c0_i32_45
  let c0_i32_46 : BitVec 32 := 0#32
  let v75 : BitVec 1 := Scalar.cmpi .slt v71 c0_i32_46
  let v76 : BitVec 1 := Scalar.xori v74 v75
  let c0_i32_44 : BitVec 32 := 0#32
  let v73 : BitVec 1 := Scalar.cmpi .ne v72 c0_i32_44
  let v77 : BitVec 1 := Scalar.andi v76 v73
  let v78 : BitVec 32 := Scalar.addi v72 v71
  let v79 : BitVec 32 := Scalar.select v77 v78 v72
  let c1_i32_127 : BitVec 32 := 1#32
  let v178 : BitVec 32 := Scalar.muli v79 c1_i32_127
  let v179 : BitVec 32 := Scalar.addi c0_i32_128 v178
  v179.toNat
def k0_dev5 (d0 : Dev nD) : Nat :=
  let c0_i32_170 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_20 : BitVec 32 := 1#32
  let v36 : BitVec 32 := Scalar.addi v2 c1_i32_20
  let c4_i32_21 : BitVec 32 := 4#32
  let c0_i32_22 : BitVec 32 := 0#32
  let v37 : BitVec 1 := Scalar.cmpi .eq c4_i32_21 c0_i32_22
  let c1_i32_23 : BitVec 32 := 1#32
  let v38 : BitVec 32 := Scalar.select v37 c1_i32_23 c4_i32_21
  let v39 : BitVec 32 := Scalar.remsi v36 v38
  let c0_i32_25 : BitVec 32 := 0#32
  let v41 : BitVec 1 := Scalar.cmpi .slt v39 c0_i32_25
  let c0_i32_26 : BitVec 32 := 0#32
  let v42 : BitVec 1 := Scalar.cmpi .slt v38 c0_i32_26
  let v43 : BitVec 1 := Scalar.xori v41 v42
  let c0_i32_24 : BitVec 32 := 0#32
  let v40 : BitVec 1 := Scalar.cmpi .ne v39 c0_i32_24
  let v44 : BitVec 1 := Scalar.andi v43 v40
  let v45 : BitVec 32 := Scalar.addi v39 v38
  let v46 : BitVec 32 := Scalar.select v44 v45 v39
  let c1_i32_169 : BitVec 32 := 1#32
  let v232 : BitVec 32 := Scalar.muli v46 c1_i32_169
  let v233 : BitVec 32 := Scalar.addi c0_i32_170 v232
  v233.toNat
def k0_dev6 (d0 : Dev nD) : Nat :=
  let c0_i32_183 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32_47 : BitVec 32 := 4294967295#32
  let v80 : BitVec 32 := Scalar.addi v2 c_m1_i32_47
  let c4_i32_48 : BitVec 32 := 4#32
  let c0_i32_49 : BitVec 32 := 0#32
  let v81 : BitVec 1 := Scalar.cmpi .eq c4_i32_48 c0_i32_49
  let c1_i32_50 : BitVec 32 := 1#32
  let v82 : BitVec 32 := Scalar.select v81 c1_i32_50 c4_i32_48
  let v83 : BitVec 32 := Scalar.remsi v80 v82
  let c0_i32_52 : BitVec 32 := 0#32
  let v85 : BitVec 1 := Scalar.cmpi .slt v83 c0_i32_52
  let c0_i32_53 : BitVec 32 := 0#32
  let v86 : BitVec 1 := Scalar.cmpi .slt v82 c0_i32_53
  let v87 : BitVec 1 := Scalar.xori v85 v86
  let c0_i32_51 : BitVec 32 := 0#32
  let v84 : BitVec 1 := Scalar.cmpi .ne v83 c0_i32_51
  let v88 : BitVec 1 := Scalar.andi v87 v84
  let v89 : BitVec 32 := Scalar.addi v83 v82
  let v90 : BitVec 32 := Scalar.select v88 v89 v83
  let c1_i32_182 : BitVec 32 := 1#32
  let v242 : BitVec 32 := Scalar.muli v90 c1_i32_182
  let v243 : BitVec 32 := Scalar.addi c0_i32_183 v242
  v243.toNat
def k0_dev7 (d0 : Dev nD) : Nat :=
  let c0_i32_225 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_27 : BitVec 32 := 1#32
  let v47 : BitVec 32 := Scalar.addi v2 c1_i32_27
  let c4_i32_28 : BitVec 32 := 4#32
  let c0_i32_29 : BitVec 32 := 0#32
  let v48 : BitVec 1 := Scalar.cmpi .eq c4_i32_28 c0_i32_29
  let c1_i32_30 : BitVec 32 := 1#32
  let v49 : BitVec 32 := Scalar.select v48 c1_i32_30 c4_i32_28
  let v50 : BitVec 32 := Scalar.remsi v47 v49
  let c0_i32_32 : BitVec 32 := 0#32
  let v52 : BitVec 1 := Scalar.cmpi .slt v50 c0_i32_32
  let c0_i32_33 : BitVec 32 := 0#32
  let v53 : BitVec 1 := Scalar.cmpi .slt v49 c0_i32_33
  let v54 : BitVec 1 := Scalar.xori v52 v53
  let c0_i32_31 : BitVec 32 := 0#32
  let v51 : BitVec 1 := Scalar.cmpi .ne v50 c0_i32_31
  let v55 : BitVec 1 := Scalar.andi v54 v51
  let v56 : BitVec 32 := Scalar.addi v50 v49
  let v57 : BitVec 32 := Scalar.select v55 v56 v50
  let c1_i32_224 : BitVec 32 := 1#32
  let v296 : BitVec 32 := Scalar.muli v57 c1_i32_224
  let v297 : BitVec 32 := Scalar.addi c0_i32_225 v296
  v297.toNat
def k0_dev8 (d0 : Dev nD) : Nat :=
  let c0_i32_238 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32_54 : BitVec 32 := 4294967295#32
  let v91 : BitVec 32 := Scalar.addi v2 c_m1_i32_54
  let c4_i32_55 : BitVec 32 := 4#32
  let c0_i32_56 : BitVec 32 := 0#32
  let v92 : BitVec 1 := Scalar.cmpi .eq c4_i32_55 c0_i32_56
  let c1_i32_57 : BitVec 32 := 1#32
  let v93 : BitVec 32 := Scalar.select v92 c1_i32_57 c4_i32_55
  let v94 : BitVec 32 := Scalar.remsi v91 v93
  let c0_i32_59 : BitVec 32 := 0#32
  let v96 : BitVec 1 := Scalar.cmpi .slt v94 c0_i32_59
  let c0_i32_60 : BitVec 32 := 0#32
  let v97 : BitVec 1 := Scalar.cmpi .slt v93 c0_i32_60
  let v98 : BitVec 1 := Scalar.xori v96 v97
  let c0_i32_58 : BitVec 32 := 0#32
  let v95 : BitVec 1 := Scalar.cmpi .ne v94 c0_i32_58
  let v99 : BitVec 1 := Scalar.andi v98 v95
  let v100 : BitVec 32 := Scalar.addi v94 v93
  let v101 : BitVec 32 := Scalar.select v99 v100 v94
  let c1_i32_237 : BitVec 32 := 1#32
  let v306 : BitVec 32 := Scalar.muli v101 c1_i32_237
  let v307 : BitVec 32 := Scalar.addi c0_i32_238 v306
  v307.toNat
def k0_dev9 (d0 : Dev nD) : Nat :=
  let c0_i32_279 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_34 : BitVec 32 := 1#32
  let v58 : BitVec 32 := Scalar.addi v2 c1_i32_34
  let c4_i32_35 : BitVec 32 := 4#32
  let c0_i32_36 : BitVec 32 := 0#32
  let v59 : BitVec 1 := Scalar.cmpi .eq c4_i32_35 c0_i32_36
  let c1_i32_37 : BitVec 32 := 1#32
  let v60 : BitVec 32 := Scalar.select v59 c1_i32_37 c4_i32_35
  let v61 : BitVec 32 := Scalar.remsi v58 v60
  let c0_i32_39 : BitVec 32 := 0#32
  let v63 : BitVec 1 := Scalar.cmpi .slt v61 c0_i32_39
  let c0_i32_40 : BitVec 32 := 0#32
  let v64 : BitVec 1 := Scalar.cmpi .slt v60 c0_i32_40
  let v65 : BitVec 1 := Scalar.xori v63 v64
  let c0_i32_38 : BitVec 32 := 0#32
  let v62 : BitVec 1 := Scalar.cmpi .ne v61 c0_i32_38
  let v66 : BitVec 1 := Scalar.andi v65 v62
  let v67 : BitVec 32 := Scalar.addi v61 v60
  let v68 : BitVec 32 := Scalar.select v66 v67 v61
  let c1_i32_278 : BitVec 32 := 1#32
  let v360 : BitVec 32 := Scalar.muli v68 c1_i32_278
  let v361 : BitVec 32 := Scalar.addi c0_i32_279 v360
  v361.toNat
def k0_dev10 (d0 : Dev nD) : Nat :=
  let c0_i32_292 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32_61 : BitVec 32 := 4294967295#32
  let v102 : BitVec 32 := Scalar.addi v2 c_m1_i32_61
  let c4_i32_62 : BitVec 32 := 4#32
  let c0_i32_63 : BitVec 32 := 0#32
  let v103 : BitVec 1 := Scalar.cmpi .eq c4_i32_62 c0_i32_63
  let c1_i32_64 : BitVec 32 := 1#32
  let v104 : BitVec 32 := Scalar.select v103 c1_i32_64 c4_i32_62
  let v105 : BitVec 32 := Scalar.remsi v102 v104
  let c0_i32_66 : BitVec 32 := 0#32
  let v107 : BitVec 1 := Scalar.cmpi .slt v105 c0_i32_66
  let c0_i32_67 : BitVec 32 := 0#32
  let v108 : BitVec 1 := Scalar.cmpi .slt v104 c0_i32_67
  let v109 : BitVec 1 := Scalar.xori v107 v108
  let c0_i32_65 : BitVec 32 := 0#32
  let v106 : BitVec 1 := Scalar.cmpi .ne v105 c0_i32_65
  let v110 : BitVec 1 := Scalar.andi v109 v106
  let v111 : BitVec 32 := Scalar.addi v105 v104
  let v112 : BitVec 32 := Scalar.select v110 v111 v105
  let c1_i32_291 : BitVec 32 := 1#32
  let v370 : BitVec 32 := Scalar.muli v112 c1_i32_291
  let v371 : BitVec 32 := Scalar.addi c0_i32_292 v370
  v371.toNat
def k0_dev11 (d0 : Dev nD) : Nat :=
  let c0_i32_423 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v25 : BitVec 32 := Scalar.addi v2 c1_i32_13
  let c4_i32_14 : BitVec 32 := 4#32
  let c0_i32_15 : BitVec 32 := 0#32
  let v26 : BitVec 1 := Scalar.cmpi .eq c4_i32_14 c0_i32_15
  let c1_i32_16 : BitVec 32 := 1#32
  let v27 : BitVec 32 := Scalar.select v26 c1_i32_16 c4_i32_14
  let v28 : BitVec 32 := Scalar.remsi v25 v27
  let c0_i32_18 : BitVec 32 := 0#32
  let v30 : BitVec 1 := Scalar.cmpi .slt v28 c0_i32_18
  let c0_i32_19 : BitVec 32 := 0#32
  let v31 : BitVec 1 := Scalar.cmpi .slt v27 c0_i32_19
  let v32 : BitVec 1 := Scalar.xori v30 v31
  let c0_i32_17 : BitVec 32 := 0#32
  let v29 : BitVec 1 := Scalar.cmpi .ne v28 c0_i32_17
  let v33 : BitVec 1 := Scalar.andi v32 v29
  let v34 : BitVec 32 := Scalar.addi v28 v27
  let v35 : BitVec 32 := Scalar.select v33 v34 v28
  let c1_i32_422 : BitVec 32 := 1#32
  let v540 : BitVec 32 := Scalar.muli v35 c1_i32_422
  let v541 : BitVec 32 := Scalar.addi c0_i32_423 v540
  v541.toNat
def k0_dev12 (d0 : Dev nD) : Nat :=
  let c0_i32_459 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32 : BitVec 32 := 4294967295#32
  let v69 : BitVec 32 := Scalar.addi v2 c_m1_i32
  let c4_i32_41 : BitVec 32 := 4#32
  let c0_i32_42 : BitVec 32 := 0#32
  let v70 : BitVec 1 := Scalar.cmpi .eq c4_i32_41 c0_i32_42
  let c1_i32_43 : BitVec 32 := 1#32
  let v71 : BitVec 32 := Scalar.select v70 c1_i32_43 c4_i32_41
  let v72 : BitVec 32 := Scalar.remsi v69 v71
  let c0_i32_45 : BitVec 32 := 0#32
  let v74 : BitVec 1 := Scalar.cmpi .slt v72 c0_i32_45
  let c0_i32_46 : BitVec 32 := 0#32
  let v75 : BitVec 1 := Scalar.cmpi .slt v71 c0_i32_46
  let v76 : BitVec 1 := Scalar.xori v74 v75
  let c0_i32_44 : BitVec 32 := 0#32
  let v73 : BitVec 1 := Scalar.cmpi .ne v72 c0_i32_44
  let v77 : BitVec 1 := Scalar.andi v76 v73
  let v78 : BitVec 32 := Scalar.addi v72 v71
  let v79 : BitVec 32 := Scalar.select v77 v78 v72
  let c1_i32_458 : BitVec 32 := 1#32
  let v566 : BitVec 32 := Scalar.muli v79 c1_i32_458
  let v567 : BitVec 32 := Scalar.addi c0_i32_459 v566
  v567.toNat
def k0_dev13 (d0 : Dev nD) : Nat :=
  let c0_i32_518 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_20 : BitVec 32 := 1#32
  let v36 : BitVec 32 := Scalar.addi v2 c1_i32_20
  let c4_i32_21 : BitVec 32 := 4#32
  let c0_i32_22 : BitVec 32 := 0#32
  let v37 : BitVec 1 := Scalar.cmpi .eq c4_i32_21 c0_i32_22
  let c1_i32_23 : BitVec 32 := 1#32
  let v38 : BitVec 32 := Scalar.select v37 c1_i32_23 c4_i32_21
  let v39 : BitVec 32 := Scalar.remsi v36 v38
  let c0_i32_25 : BitVec 32 := 0#32
  let v41 : BitVec 1 := Scalar.cmpi .slt v39 c0_i32_25
  let c0_i32_26 : BitVec 32 := 0#32
  let v42 : BitVec 1 := Scalar.cmpi .slt v38 c0_i32_26
  let v43 : BitVec 1 := Scalar.xori v41 v42
  let c0_i32_24 : BitVec 32 := 0#32
  let v40 : BitVec 1 := Scalar.cmpi .ne v39 c0_i32_24
  let v44 : BitVec 1 := Scalar.andi v43 v40
  let v45 : BitVec 32 := Scalar.addi v39 v38
  let v46 : BitVec 32 := Scalar.select v44 v45 v39
  let c1_i32_517 : BitVec 32 := 1#32
  let v628 : BitVec 32 := Scalar.muli v46 c1_i32_517
  let v629 : BitVec 32 := Scalar.addi c0_i32_518 v628
  v629.toNat
def k0_dev14 (d0 : Dev nD) : Nat :=
  let c0_i32_554 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32_47 : BitVec 32 := 4294967295#32
  let v80 : BitVec 32 := Scalar.addi v2 c_m1_i32_47
  let c4_i32_48 : BitVec 32 := 4#32
  let c0_i32_49 : BitVec 32 := 0#32
  let v81 : BitVec 1 := Scalar.cmpi .eq c4_i32_48 c0_i32_49
  let c1_i32_50 : BitVec 32 := 1#32
  let v82 : BitVec 32 := Scalar.select v81 c1_i32_50 c4_i32_48
  let v83 : BitVec 32 := Scalar.remsi v80 v82
  let c0_i32_52 : BitVec 32 := 0#32
  let v85 : BitVec 1 := Scalar.cmpi .slt v83 c0_i32_52
  let c0_i32_53 : BitVec 32 := 0#32
  let v86 : BitVec 1 := Scalar.cmpi .slt v82 c0_i32_53
  let v87 : BitVec 1 := Scalar.xori v85 v86
  let c0_i32_51 : BitVec 32 := 0#32
  let v84 : BitVec 1 := Scalar.cmpi .ne v83 c0_i32_51
  let v88 : BitVec 1 := Scalar.andi v87 v84
  let v89 : BitVec 32 := Scalar.addi v83 v82
  let v90 : BitVec 32 := Scalar.select v88 v89 v83
  let c1_i32_553 : BitVec 32 := 1#32
  let v654 : BitVec 32 := Scalar.muli v90 c1_i32_553
  let v655 : BitVec 32 := Scalar.addi c0_i32_554 v654
  v655.toNat
def k0_dev15 (d0 : Dev nD) : Nat :=
  let c0_i32_614 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_27 : BitVec 32 := 1#32
  let v47 : BitVec 32 := Scalar.addi v2 c1_i32_27
  let c4_i32_28 : BitVec 32 := 4#32
  let c0_i32_29 : BitVec 32 := 0#32
  let v48 : BitVec 1 := Scalar.cmpi .eq c4_i32_28 c0_i32_29
  let c1_i32_30 : BitVec 32 := 1#32
  let v49 : BitVec 32 := Scalar.select v48 c1_i32_30 c4_i32_28
  let v50 : BitVec 32 := Scalar.remsi v47 v49
  let c0_i32_32 : BitVec 32 := 0#32
  let v52 : BitVec 1 := Scalar.cmpi .slt v50 c0_i32_32
  let c0_i32_33 : BitVec 32 := 0#32
  let v53 : BitVec 1 := Scalar.cmpi .slt v49 c0_i32_33
  let v54 : BitVec 1 := Scalar.xori v52 v53
  let c0_i32_31 : BitVec 32 := 0#32
  let v51 : BitVec 1 := Scalar.cmpi .ne v50 c0_i32_31
  let v55 : BitVec 1 := Scalar.andi v54 v51
  let v56 : BitVec 32 := Scalar.addi v50 v49
  let v57 : BitVec 32 := Scalar.select v55 v56 v50
  let c1_i32_613 : BitVec 32 := 1#32
  let v716 : BitVec 32 := Scalar.muli v57 c1_i32_613
  let v717 : BitVec 32 := Scalar.addi c0_i32_614 v716
  v717.toNat
def k0_dev16 (d0 : Dev nD) : Nat :=
  let c0_i32_650 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32_54 : BitVec 32 := 4294967295#32
  let v91 : BitVec 32 := Scalar.addi v2 c_m1_i32_54
  let c4_i32_55 : BitVec 32 := 4#32
  let c0_i32_56 : BitVec 32 := 0#32
  let v92 : BitVec 1 := Scalar.cmpi .eq c4_i32_55 c0_i32_56
  let c1_i32_57 : BitVec 32 := 1#32
  let v93 : BitVec 32 := Scalar.select v92 c1_i32_57 c4_i32_55
  let v94 : BitVec 32 := Scalar.remsi v91 v93
  let c0_i32_59 : BitVec 32 := 0#32
  let v96 : BitVec 1 := Scalar.cmpi .slt v94 c0_i32_59
  let c0_i32_60 : BitVec 32 := 0#32
  let v97 : BitVec 1 := Scalar.cmpi .slt v93 c0_i32_60
  let v98 : BitVec 1 := Scalar.xori v96 v97
  let c0_i32_58 : BitVec 32 := 0#32
  let v95 : BitVec 1 := Scalar.cmpi .ne v94 c0_i32_58
  let v99 : BitVec 1 := Scalar.andi v98 v95
  let v100 : BitVec 32 := Scalar.addi v94 v93
  let v101 : BitVec 32 := Scalar.select v99 v100 v94
  let c1_i32_649 : BitVec 32 := 1#32
  let v742 : BitVec 32 := Scalar.muli v101 c1_i32_649
  let v743 : BitVec 32 := Scalar.addi c0_i32_650 v742
  v743.toNat
def k0_dev17 (d0 : Dev nD) : Nat :=
  let c0_i32_710 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_34 : BitVec 32 := 1#32
  let v58 : BitVec 32 := Scalar.addi v2 c1_i32_34
  let c4_i32_35 : BitVec 32 := 4#32
  let c0_i32_36 : BitVec 32 := 0#32
  let v59 : BitVec 1 := Scalar.cmpi .eq c4_i32_35 c0_i32_36
  let c1_i32_37 : BitVec 32 := 1#32
  let v60 : BitVec 32 := Scalar.select v59 c1_i32_37 c4_i32_35
  let v61 : BitVec 32 := Scalar.remsi v58 v60
  let c0_i32_39 : BitVec 32 := 0#32
  let v63 : BitVec 1 := Scalar.cmpi .slt v61 c0_i32_39
  let c0_i32_40 : BitVec 32 := 0#32
  let v64 : BitVec 1 := Scalar.cmpi .slt v60 c0_i32_40
  let v65 : BitVec 1 := Scalar.xori v63 v64
  let c0_i32_38 : BitVec 32 := 0#32
  let v62 : BitVec 1 := Scalar.cmpi .ne v61 c0_i32_38
  let v66 : BitVec 1 := Scalar.andi v65 v62
  let v67 : BitVec 32 := Scalar.addi v61 v60
  let v68 : BitVec 32 := Scalar.select v66 v67 v61
  let c1_i32_709 : BitVec 32 := 1#32
  let v804 : BitVec 32 := Scalar.muli v68 c1_i32_709
  let v805 : BitVec 32 := Scalar.addi c0_i32_710 v804
  v805.toNat
def k0_dev18 (d0 : Dev nD) : Nat :=
  let c0_i32_746 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32_61 : BitVec 32 := 4294967295#32
  let v102 : BitVec 32 := Scalar.addi v2 c_m1_i32_61
  let c4_i32_62 : BitVec 32 := 4#32
  let c0_i32_63 : BitVec 32 := 0#32
  let v103 : BitVec 1 := Scalar.cmpi .eq c4_i32_62 c0_i32_63
  let c1_i32_64 : BitVec 32 := 1#32
  let v104 : BitVec 32 := Scalar.select v103 c1_i32_64 c4_i32_62
  let v105 : BitVec 32 := Scalar.remsi v102 v104
  let c0_i32_66 : BitVec 32 := 0#32
  let v107 : BitVec 1 := Scalar.cmpi .slt v105 c0_i32_66
  let c0_i32_67 : BitVec 32 := 0#32
  let v108 : BitVec 1 := Scalar.cmpi .slt v104 c0_i32_67
  let v109 : BitVec 1 := Scalar.xori v107 v108
  let c0_i32_65 : BitVec 32 := 0#32
  let v106 : BitVec 1 := Scalar.cmpi .ne v105 c0_i32_65
  let v110 : BitVec 1 := Scalar.andi v109 v106
  let v111 : BitVec 32 := Scalar.addi v105 v104
  let v112 : BitVec 32 := Scalar.select v110 v111 v105
  let c1_i32_745 : BitVec 32 := 1#32
  let v830 : BitVec 32 := Scalar.muli v112 c1_i32_745
  let v831 : BitVec 32 := Scalar.addi c0_i32_746 v830
  v831.toNat
def k0_dev19 (d0 : Dev nD) : Nat :=
  let c0_i32_806 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v25 : BitVec 32 := Scalar.addi v2 c1_i32_13
  let c4_i32_14 : BitVec 32 := 4#32
  let c0_i32_15 : BitVec 32 := 0#32
  let v26 : BitVec 1 := Scalar.cmpi .eq c4_i32_14 c0_i32_15
  let c1_i32_16 : BitVec 32 := 1#32
  let v27 : BitVec 32 := Scalar.select v26 c1_i32_16 c4_i32_14
  let v28 : BitVec 32 := Scalar.remsi v25 v27
  let c0_i32_18 : BitVec 32 := 0#32
  let v30 : BitVec 1 := Scalar.cmpi .slt v28 c0_i32_18
  let c0_i32_19 : BitVec 32 := 0#32
  let v31 : BitVec 1 := Scalar.cmpi .slt v27 c0_i32_19
  let v32 : BitVec 1 := Scalar.xori v30 v31
  let c0_i32_17 : BitVec 32 := 0#32
  let v29 : BitVec 1 := Scalar.cmpi .ne v28 c0_i32_17
  let v33 : BitVec 1 := Scalar.andi v32 v29
  let v34 : BitVec 32 := Scalar.addi v28 v27
  let v35 : BitVec 32 := Scalar.select v33 v34 v28
  let c1_i32_805 : BitVec 32 := 1#32
  let v892 : BitVec 32 := Scalar.muli v35 c1_i32_805
  let v893 : BitVec 32 := Scalar.addi c0_i32_806 v892
  v893.toNat
def k0_dev20 (d0 : Dev nD) : Nat :=
  let c0_i32_842 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32 : BitVec 32 := 4294967295#32
  let v69 : BitVec 32 := Scalar.addi v2 c_m1_i32
  let c4_i32_41 : BitVec 32 := 4#32
  let c0_i32_42 : BitVec 32 := 0#32
  let v70 : BitVec 1 := Scalar.cmpi .eq c4_i32_41 c0_i32_42
  let c1_i32_43 : BitVec 32 := 1#32
  let v71 : BitVec 32 := Scalar.select v70 c1_i32_43 c4_i32_41
  let v72 : BitVec 32 := Scalar.remsi v69 v71
  let c0_i32_45 : BitVec 32 := 0#32
  let v74 : BitVec 1 := Scalar.cmpi .slt v72 c0_i32_45
  let c0_i32_46 : BitVec 32 := 0#32
  let v75 : BitVec 1 := Scalar.cmpi .slt v71 c0_i32_46
  let v76 : BitVec 1 := Scalar.xori v74 v75
  let c0_i32_44 : BitVec 32 := 0#32
  let v73 : BitVec 1 := Scalar.cmpi .ne v72 c0_i32_44
  let v77 : BitVec 1 := Scalar.andi v76 v73
  let v78 : BitVec 32 := Scalar.addi v72 v71
  let v79 : BitVec 32 := Scalar.select v77 v78 v72
  let c1_i32_841 : BitVec 32 := 1#32
  let v918 : BitVec 32 := Scalar.muli v79 c1_i32_841
  let v919 : BitVec 32 := Scalar.addi c0_i32_842 v918
  v919.toNat
def k0_dev21 (d0 : Dev nD) : Nat :=
  let c0_i32_901 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_20 : BitVec 32 := 1#32
  let v36 : BitVec 32 := Scalar.addi v2 c1_i32_20
  let c4_i32_21 : BitVec 32 := 4#32
  let c0_i32_22 : BitVec 32 := 0#32
  let v37 : BitVec 1 := Scalar.cmpi .eq c4_i32_21 c0_i32_22
  let c1_i32_23 : BitVec 32 := 1#32
  let v38 : BitVec 32 := Scalar.select v37 c1_i32_23 c4_i32_21
  let v39 : BitVec 32 := Scalar.remsi v36 v38
  let c0_i32_25 : BitVec 32 := 0#32
  let v41 : BitVec 1 := Scalar.cmpi .slt v39 c0_i32_25
  let c0_i32_26 : BitVec 32 := 0#32
  let v42 : BitVec 1 := Scalar.cmpi .slt v38 c0_i32_26
  let v43 : BitVec 1 := Scalar.xori v41 v42
  let c0_i32_24 : BitVec 32 := 0#32
  let v40 : BitVec 1 := Scalar.cmpi .ne v39 c0_i32_24
  let v44 : BitVec 1 := Scalar.andi v43 v40
  let v45 : BitVec 32 := Scalar.addi v39 v38
  let v46 : BitVec 32 := Scalar.select v44 v45 v39
  let c1_i32_900 : BitVec 32 := 1#32
  let v980 : BitVec 32 := Scalar.muli v46 c1_i32_900
  let v981 : BitVec 32 := Scalar.addi c0_i32_901 v980
  v981.toNat
def k0_dev22 (d0 : Dev nD) : Nat :=
  let c0_i32_937 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32_47 : BitVec 32 := 4294967295#32
  let v80 : BitVec 32 := Scalar.addi v2 c_m1_i32_47
  let c4_i32_48 : BitVec 32 := 4#32
  let c0_i32_49 : BitVec 32 := 0#32
  let v81 : BitVec 1 := Scalar.cmpi .eq c4_i32_48 c0_i32_49
  let c1_i32_50 : BitVec 32 := 1#32
  let v82 : BitVec 32 := Scalar.select v81 c1_i32_50 c4_i32_48
  let v83 : BitVec 32 := Scalar.remsi v80 v82
  let c0_i32_52 : BitVec 32 := 0#32
  let v85 : BitVec 1 := Scalar.cmpi .slt v83 c0_i32_52
  let c0_i32_53 : BitVec 32 := 0#32
  let v86 : BitVec 1 := Scalar.cmpi .slt v82 c0_i32_53
  let v87 : BitVec 1 := Scalar.xori v85 v86
  let c0_i32_51 : BitVec 32 := 0#32
  let v84 : BitVec 1 := Scalar.cmpi .ne v83 c0_i32_51
  let v88 : BitVec 1 := Scalar.andi v87 v84
  let v89 : BitVec 32 := Scalar.addi v83 v82
  let v90 : BitVec 32 := Scalar.select v88 v89 v83
  let c1_i32_936 : BitVec 32 := 1#32
  let v1006 : BitVec 32 := Scalar.muli v90 c1_i32_936
  let v1007 : BitVec 32 := Scalar.addi c0_i32_937 v1006
  v1007.toNat
def k0_dev23 (d0 : Dev nD) : Nat :=
  let c0_i32_997 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_27 : BitVec 32 := 1#32
  let v47 : BitVec 32 := Scalar.addi v2 c1_i32_27
  let c4_i32_28 : BitVec 32 := 4#32
  let c0_i32_29 : BitVec 32 := 0#32
  let v48 : BitVec 1 := Scalar.cmpi .eq c4_i32_28 c0_i32_29
  let c1_i32_30 : BitVec 32 := 1#32
  let v49 : BitVec 32 := Scalar.select v48 c1_i32_30 c4_i32_28
  let v50 : BitVec 32 := Scalar.remsi v47 v49
  let c0_i32_32 : BitVec 32 := 0#32
  let v52 : BitVec 1 := Scalar.cmpi .slt v50 c0_i32_32
  let c0_i32_33 : BitVec 32 := 0#32
  let v53 : BitVec 1 := Scalar.cmpi .slt v49 c0_i32_33
  let v54 : BitVec 1 := Scalar.xori v52 v53
  let c0_i32_31 : BitVec 32 := 0#32
  let v51 : BitVec 1 := Scalar.cmpi .ne v50 c0_i32_31
  let v55 : BitVec 1 := Scalar.andi v54 v51
  let v56 : BitVec 32 := Scalar.addi v50 v49
  let v57 : BitVec 32 := Scalar.select v55 v56 v50
  let c1_i32_996 : BitVec 32 := 1#32
  let v1068 : BitVec 32 := Scalar.muli v57 c1_i32_996
  let v1069 : BitVec 32 := Scalar.addi c0_i32_997 v1068
  v1069.toNat
def k0_dev24 (d0 : Dev nD) : Nat :=
  let c0_i32_1033 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32_54 : BitVec 32 := 4294967295#32
  let v91 : BitVec 32 := Scalar.addi v2 c_m1_i32_54
  let c4_i32_55 : BitVec 32 := 4#32
  let c0_i32_56 : BitVec 32 := 0#32
  let v92 : BitVec 1 := Scalar.cmpi .eq c4_i32_55 c0_i32_56
  let c1_i32_57 : BitVec 32 := 1#32
  let v93 : BitVec 32 := Scalar.select v92 c1_i32_57 c4_i32_55
  let v94 : BitVec 32 := Scalar.remsi v91 v93
  let c0_i32_59 : BitVec 32 := 0#32
  let v96 : BitVec 1 := Scalar.cmpi .slt v94 c0_i32_59
  let c0_i32_60 : BitVec 32 := 0#32
  let v97 : BitVec 1 := Scalar.cmpi .slt v93 c0_i32_60
  let v98 : BitVec 1 := Scalar.xori v96 v97
  let c0_i32_58 : BitVec 32 := 0#32
  let v95 : BitVec 1 := Scalar.cmpi .ne v94 c0_i32_58
  let v99 : BitVec 1 := Scalar.andi v98 v95
  let v100 : BitVec 32 := Scalar.addi v94 v93
  let v101 : BitVec 32 := Scalar.select v99 v100 v94
  let c1_i32_1032 : BitVec 32 := 1#32
  let v1094 : BitVec 32 := Scalar.muli v101 c1_i32_1032
  let v1095 : BitVec 32 := Scalar.addi c0_i32_1033 v1094
  v1095.toNat
def k0_dev25 (d0 : Dev nD) : Nat :=
  let c0_i32_1093 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_34 : BitVec 32 := 1#32
  let v58 : BitVec 32 := Scalar.addi v2 c1_i32_34
  let c4_i32_35 : BitVec 32 := 4#32
  let c0_i32_36 : BitVec 32 := 0#32
  let v59 : BitVec 1 := Scalar.cmpi .eq c4_i32_35 c0_i32_36
  let c1_i32_37 : BitVec 32 := 1#32
  let v60 : BitVec 32 := Scalar.select v59 c1_i32_37 c4_i32_35
  let v61 : BitVec 32 := Scalar.remsi v58 v60
  let c0_i32_39 : BitVec 32 := 0#32
  let v63 : BitVec 1 := Scalar.cmpi .slt v61 c0_i32_39
  let c0_i32_40 : BitVec 32 := 0#32
  let v64 : BitVec 1 := Scalar.cmpi .slt v60 c0_i32_40
  let v65 : BitVec 1 := Scalar.xori v63 v64
  let c0_i32_38 : BitVec 32 := 0#32
  let v62 : BitVec 1 := Scalar.cmpi .ne v61 c0_i32_38
  let v66 : BitVec 1 := Scalar.andi v65 v62
  let v67 : BitVec 32 := Scalar.addi v61 v60
  let v68 : BitVec 32 := Scalar.select v66 v67 v61
  let c1_i32_1092 : BitVec 32 := 1#32
  let v1156 : BitVec 32 := Scalar.muli v68 c1_i32_1092
  let v1157 : BitVec 32 := Scalar.addi c0_i32_1093 v1156
  v1157.toNat
def k0_dev26 (d0 : Dev nD) : Nat :=
  let c0_i32_1129 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32_61 : BitVec 32 := 4294967295#32
  let v102 : BitVec 32 := Scalar.addi v2 c_m1_i32_61
  let c4_i32_62 : BitVec 32 := 4#32
  let c0_i32_63 : BitVec 32 := 0#32
  let v103 : BitVec 1 := Scalar.cmpi .eq c4_i32_62 c0_i32_63
  let c1_i32_64 : BitVec 32 := 1#32
  let v104 : BitVec 32 := Scalar.select v103 c1_i32_64 c4_i32_62
  let v105 : BitVec 32 := Scalar.remsi v102 v104
  let c0_i32_66 : BitVec 32 := 0#32
  let v107 : BitVec 1 := Scalar.cmpi .slt v105 c0_i32_66
  let c0_i32_67 : BitVec 32 := 0#32
  let v108 : BitVec 1 := Scalar.cmpi .slt v104 c0_i32_67
  let v109 : BitVec 1 := Scalar.xori v107 v108
  let c0_i32_65 : BitVec 32 := 0#32
  let v106 : BitVec 1 := Scalar.cmpi .ne v105 c0_i32_65
  let v110 : BitVec 1 := Scalar.andi v109 v106
  let v111 : BitVec 32 := Scalar.addi v105 v104
  let v112 : BitVec 32 := Scalar.select v110 v111 v105
  let c1_i32_1128 : BitVec 32 := 1#32
  let v1182 : BitVec 32 := Scalar.muli v112 c1_i32_1128
  let v1183 : BitVec 32 := Scalar.addi c0_i32_1129 v1182
  v1183.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_1176 : BitVec 32 := 512#32
  let v1240 : BitVec 32 := Scalar.muli v2 c512_i32_1176
  let v1250 : Index := Scalar.indexCast v1240
  let c0_1180 : Index := 0#32
  ![v1250.toNat, 0]
def k0_off3 (d0 : Dev nD) (c0_i32_1181 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1252 : BitVec 32 := Scalar.subi v2 c0_i32_1181
  let c4_i32_1182 : BitVec 32 := 4#32
  let c0_i32_1183 : BitVec 32 := 0#32
  let v1253 : BitVec 1 := Scalar.cmpi .eq c4_i32_1182 c0_i32_1183
  let c1_i32_1184 : BitVec 32 := 1#32
  let v1254 : BitVec 32 := Scalar.select v1253 c1_i32_1184 c4_i32_1182
  let v1255 : BitVec 32 := Scalar.remsi v1252 v1254
  let c0_i32_1186 : BitVec 32 := 0#32
  let v1257 : BitVec 1 := Scalar.cmpi .slt v1255 c0_i32_1186
  let c0_i32_1187 : BitVec 32 := 0#32
  let v1258 : BitVec 1 := Scalar.cmpi .slt v1254 c0_i32_1187
  let v1259 : BitVec 1 := Scalar.xori v1257 v1258
  let c0_i32_1185 : BitVec 32 := 0#32
  let v1256 : BitVec 1 := Scalar.cmpi .ne v1255 c0_i32_1185
  let v1260 : BitVec 1 := Scalar.andi v1259 v1256
  let v1261 : BitVec 32 := Scalar.addi v1255 v1254
  let v1262 : BitVec 32 := Scalar.select v1260 v1261 v1255
  let c512_i32_1188 : BitVec 32 := 512#32
  let v1263 : BitVec 32 := Scalar.muli v1262 c512_i32_1188
  let c0_i32_1195 : BitVec 32 := 0#32
  ![v1263.toNat, 0]
def k0_dev27 (d0 : Dev nD) : Nat :=
  let c0_i32_1194 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v25 : BitVec 32 := Scalar.addi v2 c1_i32_13
  let c4_i32_14 : BitVec 32 := 4#32
  let c0_i32_15 : BitVec 32 := 0#32
  let v26 : BitVec 1 := Scalar.cmpi .eq c4_i32_14 c0_i32_15
  let c1_i32_16 : BitVec 32 := 1#32
  let v27 : BitVec 32 := Scalar.select v26 c1_i32_16 c4_i32_14
  let v28 : BitVec 32 := Scalar.remsi v25 v27
  let c0_i32_18 : BitVec 32 := 0#32
  let v30 : BitVec 1 := Scalar.cmpi .slt v28 c0_i32_18
  let c0_i32_19 : BitVec 32 := 0#32
  let v31 : BitVec 1 := Scalar.cmpi .slt v27 c0_i32_19
  let v32 : BitVec 1 := Scalar.xori v30 v31
  let c0_i32_17 : BitVec 32 := 0#32
  let v29 : BitVec 1 := Scalar.cmpi .ne v28 c0_i32_17
  let v33 : BitVec 1 := Scalar.andi v32 v29
  let v34 : BitVec 32 := Scalar.addi v28 v27
  let v35 : BitVec 32 := Scalar.select v33 v34 v28
  let c1_i32_1193 : BitVec 32 := 1#32
  let v1264 : BitVec 32 := Scalar.muli v35 c1_i32_1193
  let v1265 : BitVec 32 := Scalar.addi c0_i32_1194 v1264
  v1265.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_1215 : BitVec 32 := 512#32
  let v1284 : BitVec 32 := Scalar.muli v2 c512_i32_1215
  let v1294 : Index := Scalar.indexCast v1284
  let c1024_1219 : Index := 1024#32
  ![v1294.toNat, 1024]
def k0_off5 (d0 : Dev nD) (c0_i32_1220 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1296 : BitVec 32 := Scalar.subi v2 c0_i32_1220
  let c4_i32_1221 : BitVec 32 := 4#32
  let c0_i32_1222 : BitVec 32 := 0#32
  let v1297 : BitVec 1 := Scalar.cmpi .eq c4_i32_1221 c0_i32_1222
  let c1_i32_1223 : BitVec 32 := 1#32
  let v1298 : BitVec 32 := Scalar.select v1297 c1_i32_1223 c4_i32_1221
  let v1299 : BitVec 32 := Scalar.remsi v1296 v1298
  let c0_i32_1225 : BitVec 32 := 0#32
  let v1301 : BitVec 1 := Scalar.cmpi .slt v1299 c0_i32_1225
  let c0_i32_1226 : BitVec 32 := 0#32
  let v1302 : BitVec 1 := Scalar.cmpi .slt v1298 c0_i32_1226
  let v1303 : BitVec 1 := Scalar.xori v1301 v1302
  let c0_i32_1224 : BitVec 32 := 0#32
  let v1300 : BitVec 1 := Scalar.cmpi .ne v1299 c0_i32_1224
  let v1304 : BitVec 1 := Scalar.andi v1303 v1300
  let v1305 : BitVec 32 := Scalar.addi v1299 v1298
  let v1306 : BitVec 32 := Scalar.select v1304 v1305 v1299
  let c512_i32_1227 : BitVec 32 := 512#32
  let v1307 : BitVec 32 := Scalar.muli v1306 c512_i32_1227
  let c1024_i32 : BitVec 32 := 1024#32
  ![v1307.toNat, 1024]
def k0_off5_at (r : Fin 3) : BitVec 32 :=
  if r.val < 1 then
    0#32
  else
    if r.val < 2 then
      4294967295#32
    else
      4294967294#32
def k0_dev28 (d0 : Dev nD) : Nat :=
  let c0_i32_1233 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32 : BitVec 32 := 4294967295#32
  let v69 : BitVec 32 := Scalar.addi v2 c_m1_i32
  let c4_i32_41 : BitVec 32 := 4#32
  let c0_i32_42 : BitVec 32 := 0#32
  let v70 : BitVec 1 := Scalar.cmpi .eq c4_i32_41 c0_i32_42
  let c1_i32_43 : BitVec 32 := 1#32
  let v71 : BitVec 32 := Scalar.select v70 c1_i32_43 c4_i32_41
  let v72 : BitVec 32 := Scalar.remsi v69 v71
  let c0_i32_45 : BitVec 32 := 0#32
  let v74 : BitVec 1 := Scalar.cmpi .slt v72 c0_i32_45
  let c0_i32_46 : BitVec 32 := 0#32
  let v75 : BitVec 1 := Scalar.cmpi .slt v71 c0_i32_46
  let v76 : BitVec 1 := Scalar.xori v74 v75
  let c0_i32_44 : BitVec 32 := 0#32
  let v73 : BitVec 1 := Scalar.cmpi .ne v72 c0_i32_44
  let v77 : BitVec 1 := Scalar.andi v76 v73
  let v78 : BitVec 32 := Scalar.addi v72 v71
  let v79 : BitVec 32 := Scalar.select v77 v78 v72
  let c1_i32_1232 : BitVec 32 := 1#32
  let v1308 : BitVec 32 := Scalar.muli v79 c1_i32_1232
  let v1309 : BitVec 32 := Scalar.addi c0_i32_1233 v1308
  v1309.toNat
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_1253 : BitVec 32 := 512#32
  let v1328 : BitVec 32 := Scalar.muli v2 c512_i32_1253
  let v1338 : Index := Scalar.indexCast v1328
  let c256_1257 : Index := 256#32
  ![v1338.toNat, 256]
def k0_off7 (d0 : Dev nD) (c0_i32_1258 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1340 : BitVec 32 := Scalar.subi v2 c0_i32_1258
  let c4_i32_1259 : BitVec 32 := 4#32
  let c0_i32_1260 : BitVec 32 := 0#32
  let v1341 : BitVec 1 := Scalar.cmpi .eq c4_i32_1259 c0_i32_1260
  let c1_i32_1261 : BitVec 32 := 1#32
  let v1342 : BitVec 32 := Scalar.select v1341 c1_i32_1261 c4_i32_1259
  let v1343 : BitVec 32 := Scalar.remsi v1340 v1342
  let c0_i32_1263 : BitVec 32 := 0#32
  let v1345 : BitVec 1 := Scalar.cmpi .slt v1343 c0_i32_1263
  let c0_i32_1264 : BitVec 32 := 0#32
  let v1346 : BitVec 1 := Scalar.cmpi .slt v1342 c0_i32_1264
  let v1347 : BitVec 1 := Scalar.xori v1345 v1346
  let c0_i32_1262 : BitVec 32 := 0#32
  let v1344 : BitVec 1 := Scalar.cmpi .ne v1343 c0_i32_1262
  let v1348 : BitVec 1 := Scalar.andi v1347 v1344
  let v1349 : BitVec 32 := Scalar.addi v1343 v1342
  let v1350 : BitVec 32 := Scalar.select v1348 v1349 v1343
  let c512_i32_1265 : BitVec 32 := 512#32
  let v1351 : BitVec 32 := Scalar.muli v1350 c512_i32_1265
  let c256_i32 : BitVec 32 := 256#32
  ![v1351.toNat, 256]
def k0_dev29 (d0 : Dev nD) : Nat :=
  let c0_i32_1271 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_20 : BitVec 32 := 1#32
  let v36 : BitVec 32 := Scalar.addi v2 c1_i32_20
  let c4_i32_21 : BitVec 32 := 4#32
  let c0_i32_22 : BitVec 32 := 0#32
  let v37 : BitVec 1 := Scalar.cmpi .eq c4_i32_21 c0_i32_22
  let c1_i32_23 : BitVec 32 := 1#32
  let v38 : BitVec 32 := Scalar.select v37 c1_i32_23 c4_i32_21
  let v39 : BitVec 32 := Scalar.remsi v36 v38
  let c0_i32_25 : BitVec 32 := 0#32
  let v41 : BitVec 1 := Scalar.cmpi .slt v39 c0_i32_25
  let c0_i32_26 : BitVec 32 := 0#32
  let v42 : BitVec 1 := Scalar.cmpi .slt v38 c0_i32_26
  let v43 : BitVec 1 := Scalar.xori v41 v42
  let c0_i32_24 : BitVec 32 := 0#32
  let v40 : BitVec 1 := Scalar.cmpi .ne v39 c0_i32_24
  let v44 : BitVec 1 := Scalar.andi v43 v40
  let v45 : BitVec 32 := Scalar.addi v39 v38
  let v46 : BitVec 32 := Scalar.select v44 v45 v39
  let c1_i32_1270 : BitVec 32 := 1#32
  let v1352 : BitVec 32 := Scalar.muli v46 c1_i32_1270
  let v1353 : BitVec 32 := Scalar.addi c0_i32_1271 v1352
  v1353.toNat
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_1291 : BitVec 32 := 512#32
  let v1372 : BitVec 32 := Scalar.muli v2 c512_i32_1291
  let v1382 : Index := Scalar.indexCast v1372
  let c1280_1295 : Index := 1280#32
  ![v1382.toNat, 1280]
def k0_off9 (d0 : Dev nD) (c0_i32_1296 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1384 : BitVec 32 := Scalar.subi v2 c0_i32_1296
  let c4_i32_1297 : BitVec 32 := 4#32
  let c0_i32_1298 : BitVec 32 := 0#32
  let v1385 : BitVec 1 := Scalar.cmpi .eq c4_i32_1297 c0_i32_1298
  let c1_i32_1299 : BitVec 32 := 1#32
  let v1386 : BitVec 32 := Scalar.select v1385 c1_i32_1299 c4_i32_1297
  let v1387 : BitVec 32 := Scalar.remsi v1384 v1386
  let c0_i32_1301 : BitVec 32 := 0#32
  let v1389 : BitVec 1 := Scalar.cmpi .slt v1387 c0_i32_1301
  let c0_i32_1302 : BitVec 32 := 0#32
  let v1390 : BitVec 1 := Scalar.cmpi .slt v1386 c0_i32_1302
  let v1391 : BitVec 1 := Scalar.xori v1389 v1390
  let c0_i32_1300 : BitVec 32 := 0#32
  let v1388 : BitVec 1 := Scalar.cmpi .ne v1387 c0_i32_1300
  let v1392 : BitVec 1 := Scalar.andi v1391 v1388
  let v1393 : BitVec 32 := Scalar.addi v1387 v1386
  let v1394 : BitVec 32 := Scalar.select v1392 v1393 v1387
  let c512_i32_1303 : BitVec 32 := 512#32
  let v1395 : BitVec 32 := Scalar.muli v1394 c512_i32_1303
  let c1280_i32 : BitVec 32 := 1280#32
  ![v1395.toNat, 1280]
def k0_off9_at (r : Fin 3) : BitVec 32 :=
  if r.val < 1 then
    0#32
  else
    if r.val < 2 then
      4294967295#32
    else
      4294967294#32
def k0_dev30 (d0 : Dev nD) : Nat :=
  let c0_i32_1309 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32_47 : BitVec 32 := 4294967295#32
  let v80 : BitVec 32 := Scalar.addi v2 c_m1_i32_47
  let c4_i32_48 : BitVec 32 := 4#32
  let c0_i32_49 : BitVec 32 := 0#32
  let v81 : BitVec 1 := Scalar.cmpi .eq c4_i32_48 c0_i32_49
  let c1_i32_50 : BitVec 32 := 1#32
  let v82 : BitVec 32 := Scalar.select v81 c1_i32_50 c4_i32_48
  let v83 : BitVec 32 := Scalar.remsi v80 v82
  let c0_i32_52 : BitVec 32 := 0#32
  let v85 : BitVec 1 := Scalar.cmpi .slt v83 c0_i32_52
  let c0_i32_53 : BitVec 32 := 0#32
  let v86 : BitVec 1 := Scalar.cmpi .slt v82 c0_i32_53
  let v87 : BitVec 1 := Scalar.xori v85 v86
  let c0_i32_51 : BitVec 32 := 0#32
  let v84 : BitVec 1 := Scalar.cmpi .ne v83 c0_i32_51
  let v88 : BitVec 1 := Scalar.andi v87 v84
  let v89 : BitVec 32 := Scalar.addi v83 v82
  let v90 : BitVec 32 := Scalar.select v88 v89 v83
  let c1_i32_1308 : BitVec 32 := 1#32
  let v1396 : BitVec 32 := Scalar.muli v90 c1_i32_1308
  let v1397 : BitVec 32 := Scalar.addi c0_i32_1309 v1396
  v1397.toNat
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_1329 : BitVec 32 := 512#32
  let v1416 : BitVec 32 := Scalar.muli v2 c512_i32_1329
  let v1426 : Index := Scalar.indexCast v1416
  let c512_1333 : Index := 512#32
  ![v1426.toNat, 512]
def k0_off11 (d0 : Dev nD) (c0_i32_1334 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1428 : BitVec 32 := Scalar.subi v2 c0_i32_1334
  let c4_i32_1335 : BitVec 32 := 4#32
  let c0_i32_1336 : BitVec 32 := 0#32
  let v1429 : BitVec 1 := Scalar.cmpi .eq c4_i32_1335 c0_i32_1336
  let c1_i32_1337 : BitVec 32 := 1#32
  let v1430 : BitVec 32 := Scalar.select v1429 c1_i32_1337 c4_i32_1335
  let v1431 : BitVec 32 := Scalar.remsi v1428 v1430
  let c0_i32_1339 : BitVec 32 := 0#32
  let v1433 : BitVec 1 := Scalar.cmpi .slt v1431 c0_i32_1339
  let c0_i32_1340 : BitVec 32 := 0#32
  let v1434 : BitVec 1 := Scalar.cmpi .slt v1430 c0_i32_1340
  let v1435 : BitVec 1 := Scalar.xori v1433 v1434
  let c0_i32_1338 : BitVec 32 := 0#32
  let v1432 : BitVec 1 := Scalar.cmpi .ne v1431 c0_i32_1338
  let v1436 : BitVec 1 := Scalar.andi v1435 v1432
  let v1437 : BitVec 32 := Scalar.addi v1431 v1430
  let v1438 : BitVec 32 := Scalar.select v1436 v1437 v1431
  let c512_i32_1341 : BitVec 32 := 512#32
  let v1439 : BitVec 32 := Scalar.muli v1438 c512_i32_1341
  let c512_i32_1348 : BitVec 32 := 512#32
  ![v1439.toNat, 512]
def k0_dev31 (d0 : Dev nD) : Nat :=
  let c0_i32_1347 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_27 : BitVec 32 := 1#32
  let v47 : BitVec 32 := Scalar.addi v2 c1_i32_27
  let c4_i32_28 : BitVec 32 := 4#32
  let c0_i32_29 : BitVec 32 := 0#32
  let v48 : BitVec 1 := Scalar.cmpi .eq c4_i32_28 c0_i32_29
  let c1_i32_30 : BitVec 32 := 1#32
  let v49 : BitVec 32 := Scalar.select v48 c1_i32_30 c4_i32_28
  let v50 : BitVec 32 := Scalar.remsi v47 v49
  let c0_i32_32 : BitVec 32 := 0#32
  let v52 : BitVec 1 := Scalar.cmpi .slt v50 c0_i32_32
  let c0_i32_33 : BitVec 32 := 0#32
  let v53 : BitVec 1 := Scalar.cmpi .slt v49 c0_i32_33
  let v54 : BitVec 1 := Scalar.xori v52 v53
  let c0_i32_31 : BitVec 32 := 0#32
  let v51 : BitVec 1 := Scalar.cmpi .ne v50 c0_i32_31
  let v55 : BitVec 1 := Scalar.andi v54 v51
  let v56 : BitVec 32 := Scalar.addi v50 v49
  let v57 : BitVec 32 := Scalar.select v55 v56 v50
  let c1_i32_1346 : BitVec 32 := 1#32
  let v1440 : BitVec 32 := Scalar.muli v57 c1_i32_1346
  let v1441 : BitVec 32 := Scalar.addi c0_i32_1347 v1440
  v1441.toNat
def k0_off12 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_1368 : BitVec 32 := 512#32
  let v1460 : BitVec 32 := Scalar.muli v2 c512_i32_1368
  let v1470 : Index := Scalar.indexCast v1460
  let c1536_1372 : Index := 1536#32
  ![v1470.toNat, 1536]
def k0_off13 (d0 : Dev nD) (c0_i32_1373 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1472 : BitVec 32 := Scalar.subi v2 c0_i32_1373
  let c4_i32_1374 : BitVec 32 := 4#32
  let c0_i32_1375 : BitVec 32 := 0#32
  let v1473 : BitVec 1 := Scalar.cmpi .eq c4_i32_1374 c0_i32_1375
  let c1_i32_1376 : BitVec 32 := 1#32
  let v1474 : BitVec 32 := Scalar.select v1473 c1_i32_1376 c4_i32_1374
  let v1475 : BitVec 32 := Scalar.remsi v1472 v1474
  let c0_i32_1378 : BitVec 32 := 0#32
  let v1477 : BitVec 1 := Scalar.cmpi .slt v1475 c0_i32_1378
  let c0_i32_1379 : BitVec 32 := 0#32
  let v1478 : BitVec 1 := Scalar.cmpi .slt v1474 c0_i32_1379
  let v1479 : BitVec 1 := Scalar.xori v1477 v1478
  let c0_i32_1377 : BitVec 32 := 0#32
  let v1476 : BitVec 1 := Scalar.cmpi .ne v1475 c0_i32_1377
  let v1480 : BitVec 1 := Scalar.andi v1479 v1476
  let v1481 : BitVec 32 := Scalar.addi v1475 v1474
  let v1482 : BitVec 32 := Scalar.select v1480 v1481 v1475
  let c512_i32_1380 : BitVec 32 := 512#32
  let v1483 : BitVec 32 := Scalar.muli v1482 c512_i32_1380
  let c1536_i32 : BitVec 32 := 1536#32
  ![v1483.toNat, 1536]
def k0_off13_at (r : Fin 3) : BitVec 32 :=
  if r.val < 1 then
    0#32
  else
    if r.val < 2 then
      4294967295#32
    else
      4294967294#32
def k0_dev32 (d0 : Dev nD) : Nat :=
  let c0_i32_1386 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32_54 : BitVec 32 := 4294967295#32
  let v91 : BitVec 32 := Scalar.addi v2 c_m1_i32_54
  let c4_i32_55 : BitVec 32 := 4#32
  let c0_i32_56 : BitVec 32 := 0#32
  let v92 : BitVec 1 := Scalar.cmpi .eq c4_i32_55 c0_i32_56
  let c1_i32_57 : BitVec 32 := 1#32
  let v93 : BitVec 32 := Scalar.select v92 c1_i32_57 c4_i32_55
  let v94 : BitVec 32 := Scalar.remsi v91 v93
  let c0_i32_59 : BitVec 32 := 0#32
  let v96 : BitVec 1 := Scalar.cmpi .slt v94 c0_i32_59
  let c0_i32_60 : BitVec 32 := 0#32
  let v97 : BitVec 1 := Scalar.cmpi .slt v93 c0_i32_60
  let v98 : BitVec 1 := Scalar.xori v96 v97
  let c0_i32_58 : BitVec 32 := 0#32
  let v95 : BitVec 1 := Scalar.cmpi .ne v94 c0_i32_58
  let v99 : BitVec 1 := Scalar.andi v98 v95
  let v100 : BitVec 32 := Scalar.addi v94 v93
  let v101 : BitVec 32 := Scalar.select v99 v100 v94
  let c1_i32_1385 : BitVec 32 := 1#32
  let v1484 : BitVec 32 := Scalar.muli v101 c1_i32_1385
  let v1485 : BitVec 32 := Scalar.addi c0_i32_1386 v1484
  v1485.toNat
def k0_off14 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_1406 : BitVec 32 := 512#32
  let v1504 : BitVec 32 := Scalar.muli v2 c512_i32_1406
  let v1514 : Index := Scalar.indexCast v1504
  let c768_1410 : Index := 768#32
  ![v1514.toNat, 768]
def k0_off15 (d0 : Dev nD) (c0_i32_1411 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1516 : BitVec 32 := Scalar.subi v2 c0_i32_1411
  let c4_i32_1412 : BitVec 32 := 4#32
  let c0_i32_1413 : BitVec 32 := 0#32
  let v1517 : BitVec 1 := Scalar.cmpi .eq c4_i32_1412 c0_i32_1413
  let c1_i32_1414 : BitVec 32 := 1#32
  let v1518 : BitVec 32 := Scalar.select v1517 c1_i32_1414 c4_i32_1412
  let v1519 : BitVec 32 := Scalar.remsi v1516 v1518
  let c0_i32_1416 : BitVec 32 := 0#32
  let v1521 : BitVec 1 := Scalar.cmpi .slt v1519 c0_i32_1416
  let c0_i32_1417 : BitVec 32 := 0#32
  let v1522 : BitVec 1 := Scalar.cmpi .slt v1518 c0_i32_1417
  let v1523 : BitVec 1 := Scalar.xori v1521 v1522
  let c0_i32_1415 : BitVec 32 := 0#32
  let v1520 : BitVec 1 := Scalar.cmpi .ne v1519 c0_i32_1415
  let v1524 : BitVec 1 := Scalar.andi v1523 v1520
  let v1525 : BitVec 32 := Scalar.addi v1519 v1518
  let v1526 : BitVec 32 := Scalar.select v1524 v1525 v1519
  let c512_i32_1418 : BitVec 32 := 512#32
  let v1527 : BitVec 32 := Scalar.muli v1526 c512_i32_1418
  let c768_i32 : BitVec 32 := 768#32
  ![v1527.toNat, 768]
def k0_dev33 (d0 : Dev nD) : Nat :=
  let c0_i32_1424 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_34 : BitVec 32 := 1#32
  let v58 : BitVec 32 := Scalar.addi v2 c1_i32_34
  let c4_i32_35 : BitVec 32 := 4#32
  let c0_i32_36 : BitVec 32 := 0#32
  let v59 : BitVec 1 := Scalar.cmpi .eq c4_i32_35 c0_i32_36
  let c1_i32_37 : BitVec 32 := 1#32
  let v60 : BitVec 32 := Scalar.select v59 c1_i32_37 c4_i32_35
  let v61 : BitVec 32 := Scalar.remsi v58 v60
  let c0_i32_39 : BitVec 32 := 0#32
  let v63 : BitVec 1 := Scalar.cmpi .slt v61 c0_i32_39
  let c0_i32_40 : BitVec 32 := 0#32
  let v64 : BitVec 1 := Scalar.cmpi .slt v60 c0_i32_40
  let v65 : BitVec 1 := Scalar.xori v63 v64
  let c0_i32_38 : BitVec 32 := 0#32
  let v62 : BitVec 1 := Scalar.cmpi .ne v61 c0_i32_38
  let v66 : BitVec 1 := Scalar.andi v65 v62
  let v67 : BitVec 32 := Scalar.addi v61 v60
  let v68 : BitVec 32 := Scalar.select v66 v67 v61
  let c1_i32_1423 : BitVec 32 := 1#32
  let v1528 : BitVec 32 := Scalar.muli v68 c1_i32_1423
  let v1529 : BitVec 32 := Scalar.addi c0_i32_1424 v1528
  v1529.toNat
def k0_off16 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_1444 : BitVec 32 := 512#32
  let v1548 : BitVec 32 := Scalar.muli v2 c512_i32_1444
  let v1558 : Index := Scalar.indexCast v1548
  let c1792_1448 : Index := 1792#32
  ![v1558.toNat, 1792]
def k0_off17 (d0 : Dev nD) (c0_i32_1449 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1560 : BitVec 32 := Scalar.subi v2 c0_i32_1449
  let c4_i32_1450 : BitVec 32 := 4#32
  let c0_i32_1451 : BitVec 32 := 0#32
  let v1561 : BitVec 1 := Scalar.cmpi .eq c4_i32_1450 c0_i32_1451
  let c1_i32_1452 : BitVec 32 := 1#32
  let v1562 : BitVec 32 := Scalar.select v1561 c1_i32_1452 c4_i32_1450
  let v1563 : BitVec 32 := Scalar.remsi v1560 v1562
  let c0_i32_1454 : BitVec 32 := 0#32
  let v1565 : BitVec 1 := Scalar.cmpi .slt v1563 c0_i32_1454
  let c0_i32_1455 : BitVec 32 := 0#32
  let v1566 : BitVec 1 := Scalar.cmpi .slt v1562 c0_i32_1455
  let v1567 : BitVec 1 := Scalar.xori v1565 v1566
  let c0_i32_1453 : BitVec 32 := 0#32
  let v1564 : BitVec 1 := Scalar.cmpi .ne v1563 c0_i32_1453
  let v1568 : BitVec 1 := Scalar.andi v1567 v1564
  let v1569 : BitVec 32 := Scalar.addi v1563 v1562
  let v1570 : BitVec 32 := Scalar.select v1568 v1569 v1563
  let c512_i32_1456 : BitVec 32 := 512#32
  let v1571 : BitVec 32 := Scalar.muli v1570 c512_i32_1456
  let c1792_i32 : BitVec 32 := 1792#32
  ![v1571.toNat, 1792]
def k0_off17_at (r : Fin 3) : BitVec 32 :=
  if r.val < 1 then
    0#32
  else
    if r.val < 2 then
      4294967295#32
    else
      4294967294#32
def k0_dev34 (d0 : Dev nD) : Nat :=
  let c0_i32_1462 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32_61 : BitVec 32 := 4294967295#32
  let v102 : BitVec 32 := Scalar.addi v2 c_m1_i32_61
  let c4_i32_62 : BitVec 32 := 4#32
  let c0_i32_63 : BitVec 32 := 0#32
  let v103 : BitVec 1 := Scalar.cmpi .eq c4_i32_62 c0_i32_63
  let c1_i32_64 : BitVec 32 := 1#32
  let v104 : BitVec 32 := Scalar.select v103 c1_i32_64 c4_i32_62
  let v105 : BitVec 32 := Scalar.remsi v102 v104
  let c0_i32_66 : BitVec 32 := 0#32
  let v107 : BitVec 1 := Scalar.cmpi .slt v105 c0_i32_66
  let c0_i32_67 : BitVec 32 := 0#32
  let v108 : BitVec 1 := Scalar.cmpi .slt v104 c0_i32_67
  let v109 : BitVec 1 := Scalar.xori v107 v108
  let c0_i32_65 : BitVec 32 := 0#32
  let v106 : BitVec 1 := Scalar.cmpi .ne v105 c0_i32_65
  let v110 : BitVec 1 := Scalar.andi v109 v106
  let v111 : BitVec 32 := Scalar.addi v105 v104
  let v112 : BitVec 32 := Scalar.select v110 v111 v105
  let c1_i32_1461 : BitVec 32 := 1#32
  let v1572 : BitVec 32 := Scalar.muli v112 c1_i32_1461
  let v1573 : BitVec 32 := Scalar.addi c0_i32_1462 v1572
  v1573.toNat
def k0_dev35 (d0 : Dev nD) : Nat :=
  let c0_i32_1485 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v25 : BitVec 32 := Scalar.addi v2 c1_i32_13
  let c4_i32_14 : BitVec 32 := 4#32
  let c0_i32_15 : BitVec 32 := 0#32
  let v26 : BitVec 1 := Scalar.cmpi .eq c4_i32_14 c0_i32_15
  let c1_i32_16 : BitVec 32 := 1#32
  let v27 : BitVec 32 := Scalar.select v26 c1_i32_16 c4_i32_14
  let v28 : BitVec 32 := Scalar.remsi v25 v27
  let c0_i32_18 : BitVec 32 := 0#32
  let v30 : BitVec 1 := Scalar.cmpi .slt v28 c0_i32_18
  let c0_i32_19 : BitVec 32 := 0#32
  let v31 : BitVec 1 := Scalar.cmpi .slt v27 c0_i32_19
  let v32 : BitVec 1 := Scalar.xori v30 v31
  let c0_i32_17 : BitVec 32 := 0#32
  let v29 : BitVec 1 := Scalar.cmpi .ne v28 c0_i32_17
  let v33 : BitVec 1 := Scalar.andi v32 v29
  let v34 : BitVec 32 := Scalar.addi v28 v27
  let v35 : BitVec 32 := Scalar.select v33 v34 v28
  let c1_i32_1484 : BitVec 32 := 1#32
  let v1598 : BitVec 32 := Scalar.muli v35 c1_i32_1484
  let v1599 : BitVec 32 := Scalar.addi c0_i32_1485 v1598
  v1599.toNat
def k0_dev36 (d0 : Dev nD) : Nat :=
  let c0_i32_1509 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32 : BitVec 32 := 4294967295#32
  let v69 : BitVec 32 := Scalar.addi v2 c_m1_i32
  let c4_i32_41 : BitVec 32 := 4#32
  let c0_i32_42 : BitVec 32 := 0#32
  let v70 : BitVec 1 := Scalar.cmpi .eq c4_i32_41 c0_i32_42
  let c1_i32_43 : BitVec 32 := 1#32
  let v71 : BitVec 32 := Scalar.select v70 c1_i32_43 c4_i32_41
  let v72 : BitVec 32 := Scalar.remsi v69 v71
  let c0_i32_45 : BitVec 32 := 0#32
  let v74 : BitVec 1 := Scalar.cmpi .slt v72 c0_i32_45
  let c0_i32_46 : BitVec 32 := 0#32
  let v75 : BitVec 1 := Scalar.cmpi .slt v71 c0_i32_46
  let v76 : BitVec 1 := Scalar.xori v74 v75
  let c0_i32_44 : BitVec 32 := 0#32
  let v73 : BitVec 1 := Scalar.cmpi .ne v72 c0_i32_44
  let v77 : BitVec 1 := Scalar.andi v76 v73
  let v78 : BitVec 32 := Scalar.addi v72 v71
  let v79 : BitVec 32 := Scalar.select v77 v78 v72
  let c1_i32_1508 : BitVec 32 := 1#32
  let v1624 : BitVec 32 := Scalar.muli v79 c1_i32_1508
  let v1625 : BitVec 32 := Scalar.addi c0_i32_1509 v1624
  v1625.toNat
def k0_dev37 (d0 : Dev nD) : Nat :=
  let c0_i32_1533 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_20 : BitVec 32 := 1#32
  let v36 : BitVec 32 := Scalar.addi v2 c1_i32_20
  let c4_i32_21 : BitVec 32 := 4#32
  let c0_i32_22 : BitVec 32 := 0#32
  let v37 : BitVec 1 := Scalar.cmpi .eq c4_i32_21 c0_i32_22
  let c1_i32_23 : BitVec 32 := 1#32
  let v38 : BitVec 32 := Scalar.select v37 c1_i32_23 c4_i32_21
  let v39 : BitVec 32 := Scalar.remsi v36 v38
  let c0_i32_25 : BitVec 32 := 0#32
  let v41 : BitVec 1 := Scalar.cmpi .slt v39 c0_i32_25
  let c0_i32_26 : BitVec 32 := 0#32
  let v42 : BitVec 1 := Scalar.cmpi .slt v38 c0_i32_26
  let v43 : BitVec 1 := Scalar.xori v41 v42
  let c0_i32_24 : BitVec 32 := 0#32
  let v40 : BitVec 1 := Scalar.cmpi .ne v39 c0_i32_24
  let v44 : BitVec 1 := Scalar.andi v43 v40
  let v45 : BitVec 32 := Scalar.addi v39 v38
  let v46 : BitVec 32 := Scalar.select v44 v45 v39
  let c1_i32_1532 : BitVec 32 := 1#32
  let v1650 : BitVec 32 := Scalar.muli v46 c1_i32_1532
  let v1651 : BitVec 32 := Scalar.addi c0_i32_1533 v1650
  v1651.toNat
def k0_dev38 (d0 : Dev nD) : Nat :=
  let c0_i32_1557 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32_47 : BitVec 32 := 4294967295#32
  let v80 : BitVec 32 := Scalar.addi v2 c_m1_i32_47
  let c4_i32_48 : BitVec 32 := 4#32
  let c0_i32_49 : BitVec 32 := 0#32
  let v81 : BitVec 1 := Scalar.cmpi .eq c4_i32_48 c0_i32_49
  let c1_i32_50 : BitVec 32 := 1#32
  let v82 : BitVec 32 := Scalar.select v81 c1_i32_50 c4_i32_48
  let v83 : BitVec 32 := Scalar.remsi v80 v82
  let c0_i32_52 : BitVec 32 := 0#32
  let v85 : BitVec 1 := Scalar.cmpi .slt v83 c0_i32_52
  let c0_i32_53 : BitVec 32 := 0#32
  let v86 : BitVec 1 := Scalar.cmpi .slt v82 c0_i32_53
  let v87 : BitVec 1 := Scalar.xori v85 v86
  let c0_i32_51 : BitVec 32 := 0#32
  let v84 : BitVec 1 := Scalar.cmpi .ne v83 c0_i32_51
  let v88 : BitVec 1 := Scalar.andi v87 v84
  let v89 : BitVec 32 := Scalar.addi v83 v82
  let v90 : BitVec 32 := Scalar.select v88 v89 v83
  let c1_i32_1556 : BitVec 32 := 1#32
  let v1676 : BitVec 32 := Scalar.muli v90 c1_i32_1556
  let v1677 : BitVec 32 := Scalar.addi c0_i32_1557 v1676
  v1677.toNat
def k0_dev39 (d0 : Dev nD) : Nat :=
  let c0_i32_1581 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_27 : BitVec 32 := 1#32
  let v47 : BitVec 32 := Scalar.addi v2 c1_i32_27
  let c4_i32_28 : BitVec 32 := 4#32
  let c0_i32_29 : BitVec 32 := 0#32
  let v48 : BitVec 1 := Scalar.cmpi .eq c4_i32_28 c0_i32_29
  let c1_i32_30 : BitVec 32 := 1#32
  let v49 : BitVec 32 := Scalar.select v48 c1_i32_30 c4_i32_28
  let v50 : BitVec 32 := Scalar.remsi v47 v49
  let c0_i32_32 : BitVec 32 := 0#32
  let v52 : BitVec 1 := Scalar.cmpi .slt v50 c0_i32_32
  let c0_i32_33 : BitVec 32 := 0#32
  let v53 : BitVec 1 := Scalar.cmpi .slt v49 c0_i32_33
  let v54 : BitVec 1 := Scalar.xori v52 v53
  let c0_i32_31 : BitVec 32 := 0#32
  let v51 : BitVec 1 := Scalar.cmpi .ne v50 c0_i32_31
  let v55 : BitVec 1 := Scalar.andi v54 v51
  let v56 : BitVec 32 := Scalar.addi v50 v49
  let v57 : BitVec 32 := Scalar.select v55 v56 v50
  let c1_i32_1580 : BitVec 32 := 1#32
  let v1702 : BitVec 32 := Scalar.muli v57 c1_i32_1580
  let v1703 : BitVec 32 := Scalar.addi c0_i32_1581 v1702
  v1703.toNat
def k0_dev40 (d0 : Dev nD) : Nat :=
  let c0_i32_1605 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32_54 : BitVec 32 := 4294967295#32
  let v91 : BitVec 32 := Scalar.addi v2 c_m1_i32_54
  let c4_i32_55 : BitVec 32 := 4#32
  let c0_i32_56 : BitVec 32 := 0#32
  let v92 : BitVec 1 := Scalar.cmpi .eq c4_i32_55 c0_i32_56
  let c1_i32_57 : BitVec 32 := 1#32
  let v93 : BitVec 32 := Scalar.select v92 c1_i32_57 c4_i32_55
  let v94 : BitVec 32 := Scalar.remsi v91 v93
  let c0_i32_59 : BitVec 32 := 0#32
  let v96 : BitVec 1 := Scalar.cmpi .slt v94 c0_i32_59
  let c0_i32_60 : BitVec 32 := 0#32
  let v97 : BitVec 1 := Scalar.cmpi .slt v93 c0_i32_60
  let v98 : BitVec 1 := Scalar.xori v96 v97
  let c0_i32_58 : BitVec 32 := 0#32
  let v95 : BitVec 1 := Scalar.cmpi .ne v94 c0_i32_58
  let v99 : BitVec 1 := Scalar.andi v98 v95
  let v100 : BitVec 32 := Scalar.addi v94 v93
  let v101 : BitVec 32 := Scalar.select v99 v100 v94
  let c1_i32_1604 : BitVec 32 := 1#32
  let v1728 : BitVec 32 := Scalar.muli v101 c1_i32_1604
  let v1729 : BitVec 32 := Scalar.addi c0_i32_1605 v1728
  v1729.toNat
def k0_dev41 (d0 : Dev nD) : Nat :=
  let c0_i32_1629 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_34 : BitVec 32 := 1#32
  let v58 : BitVec 32 := Scalar.addi v2 c1_i32_34
  let c4_i32_35 : BitVec 32 := 4#32
  let c0_i32_36 : BitVec 32 := 0#32
  let v59 : BitVec 1 := Scalar.cmpi .eq c4_i32_35 c0_i32_36
  let c1_i32_37 : BitVec 32 := 1#32
  let v60 : BitVec 32 := Scalar.select v59 c1_i32_37 c4_i32_35
  let v61 : BitVec 32 := Scalar.remsi v58 v60
  let c0_i32_39 : BitVec 32 := 0#32
  let v63 : BitVec 1 := Scalar.cmpi .slt v61 c0_i32_39
  let c0_i32_40 : BitVec 32 := 0#32
  let v64 : BitVec 1 := Scalar.cmpi .slt v60 c0_i32_40
  let v65 : BitVec 1 := Scalar.xori v63 v64
  let c0_i32_38 : BitVec 32 := 0#32
  let v62 : BitVec 1 := Scalar.cmpi .ne v61 c0_i32_38
  let v66 : BitVec 1 := Scalar.andi v65 v62
  let v67 : BitVec 32 := Scalar.addi v61 v60
  let v68 : BitVec 32 := Scalar.select v66 v67 v61
  let c1_i32_1628 : BitVec 32 := 1#32
  let v1754 : BitVec 32 := Scalar.muli v68 c1_i32_1628
  let v1755 : BitVec 32 := Scalar.addi c0_i32_1629 v1754
  v1755.toNat
def k0_dev42 (d0 : Dev nD) : Nat :=
  let c0_i32_1653 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32_61 : BitVec 32 := 4294967295#32
  let v102 : BitVec 32 := Scalar.addi v2 c_m1_i32_61
  let c4_i32_62 : BitVec 32 := 4#32
  let c0_i32_63 : BitVec 32 := 0#32
  let v103 : BitVec 1 := Scalar.cmpi .eq c4_i32_62 c0_i32_63
  let c1_i32_64 : BitVec 32 := 1#32
  let v104 : BitVec 32 := Scalar.select v103 c1_i32_64 c4_i32_62
  let v105 : BitVec 32 := Scalar.remsi v102 v104
  let c0_i32_66 : BitVec 32 := 0#32
  let v107 : BitVec 1 := Scalar.cmpi .slt v105 c0_i32_66
  let c0_i32_67 : BitVec 32 := 0#32
  let v108 : BitVec 1 := Scalar.cmpi .slt v104 c0_i32_67
  let v109 : BitVec 1 := Scalar.xori v107 v108
  let c0_i32_65 : BitVec 32 := 0#32
  let v106 : BitVec 1 := Scalar.cmpi .ne v105 c0_i32_65
  let v110 : BitVec 1 := Scalar.andi v109 v106
  let v111 : BitVec 32 := Scalar.addi v105 v104
  let v112 : BitVec 32 := Scalar.select v110 v111 v105
  let c1_i32_1652 : BitVec 32 := 1#32
  let v1780 : BitVec 32 := Scalar.muli v112 c1_i32_1652
  let v1781 : BitVec 32 := Scalar.addi c0_i32_1653 v1780
  v1781.toNat
def k0_dev43 (d0 : Dev nD) : Nat :=
  let c0_i32_1677 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v25 : BitVec 32 := Scalar.addi v2 c1_i32_13
  let c4_i32_14 : BitVec 32 := 4#32
  let c0_i32_15 : BitVec 32 := 0#32
  let v26 : BitVec 1 := Scalar.cmpi .eq c4_i32_14 c0_i32_15
  let c1_i32_16 : BitVec 32 := 1#32
  let v27 : BitVec 32 := Scalar.select v26 c1_i32_16 c4_i32_14
  let v28 : BitVec 32 := Scalar.remsi v25 v27
  let c0_i32_18 : BitVec 32 := 0#32
  let v30 : BitVec 1 := Scalar.cmpi .slt v28 c0_i32_18
  let c0_i32_19 : BitVec 32 := 0#32
  let v31 : BitVec 1 := Scalar.cmpi .slt v27 c0_i32_19
  let v32 : BitVec 1 := Scalar.xori v30 v31
  let c0_i32_17 : BitVec 32 := 0#32
  let v29 : BitVec 1 := Scalar.cmpi .ne v28 c0_i32_17
  let v33 : BitVec 1 := Scalar.andi v32 v29
  let v34 : BitVec 32 := Scalar.addi v28 v27
  let v35 : BitVec 32 := Scalar.select v33 v34 v28
  let c1_i32_1676 : BitVec 32 := 1#32
  let v1806 : BitVec 32 := Scalar.muli v35 c1_i32_1676
  let v1807 : BitVec 32 := Scalar.addi c0_i32_1677 v1806
  v1807.toNat
def k0_dev44 (d0 : Dev nD) : Nat :=
  let c0_i32_1701 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32 : BitVec 32 := 4294967295#32
  let v69 : BitVec 32 := Scalar.addi v2 c_m1_i32
  let c4_i32_41 : BitVec 32 := 4#32
  let c0_i32_42 : BitVec 32 := 0#32
  let v70 : BitVec 1 := Scalar.cmpi .eq c4_i32_41 c0_i32_42
  let c1_i32_43 : BitVec 32 := 1#32
  let v71 : BitVec 32 := Scalar.select v70 c1_i32_43 c4_i32_41
  let v72 : BitVec 32 := Scalar.remsi v69 v71
  let c0_i32_45 : BitVec 32 := 0#32
  let v74 : BitVec 1 := Scalar.cmpi .slt v72 c0_i32_45
  let c0_i32_46 : BitVec 32 := 0#32
  let v75 : BitVec 1 := Scalar.cmpi .slt v71 c0_i32_46
  let v76 : BitVec 1 := Scalar.xori v74 v75
  let c0_i32_44 : BitVec 32 := 0#32
  let v73 : BitVec 1 := Scalar.cmpi .ne v72 c0_i32_44
  let v77 : BitVec 1 := Scalar.andi v76 v73
  let v78 : BitVec 32 := Scalar.addi v72 v71
  let v79 : BitVec 32 := Scalar.select v77 v78 v72
  let c1_i32_1700 : BitVec 32 := 1#32
  let v1832 : BitVec 32 := Scalar.muli v79 c1_i32_1700
  let v1833 : BitVec 32 := Scalar.addi c0_i32_1701 v1832
  v1833.toNat
def k0_dev45 (d0 : Dev nD) : Nat :=
  let c0_i32_1725 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_20 : BitVec 32 := 1#32
  let v36 : BitVec 32 := Scalar.addi v2 c1_i32_20
  let c4_i32_21 : BitVec 32 := 4#32
  let c0_i32_22 : BitVec 32 := 0#32
  let v37 : BitVec 1 := Scalar.cmpi .eq c4_i32_21 c0_i32_22
  let c1_i32_23 : BitVec 32 := 1#32
  let v38 : BitVec 32 := Scalar.select v37 c1_i32_23 c4_i32_21
  let v39 : BitVec 32 := Scalar.remsi v36 v38
  let c0_i32_25 : BitVec 32 := 0#32
  let v41 : BitVec 1 := Scalar.cmpi .slt v39 c0_i32_25
  let c0_i32_26 : BitVec 32 := 0#32
  let v42 : BitVec 1 := Scalar.cmpi .slt v38 c0_i32_26
  let v43 : BitVec 1 := Scalar.xori v41 v42
  let c0_i32_24 : BitVec 32 := 0#32
  let v40 : BitVec 1 := Scalar.cmpi .ne v39 c0_i32_24
  let v44 : BitVec 1 := Scalar.andi v43 v40
  let v45 : BitVec 32 := Scalar.addi v39 v38
  let v46 : BitVec 32 := Scalar.select v44 v45 v39
  let c1_i32_1724 : BitVec 32 := 1#32
  let v1858 : BitVec 32 := Scalar.muli v46 c1_i32_1724
  let v1859 : BitVec 32 := Scalar.addi c0_i32_1725 v1858
  v1859.toNat
def k0_dev46 (d0 : Dev nD) : Nat :=
  let c0_i32_1749 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32_47 : BitVec 32 := 4294967295#32
  let v80 : BitVec 32 := Scalar.addi v2 c_m1_i32_47
  let c4_i32_48 : BitVec 32 := 4#32
  let c0_i32_49 : BitVec 32 := 0#32
  let v81 : BitVec 1 := Scalar.cmpi .eq c4_i32_48 c0_i32_49
  let c1_i32_50 : BitVec 32 := 1#32
  let v82 : BitVec 32 := Scalar.select v81 c1_i32_50 c4_i32_48
  let v83 : BitVec 32 := Scalar.remsi v80 v82
  let c0_i32_52 : BitVec 32 := 0#32
  let v85 : BitVec 1 := Scalar.cmpi .slt v83 c0_i32_52
  let c0_i32_53 : BitVec 32 := 0#32
  let v86 : BitVec 1 := Scalar.cmpi .slt v82 c0_i32_53
  let v87 : BitVec 1 := Scalar.xori v85 v86
  let c0_i32_51 : BitVec 32 := 0#32
  let v84 : BitVec 1 := Scalar.cmpi .ne v83 c0_i32_51
  let v88 : BitVec 1 := Scalar.andi v87 v84
  let v89 : BitVec 32 := Scalar.addi v83 v82
  let v90 : BitVec 32 := Scalar.select v88 v89 v83
  let c1_i32_1748 : BitVec 32 := 1#32
  let v1884 : BitVec 32 := Scalar.muli v90 c1_i32_1748
  let v1885 : BitVec 32 := Scalar.addi c0_i32_1749 v1884
  v1885.toNat
def k0_dev47 (d0 : Dev nD) : Nat :=
  let c0_i32_1773 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_27 : BitVec 32 := 1#32
  let v47 : BitVec 32 := Scalar.addi v2 c1_i32_27
  let c4_i32_28 : BitVec 32 := 4#32
  let c0_i32_29 : BitVec 32 := 0#32
  let v48 : BitVec 1 := Scalar.cmpi .eq c4_i32_28 c0_i32_29
  let c1_i32_30 : BitVec 32 := 1#32
  let v49 : BitVec 32 := Scalar.select v48 c1_i32_30 c4_i32_28
  let v50 : BitVec 32 := Scalar.remsi v47 v49
  let c0_i32_32 : BitVec 32 := 0#32
  let v52 : BitVec 1 := Scalar.cmpi .slt v50 c0_i32_32
  let c0_i32_33 : BitVec 32 := 0#32
  let v53 : BitVec 1 := Scalar.cmpi .slt v49 c0_i32_33
  let v54 : BitVec 1 := Scalar.xori v52 v53
  let c0_i32_31 : BitVec 32 := 0#32
  let v51 : BitVec 1 := Scalar.cmpi .ne v50 c0_i32_31
  let v55 : BitVec 1 := Scalar.andi v54 v51
  let v56 : BitVec 32 := Scalar.addi v50 v49
  let v57 : BitVec 32 := Scalar.select v55 v56 v50
  let c1_i32_1772 : BitVec 32 := 1#32
  let v1910 : BitVec 32 := Scalar.muli v57 c1_i32_1772
  let v1911 : BitVec 32 := Scalar.addi c0_i32_1773 v1910
  v1911.toNat
def k0_dev48 (d0 : Dev nD) : Nat :=
  let c0_i32_1797 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32_54 : BitVec 32 := 4294967295#32
  let v91 : BitVec 32 := Scalar.addi v2 c_m1_i32_54
  let c4_i32_55 : BitVec 32 := 4#32
  let c0_i32_56 : BitVec 32 := 0#32
  let v92 : BitVec 1 := Scalar.cmpi .eq c4_i32_55 c0_i32_56
  let c1_i32_57 : BitVec 32 := 1#32
  let v93 : BitVec 32 := Scalar.select v92 c1_i32_57 c4_i32_55
  let v94 : BitVec 32 := Scalar.remsi v91 v93
  let c0_i32_59 : BitVec 32 := 0#32
  let v96 : BitVec 1 := Scalar.cmpi .slt v94 c0_i32_59
  let c0_i32_60 : BitVec 32 := 0#32
  let v97 : BitVec 1 := Scalar.cmpi .slt v93 c0_i32_60
  let v98 : BitVec 1 := Scalar.xori v96 v97
  let c0_i32_58 : BitVec 32 := 0#32
  let v95 : BitVec 1 := Scalar.cmpi .ne v94 c0_i32_58
  let v99 : BitVec 1 := Scalar.andi v98 v95
  let v100 : BitVec 32 := Scalar.addi v94 v93
  let v101 : BitVec 32 := Scalar.select v99 v100 v94
  let c1_i32_1796 : BitVec 32 := 1#32
  let v1936 : BitVec 32 := Scalar.muli v101 c1_i32_1796
  let v1937 : BitVec 32 := Scalar.addi c0_i32_1797 v1936
  v1937.toNat
def k0_dev49 (d0 : Dev nD) : Nat :=
  let c0_i32_1821 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_34 : BitVec 32 := 1#32
  let v58 : BitVec 32 := Scalar.addi v2 c1_i32_34
  let c4_i32_35 : BitVec 32 := 4#32
  let c0_i32_36 : BitVec 32 := 0#32
  let v59 : BitVec 1 := Scalar.cmpi .eq c4_i32_35 c0_i32_36
  let c1_i32_37 : BitVec 32 := 1#32
  let v60 : BitVec 32 := Scalar.select v59 c1_i32_37 c4_i32_35
  let v61 : BitVec 32 := Scalar.remsi v58 v60
  let c0_i32_39 : BitVec 32 := 0#32
  let v63 : BitVec 1 := Scalar.cmpi .slt v61 c0_i32_39
  let c0_i32_40 : BitVec 32 := 0#32
  let v64 : BitVec 1 := Scalar.cmpi .slt v60 c0_i32_40
  let v65 : BitVec 1 := Scalar.xori v63 v64
  let c0_i32_38 : BitVec 32 := 0#32
  let v62 : BitVec 1 := Scalar.cmpi .ne v61 c0_i32_38
  let v66 : BitVec 1 := Scalar.andi v65 v62
  let v67 : BitVec 32 := Scalar.addi v61 v60
  let v68 : BitVec 32 := Scalar.select v66 v67 v61
  let c1_i32_1820 : BitVec 32 := 1#32
  let v1962 : BitVec 32 := Scalar.muli v68 c1_i32_1820
  let v1963 : BitVec 32 := Scalar.addi c0_i32_1821 v1962
  v1963.toNat
def k0_dev50 (d0 : Dev nD) : Nat :=
  let c0_i32_1845 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32_61 : BitVec 32 := 4294967295#32
  let v102 : BitVec 32 := Scalar.addi v2 c_m1_i32_61
  let c4_i32_62 : BitVec 32 := 4#32
  let c0_i32_63 : BitVec 32 := 0#32
  let v103 : BitVec 1 := Scalar.cmpi .eq c4_i32_62 c0_i32_63
  let c1_i32_64 : BitVec 32 := 1#32
  let v104 : BitVec 32 := Scalar.select v103 c1_i32_64 c4_i32_62
  let v105 : BitVec 32 := Scalar.remsi v102 v104
  let c0_i32_66 : BitVec 32 := 0#32
  let v107 : BitVec 1 := Scalar.cmpi .slt v105 c0_i32_66
  let c0_i32_67 : BitVec 32 := 0#32
  let v108 : BitVec 1 := Scalar.cmpi .slt v104 c0_i32_67
  let v109 : BitVec 1 := Scalar.xori v107 v108
  let c0_i32_65 : BitVec 32 := 0#32
  let v106 : BitVec 1 := Scalar.cmpi .ne v105 c0_i32_65
  let v110 : BitVec 1 := Scalar.andi v109 v106
  let v111 : BitVec 32 := Scalar.addi v105 v104
  let v112 : BitVec 32 := Scalar.select v110 v111 v105
  let c1_i32_1844 : BitVec 32 := 1#32
  let v1988 : BitVec 32 := Scalar.muli v112 c1_i32_1844
  let v1989 : BitVec 32 := Scalar.addi c0_i32_1845 v1988
  v1989.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  hamt_2 : (2#32 : BitVec 32).msb = false
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  bitsLt_bf16_f32 : FTy.bits .bf16 < FTy.bits .f32
  packedbf16_S1024x2048_S1024x2048_0_0 : (Rect.unit (s := S1024x2048) ![0, 0] S1024x2048.size inb_S1024x2048_S1024x2048_0_0).PackedRows (EltTy.packing .bf16)
  h_S512x1024 : 0 < S512x1024.numel
  shapeCasts_S512x1024_S512x1024 : S512x1024.ShapeCasts S512x1024
  inb_S1024x2048_S1024x256_0_0 : ∀ a, (![0, 0] : Fin 2 → Nat) a + S1024x256.size a ≤ S1024x2048.size a
  h_S1024x256 : 0 < S1024x256.numel
  inb_S8x4x512x256_S1x1x512x256_0_0_0_0 : ∀ a, (![0, 0, 0, 0] : Fin 4 → Nat) a + S1x1x512x256.size a ≤ S8x4x512x256.size a
  h_S1x1x512x256 : 0 < S1x1x512x256.numel
  shapeCasts_S1x1x512x256_S512x256 : S1x1x512x256.ShapeCasts S512x256
  shapeCasts_S512x256_S1x1x512x256 : S512x256.ShapeCasts S1x1x512x256
  packedbf16_S8x4x512x256_S1x1x512x256_0_0_0_0 : (Rect.unit (s := S8x4x512x256) ![0, 0, 0, 0] S1x1x512x256.size inb_S8x4x512x256_S1x1x512x256_0_0_0_0).PackedRows (EltTy.packing .bf16)
  inb_S1024x2048_S1024x256_0_1024 : ∀ a, (![0, 1024] : Fin 2 → Nat) a + S1024x256.size a ≤ S1024x2048.size a
  inb_S8x4x512x256_S1x1x512x256_4_0_0_0 : ∀ a, (![4, 0, 0, 0] : Fin 4 → Nat) a + S1x1x512x256.size a ≤ S8x4x512x256.size a
  packedbf16_S8x4x512x256_S1x1x512x256_4_0_0_0 : (Rect.unit (s := S8x4x512x256) ![4, 0, 0, 0] S1x1x512x256.size inb_S8x4x512x256_S1x1x512x256_4_0_0_0).PackedRows (EltTy.packing .bf16)
  inb_S8x3_S1x1_0_0 : ∀ a, (![0, 0] : Fin 2 → Nat) a + S1x1.size a ≤ S8x3.size a
  squeezes_S1x1_S_ : S1x1.Squeezes S_
  inb_S8x4x512x256_S1x1x512x256_0_1_0_0 : ∀ a, (![0, 1, 0, 0] : Fin 4 → Nat) a + S1x1x512x256.size a ≤ S8x4x512x256.size a
  squeezes_S1x1x512x256_S512x256 : S1x1x512x256.Squeezes S512x256
  wordsbf16_S8x4x512x256_S1x1x512x256_0_0_0_0 : (Rect.unit (s := S8x4x512x256) ![0, 0, 0, 0] S1x1x512x256.size inb_S8x4x512x256_S1x1x512x256_0_0_0_0).WholeWords (EltTy.packing .bf16)
  wordsbf16_S8x4x512x256_S1x1x512x256_0_1_0_0 : (Rect.unit (s := S8x4x512x256) ![0, 1, 0, 0] S1x1x512x256.size inb_S8x4x512x256_S1x1x512x256_0_1_0_0).WholeWords (EltTy.packing .bf16)
  inb_S8x3_S1x1_4_0 : ∀ a, (![4, 0] : Fin 2 → Nat) a + S1x1.size a ≤ S8x3.size a
  inb_S8x4x512x256_S1x1x512x256_4_1_0_0 : ∀ a, (![4, 1, 0, 0] : Fin 4 → Nat) a + S1x1x512x256.size a ≤ S8x4x512x256.size a
  wordsbf16_S8x4x512x256_S1x1x512x256_4_0_0_0 : (Rect.unit (s := S8x4x512x256) ![4, 0, 0, 0] S1x1x512x256.size inb_S8x4x512x256_S1x1x512x256_4_0_0_0).WholeWords (EltTy.packing .bf16)
  wordsbf16_S8x4x512x256_S1x1x512x256_4_1_0_0 : (Rect.unit (s := S8x4x512x256) ![4, 1, 0, 0] S1x1x512x256.size inb_S8x4x512x256_S1x1x512x256_4_1_0_0).WholeWords (EltTy.packing .bf16)
  inb_S1024x2048_S1024x256_0_256 : ∀ a, (![0, 256] : Fin 2 → Nat) a + S1024x256.size a ≤ S1024x2048.size a
  inb_S8x4x512x256_S1x1x512x256_1_0_0_0 : ∀ a, (![1, 0, 0, 0] : Fin 4 → Nat) a + S1x1x512x256.size a ≤ S8x4x512x256.size a
  packedbf16_S8x4x512x256_S1x1x512x256_1_0_0_0 : (Rect.unit (s := S8x4x512x256) ![1, 0, 0, 0] S1x1x512x256.size inb_S8x4x512x256_S1x1x512x256_1_0_0_0).PackedRows (EltTy.packing .bf16)
  inb_S1024x2048_S1024x256_0_1280 : ∀ a, (![0, 1280] : Fin 2 → Nat) a + S1024x256.size a ≤ S1024x2048.size a
  inb_S8x4x512x256_S1x1x512x256_5_0_0_0 : ∀ a, (![5, 0, 0, 0] : Fin 4 → Nat) a + S1x1x512x256.size a ≤ S8x4x512x256.size a
  packedbf16_S8x4x512x256_S1x1x512x256_5_0_0_0 : (Rect.unit (s := S8x4x512x256) ![5, 0, 0, 0] S1x1x512x256.size inb_S8x4x512x256_S1x1x512x256_5_0_0_0).PackedRows (EltTy.packing .bf16)
  inb_S8x3_S1x1_1_0 : ∀ a, (![1, 0] : Fin 2 → Nat) a + S1x1.size a ≤ S8x3.size a
  inb_S8x4x512x256_S1x1x512x256_1_1_0_0 : ∀ a, (![1, 1, 0, 0] : Fin 4 → Nat) a + S1x1x512x256.size a ≤ S8x4x512x256.size a
  wordsbf16_S8x4x512x256_S1x1x512x256_1_0_0_0 : (Rect.unit (s := S8x4x512x256) ![1, 0, 0, 0] S1x1x512x256.size inb_S8x4x512x256_S1x1x512x256_1_0_0_0).WholeWords (EltTy.packing .bf16)
  wordsbf16_S8x4x512x256_S1x1x512x256_1_1_0_0 : (Rect.unit (s := S8x4x512x256) ![1, 1, 0, 0] S1x1x512x256.size inb_S8x4x512x256_S1x1x512x256_1_1_0_0).WholeWords (EltTy.packing .bf16)
  inb_S8x3_S1x1_5_0 : ∀ a, (![5, 0] : Fin 2 → Nat) a + S1x1.size a ≤ S8x3.size a
  inb_S8x4x512x256_S1x1x512x256_5_1_0_0 : ∀ a, (![5, 1, 0, 0] : Fin 4 → Nat) a + S1x1x512x256.size a ≤ S8x4x512x256.size a
  wordsbf16_S8x4x512x256_S1x1x512x256_5_0_0_0 : (Rect.unit (s := S8x4x512x256) ![5, 0, 0, 0] S1x1x512x256.size inb_S8x4x512x256_S1x1x512x256_5_0_0_0).WholeWords (EltTy.packing .bf16)
  wordsbf16_S8x4x512x256_S1x1x512x256_5_1_0_0 : (Rect.unit (s := S8x4x512x256) ![5, 1, 0, 0] S1x1x512x256.size inb_S8x4x512x256_S1x1x512x256_5_1_0_0).WholeWords (EltTy.packing .bf16)
  inb_S1024x2048_S1024x256_0_512 : ∀ a, (![0, 512] : Fin 2 → Nat) a + S1024x256.size a ≤ S1024x2048.size a
  inb_S8x4x512x256_S1x1x512x256_2_0_0_0 : ∀ a, (![2, 0, 0, 0] : Fin 4 → Nat) a + S1x1x512x256.size a ≤ S8x4x512x256.size a
  packedbf16_S8x4x512x256_S1x1x512x256_2_0_0_0 : (Rect.unit (s := S8x4x512x256) ![2, 0, 0, 0] S1x1x512x256.size inb_S8x4x512x256_S1x1x512x256_2_0_0_0).PackedRows (EltTy.packing .bf16)
  inb_S1024x2048_S1024x256_0_1536 : ∀ a, (![0, 1536] : Fin 2 → Nat) a + S1024x256.size a ≤ S1024x2048.size a
  inb_S8x4x512x256_S1x1x512x256_6_0_0_0 : ∀ a, (![6, 0, 0, 0] : Fin 4 → Nat) a + S1x1x512x256.size a ≤ S8x4x512x256.size a
  packedbf16_S8x4x512x256_S1x1x512x256_6_0_0_0 : (Rect.unit (s := S8x4x512x256) ![6, 0, 0, 0] S1x1x512x256.size inb_S8x4x512x256_S1x1x512x256_6_0_0_0).PackedRows (EltTy.packing .bf16)
  inb_S8x3_S1x1_2_0 : ∀ a, (![2, 0] : Fin 2 → Nat) a + S1x1.size a ≤ S8x3.size a
  inb_S8x4x512x256_S1x1x512x256_2_1_0_0 : ∀ a, (![2, 1, 0, 0] : Fin 4 → Nat) a + S1x1x512x256.size a ≤ S8x4x512x256.size a
  wordsbf16_S8x4x512x256_S1x1x512x256_2_0_0_0 : (Rect.unit (s := S8x4x512x256) ![2, 0, 0, 0] S1x1x512x256.size inb_S8x4x512x256_S1x1x512x256_2_0_0_0).WholeWords (EltTy.packing .bf16)
  wordsbf16_S8x4x512x256_S1x1x512x256_2_1_0_0 : (Rect.unit (s := S8x4x512x256) ![2, 1, 0, 0] S1x1x512x256.size inb_S8x4x512x256_S1x1x512x256_2_1_0_0).WholeWords (EltTy.packing .bf16)
  inb_S8x3_S1x1_6_0 : ∀ a, (![6, 0] : Fin 2 → Nat) a + S1x1.size a ≤ S8x3.size a
  inb_S8x4x512x256_S1x1x512x256_6_1_0_0 : ∀ a, (![6, 1, 0, 0] : Fin 4 → Nat) a + S1x1x512x256.size a ≤ S8x4x512x256.size a
  wordsbf16_S8x4x512x256_S1x1x512x256_6_0_0_0 : (Rect.unit (s := S8x4x512x256) ![6, 0, 0, 0] S1x1x512x256.size inb_S8x4x512x256_S1x1x512x256_6_0_0_0).WholeWords (EltTy.packing .bf16)
  wordsbf16_S8x4x512x256_S1x1x512x256_6_1_0_0 : (Rect.unit (s := S8x4x512x256) ![6, 1, 0, 0] S1x1x512x256.size inb_S8x4x512x256_S1x1x512x256_6_1_0_0).WholeWords (EltTy.packing .bf16)
  inb_S1024x2048_S1024x256_0_768 : ∀ a, (![0, 768] : Fin 2 → Nat) a + S1024x256.size a ≤ S1024x2048.size a
  inb_S8x4x512x256_S1x1x512x256_3_0_0_0 : ∀ a, (![3, 0, 0, 0] : Fin 4 → Nat) a + S1x1x512x256.size a ≤ S8x4x512x256.size a
  packedbf16_S8x4x512x256_S1x1x512x256_3_0_0_0 : (Rect.unit (s := S8x4x512x256) ![3, 0, 0, 0] S1x1x512x256.size inb_S8x4x512x256_S1x1x512x256_3_0_0_0).PackedRows (EltTy.packing .bf16)
  inb_S1024x2048_S1024x256_0_1792 : ∀ a, (![0, 1792] : Fin 2 → Nat) a + S1024x256.size a ≤ S1024x2048.size a
  inb_S8x4x512x256_S1x1x512x256_7_0_0_0 : ∀ a, (![7, 0, 0, 0] : Fin 4 → Nat) a + S1x1x512x256.size a ≤ S8x4x512x256.size a
  packedbf16_S8x4x512x256_S1x1x512x256_7_0_0_0 : (Rect.unit (s := S8x4x512x256) ![7, 0, 0, 0] S1x1x512x256.size inb_S8x4x512x256_S1x1x512x256_7_0_0_0).PackedRows (EltTy.packing .bf16)
  inb_S8x3_S1x1_3_0 : ∀ a, (![3, 0] : Fin 2 → Nat) a + S1x1.size a ≤ S8x3.size a
  inb_S8x4x512x256_S1x1x512x256_3_1_0_0 : ∀ a, (![3, 1, 0, 0] : Fin 4 → Nat) a + S1x1x512x256.size a ≤ S8x4x512x256.size a
  wordsbf16_S8x4x512x256_S1x1x512x256_3_0_0_0 : (Rect.unit (s := S8x4x512x256) ![3, 0, 0, 0] S1x1x512x256.size inb_S8x4x512x256_S1x1x512x256_3_0_0_0).WholeWords (EltTy.packing .bf16)
  wordsbf16_S8x4x512x256_S1x1x512x256_3_1_0_0 : (Rect.unit (s := S8x4x512x256) ![3, 1, 0, 0] S1x1x512x256.size inb_S8x4x512x256_S1x1x512x256_3_1_0_0).WholeWords (EltTy.packing .bf16)
  inb_S8x3_S1x1_7_0 : ∀ a, (![7, 0] : Fin 2 → Nat) a + S1x1.size a ≤ S8x3.size a
  inb_S8x4x512x256_S1x1x512x256_7_1_0_0 : ∀ a, (![7, 1, 0, 0] : Fin 4 → Nat) a + S1x1x512x256.size a ≤ S8x4x512x256.size a
  wordsbf16_S8x4x512x256_S1x1x512x256_7_0_0_0 : (Rect.unit (s := S8x4x512x256) ![7, 0, 0, 0] S1x1x512x256.size inb_S8x4x512x256_S1x1x512x256_7_0_0_0).WholeWords (EltTy.packing .bf16)
  wordsbf16_S8x4x512x256_S1x1x512x256_7_1_0_0 : (Rect.unit (s := S8x4x512x256) ![7, 1, 0, 0] S1x1x512x256.size inb_S8x4x512x256_S1x1x512x256_7_1_0_0).WholeWords (EltTy.packing .bf16)
  packedbf16_S8x4x512x256_S1x1x512x256_0_1_0_0 : (Rect.unit (s := S8x4x512x256) ![0, 1, 0, 0] S1x1x512x256.size inb_S8x4x512x256_S1x1x512x256_0_1_0_0).PackedRows (EltTy.packing .bf16)
  inb_S8x3_S1x1_0_1 : ∀ a, (![0, 1] : Fin 2 → Nat) a + S1x1.size a ≤ S8x3.size a
  inb_S8x4x512x256_S1x1x512x256_0_2_0_0 : ∀ a, (![0, 2, 0, 0] : Fin 4 → Nat) a + S1x1x512x256.size a ≤ S8x4x512x256.size a
  wordsbf16_S8x4x512x256_S1x1x512x256_0_2_0_0 : (Rect.unit (s := S8x4x512x256) ![0, 2, 0, 0] S1x1x512x256.size inb_S8x4x512x256_S1x1x512x256_0_2_0_0).WholeWords (EltTy.packing .bf16)
  packedbf16_S8x4x512x256_S1x1x512x256_4_1_0_0 : (Rect.unit (s := S8x4x512x256) ![4, 1, 0, 0] S1x1x512x256.size inb_S8x4x512x256_S1x1x512x256_4_1_0_0).PackedRows (EltTy.packing .bf16)
  inb_S8x3_S1x1_4_1 : ∀ a, (![4, 1] : Fin 2 → Nat) a + S1x1.size a ≤ S8x3.size a
  inb_S8x4x512x256_S1x1x512x256_4_2_0_0 : ∀ a, (![4, 2, 0, 0] : Fin 4 → Nat) a + S1x1x512x256.size a ≤ S8x4x512x256.size a
  wordsbf16_S8x4x512x256_S1x1x512x256_4_2_0_0 : (Rect.unit (s := S8x4x512x256) ![4, 2, 0, 0] S1x1x512x256.size inb_S8x4x512x256_S1x1x512x256_4_2_0_0).WholeWords (EltTy.packing .bf16)
  packedbf16_S8x4x512x256_S1x1x512x256_1_1_0_0 : (Rect.unit (s := S8x4x512x256) ![1, 1, 0, 0] S1x1x512x256.size inb_S8x4x512x256_S1x1x512x256_1_1_0_0).PackedRows (EltTy.packing .bf16)
  inb_S8x3_S1x1_1_1 : ∀ a, (![1, 1] : Fin 2 → Nat) a + S1x1.size a ≤ S8x3.size a
  inb_S8x4x512x256_S1x1x512x256_1_2_0_0 : ∀ a, (![1, 2, 0, 0] : Fin 4 → Nat) a + S1x1x512x256.size a ≤ S8x4x512x256.size a
  wordsbf16_S8x4x512x256_S1x1x512x256_1_2_0_0 : (Rect.unit (s := S8x4x512x256) ![1, 2, 0, 0] S1x1x512x256.size inb_S8x4x512x256_S1x1x512x256_1_2_0_0).WholeWords (EltTy.packing .bf16)
  packedbf16_S8x4x512x256_S1x1x512x256_5_1_0_0 : (Rect.unit (s := S8x4x512x256) ![5, 1, 0, 0] S1x1x512x256.size inb_S8x4x512x256_S1x1x512x256_5_1_0_0).PackedRows (EltTy.packing .bf16)
  inb_S8x3_S1x1_5_1 : ∀ a, (![5, 1] : Fin 2 → Nat) a + S1x1.size a ≤ S8x3.size a
  inb_S8x4x512x256_S1x1x512x256_5_2_0_0 : ∀ a, (![5, 2, 0, 0] : Fin 4 → Nat) a + S1x1x512x256.size a ≤ S8x4x512x256.size a
  wordsbf16_S8x4x512x256_S1x1x512x256_5_2_0_0 : (Rect.unit (s := S8x4x512x256) ![5, 2, 0, 0] S1x1x512x256.size inb_S8x4x512x256_S1x1x512x256_5_2_0_0).WholeWords (EltTy.packing .bf16)
  packedbf16_S8x4x512x256_S1x1x512x256_2_1_0_0 : (Rect.unit (s := S8x4x512x256) ![2, 1, 0, 0] S1x1x512x256.size inb_S8x4x512x256_S1x1x512x256_2_1_0_0).PackedRows (EltTy.packing .bf16)
  inb_S8x3_S1x1_2_1 : ∀ a, (![2, 1] : Fin 2 → Nat) a + S1x1.size a ≤ S8x3.size a
  inb_S8x4x512x256_S1x1x512x256_2_2_0_0 : ∀ a, (![2, 2, 0, 0] : Fin 4 → Nat) a + S1x1x512x256.size a ≤ S8x4x512x256.size a
  wordsbf16_S8x4x512x256_S1x1x512x256_2_2_0_0 : (Rect.unit (s := S8x4x512x256) ![2, 2, 0, 0] S1x1x512x256.size inb_S8x4x512x256_S1x1x512x256_2_2_0_0).WholeWords (EltTy.packing .bf16)
  packedbf16_S8x4x512x256_S1x1x512x256_6_1_0_0 : (Rect.unit (s := S8x4x512x256) ![6, 1, 0, 0] S1x1x512x256.size inb_S8x4x512x256_S1x1x512x256_6_1_0_0).PackedRows (EltTy.packing .bf16)
  inb_S8x3_S1x1_6_1 : ∀ a, (![6, 1] : Fin 2 → Nat) a + S1x1.size a ≤ S8x3.size a
  inb_S8x4x512x256_S1x1x512x256_6_2_0_0 : ∀ a, (![6, 2, 0, 0] : Fin 4 → Nat) a + S1x1x512x256.size a ≤ S8x4x512x256.size a
  wordsbf16_S8x4x512x256_S1x1x512x256_6_2_0_0 : (Rect.unit (s := S8x4x512x256) ![6, 2, 0, 0] S1x1x512x256.size inb_S8x4x512x256_S1x1x512x256_6_2_0_0).WholeWords (EltTy.packing .bf16)
  packedbf16_S8x4x512x256_S1x1x512x256_3_1_0_0 : (Rect.unit (s := S8x4x512x256) ![3, 1, 0, 0] S1x1x512x256.size inb_S8x4x512x256_S1x1x512x256_3_1_0_0).PackedRows (EltTy.packing .bf16)
  inb_S8x3_S1x1_3_1 : ∀ a, (![3, 1] : Fin 2 → Nat) a + S1x1.size a ≤ S8x3.size a
  inb_S8x4x512x256_S1x1x512x256_3_2_0_0 : ∀ a, (![3, 2, 0, 0] : Fin 4 → Nat) a + S1x1x512x256.size a ≤ S8x4x512x256.size a
  wordsbf16_S8x4x512x256_S1x1x512x256_3_2_0_0 : (Rect.unit (s := S8x4x512x256) ![3, 2, 0, 0] S1x1x512x256.size inb_S8x4x512x256_S1x1x512x256_3_2_0_0).WholeWords (EltTy.packing .bf16)
  packedbf16_S8x4x512x256_S1x1x512x256_7_1_0_0 : (Rect.unit (s := S8x4x512x256) ![7, 1, 0, 0] S1x1x512x256.size inb_S8x4x512x256_S1x1x512x256_7_1_0_0).PackedRows (EltTy.packing .bf16)
  inb_S8x3_S1x1_7_1 : ∀ a, (![7, 1] : Fin 2 → Nat) a + S1x1.size a ≤ S8x3.size a
  inb_S8x4x512x256_S1x1x512x256_7_2_0_0 : ∀ a, (![7, 2, 0, 0] : Fin 4 → Nat) a + S1x1x512x256.size a ≤ S8x4x512x256.size a
  wordsbf16_S8x4x512x256_S1x1x512x256_7_2_0_0 : (Rect.unit (s := S8x4x512x256) ![7, 2, 0, 0] S1x1x512x256.size inb_S8x4x512x256_S1x1x512x256_7_2_0_0).WholeWords (EltTy.packing .bf16)
  packedbf16_S8x4x512x256_S1x1x512x256_0_2_0_0 : (Rect.unit (s := S8x4x512x256) ![0, 2, 0, 0] S1x1x512x256.size inb_S8x4x512x256_S1x1x512x256_0_2_0_0).PackedRows (EltTy.packing .bf16)
  inb_S8x3_S1x1_0_2 : ∀ a, (![0, 2] : Fin 2 → Nat) a + S1x1.size a ≤ S8x3.size a
  inb_S8x4x512x256_S1x1x512x256_0_3_0_0 : ∀ a, (![0, 3, 0, 0] : Fin 4 → Nat) a + S1x1x512x256.size a ≤ S8x4x512x256.size a
  wordsbf16_S8x4x512x256_S1x1x512x256_0_3_0_0 : (Rect.unit (s := S8x4x512x256) ![0, 3, 0, 0] S1x1x512x256.size inb_S8x4x512x256_S1x1x512x256_0_3_0_0).WholeWords (EltTy.packing .bf16)
  packedbf16_S8x4x512x256_S1x1x512x256_4_2_0_0 : (Rect.unit (s := S8x4x512x256) ![4, 2, 0, 0] S1x1x512x256.size inb_S8x4x512x256_S1x1x512x256_4_2_0_0).PackedRows (EltTy.packing .bf16)
  inb_S8x3_S1x1_4_2 : ∀ a, (![4, 2] : Fin 2 → Nat) a + S1x1.size a ≤ S8x3.size a
  inb_S8x4x512x256_S1x1x512x256_4_3_0_0 : ∀ a, (![4, 3, 0, 0] : Fin 4 → Nat) a + S1x1x512x256.size a ≤ S8x4x512x256.size a
  wordsbf16_S8x4x512x256_S1x1x512x256_4_3_0_0 : (Rect.unit (s := S8x4x512x256) ![4, 3, 0, 0] S1x1x512x256.size inb_S8x4x512x256_S1x1x512x256_4_3_0_0).WholeWords (EltTy.packing .bf16)
  packedbf16_S8x4x512x256_S1x1x512x256_1_2_0_0 : (Rect.unit (s := S8x4x512x256) ![1, 2, 0, 0] S1x1x512x256.size inb_S8x4x512x256_S1x1x512x256_1_2_0_0).PackedRows (EltTy.packing .bf16)
  inb_S8x3_S1x1_1_2 : ∀ a, (![1, 2] : Fin 2 → Nat) a + S1x1.size a ≤ S8x3.size a
  inb_S8x4x512x256_S1x1x512x256_1_3_0_0 : ∀ a, (![1, 3, 0, 0] : Fin 4 → Nat) a + S1x1x512x256.size a ≤ S8x4x512x256.size a
  wordsbf16_S8x4x512x256_S1x1x512x256_1_3_0_0 : (Rect.unit (s := S8x4x512x256) ![1, 3, 0, 0] S1x1x512x256.size inb_S8x4x512x256_S1x1x512x256_1_3_0_0).WholeWords (EltTy.packing .bf16)
  packedbf16_S8x4x512x256_S1x1x512x256_5_2_0_0 : (Rect.unit (s := S8x4x512x256) ![5, 2, 0, 0] S1x1x512x256.size inb_S8x4x512x256_S1x1x512x256_5_2_0_0).PackedRows (EltTy.packing .bf16)
  inb_S8x3_S1x1_5_2 : ∀ a, (![5, 2] : Fin 2 → Nat) a + S1x1.size a ≤ S8x3.size a
  inb_S8x4x512x256_S1x1x512x256_5_3_0_0 : ∀ a, (![5, 3, 0, 0] : Fin 4 → Nat) a + S1x1x512x256.size a ≤ S8x4x512x256.size a
  wordsbf16_S8x4x512x256_S1x1x512x256_5_3_0_0 : (Rect.unit (s := S8x4x512x256) ![5, 3, 0, 0] S1x1x512x256.size inb_S8x4x512x256_S1x1x512x256_5_3_0_0).WholeWords (EltTy.packing .bf16)
  packedbf16_S8x4x512x256_S1x1x512x256_2_2_0_0 : (Rect.unit (s := S8x4x512x256) ![2, 2, 0, 0] S1x1x512x256.size inb_S8x4x512x256_S1x1x512x256_2_2_0_0).PackedRows (EltTy.packing .bf16)
  inb_S8x3_S1x1_2_2 : ∀ a, (![2, 2] : Fin 2 → Nat) a + S1x1.size a ≤ S8x3.size a
  inb_S8x4x512x256_S1x1x512x256_2_3_0_0 : ∀ a, (![2, 3, 0, 0] : Fin 4 → Nat) a + S1x1x512x256.size a ≤ S8x4x512x256.size a
  wordsbf16_S8x4x512x256_S1x1x512x256_2_3_0_0 : (Rect.unit (s := S8x4x512x256) ![2, 3, 0, 0] S1x1x512x256.size inb_S8x4x512x256_S1x1x512x256_2_3_0_0).WholeWords (EltTy.packing .bf16)
  packedbf16_S8x4x512x256_S1x1x512x256_6_2_0_0 : (Rect.unit (s := S8x4x512x256) ![6, 2, 0, 0] S1x1x512x256.size inb_S8x4x512x256_S1x1x512x256_6_2_0_0).PackedRows (EltTy.packing .bf16)
  inb_S8x3_S1x1_6_2 : ∀ a, (![6, 2] : Fin 2 → Nat) a + S1x1.size a ≤ S8x3.size a
  inb_S8x4x512x256_S1x1x512x256_6_3_0_0 : ∀ a, (![6, 3, 0, 0] : Fin 4 → Nat) a + S1x1x512x256.size a ≤ S8x4x512x256.size a
  wordsbf16_S8x4x512x256_S1x1x512x256_6_3_0_0 : (Rect.unit (s := S8x4x512x256) ![6, 3, 0, 0] S1x1x512x256.size inb_S8x4x512x256_S1x1x512x256_6_3_0_0).WholeWords (EltTy.packing .bf16)
  packedbf16_S8x4x512x256_S1x1x512x256_3_2_0_0 : (Rect.unit (s := S8x4x512x256) ![3, 2, 0, 0] S1x1x512x256.size inb_S8x4x512x256_S1x1x512x256_3_2_0_0).PackedRows (EltTy.packing .bf16)
  inb_S8x3_S1x1_3_2 : ∀ a, (![3, 2] : Fin 2 → Nat) a + S1x1.size a ≤ S8x3.size a
  inb_S8x4x512x256_S1x1x512x256_3_3_0_0 : ∀ a, (![3, 3, 0, 0] : Fin 4 → Nat) a + S1x1x512x256.size a ≤ S8x4x512x256.size a
  wordsbf16_S8x4x512x256_S1x1x512x256_3_3_0_0 : (Rect.unit (s := S8x4x512x256) ![3, 3, 0, 0] S1x1x512x256.size inb_S8x4x512x256_S1x1x512x256_3_3_0_0).WholeWords (EltTy.packing .bf16)
  packedbf16_S8x4x512x256_S1x1x512x256_7_2_0_0 : (Rect.unit (s := S8x4x512x256) ![7, 2, 0, 0] S1x1x512x256.size inb_S8x4x512x256_S1x1x512x256_7_2_0_0).PackedRows (EltTy.packing .bf16)
  inb_S8x3_S1x1_7_2 : ∀ a, (![7, 2] : Fin 2 → Nat) a + S1x1.size a ≤ S8x3.size a
  inb_S8x4x512x256_S1x1x512x256_7_3_0_0 : ∀ a, (![7, 3, 0, 0] : Fin 4 → Nat) a + S1x1x512x256.size a ≤ S8x4x512x256.size a
  wordsbf16_S8x4x512x256_S1x1x512x256_7_3_0_0 : (Rect.unit (s := S8x4x512x256) ![7, 3, 0, 0] S1x1x512x256.size inb_S8x4x512x256_S1x1x512x256_7_3_0_0).WholeWords (EltTy.packing .bf16)
  h_S512x256 : 0 < S512x256.numel
  dot_S512x1024_S1024x256_S512x256_1_0_0_1_n_n_wf : DotDims.WF S512x1024 S1024x256 S512x256 [1] [0] [0] [1] [] []
  hcc0_scratch2 : 3 + S8x3.numel ≤ 99
  hcc0_scratch3 : 27 + S8x3.numel ≤ 99
  hcc0_scratch4 : 51 + S8x3.numel ≤ 99
  hcc0_scratch5 : 75 + S8x3.numel ≤ 99
  k0_dev1_lt : ∀ d0 : Dev nD, (k0_dev1 d0) < nD
  k0_dev2_lt : ∀ d0 : Dev nD, (k0_dev2 d0) < nD
  k0_off1_inb : ∀ d0 : Dev nD, ∀ (r : Fin 8), ∀ a, (k0_off1 d0 (k0_off1_at r)) a + S512x1024.size a ≤ S2048x1024.size a
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_off2_inb : ∀ d0 : Dev nD, ∀ a, (k0_off2 d0) a + S512x256.size a ≤ S2048x2048.size a
  k0_off2_packedbf16 : ∀ d0 : Dev nD, (Rect.unit (s := S2048x2048) (k0_off2 d0) S512x256.size (k0_off2_inb d0)).PackedRows (EltTy.packing .bf16)
  k0_off3_inb : ∀ d0 : Dev nD, ∀ (r : Fin 3), ∀ a, (k0_off3 d0 (BitVec.ofNat 32 r.val)) a + S512x256.size a ≤ S2048x2048.size a
  k0_off3_wordsbf16 : ∀ d0 : Dev nD, ∀ (r : Fin 3), (Rect.unit (s := S2048x2048) (k0_off3 d0 (BitVec.ofNat 32 r.val)) S512x256.size (k0_off3_inb d0 r)).WholeWords (EltTy.packing .bf16)
  k0_dev27_lt : ∀ d0 : Dev nD, (k0_dev27 d0) < nD
  k0_off4_inb : ∀ d0 : Dev nD, ∀ a, (k0_off4 d0) a + S512x256.size a ≤ S2048x2048.size a
  k0_off4_packedbf16 : ∀ d0 : Dev nD, (Rect.unit (s := S2048x2048) (k0_off4 d0) S512x256.size (k0_off4_inb d0)).PackedRows (EltTy.packing .bf16)
  k0_off5_inb : ∀ d0 : Dev nD, ∀ (r : Fin 3), ∀ a, (k0_off5 d0 (k0_off5_at r)) a + S512x256.size a ≤ S2048x2048.size a
  k0_off5_wordsbf16 : ∀ d0 : Dev nD, ∀ (r : Fin 3), (Rect.unit (s := S2048x2048) (k0_off5 d0 (k0_off5_at r)) S512x256.size (k0_off5_inb d0 r)).WholeWords (EltTy.packing .bf16)
  k0_dev28_lt : ∀ d0 : Dev nD, (k0_dev28 d0) < nD
  k0_off6_inb : ∀ d0 : Dev nD, ∀ a, (k0_off6 d0) a + S512x256.size a ≤ S2048x2048.size a
  k0_off6_packedbf16 : ∀ d0 : Dev nD, (Rect.unit (s := S2048x2048) (k0_off6 d0) S512x256.size (k0_off6_inb d0)).PackedRows (EltTy.packing .bf16)
  k0_off7_inb : ∀ d0 : Dev nD, ∀ (r : Fin 3), ∀ a, (k0_off7 d0 (BitVec.ofNat 32 r.val)) a + S512x256.size a ≤ S2048x2048.size a
  k0_off7_wordsbf16 : ∀ d0 : Dev nD, ∀ (r : Fin 3), (Rect.unit (s := S2048x2048) (k0_off7 d0 (BitVec.ofNat 32 r.val)) S512x256.size (k0_off7_inb d0 r)).WholeWords (EltTy.packing .bf16)
  k0_dev29_lt : ∀ d0 : Dev nD, (k0_dev29 d0) < nD
  k0_off8_inb : ∀ d0 : Dev nD, ∀ a, (k0_off8 d0) a + S512x256.size a ≤ S2048x2048.size a
  k0_off8_packedbf16 : ∀ d0 : Dev nD, (Rect.unit (s := S2048x2048) (k0_off8 d0) S512x256.size (k0_off8_inb d0)).PackedRows (EltTy.packing .bf16)
  k0_off9_inb : ∀ d0 : Dev nD, ∀ (r : Fin 3), ∀ a, (k0_off9 d0 (k0_off9_at r)) a + S512x256.size a ≤ S2048x2048.size a
  k0_off9_wordsbf16 : ∀ d0 : Dev nD, ∀ (r : Fin 3), (Rect.unit (s := S2048x2048) (k0_off9 d0 (k0_off9_at r)) S512x256.size (k0_off9_inb d0 r)).WholeWords (EltTy.packing .bf16)
  k0_dev30_lt : ∀ d0 : Dev nD, (k0_dev30 d0) < nD
  k0_off10_inb : ∀ d0 : Dev nD, ∀ a, (k0_off10 d0) a + S512x256.size a ≤ S2048x2048.size a
  k0_off10_packedbf16 : ∀ d0 : Dev nD, (Rect.unit (s := S2048x2048) (k0_off10 d0) S512x256.size (k0_off10_inb d0)).PackedRows (EltTy.packing .bf16)
  k0_off11_inb : ∀ d0 : Dev nD, ∀ (r : Fin 3), ∀ a, (k0_off11 d0 (BitVec.ofNat 32 r.val)) a + S512x256.size a ≤ S2048x2048.size a
  k0_off11_wordsbf16 : ∀ d0 : Dev nD, ∀ (r : Fin 3), (Rect.unit (s := S2048x2048) (k0_off11 d0 (BitVec.ofNat 32 r.val)) S512x256.size (k0_off11_inb d0 r)).WholeWords (EltTy.packing .bf16)
  k0_dev31_lt : ∀ d0 : Dev nD, (k0_dev31 d0) < nD
  k0_off12_inb : ∀ d0 : Dev nD, ∀ a, (k0_off12 d0) a + S512x256.size a ≤ S2048x2048.size a
  k0_off12_packedbf16 : ∀ d0 : Dev nD, (Rect.unit (s := S2048x2048) (k0_off12 d0) S512x256.size (k0_off12_inb d0)).PackedRows (EltTy.packing .bf16)
  k0_off13_inb : ∀ d0 : Dev nD, ∀ (r : Fin 3), ∀ a, (k0_off13 d0 (k0_off13_at r)) a + S512x256.size a ≤ S2048x2048.size a
  k0_off13_wordsbf16 : ∀ d0 : Dev nD, ∀ (r : Fin 3), (Rect.unit (s := S2048x2048) (k0_off13 d0 (k0_off13_at r)) S512x256.size (k0_off13_inb d0 r)).WholeWords (EltTy.packing .bf16)
  k0_dev32_lt : ∀ d0 : Dev nD, (k0_dev32 d0) < nD
  k0_off14_inb : ∀ d0 : Dev nD, ∀ a, (k0_off14 d0) a + S512x256.size a ≤ S2048x2048.size a
  k0_off14_packedbf16 : ∀ d0 : Dev nD, (Rect.unit (s := S2048x2048) (k0_off14 d0) S512x256.size (k0_off14_inb d0)).PackedRows (EltTy.packing .bf16)
  k0_off15_inb : ∀ d0 : Dev nD, ∀ (r : Fin 3), ∀ a, (k0_off15 d0 (BitVec.ofNat 32 r.val)) a + S512x256.size a ≤ S2048x2048.size a
  k0_off15_wordsbf16 : ∀ d0 : Dev nD, ∀ (r : Fin 3), (Rect.unit (s := S2048x2048) (k0_off15 d0 (BitVec.ofNat 32 r.val)) S512x256.size (k0_off15_inb d0 r)).WholeWords (EltTy.packing .bf16)
  k0_dev33_lt : ∀ d0 : Dev nD, (k0_dev33 d0) < nD
  k0_off16_inb : ∀ d0 : Dev nD, ∀ a, (k0_off16 d0) a + S512x256.size a ≤ S2048x2048.size a
  k0_off16_packedbf16 : ∀ d0 : Dev nD, (Rect.unit (s := S2048x2048) (k0_off16 d0) S512x256.size (k0_off16_inb d0)).PackedRows (EltTy.packing .bf16)
  k0_off17_inb : ∀ d0 : Dev nD, ∀ (r : Fin 3), ∀ a, (k0_off17 d0 (k0_off17_at r)) a + S512x256.size a ≤ S2048x2048.size a
  k0_off17_wordsbf16 : ∀ d0 : Dev nD, ∀ (r : Fin 3), (Rect.unit (s := S2048x2048) (k0_off17 d0 (k0_off17_at r)) S512x256.size (k0_off17_inb d0 r)).WholeWords (EltTy.packing .bf16)
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  hstage0_0 : ∀ j, (stage0_0 j).IsWhole
  hstage0_1 : ∀ j, (stage0_1 j).IsWhole
  hstage0_2 : ∀ j, (stage0_2 j).IsWhole

variable [Facts₀]

abbrev cc0_scratch2 : DmaSems sig S8x3 := SemArray.consecutive 3 S8x3 hcc0_scratch2
abbrev cc0_scratch3 : DmaSems sig S8x3 := SemArray.consecutive 27 S8x3 hcc0_scratch3
abbrev cc0_scratch4 : DmaSems sig S8x3 := SemArray.consecutive 51 S8x3 hcc0_scratch4
abbrev cc0_scratch5 : DmaSems sig S8x3 := SemArray.consecutive 75 S8x3 hcc0_scratch5
def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x4096 : Shape := ⟨2, ![2048, 4096]⟩
abbrev S4096x2048 : Shape := ⟨2, ![4096, 2048]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bitsLt_bf16_f32 : FTy.bits .bf16 < FTy.bits .f32
  dot_S2048x4096_S4096x2048_S2048x2048_1_0_0_1_n_n_wf : DotDims.WF S2048x4096 S4096x2048 S2048x2048 [1] [0] [0] [1] [] []

variable [Facts₀]

def dot_S2048x4096_S4096x2048_S2048x2048_1_0_0_1_n_n : DotDims S2048x4096 S4096x2048 S2048x2048 where
  lhsContracting := [1]
  rhsContracting := [0]
  lhsNonContracting := [0]
  rhsNonContracting := [1]
  lhsBatch := []
  rhsBatch := []
  wf := dot_S2048x4096_S4096x2048_S2048x2048_1_0_0_1_n_n_wf

class Facts : Prop extends Facts₀ where

variable [Facts]
-- ==== Proof.RefSide.lean ====
/-
  The reference side of the claim. The reference program computes, on one device and over whole arrays
  A : f32[2048, 4096] and B : f32[4096, 2048], the matrix product z = A · B followed by the map
  z ↦ z / (1 + e^(-z)) at every element, and a change of format to bf16. At the ideal values a float is an
  extended real, every operation is exact and a change of format is the identity, so the result at row i and
  column j is the extended-real quotient of z(i, j) = ∑ₖ A(i, k) · B(k, j) by 1 + e^(-z(i, j)).
  Stated here: the program runs and leaves its arguments unchanged; its result array is ONE function `Gref` of
  the argument arrays; and `Gref` read at an index is the closed form above.
-/
import proofs.«900901_g7700000000000902_dist_matmul_silu_kshard_i_m2048_n2048_k1024_v7x_i4_bf16_1_alg».proof.Defs
import proofs.«900901_g7700000000000902_dist_matmul_silu_kshard_i_m2048_n2048_k1024_v7x_i4_bf16_1_alg».proof.Proof.Gen.ReferenceIdeal
import proofs.«900901_g7700000000000902_dist_matmul_silu_kshard_i_m2048_n2048_k1024_v7x_i4_bf16_1_alg».proof.Proof.Gen.Pre_finite_inputs_ReferenceIdeal
import proofs.«900901_g7700000000000902_dist_matmul_silu_kshard_i_m2048_n2048_k1024_v7x_i4_bf16_1_alg».proof.Proof.Gen.ReferenceIdeal.Run
import proofs.«900901_g7700000000000902_dist_matmul_silu_kshard_i_m2048_n2048_k1024_v7x_i4_bf16_1_alg».proof.Proof.Gen.ReferenceIdeal.Read
import Idealize.ShloMosaic.Lib.IdealHost

noncomputable section

namespace Cert.ReferenceIdeal.RefSide

open Cert.ReferenceIdeal Cert.ReferenceIdeal.Gen Idealize.ShloMosaic Idealize.ShloMosaic.TcCoe Idealize.SL.Sem

/-- The reference runs, and its two argument arrays end as they began: the run's post with the result dropped. -/
theorem frame_ri :
    Cert.frame_ReferenceIdeal (hReferenceIdeal := Cert.ReferenceIdeal.Gen.facts)
      (hPre_finite_inputs_ReferenceIdeal := Cert.Pre_finite_inputs_ReferenceIdeal.Gen.facts) :=
  fun m ρ _ =>
    (θ_run Cert.ReferenceIdeal.defs _ _).mono (fun _ h c => (h c).2) (Cert.ReferenceIdeal.Value.run (F := Ideal) m ρ)

/-- The reference's result as a function of its two argument arrays: the product z = A · B, then
    z / (1 + e^(-z)) element by element, then the change of format (the identity on extended reals). -/
def Gref (A : (⟨S2048x4096, .f32⟩ : BufTy).Contents (Elt Ideal)) (B : (⟨S4096x2048, .f32⟩ : BufTy).Contents (Elt Ideal)) :
    (⟨S2048x2048, .bf16⟩ : BufTy).Contents (Elt Ideal) :=
  truncf (F := Ideal) .bf16 (Host.divf (F := Ideal) (Host.dotGeneral (F := Ideal) (φ₁ := .f32) (φ₂ := .f32) dot_S2048x4096_S4096x2048_S2048x2048_1_0_0_1_n_n none A B) (addf (F := Ideal) (broadcastInDim S2048x2048 ![] bcast_S_S2048x2048 (constant (F := Ideal) S_ .f32 0x3F800000#32)) (Host.exp (F := Ideal) (Host.negf (F := Ideal) (Host.dotGeneral (F := Ideal) (φ₁ := .f32) (φ₂ := .f32) dot_S2048x4096_S4096x2048_S2048x2048_1_0_0_1_n_n none A B))))) bitsLt_bf16_f32

/-- `Gref` is the last stage of the reference read one operation at a time. -/
theorem Gref_eq_stage (A : (⟨S2048x4096, .f32⟩ : BufTy).Contents (Elt Ideal)) (B : (⟨S4096x2048, .f32⟩ : BufTy).Contents (Elt Ideal)) :
    Gref A B = Cert.ReferenceIdeal.Read.val_main_v6 (F := Ideal) A B := rfl

/-- The reference's run on its one device: the result array ends at `Gref` of the two argument arrays as they
    were at the start, and the argument arrays end unchanged. -/
theorem run_ref (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      r.2.mem (((0 : Dev Cert.ReferenceIdeal.nD).tc : Thread Cert.ReferenceIdeal.nD Cert.ReferenceIdeal.τ).loc Cert.ReferenceIdeal.main_v6)
          = Gref (m (((0 : Dev Cert.ReferenceIdeal.nD).tc : Thread Cert.ReferenceIdeal.nD Cert.ReferenceIdeal.τ).loc Cert.ReferenceIdeal.main_arg0))
              (m (((0 : Dev Cert.ReferenceIdeal.nD).tc : Thread Cert.ReferenceIdeal.nD Cert.ReferenceIdeal.τ).loc Cert.ReferenceIdeal.main_arg1))
      ∧ r.2.mem (((0 : Dev Cert.ReferenceIdeal.nD).tc : Thread Cert.ReferenceIdeal.nD Cert.ReferenceIdeal.τ).loc Cert.ReferenceIdeal.main_arg0) = m (((0 : Dev Cert.ReferenceIdeal.nD).tc : Thread Cert.ReferenceIdeal.nD Cert.ReferenceIdeal.τ).loc Cert.ReferenceIdeal.main_arg0)
      ∧ r.2.mem (((0 : Dev Cert.ReferenceIdeal.nD).tc : Thread Cert.ReferenceIdeal.nD Cert.ReferenceIdeal.τ).loc Cert.ReferenceIdeal.main_arg1) = m (((0 : Dev Cert.ReferenceIdeal.nD).tc : Thread Cert.ReferenceIdeal.nD Cert.ReferenceIdeal.τ).loc Cert.ReferenceIdeal.main_arg1)) :=
  (θ_run Cert.ReferenceIdeal.defs _ _).mono (fun _ h => h 0) (Cert.ReferenceIdeal.Value.run (F := Ideal) m ρ)

/-- The left operand's index of the product at row i, summand k, is (i, k). -/
theorem lidx_ix2 (i j : Fin 2048) (k : Fin 4096) :
    Cert.ReferenceIdeal.Read.lidx_main_v0 (ValueIdx.ix2 i j) k = ValueIdx.ix2 i k :=
  funext fun a => Fin.ext (by
    match a with
    | ⟨0, _⟩ => rfl
    | ⟨1, _⟩ => rfl)

/-- The right operand's index of the product at column j, summand k, is (k, j). -/
theorem ridx_ix2 (i j : Fin 2048) (k : Fin 4096) :
    Cert.ReferenceIdeal.Read.ridx_main_v0 (ValueIdx.ix2 i j) k = ValueIdx.ix2 k j :=
  funext fun a => Fin.ext (by
    match a with
    | ⟨0, _⟩ => rfl
    | ⟨1, _⟩ => rfl)

/-- The reference's result at row i and column j: with z = ∑ₖ A(i, k) · B(k, j) over the 4096 summands, the
    extended-real quotient of z by 1 + e^(-z). -/
theorem Gref_apply (A : (⟨S2048x4096, .f32⟩ : BufTy).Contents (Elt Ideal)) (B : (⟨S4096x2048, .f32⟩ : BufTy).Contents (Elt Ideal))
    (i : Fin 2048) (j : Fin 2048) :
    Gref A B (ValueIdx.ix2 i j)
      = Ideal.div (∑ k : Fin 4096, (A (ValueIdx.ix2 i k) * B (ValueIdx.ix2 k j) : EReal))
          (1 + Ideal.exp (-(∑ k : Fin 4096, (A (ValueIdx.ix2 i k) * B (ValueIdx.ix2 k j) : EReal)))) := by
  rw [Gref_eq_stage, Cert.ReferenceIdeal.Read.val_main_v6_apply, Cert.ReferenceIdeal.Read.val_main_v5_apply,
    Cert.ReferenceIdeal.Read.val_main_v4_apply, Cert.ReferenceIdeal.Read.val_main_v3_apply,
    Cert.ReferenceIdeal.Read.val_main_cst_apply, Cert.ReferenceIdeal.Read.val_main_v2_apply,
    Cert.ReferenceIdeal.Read.val_main_v1_apply, Cert.ReferenceIdeal.Read.val_main_v0_apply]
  simp only [lidx_ix2, ridx_ix2, Ideal.truncf_def, Ideal.hostDivf_def, Ideal.addf_def, Ideal.ofBits_def,
    Ideal.hostUnary_exp_def, Ideal.hostNegf_def, Ideal.negf_def, Ideal.ofBits_one_f32]

end Cert.ReferenceIdeal.RefSide

end
-- ==== Proof.RingArith.lean ====
import proofs.«900901_g7700000000000902_dist_matmul_silu_kshard_i_m2048_n2048_k1024_v7x_i4_bf16_1_alg».proof.Proof.Gen.KernelIdeal
import Idealize.ShloMosaic.Lib.Tactic

/-!
# Ring arithmetic of the four-device mesh

The four devices stand on a ring: the successor of device `c` is `c + 1` modulo 4, its predecessor
`c + 3` modulo 4. The printed program computes every addressed device and every row offset by a
chain of 32-bit integer operations on the device's own position (a signed remainder by 4 followed by
the correction that makes the remainder non-negative). This module evaluates each chain at the four
positions and records the result in closed form:

* every device chain is the successor or the predecessor on the ring;
* every row offset is `512 * chunk c k`, where `chunk c k = (c + k) mod 4` is the number of the
  512-row band that device `c` works on at ring distance `k`; the column offset is a literal, the
  number of the chain times 256.

A chain that subtracts the word `w` from the position reaches the band `(c - w) mod 4`, that is
`chunk c ((4 - w mod 4) mod 4)`: the words 1, -3 give distance 3; -1, 3 give 1; 2, -2 give 2; 0, 4,
-4 give 0.
-/

namespace Cert.KernelIdeal.P

open Cert.KernelIdeal Cert.KernelIdeal.Gen Idealize.ShloMosaic

/-! ## The ring -/

/-- The successor of `c` on the ring of four: `c + 1` modulo 4. -/
def nxt (c : Dev nD) : Dev nD := ⟨(c.val + 1) % 4, Nat.mod_lt _ (by decide)⟩

/-- The predecessor of `c` on the ring of four: `c - 1`, that is `c + 3`, modulo 4. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide
theorem nxt_ne_prv (c : Dev nD) : nxt c ≠ prv c := by revert c; decide
theorem nxt_ne_self (c : Dev nD) : nxt c ≠ c := by revert c; decide
theorem prv_ne_self (c : Dev nD) : prv c ≠ c := by revert c; decide
/-- Two steps forward and two steps back meet: the ring has four places. -/
theorem nxt_nxt_eq_prv_prv (c : Dev nD) : nxt (nxt c) = prv (prv c) := by revert c; decide
theorem nxt_nxt_ne_self (c : Dev nD) : nxt (nxt c) ≠ c := by revert c; decide
theorem nxt_nxt_ne_nxt (c : Dev nD) : nxt (nxt c) ≠ nxt c := by revert c; decide
theorem nxt_nxt_ne_prv (c : Dev nD) : nxt (nxt c) ≠ prv c := by revert c; decide
theorem nxt_nxt_nxt (c : Dev nD) : nxt (nxt (nxt c)) = prv c := by revert c; decide
theorem prv_prv_prv (c : Dev nD) : prv (prv (prv c)) = nxt c := by revert c; decide
theorem nxt_injective : Function.Injective nxt := by decide
theorem prv_injective : Function.Injective prv := by decide

/-- One step forward is a permutation of the devices; its inverse is one step back. -/
def ring : Dev nD ≃ Dev nD := ⟨nxt, prv, prv_nxt, nxt_prv⟩

@[simp] theorem ring_apply (c : Dev nD) : ring c = nxt c := rfl
@[simp] theorem ring_symm_apply (c : Dev nD) : ring.symm c = prv c := rfl

/-! ## Row bands -/

/-- The number of the 512-row band at ring distance `k` from device `c`: `(c + k) mod 4`.
    Distance 3 is one step back. -/
def chunk (c : Dev nD) (k : Nat) : Nat := (c.val + k) % 4

theorem chunk_lt (c : Dev nD) (k : Nat) : chunk c k < 4 := Nat.mod_lt _ (by decide)
theorem chunk_zero (c : Dev nD) : chunk c 0 = c.val := by revert c; decide
theorem nxt_val (c : Dev nD) : (nxt c).val = chunk c 1 := rfl
theorem prv_val (c : Dev nD) : (prv c).val = chunk c 3 := rfl
theorem chunk_add_four (c : Dev nD) (k : Nat) : chunk c (k + 4) = chunk c k := by
  unfold chunk; omega
theorem chunk_mod (c : Dev nD) (k : Nat) : chunk c (k % 4) = chunk c k := by
  unfold chunk; omega

/-- The band at distance `k` from the successor is the band at distance `k + 1` from `c`. -/
theorem chunk_nxt (c : Dev nD) (k : Nat) : chunk (nxt c) k = chunk c (k + 1) := by
  unfold chunk nxt; simp only []; omega
/-- The band at distance `k + 1` from the predecessor is the band at distance `k` from `c`. -/
theorem chunk_prv (c : Dev nD) (k : Nat) : chunk (prv c) (k + 1) = chunk c k := by
  unfold chunk prv; simp only []; omega

theorem chunk_nxt_0 (c : Dev nD) : chunk (nxt c) 0 = chunk c 1 := by revert c; decide
theorem chunk_nxt_1 (c : Dev nD) : chunk (nxt c) 1 = chunk c 2 := by revert c; decide
theorem chunk_nxt_2 (c : Dev nD) : chunk (nxt c) 2 = chunk c 3 := by revert c; decide
theorem chunk_nxt_3 (c : Dev nD) : chunk (nxt c) 3 = chunk c 0 := by revert c; decide
theorem chunk_prv_0 (c : Dev nD) : chunk (prv c) 0 = chunk c 3 := by revert c; decide
theorem chunk_prv_1 (c : Dev nD) : chunk (prv c) 1 = chunk c 0 := by revert c; decide
theorem chunk_prv_2 (c : Dev nD) : chunk (prv c) 2 = chunk c 1 := by revert c; decide
theorem chunk_prv_3 (c : Dev nD) : chunk (prv c) 3 = chunk c 2 := by revert c; decide

/-- At one device the four distances reach four different bands. -/
theorem chunk_inj (c : Dev nD) : ∀ j k : Fin 4, chunk c j.val = chunk c k.val → j = k := by
  revert c; decide
theorem chunk_ne_01 (c : Dev nD) : chunk c 0 ≠ chunk c 1 := by revert c; decide
theorem chunk_ne_02 (c : Dev nD) : chunk c 0 ≠ chunk c 2 := by revert c; decide
theorem chunk_ne_03 (c : Dev nD) : chunk c 0 ≠ chunk c 3 := by revert c; decide
theorem chunk_ne_12 (c : Dev nD) : chunk c 1 ≠ chunk c 2 := by revert c; decide
theorem chunk_ne_13 (c : Dev nD) : chunk c 1 ≠ chunk c 3 := by revert c; decide
theorem chunk_ne_23 (c : Dev nD) : chunk c 2 ≠ chunk c 3 := by revert c; decide

/-- A band of 512 rows starting at `512 * chunk c k` ends inside the 2048 rows. -/
theorem chunk_rows_le (c : Dev nD) (k : Nat) : 512 * chunk c k + 512 ≤ 2048 := by
  have := chunk_lt c k; omega

/-! ## The addressed devices

Each chain adds 1, subtracts 1 or adds the word -1 to the position and reduces modulo 4 with a
non-negative remainder: the result is the successor or the predecessor. -/

@[sl_canon] theorem dev1_eq (c : Dev nD) : (⟨k0_dev1 c, k0_dev1_lt c⟩ : Dev nD) = prv c := by
  revert c; decide +kernel
@[sl_canon] theorem dev2_eq (c : Dev nD) : (⟨k0_dev2 c, k0_dev2_lt c⟩ : Dev nD) = nxt c := by
  revert c; decide +kernel
@[sl_canon] theorem dev3_eq (c : Dev nD) : (⟨k0_dev3 c, k0_dev3_lt c⟩ : Dev nD) = nxt c := by
  revert c; decide +kernel
@[sl_canon] theorem dev4_eq (c : Dev nD) : (⟨k0_dev4 c, k0_dev4_lt c⟩ : Dev nD) = prv c := by
  revert c; decide +kernel
@[sl_canon] theorem dev5_eq (c : Dev nD) : (⟨k0_dev5 c, k0_dev5_lt c⟩ : Dev nD) = nxt c := by
  revert c; decide +kernel
@[sl_canon] theorem dev6_eq (c : Dev nD) : (⟨k0_dev6 c, k0_dev6_lt c⟩ : Dev nD) = prv c := by
  revert c; decide +kernel
@[sl_canon] theorem dev7_eq (c : Dev nD) : (⟨k0_dev7 c, k0_dev7_lt c⟩ : Dev nD) = nxt c := by
  revert c; decide +kernel
@[sl_canon] theorem dev8_eq (c : Dev nD) : (⟨k0_dev8 c, k0_dev8_lt c⟩ : Dev nD) = prv c := by
  revert c; decide +kernel
@[sl_canon] theorem dev9_eq (c : Dev nD) : (⟨k0_dev9 c, k0_dev9_lt c⟩ : Dev nD) = nxt c := by
  revert c; decide +kernel
@[sl_canon] theorem dev10_eq (c : Dev nD) : (⟨k0_dev10 c, k0_dev10_lt c⟩ : Dev nD) = prv c := by
  revert c; decide +kernel
@[sl_canon] theorem dev11_eq (c : Dev nD) : (⟨k0_dev11 c, k0_dev11_lt c⟩ : Dev nD) = nxt c := by
  revert c; decide +kernel
@[sl_canon] theorem dev12_eq (c : Dev nD) : (⟨k0_dev12 c, k0_dev12_lt c⟩ : Dev nD) = prv c := by
  revert c; decide +kernel
@[sl_canon] theorem dev13_eq (c : Dev nD) : (⟨k0_dev13 c, k0_dev13_lt c⟩ : Dev nD) = nxt c := by
  revert c; decide +kernel
@[sl_canon] theorem dev14_eq (c : Dev nD) : (⟨k0_dev14 c, k0_dev14_lt c⟩ : Dev nD) = prv c := by
  revert c; decide +kernel
@[sl_canon] theorem dev15_eq (c : Dev nD) : (⟨k0_dev15 c, k0_dev15_lt c⟩ : Dev nD) = nxt c := by
  revert c; decide +kernel
@[sl_canon] theorem dev16_eq (c : Dev nD) : (⟨k0_dev16 c, k0_dev16_lt c⟩ : Dev nD) = prv c := by
  revert c; decide +kernel
@[sl_canon] theorem dev17_eq (c : Dev nD) : (⟨k0_dev17 c, k0_dev17_lt c⟩ : Dev nD) = nxt c := by
  revert c; decide +kernel
@[sl_canon] theorem dev18_eq (c : Dev nD) : (⟨k0_dev18 c, k0_dev18_lt c⟩ : Dev nD) = prv c := by
  revert c; decide +kernel
@[sl_canon] theorem dev19_eq (c : Dev nD) : (⟨k0_dev19 c, k0_dev19_lt c⟩ : Dev nD) = nxt c := by
  revert c; decide +kernel
@[sl_canon] theorem dev20_eq (c : Dev nD) : (⟨k0_dev20 c, k0_dev20_lt c⟩ : Dev nD) = prv c := by
  revert c; decide +kernel
@[sl_canon] theorem dev21_eq (c : Dev nD) : (⟨k0_dev21 c, k0_dev21_lt c⟩ : Dev nD) = nxt c := by
  revert c; decide +kernel
@[sl_canon] theorem dev22_eq (c : Dev nD) : (⟨k0_dev22 c, k0_dev22_lt c⟩ : Dev nD) = prv c := by
  revert c; decide +kernel
@[sl_canon] theorem dev23_eq (c : Dev nD) : (⟨k0_dev23 c, k0_dev23_lt c⟩ : Dev nD) = nxt c := by
  revert c; decide +kernel
@[sl_canon] theorem dev24_eq (c : Dev nD) : (⟨k0_dev24 c, k0_dev24_lt c⟩ : Dev nD) = prv c := by
  revert c; decide +kernel
@[sl_canon] theorem dev25_eq (c : Dev nD) : (⟨k0_dev25 c, k0_dev25_lt c⟩ : Dev nD) = nxt c := by
  revert c; decide +kernel
@[sl_canon] theorem dev26_eq (c : Dev nD) : (⟨k0_dev26 c, k0_dev26_lt c⟩ : Dev nD) = prv c := by
  revert c; decide +kernel
@[sl_canon] theorem dev27_eq (c : Dev nD) : (⟨k0_dev27 c, k0_dev27_lt c⟩ : Dev nD) = nxt c := by
  revert c; decide +kernel
@[sl_canon] theorem dev28_eq (c : Dev nD) : (⟨k0_dev28 c, k0_dev28_lt c⟩ : Dev nD) = prv c := by
  revert c; decide +kernel
@[sl_canon] theorem dev29_eq (c : Dev nD) : (⟨k0_dev29 c, k0_dev29_lt c⟩ : Dev nD) = nxt c := by
  revert c; decide +kernel
@[sl_canon] theorem dev30_eq (c : Dev nD) : (⟨k0_dev30 c, k0_dev30_lt c⟩ : Dev nD) = prv c := by
  revert c; decide +kernel
@[sl_canon] theorem dev31_eq (c : Dev nD) : (⟨k0_dev31 c, k0_dev31_lt c⟩ : Dev nD) = nxt c := by
  revert c; decide +kernel
@[sl_canon] theorem dev32_eq (c : Dev nD) : (⟨k0_dev32 c, k0_dev32_lt c⟩ : Dev nD) = prv c := by
  revert c; decide +kernel
@[sl_canon] theorem dev33_eq (c : Dev nD) : (⟨k0_dev33 c, k0_dev33_lt c⟩ : Dev nD) = nxt c := by
  revert c; decide +kernel
@[sl_canon] theorem dev34_eq (c : Dev nD) : (⟨k0_dev34 c, k0_dev34_lt c⟩ : Dev nD) = prv c := by
  revert c; decide +kernel
@[sl_canon] theorem dev35_eq (c : Dev nD) : (⟨k0_dev35 c, k0_dev35_lt c⟩ : Dev nD) = nxt c := by
  revert c; decide +kernel
@[sl_canon] theorem dev36_eq (c : Dev nD) : (⟨k0_dev36 c, k0_dev36_lt c⟩ : Dev nD) = prv c := by
  revert c; decide +kernel
@[sl_canon] theorem dev37_eq (c : Dev nD) : (⟨k0_dev37 c, k0_dev37_lt c⟩ : Dev nD) = nxt c := by
  revert c; decide +kernel
@[sl_canon] theorem dev38_eq (c : Dev nD) : (⟨k0_dev38 c, k0_dev38_lt c⟩ : Dev nD) = prv c := by
  revert c; decide +kernel
@[sl_canon] theorem dev39_eq (c : Dev nD) : (⟨k0_dev39 c, k0_dev39_lt c⟩ : Dev nD) = nxt c := by
  revert c; decide +kernel
@[sl_canon] theorem dev40_eq (c : Dev nD) : (⟨k0_dev40 c, k0_dev40_lt c⟩ : Dev nD) = prv c := by
  revert c; decide +kernel
@[sl_canon] theorem dev41_eq (c : Dev nD) : (⟨k0_dev41 c, k0_dev41_lt c⟩ : Dev nD) = nxt c := by
  revert c; decide +kernel
@[sl_canon] theorem dev42_eq (c : Dev nD) : (⟨k0_dev42 c, k0_dev42_lt c⟩ : Dev nD) = prv c := by
  revert c; decide +kernel
@[sl_canon] theorem dev43_eq (c : Dev nD) : (⟨k0_dev43 c, k0_dev43_lt c⟩ : Dev nD) = nxt c := by
  revert c; decide +kernel
@[sl_canon] theorem dev44_eq (c : Dev nD) : (⟨k0_dev44 c, k0_dev44_lt c⟩ : Dev nD) = prv c := by
  revert c; decide +kernel
@[sl_canon] theorem dev45_eq (c : Dev nD) : (⟨k0_dev45 c, k0_dev45_lt c⟩ : Dev nD) = nxt c := by
  revert c; decide +kernel
@[sl_canon] theorem dev46_eq (c : Dev nD) : (⟨k0_dev46 c, k0_dev46_lt c⟩ : Dev nD) = prv c := by
  revert c; decide +kernel
@[sl_canon] theorem dev47_eq (c : Dev nD) : (⟨k0_dev47 c, k0_dev47_lt c⟩ : Dev nD) = nxt c := by
  revert c; decide +kernel
@[sl_canon] theorem dev48_eq (c : Dev nD) : (⟨k0_dev48 c, k0_dev48_lt c⟩ : Dev nD) = prv c := by
  revert c; decide +kernel
@[sl_canon] theorem dev49_eq (c : Dev nD) : (⟨k0_dev49 c, k0_dev49_lt c⟩ : Dev nD) = nxt c := by
  revert c; decide +kernel
@[sl_canon] theorem dev50_eq (c : Dev nD) : (⟨k0_dev50 c, k0_dev50_lt c⟩ : Dev nD) = prv c := by
  revert c; decide +kernel

/-! The same equations between natural numbers. -/

theorem dev1_val (c : Dev nD) : k0_dev1 c = (prv c).val := congrArg Fin.val (dev1_eq c)
theorem dev2_val (c : Dev nD) : k0_dev2 c = (nxt c).val := congrArg Fin.val (dev2_eq c)
theorem dev3_val (c : Dev nD) : k0_dev3 c = (nxt c).val := congrArg Fin.val (dev3_eq c)
theorem dev4_val (c : Dev nD) : k0_dev4 c = (prv c).val := congrArg Fin.val (dev4_eq c)
theorem dev5_val (c : Dev nD) : k0_dev5 c = (nxt c).val := congrArg Fin.val (dev5_eq c)
theorem dev6_val (c : Dev nD) : k0_dev6 c = (prv c).val := congrArg Fin.val (dev6_eq c)
theorem dev7_val (c : Dev nD) : k0_dev7 c = (nxt c).val := congrArg Fin.val (dev7_eq c)
theorem dev8_val (c : Dev nD) : k0_dev8 c = (prv c).val := congrArg Fin.val (dev8_eq c)
theorem dev9_val (c : Dev nD) : k0_dev9 c = (nxt c).val := congrArg Fin.val (dev9_eq c)
theorem dev10_val (c : Dev nD) : k0_dev10 c = (prv c).val := congrArg Fin.val (dev10_eq c)
theorem dev11_val (c : Dev nD) : k0_dev11 c = (nxt c).val := congrArg Fin.val (dev11_eq c)
theorem dev12_val (c : Dev nD) : k0_dev12 c = (prv c).val := congrArg Fin.val (dev12_eq c)
theorem dev13_val (c : Dev nD) : k0_dev13 c = (nxt c).val := congrArg Fin.val (dev13_eq c)
theorem dev14_val (c : Dev nD) : k0_dev14 c = (prv c).val := congrArg Fin.val (dev14_eq c)
theorem dev15_val (c : Dev nD) : k0_dev15 c = (nxt c).val := congrArg Fin.val (dev15_eq c)
theorem dev16_val (c : Dev nD) : k0_dev16 c = (prv c).val := congrArg Fin.val (dev16_eq c)
theorem dev17_val (c : Dev nD) : k0_dev17 c = (nxt c).val := congrArg Fin.val (dev17_eq c)
theorem dev18_val (c : Dev nD) : k0_dev18 c = (prv c).val := congrArg Fin.val (dev18_eq c)
theorem dev19_val (c : Dev nD) : k0_dev19 c = (nxt c).val := congrArg Fin.val (dev19_eq c)
theorem dev20_val (c : Dev nD) : k0_dev20 c = (prv c).val := congrArg Fin.val (dev20_eq c)
theorem dev21_val (c : Dev nD) : k0_dev21 c = (nxt c).val := congrArg Fin.val (dev21_eq c)
theorem dev22_val (c : Dev nD) : k0_dev22 c = (prv c).val := congrArg Fin.val (dev22_eq c)
theorem dev23_val (c : Dev nD) : k0_dev23 c = (nxt c).val := congrArg Fin.val (dev23_eq c)
theorem dev24_val (c : Dev nD) : k0_dev24 c = (prv c).val := congrArg Fin.val (dev24_eq c)
theorem dev25_val (c : Dev nD) : k0_dev25 c = (nxt c).val := congrArg Fin.val (dev25_eq c)
theorem dev26_val (c : Dev nD) : k0_dev26 c = (prv c).val := congrArg Fin.val (dev26_eq c)
theorem dev27_val (c : Dev nD) : k0_dev27 c = (nxt c).val := congrArg Fin.val (dev27_eq c)
theorem dev28_val (c : Dev nD) : k0_dev28 c = (prv c).val := congrArg Fin.val (dev28_eq c)
theorem dev29_val (c : Dev nD) : k0_dev29 c = (nxt c).val := congrArg Fin.val (dev29_eq c)
theorem dev30_val (c : Dev nD) : k0_dev30 c = (prv c).val := congrArg Fin.val (dev30_eq c)
theorem dev31_val (c : Dev nD) : k0_dev31 c = (nxt c).val := congrArg Fin.val (dev31_eq c)
theorem dev32_val (c : Dev nD) : k0_dev32 c = (prv c).val := congrArg Fin.val (dev32_eq c)
theorem dev33_val (c : Dev nD) : k0_dev33 c = (nxt c).val := congrArg Fin.val (dev33_eq c)
theorem dev34_val (c : Dev nD) : k0_dev34 c = (prv c).val := congrArg Fin.val (dev34_eq c)
theorem dev35_val (c : Dev nD) : k0_dev35 c = (nxt c).val := congrArg Fin.val (dev35_eq c)
theorem dev36_val (c : Dev nD) : k0_dev36 c = (prv c).val := congrArg Fin.val (dev36_eq c)
theorem dev37_val (c : Dev nD) : k0_dev37 c = (nxt c).val := congrArg Fin.val (dev37_eq c)
theorem dev38_val (c : Dev nD) : k0_dev38 c = (prv c).val := congrArg Fin.val (dev38_eq c)
theorem dev39_val (c : Dev nD) : k0_dev39 c = (nxt c).val := congrArg Fin.val (dev39_eq c)
theorem dev40_val (c : Dev nD) : k0_dev40 c = (prv c).val := congrArg Fin.val (dev40_eq c)
theorem dev41_val (c : Dev nD) : k0_dev41 c = (nxt c).val := congrArg Fin.val (dev41_eq c)
theorem dev42_val (c : Dev nD) : k0_dev42 c = (prv c).val := congrArg Fin.val (dev42_eq c)
theorem dev43_val (c : Dev nD) : k0_dev43 c = (nxt c).val := congrArg Fin.val (dev43_eq c)
theorem dev44_val (c : Dev nD) : k0_dev44 c = (prv c).val := congrArg Fin.val (dev44_eq c)
theorem dev45_val (c : Dev nD) : k0_dev45 c = (nxt c).val := congrArg Fin.val (dev45_eq c)
theorem dev46_val (c : Dev nD) : k0_dev46 c = (prv c).val := congrArg Fin.val (dev46_eq c)
theorem dev47_val (c : Dev nD) : k0_dev47 c = (nxt c).val := congrArg Fin.val (dev47_eq c)
theorem dev48_val (c : Dev nD) : k0_dev48 c = (prv c).val := congrArg Fin.val (dev48_eq c)
theorem dev49_val (c : Dev nD) : k0_dev49 c = (nxt c).val := congrArg Fin.val (dev49_eq c)
theorem dev50_val (c : Dev nD) : k0_dev50 c = (prv c).val := congrArg Fin.val (dev50_eq c)

/-! ## The offsets of the left operand's row bands

The matmul of a step reads the 512 rows of the left block that belong to the band `(c - w) mod 4`,
all 1024 columns. -/

theorem off1_eq_1 (c : Dev nD) : k0_off1 c 1#32 = ![512 * chunk c 3, 0] := by
  revert c; decide +kernel
theorem off1_eq_m1 (c : Dev nD) : k0_off1 c 4294967295#32 = ![512 * chunk c 1, 0] := by
  revert c; decide +kernel
theorem off1_eq_2 (c : Dev nD) : k0_off1 c 2#32 = ![512 * chunk c 2, 0] := by
  revert c; decide +kernel
theorem off1_eq_m2 (c : Dev nD) : k0_off1 c 4294967294#32 = ![512 * chunk c 2, 0] := by
  revert c; decide +kernel
theorem off1_eq_3 (c : Dev nD) : k0_off1 c 3#32 = ![512 * chunk c 1, 0] := by
  revert c; decide +kernel
theorem off1_eq_m3 (c : Dev nD) : k0_off1 c 4294967293#32 = ![512 * chunk c 3, 0] := by
  revert c; decide +kernel
theorem off1_eq_4 (c : Dev nD) : k0_off1 c 4#32 = ![512 * chunk c 0, 0] := by
  revert c; decide +kernel
theorem off1_eq_m4 (c : Dev nD) : k0_off1 c 4294967292#32 = ![512 * chunk c 0, 0] := by
  revert c; decide +kernel

/-! ## The offsets into the result

A device's own band, one theorem per chain: the column is the chain's number times 256. -/

theorem off2_eq (c : Dev nD) : k0_off2 c = ![512 * chunk c 0, 0] := by
  revert c; decide +kernel
theorem off4_eq (c : Dev nD) : k0_off4 c = ![512 * chunk c 0, 1024] := by
  revert c; decide +kernel
theorem off6_eq (c : Dev nD) : k0_off6 c = ![512 * chunk c 0, 256] := by
  revert c; decide +kernel
theorem off8_eq (c : Dev nD) : k0_off8 c = ![512 * chunk c 0, 1280] := by
  revert c; decide +kernel
theorem off10_eq (c : Dev nD) : k0_off10 c = ![512 * chunk c 0, 512] := by
  revert c; decide +kernel
theorem off12_eq (c : Dev nD) : k0_off12 c = ![512 * chunk c 0, 1536] := by
  revert c; decide +kernel
theorem off14_eq (c : Dev nD) : k0_off14 c = ![512 * chunk c 0, 768] := by
  revert c; decide +kernel
theorem off16_eq (c : Dev nD) : k0_off16 c = ![512 * chunk c 0, 1792] := by
  revert c; decide +kernel

/-! The band a gathered block is copied from and to. The chains that travel forward subtract the
words 0, 1, 2 (bands at distances 0, 3, 2); the chains that travel backward subtract 0, -1, -2
(distances 0, 1, 2). -/

theorem off3_eq_0 (c : Dev nD) : k0_off3 c 0#32 = ![512 * chunk c 0, 0] := by
  revert c; decide +kernel
theorem off3_eq_1 (c : Dev nD) : k0_off3 c 1#32 = ![512 * chunk c 3, 0] := by
  revert c; decide +kernel
theorem off3_eq_2 (c : Dev nD) : k0_off3 c 2#32 = ![512 * chunk c 2, 0] := by
  revert c; decide +kernel
theorem off5_eq_0 (c : Dev nD) : k0_off5 c 0#32 = ![512 * chunk c 0, 1024] := by
  revert c; decide +kernel
theorem off5_eq_m1 (c : Dev nD) : k0_off5 c 4294967295#32 = ![512 * chunk c 1, 1024] := by
  revert c; decide +kernel
theorem off5_eq_m2 (c : Dev nD) : k0_off5 c 4294967294#32 = ![512 * chunk c 2, 1024] := by
  revert c; decide +kernel
theorem off7_eq_0 (c : Dev nD) : k0_off7 c 0#32 = ![512 * chunk c 0, 256] := by
  revert c; decide +kernel
theorem off7_eq_1 (c : Dev nD) : k0_off7 c 1#32 = ![512 * chunk c 3, 256] := by
  revert c; decide +kernel
theorem off7_eq_2 (c : Dev nD) : k0_off7 c 2#32 = ![512 * chunk c 2, 256] := by
  revert c; decide +kernel
theorem off9_eq_0 (c : Dev nD) : k0_off9 c 0#32 = ![512 * chunk c 0, 1280] := by
  revert c; decide +kernel
theorem off9_eq_m1 (c : Dev nD) : k0_off9 c 4294967295#32 = ![512 * chunk c 1, 1280] := by
  revert c; decide +kernel
theorem off9_eq_m2 (c : Dev nD) : k0_off9 c 4294967294#32 = ![512 * chunk c 2, 1280] := by
  revert c; decide +kernel
theorem off11_eq_0 (c : Dev nD) : k0_off11 c 0#32 = ![512 * chunk c 0, 512] := by
  revert c; decide +kernel
theorem off11_eq_1 (c : Dev nD) : k0_off11 c 1#32 = ![512 * chunk c 3, 512] := by
  revert c; decide +kernel
theorem off11_eq_2 (c : Dev nD) : k0_off11 c 2#32 = ![512 * chunk c 2, 512] := by
  revert c; decide +kernel
theorem off13_eq_0 (c : Dev nD) : k0_off13 c 0#32 = ![512 * chunk c 0, 1536] := by
  revert c; decide +kernel
theorem off13_eq_m1 (c : Dev nD) : k0_off13 c 4294967295#32 = ![512 * chunk c 1, 1536] := by
  revert c; decide +kernel
theorem off13_eq_m2 (c : Dev nD) : k0_off13 c 4294967294#32 = ![512 * chunk c 2, 1536] := by
  revert c; decide +kernel
theorem off15_eq_0 (c : Dev nD) : k0_off15 c 0#32 = ![512 * chunk c 0, 768] := by
  revert c; decide +kernel
theorem off15_eq_1 (c : Dev nD) : k0_off15 c 1#32 = ![512 * chunk c 3, 768] := by
  revert c; decide +kernel
theorem off15_eq_2 (c : Dev nD) : k0_off15 c 2#32 = ![512 * chunk c 2, 768] := by
  revert c; decide +kernel
theorem off17_eq_0 (c : Dev nD) : k0_off17 c 0#32 = ![512 * chunk c 0, 1792] := by
  revert c; decide +kernel
theorem off17_eq_m1 (c : Dev nD) : k0_off17 c 4294967295#32 = ![512 * chunk c 1, 1792] := by
  revert c; decide +kernel
theorem off17_eq_m2 (c : Dev nD) : k0_off17 c 4294967294#32 = ![512 * chunk c 2, 1792] := by
  revert c; decide +kernel

/-! The words the backward chains are printed with, by their row number in the printed table. -/

theorem off5_at_eq : k0_off5_at 0 = 0#32 ∧ k0_off5_at 1 = 4294967295#32 ∧ k0_off5_at 2 = 4294967294#32 := by decide
theorem off9_at_eq : k0_off9_at 0 = 0#32 ∧ k0_off9_at 1 = 4294967295#32 ∧ k0_off9_at 2 = 4294967294#32 := by decide
theorem off13_at_eq : k0_off13_at 0 = 0#32 ∧ k0_off13_at 1 = 4294967295#32 ∧ k0_off13_at 2 = 4294967294#32 := by decide
theorem off17_at_eq : k0_off17_at 0 = 0#32 ∧ k0_off17_at 1 = 4294967295#32 ∧ k0_off17_at 2 = 4294967294#32 := by decide
theorem off1_at_eq : k0_off1_at 0 = 1#32 ∧ k0_off1_at 1 = 4294967295#32 ∧ k0_off1_at 2 = 2#32 ∧ k0_off1_at 3 = 4294967294#32 ∧
    k0_off1_at 4 = 3#32 ∧ k0_off1_at 5 = 4294967293#32 ∧ k0_off1_at 6 = 4#32 ∧ k0_off1_at 7 = 4294967292#32 := by decide

/-- info: 'Cert.KernelIdeal.P.dev1_eq' depends on axioms: [propext, Quot.sound] -/
#guard_msgs in #print axioms dev1_eq

/-- info: 'Cert.KernelIdeal.P.off1_eq_m3' depends on axioms: [propext, Classical.choice, Quot.sound] -/
#guard_msgs in #print axioms off1_eq_m3

/-- info: 'Cert.KernelIdeal.P.off17_eq_m2' depends on axioms: [propext, Classical.choice, Quot.sound] -/
#guard_msgs in #print axioms off17_eq_m2

end Cert.KernelIdeal.P
-- ==== Proof.Contents.lean ====
import proofs.«900901_g7700000000000902_dist_matmul_silu_kshard_i_m2048_n2048_k1024_v7x_i4_bf16_1_alg».proof.Proof.Gen.KernelIdeal
import proofs.«900901_g7700000000000902_dist_matmul_silu_kshard_i_m2048_n2048_k1024_v7x_i4_bf16_1_alg».proof.Proof.Gen.KernelIdeal.Skeleton
import proofs.«900901_g7700000000000902_dist_matmul_silu_kshard_i_m2048_n2048_k1024_v7x_i4_bf16_1_alg».proof.Proof.RingArith

/-!
The values the distributed kernel moves around the ring, as pure functions of the devices' argument blocks.

Device `c` holds the column block `A_c` (2048 × 1024) of `A` and the row block `B_c` (1024 × 2048) of `B`.
The result is cut in 4 row chunks of 512 rows and 8 column slices ("chains") of 256 columns.  For row chunk `r`
and chain `ci` device `c` contributes the partial product `part c r ci = A_c[rows r] · B_c[cols ci]`.
Chains 0–3 travel to the next device, chains 4–7 to the previous one.  At step `h` of the reduce-scatter a
device adds its own partial product for the chunk that is passing through to what it received; after three
steps chunk `c` is complete on device `c`, which applies `silu` to it; the all-gather then copies every
finished block to every device.
-/

noncomputable section

namespace Cert.KernelIdeal.P

open Cert.KernelIdeal Cert.KernelIdeal.Gen Idealize.ShloMosaic

variable {F : FTy → Type} [FloatOps F]

/-- Contents of a device's block of `A`, of `B`, of the result, and of the reduce-scatter scratch. -/
abbrev AT (F : FTy → Type) : Type := (⟨S2048x1024, .f32⟩ : BufTy).Contents (Elt F)
abbrev BT (F : FTy → Type) : Type := (⟨S1024x2048, .f32⟩ : BufTy).Contents (Elt F)
abbrev OT (F : FTy → Type) : Type := (⟨S2048x2048, .bf16⟩ : BufTy).Contents (Elt F)
abbrev RT (F : FTy → Type) : Type := (⟨S8x4x512x256, .bf16⟩ : BufTy).Contents (Elt F)
abbrev BbT (F : FTy → Type) : Type := (⟨S1024x2048, .bf16⟩ : BufTy).Contents (Elt F)
/-- One 512 × 256 block in the transport format. -/
abbrev Blk (F : FTy → Type) : Type := FVec F S512x256 .bf16

theorem rows_inb (r : ℕ) (hr : r < 4) : ∀ a, (![512 * r, 0] : Fin 2 → Nat) a + S512x1024.size a ≤ S2048x1024.size a := by
  intro a; fin_cases a
  · show 512 * r + 512 ≤ 2048; omega
  · show 0 + 1024 ≤ 1024; omega

theorem cols_inb (ci : ℕ) (hci : ci < 8) : ∀ a, (![0, 256 * ci] : Fin 2 → Nat) a + S1024x256.size a ≤ S1024x2048.size a := by
  intro a; fin_cases a
  · show 0 + 1024 ≤ 1024; omega
  · show 256 * ci + 256 ≤ 2048; omega

/-- Rows `512 r … 512 r + 511` of a device's block of `A`. -/
def aRows (fa : AT F) (r : ℕ) (hr : r < 4) : Vec F S512x1024 .f32 :=
  (Memref.whole cc0_stg0_0 : Memref sig .tc .vmem S2048x1024 .f32).view.readAt (Elt F) (Rect.unit (s := S2048x1024) ![512 * r, 0] S512x1024.size (rows_inb r hr)).toLoadRect fa

/-- The device's block of `B` in the transport format. -/
def bBf (fb : BT F) : BbT F := k0_pay1 fb

/-- Columns `256 ci … 256 ci + 255` of it. -/
def bCols (fb : BT F) (ci : ℕ) (hci : ci < 8) : Vec F S1024x256 .bf16 :=
  (Memref.whole cc0_scratch1 : Memref sig .tc .vmem S1024x2048 .bf16).view.readAt (Elt F) (Rect.unit (s := S1024x2048) ![0, 256 * ci] S1024x256.size (cols_inb ci hci)).toLoadRect (bBf fb)

/-- The matrix product of a row chunk (narrowed to the transport format) with a column slice, into a zero accumulator. -/
def mm (a : Vec F S512x1024 .f32) (b : Vec F S1024x256 .bf16) : FVec F S512x256 .f32 :=
  matmul dot_S512x1024_S1024x256_S512x256_1_0_0_1_n_n none (truncf .bf16 (shapeCast S512x1024 a shapeCasts_S512x1024_S512x1024) bitsLt_bf16_f32) b
    (constant S512x256 .f32 0x00000000#32)

/-- Device data `(fa, fb)`'s partial product for row chunk `r`, chain `ci`. -/
def part (fa : AT F) (fb : BT F) (r : ℕ) (hr : r < 4) (ci : ℕ) (hci : ci < 8) : FVec F S512x256 .f32 :=
  mm (aRows fa r hr) (bCols fb ci hci)

/-- Narrowing a block to the transport format. -/
def toBlk (x : FVec F S512x256 .f32) : Blk F := truncf .bf16 x bitsLt_bf16_f32

/-- What arrives, widened, plus the own partial product. -/
def accum (ps : FVec F S512x256 .f32) (v : Blk F) : FVec F S512x256 .f32 := addf (extf .f32 v bitsLt_bf16_f32) ps

/-- `z · (1 / (1 + exp (0 − z)))`, narrowed. -/
def siluBlk (z : FVec F S512x256 .f32) : Blk F :=
  truncf .bf16
    (mulf z (divf (broadcast S512x256 (Scalar.ofBits .f32 0x3F800000#32))
      (addf (broadcast S512x256 (Scalar.ofBits .f32 0x3F800000#32)) (exp (subf (broadcast S512x256 (Scalar.ofBits .f32 0x00000000#32)) z)))))
    bitsLt_bf16_f32

/-- The device a chain's blocks come from: the previous one for chains 0–3, the next one for chains 4–7. -/
def sdev (ci : ℕ) (c : Dev nD) : Dev nD := if ci < 4 then prv c else nxt c
/-- The device a chain's blocks go to. -/
def tdev (ci : ℕ) (c : Dev nD) : Dev nD := if ci < 4 then nxt c else prv c

/-- The shift `k` such that at reduce-scatter step `h` a device works on row chunk `chunk c k`:
    its own index minus (chains 0–3) or plus (chains 4–7) `h + 1`. -/
def rsShift (ci : ℕ) (h : ℕ) : ℕ := if ci < 4 then (7 - h) % 4 else (h + 1) % 4

theorem sdev_tdev (ci : ℕ) (c : Dev nD) : sdev ci (tdev ci c) = c := by
  unfold sdev tdev; split <;> simp [prv_nxt, nxt_prv]
theorem tdev_sdev (ci : ℕ) (c : Dev nD) : tdev ci (sdev ci c) = c := by
  unfold sdev tdev; split <;> simp [prv_nxt, nxt_prv]

section Chain
variable (fa : Dev nD → AT F) (fb : Dev nD → BT F)

/-- Device `c`'s partial product for the chunk passing through it at step `h` of chain `ci`. -/
def partAt (c : Dev nD) (ci : ℕ) (hci : ci < 8) (h : ℕ) : FVec F S512x256 .f32 :=
  part (fa c) (fb c) (chunk c (rsShift ci h)) (chunk_lt _ _) ci hci

/-- What device `c` sends on at step `h` of chain `ci` (`h = 0, 1, 2`): its partial product at step 0, then what
    it received plus its partial product, narrowed. -/
def sent : ℕ → Dev nD → (ci : ℕ) → ci < 8 → Blk F
  | 0, c, ci, hci => toBlk (partAt fa fb c ci hci 0)
  | h + 1, c, ci, hci => toBlk (accum (partAt fa fb c ci hci (h + 1)) (sent h (sdev ci c) ci hci))

/-- The completed sum for row chunk `c`, chain `ci`, on device `c`. -/
def total (c : Dev nD) (ci : ℕ) (hci : ci < 8) : FVec F S512x256 .f32 :=
  accum (partAt fa fb c ci hci 3) (sent fa fb 2 (sdev ci c) ci hci)

/-- The finished block (row chunk `c`, chain `ci`). -/
def outBlk (c : Dev nD) (ci : ℕ) (hci : ci < 8) : Blk F := siluBlk (total fa fb c ci hci)

end Chain

end Cert.KernelIdeal.P

end
-- ==== Proof.Proto.lean ====
import proofs.«900901_g7700000000000902_dist_matmul_silu_kshard_i_m2048_n2048_k1024_v7x_i4_bf16_1_alg».proof.Proof.Gen.KernelIdeal
import proofs.«900901_g7700000000000902_dist_matmul_silu_kshard_i_m2048_n2048_k1024_v7x_i4_bf16_1_alg».proof.Proof.Gen.KernelIdeal.Skeleton
import proofs.«900901_g7700000000000902_dist_matmul_silu_kshard_i_m2048_n2048_k1024_v7x_i4_bf16_1_alg».proof.Proof.Gen.KernelIdeal.Launch
import proofs.«900901_g7700000000000902_dist_matmul_silu_kshard_i_m2048_n2048_k1024_v7x_i4_bf16_1_alg».proof.Proof.Gen.KernelIdeal.Points
import proofs.«900901_g7700000000000902_dist_matmul_silu_kshard_i_m2048_n2048_k1024_v7x_i4_bf16_1_alg».proof.Proof.RingArith
import proofs.«900901_g7700000000000902_dist_matmul_silu_kshard_i_m2048_n2048_k1024_v7x_i4_bf16_1_alg».proof.Proof.Contents
import Idealize.ShloMosaic.Lib.Pipeline.Launch
import Idealize.ShloMosaic.Lib.Pipeline.Kit
import Idealize.ShloMosaic.Lib.Tactic

/-!
The cross-device protocol of the ring kernel, as a schedule of rounds.

Every device owns one barrier cell and, for each chain `a < 8` and step `b < 3`, four transfer cells: the send and
receive cells of the reduce-scatter copy `(a, b)` and of the all-gather copy `(a, b)`.  Each cell has one round.
A barrier cell has two duties of one unit: `true`, paid by the next device, and `false`, paid by the previous one;
with its unit a neighbour hands over the landing areas into which this device will copy, and that it has reached
round 0 of the receive cells those copies complete on.  A transfer cell has the one duty `false` of the copied
block's credit.  A receive cell's payload is the landing area holding what the sender's block held; a send cell's
payload is the sender's block back.
-/

noncomputable section

namespace Cert.KernelIdeal.P

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the ring's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## Buffers, slots and blocks -/

abbrev aM : Memref sig .tc .vmem S2048x1024 .f32 := Memref.whole cc0_stg0_0
abbrev bM : Memref sig .tc .vmem S1024x2048 .f32 := Memref.whole cc0_stg1_0
abbrev oM : Memref sig .tc .vmem S2048x2048 .bf16 := Memref.whole cc0_stg2_0
abbrev rsM : Memref sig .tc .vmem S8x4x512x256 .bf16 := Memref.whole cc0_scratch0
abbrev bbM : Memref sig .tc .vmem S1024x2048 .bf16 := Memref.whole cc0_scratch1

theorem slot_inb (a b : ℕ) (ha : a < 8) (hb : b < 4) :
    ∀ i, (![a, b, 0, 0] : Fin 4 → Nat) i + S1x1x512x256.size i ≤ S8x4x512x256.size i := by
  intro i; fin_cases i
  · show a + 1 ≤ 8; omega
  · show b + 1 ≤ 4; omega
  · show 0 + 512 ≤ 512; omega
  · show 0 + 256 ≤ 256; omega

/-- Slot `(a, b)` of the reduce-scatter scratch, as a 512 × 256 block. -/
abbrev slotM (a b : ℕ) (h : ∀ i, (![a, b, 0, 0] : Fin 4 → Nat) i + S1x1x512x256.size i ≤ S8x4x512x256.size i) : Memref sig .tc .vmem S512x256 .bf16 :=
  ((rsM.slice (Rect.unit (s := S8x4x512x256) ![a, b, 0, 0] S1x1x512x256.size h) (fun _ => rfl)).squeeze S512x256 squeezes_S1x1x512x256_S512x256)

/-- The 512 × 256 block of the result buffer at offsets `off`. -/
abbrev oblkM (off : Fin 2 → ℕ) (h : ∀ i, off i + S512x256.size i ≤ S2048x2048.size i) : Memref sig .tc .vmem S512x256 .bf16 :=
  oM.slice (Rect.unit (s := S2048x2048) off S512x256.size h) (fun _ => rfl)

theorem oblk_inb (r a : ℕ) (hr : r < 4) (ha : a < 8) : ∀ i, (![512 * r, 256 * a] : Fin 2 → Nat) i + S512x256.size i ≤ S2048x2048.size i := by
  intro i; fin_cases i
  · show 512 * r + 512 ≤ 2048; omega
  · show 256 * a + 256 ≤ 2048; omega

/-- A scratch buffer holding block `v` in slot `(a, b)` (zeros elsewhere). -/
def slotBuf (a b : ℕ) (h : ∀ i, (![a, b, 0, 0] : Fin 4 → Nat) i + S1x1x512x256.size i ≤ S8x4x512x256.size i) (v : Blk F) : RT F := (slotM a b h).view.write (Elt F) (constant S8x4x512x256 .bf16 0#16) v Finset.univ
/-- A result buffer holding block `v` at offsets `off` (zeros elsewhere). -/
def oblkBuf (off : Fin 2 → ℕ) (h : ∀ i, off i + S512x256.size i ≤ S2048x2048.size i) (v : Blk F) : OT F := (oblkM off h).view.write (Elt F) (constant S2048x2048 .bf16 0#16) v Finset.univ

/-- The credit of one block's copy into a scratch slot, and into the result buffer. -/
abbrev Nrs : ℕ := (slotM 0 0 (slot_inb 0 0 (by decide) (by decide)) : Memref sig .tc .vmem S512x256 .bf16).view.dmaCredit
abbrev Nag : ℕ := (oblkM ![0, 0] (oblk_inb 0 0 (by decide) (by decide)) : Memref sig .tc .vmem S512x256 .bf16).view.dmaCredit
theorem Nrs_pos : 0 < Nrs := View.dmaCredit_pos _ (by decide)
theorem Nag_pos : 0 < Nag := View.dmaCredit_pos _ (by decide)

/-! ## Cells -/

abbrev barS : Sem sig := (SemArray.scalar (sig.barrier 0 rfl) : Sems sig S_).sem
abbrev barCell (c : Dev nD) : GSem nD τ sig := ((c : Thread nD τ), .reg barS)

/-- Semaphore `(a, b)` of one of the four 8 × 3 arrays, as the body names it. -/
abbrev csem (arr : DmaSems sig S8x3) (a b : ℕ) (h : ∀ i, (![a, b] : Fin 2 → Nat) i + S1x1.size i ≤ S8x3.size i) : DmaSem sig :=
  ((arr.slice (Rect.unit (s := S8x3) ![a, b] S1x1.size h)).squeeze S_ squeezes_S1x1_S_).sem
theorem sem_inb (a b : ℕ) (ha : a < 8) (hb : b < 3) : ∀ i, (![a, b] : Fin 2 → Nat) i + S1x1.size i ≤ S8x3.size i := by
  intro i; fin_cases i
  · show a + 1 ≤ 8; omega
  · show b + 1 ≤ 3; omega

/-- The cell of DMA semaphore number `n` (`3 + 24 k + 3 a + b`: array `k`, chain `a`, step `b`) on device `c`. -/
abbrev dcell (c : Dev nD) (q : DmaSem sig) : GSem nD τ sig := ((c : Thread nD τ), .dma q)

/-! ## Who sends what: the all-gather's blocks -/

/-- The device whose finished block travels in all-gather copy `(a, b)` issued by device `c`: `c` itself at step 0,
    then the device `b` hops back along the chain. -/
def orig (a : ℕ) : ℕ → Dev nD → Dev nD
  | 0, c => c
  | b + 1, c => orig a b (sdev a c)

/-! ## The schedule -/

/-- Which of the four arrays a DMA semaphore number belongs to, its chain and its step (`3 + 24 k + 3 a + b`). -/
def dk (n : ℕ) : ℕ := (n - 3) / 24
def da (n : ℕ) : ℕ := ((n - 3) % 24) / 3
def db (n : ℕ) : ℕ := (n - 3) % 3
theorem da_lt (n : ℕ) : da n < 8 := by unfold da; omega
theorem db_lt (n : ℕ) : db n < 3 := by unfold db; omega

/-- The shift `k` such that the block travelling in all-gather copy `(a, b)` issued by device `c` is row chunk `chunk c k`:
    the issuer's own chunk at step 0, then one hop back per step. -/
def agShift (a b : ℕ) : ℕ := if a < 4 then (4 - b) % 4 else b % 4

/-- Row and column offsets of row chunk `chunk c k`, chain `a`, in the result buffer. -/
abbrev rowOff (c : Dev nD) (k a : ℕ) : Fin 2 → ℕ := ![512 * chunk c k, 256 * a]
theorem rowOff_inb (c : Dev nD) (k a : ℕ) (ha : a < 8) : ∀ i, rowOff c k a i + S512x256.size i ≤ S2048x2048.size i :=
  oblk_inb _ _ (chunk_lt _ _) ha

section Sched
variable (fa : Dev nD → AT F) (fb : Dev nD → BT F)

/-- The reduce-scatter send cell gives the sent slot back (its contents are not read again). -/
def rsSendPay (c : Dev nD) (a b : ℕ) (ha : a < 8) (hb : b < 3) : sProp 𝕄 :=
  iprop(∃ f : Buf (Elt F) ((slotM a b (slot_inb a b ha (by omega)) : Memref sig .tc .vmem S512x256 .bf16).view.loc (c : Thread nD τ)),
    (slotM a b (slot_inb a b ha (by omega)) : Memref sig .tc .vmem S512x256 .bf16).view.loc (c : Thread nD τ)
      ↦[(slotM a b (slot_inb a b ha (by omega)) : Memref sig .tc .vmem S512x256 .bf16).view.set]{fullShare} f)

/-- The reduce-scatter receive cell hands over slot `(a, b + 1)` holding what the sender's slot `(a, b)` held. -/
def rsRecvPay (c : Dev nD) (a b : ℕ) (ha : a < 8) (hb : b < 3) : sProp 𝕄 :=
  iprop(∃ fd : Buf (Elt F) ((slotM a (b + 1) (slot_inb a (b + 1) ha (by omega)) : Memref sig .tc .vmem S512x256 .bf16).view.loc (c : Thread nD τ)),
    (slotM a (b + 1) (slot_inb a (b + 1) ha (by omega)) : Memref sig .tc .vmem S512x256 .bf16).view.loc (c : Thread nD τ)
      ↦[(slotM a (b + 1) (slot_inb a (b + 1) ha (by omega)) : Memref sig .tc .vmem S512x256 .bf16).view.set]{fullShare}
        ((slotM a (b + 1) (slot_inb a (b + 1) ha (by omega)) : Memref sig .tc .vmem S512x256 .bf16).view.write (Elt F) fd
          ((slotM a b (slot_inb a b ha (by omega)) : Memref sig .tc .vmem S512x256 .bf16).view.read (Elt F)
            (slotBuf a b (slot_inb a b ha (by omega)) (sent fa fb b (sdev a c) a ha))) Finset.univ))

/-- The all-gather send cell gives the sent block back, as it was. -/
def agSendPay (c : Dev nD) (a b : ℕ) (ha : a < 8) (hb : b < 3) : sProp 𝕄 :=
  ((oblkM (rowOff c (agShift a b) a) (rowOff_inb c _ a ha) : Memref sig .tc .vmem S512x256 .bf16).view.loc (c : Thread nD τ)
    ↦[(oblkM (rowOff c (agShift a b) a) (rowOff_inb c _ a ha) : Memref sig .tc .vmem S512x256 .bf16).view.set]{fullShare}
      oblkBuf (rowOff c (agShift a b) a) (rowOff_inb c _ a ha) (outBlk fa fb (orig a b c) a ha) : sProp 𝕄)

/-- The all-gather receive cell hands over the block one hop further back, holding what the sender's block held. -/
def agRecvPay (c : Dev nD) (a b : ℕ) (ha : a < 8) (hb : b < 3) : sProp 𝕄 :=
  iprop(∃ fd : Buf (Elt F) ((oblkM (rowOff c (agShift a (b + 1)) a) (rowOff_inb c _ a ha) : Memref sig .tc .vmem S512x256 .bf16).view.loc (c : Thread nD τ)),
    (oblkM (rowOff c (agShift a (b + 1)) a) (rowOff_inb c _ a ha) : Memref sig .tc .vmem S512x256 .bf16).view.loc (c : Thread nD τ)
      ↦[(oblkM (rowOff c (agShift a (b + 1)) a) (rowOff_inb c _ a ha) : Memref sig .tc .vmem S512x256 .bf16).view.set]{fullShare}
        ((oblkM (rowOff c (agShift a (b + 1)) a) (rowOff_inb c _ a ha) : Memref sig .tc .vmem S512x256 .bf16).view.write (Elt F) fd
          ((oblkM (rowOff (sdev a c) (agShift a b) a) (rowOff_inb _ _ a ha) : Memref sig .tc .vmem S512x256 .bf16).view.read (Elt F)
            (oblkBuf (rowOff (sdev a c) (agShift a b) a) (rowOff_inb _ _ a ha) (outBlk fa fb (orig a b (sdev a c)) a ha))) Finset.univ))

/-- A transfer cell's payload, by its semaphore's number. -/
def dmaPay (c : Dev nD) (n : ℕ) : sProp 𝕄 :=
  if dk n = 0 then rsSendPay c (da n) (db n) (da_lt n) (db_lt n)
  else if dk n = 1 then rsRecvPay fa fb c (da n) (db n) (da_lt n) (db_lt n)
  else if dk n = 2 then agSendPay fa fb c (da n) (db n) (da_lt n) (db_lt n)
  else agRecvPay fa fb c (da n) (db n) (da_lt n) (db_lt n)

/-- The receive cells' semaphores, by number: the reduce-scatter's are `27 + 3 a + b`, the all-gather's `75 + 3 a + b`. -/
def semN (n : ℕ) (h : n < 99) : DmaSem sig := ⟨n, h⟩

/-- What a neighbour hands over with its barrier unit: for each chain `a0 + i` (`i < 4`) on which this device copies to it
    and each step, its landing slot and landing block at anything, and that it has reached round 0 of the two receive cells. -/
def barPay (c : Dev nD) (d : Bool) : sProp 𝕄 :=
  bigSep (Finset.univ : Finset (Fin 4 × Fin 3)) fun ab =>
    iprop((∃ f : Buf (Elt F) ((slotM ((if d then 0 else 4) + ab.1.val) (ab.2.val + 1) (slot_inb _ _ (by split <;> omega) (by omega)) : Memref sig .tc .vmem S512x256 .bf16).view.loc ((if d then nxt c else prv c : Dev nD) : Thread nD τ)),
        (slotM ((if d then 0 else 4) + ab.1.val) (ab.2.val + 1) (slot_inb _ _ (by split <;> omega) (by omega)) : Memref sig .tc .vmem S512x256 .bf16).view.loc ((if d then nxt c else prv c : Dev nD) : Thread nD τ)
          ↦[(slotM ((if d then 0 else 4) + ab.1.val) (ab.2.val + 1) (slot_inb _ _ (by split <;> omega) (by omega)) : Memref sig .tc .vmem S512x256 .bf16).view.set]{fullShare} f)
      ∗ (∃ f : Buf (Elt F) ((oblkM (rowOff c (agShift ((if d then 0 else 4) + ab.1.val) ab.2.val) ((if d then 0 else 4) + ab.1.val)) (rowOff_inb c _ _ (by split <;> omega)) : Memref sig .tc .vmem S512x256 .bf16).view.loc ((if d then nxt c else prv c : Dev nD) : Thread nD τ)),
        (oblkM (rowOff c (agShift ((if d then 0 else 4) + ab.1.val) ab.2.val) ((if d then 0 else 4) + ab.1.val)) (rowOff_inb c _ _ (by split <;> omega)) : Memref sig .tc .vmem S512x256 .bf16).view.loc ((if d then nxt c else prv c : Dev nD) : Thread nD τ)
          ↦[(oblkM (rowOff c (agShift ((if d then 0 else 4) + ab.1.val) ab.2.val) ((if d then 0 else 4) + ab.1.val)) (rowOff_inb c _ _ (by split <;> omega)) : Memref sig .tc .vmem S512x256 .bf16).view.set]{fullShare} f)
      ∗ reached ER (dcell (if d then nxt c else prv c) (csem cc0_scratch3 ((if d then 0 else 4) + ab.1.val) ab.2.val (sem_inb _ _ (by split <;> omega) ab.2.isLt))) 0
      ∗ reached ER (dcell (if d then nxt c else prv c) (csem cc0_scratch5 ((if d then 0 else 4) + ab.1.val) ab.2.val (sem_inb _ _ (by split <;> omega) ab.2.isLt))) 0)

abbrev IsBar (g : GSem nD τ sig) : Prop := g.1.2 = .tc ∧ g.2 = .reg barS
/-- A transfer semaphore: a DMA semaphore among the four arrays' 96 (numbers 3 … 98; 0 … 2 are the pipeline's). -/
def isXferSem : SemLoc sig → Prop
  | .dma q => 3 ≤ q.val
  | .reg _ => False
instance : DecidablePred (isXferSem) := fun s => by
  cases s with
  | dma q => exact inferInstanceAs (Decidable (3 ≤ q.val))
  | reg _ => exact isFalse (fun h => h)
/-- A transfer cell: a TensorCore's transfer semaphore. -/
abbrev IsXfer (g : GSem nD τ sig) : Prop := g.1.2 = .tc ∧ isXferSem g.2

/-- One round, round 0: a barrier cell has the duties `true` and `false` of one unit each, a transfer cell the duty `false`
    of its block's credit. -/
def ringRd : Rounds.Schedule (GSem nD τ sig) Bool 𝕄 where
  duties g r := if r = 0 ∧ IsBar g then Finset.univ else if r = 0 ∧ IsXfer g then {false} else ∅
  unitless _ := False
  amount g _ _ := match g.2 with
    | .reg _ => 1
    | .dma q => if dk q.val < 2 then Nrs else Nag
  payload g _ d := match g.2 with
    | .reg s => if s = barS then barPay g.1.1 d else iprop(emp)
    | .dma q => dmaPay fa fb g.1.1 q.val
  amount_pos g _ _ _ := by
    cases g.2 with
    | reg _ => exact Nat.one_pos
    | dma q => dsimp only; split
               · exact Nrs_pos
               · exact Nag_pos

end Sched

end Cert.KernelIdeal.P

end
-- ==== Proof.Ghost.lean ====
import proofs.«900901_g7700000000000902_dist_matmul_silu_kshard_i_m2048_n2048_k1024_v7x_i4_bf16_1_alg».proof.Proof.Proto
import Idealize.ShloMosaic.Lib.ValueIdx

/-!
What each device holds when its kernel starts, and what it hands back.

Every device owns 97 cells: its barrier cell and, for each of the four 8 × 3 arrays of transfer semaphores, one cell per
chain `a < 8` and step `b < 3`. It issues 48 copies. Copy `(a, b)` of the reduce-scatter completes on the receive cell
`(a, b)` of the device the chain leads to and on the sender's own send cell `(a, b)`; the same for the all-gather. A device
therefore starts from the invariants of its own cells, of its two neighbours' barrier cells and of the 48 receive cells
its copies complete on; from its position at round 0 of each of its own cells; and from one token for every duty it pays:
one unit on each neighbour's barrier cell, the credit of each of the 48 receive cells, the credit of its own 48 send cells.
What it owes at launch is the credit of those 48 receive cells, in the order of its copies, and the two barrier units.
A wait is allowed at a level below everything still owed: barrier cells stand at level 1, the receive cells of
reduce-scatter step `b` at `2 + b`, those of all-gather step `b` at `5 + b`, every other cell at 0.
-/

noncomputable section

namespace Cert.KernelIdeal.P

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Finite conjunctions written out -/

theorem bigSep_fin3 (Φ : Fin 3 → sProp 𝕄) : bigSep Finset.univ Φ = iprop(Φ 0 ∗ Φ 1 ∗ Φ 2) :=
  bigSep_univ_eq_bigSepL [0, 1, 2] (by decide) (by decide) Φ
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- A family over the 24 pairs (chain `a < 8`, step `b < 3`), conjoined. -/
def overAB (Φ : (a b : ℕ) → a < 8 → b < 3 → sProp 𝕄) : sProp 𝕄 :=
  bigSep (Finset.univ : Finset (Fin 8 × Fin 3)) fun ab => Φ ab.1.val ab.2.val ab.1.isLt ab.2.isLt

/-- The 24 conjuncts, chain by chain and step by step. -/
theorem overAB_eq (Φ : (a b : ℕ) → a < 8 → b < 3 → sProp 𝕄) :
    overAB Φ = iprop(
      (Φ 0 0 (by decide) (by decide) ∗ Φ 0 1 (by decide) (by decide) ∗ Φ 0 2 (by decide) (by decide))
      ∗ (Φ 1 0 (by decide) (by decide) ∗ Φ 1 1 (by decide) (by decide) ∗ Φ 1 2 (by decide) (by decide))
      ∗ (Φ 2 0 (by decide) (by decide) ∗ Φ 2 1 (by decide) (by decide) ∗ Φ 2 2 (by decide) (by decide))
      ∗ (Φ 3 0 (by decide) (by decide) ∗ Φ 3 1 (by decide) (by decide) ∗ Φ 3 2 (by decide) (by decide))
      ∗ (Φ 4 0 (by decide) (by decide) ∗ Φ 4 1 (by decide) (by decide) ∗ Φ 4 2 (by decide) (by decide))
      ∗ (Φ 5 0 (by decide) (by decide) ∗ Φ 5 1 (by decide) (by decide) ∗ Φ 5 2 (by decide) (by decide))
      ∗ (Φ 6 0 (by decide) (by decide) ∗ Φ 6 1 (by decide) (by decide) ∗ Φ 6 2 (by decide) (by decide))
      ∗ (Φ 7 0 (by decide) (by decide) ∗ Φ 7 1 (by decide) (by decide) ∗ Φ 7 2 (by decide) (by decide))) := by
  unfold overAB
  rw [bigSep_univ_prod, bigSep_fin8]
  simp only [bigSep_fin3]
  rfl

/-! ## The transfer cells -/

/-- The four arrays of transfer semaphores: reduce-scatter send and receive, all-gather send and receive. -/
abbrev xarr : Fin 4 → DmaSems sig S8x3 := fun | 0 => cc0_scratch2 | 1 => cc0_scratch3 | 2 => cc0_scratch4 | 3 => cc0_scratch5
/-- Device `c`'s cell of array `k`, chain `a`, step `b`. -/
abbrev xcell (c : Dev nD) (k : Fin 4) (a b : ℕ) (ha : a < 8) (hb : b < 3) : GSem nD τ sig := dcell c (csem (xarr k) a b (sem_inb a b ha hb))

/-! ## The copies in program order, and what a device owes -/

/-- The chain of the copy at place `pos` of a phase: 0, 4, 1, 5, 2, 6, 3, 7. -/
def chainAt (pos : ℕ) : ℕ := pos / 2 + 4 * (pos % 2)
theorem chainAt_lt (j : ℕ) : chainAt (j % 8) < 8 := by unfold chainAt; omega

/-- The receive cell copy `j` completes on (`j = 8 p + pos`: phases 0–2 the reduce-scatter steps, 3–5 the all-gather steps): on the
    device its chain leads to. -/
def sendCellOf (c : Dev nD) (j : ℕ) : GSem nD τ sig :=
  if j / 8 < 3 then dcell (tdev (chainAt (j % 8)) c) (csem cc0_scratch3 (chainAt (j % 8)) (j / 8 % 3) (sem_inb _ _ (chainAt_lt j) (Nat.mod_lt _ (by decide))))
  else dcell (tdev (chainAt (j % 8)) c) (csem cc0_scratch5 (chainAt (j % 8)) (j / 8 % 3) (sem_inb _ _ (chainAt_lt j) (Nat.mod_lt _ (by decide))))
/-- The credit copy `j` pays there. -/
def sendAmt (j : ℕ) : ℕ := if j / 8 < 3 then Nrs else Nag

/-- What the last `n` of the 48 copies owe, summed so that the earliest of them is the last summand. -/
def owedRem (c : Dev nD) : ℕ → CellTallies nD τ sig Unit
  | 0 => 0
  | n + 1 => owedRem c n + tallyAt (sendCellOf c (47 - n)) () (sendAmt (47 - n))

theorem owedRem_succ (c : Dev nD) (n : ℕ) : owedRem c (n + 1) = owedRem c n + tallyAt (sendCellOf c (47 - n)) () (sendAmt (47 - n)) := rfl

/-- What a device owes at launch: its 48 copies' credits and one unit on each neighbour's barrier cell, the unit of the
    previous device's (signalled first) the last summand. -/
def O₀ (c : Dev nD) : CellTallies nD τ sig Unit := owedRem c 48 + tallyAt (barCell (nxt c)) () 1 + tallyAt (barCell (prv c)) () 1

/-! ## Levels -/

def L (g : GSem nD τ sig) : Finset Unit := if g.1.2 = .tc then {()} else ∅
/-- Barrier cells at 1; the receive cells of reduce-scatter step `b` at `2 + b`, of all-gather step `b` at `5 + b`; all else at 0. -/
def lv (g : GSem nD τ sig) (_ : Unit) : ℕ := match g.2 with
  | .reg _ => 1
  | .dma q => if dk q.val = 1 then 2 + db q.val else if dk q.val = 3 then 5 + db q.val else 0

theorem L_of_ne (g : GSem nD τ sig) (h : g.1.2 ≠ .tc) : L g = ∅ := if_neg h
theorem L_tc (c : Dev nD) (sm : SemLoc sig) : L ((c : Thread nD τ), sm) = {()} := if_pos rfl

/-! ## The ghost state a device starts from -/

section Ghost
variable (fa : Dev nD → AT F) (fb : Dev nD → BT F)

/-- The ring's ghost state device `c` starts from, under the names `K` the cells' invariants were allocated at. -/
def ghost (K : GSem nD τ sig → ℕ) (c : Dev nD) : sProp 𝕄 :=
  iprop((cellInv ER (ringRd fa fb) (K (barCell c)) (barCell c) ∗ cellInv ER (ringRd fa fb) (K (barCell (nxt c))) (barCell (nxt c)) ∗ cellInv ER (ringRd fa fb) (K (barCell (prv c))) (barCell (prv c))
      ∗ overAB (fun a b ha hb => cellInv ER (ringRd fa fb) (K (dcell c (csem cc0_scratch2 a b (sem_inb a b ha hb)))) (dcell c (csem cc0_scratch2 a b (sem_inb a b ha hb))))
      ∗ overAB (fun a b ha hb => cellInv ER (ringRd fa fb) (K (dcell c (csem cc0_scratch3 a b (sem_inb a b ha hb)))) (dcell c (csem cc0_scratch3 a b (sem_inb a b ha hb))))
      ∗ overAB (fun a b ha hb => cellInv ER (ringRd fa fb) (K (dcell c (csem cc0_scratch4 a b (sem_inb a b ha hb)))) (dcell c (csem cc0_scratch4 a b (sem_inb a b ha hb))))
      ∗ overAB (fun a b ha hb => cellInv ER (ringRd fa fb) (K (dcell c (csem cc0_scratch5 a b (sem_inb a b ha hb)))) (dcell c (csem cc0_scratch5 a b (sem_inb a b ha hb))))
      ∗ overAB (fun a b ha hb => cellInv ER (ringRd fa fb) (K (dcell (tdev a c) (csem cc0_scratch3 a b (sem_inb a b ha hb)))) (dcell (tdev a c) (csem cc0_scratch3 a b (sem_inb a b ha hb))))
      ∗ overAB (fun a b ha hb => cellInv ER (ringRd fa fb) (K (dcell (tdev a c) (csem cc0_scratch5 a b (sem_inb a b ha hb)))) (dcell (tdev a c) (csem cc0_scratch5 a b (sem_inb a b ha hb)))))
    ∗ (atPos ER (barCell c) 0 ∅ 0
      ∗ overAB (fun a b ha hb => atPos ER (dcell c (csem cc0_scratch2 a b (sem_inb a b ha hb))) 0 ∅ 0)
      ∗ overAB (fun a b ha hb => atPos ER (dcell c (csem cc0_scratch3 a b (sem_inb a b ha hb))) 0 ∅ 0)
      ∗ overAB (fun a b ha hb => atPos ER (dcell c (csem cc0_scratch4 a b (sem_inb a b ha hb))) 0 ∅ 0)
      ∗ overAB (fun a b ha hb => atPos ER (dcell c (csem cc0_scratch5 a b (sem_inb a b ha hb))) 0 ∅ 0))
    ∗ (reached ER (barCell (nxt c)) 0 ∗ reached ER (barCell (prv c)) 0
      ∗ overAB (fun a b ha hb => reached ER (dcell c (csem cc0_scratch2 a b (sem_inb a b ha hb))) 0)
      ∗ overAB (fun a b ha hb => reached ER (dcell c (csem cc0_scratch3 a b (sem_inb a b ha hb))) 0)
      ∗ overAB (fun a b ha hb => reached ER (dcell c (csem cc0_scratch4 a b (sem_inb a b ha hb))) 0)
      ∗ overAB (fun a b ha hb => reached ER (dcell c (csem cc0_scratch5 a b (sem_inb a b ha hb))) 0)
      ∗ overAB (fun a b ha hb => reached ER (dcell (tdev a c) (csem cc0_scratch3 a b (sem_inb a b ha hb))) 0)
      ∗ overAB (fun a b ha hb => reached ER (dcell (tdev a c) (csem cc0_scratch5 a b (sem_inb a b ha hb))) 0))
    ∗ (dutyTok ER (barCell (prv c)) 0 true ∗ dutyTok ER (barCell (nxt c)) 0 false
      ∗ overAB (fun a b ha hb => dutyTok ER (dcell (tdev a c) (csem cc0_scratch3 a b (sem_inb a b ha hb))) 0 false)
      ∗ overAB (fun a b ha hb => dutyTok ER (dcell (tdev a c) (csem cc0_scratch5 a b (sem_inb a b ha hb))) 0 false)
      ∗ overAB (fun a b ha hb => dutyTok ER (dcell c (csem cc0_scratch2 a b (sem_inb a b ha hb))) 0 false)
      ∗ overAB (fun a b ha hb => dutyTok ER (dcell c (csem cc0_scratch4 a b (sem_inb a b ha hb))) 0 false)))

/-- What device `c`'s body starts from: that at some names; the credit of its barrier cell's two units and of each of its 48
    receive cells; the level facts. -/
def start (c : Dev nD) : sProp 𝕄 :=
  iprop((∃ K, ghost fa fb K c) ∗ cred (tallyAt (barCell c) () 2)
    ∗ overAB (fun a b ha hb => cred (tallyAt (dcell c (csem cc0_scratch3 a b (sem_inb a b ha hb))) () Nrs))
    ∗ overAB (fun a b ha hb => cred (tallyAt (dcell c (csem cc0_scratch5 a b (sem_inb a b ha hb))) () Nag))
    ∗ levAts L lv)

def Φ₀ (c : Dev nD) : sProp 𝕄 := iprop(start fa fb c ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- The result buffer every device ends with: row chunk `i / 512`, chain `j / 256` is that chunk's finished block. -/
def outAll : OT F := fun idx =>
  outBlk fa fb ⟨(idx 0).val / 512, by have h : (idx 0).val < 2048 := (idx 0).isLt; show (idx 0).val / 512 < 4; omega⟩
    ((idx 1).val / 256) (by have h : (idx 1).val < 2048 := (idx 1).isLt; omega)
    (ValueIdx.ix2 ⟨(idx 0).val % 512, Nat.mod_lt _ (by decide)⟩ ⟨(idx 1).val % 256, Nat.mod_lt _ (by decide)⟩)

end Ghost

/-- After the body: the two scratch buffers at anything, the 96 own transfer cells at zero, closed. -/
def Φ₁ (c : Dev nD) : sProp 𝕄 :=
  iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)
    ∗ overAB (fun a b ha hb => semVal (dcell c (csem cc0_scratch2 a b (sem_inb a b ha hb))) 0)
    ∗ overAB (fun a b ha hb => semVal (dcell c (csem cc0_scratch3 a b (sem_inb a b ha hb))) 0)
    ∗ overAB (fun a b ha hb => semVal (dcell c (csem cc0_scratch4 a b (sem_inb a b ha hb))) 0)
    ∗ overAB (fun a b ha hb => semVal (dcell c (csem cc0_scratch5 a b (sem_inb a b ha hb))) 0))

/-! ## The pipeline's proof data -/

variable (m : (ℓ : Loc nD τ sig) → Buf (Elt F) ℓ) (ρ : Dev nD → PrngReg)

/-- What the pipeline stages for the body: the device's blocks of the two arguments, as launched. -/
def xstgA (c : Dev nD) : AT F := (win0_0.blk (0 : Fin 1)).view.read (Elt F) ((s₀ m ρ).mem ((c : Thread nD τ).loc main_arg0))
def xstgB (c : Dev nD) : BT F := (win0_1.blk (0 : Fin 1)).view.read (Elt F) ((s₀ m ρ).mem ((c : Thread nD τ).loc main_arg1))

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstgA m ρ c
    | ⟨1, _⟩ => xstgB m ρ c
    | ⟨2, _⟩ => outAll (xstgA m ρ) (xstgB m ρ)
  Φ t := match t with
    | ⟨0, _⟩ => Φ₀ (xstgA m ρ) (xstgB m ρ) c
    | ⟨_ + 1, _⟩ => Φ₁ c
  q _ := fullShare
  owed t := match t with
    | ⟨0, _⟩ => O₀ c
    | ⟨_ + 1, _⟩ => 0

/-! ## The body's statement -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : GSem nD τ sig → ℕ) (c : Dev nD) : sProp 𝕄 :=
  iprop((ghost (xstgA m ρ) (xstgB m ρ) K c ∗ cred (tallyAt (barCell c) () 2)
      ∗ overAB (fun a b ha hb => cred (tallyAt (dcell c (csem cc0_scratch3 a b (sem_inb a b ha hb))) () Nrs))
      ∗ overAB (fun a b ha hb => cred (tallyAt (dcell c (csem cc0_scratch5 a b (sem_inb a b ha hb))) () Nag))
      ∗ levAts L lv ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))
    ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ c ∗ (dats m ρ 0 c).owesAt () t₀.succ ∗ stg c cc0_stg0_0 (xstgA m ρ c) ∗ stg c cc0_stg1_0 (xstgB m ρ c)
    ∗ stg c cc0_stg2_0 (outAll (xstgA m ρ) (xstgB m ρ)))

/-- One device's body, from `bodyPre` to `bodyPost`. -/
def SoundBody : Prop :=
  ∀ (K : GSem nD τ sig → ℕ) (c : Dev nD) (Kt : PUnit → sProp 𝕄),
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5) Kt

end Cert.KernelIdeal.P

end
-- ==== Proof.SlotLemmas.lean ====
/-
  Contents of a scratch slot and of a block of the result buffer, read and written through different views of the same elements.

  Slot (a, b) of the 8 × 4 × 512 × 256 scratch is the rectangle of sizes 1 × 1 × 512 × 256 at offsets (a, b, 0, 0), counted as a
  512 × 256 block: the element at (p, q) of the block is the element at (0, 0, p, q) of the rectangle, the one with the same
  row-major number. A 1 × 1 × 512 × 256 vector that is a 512 × 256 block counted the other way therefore lands, through the
  rectangle, exactly where the block lands through the slot; reading a slot back gives what was written; and a write through a
  slot depends only on the payload, not on what the buffer held there before. The same holds for the 512 × 256 blocks of the
  2048 × 2048 result buffer, where no re-counting is involved.
-/
import proofs.«900901_g7700000000000902_dist_matmul_silu_kshard_i_m2048_n2048_k1024_v7x_i4_bf16_1_alg».proof.Proof.Proto
import Idealize.ShloMosaic.Lib.Pipeline.Value
import Idealize.ShloMosaic.Rules.PointsTo

noncomputable section

namespace Cert.KernelIdeal.P

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.Sem

variable {F : FTy → Type} [FloatOps F]

local notation "𝕄" => MT nD τ sig Unit (Elt F) ℕ UU ℕ

/-! ## Slots of the scratch -/

/-- Writing a 1 × 1 × 512 × 256 vector through slot `(a, b)`'s rectangle of the whole scratch puts, under each index of
    the slot, the 512 × 256 block's element of the same row-major number: the squeezed slice and the reshaped vector
    count the same elements in the same order. -/
theorem slot_store_eq (a b : ℕ) (h : ∀ i, (![a, b, 0, 0] : Fin 4 → Nat) i + S1x1x512x256.size i ≤ S8x4x512x256.size i)
    (f : RT F) (v : Blk F) :
    ∀ i ∈ (slotM a b h).view.set,
      View.write (Elt F) (rsM.access (Rect.unit (s := S8x4x512x256) ![a, b, 0, 0] S1x1x512x256.size h)) f
        (shapeCast S1x1x512x256 v shapeCasts_S512x256_S1x1x512x256) Finset.univ i = slotBuf a b h v i := by
  intro i hi
  obtain ⟨x, -, rfl⟩ := Finset.mem_map.mp hi
  unfold slotBuf
  rw [View.write_emb_of_mem _ _ (Finset.mem_univ x)]
  have hx : (slotM a b h).view.emb x
      = (rsM.access (Rect.unit (s := S8x4x512x256) ![a, b, 0, 0] S1x1x512x256.size h)).emb
          (Shape.reshapeEquiv squeezes_S1x1x512x256_S512x256.numel_eq x) := rfl
  rw [hx, View.write_emb_of_mem _ _ (Finset.mem_univ _)]
  unfold shapeCast
  rw [Shape.reshapeEquiv_reshapeEquiv, Shape.reshapeEquiv_self]

/-- Reading a slot of the buffer that holds `v` there gives `v`. -/
theorem slot_read_buf (a b : ℕ) (h : ∀ i, (![a, b, 0, 0] : Fin 4 → Nat) i + S1x1x512x256.size i ≤ S8x4x512x256.size i) (v : Blk F) :
    (slotM a b h).view.read (Elt F) (slotBuf a b h v) = v :=
  View.read_write_univ _ _

/-- Reading a slot back after writing `v` through it gives `v`, whatever the buffer held. -/
theorem slot_read_write (a b : ℕ) (h : ∀ i, (![a, b, 0, 0] : Fin 4 → Nat) i + S1x1x512x256.size i ≤ S8x4x512x256.size i) (fd : RT F) (v : Blk F) :
    (slotM a b h).view.read (Elt F) ((slotM a b h).view.write (Elt F) fd v Finset.univ) = v :=
  View.read_write_univ _ _

/-- Under the slot's indices a write through the slot depends on the payload only. -/
theorem slot_write_eq (a b : ℕ) (h : ∀ i, (![a, b, 0, 0] : Fin 4 → Nat) i + S1x1x512x256.size i ≤ S8x4x512x256.size i) (fd : RT F) (v : Blk F) :
    ∀ i ∈ (slotM a b h).view.set, (slotM a b h).view.write (Elt F) fd v Finset.univ i = slotBuf a b h v i := by
  intro i hi
  obtain ⟨x, -, rfl⟩ := Finset.mem_map.mp hi
  unfold slotBuf
  rw [View.write_emb_of_mem _ _ (Finset.mem_univ x), View.write_emb_of_mem _ _ (Finset.mem_univ x)]

/-- What lands in slot `(a', b')` from a slot `(a, b)` holding `v` is `v` in slot `(a', b')`. -/
theorem slot_fwd (a b a' b' : ℕ) (h : ∀ i, (![a, b, 0, 0] : Fin 4 → Nat) i + S1x1x512x256.size i ≤ S8x4x512x256.size i) (h' : ∀ i, (![a', b', 0, 0] : Fin 4 → Nat) i + S1x1x512x256.size i ≤ S8x4x512x256.size i) (fd : RT F) (v : Blk F) :
    ∀ i ∈ (slotM a' b' h').view.set,
      (slotM a' b' h').view.write (Elt F) fd ((slotM a b h).view.read (Elt F) (slotBuf a b h v)) Finset.univ i
        = slotBuf a' b' h' v i := by
  rw [slot_read_buf]
  exact slot_write_eq a' b' h' fd v

/-- A load of the slot's 1 × 1 × 512 × 256 rectangle through the whole scratch, after `v` was written through the slot, reads
    `v` counted as a 1 × 1 × 512 × 256 vector. -/
theorem slot_readAt_write (a b : ℕ) (h : ∀ i, (![a, b, 0, 0] : Fin 4 → Nat) i + S1x1x512x256.size i ≤ S8x4x512x256.size i) (fd : RT F) (v : Blk F) :
    View.readAt (Elt F) rsM.view (Rect.unit (s := S8x4x512x256) ![a, b, 0, 0] S1x1x512x256.size h).toLoadRect
        ((slotM a b h).view.write (Elt F) fd v Finset.univ)
      = shapeCast S1x1x512x256 v shapeCasts_S512x256_S1x1x512x256 := by
  funext y
  have hy : (rsM.access (Rect.unit (s := S8x4x512x256) ![a, b, 0, 0] S1x1x512x256.size h)).emb y
      = (slotM a b h).view.emb (Shape.reshapeEquiv squeezes_S1x1x512x256_S512x256.numel_eq.symm y) := by
    show _ = (rsM.access (Rect.unit (s := S8x4x512x256) ![a, b, 0, 0] S1x1x512x256.size h)).emb
      (Shape.reshapeEquiv squeezes_S1x1x512x256_S512x256.numel_eq (Shape.reshapeEquiv squeezes_S1x1x512x256_S512x256.numel_eq.symm y))
    rw [Shape.reshapeEquiv_reshapeEquiv, Shape.reshapeEquiv_self]
  show View.read (Elt F) (rsM.access (Rect.unit (s := S8x4x512x256) ![a, b, 0, 0] S1x1x512x256.size h)) _ y = _
  rw [View.read_apply, hy, View.write_emb_of_mem _ _ (Finset.mem_univ _), cast_cast, cast_eq]
  rfl

/-- The same after a landing from slot `(a, b)` into slot `(a, b + 1)`. -/
theorem slot_readback (a b : ℕ) (h : ∀ i, (![a, b, 0, 0] : Fin 4 → Nat) i + S1x1x512x256.size i ≤ S8x4x512x256.size i)
    (h' : ∀ i, (![a, b + 1, 0, 0] : Fin 4 → Nat) i + S1x1x512x256.size i ≤ S8x4x512x256.size i) (fd : RT F) (v : Blk F) :
    View.readAt (Elt F) rsM.view (Rect.unit (s := S8x4x512x256) ![a, b + 1, 0, 0] S1x1x512x256.size h').toLoadRect
        ((slotM a (b + 1) h').view.write (Elt F) fd ((slotM a b h).view.read (Elt F) (slotBuf a b h v)) Finset.univ)
      = shapeCast S1x1x512x256 v shapeCasts_S512x256_S1x1x512x256 := by
  rw [slot_read_buf]
  exact slot_readAt_write a (b + 1) h' fd v

/-- The same load read through the slot itself is the block. -/
theorem slot_read_fwd (a b a' b' : ℕ) (h : ∀ i, (![a, b, 0, 0] : Fin 4 → Nat) i + S1x1x512x256.size i ≤ S8x4x512x256.size i) (h' : ∀ i, (![a', b', 0, 0] : Fin 4 → Nat) i + S1x1x512x256.size i ≤ S8x4x512x256.size i) (fd : RT F) (v : Blk F) :
    (slotM a' b' h').view.read (Elt F)
        ((slotM a' b' h').view.write (Elt F) fd ((slotM a b h).view.read (Elt F) (slotBuf a b h v)) Finset.univ) = v := by
  rw [slot_read_buf, slot_read_write]

theorem slot_congr (a b a' b' : ℕ) (h : ∀ i, (![a, b, 0, 0] : Fin 4 → Nat) i + S1x1x512x256.size i ≤ S8x4x512x256.size i) (h' : ∀ i, (![a', b', 0, 0] : Fin 4 → Nat) i + S1x1x512x256.size i ≤ S8x4x512x256.size i) (ha : a = a') (hb : b = b') : slotM a b h = slotM a' b' h' := by
  subst ha; subst hb; rfl

/-! ## Blocks of the result buffer -/

/-- Writing a 512 × 256 vector through a block's rectangle of the whole result buffer is writing it through the block. -/
theorem oblk_store_eq (off : Fin 2 → ℕ) (h : ∀ i, off i + S512x256.size i ≤ S2048x2048.size i) (f : OT F) (v : Blk F) :
    ∀ i ∈ (oblkM off h).view.set,
      View.write (Elt F) (oM.access (Rect.unit (s := S2048x2048) off S512x256.size h)) f v Finset.univ i = oblkBuf off h v i := by
  intro i hi
  obtain ⟨x, -, rfl⟩ := Finset.mem_map.mp hi
  unfold oblkBuf
  show View.write (Elt F) (oblkM off h).view f v Finset.univ ((oblkM off h).view.emb x)
    = View.write (Elt F) (oblkM off h).view _ v Finset.univ ((oblkM off h).view.emb x)
  rw [View.write_emb_of_mem _ _ (Finset.mem_univ x), View.write_emb_of_mem _ _ (Finset.mem_univ x)]

theorem oblk_read_buf (off : Fin 2 → ℕ) (h : ∀ i, off i + S512x256.size i ≤ S2048x2048.size i) (v : Blk F) :
    (oblkM off h).view.read (Elt F) (oblkBuf off h v) = v :=
  View.read_write_univ _ _

theorem oblk_read_write (off : Fin 2 → ℕ) (h : ∀ i, off i + S512x256.size i ≤ S2048x2048.size i) (fd : OT F) (v : Blk F) :
    (oblkM off h).view.read (Elt F) ((oblkM off h).view.write (Elt F) fd v Finset.univ) = v :=
  View.read_write_univ _ _

theorem oblk_write_eq (off : Fin 2 → ℕ) (h : ∀ i, off i + S512x256.size i ≤ S2048x2048.size i) (fd : OT F) (v : Blk F) :
    ∀ i ∈ (oblkM off h).view.set, (oblkM off h).view.write (Elt F) fd v Finset.univ i = oblkBuf off h v i :=
  oblk_store_eq off h fd v

/-- What lands in the block at `off` from a block at `off'` holding `v` is `v` in the block at `off` (whatever the two offsets). -/
theorem oblk_fwd (off off' : Fin 2 → ℕ) (h : ∀ i, off i + S512x256.size i ≤ S2048x2048.size i) (h' : ∀ i, off' i + S512x256.size i ≤ S2048x2048.size i) (fd : OT F) (v : Blk F) :
    ∀ i ∈ (oblkM off h).view.set,
      (oblkM off h).view.write (Elt F) fd ((oblkM off' h').view.read (Elt F) (oblkBuf off' h' v)) Finset.univ i
        = oblkBuf off h v i := by
  rw [oblk_read_buf]
  exact oblk_write_eq off h fd v

/-- A load of the block's rectangle through the whole result buffer, after `v` was written through the block, reads `v`. -/
theorem oblk_readAt_write (off : Fin 2 → ℕ) (h : ∀ i, off i + S512x256.size i ≤ S2048x2048.size i) (fd : OT F) (v : Blk F) :
    View.readAt (Elt F) oM.view (Rect.unit (s := S2048x2048) off S512x256.size h).toLoadRect
        ((oblkM off h).view.write (Elt F) fd v Finset.univ) = v :=
  View.read_write_univ _ _

/-! ## Equal offsets, equal blocks -/

theorem oblk_congr (off off' : Fin 2 → ℕ) (h : ∀ i, off i + S512x256.size i ≤ S2048x2048.size i) (h' : ∀ i, off' i + S512x256.size i ≤ S2048x2048.size i) (heq : off = off') : oblkM off h = oblkM off' h' := by
  subst heq; rfl

theorem oblkBuf_congr (off off' : Fin 2 → ℕ) (h : ∀ i, off i + S512x256.size i ≤ S2048x2048.size i) (h' : ∀ i, off' i + S512x256.size i ≤ S2048x2048.size i) (heq : off = off') (v : Blk F) : oblkBuf off h v = oblkBuf off' h' v := by
  subst heq; rfl

/-- The block at `off` holding `v` and the block at an equal `off'` holding `v` are one assertion. -/
theorem oblk_pointsTo_congr (c : Dev nD) (off off' : Fin 2 → ℕ) (h : ∀ i, off i + S512x256.size i ≤ S2048x2048.size i) (h' : ∀ i, off' i + S512x256.size i ≤ S2048x2048.size i) (heq : off = off') (q : PosShare TreeShare) (v : Blk F) :
    ((oblkM off h).view.loc (c : Thread nD τ) ↦[(oblkM off h).view.set]{q} oblkBuf off h v : sProp 𝕄)
      = ((oblkM off' h').view.loc (c : Thread nD τ) ↦[(oblkM off' h').view.set]{q} oblkBuf off' h' v : sProp 𝕄) := by
  subst heq; rfl

theorem slotBuf_congr (a b a' b' : ℕ) (h : ∀ i, (![a, b, 0, 0] : Fin 4 → Nat) i + S1x1x512x256.size i ≤ S8x4x512x256.size i) (h' : ∀ i, (![a', b', 0, 0] : Fin 4 → Nat) i + S1x1x512x256.size i ≤ S8x4x512x256.size i) (ha : a = a') (hb : b = b') (v : Blk F) : slotBuf a b h v = slotBuf a' b' h' v := by
  subst ha; subst hb; rfl

/-- Slot `(a, b)` holding `v` and the slot at equal numbers holding `v` are one assertion. -/
theorem slot_pointsTo_congr (c : Dev nD) (a b a' b' : ℕ) (h : ∀ i, (![a, b, 0, 0] : Fin 4 → Nat) i + S1x1x512x256.size i ≤ S8x4x512x256.size i) (h' : ∀ i, (![a', b', 0, 0] : Fin 4 → Nat) i + S1x1x512x256.size i ≤ S8x4x512x256.size i) (ha : a = a') (hb : b = b') (q : PosShare TreeShare) (v : Blk F) :
    ((slotM a b h).view.loc (c : Thread nD τ) ↦[(slotM a b h).view.set]{q} slotBuf a b h v : sProp 𝕄)
      = ((slotM a' b' h').view.loc (c : Thread nD τ) ↦[(slotM a' b' h').view.set]{q} slotBuf a' b' h' v : sProp 𝕄) := by
  subst ha; subst hb; rfl

/-- info: 'Cert.KernelIdeal.P.slot_store_eq' depends on axioms: [propext, Classical.choice, Quot.sound] -/
#guard_msgs in #print axioms slot_store_eq

end Cert.KernelIdeal.P
end
-- ==== Proof.Tables.lean ====
import proofs.«900901_g7700000000000902_dist_matmul_silu_kshard_i_m2048_n2048_k1024_v7x_i4_bf16_1_alg».proof.Proof.Proto
import proofs.«900901_g7700000000000902_dist_matmul_silu_kshard_i_m2048_n2048_k1024_v7x_i4_bf16_1_alg».proof.Proof.SlotLemmas

/-!
The schedule's tables at the cells the program names.

A transfer semaphore is number `3 + 24 k + 3 a + b` of the pool: array `k` (reduce-scatter send, reduce-scatter
receive, all-gather send, all-gather receive), chain `a < 8`, step `b < 3`.  The program reaches it as entry
`(a, b)` of a row-major array of 8 × 3 consecutive semaphores, so the entry's number is `base + 3 a + b`.
From that number the schedule's duties, amounts and payloads at each such cell are read off, with every
buffer written out.
-/

noncomputable section

namespace Cert.KernelIdeal.P

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The number of entry `(a, b)` of an array of 8 × 3 consecutive semaphores -/

/-- Row-major: entry `(a, b)` of the array laid from `base` is semaphore `base + 3 a + b`. -/
theorem csem_val (base : ℕ) (hbase : base + S8x3.numel ≤ 99) (a b : ℕ)
    (h : ∀ i, (![a, b] : Fin 2 → Nat) i + S1x1.size i ≤ S8x3.size i) :
    (csem (SemArray.consecutive base S8x3 hbase) a b h).val = base + 3 * a + b := by
  show base + ((S8x3.rowMajor ((Rect.unit (s := S8x3) ![a, b] S1x1.size h).emb
      (Shape.reshapeEquiv squeezes_S1x1_S_.numel_eq fun i => i.elim0)) : Fin _) : ℕ) = _
  generalize (Shape.reshapeEquiv squeezes_S1x1_S_.numel_eq fun i => i.elim0 : S1x1.Idx) = j
  rw [Shape.rowMajor_val_two]
  simp only [Rect.emb_apply]
  have h0 : (j 0).val < 1 := (j 0).isLt
  have h1 : (j 1).val < 1 := (j 1).isLt
  show base + ((a + 1 * (j 0).val) * 3 + (b + 1 * (j 1).val)) = base + 3 * a + b
  omega

theorem csem2_val (a b : ℕ) (h) : (csem cc0_scratch2 a b h).val = 3 + 3 * a + b := csem_val 3 _ a b h
theorem csem3_val (a b : ℕ) (h) : (csem cc0_scratch3 a b h).val = 27 + 3 * a + b := csem_val 27 _ a b h
theorem csem4_val (a b : ℕ) (h) : (csem cc0_scratch4 a b h).val = 51 + 3 * a + b := csem_val 51 _ a b h
theorem csem5_val (a b : ℕ) (h) : (csem cc0_scratch5 a b h).val = 75 + 3 * a + b := csem_val 75 _ a b h

/-- An entry's in-bounds evidence bounds its chain and its step. -/
theorem sem_lt {a b : ℕ} (h : ∀ i, (![a, b] : Fin 2 → Nat) i + S1x1.size i ≤ S8x3.size i) : a < 8 ∧ b < 3 := by
  have h0 : a + 1 ≤ 8 := h 0
  have h1 : b + 1 ≤ 3 := h 1
  omega

theorem dk_of (k a b : ℕ) (ha : a < 8) (hb : b < 3) : dk (3 + 24 * k + 3 * a + b) = k := by unfold dk; omega
theorem da_of (k a b : ℕ) (ha : a < 8) (hb : b < 3) : da (3 + 24 * k + 3 * a + b) = a := by unfold da; omega
theorem db_of (k a b : ℕ) (ha : a < 8) (hb : b < 3) : db (3 + 24 * k + 3 * a + b) = b := by unfold db; omega

section Tables
variable (fa : Dev nD → AT F) (fb : Dev nD → BT F) (c : Dev nD)

/-! ## Duties -/

theorem not_bar_dcell (q : DmaSem sig) : ¬ IsBar (dcell c q) := fun h => by cases h.2

theorem duties_bar : (ringRd fa fb).duties (barCell c) 0 = Finset.univ := by
  dsimp only [ringRd]; exact if_pos ⟨rfl, rfl, rfl⟩

/-- A transfer cell has the one duty `false`. -/
theorem duties_dcell (q : DmaSem sig) (hq : 3 ≤ q.val) : (ringRd fa fb).duties (dcell c q) 0 = {false} := by
  dsimp only [ringRd]; rw [if_neg (fun h => not_bar_dcell c q h.2)]; exact if_pos ⟨rfl, rfl, hq⟩

theorem duties_rsSend (a b : ℕ) (h) : (ringRd fa fb).duties (dcell c (csem cc0_scratch2 a b h)) 0 = {false} :=
  duties_dcell fa fb c _ (by rw [csem2_val]; omega)
theorem duties_rsRecv (a b : ℕ) (h) : (ringRd fa fb).duties (dcell c (csem cc0_scratch3 a b h)) 0 = {false} :=
  duties_dcell fa fb c _ (by rw [csem3_val]; omega)
theorem duties_agSend (a b : ℕ) (h) : (ringRd fa fb).duties (dcell c (csem cc0_scratch4 a b h)) 0 = {false} :=
  duties_dcell fa fb c _ (by rw [csem4_val]; omega)
theorem duties_agRecv (a b : ℕ) (h) : (ringRd fa fb).duties (dcell c (csem cc0_scratch5 a b h)) 0 = {false} :=
  duties_dcell fa fb c _ (by rw [csem5_val]; omega)

/-- Every cell has the one round 0. -/
theorem duties_later (g : GSem nD τ sig) : ∀ r, 1 ≤ r → (ringRd fa fb).duties g r = ∅ :=
  fun r hr => by dsimp only [ringRd]; rw [if_neg fun h => by omega, if_neg fun h => by omega]

/-! ## Amounts and expected units -/

theorem amount_bar (d : Bool) : (ringRd fa fb).amount (barCell c) 0 d = 1 := rfl

theorem amount_dcell (q : DmaSem sig) (d : Bool) :
    (ringRd fa fb).amount (dcell c q) 0 d = if dk q.val < 2 then Nrs else Nag := rfl

theorem amount_rsSend (a b : ℕ) (h) (d : Bool) : (ringRd fa fb).amount (dcell c (csem cc0_scratch2 a b h)) 0 d = Nrs := by
  obtain ⟨ha, hb⟩ := sem_lt h
  rw [amount_dcell, csem2_val]; exact if_pos (by unfold dk; omega)
theorem amount_rsRecv (a b : ℕ) (h) (d : Bool) : (ringRd fa fb).amount (dcell c (csem cc0_scratch3 a b h)) 0 d = Nrs := by
  obtain ⟨ha, hb⟩ := sem_lt h
  rw [amount_dcell, csem3_val]; exact if_pos (by unfold dk; omega)
theorem amount_agSend (a b : ℕ) (h) (d : Bool) : (ringRd fa fb).amount (dcell c (csem cc0_scratch4 a b h)) 0 d = Nag := by
  obtain ⟨ha, hb⟩ := sem_lt h
  rw [amount_dcell, csem4_val]; exact if_neg (by unfold dk; omega)
theorem amount_agRecv (a b : ℕ) (h) (d : Bool) : (ringRd fa fb).amount (dcell c (csem cc0_scratch5 a b h)) 0 d = Nag := by
  obtain ⟨ha, hb⟩ := sem_lt h
  rw [amount_dcell, csem5_val]; exact if_neg (by unfold dk; omega)

theorem expect_bar : (ringRd fa fb).expect (barCell c) 0 = 2 := by
  unfold Schedule.expect Schedule.amountOf
  rw [duties_bar, Finset.sum_congr rfl fun d _ => amount_bar fa fb c d, Finset.sum_const, Finset.card_univ,
    Fintype.card_bool, smul_eq_mul]
theorem expect_rsSend (a b : ℕ) (h) : (ringRd fa fb).expect (dcell c (csem cc0_scratch2 a b h)) 0 = Nrs := by
  unfold Schedule.expect Schedule.amountOf; rw [duties_rsSend, Finset.sum_singleton, amount_rsSend]
theorem expect_rsRecv (a b : ℕ) (h) : (ringRd fa fb).expect (dcell c (csem cc0_scratch3 a b h)) 0 = Nrs := by
  unfold Schedule.expect Schedule.amountOf; rw [duties_rsRecv, Finset.sum_singleton, amount_rsRecv]
theorem expect_agSend (a b : ℕ) (h) : (ringRd fa fb).expect (dcell c (csem cc0_scratch4 a b h)) 0 = Nag := by
  unfold Schedule.expect Schedule.amountOf; rw [duties_agSend, Finset.sum_singleton, amount_agSend]
theorem expect_agRecv (a b : ℕ) (h) : (ringRd fa fb).expect (dcell c (csem cc0_scratch5 a b h)) 0 = Nag := by
  unfold Schedule.expect Schedule.amountOf; rw [duties_agRecv, Finset.sum_singleton, amount_agRecv]

/-! ## Payloads of a device's own transfer cells -/

theorem payload_dcell (q : DmaSem sig) (d : Bool) : (ringRd fa fb).payload (dcell c q) 0 d = dmaPay fa fb c q.val := rfl

omit fa fb in
theorem rsSendPay_congr {a a' b b' : ℕ} (ea : a = a') (eb : b = b') (ha hb ha' hb') :
    rsSendPay (F := F) c a b ha hb = rsSendPay c a' b' ha' hb' := by subst ea eb; rfl
theorem rsRecvPay_congr {a a' b b' : ℕ} (ea : a = a') (eb : b = b') (ha hb ha' hb') :
    rsRecvPay fa fb c a b ha hb = rsRecvPay fa fb c a' b' ha' hb' := by subst ea eb; rfl
theorem agSendPay_congr {a a' b b' : ℕ} (ea : a = a') (eb : b = b') (ha hb ha' hb') :
    agSendPay fa fb c a b ha hb = agSendPay fa fb c a' b' ha' hb' := by subst ea eb; rfl
theorem agRecvPay_congr {a a' b b' : ℕ} (ea : a = a') (eb : b = b') (ha hb ha' hb') :
    agRecvPay fa fb c a b ha hb = agRecvPay fa fb c a' b' ha' hb' := by subst ea eb; rfl

/-- A transfer cell's payload by its array, chain and step. -/
theorem dmaPay_rsSend (a b : ℕ) (ha : a < 8) (hb : b < 3) : dmaPay fa fb c (3 + 3 * a + b) = rsSendPay c a b ha hb := by
  unfold dmaPay; rw [if_pos (by unfold dk; omega)]
  exact rsSendPay_congr c (by unfold da; omega) (by unfold db; omega) _ _ _ _
theorem dmaPay_rsRecv (a b : ℕ) (ha : a < 8) (hb : b < 3) : dmaPay fa fb c (27 + 3 * a + b) = rsRecvPay fa fb c a b ha hb := by
  unfold dmaPay; rw [if_neg (by unfold dk; omega), if_pos (by unfold dk; omega)]
  exact rsRecvPay_congr fa fb c (by unfold da; omega) (by unfold db; omega) _ _ _ _
theorem dmaPay_agSend (a b : ℕ) (ha : a < 8) (hb : b < 3) : dmaPay fa fb c (51 + 3 * a + b) = agSendPay fa fb c a b ha hb := by
  unfold dmaPay; rw [if_neg (by unfold dk; omega), if_neg (by unfold dk; omega), if_pos (by unfold dk; omega)]
  exact agSendPay_congr fa fb c (by unfold da; omega) (by unfold db; omega) _ _ _ _
theorem dmaPay_agRecv (a b : ℕ) (ha : a < 8) (hb : b < 3) : dmaPay fa fb c (75 + 3 * a + b) = agRecvPay fa fb c a b ha hb := by
  unfold dmaPay; rw [if_neg (by unfold dk; omega), if_neg (by unfold dk; omega), if_neg (by unfold dk; omega)]
  exact agRecvPay_congr fa fb c (by unfold da; omega) (by unfold db; omega) _ _ _ _

/-- The reduce-scatter send cell `(a, b)`: slot `(a, b)` back, at some contents. -/
theorem payload_rsSend (a b : ℕ) (ha : a < 8) (hb : b < 3) (h) (d : Bool) :
    (ringRd fa fb).payload (dcell c (csem cc0_scratch2 a b h)) 0 d =
      (iprop(∃ f : Buf (Elt F) ((slotM a b (slot_inb a b ha (by omega)) : Memref sig .tc .vmem S512x256 .bf16).view.loc (c : Thread nD τ)),
        (slotM a b (slot_inb a b ha (by omega)) : Memref sig .tc .vmem S512x256 .bf16).view.loc (c : Thread nD τ)
          ↦[(slotM a b (slot_inb a b ha (by omega)) : Memref sig .tc .vmem S512x256 .bf16).view.set]{fullShare} f) : sProp 𝕄) := by
  rw [payload_dcell, csem2_val, dmaPay_rsSend fa fb c a b ha hb]; rfl

/-- The reduce-scatter receive cell `(a, b)`: slot `(a, b + 1)` holding what the sending device's slot `(a, b)` held. -/
theorem payload_rsRecv (a b : ℕ) (ha : a < 8) (hb : b < 3) (h) (d : Bool) :
    (ringRd fa fb).payload (dcell c (csem cc0_scratch3 a b h)) 0 d =
      (iprop(∃ fd : Buf (Elt F) ((slotM a (b + 1) (slot_inb a (b + 1) ha (by omega)) : Memref sig .tc .vmem S512x256 .bf16).view.loc (c : Thread nD τ)),
        (slotM a (b + 1) (slot_inb a (b + 1) ha (by omega)) : Memref sig .tc .vmem S512x256 .bf16).view.loc (c : Thread nD τ)
          ↦[(slotM a (b + 1) (slot_inb a (b + 1) ha (by omega)) : Memref sig .tc .vmem S512x256 .bf16).view.set]{fullShare}
            ((slotM a (b + 1) (slot_inb a (b + 1) ha (by omega)) : Memref sig .tc .vmem S512x256 .bf16).view.write (Elt F) fd
              ((slotM a b (slot_inb a b ha (by omega)) : Memref sig .tc .vmem S512x256 .bf16).view.read (Elt F)
                (slotBuf a b (slot_inb a b ha (by omega)) (sent fa fb b (sdev a c) a ha))) Finset.univ)) : sProp 𝕄) := by
  rw [payload_dcell, csem3_val, dmaPay_rsRecv fa fb c a b ha hb]; rfl

/-- The all-gather send cell `(a, b)`: the sent block back, as it was. -/
theorem payload_agSend (a b : ℕ) (ha : a < 8) (hb : b < 3) (h) (d : Bool) :
    (ringRd fa fb).payload (dcell c (csem cc0_scratch4 a b h)) 0 d =
      ((oblkM (rowOff c (agShift a b) a) (rowOff_inb c _ a ha) : Memref sig .tc .vmem S512x256 .bf16).view.loc (c : Thread nD τ)
        ↦[(oblkM (rowOff c (agShift a b) a) (rowOff_inb c _ a ha) : Memref sig .tc .vmem S512x256 .bf16).view.set]{fullShare}
          oblkBuf (rowOff c (agShift a b) a) (rowOff_inb c _ a ha) (outBlk fa fb (orig a b c) a ha) : sProp 𝕄) := by
  rw [payload_dcell, csem4_val, dmaPay_agSend fa fb c a b ha hb]; rfl

/-- The all-gather receive cell `(a, b)`: the block one hop further back, holding what the sending device's block held. -/
theorem payload_agRecv (a b : ℕ) (ha : a < 8) (hb : b < 3) (h) (d : Bool) :
    (ringRd fa fb).payload (dcell c (csem cc0_scratch5 a b h)) 0 d =
      (iprop(∃ fd : Buf (Elt F) ((oblkM (rowOff c (agShift a (b + 1)) a) (rowOff_inb c _ a ha) : Memref sig .tc .vmem S512x256 .bf16).view.loc (c : Thread nD τ)),
        (oblkM (rowOff c (agShift a (b + 1)) a) (rowOff_inb c _ a ha) : Memref sig .tc .vmem S512x256 .bf16).view.loc (c : Thread nD τ)
          ↦[(oblkM (rowOff c (agShift a (b + 1)) a) (rowOff_inb c _ a ha) : Memref sig .tc .vmem S512x256 .bf16).view.set]{fullShare}
            ((oblkM (rowOff c (agShift a (b + 1)) a) (rowOff_inb c _ a ha) : Memref sig .tc .vmem S512x256 .bf16).view.write (Elt F) fd
              ((oblkM (rowOff (sdev a c) (agShift a b) a) (rowOff_inb _ _ a ha) : Memref sig .tc .vmem S512x256 .bf16).view.read (Elt F)
                (oblkBuf (rowOff (sdev a c) (agShift a b) a) (rowOff_inb _ _ a ha) (outBlk fa fb (orig a b (sdev a c)) a ha))) Finset.univ)) : sProp 𝕄) := by
  rw [payload_dcell, csem5_val, dmaPay_agRecv fa fb c a b ha hb]; rfl

/-! ## What a wait on a transfer cell returns: the round's payloads, none taken before -/

theorem rest_rsSend (a b : ℕ) (ha : a < 8) (hb : b < 3) (h) :
    bigSep ((ringRd fa fb).duties (dcell c (csem cc0_scratch2 a b h)) 0 \ ∅)
        (fun d => (ringRd fa fb).payload (dcell c (csem cc0_scratch2 a b h)) 0 d) =
      (iprop(∃ f : Buf (Elt F) ((slotM a b (slot_inb a b ha (by omega)) : Memref sig .tc .vmem S512x256 .bf16).view.loc (c : Thread nD τ)),
        (slotM a b (slot_inb a b ha (by omega)) : Memref sig .tc .vmem S512x256 .bf16).view.loc (c : Thread nD τ)
          ↦[(slotM a b (slot_inb a b ha (by omega)) : Memref sig .tc .vmem S512x256 .bf16).view.set]{fullShare} f) : sProp 𝕄) := by
  rw [duties_rsSend, Finset.sdiff_empty, bigSep_singleton, payload_rsSend fa fb c a b ha hb]

theorem rest_rsRecv (a b : ℕ) (ha : a < 8) (hb : b < 3) (h) :
    bigSep ((ringRd fa fb).duties (dcell c (csem cc0_scratch3 a b h)) 0 \ ∅)
        (fun d => (ringRd fa fb).payload (dcell c (csem cc0_scratch3 a b h)) 0 d) =
      (iprop(∃ fd : Buf (Elt F) ((slotM a (b + 1) (slot_inb a (b + 1) ha (by omega)) : Memref sig .tc .vmem S512x256 .bf16).view.loc (c : Thread nD τ)),
        (slotM a (b + 1) (slot_inb a (b + 1) ha (by omega)) : Memref sig .tc .vmem S512x256 .bf16).view.loc (c : Thread nD τ)
          ↦[(slotM a (b + 1) (slot_inb a (b + 1) ha (by omega)) : Memref sig .tc .vmem S512x256 .bf16).view.set]{fullShare}
            ((slotM a (b + 1) (slot_inb a (b + 1) ha (by omega)) : Memref sig .tc .vmem S512x256 .bf16).view.write (Elt F) fd
              ((slotM a b (slot_inb a b ha (by omega)) : Memref sig .tc .vmem S512x256 .bf16).view.read (Elt F)
                (slotBuf a b (slot_inb a b ha (by omega)) (sent fa fb b (sdev a c) a ha))) Finset.univ)) : sProp 𝕄) := by
  rw [duties_rsRecv, Finset.sdiff_empty, bigSep_singleton, payload_rsRecv fa fb c a b ha hb]

theorem rest_agSend (a b : ℕ) (ha : a < 8) (hb : b < 3) (h) :
    bigSep ((ringRd fa fb).duties (dcell c (csem cc0_scratch4 a b h)) 0 \ ∅)
        (fun d => (ringRd fa fb).payload (dcell c (csem cc0_scratch4 a b h)) 0 d) =
      ((oblkM (rowOff c (agShift a b) a) (rowOff_inb c _ a ha) : Memref sig .tc .vmem S512x256 .bf16).view.loc (c : Thread nD τ)
        ↦[(oblkM (rowOff c (agShift a b) a) (rowOff_inb c _ a ha) : Memref sig .tc .vmem S512x256 .bf16).view.set]{fullShare}
          oblkBuf (rowOff c (agShift a b) a) (rowOff_inb c _ a ha) (outBlk fa fb (orig a b c) a ha) : sProp 𝕄) := by
  rw [duties_agSend, Finset.sdiff_empty, bigSep_singleton, payload_agSend fa fb c a b ha hb]

theorem rest_agRecv (a b : ℕ) (ha : a < 8) (hb : b < 3) (h) :
    bigSep ((ringRd fa fb).duties (dcell c (csem cc0_scratch5 a b h)) 0 \ ∅)
        (fun d => (ringRd fa fb).payload (dcell c (csem cc0_scratch5 a b h)) 0 d) =
      (iprop(∃ fd : Buf (Elt F) ((oblkM (rowOff c (agShift a (b + 1)) a) (rowOff_inb c _ a ha) : Memref sig .tc .vmem S512x256 .bf16).view.loc (c : Thread nD τ)),
        (oblkM (rowOff c (agShift a (b + 1)) a) (rowOff_inb c _ a ha) : Memref sig .tc .vmem S512x256 .bf16).view.loc (c : Thread nD τ)
          ↦[(oblkM (rowOff c (agShift a (b + 1)) a) (rowOff_inb c _ a ha) : Memref sig .tc .vmem S512x256 .bf16).view.set]{fullShare}
            ((oblkM (rowOff c (agShift a (b + 1)) a) (rowOff_inb c _ a ha) : Memref sig .tc .vmem S512x256 .bf16).view.write (Elt F) fd
              ((oblkM (rowOff (sdev a c) (agShift a b) a) (rowOff_inb _ _ a ha) : Memref sig .tc .vmem S512x256 .bf16).view.read (Elt F)
                (oblkBuf (rowOff (sdev a c) (agShift a b) a) (rowOff_inb _ _ a ha) (outBlk fa fb (orig a b (sdev a c)) a ha))) Finset.univ)) : sProp 𝕄) := by
  rw [duties_agRecv, Finset.sdiff_empty, bigSep_singleton, payload_agRecv fa fb c a b ha hb]

/-! ## Payloads of a neighbour's receive cells, in the sending device's terms

Chains 0–3 travel to the next device, whose sender is this one; chains 4–7 to the previous one. -/

omit fa fb in
theorem sdev_nxt (a : ℕ) (h4 : a < 4) : sdev a (nxt c) = c := by unfold sdev; rw [if_pos h4, prv_nxt]
omit fa fb in
theorem sdev_prv (a : ℕ) (h4 : 4 ≤ a) : sdev a (prv c) = c := by unfold sdev; rw [if_neg (by omega), nxt_prv]

theorem payload_rsRecv_nxt (a b : ℕ) (ha : a < 8) (hb : b < 3) (h4 : a < 4) (h) (d : Bool) :
    (ringRd fa fb).payload (dcell (nxt c) (csem cc0_scratch3 a b h)) 0 d =
      (iprop(∃ fd : Buf (Elt F) ((slotM a (b + 1) (slot_inb a (b + 1) ha (by omega)) : Memref sig .tc .vmem S512x256 .bf16).view.loc (nxt c : Thread nD τ)),
        (slotM a (b + 1) (slot_inb a (b + 1) ha (by omega)) : Memref sig .tc .vmem S512x256 .bf16).view.loc (nxt c : Thread nD τ)
          ↦[(slotM a (b + 1) (slot_inb a (b + 1) ha (by omega)) : Memref sig .tc .vmem S512x256 .bf16).view.set]{fullShare}
            ((slotM a (b + 1) (slot_inb a (b + 1) ha (by omega)) : Memref sig .tc .vmem S512x256 .bf16).view.write (Elt F) fd
              ((slotM a b (slot_inb a b ha (by omega)) : Memref sig .tc .vmem S512x256 .bf16).view.read (Elt F)
                (slotBuf a b (slot_inb a b ha (by omega)) (sent fa fb b (c) a ha))) Finset.univ)) : sProp 𝕄) := by
  rw [payload_rsRecv fa fb (nxt c) a b ha hb, sdev_nxt c a h4]

theorem payload_rsRecv_prv (a b : ℕ) (ha : a < 8) (hb : b < 3) (h4 : 4 ≤ a) (h) (d : Bool) :
    (ringRd fa fb).payload (dcell (prv c) (csem cc0_scratch3 a b h)) 0 d =
      (iprop(∃ fd : Buf (Elt F) ((slotM a (b + 1) (slot_inb a (b + 1) ha (by omega)) : Memref sig .tc .vmem S512x256 .bf16).view.loc (prv c : Thread nD τ)),
        (slotM a (b + 1) (slot_inb a (b + 1) ha (by omega)) : Memref sig .tc .vmem S512x256 .bf16).view.loc (prv c : Thread nD τ)
          ↦[(slotM a (b + 1) (slot_inb a (b + 1) ha (by omega)) : Memref sig .tc .vmem S512x256 .bf16).view.set]{fullShare}
            ((slotM a (b + 1) (slot_inb a (b + 1) ha (by omega)) : Memref sig .tc .vmem S512x256 .bf16).view.write (Elt F) fd
              ((slotM a b (slot_inb a b ha (by omega)) : Memref sig .tc .vmem S512x256 .bf16).view.read (Elt F)
                (slotBuf a b (slot_inb a b ha (by omega)) (sent fa fb b (c) a ha))) Finset.univ)) : sProp 𝕄) := by
  rw [payload_rsRecv fa fb (prv c) a b ha hb, sdev_prv c a h4]

theorem payload_agRecv_nxt (a b : ℕ) (ha : a < 8) (hb : b < 3) (h4 : a < 4) (h) (d : Bool) :
    (ringRd fa fb).payload (dcell (nxt c) (csem cc0_scratch5 a b h)) 0 d =
      (iprop(∃ fd : Buf (Elt F) ((oblkM (rowOff (nxt c) (agShift a (b + 1)) a) (rowOff_inb (nxt c) _ a ha) : Memref sig .tc .vmem S512x256 .bf16).view.loc (nxt c : Thread nD τ)),
        (oblkM (rowOff (nxt c) (agShift a (b + 1)) a) (rowOff_inb (nxt c) _ a ha) : Memref sig .tc .vmem S512x256 .bf16).view.loc (nxt c : Thread nD τ)
          ↦[(oblkM (rowOff (nxt c) (agShift a (b + 1)) a) (rowOff_inb (nxt c) _ a ha) : Memref sig .tc .vmem S512x256 .bf16).view.set]{fullShare}
            ((oblkM (rowOff (nxt c) (agShift a (b + 1)) a) (rowOff_inb (nxt c) _ a ha) : Memref sig .tc .vmem S512x256 .bf16).view.write (Elt F) fd
              ((oblkM (rowOff (c) (agShift a b) a) (rowOff_inb _ _ a ha) : Memref sig .tc .vmem S512x256 .bf16).view.read (Elt F)
                (oblkBuf (rowOff (c) (agShift a b) a) (rowOff_inb _ _ a ha) (outBlk fa fb (orig a b (c)) a ha))) Finset.univ)) : sProp 𝕄) := by
  rw [payload_agRecv fa fb (nxt c) a b ha hb, sdev_nxt c a h4]

theorem payload_agRecv_prv (a b : ℕ) (ha : a < 8) (hb : b < 3) (h4 : 4 ≤ a) (h) (d : Bool) :
    (ringRd fa fb).payload (dcell (prv c) (csem cc0_scratch5 a b h)) 0 d =
      (iprop(∃ fd : Buf (Elt F) ((oblkM (rowOff (prv c) (agShift a (b + 1)) a) (rowOff_inb (prv c) _ a ha) : Memref sig .tc .vmem S512x256 .bf16).view.loc (prv c : Thread nD τ)),
        (oblkM (rowOff (prv c) (agShift a (b + 1)) a) (rowOff_inb (prv c) _ a ha) : Memref sig .tc .vmem S512x256 .bf16).view.loc (prv c : Thread nD τ)
          ↦[(oblkM (rowOff (prv c) (agShift a (b + 1)) a) (rowOff_inb (prv c) _ a ha) : Memref sig .tc .vmem S512x256 .bf16).view.set]{fullShare}
            ((oblkM (rowOff (prv c) (agShift a (b + 1)) a) (rowOff_inb (prv c) _ a ha) : Memref sig .tc .vmem S512x256 .bf16).view.write (Elt F) fd
              ((oblkM (rowOff (c) (agShift a b) a) (rowOff_inb _ _ a ha) : Memref sig .tc .vmem S512x256 .bf16).view.read (Elt F)
                (oblkBuf (rowOff (c) (agShift a b) a) (rowOff_inb _ _ a ha) (outBlk fa fb (orig a b (c)) a ha))) Finset.univ)) : sProp 𝕄) := by
  rw [payload_agRecv fa fb (prv c) a b ha hb, sdev_prv c a h4]

omit fa fb in
/-- The block a neighbour receives copy `(a, b)` into is at the offsets of the block it is copied from: one hop
    along the chain moves the device index and the shift by one each, in opposite senses. -/
theorem rowOff_nxt_landing (a b : ℕ) (hb : b < 3) (h4 : a < 4) :
    rowOff (nxt c) (agShift a (b + 1)) a = rowOff c (agShift a b) a := by
  have e : chunk (nxt c) (agShift a (b + 1)) = chunk c (agShift a b) := by
    unfold agShift; rw [if_pos h4, if_pos h4, chunk_nxt]; unfold chunk; omega
  unfold rowOff; rw [e]
omit fa fb in
theorem rowOff_prv_landing (a b : ℕ) (hb : b < 3) (h4 : 4 ≤ a) :
    rowOff (prv c) (agShift a (b + 1)) a = rowOff c (agShift a b) a := by
  have e : chunk (prv c) (agShift a (b + 1)) = chunk c (agShift a b) := by
    unfold agShift; rw [if_neg (by omega), if_neg (by omega)]; unfold chunk; rw [prv_val]; unfold chunk; omega
  unfold rowOff; rw [e]

omit fa fb in
/-- A landing block's hand-over depends on its offsets only. -/
theorem landing_congr {off off' : Fin 2 → ℕ} (e : off = off') (hi hi') (t : Dev nD) (v : Blk F) :
    (iprop(∃ fd : Buf (Elt F) ((oblkM off hi : Memref sig .tc .vmem S512x256 .bf16).view.loc (t : Thread nD τ)),
        (oblkM off hi : Memref sig .tc .vmem S512x256 .bf16).view.loc (t : Thread nD τ)
          ↦[(oblkM off hi : Memref sig .tc .vmem S512x256 .bf16).view.set]{fullShare}
            ((oblkM off hi : Memref sig .tc .vmem S512x256 .bf16).view.write (Elt F) fd v Finset.univ)) : sProp 𝕄) =
      iprop(∃ fd : Buf (Elt F) ((oblkM off' hi' : Memref sig .tc .vmem S512x256 .bf16).view.loc (t : Thread nD τ)),
        (oblkM off' hi' : Memref sig .tc .vmem S512x256 .bf16).view.loc (t : Thread nD τ)
          ↦[(oblkM off' hi' : Memref sig .tc .vmem S512x256 .bf16).view.set]{fullShare}
            ((oblkM off' hi' : Memref sig .tc .vmem S512x256 .bf16).view.write (Elt F) fd v Finset.univ)) := by
  subst e; rfl

/-- The same payloads with the landing block at the sending device's own offsets. -/
theorem payload_agRecv_nxt' (a b : ℕ) (ha : a < 8) (hb : b < 3) (h4 : a < 4) (h) (d : Bool) :
    (ringRd fa fb).payload (dcell (nxt c) (csem cc0_scratch5 a b h)) 0 d =
      (iprop(∃ fd : Buf (Elt F) ((oblkM (rowOff c (agShift a b) a) (rowOff_inb c _ a ha) : Memref sig .tc .vmem S512x256 .bf16).view.loc (nxt c : Thread nD τ)),
        (oblkM (rowOff c (agShift a b) a) (rowOff_inb c _ a ha) : Memref sig .tc .vmem S512x256 .bf16).view.loc (nxt c : Thread nD τ)
          ↦[(oblkM (rowOff c (agShift a b) a) (rowOff_inb c _ a ha) : Memref sig .tc .vmem S512x256 .bf16).view.set]{fullShare}
            ((oblkM (rowOff c (agShift a b) a) (rowOff_inb c _ a ha) : Memref sig .tc .vmem S512x256 .bf16).view.write (Elt F) fd
              ((oblkM (rowOff (c) (agShift a b) a) (rowOff_inb _ _ a ha) : Memref sig .tc .vmem S512x256 .bf16).view.read (Elt F)
                (oblkBuf (rowOff (c) (agShift a b) a) (rowOff_inb _ _ a ha) (outBlk fa fb (orig a b (c)) a ha))) Finset.univ)) : sProp 𝕄) := by
  rw [payload_agRecv_nxt fa fb c a b ha hb h4]
  exact landing_congr (rowOff_nxt_landing c a b hb h4) _ _ _ _

theorem payload_agRecv_prv' (a b : ℕ) (ha : a < 8) (hb : b < 3) (h4 : 4 ≤ a) (h) (d : Bool) :
    (ringRd fa fb).payload (dcell (prv c) (csem cc0_scratch5 a b h)) 0 d =
      (iprop(∃ fd : Buf (Elt F) ((oblkM (rowOff c (agShift a b) a) (rowOff_inb c _ a ha) : Memref sig .tc .vmem S512x256 .bf16).view.loc (prv c : Thread nD τ)),
        (oblkM (rowOff c (agShift a b) a) (rowOff_inb c _ a ha) : Memref sig .tc .vmem S512x256 .bf16).view.loc (prv c : Thread nD τ)
          ↦[(oblkM (rowOff c (agShift a b) a) (rowOff_inb c _ a ha) : Memref sig .tc .vmem S512x256 .bf16).view.set]{fullShare}
            ((oblkM (rowOff c (agShift a b) a) (rowOff_inb c _ a ha) : Memref sig .tc .vmem S512x256 .bf16).view.write (Elt F) fd
              ((oblkM (rowOff (c) (agShift a b) a) (rowOff_inb _ _ a ha) : Memref sig .tc .vmem S512x256 .bf16).view.read (Elt F)
                (oblkBuf (rowOff (c) (agShift a b) a) (rowOff_inb _ _ a ha) (outBlk fa fb (orig a b (c)) a ha))) Finset.univ)) : sProp 𝕄) := by
  rw [payload_agRecv_prv fa fb c a b ha hb h4]
  exact landing_congr (rowOff_prv_landing c a b hb h4) _ _ _ _

/-! ## The same payloads with a block's offsets spelt otherwise

A block of the result buffer is determined by its offsets; the program computes them from the device's index, and
the closed form of that computation is `rowOff` at the copy's shift.  Each lemma takes the other spelling `off`
with the equation. -/

theorem payload_agSend_at (a b : ℕ) (ha : a < 8) (hb : b < 3) (h) (d : Bool) (off : Fin 2 → ℕ) (hi)
    (e : off = rowOff c (agShift a b) a) :
    (ringRd fa fb).payload (dcell c (csem cc0_scratch4 a b h)) 0 d =
      ((oblkM (off) (hi) : Memref sig .tc .vmem S512x256 .bf16).view.loc (c : Thread nD τ)
        ↦[(oblkM (off) (hi) : Memref sig .tc .vmem S512x256 .bf16).view.set]{fullShare}
          oblkBuf (off) (hi) (outBlk fa fb (orig a b c) a ha) : sProp 𝕄) := by
  subst e; exact payload_agSend fa fb c a b ha hb h d

theorem payload_agRecv_nxt_at (a b : ℕ) (ha : a < 8) (hb : b < 3) (h4 : a < 4) (h) (d : Bool) (off : Fin 2 → ℕ) (hi)
    (e : off = rowOff c (agShift a b) a) :
    (ringRd fa fb).payload (dcell (nxt c) (csem cc0_scratch5 a b h)) 0 d =
      (iprop(∃ fd : Buf (Elt F) ((oblkM (off) (hi) : Memref sig .tc .vmem S512x256 .bf16).view.loc (nxt c : Thread nD τ)),
        (oblkM (off) (hi) : Memref sig .tc .vmem S512x256 .bf16).view.loc (nxt c : Thread nD τ)
          ↦[(oblkM (off) (hi) : Memref sig .tc .vmem S512x256 .bf16).view.set]{fullShare}
            ((oblkM (off) (hi) : Memref sig .tc .vmem S512x256 .bf16).view.write (Elt F) fd
              ((oblkM (off) (hi) : Memref sig .tc .vmem S512x256 .bf16).view.read (Elt F)
                (oblkBuf (off) (hi) (outBlk fa fb (orig a b c) a ha))) Finset.univ)) : sProp 𝕄) := by
  subst e; exact payload_agRecv_nxt' fa fb c a b ha hb h4 h d

theorem payload_agRecv_prv_at (a b : ℕ) (ha : a < 8) (hb : b < 3) (h4 : 4 ≤ a) (h) (d : Bool) (off : Fin 2 → ℕ) (hi)
    (e : off = rowOff c (agShift a b) a) :
    (ringRd fa fb).payload (dcell (prv c) (csem cc0_scratch5 a b h)) 0 d =
      (iprop(∃ fd : Buf (Elt F) ((oblkM (off) (hi) : Memref sig .tc .vmem S512x256 .bf16).view.loc (prv c : Thread nD τ)),
        (oblkM (off) (hi) : Memref sig .tc .vmem S512x256 .bf16).view.loc (prv c : Thread nD τ)
          ↦[(oblkM (off) (hi) : Memref sig .tc .vmem S512x256 .bf16).view.set]{fullShare}
            ((oblkM (off) (hi) : Memref sig .tc .vmem S512x256 .bf16).view.write (Elt F) fd
              ((oblkM (off) (hi) : Memref sig .tc .vmem S512x256 .bf16).view.read (Elt F)
                (oblkBuf (off) (hi) (outBlk fa fb (orig a b c) a ha))) Finset.univ)) : sProp 𝕄) := by
  subst e; exact payload_agRecv_prv' fa fb c a b ha hb h4 h d

/-- A device's own all-gather receive cell with the landing block's offsets spelt `off`. -/
theorem payload_agRecv_at (a b : ℕ) (ha : a < 8) (hb : b < 3) (h) (d : Bool) (off : Fin 2 → ℕ) (hi)
    (e : off = rowOff c (agShift a (b + 1)) a) :
    (ringRd fa fb).payload (dcell c (csem cc0_scratch5 a b h)) 0 d =
      (iprop(∃ fd : Buf (Elt F) ((oblkM (off) (hi) : Memref sig .tc .vmem S512x256 .bf16).view.loc (c : Thread nD τ)),
        (oblkM (off) (hi) : Memref sig .tc .vmem S512x256 .bf16).view.loc (c : Thread nD τ)
          ↦[(oblkM (off) (hi) : Memref sig .tc .vmem S512x256 .bf16).view.set]{fullShare}
            ((oblkM (off) (hi) : Memref sig .tc .vmem S512x256 .bf16).view.write (Elt F) fd
              ((oblkM (rowOff (sdev a c) (agShift a b) a) (rowOff_inb _ _ a ha) : Memref sig .tc .vmem S512x256 .bf16).view.read (Elt F)
                (oblkBuf (rowOff (sdev a c) (agShift a b) a) (rowOff_inb _ _ a ha) (outBlk fa fb (orig a b (sdev a c)) a ha))) Finset.univ)) : sProp 𝕄) := by
  subst e; exact payload_agRecv fa fb c a b ha hb h d

/-! ## The barrier cell -/

theorem payload_bar (d : Bool) : (ringRd fa fb).payload (barCell c) 0 d = barPay c d := by
  dsimp only [ringRd]; exact if_pos rfl

omit fa fb c in
/-- One chain-and-step's share of a barrier unit depends on the neighbour, the chain, the step and the block's offsets only. -/
theorem barLeaf_congr (t t' : Dev nD) (et : t = t') (a a' : ℕ) (ea : a = a') (b b' : ℕ) (eb : b = b')
    (off off' : Fin 2 → ℕ) (eo : off = off') (hs hs' ho ho' h3 h3' h5 h5') :
    (iprop((∃ f : Buf (Elt F) ((slotM (a) (b + 1) (hs) : Memref sig .tc .vmem S512x256 .bf16).view.loc (t : Thread nD τ)),
        (slotM (a) (b + 1) (hs) : Memref sig .tc .vmem S512x256 .bf16).view.loc (t : Thread nD τ)
          ↦[(slotM (a) (b + 1) (hs) : Memref sig .tc .vmem S512x256 .bf16).view.set]{fullShare} f)
      ∗ (∃ f : Buf (Elt F) ((oblkM (off) (ho) : Memref sig .tc .vmem S512x256 .bf16).view.loc (t : Thread nD τ)),
        (oblkM (off) (ho) : Memref sig .tc .vmem S512x256 .bf16).view.loc (t : Thread nD τ)
          ↦[(oblkM (off) (ho) : Memref sig .tc .vmem S512x256 .bf16).view.set]{fullShare} f)
      ∗ reached ER (dcell (t) (csem cc0_scratch3 (a) (b) (h3))) 0
      ∗ reached ER (dcell (t) (csem cc0_scratch5 (a) (b) (h5))) 0) : sProp 𝕄) =
      iprop((∃ f : Buf (Elt F) ((slotM (a') (b' + 1) (hs') : Memref sig .tc .vmem S512x256 .bf16).view.loc (t' : Thread nD τ)),
        (slotM (a') (b' + 1) (hs') : Memref sig .tc .vmem S512x256 .bf16).view.loc (t' : Thread nD τ)
          ↦[(slotM (a') (b' + 1) (hs') : Memref sig .tc .vmem S512x256 .bf16).view.set]{fullShare} f)
      ∗ (∃ f : Buf (Elt F) ((oblkM (off') (ho') : Memref sig .tc .vmem S512x256 .bf16).view.loc (t' : Thread nD τ)),
        (oblkM (off') (ho') : Memref sig .tc .vmem S512x256 .bf16).view.loc (t' : Thread nD τ)
          ↦[(oblkM (off') (ho') : Memref sig .tc .vmem S512x256 .bf16).view.set]{fullShare} f)
      ∗ reached ER (dcell (t') (csem cc0_scratch3 (a') (b') (h3'))) 0
      ∗ reached ER (dcell (t') (csem cc0_scratch5 (a') (b') (h5'))) 0) := by
  subst et ea eb eo; rfl

omit fa fb in
/-- The blocks the previous device will copy into this one, at this device's offsets (chains 0–3). -/
theorem rowOff_prv_pay (a b : ℕ) (hb : b < 3) (h4 : a < 4) : rowOff (prv c) (agShift a b) a = rowOff c (3 - b) a := by
  have e : chunk (prv c) (agShift a b) = chunk c (3 - b) := by
    unfold agShift; rw [if_pos h4]; unfold chunk; rw [prv_val]; unfold chunk; omega
  unfold rowOff; rw [e]
omit fa fb in
/-- The blocks the next device will copy into this one, at this device's offsets (chains 4–7). -/
theorem rowOff_nxt_pay (a b : ℕ) (hb : b < 3) (h4 : 4 ≤ a) : rowOff (nxt c) (agShift a b) a = rowOff c (b + 1) a := by
  have e : chunk (nxt c) (agShift a b) = chunk c (b + 1) := by
    unfold agShift; rw [if_neg (by omega)]; unfold chunk; rw [nxt_val]; unfold chunk; omega
  unfold rowOff; rw [e]

/-- The barrier round's two payloads, the next device's first. -/
theorem rest_bar :
    bigSep ((ringRd fa fb).duties (barCell c) 0 \ ∅) (fun d => (ringRd fa fb).payload (barCell c) 0 d) =
      iprop(barPay (F := F) c true ∗ barPay c false) := by
  rw [duties_bar, Finset.sdiff_empty, bigSep_univ_eq_bigSepL [true, false] (by decide) (by decide)]
  show iprop((ringRd fa fb).payload (barCell c) 0 true ∗ (ringRd fa fb).payload (barCell c) 0 false) = _
  rw [payload_bar, payload_bar]

omit fa fb c in
theorem sep_congr {P P' Q Q' : sProp 𝕄} (hP : P = P') (hQ : Q = Q') : iprop(P ∗ Q) = iprop(P' ∗ Q') := by rw [hP, hQ]

/-! ## Every payload can be stored in an invariant -/

instance ringRd_payload_storable (g : GSem nD τ sig) (r : ℕ) (d : Bool) :
    BI.Storable (upEmb : UEmb _ 𝕄) ((ringRd fa fb).payload g r d) := by
  obtain ⟨t, s⟩ := g
  cases s with
  | reg s =>
    show BI.Storable upEmb (if s = barS then barPay t.1 d else iprop(emp))
    unfold barPay
    split <;> infer_instance
  | dma q =>
    show BI.Storable upEmb (dmaPay fa fb t.1 q.val)
    unfold dmaPay rsSendPay rsRecvPay agSendPay agRecvPay
    (repeat' split) <;> infer_instance

end Tables

end Cert.KernelIdeal.P

end
-- ==== Proof.Launch.lean ====
import proofs.«900901_g7700000000000902_dist_matmul_silu_kshard_i_m2048_n2048_k1024_v7x_i4_bf16_1_alg».proof.Proof.Ghost
import proofs.«900901_g7700000000000902_dist_matmul_silu_kshard_i_m2048_n2048_k1024_v7x_i4_bf16_1_alg».proof.Proof.Tables

/-!
The launch of the ring kernel on the four devices.

Given one device's body, proved from what that device holds at its start to what it hands back, every weakly fair execution
of the whole program terminates with each device's arrays at the computed contents. The launch mints, for every device, the
state of its 97 cells (its barrier cell and 96 transfer cells) and 98 duty tokens (the barrier cell's two, one per transfer
cell), allocates every cell's invariant for all devices at once, and deals the tokens to the devices that pay the duties: a
barrier cell's `true` token to the next device and its `false` token to the previous one, a receive cell's token to the device
the chain comes from, a send cell's token to its owner. What the devices owe at launch comes back to each receive cell's owner
as that cell's credit, because each receive cell is paid by exactly one copy of exactly one device; and a barrier cell's two
units come from its two neighbours. The pipeline's own waits are on cells at level 0, below everything a device owes; the
body's waits are covered by a ledger over the copies still to be issued.
-/

noncomputable section

namespace Cert.KernelIdeal.P

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation, from one device's body -/

theorem bigSep_W (Φ : Fin cfg0.W → sProp 𝕄) : bigSep Finset.univ Φ = iprop(Φ (0 : Fin 3) ∗ Φ (1 : Fin 3) ∗ Φ (2 : Fin 3)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

def bodyPre' (c : Dev nD) : sProp 𝕄 :=
  iprop(Φ₀ (xstgA m ρ) (xstgB m ρ) c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

/-- The library's body obligation on device `c`, from the body's statement. -/
theorem body_obligation (hbody : SoundBody m ρ) (c : Dev nD) :
    BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5) (fun _ => bodyPost m ρ c)
  unfold bodyPre' Φ₀ start
  iintro ⟨⟨⟨⟨%K, Hg⟩, Hrest⟩, Hs0, Hs1⟩, Ho, Hx⟩
  iapply (hbody K c fun _ => bodyPost m ρ c)
  unfold bodyPre
  isplitr []
  · isplitl [Hg Hrest Hs0 Hs1]
    · isplitl [Hg]; · iexact Hg
      icases Hrest with ⟨H1, H2, H3, H4⟩
      isplitl [H1]; · iexact H1
      isplitl [H2]; · iexact H2
      isplitl [H3]; · iexact H3
      isplitl [H4]; · iexact H4
      isplitl [Hs0]; · iexact Hs0
      iexact Hs1
    isplitl [Ho]; · iexact Ho
    iexact Hx
  · iintro H; iexact H

/-! ## The kernel's own semaphores -/

/-- The 96 transfer semaphores, numbers 3 … 98. -/
abbrev osem : Fin 96 → SemLoc sig := fun i => .dma (semN (i.val + 3) (by omega))

theorem ownSemFacts : Pipeline.OwnSemFacts cfg0.spec osem := by decide

/-! ## The cells and tokens minted at launch -/

/-- Semaphore `(a, b)` of array `k` is number `3 + 24 k + 3 a + b`. -/
theorem xcsem_val : ∀ (k : Fin 4) (a : Fin 8) (b : Fin 3),
    (csem (xarr k) a.val b.val (sem_inb _ _ a.isLt b.isLt)).val = 3 + 24 * k.val + 3 * a.val + b.val := by decide

/-- A device's own cells: its barrier cell, and one transfer cell per array, chain and step. -/
abbrev Cx : Type := Unit ⊕ (Fin 4 × Fin 8 × Fin 3)
abbrev ksem : Cx → SemLoc sig
  | .inl _ => .reg barS
  | .inr kab => .dma (csem (xarr kab.1) kab.2.1.val kab.2.2.val (sem_inb _ _ kab.2.1.isLt kab.2.2.isLt))
abbrev kcell (cx : Dev nD × Cx) : GSem nD τ sig := ((cx.1 : Thread nD τ), ksem cx.2)

theorem ksem_injective : Function.Injective ksem := by
  rintro (u | ⟨k, a, b⟩) (u' | ⟨k', a', b'⟩) h
  · rfl
  · cases h
  · cases h
  · have hq : csem (xarr k) a.val b.val (sem_inb _ _ a.isLt b.isLt) = csem (xarr k') a'.val b'.val (sem_inb _ _ a'.isLt b'.isLt) := by
      injection h
    have hv := congrArg Fin.val hq
    rw [xcsem_val, xcsem_val] at hv
    have := k.isLt; have := k'.isLt; have := a.isLt; have := a'.isLt; have := b.isLt; have := b'.isLt
    have hk : k = k' := Fin.ext (by omega)
    have ha : a = a' := Fin.ext (by omega)
    have hb : b = b' := Fin.ext (by omega)
    subst hk ha hb; rfl

theorem kcell_injective : Function.Injective (kcell : Dev nD × Cx → GSem nD τ sig) := by
  rintro ⟨c, x⟩ ⟨c', x'⟩ h
  have h1 : c = c' := by have := congrArg (fun g : GSem nD τ sig => g.1.1) h; exact this
  subst h1
  have h2 : ksem x = ksem x' := congrArg Prod.snd h
  rw [ksem_injective h2]
def ringCells : Finset (GSem nD τ sig) := Finset.univ.map ⟨kcell, kcell_injective⟩

/-- The duty tokens minted for a device's own cells: its barrier's two, one per transfer cell. -/
abbrev Tx : Type := Bool ⊕ (Fin 4 × Fin 8 × Fin 3)
abbrev tokOf (ct : Dev nD × Tx) : GSem nD τ sig × ℕ × Bool := match ct.2 with
  | .inl d => (barCell ct.1, 0, d)
  | .inr kab => (kcell (ct.1, .inr kab), 0, false)
theorem tokOf_injective : Function.Injective (tokOf : Dev nD × Tx → GSem nD τ sig × ℕ × Bool) := by
  rintro ⟨c, x⟩ ⟨c', x'⟩ h
  have h1 : c = c' := by
    have := congrArg (fun y : GSem nD τ sig × ℕ × Bool => y.1.1.1) h
    rcases x with d | kab <;> rcases x' with d' | kab' <;> exact this
  subst h1
  rcases x with d | kab <;> rcases x' with d' | kab'
  · have : d = d' := congrArg (fun y : GSem nD τ sig × ℕ × Bool => y.2.2) h
    subst this; rfl
  · exact absurd (congrArg (fun y : GSem nD τ sig × ℕ × Bool => y.1.2) h) (fun h' => by cases h')
  · exact absurd (congrArg (fun y : GSem nD τ sig × ℕ × Bool => y.1.2) h) (fun h' => by cases h')
  · have h2 : ksem (.inr kab) = ksem (.inr kab') := congrArg (fun y : GSem nD τ sig × ℕ × Bool => y.1.2) h
    have := ksem_injective h2
    rw [Sum.inr.inj this]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((dutyTok ER (barCell c) 0 false ∗ dutyTok ER (barCell c) 0 true)
    ∗ bigSep Finset.univ fun kab : Fin 4 × Fin 8 × Fin 3 => dutyTok ER (kcell (c, .inr kab)) 0 false)

/-- What the launch element deals device `c`. -/
def G (c : Dev nD) : sProp 𝕄 :=
  iprop((bigSep Finset.univ fun x : Cx => roundState ER (ringRd (xstgA m ρ) (xstgB m ρ)) (kcell (c, x)) 0)
    ∗ (bigSep Finset.univ fun x : Cx => iprop(atPos ER (kcell (c, x)) 0 ∅ 0 ∗ reached ER (kcell (c, x)) 0)) ∗ toks c)

/-- What the global step makes of it. -/
def G' (c : Dev nD) : sProp 𝕄 := iprop(∃ K, ghost (xstgA m ρ) (xstgB m ρ) K c)

theorem bigSep_bool (Φ : Bool → sProp 𝕄) : bigSep Finset.univ Φ = iprop(Φ false ∗ Φ true) :=
  bigSep_univ_eq_bigSepL [false, true] (by decide) (by decide) Φ

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun x : Cx => Φ (kcell (c, x)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_bool]; rfl
  iintro HX
  imod (Rounds.fund ER (ringRd (xstgA m ρ) (xstgB m ρ)) ringCells ringToks) $$ HX with ⟨Hst, Hr, Hat, Htok⟩
  imodintro
  ihave Hst' := (Entails.of_eq (hX fun g => roundState ER (ringRd (xstgA m ρ) (xstgB m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ### The own and the unscoped semaphores at zero -/

/-- The transfer semaphores counted through array, chain and step. -/
def xnum (kab : Fin 4 × Fin 8 × Fin 3) : Fin 96 :=
  ⟨24 * kab.1.val + 3 * kab.2.1.val + kab.2.2.val, by have := kab.1.isLt; have := kab.2.1.isLt; have := kab.2.2.isLt; omega⟩
theorem xnum_bijective : Function.Bijective xnum := by
  rw [Fintype.bijective_iff_injective_and_card]
  refine ⟨fun x y h => ?_, by simp⟩
  obtain ⟨k, a, b⟩ := x; obtain ⟨k', a', b'⟩ := y
  have hv : 24 * k.val + 3 * a.val + b.val = 24 * k'.val + 3 * a'.val + b'.val := congrArg Fin.val h
  have := k.isLt; have := k'.isLt; have := a.isLt; have := a'.isLt; have := b.isLt; have := b'.isLt
  have hk : k = k' := Fin.ext (by omega)
  have ha : a = a' := Fin.ext (by omega)
  have hb : b = b' := Fin.ext (by omega)
  subst hk ha hb; rfl
def xnumEquiv : Fin 4 × Fin 8 × Fin 3 ≃ Fin 96 := Equiv.ofBijective xnum xnum_bijective

theorem osem_xnum (kab : Fin 4 × Fin 8 × Fin 3) : osem (xnum kab) = ksem (.inr kab) := by
  obtain ⟨k, a, b⟩ := kab
  refine congrArg SemLoc.dma (Fin.ext ?_)
  show 24 * k.val + 3 * a.val + b.val + 3 = (csem (xarr k) a.val b.val (sem_inb _ _ a.isLt b.isLt)).val
  rw [xcsem_val]; omega

/-- The transfer semaphores are the kernel's own; -/
theorem ownSems0_eq (c : Dev nD) : (Pipeline.ownSems0 (Ix := Unit) (Name := ℕ) (U := UU) (Lvl := ℕ) (Val := Elt F) (τ := τ) osem c : sProp 𝕄)
    = bigSep Finset.univ fun kab : Fin 4 × Fin 8 × Fin 3 => semVal (kcell (c, .inr kab)) 0 := by
  unfold Pipeline.ownSems0
  rw [bigSep_univ_equiv xnumEquiv]
  exact bigSep_congr fun kab _ => by
    show semVal ((c : Thread nD τ), osem (xnum kab)) 0 = _
    rw [osem_xnum]
/-- the barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem bigSep_Cx (Φ : Cx → sProp 𝕄) :
    bigSep Finset.univ Φ = iprop(Φ (.inl ()) ∗ bigSep Finset.univ fun kab : Fin 4 × Fin 8 × Fin 3 => Φ (.inr kab)) := by
  rw [bigSep_univ_sum, bigSep_univ_of_subsingleton ()]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun x : Cx => semVal (kcell (c, x)) 0 : sProp 𝕄) := by
  rw [ownSems0_eq, unscopedSems0_eq, bigSep_Cx]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun x : Cx => iprop(∃ κ : ℕ, cellInv ER (ringRd (xstgA m ρ) (xstgB m ρ)) κ (kcell (c, x))))
          ∗ (bigSep Finset.univ fun x : Cx => iprop(atPos ER (kcell (c, x)) 0 ∅ 0 ∗ reached ER (kcell (c, x)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun x : Cx => semVal (kcell (c, x)) 0) ∗ bigSep Finset.univ fun x : Cx => roundState ER (ringRd (xstgA m ρ) (xstgB m ρ)) (kcell (c, x)) 0)
      ⊢ (|={Set.univ}=> bigSep Finset.univ fun x : Cx => iprop(∃ κ : ℕ, cellInv ER (ringRd (xstgA m ρ) (xstgB m ρ)) κ (kcell (c, x))) : sProp 𝕄) from by
        rw [← bigSep_sep']
        exact (bigSep_mono fun x _ => (Rounds.body_intro ER (ringRd (xstgA m ρ) (xstgB m ρ)) (kcell (c, x))).trans inv_alloc).trans (bigSep_fupd _ _)) $$ [Hv Hst] with Hinv
  · isplitl [Hv] <;> iassumption
  imodintro
  isplitl [Hinv]; · iexact Hinv
  isplitl [Hat]; · iexact Hat
  iexact Htok

/-! ### From the minted state to each device's start -/

/-- A family over a device's own cells of array `k`, and over the cells of array `k` its copies complete on. -/
def ownF (c : Dev nD) (k : Fin 4) (Φ : GSem nD τ sig → sProp 𝕄) : sProp 𝕄 :=
  bigSep Finset.univ fun ab : Fin 8 × Fin 3 => Φ (kcell (c, .inr (k, ab)))
def tgtF (c : Dev nD) (k : Fin 4) (Φ : GSem nD τ sig → sProp 𝕄) : sProp 𝕄 :=
  bigSep Finset.univ fun ab : Fin 8 × Fin 3 => Φ (kcell (tdev ab.1.val c, .inr (k, ab)))

def invsK (K : GSem nD τ sig → ℕ) (c : Dev nD) : sProp 𝕄 :=
  iprop((fun g => cellInv ER (ringRd (xstgA m ρ) (xstgB m ρ)) (K g) g) (barCell c) ∗ (fun g => cellInv ER (ringRd (xstgA m ρ) (xstgB m ρ)) (K g) g) (barCell (nxt c)) ∗ (fun g => cellInv ER (ringRd (xstgA m ρ) (xstgB m ρ)) (K g) g) (barCell (prv c))
    ∗ ownF c 0 (fun g => cellInv ER (ringRd (xstgA m ρ) (xstgB m ρ)) (K g) g) ∗ ownF c 1 (fun g => cellInv ER (ringRd (xstgA m ρ) (xstgB m ρ)) (K g) g) ∗ ownF c 2 (fun g => cellInv ER (ringRd (xstgA m ρ) (xstgB m ρ)) (K g) g) ∗ ownF c 3 (fun g => cellInv ER (ringRd (xstgA m ρ) (xstgB m ρ)) (K g) g) ∗ tgtF c 1 (fun g => cellInv ER (ringRd (xstgA m ρ) (xstgB m ρ)) (K g) g) ∗ tgtF c 3 (fun g => cellInv ER (ringRd (xstgA m ρ) (xstgB m ρ)) (K g) g))
def posK (c : Dev nD) : sProp 𝕄 :=
  iprop(atPos ER (barCell c) 0 ∅ 0 ∗ ownF c 0 (fun g => atPos ER g 0 ∅ 0) ∗ ownF c 1 (fun g => atPos ER g 0 ∅ 0) ∗ ownF c 2 (fun g => atPos ER g 0 ∅ 0) ∗ ownF c 3 (fun g => atPos ER g 0 ∅ 0))
def reachedK (c : Dev nD) : sProp 𝕄 :=
  iprop(reached ER (barCell (nxt c)) 0 ∗ reached ER (barCell (prv c)) 0
    ∗ ownF c 0 (fun g => reached ER g 0) ∗ ownF c 1 (fun g => reached ER g 0) ∗ ownF c 2 (fun g => reached ER g 0) ∗ ownF c 3 (fun g => reached ER g 0) ∗ tgtF c 1 (fun g => reached ER g 0) ∗ tgtF c 3 (fun g => reached ER g 0))
/-- The tokens of the duties device `c` pays. -/
def payToks (c : Dev nD) : sProp 𝕄 :=
  iprop(dutyTok ER (barCell (prv c)) 0 true ∗ dutyTok ER (barCell (nxt c)) 0 false
    ∗ tgtF c 1 (fun g => dutyTok ER g 0 false) ∗ tgtF c 3 (fun g => dutyTok ER g 0 false) ∗ ownF c 0 (fun g => dutyTok ER g 0 false) ∗ ownF c 2 (fun g => dutyTok ER g 0 false))

/-- The ghost state, its families indexed through the cells' own numbering. -/
theorem ghost_eq (K : GSem nD τ sig → ℕ) (c : Dev nD) :
    ghost (xstgA m ρ) (xstgB m ρ) K c = iprop(invsK m ρ K c ∗ posK c ∗ reachedK c ∗ payToks c) := rfl

def records (K' : Dev nD × Cx → ℕ) : sProp 𝕄 :=
  iprop((bigSep Finset.univ fun cx : Dev nD × Cx => cellInv ER (ringRd (xstgA m ρ) (xstgB m ρ)) (K' cx) (kcell cx))
    ∗ bigSep Finset.univ fun cx : Dev nD × Cx => reached ER (kcell cx) 0)

instance records_persistent (K' : Dev nD × Cx → ℕ) : BI.Persistent (records m ρ K') := by unfold records; infer_instance

/-- The names as a function of the cell. -/
abbrev Kx (K' : Dev nD × Cx → ℕ) : GSem nD τ sig → ℕ := Function.extend kcell K' (fun _ => 0)
theorem Kx_kcell (K' : Dev nD × Cx → ℕ) (cx : Dev nD × Cx) : Kx K' (kcell cx) = K' cx := kcell_injective.extend_apply K' _ cx

theorem inv_at (K' : Dev nD × Cx → ℕ) (cx : Dev nD × Cx) :
    (bigSep Finset.univ fun cx : Dev nD × Cx => (cellInv ER (ringRd (xstgA m ρ) (xstgB m ρ)) (K' cx) (kcell cx) : sProp 𝕄)) ⊢ cellInv ER (ringRd (xstgA m ρ) (xstgB m ρ)) (K' cx) (kcell cx) :=
  bigSep_elim (Finset.mem_univ cx)
theorem reached_at (cx : Dev nD × Cx) :
    (bigSep Finset.univ fun cx : Dev nD × Cx => (reached ER (kcell cx) 0 : sProp 𝕄)) ⊢ reached ER (kcell cx) 0 :=
  bigSep_elim (Finset.mem_univ cx)

theorem rec_inv (K' : Dev nD × Cx → ℕ) (cx : Dev nD × Cx) :
    records m ρ K' ⊢ cellInv ER (ringRd (xstgA m ρ) (xstgB m ρ)) (Kx K' (kcell cx)) (kcell cx) := by
  rw [Kx_kcell]; unfold records
  iintro ⟨HI, -⟩
  iapply (inv_at m ρ K' cx)
  iexact HI
theorem rec_reached (K' : Dev nD × Cx → ℕ) (cx : Dev nD × Cx) : records m ρ K' ⊢ reached ER (kcell cx) 0 := by
  unfold records
  iintro ⟨-, HR⟩
  iapply (reached_at (F := F) cx)
  iexact HR

theorem invs_intro (K' : Dev nD × Cx → ℕ) (c : Dev nD) : records m ρ K' ⊢ invsK m ρ (Kx K') c := by
  unfold invsK ownF tgtF
  iintro #HR
  isplitr; · iapply (rec_inv m ρ K' (c, .inl ())); iexact HR
  isplitr; · iapply (rec_inv m ρ K' (nxt c, .inl ())); iexact HR
  isplitr; · iapply (rec_inv m ρ K' (prv c, .inl ())); iexact HR
  isplitr; · iapply (bigSep_intro_persistent (R := records m ρ K') fun (ab : Fin 8 × Fin 3) _ => rec_inv m ρ K' (c, .inr (0, ab))); iexact HR
  isplitr; · iapply (bigSep_intro_persistent (R := records m ρ K') fun (ab : Fin 8 × Fin 3) _ => rec_inv m ρ K' (c, .inr (1, ab))); iexact HR
  isplitr; · iapply (bigSep_intro_persistent (R := records m ρ K') fun (ab : Fin 8 × Fin 3) _ => rec_inv m ρ K' (c, .inr (2, ab))); iexact HR
  isplitr; · iapply (bigSep_intro_persistent (R := records m ρ K') fun (ab : Fin 8 × Fin 3) _ => rec_inv m ρ K' (c, .inr (3, ab))); iexact HR
  isplitr; · iapply (bigSep_intro_persistent (R := records m ρ K') fun (ab : Fin 8 × Fin 3) _ => rec_inv m ρ K' (tdev ab.1.val c, .inr (1, ab))); iexact HR
  iapply (bigSep_intro_persistent (R := records m ρ K') fun (ab : Fin 8 × Fin 3) _ => rec_inv m ρ K' (tdev ab.1.val c, .inr (3, ab))); iexact HR

theorem reached_intro (K' : Dev nD × Cx → ℕ) (c : Dev nD) : records m ρ K' ⊢ reachedK c := by
  unfold reachedK ownF tgtF
  iintro #HR
  isplitr; · iapply (rec_reached m ρ K' (nxt c, .inl ())); iexact HR
  isplitr; · iapply (rec_reached m ρ K' (prv c, .inl ())); iexact HR
  isplitr; · iapply (bigSep_intro_persistent (R := records m ρ K') fun (ab : Fin 8 × Fin 3) _ => rec_reached m ρ K' (c, .inr (0, ab))); iexact HR
  isplitr; · iapply (bigSep_intro_persistent (R := records m ρ K') fun (ab : Fin 8 × Fin 3) _ => rec_reached m ρ K' (c, .inr (1, ab))); iexact HR
  isplitr; · iapply (bigSep_intro_persistent (R := records m ρ K') fun (ab : Fin 8 × Fin 3) _ => rec_reached m ρ K' (c, .inr (2, ab))); iexact HR
  isplitr; · iapply (bigSep_intro_persistent (R := records m ρ K') fun (ab : Fin 8 × Fin 3) _ => rec_reached m ρ K' (c, .inr (3, ab))); iexact HR
  isplitr; · iapply (bigSep_intro_persistent (R := records m ρ K') fun (ab : Fin 8 × Fin 3) _ => rec_reached m ρ K' (tdev ab.1.val c, .inr (1, ab))); iexact HR
  iapply (bigSep_intro_persistent (R := records m ρ K') fun (ab : Fin 8 × Fin 3) _ => rec_reached m ρ K' (tdev ab.1.val c, .inr (3, ab))); iexact HR

/-- What stays with device `c`: its positions, and the tokens of the duties it pays. -/
def linear (c : Dev nD) : sProp 𝕄 :=
  iprop((bigSep Finset.univ fun x : Cx => atPos ER (kcell (c, x)) 0 ∅ 0) ∗ payToks c)

theorem pos_eq (c : Dev nD) : (bigSep Finset.univ fun x : Cx => (atPos ER (kcell (c, x)) 0 ∅ 0 : sProp 𝕄)) = posK c := by
  rw [bigSep_Cx, bigSep_univ_prod (fun kab : Fin 4 × Fin 8 × Fin 3 => (atPos ER (kcell (c, .inr kab)) 0 ∅ 0 : sProp 𝕄)), bigSep_fin4]
  rfl

theorem ghost_intro (K' : Dev nD × Cx → ℕ) (c : Dev nD) : iprop(records m ρ K' ∗ linear c) ⊢ G' m ρ c := by
  unfold G' linear
  rw [pos_eq]
  iintro ⟨#HR, Hpos, Htok⟩
  iexists (Kx K')
  rw [ghost_eq]
  isplitr; · iapply (invs_intro m ρ K' c); iexact HR
  isplitl [Hpos]; · iexact Hpos
  isplitr; · iapply (reached_intro m ρ K' c); iexact HR
  iexact Htok

/-- A chain's target, as a permutation of the devices. -/
def tdevE (a : ℕ) : Dev nD ≃ Dev nD := ⟨tdev a, sdev a, sdev_tdev a, tdev_sdev a⟩

theorem around_tgt (Φ : Dev nD → Fin 8 × Fin 3 → sProp 𝕄) :
    (bigSep Finset.univ fun c : Dev nD => bigSep Finset.univ fun ab : Fin 8 × Fin 3 => Φ c ab)
      = bigSep Finset.univ fun c : Dev nD => bigSep Finset.univ fun ab : Fin 8 × Fin 3 => Φ (tdev ab.1.val c) ab :=
  calc (bigSep Finset.univ fun c : Dev nD => bigSep Finset.univ fun ab : Fin 8 × Fin 3 => Φ c ab)
      = bigSep Finset.univ fun ab : Fin 8 × Fin 3 => bigSep Finset.univ fun c : Dev nD => Φ c ab := bigSep_univ_comm _
    _ = bigSep Finset.univ fun ab : Fin 8 × Fin 3 => bigSep Finset.univ fun c : Dev nD => Φ (tdev ab.1.val c) ab :=
        bigSep_congr fun ab _ => bigSep_univ_equiv (tdevE ab.1.val) (fun c => Φ c ab)
    _ = _ := (bigSep_univ_comm (fun (c : Dev nD) (ab : Fin 8 × Fin 3) => Φ (tdev ab.1.val c) ab)).symm

theorem toks_eq (c : Dev nD) : (toks c : sProp 𝕄)
    = iprop((dutyTok ER (barCell c) 0 false ∗ dutyTok ER (barCell c) 0 true) ∗ ownF c 0 (fun g => dutyTok ER g 0 false) ∗ ownF c 1 (fun g => dutyTok ER g 0 false) ∗ ownF c 2 (fun g => dutyTok ER g 0 false) ∗ ownF c 3 (fun g => dutyTok ER g 0 false)) := by
  unfold toks
  rw [bigSep_univ_prod (fun kab : Fin 4 × Fin 8 × Fin 3 => (dutyTok ER (kcell (c, .inr kab)) 0 false : sProp 𝕄)), bigSep_fin4]
  rfl

/-- The tokens dealt around the ring: a barrier's `false` token to the previous device, its `true` token to the next, a
    receive cell's token to the device whose copy completes on it. -/
theorem toks_around : (bigSep Finset.univ fun c : Dev nD => (toks c : sProp 𝕄)) ⊢ bigSep Finset.univ fun c : Dev nD => payToks c := by
  rw [bigSep_congr (fun c _ => toks_eq (F := F) c)]
  unfold payToks
  simp only [bigSep_sep']
  rw [bigSep_univ_equiv ring (fun c : Dev nD => (dutyTok ER (barCell c) 0 false : sProp 𝕄)),
    bigSep_univ_equiv ring.symm (fun c : Dev nD => (dutyTok ER (barCell c) 0 true : sProp 𝕄))]
  have h1 : (bigSep Finset.univ fun c : Dev nD => (ownF c 1 (fun g => dutyTok ER g 0 false) : sProp 𝕄)) = bigSep Finset.univ fun c : Dev nD => tgtF c 1 (fun g => dutyTok ER g 0 false) :=
    around_tgt (fun c ab => (dutyTok ER (kcell (c, .inr (1, ab))) 0 false : sProp 𝕄))
  have h3 : (bigSep Finset.univ fun c : Dev nD => (ownF c 3 (fun g => dutyTok ER g 0 false) : sProp 𝕄)) = bigSep Finset.univ fun c : Dev nD => tgtF c 3 (fun g => dutyTok ER g 0 false) :=
    around_tgt (fun c ab => (dutyTok ER (kcell (c, .inr (3, ab))) 0 false : sProp 𝕄))
  rw [h1, h3]
  iintro ⟨⟨Hf, Ht⟩, H0, H1, H2, H3⟩
  isplitl [Ht]; · iexact Ht
  isplitl [Hf]; · iexact Hf
  isplitl [H1]; · iexact H1
  isplitl [H3]; · iexact H3
  isplitl [H0]; · iexact H0
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun x : Cx => iprop(∃ κ : ℕ, cellInv ER (ringRd (xstgA m ρ) (xstgB m ρ)) κ (kcell (c, x))))
          ∗ (bigSep Finset.univ fun x : Cx => iprop(atPos ER (kcell (c, x)) 0 ∅ 0 ∗ reached ER (kcell (c, x)) 0)) ∗ toks c) : sProp 𝕄)
      ⊢ bigSep Finset.univ (G' m ρ) := by
  rw [bigSep_sep', bigSep_sep', ← bigSep_univ_prod (fun cx : Dev nD × Cx => iprop(∃ κ : ℕ, cellInv ER (ringRd (xstgA m ρ) (xstgB m ρ)) κ (kcell cx))),
    bigSep_congr (s := Finset.univ) (fun (c : Dev nD) _ => bigSep_sep' Finset.univ (fun x : Cx => (atPos ER (kcell (c, x)) 0 ∅ 0 : sProp 𝕄)) (fun x => reached ER (kcell (c, x)) 0)),
    bigSep_sep', ← bigSep_univ_prod (fun cx : Dev nD × Cx => (reached ER (kcell cx) 0 : sProp 𝕄))]
  iintro ⟨HI, ⟨Hat, #HR⟩, Htok⟩
  ihave HK := (BI.bigSep_exists_pi Finset.univ (fun (cx : Dev nD × Cx) (κ : ℕ) => (cellInv ER (ringRd (xstgA m ρ) (xstgB m ρ)) κ (kcell cx) : sProp 𝕄))) $$ HI
  icases HK with ⟨%K', #HI⟩
  ihave Htk := (toks_around (F := F)) $$ Htok
  iapply (bigSep_with_persistent (R := records m ρ K') fun c _ => ghost_intro m ρ K' c)
  isplitr
  · unfold records; isplitl; · iexact HI
    iexact HR
  · iapply ((Entails.of_eq (bigSep_sep' Finset.univ (fun c : Dev nD => bigSep Finset.univ fun x : Cx => (atPos ER (kcell (c, x)) 0 ∅ 0 : sProp 𝕄)) payToks).symm).trans
      (bigSep_mono fun c _ => show _ ⊢ linear c from Entails.of_eq (by unfold linear; rfl)))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

/-- The semaphore of the receive cell copy `j` completes on. -/
def rcvSem (j : ℕ) : SemLoc sig :=
  if j / 8 < 3 then .dma (csem cc0_scratch3 (chainAt (j % 8)) (j / 8 % 3) (sem_inb _ _ (chainAt_lt j) (Nat.mod_lt _ (by decide))))
  else .dma (csem cc0_scratch5 (chainAt (j % 8)) (j / 8 % 3) (sem_inb _ _ (chainAt_lt j) (Nat.mod_lt _ (by decide))))
theorem sendCellOf_eq (c : Dev nD) (j : ℕ) : sendCellOf c j = ((tdev (chainAt (j % 8)) c : Thread nD τ), rcvSem j) := by
  unfold sendCellOf rcvSem; split <;> rfl

theorem bigSep_range_succ' (Φ : ℕ → sProp 𝕄) (n : ℕ) :
    bigSep (Finset.range (n + 1)) Φ = iprop(Φ n ∗ bigSep (Finset.range n) Φ) := by
  rw [Finset.range_add_one, bigSep_insert Finset.notMem_range_self]; rfl

/-- What the devices owe through their last `n` copies reaches device `c` as the credit of the receive cells those copies complete
    on: each such cell is paid by exactly one device, the one the chain comes from. -/
theorem cred_rem (c : Dev nD) : ∀ n : ℕ, (Pipeline.launchCred (fun d => owedRem d n) c : sProp 𝕄)
    ⊢ bigSep (Finset.range n) fun i => cred (tallyAt ((c : Thread nD τ), rcvSem (47 - i)) () (sendAmt (47 - i)))
  | 0 => by
    rw [Finset.range_zero, BI.bigSep_empty]
    show (Pipeline.launchCred (fun _ : Dev nD => (0 : CellTallies nD τ sig Unit)) c : sProp 𝕄) ⊢ _
    rw [Pipeline.launchCred_zero]
    exact BI.Entails.refl _
  | n + 1 => by
    rw [show (fun d : Dev nD => owedRem d (n + 1)) = fun d => owedRem d n + tallyAt (sendCellOf d (47 - n)) () (sendAmt (47 - n)) from rfl,
      Pipeline.launchCred_add, bigSep_range_succ']
    simp only [sendCellOf_eq]
    iintro ⟨H1, H2⟩
    isplitl [H2]
    · iapply (Pipeline.launchCred_tallyAt (rcvSem (47 - n)) (tdev (chainAt ((47 - n) % 8))) (sdev (chainAt ((47 - n) % 8))) (tdev_sdev _) (sdev_tdev _) () (sendAmt (47 - n)) c)
      iexact H2
    · iapply (cred_rem c n); iexact H1

/-- The copies counted back from the last: phase (reduce-scatter, all-gather), chain and step of copy `47 - i`. -/
def enc (tab : Fin 2 × Fin 8 × Fin 3) : ℕ := 47 - (24 * tab.1.val + 8 * tab.2.2.val + (2 * (tab.2.1.val % 4) + tab.2.1.val / 4))
theorem enc_injective : Function.Injective enc := by decide
theorem range48 : Finset.range 48 = Finset.univ.map ⟨enc, enc_injective⟩ := by decide

theorem rcv0 : ∀ ab : Fin 8 × Fin 3, rcvSem (47 - enc (0, ab)) = ksem (.inr (1, ab)) := by decide
theorem rcv1 : ∀ ab : Fin 8 × Fin 3, rcvSem (47 - enc (1, ab)) = ksem (.inr (3, ab)) := by decide
theorem amt0 (ab : Fin 8 × Fin 3) : sendAmt (47 - enc (0, ab)) = Nrs := by
  have := ab.1.isLt; have := ab.2.isLt
  refine if_pos ?_
  show (47 - (47 - (24 * 0 + 8 * ab.2.val + (2 * (ab.1.val % 4) + ab.1.val / 4)))) / 8 < 3
  omega
theorem amt1 (ab : Fin 8 × Fin 3) : sendAmt (47 - enc (1, ab)) = Nag := by
  have := ab.1.isLt; have := ab.2.isLt
  refine if_neg ?_
  show ¬ (47 - (47 - (24 * 1 + 8 * ab.2.val + (2 * (ab.1.val % 4) + ab.1.val / 4)))) / 8 < 3
  omega

theorem bigSep_fin2 (Φ : Fin 2 → sProp 𝕄) : bigSep Finset.univ Φ = iprop(Φ 0 ∗ Φ 1) :=
  bigSep_univ_eq_bigSepL [0, 1] (by decide) (by decide) Φ

theorem rem_eq (c : Dev nD) :
    (bigSep (Finset.range 48) fun i => (cred (tallyAt ((c : Thread nD τ), rcvSem (47 - i)) () (sendAmt (47 - i))) : sProp 𝕄))
      = iprop(overAB (fun a b ha hb => cred (tallyAt (dcell c (csem cc0_scratch3 a b (sem_inb a b ha hb))) () Nrs))
          ∗ overAB (fun a b ha hb => cred (tallyAt (dcell c (csem cc0_scratch5 a b (sem_inb a b ha hb))) () Nag))) := by
  rw [range48, bigSep_map]
  show (bigSep Finset.univ fun tab : Fin 2 × Fin 8 × Fin 3 => (cred (tallyAt ((c : Thread nD τ), rcvSem (47 - enc tab)) () (sendAmt (47 - enc tab))) : sProp 𝕄)) = _
  rw [bigSep_univ_prod (fun tab : Fin 2 × Fin 8 × Fin 3 => (cred (tallyAt ((c : Thread nD τ), rcvSem (47 - enc tab)) () (sendAmt (47 - enc tab))) : sProp 𝕄)),
    bigSep_fin2]
  rw [bigSep_congr (fun (ab : Fin 8 × Fin 3) _ => show (cred (tallyAt ((c : Thread nD τ), rcvSem (47 - enc (0, ab))) () (sendAmt (47 - enc (0, ab)))) : sProp 𝕄)
        = cred (tallyAt ((c : Thread nD τ), ksem (.inr (1, ab))) () Nrs) from by rw [rcv0, amt0]),
    bigSep_congr (fun (ab : Fin 8 × Fin 3) _ => show (cred (tallyAt ((c : Thread nD τ), rcvSem (47 - enc (1, ab))) () (sendAmt (47 - enc (1, ab)))) : sProp 𝕄)
        = cred (tallyAt ((c : Thread nD τ), ksem (.inr (3, ab))) () Nag) from by rw [rcv1, amt1])]
  rfl

theorem creds (c : Dev nD) :
    (Pipeline.launchCred O₀ c : sProp 𝕄) ⊢ iprop(cred (tallyAt (barCell c) () 2)
      ∗ overAB (fun a b ha hb => cred (tallyAt (dcell c (csem cc0_scratch3 a b (sem_inb a b ha hb))) () Nrs))
      ∗ overAB (fun a b ha hb => cred (tallyAt (dcell c (csem cc0_scratch5 a b (sem_inb a b ha hb))) () Nag))) := by
  rw [show (O₀ : Dev nD → CellTallies nD τ sig Unit) = fun d => (owedRem d 48 + tallyAt (barCell (nxt d)) () 1) + tallyAt (barCell (prv d)) () 1 from rfl,
    Pipeline.launchCred_add, Pipeline.launchCred_add]
  iintro ⟨⟨Hrem, Hn⟩, Hp⟩
  ihave Hn' := (Pipeline.launchCred_tallyAt (SemLoc.reg barS) nxt prv nxt_prv prv_nxt () 1 c) $$ Hn
  ihave Hp' := (Pipeline.launchCred_tallyAt (SemLoc.reg barS) prv nxt prv_nxt nxt_prv () 1 c) $$ Hp
  ihave Hr := (cred_rem (F := F) c 48) $$ Hrem
  ihave Hr' := (Entails.of_eq (rem_eq (F := F) c)) $$ Hr
  icases Hr' with ⟨H3, H5⟩
  isplitl [Hn' Hp']
  · iapply (Entails.of_eq (congrArg cred (tallyAt_add (barCell c) () 1 1)))
    iapply (cred_add _ _).2
    isplitl [Hn'] <;> iassumption
  isplitl [H3]; · iexact H3
  iexact H5

/-! ### Levels: a wait stands below everything still owed -/

theorem lv_bar (t : Dev nD) : lv (barCell t) () = 1 := rfl

theorem lv_rsRecv (t : Dev nD) (a b : ℕ) (h : ∀ i, (![a, b] : Fin 2 → Nat) i + S1x1.size i ≤ S8x3.size i) :
    lv (dcell t (csem cc0_scratch3 a b h)) () = 2 + b := by
  obtain ⟨ha, hb⟩ := sem_lt h
  show (if dk (csem cc0_scratch3 a b h).val = 1 then 2 + db (csem cc0_scratch3 a b h).val
    else if dk (csem cc0_scratch3 a b h).val = 3 then 5 + db (csem cc0_scratch3 a b h).val else 0) = 2 + b
  rw [csem3_val]
  have h1 : dk (27 + 3 * a + b) = 1 := by unfold dk; omega
  have h2 : db (27 + 3 * a + b) = b := by unfold db; omega
  rw [if_pos h1, h2]

theorem lv_agRecv (t : Dev nD) (a b : ℕ) (h : ∀ i, (![a, b] : Fin 2 → Nat) i + S1x1.size i ≤ S8x3.size i) :
    lv (dcell t (csem cc0_scratch5 a b h)) () = 5 + b := by
  obtain ⟨ha, hb⟩ := sem_lt h
  show (if dk (csem cc0_scratch5 a b h).val = 1 then 2 + db (csem cc0_scratch5 a b h).val
    else if dk (csem cc0_scratch5 a b h).val = 3 then 5 + db (csem cc0_scratch5 a b h).val else 0) = 5 + b
  rw [csem5_val]
  have h1 : ¬ dk (75 + 3 * a + b) = 1 := by unfold dk; omega
  have h3 : dk (75 + 3 * a + b) = 3 := by unfold dk; omega
  have h2 : db (75 + 3 * a + b) = b := by unfold db; omega
  rw [if_neg h1, if_pos h3, h2]

theorem lv_sendCellOf (c : Dev nD) (j : ℕ) : lv (sendCellOf c j) () = if j / 8 < 3 then 2 + j / 8 % 3 else 5 + j / 8 % 3 := by
  by_cases h : j / 8 < 3
  · simp only [sendCellOf, if_pos h]; exact lv_rsRecv _ _ _ _
  · simp only [sendCellOf, if_neg h]; exact lv_agRecv _ _ _ _

/-- A cell the last `n` copies still owe is the receive cell of one of them. -/
theorem owedRem_pos (c : Dev nD) : ∀ (n : ℕ) {g : GSem nD τ sig} {u : Unit}, 0 < owedRem c n g u → ∃ i, i < n ∧ g = sendCellOf c (47 - i)
  | 0, g, u, h => by
    rw [show owedRem c 0 = 0 from rfl, Pi.zero_apply, Finsupp.zero_apply] at h
    exact absurd h (Nat.lt_irrefl 0)
  | n + 1, g, u, h => by
    rcases Pipeline.add_pos_cases (show 0 < (owedRem c n + tallyAt (sendCellOf c (47 - n)) () (sendAmt (47 - n))) g u from h) with h | h
    · obtain ⟨i, hi, e⟩ := owedRem_pos c n h
      exact ⟨i, Nat.lt_succ_of_lt hi, e⟩
    · rw [tallyAt_apply] at h
      by_cases hg : g = sendCellOf c (47 - n) ∧ u = ()
      · exact ⟨n, Nat.lt_succ_self n, hg.1⟩
      · rw [if_neg hg] at h; exact absurd h (Nat.lt_irrefl 0)

/-- A wait on cell `sm` at a level not above `k`, while the last `n` copies are still owed and each of their receive cells stands
    above `k`. -/
theorem mayWait_rem (c : Dev nD) (sm : SemLoc sig) (n k : ℕ) (hk : lv ((c : Thread nD τ), sm) () ≤ k)
    (hrem : ∀ i, i < n → k < lv (sendCellOf c (47 - i)) ()) :
    (levAts L lv : sProp 𝕄) ⊢ MayWait (c : Thread nD τ) sm () (owedRem c n) :=
  MayOwe.of_cut (L := L) (lev := lv) k (fun p hp => by rw [Finset.mem_singleton.mp hp, L_tc]; exact Finset.mem_singleton_self _)
    (fun g u hg => by obtain ⟨i, hi, rfl⟩ := owedRem_pos c n hg; rw [sendCellOf_eq, L_tc]; exact Finset.mem_singleton_self _)
    (fun p hp => by rw [Finset.mem_singleton.mp hp]; exact hk)
    (fun g u hg => by obtain ⟨i, hi, rfl⟩ := owedRem_pos c n hg; exact hrem i hi)

theorem O₀_pos {c : Dev nD} {g : GSem nD τ sig} {u : Unit} (h : 0 < O₀ c g u) :
    (∃ i, i < 48 ∧ g = sendCellOf c (47 - i)) ∨ g = barCell (nxt c) ∨ g = barCell (prv c) := by
  rcases Pipeline.add_pos_cases (show 0 < ((owedRem c 48 + tallyAt (barCell (nxt c)) () 1) + tallyAt (barCell (prv c)) () 1) g u from h) with h | h
  · rcases Pipeline.add_pos_cases h with h | h
    · exact Or.inl (owedRem_pos c 48 h)
    · rw [tallyAt_apply] at h
      by_cases hg : g = barCell (nxt c) ∧ u = ()
      · exact Or.inr (Or.inl hg.1)
      · rw [if_neg hg] at h; exact absurd h (Nat.lt_irrefl 0)
  · rw [tallyAt_apply] at h
    by_cases hg : g = barCell (prv c) ∧ u = ()
    · exact Or.inr (Or.inr hg.1)
    · rw [if_neg hg] at h; exact absurd h (Nat.lt_irrefl 0)

/-- The pipeline's own waits are on cells at level 0, below everything a device owes at launch. -/
theorem mayWait_stage (c : Dev nD) (q : DmaSem sig) (hq : lv ((c : Thread nD τ), .dma q) () = 0) (O : CellTallies nD τ sig Unit)
    (hO : O = O₀ c ∨ O = 0) : (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => ?_) (fun p hp => by rw [Finset.mem_singleton.mp hp]; exact le_of_eq hq) (fun g u hg => ?_)
    · rcases O₀_pos hg with ⟨i, hi, rfl⟩ | rfl | rfl
      · rw [sendCellOf_eq, L_tc]; exact Finset.mem_singleton_self _
      · exact Finset.mem_singleton_self _
      · exact Finset.mem_singleton_self _
    · rcases O₀_pos hg with ⟨i, hi, rfl⟩ | rfl | rfl
      · rw [lv_sendCellOf]; split <;> omega
      · exact Nat.one_pos
      · exact Nat.one_pos
  · rw [MayWait_zero]; iintro -; iempintro

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start (xstgA m ρ) (xstgB m ρ) c ∗ emp) := by
  iintro ⟨-, Hlev, Hcr, -, HG⟩
  ihave Hc := (creds (F := F) c) $$ Hcr
  icases Hc with ⟨H1, H3, H5⟩
  imodintro
  unfold start G'
  isplitl
  · isplitl [HG]; · iexact HG
    isplitl [H1]; · iexact H1
    isplitl [H3]; · iexact H3
    isplitl [H5]; · iexact H5
    iexact Hlev
  · iempintro

theorem phi0_intro (c : Dev nD) :
    iprop(start (xstgA m ρ) (xstgB m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ (xstgA m ρ) (xstgB m ρ) c from rfl, scopedRest0_eq]
  unfold Φ₀
  iintro ⟨Hs, -, ⟨Hr0, Hr1⟩⟩
  isplitl [Hs]; · iexact Hs
  isplitl [Hr0]; · iexact Hr0
  iexact Hr1

theorem sems_eq (c : Dev nD) : (bigSep Finset.univ fun kab : Fin 4 × Fin 8 × Fin 3 => (semVal (kcell (c, .inr kab)) 0 : sProp 𝕄))
    = iprop(overAB (fun a b ha hb => semVal (dcell c (csem cc0_scratch2 a b (sem_inb a b ha hb))) 0)
        ∗ overAB (fun a b ha hb => semVal (dcell c (csem cc0_scratch3 a b (sem_inb a b ha hb))) 0)
        ∗ overAB (fun a b ha hb => semVal (dcell c (csem cc0_scratch4 a b (sem_inb a b ha hb))) 0)
        ∗ overAB (fun a b ha hb => semVal (dcell c (csem cc0_scratch5 a b (sem_inb a b ha hb))) 0)) := by
  rw [bigSep_univ_prod (fun kab : Fin 4 × Fin 8 × Fin 3 => (semVal (kcell (c, .inr kab)) 0 : sProp 𝕄)), bigSep_fin4]
  rfl

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq, sems_eq]
  unfold Φ₁
  iintro ⟨Hr0, Hr1, H2, H3, H4, H5⟩
  isplitr; · iempintro
  isplitl [H2 H3 H4 H5]
  · isplitl [H2]; · iexact H2
    isplitl [H3]; · iexact H3
    isplitl [H4]; · iexact H4
    iexact H5
  isplitl [Hr0]; · iexact Hr0
  iexact Hr1

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

theorem share_eq (c : Dev nD) (w : Fin cfg0.W) : (dats m ρ 0 c).share w = fullShare := by unfold Dat.share; split <;> rfl

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- At the compiled mesh of four devices, for any float values, from any memory with zero counters: every weakly fair execution of
    @main — the four kernels meeting on the barrier semaphore, then passing blocks around the ring in both directions — terminates,
    and every final state has each device's arrays at the computed contents. -/
theorem run_main (hbody : SoundBody m ρ) : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ hbody) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start (xstgA m ρ) (xstgB m ρ)) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The two argument arrays after the run hold what they held. -/
theorem finalA_in0 (c : Dev nD) : finalA m ρ c (0 : Fin 3) = (s₀ m ρ).mem (win0_0.arr.view.loc (c : Thread nD τ)) :=
  (dats (F := F) m ρ 0 c).arrAt_in (0 : Fin 3) rfl _
theorem finalA_in1 (c : Dev nD) : finalA m ρ c (1 : Fin 3) = (s₀ m ρ).mem (win0_1.arr.view.loc (c : Thread nD τ)) :=
  (dats (F := F) m ρ 0 c).arrAt_in (1 : Fin 3) rfl _

/-- Copy `j` of the 48 completes on a receive cell at level `2 + j / 8`: its phase, counted from 2. -/
theorem lv_sendCellOf' (c : Dev nD) (j : ℕ) (hj : j < 48) : lv (sendCellOf c j) () = 2 + j / 8 := by
  rw [lv_sendCellOf]; split <;> omega

/-- A wait once the first `j₀` copies are issued, at a level below the phase of copy `j₀`: everything still owed stands higher. -/
theorem mayWait_from (c : Dev nD) (sm : SemLoc sig) (j₀ : ℕ) (hj : j₀ ≤ 48) (hk : lv ((c : Thread nD τ), sm) () < 2 + j₀ / 8) :
    (levAts L lv : sProp 𝕄) ⊢ MayWait (c : Thread nD τ) sm () (owedRem c (48 - j₀)) :=
  mayWait_rem c sm (48 - j₀) (lv ((c : Thread nD τ), sm) ()) (le_refl _) (fun i hi => by
    rw [lv_sendCellOf' c (47 - i) (by omega)]
    have : j₀ / 8 ≤ (47 - i) / 8 := Nat.div_le_div_right (by omega)
    omega)

/-- The barrier wait, all 48 copies still owed. -/
theorem mayWait_bar (c : Dev nD) : (levAts L lv : sProp 𝕄) ⊢ MayWait (c : Thread nD τ) (.reg barS) () (owedRem c 48) :=
  mayWait_from c (.reg barS) 0 (by decide) (by show 1 < 2 + 0 / 8; decide)

/-- The wait on the own reduce-scatter receive cell `(a, b)`, once `j₀ ≥ 8 (b + 1)` copies are issued. -/
theorem mayWait_rsRecv (c : Dev nD) (a b : ℕ) (h : ∀ i, (![a, b] : Fin 2 → Nat) i + S1x1.size i ≤ S8x3.size i) (j₀ : ℕ) (hj : j₀ ≤ 48)
    (hb : 8 * (b + 1) ≤ j₀) :
    (levAts L lv : sProp 𝕄) ⊢ MayWait (c : Thread nD τ) (.dma (csem cc0_scratch3 a b h)) () (owedRem c (48 - j₀)) :=
  mayWait_from c _ j₀ hj (by
    rw [show ((c : Thread nD τ), SemLoc.dma (csem cc0_scratch3 a b h)) = dcell c (csem cc0_scratch3 a b h) from rfl, lv_rsRecv]
    have : b + 1 ≤ j₀ / 8 := (Nat.le_div_iff_mul_le (by decide)).mpr (by omega)
    omega)

/-- The wait on the own all-gather receive cell `(a, b)`, once `j₀ ≥ 8 (b + 4)` copies are issued (all 48 for the last step). -/
theorem mayWait_agRecv (c : Dev nD) (a b : ℕ) (h : ∀ i, (![a, b] : Fin 2 → Nat) i + S1x1.size i ≤ S8x3.size i) (j₀ : ℕ) (hj : j₀ ≤ 48)
    (hb : 8 * (b + 4) ≤ j₀) :
    (levAts L lv : sProp 𝕄) ⊢ MayWait (c : Thread nD τ) (.dma (csem cc0_scratch5 a b h)) () (owedRem c (48 - j₀)) :=
  mayWait_from c _ j₀ hj (by
    rw [show ((c : Thread nD τ), SemLoc.dma (csem cc0_scratch5 a b h)) = dcell c (csem cc0_scratch5 a b h) from rfl, lv_agRecv]
    have : b + 4 ≤ j₀ / 8 := (Nat.le_div_iff_mul_le (by decide)).mpr (by omega)
    omega)

/-- The result array after the run is the one buffer of finished blocks, on every device. -/
theorem finalA_out (c : Dev nD) : finalA m ρ c (2 : Fin 3) = outAll (xstgA m ρ) (xstgB m ρ) := by
  unfold finalA
  rw [show cfg0.N = (t₀ : Fin cfg0.N).val + 1 from rfl, Dat.arrAt_succ, if_pos (flush0_2 t₀)]
  exact Memref.write_access_unit_zero_univ (Elt F) main_v1 (funext fun a => by fin_cases a <;> rfl) _ _ _

/-- info: 'Cert.KernelIdeal.P.run_main' depends on axioms: [propext, Classical.choice, Quot.sound] -/
#guard_msgs in #print axioms run_main

end Cert.KernelIdeal.P

end
-- ==== Proof.FrameGen.lean ====
import proofs.«900901_g7700000000000902_dist_matmul_silu_kshard_i_m2048_n2048_k1024_v7x_i4_bf16_1_alg».proof.Proof.Launch

/-!
The arguments end unchanged.

Given one device's body, the whole program runs from any memory with zero counters, for any float values, and the two argument
arrays of every device end as they began: they are the pipeline's input windows, read and never written, so their contents
after the run are their contents at launch.
-/

noncomputable section

namespace Cert.KernelIdeal.Final

open Cert.KernelIdeal Cert.KernelIdeal.Gen Cert.KernelIdeal.P
open Idealize.ShloMosaic Idealize.ShloMosaic.TcCoe Idealize.SL.Sem

/-! ## The arguments end unchanged, for any float values -/

/-- From any memory with zero counters, for any float values: the program runs, and each device's two argument arrays end as they
    began — the run's post read at the two input windows, which the pipeline never writes. -/
theorem frame_gen {F : FTy → Type} [FloatOps F] (hbody : ∀ m ρ, SoundBody (F := F) m ρ)
    (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c 0).trans (finalA_in0 m ρ c), (h c 1).trans (finalA_in1 m ρ c)⟩)
    (run_main m ρ (hbody m ρ))

end Cert.KernelIdeal.Final

end
-- ==== Proof.SiluAlg.lean ====
/-
  Algebra on the extended reals for a product whose contraction axis is cut in four, summed around a ring of four,
  followed by z ↦ z · σ(z) with σ(z) = 1 / (1 + e^(-z)).

  Four facts, none about a program:
  • `silu_eq`: z · (1 / (1 + e^(0 - z))) and z / (1 + e^(-z)) are one extended real. The divisor 1 + e^(-z) is at
    least 1 at every extended real z (e^(-z) is 0 at z = ⊤, ⊤ at z = ⊥, a positive real otherwise), so it is never 0,
    and off a zero divisor both the quotient x / y and the product x · (1 / y) are x · y⁻¹. For real z the divisor is
    the real w = 1 + e^(-z) and both sides are z · w⁻¹ (`silu_coe`).
  • `sum_split`: a sum over 4096 indices is the sum over four blocks of 1024 consecutive indices; index 1024 d + k is
    the k-th of block d.
  • `ring_order_fwd`, `ring_order_bwd`: adding, onto one's own term p r, the terms of the three others in the order
    in which a ring of four delivers them (r + s, r + 2s, r + 3s modulo 4 for a step s of 1 or 3, each new arrival on
    the left of the own term after the earlier ones were added on ITS left) gives the sum of all four: addition of
    extended reals commutes and associates, and r + s, r + 2s, r + 3s, r are the four residues.
  • `sum_real`, `mul_real`, `add_real`: sums and products of reals are real.
  `silu_kernel_apply` and `silu_host_apply` read the two spellings at an index of a vector: both are
  `z / (1 + e^(-z))` of the element there.
-/
import Idealize.ShloMosaic.PureOps.Ideal
import Idealize.ShloMosaic.PureOps.Ideal.Laws
import Idealize.ShloMosaic.Lib.ValueIdx
import Mathlib.Algebra.BigOperators.Fin
import Mathlib.Data.Fintype.BigOperators
import Mathlib.Data.Fintype.Card
import Mathlib.Logic.Equiv.Fin.Basic
import Mathlib.Tactic.FinCases

noncomputable section

namespace Cert.SiluAlg

open Idealize.ShloMosaic
open scoped BigOperators

/-! ## The two constants -/

/-- The f32 pattern of `1.0` denotes the extended real one. -/
theorem ofBits_one_f32 : Ideal.ofBits .f32 0x3F800000#32 = (1 : EReal) := by
  rw [show (1 : EReal) = ((1 : ℝ) : EReal) by norm_cast]
  simp [Ideal.ofBits, Ideal.ieee, -EReal.coe_mul]; norm_num

/-- The f32 pattern of `+0.0` denotes the extended real zero. -/
theorem ofBits_zero_f32 : Ideal.ofBits .f32 0x00000000#32 = (0 : EReal) := Ideal.ofBits_zero_f32

/-! ## z · (1 / (1 + e^(0 - z))) = z / (1 + e^(-z)) -/

/-- `0 - z` is `-z`, and for a real `z` that is the real `-z`. -/
theorem zero_sub_coe (z : ℝ) : (0 : EReal) - (z : EReal) = ((-z : ℝ) : EReal) := by
  rw [zero_sub, EReal.coe_neg]

/-- For real `z` the divisor `1 + e^(-z)` is the real `1 + e^(-z)`. -/
theorem one_add_exp_neg_coe (z : ℝ) :
    (1 : EReal) + Ideal.exp (-(z : EReal)) = ((1 + Real.exp (-z) : ℝ) : EReal) := by
  rw [← EReal.coe_neg, Ideal.exp_coe, ← EReal.coe_one, ← EReal.coe_add]

/-- … which is positive, hence not zero. -/
theorem one_add_exp_neg_ne_zero (z : ℝ) : (1 + Real.exp (-z) : ℝ) ≠ 0 := by positivity

/-- `1 + e^x` is not zero at any extended real `x`: it is `1` at `⊥`, `⊤` at `⊤`, and above `1` at a real. -/
theorem one_add_exp_ne_zero (x : EReal) : (1 : EReal) + Ideal.exp x ≠ 0 := by
  induction x using EReal.rec with
  | bot => rw [Ideal.exp_bot, add_zero]; exact one_ne_zero
  | top =>
    rw [Ideal.exp_top, EReal.add_top_of_ne_bot (show (1 : EReal) ≠ ⊥ from EReal.coe_ne_bot 1)]
    exact EReal.top_ne_zero
  | coe r =>
    rw [Ideal.exp_coe, ← EReal.coe_one, ← EReal.coe_add]
    have h : (0 : ℝ) < 1 + Real.exp r := by positivity
    exact_mod_cast h.ne'

/-- Off a zero divisor the product with the reciprocal is the quotient. -/
theorem mul_div_one {x y : EReal} (hy : y ≠ 0) : x * Ideal.div 1 y = Ideal.div x y := by
  unfold Ideal.div
  rw [if_neg hy, if_neg hy, one_mul]

/-- At EVERY extended real `z`: `z · (1 / (1 + e^(0 - z))) = z / (1 + e^(-z))`. -/
theorem silu_eq_ereal (z : EReal) :
    z * Ideal.div 1 (1 + Ideal.exp (0 - z)) = Ideal.div z (1 + Ideal.exp (-z)) := by
  rw [zero_sub]
  exact mul_div_one (one_add_exp_ne_zero (-z))

/-- At a real `z`: `z · (1 / (1 + e^(0 - z))) = z / (1 + e^(-z))`; both are `z · w⁻¹` for the real `w = 1 + e^(-z)`. -/
theorem silu_eq (z : ℝ) :
    (z : EReal) * Ideal.div 1 (1 + Ideal.exp (0 - (z : EReal)))
      = Ideal.div (z : EReal) (1 + Ideal.exp (-(z : EReal))) := by
  have hw := one_add_exp_neg_ne_zero z
  rw [zero_sub, one_add_exp_neg_coe, Ideal.div_coe hw, Ideal.div_coe hw, one_mul]

/-- The common value at a real `z`: the real `z / (1 + e^(-z))`. -/
theorem silu_coe (z : ℝ) :
    Ideal.div (z : EReal) (1 + Ideal.exp (-(z : EReal))) = ((z * (1 / (1 + Real.exp (-z))) : ℝ) : EReal) := by
  rw [one_add_exp_neg_coe, Ideal.div_coe (one_add_exp_neg_ne_zero z), ← EReal.coe_mul]

/-- The same with the constants as the f32 patterns of `1.0` and `+0.0`. -/
theorem silu_eq_bits (z : EReal) :
    z * Ideal.div (Ideal.ofBits .f32 0x3F800000#32)
        (Ideal.ofBits .f32 0x3F800000#32 + Ideal.exp (Ideal.ofBits .f32 0x00000000#32 - z))
      = Ideal.div z (Ideal.ofBits .f32 0x3F800000#32 + Ideal.exp (-z)) := by
  rw [ofBits_one_f32, ofBits_zero_f32]
  exact silu_eq_ereal z

/-! ## The same at an index of a vector, in the operations' own spelling -/

/-- The kernel's five vector operations `z · (1 / (1 + e^(0 - z)))`, read at an index, at any extended real. -/
theorem silu_kernel_apply {s : Shape} (z : FVec Ideal s .f32) (i : s.Idx) :
    mulf z (divf (broadcast s (Scalar.ofBits .f32 0x3F800000#32))
        (addf (broadcast s (Scalar.ofBits .f32 0x3F800000#32))
          (exp (subf (broadcast s (Scalar.ofBits .f32 0x00000000#32)) z)))) i
      = Ideal.div (z i) (1 + Ideal.exp (-(z i))) := by
  show z i * Ideal.div (Ideal.ofBits .f32 0x3F800000#32)
      (Ideal.ofBits .f32 0x3F800000#32 + Ideal.exp (Ideal.ofBits .f32 0x00000000#32 - z i)) = _
  rw [silu_eq_bits, ofBits_one_f32]

/-- The host's `z / (1 + e^(-z))`, read at an index at which the array of ones reads the pattern of `1.0`. -/
theorem silu_host_apply {s : Shape} (z one : FVec Ideal s .f32) (i : s.Idx)
    (hone : one i = Ideal.ofBits .f32 0x3F800000#32) :
    Host.divf z (addf one (Host.exp (Host.negf z))) i = Ideal.div (z i) (1 + Ideal.exp (-(z i))) := by
  show Ideal.div (z i) (one i + Ideal.exp (-(z i))) = _
  rw [hone, ofBits_one_f32]

/-! ## A sum over 4096 indices, in four blocks of 1024 -/

theorem sum_split (f : Fin 4096 → EReal) :
    ∑ k : Fin 4096, f k = ∑ d : Fin 4, ∑ k : Fin 1024, f ⟨1024 * d.val + k.val, by omega⟩ := by
  rw [← Fintype.sum_equiv (finProdFinEquiv (m := 4) (n := 1024)) (fun p => f (finProdFinEquiv p)) f (fun _ => rfl),
    Fintype.sum_prod_type]
  refine Finset.sum_congr rfl fun d _ => Finset.sum_congr rfl fun k _ => congrArg f (Fin.ext ?_)
  show k.val + 1024 * d.val = 1024 * d.val + k.val
  omega

/-! ## The order of a ring of four -/

/-- Four pairwise distinct indices of `Fin 4` are all of them: the terms at them sum to the whole sum, in any
    association that adds them one at a time. -/
theorem sum_four_of_distinct (p : Fin 4 → EReal) (a b c r : Fin 4) (hab : a ≠ b) (hac : a ≠ c) (har : a ≠ r)
    (hbc : b ≠ c) (hbr : b ≠ r) (hcr : c ≠ r) : ((p a + p b) + p c) + p r = ∑ d : Fin 4, p d := by
  have hinj : Function.Injective ![a, b, c, r] := by
    intro i j h
    fin_cases i <;> fin_cases j <;> simp_all
  have hbij : Function.Bijective ![a, b, c, r] := Finite.injective_iff_bijective.mp hinj
  rw [← hbij.sum_comp p, Fin.sum_univ_four]
  rfl

/-- A ring of four with step `s` of `1` or `3`: the terms arrive from `r + s`, `r + 2s`, `r + 3s` (modulo 4), each sum so far
    on the left of the newcomer's own term. The three indices are given by their residues, however they are spelt. -/
theorem ring_order (p : Fin 4 → EReal) (s : ℕ) (hs : s = 1 ∨ s = 3) (r a b c : Fin 4)
    (ha : a.val = (r.val + s) % 4) (hb : b.val = (r.val + 2 * s) % 4) (hc : c.val = (r.val + 3 * s) % 4) :
    ((p a + p b) + p c) + p r = ∑ d : Fin 4, p d := by
  apply sum_four_of_distinct <;> (intro h; have := congrArg Fin.val h; rcases hs with rfl | rfl <;> omega)

/-- Step `+1`: the terms arrive from `r + 1`, `r + 2`, `r + 3` (modulo 4). -/
theorem ring_order_fwd (p : Fin 4 → EReal) (r : Fin 4) :
    ((p ⟨(r.val + 1) % 4, Nat.mod_lt _ (by norm_num)⟩ + p ⟨(r.val + 2) % 4, Nat.mod_lt _ (by norm_num)⟩)
        + p ⟨(r.val + 3) % 4, Nat.mod_lt _ (by norm_num)⟩) + p r = ∑ d : Fin 4, p d :=
  ring_order p 1 (Or.inl rfl) r _ _ _ rfl rfl rfl

/-- Step `+3` (that is `-1`): the terms arrive from `r + 3`, `r + 6`, `r + 9` (modulo 4), that is `r - 1`, `r - 2`, `r - 3`. -/
theorem ring_order_bwd (p : Fin 4 → EReal) (r : Fin 4) :
    ((p ⟨(r.val + 3) % 4, Nat.mod_lt _ (by norm_num)⟩ + p ⟨(r.val + 6) % 4, Nat.mod_lt _ (by norm_num)⟩)
        + p ⟨(r.val + 9) % 4, Nat.mod_lt _ (by norm_num)⟩) + p r = ∑ d : Fin 4, p d :=
  ring_order p 3 (Or.inr rfl) r _ _ _ rfl rfl rfl

/-! ## Sums and products of reals are real -/

theorem add_real (a b : EReal) (ha : ∃ x : ℝ, a = x) (hb : ∃ y : ℝ, b = y) : ∃ w : ℝ, a + b = w := by
  obtain ⟨x, rfl⟩ := ha
  obtain ⟨y, rfl⟩ := hb
  exact ⟨x + y, (EReal.coe_add x y).symm⟩

theorem mul_real (a b : EReal) (ha : ∃ x : ℝ, a = x) (hb : ∃ y : ℝ, b = y) : ∃ w : ℝ, a * b = w := by
  obtain ⟨x, rfl⟩ := ha
  obtain ⟨y, rfl⟩ := hb
  exact ⟨x * y, (EReal.coe_mul x y).symm⟩

/-- Over any finite index set. -/
theorem finset_sum_real {ι : Type} (s : Finset ι) (f : ι → EReal) (h : ∀ k ∈ s, ∃ x : ℝ, f k = x) :
    ∃ x : ℝ, ∑ k ∈ s, f k = x := by
  classical
  induction s using Finset.induction_on with
  | empty => exact ⟨0, by rw [Finset.sum_empty, EReal.coe_zero]⟩
  | insert a s ha ih =>
    rw [Finset.sum_insert ha]
    exact add_real _ _ (h a (Finset.mem_insert_self a s)) (ih fun k hk => h k (Finset.mem_insert_of_mem hk))

theorem sum_real {n : ℕ} (f : Fin n → EReal) (h : ∀ k, ∃ x : ℝ, f k = x) : ∃ x : ℝ, ∑ k, f k = x :=
  finset_sum_real Finset.univ f fun k _ => h k

/-- info: 'Cert.SiluAlg.silu_eq' depends on axioms: [propext, Classical.choice, Quot.sound] -/
#guard_msgs in #print axioms silu_eq

end Cert.SiluAlg

end
-- ==== Proof.ValueBridge.lean ====
/-
  The finished block of the four-device product is the reference's result there, on the extended reals.

  Device d holds the column block A_d = A[:, 1024 d … 1024 d + 1023] and the row block B_d = B[1024 d … 1024 d + 1023, :].
  For the band of rows 512 r … 512 r + 511 and the slice of columns 256 ci … 256 ci + 255 its partial product at (p, q) is
      S_d = ∑ k < 1024, A (512 r + p, 1024 d + k) · B (1024 d + k, 256 ci + q).
  On extended reals a change of format is the identity, so what travels along a chain is the running sum itself; each device adds
  its own partial product ON THE RIGHT of what it received, so the completed sum on device r is
      ((S_{d₃} + S_{d₂}) + S_{d₁}) + S_r,
  where d₁, d₂, d₃ are one, two and three steps back along the chain. Along a chain all four devices work on band r, and the four
  devices r, d₁, d₂, d₃ are all the devices; addition of extended reals commutes and associates, so the completed sum is
  ∑ d < 4, S_d, and cutting the 4096 summands in four blocks of 1024 makes it z = ∑ k < 4096, A (512 r + p, k) · B (k, 256 ci + q).
  The last step z ↦ z · (1 / (1 + e^(0 − z))) equals the reference's z / (1 + e^(−z)) at every extended real.
-/
import proofs.«900901_g7700000000000902_dist_matmul_silu_kshard_i_m2048_n2048_k1024_v7x_i4_bf16_1_alg».proof.Proof.Contents
import proofs.«900901_g7700000000000902_dist_matmul_silu_kshard_i_m2048_n2048_k1024_v7x_i4_bf16_1_alg».proof.Proof.SiluAlg
import proofs.«900901_g7700000000000902_dist_matmul_silu_kshard_i_m2048_n2048_k1024_v7x_i4_bf16_1_alg».proof.Proof.RefSide
import Idealize.ShloMosaic.Lib.Layout
import Idealize.ShloMosaic.Lib.ValueIdx
import Idealize.ShloMosaic.Lib.Pipeline.Value
import Idealize.ShloMosaic.PureOps.Ideal.Laws

noncomputable section

namespace Cert.KernelIdeal.Bridge

open Cert.KernelIdeal Cert.KernelIdeal.Gen Cert.KernelIdeal.P Idealize.ShloMosaic Idealize.ShloMosaic.ValueIdx
open scoped BigOperators

/-! ## Reading a band of rows, a slice of columns -/

/-- Rows `512 r …` of a device's block of `A`: entry `(p, k)` is the block's entry `(512 r + p, k)`. -/
theorem aRows_apply (fa : AT Ideal) (r : ℕ) (hr : r < 4) (p : Fin 512) (k : Fin 1024) :
    aRows fa r hr (ix2 p k) = fa (ix2 ⟨512 * r + p.val, by omega⟩ k) := by
  show fa _ = fa _
  refine congrArg fa (funext fun a => Fin.ext ?_)
  match a with
  | ⟨0, _⟩ =>
    show 512 * r + 1 * p.val = 512 * r + p.val
    omega
  | ⟨1, _⟩ =>
    show 0 + 1 * k.val = k.val
    omega

/-- On extended reals the change of format is the identity: the narrowed block of `B` is the block. -/
theorem bBf_eq (fb : BT Ideal) : bBf fb = fb := by
  unfold bBf k0_pay1
  simp only [shapeCast_self]
  rfl

/-- Columns `256 ci …` of a device's block of `B`: entry `(k, q)` is the block's entry `(k, 256 ci + q)`. -/
theorem bCols_apply (fb : BT Ideal) (ci : ℕ) (hci : ci < 8) (k : Fin 1024) (q : Fin 256) :
    bCols fb ci hci (ix2 k q) = fb (ix2 k ⟨256 * ci + q.val, by omega⟩) := by
  unfold bCols
  rw [bBf_eq]
  show fb _ = fb _
  refine congrArg fb (funext fun a => Fin.ext ?_)
  match a with
  | ⟨0, _⟩ =>
    show 0 + 1 * k.val = k.val
    omega
  | ⟨1, _⟩ =>
    show 256 * ci + 1 * q.val = 256 * ci + q.val
    omega

/-! ## A partial product at an index -/

theorem lhs_mm_0 (i : S512x256.Idx) (q : dot_S512x1024_S1024x256_S512x256_1_0_0_1_n_n.contr.Idx) :
    (dot_S512x1024_S1024x256_S512x256_1_0_0_1_n_n.lhsIdx i q 0).val = (i 0).val := by
  unfold DotDims.lhsIdx
  rw [dif_neg (show ¬(0 : Fin S512x1024.rank) ∈ dot_S512x1024_S1024x256_S512x256_1_0_0_1_n_n.lhsBatch by decide), dif_pos (show (0 : Fin S512x1024.rank) ∈ dot_S512x1024_S1024x256_S512x256_1_0_0_1_n_n.lhsNonContracting by decide)]
  rfl
theorem lhs_mm_1 (i : S512x256.Idx) (q : dot_S512x1024_S1024x256_S512x256_1_0_0_1_n_n.contr.Idx) :
    (dot_S512x1024_S1024x256_S512x256_1_0_0_1_n_n.lhsIdx i q 1).val = (q ⟨0, by decide⟩).val :=
  dot_S512x1024_S1024x256_S512x256_1_0_0_1_n_n.lhsIdx_val_of_single rfl i q
theorem rhs_mm_0 (i : S512x256.Idx) (q : dot_S512x1024_S1024x256_S512x256_1_0_0_1_n_n.contr.Idx) :
    (dot_S512x1024_S1024x256_S512x256_1_0_0_1_n_n.rhsIdx i q 0).val = (q ⟨0, by decide⟩).val :=
  dot_S512x1024_S1024x256_S512x256_1_0_0_1_n_n.rhsIdx_val_of_single rfl i q
theorem rhs_mm_1 (i : S512x256.Idx) (q : dot_S512x1024_S1024x256_S512x256_1_0_0_1_n_n.contr.Idx) :
    (dot_S512x1024_S1024x256_S512x256_1_0_0_1_n_n.rhsIdx i q 1).val = (i 1).val := by
  unfold DotDims.rhsIdx
  rw [dif_neg (show ¬(1 : Fin S1024x256.rank) ∈ dot_S512x1024_S1024x256_S512x256_1_0_0_1_n_n.rhsBatch by decide), dif_pos (show (1 : Fin S1024x256.rank) ∈ dot_S512x1024_S1024x256_S512x256_1_0_0_1_n_n.rhsNonContracting by decide)]
  rfl

/-- The product of a 512 × 1024 band with a 1024 × 256 slice, at `(p, q)`: the sum over the 1024 summands. -/
theorem mm_apply (a : Vec Ideal S512x1024 .f32) (b : Vec Ideal S1024x256 .bf16) (p : Fin 512) (q : Fin 256) :
    mm a b (ix2 p q) = ∑ k : Fin 1024, (a (ix2 p k) * b (ix2 k q) : EReal) := by
  unfold mm
  simp only [matmul]
  rw [shapeCast_self, Ideal.matmul_constant_zero_apply, ← Equiv.sum_comp (contrEquiv1 dot_S512x1024_S1024x256_S512x256_1_0_0_1_n_n 1024 rfl rfl).symm]
  refine Finset.sum_congr rfl fun k _ => ?_
  have hk := contrEquiv1_symm_val dot_S512x1024_S1024x256_S512x256_1_0_0_1_n_n 1024 rfl rfl k
  have el : dot_S512x1024_S1024x256_S512x256_1_0_0_1_n_n.lhsIdx (ix2 p q) ((contrEquiv1 dot_S512x1024_S1024x256_S512x256_1_0_0_1_n_n 1024 rfl rfl).symm k) = ix2 p k := funext fun a => Fin.ext (by
    match a with
    | ⟨0, _⟩ => exact lhs_mm_0 _ _
    | ⟨1, _⟩ => exact (lhs_mm_1 _ _).trans hk)
  have er : dot_S512x1024_S1024x256_S512x256_1_0_0_1_n_n.rhsIdx (ix2 p q) ((contrEquiv1 dot_S512x1024_S1024x256_S512x256_1_0_0_1_n_n 1024 rfl rfl).symm k) = ix2 k q := funext fun a => Fin.ext (by
    match a with
    | ⟨0, _⟩ => exact (rhs_mm_0 _ _).trans hk
    | ⟨1, _⟩ => exact rhs_mm_1 _ _)
  rw [el, er]
  rfl

/-- A device's partial product for band `r`, chain `ci`, at `(p, q)`. -/
theorem part_apply (fa : AT Ideal) (fb : BT Ideal) (r : ℕ) (hr : r < 4) (ci : ℕ) (hci : ci < 8) (p : Fin 512) (q : Fin 256) :
    part fa fb r hr ci hci (ix2 p q)
      = ∑ k : Fin 1024, (fa (ix2 ⟨512 * r + p.val, by omega⟩ k) * fb (ix2 k ⟨256 * ci + q.val, by omega⟩) : EReal) := by
  unfold part
  rw [mm_apply]
  exact Finset.sum_congr rfl fun k _ => by rw [aRows_apply, bCols_apply]

/-! ## The format changes are the identity; what arrives is added on the left -/

theorem toBlk_apply (x : FVec Ideal S512x256 .f32) (i : S512x256.Idx) : toBlk x i = x i := rfl

theorem accum_apply (ps : FVec Ideal S512x256 .f32) (v : Blk Ideal) (i : S512x256.Idx) :
    accum ps v i = (v i + ps i : EReal) := rfl

/-! ## Along a chain every device works on the same band -/

theorem part_congr (fa : AT Ideal) (fb : BT Ideal) {r r' : ℕ} (h : r = r') (hr : r < 4) (hr' : r' < 4) (ci : ℕ) (hci : ci < 8) :
    part fa fb r hr ci hci = part fa fb r' hr' ci hci := by
  subst h; rfl

/-- The last device of a chain works on its own band, -/
theorem chunk_step3 (ci : ℕ) (c : Dev nD) : chunk c (rsShift ci 3) = c.val := by
  by_cases h : ci < 4 <;> simp only [rsShift, h, ↓reduceIte] <;> revert c <;> decide
/-- the one before it on that same band, -/
theorem chunk_step2 (ci : ℕ) (c : Dev nD) : chunk (sdev ci c) (rsShift ci 2) = c.val := by
  by_cases h : ci < 4 <;> simp only [sdev, rsShift, h, ↓reduceIte] <;> revert c <;> decide
/-- and so the two before that. -/
theorem chunk_step1 (ci : ℕ) (c : Dev nD) : chunk (sdev ci (sdev ci c)) (rsShift ci 1) = c.val := by
  by_cases h : ci < 4 <;> simp only [sdev, rsShift, h, ↓reduceIte] <;> revert c <;> decide
theorem chunk_step0 (ci : ℕ) (c : Dev nD) : chunk (sdev ci (sdev ci (sdev ci c))) (rsShift ci 0) = c.val := by
  by_cases h : ci < 4 <;> simp only [sdev, rsShift, h, ↓reduceIte] <;> revert c <;> decide

/-- The four devices of a chain are the four devices. -/
theorem sdev_distinct (ci : ℕ) (c : Dev nD) :
    sdev ci (sdev ci (sdev ci c)) ≠ sdev ci (sdev ci c) ∧ sdev ci (sdev ci (sdev ci c)) ≠ sdev ci c
      ∧ sdev ci (sdev ci (sdev ci c)) ≠ c ∧ sdev ci (sdev ci c) ≠ sdev ci c ∧ sdev ci (sdev ci c) ≠ c ∧ sdev ci c ≠ c := by
  by_cases h : ci < 4 <;> simp only [sdev, h, ↓reduceIte] <;> revert c <;> decide

/-- The completed sum, unfolded: the first device's partial product, then each next device's added on the right. -/
theorem total_eq (fa : Dev nD → AT Ideal) (fb : Dev nD → BT Ideal) (c : Dev nD) (ci : ℕ) (hci : ci < 8) (i : S512x256.Idx) :
    total fa fb c ci hci i
      = (((partAt fa fb (sdev ci (sdev ci (sdev ci c))) ci hci 0 i + partAt fa fb (sdev ci (sdev ci c)) ci hci 1 i)
          + partAt fa fb (sdev ci c) ci hci 2 i) + partAt fa fb c ci hci 3 i : EReal) := rfl

/-! ## A device's blocks in the whole arrays -/

/-- There are four devices. -/
theorem dev_lt (c : Dev nD) : c.val < 4 := c.isLt

/-- Device `d`'s block of `A` is columns `1024 d …`: its entry `(i, k)` is `A (i, 1024 d + k)`. -/
theorem blockA_apply (A : (⟨Cert.ReferenceIdeal.S2048x4096, .f32⟩ : BufTy).Contents (Elt Ideal)) (d : Dev nD) (i : Fin 2048) (k : Fin 1024) :
    (Layout.block ⟨2, ![2048, 1024]⟩ ⟨2, ![2048, 4096]⟩ 1 4 d A) (ix2 i k)
      = A (ix2 i ⟨1024 * d.val + k.val, by have := dev_lt d; omega⟩) := by
  rw [Layout.block_apply]
  refine congrArg A (funext fun a => Fin.ext ?_)
  match a with
  | ⟨0, _⟩ => rfl
  | ⟨1, _⟩ =>
    show d.val * 1024 + k.val = 1024 * d.val + k.val
    omega

/-- Device `d`'s block of `B` is rows `1024 d …`: its entry `(k, j)` is `B (1024 d + k, j)`. -/
theorem blockB_apply (B : (⟨Cert.ReferenceIdeal.S4096x2048, .f32⟩ : BufTy).Contents (Elt Ideal)) (d : Dev nD) (k : Fin 1024) (j : Fin 2048) :
    (Layout.block ⟨2, ![1024, 2048]⟩ ⟨2, ![4096, 2048]⟩ 0 4 d B) (ix2 k j)
      = B (ix2 ⟨1024 * d.val + k.val, by have := dev_lt d; omega⟩ j) := by
  rw [Layout.block_apply]
  refine congrArg B (funext fun a => Fin.ext ?_)
  match a with
  | ⟨0, _⟩ =>
    show d.val * 1024 + k.val = 1024 * d.val + k.val
    omega
  | ⟨1, _⟩ => rfl

section Whole
variable (A : (⟨Cert.ReferenceIdeal.S2048x4096, .f32⟩ : BufTy).Contents (Elt Ideal))
  (B : (⟨Cert.ReferenceIdeal.S4096x2048, .f32⟩ : BufTy).Contents (Elt Ideal))
  (fa : Dev nD → AT Ideal) (fb : Dev nD → BT Ideal)
  (hA : ∀ c, fa c = Layout.block ⟨2, ![2048, 1024]⟩ ⟨2, ![2048, 4096]⟩ 1 4 c A)
  (hB : ∀ c, fb c = Layout.block ⟨2, ![1024, 2048]⟩ ⟨2, ![4096, 2048]⟩ 0 4 c B)

include hA hB

/-- Device `d`'s partial product at a step at which it works on band `r`, at `(p, q)`: the part of the sum
    `∑ₖ A (512 r + p, k) · B (k, 256 ci + q)` over `k` in `1024 d … 1024 d + 1023`. -/
theorem partAt_apply (r d : Dev nD) (ci : ℕ) (hci : ci < 8) (h : ℕ) (hch : chunk d (rsShift ci h) = r.val) (p : Fin 512) (q : Fin 256) :
    partAt fa fb d ci hci h (ix2 p q)
      = ∑ k : Fin 1024, (A (ix2 ⟨512 * r.val + p.val, by have := dev_lt r; omega⟩ ⟨1024 * d.val + k.val, by have := dev_lt d; omega⟩)
          * B (ix2 ⟨1024 * d.val + k.val, by have := dev_lt d; omega⟩ ⟨256 * ci + q.val, by omega⟩) : EReal) := by
  unfold partAt
  rw [part_congr (fa d) (fb d) hch (chunk_lt _ _) r.isLt ci hci, part_apply]
  refine Finset.sum_congr rfl fun k _ => ?_
  rw [hA d, hB d, blockA_apply, blockB_apply]

/-- The completed sum for band `r`, chain `ci` at `(p, q)`: all 4096 summands. -/
theorem total_apply (r : Dev nD) (ci : ℕ) (hci : ci < 8) (p : Fin 512) (q : Fin 256) :
    total fa fb r ci hci (ix2 p q)
      = ∑ k : Fin 4096, (A (ix2 ⟨512 * r.val + p.val, by have := dev_lt r; omega⟩ k) * B (ix2 k ⟨256 * ci + q.val, by omega⟩) : EReal) := by
  rw [total_eq,
    partAt_apply A B fa fb hA hB r _ ci hci 0 (chunk_step0 ci r),
    partAt_apply A B fa fb hA hB r _ ci hci 1 (chunk_step1 ci r),
    partAt_apply A B fa fb hA hB r _ ci hci 2 (chunk_step2 ci r),
    partAt_apply A B fa fb hA hB r _ ci hci 3 (chunk_step3 ci r)]
  obtain ⟨h1, h2, h3, h4, h5, h6⟩ := sdev_distinct ci r
  rw [Cert.SiluAlg.sum_split]
  exact Cert.SiluAlg.sum_four_of_distinct
    (fun d : Fin 4 => ∑ k : Fin 1024, (A (ix2 ⟨512 * r.val + p.val, by have := dev_lt r; omega⟩ ⟨1024 * d.val + k.val, by omega⟩)
          * B (ix2 ⟨1024 * d.val + k.val, by omega⟩ ⟨256 * ci + q.val, by omega⟩) : EReal))
    _ _ _ r h1 h2 h3 h4 h5 h6

/-- The finished block is the reference's result there: with `z` the sum of all 4096 summands, both are `z / (1 + e^(-z))`. -/
theorem outBlk_eq_ref (r : Dev nD) (ci : ℕ) (hci : ci < 8) (p : Fin 512) (q : Fin 256) :
    outBlk fa fb r ci hci (ix2 p q)
      = Cert.ReferenceIdeal.RefSide.Gref A B (ix2 ⟨512 * r.val + p.val, by have := dev_lt r; omega⟩ ⟨256 * ci + q.val, by omega⟩) := by
  rw [Cert.ReferenceIdeal.RefSide.Gref_apply]
  show mulf (total fa fb r ci hci) _ (ix2 p q) = _
  rw [Cert.SiluAlg.silu_kernel_apply, total_apply A B fa fb hA hB]

end Whole

/-- info: 'Cert.KernelIdeal.Bridge.outBlk_eq_ref' depends on axioms: [propext, Classical.choice, Quot.sound] -/
#guard_msgs in #print axioms outBlk_eq_ref

end Cert.KernelIdeal.Bridge
end
-- ==== Proof.Final.lean ====
import proofs.«900901_g7700000000000902_dist_matmul_silu_kshard_i_m2048_n2048_k1024_v7x_i4_bf16_1_alg».proof.Proof.FrameGen
import proofs.«900901_g7700000000000902_dist_matmul_silu_kshard_i_m2048_n2048_k1024_v7x_i4_bf16_1_alg».proof.Proof.ValueBridge
import proofs.«900901_g7700000000000902_dist_matmul_silu_kshard_i_m2048_n2048_k1024_v7x_i4_bf16_1_alg».proof.Proof.RefSide
import proofs.«900901_g7700000000000902_dist_matmul_silu_kshard_i_m2048_n2048_k1024_v7x_i4_bf16_1_alg».proof.Defs
import proofs.«900901_g7700000000000902_dist_matmul_silu_kshard_i_m2048_n2048_k1024_v7x_i4_bf16_1_alg».proof.Proof.Gen.Pre_finite_inputs_Kernel
import proofs.«900901_g7700000000000902_dist_matmul_silu_kshard_i_m2048_n2048_k1024_v7x_i4_bf16_1_alg».proof.Proof.Gen.ReferenceIdeal

/-!
The claims about the ring kernel, from one device's body.

Given the body of one device, proved from what the device holds at its start to what it hands back, the whole program runs from
any memory with zero counters. The two argument arrays of every device end as they began: they are input windows, which the
pipeline reads and never writes. And at the ideal values the result array of every device ends as the reference's result of the
whole arrays: the pipeline writes back the one buffer of finished blocks, whose entry `(i, j)` is entry `(i % 512, j % 256)` of
the finished block of row band `i / 512` and column slice `j / 256`; each finished block is the reference's result on its band
and slice when every device's argument blocks are its blocks of the whole arrays.
-/

noncomputable section

namespace Cert.KernelIdeal.Final

open Cert.KernelIdeal Cert.KernelIdeal.Gen Cert.KernelIdeal.P
open Idealize.ShloMosaic Idealize.ShloMosaic.TcCoe Idealize.SL.Sem

/-! ## The frame at the ideal values -/

theorem frame_ki (hbody : ∀ m ρ, SoundBody (F := Ideal) m ρ) :
    Cert.frame_KernelIdeal (hKernelIdeal := Cert.KernelIdeal.Gen.facts) (hPre_finite_inputs_Kernel := Cert.Pre_finite_inputs_Kernel.Gen.facts) :=
  fun m g _ => frame_gen hbody m g

/-! ## The result is the reference's -/

/-- What the pipeline stages of an argument is the device's whole block: the window is the whole array. -/
theorem xstgA_eq {F : FTy → Type} [FloatOps F] (m : (ℓ : Loc nD τ sig) → Buf (Elt F) ℓ) (ρ : Dev nD → PrngReg) (c : Dev nD) :
    xstgA m ρ c = m ((c : Thread nD τ).loc main_arg0) :=
  Memref.read_access_unit_zero (Elt F) main_arg0 (funext fun a => by fin_cases a <;> rfl) _ _
theorem xstgB_eq {F : FTy → Type} [FloatOps F] (m : (ℓ : Loc nD τ sig) → Buf (Elt F) ℓ) (ρ : Dev nD → PrngReg) (c : Dev nD) :
    xstgB m ρ c = m ((c : Thread nD τ).loc main_arg1) :=
  Memref.read_access_unit_zero (Elt F) main_arg1 (funext fun a => by fin_cases a <;> rfl) _ _

/-- When each device's argument blocks are its blocks of the whole arrays `A` and `B`, the buffer of finished blocks is the
    reference's result: entry `(i, j)` lies in row band `i / 512` and column slice `j / 256`, at `(i % 512, j % 256)` of that block. -/
theorem outAll_eq_ref (A : (⟨Cert.ReferenceIdeal.S2048x4096, .f32⟩ : BufTy).Contents (Elt Ideal))
    (B : (⟨Cert.ReferenceIdeal.S4096x2048, .f32⟩ : BufTy).Contents (Elt Ideal))
    (fa : Dev nD → AT Ideal) (fb : Dev nD → BT Ideal)
    (hA : ∀ c, fa c = Layout.block ⟨2, ![2048, 1024]⟩ ⟨2, ![2048, 4096]⟩ 1 4 c A)
    (hB : ∀ c, fb c = Layout.block ⟨2, ![1024, 2048]⟩ ⟨2, ![4096, 2048]⟩ 0 4 c B) :
    outAll fa fb = Cert.ReferenceIdeal.RefSide.Gref A B := by
  funext idx
  obtain ⟨i, j, rfl⟩ : ∃ (i : Fin 2048) (j : Fin 2048), idx = ValueIdx.ix2 i j := ⟨idx 0, idx 1, ValueIdx.eq_ix2 idx⟩
  show outBlk fa fb ⟨i.val / 512, _⟩ (j.val / 256) _ (ValueIdx.ix2 ⟨i.val % 512, _⟩ ⟨j.val % 256, _⟩) = _
  rw [Cert.KernelIdeal.Bridge.outBlk_eq_ref A B fa fb hA hB]
  refine congrArg (Cert.ReferenceIdeal.RefSide.Gref A B) (funext fun a => Fin.ext ?_)
  match a with
  | ⟨0, _⟩ => exact Nat.div_add_mod i.val 512
  | ⟨1, _⟩ => exact Nat.div_add_mod j.val 256

theorem algebraic_ki (hbody : ∀ m ρ, SoundBody (F := Ideal) m ρ) :
    Cert.algebraic_KernelIdeal_ReferenceIdeal (hKernelIdeal := Cert.KernelIdeal.Gen.facts) (hReferenceIdeal := Cert.ReferenceIdeal.Gen.facts)
      (hPre_finite_inputs_Kernel := Cert.Pre_finite_inputs_Kernel.Gen.facts) := by
  intro m g m' g' _ hagree
  refine ⟨Cert.ReferenceIdeal.RefSide.Gref (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)),
    ?_, Cert.ReferenceIdeal.RefSide.run_ref m' g'⟩
  refine (θ_run defs _ _).mono (fun r h c => ⟨?_, (h c 0).trans (finalA_in0 m g c), (h c 1).trans (finalA_in1 m g c)⟩)
    (run_main m g (hbody m g))
  refine ((h c 2).trans (finalA_out m g c)).trans ?_
  exact outAll_eq_ref _ _ _ _ (fun d => (xstgA_eq m g d).trans (hagree d).1) (fun d => (xstgB_eq m g d).trans (hagree d).2)

/-- info: 'Cert.KernelIdeal.Final.algebraic_ki' depends on axioms: [propext, Classical.choice, Quot.sound] -/
#guard_msgs in #print axioms algebraic_ki

end Cert.KernelIdeal.Final

end
-- ==== Proof.KRingArith.lean ====
import proofs.«900901_g7700000000000902_dist_matmul_silu_kshard_i_m2048_n2048_k1024_v7x_i4_bf16_1_alg».proof.Proof.Gen.Kernel
import Idealize.ShloMosaic.Lib.Tactic

/-!
# Ring arithmetic of the four-device mesh

The four devices stand on a ring: the successor of device `c` is `c + 1` modulo 4, its predecessor
`c + 3` modulo 4. The printed program computes every addressed device and every row offset by a
chain of 32-bit integer operations on the device's own position (a signed remainder by 4 followed by
the correction that makes the remainder non-negative). This module evaluates each chain at the four
positions and records the result in closed form:

* every device chain is the successor or the predecessor on the ring;
* every row offset is `512 * chunk c k`, where `chunk c k = (c + k) mod 4` is the number of the
  512-row band that device `c` works on at ring distance `k`; the column offset is a literal, the
  number of the chain times 256.

A chain that subtracts the word `w` from the position reaches the band `(c - w) mod 4`, that is
`chunk c ((4 - w mod 4) mod 4)`: the words 1, -3 give distance 3; -1, 3 give 1; 2, -2 give 2; 0, 4,
-4 give 0.
-/

namespace Cert.Kernel.P

open Cert.Kernel Cert.Kernel.Gen Idealize.ShloMosaic

/-! ## The ring -/

/-- The successor of `c` on the ring of four: `c + 1` modulo 4. -/
def nxt (c : Dev nD) : Dev nD := ⟨(c.val + 1) % 4, Nat.mod_lt _ (by decide)⟩

/-- The predecessor of `c` on the ring of four: `c - 1`, that is `c + 3`, modulo 4. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide
theorem nxt_ne_prv (c : Dev nD) : nxt c ≠ prv c := by revert c; decide
theorem nxt_ne_self (c : Dev nD) : nxt c ≠ c := by revert c; decide
theorem prv_ne_self (c : Dev nD) : prv c ≠ c := by revert c; decide
/-- Two steps forward and two steps back meet: the ring has four places. -/
theorem nxt_nxt_eq_prv_prv (c : Dev nD) : nxt (nxt c) = prv (prv c) := by revert c; decide
theorem nxt_nxt_ne_self (c : Dev nD) : nxt (nxt c) ≠ c := by revert c; decide
theorem nxt_nxt_ne_nxt (c : Dev nD) : nxt (nxt c) ≠ nxt c := by revert c; decide
theorem nxt_nxt_ne_prv (c : Dev nD) : nxt (nxt c) ≠ prv c := by revert c; decide
theorem nxt_nxt_nxt (c : Dev nD) : nxt (nxt (nxt c)) = prv c := by revert c; decide
theorem prv_prv_prv (c : Dev nD) : prv (prv (prv c)) = nxt c := by revert c; decide
theorem nxt_injective : Function.Injective nxt := by decide
theorem prv_injective : Function.Injective prv := by decide

/-- One step forward is a permutation of the devices; its inverse is one step back. -/
def ring : Dev nD ≃ Dev nD := ⟨nxt, prv, prv_nxt, nxt_prv⟩

@[simp] theorem ring_apply (c : Dev nD) : ring c = nxt c := rfl
@[simp] theorem ring_symm_apply (c : Dev nD) : ring.symm c = prv c := rfl

/-! ## Row bands -/

/-- The number of the 512-row band at ring distance `k` from device `c`: `(c + k) mod 4`.
    Distance 3 is one step back. -/
def chunk (c : Dev nD) (k : Nat) : Nat := (c.val + k) % 4

theorem chunk_lt (c : Dev nD) (k : Nat) : chunk c k < 4 := Nat.mod_lt _ (by decide)
theorem chunk_zero (c : Dev nD) : chunk c 0 = c.val := by revert c; decide
theorem nxt_val (c : Dev nD) : (nxt c).val = chunk c 1 := rfl
theorem prv_val (c : Dev nD) : (prv c).val = chunk c 3 := rfl
theorem chunk_add_four (c : Dev nD) (k : Nat) : chunk c (k + 4) = chunk c k := by
  unfold chunk; omega
theorem chunk_mod (c : Dev nD) (k : Nat) : chunk c (k % 4) = chunk c k := by
  unfold chunk; omega

/-- The band at distance `k` from the successor is the band at distance `k + 1` from `c`. -/
theorem chunk_nxt (c : Dev nD) (k : Nat) : chunk (nxt c) k = chunk c (k + 1) := by
  unfold chunk nxt; simp only []; omega
/-- The band at distance `k + 1` from the predecessor is the band at distance `k` from `c`. -/
theorem chunk_prv (c : Dev nD) (k : Nat) : chunk (prv c) (k + 1) = chunk c k := by
  unfold chunk prv; simp only []; omega

theorem chunk_nxt_0 (c : Dev nD) : chunk (nxt c) 0 = chunk c 1 := by revert c; decide
theorem chunk_nxt_1 (c : Dev nD) : chunk (nxt c) 1 = chunk c 2 := by revert c; decide
theorem chunk_nxt_2 (c : Dev nD) : chunk (nxt c) 2 = chunk c 3 := by revert c; decide
theorem chunk_nxt_3 (c : Dev nD) : chunk (nxt c) 3 = chunk c 0 := by revert c; decide
theorem chunk_prv_0 (c : Dev nD) : chunk (prv c) 0 = chunk c 3 := by revert c; decide
theorem chunk_prv_1 (c : Dev nD) : chunk (prv c) 1 = chunk c 0 := by revert c; decide
theorem chunk_prv_2 (c : Dev nD) : chunk (prv c) 2 = chunk c 1 := by revert c; decide
theorem chunk_prv_3 (c : Dev nD) : chunk (prv c) 3 = chunk c 2 := by revert c; decide

/-- At one device the four distances reach four different bands. -/
theorem chunk_inj (c : Dev nD) : ∀ j k : Fin 4, chunk c j.val = chunk c k.val → j = k := by
  revert c; decide
theorem chunk_ne_01 (c : Dev nD) : chunk c 0 ≠ chunk c 1 := by revert c; decide
theorem chunk_ne_02 (c : Dev nD) : chunk c 0 ≠ chunk c 2 := by revert c; decide
theorem chunk_ne_03 (c : Dev nD) : chunk c 0 ≠ chunk c 3 := by revert c; decide
theorem chunk_ne_12 (c : Dev nD) : chunk c 1 ≠ chunk c 2 := by revert c; decide
theorem chunk_ne_13 (c : Dev nD) : chunk c 1 ≠ chunk c 3 := by revert c; decide
theorem chunk_ne_23 (c : Dev nD) : chunk c 2 ≠ chunk c 3 := by revert c; decide

/-- A band of 512 rows starting at `512 * chunk c k` ends inside the 2048 rows. -/
theorem chunk_rows_le (c : Dev nD) (k : Nat) : 512 * chunk c k + 512 ≤ 2048 := by
  have := chunk_lt c k; omega

/-! ## The addressed devices

Each chain adds 1, subtracts 1 or adds the word -1 to the position and reduces modulo 4 with a
non-negative remainder: the result is the successor or the predecessor. -/

@[sl_canon] theorem dev1_eq (c : Dev nD) : (⟨k0_dev1 c, k0_dev1_lt c⟩ : Dev nD) = prv c := by
  revert c; decide +kernel
@[sl_canon] theorem dev2_eq (c : Dev nD) : (⟨k0_dev2 c, k0_dev2_lt c⟩ : Dev nD) = nxt c := by
  revert c; decide +kernel
@[sl_canon] theorem dev3_eq (c : Dev nD) : (⟨k0_dev3 c, k0_dev3_lt c⟩ : Dev nD) = nxt c := by
  revert c; decide +kernel
@[sl_canon] theorem dev4_eq (c : Dev nD) : (⟨k0_dev4 c, k0_dev4_lt c⟩ : Dev nD) = prv c := by
  revert c; decide +kernel
@[sl_canon] theorem dev5_eq (c : Dev nD) : (⟨k0_dev5 c, k0_dev5_lt c⟩ : Dev nD) = nxt c := by
  revert c; decide +kernel
@[sl_canon] theorem dev6_eq (c : Dev nD) : (⟨k0_dev6 c, k0_dev6_lt c⟩ : Dev nD) = prv c := by
  revert c; decide +kernel
@[sl_canon] theorem dev7_eq (c : Dev nD) : (⟨k0_dev7 c, k0_dev7_lt c⟩ : Dev nD) = nxt c := by
  revert c; decide +kernel
@[sl_canon] theorem dev8_eq (c : Dev nD) : (⟨k0_dev8 c, k0_dev8_lt c⟩ : Dev nD) = prv c := by
  revert c; decide +kernel
@[sl_canon] theorem dev9_eq (c : Dev nD) : (⟨k0_dev9 c, k0_dev9_lt c⟩ : Dev nD) = nxt c := by
  revert c; decide +kernel
@[sl_canon] theorem dev10_eq (c : Dev nD) : (⟨k0_dev10 c, k0_dev10_lt c⟩ : Dev nD) = prv c := by
  revert c; decide +kernel
@[sl_canon] theorem dev11_eq (c : Dev nD) : (⟨k0_dev11 c, k0_dev11_lt c⟩ : Dev nD) = nxt c := by
  revert c; decide +kernel
@[sl_canon] theorem dev12_eq (c : Dev nD) : (⟨k0_dev12 c, k0_dev12_lt c⟩ : Dev nD) = prv c := by
  revert c; decide +kernel
@[sl_canon] theorem dev13_eq (c : Dev nD) : (⟨k0_dev13 c, k0_dev13_lt c⟩ : Dev nD) = nxt c := by
  revert c; decide +kernel
@[sl_canon] theorem dev14_eq (c : Dev nD) : (⟨k0_dev14 c, k0_dev14_lt c⟩ : Dev nD) = prv c := by
  revert c; decide +kernel
@[sl_canon] theorem dev15_eq (c : Dev nD) : (⟨k0_dev15 c, k0_dev15_lt c⟩ : Dev nD) = nxt c := by
  revert c; decide +kernel
@[sl_canon] theorem dev16_eq (c : Dev nD) : (⟨k0_dev16 c, k0_dev16_lt c⟩ : Dev nD) = prv c := by
  revert c; decide +kernel
@[sl_canon] theorem dev17_eq (c : Dev nD) : (⟨k0_dev17 c, k0_dev17_lt c⟩ : Dev nD) = nxt c := by
  revert c; decide +kernel
@[sl_canon] theorem dev18_eq (c : Dev nD) : (⟨k0_dev18 c, k0_dev18_lt c⟩ : Dev nD) = prv c := by
  revert c; decide +kernel
@[sl_canon] theorem dev19_eq (c : Dev nD) : (⟨k0_dev19 c, k0_dev19_lt c⟩ : Dev nD) = nxt c := by
  revert c; decide +kernel
@[sl_canon] theorem dev20_eq (c : Dev nD) : (⟨k0_dev20 c, k0_dev20_lt c⟩ : Dev nD) = prv c := by
  revert c; decide +kernel
@[sl_canon] theorem dev21_eq (c : Dev nD) : (⟨k0_dev21 c, k0_dev21_lt c⟩ : Dev nD) = nxt c := by
  revert c; decide +kernel
@[sl_canon] theorem dev22_eq (c : Dev nD) : (⟨k0_dev22 c, k0_dev22_lt c⟩ : Dev nD) = prv c := by
  revert c; decide +kernel
@[sl_canon] theorem dev23_eq (c : Dev nD) : (⟨k0_dev23 c, k0_dev23_lt c⟩ : Dev nD) = nxt c := by
  revert c; decide +kernel
@[sl_canon] theorem dev24_eq (c : Dev nD) : (⟨k0_dev24 c, k0_dev24_lt c⟩ : Dev nD) = prv c := by
  revert c; decide +kernel
@[sl_canon] theorem dev25_eq (c : Dev nD) : (⟨k0_dev25 c, k0_dev25_lt c⟩ : Dev nD) = nxt c := by
  revert c; decide +kernel
@[sl_canon] theorem dev26_eq (c : Dev nD) : (⟨k0_dev26 c, k0_dev26_lt c⟩ : Dev nD) = prv c := by
  revert c; decide +kernel
@[sl_canon] theorem dev27_eq (c : Dev nD) : (⟨k0_dev27 c, k0_dev27_lt c⟩ : Dev nD) = nxt c := by
  revert c; decide +kernel
@[sl_canon] theorem dev28_eq (c : Dev nD) : (⟨k0_dev28 c, k0_dev28_lt c⟩ : Dev nD) = prv c := by
  revert c; decide +kernel
@[sl_canon] theorem dev29_eq (c : Dev nD) : (⟨k0_dev29 c, k0_dev29_lt c⟩ : Dev nD) = nxt c := by
  revert c; decide +kernel
@[sl_canon] theorem dev30_eq (c : Dev nD) : (⟨k0_dev30 c, k0_dev30_lt c⟩ : Dev nD) = prv c := by
  revert c; decide +kernel
@[sl_canon] theorem dev31_eq (c : Dev nD) : (⟨k0_dev31 c, k0_dev31_lt c⟩ : Dev nD) = nxt c := by
  revert c; decide +kernel
@[sl_canon] theorem dev32_eq (c : Dev nD) : (⟨k0_dev32 c, k0_dev32_lt c⟩ : Dev nD) = prv c := by
  revert c; decide +kernel
@[sl_canon] theorem dev33_eq (c : Dev nD) : (⟨k0_dev33 c, k0_dev33_lt c⟩ : Dev nD) = nxt c := by
  revert c; decide +kernel
@[sl_canon] theorem dev34_eq (c : Dev nD) : (⟨k0_dev34 c, k0_dev34_lt c⟩ : Dev nD) = prv c := by
  revert c; decide +kernel
@[sl_canon] theorem dev35_eq (c : Dev nD) : (⟨k0_dev35 c, k0_dev35_lt c⟩ : Dev nD) = nxt c := by
  revert c; decide +kernel
@[sl_canon] theorem dev36_eq (c : Dev nD) : (⟨k0_dev36 c, k0_dev36_lt c⟩ : Dev nD) = prv c := by
  revert c; decide +kernel
@[sl_canon] theorem dev37_eq (c : Dev nD) : (⟨k0_dev37 c, k0_dev37_lt c⟩ : Dev nD) = nxt c := by
  revert c; decide +kernel
@[sl_canon] theorem dev38_eq (c : Dev nD) : (⟨k0_dev38 c, k0_dev38_lt c⟩ : Dev nD) = prv c := by
  revert c; decide +kernel
@[sl_canon] theorem dev39_eq (c : Dev nD) : (⟨k0_dev39 c, k0_dev39_lt c⟩ : Dev nD) = nxt c := by
  revert c; decide +kernel
@[sl_canon] theorem dev40_eq (c : Dev nD) : (⟨k0_dev40 c, k0_dev40_lt c⟩ : Dev nD) = prv c := by
  revert c; decide +kernel
@[sl_canon] theorem dev41_eq (c : Dev nD) : (⟨k0_dev41 c, k0_dev41_lt c⟩ : Dev nD) = nxt c := by
  revert c; decide +kernel
@[sl_canon] theorem dev42_eq (c : Dev nD) : (⟨k0_dev42 c, k0_dev42_lt c⟩ : Dev nD) = prv c := by
  revert c; decide +kernel
@[sl_canon] theorem dev43_eq (c : Dev nD) : (⟨k0_dev43 c, k0_dev43_lt c⟩ : Dev nD) = nxt c := by
  revert c; decide +kernel
@[sl_canon] theorem dev44_eq (c : Dev nD) : (⟨k0_dev44 c, k0_dev44_lt c⟩ : Dev nD) = prv c := by
  revert c; decide +kernel
@[sl_canon] theorem dev45_eq (c : Dev nD) : (⟨k0_dev45 c, k0_dev45_lt c⟩ : Dev nD) = nxt c := by
  revert c; decide +kernel
@[sl_canon] theorem dev46_eq (c : Dev nD) : (⟨k0_dev46 c, k0_dev46_lt c⟩ : Dev nD) = prv c := by
  revert c; decide +kernel
@[sl_canon] theorem dev47_eq (c : Dev nD) : (⟨k0_dev47 c, k0_dev47_lt c⟩ : Dev nD) = nxt c := by
  revert c; decide +kernel
@[sl_canon] theorem dev48_eq (c : Dev nD) : (⟨k0_dev48 c, k0_dev48_lt c⟩ : Dev nD) = prv c := by
  revert c; decide +kernel
@[sl_canon] theorem dev49_eq (c : Dev nD) : (⟨k0_dev49 c, k0_dev49_lt c⟩ : Dev nD) = nxt c := by
  revert c; decide +kernel
@[sl_canon] theorem dev50_eq (c : Dev nD) : (⟨k0_dev50 c, k0_dev50_lt c⟩ : Dev nD) = prv c := by
  revert c; decide +kernel

/-! The same equations between natural numbers. -/

theorem dev1_val (c : Dev nD) : k0_dev1 c = (prv c).val := congrArg Fin.val (dev1_eq c)
theorem dev2_val (c : Dev nD) : k0_dev2 c = (nxt c).val := congrArg Fin.val (dev2_eq c)
theorem dev3_val (c : Dev nD) : k0_dev3 c = (nxt c).val := congrArg Fin.val (dev3_eq c)
theorem dev4_val (c : Dev nD) : k0_dev4 c = (prv c).val := congrArg Fin.val (dev4_eq c)
theorem dev5_val (c : Dev nD) : k0_dev5 c = (nxt c).val := congrArg Fin.val (dev5_eq c)
theorem dev6_val (c : Dev nD) : k0_dev6 c = (prv c).val := congrArg Fin.val (dev6_eq c)
theorem dev7_val (c : Dev nD) : k0_dev7 c = (nxt c).val := congrArg Fin.val (dev7_eq c)
theorem dev8_val (c : Dev nD) : k0_dev8 c = (prv c).val := congrArg Fin.val (dev8_eq c)
theorem dev9_val (c : Dev nD) : k0_dev9 c = (nxt c).val := congrArg Fin.val (dev9_eq c)
theorem dev10_val (c : Dev nD) : k0_dev10 c = (prv c).val := congrArg Fin.val (dev10_eq c)
theorem dev11_val (c : Dev nD) : k0_dev11 c = (nxt c).val := congrArg Fin.val (dev11_eq c)
theorem dev12_val (c : Dev nD) : k0_dev12 c = (prv c).val := congrArg Fin.val (dev12_eq c)
theorem dev13_val (c : Dev nD) : k0_dev13 c = (nxt c).val := congrArg Fin.val (dev13_eq c)
theorem dev14_val (c : Dev nD) : k0_dev14 c = (prv c).val := congrArg Fin.val (dev14_eq c)
theorem dev15_val (c : Dev nD) : k0_dev15 c = (nxt c).val := congrArg Fin.val (dev15_eq c)
theorem dev16_val (c : Dev nD) : k0_dev16 c = (prv c).val := congrArg Fin.val (dev16_eq c)
theorem dev17_val (c : Dev nD) : k0_dev17 c = (nxt c).val := congrArg Fin.val (dev17_eq c)
theorem dev18_val (c : Dev nD) : k0_dev18 c = (prv c).val := congrArg Fin.val (dev18_eq c)
theorem dev19_val (c : Dev nD) : k0_dev19 c = (nxt c).val := congrArg Fin.val (dev19_eq c)
theorem dev20_val (c : Dev nD) : k0_dev20 c = (prv c).val := congrArg Fin.val (dev20_eq c)
theorem dev21_val (c : Dev nD) : k0_dev21 c = (nxt c).val := congrArg Fin.val (dev21_eq c)
theorem dev22_val (c : Dev nD) : k0_dev22 c = (prv c).val := congrArg Fin.val (dev22_eq c)
theorem dev23_val (c : Dev nD) : k0_dev23 c = (nxt c).val := congrArg Fin.val (dev23_eq c)
theorem dev24_val (c : Dev nD) : k0_dev24 c = (prv c).val := congrArg Fin.val (dev24_eq c)
theorem dev25_val (c : Dev nD) : k0_dev25 c = (nxt c).val := congrArg Fin.val (dev25_eq c)
theorem dev26_val (c : Dev nD) : k0_dev26 c = (prv c).val := congrArg Fin.val (dev26_eq c)
theorem dev27_val (c : Dev nD) : k0_dev27 c = (nxt c).val := congrArg Fin.val (dev27_eq c)
theorem dev28_val (c : Dev nD) : k0_dev28 c = (prv c).val := congrArg Fin.val (dev28_eq c)
theorem dev29_val (c : Dev nD) : k0_dev29 c = (nxt c).val := congrArg Fin.val (dev29_eq c)
theorem dev30_val (c : Dev nD) : k0_dev30 c = (prv c).val := congrArg Fin.val (dev30_eq c)
theorem dev31_val (c : Dev nD) : k0_dev31 c = (nxt c).val := congrArg Fin.val (dev31_eq c)
theorem dev32_val (c : Dev nD) : k0_dev32 c = (prv c).val := congrArg Fin.val (dev32_eq c)
theorem dev33_val (c : Dev nD) : k0_dev33 c = (nxt c).val := congrArg Fin.val (dev33_eq c)
theorem dev34_val (c : Dev nD) : k0_dev34 c = (prv c).val := congrArg Fin.val (dev34_eq c)
theorem dev35_val (c : Dev nD) : k0_dev35 c = (nxt c).val := congrArg Fin.val (dev35_eq c)
theorem dev36_val (c : Dev nD) : k0_dev36 c = (prv c).val := congrArg Fin.val (dev36_eq c)
theorem dev37_val (c : Dev nD) : k0_dev37 c = (nxt c).val := congrArg Fin.val (dev37_eq c)
theorem dev38_val (c : Dev nD) : k0_dev38 c = (prv c).val := congrArg Fin.val (dev38_eq c)
theorem dev39_val (c : Dev nD) : k0_dev39 c = (nxt c).val := congrArg Fin.val (dev39_eq c)
theorem dev40_val (c : Dev nD) : k0_dev40 c = (prv c).val := congrArg Fin.val (dev40_eq c)
theorem dev41_val (c : Dev nD) : k0_dev41 c = (nxt c).val := congrArg Fin.val (dev41_eq c)
theorem dev42_val (c : Dev nD) : k0_dev42 c = (prv c).val := congrArg Fin.val (dev42_eq c)
theorem dev43_val (c : Dev nD) : k0_dev43 c = (nxt c).val := congrArg Fin.val (dev43_eq c)
theorem dev44_val (c : Dev nD) : k0_dev44 c = (prv c).val := congrArg Fin.val (dev44_eq c)
theorem dev45_val (c : Dev nD) : k0_dev45 c = (nxt c).val := congrArg Fin.val (dev45_eq c)
theorem dev46_val (c : Dev nD) : k0_dev46 c = (prv c).val := congrArg Fin.val (dev46_eq c)
theorem dev47_val (c : Dev nD) : k0_dev47 c = (nxt c).val := congrArg Fin.val (dev47_eq c)
theorem dev48_val (c : Dev nD) : k0_dev48 c = (prv c).val := congrArg Fin.val (dev48_eq c)
theorem dev49_val (c : Dev nD) : k0_dev49 c = (nxt c).val := congrArg Fin.val (dev49_eq c)
theorem dev50_val (c : Dev nD) : k0_dev50 c = (prv c).val := congrArg Fin.val (dev50_eq c)

/-! ## The offsets of the left operand's row bands

The matmul of a step reads the 512 rows of the left block that belong to the band `(c - w) mod 4`,
all 1024 columns. -/

theorem off1_eq_1 (c : Dev nD) : k0_off1 c 1#32 = ![512 * chunk c 3, 0] := by
  revert c; decide +kernel
theorem off1_eq_m1 (c : Dev nD) : k0_off1 c 4294967295#32 = ![512 * chunk c 1, 0] := by
  revert c; decide +kernel
theorem off1_eq_2 (c : Dev nD) : k0_off1 c 2#32 = ![512 * chunk c 2, 0] := by
  revert c; decide +kernel
theorem off1_eq_m2 (c : Dev nD) : k0_off1 c 4294967294#32 = ![512 * chunk c 2, 0] := by
  revert c; decide +kernel
theorem off1_eq_3 (c : Dev nD) : k0_off1 c 3#32 = ![512 * chunk c 1, 0] := by
  revert c; decide +kernel
theorem off1_eq_m3 (c : Dev nD) : k0_off1 c 4294967293#32 = ![512 * chunk c 3, 0] := by
  revert c; decide +kernel
theorem off1_eq_4 (c : Dev nD) : k0_off1 c 4#32 = ![512 * chunk c 0, 0] := by
  revert c; decide +kernel
theorem off1_eq_m4 (c : Dev nD) : k0_off1 c 4294967292#32 = ![512 * chunk c 0, 0] := by
  revert c; decide +kernel

/-! ## The offsets into the result

A device's own band, one theorem per chain: the column is the chain's number times 256. -/

theorem off2_eq (c : Dev nD) : k0_off2 c = ![512 * chunk c 0, 0] := by
  revert c; decide +kernel
theorem off4_eq (c : Dev nD) : k0_off4 c = ![512 * chunk c 0, 1024] := by
  revert c; decide +kernel
theorem off6_eq (c : Dev nD) : k0_off6 c = ![512 * chunk c 0, 256] := by
  revert c; decide +kernel
theorem off8_eq (c : Dev nD) : k0_off8 c = ![512 * chunk c 0, 1280] := by
  revert c; decide +kernel
theorem off10_eq (c : Dev nD) : k0_off10 c = ![512 * chunk c 0, 512] := by
  revert c; decide +kernel
theorem off12_eq (c : Dev nD) : k0_off12 c = ![512 * chunk c 0, 1536] := by
  revert c; decide +kernel
theorem off14_eq (c : Dev nD) : k0_off14 c = ![512 * chunk c 0, 768] := by
  revert c; decide +kernel
theorem off16_eq (c : Dev nD) : k0_off16 c = ![512 * chunk c 0, 1792] := by
  revert c; decide +kernel

/-! The band a gathered block is copied from and to. The chains that travel forward subtract the
words 0, 1, 2 (bands at distances 0, 3, 2); the chains that travel backward subtract 0, -1, -2
(distances 0, 1, 2). -/

theorem off3_eq_0 (c : Dev nD) : k0_off3 c 0#32 = ![512 * chunk c 0, 0] := by
  revert c; decide +kernel
theorem off3_eq_1 (c : Dev nD) : k0_off3 c 1#32 = ![512 * chunk c 3, 0] := by
  revert c; decide +kernel
theorem off3_eq_2 (c : Dev nD) : k0_off3 c 2#32 = ![512 * chunk c 2, 0] := by
  revert c; decide +kernel
theorem off5_eq_0 (c : Dev nD) : k0_off5 c 0#32 = ![512 * chunk c 0, 1024] := by
  revert c; decide +kernel
theorem off5_eq_m1 (c : Dev nD) : k0_off5 c 4294967295#32 = ![512 * chunk c 1, 1024] := by
  revert c; decide +kernel
theorem off5_eq_m2 (c : Dev nD) : k0_off5 c 4294967294#32 = ![512 * chunk c 2, 1024] := by
  revert c; decide +kernel
theorem off7_eq_0 (c : Dev nD) : k0_off7 c 0#32 = ![512 * chunk c 0, 256] := by
  revert c; decide +kernel
theorem off7_eq_1 (c : Dev nD) : k0_off7 c 1#32 = ![512 * chunk c 3, 256] := by
  revert c; decide +kernel
theorem off7_eq_2 (c : Dev nD) : k0_off7 c 2#32 = ![512 * chunk c 2, 256] := by
  revert c; decide +kernel
theorem off9_eq_0 (c : Dev nD) : k0_off9 c 0#32 = ![512 * chunk c 0, 1280] := by
  revert c; decide +kernel
theorem off9_eq_m1 (c : Dev nD) : k0_off9 c 4294967295#32 = ![512 * chunk c 1, 1280] := by
  revert c; decide +kernel
theorem off9_eq_m2 (c : Dev nD) : k0_off9 c 4294967294#32 = ![512 * chunk c 2, 1280] := by
  revert c; decide +kernel
theorem off11_eq_0 (c : Dev nD) : k0_off11 c 0#32 = ![512 * chunk c 0, 512] := by
  revert c; decide +kernel
theorem off11_eq_1 (c : Dev nD) : k0_off11 c 1#32 = ![512 * chunk c 3, 512] := by
  revert c; decide +kernel
theorem off11_eq_2 (c : Dev nD) : k0_off11 c 2#32 = ![512 * chunk c 2, 512] := by
  revert c; decide +kernel
theorem off13_eq_0 (c : Dev nD) : k0_off13 c 0#32 = ![512 * chunk c 0, 1536] := by
  revert c; decide +kernel
theorem off13_eq_m1 (c : Dev nD) : k0_off13 c 4294967295#32 = ![512 * chunk c 1, 1536] := by
  revert c; decide +kernel
theorem off13_eq_m2 (c : Dev nD) : k0_off13 c 4294967294#32 = ![512 * chunk c 2, 1536] := by
  revert c; decide +kernel
theorem off15_eq_0 (c : Dev nD) : k0_off15 c 0#32 = ![512 * chunk c 0, 768] := by
  revert c; decide +kernel
theorem off15_eq_1 (c : Dev nD) : k0_off15 c 1#32 = ![512 * chunk c 3, 768] := by
  revert c; decide +kernel
theorem off15_eq_2 (c : Dev nD) : k0_off15 c 2#32 = ![512 * chunk c 2, 768] := by
  revert c; decide +kernel
theorem off17_eq_0 (c : Dev nD) : k0_off17 c 0#32 = ![512 * chunk c 0, 1792] := by
  revert c; decide +kernel
theorem off17_eq_m1 (c : Dev nD) : k0_off17 c 4294967295#32 = ![512 * chunk c 1, 1792] := by
  revert c; decide +kernel
theorem off17_eq_m2 (c : Dev nD) : k0_off17 c 4294967294#32 = ![512 * chunk c 2, 1792] := by
  revert c; decide +kernel

/-! The words the backward chains are printed with, by their row number in the printed table. -/

theorem off5_at_eq : k0_off5_at 0 = 0#32 ∧ k0_off5_at 1 = 4294967295#32 ∧ k0_off5_at 2 = 4294967294#32 := by decide
theorem off9_at_eq : k0_off9_at 0 = 0#32 ∧ k0_off9_at 1 = 4294967295#32 ∧ k0_off9_at 2 = 4294967294#32 := by decide
theorem off13_at_eq : k0_off13_at 0 = 0#32 ∧ k0_off13_at 1 = 4294967295#32 ∧ k0_off13_at 2 = 4294967294#32 := by decide
theorem off17_at_eq : k0_off17_at 0 = 0#32 ∧ k0_off17_at 1 = 4294967295#32 ∧ k0_off17_at 2 = 4294967294#32 := by decide
theorem off1_at_eq : k0_off1_at 0 = 1#32 ∧ k0_off1_at 1 = 4294967295#32 ∧ k0_off1_at 2 = 2#32 ∧ k0_off1_at 3 = 4294967294#32 ∧
    k0_off1_at 4 = 3#32 ∧ k0_off1_at 5 = 4294967293#32 ∧ k0_off1_at 6 = 4#32 ∧ k0_off1_at 7 = 4294967292#32 := by decide

/-- info: 'Cert.Kernel.P.dev1_eq' depends on axioms: [propext, Quot.sound] -/
#guard_msgs in #print axioms dev1_eq

/-- info: 'Cert.Kernel.P.off1_eq_m3' depends on axioms: [propext, Classical.choice, Quot.sound] -/
#guard_msgs in #print axioms off1_eq_m3

/-- info: 'Cert.Kernel.P.off17_eq_m2' depends on axioms: [propext, Classical.choice, Quot.sound] -/
#guard_msgs in #print axioms off17_eq_m2

end Cert.Kernel.P
-- ==== Proof.KContents.lean ====
import proofs.«900901_g7700000000000902_dist_matmul_silu_kshard_i_m2048_n2048_k1024_v7x_i4_bf16_1_alg».proof.Proof.Gen.Kernel
import proofs.«900901_g7700000000000902_dist_matmul_silu_kshard_i_m2048_n2048_k1024_v7x_i4_bf16_1_alg».proof.Proof.Gen.Kernel.Skeleton
import proofs.«900901_g7700000000000902_dist_matmul_silu_kshard_i_m2048_n2048_k1024_v7x_i4_bf16_1_alg».proof.Proof.KRingArith

/-!
The values the distributed kernel moves around the ring, as pure functions of the devices' argument blocks.

Device `c` holds the column block `A_c` (2048 × 1024) of `A` and the row block `B_c` (1024 × 2048) of `B`.
The result is cut in 4 row chunks of 512 rows and 8 column slices ("chains") of 256 columns.  For row chunk `r`
and chain `ci` device `c` contributes the partial product `part c r ci = A_c[rows r] · B_c[cols ci]`.
Chains 0–3 travel to the next device, chains 4–7 to the previous one.  At step `h` of the reduce-scatter a
device adds its own partial product for the chunk that is passing through to what it received; after three
steps chunk `c` is complete on device `c`, which applies `silu` to it; the all-gather then copies every
finished block to every device.
-/

noncomputable section

namespace Cert.Kernel.P

open Cert.Kernel Cert.Kernel.Gen Idealize.ShloMosaic

variable {F : FTy → Type} [FloatOps F]

/-- Contents of a device's block of `A`, of `B`, of the result, and of the reduce-scatter scratch. -/
abbrev AT (F : FTy → Type) : Type := (⟨S2048x1024, .f32⟩ : BufTy).Contents (Elt F)
abbrev BT (F : FTy → Type) : Type := (⟨S1024x2048, .f32⟩ : BufTy).Contents (Elt F)
abbrev OT (F : FTy → Type) : Type := (⟨S2048x2048, .bf16⟩ : BufTy).Contents (Elt F)
abbrev RT (F : FTy → Type) : Type := (⟨S8x4x512x256, .bf16⟩ : BufTy).Contents (Elt F)
abbrev BbT (F : FTy → Type) : Type := (⟨S1024x2048, .bf16⟩ : BufTy).Contents (Elt F)
/-- One 512 × 256 block in the transport format. -/
abbrev Blk (F : FTy → Type) : Type := FVec F S512x256 .bf16

theorem rows_inb (r : ℕ) (hr : r < 4) : ∀ a, (![512 * r, 0] : Fin 2 → Nat) a + S512x1024.size a ≤ S2048x1024.size a := by
  intro a; fin_cases a
  · show 512 * r + 512 ≤ 2048; omega
  · show 0 + 1024 ≤ 1024; omega

theorem cols_inb (ci : ℕ) (hci : ci < 8) : ∀ a, (![0, 256 * ci] : Fin 2 → Nat) a + S1024x256.size a ≤ S1024x2048.size a := by
  intro a; fin_cases a
  · show 0 + 1024 ≤ 1024; omega
  · show 256 * ci + 256 ≤ 2048; omega

/-- Rows `512 r … 512 r + 511` of a device's block of `A`. -/
def aRows (fa : AT F) (r : ℕ) (hr : r < 4) : Vec F S512x1024 .f32 :=
  (Memref.whole cc0_stg0_0 : Memref sig .tc .vmem S2048x1024 .f32).view.readAt (Elt F) (Rect.unit (s := S2048x1024) ![512 * r, 0] S512x1024.size (rows_inb r hr)).toLoadRect fa

/-- The device's block of `B` in the transport format. -/
def bBf (fb : BT F) : BbT F := k0_pay1 fb

/-- Columns `256 ci … 256 ci + 255` of it. -/
def bCols (fb : BT F) (ci : ℕ) (hci : ci < 8) : Vec F S1024x256 .bf16 :=
  (Memref.whole cc0_scratch1 : Memref sig .tc .vmem S1024x2048 .bf16).view.readAt (Elt F) (Rect.unit (s := S1024x2048) ![0, 256 * ci] S1024x256.size (cols_inb ci hci)).toLoadRect (bBf fb)

/-- The matrix product of a row chunk (narrowed to the transport format) with a column slice, into a zero accumulator. -/
def mm (a : Vec F S512x1024 .f32) (b : Vec F S1024x256 .bf16) : FVec F S512x256 .f32 :=
  matmul dot_S512x1024_S1024x256_S512x256_1_0_0_1_n_n none (truncf .bf16 (shapeCast S512x1024 a shapeCasts_S512x1024_S512x1024) bitsLt_bf16_f32) b
    (constant S512x256 .f32 0x00000000#32)

/-- Device data `(fa, fb)`'s partial product for row chunk `r`, chain `ci`. -/
def part (fa : AT F) (fb : BT F) (r : ℕ) (hr : r < 4) (ci : ℕ) (hci : ci < 8) : FVec F S512x256 .f32 :=
  mm (aRows fa r hr) (bCols fb ci hci)

/-- Narrowing a block to the transport format. -/
def toBlk (x : FVec F S512x256 .f32) : Blk F := truncf .bf16 x bitsLt_bf16_f32

/-- What arrives, widened, plus the own partial product. -/
def accum (ps : FVec F S512x256 .f32) (v : Blk F) : FVec F S512x256 .f32 := addf (extf .f32 v bitsLt_bf16_f32) ps

/-- `z · (1 / (1 + exp (0 − z)))`, narrowed. -/
def siluBlk (z : FVec F S512x256 .f32) : Blk F :=
  truncf .bf16
    (mulf z (divf (broadcast S512x256 (Scalar.ofBits .f32 0x3F800000#32))
      (addf (broadcast S512x256 (Scalar.ofBits .f32 0x3F800000#32)) (exp (subf (broadcast S512x256 (Scalar.ofBits .f32 0x00000000#32)) z)))))
    bitsLt_bf16_f32

/-- The device a chain's blocks come from: the previous one for chains 0–3, the next one for chains 4–7. -/
def sdev (ci : ℕ) (c : Dev nD) : Dev nD := if ci < 4 then prv c else nxt c
/-- The device a chain's blocks go to. -/
def tdev (ci : ℕ) (c : Dev nD) : Dev nD := if ci < 4 then nxt c else prv c

/-- The shift `k` such that at reduce-scatter step `h` a device works on row chunk `chunk c k`:
    its own index minus (chains 0–3) or plus (chains 4–7) `h + 1`. -/
def rsShift (ci : ℕ) (h : ℕ) : ℕ := if ci < 4 then (7 - h) % 4 else (h + 1) % 4

theorem sdev_tdev (ci : ℕ) (c : Dev nD) : sdev ci (tdev ci c) = c := by
  unfold sdev tdev; split <;> simp [prv_nxt, nxt_prv]
theorem tdev_sdev (ci : ℕ) (c : Dev nD) : tdev ci (sdev ci c) = c := by
  unfold sdev tdev; split <;> simp [prv_nxt, nxt_prv]

section Chain
variable (fa : Dev nD → AT F) (fb : Dev nD → BT F)

/-- Device `c`'s partial product for the chunk passing through it at step `h` of chain `ci`. -/
def partAt (c : Dev nD) (ci : ℕ) (hci : ci < 8) (h : ℕ) : FVec F S512x256 .f32 :=
  part (fa c) (fb c) (chunk c (rsShift ci h)) (chunk_lt _ _) ci hci

/-- What device `c` sends on at step `h` of chain `ci` (`h = 0, 1, 2`): its partial product at step 0, then what
    it received plus its partial product, narrowed. -/
def sent : ℕ → Dev nD → (ci : ℕ) → ci < 8 → Blk F
  | 0, c, ci, hci => toBlk (partAt fa fb c ci hci 0)
  | h + 1, c, ci, hci => toBlk (accum (partAt fa fb c ci hci (h + 1)) (sent h (sdev ci c) ci hci))

/-- The completed sum for row chunk `c`, chain `ci`, on device `c`. -/
def total (c : Dev nD) (ci : ℕ) (hci : ci < 8) : FVec F S512x256 .f32 :=
  accum (partAt fa fb c ci hci 3) (sent fa fb 2 (sdev ci c) ci hci)

/-- The finished block (row chunk `c`, chain `ci`). -/
def outBlk (c : Dev nD) (ci : ℕ) (hci : ci < 8) : Blk F := siluBlk (total fa fb c ci hci)

end Chain

end Cert.Kernel.P

end
-- ==== Proof.KProto.lean ====
import proofs.«900901_g7700000000000902_dist_matmul_silu_kshard_i_m2048_n2048_k1024_v7x_i4_bf16_1_alg».proof.Proof.Gen.Kernel
import proofs.«900901_g7700000000000902_dist_matmul_silu_kshard_i_m2048_n2048_k1024_v7x_i4_bf16_1_alg».proof.Proof.Gen.Kernel.Skeleton
import proofs.«900901_g7700000000000902_dist_matmul_silu_kshard_i_m2048_n2048_k1024_v7x_i4_bf16_1_alg».proof.Proof.Gen.Kernel.Launch
import proofs.«900901_g7700000000000902_dist_matmul_silu_kshard_i_m2048_n2048_k1024_v7x_i4_bf16_1_alg».proof.Proof.Gen.Kernel.Points
import proofs.«900901_g7700000000000902_dist_matmul_silu_kshard_i_m2048_n2048_k1024_v7x_i4_bf16_1_alg».proof.Proof.KRingArith
import proofs.«900901_g7700000000000902_dist_matmul_silu_kshard_i_m2048_n2048_k1024_v7x_i4_bf16_1_alg».proof.Proof.KContents
import Idealize.ShloMosaic.Lib.Pipeline.Launch
import Idealize.ShloMosaic.Lib.Pipeline.Kit
import Idealize.ShloMosaic.Lib.Tactic

/-!
The cross-device protocol of the ring kernel, as a schedule of rounds.

Every device owns one barrier cell and, for each chain `a < 8` and step `b < 3`, four transfer cells: the send and
receive cells of the reduce-scatter copy `(a, b)` and of the all-gather copy `(a, b)`.  Each cell has one round.
A barrier cell has two duties of one unit: `true`, paid by the next device, and `false`, paid by the previous one;
with its unit a neighbour hands over the landing areas into which this device will copy, and that it has reached
round 0 of the receive cells those copies complete on.  A transfer cell has the one duty `false` of the copied
block's credit.  A receive cell's payload is the landing area holding what the sender's block held; a send cell's
payload is the sender's block back.
-/

noncomputable section

namespace Cert.Kernel.P

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the ring's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## Buffers, slots and blocks -/

abbrev aM : Memref sig .tc .vmem S2048x1024 .f32 := Memref.whole cc0_stg0_0
abbrev bM : Memref sig .tc .vmem S1024x2048 .f32 := Memref.whole cc0_stg1_0
abbrev oM : Memref sig .tc .vmem S2048x2048 .bf16 := Memref.whole cc0_stg2_0
abbrev rsM : Memref sig .tc .vmem S8x4x512x256 .bf16 := Memref.whole cc0_scratch0
abbrev bbM : Memref sig .tc .vmem S1024x2048 .bf16 := Memref.whole cc0_scratch1

theorem slot_inb (a b : ℕ) (ha : a < 8) (hb : b < 4) :
    ∀ i, (![a, b, 0, 0] : Fin 4 → Nat) i + S1x1x512x256.size i ≤ S8x4x512x256.size i := by
  intro i; fin_cases i
  · show a + 1 ≤ 8; omega
  · show b + 1 ≤ 4; omega
  · show 0 + 512 ≤ 512; omega
  · show 0 + 256 ≤ 256; omega

/-- Slot `(a, b)` of the reduce-scatter scratch, as a 512 × 256 block. -/
abbrev slotM (a b : ℕ) (h : ∀ i, (![a, b, 0, 0] : Fin 4 → Nat) i + S1x1x512x256.size i ≤ S8x4x512x256.size i) : Memref sig .tc .vmem S512x256 .bf16 :=
  ((rsM.slice (Rect.unit (s := S8x4x512x256) ![a, b, 0, 0] S1x1x512x256.size h) (fun _ => rfl)).squeeze S512x256 squeezes_S1x1x512x256_S512x256)

/-- The 512 × 256 block of the result buffer at offsets `off`. -/
abbrev oblkM (off : Fin 2 → ℕ) (h : ∀ i, off i + S512x256.size i ≤ S2048x2048.size i) : Memref sig .tc .vmem S512x256 .bf16 :=
  oM.slice (Rect.unit (s := S2048x2048) off S512x256.size h) (fun _ => rfl)

theorem oblk_inb (r a : ℕ) (hr : r < 4) (ha : a < 8) : ∀ i, (![512 * r, 256 * a] : Fin 2 → Nat) i + S512x256.size i ≤ S2048x2048.size i := by
  intro i; fin_cases i
  · show 512 * r + 512 ≤ 2048; omega
  · show 256 * a + 256 ≤ 2048; omega

/-- A scratch buffer holding block `v` in slot `(a, b)` (zeros elsewhere). -/
def slotBuf (a b : ℕ) (h : ∀ i, (![a, b, 0, 0] : Fin 4 → Nat) i + S1x1x512x256.size i ≤ S8x4x512x256.size i) (v : Blk F) : RT F := (slotM a b h).view.write (Elt F) (constant S8x4x512x256 .bf16 0#16) v Finset.univ
/-- A result buffer holding block `v` at offsets `off` (zeros elsewhere). -/
def oblkBuf (off : Fin 2 → ℕ) (h : ∀ i, off i + S512x256.size i ≤ S2048x2048.size i) (v : Blk F) : OT F := (oblkM off h).view.write (Elt F) (constant S2048x2048 .bf16 0#16) v Finset.univ

/-- The credit of one block's copy into a scratch slot, and into the result buffer. -/
abbrev Nrs : ℕ := (slotM 0 0 (slot_inb 0 0 (by decide) (by decide)) : Memref sig .tc .vmem S512x256 .bf16).view.dmaCredit
abbrev Nag : ℕ := (oblkM ![0, 0] (oblk_inb 0 0 (by decide) (by decide)) : Memref sig .tc .vmem S512x256 .bf16).view.dmaCredit
theorem Nrs_pos : 0 < Nrs := View.dmaCredit_pos _ (by decide)
theorem Nag_pos : 0 < Nag := View.dmaCredit_pos _ (by decide)

/-! ## Cells -/

abbrev barS : Sem sig := (SemArray.scalar (sig.barrier 0 rfl) : Sems sig S_).sem
abbrev barCell (c : Dev nD) : GSem nD τ sig := ((c : Thread nD τ), .reg barS)

/-- Semaphore `(a, b)` of one of the four 8 × 3 arrays, as the body names it. -/
abbrev csem (arr : DmaSems sig S8x3) (a b : ℕ) (h : ∀ i, (![a, b] : Fin 2 → Nat) i + S1x1.size i ≤ S8x3.size i) : DmaSem sig :=
  ((arr.slice (Rect.unit (s := S8x3) ![a, b] S1x1.size h)).squeeze S_ squeezes_S1x1_S_).sem
theorem sem_inb (a b : ℕ) (ha : a < 8) (hb : b < 3) : ∀ i, (![a, b] : Fin 2 → Nat) i + S1x1.size i ≤ S8x3.size i := by
  intro i; fin_cases i
  · show a + 1 ≤ 8; omega
  · show b + 1 ≤ 3; omega

/-- The cell of DMA semaphore number `n` (`3 + 24 k + 3 a + b`: array `k`, chain `a`, step `b`) on device `c`. -/
abbrev dcell (c : Dev nD) (q : DmaSem sig) : GSem nD τ sig := ((c : Thread nD τ), .dma q)

/-! ## Who sends what: the all-gather's blocks -/

/-- The device whose finished block travels in all-gather copy `(a, b)` issued by device `c`: `c` itself at step 0,
    then the device `b` hops back along the chain. -/
def orig (a : ℕ) : ℕ → Dev nD → Dev nD
  | 0, c => c
  | b + 1, c => orig a b (sdev a c)

/-! ## The schedule -/

/-- Which of the four arrays a DMA semaphore number belongs to, its chain and its step (`3 + 24 k + 3 a + b`). -/
def dk (n : ℕ) : ℕ := (n - 3) / 24
def da (n : ℕ) : ℕ := ((n - 3) % 24) / 3
def db (n : ℕ) : ℕ := (n - 3) % 3
theorem da_lt (n : ℕ) : da n < 8 := by unfold da; omega
theorem db_lt (n : ℕ) : db n < 3 := by unfold db; omega

/-- The shift `k` such that the block travelling in all-gather copy `(a, b)` issued by device `c` is row chunk `chunk c k`:
    the issuer's own chunk at step 0, then one hop back per step. -/
def agShift (a b : ℕ) : ℕ := if a < 4 then (4 - b) % 4 else b % 4

/-- Row and column offsets of row chunk `chunk c k`, chain `a`, in the result buffer. -/
abbrev rowOff (c : Dev nD) (k a : ℕ) : Fin 2 → ℕ := ![512 * chunk c k, 256 * a]
theorem rowOff_inb (c : Dev nD) (k a : ℕ) (ha : a < 8) : ∀ i, rowOff c k a i + S512x256.size i ≤ S2048x2048.size i :=
  oblk_inb _ _ (chunk_lt _ _) ha

section Sched
variable (fa : Dev nD → AT F) (fb : Dev nD → BT F)

/-- The reduce-scatter send cell gives the sent slot back (its contents are not read again). -/
def rsSendPay (c : Dev nD) (a b : ℕ) (ha : a < 8) (hb : b < 3) : sProp 𝕄 :=
  iprop(∃ f : Buf (Elt F) ((slotM a b (slot_inb a b ha (by omega)) : Memref sig .tc .vmem S512x256 .bf16).view.loc (c : Thread nD τ)),
    (slotM a b (slot_inb a b ha (by omega)) : Memref sig .tc .vmem S512x256 .bf16).view.loc (c : Thread nD τ)
      ↦[(slotM a b (slot_inb a b ha (by omega)) : Memref sig .tc .vmem S512x256 .bf16).view.set]{fullShare} f)

/-- The reduce-scatter receive cell hands over slot `(a, b + 1)` holding what the sender's slot `(a, b)` held. -/
def rsRecvPay (c : Dev nD) (a b : ℕ) (ha : a < 8) (hb : b < 3) : sProp 𝕄 :=
  iprop(∃ fd : Buf (Elt F) ((slotM a (b + 1) (slot_inb a (b + 1) ha (by omega)) : Memref sig .tc .vmem S512x256 .bf16).view.loc (c : Thread nD τ)),
    (slotM a (b + 1) (slot_inb a (b + 1) ha (by omega)) : Memref sig .tc .vmem S512x256 .bf16).view.loc (c : Thread nD τ)
      ↦[(slotM a (b + 1) (slot_inb a (b + 1) ha (by omega)) : Memref sig .tc .vmem S512x256 .bf16).view.set]{fullShare}
        ((slotM a (b + 1) (slot_inb a (b + 1) ha (by omega)) : Memref sig .tc .vmem S512x256 .bf16).view.write (Elt F) fd
          ((slotM a b (slot_inb a b ha (by omega)) : Memref sig .tc .vmem S512x256 .bf16).view.read (Elt F)
            (slotBuf a b (slot_inb a b ha (by omega)) (sent fa fb b (sdev a c) a ha))) Finset.univ))

/-- The all-gather send cell gives the sent block back, as it was. -/
def agSendPay (c : Dev nD) (a b : ℕ) (ha : a < 8) (hb : b < 3) : sProp 𝕄 :=
  ((oblkM (rowOff c (agShift a b) a) (rowOff_inb c _ a ha) : Memref sig .tc .vmem S512x256 .bf16).view.loc (c : Thread nD τ)
    ↦[(oblkM (rowOff c (agShift a b) a) (rowOff_inb c _ a ha) : Memref sig .tc .vmem S512x256 .bf16).view.set]{fullShare}
      oblkBuf (rowOff c (agShift a b) a) (rowOff_inb c _ a ha) (outBlk fa fb (orig a b c) a ha) : sProp 𝕄)

/-- The all-gather receive cell hands over the block one hop further back, holding what the sender's block held. -/
def agRecvPay (c : Dev nD) (a b : ℕ) (ha : a < 8) (hb : b < 3) : sProp 𝕄 :=
  iprop(∃ fd : Buf (Elt F) ((oblkM (rowOff c (agShift a (b + 1)) a) (rowOff_inb c _ a ha) : Memref sig .tc .vmem S512x256 .bf16).view.loc (c : Thread nD τ)),
    (oblkM (rowOff c (agShift a (b + 1)) a) (rowOff_inb c _ a ha) : Memref sig .tc .vmem S512x256 .bf16).view.loc (c : Thread nD τ)
      ↦[(oblkM (rowOff c (agShift a (b + 1)) a) (rowOff_inb c _ a ha) : Memref sig .tc .vmem S512x256 .bf16).view.set]{fullShare}
        ((oblkM (rowOff c (agShift a (b + 1)) a) (rowOff_inb c _ a ha) : Memref sig .tc .vmem S512x256 .bf16).view.write (Elt F) fd
          ((oblkM (rowOff (sdev a c) (agShift a b) a) (rowOff_inb _ _ a ha) : Memref sig .tc .vmem S512x256 .bf16).view.read (Elt F)
            (oblkBuf (rowOff (sdev a c) (agShift a b) a) (rowOff_inb _ _ a ha) (outBlk fa fb (orig a b (sdev a c)) a ha))) Finset.univ))

/-- A transfer cell's payload, by its semaphore's number. -/
def dmaPay (c : Dev nD) (n : ℕ) : sProp 𝕄 :=
  if dk n = 0 then rsSendPay c (da n) (db n) (da_lt n) (db_lt n)
  else if dk n = 1 then rsRecvPay fa fb c (da n) (db n) (da_lt n) (db_lt n)
  else if dk n = 2 then agSendPay fa fb c (da n) (db n) (da_lt n) (db_lt n)
  else agRecvPay fa fb c (da n) (db n) (da_lt n) (db_lt n)

/-- The receive cells' semaphores, by number: the reduce-scatter's are `27 + 3 a + b`, the all-gather's `75 + 3 a + b`. -/
def semN (n : ℕ) (h : n < 99) : DmaSem sig := ⟨n, h⟩

/-- What a neighbour hands over with its barrier unit: for each chain `a0 + i` (`i < 4`) on which this device copies to it
    and each step, its landing slot and landing block at anything, and that it has reached round 0 of the two receive cells. -/
def barPay (c : Dev nD) (d : Bool) : sProp 𝕄 :=
  bigSep (Finset.univ : Finset (Fin 4 × Fin 3)) fun ab =>
    iprop((∃ f : Buf (Elt F) ((slotM ((if d then 0 else 4) + ab.1.val) (ab.2.val + 1) (slot_inb _ _ (by split <;> omega) (by omega)) : Memref sig .tc .vmem S512x256 .bf16).view.loc ((if d then nxt c else prv c : Dev nD) : Thread nD τ)),
        (slotM ((if d then 0 else 4) + ab.1.val) (ab.2.val + 1) (slot_inb _ _ (by split <;> omega) (by omega)) : Memref sig .tc .vmem S512x256 .bf16).view.loc ((if d then nxt c else prv c : Dev nD) : Thread nD τ)
          ↦[(slotM ((if d then 0 else 4) + ab.1.val) (ab.2.val + 1) (slot_inb _ _ (by split <;> omega) (by omega)) : Memref sig .tc .vmem S512x256 .bf16).view.set]{fullShare} f)
      ∗ (∃ f : Buf (Elt F) ((oblkM (rowOff c (agShift ((if d then 0 else 4) + ab.1.val) ab.2.val) ((if d then 0 else 4) + ab.1.val)) (rowOff_inb c _ _ (by split <;> omega)) : Memref sig .tc .vmem S512x256 .bf16).view.loc ((if d then nxt c else prv c : Dev nD) : Thread nD τ)),
        (oblkM (rowOff c (agShift ((if d then 0 else 4) + ab.1.val) ab.2.val) ((if d then 0 else 4) + ab.1.val)) (rowOff_inb c _ _ (by split <;> omega)) : Memref sig .tc .vmem S512x256 .bf16).view.loc ((if d then nxt c else prv c : Dev nD) : Thread nD τ)
          ↦[(oblkM (rowOff c (agShift ((if d then 0 else 4) + ab.1.val) ab.2.val) ((if d then 0 else 4) + ab.1.val)) (rowOff_inb c _ _ (by split <;> omega)) : Memref sig .tc .vmem S512x256 .bf16).view.set]{fullShare} f)
      ∗ reached ER (dcell (if d then nxt c else prv c) (csem cc0_scratch3 ((if d then 0 else 4) + ab.1.val) ab.2.val (sem_inb _ _ (by split <;> omega) ab.2.isLt))) 0
      ∗ reached ER (dcell (if d then nxt c else prv c) (csem cc0_scratch5 ((if d then 0 else 4) + ab.1.val) ab.2.val (sem_inb _ _ (by split <;> omega) ab.2.isLt))) 0)

abbrev IsBar (g : GSem nD τ sig) : Prop := g.1.2 = .tc ∧ g.2 = .reg barS
/-- A transfer semaphore: a DMA semaphore among the four arrays' 96 (numbers 3 … 98; 0 … 2 are the pipeline's). -/
def isXferSem : SemLoc sig → Prop
  | .dma q => 3 ≤ q.val
  | .reg _ => False
instance : DecidablePred (isXferSem) := fun s => by
  cases s with
  | dma q => exact inferInstanceAs (Decidable (3 ≤ q.val))
  | reg _ => exact isFalse (fun h => h)
/-- A transfer cell: a TensorCore's transfer semaphore. -/
abbrev IsXfer (g : GSem nD τ sig) : Prop := g.1.2 = .tc ∧ isXferSem g.2

/-- One round, round 0: a barrier cell has the duties `true` and `false` of one unit each, a transfer cell the duty `false`
    of its block's credit. -/
def ringRd : Rounds.Schedule (GSem nD τ sig) Bool 𝕄 where
  duties g r := if r = 0 ∧ IsBar g then Finset.univ else if r = 0 ∧ IsXfer g then {false} else ∅
  unitless _ := False
  amount g _ _ := match g.2 with
    | .reg _ => 1
    | .dma q => if dk q.val < 2 then Nrs else Nag
  payload g _ d := match g.2 with
    | .reg s => if s = barS then barPay g.1.1 d else iprop(emp)
    | .dma q => dmaPay fa fb g.1.1 q.val
  amount_pos g _ _ _ := by
    cases g.2 with
    | reg _ => exact Nat.one_pos
    | dma q => dsimp only; split
               · exact Nrs_pos
               · exact Nag_pos

end Sched

end Cert.Kernel.P

end
-- ==== Proof.KGhost.lean ====
import proofs.«900901_g7700000000000902_dist_matmul_silu_kshard_i_m2048_n2048_k1024_v7x_i4_bf16_1_alg».proof.Proof.KProto
import Idealize.ShloMosaic.Lib.ValueIdx

/-!
What each device holds when its kernel starts, and what it hands back.

Every device owns 97 cells: its barrier cell and, for each of the four 8 × 3 arrays of transfer semaphores, one cell per
chain `a < 8` and step `b < 3`. It issues 48 copies. Copy `(a, b)` of the reduce-scatter completes on the receive cell
`(a, b)` of the device the chain leads to and on the sender's own send cell `(a, b)`; the same for the all-gather. A device
therefore starts from the invariants of its own cells, of its two neighbours' barrier cells and of the 48 receive cells
its copies complete on; from its position at round 0 of each of its own cells; and from one token for every duty it pays:
one unit on each neighbour's barrier cell, the credit of each of the 48 receive cells, the credit of its own 48 send cells.
What it owes at launch is the credit of those 48 receive cells, in the order of its copies, and the two barrier units.
A wait is allowed at a level below everything still owed: barrier cells stand at level 1, the receive cells of
reduce-scatter step `b` at `2 + b`, those of all-gather step `b` at `5 + b`, every other cell at 0.
-/

noncomputable section

namespace Cert.Kernel.P

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Finite conjunctions written out -/

theorem bigSep_fin3 (Φ : Fin 3 → sProp 𝕄) : bigSep Finset.univ Φ = iprop(Φ 0 ∗ Φ 1 ∗ Φ 2) :=
  bigSep_univ_eq_bigSepL [0, 1, 2] (by decide) (by decide) Φ
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- A family over the 24 pairs (chain `a < 8`, step `b < 3`), conjoined. -/
def overAB (Φ : (a b : ℕ) → a < 8 → b < 3 → sProp 𝕄) : sProp 𝕄 :=
  bigSep (Finset.univ : Finset (Fin 8 × Fin 3)) fun ab => Φ ab.1.val ab.2.val ab.1.isLt ab.2.isLt

/-- The 24 conjuncts, chain by chain and step by step. -/
theorem overAB_eq (Φ : (a b : ℕ) → a < 8 → b < 3 → sProp 𝕄) :
    overAB Φ = iprop(
      (Φ 0 0 (by decide) (by decide) ∗ Φ 0 1 (by decide) (by decide) ∗ Φ 0 2 (by decide) (by decide))
      ∗ (Φ 1 0 (by decide) (by decide) ∗ Φ 1 1 (by decide) (by decide) ∗ Φ 1 2 (by decide) (by decide))
      ∗ (Φ 2 0 (by decide) (by decide) ∗ Φ 2 1 (by decide) (by decide) ∗ Φ 2 2 (by decide) (by decide))
      ∗ (Φ 3 0 (by decide) (by decide) ∗ Φ 3 1 (by decide) (by decide) ∗ Φ 3 2 (by decide) (by decide))
      ∗ (Φ 4 0 (by decide) (by decide) ∗ Φ 4 1 (by decide) (by decide) ∗ Φ 4 2 (by decide) (by decide))
      ∗ (Φ 5 0 (by decide) (by decide) ∗ Φ 5 1 (by decide) (by decide) ∗ Φ 5 2 (by decide) (by decide))
      ∗ (Φ 6 0 (by decide) (by decide) ∗ Φ 6 1 (by decide) (by decide) ∗ Φ 6 2 (by decide) (by decide))
      ∗ (Φ 7 0 (by decide) (by decide) ∗ Φ 7 1 (by decide) (by decide) ∗ Φ 7 2 (by decide) (by decide))) := by
  unfold overAB
  rw [bigSep_univ_prod, bigSep_fin8]
  simp only [bigSep_fin3]
  rfl

/-! ## The transfer cells -/

/-- The four arrays of transfer semaphores: reduce-scatter send and receive, all-gather send and receive. -/
abbrev xarr : Fin 4 → DmaSems sig S8x3 := fun | 0 => cc0_scratch2 | 1 => cc0_scratch3 | 2 => cc0_scratch4 | 3 => cc0_scratch5
/-- Device `c`'s cell of array `k`, chain `a`, step `b`. -/
abbrev xcell (c : Dev nD) (k : Fin 4) (a b : ℕ) (ha : a < 8) (hb : b < 3) : GSem nD τ sig := dcell c (csem (xarr k) a b (sem_inb a b ha hb))

/-! ## The copies in program order, and what a device owes -/

/-- The chain of the copy at place `pos` of a phase: 0, 4, 1, 5, 2, 6, 3, 7. -/
def chainAt (pos : ℕ) : ℕ := pos / 2 + 4 * (pos % 2)
theorem chainAt_lt (j : ℕ) : chainAt (j % 8) < 8 := by unfold chainAt; omega

/-- The receive cell copy `j` completes on (`j = 8 p + pos`: phases 0–2 the reduce-scatter steps, 3–5 the all-gather steps): on the
    device its chain leads to. -/
def sendCellOf (c : Dev nD) (j : ℕ) : GSem nD τ sig :=
  if j / 8 < 3 then dcell (tdev (chainAt (j % 8)) c) (csem cc0_scratch3 (chainAt (j % 8)) (j / 8 % 3) (sem_inb _ _ (chainAt_lt j) (Nat.mod_lt _ (by decide))))
  else dcell (tdev (chainAt (j % 8)) c) (csem cc0_scratch5 (chainAt (j % 8)) (j / 8 % 3) (sem_inb _ _ (chainAt_lt j) (Nat.mod_lt _ (by decide))))
/-- The credit copy `j` pays there. -/
def sendAmt (j : ℕ) : ℕ := if j / 8 < 3 then Nrs else Nag

/-- What the last `n` of the 48 copies owe, summed so that the earliest of them is the last summand. -/
def owedRem (c : Dev nD) : ℕ → CellTallies nD τ sig Unit
  | 0 => 0
  | n + 1 => owedRem c n + tallyAt (sendCellOf c (47 - n)) () (sendAmt (47 - n))

theorem owedRem_succ (c : Dev nD) (n : ℕ) : owedRem c (n + 1) = owedRem c n + tallyAt (sendCellOf c (47 - n)) () (sendAmt (47 - n)) := rfl

/-- What a device owes at launch: its 48 copies' credits and one unit on each neighbour's barrier cell, the unit of the
    previous device's (signalled first) the last summand. -/
def O₀ (c : Dev nD) : CellTallies nD τ sig Unit := owedRem c 48 + tallyAt (barCell (nxt c)) () 1 + tallyAt (barCell (prv c)) () 1

/-! ## Levels -/

def L (g : GSem nD τ sig) : Finset Unit := if g.1.2 = .tc then {()} else ∅
/-- Barrier cells at 1; the receive cells of reduce-scatter step `b` at `2 + b`, of all-gather step `b` at `5 + b`; all else at 0. -/
def lv (g : GSem nD τ sig) (_ : Unit) : ℕ := match g.2 with
  | .reg _ => 1
  | .dma q => if dk q.val = 1 then 2 + db q.val else if dk q.val = 3 then 5 + db q.val else 0

theorem L_of_ne (g : GSem nD τ sig) (h : g.1.2 ≠ .tc) : L g = ∅ := if_neg h
theorem L_tc (c : Dev nD) (sm : SemLoc sig) : L ((c : Thread nD τ), sm) = {()} := if_pos rfl

/-! ## The ghost state a device starts from -/

section Ghost
variable (fa : Dev nD → AT F) (fb : Dev nD → BT F)

/-- The ring's ghost state device `c` starts from, under the names `K` the cells' invariants were allocated at. -/
def ghost (K : GSem nD τ sig → ℕ) (c : Dev nD) : sProp 𝕄 :=
  iprop((cellInv ER (ringRd fa fb) (K (barCell c)) (barCell c) ∗ cellInv ER (ringRd fa fb) (K (barCell (nxt c))) (barCell (nxt c)) ∗ cellInv ER (ringRd fa fb) (K (barCell (prv c))) (barCell (prv c))
      ∗ overAB (fun a b ha hb => cellInv ER (ringRd fa fb) (K (dcell c (csem cc0_scratch2 a b (sem_inb a b ha hb)))) (dcell c (csem cc0_scratch2 a b (sem_inb a b ha hb))))
      ∗ overAB (fun a b ha hb => cellInv ER (ringRd fa fb) (K (dcell c (csem cc0_scratch3 a b (sem_inb a b ha hb)))) (dcell c (csem cc0_scratch3 a b (sem_inb a b ha hb))))
      ∗ overAB (fun a b ha hb => cellInv ER (ringRd fa fb) (K (dcell c (csem cc0_scratch4 a b (sem_inb a b ha hb)))) (dcell c (csem cc0_scratch4 a b (sem_inb a b ha hb))))
      ∗ overAB (fun a b ha hb => cellInv ER (ringRd fa fb) (K (dcell c (csem cc0_scratch5 a b (sem_inb a b ha hb)))) (dcell c (csem cc0_scratch5 a b (sem_inb a b ha hb))))
      ∗ overAB (fun a b ha hb => cellInv ER (ringRd fa fb) (K (dcell (tdev a c) (csem cc0_scratch3 a b (sem_inb a b ha hb)))) (dcell (tdev a c) (csem cc0_scratch3 a b (sem_inb a b ha hb))))
      ∗ overAB (fun a b ha hb => cellInv ER (ringRd fa fb) (K (dcell (tdev a c) (csem cc0_scratch5 a b (sem_inb a b ha hb)))) (dcell (tdev a c) (csem cc0_scratch5 a b (sem_inb a b ha hb)))))
    ∗ (atPos ER (barCell c) 0 ∅ 0
      ∗ overAB (fun a b ha hb => atPos ER (dcell c (csem cc0_scratch2 a b (sem_inb a b ha hb))) 0 ∅ 0)
      ∗ overAB (fun a b ha hb => atPos ER (dcell c (csem cc0_scratch3 a b (sem_inb a b ha hb))) 0 ∅ 0)
      ∗ overAB (fun a b ha hb => atPos ER (dcell c (csem cc0_scratch4 a b (sem_inb a b ha hb))) 0 ∅ 0)
      ∗ overAB (fun a b ha hb => atPos ER (dcell c (csem cc0_scratch5 a b (sem_inb a b ha hb))) 0 ∅ 0))
    ∗ (reached ER (barCell (nxt c)) 0 ∗ reached ER (barCell (prv c)) 0
      ∗ overAB (fun a b ha hb => reached ER (dcell c (csem cc0_scratch2 a b (sem_inb a b ha hb))) 0)
      ∗ overAB (fun a b ha hb => reached ER (dcell c (csem cc0_scratch3 a b (sem_inb a b ha hb))) 0)
      ∗ overAB (fun a b ha hb => reached ER (dcell c (csem cc0_scratch4 a b (sem_inb a b ha hb))) 0)
      ∗ overAB (fun a b ha hb => reached ER (dcell c (csem cc0_scratch5 a b (sem_inb a b ha hb))) 0)
      ∗ overAB (fun a b ha hb => reached ER (dcell (tdev a c) (csem cc0_scratch3 a b (sem_inb a b ha hb))) 0)
      ∗ overAB (fun a b ha hb => reached ER (dcell (tdev a c) (csem cc0_scratch5 a b (sem_inb a b ha hb))) 0))
    ∗ (dutyTok ER (barCell (prv c)) 0 true ∗ dutyTok ER (barCell (nxt c)) 0 false
      ∗ overAB (fun a b ha hb => dutyTok ER (dcell (tdev a c) (csem cc0_scratch3 a b (sem_inb a b ha hb))) 0 false)
      ∗ overAB (fun a b ha hb => dutyTok ER (dcell (tdev a c) (csem cc0_scratch5 a b (sem_inb a b ha hb))) 0 false)
      ∗ overAB (fun a b ha hb => dutyTok ER (dcell c (csem cc0_scratch2 a b (sem_inb a b ha hb))) 0 false)
      ∗ overAB (fun a b ha hb => dutyTok ER (dcell c (csem cc0_scratch4 a b (sem_inb a b ha hb))) 0 false)))

/-- What device `c`'s body starts from: that at some names; the credit of its barrier cell's two units and of each of its 48
    receive cells; the level facts. -/
def start (c : Dev nD) : sProp 𝕄 :=
  iprop((∃ K, ghost fa fb K c) ∗ cred (tallyAt (barCell c) () 2)
    ∗ overAB (fun a b ha hb => cred (tallyAt (dcell c (csem cc0_scratch3 a b (sem_inb a b ha hb))) () Nrs))
    ∗ overAB (fun a b ha hb => cred (tallyAt (dcell c (csem cc0_scratch5 a b (sem_inb a b ha hb))) () Nag))
    ∗ levAts L lv)

def Φ₀ (c : Dev nD) : sProp 𝕄 := iprop(start fa fb c ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- The result buffer every device ends with: row chunk `i / 512`, chain `j / 256` is that chunk's finished block. -/
def outAll : OT F := fun idx =>
  outBlk fa fb ⟨(idx 0).val / 512, by have h : (idx 0).val < 2048 := (idx 0).isLt; show (idx 0).val / 512 < 4; omega⟩
    ((idx 1).val / 256) (by have h : (idx 1).val < 2048 := (idx 1).isLt; omega)
    (ValueIdx.ix2 ⟨(idx 0).val % 512, Nat.mod_lt _ (by decide)⟩ ⟨(idx 1).val % 256, Nat.mod_lt _ (by decide)⟩)

end Ghost

/-- After the body: the two scratch buffers at anything, the 96 own transfer cells at zero, closed. -/
def Φ₁ (c : Dev nD) : sProp 𝕄 :=
  iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)
    ∗ overAB (fun a b ha hb => semVal (dcell c (csem cc0_scratch2 a b (sem_inb a b ha hb))) 0)
    ∗ overAB (fun a b ha hb => semVal (dcell c (csem cc0_scratch3 a b (sem_inb a b ha hb))) 0)
    ∗ overAB (fun a b ha hb => semVal (dcell c (csem cc0_scratch4 a b (sem_inb a b ha hb))) 0)
    ∗ overAB (fun a b ha hb => semVal (dcell c (csem cc0_scratch5 a b (sem_inb a b ha hb))) 0))

/-! ## The pipeline's proof data -/

variable (m : (ℓ : Loc nD τ sig) → Buf (Elt F) ℓ) (ρ : Dev nD → PrngReg)

/-- What the pipeline stages for the body: the device's blocks of the two arguments, as launched. -/
def xstgA (c : Dev nD) : AT F := (win0_0.blk (0 : Fin 1)).view.read (Elt F) ((s₀ m ρ).mem ((c : Thread nD τ).loc main_arg0))
def xstgB (c : Dev nD) : BT F := (win0_1.blk (0 : Fin 1)).view.read (Elt F) ((s₀ m ρ).mem ((c : Thread nD τ).loc main_arg1))

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstgA m ρ c
    | ⟨1, _⟩ => xstgB m ρ c
    | ⟨2, _⟩ => outAll (xstgA m ρ) (xstgB m ρ)
  Φ t := match t with
    | ⟨0, _⟩ => Φ₀ (xstgA m ρ) (xstgB m ρ) c
    | ⟨_ + 1, _⟩ => Φ₁ c
  q _ := fullShare
  owed t := match t with
    | ⟨0, _⟩ => O₀ c
    | ⟨_ + 1, _⟩ => 0

/-! ## The body's statement -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : GSem nD τ sig → ℕ) (c : Dev nD) : sProp 𝕄 :=
  iprop((ghost (xstgA m ρ) (xstgB m ρ) K c ∗ cred (tallyAt (barCell c) () 2)
      ∗ overAB (fun a b ha hb => cred (tallyAt (dcell c (csem cc0_scratch3 a b (sem_inb a b ha hb))) () Nrs))
      ∗ overAB (fun a b ha hb => cred (tallyAt (dcell c (csem cc0_scratch5 a b (sem_inb a b ha hb))) () Nag))
      ∗ levAts L lv ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))
    ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ c ∗ (dats m ρ 0 c).owesAt () t₀.succ ∗ stg c cc0_stg0_0 (xstgA m ρ c) ∗ stg c cc0_stg1_0 (xstgB m ρ c)
    ∗ stg c cc0_stg2_0 (outAll (xstgA m ρ) (xstgB m ρ)))

/-- One device's body, from `bodyPre` to `bodyPost`. -/
def SoundBody : Prop :=
  ∀ (K : GSem nD τ sig → ℕ) (c : Dev nD) (Kt : PUnit → sProp 𝕄),
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5) Kt

end Cert.Kernel.P

end
-- ==== Proof.KSlotLemmas.lean ====
/-
  Contents of a scratch slot and of a block of the result buffer, read and written through different views of the same elements.

  Slot (a, b) of the 8 × 4 × 512 × 256 scratch is the rectangle of sizes 1 × 1 × 512 × 256 at offsets (a, b, 0, 0), counted as a
  512 × 256 block: the element at (p, q) of the block is the element at (0, 0, p, q) of the rectangle, the one with the same
  row-major number. A 1 × 1 × 512 × 256 vector that is a 512 × 256 block counted the other way therefore lands, through the
  rectangle, exactly where the block lands through the slot; reading a slot back gives what was written; and a write through a
  slot depends only on the payload, not on what the buffer held there before. The same holds for the 512 × 256 blocks of the
  2048 × 2048 result buffer, where no re-counting is involved.
-/
import proofs.«900901_g7700000000000902_dist_matmul_silu_kshard_i_m2048_n2048_k1024_v7x_i4_bf16_1_alg».proof.Proof.KProto
import Idealize.ShloMosaic.Lib.Pipeline.Value
import Idealize.ShloMosaic.Rules.PointsTo

noncomputable section

namespace Cert.Kernel.P

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.Sem

variable {F : FTy → Type} [FloatOps F]

local notation "𝕄" => MT nD τ sig Unit (Elt F) ℕ UU ℕ

/-! ## Slots of the scratch -/

/-- Writing a 1 × 1 × 512 × 256 vector through slot `(a, b)`'s rectangle of the whole scratch puts, under each index of
    the slot, the 512 × 256 block's element of the same row-major number: the squeezed slice and the reshaped vector
    count the same elements in the same order. -/
theorem slot_store_eq (a b : ℕ) (h : ∀ i, (![a, b, 0, 0] : Fin 4 → Nat) i + S1x1x512x256.size i ≤ S8x4x512x256.size i)
    (f : RT F) (v : Blk F) :
    ∀ i ∈ (slotM a b h).view.set,
      View.write (Elt F) (rsM.access (Rect.unit (s := S8x4x512x256) ![a, b, 0, 0] S1x1x512x256.size h)) f
        (shapeCast S1x1x512x256 v shapeCasts_S512x256_S1x1x512x256) Finset.univ i = slotBuf a b h v i := by
  intro i hi
  obtain ⟨x, -, rfl⟩ := Finset.mem_map.mp hi
  unfold slotBuf
  rw [View.write_emb_of_mem _ _ (Finset.mem_univ x)]
  have hx : (slotM a b h).view.emb x
      = (rsM.access (Rect.unit (s := S8x4x512x256) ![a, b, 0, 0] S1x1x512x256.size h)).emb
          (Shape.reshapeEquiv squeezes_S1x1x512x256_S512x256.numel_eq x) := rfl
  rw [hx, View.write_emb_of_mem _ _ (Finset.mem_univ _)]
  unfold shapeCast
  rw [Shape.reshapeEquiv_reshapeEquiv, Shape.reshapeEquiv_self]

/-- Reading a slot of the buffer that holds `v` there gives `v`. -/
theorem slot_read_buf (a b : ℕ) (h : ∀ i, (![a, b, 0, 0] : Fin 4 → Nat) i + S1x1x512x256.size i ≤ S8x4x512x256.size i) (v : Blk F) :
    (slotM a b h).view.read (Elt F) (slotBuf a b h v) = v :=
  View.read_write_univ _ _

/-- Reading a slot back after writing `v` through it gives `v`, whatever the buffer held. -/
theorem slot_read_write (a b : ℕ) (h : ∀ i, (![a, b, 0, 0] : Fin 4 → Nat) i + S1x1x512x256.size i ≤ S8x4x512x256.size i) (fd : RT F) (v : Blk F) :
    (slotM a b h).view.read (Elt F) ((slotM a b h).view.write (Elt F) fd v Finset.univ) = v :=
  View.read_write_univ _ _

/-- Under the slot's indices a write through the slot depends on the payload only. -/
theorem slot_write_eq (a b : ℕ) (h : ∀ i, (![a, b, 0, 0] : Fin 4 → Nat) i + S1x1x512x256.size i ≤ S8x4x512x256.size i) (fd : RT F) (v : Blk F) :
    ∀ i ∈ (slotM a b h).view.set, (slotM a b h).view.write (Elt F) fd v Finset.univ i = slotBuf a b h v i := by
  intro i hi
  obtain ⟨x, -, rfl⟩ := Finset.mem_map.mp hi
  unfold slotBuf
  rw [View.write_emb_of_mem _ _ (Finset.mem_univ x), View.write_emb_of_mem _ _ (Finset.mem_univ x)]

/-- What lands in slot `(a', b')` from a slot `(a, b)` holding `v` is `v` in slot `(a', b')`. -/
theorem slot_fwd (a b a' b' : ℕ) (h : ∀ i, (![a, b, 0, 0] : Fin 4 → Nat) i + S1x1x512x256.size i ≤ S8x4x512x256.size i) (h' : ∀ i, (![a', b', 0, 0] : Fin 4 → Nat) i + S1x1x512x256.size i ≤ S8x4x512x256.size i) (fd : RT F) (v : Blk F) :
    ∀ i ∈ (slotM a' b' h').view.set,
      (slotM a' b' h').view.write (Elt F) fd ((slotM a b h).view.read (Elt F) (slotBuf a b h v)) Finset.univ i
        = slotBuf a' b' h' v i := by
  rw [slot_read_buf]
  exact slot_write_eq a' b' h' fd v

/-- A load of the slot's 1 × 1 × 512 × 256 rectangle through the whole scratch, after `v` was written through the slot, reads
    `v` counted as a 1 × 1 × 512 × 256 vector. -/
theorem slot_readAt_write (a b : ℕ) (h : ∀ i, (![a, b, 0, 0] : Fin 4 → Nat) i + S1x1x512x256.size i ≤ S8x4x512x256.size i) (fd : RT F) (v : Blk F) :
    View.readAt (Elt F) rsM.view (Rect.unit (s := S8x4x512x256) ![a, b, 0, 0] S1x1x512x256.size h).toLoadRect
        ((slotM a b h).view.write (Elt F) fd v Finset.univ)
      = shapeCast S1x1x512x256 v shapeCasts_S512x256_S1x1x512x256 := by
  funext y
  have hy : (rsM.access (Rect.unit (s := S8x4x512x256) ![a, b, 0, 0] S1x1x512x256.size h)).emb y
      = (slotM a b h).view.emb (Shape.reshapeEquiv squeezes_S1x1x512x256_S512x256.numel_eq.symm y) := by
    show _ = (rsM.access (Rect.unit (s := S8x4x512x256) ![a, b, 0, 0] S1x1x512x256.size h)).emb
      (Shape.reshapeEquiv squeezes_S1x1x512x256_S512x256.numel_eq (Shape.reshapeEquiv squeezes_S1x1x512x256_S512x256.numel_eq.symm y))
    rw [Shape.reshapeEquiv_reshapeEquiv, Shape.reshapeEquiv_self]
  show View.read (Elt F) (rsM.access (Rect.unit (s := S8x4x512x256) ![a, b, 0, 0] S1x1x512x256.size h)) _ y = _
  rw [View.read_apply, hy, View.write_emb_of_mem _ _ (Finset.mem_univ _), cast_cast, cast_eq]
  rfl

/-- The same after a landing from slot `(a, b)` into slot `(a, b + 1)`. -/
theorem slot_readback (a b : ℕ) (h : ∀ i, (![a, b, 0, 0] : Fin 4 → Nat) i + S1x1x512x256.size i ≤ S8x4x512x256.size i)
    (h' : ∀ i, (![a, b + 1, 0, 0] : Fin 4 → Nat) i + S1x1x512x256.size i ≤ S8x4x512x256.size i) (fd : RT F) (v : Blk F) :
    View.readAt (Elt F) rsM.view (Rect.unit (s := S8x4x512x256) ![a, b + 1, 0, 0] S1x1x512x256.size h').toLoadRect
        ((slotM a (b + 1) h').view.write (Elt F) fd ((slotM a b h).view.read (Elt F) (slotBuf a b h v)) Finset.univ)
      = shapeCast S1x1x512x256 v shapeCasts_S512x256_S1x1x512x256 := by
  rw [slot_read_buf]
  exact slot_readAt_write a (b + 1) h' fd v

/-- The same load read through the slot itself is the block. -/
theorem slot_read_fwd (a b a' b' : ℕ) (h : ∀ i, (![a, b, 0, 0] : Fin 4 → Nat) i + S1x1x512x256.size i ≤ S8x4x512x256.size i) (h' : ∀ i, (![a', b', 0, 0] : Fin 4 → Nat) i + S1x1x512x256.size i ≤ S8x4x512x256.size i) (fd : RT F) (v : Blk F) :
    (slotM a' b' h').view.read (Elt F)
        ((slotM a' b' h').view.write (Elt F) fd ((slotM a b h).view.read (Elt F) (slotBuf a b h v)) Finset.univ) = v := by
  rw [slot_read_buf, slot_read_write]

theorem slot_congr (a b a' b' : ℕ) (h : ∀ i, (![a, b, 0, 0] : Fin 4 → Nat) i + S1x1x512x256.size i ≤ S8x4x512x256.size i) (h' : ∀ i, (![a', b', 0, 0] : Fin 4 → Nat) i + S1x1x512x256.size i ≤ S8x4x512x256.size i) (ha : a = a') (hb : b = b') : slotM a b h = slotM a' b' h' := by
  subst ha; subst hb; rfl

/-! ## Blocks of the result buffer -/

/-- Writing a 512 × 256 vector through a block's rectangle of the whole result buffer is writing it through the block. -/
theorem oblk_store_eq (off : Fin 2 → ℕ) (h : ∀ i, off i + S512x256.size i ≤ S2048x2048.size i) (f : OT F) (v : Blk F) :
    ∀ i ∈ (oblkM off h).view.set,
      View.write (Elt F) (oM.access (Rect.unit (s := S2048x2048) off S512x256.size h)) f v Finset.univ i = oblkBuf off h v i := by
  intro i hi
  obtain ⟨x, -, rfl⟩ := Finset.mem_map.mp hi
  unfold oblkBuf
  show View.write (Elt F) (oblkM off h).view f v Finset.univ ((oblkM off h).view.emb x)
    = View.write (Elt F) (oblkM off h).view _ v Finset.univ ((oblkM off h).view.emb x)
  rw [View.write_emb_of_mem _ _ (Finset.mem_univ x), View.write_emb_of_mem _ _ (Finset.mem_univ x)]

theorem oblk_read_buf (off : Fin 2 → ℕ) (h : ∀ i, off i + S512x256.size i ≤ S2048x2048.size i) (v : Blk F) :
    (oblkM off h).view.read (Elt F) (oblkBuf off h v) = v :=
  View.read_write_univ _ _

theorem oblk_read_write (off : Fin 2 → ℕ) (h : ∀ i, off i + S512x256.size i ≤ S2048x2048.size i) (fd : OT F) (v : Blk F) :
    (oblkM off h).view.read (Elt F) ((oblkM off h).view.write (Elt F) fd v Finset.univ) = v :=
  View.read_write_univ _ _

theorem oblk_write_eq (off : Fin 2 → ℕ) (h : ∀ i, off i + S512x256.size i ≤ S2048x2048.size i) (fd : OT F) (v : Blk F) :
    ∀ i ∈ (oblkM off h).view.set, (oblkM off h).view.write (Elt F) fd v Finset.univ i = oblkBuf off h v i :=
  oblk_store_eq off h fd v

/-- What lands in the block at `off` from a block at `off'` holding `v` is `v` in the block at `off` (whatever the two offsets). -/
theorem oblk_fwd (off off' : Fin 2 → ℕ) (h : ∀ i, off i + S512x256.size i ≤ S2048x2048.size i) (h' : ∀ i, off' i + S512x256.size i ≤ S2048x2048.size i) (fd : OT F) (v : Blk F) :
    ∀ i ∈ (oblkM off h).view.set,
      (oblkM off h).view.write (Elt F) fd ((oblkM off' h').view.read (Elt F) (oblkBuf off' h' v)) Finset.univ i
        = oblkBuf off h v i := by
  rw [oblk_read_buf]
  exact oblk_write_eq off h fd v

/-- A load of the block's rectangle through the whole result buffer, after `v` was written through the block, reads `v`. -/
theorem oblk_readAt_write (off : Fin 2 → ℕ) (h : ∀ i, off i + S512x256.size i ≤ S2048x2048.size i) (fd : OT F) (v : Blk F) :
    View.readAt (Elt F) oM.view (Rect.unit (s := S2048x2048) off S512x256.size h).toLoadRect
        ((oblkM off h).view.write (Elt F) fd v Finset.univ) = v :=
  View.read_write_univ _ _

/-! ## Equal offsets, equal blocks -/

theorem oblk_congr (off off' : Fin 2 → ℕ) (h : ∀ i, off i + S512x256.size i ≤ S2048x2048.size i) (h' : ∀ i, off' i + S512x256.size i ≤ S2048x2048.size i) (heq : off = off') : oblkM off h = oblkM off' h' := by
  subst heq; rfl

theorem oblkBuf_congr (off off' : Fin 2 → ℕ) (h : ∀ i, off i + S512x256.size i ≤ S2048x2048.size i) (h' : ∀ i, off' i + S512x256.size i ≤ S2048x2048.size i) (heq : off = off') (v : Blk F) : oblkBuf off h v = oblkBuf off' h' v := by
  subst heq; rfl

/-- The block at `off` holding `v` and the block at an equal `off'` holding `v` are one assertion. -/
theorem oblk_pointsTo_congr (c : Dev nD) (off off' : Fin 2 → ℕ) (h : ∀ i, off i + S512x256.size i ≤ S2048x2048.size i) (h' : ∀ i, off' i + S512x256.size i ≤ S2048x2048.size i) (heq : off = off') (q : PosShare TreeShare) (v : Blk F) :
    ((oblkM off h).view.loc (c : Thread nD τ) ↦[(oblkM off h).view.set]{q} oblkBuf off h v : sProp 𝕄)
      = ((oblkM off' h').view.loc (c : Thread nD τ) ↦[(oblkM off' h').view.set]{q} oblkBuf off' h' v : sProp 𝕄) := by
  subst heq; rfl

theorem slotBuf_congr (a b a' b' : ℕ) (h : ∀ i, (![a, b, 0, 0] : Fin 4 → Nat) i + S1x1x512x256.size i ≤ S8x4x512x256.size i) (h' : ∀ i, (![a', b', 0, 0] : Fin 4 → Nat) i + S1x1x512x256.size i ≤ S8x4x512x256.size i) (ha : a = a') (hb : b = b') (v : Blk F) : slotBuf a b h v = slotBuf a' b' h' v := by
  subst ha; subst hb; rfl

/-- Slot `(a, b)` holding `v` and the slot at equal numbers holding `v` are one assertion. -/
theorem slot_pointsTo_congr (c : Dev nD) (a b a' b' : ℕ) (h : ∀ i, (![a, b, 0, 0] : Fin 4 → Nat) i + S1x1x512x256.size i ≤ S8x4x512x256.size i) (h' : ∀ i, (![a', b', 0, 0] : Fin 4 → Nat) i + S1x1x512x256.size i ≤ S8x4x512x256.size i) (ha : a = a') (hb : b = b') (q : PosShare TreeShare) (v : Blk F) :
    ((slotM a b h).view.loc (c : Thread nD τ) ↦[(slotM a b h).view.set]{q} slotBuf a b h v : sProp 𝕄)
      = ((slotM a' b' h').view.loc (c : Thread nD τ) ↦[(slotM a' b' h').view.set]{q} slotBuf a' b' h' v : sProp 𝕄) := by
  subst ha; subst hb; rfl

/-- info: 'Cert.Kernel.P.slot_store_eq' depends on axioms: [propext, Classical.choice, Quot.sound] -/
#guard_msgs in #print axioms slot_store_eq

end Cert.Kernel.P
end
-- ==== Proof.KTables.lean ====
import proofs.«900901_g7700000000000902_dist_matmul_silu_kshard_i_m2048_n2048_k1024_v7x_i4_bf16_1_alg».proof.Proof.KProto
import proofs.«900901_g7700000000000902_dist_matmul_silu_kshard_i_m2048_n2048_k1024_v7x_i4_bf16_1_alg».proof.Proof.KSlotLemmas

/-!
The schedule's tables at the cells the program names.

A transfer semaphore is number `3 + 24 k + 3 a + b` of the pool: array `k` (reduce-scatter send, reduce-scatter
receive, all-gather send, all-gather receive), chain `a < 8`, step `b < 3`.  The program reaches it as entry
`(a, b)` of a row-major array of 8 × 3 consecutive semaphores, so the entry's number is `base + 3 a + b`.
From that number the schedule's duties, amounts and payloads at each such cell are read off, with every
buffer written out.
-/

noncomputable section

namespace Cert.Kernel.P

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The number of entry `(a, b)` of an array of 8 × 3 consecutive semaphores -/

/-- Row-major: entry `(a, b)` of the array laid from `base` is semaphore `base + 3 a + b`. -/
theorem csem_val (base : ℕ) (hbase : base + S8x3.numel ≤ 99) (a b : ℕ)
    (h : ∀ i, (![a, b] : Fin 2 → Nat) i + S1x1.size i ≤ S8x3.size i) :
    (csem (SemArray.consecutive base S8x3 hbase) a b h).val = base + 3 * a + b := by
  show base + ((S8x3.rowMajor ((Rect.unit (s := S8x3) ![a, b] S1x1.size h).emb
      (Shape.reshapeEquiv squeezes_S1x1_S_.numel_eq fun i => i.elim0)) : Fin _) : ℕ) = _
  generalize (Shape.reshapeEquiv squeezes_S1x1_S_.numel_eq fun i => i.elim0 : S1x1.Idx) = j
  rw [Shape.rowMajor_val_two]
  simp only [Rect.emb_apply]
  have h0 : (j 0).val < 1 := (j 0).isLt
  have h1 : (j 1).val < 1 := (j 1).isLt
  show base + ((a + 1 * (j 0).val) * 3 + (b + 1 * (j 1).val)) = base + 3 * a + b
  omega

theorem csem2_val (a b : ℕ) (h) : (csem cc0_scratch2 a b h).val = 3 + 3 * a + b := csem_val 3 _ a b h
theorem csem3_val (a b : ℕ) (h) : (csem cc0_scratch3 a b h).val = 27 + 3 * a + b := csem_val 27 _ a b h
theorem csem4_val (a b : ℕ) (h) : (csem cc0_scratch4 a b h).val = 51 + 3 * a + b := csem_val 51 _ a b h
theorem csem5_val (a b : ℕ) (h) : (csem cc0_scratch5 a b h).val = 75 + 3 * a + b := csem_val 75 _ a b h

/-- An entry's in-bounds evidence bounds its chain and its step. -/
theorem sem_lt {a b : ℕ} (h : ∀ i, (![a, b] : Fin 2 → Nat) i + S1x1.size i ≤ S8x3.size i) : a < 8 ∧ b < 3 := by
  have h0 : a + 1 ≤ 8 := h 0
  have h1 : b + 1 ≤ 3 := h 1
  omega

theorem dk_of (k a b : ℕ) (ha : a < 8) (hb : b < 3) : dk (3 + 24 * k + 3 * a + b) = k := by unfold dk; omega
theorem da_of (k a b : ℕ) (ha : a < 8) (hb : b < 3) : da (3 + 24 * k + 3 * a + b) = a := by unfold da; omega
theorem db_of (k a b : ℕ) (ha : a < 8) (hb : b < 3) : db (3 + 24 * k + 3 * a + b) = b := by unfold db; omega

section Tables
variable (fa : Dev nD → AT F) (fb : Dev nD → BT F) (c : Dev nD)

/-! ## Duties -/

theorem not_bar_dcell (q : DmaSem sig) : ¬ IsBar (dcell c q) := fun h => by cases h.2

theorem duties_bar : (ringRd fa fb).duties (barCell c) 0 = Finset.univ := by
  dsimp only [ringRd]; exact if_pos ⟨rfl, rfl, rfl⟩

/-- A transfer cell has the one duty `false`. -/
theorem duties_dcell (q : DmaSem sig) (hq : 3 ≤ q.val) : (ringRd fa fb).duties (dcell c q) 0 = {false} := by
  dsimp only [ringRd]; rw [if_neg (fun h => not_bar_dcell c q h.2)]; exact if_pos ⟨rfl, rfl, hq⟩

theorem duties_rsSend (a b : ℕ) (h) : (ringRd fa fb).duties (dcell c (csem cc0_scratch2 a b h)) 0 = {false} :=
  duties_dcell fa fb c _ (by rw [csem2_val]; omega)
theorem duties_rsRecv (a b : ℕ) (h) : (ringRd fa fb).duties (dcell c (csem cc0_scratch3 a b h)) 0 = {false} :=
  duties_dcell fa fb c _ (by rw [csem3_val]; omega)
theorem duties_agSend (a b : ℕ) (h) : (ringRd fa fb).duties (dcell c (csem cc0_scratch4 a b h)) 0 = {false} :=
  duties_dcell fa fb c _ (by rw [csem4_val]; omega)
theorem duties_agRecv (a b : ℕ) (h) : (ringRd fa fb).duties (dcell c (csem cc0_scratch5 a b h)) 0 = {false} :=
  duties_dcell fa fb c _ (by rw [csem5_val]; omega)

/-- Every cell has the one round 0. -/
theorem duties_later (g : GSem nD τ sig) : ∀ r, 1 ≤ r → (ringRd fa fb).duties g r = ∅ :=
  fun r hr => by dsimp only [ringRd]; rw [if_neg fun h => by omega, if_neg fun h => by omega]

/-! ## Amounts and expected units -/

theorem amount_bar (d : Bool) : (ringRd fa fb).amount (barCell c) 0 d = 1 := rfl

theorem amount_dcell (q : DmaSem sig) (d : Bool) :
    (ringRd fa fb).amount (dcell c q) 0 d = if dk q.val < 2 then Nrs else Nag := rfl

theorem amount_rsSend (a b : ℕ) (h) (d : Bool) : (ringRd fa fb).amount (dcell c (csem cc0_scratch2 a b h)) 0 d = Nrs := by
  obtain ⟨ha, hb⟩ := sem_lt h
  rw [amount_dcell, csem2_val]; exact if_pos (by unfold dk; omega)
theorem amount_rsRecv (a b : ℕ) (h) (d : Bool) : (ringRd fa fb).amount (dcell c (csem cc0_scratch3 a b h)) 0 d = Nrs := by
  obtain ⟨ha, hb⟩ := sem_lt h
  rw [amount_dcell, csem3_val]; exact if_pos (by unfold dk; omega)
theorem amount_agSend (a b : ℕ) (h) (d : Bool) : (ringRd fa fb).amount (dcell c (csem cc0_scratch4 a b h)) 0 d = Nag := by
  obtain ⟨ha, hb⟩ := sem_lt h
  rw [amount_dcell, csem4_val]; exact if_neg (by unfold dk; omega)
theorem amount_agRecv (a b : ℕ) (h) (d : Bool) : (ringRd fa fb).amount (dcell c (csem cc0_scratch5 a b h)) 0 d = Nag := by
  obtain ⟨ha, hb⟩ := sem_lt h
  rw [amount_dcell, csem5_val]; exact if_neg (by unfold dk; omega)

theorem expect_bar : (ringRd fa fb).expect (barCell c) 0 = 2 := by
  unfold Schedule.expect Schedule.amountOf
  rw [duties_bar, Finset.sum_congr rfl fun d _ => amount_bar fa fb c d, Finset.sum_const, Finset.card_univ,
    Fintype.card_bool, smul_eq_mul]
theorem expect_rsSend (a b : ℕ) (h) : (ringRd fa fb).expect (dcell c (csem cc0_scratch2 a b h)) 0 = Nrs := by
  unfold Schedule.expect Schedule.amountOf; rw [duties_rsSend, Finset.sum_singleton, amount_rsSend]
theorem expect_rsRecv (a b : ℕ) (h) : (ringRd fa fb).expect (dcell c (csem cc0_scratch3 a b h)) 0 = Nrs := by
  unfold Schedule.expect Schedule.amountOf; rw [duties_rsRecv, Finset.sum_singleton, amount_rsRecv]
theorem expect_agSend (a b : ℕ) (h) : (ringRd fa fb).expect (dcell c (csem cc0_scratch4 a b h)) 0 = Nag := by
  unfold Schedule.expect Schedule.amountOf; rw [duties_agSend, Finset.sum_singleton, amount_agSend]
theorem expect_agRecv (a b : ℕ) (h) : (ringRd fa fb).expect (dcell c (csem cc0_scratch5 a b h)) 0 = Nag := by
  unfold Schedule.expect Schedule.amountOf; rw [duties_agRecv, Finset.sum_singleton, amount_agRecv]

/-! ## Payloads of a device's own transfer cells -/

theorem payload_dcell (q : DmaSem sig) (d : Bool) : (ringRd fa fb).payload (dcell c q) 0 d = dmaPay fa fb c q.val := rfl

omit fa fb in
theorem rsSendPay_congr {a a' b b' : ℕ} (ea : a = a') (eb : b = b') (ha hb ha' hb') :
    rsSendPay (F := F) c a b ha hb = rsSendPay c a' b' ha' hb' := by subst ea eb; rfl
theorem rsRecvPay_congr {a a' b b' : ℕ} (ea : a = a') (eb : b = b') (ha hb ha' hb') :
    rsRecvPay fa fb c a b ha hb = rsRecvPay fa fb c a' b' ha' hb' := by subst ea eb; rfl
theorem agSendPay_congr {a a' b b' : ℕ} (ea : a = a') (eb : b = b') (ha hb ha' hb') :
    agSendPay fa fb c a b ha hb = agSendPay fa fb c a' b' ha' hb' := by subst ea eb; rfl
theorem agRecvPay_congr {a a' b b' : ℕ} (ea : a = a') (eb : b = b') (ha hb ha' hb') :
    agRecvPay fa fb c a b ha hb = agRecvPay fa fb c a' b' ha' hb' := by subst ea eb; rfl

/-- A transfer cell's payload by its array, chain and step. -/
theorem dmaPay_rsSend (a b : ℕ) (ha : a < 8) (hb : b < 3) : dmaPay fa fb c (3 + 3 * a + b) = rsSendPay c a b ha hb := by
  unfold dmaPay; rw [if_pos (by unfold dk; omega)]
  exact rsSendPay_congr c (by unfold da; omega) (by unfold db; omega) _ _ _ _
theorem dmaPay_rsRecv (a b : ℕ) (ha : a < 8) (hb : b < 3) : dmaPay fa fb c (27 + 3 * a + b) = rsRecvPay fa fb c a b ha hb := by
  unfold dmaPay; rw [if_neg (by unfold dk; omega), if_pos (by unfold dk; omega)]
  exact rsRecvPay_congr fa fb c (by unfold da; omega) (by unfold db; omega) _ _ _ _
theorem dmaPay_agSend (a b : ℕ) (ha : a < 8) (hb : b < 3) : dmaPay fa fb c (51 + 3 * a + b) = agSendPay fa fb c a b ha hb := by
  unfold dmaPay; rw [if_neg (by unfold dk; omega), if_neg (by unfold dk; omega), if_pos (by unfold dk; omega)]
  exact agSendPay_congr fa fb c (by unfold da; omega) (by unfold db; omega) _ _ _ _
theorem dmaPay_agRecv (a b : ℕ) (ha : a < 8) (hb : b < 3) : dmaPay fa fb c (75 + 3 * a + b) = agRecvPay fa fb c a b ha hb := by
  unfold dmaPay; rw [if_neg (by unfold dk; omega), if_neg (by unfold dk; omega), if_neg (by unfold dk; omega)]
  exact agRecvPay_congr fa fb c (by unfold da; omega) (by unfold db; omega) _ _ _ _

/-- The reduce-scatter send cell `(a, b)`: slot `(a, b)` back, at some contents. -/
theorem payload_rsSend (a b : ℕ) (ha : a < 8) (hb : b < 3) (h) (d : Bool) :
    (ringRd fa fb).payload (dcell c (csem cc0_scratch2 a b h)) 0 d =
      (iprop(∃ f : Buf (Elt F) ((slotM a b (slot_inb a b ha (by omega)) : Memref sig .tc .vmem S512x256 .bf16).view.loc (c : Thread nD τ)),
        (slotM a b (slot_inb a b ha (by omega)) : Memref sig .tc .vmem S512x256 .bf16).view.loc (c : Thread nD τ)
          ↦[(slotM a b (slot_inb a b ha (by omega)) : Memref sig .tc .vmem S512x256 .bf16).view.set]{fullShare} f) : sProp 𝕄) := by
  rw [payload_dcell, csem2_val, dmaPay_rsSend fa fb c a b ha hb]; rfl

/-- The reduce-scatter receive cell `(a, b)`: slot `(a, b + 1)` holding what the sending device's slot `(a, b)` held. -/
theorem payload_rsRecv (a b : ℕ) (ha : a < 8) (hb : b < 3) (h) (d : Bool) :
    (ringRd fa fb).payload (dcell c (csem cc0_scratch3 a b h)) 0 d =
      (iprop(∃ fd : Buf (Elt F) ((slotM a (b + 1) (slot_inb a (b + 1) ha (by omega)) : Memref sig .tc .vmem S512x256 .bf16).view.loc (c : Thread nD τ)),
        (slotM a (b + 1) (slot_inb a (b + 1) ha (by omega)) : Memref sig .tc .vmem S512x256 .bf16).view.loc (c : Thread nD τ)
          ↦[(slotM a (b + 1) (slot_inb a (b + 1) ha (by omega)) : Memref sig .tc .vmem S512x256 .bf16).view.set]{fullShare}
            ((slotM a (b + 1) (slot_inb a (b + 1) ha (by omega)) : Memref sig .tc .vmem S512x256 .bf16).view.write (Elt F) fd
              ((slotM a b (slot_inb a b ha (by omega)) : Memref sig .tc .vmem S512x256 .bf16).view.read (Elt F)
                (slotBuf a b (slot_inb a b ha (by omega)) (sent fa fb b (sdev a c) a ha))) Finset.univ)) : sProp 𝕄) := by
  rw [payload_dcell, csem3_val, dmaPay_rsRecv fa fb c a b ha hb]; rfl

/-- The all-gather send cell `(a, b)`: the sent block back, as it was. -/
theorem payload_agSend (a b : ℕ) (ha : a < 8) (hb : b < 3) (h) (d : Bool) :
    (ringRd fa fb).payload (dcell c (csem cc0_scratch4 a b h)) 0 d =
      ((oblkM (rowOff c (agShift a b) a) (rowOff_inb c _ a ha) : Memref sig .tc .vmem S512x256 .bf16).view.loc (c : Thread nD τ)
        ↦[(oblkM (rowOff c (agShift a b) a) (rowOff_inb c _ a ha) : Memref sig .tc .vmem S512x256 .bf16).view.set]{fullShare}
          oblkBuf (rowOff c (agShift a b) a) (rowOff_inb c _ a ha) (outBlk fa fb (orig a b c) a ha) : sProp 𝕄) := by
  rw [payload_dcell, csem4_val, dmaPay_agSend fa fb c a b ha hb]; rfl

/-- The all-gather receive cell `(a, b)`: the block one hop further back, holding what the sending device's block held. -/
theorem payload_agRecv (a b : ℕ) (ha : a < 8) (hb : b < 3) (h) (d : Bool) :
    (ringRd fa fb).payload (dcell c (csem cc0_scratch5 a b h)) 0 d =
      (iprop(∃ fd : Buf (Elt F) ((oblkM (rowOff c (agShift a (b + 1)) a) (rowOff_inb c _ a ha) : Memref sig .tc .vmem S512x256 .bf16).view.loc (c : Thread nD τ)),
        (oblkM (rowOff c (agShift a (b + 1)) a) (rowOff_inb c _ a ha) : Memref sig .tc .vmem S512x256 .bf16).view.loc (c : Thread nD τ)
          ↦[(oblkM (rowOff c (agShift a (b + 1)) a) (rowOff_inb c _ a ha) : Memref sig .tc .vmem S512x256 .bf16).view.set]{fullShare}
            ((oblkM (rowOff c (agShift a (b + 1)) a) (rowOff_inb c _ a ha) : Memref sig .tc .vmem S512x256 .bf16).view.write (Elt F) fd
              ((oblkM (rowOff (sdev a c) (agShift a b) a) (rowOff_inb _ _ a ha) : Memref sig .tc .vmem S512x256 .bf16).view.read (Elt F)
                (oblkBuf (rowOff (sdev a c) (agShift a b) a) (rowOff_inb _ _ a ha) (outBlk fa fb (orig a b (sdev a c)) a ha))) Finset.univ)) : sProp 𝕄) := by
  rw [payload_dcell, csem5_val, dmaPay_agRecv fa fb c a b ha hb]; rfl

/-! ## What a wait on a transfer cell returns: the round's payloads, none taken before -/

theorem rest_rsSend (a b : ℕ) (ha : a < 8) (hb : b < 3) (h) :
    bigSep ((ringRd fa fb).duties (dcell c (csem cc0_scratch2 a b h)) 0 \ ∅)
        (fun d => (ringRd fa fb).payload (dcell c (csem cc0_scratch2 a b h)) 0 d) =
      (iprop(∃ f : Buf (Elt F) ((slotM a b (slot_inb a b ha (by omega)) : Memref sig .tc .vmem S512x256 .bf16).view.loc (c : Thread nD τ)),
        (slotM a b (slot_inb a b ha (by omega)) : Memref sig .tc .vmem S512x256 .bf16).view.loc (c : Thread nD τ)
          ↦[(slotM a b (slot_inb a b ha (by omega)) : Memref sig .tc .vmem S512x256 .bf16).view.set]{fullShare} f) : sProp 𝕄) := by
  rw [duties_rsSend, Finset.sdiff_empty, bigSep_singleton, payload_rsSend fa fb c a b ha hb]

theorem rest_rsRecv (a b : ℕ) (ha : a < 8) (hb : b < 3) (h) :
    bigSep ((ringRd fa fb).duties (dcell c (csem cc0_scratch3 a b h)) 0 \ ∅)
        (fun d => (ringRd fa fb).payload (dcell c (csem cc0_scratch3 a b h)) 0 d) =
      (iprop(∃ fd : Buf (Elt F) ((slotM a (b + 1) (slot_inb a (b + 1) ha (by omega)) : Memref sig .tc .vmem S512x256 .bf16).view.loc (c : Thread nD τ)),
        (slotM a (b + 1) (slot_inb a (b + 1) ha (by omega)) : Memref sig .tc .vmem S512x256 .bf16).view.loc (c : Thread nD τ)
          ↦[(slotM a (b + 1) (slot_inb a (b + 1) ha (by omega)) : Memref sig .tc .vmem S512x256 .bf16).view.set]{fullShare}
            ((slotM a (b + 1) (slot_inb a (b + 1) ha (by omega)) : Memref sig .tc .vmem S512x256 .bf16).view.write (Elt F) fd
              ((slotM a b (slot_inb a b ha (by omega)) : Memref sig .tc .vmem S512x256 .bf16).view.read (Elt F)
                (slotBuf a b (slot_inb a b ha (by omega)) (sent fa fb b (sdev a c) a ha))) Finset.univ)) : sProp 𝕄) := by
  rw [duties_rsRecv, Finset.sdiff_empty, bigSep_singleton, payload_rsRecv fa fb c a b ha hb]

theorem rest_agSend (a b : ℕ) (ha : a < 8) (hb : b < 3) (h) :
    bigSep ((ringRd fa fb).duties (dcell c (csem cc0_scratch4 a b h)) 0 \ ∅)
        (fun d => (ringRd fa fb).payload (dcell c (csem cc0_scratch4 a b h)) 0 d) =
      ((oblkM (rowOff c (agShift a b) a) (rowOff_inb c _ a ha) : Memref sig .tc .vmem S512x256 .bf16).view.loc (c : Thread nD τ)
        ↦[(oblkM (rowOff c (agShift a b) a) (rowOff_inb c _ a ha) : Memref sig .tc .vmem S512x256 .bf16).view.set]{fullShare}
          oblkBuf (rowOff c (agShift a b) a) (rowOff_inb c _ a ha) (outBlk fa fb (orig a b c) a ha) : sProp 𝕄) := by
  rw [duties_agSend, Finset.sdiff_empty, bigSep_singleton, payload_agSend fa fb c a b ha hb]

theorem rest_agRecv (a b : ℕ) (ha : a < 8) (hb : b < 3) (h) :
    bigSep ((ringRd fa fb).duties (dcell c (csem cc0_scratch5 a b h)) 0 \ ∅)
        (fun d => (ringRd fa fb).payload (dcell c (csem cc0_scratch5 a b h)) 0 d) =
      (iprop(∃ fd : Buf (Elt F) ((oblkM (rowOff c (agShift a (b + 1)) a) (rowOff_inb c _ a ha) : Memref sig .tc .vmem S512x256 .bf16).view.loc (c : Thread nD τ)),
        (oblkM (rowOff c (agShift a (b + 1)) a) (rowOff_inb c _ a ha) : Memref sig .tc .vmem S512x256 .bf16).view.loc (c : Thread nD τ)
          ↦[(oblkM (rowOff c (agShift a (b + 1)) a) (rowOff_inb c _ a ha) : Memref sig .tc .vmem S512x256 .bf16).view.set]{fullShare}
            ((oblkM (rowOff c (agShift a (b + 1)) a) (rowOff_inb c _ a ha) : Memref sig .tc .vmem S512x256 .bf16).view.write (Elt F) fd
              ((oblkM (rowOff (sdev a c) (agShift a b) a) (rowOff_inb _ _ a ha) : Memref sig .tc .vmem S512x256 .bf16).view.read (Elt F)
                (oblkBuf (rowOff (sdev a c) (agShift a b) a) (rowOff_inb _ _ a ha) (outBlk fa fb (orig a b (sdev a c)) a ha))) Finset.univ)) : sProp 𝕄) := by
  rw [duties_agRecv, Finset.sdiff_empty, bigSep_singleton, payload_agRecv fa fb c a b ha hb]

/-! ## Payloads of a neighbour's receive cells, in the sending device's terms

Chains 0–3 travel to the next device, whose sender is this one; chains 4–7 to the previous one. -/

omit fa fb in
theorem sdev_nxt (a : ℕ) (h4 : a < 4) : sdev a (nxt c) = c := by unfold sdev; rw [if_pos h4, prv_nxt]
omit fa fb in
theorem sdev_prv (a : ℕ) (h4 : 4 ≤ a) : sdev a (prv c) = c := by unfold sdev; rw [if_neg (by omega), nxt_prv]

theorem payload_rsRecv_nxt (a b : ℕ) (ha : a < 8) (hb : b < 3) (h4 : a < 4) (h) (d : Bool) :
    (ringRd fa fb).payload (dcell (nxt c) (csem cc0_scratch3 a b h)) 0 d =
      (iprop(∃ fd : Buf (Elt F) ((slotM a (b + 1) (slot_inb a (b + 1) ha (by omega)) : Memref sig .tc .vmem S512x256 .bf16).view.loc (nxt c : Thread nD τ)),
        (slotM a (b + 1) (slot_inb a (b + 1) ha (by omega)) : Memref sig .tc .vmem S512x256 .bf16).view.loc (nxt c : Thread nD τ)
          ↦[(slotM a (b + 1) (slot_inb a (b + 1) ha (by omega)) : Memref sig .tc .vmem S512x256 .bf16).view.set]{fullShare}
            ((slotM a (b + 1) (slot_inb a (b + 1) ha (by omega)) : Memref sig .tc .vmem S512x256 .bf16).view.write (Elt F) fd
              ((slotM a b (slot_inb a b ha (by omega)) : Memref sig .tc .vmem S512x256 .bf16).view.read (Elt F)
                (slotBuf a b (slot_inb a b ha (by omega)) (sent fa fb b (c) a ha))) Finset.univ)) : sProp 𝕄) := by
  rw [payload_rsRecv fa fb (nxt c) a b ha hb, sdev_nxt c a h4]

theorem payload_rsRecv_prv (a b : ℕ) (ha : a < 8) (hb : b < 3) (h4 : 4 ≤ a) (h) (d : Bool) :
    (ringRd fa fb).payload (dcell (prv c) (csem cc0_scratch3 a b h)) 0 d =
      (iprop(∃ fd : Buf (Elt F) ((slotM a (b + 1) (slot_inb a (b + 1) ha (by omega)) : Memref sig .tc .vmem S512x256 .bf16).view.loc (prv c : Thread nD τ)),
        (slotM a (b + 1) (slot_inb a (b + 1) ha (by omega)) : Memref sig .tc .vmem S512x256 .bf16).view.loc (prv c : Thread nD τ)
          ↦[(slotM a (b + 1) (slot_inb a (b + 1) ha (by omega)) : Memref sig .tc .vmem S512x256 .bf16).view.set]{fullShare}
            ((slotM a (b + 1) (slot_inb a (b + 1) ha (by omega)) : Memref sig .tc .vmem S512x256 .bf16).view.write (Elt F) fd
              ((slotM a b (slot_inb a b ha (by omega)) : Memref sig .tc .vmem S512x256 .bf16).view.read (Elt F)
                (slotBuf a b (slot_inb a b ha (by omega)) (sent fa fb b (c) a ha))) Finset.univ)) : sProp 𝕄) := by
  rw [payload_rsRecv fa fb (prv c) a b ha hb, sdev_prv c a h4]

theorem payload_agRecv_nxt (a b : ℕ) (ha : a < 8) (hb : b < 3) (h4 : a < 4) (h) (d : Bool) :
    (ringRd fa fb).payload (dcell (nxt c) (csem cc0_scratch5 a b h)) 0 d =
      (iprop(∃ fd : Buf (Elt F) ((oblkM (rowOff (nxt c) (agShift a (b + 1)) a) (rowOff_inb (nxt c) _ a ha) : Memref sig .tc .vmem S512x256 .bf16).view.loc (nxt c : Thread nD τ)),
        (oblkM (rowOff (nxt c) (agShift a (b + 1)) a) (rowOff_inb (nxt c) _ a ha) : Memref sig .tc .vmem S512x256 .bf16).view.loc (nxt c : Thread nD τ)
          ↦[(oblkM (rowOff (nxt c) (agShift a (b + 1)) a) (rowOff_inb (nxt c) _ a ha) : Memref sig .tc .vmem S512x256 .bf16).view.set]{fullShare}
            ((oblkM (rowOff (nxt c) (agShift a (b + 1)) a) (rowOff_inb (nxt c) _ a ha) : Memref sig .tc .vmem S512x256 .bf16).view.write (Elt F) fd
              ((oblkM (rowOff (c) (agShift a b) a) (rowOff_inb _ _ a ha) : Memref sig .tc .vmem S512x256 .bf16).view.read (Elt F)
                (oblkBuf (rowOff (c) (agShift a b) a) (rowOff_inb _ _ a ha) (outBlk fa fb (orig a b (c)) a ha))) Finset.univ)) : sProp 𝕄) := by
  rw [payload_agRecv fa fb (nxt c) a b ha hb, sdev_nxt c a h4]

theorem payload_agRecv_prv (a b : ℕ) (ha : a < 8) (hb : b < 3) (h4 : 4 ≤ a) (h) (d : Bool) :
    (ringRd fa fb).payload (dcell (prv c) (csem cc0_scratch5 a b h)) 0 d =
      (iprop(∃ fd : Buf (Elt F) ((oblkM (rowOff (prv c) (agShift a (b + 1)) a) (rowOff_inb (prv c) _ a ha) : Memref sig .tc .vmem S512x256 .bf16).view.loc (prv c : Thread nD τ)),
        (oblkM (rowOff (prv c) (agShift a (b + 1)) a) (rowOff_inb (prv c) _ a ha) : Memref sig .tc .vmem S512x256 .bf16).view.loc (prv c : Thread nD τ)
          ↦[(oblkM (rowOff (prv c) (agShift a (b + 1)) a) (rowOff_inb (prv c) _ a ha) : Memref sig .tc .vmem S512x256 .bf16).view.set]{fullShare}
            ((oblkM (rowOff (prv c) (agShift a (b + 1)) a) (rowOff_inb (prv c) _ a ha) : Memref sig .tc .vmem S512x256 .bf16).view.write (Elt F) fd
              ((oblkM (rowOff (c) (agShift a b) a) (rowOff_inb _ _ a ha) : Memref sig .tc .vmem S512x256 .bf16).view.read (Elt F)
                (oblkBuf (rowOff (c) (agShift a b) a) (rowOff_inb _ _ a ha) (outBlk fa fb (orig a b (c)) a ha))) Finset.univ)) : sProp 𝕄) := by
  rw [payload_agRecv fa fb (prv c) a b ha hb, sdev_prv c a h4]

omit fa fb in
/-- The block a neighbour receives copy `(a, b)` into is at the offsets of the block it is copied from: one hop
    along the chain moves the device index and the shift by one each, in opposite senses. -/
theorem rowOff_nxt_landing (a b : ℕ) (hb : b < 3) (h4 : a < 4) :
    rowOff (nxt c) (agShift a (b + 1)) a = rowOff c (agShift a b) a := by
  have e : chunk (nxt c) (agShift a (b + 1)) = chunk c (agShift a b) := by
    unfold agShift; rw [if_pos h4, if_pos h4, chunk_nxt]; unfold chunk; omega
  unfold rowOff; rw [e]
omit fa fb in
theorem rowOff_prv_landing (a b : ℕ) (hb : b < 3) (h4 : 4 ≤ a) :
    rowOff (prv c) (agShift a (b + 1)) a = rowOff c (agShift a b) a := by
  have e : chunk (prv c) (agShift a (b + 1)) = chunk c (agShift a b) := by
    unfold agShift; rw [if_neg (by omega), if_neg (by omega)]; unfold chunk; rw [prv_val]; unfold chunk; omega
  unfold rowOff; rw [e]

omit fa fb in
/-- A landing block's hand-over depends on its offsets only. -/
theorem landing_congr {off off' : Fin 2 → ℕ} (e : off = off') (hi hi') (t : Dev nD) (v : Blk F) :
    (iprop(∃ fd : Buf (Elt F) ((oblkM off hi : Memref sig .tc .vmem S512x256 .bf16).view.loc (t : Thread nD τ)),
        (oblkM off hi : Memref sig .tc .vmem S512x256 .bf16).view.loc (t : Thread nD τ)
          ↦[(oblkM off hi : Memref sig .tc .vmem S512x256 .bf16).view.set]{fullShare}
            ((oblkM off hi : Memref sig .tc .vmem S512x256 .bf16).view.write (Elt F) fd v Finset.univ)) : sProp 𝕄) =
      iprop(∃ fd : Buf (Elt F) ((oblkM off' hi' : Memref sig .tc .vmem S512x256 .bf16).view.loc (t : Thread nD τ)),
        (oblkM off' hi' : Memref sig .tc .vmem S512x256 .bf16).view.loc (t : Thread nD τ)
          ↦[(oblkM off' hi' : Memref sig .tc .vmem S512x256 .bf16).view.set]{fullShare}
            ((oblkM off' hi' : Memref sig .tc .vmem S512x256 .bf16).view.write (Elt F) fd v Finset.univ)) := by
  subst e; rfl

/-- The same payloads with the landing block at the sending device's own offsets. -/
theorem payload_agRecv_nxt' (a b : ℕ) (ha : a < 8) (hb : b < 3) (h4 : a < 4) (h) (d : Bool) :
    (ringRd fa fb).payload (dcell (nxt c) (csem cc0_scratch5 a b h)) 0 d =
      (iprop(∃ fd : Buf (Elt F) ((oblkM (rowOff c (agShift a b) a) (rowOff_inb c _ a ha) : Memref sig .tc .vmem S512x256 .bf16).view.loc (nxt c : Thread nD τ)),
        (oblkM (rowOff c (agShift a b) a) (rowOff_inb c _ a ha) : Memref sig .tc .vmem S512x256 .bf16).view.loc (nxt c : Thread nD τ)
          ↦[(oblkM (rowOff c (agShift a b) a) (rowOff_inb c _ a ha) : Memref sig .tc .vmem S512x256 .bf16).view.set]{fullShare}
            ((oblkM (rowOff c (agShift a b) a) (rowOff_inb c _ a ha) : Memref sig .tc .vmem S512x256 .bf16).view.write (Elt F) fd
              ((oblkM (rowOff (c) (agShift a b) a) (rowOff_inb _ _ a ha) : Memref sig .tc .vmem S512x256 .bf16).view.read (Elt F)
                (oblkBuf (rowOff (c) (agShift a b) a) (rowOff_inb _ _ a ha) (outBlk fa fb (orig a b (c)) a ha))) Finset.univ)) : sProp 𝕄) := by
  rw [payload_agRecv_nxt fa fb c a b ha hb h4]
  exact landing_congr (rowOff_nxt_landing c a b hb h4) _ _ _ _

theorem payload_agRecv_prv' (a b : ℕ) (ha : a < 8) (hb : b < 3) (h4 : 4 ≤ a) (h) (d : Bool) :
    (ringRd fa fb).payload (dcell (prv c) (csem cc0_scratch5 a b h)) 0 d =
      (iprop(∃ fd : Buf (Elt F) ((oblkM (rowOff c (agShift a b) a) (rowOff_inb c _ a ha) : Memref sig .tc .vmem S512x256 .bf16).view.loc (prv c : Thread nD τ)),
        (oblkM (rowOff c (agShift a b) a) (rowOff_inb c _ a ha) : Memref sig .tc .vmem S512x256 .bf16).view.loc (prv c : Thread nD τ)
          ↦[(oblkM (rowOff c (agShift a b) a) (rowOff_inb c _ a ha) : Memref sig .tc .vmem S512x256 .bf16).view.set]{fullShare}
            ((oblkM (rowOff c (agShift a b) a) (rowOff_inb c _ a ha) : Memref sig .tc .vmem S512x256 .bf16).view.write (Elt F) fd
              ((oblkM (rowOff (c) (agShift a b) a) (rowOff_inb _ _ a ha) : Memref sig .tc .vmem S512x256 .bf16).view.read (Elt F)
                (oblkBuf (rowOff (c) (agShift a b) a) (rowOff_inb _ _ a ha) (outBlk fa fb (orig a b (c)) a ha))) Finset.univ)) : sProp 𝕄) := by
  rw [payload_agRecv_prv fa fb c a b ha hb h4]
  exact landing_congr (rowOff_prv_landing c a b hb h4) _ _ _ _

/-! ## The same payloads with a block's offsets spelt otherwise

A block of the result buffer is determined by its offsets; the program computes them from the device's index, and
the closed form of that computation is `rowOff` at the copy's shift.  Each lemma takes the other spelling `off`
with the equation. -/

theorem payload_agSend_at (a b : ℕ) (ha : a < 8) (hb : b < 3) (h) (d : Bool) (off : Fin 2 → ℕ) (hi)
    (e : off = rowOff c (agShift a b) a) :
    (ringRd fa fb).payload (dcell c (csem cc0_scratch4 a b h)) 0 d =
      ((oblkM (off) (hi) : Memref sig .tc .vmem S512x256 .bf16).view.loc (c : Thread nD τ)
        ↦[(oblkM (off) (hi) : Memref sig .tc .vmem S512x256 .bf16).view.set]{fullShare}
          oblkBuf (off) (hi) (outBlk fa fb (orig a b c) a ha) : sProp 𝕄) := by
  subst e; exact payload_agSend fa fb c a b ha hb h d

theorem payload_agRecv_nxt_at (a b : ℕ) (ha : a < 8) (hb : b < 3) (h4 : a < 4) (h) (d : Bool) (off : Fin 2 → ℕ) (hi)
    (e : off = rowOff c (agShift a b) a) :
    (ringRd fa fb).payload (dcell (nxt c) (csem cc0_scratch5 a b h)) 0 d =
      (iprop(∃ fd : Buf (Elt F) ((oblkM (off) (hi) : Memref sig .tc .vmem S512x256 .bf16).view.loc (nxt c : Thread nD τ)),
        (oblkM (off) (hi) : Memref sig .tc .vmem S512x256 .bf16).view.loc (nxt c : Thread nD τ)
          ↦[(oblkM (off) (hi) : Memref sig .tc .vmem S512x256 .bf16).view.set]{fullShare}
            ((oblkM (off) (hi) : Memref sig .tc .vmem S512x256 .bf16).view.write (Elt F) fd
              ((oblkM (off) (hi) : Memref sig .tc .vmem S512x256 .bf16).view.read (Elt F)
                (oblkBuf (off) (hi) (outBlk fa fb (orig a b c) a ha))) Finset.univ)) : sProp 𝕄) := by
  subst e; exact payload_agRecv_nxt' fa fb c a b ha hb h4 h d

theorem payload_agRecv_prv_at (a b : ℕ) (ha : a < 8) (hb : b < 3) (h4 : 4 ≤ a) (h) (d : Bool) (off : Fin 2 → ℕ) (hi)
    (e : off = rowOff c (agShift a b) a) :
    (ringRd fa fb).payload (dcell (prv c) (csem cc0_scratch5 a b h)) 0 d =
      (iprop(∃ fd : Buf (Elt F) ((oblkM (off) (hi) : Memref sig .tc .vmem S512x256 .bf16).view.loc (prv c : Thread nD τ)),
        (oblkM (off) (hi) : Memref sig .tc .vmem S512x256 .bf16).view.loc (prv c : Thread nD τ)
          ↦[(oblkM (off) (hi) : Memref sig .tc .vmem S512x256 .bf16).view.set]{fullShare}
            ((oblkM (off) (hi) : Memref sig .tc .vmem S512x256 .bf16).view.write (Elt F) fd
              ((oblkM (off) (hi) : Memref sig .tc .vmem S512x256 .bf16).view.read (Elt F)
                (oblkBuf (off) (hi) (outBlk fa fb (orig a b c) a ha))) Finset.univ)) : sProp 𝕄) := by
  subst e; exact payload_agRecv_prv' fa fb c a b ha hb h4 h d

/-- A device's own all-gather receive cell with the landing block's offsets spelt `off`. -/
theorem payload_agRecv_at (a b : ℕ) (ha : a < 8) (hb : b < 3) (h) (d : Bool) (off : Fin 2 → ℕ) (hi)
    (e : off = rowOff c (agShift a (b + 1)) a) :
    (ringRd fa fb).payload (dcell c (csem cc0_scratch5 a b h)) 0 d =
      (iprop(∃ fd : Buf (Elt F) ((oblkM (off) (hi) : Memref sig .tc .vmem S512x256 .bf16).view.loc (c : Thread nD τ)),
        (oblkM (off) (hi) : Memref sig .tc .vmem S512x256 .bf16).view.loc (c : Thread nD τ)
          ↦[(oblkM (off) (hi) : Memref sig .tc .vmem S512x256 .bf16).view.set]{fullShare}
            ((oblkM (off) (hi) : Memref sig .tc .vmem S512x256 .bf16).view.write (Elt F) fd
              ((oblkM (rowOff (sdev a c) (agShift a b) a) (rowOff_inb _ _ a ha) : Memref sig .tc .vmem S512x256 .bf16).view.read (Elt F)
                (oblkBuf (rowOff (sdev a c) (agShift a b) a) (rowOff_inb _ _ a ha) (outBlk fa fb (orig a b (sdev a c)) a ha))) Finset.univ)) : sProp 𝕄) := by
  subst e; exact payload_agRecv fa fb c a b ha hb h d

/-! ## The barrier cell -/

theorem payload_bar (d : Bool) : (ringRd fa fb).payload (barCell c) 0 d = barPay c d := by
  dsimp only [ringRd]; exact if_pos rfl

omit fa fb c in
/-- One chain-and-step's share of a barrier unit depends on the neighbour, the chain, the step and the block's offsets only. -/
theorem barLeaf_congr (t t' : Dev nD) (et : t = t') (a a' : ℕ) (ea : a = a') (b b' : ℕ) (eb : b = b')
    (off off' : Fin 2 → ℕ) (eo : off = off') (hs hs' ho ho' h3 h3' h5 h5') :
    (iprop((∃ f : Buf (Elt F) ((slotM (a) (b + 1) (hs) : Memref sig .tc .vmem S512x256 .bf16).view.loc (t : Thread nD τ)),
        (slotM (a) (b + 1) (hs) : Memref sig .tc .vmem S512x256 .bf16).view.loc (t : Thread nD τ)
          ↦[(slotM (a) (b + 1) (hs) : Memref sig .tc .vmem S512x256 .bf16).view.set]{fullShare} f)
      ∗ (∃ f : Buf (Elt F) ((oblkM (off) (ho) : Memref sig .tc .vmem S512x256 .bf16).view.loc (t : Thread nD τ)),
        (oblkM (off) (ho) : Memref sig .tc .vmem S512x256 .bf16).view.loc (t : Thread nD τ)
          ↦[(oblkM (off) (ho) : Memref sig .tc .vmem S512x256 .bf16).view.set]{fullShare} f)
      ∗ reached ER (dcell (t) (csem cc0_scratch3 (a) (b) (h3))) 0
      ∗ reached ER (dcell (t) (csem cc0_scratch5 (a) (b) (h5))) 0) : sProp 𝕄) =
      iprop((∃ f : Buf (Elt F) ((slotM (a') (b' + 1) (hs') : Memref sig .tc .vmem S512x256 .bf16).view.loc (t' : Thread nD τ)),
        (slotM (a') (b' + 1) (hs') : Memref sig .tc .vmem S512x256 .bf16).view.loc (t' : Thread nD τ)
          ↦[(slotM (a') (b' + 1) (hs') : Memref sig .tc .vmem S512x256 .bf16).view.set]{fullShare} f)
      ∗ (∃ f : Buf (Elt F) ((oblkM (off') (ho') : Memref sig .tc .vmem S512x256 .bf16).view.loc (t' : Thread nD τ)),
        (oblkM (off') (ho') : Memref sig .tc .vmem S512x256 .bf16).view.loc (t' : Thread nD τ)
          ↦[(oblkM (off') (ho') : Memref sig .tc .vmem S512x256 .bf16).view.set]{fullShare} f)
      ∗ reached ER (dcell (t') (csem cc0_scratch3 (a') (b') (h3'))) 0
      ∗ reached ER (dcell (t') (csem cc0_scratch5 (a') (b') (h5'))) 0) := by
  subst et ea eb eo; rfl

omit fa fb in
/-- The blocks the previous device will copy into this one, at this device's offsets (chains 0–3). -/
theorem rowOff_prv_pay (a b : ℕ) (hb : b < 3) (h4 : a < 4) : rowOff (prv c) (agShift a b) a = rowOff c (3 - b) a := by
  have e : chunk (prv c) (agShift a b) = chunk c (3 - b) := by
    unfold agShift; rw [if_pos h4]; unfold chunk; rw [prv_val]; unfold chunk; omega
  unfold rowOff; rw [e]
omit fa fb in
/-- The blocks the next device will copy into this one, at this device's offsets (chains 4–7). -/
theorem rowOff_nxt_pay (a b : ℕ) (hb : b < 3) (h4 : 4 ≤ a) : rowOff (nxt c) (agShift a b) a = rowOff c (b + 1) a := by
  have e : chunk (nxt c) (agShift a b) = chunk c (b + 1) := by
    unfold agShift; rw [if_neg (by omega)]; unfold chunk; rw [nxt_val]; unfold chunk; omega
  unfold rowOff; rw [e]

/-- The barrier round's two payloads, the next device's first. -/
theorem rest_bar :
    bigSep ((ringRd fa fb).duties (barCell c) 0 \ ∅) (fun d => (ringRd fa fb).payload (barCell c) 0 d) =
      iprop(barPay (F := F) c true ∗ barPay c false) := by
  rw [duties_bar, Finset.sdiff_empty, bigSep_univ_eq_bigSepL [true, false] (by decide) (by decide)]
  show iprop((ringRd fa fb).payload (barCell c) 0 true ∗ (ringRd fa fb).payload (barCell c) 0 false) = _
  rw [payload_bar, payload_bar]

omit fa fb c in
theorem sep_congr {P P' Q Q' : sProp 𝕄} (hP : P = P') (hQ : Q = Q') : iprop(P ∗ Q) = iprop(P' ∗ Q') := by rw [hP, hQ]

/-! ## Every payload can be stored in an invariant -/

instance ringRd_payload_storable (g : GSem nD τ sig) (r : ℕ) (d : Bool) :
    BI.Storable (upEmb : UEmb _ 𝕄) ((ringRd fa fb).payload g r d) := by
  obtain ⟨t, s⟩ := g
  cases s with
  | reg s =>
    show BI.Storable upEmb (if s = barS then barPay t.1 d else iprop(emp))
    unfold barPay
    split <;> infer_instance
  | dma q =>
    show BI.Storable upEmb (dmaPay fa fb t.1 q.val)
    unfold dmaPay rsSendPay rsRecvPay agSendPay agRecvPay
    (repeat' split) <;> infer_instance

end Tables

end Cert.Kernel.P

end
-- ==== Proof.KLaunch.lean ====
import proofs.«900901_g7700000000000902_dist_matmul_silu_kshard_i_m2048_n2048_k1024_v7x_i4_bf16_1_alg».proof.Proof.KGhost
import proofs.«900901_g7700000000000902_dist_matmul_silu_kshard_i_m2048_n2048_k1024_v7x_i4_bf16_1_alg».proof.Proof.KTables

/-!
The launch of the ring kernel on the four devices.

Given one device's body, proved from what that device holds at its start to what it hands back, every weakly fair execution
of the whole program terminates with each device's arrays at the computed contents. The launch mints, for every device, the
state of its 97 cells (its barrier cell and 96 transfer cells) and 98 duty tokens (the barrier cell's two, one per transfer
cell), allocates every cell's invariant for all devices at once, and deals the tokens to the devices that pay the duties: a
barrier cell's `true` token to the next device and its `false` token to the previous one, a receive cell's token to the device
the chain comes from, a send cell's token to its owner. What the devices owe at launch comes back to each receive cell's owner
as that cell's credit, because each receive cell is paid by exactly one copy of exactly one device; and a barrier cell's two
units come from its two neighbours. The pipeline's own waits are on cells at level 0, below everything a device owes; the
body's waits are covered by a ledger over the copies still to be issued.
-/

noncomputable section

namespace Cert.Kernel.P

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation, from one device's body -/

theorem bigSep_W (Φ : Fin cfg0.W → sProp 𝕄) : bigSep Finset.univ Φ = iprop(Φ (0 : Fin 3) ∗ Φ (1 : Fin 3) ∗ Φ (2 : Fin 3)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

def bodyPre' (c : Dev nD) : sProp 𝕄 :=
  iprop(Φ₀ (xstgA m ρ) (xstgB m ρ) c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

/-- The library's body obligation on device `c`, from the body's statement. -/
theorem body_obligation (hbody : SoundBody m ρ) (c : Dev nD) :
    BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5) (fun _ => bodyPost m ρ c)
  unfold bodyPre' Φ₀ start
  iintro ⟨⟨⟨⟨%K, Hg⟩, Hrest⟩, Hs0, Hs1⟩, Ho, Hx⟩
  iapply (hbody K c fun _ => bodyPost m ρ c)
  unfold bodyPre
  isplitr []
  · isplitl [Hg Hrest Hs0 Hs1]
    · isplitl [Hg]; · iexact Hg
      icases Hrest with ⟨H1, H2, H3, H4⟩
      isplitl [H1]; · iexact H1
      isplitl [H2]; · iexact H2
      isplitl [H3]; · iexact H3
      isplitl [H4]; · iexact H4
      isplitl [Hs0]; · iexact Hs0
      iexact Hs1
    isplitl [Ho]; · iexact Ho
    iexact Hx
  · iintro H; iexact H

/-! ## The kernel's own semaphores -/

/-- The 96 transfer semaphores, numbers 3 … 98. -/
abbrev osem : Fin 96 → SemLoc sig := fun i => .dma (semN (i.val + 3) (by omega))

theorem ownSemFacts : Pipeline.OwnSemFacts cfg0.spec osem := by decide

/-! ## The cells and tokens minted at launch -/

/-- Semaphore `(a, b)` of array `k` is number `3 + 24 k + 3 a + b`. -/
theorem xcsem_val : ∀ (k : Fin 4) (a : Fin 8) (b : Fin 3),
    (csem (xarr k) a.val b.val (sem_inb _ _ a.isLt b.isLt)).val = 3 + 24 * k.val + 3 * a.val + b.val := by decide

/-- A device's own cells: its barrier cell, and one transfer cell per array, chain and step. -/
abbrev Cx : Type := Unit ⊕ (Fin 4 × Fin 8 × Fin 3)
abbrev ksem : Cx → SemLoc sig
  | .inl _ => .reg barS
  | .inr kab => .dma (csem (xarr kab.1) kab.2.1.val kab.2.2.val (sem_inb _ _ kab.2.1.isLt kab.2.2.isLt))
abbrev kcell (cx : Dev nD × Cx) : GSem nD τ sig := ((cx.1 : Thread nD τ), ksem cx.2)

theorem ksem_injective : Function.Injective ksem := by
  rintro (u | ⟨k, a, b⟩) (u' | ⟨k', a', b'⟩) h
  · rfl
  · cases h
  · cases h
  · have hq : csem (xarr k) a.val b.val (sem_inb _ _ a.isLt b.isLt) = csem (xarr k') a'.val b'.val (sem_inb _ _ a'.isLt b'.isLt) := by
      injection h
    have hv := congrArg Fin.val hq
    rw [xcsem_val, xcsem_val] at hv
    have := k.isLt; have := k'.isLt; have := a.isLt; have := a'.isLt; have := b.isLt; have := b'.isLt
    have hk : k = k' := Fin.ext (by omega)
    have ha : a = a' := Fin.ext (by omega)
    have hb : b = b' := Fin.ext (by omega)
    subst hk ha hb; rfl

theorem kcell_injective : Function.Injective (kcell : Dev nD × Cx → GSem nD τ sig) := by
  rintro ⟨c, x⟩ ⟨c', x'⟩ h
  have h1 : c = c' := by have := congrArg (fun g : GSem nD τ sig => g.1.1) h; exact this
  subst h1
  have h2 : ksem x = ksem x' := congrArg Prod.snd h
  rw [ksem_injective h2]
def ringCells : Finset (GSem nD τ sig) := Finset.univ.map ⟨kcell, kcell_injective⟩

/-- The duty tokens minted for a device's own cells: its barrier's two, one per transfer cell. -/
abbrev Tx : Type := Bool ⊕ (Fin 4 × Fin 8 × Fin 3)
abbrev tokOf (ct : Dev nD × Tx) : GSem nD τ sig × ℕ × Bool := match ct.2 with
  | .inl d => (barCell ct.1, 0, d)
  | .inr kab => (kcell (ct.1, .inr kab), 0, false)
theorem tokOf_injective : Function.Injective (tokOf : Dev nD × Tx → GSem nD τ sig × ℕ × Bool) := by
  rintro ⟨c, x⟩ ⟨c', x'⟩ h
  have h1 : c = c' := by
    have := congrArg (fun y : GSem nD τ sig × ℕ × Bool => y.1.1.1) h
    rcases x with d | kab <;> rcases x' with d' | kab' <;> exact this
  subst h1
  rcases x with d | kab <;> rcases x' with d' | kab'
  · have : d = d' := congrArg (fun y : GSem nD τ sig × ℕ × Bool => y.2.2) h
    subst this; rfl
  · exact absurd (congrArg (fun y : GSem nD τ sig × ℕ × Bool => y.1.2) h) (fun h' => by cases h')
  · exact absurd (congrArg (fun y : GSem nD τ sig × ℕ × Bool => y.1.2) h) (fun h' => by cases h')
  · have h2 : ksem (.inr kab) = ksem (.inr kab') := congrArg (fun y : GSem nD τ sig × ℕ × Bool => y.1.2) h
    have := ksem_injective h2
    rw [Sum.inr.inj this]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((dutyTok ER (barCell c) 0 false ∗ dutyTok ER (barCell c) 0 true)
    ∗ bigSep Finset.univ fun kab : Fin 4 × Fin 8 × Fin 3 => dutyTok ER (kcell (c, .inr kab)) 0 false)

/-- What the launch element deals device `c`. -/
def G (c : Dev nD) : sProp 𝕄 :=
  iprop((bigSep Finset.univ fun x : Cx => roundState ER (ringRd (xstgA m ρ) (xstgB m ρ)) (kcell (c, x)) 0)
    ∗ (bigSep Finset.univ fun x : Cx => iprop(atPos ER (kcell (c, x)) 0 ∅ 0 ∗ reached ER (kcell (c, x)) 0)) ∗ toks c)

/-- What the global step makes of it. -/
def G' (c : Dev nD) : sProp 𝕄 := iprop(∃ K, ghost (xstgA m ρ) (xstgB m ρ) K c)

theorem bigSep_bool (Φ : Bool → sProp 𝕄) : bigSep Finset.univ Φ = iprop(Φ false ∗ Φ true) :=
  bigSep_univ_eq_bigSepL [false, true] (by decide) (by decide) Φ

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun x : Cx => Φ (kcell (c, x)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_bool]; rfl
  iintro HX
  imod (Rounds.fund ER (ringRd (xstgA m ρ) (xstgB m ρ)) ringCells ringToks) $$ HX with ⟨Hst, Hr, Hat, Htok⟩
  imodintro
  ihave Hst' := (Entails.of_eq (hX fun g => roundState ER (ringRd (xstgA m ρ) (xstgB m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ### The own and the unscoped semaphores at zero -/

/-- The transfer semaphores counted through array, chain and step. -/
def xnum (kab : Fin 4 × Fin 8 × Fin 3) : Fin 96 :=
  ⟨24 * kab.1.val + 3 * kab.2.1.val + kab.2.2.val, by have := kab.1.isLt; have := kab.2.1.isLt; have := kab.2.2.isLt; omega⟩
theorem xnum_bijective : Function.Bijective xnum := by
  rw [Fintype.bijective_iff_injective_and_card]
  refine ⟨fun x y h => ?_, by simp⟩
  obtain ⟨k, a, b⟩ := x; obtain ⟨k', a', b'⟩ := y
  have hv : 24 * k.val + 3 * a.val + b.val = 24 * k'.val + 3 * a'.val + b'.val := congrArg Fin.val h
  have := k.isLt; have := k'.isLt; have := a.isLt; have := a'.isLt; have := b.isLt; have := b'.isLt
  have hk : k = k' := Fin.ext (by omega)
  have ha : a = a' := Fin.ext (by omega)
  have hb : b = b' := Fin.ext (by omega)
  subst hk ha hb; rfl
def xnumEquiv : Fin 4 × Fin 8 × Fin 3 ≃ Fin 96 := Equiv.ofBijective xnum xnum_bijective

theorem osem_xnum (kab : Fin 4 × Fin 8 × Fin 3) : osem (xnum kab) = ksem (.inr kab) := by
  obtain ⟨k, a, b⟩ := kab
  refine congrArg SemLoc.dma (Fin.ext ?_)
  show 24 * k.val + 3 * a.val + b.val + 3 = (csem (xarr k) a.val b.val (sem_inb _ _ a.isLt b.isLt)).val
  rw [xcsem_val]; omega

/-- The transfer semaphores are the kernel's own; -/
theorem ownSems0_eq (c : Dev nD) : (Pipeline.ownSems0 (Ix := Unit) (Name := ℕ) (U := UU) (Lvl := ℕ) (Val := Elt F) (τ := τ) osem c : sProp 𝕄)
    = bigSep Finset.univ fun kab : Fin 4 × Fin 8 × Fin 3 => semVal (kcell (c, .inr kab)) 0 := by
  unfold Pipeline.ownSems0
  rw [bigSep_univ_equiv xnumEquiv]
  exact bigSep_congr fun kab _ => by
    show semVal ((c : Thread nD τ), osem (xnum kab)) 0 = _
    rw [osem_xnum]
/-- the barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem bigSep_Cx (Φ : Cx → sProp 𝕄) :
    bigSep Finset.univ Φ = iprop(Φ (.inl ()) ∗ bigSep Finset.univ fun kab : Fin 4 × Fin 8 × Fin 3 => Φ (.inr kab)) := by
  rw [bigSep_univ_sum, bigSep_univ_of_subsingleton ()]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun x : Cx => semVal (kcell (c, x)) 0 : sProp 𝕄) := by
  rw [ownSems0_eq, unscopedSems0_eq, bigSep_Cx]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun x : Cx => iprop(∃ κ : ℕ, cellInv ER (ringRd (xstgA m ρ) (xstgB m ρ)) κ (kcell (c, x))))
          ∗ (bigSep Finset.univ fun x : Cx => iprop(atPos ER (kcell (c, x)) 0 ∅ 0 ∗ reached ER (kcell (c, x)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun x : Cx => semVal (kcell (c, x)) 0) ∗ bigSep Finset.univ fun x : Cx => roundState ER (ringRd (xstgA m ρ) (xstgB m ρ)) (kcell (c, x)) 0)
      ⊢ (|={Set.univ}=> bigSep Finset.univ fun x : Cx => iprop(∃ κ : ℕ, cellInv ER (ringRd (xstgA m ρ) (xstgB m ρ)) κ (kcell (c, x))) : sProp 𝕄) from by
        rw [← bigSep_sep']
        exact (bigSep_mono fun x _ => (Rounds.body_intro ER (ringRd (xstgA m ρ) (xstgB m ρ)) (kcell (c, x))).trans inv_alloc).trans (bigSep_fupd _ _)) $$ [Hv Hst] with Hinv
  · isplitl [Hv] <;> iassumption
  imodintro
  isplitl [Hinv]; · iexact Hinv
  isplitl [Hat]; · iexact Hat
  iexact Htok

/-! ### From the minted state to each device's start -/

/-- A family over a device's own cells of array `k`, and over the cells of array `k` its copies complete on. -/
def ownF (c : Dev nD) (k : Fin 4) (Φ : GSem nD τ sig → sProp 𝕄) : sProp 𝕄 :=
  bigSep Finset.univ fun ab : Fin 8 × Fin 3 => Φ (kcell (c, .inr (k, ab)))
def tgtF (c : Dev nD) (k : Fin 4) (Φ : GSem nD τ sig → sProp 𝕄) : sProp 𝕄 :=
  bigSep Finset.univ fun ab : Fin 8 × Fin 3 => Φ (kcell (tdev ab.1.val c, .inr (k, ab)))

def invsK (K : GSem nD τ sig → ℕ) (c : Dev nD) : sProp 𝕄 :=
  iprop((fun g => cellInv ER (ringRd (xstgA m ρ) (xstgB m ρ)) (K g) g) (barCell c) ∗ (fun g => cellInv ER (ringRd (xstgA m ρ) (xstgB m ρ)) (K g) g) (barCell (nxt c)) ∗ (fun g => cellInv ER (ringRd (xstgA m ρ) (xstgB m ρ)) (K g) g) (barCell (prv c))
    ∗ ownF c 0 (fun g => cellInv ER (ringRd (xstgA m ρ) (xstgB m ρ)) (K g) g) ∗ ownF c 1 (fun g => cellInv ER (ringRd (xstgA m ρ) (xstgB m ρ)) (K g) g) ∗ ownF c 2 (fun g => cellInv ER (ringRd (xstgA m ρ) (xstgB m ρ)) (K g) g) ∗ ownF c 3 (fun g => cellInv ER (ringRd (xstgA m ρ) (xstgB m ρ)) (K g) g) ∗ tgtF c 1 (fun g => cellInv ER (ringRd (xstgA m ρ) (xstgB m ρ)) (K g) g) ∗ tgtF c 3 (fun g => cellInv ER (ringRd (xstgA m ρ) (xstgB m ρ)) (K g) g))
def posK (c : Dev nD) : sProp 𝕄 :=
  iprop(atPos ER (barCell c) 0 ∅ 0 ∗ ownF c 0 (fun g => atPos ER g 0 ∅ 0) ∗ ownF c 1 (fun g => atPos ER g 0 ∅ 0) ∗ ownF c 2 (fun g => atPos ER g 0 ∅ 0) ∗ ownF c 3 (fun g => atPos ER g 0 ∅ 0))
def reachedK (c : Dev nD) : sProp 𝕄 :=
  iprop(reached ER (barCell (nxt c)) 0 ∗ reached ER (barCell (prv c)) 0
    ∗ ownF c 0 (fun g => reached ER g 0) ∗ ownF c 1 (fun g => reached ER g 0) ∗ ownF c 2 (fun g => reached ER g 0) ∗ ownF c 3 (fun g => reached ER g 0) ∗ tgtF c 1 (fun g => reached ER g 0) ∗ tgtF c 3 (fun g => reached ER g 0))
/-- The tokens of the duties device `c` pays. -/
def payToks (c : Dev nD) : sProp 𝕄 :=
  iprop(dutyTok ER (barCell (prv c)) 0 true ∗ dutyTok ER (barCell (nxt c)) 0 false
    ∗ tgtF c 1 (fun g => dutyTok ER g 0 false) ∗ tgtF c 3 (fun g => dutyTok ER g 0 false) ∗ ownF c 0 (fun g => dutyTok ER g 0 false) ∗ ownF c 2 (fun g => dutyTok ER g 0 false))

/-- The ghost state, its families indexed through the cells' own numbering. -/
theorem ghost_eq (K : GSem nD τ sig → ℕ) (c : Dev nD) :
    ghost (xstgA m ρ) (xstgB m ρ) K c = iprop(invsK m ρ K c ∗ posK c ∗ reachedK c ∗ payToks c) := rfl

def records (K' : Dev nD × Cx → ℕ) : sProp 𝕄 :=
  iprop((bigSep Finset.univ fun cx : Dev nD × Cx => cellInv ER (ringRd (xstgA m ρ) (xstgB m ρ)) (K' cx) (kcell cx))
    ∗ bigSep Finset.univ fun cx : Dev nD × Cx => reached ER (kcell cx) 0)

instance records_persistent (K' : Dev nD × Cx → ℕ) : BI.Persistent (records m ρ K') := by unfold records; infer_instance

/-- The names as a function of the cell. -/
abbrev Kx (K' : Dev nD × Cx → ℕ) : GSem nD τ sig → ℕ := Function.extend kcell K' (fun _ => 0)
theorem Kx_kcell (K' : Dev nD × Cx → ℕ) (cx : Dev nD × Cx) : Kx K' (kcell cx) = K' cx := kcell_injective.extend_apply K' _ cx

theorem inv_at (K' : Dev nD × Cx → ℕ) (cx : Dev nD × Cx) :
    (bigSep Finset.univ fun cx : Dev nD × Cx => (cellInv ER (ringRd (xstgA m ρ) (xstgB m ρ)) (K' cx) (kcell cx) : sProp 𝕄)) ⊢ cellInv ER (ringRd (xstgA m ρ) (xstgB m ρ)) (K' cx) (kcell cx) :=
  bigSep_elim (Finset.mem_univ cx)
theorem reached_at (cx : Dev nD × Cx) :
    (bigSep Finset.univ fun cx : Dev nD × Cx => (reached ER (kcell cx) 0 : sProp 𝕄)) ⊢ reached ER (kcell cx) 0 :=
  bigSep_elim (Finset.mem_univ cx)

theorem rec_inv (K' : Dev nD × Cx → ℕ) (cx : Dev nD × Cx) :
    records m ρ K' ⊢ cellInv ER (ringRd (xstgA m ρ) (xstgB m ρ)) (Kx K' (kcell cx)) (kcell cx) := by
  rw [Kx_kcell]; unfold records
  iintro ⟨HI, -⟩
  iapply (inv_at m ρ K' cx)
  iexact HI
theorem rec_reached (K' : Dev nD × Cx → ℕ) (cx : Dev nD × Cx) : records m ρ K' ⊢ reached ER (kcell cx) 0 := by
  unfold records
  iintro ⟨-, HR⟩
  iapply (reached_at (F := F) cx)
  iexact HR

theorem invs_intro (K' : Dev nD × Cx → ℕ) (c : Dev nD) : records m ρ K' ⊢ invsK m ρ (Kx K') c := by
  unfold invsK ownF tgtF
  iintro #HR
  isplitr; · iapply (rec_inv m ρ K' (c, .inl ())); iexact HR
  isplitr; · iapply (rec_inv m ρ K' (nxt c, .inl ())); iexact HR
  isplitr; · iapply (rec_inv m ρ K' (prv c, .inl ())); iexact HR
  isplitr; · iapply (bigSep_intro_persistent (R := records m ρ K') fun (ab : Fin 8 × Fin 3) _ => rec_inv m ρ K' (c, .inr (0, ab))); iexact HR
  isplitr; · iapply (bigSep_intro_persistent (R := records m ρ K') fun (ab : Fin 8 × Fin 3) _ => rec_inv m ρ K' (c, .inr (1, ab))); iexact HR
  isplitr; · iapply (bigSep_intro_persistent (R := records m ρ K') fun (ab : Fin 8 × Fin 3) _ => rec_inv m ρ K' (c, .inr (2, ab))); iexact HR
  isplitr; · iapply (bigSep_intro_persistent (R := records m ρ K') fun (ab : Fin 8 × Fin 3) _ => rec_inv m ρ K' (c, .inr (3, ab))); iexact HR
  isplitr; · iapply (bigSep_intro_persistent (R := records m ρ K') fun (ab : Fin 8 × Fin 3) _ => rec_inv m ρ K' (tdev ab.1.val c, .inr (1, ab))); iexact HR
  iapply (bigSep_intro_persistent (R := records m ρ K') fun (ab : Fin 8 × Fin 3) _ => rec_inv m ρ K' (tdev ab.1.val c, .inr (3, ab))); iexact HR

theorem reached_intro (K' : Dev nD × Cx → ℕ) (c : Dev nD) : records m ρ K' ⊢ reachedK c := by
  unfold reachedK ownF tgtF
  iintro #HR
  isplitr; · iapply (rec_reached m ρ K' (nxt c, .inl ())); iexact HR
  isplitr; · iapply (rec_reached m ρ K' (prv c, .inl ())); iexact HR
  isplitr; · iapply (bigSep_intro_persistent (R := records m ρ K') fun (ab : Fin 8 × Fin 3) _ => rec_reached m ρ K' (c, .inr (0, ab))); iexact HR
  isplitr; · iapply (bigSep_intro_persistent (R := records m ρ K') fun (ab : Fin 8 × Fin 3) _ => rec_reached m ρ K' (c, .inr (1, ab))); iexact HR
  isplitr; · iapply (bigSep_intro_persistent (R := records m ρ K') fun (ab : Fin 8 × Fin 3) _ => rec_reached m ρ K' (c, .inr (2, ab))); iexact HR
  isplitr; · iapply (bigSep_intro_persistent (R := records m ρ K') fun (ab : Fin 8 × Fin 3) _ => rec_reached m ρ K' (c, .inr (3, ab))); iexact HR
  isplitr; · iapply (bigSep_intro_persistent (R := records m ρ K') fun (ab : Fin 8 × Fin 3) _ => rec_reached m ρ K' (tdev ab.1.val c, .inr (1, ab))); iexact HR
  iapply (bigSep_intro_persistent (R := records m ρ K') fun (ab : Fin 8 × Fin 3) _ => rec_reached m ρ K' (tdev ab.1.val c, .inr (3, ab))); iexact HR

/-- What stays with device `c`: its positions, and the tokens of the duties it pays. -/
def linear (c : Dev nD) : sProp 𝕄 :=
  iprop((bigSep Finset.univ fun x : Cx => atPos ER (kcell (c, x)) 0 ∅ 0) ∗ payToks c)

theorem pos_eq (c : Dev nD) : (bigSep Finset.univ fun x : Cx => (atPos ER (kcell (c, x)) 0 ∅ 0 : sProp 𝕄)) = posK c := by
  rw [bigSep_Cx, bigSep_univ_prod (fun kab : Fin 4 × Fin 8 × Fin 3 => (atPos ER (kcell (c, .inr kab)) 0 ∅ 0 : sProp 𝕄)), bigSep_fin4]
  rfl

theorem ghost_intro (K' : Dev nD × Cx → ℕ) (c : Dev nD) : iprop(records m ρ K' ∗ linear c) ⊢ G' m ρ c := by
  unfold G' linear
  rw [pos_eq]
  iintro ⟨#HR, Hpos, Htok⟩
  iexists (Kx K')
  rw [ghost_eq]
  isplitr; · iapply (invs_intro m ρ K' c); iexact HR
  isplitl [Hpos]; · iexact Hpos
  isplitr; · iapply (reached_intro m ρ K' c); iexact HR
  iexact Htok

/-- A chain's target, as a permutation of the devices. -/
def tdevE (a : ℕ) : Dev nD ≃ Dev nD := ⟨tdev a, sdev a, sdev_tdev a, tdev_sdev a⟩

theorem around_tgt (Φ : Dev nD → Fin 8 × Fin 3 → sProp 𝕄) :
    (bigSep Finset.univ fun c : Dev nD => bigSep Finset.univ fun ab : Fin 8 × Fin 3 => Φ c ab)
      = bigSep Finset.univ fun c : Dev nD => bigSep Finset.univ fun ab : Fin 8 × Fin 3 => Φ (tdev ab.1.val c) ab :=
  calc (bigSep Finset.univ fun c : Dev nD => bigSep Finset.univ fun ab : Fin 8 × Fin 3 => Φ c ab)
      = bigSep Finset.univ fun ab : Fin 8 × Fin 3 => bigSep Finset.univ fun c : Dev nD => Φ c ab := bigSep_univ_comm _
    _ = bigSep Finset.univ fun ab : Fin 8 × Fin 3 => bigSep Finset.univ fun c : Dev nD => Φ (tdev ab.1.val c) ab :=
        bigSep_congr fun ab _ => bigSep_univ_equiv (tdevE ab.1.val) (fun c => Φ c ab)
    _ = _ := (bigSep_univ_comm (fun (c : Dev nD) (ab : Fin 8 × Fin 3) => Φ (tdev ab.1.val c) ab)).symm

theorem toks_eq (c : Dev nD) : (toks c : sProp 𝕄)
    = iprop((dutyTok ER (barCell c) 0 false ∗ dutyTok ER (barCell c) 0 true) ∗ ownF c 0 (fun g => dutyTok ER g 0 false) ∗ ownF c 1 (fun g => dutyTok ER g 0 false) ∗ ownF c 2 (fun g => dutyTok ER g 0 false) ∗ ownF c 3 (fun g => dutyTok ER g 0 false)) := by
  unfold toks
  rw [bigSep_univ_prod (fun kab : Fin 4 × Fin 8 × Fin 3 => (dutyTok ER (kcell (c, .inr kab)) 0 false : sProp 𝕄)), bigSep_fin4]
  rfl

/-- The tokens dealt around the ring: a barrier's `false` token to the previous device, its `true` token to the next, a
    receive cell's token to the device whose copy completes on it. -/
theorem toks_around : (bigSep Finset.univ fun c : Dev nD => (toks c : sProp 𝕄)) ⊢ bigSep Finset.univ fun c : Dev nD => payToks c := by
  rw [bigSep_congr (fun c _ => toks_eq (F := F) c)]
  unfold payToks
  simp only [bigSep_sep']
  rw [bigSep_univ_equiv ring (fun c : Dev nD => (dutyTok ER (barCell c) 0 false : sProp 𝕄)),
    bigSep_univ_equiv ring.symm (fun c : Dev nD => (dutyTok ER (barCell c) 0 true : sProp 𝕄))]
  have h1 : (bigSep Finset.univ fun c : Dev nD => (ownF c 1 (fun g => dutyTok ER g 0 false) : sProp 𝕄)) = bigSep Finset.univ fun c : Dev nD => tgtF c 1 (fun g => dutyTok ER g 0 false) :=
    around_tgt (fun c ab => (dutyTok ER (kcell (c, .inr (1, ab))) 0 false : sProp 𝕄))
  have h3 : (bigSep Finset.univ fun c : Dev nD => (ownF c 3 (fun g => dutyTok ER g 0 false) : sProp 𝕄)) = bigSep Finset.univ fun c : Dev nD => tgtF c 3 (fun g => dutyTok ER g 0 false) :=
    around_tgt (fun c ab => (dutyTok ER (kcell (c, .inr (3, ab))) 0 false : sProp 𝕄))
  rw [h1, h3]
  iintro ⟨⟨Hf, Ht⟩, H0, H1, H2, H3⟩
  isplitl [Ht]; · iexact Ht
  isplitl [Hf]; · iexact Hf
  isplitl [H1]; · iexact H1
  isplitl [H3]; · iexact H3
  isplitl [H0]; · iexact H0
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun x : Cx => iprop(∃ κ : ℕ, cellInv ER (ringRd (xstgA m ρ) (xstgB m ρ)) κ (kcell (c, x))))
          ∗ (bigSep Finset.univ fun x : Cx => iprop(atPos ER (kcell (c, x)) 0 ∅ 0 ∗ reached ER (kcell (c, x)) 0)) ∗ toks c) : sProp 𝕄)
      ⊢ bigSep Finset.univ (G' m ρ) := by
  rw [bigSep_sep', bigSep_sep', ← bigSep_univ_prod (fun cx : Dev nD × Cx => iprop(∃ κ : ℕ, cellInv ER (ringRd (xstgA m ρ) (xstgB m ρ)) κ (kcell cx))),
    bigSep_congr (s := Finset.univ) (fun (c : Dev nD) _ => bigSep_sep' Finset.univ (fun x : Cx => (atPos ER (kcell (c, x)) 0 ∅ 0 : sProp 𝕄)) (fun x => reached ER (kcell (c, x)) 0)),
    bigSep_sep', ← bigSep_univ_prod (fun cx : Dev nD × Cx => (reached ER (kcell cx) 0 : sProp 𝕄))]
  iintro ⟨HI, ⟨Hat, #HR⟩, Htok⟩
  ihave HK := (BI.bigSep_exists_pi Finset.univ (fun (cx : Dev nD × Cx) (κ : ℕ) => (cellInv ER (ringRd (xstgA m ρ) (xstgB m ρ)) κ (kcell cx) : sProp 𝕄))) $$ HI
  icases HK with ⟨%K', #HI⟩
  ihave Htk := (toks_around (F := F)) $$ Htok
  iapply (bigSep_with_persistent (R := records m ρ K') fun c _ => ghost_intro m ρ K' c)
  isplitr
  · unfold records; isplitl; · iexact HI
    iexact HR
  · iapply ((Entails.of_eq (bigSep_sep' Finset.univ (fun c : Dev nD => bigSep Finset.univ fun x : Cx => (atPos ER (kcell (c, x)) 0 ∅ 0 : sProp 𝕄)) payToks).symm).trans
      (bigSep_mono fun c _ => show _ ⊢ linear c from Entails.of_eq (by unfold linear; rfl)))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

/-- The semaphore of the receive cell copy `j` completes on. -/
def rcvSem (j : ℕ) : SemLoc sig :=
  if j / 8 < 3 then .dma (csem cc0_scratch3 (chainAt (j % 8)) (j / 8 % 3) (sem_inb _ _ (chainAt_lt j) (Nat.mod_lt _ (by decide))))
  else .dma (csem cc0_scratch5 (chainAt (j % 8)) (j / 8 % 3) (sem_inb _ _ (chainAt_lt j) (Nat.mod_lt _ (by decide))))
theorem sendCellOf_eq (c : Dev nD) (j : ℕ) : sendCellOf c j = ((tdev (chainAt (j % 8)) c : Thread nD τ), rcvSem j) := by
  unfold sendCellOf rcvSem; split <;> rfl

theorem bigSep_range_succ' (Φ : ℕ → sProp 𝕄) (n : ℕ) :
    bigSep (Finset.range (n + 1)) Φ = iprop(Φ n ∗ bigSep (Finset.range n) Φ) := by
  rw [Finset.range_add_one, bigSep_insert Finset.notMem_range_self]; rfl

/-- What the devices owe through their last `n` copies reaches device `c` as the credit of the receive cells those copies complete
    on: each such cell is paid by exactly one device, the one the chain comes from. -/
theorem cred_rem (c : Dev nD) : ∀ n : ℕ, (Pipeline.launchCred (fun d => owedRem d n) c : sProp 𝕄)
    ⊢ bigSep (Finset.range n) fun i => cred (tallyAt ((c : Thread nD τ), rcvSem (47 - i)) () (sendAmt (47 - i)))
  | 0 => by
    rw [Finset.range_zero, BI.bigSep_empty]
    show (Pipeline.launchCred (fun _ : Dev nD => (0 : CellTallies nD τ sig Unit)) c : sProp 𝕄) ⊢ _
    rw [Pipeline.launchCred_zero]
    exact BI.Entails.refl _
  | n + 1 => by
    rw [show (fun d : Dev nD => owedRem d (n + 1)) = fun d => owedRem d n + tallyAt (sendCellOf d (47 - n)) () (sendAmt (47 - n)) from rfl,
      Pipeline.launchCred_add, bigSep_range_succ']
    simp only [sendCellOf_eq]
    iintro ⟨H1, H2⟩
    isplitl [H2]
    · iapply (Pipeline.launchCred_tallyAt (rcvSem (47 - n)) (tdev (chainAt ((47 - n) % 8))) (sdev (chainAt ((47 - n) % 8))) (tdev_sdev _) (sdev_tdev _) () (sendAmt (47 - n)) c)
      iexact H2
    · iapply (cred_rem c n); iexact H1

/-- The copies counted back from the last: phase (reduce-scatter, all-gather), chain and step of copy `47 - i`. -/
def enc (tab : Fin 2 × Fin 8 × Fin 3) : ℕ := 47 - (24 * tab.1.val + 8 * tab.2.2.val + (2 * (tab.2.1.val % 4) + tab.2.1.val / 4))
theorem enc_injective : Function.Injective enc := by decide
theorem range48 : Finset.range 48 = Finset.univ.map ⟨enc, enc_injective⟩ := by decide

theorem rcv0 : ∀ ab : Fin 8 × Fin 3, rcvSem (47 - enc (0, ab)) = ksem (.inr (1, ab)) := by decide
theorem rcv1 : ∀ ab : Fin 8 × Fin 3, rcvSem (47 - enc (1, ab)) = ksem (.inr (3, ab)) := by decide
theorem amt0 (ab : Fin 8 × Fin 3) : sendAmt (47 - enc (0, ab)) = Nrs := by
  have := ab.1.isLt; have := ab.2.isLt
  refine if_pos ?_
  show (47 - (47 - (24 * 0 + 8 * ab.2.val + (2 * (ab.1.val % 4) + ab.1.val / 4)))) / 8 < 3
  omega
theorem amt1 (ab : Fin 8 × Fin 3) : sendAmt (47 - enc (1, ab)) = Nag := by
  have := ab.1.isLt; have := ab.2.isLt
  refine if_neg ?_
  show ¬ (47 - (47 - (24 * 1 + 8 * ab.2.val + (2 * (ab.1.val % 4) + ab.1.val / 4)))) / 8 < 3
  omega

theorem bigSep_fin2 (Φ : Fin 2 → sProp 𝕄) : bigSep Finset.univ Φ = iprop(Φ 0 ∗ Φ 1) :=
  bigSep_univ_eq_bigSepL [0, 1] (by decide) (by decide) Φ

theorem rem_eq (c : Dev nD) :
    (bigSep (Finset.range 48) fun i => (cred (tallyAt ((c : Thread nD τ), rcvSem (47 - i)) () (sendAmt (47 - i))) : sProp 𝕄))
      = iprop(overAB (fun a b ha hb => cred (tallyAt (dcell c (csem cc0_scratch3 a b (sem_inb a b ha hb))) () Nrs))
          ∗ overAB (fun a b ha hb => cred (tallyAt (dcell c (csem cc0_scratch5 a b (sem_inb a b ha hb))) () Nag))) := by
  rw [range48, bigSep_map]
  show (bigSep Finset.univ fun tab : Fin 2 × Fin 8 × Fin 3 => (cred (tallyAt ((c : Thread nD τ), rcvSem (47 - enc tab)) () (sendAmt (47 - enc tab))) : sProp 𝕄)) = _
  rw [bigSep_univ_prod (fun tab : Fin 2 × Fin 8 × Fin 3 => (cred (tallyAt ((c : Thread nD τ), rcvSem (47 - enc tab)) () (sendAmt (47 - enc tab))) : sProp 𝕄)),
    bigSep_fin2]
  rw [bigSep_congr (fun (ab : Fin 8 × Fin 3) _ => show (cred (tallyAt ((c : Thread nD τ), rcvSem (47 - enc (0, ab))) () (sendAmt (47 - enc (0, ab)))) : sProp 𝕄)
        = cred (tallyAt ((c : Thread nD τ), ksem (.inr (1, ab))) () Nrs) from by rw [rcv0, amt0]),
    bigSep_congr (fun (ab : Fin 8 × Fin 3) _ => show (cred (tallyAt ((c : Thread nD τ), rcvSem (47 - enc (1, ab))) () (sendAmt (47 - enc (1, ab)))) : sProp 𝕄)
        = cred (tallyAt ((c : Thread nD τ), ksem (.inr (3, ab))) () Nag) from by rw [rcv1, amt1])]
  rfl

theorem creds (c : Dev nD) :
    (Pipeline.launchCred O₀ c : sProp 𝕄) ⊢ iprop(cred (tallyAt (barCell c) () 2)
      ∗ overAB (fun a b ha hb => cred (tallyAt (dcell c (csem cc0_scratch3 a b (sem_inb a b ha hb))) () Nrs))
      ∗ overAB (fun a b ha hb => cred (tallyAt (dcell c (csem cc0_scratch5 a b (sem_inb a b ha hb))) () Nag))) := by
  rw [show (O₀ : Dev nD → CellTallies nD τ sig Unit) = fun d => (owedRem d 48 + tallyAt (barCell (nxt d)) () 1) + tallyAt (barCell (prv d)) () 1 from rfl,
    Pipeline.launchCred_add, Pipeline.launchCred_add]
  iintro ⟨⟨Hrem, Hn⟩, Hp⟩
  ihave Hn' := (Pipeline.launchCred_tallyAt (SemLoc.reg barS) nxt prv nxt_prv prv_nxt () 1 c) $$ Hn
  ihave Hp' := (Pipeline.launchCred_tallyAt (SemLoc.reg barS) prv nxt prv_nxt nxt_prv () 1 c) $$ Hp
  ihave Hr := (cred_rem (F := F) c 48) $$ Hrem
  ihave Hr' := (Entails.of_eq (rem_eq (F := F) c)) $$ Hr
  icases Hr' with ⟨H3, H5⟩
  isplitl [Hn' Hp']
  · iapply (Entails.of_eq (congrArg cred (tallyAt_add (barCell c) () 1 1)))
    iapply (cred_add _ _).2
    isplitl [Hn'] <;> iassumption
  isplitl [H3]; · iexact H3
  iexact H5

/-! ### Levels: a wait stands below everything still owed -/

theorem lv_bar (t : Dev nD) : lv (barCell t) () = 1 := rfl

theorem lv_rsRecv (t : Dev nD) (a b : ℕ) (h : ∀ i, (![a, b] : Fin 2 → Nat) i + S1x1.size i ≤ S8x3.size i) :
    lv (dcell t (csem cc0_scratch3 a b h)) () = 2 + b := by
  obtain ⟨ha, hb⟩ := sem_lt h
  show (if dk (csem cc0_scratch3 a b h).val = 1 then 2 + db (csem cc0_scratch3 a b h).val
    else if dk (csem cc0_scratch3 a b h).val = 3 then 5 + db (csem cc0_scratch3 a b h).val else 0) = 2 + b
  rw [csem3_val]
  have h1 : dk (27 + 3 * a + b) = 1 := by unfold dk; omega
  have h2 : db (27 + 3 * a + b) = b := by unfold db; omega
  rw [if_pos h1, h2]

theorem lv_agRecv (t : Dev nD) (a b : ℕ) (h : ∀ i, (![a, b] : Fin 2 → Nat) i + S1x1.size i ≤ S8x3.size i) :
    lv (dcell t (csem cc0_scratch5 a b h)) () = 5 + b := by
  obtain ⟨ha, hb⟩ := sem_lt h
  show (if dk (csem cc0_scratch5 a b h).val = 1 then 2 + db (csem cc0_scratch5 a b h).val
    else if dk (csem cc0_scratch5 a b h).val = 3 then 5 + db (csem cc0_scratch5 a b h).val else 0) = 5 + b
  rw [csem5_val]
  have h1 : ¬ dk (75 + 3 * a + b) = 1 := by unfold dk; omega
  have h3 : dk (75 + 3 * a + b) = 3 := by unfold dk; omega
  have h2 : db (75 + 3 * a + b) = b := by unfold db; omega
  rw [if_neg h1, if_pos h3, h2]

theorem lv_sendCellOf (c : Dev nD) (j : ℕ) : lv (sendCellOf c j) () = if j / 8 < 3 then 2 + j / 8 % 3 else 5 + j / 8 % 3 := by
  by_cases h : j / 8 < 3
  · simp only [sendCellOf, if_pos h]; exact lv_rsRecv _ _ _ _
  · simp only [sendCellOf, if_neg h]; exact lv_agRecv _ _ _ _

/-- A cell the last `n` copies still owe is the receive cell of one of them. -/
theorem owedRem_pos (c : Dev nD) : ∀ (n : ℕ) {g : GSem nD τ sig} {u : Unit}, 0 < owedRem c n g u → ∃ i, i < n ∧ g = sendCellOf c (47 - i)
  | 0, g, u, h => by
    rw [show owedRem c 0 = 0 from rfl, Pi.zero_apply, Finsupp.zero_apply] at h
    exact absurd h (Nat.lt_irrefl 0)
  | n + 1, g, u, h => by
    rcases Pipeline.add_pos_cases (show 0 < (owedRem c n + tallyAt (sendCellOf c (47 - n)) () (sendAmt (47 - n))) g u from h) with h | h
    · obtain ⟨i, hi, e⟩ := owedRem_pos c n h
      exact ⟨i, Nat.lt_succ_of_lt hi, e⟩
    · rw [tallyAt_apply] at h
      by_cases hg : g = sendCellOf c (47 - n) ∧ u = ()
      · exact ⟨n, Nat.lt_succ_self n, hg.1⟩
      · rw [if_neg hg] at h; exact absurd h (Nat.lt_irrefl 0)

/-- A wait on cell `sm` at a level not above `k`, while the last `n` copies are still owed and each of their receive cells stands
    above `k`. -/
theorem mayWait_rem (c : Dev nD) (sm : SemLoc sig) (n k : ℕ) (hk : lv ((c : Thread nD τ), sm) () ≤ k)
    (hrem : ∀ i, i < n → k < lv (sendCellOf c (47 - i)) ()) :
    (levAts L lv : sProp 𝕄) ⊢ MayWait (c : Thread nD τ) sm () (owedRem c n) :=
  MayOwe.of_cut (L := L) (lev := lv) k (fun p hp => by rw [Finset.mem_singleton.mp hp, L_tc]; exact Finset.mem_singleton_self _)
    (fun g u hg => by obtain ⟨i, hi, rfl⟩ := owedRem_pos c n hg; rw [sendCellOf_eq, L_tc]; exact Finset.mem_singleton_self _)
    (fun p hp => by rw [Finset.mem_singleton.mp hp]; exact hk)
    (fun g u hg => by obtain ⟨i, hi, rfl⟩ := owedRem_pos c n hg; exact hrem i hi)

theorem O₀_pos {c : Dev nD} {g : GSem nD τ sig} {u : Unit} (h : 0 < O₀ c g u) :
    (∃ i, i < 48 ∧ g = sendCellOf c (47 - i)) ∨ g = barCell (nxt c) ∨ g = barCell (prv c) := by
  rcases Pipeline.add_pos_cases (show 0 < ((owedRem c 48 + tallyAt (barCell (nxt c)) () 1) + tallyAt (barCell (prv c)) () 1) g u from h) with h | h
  · rcases Pipeline.add_pos_cases h with h | h
    · exact Or.inl (owedRem_pos c 48 h)
    · rw [tallyAt_apply] at h
      by_cases hg : g = barCell (nxt c) ∧ u = ()
      · exact Or.inr (Or.inl hg.1)
      · rw [if_neg hg] at h; exact absurd h (Nat.lt_irrefl 0)
  · rw [tallyAt_apply] at h
    by_cases hg : g = barCell (prv c) ∧ u = ()
    · exact Or.inr (Or.inr hg.1)
    · rw [if_neg hg] at h; exact absurd h (Nat.lt_irrefl 0)

/-- The pipeline's own waits are on cells at level 0, below everything a device owes at launch. -/
theorem mayWait_stage (c : Dev nD) (q : DmaSem sig) (hq : lv ((c : Thread nD τ), .dma q) () = 0) (O : CellTallies nD τ sig Unit)
    (hO : O = O₀ c ∨ O = 0) : (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => ?_) (fun p hp => by rw [Finset.mem_singleton.mp hp]; exact le_of_eq hq) (fun g u hg => ?_)
    · rcases O₀_pos hg with ⟨i, hi, rfl⟩ | rfl | rfl
      · rw [sendCellOf_eq, L_tc]; exact Finset.mem_singleton_self _
      · exact Finset.mem_singleton_self _
      · exact Finset.mem_singleton_self _
    · rcases O₀_pos hg with ⟨i, hi, rfl⟩ | rfl | rfl
      · rw [lv_sendCellOf]; split <;> omega
      · exact Nat.one_pos
      · exact Nat.one_pos
  · rw [MayWait_zero]; iintro -; iempintro

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start (xstgA m ρ) (xstgB m ρ) c ∗ emp) := by
  iintro ⟨-, Hlev, Hcr, -, HG⟩
  ihave Hc := (creds (F := F) c) $$ Hcr
  icases Hc with ⟨H1, H3, H5⟩
  imodintro
  unfold start G'
  isplitl
  · isplitl [HG]; · iexact HG
    isplitl [H1]; · iexact H1
    isplitl [H3]; · iexact H3
    isplitl [H5]; · iexact H5
    iexact Hlev
  · iempintro

theorem phi0_intro (c : Dev nD) :
    iprop(start (xstgA m ρ) (xstgB m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ (xstgA m ρ) (xstgB m ρ) c from rfl, scopedRest0_eq]
  unfold Φ₀
  iintro ⟨Hs, -, ⟨Hr0, Hr1⟩⟩
  isplitl [Hs]; · iexact Hs
  isplitl [Hr0]; · iexact Hr0
  iexact Hr1

theorem sems_eq (c : Dev nD) : (bigSep Finset.univ fun kab : Fin 4 × Fin 8 × Fin 3 => (semVal (kcell (c, .inr kab)) 0 : sProp 𝕄))
    = iprop(overAB (fun a b ha hb => semVal (dcell c (csem cc0_scratch2 a b (sem_inb a b ha hb))) 0)
        ∗ overAB (fun a b ha hb => semVal (dcell c (csem cc0_scratch3 a b (sem_inb a b ha hb))) 0)
        ∗ overAB (fun a b ha hb => semVal (dcell c (csem cc0_scratch4 a b (sem_inb a b ha hb))) 0)
        ∗ overAB (fun a b ha hb => semVal (dcell c (csem cc0_scratch5 a b (sem_inb a b ha hb))) 0)) := by
  rw [bigSep_univ_prod (fun kab : Fin 4 × Fin 8 × Fin 3 => (semVal (kcell (c, .inr kab)) 0 : sProp 𝕄)), bigSep_fin4]
  rfl

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq, sems_eq]
  unfold Φ₁
  iintro ⟨Hr0, Hr1, H2, H3, H4, H5⟩
  isplitr; · iempintro
  isplitl [H2 H3 H4 H5]
  · isplitl [H2]; · iexact H2
    isplitl [H3]; · iexact H3
    isplitl [H4]; · iexact H4
    iexact H5
  isplitl [Hr0]; · iexact Hr0
  iexact Hr1

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

theorem share_eq (c : Dev nD) (w : Fin cfg0.W) : (dats m ρ 0 c).share w = fullShare := by unfold Dat.share; split <;> rfl

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- At the compiled mesh of four devices, for any float values, from any memory with zero counters: every weakly fair execution of
    @main — the four kernels meeting on the barrier semaphore, then passing blocks around the ring in both directions — terminates,
    and every final state has each device's arrays at the computed contents. -/
theorem run_main (hbody : SoundBody m ρ) : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ hbody) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start (xstgA m ρ) (xstgB m ρ)) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The two argument arrays after the run hold what they held. -/
theorem finalA_in0 (c : Dev nD) : finalA m ρ c (0 : Fin 3) = (s₀ m ρ).mem (win0_0.arr.view.loc (c : Thread nD τ)) :=
  (dats (F := F) m ρ 0 c).arrAt_in (0 : Fin 3) rfl _
theorem finalA_in1 (c : Dev nD) : finalA m ρ c (1 : Fin 3) = (s₀ m ρ).mem (win0_1.arr.view.loc (c : Thread nD τ)) :=
  (dats (F := F) m ρ 0 c).arrAt_in (1 : Fin 3) rfl _

/-- Copy `j` of the 48 completes on a receive cell at level `2 + j / 8`: its phase, counted from 2. -/
theorem lv_sendCellOf' (c : Dev nD) (j : ℕ) (hj : j < 48) : lv (sendCellOf c j) () = 2 + j / 8 := by
  rw [lv_sendCellOf]; split <;> omega

/-- A wait once the first `j₀` copies are issued, at a level below the phase of copy `j₀`: everything still owed stands higher. -/
theorem mayWait_from (c : Dev nD) (sm : SemLoc sig) (j₀ : ℕ) (hj : j₀ ≤ 48) (hk : lv ((c : Thread nD τ), sm) () < 2 + j₀ / 8) :
    (levAts L lv : sProp 𝕄) ⊢ MayWait (c : Thread nD τ) sm () (owedRem c (48 - j₀)) :=
  mayWait_rem c sm (48 - j₀) (lv ((c : Thread nD τ), sm) ()) (le_refl _) (fun i hi => by
    rw [lv_sendCellOf' c (47 - i) (by omega)]
    have : j₀ / 8 ≤ (47 - i) / 8 := Nat.div_le_div_right (by omega)
    omega)

/-- The barrier wait, all 48 copies still owed. -/
theorem mayWait_bar (c : Dev nD) : (levAts L lv : sProp 𝕄) ⊢ MayWait (c : Thread nD τ) (.reg barS) () (owedRem c 48) :=
  mayWait_from c (.reg barS) 0 (by decide) (by show 1 < 2 + 0 / 8; decide)

/-- The wait on the own reduce-scatter receive cell `(a, b)`, once `j₀ ≥ 8 (b + 1)` copies are issued. -/
theorem mayWait_rsRecv (c : Dev nD) (a b : ℕ) (h : ∀ i, (![a, b] : Fin 2 → Nat) i + S1x1.size i ≤ S8x3.size i) (j₀ : ℕ) (hj : j₀ ≤ 48)
    (hb : 8 * (b + 1) ≤ j₀) :
    (levAts L lv : sProp 𝕄) ⊢ MayWait (c : Thread nD τ) (.dma (csem cc0_scratch3 a b h)) () (owedRem c (48 - j₀)) :=
  mayWait_from c _ j₀ hj (by
    rw [show ((c : Thread nD τ), SemLoc.dma (csem cc0_scratch3 a b h)) = dcell c (csem cc0_scratch3 a b h) from rfl, lv_rsRecv]
    have : b + 1 ≤ j₀ / 8 := (Nat.le_div_iff_mul_le (by decide)).mpr (by omega)
    omega)

/-- The wait on the own all-gather receive cell `(a, b)`, once `j₀ ≥ 8 (b + 4)` copies are issued (all 48 for the last step). -/
theorem mayWait_agRecv (c : Dev nD) (a b : ℕ) (h : ∀ i, (![a, b] : Fin 2 → Nat) i + S1x1.size i ≤ S8x3.size i) (j₀ : ℕ) (hj : j₀ ≤ 48)
    (hb : 8 * (b + 4) ≤ j₀) :
    (levAts L lv : sProp 𝕄) ⊢ MayWait (c : Thread nD τ) (.dma (csem cc0_scratch5 a b h)) () (owedRem c (48 - j₀)) :=
  mayWait_from c _ j₀ hj (by
    rw [show ((c : Thread nD τ), SemLoc.dma (csem cc0_scratch5 a b h)) = dcell c (csem cc0_scratch5 a b h) from rfl, lv_agRecv]
    have : b + 4 ≤ j₀ / 8 := (Nat.le_div_iff_mul_le (by decide)).mpr (by omega)
    omega)

/-- The result array after the run is the one buffer of finished blocks, on every device. -/
theorem finalA_out (c : Dev nD) : finalA m ρ c (2 : Fin 3) = outAll (xstgA m ρ) (xstgB m ρ) := by
  unfold finalA
  rw [show cfg0.N = (t₀ : Fin cfg0.N).val + 1 from rfl, Dat.arrAt_succ, if_pos (flush0_2 t₀)]
  exact Memref.write_access_unit_zero_univ (Elt F) main_v1 (funext fun a => by fin_cases a <;> rfl) _ _ _

/-- info: 'Cert.Kernel.P.run_main' depends on axioms: [propext, Classical.choice, Quot.sound] -/
#guard_msgs in #print axioms run_main

end Cert.Kernel.P

end
-- ==== Proof.KFrameGen.lean ====
import proofs.«900901_g7700000000000902_dist_matmul_silu_kshard_i_m2048_n2048_k1024_v7x_i4_bf16_1_alg».proof.Proof.KLaunch

/-!
The arguments end unchanged.

Given one device's body, the whole program runs from any memory with zero counters, for any float values, and the two argument
arrays of every device end as they began: they are the pipeline's input windows, read and never written, so their contents
after the run are their contents at launch.
-/

noncomputable section

namespace Cert.Kernel.Final

open Cert.Kernel Cert.Kernel.Gen Cert.Kernel.P
open Idealize.ShloMosaic Idealize.ShloMosaic.TcCoe Idealize.SL.Sem

/-! ## The arguments end unchanged, for any float values -/

/-- From any memory with zero counters, for any float values: the program runs, and each device's two argument arrays end as they
    began — the run's post read at the two input windows, which the pipeline never writes. -/
theorem frame_gen {F : FTy → Type} [FloatOps F] (hbody : ∀ m ρ, SoundBody (F := F) m ρ)
    (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c 0).trans (finalA_in0 m ρ c), (h c 1).trans (finalA_in1 m ρ c)⟩)
    (run_main m ρ (hbody m ρ))

end Cert.Kernel.Final

end
-- ==== Proof.KFinal.lean ====
import proofs.«900901_g7700000000000902_dist_matmul_silu_kshard_i_m2048_n2048_k1024_v7x_i4_bf16_1_alg».proof.Proof.KFrameGen
import proofs.«900901_g7700000000000902_dist_matmul_silu_kshard_i_m2048_n2048_k1024_v7x_i4_bf16_1_alg».proof.Defs
import proofs.«900901_g7700000000000902_dist_matmul_silu_kshard_i_m2048_n2048_k1024_v7x_i4_bf16_1_alg».proof.Proof.Gen.Kernel
import proofs.«900901_g7700000000000902_dist_matmul_silu_kshard_i_m2048_n2048_k1024_v7x_i4_bf16_1_alg».proof.Proof.Gen.Pre_finite_inputs_Kernel

/-!
The frame of the program as printed, at the word-level values: given one device's body there, the program runs from any
memory satisfying the precondition with zero counters, and each device's two argument arrays end as they began. The precondition
is not used: the arrays are input windows, which the pipeline never writes.
-/

noncomputable section

namespace Cert.Kernel.Final

open Idealize.ShloMosaic

theorem frame_k (hbody : ∀ m ρ, Cert.Kernel.P.SoundBody (F := Bits) m ρ) :
    Cert.frame_Kernel (hKernel := Cert.Kernel.Gen.facts) (hPre_finite_inputs_Kernel := Cert.Pre_finite_inputs_Kernel.Gen.facts) :=
  fun m g _ => Cert.Kernel.Final.frame_gen hbody m g

end Cert.Kernel.Final

end
-- ==== Proof.BodyTables.lean ====
import proofs.«900901_g7700000000000902_dist_matmul_silu_kshard_i_m2048_n2048_k1024_v7x_i4_bf16_1_alg».proof.Proof.Ghost

noncomputable section

namespace Cert.KernelIdeal.P

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem peel_0 (c : Dev nD) : owedRem c 48 = owedRem c 47 + tallyAt (dcell (nxt c) (csem cc0_scratch3 0 0 inb_S8x3_S1x1_0_0)) () Nrs := rfl
theorem peel_1 (c : Dev nD) : owedRem c 47 = owedRem c 46 + tallyAt (dcell (prv c) (csem cc0_scratch3 4 0 inb_S8x3_S1x1_4_0)) () Nrs := rfl
theorem peel_2 (c : Dev nD) : owedRem c 46 = owedRem c 45 + tallyAt (dcell (nxt c) (csem cc0_scratch3 1 0 inb_S8x3_S1x1_1_0)) () Nrs := rfl
theorem peel_3 (c : Dev nD) : owedRem c 45 = owedRem c 44 + tallyAt (dcell (prv c) (csem cc0_scratch3 5 0 inb_S8x3_S1x1_5_0)) () Nrs := rfl
theorem peel_4 (c : Dev nD) : owedRem c 44 = owedRem c 43 + tallyAt (dcell (nxt c) (csem cc0_scratch3 2 0 inb_S8x3_S1x1_2_0)) () Nrs := rfl
theorem peel_5 (c : Dev nD) : owedRem c 43 = owedRem c 42 + tallyAt (dcell (prv c) (csem cc0_scratch3 6 0 inb_S8x3_S1x1_6_0)) () Nrs := rfl
theorem peel_6 (c : Dev nD) : owedRem c 42 = owedRem c 41 + tallyAt (dcell (nxt c) (csem cc0_scratch3 3 0 inb_S8x3_S1x1_3_0)) () Nrs := rfl
theorem peel_7 (c : Dev nD) : owedRem c 41 = owedRem c 40 + tallyAt (dcell (prv c) (csem cc0_scratch3 7 0 inb_S8x3_S1x1_7_0)) () Nrs := rfl
theorem peel_8 (c : Dev nD) : owedRem c 40 = owedRem c 39 + tallyAt (dcell (nxt c) (csem cc0_scratch3 0 1 inb_S8x3_S1x1_0_1)) () Nrs := rfl
theorem peel_9 (c : Dev nD) : owedRem c 39 = owedRem c 38 + tallyAt (dcell (prv c) (csem cc0_scratch3 4 1 inb_S8x3_S1x1_4_1)) () Nrs := rfl
theorem peel_10 (c : Dev nD) : owedRem c 38 = owedRem c 37 + tallyAt (dcell (nxt c) (csem cc0_scratch3 1 1 inb_S8x3_S1x1_1_1)) () Nrs := rfl
theorem peel_11 (c : Dev nD) : owedRem c 37 = owedRem c 36 + tallyAt (dcell (prv c) (csem cc0_scratch3 5 1 inb_S8x3_S1x1_5_1)) () Nrs := rfl
theorem peel_12 (c : Dev nD) : owedRem c 36 = owedRem c 35 + tallyAt (dcell (nxt c) (csem cc0_scratch3 2 1 inb_S8x3_S1x1_2_1)) () Nrs := rfl
theorem peel_13 (c : Dev nD) : owedRem c 35 = owedRem c 34 + tallyAt (dcell (prv c) (csem cc0_scratch3 6 1 inb_S8x3_S1x1_6_1)) () Nrs := rfl
theorem peel_14 (c : Dev nD) : owedRem c 34 = owedRem c 33 + tallyAt (dcell (nxt c) (csem cc0_scratch3 3 1 inb_S8x3_S1x1_3_1)) () Nrs := rfl
theorem peel_15 (c : Dev nD) : owedRem c 33 = owedRem c 32 + tallyAt (dcell (prv c) (csem cc0_scratch3 7 1 inb_S8x3_S1x1_7_1)) () Nrs := rfl
theorem peel_16 (c : Dev nD) : owedRem c 32 = owedRem c 31 + tallyAt (dcell (nxt c) (csem cc0_scratch3 0 2 inb_S8x3_S1x1_0_2)) () Nrs := rfl
theorem peel_17 (c : Dev nD) : owedRem c 31 = owedRem c 30 + tallyAt (dcell (prv c) (csem cc0_scratch3 4 2 inb_S8x3_S1x1_4_2)) () Nrs := rfl
theorem peel_18 (c : Dev nD) : owedRem c 30 = owedRem c 29 + tallyAt (dcell (nxt c) (csem cc0_scratch3 1 2 inb_S8x3_S1x1_1_2)) () Nrs := rfl
theorem peel_19 (c : Dev nD) : owedRem c 29 = owedRem c 28 + tallyAt (dcell (prv c) (csem cc0_scratch3 5 2 inb_S8x3_S1x1_5_2)) () Nrs := rfl
theorem peel_20 (c : Dev nD) : owedRem c 28 = owedRem c 27 + tallyAt (dcell (nxt c) (csem cc0_scratch3 2 2 inb_S8x3_S1x1_2_2)) () Nrs := rfl
theorem peel_21 (c : Dev nD) : owedRem c 27 = owedRem c 26 + tallyAt (dcell (prv c) (csem cc0_scratch3 6 2 inb_S8x3_S1x1_6_2)) () Nrs := rfl
theorem peel_22 (c : Dev nD) : owedRem c 26 = owedRem c 25 + tallyAt (dcell (nxt c) (csem cc0_scratch3 3 2 inb_S8x3_S1x1_3_2)) () Nrs := rfl
theorem peel_23 (c : Dev nD) : owedRem c 25 = owedRem c 24 + tallyAt (dcell (prv c) (csem cc0_scratch3 7 2 inb_S8x3_S1x1_7_2)) () Nrs := rfl
theorem peel_24 (c : Dev nD) : owedRem c 24 = owedRem c 23 + tallyAt (dcell (nxt c) (csem cc0_scratch5 0 0 inb_S8x3_S1x1_0_0)) () Nag := rfl
theorem peel_25 (c : Dev nD) : owedRem c 23 = owedRem c 22 + tallyAt (dcell (prv c) (csem cc0_scratch5 4 0 inb_S8x3_S1x1_4_0)) () Nag := rfl
theorem peel_26 (c : Dev nD) : owedRem c 22 = owedRem c 21 + tallyAt (dcell (nxt c) (csem cc0_scratch5 1 0 inb_S8x3_S1x1_1_0)) () Nag := rfl
theorem peel_27 (c : Dev nD) : owedRem c 21 = owedRem c 20 + tallyAt (dcell (prv c) (csem cc0_scratch5 5 0 inb_S8x3_S1x1_5_0)) () Nag := rfl
theorem peel_28 (c : Dev nD) : owedRem c 20 = owedRem c 19 + tallyAt (dcell (nxt c) (csem cc0_scratch5 2 0 inb_S8x3_S1x1_2_0)) () Nag := rfl
theorem peel_29 (c : Dev nD) : owedRem c 19 = owedRem c 18 + tallyAt (dcell (prv c) (csem cc0_scratch5 6 0 inb_S8x3_S1x1_6_0)) () Nag := rfl
theorem peel_30 (c : Dev nD) : owedRem c 18 = owedRem c 17 + tallyAt (dcell (nxt c) (csem cc0_scratch5 3 0 inb_S8x3_S1x1_3_0)) () Nag := rfl
theorem peel_31 (c : Dev nD) : owedRem c 17 = owedRem c 16 + tallyAt (dcell (prv c) (csem cc0_scratch5 7 0 inb_S8x3_S1x1_7_0)) () Nag := rfl
theorem peel_32 (c : Dev nD) : owedRem c 16 = owedRem c 15 + tallyAt (dcell (nxt c) (csem cc0_scratch5 0 1 inb_S8x3_S1x1_0_1)) () Nag := rfl
theorem peel_33 (c : Dev nD) : owedRem c 15 = owedRem c 14 + tallyAt (dcell (prv c) (csem cc0_scratch5 4 1 inb_S8x3_S1x1_4_1)) () Nag := rfl
theorem peel_34 (c : Dev nD) : owedRem c 14 = owedRem c 13 + tallyAt (dcell (nxt c) (csem cc0_scratch5 1 1 inb_S8x3_S1x1_1_1)) () Nag := rfl
theorem peel_35 (c : Dev nD) : owedRem c 13 = owedRem c 12 + tallyAt (dcell (prv c) (csem cc0_scratch5 5 1 inb_S8x3_S1x1_5_1)) () Nag := rfl
theorem peel_36 (c : Dev nD) : owedRem c 12 = owedRem c 11 + tallyAt (dcell (nxt c) (csem cc0_scratch5 2 1 inb_S8x3_S1x1_2_1)) () Nag := rfl
theorem peel_37 (c : Dev nD) : owedRem c 11 = owedRem c 10 + tallyAt (dcell (prv c) (csem cc0_scratch5 6 1 inb_S8x3_S1x1_6_1)) () Nag := rfl
theorem peel_38 (c : Dev nD) : owedRem c 10 = owedRem c 9 + tallyAt (dcell (nxt c) (csem cc0_scratch5 3 1 inb_S8x3_S1x1_3_1)) () Nag := rfl
theorem peel_39 (c : Dev nD) : owedRem c 9 = owedRem c 8 + tallyAt (dcell (prv c) (csem cc0_scratch5 7 1 inb_S8x3_S1x1_7_1)) () Nag := rfl
theorem peel_40 (c : Dev nD) : owedRem c 8 = owedRem c 7 + tallyAt (dcell (nxt c) (csem cc0_scratch5 0 2 inb_S8x3_S1x1_0_2)) () Nag := rfl
theorem peel_41 (c : Dev nD) : owedRem c 7 = owedRem c 6 + tallyAt (dcell (prv c) (csem cc0_scratch5 4 2 inb_S8x3_S1x1_4_2)) () Nag := rfl
theorem peel_42 (c : Dev nD) : owedRem c 6 = owedRem c 5 + tallyAt (dcell (nxt c) (csem cc0_scratch5 1 2 inb_S8x3_S1x1_1_2)) () Nag := rfl
theorem peel_43 (c : Dev nD) : owedRem c 5 = owedRem c 4 + tallyAt (dcell (prv c) (csem cc0_scratch5 5 2 inb_S8x3_S1x1_5_2)) () Nag := rfl
theorem peel_44 (c : Dev nD) : owedRem c 4 = owedRem c 3 + tallyAt (dcell (nxt c) (csem cc0_scratch5 2 2 inb_S8x3_S1x1_2_2)) () Nag := rfl
theorem peel_45 (c : Dev nD) : owedRem c 3 = owedRem c 2 + tallyAt (dcell (prv c) (csem cc0_scratch5 6 2 inb_S8x3_S1x1_6_2)) () Nag := rfl
theorem peel_46 (c : Dev nD) : owedRem c 2 = owedRem c 1 + tallyAt (dcell (nxt c) (csem cc0_scratch5 3 2 inb_S8x3_S1x1_3_2)) () Nag := rfl
theorem peel_47 (c : Dev nD) : owedRem c 1 = owedRem c 0 + tallyAt (dcell (prv c) (csem cc0_scratch5 7 2 inb_S8x3_S1x1_7_2)) () Nag := rfl

set_option maxHeartbeats 8000000 in
/-- What the body of device `c` starts from, every piece on its own. -/
def corePre (fa : Dev nD → AT F) (fb : Dev nD → BT F) (K : GSem nD τ sig → ℕ) (c : Dev nD)
    (fbb : BbT F) (fr : RT F) (fo : OT F) (W : Waits sig Unit) : sProp 𝕄 :=
  iprop(((aM : Memref sig .tc .vmem S2048x1024 .f32).view.loc (c : Thread nD τ) ↦{fullShare} fa c)
    ∗ ((bM : Memref sig .tc .vmem S1024x2048 .f32).view.loc (c : Thread nD τ) ↦{fullShare} fb c)
    ∗ ((bbM : Memref sig .tc .vmem S1024x2048 .bf16).view.loc (c : Thread nD τ) ↦{fullShare} fbb)
    ∗ ((slotM 0 0 inb_S8x4x512x256_S1x1x512x256_0_0_0_0 : Memref sig .tc .vmem S512x256 .bf16).view.loc ((c : Dev nD) : Thread nD τ) ↦[(slotM 0 0 inb_S8x4x512x256_S1x1x512x256_0_0_0_0 : Memref sig .tc .vmem S512x256 .bf16).view.set]{fullShare} fr)
    ∗ ((slotM 0 1 inb_S8x4x512x256_S1x1x512x256_0_1_0_0 : Memref sig .tc .vmem S512x256 .bf16).view.loc ((c : Dev nD) : Thread nD τ) ↦[(slotM 0 1 inb_S8x4x512x256_S1x1x512x256_0_1_0_0 : Memref sig .tc .vmem S512x256 .bf16).view.set]{fullShare} fr)
    ∗ ((slotM 0 2 inb_S8x4x512x256_S1x1x512x256_0_2_0_0 : Memref sig .tc .vmem S512x256 .bf16).view.loc ((c : Dev nD) : Thread nD τ) ↦[(slotM 0 2 inb_S8x4x512x256_S1x1x512x256_0_2_0_0 : Memref sig .tc .vmem S512x256 .bf16).view.set]{fullShare} fr)
    ∗ ((slotM 0 3 inb_S8x4x512x256_S1x1x512x256_0_3_0_0 : Memref sig .tc .vmem S512x256 .bf16).view.loc ((c : Dev nD) : Thread nD τ) ↦[(slotM 0 3 inb_S8x4x512x256_S1x1x512x256_0_3_0_0 : Memref sig .tc .vmem S512x256 .bf16).view.set]{fullShare} fr)
    ∗ ((slotM 1 0 inb_S8x4x512x256_S1x1x512x256_1_0_0_0 : Memref sig .tc .vmem S512x256 .bf16).view.loc ((c : Dev nD) : Thread nD τ) ↦[(slotM 1 0 inb_S8x4x512x256_S1x1x512x256_1_0_0_0 : Memref sig .tc .vmem S512x256 .bf16).view.set]{fullShare} fr)
    ∗ ((slotM 1 1 inb_S8x4x512x256_S1x1x512x256_1_1_0_0 : Memref sig .tc .vmem S512x256 .bf16).view.loc ((c : Dev nD) : Thread nD τ) ↦[(slotM 1 1 inb_S8x4x512x256_S1x1x512x256_1_1_0_0 : Memref sig .tc .vmem S512x256 .bf16).view.set]{fullShare} fr)
    ∗ ((slotM 1 2 inb_S8x4x512x256_S1x1x512x256_1_2_0_0 : Memref sig .tc .vmem S512x256 .bf16).view.loc ((c : Dev nD) : Thread nD τ) ↦[(slotM 1 2 inb_S8x4x512x256_S1x1x512x256_1_2_0_0 : Memref sig .tc .vmem S512x256 .bf16).view.set]{fullShare} fr)
    ∗ ((slotM 1 3 inb_S8x4x512x256_S1x1x512x256_1_3_0_0 : Memref sig .tc .vmem S512x256 .bf16).view.loc ((c : Dev nD) : Thread nD τ) ↦[(slotM 1 3 inb_S8x4x512x256_S1x1x512x256_1_3_0_0 : Memref sig .tc .vmem S512x256 .bf16).view.set]{fullShare} fr)
    ∗ ((slotM 2 0 inb_S8x4x512x256_S1x1x512x256_2_0_0_0 : Memref sig .tc .vmem S512x256 .bf16).view.loc ((c : Dev nD) : Thread nD τ) ↦[(slotM 2 0 inb_S8x4x512x256_S1x1x512x256_2_0_0_0 : Memref sig .tc .vmem S512x256 .bf16).view.set]{fullShare} fr)
    ∗ ((slotM 2 1 inb_S8x4x512x256_S1x1x512x256_2_1_0_0 : Memref sig .tc .vmem S512x256 .bf16).view.loc ((c : Dev nD) : Thread nD τ) ↦[(slotM 2 1 inb_S8x4x512x256_S1x1x512x256_2_1_0_0 : Memref sig .tc .vmem S512x256 .bf16).view.set]{fullShare} fr)
    ∗ ((slotM 2 2 inb_S8x4x512x256_S1x1x512x256_2_2_0_0 : Memref sig .tc .vmem S512x256 .bf16).view.loc ((c : Dev nD) : Thread nD τ) ↦[(slotM 2 2 inb_S8x4x512x256_S1x1x512x256_2_2_0_0 : Memref sig .tc .vmem S512x256 .bf16).view.set]{fullShare} fr)
    ∗ ((slotM 2 3 inb_S8x4x512x256_S1x1x512x256_2_3_0_0 : Memref sig .tc .vmem S512x256 .bf16).view.loc ((c : Dev nD) : Thread nD τ) ↦[(slotM 2 3 inb_S8x4x512x256_S1x1x512x256_2_3_0_0 : Memref sig .tc .vmem S512x256 .bf16).view.set]{fullShare} fr)
    ∗ ((slotM 3 0 inb_S8x4x512x256_S1x1x512x256_3_0_0_0 : Memref sig .tc .vmem S512x256 .bf16).view.loc ((c : Dev nD) : Thread nD τ) ↦[(slotM 3 0 inb_S8x4x512x256_S1x1x512x256_3_0_0_0 : Memref sig .tc .vmem S512x256 .bf16).view.set]{fullShare} fr)
    ∗ ((slotM 3 1 inb_S8x4x512x256_S1x1x512x256_3_1_0_0 : Memref sig .tc .vmem S512x256 .bf16).view.loc ((c : Dev nD) : Thread nD τ) ↦[(slotM 3 1 inb_S8x4x512x256_S1x1x512x256_3_1_0_0 : Memref sig .tc .vmem S512x256 .bf16).view.set]{fullShare} fr)
    ∗ ((slotM 3 2 inb_S8x4x512x256_S1x1x512x256_3_2_0_0 : Memref sig .tc .vmem S512x256 .bf16).view.loc ((c : Dev nD) : Thread nD τ) ↦[(slotM 3 2 inb_S8x4x512x256_S1x1x512x256_3_2_0_0 : Memref sig .tc .vmem S512x256 .bf16).view.set]{fullShare} fr)
    ∗ ((slotM 3 3 inb_S8x4x512x256_S1x1x512x256_3_3_0_0 : Memref sig .tc .vmem S512x256 .bf16).view.loc ((c : Dev nD) : Thread nD τ) ↦[(slotM 3 3 inb_S8x4x512x256_S1x1x512x256_3_3_0_0 : Memref sig .tc .vmem S512x256 .bf16).view.set]{fullShare} fr)
    ∗ ((slotM 4 0 inb_S8x4x512x256_S1x1x512x256_4_0_0_0 : Memref sig .tc .vmem S512x256 .bf16).view.loc ((c : Dev nD) : Thread nD τ) ↦[(slotM 4 0 inb_S8x4x512x256_S1x1x512x256_4_0_0_0 : Memref sig .tc .vmem S512x256 .bf16).view.set]{fullShare} fr)
    ∗ ((slotM 4 1 inb_S8x4x512x256_S1x1x512x256_4_1_0_0 : Memref sig .tc .vmem S512x256 .bf16).view.loc ((c : Dev nD) : Thread nD τ) ↦[(slotM 4 1 inb_S8x4x512x256_S1x1x512x256_4_1_0_0 : Memref sig .tc .vmem S512x256 .bf16).view.set]{fullShare} fr)
    ∗ ((slotM 4 2 inb_S8x4x512x256_S1x1x512x256_4_2_0_0 : Memref sig .tc .vmem S512x256 .bf16).view.loc ((c : Dev nD) : Thread nD τ) ↦[(slotM 4 2 inb_S8x4x512x256_S1x1x512x256_4_2_0_0 : Memref sig .tc .vmem S512x256 .bf16).view.set]{fullShare} fr)
    ∗ ((slotM 4 3 inb_S8x4x512x256_S1x1x512x256_4_3_0_0 : Memref sig .tc .vmem S512x256 .bf16).view.loc ((c : Dev nD) : Thread nD τ) ↦[(slotM 4 3 inb_S8x4x512x256_S1x1x512x256_4_3_0_0 : Memref sig .tc .vmem S512x256 .bf16).view.set]{fullShare} fr)
    ∗ ((slotM 5 0 inb_S8x4x512x256_S1x1x512x256_5_0_0_0 : Memref sig .tc .vmem S512x256 .bf16).view.loc ((c : Dev nD) : Thread nD τ) ↦[(slotM 5 0 inb_S8x4x512x256_S1x1x512x256_5_0_0_0 : Memref sig .tc .vmem S512x256 .bf16).view.set]{fullShare} fr)
    ∗ ((slotM 5 1 inb_S8x4x512x256_S1x1x512x256_5_1_0_0 : Memref sig .tc .vmem S512x256 .bf16).view.loc ((c : Dev nD) : Thread nD τ) ↦[(slotM 5 1 inb_S8x4x512x256_S1x1x512x256_5_1_0_0 : Memref sig .tc .vmem S512x256 .bf16).view.set]{fullShare} fr)
    ∗ ((slotM 5 2 inb_S8x4x512x256_S1x1x512x256_5_2_0_0 : Memref sig .tc .vmem S512x256 .bf16).view.loc ((c : Dev nD) : Thread nD τ) ↦[(slotM 5 2 inb_S8x4x512x256_S1x1x512x256_5_2_0_0 : Memref sig .tc .vmem S512x256 .bf16).view.set]{fullShare} fr)
    ∗ ((slotM 5 3 inb_S8x4x512x256_S1x1x512x256_5_3_0_0 : Memref sig .tc .vmem S512x256 .bf16).view.loc ((c : Dev nD) : Thread nD τ) ↦[(slotM 5 3 inb_S8x4x512x256_S1x1x512x256_5_3_0_0 : Memref sig .tc .vmem S512x256 .bf16).view.set]{fullShare} fr)
    ∗ ((slotM 6 0 inb_S8x4x512x256_S1x1x512x256_6_0_0_0 : Memref sig .tc .vmem S512x256 .bf16).view.loc ((c : Dev nD) : Thread nD τ) ↦[(slotM 6 0 inb_S8x4x512x256_S1x1x512x256_6_0_0_0 : Memref sig .tc .vmem S512x256 .bf16).view.set]{fullShare} fr)
    ∗ ((slotM 6 1 inb_S8x4x512x256_S1x1x512x256_6_1_0_0 : Memref sig .tc .vmem S512x256 .bf16).view.loc ((c : Dev nD) : Thread nD τ) ↦[(slotM 6 1 inb_S8x4x512x256_S1x1x512x256_6_1_0_0 : Memref sig .tc .vmem S512x256 .bf16).view.set]{fullShare} fr)
    ∗ ((slotM 6 2 inb_S8x4x512x256_S1x1x512x256_6_2_0_0 : Memref sig .tc .vmem S512x256 .bf16).view.loc ((c : Dev nD) : Thread nD τ) ↦[(slotM 6 2 inb_S8x4x512x256_S1x1x512x256_6_2_0_0 : Memref sig .tc .vmem S512x256 .bf16).view.set]{fullShare} fr)
    ∗ ((slotM 6 3 inb_S8x4x512x256_S1x1x512x256_6_3_0_0 : Memref sig .tc .vmem S512x256 .bf16).view.loc ((c : Dev nD) : Thread nD τ) ↦[(slotM 6 3 inb_S8x4x512x256_S1x1x512x256_6_3_0_0 : Memref sig .tc .vmem S512x256 .bf16).view.set]{fullShare} fr)
    ∗ ((slotM 7 0 inb_S8x4x512x256_S1x1x512x256_7_0_0_0 : Memref sig .tc .vmem S512x256 .bf16).view.loc ((c : Dev nD) : Thread nD τ) ↦[(slotM 7 0 inb_S8x4x512x256_S1x1x512x256_7_0_0_0 : Memref sig .tc .vmem S512x256 .bf16).view.set]{fullShare} fr)
    ∗ ((slotM 7 1 inb_S8x4x512x256_S1x1x512x256_7_1_0_0 : Memref sig .tc .vmem S512x256 .bf16).view.loc ((c : Dev nD) : Thread nD τ) ↦[(slotM 7 1 inb_S8x4x512x256_S1x1x512x256_7_1_0_0 : Memref sig .tc .vmem S512x256 .bf16).view.set]{fullShare} fr)
    ∗ ((slotM 7 2 inb_S8x4x512x256_S1x1x512x256_7_2_0_0 : Memref sig .tc .vmem S512x256 .bf16).view.loc ((c : Dev nD) : Thread nD τ) ↦[(slotM 7 2 inb_S8x4x512x256_S1x1x512x256_7_2_0_0 : Memref sig .tc .vmem S512x256 .bf16).view.set]{fullShare} fr)
    ∗ ((slotM 7 3 inb_S8x4x512x256_S1x1x512x256_7_3_0_0 : Memref sig .tc .vmem S512x256 .bf16).view.loc ((c : Dev nD) : Thread nD τ) ↦[(slotM 7 3 inb_S8x4x512x256_S1x1x512x256_7_3_0_0 : Memref sig .tc .vmem S512x256 .bf16).view.set]{fullShare} fr)
    ∗ ((oblkM (k0_off2 c) (k0_off2_inb c) : Memref sig .tc .vmem S512x256 .bf16).view.loc ((c : Dev nD) : Thread nD τ) ↦[(oblkM (k0_off2 c) (k0_off2_inb c) : Memref sig .tc .vmem S512x256 .bf16).view.set]{fullShare} fo)
    ∗ ((oblkM (k0_off6 c) (k0_off6_inb c) : Memref sig .tc .vmem S512x256 .bf16).view.loc ((c : Dev nD) : Thread nD τ) ↦[(oblkM (k0_off6 c) (k0_off6_inb c) : Memref sig .tc .vmem S512x256 .bf16).view.set]{fullShare} fo)
    ∗ ((oblkM (k0_off10 c) (k0_off10_inb c) : Memref sig .tc .vmem S512x256 .bf16).view.loc ((c : Dev nD) : Thread nD τ) ↦[(oblkM (k0_off10 c) (k0_off10_inb c) : Memref sig .tc .vmem S512x256 .bf16).view.set]{fullShare} fo)
    ∗ ((oblkM (k0_off14 c) (k0_off14_inb c) : Memref sig .tc .vmem S512x256 .bf16).view.loc ((c : Dev nD) : Thread nD τ) ↦[(oblkM (k0_off14 c) (k0_off14_inb c) : Memref sig .tc .vmem S512x256 .bf16).view.set]{fullShare} fo)
    ∗ ((oblkM (k0_off4 c) (k0_off4_inb c) : Memref sig .tc .vmem S512x256 .bf16).view.loc ((c : Dev nD) : Thread nD τ) ↦[(oblkM (k0_off4 c) (k0_off4_inb c) : Memref sig .tc .vmem S512x256 .bf16).view.set]{fullShare} fo)
    ∗ ((oblkM (k0_off8 c) (k0_off8_inb c) : Memref sig .tc .vmem S512x256 .bf16).view.loc ((c : Dev nD) : Thread nD τ) ↦[(oblkM (k0_off8 c) (k0_off8_inb c) : Memref sig .tc .vmem S512x256 .bf16).view.set]{fullShare} fo)
    ∗ ((oblkM (k0_off12 c) (k0_off12_inb c) : Memref sig .tc .vmem S512x256 .bf16).view.loc ((c : Dev nD) : Thread nD τ) ↦[(oblkM (k0_off12 c) (k0_off12_inb c) : Memref sig .tc .vmem S512x256 .bf16).view.set]{fullShare} fo)
    ∗ ((oblkM (k0_off16 c) (k0_off16_inb c) : Memref sig .tc .vmem S512x256 .bf16).view.loc ((c : Dev nD) : Thread nD τ) ↦[(oblkM (k0_off16 c) (k0_off16_inb c) : Memref sig .tc .vmem S512x256 .bf16).view.set]{fullShare} fo)
    ∗ ((oblkM (rowOff c 3 0) (rowOff_inb c 3 0 (by decide)) : Memref sig .tc .vmem S512x256 .bf16).view.loc ((c : Dev nD) : Thread nD τ) ↦[(oblkM (rowOff c 3 0) (rowOff_inb c 3 0 (by decide)) : Memref sig .tc .vmem S512x256 .bf16).view.set]{fullShare} fo)
    ∗ ((oblkM (rowOff c 2 0) (rowOff_inb c 2 0 (by decide)) : Memref sig .tc .vmem S512x256 .bf16).view.loc ((c : Dev nD) : Thread nD τ) ↦[(oblkM (rowOff c 2 0) (rowOff_inb c 2 0 (by decide)) : Memref sig .tc .vmem S512x256 .bf16).view.set]{fullShare} fo)
    ∗ ((oblkM (rowOff c 1 0) (rowOff_inb c 1 0 (by decide)) : Memref sig .tc .vmem S512x256 .bf16).view.loc ((c : Dev nD) : Thread nD τ) ↦[(oblkM (rowOff c 1 0) (rowOff_inb c 1 0 (by decide)) : Memref sig .tc .vmem S512x256 .bf16).view.set]{fullShare} fo)
    ∗ ((oblkM (rowOff c 3 1) (rowOff_inb c 3 1 (by decide)) : Memref sig .tc .vmem S512x256 .bf16).view.loc ((c : Dev nD) : Thread nD τ) ↦[(oblkM (rowOff c 3 1) (rowOff_inb c 3 1 (by decide)) : Memref sig .tc .vmem S512x256 .bf16).view.set]{fullShare} fo)
    ∗ ((oblkM (rowOff c 2 1) (rowOff_inb c 2 1 (by decide)) : Memref sig .tc .vmem S512x256 .bf16).view.loc ((c : Dev nD) : Thread nD τ) ↦[(oblkM (rowOff c 2 1) (rowOff_inb c 2 1 (by decide)) : Memref sig .tc .vmem S512x256 .bf16).view.set]{fullShare} fo)
    ∗ ((oblkM (rowOff c 1 1) (rowOff_inb c 1 1 (by decide)) : Memref sig .tc .vmem S512x256 .bf16).view.loc ((c : Dev nD) : Thread nD τ) ↦[(oblkM (rowOff c 1 1) (rowOff_inb c 1 1 (by decide)) : Memref sig .tc .vmem S512x256 .bf16).view.set]{fullShare} fo)
    ∗ ((oblkM (rowOff c 3 2) (rowOff_inb c 3 2 (by decide)) : Memref sig .tc .vmem S512x256 .bf16).view.loc ((c : Dev nD) : Thread nD τ) ↦[(oblkM (rowOff c 3 2) (rowOff_inb c 3 2 (by decide)) : Memref sig .tc .vmem S512x256 .bf16).view.set]{fullShare} fo)
    ∗ ((oblkM (rowOff c 2 2) (rowOff_inb c 2 2 (by decide)) : Memref sig .tc .vmem S512x256 .bf16).view.loc ((c : Dev nD) : Thread nD τ) ↦[(oblkM (rowOff c 2 2) (rowOff_inb c 2 2 (by decide)) : Memref sig .tc .vmem S512x256 .bf16).view.set]{fullShare} fo)
    ∗ ((oblkM (rowOff c 1 2) (rowOff_inb c 1 2 (by decide)) : Memref sig .tc .vmem S512x256 .bf16).view.loc ((c : Dev nD) : Thread nD τ) ↦[(oblkM (rowOff c 1 2) (rowOff_inb c 1 2 (by decide)) : Memref sig .tc .vmem S512x256 .bf16).view.set]{fullShare} fo)
    ∗ ((oblkM (rowOff c 3 3) (rowOff_inb c 3 3 (by decide)) : Memref sig .tc .vmem S512x256 .bf16).view.loc ((c : Dev nD) : Thread nD τ) ↦[(oblkM (rowOff c 3 3) (rowOff_inb c 3 3 (by decide)) : Memref sig .tc .vmem S512x256 .bf16).view.set]{fullShare} fo)
    ∗ ((oblkM (rowOff c 2 3) (rowOff_inb c 2 3 (by decide)) : Memref sig .tc .vmem S512x256 .bf16).view.loc ((c : Dev nD) : Thread nD τ) ↦[(oblkM (rowOff c 2 3) (rowOff_inb c 2 3 (by decide)) : Memref sig .tc .vmem S512x256 .bf16).view.set]{fullShare} fo)
    ∗ ((oblkM (rowOff c 1 3) (rowOff_inb c 1 3 (by decide)) : Memref sig .tc .vmem S512x256 .bf16).view.loc ((c : Dev nD) : Thread nD τ) ↦[(oblkM (rowOff c 1 3) (rowOff_inb c 1 3 (by decide)) : Memref sig .tc .vmem S512x256 .bf16).view.set]{fullShare} fo)
    ∗ ((oblkM (rowOff c 1 4) (rowOff_inb c 1 4 (by decide)) : Memref sig .tc .vmem S512x256 .bf16).view.loc ((c : Dev nD) : Thread nD τ) ↦[(oblkM (rowOff c 1 4) (rowOff_inb c 1 4 (by decide)) : Memref sig .tc .vmem S512x256 .bf16).view.set]{fullShare} fo)
    ∗ ((oblkM (rowOff c 2 4) (rowOff_inb c 2 4 (by decide)) : Memref sig .tc .vmem S512x256 .bf16).view.loc ((c : Dev nD) : Thread nD τ) ↦[(oblkM (rowOff c 2 4) (rowOff_inb c 2 4 (by decide)) : Memref sig .tc .vmem S512x256 .bf16).view.set]{fullShare} fo)
    ∗ ((oblkM (rowOff c 3 4) (rowOff_inb c 3 4 (by decide)) : Memref sig .tc .vmem S512x256 .bf16).view.loc ((c : Dev nD) : Thread nD τ) ↦[(oblkM (rowOff c 3 4) (rowOff_inb c 3 4 (by decide)) : Memref sig .tc .vmem S512x256 .bf16).view.set]{fullShare} fo)
    ∗ ((oblkM (rowOff c 1 5) (rowOff_inb c 1 5 (by decide)) : Memref sig .tc .vmem S512x256 .bf16).view.loc ((c : Dev nD) : Thread nD τ) ↦[(oblkM (rowOff c 1 5) (rowOff_inb c 1 5 (by decide)) : Memref sig .tc .vmem S512x256 .bf16).view.set]{fullShare} fo)
    ∗ ((oblkM (rowOff c 2 5) (rowOff_inb c 2 5 (by decide)) : Memref sig .tc .vmem S512x256 .bf16).view.loc ((c : Dev nD) : Thread nD τ) ↦[(oblkM (rowOff c 2 5) (rowOff_inb c 2 5 (by decide)) : Memref sig .tc .vmem S512x256 .bf16).view.set]{fullShare} fo)
    ∗ ((oblkM (rowOff c 3 5) (rowOff_inb c 3 5 (by decide)) : Memref sig .tc .vmem S512x256 .bf16).view.loc ((c : Dev nD) : Thread nD τ) ↦[(oblkM (rowOff c 3 5) (rowOff_inb c 3 5 (by decide)) : Memref sig .tc .vmem S512x256 .bf16).view.set]{fullShare} fo)
    ∗ ((oblkM (rowOff c 1 6) (rowOff_inb c 1 6 (by decide)) : Memref sig .tc .vmem S512x256 .bf16).view.loc ((c : Dev nD) : Thread nD τ) ↦[(oblkM (rowOff c 1 6) (rowOff_inb c 1 6 (by decide)) : Memref sig .tc .vmem S512x256 .bf16).view.set]{fullShare} fo)
    ∗ ((oblkM (rowOff c 2 6) (rowOff_inb c 2 6 (by decide)) : Memref sig .tc .vmem S512x256 .bf16).view.loc ((c : Dev nD) : Thread nD τ) ↦[(oblkM (rowOff c 2 6) (rowOff_inb c 2 6 (by decide)) : Memref sig .tc .vmem S512x256 .bf16).view.set]{fullShare} fo)
    ∗ ((oblkM (rowOff c 3 6) (rowOff_inb c 3 6 (by decide)) : Memref sig .tc .vmem S512x256 .bf16).view.loc ((c : Dev nD) : Thread nD τ) ↦[(oblkM (rowOff c 3 6) (rowOff_inb c 3 6 (by decide)) : Memref sig .tc .vmem S512x256 .bf16).view.set]{fullShare} fo)
    ∗ ((oblkM (rowOff c 1 7) (rowOff_inb c 1 7 (by decide)) : Memref sig .tc .vmem S512x256 .bf16).view.loc ((c : Dev nD) : Thread nD τ) ↦[(oblkM (rowOff c 1 7) (rowOff_inb c 1 7 (by decide)) : Memref sig .tc .vmem S512x256 .bf16).view.set]{fullShare} fo)
    ∗ ((oblkM (rowOff c 2 7) (rowOff_inb c 2 7 (by decide)) : Memref sig .tc .vmem S512x256 .bf16).view.loc ((c : Dev nD) : Thread nD τ) ↦[(oblkM (rowOff c 2 7) (rowOff_inb c 2 7 (by decide)) : Memref sig .tc .vmem S512x256 .bf16).view.set]{fullShare} fo)
    ∗ ((oblkM (rowOff c 3 7) (rowOff_inb c 3 7 (by decide)) : Memref sig .tc .vmem S512x256 .bf16).view.loc ((c : Dev nD) : Thread nD τ) ↦[(oblkM (rowOff c 3 7) (rowOff_inb c 3 7 (by decide)) : Memref sig .tc .vmem S512x256 .bf16).view.set]{fullShare} fo)
    ∗ cellInv ER (ringRd (F := F) fa fb) (K (barCell c)) (barCell c)
    ∗ cellInv ER (ringRd (F := F) fa fb) (K (barCell (nxt c))) (barCell (nxt c))
    ∗ cellInv ER (ringRd (F := F) fa fb) (K (barCell (prv c))) (barCell (prv c))
    ∗ cellInv ER (ringRd (F := F) fa fb) (K (dcell (c) (csem cc0_scratch2 0 0 inb_S8x3_S1x1_0_0))) (dcell (c) (csem cc0_scratch2 0 0 inb_S8x3_S1x1_0_0))
    ∗ cellInv ER (ringRd (F := F) fa fb) (K (dcell (c) (csem cc0_scratch2 0 1 inb_S8x3_S1x1_0_1))) (dcell (c) (csem cc0_scratch2 0 1 inb_S8x3_S1x1_0_1))
    ∗ cellInv ER (ringRd (F := F) fa fb) (K (dcell (c) (csem cc0_scratch2 0 2 inb_S8x3_S1x1_0_2))) (dcell (c) (csem cc0_scratch2 0 2 inb_S8x3_S1x1_0_2))
    ∗ cellInv ER (ringRd (F := F) fa fb) (K (dcell (c) (csem cc0_scratch2 1 0 inb_S8x3_S1x1_1_0))) (dcell (c) (csem cc0_scratch2 1 0 inb_S8x3_S1x1_1_0))
    ∗ cellInv ER (ringRd (F := F) fa fb) (K (dcell (c) (csem cc0_scratch2 1 1 inb_S8x3_S1x1_1_1))) (dcell (c) (csem cc0_scratch2 1 1 inb_S8x3_S1x1_1_1))
    ∗ cellInv ER (ringRd (F := F) fa fb) (K (dcell (c) (csem cc0_scratch2 1 2 inb_S8x3_S1x1_1_2))) (dcell (c) (csem cc0_scratch2 1 2 inb_S8x3_S1x1_1_2))
    ∗ cellInv ER (ringRd (F := F) fa fb) (K (dcell (c) (csem cc0_scratch2 2 0 inb_S8x3_S1x1_2_0))) (dcell (c) (csem cc0_scratch2 2 0 inb_S8x3_S1x1_2_0))
    ∗ cellInv ER (ringRd (F := F) fa fb) (K (dcell (c) (csem cc0_scratch2 2 1 inb_S8x3_S1x1_2_1))) (dcell (c) (csem cc0_scratch2 2 1 inb_S8x3_S1x1_2_1))
    ∗ cellInv ER (ringRd (F := F) fa fb) (K (dcell (c) (csem cc0_scratch2 2 2 inb_S8x3_S1x1_2_2))) (dcell (c) (csem cc0_scratch2 2 2 inb_S8x3_S1x1_2_2))
    ∗ cellInv ER (ringRd (F := F) fa fb) (K (dcell (c) (csem cc0_scratch2 3 0 inb_S8x3_S1x1_3_0))) (dcell (c) (csem cc0_scratch2 3 0 inb_S8x3_S1x1_3_0))
    ∗ cellInv ER (ringRd (F := F) fa fb) (K (dcell (c) (csem cc0_scratch2 3 1 inb_S8x3_S1x1_3_1))) (dcell (c) (csem cc0_scratch2 3 1 inb_S8x3_S1x1_3_1))
    ∗ cellInv ER (ringRd (F := F) fa fb) (K (dcell (c) (csem cc0_scratch2 3 2 inb_S8x3_S1x1_3_2))) (dcell (c) (csem cc0_scratch2 3 2 inb_S8x3_S1x1_3_2))
    ∗ cellInv ER (ringRd (F := F) fa fb) (K (dcell (c) (csem cc0_scratch2 4 0 inb_S8x3_S1x1_4_0))) (dcell (c) (csem cc0_scratch2 4 0 inb_S8x3_S1x1_4_0))
    ∗ cellInv ER (ringRd (F := F) fa fb) (K (dcell (c) (csem cc0_scratch2 4 1 inb_S8x3_S1x1_4_1))) (dcell (c) (csem cc0_scratch2 4 1 inb_S8x3_S1x1_4_1))
    ∗ cellInv ER (ringRd (F := F) fa fb) (K (dcell (c) (csem cc0_scratch2 4 2 inb_S8x3_S1x1_4_2))) (dcell (c) (csem cc0_scratch2 4 2 inb_S8x3_S1x1_4_2))
    ∗ cellInv ER (ringRd (F := F) fa fb) (K (dcell (c) (csem cc0_scratch2 5 0 inb_S8x3_S1x1_5_0))) (dcell (c) (csem cc0_scratch2 5 0 inb_S8x3_S1x1_5_0))
    ∗ cellInv ER (ringRd (F := F) fa fb) (K (dcell (c) (csem cc0_scratch2 5 1 inb_S8x3_S1x1_5_1))) (dcell (c) (csem cc0_scratch2 5 1 inb_S8x3_S1x1_5_1))
    ∗ cellInv ER (ringRd (F := F) fa fb) (K (dcell (c) (csem cc0_scratch2 5 2 inb_S8x3_S1x1_5_2))) (dcell (c) (csem cc0_scratch2 5 2 inb_S8x3_S1x1_5_2))
    ∗ cellInv ER (ringRd (F := F) fa fb) (K (dcell (c) (csem cc0_scratch2 6 0 inb_S8x3_S1x1_6_0))) (dcell (c) (csem cc0_scratch2 6 0 inb_S8x3_S1x1_6_0))
    ∗ cellInv ER (ringRd (F := F) fa fb) (K (dcell (c) (csem cc0_scratch2 6 1 inb_S8x3_S1x1_6_1))) (dcell (c) (csem cc0_scratch2 6 1 inb_S8x3_S1x1_6_1))
    ∗ cellInv ER (ringRd (F := F) fa fb) (K (dcell (c) (csem cc0_scratch2 6 2 inb_S8x3_S1x1_6_2))) (dcell (c) (csem cc0_scratch2 6 2 inb_S8x3_S1x1_6_2))
    ∗ cellInv ER (ringRd (F := F) fa fb) (K (dcell (c) (csem cc0_scratch2 7 0 inb_S8x3_S1x1_7_0))) (dcell (c) (csem cc0_scratch2 7 0 inb_S8x3_S1x1_7_0))
    ∗ cellInv ER (ringRd (F := F) fa fb) (K (dcell (c) (csem cc0_scratch2 7 1 inb_S8x3_S1x1_7_1))) (dcell (c) (csem cc0_scratch2 7 1 inb_S8x3_S1x1_7_1))
    ∗ cellInv ER (ringRd (F := F) fa fb) (K (dcell (c) (csem cc0_scratch2 7 2 inb_S8x3_S1x1_7_2))) (dcell (c) (csem cc0_scratch2 7 2 inb_S8x3_S1x1_7_2))
    ∗ cellInv ER (ringRd (F := F) fa fb) (K (dcell (c) (csem cc0_scratch3 0 0 inb_S8x3_S1x1_0_0))) (dcell (c) (csem cc0_scratch3 0 0 inb_S8x3_S1x1_0_0))
    ∗ cellInv ER (ringRd (F := F) fa fb) (K (dcell (c) (csem cc0_scratch3 0 1 inb_S8x3_S1x1_0_1))) (dcell (c) (csem cc0_scratch3 0 1 inb_S8x3_S1x1_0_1))
    ∗ cellInv ER (ringRd (F := F) fa fb) (K (dcell (c) (csem cc0_scratch3 0 2 inb_S8x3_S1x1_0_2))) (dcell (c) (csem cc0_scratch3 0 2 inb_S8x3_S1x1_0_2))
    ∗ cellInv ER (ringRd (F := F) fa fb) (K (dcell (c) (csem cc0_scratch3 1 0 inb_S8x3_S1x1_1_0))) (dcell (c) (csem cc0_scratch3 1 0 inb_S8x3_S1x1_1_0))
    ∗ cellInv ER (ringRd (F := F) fa fb) (K (dcell (c) (csem cc0_scratch3 1 1 inb_S8x3_S1x1_1_1))) (dcell (c) (csem cc0_scratch3 1 1 inb_S8x3_S1x1_1_1))
    ∗ cellInv ER (ringRd (F := F) fa fb) (K (dcell (c) (csem cc0_scratch3 1 2 inb_S8x3_S1x1_1_2))) (dcell (c) (csem cc0_scratch3 1 2 inb_S8x3_S1x1_1_2))
    ∗ cellInv ER (ringRd (F := F) fa fb) (K (dcell (c) (csem cc0_scratch3 2 0 inb_S8x3_S1x1_2_0))) (dcell (c) (csem cc0_scratch3 2 0 inb_S8x3_S1x1_2_0))
    ∗ cellInv ER (ringRd (F := F) fa fb) (K (dcell (c) (csem cc0_scratch3 2 1 inb_S8x3_S1x1_2_1))) (dcell (c) (csem cc0_scratch3 2 1 inb_S8x3_S1x1_2_1))
    ∗ cellInv ER (ringRd (F := F) fa fb) (K (dcell (c) (csem cc0_scratch3 2 2 inb_S8x3_S1x1_2_2))) (dcell (c) (csem cc0_scratch3 2 2 inb_S8x3_S1x1_2_2))
    ∗ cellInv ER (ringRd (F := F) fa fb) (K (dcell (c) (csem cc0_scratch3 3 0 inb_S8x3_S1x1_3_0))) (dcell (c) (csem cc0_scratch3 3 0 inb_S8x3_S1x1_3_0))
    ∗ cellInv ER (ringRd (F := F) fa fb) (K (dcell (c) (csem cc0_scratch3 3 1 inb_S8x3_S1x1_3_1))) (dcell (c) (csem cc0_scratch3 3 1 inb_S8x3_S1x1_3_1))
    ∗ cellInv ER (ringRd (F := F) fa fb) (K (dcell (c) (csem cc0_scratch3 3 2 inb_S8x3_S1x1_3_2))) (dcell (c) (csem cc0_scratch3 3 2 inb_S8x3_S1x1_3_2))
    ∗ cellInv ER (ringRd (F := F) fa fb) (K (dcell (c) (csem cc0_scratch3 4 0 inb_S8x3_S1x1_4_0))) (dcell (c) (csem cc0_scratch3 4 0 inb_S8x3_S1x1_4_0))
    ∗ cellInv ER (ringRd (F := F) fa fb) (K (dcell (c) (csem cc0_scratch3 4 1 inb_S8x3_S1x1_4_1))) (dcell (c) (csem cc0_scratch3 4 1 inb_S8x3_S1x1_4_1))
    ∗ cellInv ER (ringRd (F := F) fa fb) (K (dcell (c) (csem cc0_scratch3 4 2 inb_S8x3_S1x1_4_2))) (dcell (c) (csem cc0_scratch3 4 2 inb_S8x3_S1x1_4_2))
    ∗ cellInv ER (ringRd (F := F) fa fb) (K (dcell (c) (csem cc0_scratch3 5 0 inb_S8x3_S1x1_5_0))) (dcell (c) (csem cc0_scratch3 5 0 inb_S8x3_S1x1_5_0))
    ∗ cellInv ER (ringRd (F := F) fa fb) (K (dcell (c) (csem cc0_scratch3 5 1 inb_S8x3_S1x1_5_1))) (dcell (c) (csem cc0_scratch3 5 1 inb_S8x3_S1x1_5_1))
    ∗ cellInv ER (ringRd (F := F) fa fb) (K (dcell (c) (csem cc0_scratch3 5 2 inb_S8x3_S1x1_5_2))) (dcell (c) (csem cc0_scratch3 5 2 inb_S8x3_S1x1_5_2))
    ∗ cellInv ER (ringRd (F := F) fa fb) (K (dcell (c) (csem cc0_scratch3 6 0 inb_S8x3_S1x1_6_0))) (dcell (c) (csem cc0_scratch3 6 0 inb_S8x3_S1x1_6_0))
    ∗ cellInv ER (ringRd (F := F) fa fb) (K (dcell (c) (csem cc0_scratch3 6 1 inb_S8x3_S1x1_6_1))) (dcell (c) (csem cc0_scratch3 6 1 inb_S8x3_S1x1_6_1))
    ∗ cellInv ER (ringRd (F := F) fa fb) (K (dcell (c) (csem cc0_scratch3 6 2 inb_S8x3_S1x1_6_2))) (dcell (c) (csem cc0_scratch3 6 2 inb_S8x3_S1x1_6_2))
    ∗ cellInv ER (ringRd (F := F) fa fb) (K (dcell (c) (csem cc0_scratch3 7 0 inb_S8x3_S1x1_7_0))) (dcell (c) (csem cc0_scratch3 7 0 inb_S8x3_S1x1_7_0))
    ∗ cellInv ER (ringRd (F := F) fa fb) (K (dcell (c) (csem cc0_scratch3 7 1 inb_S8x3_S1x1_7_1))) (dcell (c) (csem cc0_scratch3 7 1 inb_S8x3_S1x1_7_1))
    ∗ cellInv ER (ringRd (F := F) fa fb) (K (dcell (c) (csem cc0_scratch3 7 2 inb_S8x3_S1x1_7_2))) (dcell (c) (csem cc0_scratch3 7 2 inb_S8x3_S1x1_7_2))
    ∗ cellInv ER (ringRd (F := F) fa fb) (K (dcell (c) (csem cc0_scratch4 0 0 inb_S8x3_S1x1_0_0))) (dcell (c) (csem cc0_scratch4 0 0 inb_S8x3_S1x1_0_0))
    ∗ cellInv ER (ringRd (F := F) fa fb) (K (dcell (c) (csem cc0_scratch4 0 1 inb_S8x3_S1x1_0_1))) (dcell (c) (csem cc0_scratch4 0 1 inb_S8x3_S1x1_0_1))
    ∗ cellInv ER (ringRd (F := F) fa fb) (K (dcell (c) (csem cc0_scratch4 0 2 inb_S8x3_S1x1_0_2))) (dcell (c) (csem cc0_scratch4 0 2 inb_S8x3_S1x1_0_2))
    ∗ cellInv ER (ringRd (F := F) fa fb) (K (dcell (c) (csem cc0_scratch4 1 0 inb_S8x3_S1x1_1_0))) (dcell (c) (csem cc0_scratch4 1 0 inb_S8x3_S1x1_1_0))
    ∗ cellInv ER (ringRd (F := F) fa fb) (K (dcell (c) (csem cc0_scratch4 1 1 inb_S8x3_S1x1_1_1))) (dcell (c) (csem cc0_scratch4 1 1 inb_S8x3_S1x1_1_1))
    ∗ cellInv ER (ringRd (F := F) fa fb) (K (dcell (c) (csem cc0_scratch4 1 2 inb_S8x3_S1x1_1_2))) (dcell (c) (csem cc0_scratch4 1 2 inb_S8x3_S1x1_1_2))
    ∗ cellInv ER (ringRd (F := F) fa fb) (K (dcell (c) (csem cc0_scratch4 2 0 inb_S8x3_S1x1_2_0))) (dcell (c) (csem cc0_scratch4 2 0 inb_S8x3_S1x1_2_0))
    ∗ cellInv ER (ringRd (F := F) fa fb) (K (dcell (c) (csem cc0_scratch4 2 1 inb_S8x3_S1x1_2_1))) (dcell (c) (csem cc0_scratch4 2 1 inb_S8x3_S1x1_2_1))
    ∗ cellInv ER (ringRd (F := F) fa fb) (K (dcell (c) (csem cc0_scratch4 2 2 inb_S8x3_S1x1_2_2))) (dcell (c) (csem cc0_scratch4 2 2 inb_S8x3_S1x1_2_2))
    ∗ cellInv ER (ringRd (F := F) fa fb) (K (dcell (c) (csem cc0_scratch4 3 0 inb_S8x3_S1x1_3_0))) (dcell (c) (csem cc0_scratch4 3 0 inb_S8x3_S1x1_3_0))
    ∗ cellInv ER (ringRd (F := F) fa fb) (K (dcell (c) (csem cc0_scratch4 3 1 inb_S8x3_S1x1_3_1))) (dcell (c) (csem cc0_scratch4 3 1 inb_S8x3_S1x1_3_1))
    ∗ cellInv ER (ringRd (F := F) fa fb) (K (dcell (c) (csem cc0_scratch4 3 2 inb_S8x3_S1x1_3_2))) (dcell (c) (csem cc0_scratch4 3 2 inb_S8x3_S1x1_3_2))
    ∗ cellInv ER (ringRd (F := F) fa fb) (K (dcell (c) (csem cc0_scratch4 4 0 inb_S8x3_S1x1_4_0))) (dcell (c) (csem cc0_scratch4 4 0 inb_S8x3_S1x1_4_0))
    ∗ cellInv ER (ringRd (F := F) fa fb) (K (dcell (c) (csem cc0_scratch4 4 1 inb_S8x3_S1x1_4_1))) (dcell (c) (csem cc0_scratch4 4 1 inb_S8x3_S1x1_4_1))
    ∗ cellInv ER (ringRd (F := F) fa fb) (K (dcell (c) (csem cc0_scratch4 4 2 inb_S8x3_S1x1_4_2))) (dcell (c) (csem cc0_scratch4 4 2 inb_S8x3_S1x1_4_2))
    ∗ cellInv ER (ringRd (F := F) fa fb) (K (dcell (c) (csem cc0_scratch4 5 0 inb_S8x3_S1x1_5_0))) (dcell (c) (csem cc0_scratch4 5 0 inb_S8x3_S1x1_5_0))
    ∗ cellInv ER (ringRd (F := F) fa fb) (K (dcell (c) (csem cc0_scratch4 5 1 inb_S8x3_S1x1_5_1))) (dcell (c) (csem cc0_scratch4 5 1 inb_S8x3_S1x1_5_1))
    ∗ cellInv ER (ringRd (F := F) fa fb) (K (dcell (c) (csem cc0_scratch4 5 2 inb_S8x3_S1x1_5_2))) (dcell (c) (csem cc0_scratch4 5 2 inb_S8x3_S1x1_5_2))
    ∗ cellInv ER (ringRd (F := F) fa fb) (K (dcell (c) (csem cc0_scratch4 6 0 inb_S8x3_S1x1_6_0))) (dcell (c) (csem cc0_scratch4 6 0 inb_S8x3_S1x1_6_0))
    ∗ cellInv ER (ringRd (F := F) fa fb) (K (dcell (c) (csem cc0_scratch4 6 1 inb_S8x3_S1x1_6_1))) (dcell (c) (csem cc0_scratch4 6 1 inb_S8x3_S1x1_6_1))
    ∗ cellInv ER (ringRd (F := F) fa fb) (K (dcell (c) (csem cc0_scratch4 6 2 inb_S8x3_S1x1_6_2))) (dcell (c) (csem cc0_scratch4 6 2 inb_S8x3_S1x1_6_2))
    ∗ cellInv ER (ringRd (F := F) fa fb) (K (dcell (c) (csem cc0_scratch4 7 0 inb_S8x3_S1x1_7_0))) (dcell (c) (csem cc0_scratch4 7 0 inb_S8x3_S1x1_7_0))
    ∗ cellInv ER (ringRd (F := F) fa fb) (K (dcell (c) (csem cc0_scratch4 7 1 inb_S8x3_S1x1_7_1))) (dcell (c) (csem cc0_scratch4 7 1 inb_S8x3_S1x1_7_1))
    ∗ cellInv ER (ringRd (F := F) fa fb) (K (dcell (c) (csem cc0_scratch4 7 2 inb_S8x3_S1x1_7_2))) (dcell (c) (csem cc0_scratch4 7 2 inb_S8x3_S1x1_7_2))
    ∗ cellInv ER (ringRd (F := F) fa fb) (K (dcell (c) (csem cc0_scratch5 0 0 inb_S8x3_S1x1_0_0))) (dcell (c) (csem cc0_scratch5 0 0 inb_S8x3_S1x1_0_0))
    ∗ cellInv ER (ringRd (F := F) fa fb) (K (dcell (c) (csem cc0_scratch5 0 1 inb_S8x3_S1x1_0_1))) (dcell (c) (csem cc0_scratch5 0 1 inb_S8x3_S1x1_0_1))
    ∗ cellInv ER (ringRd (F := F) fa fb) (K (dcell (c) (csem cc0_scratch5 0 2 inb_S8x3_S1x1_0_2))) (dcell (c) (csem cc0_scratch5 0 2 inb_S8x3_S1x1_0_2))
    ∗ cellInv ER (ringRd (F := F) fa fb) (K (dcell (c) (csem cc0_scratch5 1 0 inb_S8x3_S1x1_1_0))) (dcell (c) (csem cc0_scratch5 1 0 inb_S8x3_S1x1_1_0))
    ∗ cellInv ER (ringRd (F := F) fa fb) (K (dcell (c) (csem cc0_scratch5 1 1 inb_S8x3_S1x1_1_1))) (dcell (c) (csem cc0_scratch5 1 1 inb_S8x3_S1x1_1_1))
    ∗ cellInv ER (ringRd (F := F) fa fb) (K (dcell (c) (csem cc0_scratch5 1 2 inb_S8x3_S1x1_1_2))) (dcell (c) (csem cc0_scratch5 1 2 inb_S8x3_S1x1_1_2))
    ∗ cellInv ER (ringRd (F := F) fa fb) (K (dcell (c) (csem cc0_scratch5 2 0 inb_S8x3_S1x1_2_0))) (dcell (c) (csem cc0_scratch5 2 0 inb_S8x3_S1x1_2_0))
    ∗ cellInv ER (ringRd (F := F) fa fb) (K (dcell (c) (csem cc0_scratch5 2 1 inb_S8x3_S1x1_2_1))) (dcell (c) (csem cc0_scratch5 2 1 inb_S8x3_S1x1_2_1))
    ∗ cellInv ER (ringRd (F := F) fa fb) (K (dcell (c) (csem cc0_scratch5 2 2 inb_S8x3_S1x1_2_2))) (dcell (c) (csem cc0_scratch5 2 2 inb_S8x3_S1x1_2_2))
    ∗ cellInv ER (ringRd (F := F) fa fb) (K (dcell (c) (csem cc0_scratch5 3 0 inb_S8x3_S1x1_3_0))) (dcell (c) (csem cc0_scratch5 3 0 inb_S8x3_S1x1_3_0))
    ∗ cellInv ER (ringRd (F := F) fa fb) (K (dcell (c) (csem cc0_scratch5 3 1 inb_S8x3_S1x1_3_1))) (dcell (c) (csem cc0_scratch5 3 1 inb_S8x3_S1x1_3_1))
    ∗ cellInv ER (ringRd (F := F) fa fb) (K (dcell (c) (csem cc0_scratch5 3 2 inb_S8x3_S1x1_3_2))) (dcell (c) (csem cc0_scratch5 3 2 inb_S8x3_S1x1_3_2))
    ∗ cellInv ER (ringRd (F := F) fa fb) (K (dcell (c) (csem cc0_scratch5 4 0 inb_S8x3_S1x1_4_0))) (dcell (c) (csem cc0_scratch5 4 0 inb_S8x3_S1x1_4_0))
    ∗ cellInv ER (ringRd (F := F) fa fb) (K (dcell (c) (csem cc0_scratch5 4 1 inb_S8x3_S1x1_4_1))) (dcell (c) (csem cc0_scratch5 4 1 inb_S8x3_S1x1_4_1))
    ∗ cellInv ER (ringRd (F := F) fa fb) (K (dcell (c) (csem cc0_scratch5 4 2 inb_S8x3_S1x1_4_2))) (dcell (c) (csem cc0_scratch5 4 2 inb_S8x3_S1x1_4_2))
    ∗ cellInv ER (ringRd (F := F) fa fb) (K (dcell (c) (csem cc0_scratch5 5 0 inb_S8x3_S1x1_5_0))) (dcell (c) (csem cc0_scratch5 5 0 inb_S8x3_S1x1_5_0))
    ∗ cellInv ER (ringRd (F := F) fa fb) (K (dcell (c) (csem cc0_scratch5 5 1 inb_S8x3_S1x1_5_1))) (dcell (c) (csem cc0_scratch5 5 1 inb_S8x3_S1x1_5_1))
    ∗ cellInv ER (ringRd (F := F) fa fb) (K (dcell (c) (csem cc0_scratch5 5 2 inb_S8x3_S1x1_5_2))) (dcell (c) (csem cc0_scratch5 5 2 inb_S8x3_S1x1_5_2))
    ∗ cellInv ER (ringRd (F := F) fa fb) (K (dcell (c) (csem cc0_scratch5 6 0 inb_S8x3_S1x1_6_0))) (dcell (c) (csem cc0_scratch5 6 0 inb_S8x3_S1x1_6_0))
    ∗ cellInv ER (ringRd (F := F) fa fb) (K (dcell (c) (csem cc0_scratch5 6 1 inb_S8x3_S1x1_6_1))) (dcell (c) (csem cc0_scratch5 6 1 inb_S8x3_S1x1_6_1))
    ∗ cellInv ER (ringRd (F := F) fa fb) (K (dcell (c) (csem cc0_scratch5 6 2 inb_S8x3_S1x1_6_2))) (dcell (c) (csem cc0_scratch5 6 2 inb_S8x3_S1x1_6_2))
    ∗ cellInv ER (ringRd (F := F) fa fb) (K (dcell (c) (csem cc0_scratch5 7 0 inb_S8x3_S1x1_7_0))) (dcell (c) (csem cc0_scratch5 7 0 inb_S8x3_S1x1_7_0))
    ∗ cellInv ER (ringRd (F := F) fa fb) (K (dcell (c) (csem cc0_scratch5 7 1 inb_S8x3_S1x1_7_1))) (dcell (c) (csem cc0_scratch5 7 1 inb_S8x3_S1x1_7_1))
    ∗ cellInv ER (ringRd (F := F) fa fb) (K (dcell (c) (csem cc0_scratch5 7 2 inb_S8x3_S1x1_7_2))) (dcell (c) (csem cc0_scratch5 7 2 inb_S8x3_S1x1_7_2))
    ∗ cellInv ER (ringRd (F := F) fa fb) (K (dcell (nxt c) (csem cc0_scratch3 0 0 inb_S8x3_S1x1_0_0))) (dcell (nxt c) (csem cc0_scratch3 0 0 inb_S8x3_S1x1_0_0))
    ∗ cellInv ER (ringRd (F := F) fa fb) (K (dcell (nxt c) (csem cc0_scratch3 0 1 inb_S8x3_S1x1_0_1))) (dcell (nxt c) (csem cc0_scratch3 0 1 inb_S8x3_S1x1_0_1))
    ∗ cellInv ER (ringRd (F := F) fa fb) (K (dcell (nxt c) (csem cc0_scratch3 0 2 inb_S8x3_S1x1_0_2))) (dcell (nxt c) (csem cc0_scratch3 0 2 inb_S8x3_S1x1_0_2))
    ∗ cellInv ER (ringRd (F := F) fa fb) (K (dcell (nxt c) (csem cc0_scratch3 1 0 inb_S8x3_S1x1_1_0))) (dcell (nxt c) (csem cc0_scratch3 1 0 inb_S8x3_S1x1_1_0))
    ∗ cellInv ER (ringRd (F := F) fa fb) (K (dcell (nxt c) (csem cc0_scratch3 1 1 inb_S8x3_S1x1_1_1))) (dcell (nxt c) (csem cc0_scratch3 1 1 inb_S8x3_S1x1_1_1))
    ∗ cellInv ER (ringRd (F := F) fa fb) (K (dcell (nxt c) (csem cc0_scratch3 1 2 inb_S8x3_S1x1_1_2))) (dcell (nxt c) (csem cc0_scratch3 1 2 inb_S8x3_S1x1_1_2))
    ∗ cellInv ER (ringRd (F := F) fa fb) (K (dcell (nxt c) (csem cc0_scratch3 2 0 inb_S8x3_S1x1_2_0))) (dcell (nxt c) (csem cc0_scratch3 2 0 inb_S8x3_S1x1_2_0))
    ∗ cellInv ER (ringRd (F := F) fa fb) (K (dcell (nxt c) (csem cc0_scratch3 2 1 inb_S8x3_S1x1_2_1))) (dcell (nxt c) (csem cc0_scratch3 2 1 inb_S8x3_S1x1_2_1))
    ∗ cellInv ER (ringRd (F := F) fa fb) (K (dcell (nxt c) (csem cc0_scratch3 2 2 inb_S8x3_S1x1_2_2))) (dcell (nxt c) (csem cc0_scratch3 2 2 inb_S8x3_S1x1_2_2))
    ∗ cellInv ER (ringRd (F := F) fa fb) (K (dcell (nxt c) (csem cc0_scratch3 3 0 inb_S8x3_S1x1_3_0))) (dcell (nxt c) (csem cc0_scratch3 3 0 inb_S8x3_S1x1_3_0))
    ∗ cellInv ER (ringRd (F := F) fa fb) (K (dcell (nxt c) (csem cc0_scratch3 3 1 inb_S8x3_S1x1_3_1))) (dcell (nxt c) (csem cc0_scratch3 3 1 inb_S8x3_S1x1_3_1))
    ∗ cellInv ER (ringRd (F := F) fa fb) (K (dcell (nxt c) (csem cc0_scratch3 3 2 inb_S8x3_S1x1_3_2))) (dcell (nxt c) (csem cc0_scratch3 3 2 inb_S8x3_S1x1_3_2))
    ∗ cellInv ER (ringRd (F := F) fa fb) (K (dcell (prv c) (csem cc0_scratch3 4 0 inb_S8x3_S1x1_4_0))) (dcell (prv c) (csem cc0_scratch3 4 0 inb_S8x3_S1x1_4_0))
    ∗ cellInv ER (ringRd (F := F) fa fb) (K (dcell (prv c) (csem cc0_scratch3 4 1 inb_S8x3_S1x1_4_1))) (dcell (prv c) (csem cc0_scratch3 4 1 inb_S8x3_S1x1_4_1))
    ∗ cellInv ER (ringRd (F := F) fa fb) (K (dcell (prv c) (csem cc0_scratch3 4 2 inb_S8x3_S1x1_4_2))) (dcell (prv c) (csem cc0_scratch3 4 2 inb_S8x3_S1x1_4_2))
    ∗ cellInv ER (ringRd (F := F) fa fb) (K (dcell (prv c) (csem cc0_scratch3 5 0 inb_S8x3_S1x1_5_0))) (dcell (prv c) (csem cc0_scratch3 5 0 inb_S8x3_S1x1_5_0))
    ∗ cellInv ER (ringRd (F := F) fa fb) (K (dcell (prv c) (csem cc0_scratch3 5 1 inb_S8x3_S1x1_5_1))) (dcell (prv c) (csem cc0_scratch3 5 1 inb_S8x3_S1x1_5_1))
    ∗ cellInv ER (ringRd (F := F) fa fb) (K (dcell (prv c) (csem cc0_scratch3 5 2 inb_S8x3_S1x1_5_2))) (dcell (prv c) (csem cc0_scratch3 5 2 inb_S8x3_S1x1_5_2))
    ∗ cellInv ER (ringRd (F := F) fa fb) (K (dcell (prv c) (csem cc0_scratch3 6 0 inb_S8x3_S1x1_6_0))) (dcell (prv c) (csem cc0_scratch3 6 0 inb_S8x3_S1x1_6_0))
    ∗ cellInv ER (ringRd (F := F) fa fb) (K (dcell (prv c) (csem cc0_scratch3 6 1 inb_S8x3_S1x1_6_1))) (dcell (prv c) (csem cc0_scratch3 6 1 inb_S8x3_S1x1_6_1))
    ∗ cellInv ER (ringRd (F := F) fa fb) (K (dcell (prv c) (csem cc0_scratch3 6 2 inb_S8x3_S1x1_6_2))) (dcell (prv c) (csem cc0_scratch3 6 2 inb_S8x3_S1x1_6_2))
    ∗ cellInv ER (ringRd (F := F) fa fb) (K (dcell (prv c) (csem cc0_scratch3 7 0 inb_S8x3_S1x1_7_0))) (dcell (prv c) (csem cc0_scratch3 7 0 inb_S8x3_S1x1_7_0))
    ∗ cellInv ER (ringRd (F := F) fa fb) (K (dcell (prv c) (csem cc0_scratch3 7 1 inb_S8x3_S1x1_7_1))) (dcell (prv c) (csem cc0_scratch3 7 1 inb_S8x3_S1x1_7_1))
    ∗ cellInv ER (ringRd (F := F) fa fb) (K (dcell (prv c) (csem cc0_scratch3 7 2 inb_S8x3_S1x1_7_2))) (dcell (prv c) (csem cc0_scratch3 7 2 inb_S8x3_S1x1_7_2))
    ∗ cellInv ER (ringRd (F := F) fa fb) (K (dcell (nxt c) (csem cc0_scratch5 0 0 inb_S8x3_S1x1_0_0))) (dcell (nxt c) (csem cc0_scratch5 0 0 inb_S8x3_S1x1_0_0))
    ∗ cellInv ER (ringRd (F := F) fa fb) (K (dcell (nxt c) (csem cc0_scratch5 0 1 inb_S8x3_S1x1_0_1))) (dcell (nxt c) (csem cc0_scratch5 0 1 inb_S8x3_S1x1_0_1))
    ∗ cellInv ER (ringRd (F := F) fa fb) (K (dcell (nxt c) (csem cc0_scratch5 0 2 inb_S8x3_S1x1_0_2))) (dcell (nxt c) (csem cc0_scratch5 0 2 inb_S8x3_S1x1_0_2))
    ∗ cellInv ER (ringRd (F := F) fa fb) (K (dcell (nxt c) (csem cc0_scratch5 1 0 inb_S8x3_S1x1_1_0))) (dcell (nxt c) (csem cc0_scratch5 1 0 inb_S8x3_S1x1_1_0))
    ∗ cellInv ER (ringRd (F := F) fa fb) (K (dcell (nxt c) (csem cc0_scratch5 1 1 inb_S8x3_S1x1_1_1))) (dcell (nxt c) (csem cc0_scratch5 1 1 inb_S8x3_S1x1_1_1))
    ∗ cellInv ER (ringRd (F := F) fa fb) (K (dcell (nxt c) (csem cc0_scratch5 1 2 inb_S8x3_S1x1_1_2))) (dcell (nxt c) (csem cc0_scratch5 1 2 inb_S8x3_S1x1_1_2))
    ∗ cellInv ER (ringRd (F := F) fa fb) (K (dcell (nxt c) (csem cc0_scratch5 2 0 inb_S8x3_S1x1_2_0))) (dcell (nxt c) (csem cc0_scratch5 2 0 inb_S8x3_S1x1_2_0))
    ∗ cellInv ER (ringRd (F := F) fa fb) (K (dcell (nxt c) (csem cc0_scratch5 2 1 inb_S8x3_S1x1_2_1))) (dcell (nxt c) (csem cc0_scratch5 2 1 inb_S8x3_S1x1_2_1))
    ∗ cellInv ER (ringRd (F := F) fa fb) (K (dcell (nxt c) (csem cc0_scratch5 2 2 inb_S8x3_S1x1_2_2))) (dcell (nxt c) (csem cc0_scratch5 2 2 inb_S8x3_S1x1_2_2))
    ∗ cellInv ER (ringRd (F := F) fa fb) (K (dcell (nxt c) (csem cc0_scratch5 3 0 inb_S8x3_S1x1_3_0))) (dcell (nxt c) (csem cc0_scratch5 3 0 inb_S8x3_S1x1_3_0))
    ∗ cellInv ER (ringRd (F := F) fa fb) (K (dcell (nxt c) (csem cc0_scratch5 3 1 inb_S8x3_S1x1_3_1))) (dcell (nxt c) (csem cc0_scratch5 3 1 inb_S8x3_S1x1_3_1))
    ∗ cellInv ER (ringRd (F := F) fa fb) (K (dcell (nxt c) (csem cc0_scratch5 3 2 inb_S8x3_S1x1_3_2))) (dcell (nxt c) (csem cc0_scratch5 3 2 inb_S8x3_S1x1_3_2))
    ∗ cellInv ER (ringRd (F := F) fa fb) (K (dcell (prv c) (csem cc0_scratch5 4 0 inb_S8x3_S1x1_4_0))) (dcell (prv c) (csem cc0_scratch5 4 0 inb_S8x3_S1x1_4_0))
    ∗ cellInv ER (ringRd (F := F) fa fb) (K (dcell (prv c) (csem cc0_scratch5 4 1 inb_S8x3_S1x1_4_1))) (dcell (prv c) (csem cc0_scratch5 4 1 inb_S8x3_S1x1_4_1))
    ∗ cellInv ER (ringRd (F := F) fa fb) (K (dcell (prv c) (csem cc0_scratch5 4 2 inb_S8x3_S1x1_4_2))) (dcell (prv c) (csem cc0_scratch5 4 2 inb_S8x3_S1x1_4_2))
    ∗ cellInv ER (ringRd (F := F) fa fb) (K (dcell (prv c) (csem cc0_scratch5 5 0 inb_S8x3_S1x1_5_0))) (dcell (prv c) (csem cc0_scratch5 5 0 inb_S8x3_S1x1_5_0))
    ∗ cellInv ER (ringRd (F := F) fa fb) (K (dcell (prv c) (csem cc0_scratch5 5 1 inb_S8x3_S1x1_5_1))) (dcell (prv c) (csem cc0_scratch5 5 1 inb_S8x3_S1x1_5_1))
    ∗ cellInv ER (ringRd (F := F) fa fb) (K (dcell (prv c) (csem cc0_scratch5 5 2 inb_S8x3_S1x1_5_2))) (dcell (prv c) (csem cc0_scratch5 5 2 inb_S8x3_S1x1_5_2))
    ∗ cellInv ER (ringRd (F := F) fa fb) (K (dcell (prv c) (csem cc0_scratch5 6 0 inb_S8x3_S1x1_6_0))) (dcell (prv c) (csem cc0_scratch5 6 0 inb_S8x3_S1x1_6_0))
    ∗ cellInv ER (ringRd (F := F) fa fb) (K (dcell (prv c) (csem cc0_scratch5 6 1 inb_S8x3_S1x1_6_1))) (dcell (prv c) (csem cc0_scratch5 6 1 inb_S8x3_S1x1_6_1))
    ∗ cellInv ER (ringRd (F := F) fa fb) (K (dcell (prv c) (csem cc0_scratch5 6 2 inb_S8x3_S1x1_6_2))) (dcell (prv c) (csem cc0_scratch5 6 2 inb_S8x3_S1x1_6_2))
    ∗ cellInv ER (ringRd (F := F) fa fb) (K (dcell (prv c) (csem cc0_scratch5 7 0 inb_S8x3_S1x1_7_0))) (dcell (prv c) (csem cc0_scratch5 7 0 inb_S8x3_S1x1_7_0))
    ∗ cellInv ER (ringRd (F := F) fa fb) (K (dcell (prv c) (csem cc0_scratch5 7 1 inb_S8x3_S1x1_7_1))) (dcell (prv c) (csem cc0_scratch5 7 1 inb_S8x3_S1x1_7_1))
    ∗ cellInv ER (ringRd (F := F) fa fb) (K (dcell (prv c) (csem cc0_scratch5 7 2 inb_S8x3_S1x1_7_2))) (dcell (prv c) (csem cc0_scratch5 7 2 inb_S8x3_S1x1_7_2))
    ∗ atPos ER (barCell c) 0 ∅ 0
    ∗ atPos ER (dcell (c) (csem cc0_scratch2 0 0 inb_S8x3_S1x1_0_0)) 0 ∅ 0
    ∗ atPos ER (dcell (c) (csem cc0_scratch2 0 1 inb_S8x3_S1x1_0_1)) 0 ∅ 0
    ∗ atPos ER (dcell (c) (csem cc0_scratch2 0 2 inb_S8x3_S1x1_0_2)) 0 ∅ 0
    ∗ atPos ER (dcell (c) (csem cc0_scratch2 1 0 inb_S8x3_S1x1_1_0)) 0 ∅ 0
    ∗ atPos ER (dcell (c) (csem cc0_scratch2 1 1 inb_S8x3_S1x1_1_1)) 0 ∅ 0
    ∗ atPos ER (dcell (c) (csem cc0_scratch2 1 2 inb_S8x3_S1x1_1_2)) 0 ∅ 0
    ∗ atPos ER (dcell (c) (csem cc0_scratch2 2 0 inb_S8x3_S1x1_2_0)) 0 ∅ 0
    ∗ atPos ER (dcell (c) (csem cc0_scratch2 2 1 inb_S8x3_S1x1_2_1)) 0 ∅ 0
    ∗ atPos ER (dcell (c) (csem cc0_scratch2 2 2 inb_S8x3_S1x1_2_2)) 0 ∅ 0
    ∗ atPos ER (dcell (c) (csem cc0_scratch2 3 0 inb_S8x3_S1x1_3_0)) 0 ∅ 0
    ∗ atPos ER (dcell (c) (csem cc0_scratch2 3 1 inb_S8x3_S1x1_3_1)) 0 ∅ 0
    ∗ atPos ER (dcell (c) (csem cc0_scratch2 3 2 inb_S8x3_S1x1_3_2)) 0 ∅ 0
    ∗ atPos ER (dcell (c) (csem cc0_scratch2 4 0 inb_S8x3_S1x1_4_0)) 0 ∅ 0
    ∗ atPos ER (dcell (c) (csem cc0_scratch2 4 1 inb_S8x3_S1x1_4_1)) 0 ∅ 0
    ∗ atPos ER (dcell (c) (csem cc0_scratch2 4 2 inb_S8x3_S1x1_4_2)) 0 ∅ 0
    ∗ atPos ER (dcell (c) (csem cc0_scratch2 5 0 inb_S8x3_S1x1_5_0)) 0 ∅ 0
    ∗ atPos ER (dcell (c) (csem cc0_scratch2 5 1 inb_S8x3_S1x1_5_1)) 0 ∅ 0
    ∗ atPos ER (dcell (c) (csem cc0_scratch2 5 2 inb_S8x3_S1x1_5_2)) 0 ∅ 0
    ∗ atPos ER (dcell (c) (csem cc0_scratch2 6 0 inb_S8x3_S1x1_6_0)) 0 ∅ 0
    ∗ atPos ER (dcell (c) (csem cc0_scratch2 6 1 inb_S8x3_S1x1_6_1)) 0 ∅ 0
    ∗ atPos ER (dcell (c) (csem cc0_scratch2 6 2 inb_S8x3_S1x1_6_2)) 0 ∅ 0
    ∗ atPos ER (dcell (c) (csem cc0_scratch2 7 0 inb_S8x3_S1x1_7_0)) 0 ∅ 0
    ∗ atPos ER (dcell (c) (csem cc0_scratch2 7 1 inb_S8x3_S1x1_7_1)) 0 ∅ 0
    ∗ atPos ER (dcell (c) (csem cc0_scratch2 7 2 inb_S8x3_S1x1_7_2)) 0 ∅ 0
    ∗ atPos ER (dcell (c) (csem cc0_scratch3 0 0 inb_S8x3_S1x1_0_0)) 0 ∅ 0
    ∗ atPos ER (dcell (c) (csem cc0_scratch3 0 1 inb_S8x3_S1x1_0_1)) 0 ∅ 0
    ∗ atPos ER (dcell (c) (csem cc0_scratch3 0 2 inb_S8x3_S1x1_0_2)) 0 ∅ 0
    ∗ atPos ER (dcell (c) (csem cc0_scratch3 1 0 inb_S8x3_S1x1_1_0)) 0 ∅ 0
    ∗ atPos ER (dcell (c) (csem cc0_scratch3 1 1 inb_S8x3_S1x1_1_1)) 0 ∅ 0
    ∗ atPos ER (dcell (c) (csem cc0_scratch3 1 2 inb_S8x3_S1x1_1_2)) 0 ∅ 0
    ∗ atPos ER (dcell (c) (csem cc0_scratch3 2 0 inb_S8x3_S1x1_2_0)) 0 ∅ 0
    ∗ atPos ER (dcell (c) (csem cc0_scratch3 2 1 inb_S8x3_S1x1_2_1)) 0 ∅ 0
    ∗ atPos ER (dcell (c) (csem cc0_scratch3 2 2 inb_S8x3_S1x1_2_2)) 0 ∅ 0
    ∗ atPos ER (dcell (c) (csem cc0_scratch3 3 0 inb_S8x3_S1x1_3_0)) 0 ∅ 0
    ∗ atPos ER (dcell (c) (csem cc0_scratch3 3 1 inb_S8x3_S1x1_3_1)) 0 ∅ 0
    ∗ atPos ER (dcell (c) (csem cc0_scratch3 3 2 inb_S8x3_S1x1_3_2)) 0 ∅ 0
    ∗ atPos ER (dcell (c) (csem cc0_scratch3 4 0 inb_S8x3_S1x1_4_0)) 0 ∅ 0
    ∗ atPos ER (dcell (c) (csem cc0_scratch3 4 1 inb_S8x3_S1x1_4_1)) 0 ∅ 0
    ∗ atPos ER (dcell (c) (csem cc0_scratch3 4 2 inb_S8x3_S1x1_4_2)) 0 ∅ 0
    ∗ atPos ER (dcell (c) (csem cc0_scratch3 5 0 inb_S8x3_S1x1_5_0)) 0 ∅ 0
    ∗ atPos ER (dcell (c) (csem cc0_scratch3 5 1 inb_S8x3_S1x1_5_1)) 0 ∅ 0
    ∗ atPos ER (dcell (c) (csem cc0_scratch3 5 2 inb_S8x3_S1x1_5_2)) 0 ∅ 0
    ∗ atPos ER (dcell (c) (csem cc0_scratch3 6 0 inb_S8x3_S1x1_6_0)) 0 ∅ 0
    ∗ atPos ER (dcell (c) (csem cc0_scratch3 6 1 inb_S8x3_S1x1_6_1)) 0 ∅ 0
    ∗ atPos ER (dcell (c) (csem cc0_scratch3 6 2 inb_S8x3_S1x1_6_2)) 0 ∅ 0
    ∗ atPos ER (dcell (c) (csem cc0_scratch3 7 0 inb_S8x3_S1x1_7_0)) 0 ∅ 0
    ∗ atPos ER (dcell (c) (csem cc0_scratch3 7 1 inb_S8x3_S1x1_7_1)) 0 ∅ 0
    ∗ atPos ER (dcell (c) (csem cc0_scratch3 7 2 inb_S8x3_S1x1_7_2)) 0 ∅ 0
    ∗ atPos ER (dcell (c) (csem cc0_scratch4 0 0 inb_S8x3_S1x1_0_0)) 0 ∅ 0
    ∗ atPos ER (dcell (c) (csem cc0_scratch4 0 1 inb_S8x3_S1x1_0_1)) 0 ∅ 0
    ∗ atPos ER (dcell (c) (csem cc0_scratch4 0 2 inb_S8x3_S1x1_0_2)) 0 ∅ 0
    ∗ atPos ER (dcell (c) (csem cc0_scratch4 1 0 inb_S8x3_S1x1_1_0)) 0 ∅ 0
    ∗ atPos ER (dcell (c) (csem cc0_scratch4 1 1 inb_S8x3_S1x1_1_1)) 0 ∅ 0
    ∗ atPos ER (dcell (c) (csem cc0_scratch4 1 2 inb_S8x3_S1x1_1_2)) 0 ∅ 0
    ∗ atPos ER (dcell (c) (csem cc0_scratch4 2 0 inb_S8x3_S1x1_2_0)) 0 ∅ 0
    ∗ atPos ER (dcell (c) (csem cc0_scratch4 2 1 inb_S8x3_S1x1_2_1)) 0 ∅ 0
    ∗ atPos ER (dcell (c) (csem cc0_scratch4 2 2 inb_S8x3_S1x1_2_2)) 0 ∅ 0
    ∗ atPos ER (dcell (c) (csem cc0_scratch4 3 0 inb_S8x3_S1x1_3_0)) 0 ∅ 0
    ∗ atPos ER (dcell (c) (csem cc0_scratch4 3 1 inb_S8x3_S1x1_3_1)) 0 ∅ 0
    ∗ atPos ER (dcell (c) (csem cc0_scratch4 3 2 inb_S8x3_S1x1_3_2)) 0 ∅ 0
    ∗ atPos ER (dcell (c) (csem cc0_scratch4 4 0 inb_S8x3_S1x1_4_0)) 0 ∅ 0
    ∗ atPos ER (dcell (c) (csem cc0_scratch4 4 1 inb_S8x3_S1x1_4_1)) 0 ∅ 0
    ∗ atPos ER (dcell (c) (csem cc0_scratch4 4 2 inb_S8x3_S1x1_4_2)) 0 ∅ 0
    ∗ atPos ER (dcell (c) (csem cc0_scratch4 5 0 inb_S8x3_S1x1_5_0)) 0 ∅ 0
    ∗ atPos ER (dcell (c) (csem cc0_scratch4 5 1 inb_S8x3_S1x1_5_1)) 0 ∅ 0
    ∗ atPos ER (dcell (c) (csem cc0_scratch4 5 2 inb_S8x3_S1x1_5_2)) 0 ∅ 0
    ∗ atPos ER (dcell (c) (csem cc0_scratch4 6 0 inb_S8x3_S1x1_6_0)) 0 ∅ 0
    ∗ atPos ER (dcell (c) (csem cc0_scratch4 6 1 inb_S8x3_S1x1_6_1)) 0 ∅ 0
    ∗ atPos ER (dcell (c) (csem cc0_scratch4 6 2 inb_S8x3_S1x1_6_2)) 0 ∅ 0
    ∗ atPos ER (dcell (c) (csem cc0_scratch4 7 0 inb_S8x3_S1x1_7_0)) 0 ∅ 0
    ∗ atPos ER (dcell (c) (csem cc0_scratch4 7 1 inb_S8x3_S1x1_7_1)) 0 ∅ 0
    ∗ atPos ER (dcell (c) (csem cc0_scratch4 7 2 inb_S8x3_S1x1_7_2)) 0 ∅ 0
    ∗ atPos ER (dcell (c) (csem cc0_scratch5 0 0 inb_S8x3_S1x1_0_0)) 0 ∅ 0
    ∗ atPos ER (dcell (c) (csem cc0_scratch5 0 1 inb_S8x3_S1x1_0_1)) 0 ∅ 0
    ∗ atPos ER (dcell (c) (csem cc0_scratch5 0 2 inb_S8x3_S1x1_0_2)) 0 ∅ 0
    ∗ atPos ER (dcell (c) (csem cc0_scratch5 1 0 inb_S8x3_S1x1_1_0)) 0 ∅ 0
    ∗ atPos ER (dcell (c) (csem cc0_scratch5 1 1 inb_S8x3_S1x1_1_1)) 0 ∅ 0
    ∗ atPos ER (dcell (c) (csem cc0_scratch5 1 2 inb_S8x3_S1x1_1_2)) 0 ∅ 0
    ∗ atPos ER (dcell (c) (csem cc0_scratch5 2 0 inb_S8x3_S1x1_2_0)) 0 ∅ 0
    ∗ atPos ER (dcell (c) (csem cc0_scratch5 2 1 inb_S8x3_S1x1_2_1)) 0 ∅ 0
    ∗ atPos ER (dcell (c) (csem cc0_scratch5 2 2 inb_S8x3_S1x1_2_2)) 0 ∅ 0
    ∗ atPos ER (dcell (c) (csem cc0_scratch5 3 0 inb_S8x3_S1x1_3_0)) 0 ∅ 0
    ∗ atPos ER (dcell (c) (csem cc0_scratch5 3 1 inb_S8x3_S1x1_3_1)) 0 ∅ 0
    ∗ atPos ER (dcell (c) (csem cc0_scratch5 3 2 inb_S8x3_S1x1_3_2)) 0 ∅ 0
    ∗ atPos ER (dcell (c) (csem cc0_scratch5 4 0 inb_S8x3_S1x1_4_0)) 0 ∅ 0
    ∗ atPos ER (dcell (c) (csem cc0_scratch5 4 1 inb_S8x3_S1x1_4_1)) 0 ∅ 0
    ∗ atPos ER (dcell (c) (csem cc0_scratch5 4 2 inb_S8x3_S1x1_4_2)) 0 ∅ 0
    ∗ atPos ER (dcell (c) (csem cc0_scratch5 5 0 inb_S8x3_S1x1_5_0)) 0 ∅ 0
    ∗ atPos ER (dcell (c) (csem cc0_scratch5 5 1 inb_S8x3_S1x1_5_1)) 0 ∅ 0
    ∗ atPos ER (dcell (c) (csem cc0_scratch5 5 2 inb_S8x3_S1x1_5_2)) 0 ∅ 0
    ∗ atPos ER (dcell (c) (csem cc0_scratch5 6 0 inb_S8x3_S1x1_6_0)) 0 ∅ 0
    ∗ atPos ER (dcell (c) (csem cc0_scratch5 6 1 inb_S8x3_S1x1_6_1)) 0 ∅ 0
    ∗ atPos ER (dcell (c) (csem cc0_scratch5 6 2 inb_S8x3_S1x1_6_2)) 0 ∅ 0
    ∗ atPos ER (dcell (c) (csem cc0_scratch5 7 0 inb_S8x3_S1x1_7_0)) 0 ∅ 0
    ∗ atPos ER (dcell (c) (csem cc0_scratch5 7 1 inb_S8x3_S1x1_7_1)) 0 ∅ 0
    ∗ atPos ER (dcell (c) (csem cc0_scratch5 7 2 inb_S8x3_S1x1_7_2)) 0 ∅ 0
    ∗ reached ER (barCell (nxt c)) 0
    ∗ reached ER (barCell (prv c)) 0
    ∗ reached ER (dcell (c) (csem cc0_scratch2 0 0 inb_S8x3_S1x1_0_0)) 0
    ∗ reached ER (dcell (c) (csem cc0_scratch2 0 1 inb_S8x3_S1x1_0_1)) 0
    ∗ reached ER (dcell (c) (csem cc0_scratch2 0 2 inb_S8x3_S1x1_0_2)) 0
    ∗ reached ER (dcell (c) (csem cc0_scratch2 1 0 inb_S8x3_S1x1_1_0)) 0
    ∗ reached ER (dcell (c) (csem cc0_scratch2 1 1 inb_S8x3_S1x1_1_1)) 0
    ∗ reached ER (dcell (c) (csem cc0_scratch2 1 2 inb_S8x3_S1x1_1_2)) 0
    ∗ reached ER (dcell (c) (csem cc0_scratch2 2 0 inb_S8x3_S1x1_2_0)) 0
    ∗ reached ER (dcell (c) (csem cc0_scratch2 2 1 inb_S8x3_S1x1_2_1)) 0
    ∗ reached ER (dcell (c) (csem cc0_scratch2 2 2 inb_S8x3_S1x1_2_2)) 0
    ∗ reached ER (dcell (c) (csem cc0_scratch2 3 0 inb_S8x3_S1x1_3_0)) 0
    ∗ reached ER (dcell (c) (csem cc0_scratch2 3 1 inb_S8x3_S1x1_3_1)) 0
    ∗ reached ER (dcell (c) (csem cc0_scratch2 3 2 inb_S8x3_S1x1_3_2)) 0
    ∗ reached ER (dcell (c) (csem cc0_scratch2 4 0 inb_S8x3_S1x1_4_0)) 0
    ∗ reached ER (dcell (c) (csem cc0_scratch2 4 1 inb_S8x3_S1x1_4_1)) 0
    ∗ reached ER (dcell (c) (csem cc0_scratch2 4 2 inb_S8x3_S1x1_4_2)) 0
    ∗ reached ER (dcell (c) (csem cc0_scratch2 5 0 inb_S8x3_S1x1_5_0)) 0
    ∗ reached ER (dcell (c) (csem cc0_scratch2 5 1 inb_S8x3_S1x1_5_1)) 0
    ∗ reached ER (dcell (c) (csem cc0_scratch2 5 2 inb_S8x3_S1x1_5_2)) 0
    ∗ reached ER (dcell (c) (csem cc0_scratch2 6 0 inb_S8x3_S1x1_6_0)) 0
    ∗ reached ER (dcell (c) (csem cc0_scratch2 6 1 inb_S8x3_S1x1_6_1)) 0
    ∗ reached ER (dcell (c) (csem cc0_scratch2 6 2 inb_S8x3_S1x1_6_2)) 0
    ∗ reached ER (dcell (c) (csem cc0_scratch2 7 0 inb_S8x3_S1x1_7_0)) 0
    ∗ reached ER (dcell (c) (csem cc0_scratch2 7 1 inb_S8x3_S1x1_7_1)) 0
    ∗ reached ER (dcell (c) (csem cc0_scratch2 7 2 inb_S8x3_S1x1_7_2)) 0
    ∗ reached ER (dcell (c) (csem cc0_scratch3 0 0 inb_S8x3_S1x1_0_0)) 0
    ∗ reached ER (dcell (c) (csem cc0_scratch3 0 1 inb_S8x3_S1x1_0_1)) 0
    ∗ reached ER (dcell (c) (csem cc0_scratch3 0 2 inb_S8x3_S1x1_0_2)) 0
    ∗ reached ER (dcell (c) (csem cc0_scratch3 1 0 inb_S8x3_S1x1_1_0)) 0
    ∗ reached ER (dcell (c) (csem cc0_scratch3 1 1 inb_S8x3_S1x1_1_1)) 0
    ∗ reached ER (dcell (c) (csem cc0_scratch3 1 2 inb_S8x3_S1x1_1_2)) 0
    ∗ reached ER (dcell (c) (csem cc0_scratch3 2 0 inb_S8x3_S1x1_2_0)) 0
    ∗ reached ER (dcell (c) (csem cc0_scratch3 2 1 inb_S8x3_S1x1_2_1)) 0
    ∗ reached ER (dcell (c) (csem cc0_scratch3 2 2 inb_S8x3_S1x1_2_2)) 0
    ∗ reached ER (dcell (c) (csem cc0_scratch3 3 0 inb_S8x3_S1x1_3_0)) 0
    ∗ reached ER (dcell (c) (csem cc0_scratch3 3 1 inb_S8x3_S1x1_3_1)) 0
    ∗ reached ER (dcell (c) (csem cc0_scratch3 3 2 inb_S8x3_S1x1_3_2)) 0
    ∗ reached ER (dcell (c) (csem cc0_scratch3 4 0 inb_S8x3_S1x1_4_0)) 0
    ∗ reached ER (dcell (c) (csem cc0_scratch3 4 1 inb_S8x3_S1x1_4_1)) 0
    ∗ reached ER (dcell (c) (csem cc0_scratch3 4 2 inb_S8x3_S1x1_4_2)) 0
    ∗ reached ER (dcell (c) (csem cc0_scratch3 5 0 inb_S8x3_S1x1_5_0)) 0
    ∗ reached ER (dcell (c) (csem cc0_scratch3 5 1 inb_S8x3_S1x1_5_1)) 0
    ∗ reached ER (dcell (c) (csem cc0_scratch3 5 2 inb_S8x3_S1x1_5_2)) 0
    ∗ reached ER (dcell (c) (csem cc0_scratch3 6 0 inb_S8x3_S1x1_6_0)) 0
    ∗ reached ER (dcell (c) (csem cc0_scratch3 6 1 inb_S8x3_S1x1_6_1)) 0
    ∗ reached ER (dcell (c) (csem cc0_scratch3 6 2 inb_S8x3_S1x1_6_2)) 0
    ∗ reached ER (dcell (c) (csem cc0_scratch3 7 0 inb_S8x3_S1x1_7_0)) 0
    ∗ reached ER (dcell (c) (csem cc0_scratch3 7 1 inb_S8x3_S1x1_7_1)) 0
    ∗ reached ER (dcell (c) (csem cc0_scratch3 7 2 inb_S8x3_S1x1_7_2)) 0
    ∗ reached ER (dcell (c) (csem cc0_scratch4 0 0 inb_S8x3_S1x1_0_0)) 0
    ∗ reached ER (dcell (c) (csem cc0_scratch4 0 1 inb_S8x3_S1x1_0_1)) 0
    ∗ reached ER (dcell (c) (csem cc0_scratch4 0 2 inb_S8x3_S1x1_0_2)) 0
    ∗ reached ER (dcell (c) (csem cc0_scratch4 1 0 inb_S8x3_S1x1_1_0)) 0
    ∗ reached ER (dcell (c) (csem cc0_scratch4 1 1 inb_S8x3_S1x1_1_1)) 0
    ∗ reached ER (dcell (c) (csem cc0_scratch4 1 2 inb_S8x3_S1x1_1_2)) 0
    ∗ reached ER (dcell (c) (csem cc0_scratch4 2 0 inb_S8x3_S1x1_2_0)) 0
    ∗ reached ER (dcell (c) (csem cc0_scratch4 2 1 inb_S8x3_S1x1_2_1)) 0
    ∗ reached ER (dcell (c) (csem cc0_scratch4 2 2 inb_S8x3_S1x1_2_2)) 0
    ∗ reached ER (dcell (c) (csem cc0_scratch4 3 0 inb_S8x3_S1x1_3_0)) 0
    ∗ reached ER (dcell (c) (csem cc0_scratch4 3 1 inb_S8x3_S1x1_3_1)) 0
    ∗ reached ER (dcell (c) (csem cc0_scratch4 3 2 inb_S8x3_S1x1_3_2)) 0
    ∗ reached ER (dcell (c) (csem cc0_scratch4 4 0 inb_S8x3_S1x1_4_0)) 0
    ∗ reached ER (dcell (c) (csem cc0_scratch4 4 1 inb_S8x3_S1x1_4_1)) 0
    ∗ reached ER (dcell (c) (csem cc0_scratch4 4 2 inb_S8x3_S1x1_4_2)) 0
    ∗ reached ER (dcell (c) (csem cc0_scratch4 5 0 inb_S8x3_S1x1_5_0)) 0
    ∗ reached ER (dcell (c) (csem cc0_scratch4 5 1 inb_S8x3_S1x1_5_1)) 0
    ∗ reached ER (dcell (c) (csem cc0_scratch4 5 2 inb_S8x3_S1x1_5_2)) 0
    ∗ reached ER (dcell (c) (csem cc0_scratch4 6 0 inb_S8x3_S1x1_6_0)) 0
    ∗ reached ER (dcell (c) (csem cc0_scratch4 6 1 inb_S8x3_S1x1_6_1)) 0
    ∗ reached ER (dcell (c) (csem cc0_scratch4 6 2 inb_S8x3_S1x1_6_2)) 0
    ∗ reached ER (dcell (c) (csem cc0_scratch4 7 0 inb_S8x3_S1x1_7_0)) 0
    ∗ reached ER (dcell (c) (csem cc0_scratch4 7 1 inb_S8x3_S1x1_7_1)) 0
    ∗ reached ER (dcell (c) (csem cc0_scratch4 7 2 inb_S8x3_S1x1_7_2)) 0
    ∗ reached ER (dcell (c) (csem cc0_scratch5 0 0 inb_S8x3_S1x1_0_0)) 0
    ∗ reached ER (dcell (c) (csem cc0_scratch5 0 1 inb_S8x3_S1x1_0_1)) 0
    ∗ reached ER (dcell (c) (csem cc0_scratch5 0 2 inb_S8x3_S1x1_0_2)) 0
    ∗ reached ER (dcell (c) (csem cc0_scratch5 1 0 inb_S8x3_S1x1_1_0)) 0
    ∗ reached ER (dcell (c) (csem cc0_scratch5 1 1 inb_S8x3_S1x1_1_1)) 0
    ∗ reached ER (dcell (c) (csem cc0_scratch5 1 2 inb_S8x3_S1x1_1_2)) 0
    ∗ reached ER (dcell (c) (csem cc0_scratch5 2 0 inb_S8x3_S1x1_2_0)) 0
    ∗ reached ER (dcell (c) (csem cc0_scratch5 2 1 inb_S8x3_S1x1_2_1)) 0
    ∗ reached ER (dcell (c) (csem cc0_scratch5 2 2 inb_S8x3_S1x1_2_2)) 0
    ∗ reached ER (dcell (c) (csem cc0_scratch5 3 0 inb_S8x3_S1x1_3_0)) 0
    ∗ reached ER (dcell (c) (csem cc0_scratch5 3 1 inb_S8x3_S1x1_3_1)) 0
    ∗ reached ER (dcell (c) (csem cc0_scratch5 3 2 inb_S8x3_S1x1_3_2)) 0
    ∗ reached ER (dcell (c) (csem cc0_scratch5 4 0 inb_S8x3_S1x1_4_0)) 0
    ∗ reached ER (dcell (c) (csem cc0_scratch5 4 1 inb_S8x3_S1x1_4_1)) 0
    ∗ reached ER (dcell (c) (csem cc0_scratch5 4 2 inb_S8x3_S1x1_4_2)) 0
    ∗ reached ER (dcell (c) (csem cc0_scratch5 5 0 inb_S8x3_S1x1_5_0)) 0
    ∗ reached ER (dcell (c) (csem cc0_scratch5 5 1 inb_S8x3_S1x1_5_1)) 0
    ∗ reached ER (dcell (c) (csem cc0_scratch5 5 2 inb_S8x3_S1x1_5_2)) 0
    ∗ reached ER (dcell (c) (csem cc0_scratch5 6 0 inb_S8x3_S1x1_6_0)) 0
    ∗ reached ER (dcell (c) (csem cc0_scratch5 6 1 inb_S8x3_S1x1_6_1)) 0
    ∗ reached ER (dcell (c) (csem cc0_scratch5 6 2 inb_S8x3_S1x1_6_2)) 0
    ∗ reached ER (dcell (c) (csem cc0_scratch5 7 0 inb_S8x3_S1x1_7_0)) 0
    ∗ reached ER (dcell (c) (csem cc0_scratch5 7 1 inb_S8x3_S1x1_7_1)) 0
    ∗ reached ER (dcell (c) (csem cc0_scratch5 7 2 inb_S8x3_S1x1_7_2)) 0
    ∗ reached ER (dcell (nxt c) (csem cc0_scratch3 0 0 inb_S8x3_S1x1_0_0)) 0
    ∗ reached ER (dcell (nxt c) (csem cc0_scratch3 0 1 inb_S8x3_S1x1_0_1)) 0
    ∗ reached ER (dcell (nxt c) (csem cc0_scratch3 0 2 inb_S8x3_S1x1_0_2)) 0
    ∗ reached ER (dcell (nxt c) (csem cc0_scratch3 1 0 inb_S8x3_S1x1_1_0)) 0
    ∗ reached ER (dcell (nxt c) (csem cc0_scratch3 1 1 inb_S8x3_S1x1_1_1)) 0
    ∗ reached ER (dcell (nxt c) (csem cc0_scratch3 1 2 inb_S8x3_S1x1_1_2)) 0
    ∗ reached ER (dcell (nxt c) (csem cc0_scratch3 2 0 inb_S8x3_S1x1_2_0)) 0
    ∗ reached ER (dcell (nxt c) (csem cc0_scratch3 2 1 inb_S8x3_S1x1_2_1)) 0
    ∗ reached ER (dcell (nxt c) (csem cc0_scratch3 2 2 inb_S8x3_S1x1_2_2)) 0
    ∗ reached ER (dcell (nxt c) (csem cc0_scratch3 3 0 inb_S8x3_S1x1_3_0)) 0
    ∗ reached ER (dcell (nxt c) (csem cc0_scratch3 3 1 inb_S8x3_S1x1_3_1)) 0
    ∗ reached ER (dcell (nxt c) (csem cc0_scratch3 3 2 inb_S8x3_S1x1_3_2)) 0
    ∗ reached ER (dcell (prv c) (csem cc0_scratch3 4 0 inb_S8x3_S1x1_4_0)) 0
    ∗ reached ER (dcell (prv c) (csem cc0_scratch3 4 1 inb_S8x3_S1x1_4_1)) 0
    ∗ reached ER (dcell (prv c) (csem cc0_scratch3 4 2 inb_S8x3_S1x1_4_2)) 0
    ∗ reached ER (dcell (prv c) (csem cc0_scratch3 5 0 inb_S8x3_S1x1_5_0)) 0
    ∗ reached ER (dcell (prv c) (csem cc0_scratch3 5 1 inb_S8x3_S1x1_5_1)) 0
    ∗ reached ER (dcell (prv c) (csem cc0_scratch3 5 2 inb_S8x3_S1x1_5_2)) 0
    ∗ reached ER (dcell (prv c) (csem cc0_scratch3 6 0 inb_S8x3_S1x1_6_0)) 0
    ∗ reached ER (dcell (prv c) (csem cc0_scratch3 6 1 inb_S8x3_S1x1_6_1)) 0
    ∗ reached ER (dcell (prv c) (csem cc0_scratch3 6 2 inb_S8x3_S1x1_6_2)) 0
    ∗ reached ER (dcell (prv c) (csem cc0_scratch3 7 0 inb_S8x3_S1x1_7_0)) 0
    ∗ reached ER (dcell (prv c) (csem cc0_scratch3 7 1 inb_S8x3_S1x1_7_1)) 0
    ∗ reached ER (dcell (prv c) (csem cc0_scratch3 7 2 inb_S8x3_S1x1_7_2)) 0
    ∗ reached ER (dcell (nxt c) (csem cc0_scratch5 0 0 inb_S8x3_S1x1_0_0)) 0
    ∗ reached ER (dcell (nxt c) (csem cc0_scratch5 0 1 inb_S8x3_S1x1_0_1)) 0
    ∗ reached ER (dcell (nxt c) (csem cc0_scratch5 0 2 inb_S8x3_S1x1_0_2)) 0
    ∗ reached ER (dcell (nxt c) (csem cc0_scratch5 1 0 inb_S8x3_S1x1_1_0)) 0
    ∗ reached ER (dcell (nxt c) (csem cc0_scratch5 1 1 inb_S8x3_S1x1_1_1)) 0
    ∗ reached ER (dcell (nxt c) (csem cc0_scratch5 1 2 inb_S8x3_S1x1_1_2)) 0
    ∗ reached ER (dcell (nxt c) (csem cc0_scratch5 2 0 inb_S8x3_S1x1_2_0)) 0
    ∗ reached ER (dcell (nxt c) (csem cc0_scratch5 2 1 inb_S8x3_S1x1_2_1)) 0
    ∗ reached ER (dcell (nxt c) (csem cc0_scratch5 2 2 inb_S8x3_S1x1_2_2)) 0
    ∗ reached ER (dcell (nxt c) (csem cc0_scratch5 3 0 inb_S8x3_S1x1_3_0)) 0
    ∗ reached ER (dcell (nxt c) (csem cc0_scratch5 3 1 inb_S8x3_S1x1_3_1)) 0
    ∗ reached ER (dcell (nxt c) (csem cc0_scratch5 3 2 inb_S8x3_S1x1_3_2)) 0
    ∗ reached ER (dcell (prv c) (csem cc0_scratch5 4 0 inb_S8x3_S1x1_4_0)) 0
    ∗ reached ER (dcell (prv c) (csem cc0_scratch5 4 1 inb_S8x3_S1x1_4_1)) 0
    ∗ reached ER (dcell (prv c) (csem cc0_scratch5 4 2 inb_S8x3_S1x1_4_2)) 0
    ∗ reached ER (dcell (prv c) (csem cc0_scratch5 5 0 inb_S8x3_S1x1_5_0)) 0
    ∗ reached ER (dcell (prv c) (csem cc0_scratch5 5 1 inb_S8x3_S1x1_5_1)) 0
    ∗ reached ER (dcell (prv c) (csem cc0_scratch5 5 2 inb_S8x3_S1x1_5_2)) 0
    ∗ reached ER (dcell (prv c) (csem cc0_scratch5 6 0 inb_S8x3_S1x1_6_0)) 0
    ∗ reached ER (dcell (prv c) (csem cc0_scratch5 6 1 inb_S8x3_S1x1_6_1)) 0
    ∗ reached ER (dcell (prv c) (csem cc0_scratch5 6 2 inb_S8x3_S1x1_6_2)) 0
    ∗ reached ER (dcell (prv c) (csem cc0_scratch5 7 0 inb_S8x3_S1x1_7_0)) 0
    ∗ reached ER (dcell (prv c) (csem cc0_scratch5 7 1 inb_S8x3_S1x1_7_1)) 0
    ∗ reached ER (dcell (prv c) (csem cc0_scratch5 7 2 inb_S8x3_S1x1_7_2)) 0
    ∗ dutyTok ER (barCell (prv c)) 0 true
    ∗ dutyTok ER (barCell (nxt c)) 0 false
    ∗ dutyTok ER (dcell (nxt c) (csem cc0_scratch3 0 0 inb_S8x3_S1x1_0_0)) 0 false
    ∗ dutyTok ER (dcell (nxt c) (csem cc0_scratch3 0 1 inb_S8x3_S1x1_0_1)) 0 false
    ∗ dutyTok ER (dcell (nxt c) (csem cc0_scratch3 0 2 inb_S8x3_S1x1_0_2)) 0 false
    ∗ dutyTok ER (dcell (nxt c) (csem cc0_scratch3 1 0 inb_S8x3_S1x1_1_0)) 0 false
    ∗ dutyTok ER (dcell (nxt c) (csem cc0_scratch3 1 1 inb_S8x3_S1x1_1_1)) 0 false
    ∗ dutyTok ER (dcell (nxt c) (csem cc0_scratch3 1 2 inb_S8x3_S1x1_1_2)) 0 false
    ∗ dutyTok ER (dcell (nxt c) (csem cc0_scratch3 2 0 inb_S8x3_S1x1_2_0)) 0 false
    ∗ dutyTok ER (dcell (nxt c) (csem cc0_scratch3 2 1 inb_S8x3_S1x1_2_1)) 0 false
    ∗ dutyTok ER (dcell (nxt c) (csem cc0_scratch3 2 2 inb_S8x3_S1x1_2_2)) 0 false
    ∗ dutyTok ER (dcell (nxt c) (csem cc0_scratch3 3 0 inb_S8x3_S1x1_3_0)) 0 false
    ∗ dutyTok ER (dcell (nxt c) (csem cc0_scratch3 3 1 inb_S8x3_S1x1_3_1)) 0 false
    ∗ dutyTok ER (dcell (nxt c) (csem cc0_scratch3 3 2 inb_S8x3_S1x1_3_2)) 0 false
    ∗ dutyTok ER (dcell (prv c) (csem cc0_scratch3 4 0 inb_S8x3_S1x1_4_0)) 0 false
    ∗ dutyTok ER (dcell (prv c) (csem cc0_scratch3 4 1 inb_S8x3_S1x1_4_1)) 0 false
    ∗ dutyTok ER (dcell (prv c) (csem cc0_scratch3 4 2 inb_S8x3_S1x1_4_2)) 0 false
    ∗ dutyTok ER (dcell (prv c) (csem cc0_scratch3 5 0 inb_S8x3_S1x1_5_0)) 0 false
    ∗ dutyTok ER (dcell (prv c) (csem cc0_scratch3 5 1 inb_S8x3_S1x1_5_1)) 0 false
    ∗ dutyTok ER (dcell (prv c) (csem cc0_scratch3 5 2 inb_S8x3_S1x1_5_2)) 0 false
    ∗ dutyTok ER (dcell (prv c) (csem cc0_scratch3 6 0 inb_S8x3_S1x1_6_0)) 0 false
    ∗ dutyTok ER (dcell (prv c) (csem cc0_scratch3 6 1 inb_S8x3_S1x1_6_1)) 0 false
    ∗ dutyTok ER (dcell (prv c) (csem cc0_scratch3 6 2 inb_S8x3_S1x1_6_2)) 0 false
    ∗ dutyTok ER (dcell (prv c) (csem cc0_scratch3 7 0 inb_S8x3_S1x1_7_0)) 0 false
    ∗ dutyTok ER (dcell (prv c) (csem cc0_scratch3 7 1 inb_S8x3_S1x1_7_1)) 0 false
    ∗ dutyTok ER (dcell (prv c) (csem cc0_scratch3 7 2 inb_S8x3_S1x1_7_2)) 0 false
    ∗ dutyTok ER (dcell (nxt c) (csem cc0_scratch5 0 0 inb_S8x3_S1x1_0_0)) 0 false
    ∗ dutyTok ER (dcell (nxt c) (csem cc0_scratch5 0 1 inb_S8x3_S1x1_0_1)) 0 false
    ∗ dutyTok ER (dcell (nxt c) (csem cc0_scratch5 0 2 inb_S8x3_S1x1_0_2)) 0 false
    ∗ dutyTok ER (dcell (nxt c) (csem cc0_scratch5 1 0 inb_S8x3_S1x1_1_0)) 0 false
    ∗ dutyTok ER (dcell (nxt c) (csem cc0_scratch5 1 1 inb_S8x3_S1x1_1_1)) 0 false
    ∗ dutyTok ER (dcell (nxt c) (csem cc0_scratch5 1 2 inb_S8x3_S1x1_1_2)) 0 false
    ∗ dutyTok ER (dcell (nxt c) (csem cc0_scratch5 2 0 inb_S8x3_S1x1_2_0)) 0 false
    ∗ dutyTok ER (dcell (nxt c) (csem cc0_scratch5 2 1 inb_S8x3_S1x1_2_1)) 0 false
    ∗ dutyTok ER (dcell (nxt c) (csem cc0_scratch5 2 2 inb_S8x3_S1x1_2_2)) 0 false
    ∗ dutyTok ER (dcell (nxt c) (csem cc0_scratch5 3 0 inb_S8x3_S1x1_3_0)) 0 false
    ∗ dutyTok ER (dcell (nxt c) (csem cc0_scratch5 3 1 inb_S8x3_S1x1_3_1)) 0 false
    ∗ dutyTok ER (dcell (nxt c) (csem cc0_scratch5 3 2 inb_S8x3_S1x1_3_2)) 0 false
    ∗ dutyTok ER (dcell (prv c) (csem cc0_scratch5 4 0 inb_S8x3_S1x1_4_0)) 0 false
    ∗ dutyTok ER (dcell (prv c) (csem cc0_scratch5 4 1 inb_S8x3_S1x1_4_1)) 0 false
    ∗ dutyTok ER (dcell (prv c) (csem cc0_scratch5 4 2 inb_S8x3_S1x1_4_2)) 0 false
    ∗ dutyTok ER (dcell (prv c) (csem cc0_scratch5 5 0 inb_S8x3_S1x1_5_0)) 0 false
    ∗ dutyTok ER (dcell (prv c) (csem cc0_scratch5 5 1 inb_S8x3_S1x1_5_1)) 0 false
    ∗ dutyTok ER (dcell (prv c) (csem cc0_scratch5 5 2 inb_S8x3_S1x1_5_2)) 0 false
    ∗ dutyTok ER (dcell (prv c) (csem cc0_scratch5 6 0 inb_S8x3_S1x1_6_0)) 0 false
    ∗ dutyTok ER (dcell (prv c) (csem cc0_scratch5 6 1 inb_S8x3_S1x1_6_1)) 0 false
    ∗ dutyTok ER (dcell (prv c) (csem cc0_scratch5 6 2 inb_S8x3_S1x1_6_2)) 0 false
    ∗ dutyTok ER (dcell (prv c) (csem cc0_scratch5 7 0 inb_S8x3_S1x1_7_0)) 0 false
    ∗ dutyTok ER (dcell (prv c) (csem cc0_scratch5 7 1 inb_S8x3_S1x1_7_1)) 0 false
    ∗ dutyTok ER (dcell (prv c) (csem cc0_scratch5 7 2 inb_S8x3_S1x1_7_2)) 0 false
    ∗ dutyTok ER (dcell (c) (csem cc0_scratch2 0 0 inb_S8x3_S1x1_0_0)) 0 false
    ∗ dutyTok ER (dcell (c) (csem cc0_scratch2 0 1 inb_S8x3_S1x1_0_1)) 0 false
    ∗ dutyTok ER (dcell (c) (csem cc0_scratch2 0 2 inb_S8x3_S1x1_0_2)) 0 false
    ∗ dutyTok ER (dcell (c) (csem cc0_scratch2 1 0 inb_S8x3_S1x1_1_0)) 0 false
    ∗ dutyTok ER (dcell (c) (csem cc0_scratch2 1 1 inb_S8x3_S1x1_1_1)) 0 false
    ∗ dutyTok ER (dcell (c) (csem cc0_scratch2 1 2 inb_S8x3_S1x1_1_2)) 0 false
    ∗ dutyTok ER (dcell (c) (csem cc0_scratch2 2 0 inb_S8x3_S1x1_2_0)) 0 false
    ∗ dutyTok ER (dcell (c) (csem cc0_scratch2 2 1 inb_S8x3_S1x1_2_1)) 0 false
    ∗ dutyTok ER (dcell (c) (csem cc0_scratch2 2 2 inb_S8x3_S1x1_2_2)) 0 false
    ∗ dutyTok ER (dcell (c) (csem cc0_scratch2 3 0 inb_S8x3_S1x1_3_0)) 0 false
    ∗ dutyTok ER (dcell (c) (csem cc0_scratch2 3 1 inb_S8x3_S1x1_3_1)) 0 false
    ∗ dutyTok ER (dcell (c) (csem cc0_scratch2 3 2 inb_S8x3_S1x1_3_2)) 0 false
    ∗ dutyTok ER (dcell (c) (csem cc0_scratch2 4 0 inb_S8x3_S1x1_4_0)) 0 false
    ∗ dutyTok ER (dcell (c) (csem cc0_scratch2 4 1 inb_S8x3_S1x1_4_1)) 0 false
    ∗ dutyTok ER (dcell (c) (csem cc0_scratch2 4 2 inb_S8x3_S1x1_4_2)) 0 false
    ∗ dutyTok ER (dcell (c) (csem cc0_scratch2 5 0 inb_S8x3_S1x1_5_0)) 0 false
    ∗ dutyTok ER (dcell (c) (csem cc0_scratch2 5 1 inb_S8x3_S1x1_5_1)) 0 false
    ∗ dutyTok ER (dcell (c) (csem cc0_scratch2 5 2 inb_S8x3_S1x1_5_2)) 0 false
    ∗ dutyTok ER (dcell (c) (csem cc0_scratch2 6 0 inb_S8x3_S1x1_6_0)) 0 false
    ∗ dutyTok ER (dcell (c) (csem cc0_scratch2 6 1 inb_S8x3_S1x1_6_1)) 0 false
    ∗ dutyTok ER (dcell (c) (csem cc0_scratch2 6 2 inb_S8x3_S1x1_6_2)) 0 false
    ∗ dutyTok ER (dcell (c) (csem cc0_scratch2 7 0 inb_S8x3_S1x1_7_0)) 0 false
    ∗ dutyTok ER (dcell (c) (csem cc0_scratch2 7 1 inb_S8x3_S1x1_7_1)) 0 false
    ∗ dutyTok ER (dcell (c) (csem cc0_scratch2 7 2 inb_S8x3_S1x1_7_2)) 0 false
    ∗ dutyTok ER (dcell (c) (csem cc0_scratch4 0 0 inb_S8x3_S1x1_0_0)) 0 false
    ∗ dutyTok ER (dcell (c) (csem cc0_scratch4 0 1 inb_S8x3_S1x1_0_1)) 0 false
    ∗ dutyTok ER (dcell (c) (csem cc0_scratch4 0 2 inb_S8x3_S1x1_0_2)) 0 false
    ∗ dutyTok ER (dcell (c) (csem cc0_scratch4 1 0 inb_S8x3_S1x1_1_0)) 0 false
    ∗ dutyTok ER (dcell (c) (csem cc0_scratch4 1 1 inb_S8x3_S1x1_1_1)) 0 false
    ∗ dutyTok ER (dcell (c) (csem cc0_scratch4 1 2 inb_S8x3_S1x1_1_2)) 0 false
    ∗ dutyTok ER (dcell (c) (csem cc0_scratch4 2 0 inb_S8x3_S1x1_2_0)) 0 false
    ∗ dutyTok ER (dcell (c) (csem cc0_scratch4 2 1 inb_S8x3_S1x1_2_1)) 0 false
    ∗ dutyTok ER (dcell (c) (csem cc0_scratch4 2 2 inb_S8x3_S1x1_2_2)) 0 false
    ∗ dutyTok ER (dcell (c) (csem cc0_scratch4 3 0 inb_S8x3_S1x1_3_0)) 0 false
    ∗ dutyTok ER (dcell (c) (csem cc0_scratch4 3 1 inb_S8x3_S1x1_3_1)) 0 false
    ∗ dutyTok ER (dcell (c) (csem cc0_scratch4 3 2 inb_S8x3_S1x1_3_2)) 0 false
    ∗ dutyTok ER (dcell (c) (csem cc0_scratch4 4 0 inb_S8x3_S1x1_4_0)) 0 false
    ∗ dutyTok ER (dcell (c) (csem cc0_scratch4 4 1 inb_S8x3_S1x1_4_1)) 0 false
    ∗ dutyTok ER (dcell (c) (csem cc0_scratch4 4 2 inb_S8x3_S1x1_4_2)) 0 false
    ∗ dutyTok ER (dcell (c) (csem cc0_scratch4 5 0 inb_S8x3_S1x1_5_0)) 0 false
    ∗ dutyTok ER (dcell (c) (csem cc0_scratch4 5 1 inb_S8x3_S1x1_5_1)) 0 false
    ∗ dutyTok ER (dcell (c) (csem cc0_scratch4 5 2 inb_S8x3_S1x1_5_2)) 0 false
    ∗ dutyTok ER (dcell (c) (csem cc0_scratch4 6 0 inb_S8x3_S1x1_6_0)) 0 false
    ∗ dutyTok ER (dcell (c) (csem cc0_scratch4 6 1 inb_S8x3_S1x1_6_1)) 0 false
    ∗ dutyTok ER (dcell (c) (csem cc0_scratch4 6 2 inb_S8x3_S1x1_6_2)) 0 false
    ∗ dutyTok ER (dcell (c) (csem cc0_scratch4 7 0 inb_S8x3_S1x1_7_0)) 0 false
    ∗ dutyTok ER (dcell (c) (csem cc0_scratch4 7 1 inb_S8x3_S1x1_7_1)) 0 false
    ∗ dutyTok ER (dcell (c) (csem cc0_scratch4 7 2 inb_S8x3_S1x1_7_2)) 0 false
    ∗ cred (tallyAt (barCell c) () 2)
    ∗ cred (tallyAt (dcell (c) (csem cc0_scratch3 0 0 inb_S8x3_S1x1_0_0)) () Nrs)
    ∗ cred (tallyAt (dcell (c) (csem cc0_scratch3 0 1 inb_S8x3_S1x1_0_1)) () Nrs)
    ∗ cred (tallyAt (dcell (c) (csem cc0_scratch3 0 2 inb_S8x3_S1x1_0_2)) () Nrs)
    ∗ cred (tallyAt (dcell (c) (csem cc0_scratch3 1 0 inb_S8x3_S1x1_1_0)) () Nrs)
    ∗ cred (tallyAt (dcell (c) (csem cc0_scratch3 1 1 inb_S8x3_S1x1_1_1)) () Nrs)
    ∗ cred (tallyAt (dcell (c) (csem cc0_scratch3 1 2 inb_S8x3_S1x1_1_2)) () Nrs)
    ∗ cred (tallyAt (dcell (c) (csem cc0_scratch3 2 0 inb_S8x3_S1x1_2_0)) () Nrs)
    ∗ cred (tallyAt (dcell (c) (csem cc0_scratch3 2 1 inb_S8x3_S1x1_2_1)) () Nrs)
    ∗ cred (tallyAt (dcell (c) (csem cc0_scratch3 2 2 inb_S8x3_S1x1_2_2)) () Nrs)
    ∗ cred (tallyAt (dcell (c) (csem cc0_scratch3 3 0 inb_S8x3_S1x1_3_0)) () Nrs)
    ∗ cred (tallyAt (dcell (c) (csem cc0_scratch3 3 1 inb_S8x3_S1x1_3_1)) () Nrs)
    ∗ cred (tallyAt (dcell (c) (csem cc0_scratch3 3 2 inb_S8x3_S1x1_3_2)) () Nrs)
    ∗ cred (tallyAt (dcell (c) (csem cc0_scratch3 4 0 inb_S8x3_S1x1_4_0)) () Nrs)
    ∗ cred (tallyAt (dcell (c) (csem cc0_scratch3 4 1 inb_S8x3_S1x1_4_1)) () Nrs)
    ∗ cred (tallyAt (dcell (c) (csem cc0_scratch3 4 2 inb_S8x3_S1x1_4_2)) () Nrs)
    ∗ cred (tallyAt (dcell (c) (csem cc0_scratch3 5 0 inb_S8x3_S1x1_5_0)) () Nrs)
    ∗ cred (tallyAt (dcell (c) (csem cc0_scratch3 5 1 inb_S8x3_S1x1_5_1)) () Nrs)
    ∗ cred (tallyAt (dcell (c) (csem cc0_scratch3 5 2 inb_S8x3_S1x1_5_2)) () Nrs)
    ∗ cred (tallyAt (dcell (c) (csem cc0_scratch3 6 0 inb_S8x3_S1x1_6_0)) () Nrs)
    ∗ cred (tallyAt (dcell (c) (csem cc0_scratch3 6 1 inb_S8x3_S1x1_6_1)) () Nrs)
    ∗ cred (tallyAt (dcell (c) (csem cc0_scratch3 6 2 inb_S8x3_S1x1_6_2)) () Nrs)
    ∗ cred (tallyAt (dcell (c) (csem cc0_scratch3 7 0 inb_S8x3_S1x1_7_0)) () Nrs)
    ∗ cred (tallyAt (dcell (c) (csem cc0_scratch3 7 1 inb_S8x3_S1x1_7_1)) () Nrs)
    ∗ cred (tallyAt (dcell (c) (csem cc0_scratch3 7 2 inb_S8x3_S1x1_7_2)) () Nrs)
    ∗ cred (tallyAt (dcell (c) (csem cc0_scratch5 0 0 inb_S8x3_S1x1_0_0)) () Nag)
    ∗ cred (tallyAt (dcell (c) (csem cc0_scratch5 0 1 inb_S8x3_S1x1_0_1)) () Nag)
    ∗ cred (tallyAt (dcell (c) (csem cc0_scratch5 0 2 inb_S8x3_S1x1_0_2)) () Nag)
    ∗ cred (tallyAt (dcell (c) (csem cc0_scratch5 1 0 inb_S8x3_S1x1_1_0)) () Nag)
    ∗ cred (tallyAt (dcell (c) (csem cc0_scratch5 1 1 inb_S8x3_S1x1_1_1)) () Nag)
    ∗ cred (tallyAt (dcell (c) (csem cc0_scratch5 1 2 inb_S8x3_S1x1_1_2)) () Nag)
    ∗ cred (tallyAt (dcell (c) (csem cc0_scratch5 2 0 inb_S8x3_S1x1_2_0)) () Nag)
    ∗ cred (tallyAt (dcell (c) (csem cc0_scratch5 2 1 inb_S8x3_S1x1_2_1)) () Nag)
    ∗ cred (tallyAt (dcell (c) (csem cc0_scratch5 2 2 inb_S8x3_S1x1_2_2)) () Nag)
    ∗ cred (tallyAt (dcell (c) (csem cc0_scratch5 3 0 inb_S8x3_S1x1_3_0)) () Nag)
    ∗ cred (tallyAt (dcell (c) (csem cc0_scratch5 3 1 inb_S8x3_S1x1_3_1)) () Nag)
    ∗ cred (tallyAt (dcell (c) (csem cc0_scratch5 3 2 inb_S8x3_S1x1_3_2)) () Nag)
    ∗ cred (tallyAt (dcell (c) (csem cc0_scratch5 4 0 inb_S8x3_S1x1_4_0)) () Nag)
    ∗ cred (tallyAt (dcell (c) (csem cc0_scratch5 4 1 inb_S8x3_S1x1_4_1)) () Nag)
    ∗ cred (tallyAt (dcell (c) (csem cc0_scratch5 4 2 inb_S8x3_S1x1_4_2)) () Nag)
    ∗ cred (tallyAt (dcell (c) (csem cc0_scratch5 5 0 inb_S8x3_S1x1_5_0)) () Nag)
    ∗ cred (tallyAt (dcell (c) (csem cc0_scratch5 5 1 inb_S8x3_S1x1_5_1)) () Nag)
    ∗ cred (tallyAt (dcell (c) (csem cc0_scratch5 5 2 inb_S8x3_S1x1_5_2)) () Nag)
    ∗ cred (tallyAt (dcell (c) (csem cc0_scratch5 6 0 inb_S8x3_S1x1_6_0)) () Nag)
    ∗ cred (tallyAt (dcell (c) (csem cc0_scratch5 6 1 inb_S8x3_S1x1_6_1)) () Nag)
    ∗ cred (tallyAt (dcell (c) (csem cc0_scratch5 6 2 inb_S8x3_S1x1_6_2)) () Nag)
    ∗ cred (tallyAt (dcell (c) (csem cc0_scratch5 7 0 inb_S8x3_S1x1_7_0)) () Nag)
    ∗ cred (tallyAt (dcell (c) (csem cc0_scratch5 7 1 inb_S8x3_S1x1_7_1)) () Nag)
    ∗ cred (tallyAt (dcell (c) (csem cc0_scratch5 7 2 inb_S8x3_S1x1_7_2)) () Nag)
    ∗ MayWait (c : Thread nD τ) (.reg barS) () (owedRem c 48)
    ∗ MayWait (c : Thread nD τ) (.dma (csem cc0_scratch3 0 0 inb_S8x3_S1x1_0_0)) () (owedRem c 40)
    ∗ MayWait (c : Thread nD τ) (.dma (csem cc0_scratch3 0 1 inb_S8x3_S1x1_0_1)) () (owedRem c 32)
    ∗ MayWait (c : Thread nD τ) (.dma (csem cc0_scratch3 0 2 inb_S8x3_S1x1_0_2)) () (owedRem c 24)
    ∗ MayWait (c : Thread nD τ) (.dma (csem cc0_scratch3 1 0 inb_S8x3_S1x1_1_0)) () (owedRem c 38)
    ∗ MayWait (c : Thread nD τ) (.dma (csem cc0_scratch3 1 1 inb_S8x3_S1x1_1_1)) () (owedRem c 30)
    ∗ MayWait (c : Thread nD τ) (.dma (csem cc0_scratch3 1 2 inb_S8x3_S1x1_1_2)) () (owedRem c 22)
    ∗ MayWait (c : Thread nD τ) (.dma (csem cc0_scratch3 2 0 inb_S8x3_S1x1_2_0)) () (owedRem c 36)
    ∗ MayWait (c : Thread nD τ) (.dma (csem cc0_scratch3 2 1 inb_S8x3_S1x1_2_1)) () (owedRem c 28)
    ∗ MayWait (c : Thread nD τ) (.dma (csem cc0_scratch3 2 2 inb_S8x3_S1x1_2_2)) () (owedRem c 20)
    ∗ MayWait (c : Thread nD τ) (.dma (csem cc0_scratch3 3 0 inb_S8x3_S1x1_3_0)) () (owedRem c 34)
    ∗ MayWait (c : Thread nD τ) (.dma (csem cc0_scratch3 3 1 inb_S8x3_S1x1_3_1)) () (owedRem c 26)
    ∗ MayWait (c : Thread nD τ) (.dma (csem cc0_scratch3 3 2 inb_S8x3_S1x1_3_2)) () (owedRem c 18)
    ∗ MayWait (c : Thread nD τ) (.dma (csem cc0_scratch3 4 0 inb_S8x3_S1x1_4_0)) () (owedRem c 39)
    ∗ MayWait (c : Thread nD τ) (.dma (csem cc0_scratch3 4 1 inb_S8x3_S1x1_4_1)) () (owedRem c 31)
    ∗ MayWait (c : Thread nD τ) (.dma (csem cc0_scratch3 4 2 inb_S8x3_S1x1_4_2)) () (owedRem c 23)
    ∗ MayWait (c : Thread nD τ) (.dma (csem cc0_scratch3 5 0 inb_S8x3_S1x1_5_0)) () (owedRem c 37)
    ∗ MayWait (c : Thread nD τ) (.dma (csem cc0_scratch3 5 1 inb_S8x3_S1x1_5_1)) () (owedRem c 29)
    ∗ MayWait (c : Thread nD τ) (.dma (csem cc0_scratch3 5 2 inb_S8x3_S1x1_5_2)) () (owedRem c 21)
    ∗ MayWait (c : Thread nD τ) (.dma (csem cc0_scratch3 6 0 inb_S8x3_S1x1_6_0)) () (owedRem c 35)
    ∗ MayWait (c : Thread nD τ) (.dma (csem cc0_scratch3 6 1 inb_S8x3_S1x1_6_1)) () (owedRem c 27)
    ∗ MayWait (c : Thread nD τ) (.dma (csem cc0_scratch3 6 2 inb_S8x3_S1x1_6_2)) () (owedRem c 19)
    ∗ MayWait (c : Thread nD τ) (.dma (csem cc0_scratch3 7 0 inb_S8x3_S1x1_7_0)) () (owedRem c 33)
    ∗ MayWait (c : Thread nD τ) (.dma (csem cc0_scratch3 7 1 inb_S8x3_S1x1_7_1)) () (owedRem c 25)
    ∗ MayWait (c : Thread nD τ) (.dma (csem cc0_scratch3 7 2 inb_S8x3_S1x1_7_2)) () (owedRem c 17)
    ∗ MayWait (c : Thread nD τ) (.dma (csem cc0_scratch5 0 0 inb_S8x3_S1x1_0_0)) () (owedRem c 16)
    ∗ MayWait (c : Thread nD τ) (.dma (csem cc0_scratch5 0 1 inb_S8x3_S1x1_0_1)) () (owedRem c 8)
    ∗ MayWait (c : Thread nD τ) (.dma (csem cc0_scratch5 0 2 inb_S8x3_S1x1_0_2)) () (owedRem c 0)
    ∗ MayWait (c : Thread nD τ) (.dma (csem cc0_scratch5 1 0 inb_S8x3_S1x1_1_0)) () (owedRem c 14)
    ∗ MayWait (c : Thread nD τ) (.dma (csem cc0_scratch5 1 1 inb_S8x3_S1x1_1_1)) () (owedRem c 6)
    ∗ MayWait (c : Thread nD τ) (.dma (csem cc0_scratch5 1 2 inb_S8x3_S1x1_1_2)) () (owedRem c 0)
    ∗ MayWait (c : Thread nD τ) (.dma (csem cc0_scratch5 2 0 inb_S8x3_S1x1_2_0)) () (owedRem c 12)
    ∗ MayWait (c : Thread nD τ) (.dma (csem cc0_scratch5 2 1 inb_S8x3_S1x1_2_1)) () (owedRem c 4)
    ∗ MayWait (c : Thread nD τ) (.dma (csem cc0_scratch5 2 2 inb_S8x3_S1x1_2_2)) () (owedRem c 0)
    ∗ MayWait (c : Thread nD τ) (.dma (csem cc0_scratch5 3 0 inb_S8x3_S1x1_3_0)) () (owedRem c 10)
    ∗ MayWait (c : Thread nD τ) (.dma (csem cc0_scratch5 3 1 inb_S8x3_S1x1_3_1)) () (owedRem c 2)
    ∗ MayWait (c : Thread nD τ) (.dma (csem cc0_scratch5 3 2 inb_S8x3_S1x1_3_2)) () (owedRem c 0)
    ∗ MayWait (c : Thread nD τ) (.dma (csem cc0_scratch5 4 0 inb_S8x3_S1x1_4_0)) () (owedRem c 15)
    ∗ MayWait (c : Thread nD τ) (.dma (csem cc0_scratch5 4 1 inb_S8x3_S1x1_4_1)) () (owedRem c 7)
    ∗ MayWait (c : Thread nD τ) (.dma (csem cc0_scratch5 4 2 inb_S8x3_S1x1_4_2)) () (owedRem c 0)
    ∗ MayWait (c : Thread nD τ) (.dma (csem cc0_scratch5 5 0 inb_S8x3_S1x1_5_0)) () (owedRem c 13)
    ∗ MayWait (c : Thread nD τ) (.dma (csem cc0_scratch5 5 1 inb_S8x3_S1x1_5_1)) () (owedRem c 5)
    ∗ MayWait (c : Thread nD τ) (.dma (csem cc0_scratch5 5 2 inb_S8x3_S1x1_5_2)) () (owedRem c 0)
    ∗ MayWait (c : Thread nD τ) (.dma (csem cc0_scratch5 6 0 inb_S8x3_S1x1_6_0)) () (owedRem c 11)
    ∗ MayWait (c : Thread nD τ) (.dma (csem cc0_scratch5 6 1 inb_S8x3_S1x1_6_1)) () (owedRem c 3)
    ∗ MayWait (c : Thread nD τ) (.dma (csem cc0_scratch5 6 2 inb_S8x3_S1x1_6_2)) () (owedRem c 0)
    ∗ MayWait (c : Thread nD τ) (.dma (csem cc0_scratch5 7 0 inb_S8x3_S1x1_7_0)) () (owedRem c 9)
    ∗ MayWait (c : Thread nD τ) (.dma (csem cc0_scratch5 7 1 inb_S8x3_S1x1_7_1)) () (owedRem c 1)
    ∗ MayWait (c : Thread nD τ) (.dma (csem cc0_scratch5 7 2 inb_S8x3_S1x1_7_2)) () (owedRem c 0)
    ∗ owes (c : Thread nD τ) (owedRem c 48 + tallyAt (barCell (nxt c)) () 1 + tallyAt (barCell (prv c)) () 1) W)

end Cert.KernelIdeal.P

end
-- ==== Proof.TablesLit.lean ====
import proofs.«900901_g7700000000000902_dist_matmul_silu_kshard_i_m2048_n2048_k1024_v7x_i4_bf16_1_alg».proof.Proof.Tables

/-!
The schedule's tables at the literal cells of the program, with each block of the result buffer at the offsets the
program computes for it: chain `a`'s copy at step `b` moves the block at `k0_offN c w` (`N` and `w` by the chain and the
step), whose closed form is `rowOff c (agShift a b) a`.
-/

noncomputable section

namespace Cert.KernelIdeal.P

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Lit
variable (fa : Dev nD → AT F) (fb : Dev nD → BT F) (c : Dev nD)

/-! ## The program's offsets in closed form -/

theorem agOff_0_0 : k0_off3 c 0#32 = rowOff c (agShift 0 0) 0 := (off3_eq_0 c).trans rfl
theorem agOff_0_1 : k0_off3 c 1#32 = rowOff c (agShift 0 1) 0 := (off3_eq_1 c).trans rfl
theorem agOff_0_2 : k0_off3 c 2#32 = rowOff c (agShift 0 2) 0 := (off3_eq_2 c).trans rfl
theorem agOff_1_0 : k0_off7 c 0#32 = rowOff c (agShift 1 0) 1 := (off7_eq_0 c).trans rfl
theorem agOff_1_1 : k0_off7 c 1#32 = rowOff c (agShift 1 1) 1 := (off7_eq_1 c).trans rfl
theorem agOff_1_2 : k0_off7 c 2#32 = rowOff c (agShift 1 2) 1 := (off7_eq_2 c).trans rfl
theorem agOff_2_0 : k0_off11 c 0#32 = rowOff c (agShift 2 0) 2 := (off11_eq_0 c).trans rfl
theorem agOff_2_1 : k0_off11 c 1#32 = rowOff c (agShift 2 1) 2 := (off11_eq_1 c).trans rfl
theorem agOff_2_2 : k0_off11 c 2#32 = rowOff c (agShift 2 2) 2 := (off11_eq_2 c).trans rfl
theorem agOff_3_0 : k0_off15 c 0#32 = rowOff c (agShift 3 0) 3 := (off15_eq_0 c).trans rfl
theorem agOff_3_1 : k0_off15 c 1#32 = rowOff c (agShift 3 1) 3 := (off15_eq_1 c).trans rfl
theorem agOff_3_2 : k0_off15 c 2#32 = rowOff c (agShift 3 2) 3 := (off15_eq_2 c).trans rfl
theorem agOff_4_0 : k0_off5 c 0#32 = rowOff c (agShift 4 0) 4 := (off5_eq_0 c).trans rfl
theorem agOff_4_1 : k0_off5 c 4294967295#32 = rowOff c (agShift 4 1) 4 := (off5_eq_m1 c).trans rfl
theorem agOff_4_2 : k0_off5 c 4294967294#32 = rowOff c (agShift 4 2) 4 := (off5_eq_m2 c).trans rfl
theorem agOff_5_0 : k0_off9 c 0#32 = rowOff c (agShift 5 0) 5 := (off9_eq_0 c).trans rfl
theorem agOff_5_1 : k0_off9 c 4294967295#32 = rowOff c (agShift 5 1) 5 := (off9_eq_m1 c).trans rfl
theorem agOff_5_2 : k0_off9 c 4294967294#32 = rowOff c (agShift 5 2) 5 := (off9_eq_m2 c).trans rfl
theorem agOff_6_0 : k0_off13 c 0#32 = rowOff c (agShift 6 0) 6 := (off13_eq_0 c).trans rfl
theorem agOff_6_1 : k0_off13 c 4294967295#32 = rowOff c (agShift 6 1) 6 := (off13_eq_m1 c).trans rfl
theorem agOff_6_2 : k0_off13 c 4294967294#32 = rowOff c (agShift 6 2) 6 := (off13_eq_m2 c).trans rfl
theorem agOff_7_0 : k0_off17 c 0#32 = rowOff c (agShift 7 0) 7 := (off17_eq_0 c).trans rfl
theorem agOff_7_1 : k0_off17 c 4294967295#32 = rowOff c (agShift 7 1) 7 := (off17_eq_m1 c).trans rfl
theorem agOff_7_2 : k0_off17 c 4294967294#32 = rowOff c (agShift 7 2) 7 := (off17_eq_m2 c).trans rfl

/-! ## A device's own all-gather send cells -/

theorem payload_agSend_0_0 (h) (d : Bool) :
    (ringRd fa fb).payload (dcell c (csem cc0_scratch4 0 0 h)) 0 d =
      ((oblkM (k0_off3 c 0#32) (k0_off3_inb c 0) : Memref sig .tc .vmem S512x256 .bf16).view.loc (c : Thread nD τ)
        ↦[(oblkM (k0_off3 c 0#32) (k0_off3_inb c 0) : Memref sig .tc .vmem S512x256 .bf16).view.set]{fullShare}
          oblkBuf (k0_off3 c 0#32) (k0_off3_inb c 0) (outBlk fa fb (orig 0 0 c) 0 (by decide)) : sProp 𝕄) :=
  payload_agSend_at fa fb c 0 0 (by decide) (by decide) h d _ _ (agOff_0_0 c)
theorem payload_agSend_0_1 (h) (d : Bool) :
    (ringRd fa fb).payload (dcell c (csem cc0_scratch4 0 1 h)) 0 d =
      ((oblkM (k0_off3 c 1#32) (k0_off3_inb c 1) : Memref sig .tc .vmem S512x256 .bf16).view.loc (c : Thread nD τ)
        ↦[(oblkM (k0_off3 c 1#32) (k0_off3_inb c 1) : Memref sig .tc .vmem S512x256 .bf16).view.set]{fullShare}
          oblkBuf (k0_off3 c 1#32) (k0_off3_inb c 1) (outBlk fa fb (orig 0 1 c) 0 (by decide)) : sProp 𝕄) :=
  payload_agSend_at fa fb c 0 1 (by decide) (by decide) h d _ _ (agOff_0_1 c)
theorem payload_agSend_0_2 (h) (d : Bool) :
    (ringRd fa fb).payload (dcell c (csem cc0_scratch4 0 2 h)) 0 d =
      ((oblkM (k0_off3 c 2#32) (k0_off3_inb c 2) : Memref sig .tc .vmem S512x256 .bf16).view.loc (c : Thread nD τ)
        ↦[(oblkM (k0_off3 c 2#32) (k0_off3_inb c 2) : Memref sig .tc .vmem S512x256 .bf16).view.set]{fullShare}
          oblkBuf (k0_off3 c 2#32) (k0_off3_inb c 2) (outBlk fa fb (orig 0 2 c) 0 (by decide)) : sProp 𝕄) :=
  payload_agSend_at fa fb c 0 2 (by decide) (by decide) h d _ _ (agOff_0_2 c)
theorem payload_agSend_1_0 (h) (d : Bool) :
    (ringRd fa fb).payload (dcell c (csem cc0_scratch4 1 0 h)) 0 d =
      ((oblkM (k0_off7 c 0#32) (k0_off7_inb c 0) : Memref sig .tc .vmem S512x256 .bf16).view.loc (c : Thread nD τ)
        ↦[(oblkM (k0_off7 c 0#32) (k0_off7_inb c 0) : Memref sig .tc .vmem S512x256 .bf16).view.set]{fullShare}
          oblkBuf (k0_off7 c 0#32) (k0_off7_inb c 0) (outBlk fa fb (orig 1 0 c) 1 (by decide)) : sProp 𝕄) :=
  payload_agSend_at fa fb c 1 0 (by decide) (by decide) h d _ _ (agOff_1_0 c)
theorem payload_agSend_1_1 (h) (d : Bool) :
    (ringRd fa fb).payload (dcell c (csem cc0_scratch4 1 1 h)) 0 d =
      ((oblkM (k0_off7 c 1#32) (k0_off7_inb c 1) : Memref sig .tc .vmem S512x256 .bf16).view.loc (c : Thread nD τ)
        ↦[(oblkM (k0_off7 c 1#32) (k0_off7_inb c 1) : Memref sig .tc .vmem S512x256 .bf16).view.set]{fullShare}
          oblkBuf (k0_off7 c 1#32) (k0_off7_inb c 1) (outBlk fa fb (orig 1 1 c) 1 (by decide)) : sProp 𝕄) :=
  payload_agSend_at fa fb c 1 1 (by decide) (by decide) h d _ _ (agOff_1_1 c)
theorem payload_agSend_1_2 (h) (d : Bool) :
    (ringRd fa fb).payload (dcell c (csem cc0_scratch4 1 2 h)) 0 d =
      ((oblkM (k0_off7 c 2#32) (k0_off7_inb c 2) : Memref sig .tc .vmem S512x256 .bf16).view.loc (c : Thread nD τ)
        ↦[(oblkM (k0_off7 c 2#32) (k0_off7_inb c 2) : Memref sig .tc .vmem S512x256 .bf16).view.set]{fullShare}
          oblkBuf (k0_off7 c 2#32) (k0_off7_inb c 2) (outBlk fa fb (orig 1 2 c) 1 (by decide)) : sProp 𝕄) :=
  payload_agSend_at fa fb c 1 2 (by decide) (by decide) h d _ _ (agOff_1_2 c)
theorem payload_agSend_2_0 (h) (d : Bool) :
    (ringRd fa fb).payload (dcell c (csem cc0_scratch4 2 0 h)) 0 d =
      ((oblkM (k0_off11 c 0#32) (k0_off11_inb c 0) : Memref sig .tc .vmem S512x256 .bf16).view.loc (c : Thread nD τ)
        ↦[(oblkM (k0_off11 c 0#32) (k0_off11_inb c 0) : Memref sig .tc .vmem S512x256 .bf16).view.set]{fullShare}
          oblkBuf (k0_off11 c 0#32) (k0_off11_inb c 0) (outBlk fa fb (orig 2 0 c) 2 (by decide)) : sProp 𝕄) :=
  payload_agSend_at fa fb c 2 0 (by decide) (by decide) h d _ _ (agOff_2_0 c)
theorem payload_agSend_2_1 (h) (d : Bool) :
    (ringRd fa fb).payload (dcell c (csem cc0_scratch4 2 1 h)) 0 d =
      ((oblkM (k0_off11 c 1#32) (k0_off11_inb c 1) : Memref sig .tc .vmem S512x256 .bf16).view.loc (c : Thread nD τ)
        ↦[(oblkM (k0_off11 c 1#32) (k0_off11_inb c 1) : Memref sig .tc .vmem S512x256 .bf16).view.set]{fullShare}
          oblkBuf (k0_off11 c 1#32) (k0_off11_inb c 1) (outBlk fa fb (orig 2 1 c) 2 (by decide)) : sProp 𝕄) :=
  payload_agSend_at fa fb c 2 1 (by decide) (by decide) h d _ _ (agOff_2_1 c)
theorem payload_agSend_2_2 (h) (d : Bool) :
    (ringRd fa fb).payload (dcell c (csem cc0_scratch4 2 2 h)) 0 d =
      ((oblkM (k0_off11 c 2#32) (k0_off11_inb c 2) : Memref sig .tc .vmem S512x256 .bf16).view.loc (c : Thread nD τ)
        ↦[(oblkM (k0_off11 c 2#32) (k0_off11_inb c 2) : Memref sig .tc .vmem S512x256 .bf16).view.set]{fullShare}
          oblkBuf (k0_off11 c 2#32) (k0_off11_inb c 2) (outBlk fa fb (orig 2 2 c) 2 (by decide)) : sProp 𝕄) :=
  payload_agSend_at fa fb c 2 2 (by decide) (by decide) h d _ _ (agOff_2_2 c)
theorem payload_agSend_3_0 (h) (d : Bool) :
    (ringRd fa fb).payload (dcell c (csem cc0_scratch4 3 0 h)) 0 d =
      ((oblkM (k0_off15 c 0#32) (k0_off15_inb c 0) : Memref sig .tc .vmem S512x256 .bf16).view.loc (c : Thread nD τ)
        ↦[(oblkM (k0_off15 c 0#32) (k0_off15_inb c 0) : Memref sig .tc .vmem S512x256 .bf16).view.set]{fullShare}
          oblkBuf (k0_off15 c 0#32) (k0_off15_inb c 0) (outBlk fa fb (orig 3 0 c) 3 (by decide)) : sProp 𝕄) :=
  payload_agSend_at fa fb c 3 0 (by decide) (by decide) h d _ _ (agOff_3_0 c)
theorem payload_agSend_3_1 (h) (d : Bool) :
    (ringRd fa fb).payload (dcell c (csem cc0_scratch4 3 1 h)) 0 d =
      ((oblkM (k0_off15 c 1#32) (k0_off15_inb c 1) : Memref sig .tc .vmem S512x256 .bf16).view.loc (c : Thread nD τ)
        ↦[(oblkM (k0_off15 c 1#32) (k0_off15_inb c 1) : Memref sig .tc .vmem S512x256 .bf16).view.set]{fullShare}
          oblkBuf (k0_off15 c 1#32) (k0_off15_inb c 1) (outBlk fa fb (orig 3 1 c) 3 (by decide)) : sProp 𝕄) :=
  payload_agSend_at fa fb c 3 1 (by decide) (by decide) h d _ _ (agOff_3_1 c)
theorem payload_agSend_3_2 (h) (d : Bool) :
    (ringRd fa fb).payload (dcell c (csem cc0_scratch4 3 2 h)) 0 d =
      ((oblkM (k0_off15 c 2#32) (k0_off15_inb c 2) : Memref sig .tc .vmem S512x256 .bf16).view.loc (c : Thread nD τ)
        ↦[(oblkM (k0_off15 c 2#32) (k0_off15_inb c 2) : Memref sig .tc .vmem S512x256 .bf16).view.set]{fullShare}
          oblkBuf (k0_off15 c 2#32) (k0_off15_inb c 2) (outBlk fa fb (orig 3 2 c) 3 (by decide)) : sProp 𝕄) :=
  payload_agSend_at fa fb c 3 2 (by decide) (by decide) h d _ _ (agOff_3_2 c)
theorem payload_agSend_4_0 (h) (d : Bool) :
    (ringRd fa fb).payload (dcell c (csem cc0_scratch4 4 0 h)) 0 d =
      ((oblkM (k0_off5 c 0#32) (k0_off5_inb c 0) : Memref sig .tc .vmem S512x256 .bf16).view.loc (c : Thread nD τ)
        ↦[(oblkM (k0_off5 c 0#32) (k0_off5_inb c 0) : Memref sig .tc .vmem S512x256 .bf16).view.set]{fullShare}
          oblkBuf (k0_off5 c 0#32) (k0_off5_inb c 0) (outBlk fa fb (orig 4 0 c) 4 (by decide)) : sProp 𝕄) :=
  payload_agSend_at fa fb c 4 0 (by decide) (by decide) h d _ _ (agOff_4_0 c)
theorem payload_agSend_4_1 (h) (d : Bool) :
    (ringRd fa fb).payload (dcell c (csem cc0_scratch4 4 1 h)) 0 d =
      ((oblkM (k0_off5 c 4294967295#32) (k0_off5_inb c 1) : Memref sig .tc .vmem S512x256 .bf16).view.loc (c : Thread nD τ)
        ↦[(oblkM (k0_off5 c 4294967295#32) (k0_off5_inb c 1) : Memref sig .tc .vmem S512x256 .bf16).view.set]{fullShare}
          oblkBuf (k0_off5 c 4294967295#32) (k0_off5_inb c 1) (outBlk fa fb (orig 4 1 c) 4 (by decide)) : sProp 𝕄) :=
  payload_agSend_at fa fb c 4 1 (by decide) (by decide) h d _ _ (agOff_4_1 c)
theorem payload_agSend_4_2 (h) (d : Bool) :
    (ringRd fa fb).payload (dcell c (csem cc0_scratch4 4 2 h)) 0 d =
      ((oblkM (k0_off5 c 4294967294#32) (k0_off5_inb c 2) : Memref sig .tc .vmem S512x256 .bf16).view.loc (c : Thread nD τ)
        ↦[(oblkM (k0_off5 c 4294967294#32) (k0_off5_inb c 2) : Memref sig .tc .vmem S512x256 .bf16).view.set]{fullShare}
          oblkBuf (k0_off5 c 4294967294#32) (k0_off5_inb c 2) (outBlk fa fb (orig 4 2 c) 4 (by decide)) : sProp 𝕄) :=
  payload_agSend_at fa fb c 4 2 (by decide) (by decide) h d _ _ (agOff_4_2 c)
theorem payload_agSend_5_0 (h) (d : Bool) :
    (ringRd fa fb).payload (dcell c (csem cc0_scratch4 5 0 h)) 0 d =
      ((oblkM (k0_off9 c 0#32) (k0_off9_inb c 0) : Memref sig .tc .vmem S512x256 .bf16).view.loc (c : Thread nD τ)
        ↦[(oblkM (k0_off9 c 0#32) (k0_off9_inb c 0) : Memref sig .tc .vmem S512x256 .bf16).view.set]{fullShare}
          oblkBuf (k0_off9 c 0#32) (k0_off9_inb c 0) (outBlk fa fb (orig 5 0 c) 5 (by decide)) : sProp 𝕄) :=
  payload_agSend_at fa fb c 5 0 (by decide) (by decide) h d _ _ (agOff_5_0 c)
theorem payload_agSend_5_1 (h) (d : Bool) :
    (ringRd fa fb).payload (dcell c (csem cc0_scratch4 5 1 h)) 0 d =
      ((oblkM (k0_off9 c 4294967295#32) (k0_off9_inb c 1) : Memref sig .tc .vmem S512x256 .bf16).view.loc (c : Thread nD τ)
        ↦[(oblkM (k0_off9 c 4294967295#32) (k0_off9_inb c 1) : Memref sig .tc .vmem S512x256 .bf16).view.set]{fullShare}
          oblkBuf (k0_off9 c 4294967295#32) (k0_off9_inb c 1) (outBlk fa fb (orig 5 1 c) 5 (by decide)) : sProp 𝕄) :=
  payload_agSend_at fa fb c 5 1 (by decide) (by decide) h d _ _ (agOff_5_1 c)
theorem payload_agSend_5_2 (h) (d : Bool) :
    (ringRd fa fb).payload (dcell c (csem cc0_scratch4 5 2 h)) 0 d =
      ((oblkM (k0_off9 c 4294967294#32) (k0_off9_inb c 2) : Memref sig .tc .vmem S512x256 .bf16).view.loc (c : Thread nD τ)
        ↦[(oblkM (k0_off9 c 4294967294#32) (k0_off9_inb c 2) : Memref sig .tc .vmem S512x256 .bf16).view.set]{fullShare}
          oblkBuf (k0_off9 c 4294967294#32) (k0_off9_inb c 2) (outBlk fa fb (orig 5 2 c) 5 (by decide)) : sProp 𝕄) :=
  payload_agSend_at fa fb c 5 2 (by decide) (by decide) h d _ _ (agOff_5_2 c)
theorem payload_agSend_6_0 (h) (d : Bool) :
    (ringRd fa fb).payload (dcell c (csem cc0_scratch4 6 0 h)) 0 d =
      ((oblkM (k0_off13 c 0#32) (k0_off13_inb c 0) : Memref sig .tc .vmem S512x256 .bf16).view.loc (c : Thread nD τ)
        ↦[(oblkM (k0_off13 c 0#32) (k0_off13_inb c 0) : Memref sig .tc .vmem S512x256 .bf16).view.set]{fullShare}
          oblkBuf (k0_off13 c 0#32) (k0_off13_inb c 0) (outBlk fa fb (orig 6 0 c) 6 (by decide)) : sProp 𝕄) :=
  payload_agSend_at fa fb c 6 0 (by decide) (by decide) h d _ _ (agOff_6_0 c)
theorem payload_agSend_6_1 (h) (d : Bool) :
    (ringRd fa fb).payload (dcell c (csem cc0_scratch4 6 1 h)) 0 d =
      ((oblkM (k0_off13 c 4294967295#32) (k0_off13_inb c 1) : Memref sig .tc .vmem S512x256 .bf16).view.loc (c : Thread nD τ)
        ↦[(oblkM (k0_off13 c 4294967295#32) (k0_off13_inb c 1) : Memref sig .tc .vmem S512x256 .bf16).view.set]{fullShare}
          oblkBuf (k0_off13 c 4294967295#32) (k0_off13_inb c 1) (outBlk fa fb (orig 6 1 c) 6 (by decide)) : sProp 𝕄) :=
  payload_agSend_at fa fb c 6 1 (by decide) (by decide) h d _ _ (agOff_6_1 c)
theorem payload_agSend_6_2 (h) (d : Bool) :
    (ringRd fa fb).payload (dcell c (csem cc0_scratch4 6 2 h)) 0 d =
      ((oblkM (k0_off13 c 4294967294#32) (k0_off13_inb c 2) : Memref sig .tc .vmem S512x256 .bf16).view.loc (c : Thread nD τ)
        ↦[(oblkM (k0_off13 c 4294967294#32) (k0_off13_inb c 2) : Memref sig .tc .vmem S512x256 .bf16).view.set]{fullShare}
          oblkBuf (k0_off13 c 4294967294#32) (k0_off13_inb c 2) (outBlk fa fb (orig 6 2 c) 6 (by decide)) : sProp 𝕄) :=
  payload_agSend_at fa fb c 6 2 (by decide) (by decide) h d _ _ (agOff_6_2 c)
theorem payload_agSend_7_0 (h) (d : Bool) :
    (ringRd fa fb).payload (dcell c (csem cc0_scratch4 7 0 h)) 0 d =
      ((oblkM (k0_off17 c 0#32) (k0_off17_inb c 0) : Memref sig .tc .vmem S512x256 .bf16).view.loc (c : Thread nD τ)
        ↦[(oblkM (k0_off17 c 0#32) (k0_off17_inb c 0) : Memref sig .tc .vmem S512x256 .bf16).view.set]{fullShare}
          oblkBuf (k0_off17 c 0#32) (k0_off17_inb c 0) (outBlk fa fb (orig 7 0 c) 7 (by decide)) : sProp 𝕄) :=
  payload_agSend_at fa fb c 7 0 (by decide) (by decide) h d _ _ (agOff_7_0 c)
theorem payload_agSend_7_1 (h) (d : Bool) :
    (ringRd fa fb).payload (dcell c (csem cc0_scratch4 7 1 h)) 0 d =
      ((oblkM (k0_off17 c 4294967295#32) (k0_off17_inb c 1) : Memref sig .tc .vmem S512x256 .bf16).view.loc (c : Thread nD τ)
        ↦[(oblkM (k0_off17 c 4294967295#32) (k0_off17_inb c 1) : Memref sig .tc .vmem S512x256 .bf16).view.set]{fullShare}
          oblkBuf (k0_off17 c 4294967295#32) (k0_off17_inb c 1) (outBlk fa fb (orig 7 1 c) 7 (by decide)) : sProp 𝕄) :=
  payload_agSend_at fa fb c 7 1 (by decide) (by decide) h d _ _ (agOff_7_1 c)
theorem payload_agSend_7_2 (h) (d : Bool) :
    (ringRd fa fb).payload (dcell c (csem cc0_scratch4 7 2 h)) 0 d =
      ((oblkM (k0_off17 c 4294967294#32) (k0_off17_inb c 2) : Memref sig .tc .vmem S512x256 .bf16).view.loc (c : Thread nD τ)
        ↦[(oblkM (k0_off17 c 4294967294#32) (k0_off17_inb c 2) : Memref sig .tc .vmem S512x256 .bf16).view.set]{fullShare}
          oblkBuf (k0_off17 c 4294967294#32) (k0_off17_inb c 2) (outBlk fa fb (orig 7 2 c) 7 (by decide)) : sProp 𝕄) :=
  payload_agSend_at fa fb c 7 2 (by decide) (by decide) h d _ _ (agOff_7_2 c)

/-! ## The target's all-gather receive cells, in the sending device's terms -/

theorem payload_agRecv_tgt_0_0 (h) (d : Bool) :
    (ringRd fa fb).payload (dcell (nxt c) (csem cc0_scratch5 0 0 h)) 0 d =
      (iprop(∃ fd : Buf (Elt F) ((oblkM (k0_off3 c 0#32) (k0_off3_inb c 0) : Memref sig .tc .vmem S512x256 .bf16).view.loc (nxt c : Thread nD τ)),
        (oblkM (k0_off3 c 0#32) (k0_off3_inb c 0) : Memref sig .tc .vmem S512x256 .bf16).view.loc (nxt c : Thread nD τ)
          ↦[(oblkM (k0_off3 c 0#32) (k0_off3_inb c 0) : Memref sig .tc .vmem S512x256 .bf16).view.set]{fullShare}
            ((oblkM (k0_off3 c 0#32) (k0_off3_inb c 0) : Memref sig .tc .vmem S512x256 .bf16).view.write (Elt F) fd
              ((oblkM (k0_off3 c 0#32) (k0_off3_inb c 0) : Memref sig .tc .vmem S512x256 .bf16).view.read (Elt F)
                (oblkBuf (k0_off3 c 0#32) (k0_off3_inb c 0) (outBlk fa fb (orig 0 0 (c)) 0 (by decide)))) Finset.univ)) : sProp 𝕄) :=
  payload_agRecv_nxt_at fa fb c 0 0 (by decide) (by decide) (by decide) h d _ _ (agOff_0_0 c)
theorem payload_agRecv_tgt_0_1 (h) (d : Bool) :
    (ringRd fa fb).payload (dcell (nxt c) (csem cc0_scratch5 0 1 h)) 0 d =
      (iprop(∃ fd : Buf (Elt F) ((oblkM (k0_off3 c 1#32) (k0_off3_inb c 1) : Memref sig .tc .vmem S512x256 .bf16).view.loc (nxt c : Thread nD τ)),
        (oblkM (k0_off3 c 1#32) (k0_off3_inb c 1) : Memref sig .tc .vmem S512x256 .bf16).view.loc (nxt c : Thread nD τ)
          ↦[(oblkM (k0_off3 c 1#32) (k0_off3_inb c 1) : Memref sig .tc .vmem S512x256 .bf16).view.set]{fullShare}
            ((oblkM (k0_off3 c 1#32) (k0_off3_inb c 1) : Memref sig .tc .vmem S512x256 .bf16).view.write (Elt F) fd
              ((oblkM (k0_off3 c 1#32) (k0_off3_inb c 1) : Memref sig .tc .vmem S512x256 .bf16).view.read (Elt F)
                (oblkBuf (k0_off3 c 1#32) (k0_off3_inb c 1) (outBlk fa fb (orig 0 1 (c)) 0 (by decide)))) Finset.univ)) : sProp 𝕄) :=
  payload_agRecv_nxt_at fa fb c 0 1 (by decide) (by decide) (by decide) h d _ _ (agOff_0_1 c)
theorem payload_agRecv_tgt_0_2 (h) (d : Bool) :
    (ringRd fa fb).payload (dcell (nxt c) (csem cc0_scratch5 0 2 h)) 0 d =
      (iprop(∃ fd : Buf (Elt F) ((oblkM (k0_off3 c 2#32) (k0_off3_inb c 2) : Memref sig .tc .vmem S512x256 .bf16).view.loc (nxt c : Thread nD τ)),
        (oblkM (k0_off3 c 2#32) (k0_off3_inb c 2) : Memref sig .tc .vmem S512x256 .bf16).view.loc (nxt c : Thread nD τ)
          ↦[(oblkM (k0_off3 c 2#32) (k0_off3_inb c 2) : Memref sig .tc .vmem S512x256 .bf16).view.set]{fullShare}
            ((oblkM (k0_off3 c 2#32) (k0_off3_inb c 2) : Memref sig .tc .vmem S512x256 .bf16).view.write (Elt F) fd
              ((oblkM (k0_off3 c 2#32) (k0_off3_inb c 2) : Memref sig .tc .vmem S512x256 .bf16).view.read (Elt F)
                (oblkBuf (k0_off3 c 2#32) (k0_off3_inb c 2) (outBlk fa fb (orig 0 2 (c)) 0 (by decide)))) Finset.univ)) : sProp 𝕄) :=
  payload_agRecv_nxt_at fa fb c 0 2 (by decide) (by decide) (by decide) h d _ _ (agOff_0_2 c)
theorem payload_agRecv_tgt_1_0 (h) (d : Bool) :
    (ringRd fa fb).payload (dcell (nxt c) (csem cc0_scratch5 1 0 h)) 0 d =
      (iprop(∃ fd : Buf (Elt F) ((oblkM (k0_off7 c 0#32) (k0_off7_inb c 0) : Memref sig .tc .vmem S512x256 .bf16).view.loc (nxt c : Thread nD τ)),
        (oblkM (k0_off7 c 0#32) (k0_off7_inb c 0) : Memref sig .tc .vmem S512x256 .bf16).view.loc (nxt c : Thread nD τ)
          ↦[(oblkM (k0_off7 c 0#32) (k0_off7_inb c 0) : Memref sig .tc .vmem S512x256 .bf16).view.set]{fullShare}
            ((oblkM (k0_off7 c 0#32) (k0_off7_inb c 0) : Memref sig .tc .vmem S512x256 .bf16).view.write (Elt F) fd
              ((oblkM (k0_off7 c 0#32) (k0_off7_inb c 0) : Memref sig .tc .vmem S512x256 .bf16).view.read (Elt F)
                (oblkBuf (k0_off7 c 0#32) (k0_off7_inb c 0) (outBlk fa fb (orig 1 0 (c)) 1 (by decide)))) Finset.univ)) : sProp 𝕄) :=
  payload_agRecv_nxt_at fa fb c 1 0 (by decide) (by decide) (by decide) h d _ _ (agOff_1_0 c)
theorem payload_agRecv_tgt_1_1 (h) (d : Bool) :
    (ringRd fa fb).payload (dcell (nxt c) (csem cc0_scratch5 1 1 h)) 0 d =
      (iprop(∃ fd : Buf (Elt F) ((oblkM (k0_off7 c 1#32) (k0_off7_inb c 1) : Memref sig .tc .vmem S512x256 .bf16).view.loc (nxt c : Thread nD τ)),
        (oblkM (k0_off7 c 1#32) (k0_off7_inb c 1) : Memref sig .tc .vmem S512x256 .bf16).view.loc (nxt c : Thread nD τ)
          ↦[(oblkM (k0_off7 c 1#32) (k0_off7_inb c 1) : Memref sig .tc .vmem S512x256 .bf16).view.set]{fullShare}
            ((oblkM (k0_off7 c 1#32) (k0_off7_inb c 1) : Memref sig .tc .vmem S512x256 .bf16).view.write (Elt F) fd
              ((oblkM (k0_off7 c 1#32) (k0_off7_inb c 1) : Memref sig .tc .vmem S512x256 .bf16).view.read (Elt F)
                (oblkBuf (k0_off7 c 1#32) (k0_off7_inb c 1) (outBlk fa fb (orig 1 1 (c)) 1 (by decide)))) Finset.univ)) : sProp 𝕄) :=
  payload_agRecv_nxt_at fa fb c 1 1 (by decide) (by decide) (by decide) h d _ _ (agOff_1_1 c)
theorem payload_agRecv_tgt_1_2 (h) (d : Bool) :
    (ringRd fa fb).payload (dcell (nxt c) (csem cc0_scratch5 1 2 h)) 0 d =
      (iprop(∃ fd : Buf (Elt F) ((oblkM (k0_off7 c 2#32) (k0_off7_inb c 2) : Memref sig .tc .vmem S512x256 .bf16).view.loc (nxt c : Thread nD τ)),
        (oblkM (k0_off7 c 2#32) (k0_off7_inb c 2) : Memref sig .tc .vmem S512x256 .bf16).view.loc (nxt c : Thread nD τ)
          ↦[(oblkM (k0_off7 c 2#32) (k0_off7_inb c 2) : Memref sig .tc .vmem S512x256 .bf16).view.set]{fullShare}
            ((oblkM (k0_off7 c 2#32) (k0_off7_inb c 2) : Memref sig .tc .vmem S512x256 .bf16).view.write (Elt F) fd
              ((oblkM (k0_off7 c 2#32) (k0_off7_inb c 2) : Memref sig .tc .vmem S512x256 .bf16).view.read (Elt F)
                (oblkBuf (k0_off7 c 2#32) (k0_off7_inb c 2) (outBlk fa fb (orig 1 2 (c)) 1 (by decide)))) Finset.univ)) : sProp 𝕄) :=
  payload_agRecv_nxt_at fa fb c 1 2 (by decide) (by decide) (by decide) h d _ _ (agOff_1_2 c)
theorem payload_agRecv_tgt_2_0 (h) (d : Bool) :
    (ringRd fa fb).payload (dcell (nxt c) (csem cc0_scratch5 2 0 h)) 0 d =
      (iprop(∃ fd : Buf (Elt F) ((oblkM (k0_off11 c 0#32) (k0_off11_inb c 0) : Memref sig .tc .vmem S512x256 .bf16).view.loc (nxt c : Thread nD τ)),
        (oblkM (k0_off11 c 0#32) (k0_off11_inb c 0) : Memref sig .tc .vmem S512x256 .bf16).view.loc (nxt c : Thread nD τ)
          ↦[(oblkM (k0_off11 c 0#32) (k0_off11_inb c 0) : Memref sig .tc .vmem S512x256 .bf16).view.set]{fullShare}
            ((oblkM (k0_off11 c 0#32) (k0_off11_inb c 0) : Memref sig .tc .vmem S512x256 .bf16).view.write (Elt F) fd
              ((oblkM (k0_off11 c 0#32) (k0_off11_inb c 0) : Memref sig .tc .vmem S512x256 .bf16).view.read (Elt F)
                (oblkBuf (k0_off11 c 0#32) (k0_off11_inb c 0) (outBlk fa fb (orig 2 0 (c)) 2 (by decide)))) Finset.univ)) : sProp 𝕄) :=
  payload_agRecv_nxt_at fa fb c 2 0 (by decide) (by decide) (by decide) h d _ _ (agOff_2_0 c)
theorem payload_agRecv_tgt_2_1 (h) (d : Bool) :
    (ringRd fa fb).payload (dcell (nxt c) (csem cc0_scratch5 2 1 h)) 0 d =
      (iprop(∃ fd : Buf (Elt F) ((oblkM (k0_off11 c 1#32) (k0_off11_inb c 1) : Memref sig .tc .vmem S512x256 .bf16).view.loc (nxt c : Thread nD τ)),
        (oblkM (k0_off11 c 1#32) (k0_off11_inb c 1) : Memref sig .tc .vmem S512x256 .bf16).view.loc (nxt c : Thread nD τ)
          ↦[(oblkM (k0_off11 c 1#32) (k0_off11_inb c 1) : Memref sig .tc .vmem S512x256 .bf16).view.set]{fullShare}
            ((oblkM (k0_off11 c 1#32) (k0_off11_inb c 1) : Memref sig .tc .vmem S512x256 .bf16).view.write (Elt F) fd
              ((oblkM (k0_off11 c 1#32) (k0_off11_inb c 1) : Memref sig .tc .vmem S512x256 .bf16).view.read (Elt F)
                (oblkBuf (k0_off11 c 1#32) (k0_off11_inb c 1) (outBlk fa fb (orig 2 1 (c)) 2 (by decide)))) Finset.univ)) : sProp 𝕄) :=
  payload_agRecv_nxt_at fa fb c 2 1 (by decide) (by decide) (by decide) h d _ _ (agOff_2_1 c)
theorem payload_agRecv_tgt_2_2 (h) (d : Bool) :
    (ringRd fa fb).payload (dcell (nxt c) (csem cc0_scratch5 2 2 h)) 0 d =
      (iprop(∃ fd : Buf (Elt F) ((oblkM (k0_off11 c 2#32) (k0_off11_inb c 2) : Memref sig .tc .vmem S512x256 .bf16).view.loc (nxt c : Thread nD τ)),
        (oblkM (k0_off11 c 2#32) (k0_off11_inb c 2) : Memref sig .tc .vmem S512x256 .bf16).view.loc (nxt c : Thread nD τ)
          ↦[(oblkM (k0_off11 c 2#32) (k0_off11_inb c 2) : Memref sig .tc .vmem S512x256 .bf16).view.set]{fullShare}
            ((oblkM (k0_off11 c 2#32) (k0_off11_inb c 2) : Memref sig .tc .vmem S512x256 .bf16).view.write (Elt F) fd
              ((oblkM (k0_off11 c 2#32) (k0_off11_inb c 2) : Memref sig .tc .vmem S512x256 .bf16).view.read (Elt F)
                (oblkBuf (k0_off11 c 2#32) (k0_off11_inb c 2) (outBlk fa fb (orig 2 2 (c)) 2 (by decide)))) Finset.univ)) : sProp 𝕄) :=
  payload_agRecv_nxt_at fa fb c 2 2 (by decide) (by decide) (by decide) h d _ _ (agOff_2_2 c)
theorem payload_agRecv_tgt_3_0 (h) (d : Bool) :
    (ringRd fa fb).payload (dcell (nxt c) (csem cc0_scratch5 3 0 h)) 0 d =
      (iprop(∃ fd : Buf (Elt F) ((oblkM (k0_off15 c 0#32) (k0_off15_inb c 0) : Memref sig .tc .vmem S512x256 .bf16).view.loc (nxt c : Thread nD τ)),
        (oblkM (k0_off15 c 0#32) (k0_off15_inb c 0) : Memref sig .tc .vmem S512x256 .bf16).view.loc (nxt c : Thread nD τ)
          ↦[(oblkM (k0_off15 c 0#32) (k0_off15_inb c 0) : Memref sig .tc .vmem S512x256 .bf16).view.set]{fullShare}
            ((oblkM (k0_off15 c 0#32) (k0_off15_inb c 0) : Memref sig .tc .vmem S512x256 .bf16).view.write (Elt F) fd
              ((oblkM (k0_off15 c 0#32) (k0_off15_inb c 0) : Memref sig .tc .vmem S512x256 .bf16).view.read (Elt F)
                (oblkBuf (k0_off15 c 0#32) (k0_off15_inb c 0) (outBlk fa fb (orig 3 0 (c)) 3 (by decide)))) Finset.univ)) : sProp 𝕄) :=
  payload_agRecv_nxt_at fa fb c 3 0 (by decide) (by decide) (by decide) h d _ _ (agOff_3_0 c)
theorem payload_agRecv_tgt_3_1 (h) (d : Bool) :
    (ringRd fa fb).payload (dcell (nxt c) (csem cc0_scratch5 3 1 h)) 0 d =
      (iprop(∃ fd : Buf (Elt F) ((oblkM (k0_off15 c 1#32) (k0_off15_inb c 1) : Memref sig .tc .vmem S512x256 .bf16).view.loc (nxt c : Thread nD τ)),
        (oblkM (k0_off15 c 1#32) (k0_off15_inb c 1) : Memref sig .tc .vmem S512x256 .bf16).view.loc (nxt c : Thread nD τ)
          ↦[(oblkM (k0_off15 c 1#32) (k0_off15_inb c 1) : Memref sig .tc .vmem S512x256 .bf16).view.set]{fullShare}
            ((oblkM (k0_off15 c 1#32) (k0_off15_inb c 1) : Memref sig .tc .vmem S512x256 .bf16).view.write (Elt F) fd
              ((oblkM (k0_off15 c 1#32) (k0_off15_inb c 1) : Memref sig .tc .vmem S512x256 .bf16).view.read (Elt F)
                (oblkBuf (k0_off15 c 1#32) (k0_off15_inb c 1) (outBlk fa fb (orig 3 1 (c)) 3 (by decide)))) Finset.univ)) : sProp 𝕄) :=
  payload_agRecv_nxt_at fa fb c 3 1 (by decide) (by decide) (by decide) h d _ _ (agOff_3_1 c)
theorem payload_agRecv_tgt_3_2 (h) (d : Bool) :
    (ringRd fa fb).payload (dcell (nxt c) (csem cc0_scratch5 3 2 h)) 0 d =
      (iprop(∃ fd : Buf (Elt F) ((oblkM (k0_off15 c 2#32) (k0_off15_inb c 2) : Memref sig .tc .vmem S512x256 .bf16).view.loc (nxt c : Thread nD τ)),
        (oblkM (k0_off15 c 2#32) (k0_off15_inb c 2) : Memref sig .tc .vmem S512x256 .bf16).view.loc (nxt c : Thread nD τ)
          ↦[(oblkM (k0_off15 c 2#32) (k0_off15_inb c 2) : Memref sig .tc .vmem S512x256 .bf16).view.set]{fullShare}
            ((oblkM (k0_off15 c 2#32) (k0_off15_inb c 2) : Memref sig .tc .vmem S512x256 .bf16).view.write (Elt F) fd
              ((oblkM (k0_off15 c 2#32) (k0_off15_inb c 2) : Memref sig .tc .vmem S512x256 .bf16).view.read (Elt F)
                (oblkBuf (k0_off15 c 2#32) (k0_off15_inb c 2) (outBlk fa fb (orig 3 2 (c)) 3 (by decide)))) Finset.univ)) : sProp 𝕄) :=
  payload_agRecv_nxt_at fa fb c 3 2 (by decide) (by decide) (by decide) h d _ _ (agOff_3_2 c)
theorem payload_agRecv_tgt_4_0 (h) (d : Bool) :
    (ringRd fa fb).payload (dcell (prv c) (csem cc0_scratch5 4 0 h)) 0 d =
      (iprop(∃ fd : Buf (Elt F) ((oblkM (k0_off5 c 0#32) (k0_off5_inb c 0) : Memref sig .tc .vmem S512x256 .bf16).view.loc (prv c : Thread nD τ)),
        (oblkM (k0_off5 c 0#32) (k0_off5_inb c 0) : Memref sig .tc .vmem S512x256 .bf16).view.loc (prv c : Thread nD τ)
          ↦[(oblkM (k0_off5 c 0#32) (k0_off5_inb c 0) : Memref sig .tc .vmem S512x256 .bf16).view.set]{fullShare}
            ((oblkM (k0_off5 c 0#32) (k0_off5_inb c 0) : Memref sig .tc .vmem S512x256 .bf16).view.write (Elt F) fd
              ((oblkM (k0_off5 c 0#32) (k0_off5_inb c 0) : Memref sig .tc .vmem S512x256 .bf16).view.read (Elt F)
                (oblkBuf (k0_off5 c 0#32) (k0_off5_inb c 0) (outBlk fa fb (orig 4 0 (c)) 4 (by decide)))) Finset.univ)) : sProp 𝕄) :=
  payload_agRecv_prv_at fa fb c 4 0 (by decide) (by decide) (by decide) h d _ _ (agOff_4_0 c)
theorem payload_agRecv_tgt_4_1 (h) (d : Bool) :
    (ringRd fa fb).payload (dcell (prv c) (csem cc0_scratch5 4 1 h)) 0 d =
      (iprop(∃ fd : Buf (Elt F) ((oblkM (k0_off5 c 4294967295#32) (k0_off5_inb c 1) : Memref sig .tc .vmem S512x256 .bf16).view.loc (prv c : Thread nD τ)),
        (oblkM (k0_off5 c 4294967295#32) (k0_off5_inb c 1) : Memref sig .tc .vmem S512x256 .bf16).view.loc (prv c : Thread nD τ)
          ↦[(oblkM (k0_off5 c 4294967295#32) (k0_off5_inb c 1) : Memref sig .tc .vmem S512x256 .bf16).view.set]{fullShare}
            ((oblkM (k0_off5 c 4294967295#32) (k0_off5_inb c 1) : Memref sig .tc .vmem S512x256 .bf16).view.write (Elt F) fd
              ((oblkM (k0_off5 c 4294967295#32) (k0_off5_inb c 1) : Memref sig .tc .vmem S512x256 .bf16).view.read (Elt F)
                (oblkBuf (k0_off5 c 4294967295#32) (k0_off5_inb c 1) (outBlk fa fb (orig 4 1 (c)) 4 (by decide)))) Finset.univ)) : sProp 𝕄) :=
  payload_agRecv_prv_at fa fb c 4 1 (by decide) (by decide) (by decide) h d _ _ (agOff_4_1 c)
theorem payload_agRecv_tgt_4_2 (h) (d : Bool) :
    (ringRd fa fb).payload (dcell (prv c) (csem cc0_scratch5 4 2 h)) 0 d =
      (iprop(∃ fd : Buf (Elt F) ((oblkM (k0_off5 c 4294967294#32) (k0_off5_inb c 2) : Memref sig .tc .vmem S512x256 .bf16).view.loc (prv c : Thread nD τ)),
        (oblkM (k0_off5 c 4294967294#32) (k0_off5_inb c 2) : Memref sig .tc .vmem S512x256 .bf16).view.loc (prv c : Thread nD τ)
          ↦[(oblkM (k0_off5 c 4294967294#32) (k0_off5_inb c 2) : Memref sig .tc .vmem S512x256 .bf16).view.set]{fullShare}
            ((oblkM (k0_off5 c 4294967294#32) (k0_off5_inb c 2) : Memref sig .tc .vmem S512x256 .bf16).view.write (Elt F) fd
              ((oblkM (k0_off5 c 4294967294#32) (k0_off5_inb c 2) : Memref sig .tc .vmem S512x256 .bf16).view.read (Elt F)
                (oblkBuf (k0_off5 c 4294967294#32) (k0_off5_inb c 2) (outBlk fa fb (orig 4 2 (c)) 4 (by decide)))) Finset.univ)) : sProp 𝕄) :=
  payload_agRecv_prv_at fa fb c 4 2 (by decide) (by decide) (by decide) h d _ _ (agOff_4_2 c)
theorem payload_agRecv_tgt_5_0 (h) (d : Bool) :
    (ringRd fa fb).payload (dcell (prv c) (csem cc0_scratch5 5 0 h)) 0 d =
      (iprop(∃ fd : Buf (Elt F) ((oblkM (k0_off9 c 0#32) (k0_off9_inb c 0) : Memref sig .tc .vmem S512x256 .bf16).view.loc (prv c : Thread nD τ)),
        (oblkM (k0_off9 c 0#32) (k0_off9_inb c 0) : Memref sig .tc .vmem S512x256 .bf16).view.loc (prv c : Thread nD τ)
          ↦[(oblkM (k0_off9 c 0#32) (k0_off9_inb c 0) : Memref sig .tc .vmem S512x256 .bf16).view.set]{fullShare}
            ((oblkM (k0_off9 c 0#32) (k0_off9_inb c 0) : Memref sig .tc .vmem S512x256 .bf16).view.write (Elt F) fd
              ((oblkM (k0_off9 c 0#32) (k0_off9_inb c 0) : Memref sig .tc .vmem S512x256 .bf16).view.read (Elt F)
                (oblkBuf (k0_off9 c 0#32) (k0_off9_inb c 0) (outBlk fa fb (orig 5 0 (c)) 5 (by decide)))) Finset.univ)) : sProp 𝕄) :=
  payload_agRecv_prv_at fa fb c 5 0 (by decide) (by decide) (by decide) h d _ _ (agOff_5_0 c)
theorem payload_agRecv_tgt_5_1 (h) (d : Bool) :
    (ringRd fa fb).payload (dcell (prv c) (csem cc0_scratch5 5 1 h)) 0 d =
      (iprop(∃ fd : Buf (Elt F) ((oblkM (k0_off9 c 4294967295#32) (k0_off9_inb c 1) : Memref sig .tc .vmem S512x256 .bf16).view.loc (prv c : Thread nD τ)),
        (oblkM (k0_off9 c 4294967295#32) (k0_off9_inb c 1) : Memref sig .tc .vmem S512x256 .bf16).view.loc (prv c : Thread nD τ)
          ↦[(oblkM (k0_off9 c 4294967295#32) (k0_off9_inb c 1) : Memref sig .tc .vmem S512x256 .bf16).view.set]{fullShare}
            ((oblkM (k0_off9 c 4294967295#32) (k0_off9_inb c 1) : Memref sig .tc .vmem S512x256 .bf16).view.write (Elt F) fd
              ((oblkM (k0_off9 c 4294967295#32) (k0_off9_inb c 1) : Memref sig .tc .vmem S512x256 .bf16).view.read (Elt F)
                (oblkBuf (k0_off9 c 4294967295#32) (k0_off9_inb c 1) (outBlk fa fb (orig 5 1 (c)) 5 (by decide)))) Finset.univ)) : sProp 𝕄) :=
  payload_agRecv_prv_at fa fb c 5 1 (by decide) (by decide) (by decide) h d _ _ (agOff_5_1 c)
theorem payload_agRecv_tgt_5_2 (h) (d : Bool) :
    (ringRd fa fb).payload (dcell (prv c) (csem cc0_scratch5 5 2 h)) 0 d =
      (iprop(∃ fd : Buf (Elt F) ((oblkM (k0_off9 c 4294967294#32) (k0_off9_inb c 2) : Memref sig .tc .vmem S512x256 .bf16).view.loc (prv c : Thread nD τ)),
        (oblkM (k0_off9 c 4294967294#32) (k0_off9_inb c 2) : Memref sig .tc .vmem S512x256 .bf16).view.loc (prv c : Thread nD τ)
          ↦[(oblkM (k0_off9 c 4294967294#32) (k0_off9_inb c 2) : Memref sig .tc .vmem S512x256 .bf16).view.set]{fullShare}
            ((oblkM (k0_off9 c 4294967294#32) (k0_off9_inb c 2) : Memref sig .tc .vmem S512x256 .bf16).view.write (Elt F) fd
              ((oblkM (k0_off9 c 4294967294#32) (k0_off9_inb c 2) : Memref sig .tc .vmem S512x256 .bf16).view.read (Elt F)
                (oblkBuf (k0_off9 c 4294967294#32) (k0_off9_inb c 2) (outBlk fa fb (orig 5 2 (c)) 5 (by decide)))) Finset.univ)) : sProp 𝕄) :=
  payload_agRecv_prv_at fa fb c 5 2 (by decide) (by decide) (by decide) h d _ _ (agOff_5_2 c)
theorem payload_agRecv_tgt_6_0 (h) (d : Bool) :
    (ringRd fa fb).payload (dcell (prv c) (csem cc0_scratch5 6 0 h)) 0 d =
      (iprop(∃ fd : Buf (Elt F) ((oblkM (k0_off13 c 0#32) (k0_off13_inb c 0) : Memref sig .tc .vmem S512x256 .bf16).view.loc (prv c : Thread nD τ)),
        (oblkM (k0_off13 c 0#32) (k0_off13_inb c 0) : Memref sig .tc .vmem S512x256 .bf16).view.loc (prv c : Thread nD τ)
          ↦[(oblkM (k0_off13 c 0#32) (k0_off13_inb c 0) : Memref sig .tc .vmem S512x256 .bf16).view.set]{fullShare}
            ((oblkM (k0_off13 c 0#32) (k0_off13_inb c 0) : Memref sig .tc .vmem S512x256 .bf16).view.write (Elt F) fd
              ((oblkM (k0_off13 c 0#32) (k0_off13_inb c 0) : Memref sig .tc .vmem S512x256 .bf16).view.read (Elt F)
                (oblkBuf (k0_off13 c 0#32) (k0_off13_inb c 0) (outBlk fa fb (orig 6 0 (c)) 6 (by decide)))) Finset.univ)) : sProp 𝕄) :=
  payload_agRecv_prv_at fa fb c 6 0 (by decide) (by decide) (by decide) h d _ _ (agOff_6_0 c)
theorem payload_agRecv_tgt_6_1 (h) (d : Bool) :
    (ringRd fa fb).payload (dcell (prv c) (csem cc0_scratch5 6 1 h)) 0 d =
      (iprop(∃ fd : Buf (Elt F) ((oblkM (k0_off13 c 4294967295#32) (k0_off13_inb c 1) : Memref sig .tc .vmem S512x256 .bf16).view.loc (prv c : Thread nD τ)),
        (oblkM (k0_off13 c 4294967295#32) (k0_off13_inb c 1) : Memref sig .tc .vmem S512x256 .bf16).view.loc (prv c : Thread nD τ)
          ↦[(oblkM (k0_off13 c 4294967295#32) (k0_off13_inb c 1) : Memref sig .tc .vmem S512x256 .bf16).view.set]{fullShare}
            ((oblkM (k0_off13 c 4294967295#32) (k0_off13_inb c 1) : Memref sig .tc .vmem S512x256 .bf16).view.write (Elt F) fd
              ((oblkM (k0_off13 c 4294967295#32) (k0_off13_inb c 1) : Memref sig .tc .vmem S512x256 .bf16).view.read (Elt F)
                (oblkBuf (k0_off13 c 4294967295#32) (k0_off13_inb c 1) (outBlk fa fb (orig 6 1 (c)) 6 (by decide)))) Finset.univ)) : sProp 𝕄) :=
  payload_agRecv_prv_at fa fb c 6 1 (by decide) (by decide) (by decide) h d _ _ (agOff_6_1 c)
theorem payload_agRecv_tgt_6_2 (h) (d : Bool) :
    (ringRd fa fb).payload (dcell (prv c) (csem cc0_scratch5 6 2 h)) 0 d =
      (iprop(∃ fd : Buf (Elt F) ((oblkM (k0_off13 c 4294967294#32) (k0_off13_inb c 2) : Memref sig .tc .vmem S512x256 .bf16).view.loc (prv c : Thread nD τ)),
        (oblkM (k0_off13 c 4294967294#32) (k0_off13_inb c 2) : Memref sig .tc .vmem S512x256 .bf16).view.loc (prv c : Thread nD τ)
          ↦[(oblkM (k0_off13 c 4294967294#32) (k0_off13_inb c 2) : Memref sig .tc .vmem S512x256 .bf16).view.set]{fullShare}
            ((oblkM (k0_off13 c 4294967294#32) (k0_off13_inb c 2) : Memref sig .tc .vmem S512x256 .bf16).view.write (Elt F) fd
              ((oblkM (k0_off13 c 4294967294#32) (k0_off13_inb c 2) : Memref sig .tc .vmem S512x256 .bf16).view.read (Elt F)
                (oblkBuf (k0_off13 c 4294967294#32) (k0_off13_inb c 2) (outBlk fa fb (orig 6 2 (c)) 6 (by decide)))) Finset.univ)) : sProp 𝕄) :=
  payload_agRecv_prv_at fa fb c 6 2 (by decide) (by decide) (by decide) h d _ _ (agOff_6_2 c)
theorem payload_agRecv_tgt_7_0 (h) (d : Bool) :
    (ringRd fa fb).payload (dcell (prv c) (csem cc0_scratch5 7 0 h)) 0 d =
      (iprop(∃ fd : Buf (Elt F) ((oblkM (k0_off17 c 0#32) (k0_off17_inb c 0) : Memref sig .tc .vmem S512x256 .bf16).view.loc (prv c : Thread nD τ)),
        (oblkM (k0_off17 c 0#32) (k0_off17_inb c 0) : Memref sig .tc .vmem S512x256 .bf16).view.loc (prv c : Thread nD τ)
          ↦[(oblkM (k0_off17 c 0#32) (k0_off17_inb c 0) : Memref sig .tc .vmem S512x256 .bf16).view.set]{fullShare}
            ((oblkM (k0_off17 c 0#32) (k0_off17_inb c 0) : Memref sig .tc .vmem S512x256 .bf16).view.write (Elt F) fd
              ((oblkM (k0_off17 c 0#32) (k0_off17_inb c 0) : Memref sig .tc .vmem S512x256 .bf16).view.read (Elt F)
                (oblkBuf (k0_off17 c 0#32) (k0_off17_inb c 0) (outBlk fa fb (orig 7 0 (c)) 7 (by decide)))) Finset.univ)) : sProp 𝕄) :=
  payload_agRecv_prv_at fa fb c 7 0 (by decide) (by decide) (by decide) h d _ _ (agOff_7_0 c)
theorem payload_agRecv_tgt_7_1 (h) (d : Bool) :
    (ringRd fa fb).payload (dcell (prv c) (csem cc0_scratch5 7 1 h)) 0 d =
      (iprop(∃ fd : Buf (Elt F) ((oblkM (k0_off17 c 4294967295#32) (k0_off17_inb c 1) : Memref sig .tc .vmem S512x256 .bf16).view.loc (prv c : Thread nD τ)),
        (oblkM (k0_off17 c 4294967295#32) (k0_off17_inb c 1) : Memref sig .tc .vmem S512x256 .bf16).view.loc (prv c : Thread nD τ)
          ↦[(oblkM (k0_off17 c 4294967295#32) (k0_off17_inb c 1) : Memref sig .tc .vmem S512x256 .bf16).view.set]{fullShare}
            ((oblkM (k0_off17 c 4294967295#32) (k0_off17_inb c 1) : Memref sig .tc .vmem S512x256 .bf16).view.write (Elt F) fd
              ((oblkM (k0_off17 c 4294967295#32) (k0_off17_inb c 1) : Memref sig .tc .vmem S512x256 .bf16).view.read (Elt F)
                (oblkBuf (k0_off17 c 4294967295#32) (k0_off17_inb c 1) (outBlk fa fb (orig 7 1 (c)) 7 (by decide)))) Finset.univ)) : sProp 𝕄) :=
  payload_agRecv_prv_at fa fb c 7 1 (by decide) (by decide) (by decide) h d _ _ (agOff_7_1 c)
theorem payload_agRecv_tgt_7_2 (h) (d : Bool) :
    (ringRd fa fb).payload (dcell (prv c) (csem cc0_scratch5 7 2 h)) 0 d =
      (iprop(∃ fd : Buf (Elt F) ((oblkM (k0_off17 c 4294967294#32) (k0_off17_inb c 2) : Memref sig .tc .vmem S512x256 .bf16).view.loc (prv c : Thread nD τ)),
        (oblkM (k0_off17 c 4294967294#32) (k0_off17_inb c 2) : Memref sig .tc .vmem S512x256 .bf16).view.loc (prv c : Thread nD τ)
          ↦[(oblkM (k0_off17 c 4294967294#32) (k0_off17_inb c 2) : Memref sig .tc .vmem S512x256 .bf16).view.set]{fullShare}
            ((oblkM (k0_off17 c 4294967294#32) (k0_off17_inb c 2) : Memref sig .tc .vmem S512x256 .bf16).view.write (Elt F) fd
              ((oblkM (k0_off17 c 4294967294#32) (k0_off17_inb c 2) : Memref sig .tc .vmem S512x256 .bf16).view.read (Elt F)
                (oblkBuf (k0_off17 c 4294967294#32) (k0_off17_inb c 2) (outBlk fa fb (orig 7 2 (c)) 7 (by decide)))) Finset.univ)) : sProp 𝕄) :=
  payload_agRecv_prv_at fa fb c 7 2 (by decide) (by decide) (by decide) h d _ _ (agOff_7_2 c)

/-! ## A device's own all-gather receive cells, the landing block at the offsets of the chain's next copy -/

theorem payload_agRecv_own_0_0 (h) (d : Bool) :
    (ringRd fa fb).payload (dcell c (csem cc0_scratch5 0 0 h)) 0 d =
      (iprop(∃ fd : Buf (Elt F) ((oblkM (k0_off3 c 1#32) (k0_off3_inb c 1) : Memref sig .tc .vmem S512x256 .bf16).view.loc (c : Thread nD τ)),
        (oblkM (k0_off3 c 1#32) (k0_off3_inb c 1) : Memref sig .tc .vmem S512x256 .bf16).view.loc (c : Thread nD τ)
          ↦[(oblkM (k0_off3 c 1#32) (k0_off3_inb c 1) : Memref sig .tc .vmem S512x256 .bf16).view.set]{fullShare}
            ((oblkM (k0_off3 c 1#32) (k0_off3_inb c 1) : Memref sig .tc .vmem S512x256 .bf16).view.write (Elt F) fd
              ((oblkM (rowOff (sdev 0 c) (agShift 0 0) 0) (rowOff_inb _ _ 0 (by decide)) : Memref sig .tc .vmem S512x256 .bf16).view.read (Elt F)
                (oblkBuf (rowOff (sdev 0 c) (agShift 0 0) 0) (rowOff_inb _ _ 0 (by decide)) (outBlk fa fb (orig 0 0 (sdev 0 c)) 0 (by decide)))) Finset.univ)) : sProp 𝕄) :=
  payload_agRecv_at fa fb c 0 0 (by decide) (by decide) h d _ _ (agOff_0_1 c)
theorem payload_agRecv_own_0_1 (h) (d : Bool) :
    (ringRd fa fb).payload (dcell c (csem cc0_scratch5 0 1 h)) 0 d =
      (iprop(∃ fd : Buf (Elt F) ((oblkM (k0_off3 c 2#32) (k0_off3_inb c 2) : Memref sig .tc .vmem S512x256 .bf16).view.loc (c : Thread nD τ)),
        (oblkM (k0_off3 c 2#32) (k0_off3_inb c 2) : Memref sig .tc .vmem S512x256 .bf16).view.loc (c : Thread nD τ)
          ↦[(oblkM (k0_off3 c 2#32) (k0_off3_inb c 2) : Memref sig .tc .vmem S512x256 .bf16).view.set]{fullShare}
            ((oblkM (k0_off3 c 2#32) (k0_off3_inb c 2) : Memref sig .tc .vmem S512x256 .bf16).view.write (Elt F) fd
              ((oblkM (rowOff (sdev 0 c) (agShift 0 1) 0) (rowOff_inb _ _ 0 (by decide)) : Memref sig .tc .vmem S512x256 .bf16).view.read (Elt F)
                (oblkBuf (rowOff (sdev 0 c) (agShift 0 1) 0) (rowOff_inb _ _ 0 (by decide)) (outBlk fa fb (orig 0 1 (sdev 0 c)) 0 (by decide)))) Finset.univ)) : sProp 𝕄) :=
  payload_agRecv_at fa fb c 0 1 (by decide) (by decide) h d _ _ (agOff_0_2 c)
theorem payload_agRecv_own_1_0 (h) (d : Bool) :
    (ringRd fa fb).payload (dcell c (csem cc0_scratch5 1 0 h)) 0 d =
      (iprop(∃ fd : Buf (Elt F) ((oblkM (k0_off7 c 1#32) (k0_off7_inb c 1) : Memref sig .tc .vmem S512x256 .bf16).view.loc (c : Thread nD τ)),
        (oblkM (k0_off7 c 1#32) (k0_off7_inb c 1) : Memref sig .tc .vmem S512x256 .bf16).view.loc (c : Thread nD τ)
          ↦[(oblkM (k0_off7 c 1#32) (k0_off7_inb c 1) : Memref sig .tc .vmem S512x256 .bf16).view.set]{fullShare}
            ((oblkM (k0_off7 c 1#32) (k0_off7_inb c 1) : Memref sig .tc .vmem S512x256 .bf16).view.write (Elt F) fd
              ((oblkM (rowOff (sdev 1 c) (agShift 1 0) 1) (rowOff_inb _ _ 1 (by decide)) : Memref sig .tc .vmem S512x256 .bf16).view.read (Elt F)
                (oblkBuf (rowOff (sdev 1 c) (agShift 1 0) 1) (rowOff_inb _ _ 1 (by decide)) (outBlk fa fb (orig 1 0 (sdev 1 c)) 1 (by decide)))) Finset.univ)) : sProp 𝕄) :=
  payload_agRecv_at fa fb c 1 0 (by decide) (by decide) h d _ _ (agOff_1_1 c)
theorem payload_agRecv_own_1_1 (h) (d : Bool) :
    (ringRd fa fb).payload (dcell c (csem cc0_scratch5 1 1 h)) 0 d =
      (iprop(∃ fd : Buf (Elt F) ((oblkM (k0_off7 c 2#32) (k0_off7_inb c 2) : Memref sig .tc .vmem S512x256 .bf16).view.loc (c : Thread nD τ)),
        (oblkM (k0_off7 c 2#32) (k0_off7_inb c 2) : Memref sig .tc .vmem S512x256 .bf16).view.loc (c : Thread nD τ)
          ↦[(oblkM (k0_off7 c 2#32) (k0_off7_inb c 2) : Memref sig .tc .vmem S512x256 .bf16).view.set]{fullShare}
            ((oblkM (k0_off7 c 2#32) (k0_off7_inb c 2) : Memref sig .tc .vmem S512x256 .bf16).view.write (Elt F) fd
              ((oblkM (rowOff (sdev 1 c) (agShift 1 1) 1) (rowOff_inb _ _ 1 (by decide)) : Memref sig .tc .vmem S512x256 .bf16).view.read (Elt F)
                (oblkBuf (rowOff (sdev 1 c) (agShift 1 1) 1) (rowOff_inb _ _ 1 (by decide)) (outBlk fa fb (orig 1 1 (sdev 1 c)) 1 (by decide)))) Finset.univ)) : sProp 𝕄) :=
  payload_agRecv_at fa fb c 1 1 (by decide) (by decide) h d _ _ (agOff_1_2 c)
theorem payload_agRecv_own_2_0 (h) (d : Bool) :
    (ringRd fa fb).payload (dcell c (csem cc0_scratch5 2 0 h)) 0 d =
      (iprop(∃ fd : Buf (Elt F) ((oblkM (k0_off11 c 1#32) (k0_off11_inb c 1) : Memref sig .tc .vmem S512x256 .bf16).view.loc (c : Thread nD τ)),
        (oblkM (k0_off11 c 1#32) (k0_off11_inb c 1) : Memref sig .tc .vmem S512x256 .bf16).view.loc (c : Thread nD τ)
          ↦[(oblkM (k0_off11 c 1#32) (k0_off11_inb c 1) : Memref sig .tc .vmem S512x256 .bf16).view.set]{fullShare}
            ((oblkM (k0_off11 c 1#32) (k0_off11_inb c 1) : Memref sig .tc .vmem S512x256 .bf16).view.write (Elt F) fd
              ((oblkM (rowOff (sdev 2 c) (agShift 2 0) 2) (rowOff_inb _ _ 2 (by decide)) : Memref sig .tc .vmem S512x256 .bf16).view.read (Elt F)
                (oblkBuf (rowOff (sdev 2 c) (agShift 2 0) 2) (rowOff_inb _ _ 2 (by decide)) (outBlk fa fb (orig 2 0 (sdev 2 c)) 2 (by decide)))) Finset.univ)) : sProp 𝕄) :=
  payload_agRecv_at fa fb c 2 0 (by decide) (by decide) h d _ _ (agOff_2_1 c)
theorem payload_agRecv_own_2_1 (h) (d : Bool) :
    (ringRd fa fb).payload (dcell c (csem cc0_scratch5 2 1 h)) 0 d =
      (iprop(∃ fd : Buf (Elt F) ((oblkM (k0_off11 c 2#32) (k0_off11_inb c 2) : Memref sig .tc .vmem S512x256 .bf16).view.loc (c : Thread nD τ)),
        (oblkM (k0_off11 c 2#32) (k0_off11_inb c 2) : Memref sig .tc .vmem S512x256 .bf16).view.loc (c : Thread nD τ)
          ↦[(oblkM (k0_off11 c 2#32) (k0_off11_inb c 2) : Memref sig .tc .vmem S512x256 .bf16).view.set]{fullShare}
            ((oblkM (k0_off11 c 2#32) (k0_off11_inb c 2) : Memref sig .tc .vmem S512x256 .bf16).view.write (Elt F) fd
              ((oblkM (rowOff (sdev 2 c) (agShift 2 1) 2) (rowOff_inb _ _ 2 (by decide)) : Memref sig .tc .vmem S512x256 .bf16).view.read (Elt F)
                (oblkBuf (rowOff (sdev 2 c) (agShift 2 1) 2) (rowOff_inb _ _ 2 (by decide)) (outBlk fa fb (orig 2 1 (sdev 2 c)) 2 (by decide)))) Finset.univ)) : sProp 𝕄) :=
  payload_agRecv_at fa fb c 2 1 (by decide) (by decide) h d _ _ (agOff_2_2 c)
theorem payload_agRecv_own_3_0 (h) (d : Bool) :
    (ringRd fa fb).payload (dcell c (csem cc0_scratch5 3 0 h)) 0 d =
      (iprop(∃ fd : Buf (Elt F) ((oblkM (k0_off15 c 1#32) (k0_off15_inb c 1) : Memref sig .tc .vmem S512x256 .bf16).view.loc (c : Thread nD τ)),
        (oblkM (k0_off15 c 1#32) (k0_off15_inb c 1) : Memref sig .tc .vmem S512x256 .bf16).view.loc (c : Thread nD τ)
          ↦[(oblkM (k0_off15 c 1#32) (k0_off15_inb c 1) : Memref sig .tc .vmem S512x256 .bf16).view.set]{fullShare}
            ((oblkM (k0_off15 c 1#32) (k0_off15_inb c 1) : Memref sig .tc .vmem S512x256 .bf16).view.write (Elt F) fd
              ((oblkM (rowOff (sdev 3 c) (agShift 3 0) 3) (rowOff_inb _ _ 3 (by decide)) : Memref sig .tc .vmem S512x256 .bf16).view.read (Elt F)
                (oblkBuf (rowOff (sdev 3 c) (agShift 3 0) 3) (rowOff_inb _ _ 3 (by decide)) (outBlk fa fb (orig 3 0 (sdev 3 c)) 3 (by decide)))) Finset.univ)) : sProp 𝕄) :=
  payload_agRecv_at fa fb c 3 0 (by decide) (by decide) h d _ _ (agOff_3_1 c)
theorem payload_agRecv_own_3_1 (h) (d : Bool) :
    (ringRd fa fb).payload (dcell c (csem cc0_scratch5 3 1 h)) 0 d =
      (iprop(∃ fd : Buf (Elt F) ((oblkM (k0_off15 c 2#32) (k0_off15_inb c 2) : Memref sig .tc .vmem S512x256 .bf16).view.loc (c : Thread nD τ)),
        (oblkM (k0_off15 c 2#32) (k0_off15_inb c 2) : Memref sig .tc .vmem S512x256 .bf16).view.loc (c : Thread nD τ)
          ↦[(oblkM (k0_off15 c 2#32) (k0_off15_inb c 2) : Memref sig .tc .vmem S512x256 .bf16).view.set]{fullShare}
            ((oblkM (k0_off15 c 2#32) (k0_off15_inb c 2) : Memref sig .tc .vmem S512x256 .bf16).view.write (Elt F) fd
              ((oblkM (rowOff (sdev 3 c) (agShift 3 1) 3) (rowOff_inb _ _ 3 (by decide)) : Memref sig .tc .vmem S512x256 .bf16).view.read (Elt F)
                (oblkBuf (rowOff (sdev 3 c) (agShift 3 1) 3) (rowOff_inb _ _ 3 (by decide)) (outBlk fa fb (orig 3 1 (sdev 3 c)) 3 (by decide)))) Finset.univ)) : sProp 𝕄) :=
  payload_agRecv_at fa fb c 3 1 (by decide) (by decide) h d _ _ (agOff_3_2 c)
theorem payload_agRecv_own_4_0 (h) (d : Bool) :
    (ringRd fa fb).payload (dcell c (csem cc0_scratch5 4 0 h)) 0 d =
      (iprop(∃ fd : Buf (Elt F) ((oblkM (k0_off5 c 4294967295#32) (k0_off5_inb c 1) : Memref sig .tc .vmem S512x256 .bf16).view.loc (c : Thread nD τ)),
        (oblkM (k0_off5 c 4294967295#32) (k0_off5_inb c 1) : Memref sig .tc .vmem S512x256 .bf16).view.loc (c : Thread nD τ)
          ↦[(oblkM (k0_off5 c 4294967295#32) (k0_off5_inb c 1) : Memref sig .tc .vmem S512x256 .bf16).view.set]{fullShare}
            ((oblkM (k0_off5 c 4294967295#32) (k0_off5_inb c 1) : Memref sig .tc .vmem S512x256 .bf16).view.write (Elt F) fd
              ((oblkM (rowOff (sdev 4 c) (agShift 4 0) 4) (rowOff_inb _ _ 4 (by decide)) : Memref sig .tc .vmem S512x256 .bf16).view.read (Elt F)
                (oblkBuf (rowOff (sdev 4 c) (agShift 4 0) 4) (rowOff_inb _ _ 4 (by decide)) (outBlk fa fb (orig 4 0 (sdev 4 c)) 4 (by decide)))) Finset.univ)) : sProp 𝕄) :=
  payload_agRecv_at fa fb c 4 0 (by decide) (by decide) h d _ _ (agOff_4_1 c)
theorem payload_agRecv_own_4_1 (h) (d : Bool) :
    (ringRd fa fb).payload (dcell c (csem cc0_scratch5 4 1 h)) 0 d =
      (iprop(∃ fd : Buf (Elt F) ((oblkM (k0_off5 c 4294967294#32) (k0_off5_inb c 2) : Memref sig .tc .vmem S512x256 .bf16).view.loc (c : Thread nD τ)),
        (oblkM (k0_off5 c 4294967294#32) (k0_off5_inb c 2) : Memref sig .tc .vmem S512x256 .bf16).view.loc (c : Thread nD τ)
          ↦[(oblkM (k0_off5 c 4294967294#32) (k0_off5_inb c 2) : Memref sig .tc .vmem S512x256 .bf16).view.set]{fullShare}
            ((oblkM (k0_off5 c 4294967294#32) (k0_off5_inb c 2) : Memref sig .tc .vmem S512x256 .bf16).view.write (Elt F) fd
              ((oblkM (rowOff (sdev 4 c) (agShift 4 1) 4) (rowOff_inb _ _ 4 (by decide)) : Memref sig .tc .vmem S512x256 .bf16).view.read (Elt F)
                (oblkBuf (rowOff (sdev 4 c) (agShift 4 1) 4) (rowOff_inb _ _ 4 (by decide)) (outBlk fa fb (orig 4 1 (sdev 4 c)) 4 (by decide)))) Finset.univ)) : sProp 𝕄) :=
  payload_agRecv_at fa fb c 4 1 (by decide) (by decide) h d _ _ (agOff_4_2 c)
theorem payload_agRecv_own_5_0 (h) (d : Bool) :
    (ringRd fa fb).payload (dcell c (csem cc0_scratch5 5 0 h)) 0 d =
      (iprop(∃ fd : Buf (Elt F) ((oblkM (k0_off9 c 4294967295#32) (k0_off9_inb c 1) : Memref sig .tc .vmem S512x256 .bf16).view.loc (c : Thread nD τ)),
        (oblkM (k0_off9 c 4294967295#32) (k0_off9_inb c 1) : Memref sig .tc .vmem S512x256 .bf16).view.loc (c : Thread nD τ)
          ↦[(oblkM (k0_off9 c 4294967295#32) (k0_off9_inb c 1) : Memref sig .tc .vmem S512x256 .bf16).view.set]{fullShare}
            ((oblkM (k0_off9 c 4294967295#32) (k0_off9_inb c 1) : Memref sig .tc .vmem S512x256 .bf16).view.write (Elt F) fd
              ((oblkM (rowOff (sdev 5 c) (agShift 5 0) 5) (rowOff_inb _ _ 5 (by decide)) : Memref sig .tc .vmem S512x256 .bf16).view.read (Elt F)
                (oblkBuf (rowOff (sdev 5 c) (agShift 5 0) 5) (rowOff_inb _ _ 5 (by decide)) (outBlk fa fb (orig 5 0 (sdev 5 c)) 5 (by decide)))) Finset.univ)) : sProp 𝕄) :=
  payload_agRecv_at fa fb c 5 0 (by decide) (by decide) h d _ _ (agOff_5_1 c)
theorem payload_agRecv_own_5_1 (h) (d : Bool) :
    (ringRd fa fb).payload (dcell c (csem cc0_scratch5 5 1 h)) 0 d =
      (iprop(∃ fd : Buf (Elt F) ((oblkM (k0_off9 c 4294967294#32) (k0_off9_inb c 2) : Memref sig .tc .vmem S512x256 .bf16).view.loc (c : Thread nD τ)),
        (oblkM (k0_off9 c 4294967294#32) (k0_off9_inb c 2) : Memref sig .tc .vmem S512x256 .bf16).view.loc (c : Thread nD τ)
          ↦[(oblkM (k0_off9 c 4294967294#32) (k0_off9_inb c 2) : Memref sig .tc .vmem S512x256 .bf16).view.set]{fullShare}
            ((oblkM (k0_off9 c 4294967294#32) (k0_off9_inb c 2) : Memref sig .tc .vmem S512x256 .bf16).view.write (Elt F) fd
              ((oblkM (rowOff (sdev 5 c) (agShift 5 1) 5) (rowOff_inb _ _ 5 (by decide)) : Memref sig .tc .vmem S512x256 .bf16).view.read (Elt F)
                (oblkBuf (rowOff (sdev 5 c) (agShift 5 1) 5) (rowOff_inb _ _ 5 (by decide)) (outBlk fa fb (orig 5 1 (sdev 5 c)) 5 (by decide)))) Finset.univ)) : sProp 𝕄) :=
  payload_agRecv_at fa fb c 5 1 (by decide) (by decide) h d _ _ (agOff_5_2 c)
theorem payload_agRecv_own_6_0 (h) (d : Bool) :
    (ringRd fa fb).payload (dcell c (csem cc0_scratch5 6 0 h)) 0 d =
      (iprop(∃ fd : Buf (Elt F) ((oblkM (k0_off13 c 4294967295#32) (k0_off13_inb c 1) : Memref sig .tc .vmem S512x256 .bf16).view.loc (c : Thread nD τ)),
        (oblkM (k0_off13 c 4294967295#32) (k0_off13_inb c 1) : Memref sig .tc .vmem S512x256 .bf16).view.loc (c : Thread nD τ)
          ↦[(oblkM (k0_off13 c 4294967295#32) (k0_off13_inb c 1) : Memref sig .tc .vmem S512x256 .bf16).view.set]{fullShare}
            ((oblkM (k0_off13 c 4294967295#32) (k0_off13_inb c 1) : Memref sig .tc .vmem S512x256 .bf16).view.write (Elt F) fd
              ((oblkM (rowOff (sdev 6 c) (agShift 6 0) 6) (rowOff_inb _ _ 6 (by decide)) : Memref sig .tc .vmem S512x256 .bf16).view.read (Elt F)
                (oblkBuf (rowOff (sdev 6 c) (agShift 6 0) 6) (rowOff_inb _ _ 6 (by decide)) (outBlk fa fb (orig 6 0 (sdev 6 c)) 6 (by decide)))) Finset.univ)) : sProp 𝕄) :=
  payload_agRecv_at fa fb c 6 0 (by decide) (by decide) h d _ _ (agOff_6_1 c)
theorem payload_agRecv_own_6_1 (h) (d : Bool) :
    (ringRd fa fb).payload (dcell c (csem cc0_scratch5 6 1 h)) 0 d =
      (iprop(∃ fd : Buf (Elt F) ((oblkM (k0_off13 c 4294967294#32) (k0_off13_inb c 2) : Memref sig .tc .vmem S512x256 .bf16).view.loc (c : Thread nD τ)),
        (oblkM (k0_off13 c 4294967294#32) (k0_off13_inb c 2) : Memref sig .tc .vmem S512x256 .bf16).view.loc (c : Thread nD τ)
          ↦[(oblkM (k0_off13 c 4294967294#32) (k0_off13_inb c 2) : Memref sig .tc .vmem S512x256 .bf16).view.set]{fullShare}
            ((oblkM (k0_off13 c 4294967294#32) (k0_off13_inb c 2) : Memref sig .tc .vmem S512x256 .bf16).view.write (Elt F) fd
              ((oblkM (rowOff (sdev 6 c) (agShift 6 1) 6) (rowOff_inb _ _ 6 (by decide)) : Memref sig .tc .vmem S512x256 .bf16).view.read (Elt F)
                (oblkBuf (rowOff (sdev 6 c) (agShift 6 1) 6) (rowOff_inb _ _ 6 (by decide)) (outBlk fa fb (orig 6 1 (sdev 6 c)) 6 (by decide)))) Finset.univ)) : sProp 𝕄) :=
  payload_agRecv_at fa fb c 6 1 (by decide) (by decide) h d _ _ (agOff_6_2 c)
theorem payload_agRecv_own_7_0 (h) (d : Bool) :
    (ringRd fa fb).payload (dcell c (csem cc0_scratch5 7 0 h)) 0 d =
      (iprop(∃ fd : Buf (Elt F) ((oblkM (k0_off17 c 4294967295#32) (k0_off17_inb c 1) : Memref sig .tc .vmem S512x256 .bf16).view.loc (c : Thread nD τ)),
        (oblkM (k0_off17 c 4294967295#32) (k0_off17_inb c 1) : Memref sig .tc .vmem S512x256 .bf16).view.loc (c : Thread nD τ)
          ↦[(oblkM (k0_off17 c 4294967295#32) (k0_off17_inb c 1) : Memref sig .tc .vmem S512x256 .bf16).view.set]{fullShare}
            ((oblkM (k0_off17 c 4294967295#32) (k0_off17_inb c 1) : Memref sig .tc .vmem S512x256 .bf16).view.write (Elt F) fd
              ((oblkM (rowOff (sdev 7 c) (agShift 7 0) 7) (rowOff_inb _ _ 7 (by decide)) : Memref sig .tc .vmem S512x256 .bf16).view.read (Elt F)
                (oblkBuf (rowOff (sdev 7 c) (agShift 7 0) 7) (rowOff_inb _ _ 7 (by decide)) (outBlk fa fb (orig 7 0 (sdev 7 c)) 7 (by decide)))) Finset.univ)) : sProp 𝕄) :=
  payload_agRecv_at fa fb c 7 0 (by decide) (by decide) h d _ _ (agOff_7_1 c)
theorem payload_agRecv_own_7_1 (h) (d : Bool) :
    (ringRd fa fb).payload (dcell c (csem cc0_scratch5 7 1 h)) 0 d =
      (iprop(∃ fd : Buf (Elt F) ((oblkM (k0_off17 c 4294967294#32) (k0_off17_inb c 2) : Memref sig .tc .vmem S512x256 .bf16).view.loc (c : Thread nD τ)),
        (oblkM (k0_off17 c 4294967294#32) (k0_off17_inb c 2) : Memref sig .tc .vmem S512x256 .bf16).view.loc (c : Thread nD τ)
          ↦[(oblkM (k0_off17 c 4294967294#32) (k0_off17_inb c 2) : Memref sig .tc .vmem S512x256 .bf16).view.set]{fullShare}
            ((oblkM (k0_off17 c 4294967294#32) (k0_off17_inb c 2) : Memref sig .tc .vmem S512x256 .bf16).view.write (Elt F) fd
              ((oblkM (rowOff (sdev 7 c) (agShift 7 1) 7) (rowOff_inb _ _ 7 (by decide)) : Memref sig .tc .vmem S512x256 .bf16).view.read (Elt F)
                (oblkBuf (rowOff (sdev 7 c) (agShift 7 1) 7) (rowOff_inb _ _ 7 (by decide)) (outBlk fa fb (orig 7 1 (sdev 7 c)) 7 (by decide)))) Finset.univ)) : sProp 𝕄) :=
  payload_agRecv_at fa fb c 7 1 (by decide) (by decide) h d _ _ (agOff_7_2 c)

/-! ## The barrier cell: what the two neighbours hand over, leaf by leaf -/

theorem barPay_true_lit :
    barPay (F := F) c true =
      (iprop(((∃ f : Buf (Elt F) ((slotM 0 1 inb_S8x4x512x256_S1x1x512x256_0_1_0_0 : Memref sig .tc .vmem S512x256 .bf16).view.loc (nxt c : Thread nD τ)), (slotM 0 1 inb_S8x4x512x256_S1x1x512x256_0_1_0_0 : Memref sig .tc .vmem S512x256 .bf16).view.loc (nxt c : Thread nD τ) ↦[(slotM 0 1 inb_S8x4x512x256_S1x1x512x256_0_1_0_0 : Memref sig .tc .vmem S512x256 .bf16).view.set]{fullShare} f)
      ∗ (∃ f : Buf (Elt F) ((oblkM (k0_off3 c 0#32) (k0_off3_inb c 0) : Memref sig .tc .vmem S512x256 .bf16).view.loc (nxt c : Thread nD τ)), (oblkM (k0_off3 c 0#32) (k0_off3_inb c 0) : Memref sig .tc .vmem S512x256 .bf16).view.loc (nxt c : Thread nD τ) ↦[(oblkM (k0_off3 c 0#32) (k0_off3_inb c 0) : Memref sig .tc .vmem S512x256 .bf16).view.set]{fullShare} f)
      ∗ reached ER (dcell (nxt c) (csem cc0_scratch3 0 0 inb_S8x3_S1x1_0_0)) 0
      ∗ reached ER (dcell (nxt c) (csem cc0_scratch5 0 0 inb_S8x3_S1x1_0_0)) 0)
      ∗ ((∃ f : Buf (Elt F) ((slotM 0 2 inb_S8x4x512x256_S1x1x512x256_0_2_0_0 : Memref sig .tc .vmem S512x256 .bf16).view.loc (nxt c : Thread nD τ)), (slotM 0 2 inb_S8x4x512x256_S1x1x512x256_0_2_0_0 : Memref sig .tc .vmem S512x256 .bf16).view.loc (nxt c : Thread nD τ) ↦[(slotM 0 2 inb_S8x4x512x256_S1x1x512x256_0_2_0_0 : Memref sig .tc .vmem S512x256 .bf16).view.set]{fullShare} f)
      ∗ (∃ f : Buf (Elt F) ((oblkM (k0_off3 c 1#32) (k0_off3_inb c 1) : Memref sig .tc .vmem S512x256 .bf16).view.loc (nxt c : Thread nD τ)), (oblkM (k0_off3 c 1#32) (k0_off3_inb c 1) : Memref sig .tc .vmem S512x256 .bf16).view.loc (nxt c : Thread nD τ) ↦[(oblkM (k0_off3 c 1#32) (k0_off3_inb c 1) : Memref sig .tc .vmem S512x256 .bf16).view.set]{fullShare} f)
      ∗ reached ER (dcell (nxt c) (csem cc0_scratch3 0 1 inb_S8x3_S1x1_0_1)) 0
      ∗ reached ER (dcell (nxt c) (csem cc0_scratch5 0 1 inb_S8x3_S1x1_0_1)) 0)
      ∗ ((∃ f : Buf (Elt F) ((slotM 0 3 inb_S8x4x512x256_S1x1x512x256_0_3_0_0 : Memref sig .tc .vmem S512x256 .bf16).view.loc (nxt c : Thread nD τ)), (slotM 0 3 inb_S8x4x512x256_S1x1x512x256_0_3_0_0 : Memref sig .tc .vmem S512x256 .bf16).view.loc (nxt c : Thread nD τ) ↦[(slotM 0 3 inb_S8x4x512x256_S1x1x512x256_0_3_0_0 : Memref sig .tc .vmem S512x256 .bf16).view.set]{fullShare} f)
      ∗ (∃ f : Buf (Elt F) ((oblkM (k0_off3 c 2#32) (k0_off3_inb c 2) : Memref sig .tc .vmem S512x256 .bf16).view.loc (nxt c : Thread nD τ)), (oblkM (k0_off3 c 2#32) (k0_off3_inb c 2) : Memref sig .tc .vmem S512x256 .bf16).view.loc (nxt c : Thread nD τ) ↦[(oblkM (k0_off3 c 2#32) (k0_off3_inb c 2) : Memref sig .tc .vmem S512x256 .bf16).view.set]{fullShare} f)
      ∗ reached ER (dcell (nxt c) (csem cc0_scratch3 0 2 inb_S8x3_S1x1_0_2)) 0
      ∗ reached ER (dcell (nxt c) (csem cc0_scratch5 0 2 inb_S8x3_S1x1_0_2)) 0)
      ∗ ((∃ f : Buf (Elt F) ((slotM 1 1 inb_S8x4x512x256_S1x1x512x256_1_1_0_0 : Memref sig .tc .vmem S512x256 .bf16).view.loc (nxt c : Thread nD τ)), (slotM 1 1 inb_S8x4x512x256_S1x1x512x256_1_1_0_0 : Memref sig .tc .vmem S512x256 .bf16).view.loc (nxt c : Thread nD τ) ↦[(slotM 1 1 inb_S8x4x512x256_S1x1x512x256_1_1_0_0 : Memref sig .tc .vmem S512x256 .bf16).view.set]{fullShare} f)
      ∗ (∃ f : Buf (Elt F) ((oblkM (k0_off7 c 0#32) (k0_off7_inb c 0) : Memref sig .tc .vmem S512x256 .bf16).view.loc (nxt c : Thread nD τ)), (oblkM (k0_off7 c 0#32) (k0_off7_inb c 0) : Memref sig .tc .vmem S512x256 .bf16).view.loc (nxt c : Thread nD τ) ↦[(oblkM (k0_off7 c 0#32) (k0_off7_inb c 0) : Memref sig .tc .vmem S512x256 .bf16).view.set]{fullShare} f)
      ∗ reached ER (dcell (nxt c) (csem cc0_scratch3 1 0 inb_S8x3_S1x1_1_0)) 0
      ∗ reached ER (dcell (nxt c) (csem cc0_scratch5 1 0 inb_S8x3_S1x1_1_0)) 0)
      ∗ ((∃ f : Buf (Elt F) ((slotM 1 2 inb_S8x4x512x256_S1x1x512x256_1_2_0_0 : Memref sig .tc .vmem S512x256 .bf16).view.loc (nxt c : Thread nD τ)), (slotM 1 2 inb_S8x4x512x256_S1x1x512x256_1_2_0_0 : Memref sig .tc .vmem S512x256 .bf16).view.loc (nxt c : Thread nD τ) ↦[(slotM 1 2 inb_S8x4x512x256_S1x1x512x256_1_2_0_0 : Memref sig .tc .vmem S512x256 .bf16).view.set]{fullShare} f)
      ∗ (∃ f : Buf (Elt F) ((oblkM (k0_off7 c 1#32) (k0_off7_inb c 1) : Memref sig .tc .vmem S512x256 .bf16).view.loc (nxt c : Thread nD τ)), (oblkM (k0_off7 c 1#32) (k0_off7_inb c 1) : Memref sig .tc .vmem S512x256 .bf16).view.loc (nxt c : Thread nD τ) ↦[(oblkM (k0_off7 c 1#32) (k0_off7_inb c 1) : Memref sig .tc .vmem S512x256 .bf16).view.set]{fullShare} f)
      ∗ reached ER (dcell (nxt c) (csem cc0_scratch3 1 1 inb_S8x3_S1x1_1_1)) 0
      ∗ reached ER (dcell (nxt c) (csem cc0_scratch5 1 1 inb_S8x3_S1x1_1_1)) 0)
      ∗ ((∃ f : Buf (Elt F) ((slotM 1 3 inb_S8x4x512x256_S1x1x512x256_1_3_0_0 : Memref sig .tc .vmem S512x256 .bf16).view.loc (nxt c : Thread nD τ)), (slotM 1 3 inb_S8x4x512x256_S1x1x512x256_1_3_0_0 : Memref sig .tc .vmem S512x256 .bf16).view.loc (nxt c : Thread nD τ) ↦[(slotM 1 3 inb_S8x4x512x256_S1x1x512x256_1_3_0_0 : Memref sig .tc .vmem S512x256 .bf16).view.set]{fullShare} f)
      ∗ (∃ f : Buf (Elt F) ((oblkM (k0_off7 c 2#32) (k0_off7_inb c 2) : Memref sig .tc .vmem S512x256 .bf16).view.loc (nxt c : Thread nD τ)), (oblkM (k0_off7 c 2#32) (k0_off7_inb c 2) : Memref sig .tc .vmem S512x256 .bf16).view.loc (nxt c : Thread nD τ) ↦[(oblkM (k0_off7 c 2#32) (k0_off7_inb c 2) : Memref sig .tc .vmem S512x256 .bf16).view.set]{fullShare} f)
      ∗ reached ER (dcell (nxt c) (csem cc0_scratch3 1 2 inb_S8x3_S1x1_1_2)) 0
      ∗ reached ER (dcell (nxt c) (csem cc0_scratch5 1 2 inb_S8x3_S1x1_1_2)) 0)
      ∗ ((∃ f : Buf (Elt F) ((slotM 2 1 inb_S8x4x512x256_S1x1x512x256_2_1_0_0 : Memref sig .tc .vmem S512x256 .bf16).view.loc (nxt c : Thread nD τ)), (slotM 2 1 inb_S8x4x512x256_S1x1x512x256_2_1_0_0 : Memref sig .tc .vmem S512x256 .bf16).view.loc (nxt c : Thread nD τ) ↦[(slotM 2 1 inb_S8x4x512x256_S1x1x512x256_2_1_0_0 : Memref sig .tc .vmem S512x256 .bf16).view.set]{fullShare} f)
      ∗ (∃ f : Buf (Elt F) ((oblkM (k0_off11 c 0#32) (k0_off11_inb c 0) : Memref sig .tc .vmem S512x256 .bf16).view.loc (nxt c : Thread nD τ)), (oblkM (k0_off11 c 0#32) (k0_off11_inb c 0) : Memref sig .tc .vmem S512x256 .bf16).view.loc (nxt c : Thread nD τ) ↦[(oblkM (k0_off11 c 0#32) (k0_off11_inb c 0) : Memref sig .tc .vmem S512x256 .bf16).view.set]{fullShare} f)
      ∗ reached ER (dcell (nxt c) (csem cc0_scratch3 2 0 inb_S8x3_S1x1_2_0)) 0
      ∗ reached ER (dcell (nxt c) (csem cc0_scratch5 2 0 inb_S8x3_S1x1_2_0)) 0)
      ∗ ((∃ f : Buf (Elt F) ((slotM 2 2 inb_S8x4x512x256_S1x1x512x256_2_2_0_0 : Memref sig .tc .vmem S512x256 .bf16).view.loc (nxt c : Thread nD τ)), (slotM 2 2 inb_S8x4x512x256_S1x1x512x256_2_2_0_0 : Memref sig .tc .vmem S512x256 .bf16).view.loc (nxt c : Thread nD τ) ↦[(slotM 2 2 inb_S8x4x512x256_S1x1x512x256_2_2_0_0 : Memref sig .tc .vmem S512x256 .bf16).view.set]{fullShare} f)
      ∗ (∃ f : Buf (Elt F) ((oblkM (k0_off11 c 1#32) (k0_off11_inb c 1) : Memref sig .tc .vmem S512x256 .bf16).view.loc (nxt c : Thread nD τ)), (oblkM (k0_off11 c 1#32) (k0_off11_inb c 1) : Memref sig .tc .vmem S512x256 .bf16).view.loc (nxt c : Thread nD τ) ↦[(oblkM (k0_off11 c 1#32) (k0_off11_inb c 1) : Memref sig .tc .vmem S512x256 .bf16).view.set]{fullShare} f)
      ∗ reached ER (dcell (nxt c) (csem cc0_scratch3 2 1 inb_S8x3_S1x1_2_1)) 0
      ∗ reached ER (dcell (nxt c) (csem cc0_scratch5 2 1 inb_S8x3_S1x1_2_1)) 0)
      ∗ ((∃ f : Buf (Elt F) ((slotM 2 3 inb_S8x4x512x256_S1x1x512x256_2_3_0_0 : Memref sig .tc .vmem S512x256 .bf16).view.loc (nxt c : Thread nD τ)), (slotM 2 3 inb_S8x4x512x256_S1x1x512x256_2_3_0_0 : Memref sig .tc .vmem S512x256 .bf16).view.loc (nxt c : Thread nD τ) ↦[(slotM 2 3 inb_S8x4x512x256_S1x1x512x256_2_3_0_0 : Memref sig .tc .vmem S512x256 .bf16).view.set]{fullShare} f)
      ∗ (∃ f : Buf (Elt F) ((oblkM (k0_off11 c 2#32) (k0_off11_inb c 2) : Memref sig .tc .vmem S512x256 .bf16).view.loc (nxt c : Thread nD τ)), (oblkM (k0_off11 c 2#32) (k0_off11_inb c 2) : Memref sig .tc .vmem S512x256 .bf16).view.loc (nxt c : Thread nD τ) ↦[(oblkM (k0_off11 c 2#32) (k0_off11_inb c 2) : Memref sig .tc .vmem S512x256 .bf16).view.set]{fullShare} f)
      ∗ reached ER (dcell (nxt c) (csem cc0_scratch3 2 2 inb_S8x3_S1x1_2_2)) 0
      ∗ reached ER (dcell (nxt c) (csem cc0_scratch5 2 2 inb_S8x3_S1x1_2_2)) 0)
      ∗ ((∃ f : Buf (Elt F) ((slotM 3 1 inb_S8x4x512x256_S1x1x512x256_3_1_0_0 : Memref sig .tc .vmem S512x256 .bf16).view.loc (nxt c : Thread nD τ)), (slotM 3 1 inb_S8x4x512x256_S1x1x512x256_3_1_0_0 : Memref sig .tc .vmem S512x256 .bf16).view.loc (nxt c : Thread nD τ) ↦[(slotM 3 1 inb_S8x4x512x256_S1x1x512x256_3_1_0_0 : Memref sig .tc .vmem S512x256 .bf16).view.set]{fullShare} f)
      ∗ (∃ f : Buf (Elt F) ((oblkM (k0_off15 c 0#32) (k0_off15_inb c 0) : Memref sig .tc .vmem S512x256 .bf16).view.loc (nxt c : Thread nD τ)), (oblkM (k0_off15 c 0#32) (k0_off15_inb c 0) : Memref sig .tc .vmem S512x256 .bf16).view.loc (nxt c : Thread nD τ) ↦[(oblkM (k0_off15 c 0#32) (k0_off15_inb c 0) : Memref sig .tc .vmem S512x256 .bf16).view.set]{fullShare} f)
      ∗ reached ER (dcell (nxt c) (csem cc0_scratch3 3 0 inb_S8x3_S1x1_3_0)) 0
      ∗ reached ER (dcell (nxt c) (csem cc0_scratch5 3 0 inb_S8x3_S1x1_3_0)) 0)
      ∗ ((∃ f : Buf (Elt F) ((slotM 3 2 inb_S8x4x512x256_S1x1x512x256_3_2_0_0 : Memref sig .tc .vmem S512x256 .bf16).view.loc (nxt c : Thread nD τ)), (slotM 3 2 inb_S8x4x512x256_S1x1x512x256_3_2_0_0 : Memref sig .tc .vmem S512x256 .bf16).view.loc (nxt c : Thread nD τ) ↦[(slotM 3 2 inb_S8x4x512x256_S1x1x512x256_3_2_0_0 : Memref sig .tc .vmem S512x256 .bf16).view.set]{fullShare} f)
      ∗ (∃ f : Buf (Elt F) ((oblkM (k0_off15 c 1#32) (k0_off15_inb c 1) : Memref sig .tc .vmem S512x256 .bf16).view.loc (nxt c : Thread nD τ)), (oblkM (k0_off15 c 1#32) (k0_off15_inb c 1) : Memref sig .tc .vmem S512x256 .bf16).view.loc (nxt c : Thread nD τ) ↦[(oblkM (k0_off15 c 1#32) (k0_off15_inb c 1) : Memref sig .tc .vmem S512x256 .bf16).view.set]{fullShare} f)
      ∗ reached ER (dcell (nxt c) (csem cc0_scratch3 3 1 inb_S8x3_S1x1_3_1)) 0
      ∗ reached ER (dcell (nxt c) (csem cc0_scratch5 3 1 inb_S8x3_S1x1_3_1)) 0)
      ∗ ((∃ f : Buf (Elt F) ((slotM 3 3 inb_S8x4x512x256_S1x1x512x256_3_3_0_0 : Memref sig .tc .vmem S512x256 .bf16).view.loc (nxt c : Thread nD τ)), (slotM 3 3 inb_S8x4x512x256_S1x1x512x256_3_3_0_0 : Memref sig .tc .vmem S512x256 .bf16).view.loc (nxt c : Thread nD τ) ↦[(slotM 3 3 inb_S8x4x512x256_S1x1x512x256_3_3_0_0 : Memref sig .tc .vmem S512x256 .bf16).view.set]{fullShare} f)
      ∗ (∃ f : Buf (Elt F) ((oblkM (k0_off15 c 2#32) (k0_off15_inb c 2) : Memref sig .tc .vmem S512x256 .bf16).view.loc (nxt c : Thread nD τ)), (oblkM (k0_off15 c 2#32) (k0_off15_inb c 2) : Memref sig .tc .vmem S512x256 .bf16).view.loc (nxt c : Thread nD τ) ↦[(oblkM (k0_off15 c 2#32) (k0_off15_inb c 2) : Memref sig .tc .vmem S512x256 .bf16).view.set]{fullShare} f)
      ∗ reached ER (dcell (nxt c) (csem cc0_scratch3 3 2 inb_S8x3_S1x1_3_2)) 0
      ∗ reached ER (dcell (nxt c) (csem cc0_scratch5 3 2 inb_S8x3_S1x1_3_2)) 0)) : sProp 𝕄) := by
  unfold barPay
  rw [bigSep_univ_eq_bigSepL ([(0, 0), (0, 1), (0, 2), (1, 0), (1, 1), (1, 2), (2, 0), (2, 1), (2, 2), (3, 0), (3, 1), (3, 2)] : List (Fin 4 × Fin 3)) (by decide) (by decide)]
  exact
    (sep_congr (barLeaf_congr _ (nxt c) rfl _ 0 (by rfl) _ 0 (by rfl) _ (k0_off3 c 0#32) (agOff_0_0 c).symm _ _ _ _ _ _ _ _)
    (sep_congr (barLeaf_congr _ (nxt c) rfl _ 0 (by rfl) _ 1 (by rfl) _ (k0_off3 c 1#32) (agOff_0_1 c).symm _ _ _ _ _ _ _ _)
    (sep_congr (barLeaf_congr _ (nxt c) rfl _ 0 (by rfl) _ 2 (by rfl) _ (k0_off3 c 2#32) (agOff_0_2 c).symm _ _ _ _ _ _ _ _)
    (sep_congr (barLeaf_congr _ (nxt c) rfl _ 1 (by rfl) _ 0 (by rfl) _ (k0_off7 c 0#32) (agOff_1_0 c).symm _ _ _ _ _ _ _ _)
    (sep_congr (barLeaf_congr _ (nxt c) rfl _ 1 (by rfl) _ 1 (by rfl) _ (k0_off7 c 1#32) (agOff_1_1 c).symm _ _ _ _ _ _ _ _)
    (sep_congr (barLeaf_congr _ (nxt c) rfl _ 1 (by rfl) _ 2 (by rfl) _ (k0_off7 c 2#32) (agOff_1_2 c).symm _ _ _ _ _ _ _ _)
    (sep_congr (barLeaf_congr _ (nxt c) rfl _ 2 (by rfl) _ 0 (by rfl) _ (k0_off11 c 0#32) (agOff_2_0 c).symm _ _ _ _ _ _ _ _)
    (sep_congr (barLeaf_congr _ (nxt c) rfl _ 2 (by rfl) _ 1 (by rfl) _ (k0_off11 c 1#32) (agOff_2_1 c).symm _ _ _ _ _ _ _ _)
    (sep_congr (barLeaf_congr _ (nxt c) rfl _ 2 (by rfl) _ 2 (by rfl) _ (k0_off11 c 2#32) (agOff_2_2 c).symm _ _ _ _ _ _ _ _)
    (sep_congr (barLeaf_congr _ (nxt c) rfl _ 3 (by rfl) _ 0 (by rfl) _ (k0_off15 c 0#32) (agOff_3_0 c).symm _ _ _ _ _ _ _ _)
    (sep_congr (barLeaf_congr _ (nxt c) rfl _ 3 (by rfl) _ 1 (by rfl) _ (k0_off15 c 1#32) (agOff_3_1 c).symm _ _ _ _ _ _ _ _)
    (barLeaf_congr _ (nxt c) rfl _ 3 (by rfl) _ 2 (by rfl) _ (k0_off15 c 2#32) (agOff_3_2 c).symm _ _ _ _ _ _ _ _))))))))))))

theorem barPay_false_lit :
    barPay (F := F) c false =
      (iprop(((∃ f : Buf (Elt F) ((slotM 4 1 inb_S8x4x512x256_S1x1x512x256_4_1_0_0 : Memref sig .tc .vmem S512x256 .bf16).view.loc (prv c : Thread nD τ)), (slotM 4 1 inb_S8x4x512x256_S1x1x512x256_4_1_0_0 : Memref sig .tc .vmem S512x256 .bf16).view.loc (prv c : Thread nD τ) ↦[(slotM 4 1 inb_S8x4x512x256_S1x1x512x256_4_1_0_0 : Memref sig .tc .vmem S512x256 .bf16).view.set]{fullShare} f)
      ∗ (∃ f : Buf (Elt F) ((oblkM (k0_off5 c 0#32) (k0_off5_inb c 0) : Memref sig .tc .vmem S512x256 .bf16).view.loc (prv c : Thread nD τ)), (oblkM (k0_off5 c 0#32) (k0_off5_inb c 0) : Memref sig .tc .vmem S512x256 .bf16).view.loc (prv c : Thread nD τ) ↦[(oblkM (k0_off5 c 0#32) (k0_off5_inb c 0) : Memref sig .tc .vmem S512x256 .bf16).view.set]{fullShare} f)
      ∗ reached ER (dcell (prv c) (csem cc0_scratch3 4 0 inb_S8x3_S1x1_4_0)) 0
      ∗ reached ER (dcell (prv c) (csem cc0_scratch5 4 0 inb_S8x3_S1x1_4_0)) 0)
      ∗ ((∃ f : Buf (Elt F) ((slotM 4 2 inb_S8x4x512x256_S1x1x512x256_4_2_0_0 : Memref sig .tc .vmem S512x256 .bf16).view.loc (prv c : Thread nD τ)), (slotM 4 2 inb_S8x4x512x256_S1x1x512x256_4_2_0_0 : Memref sig .tc .vmem S512x256 .bf16).view.loc (prv c : Thread nD τ) ↦[(slotM 4 2 inb_S8x4x512x256_S1x1x512x256_4_2_0_0 : Memref sig .tc .vmem S512x256 .bf16).view.set]{fullShare} f)
      ∗ (∃ f : Buf (Elt F) ((oblkM (k0_off5 c 4294967295#32) (k0_off5_inb c 1) : Memref sig .tc .vmem S512x256 .bf16).view.loc (prv c : Thread nD τ)), (oblkM (k0_off5 c 4294967295#32) (k0_off5_inb c 1) : Memref sig .tc .vmem S512x256 .bf16).view.loc (prv c : Thread nD τ) ↦[(oblkM (k0_off5 c 4294967295#32) (k0_off5_inb c 1) : Memref sig .tc .vmem S512x256 .bf16).view.set]{fullShare} f)
      ∗ reached ER (dcell (prv c) (csem cc0_scratch3 4 1 inb_S8x3_S1x1_4_1)) 0
      ∗ reached ER (dcell (prv c) (csem cc0_scratch5 4 1 inb_S8x3_S1x1_4_1)) 0)
      ∗ ((∃ f : Buf (Elt F) ((slotM 4 3 inb_S8x4x512x256_S1x1x512x256_4_3_0_0 : Memref sig .tc .vmem S512x256 .bf16).view.loc (prv c : Thread nD τ)), (slotM 4 3 inb_S8x4x512x256_S1x1x512x256_4_3_0_0 : Memref sig .tc .vmem S512x256 .bf16).view.loc (prv c : Thread nD τ) ↦[(slotM 4 3 inb_S8x4x512x256_S1x1x512x256_4_3_0_0 : Memref sig .tc .vmem S512x256 .bf16).view.set]{fullShare} f)
      ∗ (∃ f : Buf (Elt F) ((oblkM (k0_off5 c 4294967294#32) (k0_off5_inb c 2) : Memref sig .tc .vmem S512x256 .bf16).view.loc (prv c : Thread nD τ)), (oblkM (k0_off5 c 4294967294#32) (k0_off5_inb c 2) : Memref sig .tc .vmem S512x256 .bf16).view.loc (prv c : Thread nD τ) ↦[(oblkM (k0_off5 c 4294967294#32) (k0_off5_inb c 2) : Memref sig .tc .vmem S512x256 .bf16).view.set]{fullShare} f)
      ∗ reached ER (dcell (prv c) (csem cc0_scratch3 4 2 inb_S8x3_S1x1_4_2)) 0
      ∗ reached ER (dcell (prv c) (csem cc0_scratch5 4 2 inb_S8x3_S1x1_4_2)) 0)
      ∗ ((∃ f : Buf (Elt F) ((slotM 5 1 inb_S8x4x512x256_S1x1x512x256_5_1_0_0 : Memref sig .tc .vmem S512x256 .bf16).view.loc (prv c : Thread nD τ)), (slotM 5 1 inb_S8x4x512x256_S1x1x512x256_5_1_0_0 : Memref sig .tc .vmem S512x256 .bf16).view.loc (prv c : Thread nD τ) ↦[(slotM 5 1 inb_S8x4x512x256_S1x1x512x256_5_1_0_0 : Memref sig .tc .vmem S512x256 .bf16).view.set]{fullShare} f)
      ∗ (∃ f : Buf (Elt F) ((oblkM (k0_off9 c 0#32) (k0_off9_inb c 0) : Memref sig .tc .vmem S512x256 .bf16).view.loc (prv c : Thread nD τ)), (oblkM (k0_off9 c 0#32) (k0_off9_inb c 0) : Memref sig .tc .vmem S512x256 .bf16).view.loc (prv c : Thread nD τ) ↦[(oblkM (k0_off9 c 0#32) (k0_off9_inb c 0) : Memref sig .tc .vmem S512x256 .bf16).view.set]{fullShare} f)
      ∗ reached ER (dcell (prv c) (csem cc0_scratch3 5 0 inb_S8x3_S1x1_5_0)) 0
      ∗ reached ER (dcell (prv c) (csem cc0_scratch5 5 0 inb_S8x3_S1x1_5_0)) 0)
      ∗ ((∃ f : Buf (Elt F) ((slotM 5 2 inb_S8x4x512x256_S1x1x512x256_5_2_0_0 : Memref sig .tc .vmem S512x256 .bf16).view.loc (prv c : Thread nD τ)), (slotM 5 2 inb_S8x4x512x256_S1x1x512x256_5_2_0_0 : Memref sig .tc .vmem S512x256 .bf16).view.loc (prv c : Thread nD τ) ↦[(slotM 5 2 inb_S8x4x512x256_S1x1x512x256_5_2_0_0 : Memref sig .tc .vmem S512x256 .bf16).view.set]{fullShare} f)
      ∗ (∃ f : Buf (Elt F) ((oblkM (k0_off9 c 4294967295#32) (k0_off9_inb c 1) : Memref sig .tc .vmem S512x256 .bf16).view.loc (prv c : Thread nD τ)), (oblkM (k0_off9 c 4294967295#32) (k0_off9_inb c 1) : Memref sig .tc .vmem S512x256 .bf16).view.loc (prv c : Thread nD τ) ↦[(oblkM (k0_off9 c 4294967295#32) (k0_off9_inb c 1) : Memref sig .tc .vmem S512x256 .bf16).view.set]{fullShare} f)
      ∗ reached ER (dcell (prv c) (csem cc0_scratch3 5 1 inb_S8x3_S1x1_5_1)) 0
      ∗ reached ER (dcell (prv c) (csem cc0_scratch5 5 1 inb_S8x3_S1x1_5_1)) 0)
      ∗ ((∃ f : Buf (Elt F) ((slotM 5 3 inb_S8x4x512x256_S1x1x512x256_5_3_0_0 : Memref sig .tc .vmem S512x256 .bf16).view.loc (prv c : Thread nD τ)), (slotM 5 3 inb_S8x4x512x256_S1x1x512x256_5_3_0_0 : Memref sig .tc .vmem S512x256 .bf16).view.loc (prv c : Thread nD τ) ↦[(slotM 5 3 inb_S8x4x512x256_S1x1x512x256_5_3_0_0 : Memref sig .tc .vmem S512x256 .bf16).view.set]{fullShare} f)
      ∗ (∃ f : Buf (Elt F) ((oblkM (k0_off9 c 4294967294#32) (k0_off9_inb c 2) : Memref sig .tc .vmem S512x256 .bf16).view.loc (prv c : Thread nD τ)), (oblkM (k0_off9 c 4294967294#32) (k0_off9_inb c 2) : Memref sig .tc .vmem S512x256 .bf16).view.loc (prv c : Thread nD τ) ↦[(oblkM (k0_off9 c 4294967294#32) (k0_off9_inb c 2) : Memref sig .tc .vmem S512x256 .bf16).view.set]{fullShare} f)
      ∗ reached ER (dcell (prv c) (csem cc0_scratch3 5 2 inb_S8x3_S1x1_5_2)) 0
      ∗ reached ER (dcell (prv c) (csem cc0_scratch5 5 2 inb_S8x3_S1x1_5_2)) 0)
      ∗ ((∃ f : Buf (Elt F) ((slotM 6 1 inb_S8x4x512x256_S1x1x512x256_6_1_0_0 : Memref sig .tc .vmem S512x256 .bf16).view.loc (prv c : Thread nD τ)), (slotM 6 1 inb_S8x4x512x256_S1x1x512x256_6_1_0_0 : Memref sig .tc .vmem S512x256 .bf16).view.loc (prv c : Thread nD τ) ↦[(slotM 6 1 inb_S8x4x512x256_S1x1x512x256_6_1_0_0 : Memref sig .tc .vmem S512x256 .bf16).view.set]{fullShare} f)
      ∗ (∃ f : Buf (Elt F) ((oblkM (k0_off13 c 0#32) (k0_off13_inb c 0) : Memref sig .tc .vmem S512x256 .bf16).view.loc (prv c : Thread nD τ)), (oblkM (k0_off13 c 0#32) (k0_off13_inb c 0) : Memref sig .tc .vmem S512x256 .bf16).view.loc (prv c : Thread nD τ) ↦[(oblkM (k0_off13 c 0#32) (k0_off13_inb c 0) : Memref sig .tc .vmem S512x256 .bf16).view.set]{fullShare} f)
      ∗ reached ER (dcell (prv c) (csem cc0_scratch3 6 0 inb_S8x3_S1x1_6_0)) 0
      ∗ reached ER (dcell (prv c) (csem cc0_scratch5 6 0 inb_S8x3_S1x1_6_0)) 0)
      ∗ ((∃ f : Buf (Elt F) ((slotM 6 2 inb_S8x4x512x256_S1x1x512x256_6_2_0_0 : Memref sig .tc .vmem S512x256 .bf16).view.loc (prv c : Thread nD τ)), (slotM 6 2 inb_S8x4x512x256_S1x1x512x256_6_2_0_0 : Memref sig .tc .vmem S512x256 .bf16).view.loc (prv c : Thread nD τ) ↦[(slotM 6 2 inb_S8x4x512x256_S1x1x512x256_6_2_0_0 : Memref sig .tc .vmem S512x256 .bf16).view.set]{fullShare} f)
      ∗ (∃ f : Buf (Elt F) ((oblkM (k0_off13 c 4294967295#32) (k0_off13_inb c 1) : Memref sig .tc .vmem S512x256 .bf16).view.loc (prv c : Thread nD τ)), (oblkM (k0_off13 c 4294967295#32) (k0_off13_inb c 1) : Memref sig .tc .vmem S512x256 .bf16).view.loc (prv c : Thread nD τ) ↦[(oblkM (k0_off13 c 4294967295#32) (k0_off13_inb c 1) : Memref sig .tc .vmem S512x256 .bf16).view.set]{fullShare} f)
      ∗ reached ER (dcell (prv c) (csem cc0_scratch3 6 1 inb_S8x3_S1x1_6_1)) 0
      ∗ reached ER (dcell (prv c) (csem cc0_scratch5 6 1 inb_S8x3_S1x1_6_1)) 0)
      ∗ ((∃ f : Buf (Elt F) ((slotM 6 3 inb_S8x4x512x256_S1x1x512x256_6_3_0_0 : Memref sig .tc .vmem S512x256 .bf16).view.loc (prv c : Thread nD τ)), (slotM 6 3 inb_S8x4x512x256_S1x1x512x256_6_3_0_0 : Memref sig .tc .vmem S512x256 .bf16).view.loc (prv c : Thread nD τ) ↦[(slotM 6 3 inb_S8x4x512x256_S1x1x512x256_6_3_0_0 : Memref sig .tc .vmem S512x256 .bf16).view.set]{fullShare} f)
      ∗ (∃ f : Buf (Elt F) ((oblkM (k0_off13 c 4294967294#32) (k0_off13_inb c 2) : Memref sig .tc .vmem S512x256 .bf16).view.loc (prv c : Thread nD τ)), (oblkM (k0_off13 c 4294967294#32) (k0_off13_inb c 2) : Memref sig .tc .vmem S512x256 .bf16).view.loc (prv c : Thread nD τ) ↦[(oblkM (k0_off13 c 4294967294#32) (k0_off13_inb c 2) : Memref sig .tc .vmem S512x256 .bf16).view.set]{fullShare} f)
      ∗ reached ER (dcell (prv c) (csem cc0_scratch3 6 2 inb_S8x3_S1x1_6_2)) 0
      ∗ reached ER (dcell (prv c) (csem cc0_scratch5 6 2 inb_S8x3_S1x1_6_2)) 0)
      ∗ ((∃ f : Buf (Elt F) ((slotM 7 1 inb_S8x4x512x256_S1x1x512x256_7_1_0_0 : Memref sig .tc .vmem S512x256 .bf16).view.loc (prv c : Thread nD τ)), (slotM 7 1 inb_S8x4x512x256_S1x1x512x256_7_1_0_0 : Memref sig .tc .vmem S512x256 .bf16).view.loc (prv c : Thread nD τ) ↦[(slotM 7 1 inb_S8x4x512x256_S1x1x512x256_7_1_0_0 : Memref sig .tc .vmem S512x256 .bf16).view.set]{fullShare} f)
      ∗ (∃ f : Buf (Elt F) ((oblkM (k0_off17 c 0#32) (k0_off17_inb c 0) : Memref sig .tc .vmem S512x256 .bf16).view.loc (prv c : Thread nD τ)), (oblkM (k0_off17 c 0#32) (k0_off17_inb c 0) : Memref sig .tc .vmem S512x256 .bf16).view.loc (prv c : Thread nD τ) ↦[(oblkM (k0_off17 c 0#32) (k0_off17_inb c 0) : Memref sig .tc .vmem S512x256 .bf16).view.set]{fullShare} f)
      ∗ reached ER (dcell (prv c) (csem cc0_scratch3 7 0 inb_S8x3_S1x1_7_0)) 0
      ∗ reached ER (dcell (prv c) (csem cc0_scratch5 7 0 inb_S8x3_S1x1_7_0)) 0)
      ∗ ((∃ f : Buf (Elt F) ((slotM 7 2 inb_S8x4x512x256_S1x1x512x256_7_2_0_0 : Memref sig .tc .vmem S512x256 .bf16).view.loc (prv c : Thread nD τ)), (slotM 7 2 inb_S8x4x512x256_S1x1x512x256_7_2_0_0 : Memref sig .tc .vmem S512x256 .bf16).view.loc (prv c : Thread nD τ) ↦[(slotM 7 2 inb_S8x4x512x256_S1x1x512x256_7_2_0_0 : Memref sig .tc .vmem S512x256 .bf16).view.set]{fullShare} f)
      ∗ (∃ f : Buf (Elt F) ((oblkM (k0_off17 c 4294967295#32) (k0_off17_inb c 1) : Memref sig .tc .vmem S512x256 .bf16).view.loc (prv c : Thread nD τ)), (oblkM (k0_off17 c 4294967295#32) (k0_off17_inb c 1) : Memref sig .tc .vmem S512x256 .bf16).view.loc (prv c : Thread nD τ) ↦[(oblkM (k0_off17 c 4294967295#32) (k0_off17_inb c 1) : Memref sig .tc .vmem S512x256 .bf16).view.set]{fullShare} f)
      ∗ reached ER (dcell (prv c) (csem cc0_scratch3 7 1 inb_S8x3_S1x1_7_1)) 0
      ∗ reached ER (dcell (prv c) (csem cc0_scratch5 7 1 inb_S8x3_S1x1_7_1)) 0)
      ∗ ((∃ f : Buf (Elt F) ((slotM 7 3 inb_S8x4x512x256_S1x1x512x256_7_3_0_0 : Memref sig .tc .vmem S512x256 .bf16).view.loc (prv c : Thread nD τ)), (slotM 7 3 inb_S8x4x512x256_S1x1x512x256_7_3_0_0 : Memref sig .tc .vmem S512x256 .bf16).view.loc (prv c : Thread nD τ) ↦[(slotM 7 3 inb_S8x4x512x256_S1x1x512x256_7_3_0_0 : Memref sig .tc .vmem S512x256 .bf16).view.set]{fullShare} f)
      ∗ (∃ f : Buf (Elt F) ((oblkM (k0_off17 c 4294967294#32) (k0_off17_inb c 2) : Memref sig .tc .vmem S512x256 .bf16).view.loc (prv c : Thread nD τ)), (oblkM (k0_off17 c 4294967294#32) (k0_off17_inb c 2) : Memref sig .tc .vmem S512x256 .bf16).view.loc (prv c : Thread nD τ) ↦[(oblkM (k0_off17 c 4294967294#32) (k0_off17_inb c 2) : Memref sig .tc .vmem S512x256 .bf16).view.set]{fullShare} f)
      ∗ reached ER (dcell (prv c) (csem cc0_scratch3 7 2 inb_S8x3_S1x1_7_2)) 0
      ∗ reached ER (dcell (prv c) (csem cc0_scratch5 7 2 inb_S8x3_S1x1_7_2)) 0)) : sProp 𝕄) := by
  unfold barPay
  rw [bigSep_univ_eq_bigSepL ([(0, 0), (0, 1), (0, 2), (1, 0), (1, 1), (1, 2), (2, 0), (2, 1), (2, 2), (3, 0), (3, 1), (3, 2)] : List (Fin 4 × Fin 3)) (by decide) (by decide)]
  exact
    (sep_congr (barLeaf_congr _ (prv c) rfl _ 4 (by rfl) _ 0 (by rfl) _ (k0_off5 c 0#32) (agOff_4_0 c).symm _ _ _ _ _ _ _ _)
    (sep_congr (barLeaf_congr _ (prv c) rfl _ 4 (by rfl) _ 1 (by rfl) _ (k0_off5 c 4294967295#32) (agOff_4_1 c).symm _ _ _ _ _ _ _ _)
    (sep_congr (barLeaf_congr _ (prv c) rfl _ 4 (by rfl) _ 2 (by rfl) _ (k0_off5 c 4294967294#32) (agOff_4_2 c).symm _ _ _ _ _ _ _ _)
    (sep_congr (barLeaf_congr _ (prv c) rfl _ 5 (by rfl) _ 0 (by rfl) _ (k0_off9 c 0#32) (agOff_5_0 c).symm _ _ _ _ _ _ _ _)
    (sep_congr (barLeaf_congr _ (prv c) rfl _ 5 (by rfl) _ 1 (by rfl) _ (k0_off9 c 4294967295#32) (agOff_5_1 c).symm _ _ _ _ _ _ _ _)
    (sep_congr (barLeaf_congr _ (prv c) rfl _ 5 (by rfl) _ 2 (by rfl) _ (k0_off9 c 4294967294#32) (agOff_5_2 c).symm _ _ _ _ _ _ _ _)
    (sep_congr (barLeaf_congr _ (prv c) rfl _ 6 (by rfl) _ 0 (by rfl) _ (k0_off13 c 0#32) (agOff_6_0 c).symm _ _ _ _ _ _ _ _)
    (sep_congr (barLeaf_congr _ (prv c) rfl _ 6 (by rfl) _ 1 (by rfl) _ (k0_off13 c 4294967295#32) (agOff_6_1 c).symm _ _ _ _ _ _ _ _)
    (sep_congr (barLeaf_congr _ (prv c) rfl _ 6 (by rfl) _ 2 (by rfl) _ (k0_off13 c 4294967294#32) (agOff_6_2 c).symm _ _ _ _ _ _ _ _)
    (sep_congr (barLeaf_congr _ (prv c) rfl _ 7 (by rfl) _ 0 (by rfl) _ (k0_off17 c 0#32) (agOff_7_0 c).symm _ _ _ _ _ _ _ _)
    (sep_congr (barLeaf_congr _ (prv c) rfl _ 7 (by rfl) _ 1 (by rfl) _ (k0_off17 c 4294967295#32) (agOff_7_1 c).symm _ _ _ _ _ _ _ _)
    (barLeaf_congr _ (prv c) rfl _ 7 (by rfl) _ 2 (by rfl) _ (k0_off17 c 4294967294#32) (agOff_7_2 c).symm _ _ _ _ _ _ _ _))))))))))))

/-- What a wait on the barrier cell returns. -/
theorem rest_bar_lit :
    bigSep ((ringRd fa fb).duties (barCell c) 0 \ ∅) (fun d => (ringRd fa fb).payload (barCell c) 0 d) =
      (iprop((((∃ f : Buf (Elt F) ((slotM 0 1 inb_S8x4x512x256_S1x1x512x256_0_1_0_0 : Memref sig .tc .vmem S512x256 .bf16).view.loc (nxt c : Thread nD τ)), (slotM 0 1 inb_S8x4x512x256_S1x1x512x256_0_1_0_0 : Memref sig .tc .vmem S512x256 .bf16).view.loc (nxt c : Thread nD τ) ↦[(slotM 0 1 inb_S8x4x512x256_S1x1x512x256_0_1_0_0 : Memref sig .tc .vmem S512x256 .bf16).view.set]{fullShare} f)
      ∗ (∃ f : Buf (Elt F) ((oblkM (k0_off3 c 0#32) (k0_off3_inb c 0) : Memref sig .tc .vmem S512x256 .bf16).view.loc (nxt c : Thread nD τ)), (oblkM (k0_off3 c 0#32) (k0_off3_inb c 0) : Memref sig .tc .vmem S512x256 .bf16).view.loc (nxt c : Thread nD τ) ↦[(oblkM (k0_off3 c 0#32) (k0_off3_inb c 0) : Memref sig .tc .vmem S512x256 .bf16).view.set]{fullShare} f)
      ∗ reached ER (dcell (nxt c) (csem cc0_scratch3 0 0 inb_S8x3_S1x1_0_0)) 0
      ∗ reached ER (dcell (nxt c) (csem cc0_scratch5 0 0 inb_S8x3_S1x1_0_0)) 0)
      ∗ ((∃ f : Buf (Elt F) ((slotM 0 2 inb_S8x4x512x256_S1x1x512x256_0_2_0_0 : Memref sig .tc .vmem S512x256 .bf16).view.loc (nxt c : Thread nD τ)), (slotM 0 2 inb_S8x4x512x256_S1x1x512x256_0_2_0_0 : Memref sig .tc .vmem S512x256 .bf16).view.loc (nxt c : Thread nD τ) ↦[(slotM 0 2 inb_S8x4x512x256_S1x1x512x256_0_2_0_0 : Memref sig .tc .vmem S512x256 .bf16).view.set]{fullShare} f)
      ∗ (∃ f : Buf (Elt F) ((oblkM (k0_off3 c 1#32) (k0_off3_inb c 1) : Memref sig .tc .vmem S512x256 .bf16).view.loc (nxt c : Thread nD τ)), (oblkM (k0_off3 c 1#32) (k0_off3_inb c 1) : Memref sig .tc .vmem S512x256 .bf16).view.loc (nxt c : Thread nD τ) ↦[(oblkM (k0_off3 c 1#32) (k0_off3_inb c 1) : Memref sig .tc .vmem S512x256 .bf16).view.set]{fullShare} f)
      ∗ reached ER (dcell (nxt c) (csem cc0_scratch3 0 1 inb_S8x3_S1x1_0_1)) 0
      ∗ reached ER (dcell (nxt c) (csem cc0_scratch5 0 1 inb_S8x3_S1x1_0_1)) 0)
      ∗ ((∃ f : Buf (Elt F) ((slotM 0 3 inb_S8x4x512x256_S1x1x512x256_0_3_0_0 : Memref sig .tc .vmem S512x256 .bf16).view.loc (nxt c : Thread nD τ)), (slotM 0 3 inb_S8x4x512x256_S1x1x512x256_0_3_0_0 : Memref sig .tc .vmem S512x256 .bf16).view.loc (nxt c : Thread nD τ) ↦[(slotM 0 3 inb_S8x4x512x256_S1x1x512x256_0_3_0_0 : Memref sig .tc .vmem S512x256 .bf16).view.set]{fullShare} f)
      ∗ (∃ f : Buf (Elt F) ((oblkM (k0_off3 c 2#32) (k0_off3_inb c 2) : Memref sig .tc .vmem S512x256 .bf16).view.loc (nxt c : Thread nD τ)), (oblkM (k0_off3 c 2#32) (k0_off3_inb c 2) : Memref sig .tc .vmem S512x256 .bf16).view.loc (nxt c : Thread nD τ) ↦[(oblkM (k0_off3 c 2#32) (k0_off3_inb c 2) : Memref sig .tc .vmem S512x256 .bf16).view.set]{fullShare} f)
      ∗ reached ER (dcell (nxt c) (csem cc0_scratch3 0 2 inb_S8x3_S1x1_0_2)) 0
      ∗ reached ER (dcell (nxt c) (csem cc0_scratch5 0 2 inb_S8x3_S1x1_0_2)) 0)
      ∗ ((∃ f : Buf (Elt F) ((slotM 1 1 inb_S8x4x512x256_S1x1x512x256_1_1_0_0 : Memref sig .tc .vmem S512x256 .bf16).view.loc (nxt c : Thread nD τ)), (slotM 1 1 inb_S8x4x512x256_S1x1x512x256_1_1_0_0 : Memref sig .tc .vmem S512x256 .bf16).view.loc (nxt c : Thread nD τ) ↦[(slotM 1 1 inb_S8x4x512x256_S1x1x512x256_1_1_0_0 : Memref sig .tc .vmem S512x256 .bf16).view.set]{fullShare} f)
      ∗ (∃ f : Buf (Elt F) ((oblkM (k0_off7 c 0#32) (k0_off7_inb c 0) : Memref sig .tc .vmem S512x256 .bf16).view.loc (nxt c : Thread nD τ)), (oblkM (k0_off7 c 0#32) (k0_off7_inb c 0) : Memref sig .tc .vmem S512x256 .bf16).view.loc (nxt c : Thread nD τ) ↦[(oblkM (k0_off7 c 0#32) (k0_off7_inb c 0) : Memref sig .tc .vmem S512x256 .bf16).view.set]{fullShare} f)
      ∗ reached ER (dcell (nxt c) (csem cc0_scratch3 1 0 inb_S8x3_S1x1_1_0)) 0
      ∗ reached ER (dcell (nxt c) (csem cc0_scratch5 1 0 inb_S8x3_S1x1_1_0)) 0)
      ∗ ((∃ f : Buf (Elt F) ((slotM 1 2 inb_S8x4x512x256_S1x1x512x256_1_2_0_0 : Memref sig .tc .vmem S512x256 .bf16).view.loc (nxt c : Thread nD τ)), (slotM 1 2 inb_S8x4x512x256_S1x1x512x256_1_2_0_0 : Memref sig .tc .vmem S512x256 .bf16).view.loc (nxt c : Thread nD τ) ↦[(slotM 1 2 inb_S8x4x512x256_S1x1x512x256_1_2_0_0 : Memref sig .tc .vmem S512x256 .bf16).view.set]{fullShare} f)
      ∗ (∃ f : Buf (Elt F) ((oblkM (k0_off7 c 1#32) (k0_off7_inb c 1) : Memref sig .tc .vmem S512x256 .bf16).view.loc (nxt c : Thread nD τ)), (oblkM (k0_off7 c 1#32) (k0_off7_inb c 1) : Memref sig .tc .vmem S512x256 .bf16).view.loc (nxt c : Thread nD τ) ↦[(oblkM (k0_off7 c 1#32) (k0_off7_inb c 1) : Memref sig .tc .vmem S512x256 .bf16).view.set]{fullShare} f)
      ∗ reached ER (dcell (nxt c) (csem cc0_scratch3 1 1 inb_S8x3_S1x1_1_1)) 0
      ∗ reached ER (dcell (nxt c) (csem cc0_scratch5 1 1 inb_S8x3_S1x1_1_1)) 0)
      ∗ ((∃ f : Buf (Elt F) ((slotM 1 3 inb_S8x4x512x256_S1x1x512x256_1_3_0_0 : Memref sig .tc .vmem S512x256 .bf16).view.loc (nxt c : Thread nD τ)), (slotM 1 3 inb_S8x4x512x256_S1x1x512x256_1_3_0_0 : Memref sig .tc .vmem S512x256 .bf16).view.loc (nxt c : Thread nD τ) ↦[(slotM 1 3 inb_S8x4x512x256_S1x1x512x256_1_3_0_0 : Memref sig .tc .vmem S512x256 .bf16).view.set]{fullShare} f)
      ∗ (∃ f : Buf (Elt F) ((oblkM (k0_off7 c 2#32) (k0_off7_inb c 2) : Memref sig .tc .vmem S512x256 .bf16).view.loc (nxt c : Thread nD τ)), (oblkM (k0_off7 c 2#32) (k0_off7_inb c 2) : Memref sig .tc .vmem S512x256 .bf16).view.loc (nxt c : Thread nD τ) ↦[(oblkM (k0_off7 c 2#32) (k0_off7_inb c 2) : Memref sig .tc .vmem S512x256 .bf16).view.set]{fullShare} f)
      ∗ reached ER (dcell (nxt c) (csem cc0_scratch3 1 2 inb_S8x3_S1x1_1_2)) 0
      ∗ reached ER (dcell (nxt c) (csem cc0_scratch5 1 2 inb_S8x3_S1x1_1_2)) 0)
      ∗ ((∃ f : Buf (Elt F) ((slotM 2 1 inb_S8x4x512x256_S1x1x512x256_2_1_0_0 : Memref sig .tc .vmem S512x256 .bf16).view.loc (nxt c : Thread nD τ)), (slotM 2 1 inb_S8x4x512x256_S1x1x512x256_2_1_0_0 : Memref sig .tc .vmem S512x256 .bf16).view.loc (nxt c : Thread nD τ) ↦[(slotM 2 1 inb_S8x4x512x256_S1x1x512x256_2_1_0_0 : Memref sig .tc .vmem S512x256 .bf16).view.set]{fullShare} f)
      ∗ (∃ f : Buf (Elt F) ((oblkM (k0_off11 c 0#32) (k0_off11_inb c 0) : Memref sig .tc .vmem S512x256 .bf16).view.loc (nxt c : Thread nD τ)), (oblkM (k0_off11 c 0#32) (k0_off11_inb c 0) : Memref sig .tc .vmem S512x256 .bf16).view.loc (nxt c : Thread nD τ) ↦[(oblkM (k0_off11 c 0#32) (k0_off11_inb c 0) : Memref sig .tc .vmem S512x256 .bf16).view.set]{fullShare} f)
      ∗ reached ER (dcell (nxt c) (csem cc0_scratch3 2 0 inb_S8x3_S1x1_2_0)) 0
      ∗ reached ER (dcell (nxt c) (csem cc0_scratch5 2 0 inb_S8x3_S1x1_2_0)) 0)
      ∗ ((∃ f : Buf (Elt F) ((slotM 2 2 inb_S8x4x512x256_S1x1x512x256_2_2_0_0 : Memref sig .tc .vmem S512x256 .bf16).view.loc (nxt c : Thread nD τ)), (slotM 2 2 inb_S8x4x512x256_S1x1x512x256_2_2_0_0 : Memref sig .tc .vmem S512x256 .bf16).view.loc (nxt c : Thread nD τ) ↦[(slotM 2 2 inb_S8x4x512x256_S1x1x512x256_2_2_0_0 : Memref sig .tc .vmem S512x256 .bf16).view.set]{fullShare} f)
      ∗ (∃ f : Buf (Elt F) ((oblkM (k0_off11 c 1#32) (k0_off11_inb c 1) : Memref sig .tc .vmem S512x256 .bf16).view.loc (nxt c : Thread nD τ)), (oblkM (k0_off11 c 1#32) (k0_off11_inb c 1) : Memref sig .tc .vmem S512x256 .bf16).view.loc (nxt c : Thread nD τ) ↦[(oblkM (k0_off11 c 1#32) (k0_off11_inb c 1) : Memref sig .tc .vmem S512x256 .bf16).view.set]{fullShare} f)
      ∗ reached ER (dcell (nxt c) (csem cc0_scratch3 2 1 inb_S8x3_S1x1_2_1)) 0
      ∗ reached ER (dcell (nxt c) (csem cc0_scratch5 2 1 inb_S8x3_S1x1_2_1)) 0)
      ∗ ((∃ f : Buf (Elt F) ((slotM 2 3 inb_S8x4x512x256_S1x1x512x256_2_3_0_0 : Memref sig .tc .vmem S512x256 .bf16).view.loc (nxt c : Thread nD τ)), (slotM 2 3 inb_S8x4x512x256_S1x1x512x256_2_3_0_0 : Memref sig .tc .vmem S512x256 .bf16).view.loc (nxt c : Thread nD τ) ↦[(slotM 2 3 inb_S8x4x512x256_S1x1x512x256_2_3_0_0 : Memref sig .tc .vmem S512x256 .bf16).view.set]{fullShare} f)
      ∗ (∃ f : Buf (Elt F) ((oblkM (k0_off11 c 2#32) (k0_off11_inb c 2) : Memref sig .tc .vmem S512x256 .bf16).view.loc (nxt c : Thread nD τ)), (oblkM (k0_off11 c 2#32) (k0_off11_inb c 2) : Memref sig .tc .vmem S512x256 .bf16).view.loc (nxt c : Thread nD τ) ↦[(oblkM (k0_off11 c 2#32) (k0_off11_inb c 2) : Memref sig .tc .vmem S512x256 .bf16).view.set]{fullShare} f)
      ∗ reached ER (dcell (nxt c) (csem cc0_scratch3 2 2 inb_S8x3_S1x1_2_2)) 0
      ∗ reached ER (dcell (nxt c) (csem cc0_scratch5 2 2 inb_S8x3_S1x1_2_2)) 0)
      ∗ ((∃ f : Buf (Elt F) ((slotM 3 1 inb_S8x4x512x256_S1x1x512x256_3_1_0_0 : Memref sig .tc .vmem S512x256 .bf16).view.loc (nxt c : Thread nD τ)), (slotM 3 1 inb_S8x4x512x256_S1x1x512x256_3_1_0_0 : Memref sig .tc .vmem S512x256 .bf16).view.loc (nxt c : Thread nD τ) ↦[(slotM 3 1 inb_S8x4x512x256_S1x1x512x256_3_1_0_0 : Memref sig .tc .vmem S512x256 .bf16).view.set]{fullShare} f)
      ∗ (∃ f : Buf (Elt F) ((oblkM (k0_off15 c 0#32) (k0_off15_inb c 0) : Memref sig .tc .vmem S512x256 .bf16).view.loc (nxt c : Thread nD τ)), (oblkM (k0_off15 c 0#32) (k0_off15_inb c 0) : Memref sig .tc .vmem S512x256 .bf16).view.loc (nxt c : Thread nD τ) ↦[(oblkM (k0_off15 c 0#32) (k0_off15_inb c 0) : Memref sig .tc .vmem S512x256 .bf16).view.set]{fullShare} f)
      ∗ reached ER (dcell (nxt c) (csem cc0_scratch3 3 0 inb_S8x3_S1x1_3_0)) 0
      ∗ reached ER (dcell (nxt c) (csem cc0_scratch5 3 0 inb_S8x3_S1x1_3_0)) 0)
      ∗ ((∃ f : Buf (Elt F) ((slotM 3 2 inb_S8x4x512x256_S1x1x512x256_3_2_0_0 : Memref sig .tc .vmem S512x256 .bf16).view.loc (nxt c : Thread nD τ)), (slotM 3 2 inb_S8x4x512x256_S1x1x512x256_3_2_0_0 : Memref sig .tc .vmem S512x256 .bf16).view.loc (nxt c : Thread nD τ) ↦[(slotM 3 2 inb_S8x4x512x256_S1x1x512x256_3_2_0_0 : Memref sig .tc .vmem S512x256 .bf16).view.set]{fullShare} f)
      ∗ (∃ f : Buf (Elt F) ((oblkM (k0_off15 c 1#32) (k0_off15_inb c 1) : Memref sig .tc .vmem S512x256 .bf16).view.loc (nxt c : Thread nD τ)), (oblkM (k0_off15 c 1#32) (k0_off15_inb c 1) : Memref sig .tc .vmem S512x256 .bf16).view.loc (nxt c : Thread nD τ) ↦[(oblkM (k0_off15 c 1#32) (k0_off15_inb c 1) : Memref sig .tc .vmem S512x256 .bf16).view.set]{fullShare} f)
      ∗ reached ER (dcell (nxt c) (csem cc0_scratch3 3 1 inb_S8x3_S1x1_3_1)) 0
      ∗ reached ER (dcell (nxt c) (csem cc0_scratch5 3 1 inb_S8x3_S1x1_3_1)) 0)
      ∗ ((∃ f : Buf (Elt F) ((slotM 3 3 inb_S8x4x512x256_S1x1x512x256_3_3_0_0 : Memref sig .tc .vmem S512x256 .bf16).view.loc (nxt c : Thread nD τ)), (slotM 3 3 inb_S8x4x512x256_S1x1x512x256_3_3_0_0 : Memref sig .tc .vmem S512x256 .bf16).view.loc (nxt c : Thread nD τ) ↦[(slotM 3 3 inb_S8x4x512x256_S1x1x512x256_3_3_0_0 : Memref sig .tc .vmem S512x256 .bf16).view.set]{fullShare} f)
      ∗ (∃ f : Buf (Elt F) ((oblkM (k0_off15 c 2#32) (k0_off15_inb c 2) : Memref sig .tc .vmem S512x256 .bf16).view.loc (nxt c : Thread nD τ)), (oblkM (k0_off15 c 2#32) (k0_off15_inb c 2) : Memref sig .tc .vmem S512x256 .bf16).view.loc (nxt c : Thread nD τ) ↦[(oblkM (k0_off15 c 2#32) (k0_off15_inb c 2) : Memref sig .tc .vmem S512x256 .bf16).view.set]{fullShare} f)
      ∗ reached ER (dcell (nxt c) (csem cc0_scratch3 3 2 inb_S8x3_S1x1_3_2)) 0
      ∗ reached ER (dcell (nxt c) (csem cc0_scratch5 3 2 inb_S8x3_S1x1_3_2)) 0))
      ∗ (((∃ f : Buf (Elt F) ((slotM 4 1 inb_S8x4x512x256_S1x1x512x256_4_1_0_0 : Memref sig .tc .vmem S512x256 .bf16).view.loc (prv c : Thread nD τ)), (slotM 4 1 inb_S8x4x512x256_S1x1x512x256_4_1_0_0 : Memref sig .tc .vmem S512x256 .bf16).view.loc (prv c : Thread nD τ) ↦[(slotM 4 1 inb_S8x4x512x256_S1x1x512x256_4_1_0_0 : Memref sig .tc .vmem S512x256 .bf16).view.set]{fullShare} f)
      ∗ (∃ f : Buf (Elt F) ((oblkM (k0_off5 c 0#32) (k0_off5_inb c 0) : Memref sig .tc .vmem S512x256 .bf16).view.loc (prv c : Thread nD τ)), (oblkM (k0_off5 c 0#32) (k0_off5_inb c 0) : Memref sig .tc .vmem S512x256 .bf16).view.loc (prv c : Thread nD τ) ↦[(oblkM (k0_off5 c 0#32) (k0_off5_inb c 0) : Memref sig .tc .vmem S512x256 .bf16).view.set]{fullShare} f)
      ∗ reached ER (dcell (prv c) (csem cc0_scratch3 4 0 inb_S8x3_S1x1_4_0)) 0
      ∗ reached ER (dcell (prv c) (csem cc0_scratch5 4 0 inb_S8x3_S1x1_4_0)) 0)
      ∗ ((∃ f : Buf (Elt F) ((slotM 4 2 inb_S8x4x512x256_S1x1x512x256_4_2_0_0 : Memref sig .tc .vmem S512x256 .bf16).view.loc (prv c : Thread nD τ)), (slotM 4 2 inb_S8x4x512x256_S1x1x512x256_4_2_0_0 : Memref sig .tc .vmem S512x256 .bf16).view.loc (prv c : Thread nD τ) ↦[(slotM 4 2 inb_S8x4x512x256_S1x1x512x256_4_2_0_0 : Memref sig .tc .vmem S512x256 .bf16).view.set]{fullShare} f)
      ∗ (∃ f : Buf (Elt F) ((oblkM (k0_off5 c 4294967295#32) (k0_off5_inb c 1) : Memref sig .tc .vmem S512x256 .bf16).view.loc (prv c : Thread nD τ)), (oblkM (k0_off5 c 4294967295#32) (k0_off5_inb c 1) : Memref sig .tc .vmem S512x256 .bf16).view.loc (prv c : Thread nD τ) ↦[(oblkM (k0_off5 c 4294967295#32) (k0_off5_inb c 1) : Memref sig .tc .vmem S512x256 .bf16).view.set]{fullShare} f)
      ∗ reached ER (dcell (prv c) (csem cc0_scratch3 4 1 inb_S8x3_S1x1_4_1)) 0
      ∗ reached ER (dcell (prv c) (csem cc0_scratch5 4 1 inb_S8x3_S1x1_4_1)) 0)
      ∗ ((∃ f : Buf (Elt F) ((slotM 4 3 inb_S8x4x512x256_S1x1x512x256_4_3_0_0 : Memref sig .tc .vmem S512x256 .bf16).view.loc (prv c : Thread nD τ)), (slotM 4 3 inb_S8x4x512x256_S1x1x512x256_4_3_0_0 : Memref sig .tc .vmem S512x256 .bf16).view.loc (prv c : Thread nD τ) ↦[(slotM 4 3 inb_S8x4x512x256_S1x1x512x256_4_3_0_0 : Memref sig .tc .vmem S512x256 .bf16).view.set]{fullShare} f)
      ∗ (∃ f : Buf (Elt F) ((oblkM (k0_off5 c 4294967294#32) (k0_off5_inb c 2) : Memref sig .tc .vmem S512x256 .bf16).view.loc (prv c : Thread nD τ)), (oblkM (k0_off5 c 4294967294#32) (k0_off5_inb c 2) : Memref sig .tc .vmem S512x256 .bf16).view.loc (prv c : Thread nD τ) ↦[(oblkM (k0_off5 c 4294967294#32) (k0_off5_inb c 2) : Memref sig .tc .vmem S512x256 .bf16).view.set]{fullShare} f)
      ∗ reached ER (dcell (prv c) (csem cc0_scratch3 4 2 inb_S8x3_S1x1_4_2)) 0
      ∗ reached ER (dcell (prv c) (csem cc0_scratch5 4 2 inb_S8x3_S1x1_4_2)) 0)
      ∗ ((∃ f : Buf (Elt F) ((slotM 5 1 inb_S8x4x512x256_S1x1x512x256_5_1_0_0 : Memref sig .tc .vmem S512x256 .bf16).view.loc (prv c : Thread nD τ)), (slotM 5 1 inb_S8x4x512x256_S1x1x512x256_5_1_0_0 : Memref sig .tc .vmem S512x256 .bf16).view.loc (prv c : Thread nD τ) ↦[(slotM 5 1 inb_S8x4x512x256_S1x1x512x256_5_1_0_0 : Memref sig .tc .vmem S512x256 .bf16).view.set]{fullShare} f)
      ∗ (∃ f : Buf (Elt F) ((oblkM (k0_off9 c 0#32) (k0_off9_inb c 0) : Memref sig .tc .vmem S512x256 .bf16).view.loc (prv c : Thread nD τ)), (oblkM (k0_off9 c 0#32) (k0_off9_inb c 0) : Memref sig .tc .vmem S512x256 .bf16).view.loc (prv c : Thread nD τ) ↦[(oblkM (k0_off9 c 0#32) (k0_off9_inb c 0) : Memref sig .tc .vmem S512x256 .bf16).view.set]{fullShare} f)
      ∗ reached ER (dcell (prv c) (csem cc0_scratch3 5 0 inb_S8x3_S1x1_5_0)) 0
      ∗ reached ER (dcell (prv c) (csem cc0_scratch5 5 0 inb_S8x3_S1x1_5_0)) 0)
      ∗ ((∃ f : Buf (Elt F) ((slotM 5 2 inb_S8x4x512x256_S1x1x512x256_5_2_0_0 : Memref sig .tc .vmem S512x256 .bf16).view.loc (prv c : Thread nD τ)), (slotM 5 2 inb_S8x4x512x256_S1x1x512x256_5_2_0_0 : Memref sig .tc .vmem S512x256 .bf16).view.loc (prv c : Thread nD τ) ↦[(slotM 5 2 inb_S8x4x512x256_S1x1x512x256_5_2_0_0 : Memref sig .tc .vmem S512x256 .bf16).view.set]{fullShare} f)
      ∗ (∃ f : Buf (Elt F) ((oblkM (k0_off9 c 4294967295#32) (k0_off9_inb c 1) : Memref sig .tc .vmem S512x256 .bf16).view.loc (prv c : Thread nD τ)), (oblkM (k0_off9 c 4294967295#32) (k0_off9_inb c 1) : Memref sig .tc .vmem S512x256 .bf16).view.loc (prv c : Thread nD τ) ↦[(oblkM (k0_off9 c 4294967295#32) (k0_off9_inb c 1) : Memref sig .tc .vmem S512x256 .bf16).view.set]{fullShare} f)
      ∗ reached ER (dcell (prv c) (csem cc0_scratch3 5 1 inb_S8x3_S1x1_5_1)) 0
      ∗ reached ER (dcell (prv c) (csem cc0_scratch5 5 1 inb_S8x3_S1x1_5_1)) 0)
      ∗ ((∃ f : Buf (Elt F) ((slotM 5 3 inb_S8x4x512x256_S1x1x512x256_5_3_0_0 : Memref sig .tc .vmem S512x256 .bf16).view.loc (prv c : Thread nD τ)), (slotM 5 3 inb_S8x4x512x256_S1x1x512x256_5_3_0_0 : Memref sig .tc .vmem S512x256 .bf16).view.loc (prv c : Thread nD τ) ↦[(slotM 5 3 inb_S8x4x512x256_S1x1x512x256_5_3_0_0 : Memref sig .tc .vmem S512x256 .bf16).view.set]{fullShare} f)
      ∗ (∃ f : Buf (Elt F) ((oblkM (k0_off9 c 4294967294#32) (k0_off9_inb c 2) : Memref sig .tc .vmem S512x256 .bf16).view.loc (prv c : Thread nD τ)), (oblkM (k0_off9 c 4294967294#32) (k0_off9_inb c 2) : Memref sig .tc .vmem S512x256 .bf16).view.loc (prv c : Thread nD τ) ↦[(oblkM (k0_off9 c 4294967294#32) (k0_off9_inb c 2) : Memref sig .tc .vmem S512x256 .bf16).view.set]{fullShare} f)
      ∗ reached ER (dcell (prv c) (csem cc0_scratch3 5 2 inb_S8x3_S1x1_5_2)) 0
      ∗ reached ER (dcell (prv c) (csem cc0_scratch5 5 2 inb_S8x3_S1x1_5_2)) 0)
      ∗ ((∃ f : Buf (Elt F) ((slotM 6 1 inb_S8x4x512x256_S1x1x512x256_6_1_0_0 : Memref sig .tc .vmem S512x256 .bf16).view.loc (prv c : Thread nD τ)), (slotM 6 1 inb_S8x4x512x256_S1x1x512x256_6_1_0_0 : Memref sig .tc .vmem S512x256 .bf16).view.loc (prv c : Thread nD τ) ↦[(slotM 6 1 inb_S8x4x512x256_S1x1x512x256_6_1_0_0 : Memref sig .tc .vmem S512x256 .bf16).view.set]{fullShare} f)
      ∗ (∃ f : Buf (Elt F) ((oblkM (k0_off13 c 0#32) (k0_off13_inb c 0) : Memref sig .tc .vmem S512x256 .bf16).view.loc (prv c : Thread nD τ)), (oblkM (k0_off13 c 0#32) (k0_off13_inb c 0) : Memref sig .tc .vmem S512x256 .bf16).view.loc (prv c : Thread nD τ) ↦[(oblkM (k0_off13 c 0#32) (k0_off13_inb c 0) : Memref sig .tc .vmem S512x256 .bf16).view.set]{fullShare} f)
      ∗ reached ER (dcell (prv c) (csem cc0_scratch3 6 0 inb_S8x3_S1x1_6_0)) 0
      ∗ reached ER (dcell (prv c) (csem cc0_scratch5 6 0 inb_S8x3_S1x1_6_0)) 0)
      ∗ ((∃ f : Buf (Elt F) ((slotM 6 2 inb_S8x4x512x256_S1x1x512x256_6_2_0_0 : Memref sig .tc .vmem S512x256 .bf16).view.loc (prv c : Thread nD τ)), (slotM 6 2 inb_S8x4x512x256_S1x1x512x256_6_2_0_0 : Memref sig .tc .vmem S512x256 .bf16).view.loc (prv c : Thread nD τ) ↦[(slotM 6 2 inb_S8x4x512x256_S1x1x512x256_6_2_0_0 : Memref sig .tc .vmem S512x256 .bf16).view.set]{fullShare} f)
      ∗ (∃ f : Buf (Elt F) ((oblkM (k0_off13 c 4294967295#32) (k0_off13_inb c 1) : Memref sig .tc .vmem S512x256 .bf16).view.loc (prv c : Thread nD τ)), (oblkM (k0_off13 c 4294967295#32) (k0_off13_inb c 1) : Memref sig .tc .vmem S512x256 .bf16).view.loc (prv c : Thread nD τ) ↦[(oblkM (k0_off13 c 4294967295#32) (k0_off13_inb c 1) : Memref sig .tc .vmem S512x256 .bf16).view.set]{fullShare} f)
      ∗ reached ER (dcell (prv c) (csem cc0_scratch3 6 1 inb_S8x3_S1x1_6_1)) 0
      ∗ reached ER (dcell (prv c) (csem cc0_scratch5 6 1 inb_S8x3_S1x1_6_1)) 0)
      ∗ ((∃ f : Buf (Elt F) ((slotM 6 3 inb_S8x4x512x256_S1x1x512x256_6_3_0_0 : Memref sig .tc .vmem S512x256 .bf16).view.loc (prv c : Thread nD τ)), (slotM 6 3 inb_S8x4x512x256_S1x1x512x256_6_3_0_0 : Memref sig .tc .vmem S512x256 .bf16).view.loc (prv c : Thread nD τ) ↦[(slotM 6 3 inb_S8x4x512x256_S1x1x512x256_6_3_0_0 : Memref sig .tc .vmem S512x256 .bf16).view.set]{fullShare} f)
      ∗ (∃ f : Buf (Elt F) ((oblkM (k0_off13 c 4294967294#32) (k0_off13_inb c 2) : Memref sig .tc .vmem S512x256 .bf16).view.loc (prv c : Thread nD τ)), (oblkM (k0_off13 c 4294967294#32) (k0_off13_inb c 2) : Memref sig .tc .vmem S512x256 .bf16).view.loc (prv c : Thread nD τ) ↦[(oblkM (k0_off13 c 4294967294#32) (k0_off13_inb c 2) : Memref sig .tc .vmem S512x256 .bf16).view.set]{fullShare} f)
      ∗ reached ER (dcell (prv c) (csem cc0_scratch3 6 2 inb_S8x3_S1x1_6_2)) 0
      ∗ reached ER (dcell (prv c) (csem cc0_scratch5 6 2 inb_S8x3_S1x1_6_2)) 0)
      ∗ ((∃ f : Buf (Elt F) ((slotM 7 1 inb_S8x4x512x256_S1x1x512x256_7_1_0_0 : Memref sig .tc .vmem S512x256 .bf16).view.loc (prv c : Thread nD τ)), (slotM 7 1 inb_S8x4x512x256_S1x1x512x256_7_1_0_0 : Memref sig .tc .vmem S512x256 .bf16).view.loc (prv c : Thread nD τ) ↦[(slotM 7 1 inb_S8x4x512x256_S1x1x512x256_7_1_0_0 : Memref sig .tc .vmem S512x256 .bf16).view.set]{fullShare} f)
      ∗ (∃ f : Buf (Elt F) ((oblkM (k0_off17 c 0#32) (k0_off17_inb c 0) : Memref sig .tc .vmem S512x256 .bf16).view.loc (prv c : Thread nD τ)), (oblkM (k0_off17 c 0#32) (k0_off17_inb c 0) : Memref sig .tc .vmem S512x256 .bf16).view.loc (prv c : Thread nD τ) ↦[(oblkM (k0_off17 c 0#32) (k0_off17_inb c 0) : Memref sig .tc .vmem S512x256 .bf16).view.set]{fullShare} f)
      ∗ reached ER (dcell (prv c) (csem cc0_scratch3 7 0 inb_S8x3_S1x1_7_0)) 0
      ∗ reached ER (dcell (prv c) (csem cc0_scratch5 7 0 inb_S8x3_S1x1_7_0)) 0)
      ∗ ((∃ f : Buf (Elt F) ((slotM 7 2 inb_S8x4x512x256_S1x1x512x256_7_2_0_0 : Memref sig .tc .vmem S512x256 .bf16).view.loc (prv c : Thread nD τ)), (slotM 7 2 inb_S8x4x512x256_S1x1x512x256_7_2_0_0 : Memref sig .tc .vmem S512x256 .bf16).view.loc (prv c : Thread nD τ) ↦[(slotM 7 2 inb_S8x4x512x256_S1x1x512x256_7_2_0_0 : Memref sig .tc .vmem S512x256 .bf16).view.set]{fullShare} f)
      ∗ (∃ f : Buf (Elt F) ((oblkM (k0_off17 c 4294967295#32) (k0_off17_inb c 1) : Memref sig .tc .vmem S512x256 .bf16).view.loc (prv c : Thread nD τ)), (oblkM (k0_off17 c 4294967295#32) (k0_off17_inb c 1) : Memref sig .tc .vmem S512x256 .bf16).view.loc (prv c : Thread nD τ) ↦[(oblkM (k0_off17 c 4294967295#32) (k0_off17_inb c 1) : Memref sig .tc .vmem S512x256 .bf16).view.set]{fullShare} f)
      ∗ reached ER (dcell (prv c) (csem cc0_scratch3 7 1 inb_S8x3_S1x1_7_1)) 0
      ∗ reached ER (dcell (prv c) (csem cc0_scratch5 7 1 inb_S8x3_S1x1_7_1)) 0)
      ∗ ((∃ f : Buf (Elt F) ((slotM 7 3 inb_S8x4x512x256_S1x1x512x256_7_3_0_0 : Memref sig .tc .vmem S512x256 .bf16).view.loc (prv c : Thread nD τ)), (slotM 7 3 inb_S8x4x512x256_S1x1x512x256_7_3_0_0 : Memref sig .tc .vmem S512x256 .bf16).view.loc (prv c : Thread nD τ) ↦[(slotM 7 3 inb_S8x4x512x256_S1x1x512x256_7_3_0_0 : Memref sig .tc .vmem S512x256 .bf16).view.set]{fullShare} f)
      ∗ (∃ f : Buf (Elt F) ((oblkM (k0_off17 c 4294967294#32) (k0_off17_inb c 2) : Memref sig .tc .vmem S512x256 .bf16).view.loc (prv c : Thread nD τ)), (oblkM (k0_off17 c 4294967294#32) (k0_off17_inb c 2) : Memref sig .tc .vmem S512x256 .bf16).view.loc (prv c : Thread nD τ) ↦[(oblkM (k0_off17 c 4294967294#32) (k0_off17_inb c 2) : Memref sig .tc .vmem S512x256 .bf16).view.set]{fullShare} f)
      ∗ reached ER (dcell (prv c) (csem cc0_scratch3 7 2 inb_S8x3_S1x1_7_2)) 0
      ∗ reached ER (dcell (prv c) (csem cc0_scratch5 7 2 inb_S8x3_S1x1_7_2)) 0))) : sProp 𝕄) := by
  rw [rest_bar fa fb c, barPay_true_lit c, barPay_false_lit c]

/-- The unit this device pays into its neighbour's barrier cell, in this device's terms. -/
theorem payload_bar_prv_true_lit :
    (ringRd fa fb).payload (barCell (prv c)) 0 true =
      (iprop(((∃ f : Buf (Elt F) ((slotM 0 1 inb_S8x4x512x256_S1x1x512x256_0_1_0_0 : Memref sig .tc .vmem S512x256 .bf16).view.loc (c : Thread nD τ)), (slotM 0 1 inb_S8x4x512x256_S1x1x512x256_0_1_0_0 : Memref sig .tc .vmem S512x256 .bf16).view.loc (c : Thread nD τ) ↦[(slotM 0 1 inb_S8x4x512x256_S1x1x512x256_0_1_0_0 : Memref sig .tc .vmem S512x256 .bf16).view.set]{fullShare} f)
      ∗ (∃ f : Buf (Elt F) ((oblkM (rowOff c 3 0) (rowOff_inb c 3 0 (by decide)) : Memref sig .tc .vmem S512x256 .bf16).view.loc (c : Thread nD τ)), (oblkM (rowOff c 3 0) (rowOff_inb c 3 0 (by decide)) : Memref sig .tc .vmem S512x256 .bf16).view.loc (c : Thread nD τ) ↦[(oblkM (rowOff c 3 0) (rowOff_inb c 3 0 (by decide)) : Memref sig .tc .vmem S512x256 .bf16).view.set]{fullShare} f)
      ∗ reached ER (dcell (c) (csem cc0_scratch3 0 0 inb_S8x3_S1x1_0_0)) 0
      ∗ reached ER (dcell (c) (csem cc0_scratch5 0 0 inb_S8x3_S1x1_0_0)) 0)
      ∗ ((∃ f : Buf (Elt F) ((slotM 0 2 inb_S8x4x512x256_S1x1x512x256_0_2_0_0 : Memref sig .tc .vmem S512x256 .bf16).view.loc (c : Thread nD τ)), (slotM 0 2 inb_S8x4x512x256_S1x1x512x256_0_2_0_0 : Memref sig .tc .vmem S512x256 .bf16).view.loc (c : Thread nD τ) ↦[(slotM 0 2 inb_S8x4x512x256_S1x1x512x256_0_2_0_0 : Memref sig .tc .vmem S512x256 .bf16).view.set]{fullShare} f)
      ∗ (∃ f : Buf (Elt F) ((oblkM (rowOff c 2 0) (rowOff_inb c 2 0 (by decide)) : Memref sig .tc .vmem S512x256 .bf16).view.loc (c : Thread nD τ)), (oblkM (rowOff c 2 0) (rowOff_inb c 2 0 (by decide)) : Memref sig .tc .vmem S512x256 .bf16).view.loc (c : Thread nD τ) ↦[(oblkM (rowOff c 2 0) (rowOff_inb c 2 0 (by decide)) : Memref sig .tc .vmem S512x256 .bf16).view.set]{fullShare} f)
      ∗ reached ER (dcell (c) (csem cc0_scratch3 0 1 inb_S8x3_S1x1_0_1)) 0
      ∗ reached ER (dcell (c) (csem cc0_scratch5 0 1 inb_S8x3_S1x1_0_1)) 0)
      ∗ ((∃ f : Buf (Elt F) ((slotM 0 3 inb_S8x4x512x256_S1x1x512x256_0_3_0_0 : Memref sig .tc .vmem S512x256 .bf16).view.loc (c : Thread nD τ)), (slotM 0 3 inb_S8x4x512x256_S1x1x512x256_0_3_0_0 : Memref sig .tc .vmem S512x256 .bf16).view.loc (c : Thread nD τ) ↦[(slotM 0 3 inb_S8x4x512x256_S1x1x512x256_0_3_0_0 : Memref sig .tc .vmem S512x256 .bf16).view.set]{fullShare} f)
      ∗ (∃ f : Buf (Elt F) ((oblkM (rowOff c 1 0) (rowOff_inb c 1 0 (by decide)) : Memref sig .tc .vmem S512x256 .bf16).view.loc (c : Thread nD τ)), (oblkM (rowOff c 1 0) (rowOff_inb c 1 0 (by decide)) : Memref sig .tc .vmem S512x256 .bf16).view.loc (c : Thread nD τ) ↦[(oblkM (rowOff c 1 0) (rowOff_inb c 1 0 (by decide)) : Memref sig .tc .vmem S512x256 .bf16).view.set]{fullShare} f)
      ∗ reached ER (dcell (c) (csem cc0_scratch3 0 2 inb_S8x3_S1x1_0_2)) 0
      ∗ reached ER (dcell (c) (csem cc0_scratch5 0 2 inb_S8x3_S1x1_0_2)) 0)
      ∗ ((∃ f : Buf (Elt F) ((slotM 1 1 inb_S8x4x512x256_S1x1x512x256_1_1_0_0 : Memref sig .tc .vmem S512x256 .bf16).view.loc (c : Thread nD τ)), (slotM 1 1 inb_S8x4x512x256_S1x1x512x256_1_1_0_0 : Memref sig .tc .vmem S512x256 .bf16).view.loc (c : Thread nD τ) ↦[(slotM 1 1 inb_S8x4x512x256_S1x1x512x256_1_1_0_0 : Memref sig .tc .vmem S512x256 .bf16).view.set]{fullShare} f)
      ∗ (∃ f : Buf (Elt F) ((oblkM (rowOff c 3 1) (rowOff_inb c 3 1 (by decide)) : Memref sig .tc .vmem S512x256 .bf16).view.loc (c : Thread nD τ)), (oblkM (rowOff c 3 1) (rowOff_inb c 3 1 (by decide)) : Memref sig .tc .vmem S512x256 .bf16).view.loc (c : Thread nD τ) ↦[(oblkM (rowOff c 3 1) (rowOff_inb c 3 1 (by decide)) : Memref sig .tc .vmem S512x256 .bf16).view.set]{fullShare} f)
      ∗ reached ER (dcell (c) (csem cc0_scratch3 1 0 inb_S8x3_S1x1_1_0)) 0
      ∗ reached ER (dcell (c) (csem cc0_scratch5 1 0 inb_S8x3_S1x1_1_0)) 0)
      ∗ ((∃ f : Buf (Elt F) ((slotM 1 2 inb_S8x4x512x256_S1x1x512x256_1_2_0_0 : Memref sig .tc .vmem S512x256 .bf16).view.loc (c : Thread nD τ)), (slotM 1 2 inb_S8x4x512x256_S1x1x512x256_1_2_0_0 : Memref sig .tc .vmem S512x256 .bf16).view.loc (c : Thread nD τ) ↦[(slotM 1 2 inb_S8x4x512x256_S1x1x512x256_1_2_0_0 : Memref sig .tc .vmem S512x256 .bf16).view.set]{fullShare} f)
      ∗ (∃ f : Buf (Elt F) ((oblkM (rowOff c 2 1) (rowOff_inb c 2 1 (by decide)) : Memref sig .tc .vmem S512x256 .bf16).view.loc (c : Thread nD τ)), (oblkM (rowOff c 2 1) (rowOff_inb c 2 1 (by decide)) : Memref sig .tc .vmem S512x256 .bf16).view.loc (c : Thread nD τ) ↦[(oblkM (rowOff c 2 1) (rowOff_inb c 2 1 (by decide)) : Memref sig .tc .vmem S512x256 .bf16).view.set]{fullShare} f)
      ∗ reached ER (dcell (c) (csem cc0_scratch3 1 1 inb_S8x3_S1x1_1_1)) 0
      ∗ reached ER (dcell (c) (csem cc0_scratch5 1 1 inb_S8x3_S1x1_1_1)) 0)
      ∗ ((∃ f : Buf (Elt F) ((slotM 1 3 inb_S8x4x512x256_S1x1x512x256_1_3_0_0 : Memref sig .tc .vmem S512x256 .bf16).view.loc (c : Thread nD τ)), (slotM 1 3 inb_S8x4x512x256_S1x1x512x256_1_3_0_0 : Memref sig .tc .vmem S512x256 .bf16).view.loc (c : Thread nD τ) ↦[(slotM 1 3 inb_S8x4x512x256_S1x1x512x256_1_3_0_0 : Memref sig .tc .vmem S512x256 .bf16).view.set]{fullShare} f)
      ∗ (∃ f : Buf (Elt F) ((oblkM (rowOff c 1 1) (rowOff_inb c 1 1 (by decide)) : Memref sig .tc .vmem S512x256 .bf16).view.loc (c : Thread nD τ)), (oblkM (rowOff c 1 1) (rowOff_inb c 1 1 (by decide)) : Memref sig .tc .vmem S512x256 .bf16).view.loc (c : Thread nD τ) ↦[(oblkM (rowOff c 1 1) (rowOff_inb c 1 1 (by decide)) : Memref sig .tc .vmem S512x256 .bf16).view.set]{fullShare} f)
      ∗ reached ER (dcell (c) (csem cc0_scratch3 1 2 inb_S8x3_S1x1_1_2)) 0
      ∗ reached ER (dcell (c) (csem cc0_scratch5 1 2 inb_S8x3_S1x1_1_2)) 0)
      ∗ ((∃ f : Buf (Elt F) ((slotM 2 1 inb_S8x4x512x256_S1x1x512x256_2_1_0_0 : Memref sig .tc .vmem S512x256 .bf16).view.loc (c : Thread nD τ)), (slotM 2 1 inb_S8x4x512x256_S1x1x512x256_2_1_0_0 : Memref sig .tc .vmem S512x256 .bf16).view.loc (c : Thread nD τ) ↦[(slotM 2 1 inb_S8x4x512x256_S1x1x512x256_2_1_0_0 : Memref sig .tc .vmem S512x256 .bf16).view.set]{fullShare} f)
      ∗ (∃ f : Buf (Elt F) ((oblkM (rowOff c 3 2) (rowOff_inb c 3 2 (by decide)) : Memref sig .tc .vmem S512x256 .bf16).view.loc (c : Thread nD τ)), (oblkM (rowOff c 3 2) (rowOff_inb c 3 2 (by decide)) : Memref sig .tc .vmem S512x256 .bf16).view.loc (c : Thread nD τ) ↦[(oblkM (rowOff c 3 2) (rowOff_inb c 3 2 (by decide)) : Memref sig .tc .vmem S512x256 .bf16).view.set]{fullShare} f)
      ∗ reached ER (dcell (c) (csem cc0_scratch3 2 0 inb_S8x3_S1x1_2_0)) 0
      ∗ reached ER (dcell (c) (csem cc0_scratch5 2 0 inb_S8x3_S1x1_2_0)) 0)
      ∗ ((∃ f : Buf (Elt F) ((slotM 2 2 inb_S8x4x512x256_S1x1x512x256_2_2_0_0 : Memref sig .tc .vmem S512x256 .bf16).view.loc (c : Thread nD τ)), (slotM 2 2 inb_S8x4x512x256_S1x1x512x256_2_2_0_0 : Memref sig .tc .vmem S512x256 .bf16).view.loc (c : Thread nD τ) ↦[(slotM 2 2 inb_S8x4x512x256_S1x1x512x256_2_2_0_0 : Memref sig .tc .vmem S512x256 .bf16).view.set]{fullShare} f)
      ∗ (∃ f : Buf (Elt F) ((oblkM (rowOff c 2 2) (rowOff_inb c 2 2 (by decide)) : Memref sig .tc .vmem S512x256 .bf16).view.loc (c : Thread nD τ)), (oblkM (rowOff c 2 2) (rowOff_inb c 2 2 (by decide)) : Memref sig .tc .vmem S512x256 .bf16).view.loc (c : Thread nD τ) ↦[(oblkM (rowOff c 2 2) (rowOff_inb c 2 2 (by decide)) : Memref sig .tc .vmem S512x256 .bf16).view.set]{fullShare} f)
      ∗ reached ER (dcell (c) (csem cc0_scratch3 2 1 inb_S8x3_S1x1_2_1)) 0
      ∗ reached ER (dcell (c) (csem cc0_scratch5 2 1 inb_S8x3_S1x1_2_1)) 0)
      ∗ ((∃ f : Buf (Elt F) ((slotM 2 3 inb_S8x4x512x256_S1x1x512x256_2_3_0_0 : Memref sig .tc .vmem S512x256 .bf16).view.loc (c : Thread nD τ)), (slotM 2 3 inb_S8x4x512x256_S1x1x512x256_2_3_0_0 : Memref sig .tc .vmem S512x256 .bf16).view.loc (c : Thread nD τ) ↦[(slotM 2 3 inb_S8x4x512x256_S1x1x512x256_2_3_0_0 : Memref sig .tc .vmem S512x256 .bf16).view.set]{fullShare} f)
      ∗ (∃ f : Buf (Elt F) ((oblkM (rowOff c 1 2) (rowOff_inb c 1 2 (by decide)) : Memref sig .tc .vmem S512x256 .bf16).view.loc (c : Thread nD τ)), (oblkM (rowOff c 1 2) (rowOff_inb c 1 2 (by decide)) : Memref sig .tc .vmem S512x256 .bf16).view.loc (c : Thread nD τ) ↦[(oblkM (rowOff c 1 2) (rowOff_inb c 1 2 (by decide)) : Memref sig .tc .vmem S512x256 .bf16).view.set]{fullShare} f)
      ∗ reached ER (dcell (c) (csem cc0_scratch3 2 2 inb_S8x3_S1x1_2_2)) 0
      ∗ reached ER (dcell (c) (csem cc0_scratch5 2 2 inb_S8x3_S1x1_2_2)) 0)
      ∗ ((∃ f : Buf (Elt F) ((slotM 3 1 inb_S8x4x512x256_S1x1x512x256_3_1_0_0 : Memref sig .tc .vmem S512x256 .bf16).view.loc (c : Thread nD τ)), (slotM 3 1 inb_S8x4x512x256_S1x1x512x256_3_1_0_0 : Memref sig .tc .vmem S512x256 .bf16).view.loc (c : Thread nD τ) ↦[(slotM 3 1 inb_S8x4x512x256_S1x1x512x256_3_1_0_0 : Memref sig .tc .vmem S512x256 .bf16).view.set]{fullShare} f)
      ∗ (∃ f : Buf (Elt F) ((oblkM (rowOff c 3 3) (rowOff_inb c 3 3 (by decide)) : Memref sig .tc .vmem S512x256 .bf16).view.loc (c : Thread nD τ)), (oblkM (rowOff c 3 3) (rowOff_inb c 3 3 (by decide)) : Memref sig .tc .vmem S512x256 .bf16).view.loc (c : Thread nD τ) ↦[(oblkM (rowOff c 3 3) (rowOff_inb c 3 3 (by decide)) : Memref sig .tc .vmem S512x256 .bf16).view.set]{fullShare} f)
      ∗ reached ER (dcell (c) (csem cc0_scratch3 3 0 inb_S8x3_S1x1_3_0)) 0
      ∗ reached ER (dcell (c) (csem cc0_scratch5 3 0 inb_S8x3_S1x1_3_0)) 0)
      ∗ ((∃ f : Buf (Elt F) ((slotM 3 2 inb_S8x4x512x256_S1x1x512x256_3_2_0_0 : Memref sig .tc .vmem S512x256 .bf16).view.loc (c : Thread nD τ)), (slotM 3 2 inb_S8x4x512x256_S1x1x512x256_3_2_0_0 : Memref sig .tc .vmem S512x256 .bf16).view.loc (c : Thread nD τ) ↦[(slotM 3 2 inb_S8x4x512x256_S1x1x512x256_3_2_0_0 : Memref sig .tc .vmem S512x256 .bf16).view.set]{fullShare} f)
      ∗ (∃ f : Buf (Elt F) ((oblkM (rowOff c 2 3) (rowOff_inb c 2 3 (by decide)) : Memref sig .tc .vmem S512x256 .bf16).view.loc (c : Thread nD τ)), (oblkM (rowOff c 2 3) (rowOff_inb c 2 3 (by decide)) : Memref sig .tc .vmem S512x256 .bf16).view.loc (c : Thread nD τ) ↦[(oblkM (rowOff c 2 3) (rowOff_inb c 2 3 (by decide)) : Memref sig .tc .vmem S512x256 .bf16).view.set]{fullShare} f)
      ∗ reached ER (dcell (c) (csem cc0_scratch3 3 1 inb_S8x3_S1x1_3_1)) 0
      ∗ reached ER (dcell (c) (csem cc0_scratch5 3 1 inb_S8x3_S1x1_3_1)) 0)
      ∗ ((∃ f : Buf (Elt F) ((slotM 3 3 inb_S8x4x512x256_S1x1x512x256_3_3_0_0 : Memref sig .tc .vmem S512x256 .bf16).view.loc (c : Thread nD τ)), (slotM 3 3 inb_S8x4x512x256_S1x1x512x256_3_3_0_0 : Memref sig .tc .vmem S512x256 .bf16).view.loc (c : Thread nD τ) ↦[(slotM 3 3 inb_S8x4x512x256_S1x1x512x256_3_3_0_0 : Memref sig .tc .vmem S512x256 .bf16).view.set]{fullShare} f)
      ∗ (∃ f : Buf (Elt F) ((oblkM (rowOff c 1 3) (rowOff_inb c 1 3 (by decide)) : Memref sig .tc .vmem S512x256 .bf16).view.loc (c : Thread nD τ)), (oblkM (rowOff c 1 3) (rowOff_inb c 1 3 (by decide)) : Memref sig .tc .vmem S512x256 .bf16).view.loc (c : Thread nD τ) ↦[(oblkM (rowOff c 1 3) (rowOff_inb c 1 3 (by decide)) : Memref sig .tc .vmem S512x256 .bf16).view.set]{fullShare} f)
      ∗ reached ER (dcell (c) (csem cc0_scratch3 3 2 inb_S8x3_S1x1_3_2)) 0
      ∗ reached ER (dcell (c) (csem cc0_scratch5 3 2 inb_S8x3_S1x1_3_2)) 0)) : sProp 𝕄) := by
  rw [payload_bar]
  unfold barPay
  rw [bigSep_univ_eq_bigSepL ([(0, 0), (0, 1), (0, 2), (1, 0), (1, 1), (1, 2), (2, 0), (2, 1), (2, 2), (3, 0), (3, 1), (3, 2)] : List (Fin 4 × Fin 3)) (by decide) (by decide)]
  exact
    (sep_congr (barLeaf_congr _ (c) (nxt_prv c) _ 0 (by rfl) _ 0 (by rfl) _ (rowOff c 3 0) (rowOff_prv_pay c 0 0 (by decide) (by decide)) _ _ _ _ _ _ _ _)
    (sep_congr (barLeaf_congr _ (c) (nxt_prv c) _ 0 (by rfl) _ 1 (by rfl) _ (rowOff c 2 0) (rowOff_prv_pay c 0 1 (by decide) (by decide)) _ _ _ _ _ _ _ _)
    (sep_congr (barLeaf_congr _ (c) (nxt_prv c) _ 0 (by rfl) _ 2 (by rfl) _ (rowOff c 1 0) (rowOff_prv_pay c 0 2 (by decide) (by decide)) _ _ _ _ _ _ _ _)
    (sep_congr (barLeaf_congr _ (c) (nxt_prv c) _ 1 (by rfl) _ 0 (by rfl) _ (rowOff c 3 1) (rowOff_prv_pay c 1 0 (by decide) (by decide)) _ _ _ _ _ _ _ _)
    (sep_congr (barLeaf_congr _ (c) (nxt_prv c) _ 1 (by rfl) _ 1 (by rfl) _ (rowOff c 2 1) (rowOff_prv_pay c 1 1 (by decide) (by decide)) _ _ _ _ _ _ _ _)
    (sep_congr (barLeaf_congr _ (c) (nxt_prv c) _ 1 (by rfl) _ 2 (by rfl) _ (rowOff c 1 1) (rowOff_prv_pay c 1 2 (by decide) (by decide)) _ _ _ _ _ _ _ _)
    (sep_congr (barLeaf_congr _ (c) (nxt_prv c) _ 2 (by rfl) _ 0 (by rfl) _ (rowOff c 3 2) (rowOff_prv_pay c 2 0 (by decide) (by decide)) _ _ _ _ _ _ _ _)
    (sep_congr (barLeaf_congr _ (c) (nxt_prv c) _ 2 (by rfl) _ 1 (by rfl) _ (rowOff c 2 2) (rowOff_prv_pay c 2 1 (by decide) (by decide)) _ _ _ _ _ _ _ _)
    (sep_congr (barLeaf_congr _ (c) (nxt_prv c) _ 2 (by rfl) _ 2 (by rfl) _ (rowOff c 1 2) (rowOff_prv_pay c 2 2 (by decide) (by decide)) _ _ _ _ _ _ _ _)
    (sep_congr (barLeaf_congr _ (c) (nxt_prv c) _ 3 (by rfl) _ 0 (by rfl) _ (rowOff c 3 3) (rowOff_prv_pay c 3 0 (by decide) (by decide)) _ _ _ _ _ _ _ _)
    (sep_congr (barLeaf_congr _ (c) (nxt_prv c) _ 3 (by rfl) _ 1 (by rfl) _ (rowOff c 2 3) (rowOff_prv_pay c 3 1 (by decide) (by decide)) _ _ _ _ _ _ _ _)
    (barLeaf_congr _ (c) (nxt_prv c) _ 3 (by rfl) _ 2 (by rfl) _ (rowOff c 1 3) (rowOff_prv_pay c 3 2 (by decide) (by decide)) _ _ _ _ _ _ _ _))))))))))))

/-- The unit this device pays into its neighbour's barrier cell, in this device's terms. -/
theorem payload_bar_nxt_false_lit :
    (ringRd fa fb).payload (barCell (nxt c)) 0 false =
      (iprop(((∃ f : Buf (Elt F) ((slotM 4 1 inb_S8x4x512x256_S1x1x512x256_4_1_0_0 : Memref sig .tc .vmem S512x256 .bf16).view.loc (c : Thread nD τ)), (slotM 4 1 inb_S8x4x512x256_S1x1x512x256_4_1_0_0 : Memref sig .tc .vmem S512x256 .bf16).view.loc (c : Thread nD τ) ↦[(slotM 4 1 inb_S8x4x512x256_S1x1x512x256_4_1_0_0 : Memref sig .tc .vmem S512x256 .bf16).view.set]{fullShare} f)
      ∗ (∃ f : Buf (Elt F) ((oblkM (rowOff c 1 4) (rowOff_inb c 1 4 (by decide)) : Memref sig .tc .vmem S512x256 .bf16).view.loc (c : Thread nD τ)), (oblkM (rowOff c 1 4) (rowOff_inb c 1 4 (by decide)) : Memref sig .tc .vmem S512x256 .bf16).view.loc (c : Thread nD τ) ↦[(oblkM (rowOff c 1 4) (rowOff_inb c 1 4 (by decide)) : Memref sig .tc .vmem S512x256 .bf16).view.set]{fullShare} f)
      ∗ reached ER (dcell (c) (csem cc0_scratch3 4 0 inb_S8x3_S1x1_4_0)) 0
      ∗ reached ER (dcell (c) (csem cc0_scratch5 4 0 inb_S8x3_S1x1_4_0)) 0)
      ∗ ((∃ f : Buf (Elt F) ((slotM 4 2 inb_S8x4x512x256_S1x1x512x256_4_2_0_0 : Memref sig .tc .vmem S512x256 .bf16).view.loc (c : Thread nD τ)), (slotM 4 2 inb_S8x4x512x256_S1x1x512x256_4_2_0_0 : Memref sig .tc .vmem S512x256 .bf16).view.loc (c : Thread nD τ) ↦[(slotM 4 2 inb_S8x4x512x256_S1x1x512x256_4_2_0_0 : Memref sig .tc .vmem S512x256 .bf16).view.set]{fullShare} f)
      ∗ (∃ f : Buf (Elt F) ((oblkM (rowOff c 2 4) (rowOff_inb c 2 4 (by decide)) : Memref sig .tc .vmem S512x256 .bf16).view.loc (c : Thread nD τ)), (oblkM (rowOff c 2 4) (rowOff_inb c 2 4 (by decide)) : Memref sig .tc .vmem S512x256 .bf16).view.loc (c : Thread nD τ) ↦[(oblkM (rowOff c 2 4) (rowOff_inb c 2 4 (by decide)) : Memref sig .tc .vmem S512x256 .bf16).view.set]{fullShare} f)
      ∗ reached ER (dcell (c) (csem cc0_scratch3 4 1 inb_S8x3_S1x1_4_1)) 0
      ∗ reached ER (dcell (c) (csem cc0_scratch5 4 1 inb_S8x3_S1x1_4_1)) 0)
      ∗ ((∃ f : Buf (Elt F) ((slotM 4 3 inb_S8x4x512x256_S1x1x512x256_4_3_0_0 : Memref sig .tc .vmem S512x256 .bf16).view.loc (c : Thread nD τ)), (slotM 4 3 inb_S8x4x512x256_S1x1x512x256_4_3_0_0 : Memref sig .tc .vmem S512x256 .bf16).view.loc (c : Thread nD τ) ↦[(slotM 4 3 inb_S8x4x512x256_S1x1x512x256_4_3_0_0 : Memref sig .tc .vmem S512x256 .bf16).view.set]{fullShare} f)
      ∗ (∃ f : Buf (Elt F) ((oblkM (rowOff c 3 4) (rowOff_inb c 3 4 (by decide)) : Memref sig .tc .vmem S512x256 .bf16).view.loc (c : Thread nD τ)), (oblkM (rowOff c 3 4) (rowOff_inb c 3 4 (by decide)) : Memref sig .tc .vmem S512x256 .bf16).view.loc (c : Thread nD τ) ↦[(oblkM (rowOff c 3 4) (rowOff_inb c 3 4 (by decide)) : Memref sig .tc .vmem S512x256 .bf16).view.set]{fullShare} f)
      ∗ reached ER (dcell (c) (csem cc0_scratch3 4 2 inb_S8x3_S1x1_4_2)) 0
      ∗ reached ER (dcell (c) (csem cc0_scratch5 4 2 inb_S8x3_S1x1_4_2)) 0)
      ∗ ((∃ f : Buf (Elt F) ((slotM 5 1 inb_S8x4x512x256_S1x1x512x256_5_1_0_0 : Memref sig .tc .vmem S512x256 .bf16).view.loc (c : Thread nD τ)), (slotM 5 1 inb_S8x4x512x256_S1x1x512x256_5_1_0_0 : Memref sig .tc .vmem S512x256 .bf16).view.loc (c : Thread nD τ) ↦[(slotM 5 1 inb_S8x4x512x256_S1x1x512x256_5_1_0_0 : Memref sig .tc .vmem S512x256 .bf16).view.set]{fullShare} f)
      ∗ (∃ f : Buf (Elt F) ((oblkM (rowOff c 1 5) (rowOff_inb c 1 5 (by decide)) : Memref sig .tc .vmem S512x256 .bf16).view.loc (c : Thread nD τ)), (oblkM (rowOff c 1 5) (rowOff_inb c 1 5 (by decide)) : Memref sig .tc .vmem S512x256 .bf16).view.loc (c : Thread nD τ) ↦[(oblkM (rowOff c 1 5) (rowOff_inb c 1 5 (by decide)) : Memref sig .tc .vmem S512x256 .bf16).view.set]{fullShare} f)
      ∗ reached ER (dcell (c) (csem cc0_scratch3 5 0 inb_S8x3_S1x1_5_0)) 0
      ∗ reached ER (dcell (c) (csem cc0_scratch5 5 0 inb_S8x3_S1x1_5_0)) 0)
      ∗ ((∃ f : Buf (Elt F) ((slotM 5 2 inb_S8x4x512x256_S1x1x512x256_5_2_0_0 : Memref sig .tc .vmem S512x256 .bf16).view.loc (c : Thread nD τ)), (slotM 5 2 inb_S8x4x512x256_S1x1x512x256_5_2_0_0 : Memref sig .tc .vmem S512x256 .bf16).view.loc (c : Thread nD τ) ↦[(slotM 5 2 inb_S8x4x512x256_S1x1x512x256_5_2_0_0 : Memref sig .tc .vmem S512x256 .bf16).view.set]{fullShare} f)
      ∗ (∃ f : Buf (Elt F) ((oblkM (rowOff c 2 5) (rowOff_inb c 2 5 (by decide)) : Memref sig .tc .vmem S512x256 .bf16).view.loc (c : Thread nD τ)), (oblkM (rowOff c 2 5) (rowOff_inb c 2 5 (by decide)) : Memref sig .tc .vmem S512x256 .bf16).view.loc (c : Thread nD τ) ↦[(oblkM (rowOff c 2 5) (rowOff_inb c 2 5 (by decide)) : Memref sig .tc .vmem S512x256 .bf16).view.set]{fullShare} f)
      ∗ reached ER (dcell (c) (csem cc0_scratch3 5 1 inb_S8x3_S1x1_5_1)) 0
      ∗ reached ER (dcell (c) (csem cc0_scratch5 5 1 inb_S8x3_S1x1_5_1)) 0)
      ∗ ((∃ f : Buf (Elt F) ((slotM 5 3 inb_S8x4x512x256_S1x1x512x256_5_3_0_0 : Memref sig .tc .vmem S512x256 .bf16).view.loc (c : Thread nD τ)), (slotM 5 3 inb_S8x4x512x256_S1x1x512x256_5_3_0_0 : Memref sig .tc .vmem S512x256 .bf16).view.loc (c : Thread nD τ) ↦[(slotM 5 3 inb_S8x4x512x256_S1x1x512x256_5_3_0_0 : Memref sig .tc .vmem S512x256 .bf16).view.set]{fullShare} f)
      ∗ (∃ f : Buf (Elt F) ((oblkM (rowOff c 3 5) (rowOff_inb c 3 5 (by decide)) : Memref sig .tc .vmem S512x256 .bf16).view.loc (c : Thread nD τ)), (oblkM (rowOff c 3 5) (rowOff_inb c 3 5 (by decide)) : Memref sig .tc .vmem S512x256 .bf16).view.loc (c : Thread nD τ) ↦[(oblkM (rowOff c 3 5) (rowOff_inb c 3 5 (by decide)) : Memref sig .tc .vmem S512x256 .bf16).view.set]{fullShare} f)
      ∗ reached ER (dcell (c) (csem cc0_scratch3 5 2 inb_S8x3_S1x1_5_2)) 0
      ∗ reached ER (dcell (c) (csem cc0_scratch5 5 2 inb_S8x3_S1x1_5_2)) 0)
      ∗ ((∃ f : Buf (Elt F) ((slotM 6 1 inb_S8x4x512x256_S1x1x512x256_6_1_0_0 : Memref sig .tc .vmem S512x256 .bf16).view.loc (c : Thread nD τ)), (slotM 6 1 inb_S8x4x512x256_S1x1x512x256_6_1_0_0 : Memref sig .tc .vmem S512x256 .bf16).view.loc (c : Thread nD τ) ↦[(slotM 6 1 inb_S8x4x512x256_S1x1x512x256_6_1_0_0 : Memref sig .tc .vmem S512x256 .bf16).view.set]{fullShare} f)
      ∗ (∃ f : Buf (Elt F) ((oblkM (rowOff c 1 6) (rowOff_inb c 1 6 (by decide)) : Memref sig .tc .vmem S512x256 .bf16).view.loc (c : Thread nD τ)), (oblkM (rowOff c 1 6) (rowOff_inb c 1 6 (by decide)) : Memref sig .tc .vmem S512x256 .bf16).view.loc (c : Thread nD τ) ↦[(oblkM (rowOff c 1 6) (rowOff_inb c 1 6 (by decide)) : Memref sig .tc .vmem S512x256 .bf16).view.set]{fullShare} f)
      ∗ reached ER (dcell (c) (csem cc0_scratch3 6 0 inb_S8x3_S1x1_6_0)) 0
      ∗ reached ER (dcell (c) (csem cc0_scratch5 6 0 inb_S8x3_S1x1_6_0)) 0)
      ∗ ((∃ f : Buf (Elt F) ((slotM 6 2 inb_S8x4x512x256_S1x1x512x256_6_2_0_0 : Memref sig .tc .vmem S512x256 .bf16).view.loc (c : Thread nD τ)), (slotM 6 2 inb_S8x4x512x256_S1x1x512x256_6_2_0_0 : Memref sig .tc .vmem S512x256 .bf16).view.loc (c : Thread nD τ) ↦[(slotM 6 2 inb_S8x4x512x256_S1x1x512x256_6_2_0_0 : Memref sig .tc .vmem S512x256 .bf16).view.set]{fullShare} f)
      ∗ (∃ f : Buf (Elt F) ((oblkM (rowOff c 2 6) (rowOff_inb c 2 6 (by decide)) : Memref sig .tc .vmem S512x256 .bf16).view.loc (c : Thread nD τ)), (oblkM (rowOff c 2 6) (rowOff_inb c 2 6 (by decide)) : Memref sig .tc .vmem S512x256 .bf16).view.loc (c : Thread nD τ) ↦[(oblkM (rowOff c 2 6) (rowOff_inb c 2 6 (by decide)) : Memref sig .tc .vmem S512x256 .bf16).view.set]{fullShare} f)
      ∗ reached ER (dcell (c) (csem cc0_scratch3 6 1 inb_S8x3_S1x1_6_1)) 0
      ∗ reached ER (dcell (c) (csem cc0_scratch5 6 1 inb_S8x3_S1x1_6_1)) 0)
      ∗ ((∃ f : Buf (Elt F) ((slotM 6 3 inb_S8x4x512x256_S1x1x512x256_6_3_0_0 : Memref sig .tc .vmem S512x256 .bf16).view.loc (c : Thread nD τ)), (slotM 6 3 inb_S8x4x512x256_S1x1x512x256_6_3_0_0 : Memref sig .tc .vmem S512x256 .bf16).view.loc (c : Thread nD τ) ↦[(slotM 6 3 inb_S8x4x512x256_S1x1x512x256_6_3_0_0 : Memref sig .tc .vmem S512x256 .bf16).view.set]{fullShare} f)
      ∗ (∃ f : Buf (Elt F) ((oblkM (rowOff c 3 6) (rowOff_inb c 3 6 (by decide)) : Memref sig .tc .vmem S512x256 .bf16).view.loc (c : Thread nD τ)), (oblkM (rowOff c 3 6) (rowOff_inb c 3 6 (by decide)) : Memref sig .tc .vmem S512x256 .bf16).view.loc (c : Thread nD τ) ↦[(oblkM (rowOff c 3 6) (rowOff_inb c 3 6 (by decide)) : Memref sig .tc .vmem S512x256 .bf16).view.set]{fullShare} f)
      ∗ reached ER (dcell (c) (csem cc0_scratch3 6 2 inb_S8x3_S1x1_6_2)) 0
      ∗ reached ER (dcell (c) (csem cc0_scratch5 6 2 inb_S8x3_S1x1_6_2)) 0)
      ∗ ((∃ f : Buf (Elt F) ((slotM 7 1 inb_S8x4x512x256_S1x1x512x256_7_1_0_0 : Memref sig .tc .vmem S512x256 .bf16).view.loc (c : Thread nD τ)), (slotM 7 1 inb_S8x4x512x256_S1x1x512x256_7_1_0_0 : Memref sig .tc .vmem S512x256 .bf16).view.loc (c : Thread nD τ) ↦[(slotM 7 1 inb_S8x4x512x256_S1x1x512x256_7_1_0_0 : Memref sig .tc .vmem S512x256 .bf16).view.set]{fullShare} f)
      ∗ (∃ f : Buf (Elt F) ((oblkM (rowOff c 1 7) (rowOff_inb c 1 7 (by decide)) : Memref sig .tc .vmem S512x256 .bf16).view.loc (c : Thread nD τ)), (oblkM (rowOff c 1 7) (rowOff_inb c 1 7 (by decide)) : Memref sig .tc .vmem S512x256 .bf16).view.loc (c : Thread nD τ) ↦[(oblkM (rowOff c 1 7) (rowOff_inb c 1 7 (by decide)) : Memref sig .tc .vmem S512x256 .bf16).view.set]{fullShare} f)
      ∗ reached ER (dcell (c) (csem cc0_scratch3 7 0 inb_S8x3_S1x1_7_0)) 0
      ∗ reached ER (dcell (c) (csem cc0_scratch5 7 0 inb_S8x3_S1x1_7_0)) 0)
      ∗ ((∃ f : Buf (Elt F) ((slotM 7 2 inb_S8x4x512x256_S1x1x512x256_7_2_0_0 : Memref sig .tc .vmem S512x256 .bf16).view.loc (c : Thread nD τ)), (slotM 7 2 inb_S8x4x512x256_S1x1x512x256_7_2_0_0 : Memref sig .tc .vmem S512x256 .bf16).view.loc (c : Thread nD τ) ↦[(slotM 7 2 inb_S8x4x512x256_S1x1x512x256_7_2_0_0 : Memref sig .tc .vmem S512x256 .bf16).view.set]{fullShare} f)
      ∗ (∃ f : Buf (Elt F) ((oblkM (rowOff c 2 7) (rowOff_inb c 2 7 (by decide)) : Memref sig .tc .vmem S512x256 .bf16).view.loc (c : Thread nD τ)), (oblkM (rowOff c 2 7) (rowOff_inb c 2 7 (by decide)) : Memref sig .tc .vmem S512x256 .bf16).view.loc (c : Thread nD τ) ↦[(oblkM (rowOff c 2 7) (rowOff_inb c 2 7 (by decide)) : Memref sig .tc .vmem S512x256 .bf16).view.set]{fullShare} f)
      ∗ reached ER (dcell (c) (csem cc0_scratch3 7 1 inb_S8x3_S1x1_7_1)) 0
      ∗ reached ER (dcell (c) (csem cc0_scratch5 7 1 inb_S8x3_S1x1_7_1)) 0)
      ∗ ((∃ f : Buf (Elt F) ((slotM 7 3 inb_S8x4x512x256_S1x1x512x256_7_3_0_0 : Memref sig .tc .vmem S512x256 .bf16).view.loc (c : Thread nD τ)), (slotM 7 3 inb_S8x4x512x256_S1x1x512x256_7_3_0_0 : Memref sig .tc .vmem S512x256 .bf16).view.loc (c : Thread nD τ) ↦[(slotM 7 3 inb_S8x4x512x256_S1x1x512x256_7_3_0_0 : Memref sig .tc .vmem S512x256 .bf16).view.set]{fullShare} f)
      ∗ (∃ f : Buf (Elt F) ((oblkM (rowOff c 3 7) (rowOff_inb c 3 7 (by decide)) : Memref sig .tc .vmem S512x256 .bf16).view.loc (c : Thread nD τ)), (oblkM (rowOff c 3 7) (rowOff_inb c 3 7 (by decide)) : Memref sig .tc .vmem S512x256 .bf16).view.loc (c : Thread nD τ) ↦[(oblkM (rowOff c 3 7) (rowOff_inb c 3 7 (by decide)) : Memref sig .tc .vmem S512x256 .bf16).view.set]{fullShare} f)
      ∗ reached ER (dcell (c) (csem cc0_scratch3 7 2 inb_S8x3_S1x1_7_2)) 0
      ∗ reached ER (dcell (c) (csem cc0_scratch5 7 2 inb_S8x3_S1x1_7_2)) 0)) : sProp 𝕄) := by
  rw [payload_bar]
  unfold barPay
  rw [bigSep_univ_eq_bigSepL ([(0, 0), (0, 1), (0, 2), (1, 0), (1, 1), (1, 2), (2, 0), (2, 1), (2, 2), (3, 0), (3, 1), (3, 2)] : List (Fin 4 × Fin 3)) (by decide) (by decide)]
  exact
    (sep_congr (barLeaf_congr _ (c) (prv_nxt c) _ 4 (by rfl) _ 0 (by rfl) _ (rowOff c 1 4) (rowOff_nxt_pay c 4 0 (by decide) (by decide)) _ _ _ _ _ _ _ _)
    (sep_congr (barLeaf_congr _ (c) (prv_nxt c) _ 4 (by rfl) _ 1 (by rfl) _ (rowOff c 2 4) (rowOff_nxt_pay c 4 1 (by decide) (by decide)) _ _ _ _ _ _ _ _)
    (sep_congr (barLeaf_congr _ (c) (prv_nxt c) _ 4 (by rfl) _ 2 (by rfl) _ (rowOff c 3 4) (rowOff_nxt_pay c 4 2 (by decide) (by decide)) _ _ _ _ _ _ _ _)
    (sep_congr (barLeaf_congr _ (c) (prv_nxt c) _ 5 (by rfl) _ 0 (by rfl) _ (rowOff c 1 5) (rowOff_nxt_pay c 5 0 (by decide) (by decide)) _ _ _ _ _ _ _ _)
    (sep_congr (barLeaf_congr _ (c) (prv_nxt c) _ 5 (by rfl) _ 1 (by rfl) _ (rowOff c 2 5) (rowOff_nxt_pay c 5 1 (by decide) (by decide)) _ _ _ _ _ _ _ _)
    (sep_congr (barLeaf_congr _ (c) (prv_nxt c) _ 5 (by rfl) _ 2 (by rfl) _ (rowOff c 3 5) (rowOff_nxt_pay c 5 2 (by decide) (by decide)) _ _ _ _ _ _ _ _)
    (sep_congr (barLeaf_congr _ (c) (prv_nxt c) _ 6 (by rfl) _ 0 (by rfl) _ (rowOff c 1 6) (rowOff_nxt_pay c 6 0 (by decide) (by decide)) _ _ _ _ _ _ _ _)
    (sep_congr (barLeaf_congr _ (c) (prv_nxt c) _ 6 (by rfl) _ 1 (by rfl) _ (rowOff c 2 6) (rowOff_nxt_pay c 6 1 (by decide) (by decide)) _ _ _ _ _ _ _ _)
    (sep_congr (barLeaf_congr _ (c) (prv_nxt c) _ 6 (by rfl) _ 2 (by rfl) _ (rowOff c 3 6) (rowOff_nxt_pay c 6 2 (by decide) (by decide)) _ _ _ _ _ _ _ _)
    (sep_congr (barLeaf_congr _ (c) (prv_nxt c) _ 7 (by rfl) _ 0 (by rfl) _ (rowOff c 1 7) (rowOff_nxt_pay c 7 0 (by decide) (by decide)) _ _ _ _ _ _ _ _)
    (sep_congr (barLeaf_congr _ (c) (prv_nxt c) _ 7 (by rfl) _ 1 (by rfl) _ (rowOff c 2 7) (rowOff_nxt_pay c 7 1 (by decide) (by decide)) _ _ _ _ _ _ _ _)
    (barLeaf_congr _ (c) (prv_nxt c) _ 7 (by rfl) _ 2 (by rfl) _ (rowOff c 3 7) (rowOff_nxt_pay c 7 2 (by decide) (by decide)) _ _ _ _ _ _ _ _))))))))))))

end Lit

end Cert.KernelIdeal.P

end
-- ==== Proof.SepFlat.lean ====
import proofs.«900901_g7700000000000902_dist_matmul_silu_kshard_i_m2048_n2048_k1024_v7x_i4_bf16_1_alg».proof.Proof.Proto

/-!
Separating conjunction is associative as an equation between assertions: a chain of groups of assertions is the
chain of their members.
-/

noncomputable section

namespace Cert.KernelIdeal.P

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.Sem

variable {F : FTy → Type} [FloatOps F]

local notation "𝕄" => MT nD τ sig Unit (Elt F) ℕ UU ℕ

theorem sep_assoc_eq (P Q R : sProp 𝕄) : iprop((P ∗ Q) ∗ R) = iprop(P ∗ Q ∗ R) :=
  equiv_iff.mp ⟨Idealize.SL.BI.sep_assoc, Idealize.SL.BI.sep_assoc'⟩

end Cert.KernelIdeal.P

end
-- ==== Proof.TablesFlat.lean ====
import proofs.«900901_g7700000000000902_dist_matmul_silu_kshard_i_m2048_n2048_k1024_v7x_i4_bf16_1_alg».proof.Proof.TablesLit
import proofs.«900901_g7700000000000902_dist_matmul_silu_kshard_i_m2048_n2048_k1024_v7x_i4_bf16_1_alg».proof.Proof.SepFlat

/-!
The barrier cell's payloads at the literal cells of the program as one chain each: the four assertions of every chain
and step (the landing slot, the landing block, and that the two receive cells have reached round 0) are members of one
right-nested chain, by associativity.
-/

noncomputable section

namespace Cert.KernelIdeal.P

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Flat
variable (fa : Dev nD → AT F) (fb : Dev nD → BT F) (c : Dev nD)

/-- What a wait on the barrier cell returns, leaf by leaf: the next device's 48, then the previous device's. -/
theorem rest_bar_flat :
    bigSep ((ringRd fa fb).duties (barCell c) 0 \ ∅) (fun d => (ringRd fa fb).payload (barCell c) 0 d) =
      (iprop((∃ f : Buf (Elt F) ((slotM 0 1 inb_S8x4x512x256_S1x1x512x256_0_1_0_0 : Memref sig .tc .vmem S512x256 .bf16).view.loc (nxt c : Thread nD τ)), (slotM 0 1 inb_S8x4x512x256_S1x1x512x256_0_1_0_0 : Memref sig .tc .vmem S512x256 .bf16).view.loc (nxt c : Thread nD τ) ↦[(slotM 0 1 inb_S8x4x512x256_S1x1x512x256_0_1_0_0 : Memref sig .tc .vmem S512x256 .bf16).view.set]{fullShare} f)
      ∗ (∃ f : Buf (Elt F) ((oblkM (k0_off3 c 0#32) (k0_off3_inb c 0) : Memref sig .tc .vmem S512x256 .bf16).view.loc (nxt c : Thread nD τ)), (oblkM (k0_off3 c 0#32) (k0_off3_inb c 0) : Memref sig .tc .vmem S512x256 .bf16).view.loc (nxt c : Thread nD τ) ↦[(oblkM (k0_off3 c 0#32) (k0_off3_inb c 0) : Memref sig .tc .vmem S512x256 .bf16).view.set]{fullShare} f)
      ∗ reached ER (dcell (nxt c) (csem cc0_scratch3 0 0 inb_S8x3_S1x1_0_0)) 0
      ∗ reached ER (dcell (nxt c) (csem cc0_scratch5 0 0 inb_S8x3_S1x1_0_0)) 0
      ∗ (∃ f : Buf (Elt F) ((slotM 0 2 inb_S8x4x512x256_S1x1x512x256_0_2_0_0 : Memref sig .tc .vmem S512x256 .bf16).view.loc (nxt c : Thread nD τ)), (slotM 0 2 inb_S8x4x512x256_S1x1x512x256_0_2_0_0 : Memref sig .tc .vmem S512x256 .bf16).view.loc (nxt c : Thread nD τ) ↦[(slotM 0 2 inb_S8x4x512x256_S1x1x512x256_0_2_0_0 : Memref sig .tc .vmem S512x256 .bf16).view.set]{fullShare} f)
      ∗ (∃ f : Buf (Elt F) ((oblkM (k0_off3 c 1#32) (k0_off3_inb c 1) : Memref sig .tc .vmem S512x256 .bf16).view.loc (nxt c : Thread nD τ)), (oblkM (k0_off3 c 1#32) (k0_off3_inb c 1) : Memref sig .tc .vmem S512x256 .bf16).view.loc (nxt c : Thread nD τ) ↦[(oblkM (k0_off3 c 1#32) (k0_off3_inb c 1) : Memref sig .tc .vmem S512x256 .bf16).view.set]{fullShare} f)
      ∗ reached ER (dcell (nxt c) (csem cc0_scratch3 0 1 inb_S8x3_S1x1_0_1)) 0
      ∗ reached ER (dcell (nxt c) (csem cc0_scratch5 0 1 inb_S8x3_S1x1_0_1)) 0
      ∗ (∃ f : Buf (Elt F) ((slotM 0 3 inb_S8x4x512x256_S1x1x512x256_0_3_0_0 : Memref sig .tc .vmem S512x256 .bf16).view.loc (nxt c : Thread nD τ)), (slotM 0 3 inb_S8x4x512x256_S1x1x512x256_0_3_0_0 : Memref sig .tc .vmem S512x256 .bf16).view.loc (nxt c : Thread nD τ) ↦[(slotM 0 3 inb_S8x4x512x256_S1x1x512x256_0_3_0_0 : Memref sig .tc .vmem S512x256 .bf16).view.set]{fullShare} f)
      ∗ (∃ f : Buf (Elt F) ((oblkM (k0_off3 c 2#32) (k0_off3_inb c 2) : Memref sig .tc .vmem S512x256 .bf16).view.loc (nxt c : Thread nD τ)), (oblkM (k0_off3 c 2#32) (k0_off3_inb c 2) : Memref sig .tc .vmem S512x256 .bf16).view.loc (nxt c : Thread nD τ) ↦[(oblkM (k0_off3 c 2#32) (k0_off3_inb c 2) : Memref sig .tc .vmem S512x256 .bf16).view.set]{fullShare} f)
      ∗ reached ER (dcell (nxt c) (csem cc0_scratch3 0 2 inb_S8x3_S1x1_0_2)) 0
      ∗ reached ER (dcell (nxt c) (csem cc0_scratch5 0 2 inb_S8x3_S1x1_0_2)) 0
      ∗ (∃ f : Buf (Elt F) ((slotM 1 1 inb_S8x4x512x256_S1x1x512x256_1_1_0_0 : Memref sig .tc .vmem S512x256 .bf16).view.loc (nxt c : Thread nD τ)), (slotM 1 1 inb_S8x4x512x256_S1x1x512x256_1_1_0_0 : Memref sig .tc .vmem S512x256 .bf16).view.loc (nxt c : Thread nD τ) ↦[(slotM 1 1 inb_S8x4x512x256_S1x1x512x256_1_1_0_0 : Memref sig .tc .vmem S512x256 .bf16).view.set]{fullShare} f)
      ∗ (∃ f : Buf (Elt F) ((oblkM (k0_off7 c 0#32) (k0_off7_inb c 0) : Memref sig .tc .vmem S512x256 .bf16).view.loc (nxt c : Thread nD τ)), (oblkM (k0_off7 c 0#32) (k0_off7_inb c 0) : Memref sig .tc .vmem S512x256 .bf16).view.loc (nxt c : Thread nD τ) ↦[(oblkM (k0_off7 c 0#32) (k0_off7_inb c 0) : Memref sig .tc .vmem S512x256 .bf16).view.set]{fullShare} f)
      ∗ reached ER (dcell (nxt c) (csem cc0_scratch3 1 0 inb_S8x3_S1x1_1_0)) 0
      ∗ reached ER (dcell (nxt c) (csem cc0_scratch5 1 0 inb_S8x3_S1x1_1_0)) 0
      ∗ (∃ f : Buf (Elt F) ((slotM 1 2 inb_S8x4x512x256_S1x1x512x256_1_2_0_0 : Memref sig .tc .vmem S512x256 .bf16).view.loc (nxt c : Thread nD τ)), (slotM 1 2 inb_S8x4x512x256_S1x1x512x256_1_2_0_0 : Memref sig .tc .vmem S512x256 .bf16).view.loc (nxt c : Thread nD τ) ↦[(slotM 1 2 inb_S8x4x512x256_S1x1x512x256_1_2_0_0 : Memref sig .tc .vmem S512x256 .bf16).view.set]{fullShare} f)
      ∗ (∃ f : Buf (Elt F) ((oblkM (k0_off7 c 1#32) (k0_off7_inb c 1) : Memref sig .tc .vmem S512x256 .bf16).view.loc (nxt c : Thread nD τ)), (oblkM (k0_off7 c 1#32) (k0_off7_inb c 1) : Memref sig .tc .vmem S512x256 .bf16).view.loc (nxt c : Thread nD τ) ↦[(oblkM (k0_off7 c 1#32) (k0_off7_inb c 1) : Memref sig .tc .vmem S512x256 .bf16).view.set]{fullShare} f)
      ∗ reached ER (dcell (nxt c) (csem cc0_scratch3 1 1 inb_S8x3_S1x1_1_1)) 0
      ∗ reached ER (dcell (nxt c) (csem cc0_scratch5 1 1 inb_S8x3_S1x1_1_1)) 0
      ∗ (∃ f : Buf (Elt F) ((slotM 1 3 inb_S8x4x512x256_S1x1x512x256_1_3_0_0 : Memref sig .tc .vmem S512x256 .bf16).view.loc (nxt c : Thread nD τ)), (slotM 1 3 inb_S8x4x512x256_S1x1x512x256_1_3_0_0 : Memref sig .tc .vmem S512x256 .bf16).view.loc (nxt c : Thread nD τ) ↦[(slotM 1 3 inb_S8x4x512x256_S1x1x512x256_1_3_0_0 : Memref sig .tc .vmem S512x256 .bf16).view.set]{fullShare} f)
      ∗ (∃ f : Buf (Elt F) ((oblkM (k0_off7 c 2#32) (k0_off7_inb c 2) : Memref sig .tc .vmem S512x256 .bf16).view.loc (nxt c : Thread nD τ)), (oblkM (k0_off7 c 2#32) (k0_off7_inb c 2) : Memref sig .tc .vmem S512x256 .bf16).view.loc (nxt c : Thread nD τ) ↦[(oblkM (k0_off7 c 2#32) (k0_off7_inb c 2) : Memref sig .tc .vmem S512x256 .bf16).view.set]{fullShare} f)
      ∗ reached ER (dcell (nxt c) (csem cc0_scratch3 1 2 inb_S8x3_S1x1_1_2)) 0
      ∗ reached ER (dcell (nxt c) (csem cc0_scratch5 1 2 inb_S8x3_S1x1_1_2)) 0
      ∗ (∃ f : Buf (Elt F) ((slotM 2 1 inb_S8x4x512x256_S1x1x512x256_2_1_0_0 : Memref sig .tc .vmem S512x256 .bf16).view.loc (nxt c : Thread nD τ)), (slotM 2 1 inb_S8x4x512x256_S1x1x512x256_2_1_0_0 : Memref sig .tc .vmem S512x256 .bf16).view.loc (nxt c : Thread nD τ) ↦[(slotM 2 1 inb_S8x4x512x256_S1x1x512x256_2_1_0_0 : Memref sig .tc .vmem S512x256 .bf16).view.set]{fullShare} f)
      ∗ (∃ f : Buf (Elt F) ((oblkM (k0_off11 c 0#32) (k0_off11_inb c 0) : Memref sig .tc .vmem S512x256 .bf16).view.loc (nxt c : Thread nD τ)), (oblkM (k0_off11 c 0#32) (k0_off11_inb c 0) : Memref sig .tc .vmem S512x256 .bf16).view.loc (nxt c : Thread nD τ) ↦[(oblkM (k0_off11 c 0#32) (k0_off11_inb c 0) : Memref sig .tc .vmem S512x256 .bf16).view.set]{fullShare} f)
      ∗ reached ER (dcell (nxt c) (csem cc0_scratch3 2 0 inb_S8x3_S1x1_2_0)) 0
      ∗ reached ER (dcell (nxt c) (csem cc0_scratch5 2 0 inb_S8x3_S1x1_2_0)) 0
      ∗ (∃ f : Buf (Elt F) ((slotM 2 2 inb_S8x4x512x256_S1x1x512x256_2_2_0_0 : Memref sig .tc .vmem S512x256 .bf16).view.loc (nxt c : Thread nD τ)), (slotM 2 2 inb_S8x4x512x256_S1x1x512x256_2_2_0_0 : Memref sig .tc .vmem S512x256 .bf16).view.loc (nxt c : Thread nD τ) ↦[(slotM 2 2 inb_S8x4x512x256_S1x1x512x256_2_2_0_0 : Memref sig .tc .vmem S512x256 .bf16).view.set]{fullShare} f)
      ∗ (∃ f : Buf (Elt F) ((oblkM (k0_off11 c 1#32) (k0_off11_inb c 1) : Memref sig .tc .vmem S512x256 .bf16).view.loc (nxt c : Thread nD τ)), (oblkM (k0_off11 c 1#32) (k0_off11_inb c 1) : Memref sig .tc .vmem S512x256 .bf16).view.loc (nxt c : Thread nD τ) ↦[(oblkM (k0_off11 c 1#32) (k0_off11_inb c 1) : Memref sig .tc .vmem S512x256 .bf16).view.set]{fullShare} f)
      ∗ reached ER (dcell (nxt c) (csem cc0_scratch3 2 1 inb_S8x3_S1x1_2_1)) 0
      ∗ reached ER (dcell (nxt c) (csem cc0_scratch5 2 1 inb_S8x3_S1x1_2_1)) 0
      ∗ (∃ f : Buf (Elt F) ((slotM 2 3 inb_S8x4x512x256_S1x1x512x256_2_3_0_0 : Memref sig .tc .vmem S512x256 .bf16).view.loc (nxt c : Thread nD τ)), (slotM 2 3 inb_S8x4x512x256_S1x1x512x256_2_3_0_0 : Memref sig .tc .vmem S512x256 .bf16).view.loc (nxt c : Thread nD τ) ↦[(slotM 2 3 inb_S8x4x512x256_S1x1x512x256_2_3_0_0 : Memref sig .tc .vmem S512x256 .bf16).view.set]{fullShare} f)
      ∗ (∃ f : Buf (Elt F) ((oblkM (k0_off11 c 2#32) (k0_off11_inb c 2) : Memref sig .tc .vmem S512x256 .bf16).view.loc (nxt c : Thread nD τ)), (oblkM (k0_off11 c 2#32) (k0_off11_inb c 2) : Memref sig .tc .vmem S512x256 .bf16).view.loc (nxt c : Thread nD τ) ↦[(oblkM (k0_off11 c 2#32) (k0_off11_inb c 2) : Memref sig .tc .vmem S512x256 .bf16).view.set]{fullShare} f)
      ∗ reached ER (dcell (nxt c) (csem cc0_scratch3 2 2 inb_S8x3_S1x1_2_2)) 0
      ∗ reached ER (dcell (nxt c) (csem cc0_scratch5 2 2 inb_S8x3_S1x1_2_2)) 0
      ∗ (∃ f : Buf (Elt F) ((slotM 3 1 inb_S8x4x512x256_S1x1x512x256_3_1_0_0 : Memref sig .tc .vmem S512x256 .bf16).view.loc (nxt c : Thread nD τ)), (slotM 3 1 inb_S8x4x512x256_S1x1x512x256_3_1_0_0 : Memref sig .tc .vmem S512x256 .bf16).view.loc (nxt c : Thread nD τ) ↦[(slotM 3 1 inb_S8x4x512x256_S1x1x512x256_3_1_0_0 : Memref sig .tc .vmem S512x256 .bf16).view.set]{fullShare} f)
      ∗ (∃ f : Buf (Elt F) ((oblkM (k0_off15 c 0#32) (k0_off15_inb c 0) : Memref sig .tc .vmem S512x256 .bf16).view.loc (nxt c : Thread nD τ)), (oblkM (k0_off15 c 0#32) (k0_off15_inb c 0) : Memref sig .tc .vmem S512x256 .bf16).view.loc (nxt c : Thread nD τ) ↦[(oblkM (k0_off15 c 0#32) (k0_off15_inb c 0) : Memref sig .tc .vmem S512x256 .bf16).view.set]{fullShare} f)
      ∗ reached ER (dcell (nxt c) (csem cc0_scratch3 3 0 inb_S8x3_S1x1_3_0)) 0
      ∗ reached ER (dcell (nxt c) (csem cc0_scratch5 3 0 inb_S8x3_S1x1_3_0)) 0
      ∗ (∃ f : Buf (Elt F) ((slotM 3 2 inb_S8x4x512x256_S1x1x512x256_3_2_0_0 : Memref sig .tc .vmem S512x256 .bf16).view.loc (nxt c : Thread nD τ)), (slotM 3 2 inb_S8x4x512x256_S1x1x512x256_3_2_0_0 : Memref sig .tc .vmem S512x256 .bf16).view.loc (nxt c : Thread nD τ) ↦[(slotM 3 2 inb_S8x4x512x256_S1x1x512x256_3_2_0_0 : Memref sig .tc .vmem S512x256 .bf16).view.set]{fullShare} f)
      ∗ (∃ f : Buf (Elt F) ((oblkM (k0_off15 c 1#32) (k0_off15_inb c 1) : Memref sig .tc .vmem S512x256 .bf16).view.loc (nxt c : Thread nD τ)), (oblkM (k0_off15 c 1#32) (k0_off15_inb c 1) : Memref sig .tc .vmem S512x256 .bf16).view.loc (nxt c : Thread nD τ) ↦[(oblkM (k0_off15 c 1#32) (k0_off15_inb c 1) : Memref sig .tc .vmem S512x256 .bf16).view.set]{fullShare} f)
      ∗ reached ER (dcell (nxt c) (csem cc0_scratch3 3 1 inb_S8x3_S1x1_3_1)) 0
      ∗ reached ER (dcell (nxt c) (csem cc0_scratch5 3 1 inb_S8x3_S1x1_3_1)) 0
      ∗ (∃ f : Buf (Elt F) ((slotM 3 3 inb_S8x4x512x256_S1x1x512x256_3_3_0_0 : Memref sig .tc .vmem S512x256 .bf16).view.loc (nxt c : Thread nD τ)), (slotM 3 3 inb_S8x4x512x256_S1x1x512x256_3_3_0_0 : Memref sig .tc .vmem S512x256 .bf16).view.loc (nxt c : Thread nD τ) ↦[(slotM 3 3 inb_S8x4x512x256_S1x1x512x256_3_3_0_0 : Memref sig .tc .vmem S512x256 .bf16).view.set]{fullShare} f)
      ∗ (∃ f : Buf (Elt F) ((oblkM (k0_off15 c 2#32) (k0_off15_inb c 2) : Memref sig .tc .vmem S512x256 .bf16).view.loc (nxt c : Thread nD τ)), (oblkM (k0_off15 c 2#32) (k0_off15_inb c 2) : Memref sig .tc .vmem S512x256 .bf16).view.loc (nxt c : Thread nD τ) ↦[(oblkM (k0_off15 c 2#32) (k0_off15_inb c 2) : Memref sig .tc .vmem S512x256 .bf16).view.set]{fullShare} f)
      ∗ reached ER (dcell (nxt c) (csem cc0_scratch3 3 2 inb_S8x3_S1x1_3_2)) 0
      ∗ reached ER (dcell (nxt c) (csem cc0_scratch5 3 2 inb_S8x3_S1x1_3_2)) 0
      ∗ (∃ f : Buf (Elt F) ((slotM 4 1 inb_S8x4x512x256_S1x1x512x256_4_1_0_0 : Memref sig .tc .vmem S512x256 .bf16).view.loc (prv c : Thread nD τ)), (slotM 4 1 inb_S8x4x512x256_S1x1x512x256_4_1_0_0 : Memref sig .tc .vmem S512x256 .bf16).view.loc (prv c : Thread nD τ) ↦[(slotM 4 1 inb_S8x4x512x256_S1x1x512x256_4_1_0_0 : Memref sig .tc .vmem S512x256 .bf16).view.set]{fullShare} f)
      ∗ (∃ f : Buf (Elt F) ((oblkM (k0_off5 c 0#32) (k0_off5_inb c 0) : Memref sig .tc .vmem S512x256 .bf16).view.loc (prv c : Thread nD τ)), (oblkM (k0_off5 c 0#32) (k0_off5_inb c 0) : Memref sig .tc .vmem S512x256 .bf16).view.loc (prv c : Thread nD τ) ↦[(oblkM (k0_off5 c 0#32) (k0_off5_inb c 0) : Memref sig .tc .vmem S512x256 .bf16).view.set]{fullShare} f)
      ∗ reached ER (dcell (prv c) (csem cc0_scratch3 4 0 inb_S8x3_S1x1_4_0)) 0
      ∗ reached ER (dcell (prv c) (csem cc0_scratch5 4 0 inb_S8x3_S1x1_4_0)) 0
      ∗ (∃ f : Buf (Elt F) ((slotM 4 2 inb_S8x4x512x256_S1x1x512x256_4_2_0_0 : Memref sig .tc .vmem S512x256 .bf16).view.loc (prv c : Thread nD τ)), (slotM 4 2 inb_S8x4x512x256_S1x1x512x256_4_2_0_0 : Memref sig .tc .vmem S512x256 .bf16).view.loc (prv c : Thread nD τ) ↦[(slotM 4 2 inb_S8x4x512x256_S1x1x512x256_4_2_0_0 : Memref sig .tc .vmem S512x256 .bf16).view.set]{fullShare} f)
      ∗ (∃ f : Buf (Elt F) ((oblkM (k0_off5 c 4294967295#32) (k0_off5_inb c 1) : Memref sig .tc .vmem S512x256 .bf16).view.loc (prv c : Thread nD τ)), (oblkM (k0_off5 c 4294967295#32) (k0_off5_inb c 1) : Memref sig .tc .vmem S512x256 .bf16).view.loc (prv c : Thread nD τ) ↦[(oblkM (k0_off5 c 4294967295#32) (k0_off5_inb c 1) : Memref sig .tc .vmem S512x256 .bf16).view.set]{fullShare} f)
      ∗ reached ER (dcell (prv c) (csem cc0_scratch3 4 1 inb_S8x3_S1x1_4_1)) 0
      ∗ reached ER (dcell (prv c) (csem cc0_scratch5 4 1 inb_S8x3_S1x1_4_1)) 0
      ∗ (∃ f : Buf (Elt F) ((slotM 4 3 inb_S8x4x512x256_S1x1x512x256_4_3_0_0 : Memref sig .tc .vmem S512x256 .bf16).view.loc (prv c : Thread nD τ)), (slotM 4 3 inb_S8x4x512x256_S1x1x512x256_4_3_0_0 : Memref sig .tc .vmem S512x256 .bf16).view.loc (prv c : Thread nD τ) ↦[(slotM 4 3 inb_S8x4x512x256_S1x1x512x256_4_3_0_0 : Memref sig .tc .vmem S512x256 .bf16).view.set]{fullShare} f)
      ∗ (∃ f : Buf (Elt F) ((oblkM (k0_off5 c 4294967294#32) (k0_off5_inb c 2) : Memref sig .tc .vmem S512x256 .bf16).view.loc (prv c : Thread nD τ)), (oblkM (k0_off5 c 4294967294#32) (k0_off5_inb c 2) : Memref sig .tc .vmem S512x256 .bf16).view.loc (prv c : Thread nD τ) ↦[(oblkM (k0_off5 c 4294967294#32) (k0_off5_inb c 2) : Memref sig .tc .vmem S512x256 .bf16).view.set]{fullShare} f)
      ∗ reached ER (dcell (prv c) (csem cc0_scratch3 4 2 inb_S8x3_S1x1_4_2)) 0
      ∗ reached ER (dcell (prv c) (csem cc0_scratch5 4 2 inb_S8x3_S1x1_4_2)) 0
      ∗ (∃ f : Buf (Elt F) ((slotM 5 1 inb_S8x4x512x256_S1x1x512x256_5_1_0_0 : Memref sig .tc .vmem S512x256 .bf16).view.loc (prv c : Thread nD τ)), (slotM 5 1 inb_S8x4x512x256_S1x1x512x256_5_1_0_0 : Memref sig .tc .vmem S512x256 .bf16).view.loc (prv c : Thread nD τ) ↦[(slotM 5 1 inb_S8x4x512x256_S1x1x512x256_5_1_0_0 : Memref sig .tc .vmem S512x256 .bf16).view.set]{fullShare} f)
      ∗ (∃ f : Buf (Elt F) ((oblkM (k0_off9 c 0#32) (k0_off9_inb c 0) : Memref sig .tc .vmem S512x256 .bf16).view.loc (prv c : Thread nD τ)), (oblkM (k0_off9 c 0#32) (k0_off9_inb c 0) : Memref sig .tc .vmem S512x256 .bf16).view.loc (prv c : Thread nD τ) ↦[(oblkM (k0_off9 c 0#32) (k0_off9_inb c 0) : Memref sig .tc .vmem S512x256 .bf16).view.set]{fullShare} f)
      ∗ reached ER (dcell (prv c) (csem cc0_scratch3 5 0 inb_S8x3_S1x1_5_0)) 0
      ∗ reached ER (dcell (prv c) (csem cc0_scratch5 5 0 inb_S8x3_S1x1_5_0)) 0
      ∗ (∃ f : Buf (Elt F) ((slotM 5 2 inb_S8x4x512x256_S1x1x512x256_5_2_0_0 : Memref sig .tc .vmem S512x256 .bf16).view.loc (prv c : Thread nD τ)), (slotM 5 2 inb_S8x4x512x256_S1x1x512x256_5_2_0_0 : Memref sig .tc .vmem S512x256 .bf16).view.loc (prv c : Thread nD τ) ↦[(slotM 5 2 inb_S8x4x512x256_S1x1x512x256_5_2_0_0 : Memref sig .tc .vmem S512x256 .bf16).view.set]{fullShare} f)
      ∗ (∃ f : Buf (Elt F) ((oblkM (k0_off9 c 4294967295#32) (k0_off9_inb c 1) : Memref sig .tc .vmem S512x256 .bf16).view.loc (prv c : Thread nD τ)), (oblkM (k0_off9 c 4294967295#32) (k0_off9_inb c 1) : Memref sig .tc .vmem S512x256 .bf16).view.loc (prv c : Thread nD τ) ↦[(oblkM (k0_off9 c 4294967295#32) (k0_off9_inb c 1) : Memref sig .tc .vmem S512x256 .bf16).view.set]{fullShare} f)
      ∗ reached ER (dcell (prv c) (csem cc0_scratch3 5 1 inb_S8x3_S1x1_5_1)) 0
      ∗ reached ER (dcell (prv c) (csem cc0_scratch5 5 1 inb_S8x3_S1x1_5_1)) 0
      ∗ (∃ f : Buf (Elt F) ((slotM 5 3 inb_S8x4x512x256_S1x1x512x256_5_3_0_0 : Memref sig .tc .vmem S512x256 .bf16).view.loc (prv c : Thread nD τ)), (slotM 5 3 inb_S8x4x512x256_S1x1x512x256_5_3_0_0 : Memref sig .tc .vmem S512x256 .bf16).view.loc (prv c : Thread nD τ) ↦[(slotM 5 3 inb_S8x4x512x256_S1x1x512x256_5_3_0_0 : Memref sig .tc .vmem S512x256 .bf16).view.set]{fullShare} f)
      ∗ (∃ f : Buf (Elt F) ((oblkM (k0_off9 c 4294967294#32) (k0_off9_inb c 2) : Memref sig .tc .vmem S512x256 .bf16).view.loc (prv c : Thread nD τ)), (oblkM (k0_off9 c 4294967294#32) (k0_off9_inb c 2) : Memref sig .tc .vmem S512x256 .bf16).view.loc (prv c : Thread nD τ) ↦[(oblkM (k0_off9 c 4294967294#32) (k0_off9_inb c 2) : Memref sig .tc .vmem S512x256 .bf16).view.set]{fullShare} f)
      ∗ reached ER (dcell (prv c) (csem cc0_scratch3 5 2 inb_S8x3_S1x1_5_2)) 0
      ∗ reached ER (dcell (prv c) (csem cc0_scratch5 5 2 inb_S8x3_S1x1_5_2)) 0
      ∗ (∃ f : Buf (Elt F) ((slotM 6 1 inb_S8x4x512x256_S1x1x512x256_6_1_0_0 : Memref sig .tc .vmem S512x256 .bf16).view.loc (prv c : Thread nD τ)), (slotM 6 1 inb_S8x4x512x256_S1x1x512x256_6_1_0_0 : Memref sig .tc .vmem S512x256 .bf16).view.loc (prv c : Thread nD τ) ↦[(slotM 6 1 inb_S8x4x512x256_S1x1x512x256_6_1_0_0 : Memref sig .tc .vmem S512x256 .bf16).view.set]{fullShare} f)
      ∗ (∃ f : Buf (Elt F) ((oblkM (k0_off13 c 0#32) (k0_off13_inb c 0) : Memref sig .tc .vmem S512x256 .bf16).view.loc (prv c : Thread nD τ)), (oblkM (k0_off13 c 0#32) (k0_off13_inb c 0) : Memref sig .tc .vmem S512x256 .bf16).view.loc (prv c : Thread nD τ) ↦[(oblkM (k0_off13 c 0#32) (k0_off13_inb c 0) : Memref sig .tc .vmem S512x256 .bf16).view.set]{fullShare} f)
      ∗ reached ER (dcell (prv c) (csem cc0_scratch3 6 0 inb_S8x3_S1x1_6_0)) 0
      ∗ reached ER (dcell (prv c) (csem cc0_scratch5 6 0 inb_S8x3_S1x1_6_0)) 0
      ∗ (∃ f : Buf (Elt F) ((slotM 6 2 inb_S8x4x512x256_S1x1x512x256_6_2_0_0 : Memref sig .tc .vmem S512x256 .bf16).view.loc (prv c : Thread nD τ)), (slotM 6 2 inb_S8x4x512x256_S1x1x512x256_6_2_0_0 : Memref sig .tc .vmem S512x256 .bf16).view.loc (prv c : Thread nD τ) ↦[(slotM 6 2 inb_S8x4x512x256_S1x1x512x256_6_2_0_0 : Memref sig .tc .vmem S512x256 .bf16).view.set]{fullShare} f)
      ∗ (∃ f : Buf (Elt F) ((oblkM (k0_off13 c 4294967295#32) (k0_off13_inb c 1) : Memref sig .tc .vmem S512x256 .bf16).view.loc (prv c : Thread nD τ)), (oblkM (k0_off13 c 4294967295#32) (k0_off13_inb c 1) : Memref sig .tc .vmem S512x256 .bf16).view.loc (prv c : Thread nD τ) ↦[(oblkM (k0_off13 c 4294967295#32) (k0_off13_inb c 1) : Memref sig .tc .vmem S512x256 .bf16).view.set]{fullShare} f)
      ∗ reached ER (dcell (prv c) (csem cc0_scratch3 6 1 inb_S8x3_S1x1_6_1)) 0
      ∗ reached ER (dcell (prv c) (csem cc0_scratch5 6 1 inb_S8x3_S1x1_6_1)) 0
      ∗ (∃ f : Buf (Elt F) ((slotM 6 3 inb_S8x4x512x256_S1x1x512x256_6_3_0_0 : Memref sig .tc .vmem S512x256 .bf16).view.loc (prv c : Thread nD τ)), (slotM 6 3 inb_S8x4x512x256_S1x1x512x256_6_3_0_0 : Memref sig .tc .vmem S512x256 .bf16).view.loc (prv c : Thread nD τ) ↦[(slotM 6 3 inb_S8x4x512x256_S1x1x512x256_6_3_0_0 : Memref sig .tc .vmem S512x256 .bf16).view.set]{fullShare} f)
      ∗ (∃ f : Buf (Elt F) ((oblkM (k0_off13 c 4294967294#32) (k0_off13_inb c 2) : Memref sig .tc .vmem S512x256 .bf16).view.loc (prv c : Thread nD τ)), (oblkM (k0_off13 c 4294967294#32) (k0_off13_inb c 2) : Memref sig .tc .vmem S512x256 .bf16).view.loc (prv c : Thread nD τ) ↦[(oblkM (k0_off13 c 4294967294#32) (k0_off13_inb c 2) : Memref sig .tc .vmem S512x256 .bf16).view.set]{fullShare} f)
      ∗ reached ER (dcell (prv c) (csem cc0_scratch3 6 2 inb_S8x3_S1x1_6_2)) 0
      ∗ reached ER (dcell (prv c) (csem cc0_scratch5 6 2 inb_S8x3_S1x1_6_2)) 0
      ∗ (∃ f : Buf (Elt F) ((slotM 7 1 inb_S8x4x512x256_S1x1x512x256_7_1_0_0 : Memref sig .tc .vmem S512x256 .bf16).view.loc (prv c : Thread nD τ)), (slotM 7 1 inb_S8x4x512x256_S1x1x512x256_7_1_0_0 : Memref sig .tc .vmem S512x256 .bf16).view.loc (prv c : Thread nD τ) ↦[(slotM 7 1 inb_S8x4x512x256_S1x1x512x256_7_1_0_0 : Memref sig .tc .vmem S512x256 .bf16).view.set]{fullShare} f)
      ∗ (∃ f : Buf (Elt F) ((oblkM (k0_off17 c 0#32) (k0_off17_inb c 0) : Memref sig .tc .vmem S512x256 .bf16).view.loc (prv c : Thread nD τ)), (oblkM (k0_off17 c 0#32) (k0_off17_inb c 0) : Memref sig .tc .vmem S512x256 .bf16).view.loc (prv c : Thread nD τ) ↦[(oblkM (k0_off17 c 0#32) (k0_off17_inb c 0) : Memref sig .tc .vmem S512x256 .bf16).view.set]{fullShare} f)
      ∗ reached ER (dcell (prv c) (csem cc0_scratch3 7 0 inb_S8x3_S1x1_7_0)) 0
      ∗ reached ER (dcell (prv c) (csem cc0_scratch5 7 0 inb_S8x3_S1x1_7_0)) 0
      ∗ (∃ f : Buf (Elt F) ((slotM 7 2 inb_S8x4x512x256_S1x1x512x256_7_2_0_0 : Memref sig .tc .vmem S512x256 .bf16).view.loc (prv c : Thread nD τ)), (slotM 7 2 inb_S8x4x512x256_S1x1x512x256_7_2_0_0 : Memref sig .tc .vmem S512x256 .bf16).view.loc (prv c : Thread nD τ) ↦[(slotM 7 2 inb_S8x4x512x256_S1x1x512x256_7_2_0_0 : Memref sig .tc .vmem S512x256 .bf16).view.set]{fullShare} f)
      ∗ (∃ f : Buf (Elt F) ((oblkM (k0_off17 c 4294967295#32) (k0_off17_inb c 1) : Memref sig .tc .vmem S512x256 .bf16).view.loc (prv c : Thread nD τ)), (oblkM (k0_off17 c 4294967295#32) (k0_off17_inb c 1) : Memref sig .tc .vmem S512x256 .bf16).view.loc (prv c : Thread nD τ) ↦[(oblkM (k0_off17 c 4294967295#32) (k0_off17_inb c 1) : Memref sig .tc .vmem S512x256 .bf16).view.set]{fullShare} f)
      ∗ reached ER (dcell (prv c) (csem cc0_scratch3 7 1 inb_S8x3_S1x1_7_1)) 0
      ∗ reached ER (dcell (prv c) (csem cc0_scratch5 7 1 inb_S8x3_S1x1_7_1)) 0
      ∗ (∃ f : Buf (Elt F) ((slotM 7 3 inb_S8x4x512x256_S1x1x512x256_7_3_0_0 : Memref sig .tc .vmem S512x256 .bf16).view.loc (prv c : Thread nD τ)), (slotM 7 3 inb_S8x4x512x256_S1x1x512x256_7_3_0_0 : Memref sig .tc .vmem S512x256 .bf16).view.loc (prv c : Thread nD τ) ↦[(slotM 7 3 inb_S8x4x512x256_S1x1x512x256_7_3_0_0 : Memref sig .tc .vmem S512x256 .bf16).view.set]{fullShare} f)
      ∗ (∃ f : Buf (Elt F) ((oblkM (k0_off17 c 4294967294#32) (k0_off17_inb c 2) : Memref sig .tc .vmem S512x256 .bf16).view.loc (prv c : Thread nD τ)), (oblkM (k0_off17 c 4294967294#32) (k0_off17_inb c 2) : Memref sig .tc .vmem S512x256 .bf16).view.loc (prv c : Thread nD τ) ↦[(oblkM (k0_off17 c 4294967294#32) (k0_off17_inb c 2) : Memref sig .tc .vmem S512x256 .bf16).view.set]{fullShare} f)
      ∗ reached ER (dcell (prv c) (csem cc0_scratch3 7 2 inb_S8x3_S1x1_7_2)) 0
      ∗ reached ER (dcell (prv c) (csem cc0_scratch5 7 2 inb_S8x3_S1x1_7_2)) 0) : sProp 𝕄) := by
  rw [rest_bar_lit fa fb c]; simp only [sep_assoc_eq]

/-- The unit this device pays into its neighbour's barrier cell, leaf by leaf. -/
theorem payload_bar_prv_true_flat :
    (ringRd fa fb).payload (barCell (prv c)) 0 true =
      (iprop((∃ f : Buf (Elt F) ((slotM 0 1 inb_S8x4x512x256_S1x1x512x256_0_1_0_0 : Memref sig .tc .vmem S512x256 .bf16).view.loc (c : Thread nD τ)), (slotM 0 1 inb_S8x4x512x256_S1x1x512x256_0_1_0_0 : Memref sig .tc .vmem S512x256 .bf16).view.loc (c : Thread nD τ) ↦[(slotM 0 1 inb_S8x4x512x256_S1x1x512x256_0_1_0_0 : Memref sig .tc .vmem S512x256 .bf16).view.set]{fullShare} f)
      ∗ (∃ f : Buf (Elt F) ((oblkM (rowOff c 3 0) (rowOff_inb c 3 0 (by decide)) : Memref sig .tc .vmem S512x256 .bf16).view.loc (c : Thread nD τ)), (oblkM (rowOff c 3 0) (rowOff_inb c 3 0 (by decide)) : Memref sig .tc .vmem S512x256 .bf16).view.loc (c : Thread nD τ) ↦[(oblkM (rowOff c 3 0) (rowOff_inb c 3 0 (by decide)) : Memref sig .tc .vmem S512x256 .bf16).view.set]{fullShare} f)
      ∗ reached ER (dcell (c) (csem cc0_scratch3 0 0 inb_S8x3_S1x1_0_0)) 0
      ∗ reached ER (dcell (c) (csem cc0_scratch5 0 0 inb_S8x3_S1x1_0_0)) 0
      ∗ (∃ f : Buf (Elt F) ((slotM 0 2 inb_S8x4x512x256_S1x1x512x256_0_2_0_0 : Memref sig .tc .vmem S512x256 .bf16).view.loc (c : Thread nD τ)), (slotM 0 2 inb_S8x4x512x256_S1x1x512x256_0_2_0_0 : Memref sig .tc .vmem S512x256 .bf16).view.loc (c : Thread nD τ) ↦[(slotM 0 2 inb_S8x4x512x256_S1x1x512x256_0_2_0_0 : Memref sig .tc .vmem S512x256 .bf16).view.set]{fullShare} f)
      ∗ (∃ f : Buf (Elt F) ((oblkM (rowOff c 2 0) (rowOff_inb c 2 0 (by decide)) : Memref sig .tc .vmem S512x256 .bf16).view.loc (c : Thread nD τ)), (oblkM (rowOff c 2 0) (rowOff_inb c 2 0 (by decide)) : Memref sig .tc .vmem S512x256 .bf16).view.loc (c : Thread nD τ) ↦[(oblkM (rowOff c 2 0) (rowOff_inb c 2 0 (by decide)) : Memref sig .tc .vmem S512x256 .bf16).view.set]{fullShare} f)
      ∗ reached ER (dcell (c) (csem cc0_scratch3 0 1 inb_S8x3_S1x1_0_1)) 0
      ∗ reached ER (dcell (c) (csem cc0_scratch5 0 1 inb_S8x3_S1x1_0_1)) 0
      ∗ (∃ f : Buf (Elt F) ((slotM 0 3 inb_S8x4x512x256_S1x1x512x256_0_3_0_0 : Memref sig .tc .vmem S512x256 .bf16).view.loc (c : Thread nD τ)), (slotM 0 3 inb_S8x4x512x256_S1x1x512x256_0_3_0_0 : Memref sig .tc .vmem S512x256 .bf16).view.loc (c : Thread nD τ) ↦[(slotM 0 3 inb_S8x4x512x256_S1x1x512x256_0_3_0_0 : Memref sig .tc .vmem S512x256 .bf16).view.set]{fullShare} f)
      ∗ (∃ f : Buf (Elt F) ((oblkM (rowOff c 1 0) (rowOff_inb c 1 0 (by decide)) : Memref sig .tc .vmem S512x256 .bf16).view.loc (c : Thread nD τ)), (oblkM (rowOff c 1 0) (rowOff_inb c 1 0 (by decide)) : Memref sig .tc .vmem S512x256 .bf16).view.loc (c : Thread nD τ) ↦[(oblkM (rowOff c 1 0) (rowOff_inb c 1 0 (by decide)) : Memref sig .tc .vmem S512x256 .bf16).view.set]{fullShare} f)
      ∗ reached ER (dcell (c) (csem cc0_scratch3 0 2 inb_S8x3_S1x1_0_2)) 0
      ∗ reached ER (dcell (c) (csem cc0_scratch5 0 2 inb_S8x3_S1x1_0_2)) 0
      ∗ (∃ f : Buf (Elt F) ((slotM 1 1 inb_S8x4x512x256_S1x1x512x256_1_1_0_0 : Memref sig .tc .vmem S512x256 .bf16).view.loc (c : Thread nD τ)), (slotM 1 1 inb_S8x4x512x256_S1x1x512x256_1_1_0_0 : Memref sig .tc .vmem S512x256 .bf16).view.loc (c : Thread nD τ) ↦[(slotM 1 1 inb_S8x4x512x256_S1x1x512x256_1_1_0_0 : Memref sig .tc .vmem S512x256 .bf16).view.set]{fullShare} f)
      ∗ (∃ f : Buf (Elt F) ((oblkM (rowOff c 3 1) (rowOff_inb c 3 1 (by decide)) : Memref sig .tc .vmem S512x256 .bf16).view.loc (c : Thread nD τ)), (oblkM (rowOff c 3 1) (rowOff_inb c 3 1 (by decide)) : Memref sig .tc .vmem S512x256 .bf16).view.loc (c : Thread nD τ) ↦[(oblkM (rowOff c 3 1) (rowOff_inb c 3 1 (by decide)) : Memref sig .tc .vmem S512x256 .bf16).view.set]{fullShare} f)
      ∗ reached ER (dcell (c) (csem cc0_scratch3 1 0 inb_S8x3_S1x1_1_0)) 0
      ∗ reached ER (dcell (c) (csem cc0_scratch5 1 0 inb_S8x3_S1x1_1_0)) 0
      ∗ (∃ f : Buf (Elt F) ((slotM 1 2 inb_S8x4x512x256_S1x1x512x256_1_2_0_0 : Memref sig .tc .vmem S512x256 .bf16).view.loc (c : Thread nD τ)), (slotM 1 2 inb_S8x4x512x256_S1x1x512x256_1_2_0_0 : Memref sig .tc .vmem S512x256 .bf16).view.loc (c : Thread nD τ) ↦[(slotM 1 2 inb_S8x4x512x256_S1x1x512x256_1_2_0_0 : Memref sig .tc .vmem S512x256 .bf16).view.set]{fullShare} f)
      ∗ (∃ f : Buf (Elt F) ((oblkM (rowOff c 2 1) (rowOff_inb c 2 1 (by decide)) : Memref sig .tc .vmem S512x256 .bf16).view.loc (c : Thread nD τ)), (oblkM (rowOff c 2 1) (rowOff_inb c 2 1 (by decide)) : Memref sig .tc .vmem S512x256 .bf16).view.loc (c : Thread nD τ) ↦[(oblkM (rowOff c 2 1) (rowOff_inb c 2 1 (by decide)) : Memref sig .tc .vmem S512x256 .bf16).view.set]{fullShare} f)
      ∗ reached ER (dcell (c) (csem cc0_scratch3 1 1 inb_S8x3_S1x1_1_1)) 0
      ∗ reached ER (dcell (c) (csem cc0_scratch5 1 1 inb_S8x3_S1x1_1_1)) 0
      ∗ (∃ f : Buf (Elt F) ((slotM 1 3 inb_S8x4x512x256_S1x1x512x256_1_3_0_0 : Memref sig .tc .vmem S512x256 .bf16).view.loc (c : Thread nD τ)), (slotM 1 3 inb_S8x4x512x256_S1x1x512x256_1_3_0_0 : Memref sig .tc .vmem S512x256 .bf16).view.loc (c : Thread nD τ) ↦[(slotM 1 3 inb_S8x4x512x256_S1x1x512x256_1_3_0_0 : Memref sig .tc .vmem S512x256 .bf16).view.set]{fullShare} f)
      ∗ (∃ f : Buf (Elt F) ((oblkM (rowOff c 1 1) (rowOff_inb c 1 1 (by decide)) : Memref sig .tc .vmem S512x256 .bf16).view.loc (c : Thread nD τ)), (oblkM (rowOff c 1 1) (rowOff_inb c 1 1 (by decide)) : Memref sig .tc .vmem S512x256 .bf16).view.loc (c : Thread nD τ) ↦[(oblkM (rowOff c 1 1) (rowOff_inb c 1 1 (by decide)) : Memref sig .tc .vmem S512x256 .bf16).view.set]{fullShare} f)
      ∗ reached ER (dcell (c) (csem cc0_scratch3 1 2 inb_S8x3_S1x1_1_2)) 0
      ∗ reached ER (dcell (c) (csem cc0_scratch5 1 2 inb_S8x3_S1x1_1_2)) 0
      ∗ (∃ f : Buf (Elt F) ((slotM 2 1 inb_S8x4x512x256_S1x1x512x256_2_1_0_0 : Memref sig .tc .vmem S512x256 .bf16).view.loc (c : Thread nD τ)), (slotM 2 1 inb_S8x4x512x256_S1x1x512x256_2_1_0_0 : Memref sig .tc .vmem S512x256 .bf16).view.loc (c : Thread nD τ) ↦[(slotM 2 1 inb_S8x4x512x256_S1x1x512x256_2_1_0_0 : Memref sig .tc .vmem S512x256 .bf16).view.set]{fullShare} f)
      ∗ (∃ f : Buf (Elt F) ((oblkM (rowOff c 3 2) (rowOff_inb c 3 2 (by decide)) : Memref sig .tc .vmem S512x256 .bf16).view.loc (c : Thread nD τ)), (oblkM (rowOff c 3 2) (rowOff_inb c 3 2 (by decide)) : Memref sig .tc .vmem S512x256 .bf16).view.loc (c : Thread nD τ) ↦[(oblkM (rowOff c 3 2) (rowOff_inb c 3 2 (by decide)) : Memref sig .tc .vmem S512x256 .bf16).view.set]{fullShare} f)
      ∗ reached ER (dcell (c) (csem cc0_scratch3 2 0 inb_S8x3_S1x1_2_0)) 0
      ∗ reached ER (dcell (c) (csem cc0_scratch5 2 0 inb_S8x3_S1x1_2_0)) 0
      ∗ (∃ f : Buf (Elt F) ((slotM 2 2 inb_S8x4x512x256_S1x1x512x256_2_2_0_0 : Memref sig .tc .vmem S512x256 .bf16).view.loc (c : Thread nD τ)), (slotM 2 2 inb_S8x4x512x256_S1x1x512x256_2_2_0_0 : Memref sig .tc .vmem S512x256 .bf16).view.loc (c : Thread nD τ) ↦[(slotM 2 2 inb_S8x4x512x256_S1x1x512x256_2_2_0_0 : Memref sig .tc .vmem S512x256 .bf16).view.set]{fullShare} f)
      ∗ (∃ f : Buf (Elt F) ((oblkM (rowOff c 2 2) (rowOff_inb c 2 2 (by decide)) : Memref sig .tc .vmem S512x256 .bf16).view.loc (c : Thread nD τ)), (oblkM (rowOff c 2 2) (rowOff_inb c 2 2 (by decide)) : Memref sig .tc .vmem S512x256 .bf16).view.loc (c : Thread nD τ) ↦[(oblkM (rowOff c 2 2) (rowOff_inb c 2 2 (by decide)) : Memref sig .tc .vmem S512x256 .bf16).view.set]{fullShare} f)
      ∗ reached ER (dcell (c) (csem cc0_scratch3 2 1 inb_S8x3_S1x1_2_1)) 0
      ∗ reached ER (dcell (c) (csem cc0_scratch5 2 1 inb_S8x3_S1x1_2_1)) 0
      ∗ (∃ f : Buf (Elt F) ((slotM 2 3 inb_S8x4x512x256_S1x1x512x256_2_3_0_0 : Memref sig .tc .vmem S512x256 .bf16).view.loc (c : Thread nD τ)), (slotM 2 3 inb_S8x4x512x256_S1x1x512x256_2_3_0_0 : Memref sig .tc .vmem S512x256 .bf16).view.loc (c : Thread nD τ) ↦[(slotM 2 3 inb_S8x4x512x256_S1x1x512x256_2_3_0_0 : Memref sig .tc .vmem S512x256 .bf16).view.set]{fullShare} f)
      ∗ (∃ f : Buf (Elt F) ((oblkM (rowOff c 1 2) (rowOff_inb c 1 2 (by decide)) : Memref sig .tc .vmem S512x256 .bf16).view.loc (c : Thread nD τ)), (oblkM (rowOff c 1 2) (rowOff_inb c 1 2 (by decide)) : Memref sig .tc .vmem S512x256 .bf16).view.loc (c : Thread nD τ) ↦[(oblkM (rowOff c 1 2) (rowOff_inb c 1 2 (by decide)) : Memref sig .tc .vmem S512x256 .bf16).view.set]{fullShare} f)
      ∗ reached ER (dcell (c) (csem cc0_scratch3 2 2 inb_S8x3_S1x1_2_2)) 0
      ∗ reached ER (dcell (c) (csem cc0_scratch5 2 2 inb_S8x3_S1x1_2_2)) 0
      ∗ (∃ f : Buf (Elt F) ((slotM 3 1 inb_S8x4x512x256_S1x1x512x256_3_1_0_0 : Memref sig .tc .vmem S512x256 .bf16).view.loc (c : Thread nD τ)), (slotM 3 1 inb_S8x4x512x256_S1x1x512x256_3_1_0_0 : Memref sig .tc .vmem S512x256 .bf16).view.loc (c : Thread nD τ) ↦[(slotM 3 1 inb_S8x4x512x256_S1x1x512x256_3_1_0_0 : Memref sig .tc .vmem S512x256 .bf16).view.set]{fullShare} f)
      ∗ (∃ f : Buf (Elt F) ((oblkM (rowOff c 3 3) (rowOff_inb c 3 3 (by decide)) : Memref sig .tc .vmem S512x256 .bf16).view.loc (c : Thread nD τ)), (oblkM (rowOff c 3 3) (rowOff_inb c 3 3 (by decide)) : Memref sig .tc .vmem S512x256 .bf16).view.loc (c : Thread nD τ) ↦[(oblkM (rowOff c 3 3) (rowOff_inb c 3 3 (by decide)) : Memref sig .tc .vmem S512x256 .bf16).view.set]{fullShare} f)
      ∗ reached ER (dcell (c) (csem cc0_scratch3 3 0 inb_S8x3_S1x1_3_0)) 0
      ∗ reached ER (dcell (c) (csem cc0_scratch5 3 0 inb_S8x3_S1x1_3_0)) 0
      ∗ (∃ f : Buf (Elt F) ((slotM 3 2 inb_S8x4x512x256_S1x1x512x256_3_2_0_0 : Memref sig .tc .vmem S512x256 .bf16).view.loc (c : Thread nD τ)), (slotM 3 2 inb_S8x4x512x256_S1x1x512x256_3_2_0_0 : Memref sig .tc .vmem S512x256 .bf16).view.loc (c : Thread nD τ) ↦[(slotM 3 2 inb_S8x4x512x256_S1x1x512x256_3_2_0_0 : Memref sig .tc .vmem S512x256 .bf16).view.set]{fullShare} f)
      ∗ (∃ f : Buf (Elt F) ((oblkM (rowOff c 2 3) (rowOff_inb c 2 3 (by decide)) : Memref sig .tc .vmem S512x256 .bf16).view.loc (c : Thread nD τ)), (oblkM (rowOff c 2 3) (rowOff_inb c 2 3 (by decide)) : Memref sig .tc .vmem S512x256 .bf16).view.loc (c : Thread nD τ) ↦[(oblkM (rowOff c 2 3) (rowOff_inb c 2 3 (by decide)) : Memref sig .tc .vmem S512x256 .bf16).view.set]{fullShare} f)
      ∗ reached ER (dcell (c) (csem cc0_scratch3 3 1 inb_S8x3_S1x1_3_1)) 0
      ∗ reached ER (dcell (c) (csem cc0_scratch5 3 1 inb_S8x3_S1x1_3_1)) 0
      ∗ (∃ f : Buf (Elt F) ((slotM 3 3 inb_S8x4x512x256_S1x1x512x256_3_3_0_0 : Memref sig .tc .vmem S512x256 .bf16).view.loc (c : Thread nD τ)), (slotM 3 3 inb_S8x4x512x256_S1x1x512x256_3_3_0_0 : Memref sig .tc .vmem S512x256 .bf16).view.loc (c : Thread nD τ) ↦[(slotM 3 3 inb_S8x4x512x256_S1x1x512x256_3_3_0_0 : Memref sig .tc .vmem S512x256 .bf16).view.set]{fullShare} f)
      ∗ (∃ f : Buf (Elt F) ((oblkM (rowOff c 1 3) (rowOff_inb c 1 3 (by decide)) : Memref sig .tc .vmem S512x256 .bf16).view.loc (c : Thread nD τ)), (oblkM (rowOff c 1 3) (rowOff_inb c 1 3 (by decide)) : Memref sig .tc .vmem S512x256 .bf16).view.loc (c : Thread nD τ) ↦[(oblkM (rowOff c 1 3) (rowOff_inb c 1 3 (by decide)) : Memref sig .tc .vmem S512x256 .bf16).view.set]{fullShare} f)
      ∗ reached ER (dcell (c) (csem cc0_scratch3 3 2 inb_S8x3_S1x1_3_2)) 0
      ∗ reached ER (dcell (c) (csem cc0_scratch5 3 2 inb_S8x3_S1x1_3_2)) 0) : sProp 𝕄) := by
  rw [payload_bar_prv_true_lit fa fb c]; simp only [sep_assoc_eq]

/-- The unit this device pays into its neighbour's barrier cell, leaf by leaf. -/
theorem payload_bar_nxt_false_flat :
    (ringRd fa fb).payload (barCell (nxt c)) 0 false =
      (iprop((∃ f : Buf (Elt F) ((slotM 4 1 inb_S8x4x512x256_S1x1x512x256_4_1_0_0 : Memref sig .tc .vmem S512x256 .bf16).view.loc (c : Thread nD τ)), (slotM 4 1 inb_S8x4x512x256_S1x1x512x256_4_1_0_0 : Memref sig .tc .vmem S512x256 .bf16).view.loc (c : Thread nD τ) ↦[(slotM 4 1 inb_S8x4x512x256_S1x1x512x256_4_1_0_0 : Memref sig .tc .vmem S512x256 .bf16).view.set]{fullShare} f)
      ∗ (∃ f : Buf (Elt F) ((oblkM (rowOff c 1 4) (rowOff_inb c 1 4 (by decide)) : Memref sig .tc .vmem S512x256 .bf16).view.loc (c : Thread nD τ)), (oblkM (rowOff c 1 4) (rowOff_inb c 1 4 (by decide)) : Memref sig .tc .vmem S512x256 .bf16).view.loc (c : Thread nD τ) ↦[(oblkM (rowOff c 1 4) (rowOff_inb c 1 4 (by decide)) : Memref sig .tc .vmem S512x256 .bf16).view.set]{fullShare} f)
      ∗ reached ER (dcell (c) (csem cc0_scratch3 4 0 inb_S8x3_S1x1_4_0)) 0
      ∗ reached ER (dcell (c) (csem cc0_scratch5 4 0 inb_S8x3_S1x1_4_0)) 0
      ∗ (∃ f : Buf (Elt F) ((slotM 4 2 inb_S8x4x512x256_S1x1x512x256_4_2_0_0 : Memref sig .tc .vmem S512x256 .bf16).view.loc (c : Thread nD τ)), (slotM 4 2 inb_S8x4x512x256_S1x1x512x256_4_2_0_0 : Memref sig .tc .vmem S512x256 .bf16).view.loc (c : Thread nD τ) ↦[(slotM 4 2 inb_S8x4x512x256_S1x1x512x256_4_2_0_0 : Memref sig .tc .vmem S512x256 .bf16).view.set]{fullShare} f)
      ∗ (∃ f : Buf (Elt F) ((oblkM (rowOff c 2 4) (rowOff_inb c 2 4 (by decide)) : Memref sig .tc .vmem S512x256 .bf16).view.loc (c : Thread nD τ)), (oblkM (rowOff c 2 4) (rowOff_inb c 2 4 (by decide)) : Memref sig .tc .vmem S512x256 .bf16).view.loc (c : Thread nD τ) ↦[(oblkM (rowOff c 2 4) (rowOff_inb c 2 4 (by decide)) : Memref sig .tc .vmem S512x256 .bf16).view.set]{fullShare} f)
      ∗ reached ER (dcell (c) (csem cc0_scratch3 4 1 inb_S8x3_S1x1_4_1)) 0
      ∗ reached ER (dcell (c) (csem cc0_scratch5 4 1 inb_S8x3_S1x1_4_1)) 0
      ∗ (∃ f : Buf (Elt F) ((slotM 4 3 inb_S8x4x512x256_S1x1x512x256_4_3_0_0 : Memref sig .tc .vmem S512x256 .bf16).view.loc (c : Thread nD τ)), (slotM 4 3 inb_S8x4x512x256_S1x1x512x256_4_3_0_0 : Memref sig .tc .vmem S512x256 .bf16).view.loc (c : Thread nD τ) ↦[(slotM 4 3 inb_S8x4x512x256_S1x1x512x256_4_3_0_0 : Memref sig .tc .vmem S512x256 .bf16).view.set]{fullShare} f)
      ∗ (∃ f : Buf (Elt F) ((oblkM (rowOff c 3 4) (rowOff_inb c 3 4 (by decide)) : Memref sig .tc .vmem S512x256 .bf16).view.loc (c : Thread nD τ)), (oblkM (rowOff c 3 4) (rowOff_inb c 3 4 (by decide)) : Memref sig .tc .vmem S512x256 .bf16).view.loc (c : Thread nD τ) ↦[(oblkM (rowOff c 3 4) (rowOff_inb c 3 4 (by decide)) : Memref sig .tc .vmem S512x256 .bf16).view.set]{fullShare} f)
      ∗ reached ER (dcell (c) (csem cc0_scratch3 4 2 inb_S8x3_S1x1_4_2)) 0
      ∗ reached ER (dcell (c) (csem cc0_scratch5 4 2 inb_S8x3_S1x1_4_2)) 0
      ∗ (∃ f : Buf (Elt F) ((slotM 5 1 inb_S8x4x512x256_S1x1x512x256_5_1_0_0 : Memref sig .tc .vmem S512x256 .bf16).view.loc (c : Thread nD τ)), (slotM 5 1 inb_S8x4x512x256_S1x1x512x256_5_1_0_0 : Memref sig .tc .vmem S512x256 .bf16).view.loc (c : Thread nD τ) ↦[(slotM 5 1 inb_S8x4x512x256_S1x1x512x256_5_1_0_0 : Memref sig .tc .vmem S512x256 .bf16).view.set]{fullShare} f)
      ∗ (∃ f : Buf (Elt F) ((oblkM (rowOff c 1 5) (rowOff_inb c 1 5 (by decide)) : Memref sig .tc .vmem S512x256 .bf16).view.loc (c : Thread nD τ)), (oblkM (rowOff c 1 5) (rowOff_inb c 1 5 (by decide)) : Memref sig .tc .vmem S512x256 .bf16).view.loc (c : Thread nD τ) ↦[(oblkM (rowOff c 1 5) (rowOff_inb c 1 5 (by decide)) : Memref sig .tc .vmem S512x256 .bf16).view.set]{fullShare} f)
      ∗ reached ER (dcell (c) (csem cc0_scratch3 5 0 inb_S8x3_S1x1_5_0)) 0
      ∗ reached ER (dcell (c) (csem cc0_scratch5 5 0 inb_S8x3_S1x1_5_0)) 0
      ∗ (∃ f : Buf (Elt F) ((slotM 5 2 inb_S8x4x512x256_S1x1x512x256_5_2_0_0 : Memref sig .tc .vmem S512x256 .bf16).view.loc (c : Thread nD τ)), (slotM 5 2 inb_S8x4x512x256_S1x1x512x256_5_2_0_0 : Memref sig .tc .vmem S512x256 .bf16).view.loc (c : Thread nD τ) ↦[(slotM 5 2 inb_S8x4x512x256_S1x1x512x256_5_2_0_0 : Memref sig .tc .vmem S512x256 .bf16).view.set]{fullShare} f)
      ∗ (∃ f : Buf (Elt F) ((oblkM (rowOff c 2 5) (rowOff_inb c 2 5 (by decide)) : Memref sig .tc .vmem S512x256 .bf16).view.loc (c : Thread nD τ)), (oblkM (rowOff c 2 5) (rowOff_inb c 2 5 (by decide)) : Memref sig .tc .vmem S512x256 .bf16).view.loc (c : Thread nD τ) ↦[(oblkM (rowOff c 2 5) (rowOff_inb c 2 5 (by decide)) : Memref sig .tc .vmem S512x256 .bf16).view.set]{fullShare} f)
      ∗ reached ER (dcell (c) (csem cc0_scratch3 5 1 inb_S8x3_S1x1_5_1)) 0
      ∗ reached ER (dcell (c) (csem cc0_scratch5 5 1 inb_S8x3_S1x1_5_1)) 0
      ∗ (∃ f : Buf (Elt F) ((slotM 5 3 inb_S8x4x512x256_S1x1x512x256_5_3_0_0 : Memref sig .tc .vmem S512x256 .bf16).view.loc (c : Thread nD τ)), (slotM 5 3 inb_S8x4x512x256_S1x1x512x256_5_3_0_0 : Memref sig .tc .vmem S512x256 .bf16).view.loc (c : Thread nD τ) ↦[(slotM 5 3 inb_S8x4x512x256_S1x1x512x256_5_3_0_0 : Memref sig .tc .vmem S512x256 .bf16).view.set]{fullShare} f)
      ∗ (∃ f : Buf (Elt F) ((oblkM (rowOff c 3 5) (rowOff_inb c 3 5 (by decide)) : Memref sig .tc .vmem S512x256 .bf16).view.loc (c : Thread nD τ)), (oblkM (rowOff c 3 5) (rowOff_inb c 3 5 (by decide)) : Memref sig .tc .vmem S512x256 .bf16).view.loc (c : Thread nD τ) ↦[(oblkM (rowOff c 3 5) (rowOff_inb c 3 5 (by decide)) : Memref sig .tc .vmem S512x256 .bf16).view.set]{fullShare} f)
      ∗ reached ER (dcell (c) (csem cc0_scratch3 5 2 inb_S8x3_S1x1_5_2)) 0
      ∗ reached ER (dcell (c) (csem cc0_scratch5 5 2 inb_S8x3_S1x1_5_2)) 0
      ∗ (∃ f : Buf (Elt F) ((slotM 6 1 inb_S8x4x512x256_S1x1x512x256_6_1_0_0 : Memref sig .tc .vmem S512x256 .bf16).view.loc (c : Thread nD τ)), (slotM 6 1 inb_S8x4x512x256_S1x1x512x256_6_1_0_0 : Memref sig .tc .vmem S512x256 .bf16).view.loc (c : Thread nD τ) ↦[(slotM 6 1 inb_S8x4x512x256_S1x1x512x256_6_1_0_0 : Memref sig .tc .vmem S512x256 .bf16).view.set]{fullShare} f)
      ∗ (∃ f : Buf (Elt F) ((oblkM (rowOff c 1 6) (rowOff_inb c 1 6 (by decide)) : Memref sig .tc .vmem S512x256 .bf16).view.loc (c : Thread nD τ)), (oblkM (rowOff c 1 6) (rowOff_inb c 1 6 (by decide)) : Memref sig .tc .vmem S512x256 .bf16).view.loc (c : Thread nD τ) ↦[(oblkM (rowOff c 1 6) (rowOff_inb c 1 6 (by decide)) : Memref sig .tc .vmem S512x256 .bf16).view.set]{fullShare} f)
      ∗ reached ER (dcell (c) (csem cc0_scratch3 6 0 inb_S8x3_S1x1_6_0)) 0
      ∗ reached ER (dcell (c) (csem cc0_scratch5 6 0 inb_S8x3_S1x1_6_0)) 0
      ∗ (∃ f : Buf (Elt F) ((slotM 6 2 inb_S8x4x512x256_S1x1x512x256_6_2_0_0 : Memref sig .tc .vmem S512x256 .bf16).view.loc (c : Thread nD τ)), (slotM 6 2 inb_S8x4x512x256_S1x1x512x256_6_2_0_0 : Memref sig .tc .vmem S512x256 .bf16).view.loc (c : Thread nD τ) ↦[(slotM 6 2 inb_S8x4x512x256_S1x1x512x256_6_2_0_0 : Memref sig .tc .vmem S512x256 .bf16).view.set]{fullShare} f)
      ∗ (∃ f : Buf (Elt F) ((oblkM (rowOff c 2 6) (rowOff_inb c 2 6 (by decide)) : Memref sig .tc .vmem S512x256 .bf16).view.loc (c : Thread nD τ)), (oblkM (rowOff c 2 6) (rowOff_inb c 2 6 (by decide)) : Memref sig .tc .vmem S512x256 .bf16).view.loc (c : Thread nD τ) ↦[(oblkM (rowOff c 2 6) (rowOff_inb c 2 6 (by decide)) : Memref sig .tc .vmem S512x256 .bf16).view.set]{fullShare} f)
      ∗ reached ER (dcell (c) (csem cc0_scratch3 6 1 inb_S8x3_S1x1_6_1)) 0
      ∗ reached ER (dcell (c) (csem cc0_scratch5 6 1 inb_S8x3_S1x1_6_1)) 0
      ∗ (∃ f : Buf (Elt F) ((slotM 6 3 inb_S8x4x512x256_S1x1x512x256_6_3_0_0 : Memref sig .tc .vmem S512x256 .bf16).view.loc (c : Thread nD τ)), (slotM 6 3 inb_S8x4x512x256_S1x1x512x256_6_3_0_0 : Memref sig .tc .vmem S512x256 .bf16).view.loc (c : Thread nD τ) ↦[(slotM 6 3 inb_S8x4x512x256_S1x1x512x256_6_3_0_0 : Memref sig .tc .vmem S512x256 .bf16).view.set]{fullShare} f)
      ∗ (∃ f : Buf (Elt F) ((oblkM (rowOff c 3 6) (rowOff_inb c 3 6 (by decide)) : Memref sig .tc .vmem S512x256 .bf16).view.loc (c : Thread nD τ)), (oblkM (rowOff c 3 6) (rowOff_inb c 3 6 (by decide)) : Memref sig .tc .vmem S512x256 .bf16).view.loc (c : Thread nD τ) ↦[(oblkM (rowOff c 3 6) (rowOff_inb c 3 6 (by decide)) : Memref sig .tc .vmem S512x256 .bf16).view.set]{fullShare} f)
      ∗ reached ER (dcell (c) (csem cc0_scratch3 6 2 inb_S8x3_S1x1_6_2)) 0
      ∗ reached ER (dcell (c) (csem cc0_scratch5 6 2 inb_S8x3_S1x1_6_2)) 0
      ∗ (∃ f : Buf (Elt F) ((slotM 7 1 inb_S8x4x512x256_S1x1x512x256_7_1_0_0 : Memref sig .tc .vmem S512x256 .bf16).view.loc (c : Thread nD τ)), (slotM 7 1 inb_S8x4x512x256_S1x1x512x256_7_1_0_0 : Memref sig .tc .vmem S512x256 .bf16).view.loc (c : Thread nD τ) ↦[(slotM 7 1 inb_S8x4x512x256_S1x1x512x256_7_1_0_0 : Memref sig .tc .vmem S512x256 .bf16).view.set]{fullShare} f)
      ∗ (∃ f : Buf (Elt F) ((oblkM (rowOff c 1 7) (rowOff_inb c 1 7 (by decide)) : Memref sig .tc .vmem S512x256 .bf16).view.loc (c : Thread nD τ)), (oblkM (rowOff c 1 7) (rowOff_inb c 1 7 (by decide)) : Memref sig .tc .vmem S512x256 .bf16).view.loc (c : Thread nD τ) ↦[(oblkM (rowOff c 1 7) (rowOff_inb c 1 7 (by decide)) : Memref sig .tc .vmem S512x256 .bf16).view.set]{fullShare} f)
      ∗ reached ER (dcell (c) (csem cc0_scratch3 7 0 inb_S8x3_S1x1_7_0)) 0
      ∗ reached ER (dcell (c) (csem cc0_scratch5 7 0 inb_S8x3_S1x1_7_0)) 0
      ∗ (∃ f : Buf (Elt F) ((slotM 7 2 inb_S8x4x512x256_S1x1x512x256_7_2_0_0 : Memref sig .tc .vmem S512x256 .bf16).view.loc (c : Thread nD τ)), (slotM 7 2 inb_S8x4x512x256_S1x1x512x256_7_2_0_0 : Memref sig .tc .vmem S512x256 .bf16).view.loc (c : Thread nD τ) ↦[(slotM 7 2 inb_S8x4x512x256_S1x1x512x256_7_2_0_0 : Memref sig .tc .vmem S512x256 .bf16).view.set]{fullShare} f)
      ∗ (∃ f : Buf (Elt F) ((oblkM (rowOff c 2 7) (rowOff_inb c 2 7 (by decide)) : Memref sig .tc .vmem S512x256 .bf16).view.loc (c : Thread nD τ)), (oblkM (rowOff c 2 7) (rowOff_inb c 2 7 (by decide)) : Memref sig .tc .vmem S512x256 .bf16).view.loc (c : Thread nD τ) ↦[(oblkM (rowOff c 2 7) (rowOff_inb c 2 7 (by decide)) : Memref sig .tc .vmem S512x256 .bf16).view.set]{fullShare} f)
      ∗ reached ER (dcell (c) (csem cc0_scratch3 7 1 inb_S8x3_S1x1_7_1)) 0
      ∗ reached ER (dcell (c) (csem cc0_scratch5 7 1 inb_S8x3_S1x1_7_1)) 0
      ∗ (∃ f : Buf (Elt F) ((slotM 7 3 inb_S8x4x512x256_S1x1x512x256_7_3_0_0 : Memref sig .tc .vmem S512x256 .bf16).view.loc (c : Thread nD τ)), (slotM 7 3 inb_S8x4x512x256_S1x1x512x256_7_3_0_0 : Memref sig .tc .vmem S512x256 .bf16).view.loc (c : Thread nD τ) ↦[(slotM 7 3 inb_S8x4x512x256_S1x1x512x256_7_3_0_0 : Memref sig .tc .vmem S512x256 .bf16).view.set]{fullShare} f)
      ∗ (∃ f : Buf (Elt F) ((oblkM (rowOff c 3 7) (rowOff_inb c 3 7 (by decide)) : Memref sig .tc .vmem S512x256 .bf16).view.loc (c : Thread nD τ)), (oblkM (rowOff c 3 7) (rowOff_inb c 3 7 (by decide)) : Memref sig .tc .vmem S512x256 .bf16).view.loc (c : Thread nD τ) ↦[(oblkM (rowOff c 3 7) (rowOff_inb c 3 7 (by decide)) : Memref sig .tc .vmem S512x256 .bf16).view.set]{fullShare} f)
      ∗ reached ER (dcell (c) (csem cc0_scratch3 7 2 inb_S8x3_S1x1_7_2)) 0
      ∗ reached ER (dcell (c) (csem cc0_scratch5 7 2 inb_S8x3_S1x1_7_2)) 0) : sProp 𝕄) := by
  rw [payload_bar_nxt_false_lit fa fb c]; simp only [sep_assoc_eq]

end Flat

end Cert.KernelIdeal.P

end
-- ==== Proof.Reads.lean ====
import proofs.«900901_g7700000000000902_dist_matmul_silu_kshard_i_m2048_n2048_k1024_v7x_i4_bf16_1_alg».proof.Proof.Proto
import Idealize.ShloMosaic.Lib.Pipeline.Value

/-!
What a device reads from its staged operands, named.

The left operand's staging buffer is read 512 rows at a time, at the row offset a chain of integer
operations computes from the device's position and a word `w`: the rows of band `(c - w) mod 4`. At
the closed form of that offset the load is the named row band `aRows`.

The right operand is narrowed once to the transport format and kept in a scratch buffer; a load of 256
of its columns then reads the columns of the narrowed block, `bCols`.
-/

noncomputable section

namespace Cert.KernelIdeal.P

open Cert.KernelIdeal Cert.KernelIdeal.Gen Idealize.ShloMosaic

variable {F : FTy → Type} [FloatOps F]

/-! ## The row bands of the left operand -/

/-- The rows read at the word `1#32` are band `chunk c 3`. -/
theorem aRead_1 (c : Dev nD) (fa : AT F) (h : ∀ a, k0_off1 c 1#32 a + S512x1024.size a ≤ S2048x1024.size a) :
    View.readAt (Elt F) aM.view (Rect.unit (s := S2048x1024) (k0_off1 c 1#32) S512x1024.size h).toLoadRect fa
      = aRows fa (chunk c 3) (chunk_lt _ _) :=
  View.readAt_unit_congr aM.view (off1_eq_1 c) h _ fa
/-- The rows read at the word `4294967295#32` are band `chunk c 1`. -/
theorem aRead_m1 (c : Dev nD) (fa : AT F) (h : ∀ a, k0_off1 c 4294967295#32 a + S512x1024.size a ≤ S2048x1024.size a) :
    View.readAt (Elt F) aM.view (Rect.unit (s := S2048x1024) (k0_off1 c 4294967295#32) S512x1024.size h).toLoadRect fa
      = aRows fa (chunk c 1) (chunk_lt _ _) :=
  View.readAt_unit_congr aM.view (off1_eq_m1 c) h _ fa
/-- The rows read at the word `2#32` are band `chunk c 2`. -/
theorem aRead_2 (c : Dev nD) (fa : AT F) (h : ∀ a, k0_off1 c 2#32 a + S512x1024.size a ≤ S2048x1024.size a) :
    View.readAt (Elt F) aM.view (Rect.unit (s := S2048x1024) (k0_off1 c 2#32) S512x1024.size h).toLoadRect fa
      = aRows fa (chunk c 2) (chunk_lt _ _) :=
  View.readAt_unit_congr aM.view (off1_eq_2 c) h _ fa
/-- The rows read at the word `4294967294#32` are band `chunk c 2`. -/
theorem aRead_m2 (c : Dev nD) (fa : AT F) (h : ∀ a, k0_off1 c 4294967294#32 a + S512x1024.size a ≤ S2048x1024.size a) :
    View.readAt (Elt F) aM.view (Rect.unit (s := S2048x1024) (k0_off1 c 4294967294#32) S512x1024.size h).toLoadRect fa
      = aRows fa (chunk c 2) (chunk_lt _ _) :=
  View.readAt_unit_congr aM.view (off1_eq_m2 c) h _ fa
/-- The rows read at the word `3#32` are band `chunk c 1`. -/
theorem aRead_3 (c : Dev nD) (fa : AT F) (h : ∀ a, k0_off1 c 3#32 a + S512x1024.size a ≤ S2048x1024.size a) :
    View.readAt (Elt F) aM.view (Rect.unit (s := S2048x1024) (k0_off1 c 3#32) S512x1024.size h).toLoadRect fa
      = aRows fa (chunk c 1) (chunk_lt _ _) :=
  View.readAt_unit_congr aM.view (off1_eq_3 c) h _ fa
/-- The rows read at the word `4294967293#32` are band `chunk c 3`. -/
theorem aRead_m3 (c : Dev nD) (fa : AT F) (h : ∀ a, k0_off1 c 4294967293#32 a + S512x1024.size a ≤ S2048x1024.size a) :
    View.readAt (Elt F) aM.view (Rect.unit (s := S2048x1024) (k0_off1 c 4294967293#32) S512x1024.size h).toLoadRect fa
      = aRows fa (chunk c 3) (chunk_lt _ _) :=
  View.readAt_unit_congr aM.view (off1_eq_m3 c) h _ fa
/-- The rows read at the word `4#32` are band `chunk c 0`. -/
theorem aRead_4 (c : Dev nD) (fa : AT F) (h : ∀ a, k0_off1 c 4#32 a + S512x1024.size a ≤ S2048x1024.size a) :
    View.readAt (Elt F) aM.view (Rect.unit (s := S2048x1024) (k0_off1 c 4#32) S512x1024.size h).toLoadRect fa
      = aRows fa (chunk c 0) (chunk_lt _ _) :=
  View.readAt_unit_congr aM.view (off1_eq_4 c) h _ fa
/-- The rows read at the word `4294967292#32` are band `chunk c 0`. -/
theorem aRead_m4 (c : Dev nD) (fa : AT F) (h : ∀ a, k0_off1 c 4294967292#32 a + S512x1024.size a ≤ S2048x1024.size a) :
    View.readAt (Elt F) aM.view (Rect.unit (s := S2048x1024) (k0_off1 c 4294967292#32) S512x1024.size h).toLoadRect fa
      = aRows fa (chunk c 0) (chunk_lt _ _) :=
  View.readAt_unit_congr aM.view (off1_eq_m4 c) h _ fa

/-! ## The right operand -/

/-- A load of the whole staging buffer of the right operand reads its contents. -/
theorem readAt_whole_b (fb : BT F) :
    View.readAt (Elt F) bM.view (Rect.unit (s := S1024x2048) ![0, 0] S1024x2048.size inb_S1024x2048_S1024x2048_0_0).toLoadRect fb = fb :=
  Memref.readAt_unit_zero (Elt F) cc0_stg1_0 (by funext a; fin_cases a <;> rfl) _ fb

/-- The one piece the narrowing leaves in the scratch copy: the whole buffer, holding the narrowed block. -/
abbrev bPiece (fb : BT F) : View.Piece (Elt F) S1024x2048 .bf16 :=
  ⟨Rect.unit (s := S1024x2048) ![0, 0] S1024x2048.size inb_S1024x2048_S1024x2048_0_0,
    k0_pay1 (View.readAt (Elt F) bM.view (Rect.unit (s := S1024x2048) ![0, 0] S1024x2048.size inb_S1024x2048_S1024x2048_0_0).toLoadRect fb)⟩

/-- The scratch copy after the one whole-buffer store holds the narrowed block, whatever it held before. -/
theorem writes_bPiece (fb : BT F) (g : BbT F) : bbM.view.writes (Elt F) g [bPiece fb] = bBf fb := by
  rw [View.writes_singleton, readAt_whole_b]
  exact Memref.write_access_unit_zero_univ (Elt F) cc0_scratch1 (by funext a; fin_cases a <;> rfl) _ g (k0_pay1 fb)

/-- A load of any box from the scratch copy after that store reads the narrowed block there. -/
theorem readCov_bPiece (fb : BT F) (B : LoadRect S1024x2048) :
    bbM.view.readCov [bPiece fb] B = bbM.view.readAt (Elt F) B (bBf fb) := by
  unfold View.readCov
  rw [writes_bPiece]

/-- Columns `256 a … 256 a + 255` of the scratch copy, with the column offset written as the product. -/
theorem bRead (a : ℕ) (ha : a < 8) (fb : BT F)
    (hcol : ∀ i, (![0, 256 * a] : Fin 2 → ℕ) i + S1024x256.size i ≤ S1024x2048.size i) :
    bbM.view.readCov [bPiece fb] (Rect.unit (s := S1024x2048) ![0, 256 * a] S1024x256.size hcol).toLoadRect = bCols fb a ha :=
  readCov_bPiece fb _

theorem bRead_0 (fb : BT F) (hcol : ∀ i, (![0, 0] : Fin 2 → ℕ) i + S1024x256.size i ≤ S1024x2048.size i) :
    bbM.view.readCov [⟨Rect.unit (s := S1024x2048) ![0, 0] S1024x2048.size inb_S1024x2048_S1024x2048_0_0,
        k0_pay1 (View.readAt (Elt F) bM.view (Rect.unit (s := S1024x2048) ![0, 0] S1024x2048.size inb_S1024x2048_S1024x2048_0_0).toLoadRect fb)⟩]
      (Rect.unit (s := S1024x2048) ![0, 0] S1024x256.size hcol).toLoadRect = bCols fb 0 (by decide) :=
  bRead 0 (by decide) fb hcol
theorem bRead_1 (fb : BT F) (hcol : ∀ i, (![0, 256] : Fin 2 → ℕ) i + S1024x256.size i ≤ S1024x2048.size i) :
    bbM.view.readCov [⟨Rect.unit (s := S1024x2048) ![0, 0] S1024x2048.size inb_S1024x2048_S1024x2048_0_0,
        k0_pay1 (View.readAt (Elt F) bM.view (Rect.unit (s := S1024x2048) ![0, 0] S1024x2048.size inb_S1024x2048_S1024x2048_0_0).toLoadRect fb)⟩]
      (Rect.unit (s := S1024x2048) ![0, 256] S1024x256.size hcol).toLoadRect = bCols fb 1 (by decide) :=
  bRead 1 (by decide) fb hcol
theorem bRead_2 (fb : BT F) (hcol : ∀ i, (![0, 512] : Fin 2 → ℕ) i + S1024x256.size i ≤ S1024x2048.size i) :
    bbM.view.readCov [⟨Rect.unit (s := S1024x2048) ![0, 0] S1024x2048.size inb_S1024x2048_S1024x2048_0_0,
        k0_pay1 (View.readAt (Elt F) bM.view (Rect.unit (s := S1024x2048) ![0, 0] S1024x2048.size inb_S1024x2048_S1024x2048_0_0).toLoadRect fb)⟩]
      (Rect.unit (s := S1024x2048) ![0, 512] S1024x256.size hcol).toLoadRect = bCols fb 2 (by decide) :=
  bRead 2 (by decide) fb hcol
theorem bRead_3 (fb : BT F) (hcol : ∀ i, (![0, 768] : Fin 2 → ℕ) i + S1024x256.size i ≤ S1024x2048.size i) :
    bbM.view.readCov [⟨Rect.unit (s := S1024x2048) ![0, 0] S1024x2048.size inb_S1024x2048_S1024x2048_0_0,
        k0_pay1 (View.readAt (Elt F) bM.view (Rect.unit (s := S1024x2048) ![0, 0] S1024x2048.size inb_S1024x2048_S1024x2048_0_0).toLoadRect fb)⟩]
      (Rect.unit (s := S1024x2048) ![0, 768] S1024x256.size hcol).toLoadRect = bCols fb 3 (by decide) :=
  bRead 3 (by decide) fb hcol
theorem bRead_4 (fb : BT F) (hcol : ∀ i, (![0, 1024] : Fin 2 → ℕ) i + S1024x256.size i ≤ S1024x2048.size i) :
    bbM.view.readCov [⟨Rect.unit (s := S1024x2048) ![0, 0] S1024x2048.size inb_S1024x2048_S1024x2048_0_0,
        k0_pay1 (View.readAt (Elt F) bM.view (Rect.unit (s := S1024x2048) ![0, 0] S1024x2048.size inb_S1024x2048_S1024x2048_0_0).toLoadRect fb)⟩]
      (Rect.unit (s := S1024x2048) ![0, 1024] S1024x256.size hcol).toLoadRect = bCols fb 4 (by decide) :=
  bRead 4 (by decide) fb hcol
theorem bRead_5 (fb : BT F) (hcol : ∀ i, (![0, 1280] : Fin 2 → ℕ) i + S1024x256.size i ≤ S1024x2048.size i) :
    bbM.view.readCov [⟨Rect.unit (s := S1024x2048) ![0, 0] S1024x2048.size inb_S1024x2048_S1024x2048_0_0,
        k0_pay1 (View.readAt (Elt F) bM.view (Rect.unit (s := S1024x2048) ![0, 0] S1024x2048.size inb_S1024x2048_S1024x2048_0_0).toLoadRect fb)⟩]
      (Rect.unit (s := S1024x2048) ![0, 1280] S1024x256.size hcol).toLoadRect = bCols fb 5 (by decide) :=
  bRead 5 (by decide) fb hcol
theorem bRead_6 (fb : BT F) (hcol : ∀ i, (![0, 1536] : Fin 2 → ℕ) i + S1024x256.size i ≤ S1024x2048.size i) :
    bbM.view.readCov [⟨Rect.unit (s := S1024x2048) ![0, 0] S1024x2048.size inb_S1024x2048_S1024x2048_0_0,
        k0_pay1 (View.readAt (Elt F) bM.view (Rect.unit (s := S1024x2048) ![0, 0] S1024x2048.size inb_S1024x2048_S1024x2048_0_0).toLoadRect fb)⟩]
      (Rect.unit (s := S1024x2048) ![0, 1536] S1024x256.size hcol).toLoadRect = bCols fb 6 (by decide) :=
  bRead 6 (by decide) fb hcol
theorem bRead_7 (fb : BT F) (hcol : ∀ i, (![0, 1792] : Fin 2 → ℕ) i + S1024x256.size i ≤ S1024x2048.size i) :
    bbM.view.readCov [⟨Rect.unit (s := S1024x2048) ![0, 0] S1024x2048.size inb_S1024x2048_S1024x2048_0_0,
        k0_pay1 (View.readAt (Elt F) bM.view (Rect.unit (s := S1024x2048) ![0, 0] S1024x2048.size inb_S1024x2048_S1024x2048_0_0).toLoadRect fb)⟩]
      (Rect.unit (s := S1024x2048) ![0, 1792] S1024x256.size hcol).toLoadRect = bCols fb 7 (by decide) :=
  bRead 7 (by decide) fb hcol

/-- info: 'Cert.KernelIdeal.P.aRead_1' depends on axioms: [propext, Classical.choice, Quot.sound] -/
#guard_msgs in #print axioms aRead_1

/-- info: 'Cert.KernelIdeal.P.bRead_3' depends on axioms: [propext, Classical.choice, Quot.sound] -/
#guard_msgs in #print axioms bRead_3

end Cert.KernelIdeal.P

end
-- ==== Proof.Sites.lean ====
import proofs.«900901_g7700000000000902_dist_matmul_silu_kshard_i_m2048_n2048_k1024_v7x_i4_bf16_1_alg».proof.Proof.Proto
import proofs.«900901_g7700000000000902_dist_matmul_silu_kshard_i_m2048_n2048_k1024_v7x_i4_bf16_1_alg».proof.Proof.Reads
import proofs.«900901_g7700000000000902_dist_matmul_silu_kshard_i_m2048_n2048_k1024_v7x_i4_bf16_1_alg».proof.Proof.SlotLemmas

/-!
What a slot or a block of the result holds just before it is sent, named by the schedule's values.

A store of the reduce-scatter writes, through the slot's rectangle of the whole scratch, a payload that is a
function of the rows read from the left operand, the columns read from the narrowed right operand and, after the
first step, the block that landed from the neighbour. Written out, the payload of the first step is the narrowed
partial product, the payload of a later step is the narrowed sum of the landed block and the partial product, and
the payload of the last step, stored into the result, is `silu` of that sum. With the operands and the landed
block named, the stored contents agree, on the slot's or block's own elements, with the schedule's `sent` and
`outBlk`.
-/

noncomputable section

namespace Cert.KernelIdeal.P

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.Sem

variable {F : FTy → Type} [FloatOps F]

local notation "𝕄" => MT nD τ sig Unit (Elt F) ℕ UU ℕ

section Sites
variable (fa : Dev nD → AT F) (fb : Dev nD → BT F)

/-! ## The schedule's values, unfolded one step -/

theorem sent_zero (c : Dev nD) (a : ℕ) (ha : a < 8) :
    sent fa fb 0 c a ha = toBlk (mm (aRows (fa c) (chunk c (rsShift a 0)) (chunk_lt _ _)) (bCols (fb c) a ha)) := rfl

theorem sent_succ (b : ℕ) (c : Dev nD) (a : ℕ) (ha : a < 8) :
    sent fa fb (b + 1) c a ha
      = toBlk (accum (mm (aRows (fa c) (chunk c (rsShift a (b + 1))) (chunk_lt _ _)) (bCols (fb c) a ha))
          (sent fa fb b (sdev a c) a ha)) := rfl

theorem outBlk_eq (c : Dev nD) (a : ℕ) (ha : a < 8) :
    outBlk fa fb c a ha
      = siluBlk (accum (mm (aRows (fa c) (chunk c (rsShift a 3)) (chunk_lt _ _)) (bCols (fb c) a ha))
          (sent fa fb 2 (sdev a c) a ha)) := rfl

/-! ## The first store of a chain -/

/-- Slot `(a, 0)` after the first store holds the narrowed partial product of the chain's first row band. -/
theorem site_rs0 (c : Dev nD) (a : ℕ) (ha : a < 8) (h : ∀ i, (![a, 0, 0, 0] : Fin 4 → Nat) i + S1x1x512x256.size i ≤ S8x4x512x256.size i) (f : RT F)
    (P : FVec F S1x1x512x256 .bf16) (A : Vec F S512x1024 .f32) (V : Vec F S1024x256 .bf16)
    (hP : P = shapeCast S1x1x512x256 (toBlk (mm A V)) shapeCasts_S512x256_S1x1x512x256)
    (hA : A = aRows (fa c) (chunk c (rsShift a 0)) (chunk_lt _ _)) (hV : V = bCols (fb c) a ha) :
    ∀ i ∈ (slotM a 0 h).view.set,
      View.write (Elt F) (rsM.access (Rect.unit (s := S8x4x512x256) ![a, 0, 0, 0] S1x1x512x256.size h)) f P Finset.univ i
        = slotBuf a 0 h (sent fa fb 0 c a ha) i := by
  subst hP hA hV
  exact slot_store_eq a 0 h f _

/-! ## An accumulating store -/

/-- Slot `(a, b + 1)` after the store of step `b + 1` holds the narrowed sum of what landed and the step's partial product. -/
theorem site_rsK (c : Dev nD) (a : ℕ) (ha : a < 8) (b : ℕ) (hb : b < 2) (h : ∀ i, (![a, b, 0, 0] : Fin 4 → Nat) i + S1x1x512x256.size i ≤ S8x4x512x256.size i) (h' : ∀ i, (![a, b + 1, 0, 0] : Fin 4 → Nat) i + S1x1x512x256.size i ≤ S8x4x512x256.size i)
    (g : RT F) (P : FVec F S1x1x512x256 .bf16) (ps : FVec F S512x256 .f32) (Lv : Vec F S1x1x512x256 .bf16)
    (A : Vec F S512x1024 .f32) (V : Vec F S1024x256 .bf16)
    (hP : P = shapeCast S1x1x512x256 (toBlk (accum ps (shapeCast S512x256 Lv shapeCasts_S1x1x512x256_S512x256))) shapeCasts_S512x256_S1x1x512x256)
    (hps : ps = mm A V)
    (hA : A = aRows (fa c) (chunk c (rsShift a (b + 1))) (chunk_lt _ _)) (hV : V = bCols (fb c) a ha)
    (hL : Lv = shapeCast S1x1x512x256 (sent fa fb b (sdev a c) a ha) shapeCasts_S512x256_S1x1x512x256) :
    ∀ i ∈ (slotM a (b + 1) h').view.set,
      View.write (Elt F) (rsM.access (Rect.unit (s := S8x4x512x256) ![a, b + 1, 0, 0] S1x1x512x256.size h')) g P Finset.univ i
        = slotBuf a (b + 1) h' (sent fa fb (b + 1) c a ha) i := by
  subst hP hps hA hV hL
  rw [shapeCast_shapeCast, sent_succ]
  exact slot_store_eq a (b + 1) h' g _

/-! ## The finishing store -/

/-- The result block after the finishing store holds `silu` of the completed sum. -/
theorem site_out (c : Dev nD) (a : ℕ) (ha : a < 8) (off off' : Fin 2 → ℕ) (h : ∀ i, off i + S512x256.size i ≤ S2048x2048.size i) (h' : ∀ i, off' i + S512x256.size i ≤ S2048x2048.size i)
    (heq : off = off') (g : OT F) (P : FVec F S512x256 .bf16) (ps : FVec F S512x256 .f32) (Lv : Vec F S1x1x512x256 .bf16)
    (A : Vec F S512x1024 .f32) (V : Vec F S1024x256 .bf16)
    (hP : P = siluBlk (accum ps (shapeCast S512x256 Lv shapeCasts_S1x1x512x256_S512x256)))
    (hps : ps = mm A V)
    (hA : A = aRows (fa c) (chunk c (rsShift a 3)) (chunk_lt _ _)) (hV : V = bCols (fb c) a ha)
    (hL : Lv = shapeCast S1x1x512x256 (sent fa fb 2 (sdev a c) a ha) shapeCasts_S512x256_S1x1x512x256) :
    ∀ i ∈ (oblkM off' h').view.set,
      View.write (Elt F) (oM.access (Rect.unit (s := S2048x2048) off S512x256.size h)) g P Finset.univ i
        = oblkBuf off' h' (outBlk fa fb c a ha) i := by
  subst heq hP hps hA hV hL
  rw [shapeCast_shapeCast, outBlk_eq]
  exact oblk_store_eq off h g _

end Sites

/-! ## Forwarding in the all-gather -/

/-- A block that landed from a block holding `v` holds `v`, at whatever spelling of its offsets. -/
theorem site_fwd (off off' offS : Fin 2 → ℕ) (h : ∀ i, off i + S512x256.size i ≤ S2048x2048.size i) (h' : ∀ i, off' i + S512x256.size i ≤ S2048x2048.size i) (hS : ∀ i, offS i + S512x256.size i ≤ S2048x2048.size i)
    (heq : off = off') (fd : OT F) (v : Blk F) :
    ∀ i ∈ (oblkM off' h').view.set,
      (oblkM off h).view.write (Elt F) fd ((oblkM offS hS).view.read (Elt F) (oblkBuf offS hS v)) Finset.univ i
        = oblkBuf off' h' v i := by
  subst heq
  exact oblk_fwd off offS h hS fd v

/-! ## The same, as equalities of assertions

Contents that agree on the block's own elements give one assertion; with equal offsets the block's location and
element set are the same too. -/

section SitesPt
variable (fa : Dev nD → AT F) (fb : Dev nD → BT F)

theorem site_out_pt (c : Dev nD) (a : ℕ) (ha : a < 8) (off off' : Fin 2 → ℕ) (h : ∀ i, off i + S512x256.size i ≤ S2048x2048.size i) (h' : ∀ i, off' i + S512x256.size i ≤ S2048x2048.size i)
    (heq : off = off') (q : PosShare TreeShare) (g : OT F) (P : FVec F S512x256 .bf16) (ps : FVec F S512x256 .f32) (Lv : Vec F S1x1x512x256 .bf16)
    (A : Vec F S512x1024 .f32) (V : Vec F S1024x256 .bf16)
    (hP : P = siluBlk (accum ps (shapeCast S512x256 Lv shapeCasts_S1x1x512x256_S512x256)))
    (hps : ps = mm A V)
    (hA : A = aRows (fa c) (chunk c (rsShift a 3)) (chunk_lt _ _)) (hV : V = bCols (fb c) a ha)
    (hL : Lv = shapeCast S1x1x512x256 (sent fa fb 2 (sdev a c) a ha) shapeCasts_S512x256_S1x1x512x256) :
    ((oblkM off h).view.loc (c : Thread nD τ) ↦[(oblkM off h).view.set]{q}
        View.write (Elt F) (oM.access (Rect.unit (s := S2048x2048) off S512x256.size h)) g P Finset.univ : sProp 𝕄)
      = ((oblkM off' h').view.loc (c : Thread nD τ) ↦[(oblkM off' h').view.set]{q} oblkBuf off' h' (outBlk fa fb c a ha) : sProp 𝕄) := by
  subst heq
  exact pointsTo_congr (site_out fa fb c a ha off off h h rfl g P ps Lv A V hP hps hA hV hL)

end SitesPt

theorem site_fwd_pt (c : Dev nD) (off off' offS : Fin 2 → ℕ) (h : ∀ i, off i + S512x256.size i ≤ S2048x2048.size i) (h' : ∀ i, off' i + S512x256.size i ≤ S2048x2048.size i) (hS : ∀ i, offS i + S512x256.size i ≤ S2048x2048.size i)
    (heq : off = off') (q : PosShare TreeShare) (fd : OT F) (v : Blk F) :
    ((oblkM off h).view.loc (c : Thread nD τ) ↦[(oblkM off h).view.set]{q}
        (oblkM off h).view.write (Elt F) fd ((oblkM offS hS).view.read (Elt F) (oblkBuf offS hS v)) Finset.univ : sProp 𝕄)
      = ((oblkM off' h').view.loc (c : Thread nD τ) ↦[(oblkM off' h').view.set]{q} oblkBuf off' h' v : sProp 𝕄) := by
  subst heq
  exact pointsTo_congr (oblk_fwd off offS h hS fd v)

/-- info: 'Cert.KernelIdeal.P.site_rsK' depends on axioms: [propext, Classical.choice, Quot.sound] -/
#guard_msgs in #print axioms site_rsK

/-- info: 'Cert.KernelIdeal.P.site_out_pt' depends on axioms: [propext, Classical.choice, Quot.sound] -/
#guard_msgs in #print axioms site_out_pt

end Cert.KernelIdeal.P

end
-- ==== Proof.Split.lean ====
/-
  A buffer held whole is the same as its pieces held one by one.

  The 8 × 4 × 512 × 256 scratch is the disjoint union of its 32 slots: slot (a, b) is the set of elements whose first two
  coordinates are a and b, so two slots with different numbers share no element, and every element lies in the slot named by
  its first two coordinates. The 2048 × 2048 result buffer is the disjoint union of its 32 blocks of 512 rows and 256 columns:
  the block at (512 r, 256 a) holds the elements with row in [512 r, 512 r + 512) and column in [256 a, 256 a + 256), and
  element (i, j) lies in the block with r = ⌊i / 512⌋, a = ⌊j / 256⌋. The four bands of rows may be numbered in any order
  (a bijection ρ of the four numbers); a device numbers them by ring distance, band (c + k) mod 4 at distance k.
  A points-to over a disjoint union of element sets is the separating conjunction of the points-tos over the sets; pieces held
  at different contents are joined by contents that agree with each piece on its own set.
-/
import proofs.«900901_g7700000000000902_dist_matmul_silu_kshard_i_m2048_n2048_k1024_v7x_i4_bf16_1_alg».proof.Proof.Proto
import Idealize.ShloMosaic.Rules.PointsTo
import Idealize.ShloMosaic.Lib.Pipeline.Value

noncomputable section

namespace Cert.KernelIdeal.P

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The 32 slots partition the scratch -/

/-- A slot's elements are those of its rectangle: first coordinate `a`, second `b`. -/
theorem slot_set_eq (a b : ℕ) (h : ∀ i, (![a, b, 0, 0] : Fin 4 → Nat) i + S1x1x512x256.size i ≤ S8x4x512x256.size i) :
    (slotM a b h).view.set = (Rect.unit (s := S8x4x512x256) ![a, b, 0, 0] S1x1x512x256.size h).set := by
  exact (View.set_reshape _ _).trans (View.set_slice_whole _ _)

theorem slot_sets_disjoint (a b a' b' : ℕ) (h : ∀ i, (![a, b, 0, 0] : Fin 4 → Nat) i + S1x1x512x256.size i ≤ S8x4x512x256.size i) (h' : ∀ i, (![a', b', 0, 0] : Fin 4 → Nat) i + S1x1x512x256.size i ≤ S8x4x512x256.size i) (hne : a ≠ a' ∨ b ≠ b') :
    Disjoint (slotM a b h).view.set (slotM a' b' h').view.set := by
  rw [slot_set_eq, slot_set_eq]
  rcases hne with hne | hne
  · exact Rect.unit_disjoint 0 (by show a + 1 ≤ a' ∨ a' + 1 ≤ a; omega)
  · exact Rect.unit_disjoint 1 (by show b + 1 ≤ b' ∨ b' + 1 ≤ b; omega)

theorem slot_sets_cover (c : Dev nD) :
    ((Finset.univ : Finset (Fin 8 × Fin 4)).biUnion
        (fun ab => (slotM ab.1.val ab.2.val (slot_inb _ _ ab.1.isLt ab.2.isLt)).view.set)
      : Finset (Idx ((c : Thread nD τ).loc cc0_scratch0))) = Finset.univ := by
  ext (i : S8x4x512x256.Idx)
  simp only [Finset.mem_biUnion, Finset.mem_univ, true_and, iff_true]
  refine ⟨(⟨(i 0).val, (i 0).isLt⟩, ⟨(i 1).val, (i 1).isLt⟩), ?_⟩
  rw [slot_set_eq, Rect.mem_set_unit]
  intro a
  have h2 := (i 2).isLt
  have h3 := (i 3).isLt
  fin_cases a
  · show (i 0).val ≤ (i 0).val ∧ (i 0).val < (i 0).val + 1; omega
  · show (i 1).val ≤ (i 1).val ∧ (i 1).val < (i 1).val + 1; omega
  · show 0 ≤ (i 2).val ∧ (i 2).val < 0 + 512; exact ⟨Nat.zero_le _, by simpa using h2⟩
  · show 0 ≤ (i 3).val ∧ (i 3).val < 0 + 256; exact ⟨Nat.zero_le _, by simpa using h3⟩

/-- The whole scratch is its 32 slots, each held at the same contents. -/
theorem scratch_split_eq (c : Dev nD) (q : PosShare TreeShare) (f : Buf (Elt F) ((c : Thread nD τ).loc cc0_scratch0)) :
    (((c : Thread nD τ).loc cc0_scratch0) ↦{q} f : sProp 𝕄)
      = bigSep (Finset.univ : Finset (Fin 8 × Fin 4)) fun ab =>
          ((slotM ab.1.val ab.2.val (slot_inb _ _ ab.1.isLt ab.2.isLt)).view.loc (c : Thread nD τ)
            ↦[(slotM ab.1.val ab.2.val (slot_inb _ _ ab.1.isLt ab.2.isLt)).view.set]{q} f) := by
  rw [← pointsTo_biUnion (ℓ := (c : Thread nD τ).loc cc0_scratch0) (q := q) (f := f) (Finset.univ : Finset (Fin 8 × Fin 4))
    (fun ab => (slotM ab.1.val ab.2.val (slot_inb _ _ ab.1.isLt ab.2.isLt)).view.set)
    (fun t _ t' _ hne => slot_sets_disjoint _ _ _ _ _ _ (by
      by_contra hcon
      rw [not_or, not_not, not_not] at hcon
      exact hne (Prod.ext (Fin.ext hcon.1) (Fin.ext hcon.2))))]
  rw [slot_sets_cover c]

theorem scratch_split (c : Dev nD) (q : PosShare TreeShare) (f : Buf (Elt F) ((c : Thread nD τ).loc cc0_scratch0)) :
    (((c : Thread nD τ).loc cc0_scratch0) ↦{q} f : sProp 𝕄)
      ⊣⊢ bigSep (Finset.univ : Finset (Fin 8 × Fin 4)) fun ab =>
          ((slotM ab.1.val ab.2.val (slot_inb _ _ ab.1.isLt ab.2.isLt)).view.loc (c : Thread nD τ) ↦[(slotM ab.1.val ab.2.val (slot_inb _ _ ab.1.isLt ab.2.isLt)).view.set]{q} f) :=
  BiEntails.of_eq (scratch_split_eq c q f)

/-! ## Pieces held at different contents -/

/-- A separating conjunction of existentials is an existential over a choice of witnesses. -/
theorem bigSep_exists_choice {T α : Type} [DecidableEq T] [Nonempty α] (S : Finset T) (P : T → α → sProp 𝕄) :
    bigSep S (fun t => iprop(∃ g, P t g)) ⊢ iprop(∃ fs : T → α, bigSep S (fun t => P t (fs t))) := by
  induction S using Finset.induction_on with
  | empty =>
    iintro -
    iexists fun _ => Classical.arbitrary α
    rw [bigSep_empty]; iempintro
  | insert t S ht ih =>
    rw [bigSep_insert ht]
    refine (show iprop((∃ g, P t g) ∗ bigSep S (fun t => iprop(∃ g, P t g))) ⊢ _ from ?_)
    iintro ⟨Ht, HS⟩
    icases Ht with ⟨%g, Ht⟩
    ihave H := ih $$ HS
    icases H with ⟨%fs, HS⟩
    iexists Function.update fs t g
    have e1 : P t (Function.update fs t g t) = P t g := by rw [Function.update_self]
    have e2 : bigSep S (fun t' => P t' (Function.update fs t g t')) = bigSep S (fun t' => P t' (fs t')) :=
      bigSep_congr fun t' ht' => by rw [Function.update_of_ne (show t' ≠ t from fun e => ht (e ▸ ht'))]
    have step : iprop(P t g ∗ bigSep S (fun t' => P t' (fs t')))
        ⊢ bigSep (insert t S) (fun t' => P t' (Function.update fs t g t')) := by
      rw [bigSep_insert ht, e1, e2]; exact .rfl
    iapply step
    isplitl [Ht]; · iexact Ht
    iexact HS

/-- The 32 slots, each held at contents of its own, are the whole scratch held at contents that agree with each on its slot. -/
theorem scratch_join_at (c : Dev nD) (q : PosShare TreeShare) (fs : Fin 8 × Fin 4 → Buf (Elt F) ((c : Thread nD τ).loc cc0_scratch0)) :
    (bigSep (Finset.univ : Finset (Fin 8 × Fin 4)) fun ab =>
        ((slotM ab.1.val ab.2.val (slot_inb _ _ ab.1.isLt ab.2.isLt)).view.loc (c : Thread nD τ) ↦[(slotM ab.1.val ab.2.val (slot_inb _ _ ab.1.isLt ab.2.isLt)).view.set]{q} fs ab) : sProp 𝕄)
      ⊢ iprop(∃ f, ⌜∀ ab : Fin 8 × Fin 4, ∀ i ∈ (slotM ab.1.val ab.2.val (slot_inb _ _ ab.1.isLt ab.2.isLt)).view.set, f i = fs ab i⌝
          ∗ (((c : Thread nD τ).loc cc0_scratch0) ↦{q} f)) := by
  have key := pointsTo_biUnion_join (Ix := Unit) (Val := Elt F) (Name := ℕ) (U := UU) (Lvl := ℕ)
      (ℓ := (c : Thread nD τ).loc cc0_scratch0) (q := q) (Finset.univ : Finset (Fin 8 × Fin 4))
      (fun ab => (slotM ab.1.val ab.2.val (slot_inb _ _ ab.1.isLt ab.2.isLt)).view.set) fs (fs (0, 0))
      (fun t _ t' _ hne => slot_sets_disjoint _ _ _ _ _ _ (by
        by_contra hcon
        rw [not_or, not_not, not_not] at hcon
        exact hne (Prod.ext (Fin.ext hcon.1) (Fin.ext hcon.2))))
  rw [slot_sets_cover c] at key
  refine key.trans ?_
  iintro ⟨%g, %hg, H⟩
  iexists g
  isplitr
  · ipureintro; exact fun ab => hg ab (Finset.mem_univ _)
  · iexact H

/-- The 32 slots, each held at some contents, are the whole scratch held at some contents. -/
theorem scratch_join (c : Dev nD) (q : PosShare TreeShare) :
    (bigSep (Finset.univ : Finset (Fin 8 × Fin 4)) fun ab =>
        iprop(∃ g : Buf (Elt F) ((c : Thread nD τ).loc cc0_scratch0),
          (slotM ab.1.val ab.2.val (slot_inb _ _ ab.1.isLt ab.2.isLt)).view.loc (c : Thread nD τ) ↦[(slotM ab.1.val ab.2.val (slot_inb _ _ ab.1.isLt ab.2.isLt)).view.set]{q} g) : sProp 𝕄)
      ⊢ iprop(∃ f, ((c : Thread nD τ).loc cc0_scratch0) ↦{q} f) := by
  refine (bigSep_exists_choice Finset.univ fun (ab : Fin 8 × Fin 4) (g : Buf (Elt F) ((c : Thread nD τ).loc cc0_scratch0)) =>
    ((slotM ab.1.val ab.2.val (slot_inb _ _ ab.1.isLt ab.2.isLt)).view.loc (c : Thread nD τ) ↦[(slotM ab.1.val ab.2.val (slot_inb _ _ ab.1.isLt ab.2.isLt)).view.set]{q} g : sProp 𝕄)).trans ?_
  iintro ⟨%fs, H⟩
  ihave H := (scratch_join_at c q fs) $$ H
  icases H with ⟨%f, -, H⟩
  iexists f
  iexact H

/-! ## The 32 blocks partition the result buffer -/

/-- A block's elements are those of its rectangle. -/
theorem oblk_set_eq (off : Fin 2 → ℕ) (h : ∀ i, off i + S512x256.size i ≤ S2048x2048.size i) :
    (oblkM off h).view.set = (Rect.unit (s := S2048x2048) off S512x256.size h).set :=
  View.set_slice_whole _ _

theorem oblk_sets_disjoint (r a r' a' : ℕ) (h : ∀ i, (![512 * r, 256 * a] : Fin 2 → ℕ) i + S512x256.size i ≤ S2048x2048.size i)
    (h' : ∀ i, (![512 * r', 256 * a'] : Fin 2 → ℕ) i + S512x256.size i ≤ S2048x2048.size i) (hne : r ≠ r' ∨ a ≠ a') :
    Disjoint (oblkM ![512 * r, 256 * a] h).view.set (oblkM ![512 * r', 256 * a'] h').view.set := by
  rw [oblk_set_eq, oblk_set_eq]
  rcases hne with hne | hne
  · exact Rect.unit_disjoint 0 (by show 512 * r + 512 ≤ 512 * r' ∨ 512 * r' + 512 ≤ 512 * r; omega)
  · exact Rect.unit_disjoint 1 (by show 256 * a + 256 ≤ 256 * a' ∨ 256 * a' + 256 ≤ 256 * a; omega)

section Bands
/-! The four bands of rows in any order: `ρ` numbers them, each once. -/
variable (ρ : Fin 4 → ℕ) (hρ : ∀ k, ρ k < 4) (hinj : Function.Injective ρ) (hsurj : ∀ r, r < 4 → ∃ k, ρ k = r)

include hsurj in
theorem oblk_sets_cover (c : Dev nD) :
    ((Finset.univ : Finset (Fin 4 × Fin 8)).biUnion (fun ka => (oblkM ![512 * ρ ka.1, 256 * ka.2.val] (oblk_inb _ _ (hρ ka.1) ka.2.isLt)).view.set)
      : Finset (Idx ((c : Thread nD τ).loc cc0_stg2_0))) = Finset.univ := by
  ext (i : S2048x2048.Idx)
  simp only [Finset.mem_biUnion, Finset.mem_univ, true_and, iff_true]
  have h0 : (i 0).val < 2048 := (i 0).isLt
  have h1 : (i 1).val < 2048 := (i 1).isLt
  obtain ⟨k, hk⟩ := hsurj ((i 0).val / 512) (by omega)
  refine ⟨(k, ⟨(i 1).val / 256, by omega⟩), ?_⟩
  rw [oblk_set_eq, Rect.mem_set_unit]
  intro a
  fin_cases a
  · show 512 * ρ k ≤ (i 0).val ∧ (i 0).val < 512 * ρ k + 512
    rw [hk]; omega
  · show 256 * ((i 1).val / 256) ≤ (i 1).val ∧ (i 1).val < 256 * ((i 1).val / 256) + 256
    omega

include hinj hsurj in
/-- The whole result buffer is its 32 blocks, each held at the same contents. -/
theorem block_split_eq_of (c : Dev nD) (q : PosShare TreeShare) (G : Buf (Elt F) ((c : Thread nD τ).loc cc0_stg2_0)) :
    (((c : Thread nD τ).loc cc0_stg2_0) ↦{q} G : sProp 𝕄)
      = bigSep (Finset.univ : Finset (Fin 4 × Fin 8)) fun ka =>
          ((oblkM ![512 * ρ ka.1, 256 * ka.2.val] (oblk_inb _ _ (hρ ka.1) ka.2.isLt)).view.loc (c : Thread nD τ) ↦[(oblkM ![512 * ρ ka.1, 256 * ka.2.val] (oblk_inb _ _ (hρ ka.1) ka.2.isLt)).view.set]{q} G) := by
  rw [← pointsTo_biUnion (ℓ := (c : Thread nD τ).loc cc0_stg2_0) (q := q) (f := G) (Finset.univ : Finset (Fin 4 × Fin 8))
    (fun ka => (oblkM ![512 * ρ ka.1, 256 * ka.2.val] (oblk_inb _ _ (hρ ka.1) ka.2.isLt)).view.set)
    (fun t _ t' _ hne => oblk_sets_disjoint _ _ _ _ _ _ (by
      by_contra hcon
      rw [not_or, not_not, not_not] at hcon
      exact hne (Prod.ext (hinj hcon.1) (Fin.ext hcon.2))))]
  rw [oblk_sets_cover ρ hρ hsurj c]

include hinj in
/-- The 32 blocks, each held at contents of its own, are the whole result buffer held at contents that agree with each on its block. -/
theorem blocks_join_at_of (c : Dev nD) (q : PosShare TreeShare) (fs : Fin 4 × Fin 8 → Buf (Elt F) ((c : Thread nD τ).loc cc0_stg2_0)) :
    (bigSep (Finset.univ : Finset (Fin 4 × Fin 8)) fun ka =>
        ((oblkM ![512 * ρ ka.1, 256 * ka.2.val] (oblk_inb _ _ (hρ ka.1) ka.2.isLt)).view.loc (c : Thread nD τ) ↦[(oblkM ![512 * ρ ka.1, 256 * ka.2.val] (oblk_inb _ _ (hρ ka.1) ka.2.isLt)).view.set]{q} fs ka) : sProp 𝕄)
      ⊢ iprop(∃ f, ⌜∀ ka : Fin 4 × Fin 8, ∀ i ∈ (oblkM ![512 * ρ ka.1, 256 * ka.2.val] (oblk_inb _ _ (hρ ka.1) ka.2.isLt)).view.set, f i = fs ka i⌝
          ∗ (((c : Thread nD τ).loc cc0_stg2_0)
              ↦[(Finset.univ : Finset (Fin 4 × Fin 8)).biUnion fun ka => (oblkM ![512 * ρ ka.1, 256 * ka.2.val] (oblk_inb _ _ (hρ ka.1) ka.2.isLt)).view.set]{q} f)) := by
  have key := pointsTo_biUnion_join (Ix := Unit) (Val := Elt F) (Name := ℕ) (U := UU) (Lvl := ℕ)
      (ℓ := (c : Thread nD τ).loc cc0_stg2_0) (q := q) (Finset.univ : Finset (Fin 4 × Fin 8))
      (fun ka => (oblkM ![512 * ρ ka.1, 256 * ka.2.val] (oblk_inb _ _ (hρ ka.1) ka.2.isLt)).view.set) fs (fs (0, 0))
      (fun t _ t' _ hne => oblk_sets_disjoint _ _ _ _ _ _ (by
        by_contra hcon
        rw [not_or, not_not, not_not] at hcon
        exact hne (Prod.ext (hinj hcon.1) (Fin.ext hcon.2))))
  refine key.trans ?_
  iintro ⟨%g, %hg, H⟩
  iexists g
  isplitr
  · ipureintro; exact fun ka => hg ka (Finset.mem_univ _)
  · iexact H

end Bands

section Bands'
variable (ρ : Fin 4 → ℕ) (hρ : ∀ k, ρ k < 4) (hinj : Function.Injective ρ) (hsurj : ∀ r, r < 4 → ∃ k, ρ k = r)

include hinj hsurj in
/-- The 32 blocks, each held at some contents, are the whole result buffer held at some contents. -/
theorem blocks_join_ex_of (c : Dev nD) (q : PosShare TreeShare) :
    (bigSep (Finset.univ : Finset (Fin 4 × Fin 8)) fun ka =>
        iprop(∃ g : Buf (Elt F) ((c : Thread nD τ).loc cc0_stg2_0),
          (oblkM ![512 * ρ ka.1, 256 * ka.2.val] (oblk_inb _ _ (hρ ka.1) ka.2.isLt)).view.loc (c : Thread nD τ) ↦[(oblkM ![512 * ρ ka.1, 256 * ka.2.val] (oblk_inb _ _ (hρ ka.1) ka.2.isLt)).view.set]{q} g) : sProp 𝕄)
      ⊢ iprop(∃ f, ((c : Thread nD τ).loc cc0_stg2_0) ↦{q} f) := by
  refine (bigSep_exists_choice Finset.univ fun (ka : Fin 4 × Fin 8) (g : Buf (Elt F) ((c : Thread nD τ).loc cc0_stg2_0)) =>
    ((oblkM ![512 * ρ ka.1, 256 * ka.2.val] (oblk_inb _ _ (hρ ka.1) ka.2.isLt)).view.loc (c : Thread nD τ) ↦[(oblkM ![512 * ρ ka.1, 256 * ka.2.val] (oblk_inb _ _ (hρ ka.1) ka.2.isLt)).view.set]{q} g : sProp 𝕄)).trans ?_
  have key := fun fs => blocks_join_at_of (F := F) ρ hρ hinj c q fs
  simp only [oblk_sets_cover ρ hρ hsurj c] at key
  iintro ⟨%fs, H⟩
  ihave H := (key fs) $$ H
  icases H with ⟨%f, -, H⟩
  iexists f
  iexact H

end Bands'

/-! ### The bands in their own order -/

theorem block_split_eq (c : Dev nD) (q : PosShare TreeShare) (G : Buf (Elt F) ((c : Thread nD τ).loc cc0_stg2_0)) :
    (((c : Thread nD τ).loc cc0_stg2_0) ↦{q} G : sProp 𝕄)
      = bigSep (Finset.univ : Finset (Fin 4 × Fin 8)) fun ra =>
          ((oblkM ![512 * ra.1.val, 256 * ra.2.val] (oblk_inb _ _ ra.1.isLt ra.2.isLt)).view.loc (c : Thread nD τ) ↦[(oblkM ![512 * ra.1.val, 256 * ra.2.val] (oblk_inb _ _ ra.1.isLt ra.2.isLt)).view.set]{q} G) :=
  block_split_eq_of (fun k : Fin 4 => k.val) (fun k => k.isLt) Fin.val_injective (fun r hr => ⟨⟨r, hr⟩, rfl⟩) c q G

theorem block_split (c : Dev nD) (q : PosShare TreeShare) (G : Buf (Elt F) ((c : Thread nD τ).loc cc0_stg2_0)) :
    (((c : Thread nD τ).loc cc0_stg2_0) ↦{q} G : sProp 𝕄)
      ⊣⊢ bigSep (Finset.univ : Finset (Fin 4 × Fin 8)) fun ra =>
          ((oblkM ![512 * ra.1.val, 256 * ra.2.val] (oblk_inb _ _ ra.1.isLt ra.2.isLt)).view.loc (c : Thread nD τ) ↦[(oblkM ![512 * ra.1.val, 256 * ra.2.val] (oblk_inb _ _ ra.1.isLt ra.2.isLt)).view.set]{q} G) :=
  BiEntails.of_eq (block_split_eq c q G)

/-- The 32 blocks, all held at one `G`, are the whole result buffer held at `G`. -/
theorem blocks_join (c : Dev nD) (q : PosShare TreeShare) (G : Buf (Elt F) ((c : Thread nD τ).loc cc0_stg2_0)) :
    (bigSep (Finset.univ : Finset (Fin 4 × Fin 8)) fun ra =>
        ((oblkM ![512 * ra.1.val, 256 * ra.2.val] (oblk_inb _ _ ra.1.isLt ra.2.isLt)).view.loc (c : Thread nD τ) ↦[(oblkM ![512 * ra.1.val, 256 * ra.2.val] (oblk_inb _ _ ra.1.isLt ra.2.isLt)).view.set]{q} G) : sProp 𝕄)
      ⊢ (((c : Thread nD τ).loc cc0_stg2_0) ↦{q} G) :=
  Entails.of_eq (block_split_eq c q G).symm

theorem blocks_join_ex (c : Dev nD) (q : PosShare TreeShare) :
    (bigSep (Finset.univ : Finset (Fin 4 × Fin 8)) fun ra =>
        iprop(∃ g : Buf (Elt F) ((c : Thread nD τ).loc cc0_stg2_0),
          (oblkM ![512 * ra.1.val, 256 * ra.2.val] (oblk_inb _ _ ra.1.isLt ra.2.isLt)).view.loc (c : Thread nD τ) ↦[(oblkM ![512 * ra.1.val, 256 * ra.2.val] (oblk_inb _ _ ra.1.isLt ra.2.isLt)).view.set]{q} g) : sProp 𝕄)
      ⊢ iprop(∃ f, ((c : Thread nD τ).loc cc0_stg2_0) ↦{q} f) :=
  blocks_join_ex_of (fun k : Fin 4 => k.val) (fun k => k.isLt) Fin.val_injective (fun r hr => ⟨⟨r, hr⟩, rfl⟩) c q

/-! ### The bands as a device counts them: band `(c + k) mod 4` at distance `k` -/

/-- At one device the four distances reach all four bands. -/
theorem chunk_surj (c : Dev nD) : ∀ r, r < 4 → ∃ k : Fin 4, chunk c k.val = r := by
  revert c; decide

theorem block_split_chunk_eq (c : Dev nD) (q : PosShare TreeShare) (G : Buf (Elt F) ((c : Thread nD τ).loc cc0_stg2_0)) :
    (((c : Thread nD τ).loc cc0_stg2_0) ↦{q} G : sProp 𝕄)
      = bigSep (Finset.univ : Finset (Fin 4 × Fin 8)) fun ka =>
          ((oblkM (rowOff c ka.1.val ka.2.val) (rowOff_inb c _ _ ka.2.isLt)).view.loc (c : Thread nD τ) ↦[(oblkM (rowOff c ka.1.val ka.2.val) (rowOff_inb c _ _ ka.2.isLt)).view.set]{q} G) :=
  block_split_eq_of (fun k : Fin 4 => chunk c k.val) (fun k => chunk_lt c k.val) (fun j k h => chunk_inj c j k h) (chunk_surj c) c q G

theorem block_split_chunk (c : Dev nD) (q : PosShare TreeShare) (G : Buf (Elt F) ((c : Thread nD τ).loc cc0_stg2_0)) :
    (((c : Thread nD τ).loc cc0_stg2_0) ↦{q} G : sProp 𝕄)
      ⊣⊢ bigSep (Finset.univ : Finset (Fin 4 × Fin 8)) fun ka =>
          ((oblkM (rowOff c ka.1.val ka.2.val) (rowOff_inb c _ _ ka.2.isLt)).view.loc (c : Thread nD τ) ↦[(oblkM (rowOff c ka.1.val ka.2.val) (rowOff_inb c _ _ ka.2.isLt)).view.set]{q} G) :=
  BiEntails.of_eq (block_split_chunk_eq c q G)

theorem blocks_join_chunk (c : Dev nD) (q : PosShare TreeShare) (G : Buf (Elt F) ((c : Thread nD τ).loc cc0_stg2_0)) :
    (bigSep (Finset.univ : Finset (Fin 4 × Fin 8)) fun ka =>
        ((oblkM (rowOff c ka.1.val ka.2.val) (rowOff_inb c _ _ ka.2.isLt)).view.loc (c : Thread nD τ) ↦[(oblkM (rowOff c ka.1.val ka.2.val) (rowOff_inb c _ _ ka.2.isLt)).view.set]{q} G) : sProp 𝕄)
      ⊢ (((c : Thread nD τ).loc cc0_stg2_0) ↦{q} G) :=
  Entails.of_eq (block_split_chunk_eq c q G).symm

theorem blocks_join_chunk_ex (c : Dev nD) (q : PosShare TreeShare) :
    (bigSep (Finset.univ : Finset (Fin 4 × Fin 8)) fun ka =>
        iprop(∃ g : Buf (Elt F) ((c : Thread nD τ).loc cc0_stg2_0),
          (oblkM (rowOff c ka.1.val ka.2.val) (rowOff_inb c _ _ ka.2.isLt)).view.loc (c : Thread nD τ) ↦[(oblkM (rowOff c ka.1.val ka.2.val) (rowOff_inb c _ _ ka.2.isLt)).view.set]{q} g) : sProp 𝕄)
      ⊢ iprop(∃ f, ((c : Thread nD τ).loc cc0_stg2_0) ↦{q} f) :=
  blocks_join_ex_of (fun k : Fin 4 => chunk c k.val) (fun k => chunk_lt c k.val) (fun j k h => chunk_inj c j k h) (chunk_surj c) c q

/-! ## Equal offsets, one assertion -/

theorem oblk_pointsTo_respell (c : Dev nD) (off off' : Fin 2 → ℕ) (h : ∀ i, off i + S512x256.size i ≤ S2048x2048.size i) (h' : ∀ i, off' i + S512x256.size i ≤ S2048x2048.size i) (heq : off = off') (q : PosShare TreeShare) (g : OT F) :
    ((oblkM off h).view.loc (c : Thread nD τ) ↦[(oblkM off h).view.set]{q} g : sProp 𝕄)
      = ((oblkM off' h').view.loc (c : Thread nD τ) ↦[(oblkM off' h').view.set]{q} g : sProp 𝕄) := by
  subst heq; rfl

/-! ## Separating conjunctions over pairs, written out in lexicographic order -/

omit [FloatOps F] in
theorem bigSep_8x4 (Φ : Fin 8 × Fin 4 → sProp 𝕄) :
    bigSep Finset.univ Φ
      = iprop(Φ (0, 0) ∗ Φ (0, 1) ∗ Φ (0, 2) ∗ Φ (0, 3) ∗ Φ (1, 0) ∗ Φ (1, 1) ∗ Φ (1, 2) ∗ Φ (1, 3) ∗ Φ (2, 0) ∗ Φ (2, 1) ∗ Φ (2, 2) ∗ Φ (2, 3) ∗ Φ (3, 0) ∗ Φ (3, 1) ∗ Φ (3, 2) ∗ Φ (3, 3) ∗ Φ (4, 0) ∗ Φ (4, 1) ∗ Φ (4, 2) ∗ Φ (4, 3) ∗ Φ (5, 0) ∗ Φ (5, 1) ∗ Φ (5, 2) ∗ Φ (5, 3) ∗ Φ (6, 0) ∗ Φ (6, 1) ∗ Φ (6, 2) ∗ Φ (6, 3) ∗ Φ (7, 0) ∗ Φ (7, 1) ∗ Φ (7, 2) ∗ Φ (7, 3)) :=
  bigSep_univ_eq_bigSepL [(0, 0), (0, 1), (0, 2), (0, 3), (1, 0), (1, 1), (1, 2), (1, 3), (2, 0), (2, 1), (2, 2), (2, 3), (3, 0), (3, 1), (3, 2), (3, 3), (4, 0), (4, 1), (4, 2), (4, 3), (5, 0), (5, 1), (5, 2), (5, 3), (6, 0), (6, 1), (6, 2), (6, 3), (7, 0), (7, 1), (7, 2), (7, 3)] (by decide) (by decide) Φ

omit [FloatOps F] in
theorem bigSep_4x8 (Φ : Fin 4 × Fin 8 → sProp 𝕄) :
    bigSep Finset.univ Φ
      = iprop(Φ (0, 0) ∗ Φ (0, 1) ∗ Φ (0, 2) ∗ Φ (0, 3) ∗ Φ (0, 4) ∗ Φ (0, 5) ∗ Φ (0, 6) ∗ Φ (0, 7) ∗ Φ (1, 0) ∗ Φ (1, 1) ∗ Φ (1, 2) ∗ Φ (1, 3) ∗ Φ (1, 4) ∗ Φ (1, 5) ∗ Φ (1, 6) ∗ Φ (1, 7) ∗ Φ (2, 0) ∗ Φ (2, 1) ∗ Φ (2, 2) ∗ Φ (2, 3) ∗ Φ (2, 4) ∗ Φ (2, 5) ∗ Φ (2, 6) ∗ Φ (2, 7) ∗ Φ (3, 0) ∗ Φ (3, 1) ∗ Φ (3, 2) ∗ Φ (3, 3) ∗ Φ (3, 4) ∗ Φ (3, 5) ∗ Φ (3, 6) ∗ Φ (3, 7)) :=
  bigSep_univ_eq_bigSepL [(0, 0), (0, 1), (0, 2), (0, 3), (0, 4), (0, 5), (0, 6), (0, 7), (1, 0), (1, 1), (1, 2), (1, 3), (1, 4), (1, 5), (1, 6), (1, 7), (2, 0), (2, 1), (2, 2), (2, 3), (2, 4), (2, 5), (2, 6), (2, 7), (3, 0), (3, 1), (3, 2), (3, 3), (3, 4), (3, 5), (3, 6), (3, 7)] (by decide) (by decide) Φ

omit [FloatOps F] in
theorem bigSep_8x3 (Φ : Fin 8 × Fin 3 → sProp 𝕄) :
    bigSep Finset.univ Φ
      = iprop(Φ (0, 0) ∗ Φ (0, 1) ∗ Φ (0, 2) ∗ Φ (1, 0) ∗ Φ (1, 1) ∗ Φ (1, 2) ∗ Φ (2, 0) ∗ Φ (2, 1) ∗ Φ (2, 2) ∗ Φ (3, 0) ∗ Φ (3, 1) ∗ Φ (3, 2) ∗ Φ (4, 0) ∗ Φ (4, 1) ∗ Φ (4, 2) ∗ Φ (5, 0) ∗ Φ (5, 1) ∗ Φ (5, 2) ∗ Φ (6, 0) ∗ Φ (6, 1) ∗ Φ (6, 2) ∗ Φ (7, 0) ∗ Φ (7, 1) ∗ Φ (7, 2)) :=
  bigSep_univ_eq_bigSepL [(0, 0), (0, 1), (0, 2), (1, 0), (1, 1), (1, 2), (2, 0), (2, 1), (2, 2), (3, 0), (3, 1), (3, 2), (4, 0), (4, 1), (4, 2), (5, 0), (5, 1), (5, 2), (6, 0), (6, 1), (6, 2), (7, 0), (7, 1), (7, 2)] (by decide) (by decide) Φ

omit [FloatOps F] in
theorem bigSep_4x3 (Φ : Fin 4 × Fin 3 → sProp 𝕄) :
    bigSep Finset.univ Φ
      = iprop(Φ (0, 0) ∗ Φ (0, 1) ∗ Φ (0, 2) ∗ Φ (1, 0) ∗ Φ (1, 1) ∗ Φ (1, 2) ∗ Φ (2, 0) ∗ Φ (2, 1) ∗ Φ (2, 2) ∗ Φ (3, 0) ∗ Φ (3, 1) ∗ Φ (3, 2)) :=
  bigSep_univ_eq_bigSepL [(0, 0), (0, 1), (0, 2), (1, 0), (1, 1), (1, 2), (2, 0), (2, 1), (2, 2), (3, 0), (3, 1), (3, 2)] (by decide) (by decide) Φ

/-- info: 'Cert.KernelIdeal.P.scratch_split_eq' depends on axioms: [propext, Classical.choice, Quot.sound] -/
#guard_msgs in #print axioms scratch_split_eq

/-- info: 'Cert.KernelIdeal.P.blocks_join_chunk' depends on axioms: [propext, Classical.choice, Quot.sound] -/
#guard_msgs in #print axioms blocks_join_chunk

end Cert.KernelIdeal.P
end
-- ==== Proof.Close.lean ====
/-
  The end of a device's body: its own transfer cells are closed and their counters read zero.

  Every cell of the ring's schedule has exactly one round, round 0, and no cell is without units. After the body's last wait on a
  cell its owner stands at round 1 of it, having taken and consumed nothing of that round; from round 1 on no round has a duty, so
  nothing can land on the cell any more. The owner may then close the cell: behind the cell's invariant the round state against
  the owner's position says the counter is zero, and the counter is what the owner keeps. Done for one cell, then for the 24 cells
  of an array of transfer semaphores at once, then for the four arrays: the 96 counters a device hands back at zero.
-/
import proofs.«900901_g7700000000000902_dist_matmul_silu_kshard_i_m2048_n2048_k1024_v7x_i4_bf16_1_alg».proof.Proof.Tables
import proofs.«900901_g7700000000000902_dist_matmul_silu_kshard_i_m2048_n2048_k1024_v7x_i4_bf16_1_alg».proof.Proof.Ghost

noncomputable section

namespace Cert.KernelIdeal.P

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Close
variable (fa : Dev nD → AT F) (fb : Dev nD → BT F)

/-- Every cell of the schedule has the one round 0 and none is without units: a cell whose owner stands at round 1, having
    taken and consumed nothing of it, closes, and its counter reads zero. -/
theorem close_cell (g : GSem nD τ sig) (κ : ℕ) :
    iprop(cellInv ER (ringRd fa fb) κ g ∗ atPos ER g 1 ∅ 0) ⊢ (|={Set.univ}=> semVal g 0 : sProp 𝕄) :=
  Rounds.cell_close ER (ringRd fa fb) (Set.mem_univ κ) (fun h => h) (R := 1) (duties_later fa fb g)

/-- The 24 cells of one array of transfer semaphores, closed together. -/
theorem close_array (K : GSem nD τ sig → ℕ) (c : Dev nD) (arr : DmaSems sig S8x3) :
    iprop(overAB (fun a b ha hb => cellInv ER (ringRd fa fb) (K (dcell c (csem arr a b (sem_inb a b ha hb)))) (dcell c (csem arr a b (sem_inb a b ha hb))))
        ∗ overAB (fun a b ha hb => atPos ER (dcell c (csem arr a b (sem_inb a b ha hb))) 1 ∅ 0))
      ⊢ (|={Set.univ}=> overAB (fun a b ha hb => semVal (dcell c (csem arr a b (sem_inb a b ha hb))) 0) : sProp 𝕄) := by
  unfold overAB
  rw [← bigSep_sep']
  exact (bigSep_mono fun ab _ => close_cell fa fb _ _).trans (bigSep_fupd _ _)

/-- The four arrays: device `c`'s own 96 transfer cells, closed together. -/
theorem close_all (K : GSem nD τ sig → ℕ) (c : Dev nD) :
    iprop((overAB (fun a b ha hb => cellInv ER (ringRd fa fb) (K (dcell c (csem cc0_scratch2 a b (sem_inb a b ha hb)))) (dcell c (csem cc0_scratch2 a b (sem_inb a b ha hb))))
          ∗ overAB (fun a b ha hb => cellInv ER (ringRd fa fb) (K (dcell c (csem cc0_scratch3 a b (sem_inb a b ha hb)))) (dcell c (csem cc0_scratch3 a b (sem_inb a b ha hb))))
          ∗ overAB (fun a b ha hb => cellInv ER (ringRd fa fb) (K (dcell c (csem cc0_scratch4 a b (sem_inb a b ha hb)))) (dcell c (csem cc0_scratch4 a b (sem_inb a b ha hb))))
          ∗ overAB (fun a b ha hb => cellInv ER (ringRd fa fb) (K (dcell c (csem cc0_scratch5 a b (sem_inb a b ha hb)))) (dcell c (csem cc0_scratch5 a b (sem_inb a b ha hb)))))
        ∗ (overAB (fun a b ha hb => atPos ER (dcell c (csem cc0_scratch2 a b (sem_inb a b ha hb))) 1 ∅ 0)
          ∗ overAB (fun a b ha hb => atPos ER (dcell c (csem cc0_scratch3 a b (sem_inb a b ha hb))) 1 ∅ 0)
          ∗ overAB (fun a b ha hb => atPos ER (dcell c (csem cc0_scratch4 a b (sem_inb a b ha hb))) 1 ∅ 0)
          ∗ overAB (fun a b ha hb => atPos ER (dcell c (csem cc0_scratch5 a b (sem_inb a b ha hb))) 1 ∅ 0)))
      ⊢ (|={Set.univ}=> iprop(overAB (fun a b ha hb => semVal (dcell c (csem cc0_scratch2 a b (sem_inb a b ha hb))) 0)
          ∗ overAB (fun a b ha hb => semVal (dcell c (csem cc0_scratch3 a b (sem_inb a b ha hb))) 0)
          ∗ overAB (fun a b ha hb => semVal (dcell c (csem cc0_scratch4 a b (sem_inb a b ha hb))) 0)
          ∗ overAB (fun a b ha hb => semVal (dcell c (csem cc0_scratch5 a b (sem_inb a b ha hb))) 0)) : sProp 𝕄) := by
  iintro ⟨⟨I2, I3, I4, I5⟩, ⟨A2, A3, A4, A5⟩⟩
  imod (close_array fa fb K c cc0_scratch2) $$ [I2 A2] with S2
  · isplitl [I2] <;> iassumption
  imod (close_array fa fb K c cc0_scratch3) $$ [I3 A3] with S3
  · isplitl [I3] <;> iassumption
  imod (close_array fa fb K c cc0_scratch4) $$ [I4 A4] with S4
  · isplitl [I4] <;> iassumption
  imod (close_array fa fb K c cc0_scratch5) $$ [I5 A5] with S5
  · isplitl [I5] <;> iassumption
  imodintro
  isplitl [S2]; · iexact S2
  isplitl [S3]; · iexact S3
  isplitl [S4]; · iexact S4
  iexact S5

/-- With the two scratch buffers held at anything: what a device hands back after its body. -/
theorem close_to_post (K : GSem nD τ sig → ℕ) (c : Dev nD) :
    iprop((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)
        ∗ (overAB (fun a b ha hb => cellInv ER (ringRd fa fb) (K (dcell c (csem cc0_scratch2 a b (sem_inb a b ha hb)))) (dcell c (csem cc0_scratch2 a b (sem_inb a b ha hb))))
          ∗ overAB (fun a b ha hb => cellInv ER (ringRd fa fb) (K (dcell c (csem cc0_scratch3 a b (sem_inb a b ha hb)))) (dcell c (csem cc0_scratch3 a b (sem_inb a b ha hb))))
          ∗ overAB (fun a b ha hb => cellInv ER (ringRd fa fb) (K (dcell c (csem cc0_scratch4 a b (sem_inb a b ha hb)))) (dcell c (csem cc0_scratch4 a b (sem_inb a b ha hb))))
          ∗ overAB (fun a b ha hb => cellInv ER (ringRd fa fb) (K (dcell c (csem cc0_scratch5 a b (sem_inb a b ha hb)))) (dcell c (csem cc0_scratch5 a b (sem_inb a b ha hb)))))
        ∗ (overAB (fun a b ha hb => atPos ER (dcell c (csem cc0_scratch2 a b (sem_inb a b ha hb))) 1 ∅ 0)
          ∗ overAB (fun a b ha hb => atPos ER (dcell c (csem cc0_scratch3 a b (sem_inb a b ha hb))) 1 ∅ 0)
          ∗ overAB (fun a b ha hb => atPos ER (dcell c (csem cc0_scratch4 a b (sem_inb a b ha hb))) 1 ∅ 0)
          ∗ overAB (fun a b ha hb => atPos ER (dcell c (csem cc0_scratch5 a b (sem_inb a b ha hb))) 1 ∅ 0)))
      ⊢ (|={Set.univ}=> Φ₁ (F := F) c : sProp 𝕄) := by
  iintro ⟨H0, H1, HI, HA⟩
  imod (close_all fa fb K c) $$ [HI HA] with HS
  · isplitl [HI] <;> iassumption
  imodintro
  unfold Φ₁
  isplitl [H0]; · iexact H0
  isplitl [H1]; · iexact H1
  iexact HS

end Close

/-- info: 'Cert.KernelIdeal.P.close_to_post' depends on axioms: [propext, Classical.choice, Quot.sound] -/
#guard_msgs in #print axioms close_to_post

end Cert.KernelIdeal.P
end
-- ==== Proof.PostTables.lean ====
import proofs.«900901_g7700000000000902_dist_matmul_silu_kshard_i_m2048_n2048_k1024_v7x_i4_bf16_1_alg».proof.Proof.Ghost

noncomputable section

namespace Cert.KernelIdeal.P

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

set_option maxHeartbeats 8000000 in
/-- What device `c` holds after the last wait of its body, every piece on its own. -/
def corePost (fa : Dev nD → AT F) (fb : Dev nD → BT F) (K : GSem nD τ sig → ℕ) (c : Dev nD)
    (fbb : BbT F) (W : Waits sig Unit) : sProp 𝕄 :=
  iprop(((aM : Memref sig .tc .vmem S2048x1024 .f32).view.loc (c : Thread nD τ) ↦{fullShare} fa c)
    ∗ ((bM : Memref sig .tc .vmem S1024x2048 .f32).view.loc (c : Thread nD τ) ↦{fullShare} fb c)
    ∗ ((bbM : Memref sig .tc .vmem S1024x2048 .bf16).view.loc (c : Thread nD τ) ↦{fullShare} fbb)
    ∗ (∃ g : RT F, ((slotM 0 0 inb_S8x4x512x256_S1x1x512x256_0_0_0_0 : Memref sig .tc .vmem S512x256 .bf16).view.loc ((c : Dev nD) : Thread nD τ) ↦[(slotM 0 0 inb_S8x4x512x256_S1x1x512x256_0_0_0_0 : Memref sig .tc .vmem S512x256 .bf16).view.set]{fullShare} g))
    ∗ (∃ g : RT F, ((slotM 0 1 inb_S8x4x512x256_S1x1x512x256_0_1_0_0 : Memref sig .tc .vmem S512x256 .bf16).view.loc ((c : Dev nD) : Thread nD τ) ↦[(slotM 0 1 inb_S8x4x512x256_S1x1x512x256_0_1_0_0 : Memref sig .tc .vmem S512x256 .bf16).view.set]{fullShare} g))
    ∗ (∃ g : RT F, ((slotM 0 2 inb_S8x4x512x256_S1x1x512x256_0_2_0_0 : Memref sig .tc .vmem S512x256 .bf16).view.loc ((c : Dev nD) : Thread nD τ) ↦[(slotM 0 2 inb_S8x4x512x256_S1x1x512x256_0_2_0_0 : Memref sig .tc .vmem S512x256 .bf16).view.set]{fullShare} g))
    ∗ (∃ g : RT F, ((slotM 0 3 inb_S8x4x512x256_S1x1x512x256_0_3_0_0 : Memref sig .tc .vmem S512x256 .bf16).view.loc ((c : Dev nD) : Thread nD τ) ↦[(slotM 0 3 inb_S8x4x512x256_S1x1x512x256_0_3_0_0 : Memref sig .tc .vmem S512x256 .bf16).view.set]{fullShare} g))
    ∗ (∃ g : RT F, ((slotM 1 0 inb_S8x4x512x256_S1x1x512x256_1_0_0_0 : Memref sig .tc .vmem S512x256 .bf16).view.loc ((c : Dev nD) : Thread nD τ) ↦[(slotM 1 0 inb_S8x4x512x256_S1x1x512x256_1_0_0_0 : Memref sig .tc .vmem S512x256 .bf16).view.set]{fullShare} g))
    ∗ (∃ g : RT F, ((slotM 1 1 inb_S8x4x512x256_S1x1x512x256_1_1_0_0 : Memref sig .tc .vmem S512x256 .bf16).view.loc ((c : Dev nD) : Thread nD τ) ↦[(slotM 1 1 inb_S8x4x512x256_S1x1x512x256_1_1_0_0 : Memref sig .tc .vmem S512x256 .bf16).view.set]{fullShare} g))
    ∗ (∃ g : RT F, ((slotM 1 2 inb_S8x4x512x256_S1x1x512x256_1_2_0_0 : Memref sig .tc .vmem S512x256 .bf16).view.loc ((c : Dev nD) : Thread nD τ) ↦[(slotM 1 2 inb_S8x4x512x256_S1x1x512x256_1_2_0_0 : Memref sig .tc .vmem S512x256 .bf16).view.set]{fullShare} g))
    ∗ (∃ g : RT F, ((slotM 1 3 inb_S8x4x512x256_S1x1x512x256_1_3_0_0 : Memref sig .tc .vmem S512x256 .bf16).view.loc ((c : Dev nD) : Thread nD τ) ↦[(slotM 1 3 inb_S8x4x512x256_S1x1x512x256_1_3_0_0 : Memref sig .tc .vmem S512x256 .bf16).view.set]{fullShare} g))
    ∗ (∃ g : RT F, ((slotM 2 0 inb_S8x4x512x256_S1x1x512x256_2_0_0_0 : Memref sig .tc .vmem S512x256 .bf16).view.loc ((c : Dev nD) : Thread nD τ) ↦[(slotM 2 0 inb_S8x4x512x256_S1x1x512x256_2_0_0_0 : Memref sig .tc .vmem S512x256 .bf16).view.set]{fullShare} g))
    ∗ (∃ g : RT F, ((slotM 2 1 inb_S8x4x512x256_S1x1x512x256_2_1_0_0 : Memref sig .tc .vmem S512x256 .bf16).view.loc ((c : Dev nD) : Thread nD τ) ↦[(slotM 2 1 inb_S8x4x512x256_S1x1x512x256_2_1_0_0 : Memref sig .tc .vmem S512x256 .bf16).view.set]{fullShare} g))
    ∗ (∃ g : RT F, ((slotM 2 2 inb_S8x4x512x256_S1x1x512x256_2_2_0_0 : Memref sig .tc .vmem S512x256 .bf16).view.loc ((c : Dev nD) : Thread nD τ) ↦[(slotM 2 2 inb_S8x4x512x256_S1x1x512x256_2_2_0_0 : Memref sig .tc .vmem S512x256 .bf16).view.set]{fullShare} g))
    ∗ (∃ g : RT F, ((slotM 2 3 inb_S8x4x512x256_S1x1x512x256_2_3_0_0 : Memref sig .tc .vmem S512x256 .bf16).view.loc ((c : Dev nD) : Thread nD τ) ↦[(slotM 2 3 inb_S8x4x512x256_S1x1x512x256_2_3_0_0 : Memref sig .tc .vmem S512x256 .bf16).view.set]{fullShare} g))
    ∗ (∃ g : RT F, ((slotM 3 0 inb_S8x4x512x256_S1x1x512x256_3_0_0_0 : Memref sig .tc .vmem S512x256 .bf16).view.loc ((c : Dev nD) : Thread nD τ) ↦[(slotM 3 0 inb_S8x4x512x256_S1x1x512x256_3_0_0_0 : Memref sig .tc .vmem S512x256 .bf16).view.set]{fullShare} g))
    ∗ (∃ g : RT F, ((slotM 3 1 inb_S8x4x512x256_S1x1x512x256_3_1_0_0 : Memref sig .tc .vmem S512x256 .bf16).view.loc ((c : Dev nD) : Thread nD τ) ↦[(slotM 3 1 inb_S8x4x512x256_S1x1x512x256_3_1_0_0 : Memref sig .tc .vmem S512x256 .bf16).view.set]{fullShare} g))
    ∗ (∃ g : RT F, ((slotM 3 2 inb_S8x4x512x256_S1x1x512x256_3_2_0_0 : Memref sig .tc .vmem S512x256 .bf16).view.loc ((c : Dev nD) : Thread nD τ) ↦[(slotM 3 2 inb_S8x4x512x256_S1x1x512x256_3_2_0_0 : Memref sig .tc .vmem S512x256 .bf16).view.set]{fullShare} g))
    ∗ (∃ g : RT F, ((slotM 3 3 inb_S8x4x512x256_S1x1x512x256_3_3_0_0 : Memref sig .tc .vmem S512x256 .bf16).view.loc ((c : Dev nD) : Thread nD τ) ↦[(slotM 3 3 inb_S8x4x512x256_S1x1x512x256_3_3_0_0 : Memref sig .tc .vmem S512x256 .bf16).view.set]{fullShare} g))
    ∗ (∃ g : RT F, ((slotM 4 0 inb_S8x4x512x256_S1x1x512x256_4_0_0_0 : Memref sig .tc .vmem S512x256 .bf16).view.loc ((c : Dev nD) : Thread nD τ) ↦[(slotM 4 0 inb_S8x4x512x256_S1x1x512x256_4_0_0_0 : Memref sig .tc .vmem S512x256 .bf16).view.set]{fullShare} g))
    ∗ (∃ g : RT F, ((slotM 4 1 inb_S8x4x512x256_S1x1x512x256_4_1_0_0 : Memref sig .tc .vmem S512x256 .bf16).view.loc ((c : Dev nD) : Thread nD τ) ↦[(slotM 4 1 inb_S8x4x512x256_S1x1x512x256_4_1_0_0 : Memref sig .tc .vmem S512x256 .bf16).view.set]{fullShare} g))
    ∗ (∃ g : RT F, ((slotM 4 2 inb_S8x4x512x256_S1x1x512x256_4_2_0_0 : Memref sig .tc .vmem S512x256 .bf16).view.loc ((c : Dev nD) : Thread nD τ) ↦[(slotM 4 2 inb_S8x4x512x256_S1x1x512x256_4_2_0_0 : Memref sig .tc .vmem S512x256 .bf16).view.set]{fullShare} g))
    ∗ (∃ g : RT F, ((slotM 4 3 inb_S8x4x512x256_S1x1x512x256_4_3_0_0 : Memref sig .tc .vmem S512x256 .bf16).view.loc ((c : Dev nD) : Thread nD τ) ↦[(slotM 4 3 inb_S8x4x512x256_S1x1x512x256_4_3_0_0 : Memref sig .tc .vmem S512x256 .bf16).view.set]{fullShare} g))
    ∗ (∃ g : RT F, ((slotM 5 0 inb_S8x4x512x256_S1x1x512x256_5_0_0_0 : Memref sig .tc .vmem S512x256 .bf16).view.loc ((c : Dev nD) : Thread nD τ) ↦[(slotM 5 0 inb_S8x4x512x256_S1x1x512x256_5_0_0_0 : Memref sig .tc .vmem S512x256 .bf16).view.set]{fullShare} g))
    ∗ (∃ g : RT F, ((slotM 5 1 inb_S8x4x512x256_S1x1x512x256_5_1_0_0 : Memref sig .tc .vmem S512x256 .bf16).view.loc ((c : Dev nD) : Thread nD τ) ↦[(slotM 5 1 inb_S8x4x512x256_S1x1x512x256_5_1_0_0 : Memref sig .tc .vmem S512x256 .bf16).view.set]{fullShare} g))
    ∗ (∃ g : RT F, ((slotM 5 2 inb_S8x4x512x256_S1x1x512x256_5_2_0_0 : Memref sig .tc .vmem S512x256 .bf16).view.loc ((c : Dev nD) : Thread nD τ) ↦[(slotM 5 2 inb_S8x4x512x256_S1x1x512x256_5_2_0_0 : Memref sig .tc .vmem S512x256 .bf16).view.set]{fullShare} g))
    ∗ (∃ g : RT F, ((slotM 5 3 inb_S8x4x512x256_S1x1x512x256_5_3_0_0 : Memref sig .tc .vmem S512x256 .bf16).view.loc ((c : Dev nD) : Thread nD τ) ↦[(slotM 5 3 inb_S8x4x512x256_S1x1x512x256_5_3_0_0 : Memref sig .tc .vmem S512x256 .bf16).view.set]{fullShare} g))
    ∗ (∃ g : RT F, ((slotM 6 0 inb_S8x4x512x256_S1x1x512x256_6_0_0_0 : Memref sig .tc .vmem S512x256 .bf16).view.loc ((c : Dev nD) : Thread nD τ) ↦[(slotM 6 0 inb_S8x4x512x256_S1x1x512x256_6_0_0_0 : Memref sig .tc .vmem S512x256 .bf16).view.set]{fullShare} g))
    ∗ (∃ g : RT F, ((slotM 6 1 inb_S8x4x512x256_S1x1x512x256_6_1_0_0 : Memref sig .tc .vmem S512x256 .bf16).view.loc ((c : Dev nD) : Thread nD τ) ↦[(slotM 6 1 inb_S8x4x512x256_S1x1x512x256_6_1_0_0 : Memref sig .tc .vmem S512x256 .bf16).view.set]{fullShare} g))
    ∗ (∃ g : RT F, ((slotM 6 2 inb_S8x4x512x256_S1x1x512x256_6_2_0_0 : Memref sig .tc .vmem S512x256 .bf16).view.loc ((c : Dev nD) : Thread nD τ) ↦[(slotM 6 2 inb_S8x4x512x256_S1x1x512x256_6_2_0_0 : Memref sig .tc .vmem S512x256 .bf16).view.set]{fullShare} g))
    ∗ (∃ g : RT F, ((slotM 6 3 inb_S8x4x512x256_S1x1x512x256_6_3_0_0 : Memref sig .tc .vmem S512x256 .bf16).view.loc ((c : Dev nD) : Thread nD τ) ↦[(slotM 6 3 inb_S8x4x512x256_S1x1x512x256_6_3_0_0 : Memref sig .tc .vmem S512x256 .bf16).view.set]{fullShare} g))
    ∗ (∃ g : RT F, ((slotM 7 0 inb_S8x4x512x256_S1x1x512x256_7_0_0_0 : Memref sig .tc .vmem S512x256 .bf16).view.loc ((c : Dev nD) : Thread nD τ) ↦[(slotM 7 0 inb_S8x4x512x256_S1x1x512x256_7_0_0_0 : Memref sig .tc .vmem S512x256 .bf16).view.set]{fullShare} g))
    ∗ (∃ g : RT F, ((slotM 7 1 inb_S8x4x512x256_S1x1x512x256_7_1_0_0 : Memref sig .tc .vmem S512x256 .bf16).view.loc ((c : Dev nD) : Thread nD τ) ↦[(slotM 7 1 inb_S8x4x512x256_S1x1x512x256_7_1_0_0 : Memref sig .tc .vmem S512x256 .bf16).view.set]{fullShare} g))
    ∗ (∃ g : RT F, ((slotM 7 2 inb_S8x4x512x256_S1x1x512x256_7_2_0_0 : Memref sig .tc .vmem S512x256 .bf16).view.loc ((c : Dev nD) : Thread nD τ) ↦[(slotM 7 2 inb_S8x4x512x256_S1x1x512x256_7_2_0_0 : Memref sig .tc .vmem S512x256 .bf16).view.set]{fullShare} g))
    ∗ (∃ g : RT F, ((slotM 7 3 inb_S8x4x512x256_S1x1x512x256_7_3_0_0 : Memref sig .tc .vmem S512x256 .bf16).view.loc ((c : Dev nD) : Thread nD τ) ↦[(slotM 7 3 inb_S8x4x512x256_S1x1x512x256_7_3_0_0 : Memref sig .tc .vmem S512x256 .bf16).view.set]{fullShare} g))
    ∗ ((oblkM (k0_off3 c 0#32) (k0_off3_inb c 0) : Memref sig .tc .vmem S512x256 .bf16).view.loc ((c : Dev nD) : Thread nD τ) ↦[(oblkM (k0_off3 c 0#32) (k0_off3_inb c 0) : Memref sig .tc .vmem S512x256 .bf16).view.set]{fullShare} (oblkBuf (k0_off3 c 0#32) (k0_off3_inb c 0) (outBlk fa fb (orig 0 0 c) 0 (by decide))))
    ∗ ((oblkM (k0_off3 c 1#32) (k0_off3_inb c 1) : Memref sig .tc .vmem S512x256 .bf16).view.loc ((c : Dev nD) : Thread nD τ) ↦[(oblkM (k0_off3 c 1#32) (k0_off3_inb c 1) : Memref sig .tc .vmem S512x256 .bf16).view.set]{fullShare} (oblkBuf (k0_off3 c 1#32) (k0_off3_inb c 1) (outBlk fa fb (orig 0 1 c) 0 (by decide))))
    ∗ ((oblkM (k0_off3 c 2#32) (k0_off3_inb c 2) : Memref sig .tc .vmem S512x256 .bf16).view.loc ((c : Dev nD) : Thread nD τ) ↦[(oblkM (k0_off3 c 2#32) (k0_off3_inb c 2) : Memref sig .tc .vmem S512x256 .bf16).view.set]{fullShare} (oblkBuf (k0_off3 c 2#32) (k0_off3_inb c 2) (outBlk fa fb (orig 0 2 c) 0 (by decide))))
    ∗ ((oblkM (k0_off7 c 0#32) (k0_off7_inb c 0) : Memref sig .tc .vmem S512x256 .bf16).view.loc ((c : Dev nD) : Thread nD τ) ↦[(oblkM (k0_off7 c 0#32) (k0_off7_inb c 0) : Memref sig .tc .vmem S512x256 .bf16).view.set]{fullShare} (oblkBuf (k0_off7 c 0#32) (k0_off7_inb c 0) (outBlk fa fb (orig 1 0 c) 1 (by decide))))
    ∗ ((oblkM (k0_off7 c 1#32) (k0_off7_inb c 1) : Memref sig .tc .vmem S512x256 .bf16).view.loc ((c : Dev nD) : Thread nD τ) ↦[(oblkM (k0_off7 c 1#32) (k0_off7_inb c 1) : Memref sig .tc .vmem S512x256 .bf16).view.set]{fullShare} (oblkBuf (k0_off7 c 1#32) (k0_off7_inb c 1) (outBlk fa fb (orig 1 1 c) 1 (by decide))))
    ∗ ((oblkM (k0_off7 c 2#32) (k0_off7_inb c 2) : Memref sig .tc .vmem S512x256 .bf16).view.loc ((c : Dev nD) : Thread nD τ) ↦[(oblkM (k0_off7 c 2#32) (k0_off7_inb c 2) : Memref sig .tc .vmem S512x256 .bf16).view.set]{fullShare} (oblkBuf (k0_off7 c 2#32) (k0_off7_inb c 2) (outBlk fa fb (orig 1 2 c) 1 (by decide))))
    ∗ ((oblkM (k0_off11 c 0#32) (k0_off11_inb c 0) : Memref sig .tc .vmem S512x256 .bf16).view.loc ((c : Dev nD) : Thread nD τ) ↦[(oblkM (k0_off11 c 0#32) (k0_off11_inb c 0) : Memref sig .tc .vmem S512x256 .bf16).view.set]{fullShare} (oblkBuf (k0_off11 c 0#32) (k0_off11_inb c 0) (outBlk fa fb (orig 2 0 c) 2 (by decide))))
    ∗ ((oblkM (k0_off11 c 1#32) (k0_off11_inb c 1) : Memref sig .tc .vmem S512x256 .bf16).view.loc ((c : Dev nD) : Thread nD τ) ↦[(oblkM (k0_off11 c 1#32) (k0_off11_inb c 1) : Memref sig .tc .vmem S512x256 .bf16).view.set]{fullShare} (oblkBuf (k0_off11 c 1#32) (k0_off11_inb c 1) (outBlk fa fb (orig 2 1 c) 2 (by decide))))
    ∗ ((oblkM (k0_off11 c 2#32) (k0_off11_inb c 2) : Memref sig .tc .vmem S512x256 .bf16).view.loc ((c : Dev nD) : Thread nD τ) ↦[(oblkM (k0_off11 c 2#32) (k0_off11_inb c 2) : Memref sig .tc .vmem S512x256 .bf16).view.set]{fullShare} (oblkBuf (k0_off11 c 2#32) (k0_off11_inb c 2) (outBlk fa fb (orig 2 2 c) 2 (by decide))))
    ∗ ((oblkM (k0_off15 c 0#32) (k0_off15_inb c 0) : Memref sig .tc .vmem S512x256 .bf16).view.loc ((c : Dev nD) : Thread nD τ) ↦[(oblkM (k0_off15 c 0#32) (k0_off15_inb c 0) : Memref sig .tc .vmem S512x256 .bf16).view.set]{fullShare} (oblkBuf (k0_off15 c 0#32) (k0_off15_inb c 0) (outBlk fa fb (orig 3 0 c) 3 (by decide))))
    ∗ ((oblkM (k0_off15 c 1#32) (k0_off15_inb c 1) : Memref sig .tc .vmem S512x256 .bf16).view.loc ((c : Dev nD) : Thread nD τ) ↦[(oblkM (k0_off15 c 1#32) (k0_off15_inb c 1) : Memref sig .tc .vmem S512x256 .bf16).view.set]{fullShare} (oblkBuf (k0_off15 c 1#32) (k0_off15_inb c 1) (outBlk fa fb (orig 3 1 c) 3 (by decide))))
    ∗ ((oblkM (k0_off15 c 2#32) (k0_off15_inb c 2) : Memref sig .tc .vmem S512x256 .bf16).view.loc ((c : Dev nD) : Thread nD τ) ↦[(oblkM (k0_off15 c 2#32) (k0_off15_inb c 2) : Memref sig .tc .vmem S512x256 .bf16).view.set]{fullShare} (oblkBuf (k0_off15 c 2#32) (k0_off15_inb c 2) (outBlk fa fb (orig 3 2 c) 3 (by decide))))
    ∗ ((oblkM (k0_off5 c 0#32) (k0_off5_inb c 0) : Memref sig .tc .vmem S512x256 .bf16).view.loc ((c : Dev nD) : Thread nD τ) ↦[(oblkM (k0_off5 c 0#32) (k0_off5_inb c 0) : Memref sig .tc .vmem S512x256 .bf16).view.set]{fullShare} (oblkBuf (k0_off5 c 0#32) (k0_off5_inb c 0) (outBlk fa fb (orig 4 0 c) 4 (by decide))))
    ∗ ((oblkM (k0_off5 c 4294967295#32) (k0_off5_inb c 1) : Memref sig .tc .vmem S512x256 .bf16).view.loc ((c : Dev nD) : Thread nD τ) ↦[(oblkM (k0_off5 c 4294967295#32) (k0_off5_inb c 1) : Memref sig .tc .vmem S512x256 .bf16).view.set]{fullShare} (oblkBuf (k0_off5 c 4294967295#32) (k0_off5_inb c 1) (outBlk fa fb (orig 4 1 c) 4 (by decide))))
    ∗ ((oblkM (k0_off5 c 4294967294#32) (k0_off5_inb c 2) : Memref sig .tc .vmem S512x256 .bf16).view.loc ((c : Dev nD) : Thread nD τ) ↦[(oblkM (k0_off5 c 4294967294#32) (k0_off5_inb c 2) : Memref sig .tc .vmem S512x256 .bf16).view.set]{fullShare} (oblkBuf (k0_off5 c 4294967294#32) (k0_off5_inb c 2) (outBlk fa fb (orig 4 2 c) 4 (by decide))))
    ∗ ((oblkM (k0_off9 c 0#32) (k0_off9_inb c 0) : Memref sig .tc .vmem S512x256 .bf16).view.loc ((c : Dev nD) : Thread nD τ) ↦[(oblkM (k0_off9 c 0#32) (k0_off9_inb c 0) : Memref sig .tc .vmem S512x256 .bf16).view.set]{fullShare} (oblkBuf (k0_off9 c 0#32) (k0_off9_inb c 0) (outBlk fa fb (orig 5 0 c) 5 (by decide))))
    ∗ ((oblkM (k0_off9 c 4294967295#32) (k0_off9_inb c 1) : Memref sig .tc .vmem S512x256 .bf16).view.loc ((c : Dev nD) : Thread nD τ) ↦[(oblkM (k0_off9 c 4294967295#32) (k0_off9_inb c 1) : Memref sig .tc .vmem S512x256 .bf16).view.set]{fullShare} (oblkBuf (k0_off9 c 4294967295#32) (k0_off9_inb c 1) (outBlk fa fb (orig 5 1 c) 5 (by decide))))
    ∗ ((oblkM (k0_off9 c 4294967294#32) (k0_off9_inb c 2) : Memref sig .tc .vmem S512x256 .bf16).view.loc ((c : Dev nD) : Thread nD τ) ↦[(oblkM (k0_off9 c 4294967294#32) (k0_off9_inb c 2) : Memref sig .tc .vmem S512x256 .bf16).view.set]{fullShare} (oblkBuf (k0_off9 c 4294967294#32) (k0_off9_inb c 2) (outBlk fa fb (orig 5 2 c) 5 (by decide))))
    ∗ ((oblkM (k0_off13 c 0#32) (k0_off13_inb c 0) : Memref sig .tc .vmem S512x256 .bf16).view.loc ((c : Dev nD) : Thread nD τ) ↦[(oblkM (k0_off13 c 0#32) (k0_off13_inb c 0) : Memref sig .tc .vmem S512x256 .bf16).view.set]{fullShare} (oblkBuf (k0_off13 c 0#32) (k0_off13_inb c 0) (outBlk fa fb (orig 6 0 c) 6 (by decide))))
    ∗ ((oblkM (k0_off13 c 4294967295#32) (k0_off13_inb c 1) : Memref sig .tc .vmem S512x256 .bf16).view.loc ((c : Dev nD) : Thread nD τ) ↦[(oblkM (k0_off13 c 4294967295#32) (k0_off13_inb c 1) : Memref sig .tc .vmem S512x256 .bf16).view.set]{fullShare} (oblkBuf (k0_off13 c 4294967295#32) (k0_off13_inb c 1) (outBlk fa fb (orig 6 1 c) 6 (by decide))))
    ∗ ((oblkM (k0_off13 c 4294967294#32) (k0_off13_inb c 2) : Memref sig .tc .vmem S512x256 .bf16).view.loc ((c : Dev nD) : Thread nD τ) ↦[(oblkM (k0_off13 c 4294967294#32) (k0_off13_inb c 2) : Memref sig .tc .vmem S512x256 .bf16).view.set]{fullShare} (oblkBuf (k0_off13 c 4294967294#32) (k0_off13_inb c 2) (outBlk fa fb (orig 6 2 c) 6 (by decide))))
    ∗ ((oblkM (k0_off17 c 0#32) (k0_off17_inb c 0) : Memref sig .tc .vmem S512x256 .bf16).view.loc ((c : Dev nD) : Thread nD τ) ↦[(oblkM (k0_off17 c 0#32) (k0_off17_inb c 0) : Memref sig .tc .vmem S512x256 .bf16).view.set]{fullShare} (oblkBuf (k0_off17 c 0#32) (k0_off17_inb c 0) (outBlk fa fb (orig 7 0 c) 7 (by decide))))
    ∗ ((oblkM (k0_off17 c 4294967295#32) (k0_off17_inb c 1) : Memref sig .tc .vmem S512x256 .bf16).view.loc ((c : Dev nD) : Thread nD τ) ↦[(oblkM (k0_off17 c 4294967295#32) (k0_off17_inb c 1) : Memref sig .tc .vmem S512x256 .bf16).view.set]{fullShare} (oblkBuf (k0_off17 c 4294967295#32) (k0_off17_inb c 1) (outBlk fa fb (orig 7 1 c) 7 (by decide))))
    ∗ ((oblkM (k0_off17 c 4294967294#32) (k0_off17_inb c 2) : Memref sig .tc .vmem S512x256 .bf16).view.loc ((c : Dev nD) : Thread nD τ) ↦[(oblkM (k0_off17 c 4294967294#32) (k0_off17_inb c 2) : Memref sig .tc .vmem S512x256 .bf16).view.set]{fullShare} (oblkBuf (k0_off17 c 4294967294#32) (k0_off17_inb c 2) (outBlk fa fb (orig 7 2 c) 7 (by decide))))
    ∗ (∃ fd : OT F, ((oblkM (rowOff c (agShift 0 3) 0) (rowOff_inb c (agShift 0 3) 0 (by decide)) : Memref sig .tc .vmem S512x256 .bf16).view.loc ((c : Dev nD) : Thread nD τ) ↦[(oblkM (rowOff c (agShift 0 3) 0) (rowOff_inb c (agShift 0 3) 0 (by decide)) : Memref sig .tc .vmem S512x256 .bf16).view.set]{fullShare} ((oblkM (rowOff c (agShift 0 3) 0) (rowOff_inb c (agShift 0 3) 0 (by decide)) : Memref sig .tc .vmem S512x256 .bf16).view.write (Elt F) fd ((oblkM (rowOff (sdev 0 c) (agShift 0 2) 0) (rowOff_inb (sdev 0 c) (agShift 0 2) 0 (by decide)) : Memref sig .tc .vmem S512x256 .bf16).view.read (Elt F) (oblkBuf (rowOff (sdev 0 c) (agShift 0 2) 0) (rowOff_inb (sdev 0 c) (agShift 0 2) 0 (by decide)) (outBlk fa fb (orig 0 2 (sdev 0 c)) 0 (by decide)))) Finset.univ)))
    ∗ (∃ fd : OT F, ((oblkM (rowOff c (agShift 1 3) 1) (rowOff_inb c (agShift 1 3) 1 (by decide)) : Memref sig .tc .vmem S512x256 .bf16).view.loc ((c : Dev nD) : Thread nD τ) ↦[(oblkM (rowOff c (agShift 1 3) 1) (rowOff_inb c (agShift 1 3) 1 (by decide)) : Memref sig .tc .vmem S512x256 .bf16).view.set]{fullShare} ((oblkM (rowOff c (agShift 1 3) 1) (rowOff_inb c (agShift 1 3) 1 (by decide)) : Memref sig .tc .vmem S512x256 .bf16).view.write (Elt F) fd ((oblkM (rowOff (sdev 1 c) (agShift 1 2) 1) (rowOff_inb (sdev 1 c) (agShift 1 2) 1 (by decide)) : Memref sig .tc .vmem S512x256 .bf16).view.read (Elt F) (oblkBuf (rowOff (sdev 1 c) (agShift 1 2) 1) (rowOff_inb (sdev 1 c) (agShift 1 2) 1 (by decide)) (outBlk fa fb (orig 1 2 (sdev 1 c)) 1 (by decide)))) Finset.univ)))
    ∗ (∃ fd : OT F, ((oblkM (rowOff c (agShift 2 3) 2) (rowOff_inb c (agShift 2 3) 2 (by decide)) : Memref sig .tc .vmem S512x256 .bf16).view.loc ((c : Dev nD) : Thread nD τ) ↦[(oblkM (rowOff c (agShift 2 3) 2) (rowOff_inb c (agShift 2 3) 2 (by decide)) : Memref sig .tc .vmem S512x256 .bf16).view.set]{fullShare} ((oblkM (rowOff c (agShift 2 3) 2) (rowOff_inb c (agShift 2 3) 2 (by decide)) : Memref sig .tc .vmem S512x256 .bf16).view.write (Elt F) fd ((oblkM (rowOff (sdev 2 c) (agShift 2 2) 2) (rowOff_inb (sdev 2 c) (agShift 2 2) 2 (by decide)) : Memref sig .tc .vmem S512x256 .bf16).view.read (Elt F) (oblkBuf (rowOff (sdev 2 c) (agShift 2 2) 2) (rowOff_inb (sdev 2 c) (agShift 2 2) 2 (by decide)) (outBlk fa fb (orig 2 2 (sdev 2 c)) 2 (by decide)))) Finset.univ)))
    ∗ (∃ fd : OT F, ((oblkM (rowOff c (agShift 3 3) 3) (rowOff_inb c (agShift 3 3) 3 (by decide)) : Memref sig .tc .vmem S512x256 .bf16).view.loc ((c : Dev nD) : Thread nD τ) ↦[(oblkM (rowOff c (agShift 3 3) 3) (rowOff_inb c (agShift 3 3) 3 (by decide)) : Memref sig .tc .vmem S512x256 .bf16).view.set]{fullShare} ((oblkM (rowOff c (agShift 3 3) 3) (rowOff_inb c (agShift 3 3) 3 (by decide)) : Memref sig .tc .vmem S512x256 .bf16).view.write (Elt F) fd ((oblkM (rowOff (sdev 3 c) (agShift 3 2) 3) (rowOff_inb (sdev 3 c) (agShift 3 2) 3 (by decide)) : Memref sig .tc .vmem S512x256 .bf16).view.read (Elt F) (oblkBuf (rowOff (sdev 3 c) (agShift 3 2) 3) (rowOff_inb (sdev 3 c) (agShift 3 2) 3 (by decide)) (outBlk fa fb (orig 3 2 (sdev 3 c)) 3 (by decide)))) Finset.univ)))
    ∗ (∃ fd : OT F, ((oblkM (rowOff c (agShift 4 3) 4) (rowOff_inb c (agShift 4 3) 4 (by decide)) : Memref sig .tc .vmem S512x256 .bf16).view.loc ((c : Dev nD) : Thread nD τ) ↦[(oblkM (rowOff c (agShift 4 3) 4) (rowOff_inb c (agShift 4 3) 4 (by decide)) : Memref sig .tc .vmem S512x256 .bf16).view.set]{fullShare} ((oblkM (rowOff c (agShift 4 3) 4) (rowOff_inb c (agShift 4 3) 4 (by decide)) : Memref sig .tc .vmem S512x256 .bf16).view.write (Elt F) fd ((oblkM (rowOff (sdev 4 c) (agShift 4 2) 4) (rowOff_inb (sdev 4 c) (agShift 4 2) 4 (by decide)) : Memref sig .tc .vmem S512x256 .bf16).view.read (Elt F) (oblkBuf (rowOff (sdev 4 c) (agShift 4 2) 4) (rowOff_inb (sdev 4 c) (agShift 4 2) 4 (by decide)) (outBlk fa fb (orig 4 2 (sdev 4 c)) 4 (by decide)))) Finset.univ)))
    ∗ (∃ fd : OT F, ((oblkM (rowOff c (agShift 5 3) 5) (rowOff_inb c (agShift 5 3) 5 (by decide)) : Memref sig .tc .vmem S512x256 .bf16).view.loc ((c : Dev nD) : Thread nD τ) ↦[(oblkM (rowOff c (agShift 5 3) 5) (rowOff_inb c (agShift 5 3) 5 (by decide)) : Memref sig .tc .vmem S512x256 .bf16).view.set]{fullShare} ((oblkM (rowOff c (agShift 5 3) 5) (rowOff_inb c (agShift 5 3) 5 (by decide)) : Memref sig .tc .vmem S512x256 .bf16).view.write (Elt F) fd ((oblkM (rowOff (sdev 5 c) (agShift 5 2) 5) (rowOff_inb (sdev 5 c) (agShift 5 2) 5 (by decide)) : Memref sig .tc .vmem S512x256 .bf16).view.read (Elt F) (oblkBuf (rowOff (sdev 5 c) (agShift 5 2) 5) (rowOff_inb (sdev 5 c) (agShift 5 2) 5 (by decide)) (outBlk fa fb (orig 5 2 (sdev 5 c)) 5 (by decide)))) Finset.univ)))
    ∗ (∃ fd : OT F, ((oblkM (rowOff c (agShift 6 3) 6) (rowOff_inb c (agShift 6 3) 6 (by decide)) : Memref sig .tc .vmem S512x256 .bf16).view.loc ((c : Dev nD) : Thread nD τ) ↦[(oblkM (rowOff c (agShift 6 3) 6) (rowOff_inb c (agShift 6 3) 6 (by decide)) : Memref sig .tc .vmem S512x256 .bf16).view.set]{fullShare} ((oblkM (rowOff c (agShift 6 3) 6) (rowOff_inb c (agShift 6 3) 6 (by decide)) : Memref sig .tc .vmem S512x256 .bf16).view.write (Elt F) fd ((oblkM (rowOff (sdev 6 c) (agShift 6 2) 6) (rowOff_inb (sdev 6 c) (agShift 6 2) 6 (by decide)) : Memref sig .tc .vmem S512x256 .bf16).view.read (Elt F) (oblkBuf (rowOff (sdev 6 c) (agShift 6 2) 6) (rowOff_inb (sdev 6 c) (agShift 6 2) 6 (by decide)) (outBlk fa fb (orig 6 2 (sdev 6 c)) 6 (by decide)))) Finset.univ)))
    ∗ (∃ fd : OT F, ((oblkM (rowOff c (agShift 7 3) 7) (rowOff_inb c (agShift 7 3) 7 (by decide)) : Memref sig .tc .vmem S512x256 .bf16).view.loc ((c : Dev nD) : Thread nD τ) ↦[(oblkM (rowOff c (agShift 7 3) 7) (rowOff_inb c (agShift 7 3) 7 (by decide)) : Memref sig .tc .vmem S512x256 .bf16).view.set]{fullShare} ((oblkM (rowOff c (agShift 7 3) 7) (rowOff_inb c (agShift 7 3) 7 (by decide)) : Memref sig .tc .vmem S512x256 .bf16).view.write (Elt F) fd ((oblkM (rowOff (sdev 7 c) (agShift 7 2) 7) (rowOff_inb (sdev 7 c) (agShift 7 2) 7 (by decide)) : Memref sig .tc .vmem S512x256 .bf16).view.read (Elt F) (oblkBuf (rowOff (sdev 7 c) (agShift 7 2) 7) (rowOff_inb (sdev 7 c) (agShift 7 2) 7 (by decide)) (outBlk fa fb (orig 7 2 (sdev 7 c)) 7 (by decide)))) Finset.univ)))
    ∗ cellInv ER (ringRd (F := F) fa fb) (K (dcell (c) (csem cc0_scratch2 0 0 inb_S8x3_S1x1_0_0))) (dcell (c) (csem cc0_scratch2 0 0 inb_S8x3_S1x1_0_0))
    ∗ cellInv ER (ringRd (F := F) fa fb) (K (dcell (c) (csem cc0_scratch2 0 1 inb_S8x3_S1x1_0_1))) (dcell (c) (csem cc0_scratch2 0 1 inb_S8x3_S1x1_0_1))
    ∗ cellInv ER (ringRd (F := F) fa fb) (K (dcell (c) (csem cc0_scratch2 0 2 inb_S8x3_S1x1_0_2))) (dcell (c) (csem cc0_scratch2 0 2 inb_S8x3_S1x1_0_2))
    ∗ cellInv ER (ringRd (F := F) fa fb) (K (dcell (c) (csem cc0_scratch2 1 0 inb_S8x3_S1x1_1_0))) (dcell (c) (csem cc0_scratch2 1 0 inb_S8x3_S1x1_1_0))
    ∗ cellInv ER (ringRd (F := F) fa fb) (K (dcell (c) (csem cc0_scratch2 1 1 inb_S8x3_S1x1_1_1))) (dcell (c) (csem cc0_scratch2 1 1 inb_S8x3_S1x1_1_1))
    ∗ cellInv ER (ringRd (F := F) fa fb) (K (dcell (c) (csem cc0_scratch2 1 2 inb_S8x3_S1x1_1_2))) (dcell (c) (csem cc0_scratch2 1 2 inb_S8x3_S1x1_1_2))
    ∗ cellInv ER (ringRd (F := F) fa fb) (K (dcell (c) (csem cc0_scratch2 2 0 inb_S8x3_S1x1_2_0))) (dcell (c) (csem cc0_scratch2 2 0 inb_S8x3_S1x1_2_0))
    ∗ cellInv ER (ringRd (F := F) fa fb) (K (dcell (c) (csem cc0_scratch2 2 1 inb_S8x3_S1x1_2_1))) (dcell (c) (csem cc0_scratch2 2 1 inb_S8x3_S1x1_2_1))
    ∗ cellInv ER (ringRd (F := F) fa fb) (K (dcell (c) (csem cc0_scratch2 2 2 inb_S8x3_S1x1_2_2))) (dcell (c) (csem cc0_scratch2 2 2 inb_S8x3_S1x1_2_2))
    ∗ cellInv ER (ringRd (F := F) fa fb) (K (dcell (c) (csem cc0_scratch2 3 0 inb_S8x3_S1x1_3_0))) (dcell (c) (csem cc0_scratch2 3 0 inb_S8x3_S1x1_3_0))
    ∗ cellInv ER (ringRd (F := F) fa fb) (K (dcell (c) (csem cc0_scratch2 3 1 inb_S8x3_S1x1_3_1))) (dcell (c) (csem cc0_scratch2 3 1 inb_S8x3_S1x1_3_1))
    ∗ cellInv ER (ringRd (F := F) fa fb) (K (dcell (c) (csem cc0_scratch2 3 2 inb_S8x3_S1x1_3_2))) (dcell (c) (csem cc0_scratch2 3 2 inb_S8x3_S1x1_3_2))
    ∗ cellInv ER (ringRd (F := F) fa fb) (K (dcell (c) (csem cc0_scratch2 4 0 inb_S8x3_S1x1_4_0))) (dcell (c) (csem cc0_scratch2 4 0 inb_S8x3_S1x1_4_0))
    ∗ cellInv ER (ringRd (F := F) fa fb) (K (dcell (c) (csem cc0_scratch2 4 1 inb_S8x3_S1x1_4_1))) (dcell (c) (csem cc0_scratch2 4 1 inb_S8x3_S1x1_4_1))
    ∗ cellInv ER (ringRd (F := F) fa fb) (K (dcell (c) (csem cc0_scratch2 4 2 inb_S8x3_S1x1_4_2))) (dcell (c) (csem cc0_scratch2 4 2 inb_S8x3_S1x1_4_2))
    ∗ cellInv ER (ringRd (F := F) fa fb) (K (dcell (c) (csem cc0_scratch2 5 0 inb_S8x3_S1x1_5_0))) (dcell (c) (csem cc0_scratch2 5 0 inb_S8x3_S1x1_5_0))
    ∗ cellInv ER (ringRd (F := F) fa fb) (K (dcell (c) (csem cc0_scratch2 5 1 inb_S8x3_S1x1_5_1))) (dcell (c) (csem cc0_scratch2 5 1 inb_S8x3_S1x1_5_1))
    ∗ cellInv ER (ringRd (F := F) fa fb) (K (dcell (c) (csem cc0_scratch2 5 2 inb_S8x3_S1x1_5_2))) (dcell (c) (csem cc0_scratch2 5 2 inb_S8x3_S1x1_5_2))
    ∗ cellInv ER (ringRd (F := F) fa fb) (K (dcell (c) (csem cc0_scratch2 6 0 inb_S8x3_S1x1_6_0))) (dcell (c) (csem cc0_scratch2 6 0 inb_S8x3_S1x1_6_0))
    ∗ cellInv ER (ringRd (F := F) fa fb) (K (dcell (c) (csem cc0_scratch2 6 1 inb_S8x3_S1x1_6_1))) (dcell (c) (csem cc0_scratch2 6 1 inb_S8x3_S1x1_6_1))
    ∗ cellInv ER (ringRd (F := F) fa fb) (K (dcell (c) (csem cc0_scratch2 6 2 inb_S8x3_S1x1_6_2))) (dcell (c) (csem cc0_scratch2 6 2 inb_S8x3_S1x1_6_2))
    ∗ cellInv ER (ringRd (F := F) fa fb) (K (dcell (c) (csem cc0_scratch2 7 0 inb_S8x3_S1x1_7_0))) (dcell (c) (csem cc0_scratch2 7 0 inb_S8x3_S1x1_7_0))
    ∗ cellInv ER (ringRd (F := F) fa fb) (K (dcell (c) (csem cc0_scratch2 7 1 inb_S8x3_S1x1_7_1))) (dcell (c) (csem cc0_scratch2 7 1 inb_S8x3_S1x1_7_1))
    ∗ cellInv ER (ringRd (F := F) fa fb) (K (dcell (c) (csem cc0_scratch2 7 2 inb_S8x3_S1x1_7_2))) (dcell (c) (csem cc0_scratch2 7 2 inb_S8x3_S1x1_7_2))
    ∗ cellInv ER (ringRd (F := F) fa fb) (K (dcell (c) (csem cc0_scratch3 0 0 inb_S8x3_S1x1_0_0))) (dcell (c) (csem cc0_scratch3 0 0 inb_S8x3_S1x1_0_0))
    ∗ cellInv ER (ringRd (F := F) fa fb) (K (dcell (c) (csem cc0_scratch3 0 1 inb_S8x3_S1x1_0_1))) (dcell (c) (csem cc0_scratch3 0 1 inb_S8x3_S1x1_0_1))
    ∗ cellInv ER (ringRd (F := F) fa fb) (K (dcell (c) (csem cc0_scratch3 0 2 inb_S8x3_S1x1_0_2))) (dcell (c) (csem cc0_scratch3 0 2 inb_S8x3_S1x1_0_2))
    ∗ cellInv ER (ringRd (F := F) fa fb) (K (dcell (c) (csem cc0_scratch3 1 0 inb_S8x3_S1x1_1_0))) (dcell (c) (csem cc0_scratch3 1 0 inb_S8x3_S1x1_1_0))
    ∗ cellInv ER (ringRd (F := F) fa fb) (K (dcell (c) (csem cc0_scratch3 1 1 inb_S8x3_S1x1_1_1))) (dcell (c) (csem cc0_scratch3 1 1 inb_S8x3_S1x1_1_1))
    ∗ cellInv ER (ringRd (F := F) fa fb) (K (dcell (c) (csem cc0_scratch3 1 2 inb_S8x3_S1x1_1_2))) (dcell (c) (csem cc0_scratch3 1 2 inb_S8x3_S1x1_1_2))
    ∗ cellInv ER (ringRd (F := F) fa fb) (K (dcell (c) (csem cc0_scratch3 2 0 inb_S8x3_S1x1_2_0))) (dcell (c) (csem cc0_scratch3 2 0 inb_S8x3_S1x1_2_0))
    ∗ cellInv ER (ringRd (F := F) fa fb) (K (dcell (c) (csem cc0_scratch3 2 1 inb_S8x3_S1x1_2_1))) (dcell (c) (csem cc0_scratch3 2 1 inb_S8x3_S1x1_2_1))
    ∗ cellInv ER (ringRd (F := F) fa fb) (K (dcell (c) (csem cc0_scratch3 2 2 inb_S8x3_S1x1_2_2))) (dcell (c) (csem cc0_scratch3 2 2 inb_S8x3_S1x1_2_2))
    ∗ cellInv ER (ringRd (F := F) fa fb) (K (dcell (c) (csem cc0_scratch3 3 0 inb_S8x3_S1x1_3_0))) (dcell (c) (csem cc0_scratch3 3 0 inb_S8x3_S1x1_3_0))
    ∗ cellInv ER (ringRd (F := F) fa fb) (K (dcell (c) (csem cc0_scratch3 3 1 inb_S8x3_S1x1_3_1))) (dcell (c) (csem cc0_scratch3 3 1 inb_S8x3_S1x1_3_1))
    ∗ cellInv ER (ringRd (F := F) fa fb) (K (dcell (c) (csem cc0_scratch3 3 2 inb_S8x3_S1x1_3_2))) (dcell (c) (csem cc0_scratch3 3 2 inb_S8x3_S1x1_3_2))
    ∗ cellInv ER (ringRd (F := F) fa fb) (K (dcell (c) (csem cc0_scratch3 4 0 inb_S8x3_S1x1_4_0))) (dcell (c) (csem cc0_scratch3 4 0 inb_S8x3_S1x1_4_0))
    ∗ cellInv ER (ringRd (F := F) fa fb) (K (dcell (c) (csem cc0_scratch3 4 1 inb_S8x3_S1x1_4_1))) (dcell (c) (csem cc0_scratch3 4 1 inb_S8x3_S1x1_4_1))
    ∗ cellInv ER (ringRd (F := F) fa fb) (K (dcell (c) (csem cc0_scratch3 4 2 inb_S8x3_S1x1_4_2))) (dcell (c) (csem cc0_scratch3 4 2 inb_S8x3_S1x1_4_2))
    ∗ cellInv ER (ringRd (F := F) fa fb) (K (dcell (c) (csem cc0_scratch3 5 0 inb_S8x3_S1x1_5_0))) (dcell (c) (csem cc0_scratch3 5 0 inb_S8x3_S1x1_5_0))
    ∗ cellInv ER (ringRd (F := F) fa fb) (K (dcell (c) (csem cc0_scratch3 5 1 inb_S8x3_S1x1_5_1))) (dcell (c) (csem cc0_scratch3 5 1 inb_S8x3_S1x1_5_1))
    ∗ cellInv ER (ringRd (F := F) fa fb) (K (dcell (c) (csem cc0_scratch3 5 2 inb_S8x3_S1x1_5_2))) (dcell (c) (csem cc0_scratch3 5 2 inb_S8x3_S1x1_5_2))
    ∗ cellInv ER (ringRd (F := F) fa fb) (K (dcell (c) (csem cc0_scratch3 6 0 inb_S8x3_S1x1_6_0))) (dcell (c) (csem cc0_scratch3 6 0 inb_S8x3_S1x1_6_0))
    ∗ cellInv ER (ringRd (F := F) fa fb) (K (dcell (c) (csem cc0_scratch3 6 1 inb_S8x3_S1x1_6_1))) (dcell (c) (csem cc0_scratch3 6 1 inb_S8x3_S1x1_6_1))
    ∗ cellInv ER (ringRd (F := F) fa fb) (K (dcell (c) (csem cc0_scratch3 6 2 inb_S8x3_S1x1_6_2))) (dcell (c) (csem cc0_scratch3 6 2 inb_S8x3_S1x1_6_2))
    ∗ cellInv ER (ringRd (F := F) fa fb) (K (dcell (c) (csem cc0_scratch3 7 0 inb_S8x3_S1x1_7_0))) (dcell (c) (csem cc0_scratch3 7 0 inb_S8x3_S1x1_7_0))
    ∗ cellInv ER (ringRd (F := F) fa fb) (K (dcell (c) (csem cc0_scratch3 7 1 inb_S8x3_S1x1_7_1))) (dcell (c) (csem cc0_scratch3 7 1 inb_S8x3_S1x1_7_1))
    ∗ cellInv ER (ringRd (F := F) fa fb) (K (dcell (c) (csem cc0_scratch3 7 2 inb_S8x3_S1x1_7_2))) (dcell (c) (csem cc0_scratch3 7 2 inb_S8x3_S1x1_7_2))
    ∗ cellInv ER (ringRd (F := F) fa fb) (K (dcell (c) (csem cc0_scratch4 0 0 inb_S8x3_S1x1_0_0))) (dcell (c) (csem cc0_scratch4 0 0 inb_S8x3_S1x1_0_0))
    ∗ cellInv ER (ringRd (F := F) fa fb) (K (dcell (c) (csem cc0_scratch4 0 1 inb_S8x3_S1x1_0_1))) (dcell (c) (csem cc0_scratch4 0 1 inb_S8x3_S1x1_0_1))
    ∗ cellInv ER (ringRd (F := F) fa fb) (K (dcell (c) (csem cc0_scratch4 0 2 inb_S8x3_S1x1_0_2))) (dcell (c) (csem cc0_scratch4 0 2 inb_S8x3_S1x1_0_2))
    ∗ cellInv ER (ringRd (F := F) fa fb) (K (dcell (c) (csem cc0_scratch4 1 0 inb_S8x3_S1x1_1_0))) (dcell (c) (csem cc0_scratch4 1 0 inb_S8x3_S1x1_1_0))
    ∗ cellInv ER (ringRd (F := F) fa fb) (K (dcell (c) (csem cc0_scratch4 1 1 inb_S8x3_S1x1_1_1))) (dcell (c) (csem cc0_scratch4 1 1 inb_S8x3_S1x1_1_1))
    ∗ cellInv ER (ringRd (F := F) fa fb) (K (dcell (c) (csem cc0_scratch4 1 2 inb_S8x3_S1x1_1_2))) (dcell (c) (csem cc0_scratch4 1 2 inb_S8x3_S1x1_1_2))
    ∗ cellInv ER (ringRd (F := F) fa fb) (K (dcell (c) (csem cc0_scratch4 2 0 inb_S8x3_S1x1_2_0))) (dcell (c) (csem cc0_scratch4 2 0 inb_S8x3_S1x1_2_0))
    ∗ cellInv ER (ringRd (F := F) fa fb) (K (dcell (c) (csem cc0_scratch4 2 1 inb_S8x3_S1x1_2_1))) (dcell (c) (csem cc0_scratch4 2 1 inb_S8x3_S1x1_2_1))
    ∗ cellInv ER (ringRd (F := F) fa fb) (K (dcell (c) (csem cc0_scratch4 2 2 inb_S8x3_S1x1_2_2))) (dcell (c) (csem cc0_scratch4 2 2 inb_S8x3_S1x1_2_2))
    ∗ cellInv ER (ringRd (F := F) fa fb) (K (dcell (c) (csem cc0_scratch4 3 0 inb_S8x3_S1x1_3_0))) (dcell (c) (csem cc0_scratch4 3 0 inb_S8x3_S1x1_3_0))
    ∗ cellInv ER (ringRd (F := F) fa fb) (K (dcell (c) (csem cc0_scratch4 3 1 inb_S8x3_S1x1_3_1))) (dcell (c) (csem cc0_scratch4 3 1 inb_S8x3_S1x1_3_1))
    ∗ cellInv ER (ringRd (F := F) fa fb) (K (dcell (c) (csem cc0_scratch4 3 2 inb_S8x3_S1x1_3_2))) (dcell (c) (csem cc0_scratch4 3 2 inb_S8x3_S1x1_3_2))
    ∗ cellInv ER (ringRd (F := F) fa fb) (K (dcell (c) (csem cc0_scratch4 4 0 inb_S8x3_S1x1_4_0))) (dcell (c) (csem cc0_scratch4 4 0 inb_S8x3_S1x1_4_0))
    ∗ cellInv ER (ringRd (F := F) fa fb) (K (dcell (c) (csem cc0_scratch4 4 1 inb_S8x3_S1x1_4_1))) (dcell (c) (csem cc0_scratch4 4 1 inb_S8x3_S1x1_4_1))
    ∗ cellInv ER (ringRd (F := F) fa fb) (K (dcell (c) (csem cc0_scratch4 4 2 inb_S8x3_S1x1_4_2))) (dcell (c) (csem cc0_scratch4 4 2 inb_S8x3_S1x1_4_2))
    ∗ cellInv ER (ringRd (F := F) fa fb) (K (dcell (c) (csem cc0_scratch4 5 0 inb_S8x3_S1x1_5_0))) (dcell (c) (csem cc0_scratch4 5 0 inb_S8x3_S1x1_5_0))
    ∗ cellInv ER (ringRd (F := F) fa fb) (K (dcell (c) (csem cc0_scratch4 5 1 inb_S8x3_S1x1_5_1))) (dcell (c) (csem cc0_scratch4 5 1 inb_S8x3_S1x1_5_1))
    ∗ cellInv ER (ringRd (F := F) fa fb) (K (dcell (c) (csem cc0_scratch4 5 2 inb_S8x3_S1x1_5_2))) (dcell (c) (csem cc0_scratch4 5 2 inb_S8x3_S1x1_5_2))
    ∗ cellInv ER (ringRd (F := F) fa fb) (K (dcell (c) (csem cc0_scratch4 6 0 inb_S8x3_S1x1_6_0))) (dcell (c) (csem cc0_scratch4 6 0 inb_S8x3_S1x1_6_0))
    ∗ cellInv ER (ringRd (F := F) fa fb) (K (dcell (c) (csem cc0_scratch4 6 1 inb_S8x3_S1x1_6_1))) (dcell (c) (csem cc0_scratch4 6 1 inb_S8x3_S1x1_6_1))
    ∗ cellInv ER (ringRd (F := F) fa fb) (K (dcell (c) (csem cc0_scratch4 6 2 inb_S8x3_S1x1_6_2))) (dcell (c) (csem cc0_scratch4 6 2 inb_S8x3_S1x1_6_2))
    ∗ cellInv ER (ringRd (F := F) fa fb) (K (dcell (c) (csem cc0_scratch4 7 0 inb_S8x3_S1x1_7_0))) (dcell (c) (csem cc0_scratch4 7 0 inb_S8x3_S1x1_7_0))
    ∗ cellInv ER (ringRd (F := F) fa fb) (K (dcell (c) (csem cc0_scratch4 7 1 inb_S8x3_S1x1_7_1))) (dcell (c) (csem cc0_scratch4 7 1 inb_S8x3_S1x1_7_1))
    ∗ cellInv ER (ringRd (F := F) fa fb) (K (dcell (c) (csem cc0_scratch4 7 2 inb_S8x3_S1x1_7_2))) (dcell (c) (csem cc0_scratch4 7 2 inb_S8x3_S1x1_7_2))
    ∗ cellInv ER (ringRd (F := F) fa fb) (K (dcell (c) (csem cc0_scratch5 0 0 inb_S8x3_S1x1_0_0))) (dcell (c) (csem cc0_scratch5 0 0 inb_S8x3_S1x1_0_0))
    ∗ cellInv ER (ringRd (F := F) fa fb) (K (dcell (c) (csem cc0_scratch5 0 1 inb_S8x3_S1x1_0_1))) (dcell (c) (csem cc0_scratch5 0 1 inb_S8x3_S1x1_0_1))
    ∗ cellInv ER (ringRd (F := F) fa fb) (K (dcell (c) (csem cc0_scratch5 0 2 inb_S8x3_S1x1_0_2))) (dcell (c) (csem cc0_scratch5 0 2 inb_S8x3_S1x1_0_2))
    ∗ cellInv ER (ringRd (F := F) fa fb) (K (dcell (c) (csem cc0_scratch5 1 0 inb_S8x3_S1x1_1_0))) (dcell (c) (csem cc0_scratch5 1 0 inb_S8x3_S1x1_1_0))
    ∗ cellInv ER (ringRd (F := F) fa fb) (K (dcell (c) (csem cc0_scratch5 1 1 inb_S8x3_S1x1_1_1))) (dcell (c) (csem cc0_scratch5 1 1 inb_S8x3_S1x1_1_1))
    ∗ cellInv ER (ringRd (F := F) fa fb) (K (dcell (c) (csem cc0_scratch5 1 2 inb_S8x3_S1x1_1_2))) (dcell (c) (csem cc0_scratch5 1 2 inb_S8x3_S1x1_1_2))
    ∗ cellInv ER (ringRd (F := F) fa fb) (K (dcell (c) (csem cc0_scratch5 2 0 inb_S8x3_S1x1_2_0))) (dcell (c) (csem cc0_scratch5 2 0 inb_S8x3_S1x1_2_0))
    ∗ cellInv ER (ringRd (F := F) fa fb) (K (dcell (c) (csem cc0_scratch5 2 1 inb_S8x3_S1x1_2_1))) (dcell (c) (csem cc0_scratch5 2 1 inb_S8x3_S1x1_2_1))
    ∗ cellInv ER (ringRd (F := F) fa fb) (K (dcell (c) (csem cc0_scratch5 2 2 inb_S8x3_S1x1_2_2))) (dcell (c) (csem cc0_scratch5 2 2 inb_S8x3_S1x1_2_2))
    ∗ cellInv ER (ringRd (F := F) fa fb) (K (dcell (c) (csem cc0_scratch5 3 0 inb_S8x3_S1x1_3_0))) (dcell (c) (csem cc0_scratch5 3 0 inb_S8x3_S1x1_3_0))
    ∗ cellInv ER (ringRd (F := F) fa fb) (K (dcell (c) (csem cc0_scratch5 3 1 inb_S8x3_S1x1_3_1))) (dcell (c) (csem cc0_scratch5 3 1 inb_S8x3_S1x1_3_1))
    ∗ cellInv ER (ringRd (F := F) fa fb) (K (dcell (c) (csem cc0_scratch5 3 2 inb_S8x3_S1x1_3_2))) (dcell (c) (csem cc0_scratch5 3 2 inb_S8x3_S1x1_3_2))
    ∗ cellInv ER (ringRd (F := F) fa fb) (K (dcell (c) (csem cc0_scratch5 4 0 inb_S8x3_S1x1_4_0))) (dcell (c) (csem cc0_scratch5 4 0 inb_S8x3_S1x1_4_0))
    ∗ cellInv ER (ringRd (F := F) fa fb) (K (dcell (c) (csem cc0_scratch5 4 1 inb_S8x3_S1x1_4_1))) (dcell (c) (csem cc0_scratch5 4 1 inb_S8x3_S1x1_4_1))
    ∗ cellInv ER (ringRd (F := F) fa fb) (K (dcell (c) (csem cc0_scratch5 4 2 inb_S8x3_S1x1_4_2))) (dcell (c) (csem cc0_scratch5 4 2 inb_S8x3_S1x1_4_2))
    ∗ cellInv ER (ringRd (F := F) fa fb) (K (dcell (c) (csem cc0_scratch5 5 0 inb_S8x3_S1x1_5_0))) (dcell (c) (csem cc0_scratch5 5 0 inb_S8x3_S1x1_5_0))
    ∗ cellInv ER (ringRd (F := F) fa fb) (K (dcell (c) (csem cc0_scratch5 5 1 inb_S8x3_S1x1_5_1))) (dcell (c) (csem cc0_scratch5 5 1 inb_S8x3_S1x1_5_1))
    ∗ cellInv ER (ringRd (F := F) fa fb) (K (dcell (c) (csem cc0_scratch5 5 2 inb_S8x3_S1x1_5_2))) (dcell (c) (csem cc0_scratch5 5 2 inb_S8x3_S1x1_5_2))
    ∗ cellInv ER (ringRd (F := F) fa fb) (K (dcell (c) (csem cc0_scratch5 6 0 inb_S8x3_S1x1_6_0))) (dcell (c) (csem cc0_scratch5 6 0 inb_S8x3_S1x1_6_0))
    ∗ cellInv ER (ringRd (F := F) fa fb) (K (dcell (c) (csem cc0_scratch5 6 1 inb_S8x3_S1x1_6_1))) (dcell (c) (csem cc0_scratch5 6 1 inb_S8x3_S1x1_6_1))
    ∗ cellInv ER (ringRd (F := F) fa fb) (K (dcell (c) (csem cc0_scratch5 6 2 inb_S8x3_S1x1_6_2))) (dcell (c) (csem cc0_scratch5 6 2 inb_S8x3_S1x1_6_2))
    ∗ cellInv ER (ringRd (F := F) fa fb) (K (dcell (c) (csem cc0_scratch5 7 0 inb_S8x3_S1x1_7_0))) (dcell (c) (csem cc0_scratch5 7 0 inb_S8x3_S1x1_7_0))
    ∗ cellInv ER (ringRd (F := F) fa fb) (K (dcell (c) (csem cc0_scratch5 7 1 inb_S8x3_S1x1_7_1))) (dcell (c) (csem cc0_scratch5 7 1 inb_S8x3_S1x1_7_1))
    ∗ cellInv ER (ringRd (F := F) fa fb) (K (dcell (c) (csem cc0_scratch5 7 2 inb_S8x3_S1x1_7_2))) (dcell (c) (csem cc0_scratch5 7 2 inb_S8x3_S1x1_7_2))
    ∗ atPos ER (dcell (c) (csem cc0_scratch2 0 0 inb_S8x3_S1x1_0_0)) 1 ∅ 0
    ∗ atPos ER (dcell (c) (csem cc0_scratch2 0 1 inb_S8x3_S1x1_0_1)) 1 ∅ 0
    ∗ atPos ER (dcell (c) (csem cc0_scratch2 0 2 inb_S8x3_S1x1_0_2)) 1 ∅ 0
    ∗ atPos ER (dcell (c) (csem cc0_scratch2 1 0 inb_S8x3_S1x1_1_0)) 1 ∅ 0
    ∗ atPos ER (dcell (c) (csem cc0_scratch2 1 1 inb_S8x3_S1x1_1_1)) 1 ∅ 0
    ∗ atPos ER (dcell (c) (csem cc0_scratch2 1 2 inb_S8x3_S1x1_1_2)) 1 ∅ 0
    ∗ atPos ER (dcell (c) (csem cc0_scratch2 2 0 inb_S8x3_S1x1_2_0)) 1 ∅ 0
    ∗ atPos ER (dcell (c) (csem cc0_scratch2 2 1 inb_S8x3_S1x1_2_1)) 1 ∅ 0
    ∗ atPos ER (dcell (c) (csem cc0_scratch2 2 2 inb_S8x3_S1x1_2_2)) 1 ∅ 0
    ∗ atPos ER (dcell (c) (csem cc0_scratch2 3 0 inb_S8x3_S1x1_3_0)) 1 ∅ 0
    ∗ atPos ER (dcell (c) (csem cc0_scratch2 3 1 inb_S8x3_S1x1_3_1)) 1 ∅ 0
    ∗ atPos ER (dcell (c) (csem cc0_scratch2 3 2 inb_S8x3_S1x1_3_2)) 1 ∅ 0
    ∗ atPos ER (dcell (c) (csem cc0_scratch2 4 0 inb_S8x3_S1x1_4_0)) 1 ∅ 0
    ∗ atPos ER (dcell (c) (csem cc0_scratch2 4 1 inb_S8x3_S1x1_4_1)) 1 ∅ 0
    ∗ atPos ER (dcell (c) (csem cc0_scratch2 4 2 inb_S8x3_S1x1_4_2)) 1 ∅ 0
    ∗ atPos ER (dcell (c) (csem cc0_scratch2 5 0 inb_S8x3_S1x1_5_0)) 1 ∅ 0
    ∗ atPos ER (dcell (c) (csem cc0_scratch2 5 1 inb_S8x3_S1x1_5_1)) 1 ∅ 0
    ∗ atPos ER (dcell (c) (csem cc0_scratch2 5 2 inb_S8x3_S1x1_5_2)) 1 ∅ 0
    ∗ atPos ER (dcell (c) (csem cc0_scratch2 6 0 inb_S8x3_S1x1_6_0)) 1 ∅ 0
    ∗ atPos ER (dcell (c) (csem cc0_scratch2 6 1 inb_S8x3_S1x1_6_1)) 1 ∅ 0
    ∗ atPos ER (dcell (c) (csem cc0_scratch2 6 2 inb_S8x3_S1x1_6_2)) 1 ∅ 0
    ∗ atPos ER (dcell (c) (csem cc0_scratch2 7 0 inb_S8x3_S1x1_7_0)) 1 ∅ 0
    ∗ atPos ER (dcell (c) (csem cc0_scratch2 7 1 inb_S8x3_S1x1_7_1)) 1 ∅ 0
    ∗ atPos ER (dcell (c) (csem cc0_scratch2 7 2 inb_S8x3_S1x1_7_2)) 1 ∅ 0
    ∗ atPos ER (dcell (c) (csem cc0_scratch3 0 0 inb_S8x3_S1x1_0_0)) 1 ∅ 0
    ∗ atPos ER (dcell (c) (csem cc0_scratch3 0 1 inb_S8x3_S1x1_0_1)) 1 ∅ 0
    ∗ atPos ER (dcell (c) (csem cc0_scratch3 0 2 inb_S8x3_S1x1_0_2)) 1 ∅ 0
    ∗ atPos ER (dcell (c) (csem cc0_scratch3 1 0 inb_S8x3_S1x1_1_0)) 1 ∅ 0
    ∗ atPos ER (dcell (c) (csem cc0_scratch3 1 1 inb_S8x3_S1x1_1_1)) 1 ∅ 0
    ∗ atPos ER (dcell (c) (csem cc0_scratch3 1 2 inb_S8x3_S1x1_1_2)) 1 ∅ 0
    ∗ atPos ER (dcell (c) (csem cc0_scratch3 2 0 inb_S8x3_S1x1_2_0)) 1 ∅ 0
    ∗ atPos ER (dcell (c) (csem cc0_scratch3 2 1 inb_S8x3_S1x1_2_1)) 1 ∅ 0
    ∗ atPos ER (dcell (c) (csem cc0_scratch3 2 2 inb_S8x3_S1x1_2_2)) 1 ∅ 0
    ∗ atPos ER (dcell (c) (csem cc0_scratch3 3 0 inb_S8x3_S1x1_3_0)) 1 ∅ 0
    ∗ atPos ER (dcell (c) (csem cc0_scratch3 3 1 inb_S8x3_S1x1_3_1)) 1 ∅ 0
    ∗ atPos ER (dcell (c) (csem cc0_scratch3 3 2 inb_S8x3_S1x1_3_2)) 1 ∅ 0
    ∗ atPos ER (dcell (c) (csem cc0_scratch3 4 0 inb_S8x3_S1x1_4_0)) 1 ∅ 0
    ∗ atPos ER (dcell (c) (csem cc0_scratch3 4 1 inb_S8x3_S1x1_4_1)) 1 ∅ 0
    ∗ atPos ER (dcell (c) (csem cc0_scratch3 4 2 inb_S8x3_S1x1_4_2)) 1 ∅ 0
    ∗ atPos ER (dcell (c) (csem cc0_scratch3 5 0 inb_S8x3_S1x1_5_0)) 1 ∅ 0
    ∗ atPos ER (dcell (c) (csem cc0_scratch3 5 1 inb_S8x3_S1x1_5_1)) 1 ∅ 0
    ∗ atPos ER (dcell (c) (csem cc0_scratch3 5 2 inb_S8x3_S1x1_5_2)) 1 ∅ 0
    ∗ atPos ER (dcell (c) (csem cc0_scratch3 6 0 inb_S8x3_S1x1_6_0)) 1 ∅ 0
    ∗ atPos ER (dcell (c) (csem cc0_scratch3 6 1 inb_S8x3_S1x1_6_1)) 1 ∅ 0
    ∗ atPos ER (dcell (c) (csem cc0_scratch3 6 2 inb_S8x3_S1x1_6_2)) 1 ∅ 0
    ∗ atPos ER (dcell (c) (csem cc0_scratch3 7 0 inb_S8x3_S1x1_7_0)) 1 ∅ 0
    ∗ atPos ER (dcell (c) (csem cc0_scratch3 7 1 inb_S8x3_S1x1_7_1)) 1 ∅ 0
    ∗ atPos ER (dcell (c) (csem cc0_scratch3 7 2 inb_S8x3_S1x1_7_2)) 1 ∅ 0
    ∗ atPos ER (dcell (c) (csem cc0_scratch4 0 0 inb_S8x3_S1x1_0_0)) 1 ∅ 0
    ∗ atPos ER (dcell (c) (csem cc0_scratch4 0 1 inb_S8x3_S1x1_0_1)) 1 ∅ 0
    ∗ atPos ER (dcell (c) (csem cc0_scratch4 0 2 inb_S8x3_S1x1_0_2)) 1 ∅ 0
    ∗ atPos ER (dcell (c) (csem cc0_scratch4 1 0 inb_S8x3_S1x1_1_0)) 1 ∅ 0
    ∗ atPos ER (dcell (c) (csem cc0_scratch4 1 1 inb_S8x3_S1x1_1_1)) 1 ∅ 0
    ∗ atPos ER (dcell (c) (csem cc0_scratch4 1 2 inb_S8x3_S1x1_1_2)) 1 ∅ 0
    ∗ atPos ER (dcell (c) (csem cc0_scratch4 2 0 inb_S8x3_S1x1_2_0)) 1 ∅ 0
    ∗ atPos ER (dcell (c) (csem cc0_scratch4 2 1 inb_S8x3_S1x1_2_1)) 1 ∅ 0
    ∗ atPos ER (dcell (c) (csem cc0_scratch4 2 2 inb_S8x3_S1x1_2_2)) 1 ∅ 0
    ∗ atPos ER (dcell (c) (csem cc0_scratch4 3 0 inb_S8x3_S1x1_3_0)) 1 ∅ 0
    ∗ atPos ER (dcell (c) (csem cc0_scratch4 3 1 inb_S8x3_S1x1_3_1)) 1 ∅ 0
    ∗ atPos ER (dcell (c) (csem cc0_scratch4 3 2 inb_S8x3_S1x1_3_2)) 1 ∅ 0
    ∗ atPos ER (dcell (c) (csem cc0_scratch4 4 0 inb_S8x3_S1x1_4_0)) 1 ∅ 0
    ∗ atPos ER (dcell (c) (csem cc0_scratch4 4 1 inb_S8x3_S1x1_4_1)) 1 ∅ 0
    ∗ atPos ER (dcell (c) (csem cc0_scratch4 4 2 inb_S8x3_S1x1_4_2)) 1 ∅ 0
    ∗ atPos ER (dcell (c) (csem cc0_scratch4 5 0 inb_S8x3_S1x1_5_0)) 1 ∅ 0
    ∗ atPos ER (dcell (c) (csem cc0_scratch4 5 1 inb_S8x3_S1x1_5_1)) 1 ∅ 0
    ∗ atPos ER (dcell (c) (csem cc0_scratch4 5 2 inb_S8x3_S1x1_5_2)) 1 ∅ 0
    ∗ atPos ER (dcell (c) (csem cc0_scratch4 6 0 inb_S8x3_S1x1_6_0)) 1 ∅ 0
    ∗ atPos ER (dcell (c) (csem cc0_scratch4 6 1 inb_S8x3_S1x1_6_1)) 1 ∅ 0
    ∗ atPos ER (dcell (c) (csem cc0_scratch4 6 2 inb_S8x3_S1x1_6_2)) 1 ∅ 0
    ∗ atPos ER (dcell (c) (csem cc0_scratch4 7 0 inb_S8x3_S1x1_7_0)) 1 ∅ 0
    ∗ atPos ER (dcell (c) (csem cc0_scratch4 7 1 inb_S8x3_S1x1_7_1)) 1 ∅ 0
    ∗ atPos ER (dcell (c) (csem cc0_scratch4 7 2 inb_S8x3_S1x1_7_2)) 1 ∅ 0
    ∗ atPos ER (dcell (c) (csem cc0_scratch5 0 0 inb_S8x3_S1x1_0_0)) 1 ∅ 0
    ∗ atPos ER (dcell (c) (csem cc0_scratch5 0 1 inb_S8x3_S1x1_0_1)) 1 ∅ 0
    ∗ atPos ER (dcell (c) (csem cc0_scratch5 0 2 inb_S8x3_S1x1_0_2)) 1 ∅ 0
    ∗ atPos ER (dcell (c) (csem cc0_scratch5 1 0 inb_S8x3_S1x1_1_0)) 1 ∅ 0
    ∗ atPos ER (dcell (c) (csem cc0_scratch5 1 1 inb_S8x3_S1x1_1_1)) 1 ∅ 0
    ∗ atPos ER (dcell (c) (csem cc0_scratch5 1 2 inb_S8x3_S1x1_1_2)) 1 ∅ 0
    ∗ atPos ER (dcell (c) (csem cc0_scratch5 2 0 inb_S8x3_S1x1_2_0)) 1 ∅ 0
    ∗ atPos ER (dcell (c) (csem cc0_scratch5 2 1 inb_S8x3_S1x1_2_1)) 1 ∅ 0
    ∗ atPos ER (dcell (c) (csem cc0_scratch5 2 2 inb_S8x3_S1x1_2_2)) 1 ∅ 0
    ∗ atPos ER (dcell (c) (csem cc0_scratch5 3 0 inb_S8x3_S1x1_3_0)) 1 ∅ 0
    ∗ atPos ER (dcell (c) (csem cc0_scratch5 3 1 inb_S8x3_S1x1_3_1)) 1 ∅ 0
    ∗ atPos ER (dcell (c) (csem cc0_scratch5 3 2 inb_S8x3_S1x1_3_2)) 1 ∅ 0
    ∗ atPos ER (dcell (c) (csem cc0_scratch5 4 0 inb_S8x3_S1x1_4_0)) 1 ∅ 0
    ∗ atPos ER (dcell (c) (csem cc0_scratch5 4 1 inb_S8x3_S1x1_4_1)) 1 ∅ 0
    ∗ atPos ER (dcell (c) (csem cc0_scratch5 4 2 inb_S8x3_S1x1_4_2)) 1 ∅ 0
    ∗ atPos ER (dcell (c) (csem cc0_scratch5 5 0 inb_S8x3_S1x1_5_0)) 1 ∅ 0
    ∗ atPos ER (dcell (c) (csem cc0_scratch5 5 1 inb_S8x3_S1x1_5_1)) 1 ∅ 0
    ∗ atPos ER (dcell (c) (csem cc0_scratch5 5 2 inb_S8x3_S1x1_5_2)) 1 ∅ 0
    ∗ atPos ER (dcell (c) (csem cc0_scratch5 6 0 inb_S8x3_S1x1_6_0)) 1 ∅ 0
    ∗ atPos ER (dcell (c) (csem cc0_scratch5 6 1 inb_S8x3_S1x1_6_1)) 1 ∅ 0
    ∗ atPos ER (dcell (c) (csem cc0_scratch5 6 2 inb_S8x3_S1x1_6_2)) 1 ∅ 0
    ∗ atPos ER (dcell (c) (csem cc0_scratch5 7 0 inb_S8x3_S1x1_7_0)) 1 ∅ 0
    ∗ atPos ER (dcell (c) (csem cc0_scratch5 7 1 inb_S8x3_S1x1_7_1)) 1 ∅ 0
    ∗ atPos ER (dcell (c) (csem cc0_scratch5 7 2 inb_S8x3_S1x1_7_2)) 1 ∅ 0
    ∗ atPos ER (barCell c) 1 ∅ 0
    ∗ owes (c : Thread nD τ) (0 : CellTallies nD τ sig Unit) W)

end Cert.KernelIdeal.P

end
-- ==== Proof.Glue.lean ====
import proofs.«900901_g7700000000000902_dist_matmul_silu_kshard_i_m2048_n2048_k1024_v7x_i4_bf16_1_alg».proof.Proof.Ghost
import proofs.«900901_g7700000000000902_dist_matmul_silu_kshard_i_m2048_n2048_k1024_v7x_i4_bf16_1_alg».proof.Proof.BodyTables
import proofs.«900901_g7700000000000902_dist_matmul_silu_kshard_i_m2048_n2048_k1024_v7x_i4_bf16_1_alg».proof.Proof.Split
import proofs.«900901_g7700000000000902_dist_matmul_silu_kshard_i_m2048_n2048_k1024_v7x_i4_bf16_1_alg».proof.Proof.Launch
import proofs.«900901_g7700000000000902_dist_matmul_silu_kshard_i_m2048_n2048_k1024_v7x_i4_bf16_1_alg».proof.Proof.Sites
import proofs.«900901_g7700000000000902_dist_matmul_silu_kshard_i_m2048_n2048_k1024_v7x_i4_bf16_1_alg».proof.Proof.TablesLit
import proofs.«900901_g7700000000000902_dist_matmul_silu_kshard_i_m2048_n2048_k1024_v7x_i4_bf16_1_alg».proof.Proof.Close
import proofs.«900901_g7700000000000902_dist_matmul_silu_kshard_i_m2048_n2048_k1024_v7x_i4_bf16_1_alg».proof.Proof.PostTables

/-!
The glue between the launch's form of a body's precondition and the piece-by-piece form a run of the body starts from.

The launch hands a device the ring's ghost state family by family (a conjunction over the 24 pairs of a chain and a step
for each kind of cell), its buffers whole, and the level facts. A run wants every conjunct on its own: the scratch as its
32 slots, the result buffer as its 32 blocks of 512 rows and 256 columns (the eight of the device's own band under the
offsets the program computes, the others by ring distance), each family as its 24 members, and one wait permission for
every wait of the body, drawn from the persistent level facts. The two forms hold the same conjuncts; the proof lists
each group in the order of the piece-by-piece form and hands the groups over one after another.

The way back, after the body's last wait: the 32 slots, at whatever they hold, are the scratch at some contents; each of
the 32 blocks of the result holds the finished block of its band (an own block, a forwarded one, or the landing of the
last hop, which holds what the sender's block held), so together they are the one buffer of finished blocks; the 96 own
transfer cells, their owner at round 1 of each, close with their counters at zero.
-/

noncomputable section

namespace Cert.KernelIdeal.P

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Chains of separating conjuncts -/

/-- The conjuncts of a list in order, then `R`: `x₁ ∗ x₂ ∗ … ∗ xₙ ∗ R`. -/
def chain : List (sProp 𝕄) → sProp 𝕄 → sProp 𝕄
  | [], R => R
  | x :: l, R => iprop(x ∗ chain l R)

omit [FloatOps F] in
theorem chain_nil (R : sProp 𝕄) : chain [] R = R := rfl
omit [FloatOps F] in
theorem chain_cons (x : sProp 𝕄) (l : List (sProp 𝕄)) (R : sProp 𝕄) : chain (x :: l) R = iprop(x ∗ chain l R) := rfl

omit [FloatOps F] in
theorem chain_append (l₁ l₂ : List (sProp 𝕄)) (R : sProp 𝕄) : chain (l₁ ++ l₂) R = chain l₁ (chain l₂ R) := by
  induction l₁ with
  | nil => rfl
  | cons x l ih => rw [List.cons_append, chain_cons, chain_cons, ih]

omit [FloatOps F] in
theorem sep_assoc_eqG (P Q R : sProp 𝕄) : iprop((P ∗ Q) ∗ R) = iprop(P ∗ Q ∗ R) :=
  Entails.antisymm (BI.sep_assoc) (BI.sep_assoc')

omit [FloatOps F] in
/-- A listed conjunction followed by `R` is the chain of its conjuncts ending in `R`. -/
theorem bigSepL_sep_eq_chain {I : Type} (Φ : I → sProp 𝕄) (R : sProp 𝕄) :
    ∀ (l : List I), l ≠ [] → iprop(bigSepL l Φ ∗ R) = chain (l.map Φ) R
  | [], h => absurd rfl h
  | [i], _ => rfl
  | i :: j :: l, _ => by
    show iprop((Φ i ∗ bigSepL (j :: l) Φ) ∗ R) = iprop(Φ i ∗ chain ((j :: l).map Φ) R)
    rw [sep_assoc_eqG, bigSepL_sep_eq_chain Φ R (j :: l) (List.cons_ne_nil _ _)]

/-! ## Index lists -/

def idx84 : List (Fin 8 × Fin 4) := [(0, 0), (0, 1), (0, 2), (0, 3), (1, 0), (1, 1), (1, 2), (1, 3), (2, 0), (2, 1), (2, 2), (2, 3), (3, 0), (3, 1), (3, 2), (3, 3), (4, 0), (4, 1), (4, 2), (4, 3), (5, 0), (5, 1), (5, 2), (5, 3), (6, 0), (6, 1), (6, 2), (6, 3), (7, 0), (7, 1), (7, 2), (7, 3)]
def idx83 : List (Fin 8 × Fin 3) := [(0, 0), (0, 1), (0, 2), (1, 0), (1, 1), (1, 2), (2, 0), (2, 1), (2, 2), (3, 0), (3, 1), (3, 2), (4, 0), (4, 1), (4, 2), (5, 0), (5, 1), (5, 2), (6, 0), (6, 1), (6, 2), (7, 0), (7, 1), (7, 2)]
/-- The handed-over blocks in the order of the chains: chains 0–3 at distances 3, 2, 1, chains 4–7 at distances 1, 2, 3. -/
def idxHand : List (Fin 4 × Fin 8) := [(3, 0), (2, 0), (1, 0), (3, 1), (2, 1), (1, 1), (3, 2), (2, 2), (1, 2), (3, 3), (2, 3), (1, 3), (1, 4), (2, 4), (3, 4), (1, 5), (2, 5), (3, 5), (1, 6), (2, 6), (3, 6), (1, 7), (2, 7), (3, 7)]
def idxOwn : List (Fin 4 × Fin 8) := [(0, 0), (0, 1), (0, 2), (0, 3), (0, 4), (0, 5), (0, 6), (0, 7)]

theorem idx84_univ : (Finset.univ : Finset (Fin 8 × Fin 4)) = idx84.toFinset := by decide
theorem idx83_univ : (Finset.univ : Finset (Fin 8 × Fin 3)) = idx83.toFinset := by decide
theorem idxBlk_univ : (Finset.univ : Finset (Fin 4 × Fin 8)) = (idxOwn ++ idxHand).toFinset := by decide
theorem idx84_nodup : idx84.Nodup := by decide
theorem idx83_nodup : idx83.Nodup := by decide
theorem idxBlk_nodup : (idxOwn ++ idxHand).Nodup := by decide

/-- Place of chain `a` in the order 0, 4, 1, 5, 2, 6, 3, 7 of the copies of a step. -/
def posOf (a : ℕ) : ℕ := 2 * (a % 4) + a / 4

section Families
variable (fa : Dev nD → AT F) (fb : Dev nD → BT F) (K : GSem nD τ sig → ℕ) (c : Dev nD)

/-- Slot `ab` of the scratch at contents `fr`. -/
abbrev slotP (fr : RT F) (ab : Fin 8 × Fin 4) : sProp 𝕄 :=
  ((slotM ab.1.val ab.2.val (slot_inb _ _ ab.1.isLt ab.2.isLt)).view.loc (c : Thread nD τ)
    ↦[(slotM ab.1.val ab.2.val (slot_inb _ _ ab.1.isLt ab.2.isLt)).view.set]{fullShare} fr)
/-- The block of the result at offsets `off`, at contents `fo`. -/
abbrev offP (fo : OT F) (off : Fin 2 → ℕ) (h : ∀ i, off i + S512x256.size i ≤ S2048x2048.size i) : sProp 𝕄 :=
  ((oblkM off h).view.loc (c : Thread nD τ) ↦[(oblkM off h).view.set]{fullShare} fo)
/-- The block of band distance `ka.1`, chain `ka.2`. -/
abbrev blkP (fo : OT F) (ka : Fin 4 × Fin 8) : sProp 𝕄 :=
  offP c fo (rowOff c ka.1.val ka.2.val) (rowOff_inb c _ _ ka.2.isLt)

/-- Own cell `(a, b)` of array `k`. -/
abbrev ownC (X : DmaSems sig S8x3) (ab : Fin 8 × Fin 3) : GSem nD τ sig := dcell c (csem X ab.1.val ab.2.val (sem_inb _ _ ab.1.isLt ab.2.isLt))
/-- The cell `(a, b)` of array `X` on the device chain `a` leads to. -/
abbrev tgtC (X : DmaSems sig S8x3) (ab : Fin 8 × Fin 3) : GSem nD τ sig := dcell (tdev ab.1.val c) (csem X ab.1.val ab.2.val (sem_inb _ _ ab.1.isLt ab.2.isLt))

abbrev invP (g : GSem nD τ sig) : sProp 𝕄 := cellInv ER (ringRd fa fb) (K g) g

/-- The body's starting resources, group after group, ending in `R`. -/
def allC (fbb : BbT F) (fr : RT F) (fo : OT F) (R : sProp 𝕄) : sProp 𝕄 :=
  chain [((aM : Memref sig .tc .vmem S2048x1024 .f32).view.loc (c : Thread nD τ) ↦{fullShare} fa c),
     ((bM : Memref sig .tc .vmem S1024x2048 .f32).view.loc (c : Thread nD τ) ↦{fullShare} fb c),
     ((bbM : Memref sig .tc .vmem S1024x2048 .bf16).view.loc (c : Thread nD τ) ↦{fullShare} fbb)] <|
  chain (idx84.map (slotP c fr)) <|
  chain [offP c fo (k0_off2 c) (k0_off2_inb c), offP c fo (k0_off6 c) (k0_off6_inb c), offP c fo (k0_off10 c) (k0_off10_inb c), offP c fo (k0_off14 c) (k0_off14_inb c), offP c fo (k0_off4 c) (k0_off4_inb c), offP c fo (k0_off8 c) (k0_off8_inb c), offP c fo (k0_off12 c) (k0_off12_inb c), offP c fo (k0_off16 c) (k0_off16_inb c)] <|
  chain (idxHand.map (blkP c fo)) <|
  chain [invP fa fb K (barCell c), invP fa fb K (barCell (nxt c)), invP fa fb K (barCell (prv c))] <|
  chain (idx83.map (fun ab => invP fa fb K (ownC c cc0_scratch2 ab))) <| chain (idx83.map (fun ab => invP fa fb K (ownC c cc0_scratch3 ab))) <|
  chain (idx83.map (fun ab => invP fa fb K (ownC c cc0_scratch4 ab))) <| chain (idx83.map (fun ab => invP fa fb K (ownC c cc0_scratch5 ab))) <|
  chain (idx83.map (fun ab => invP fa fb K (tgtC c cc0_scratch3 ab))) <| chain (idx83.map (fun ab => invP fa fb K (tgtC c cc0_scratch5 ab))) <|
  chain [atPos ER (barCell c) 0 ∅ 0] <|
  chain (idx83.map (fun ab => atPos ER (ownC c cc0_scratch2 ab) 0 ∅ 0)) <| chain (idx83.map (fun ab => atPos ER (ownC c cc0_scratch3 ab) 0 ∅ 0)) <|
  chain (idx83.map (fun ab => atPos ER (ownC c cc0_scratch4 ab) 0 ∅ 0)) <| chain (idx83.map (fun ab => atPos ER (ownC c cc0_scratch5 ab) 0 ∅ 0)) <|
  chain [reached ER (barCell (nxt c)) 0, reached ER (barCell (prv c)) 0] <|
  chain (idx83.map (fun ab => reached ER (ownC c cc0_scratch2 ab) 0)) <| chain (idx83.map (fun ab => reached ER (ownC c cc0_scratch3 ab) 0)) <|
  chain (idx83.map (fun ab => reached ER (ownC c cc0_scratch4 ab) 0)) <| chain (idx83.map (fun ab => reached ER (ownC c cc0_scratch5 ab) 0)) <|
  chain (idx83.map (fun ab => reached ER (tgtC c cc0_scratch3 ab) 0)) <| chain (idx83.map (fun ab => reached ER (tgtC c cc0_scratch5 ab) 0)) <|
  chain [dutyTok ER (barCell (prv c)) 0 true, dutyTok ER (barCell (nxt c)) 0 false] <|
  chain (idx83.map (fun ab => dutyTok ER (tgtC c cc0_scratch3 ab) 0 false)) <| chain (idx83.map (fun ab => dutyTok ER (tgtC c cc0_scratch5 ab) 0 false)) <|
  chain (idx83.map (fun ab => dutyTok ER (ownC c cc0_scratch2 ab) 0 false)) <| chain (idx83.map (fun ab => dutyTok ER (ownC c cc0_scratch4 ab) 0 false)) <|
  chain [cred (tallyAt (barCell c) () 2)] <|
  chain (idx83.map (fun ab => cred (tallyAt (ownC c cc0_scratch3 ab) () Nrs))) <| chain (idx83.map (fun ab => cred (tallyAt (ownC c cc0_scratch5 ab) () Nag))) <|
  chain [MayWait (c : Thread nD τ) (.reg barS) () (owedRem c 48)] <|
  chain (idx83.map (fun ab => MayWait (c : Thread nD τ) (.dma (csem cc0_scratch3 ab.1.val ab.2.val (sem_inb _ _ ab.1.isLt ab.2.isLt))) () (owedRem c (48 - (8 * (ab.2.val + 1) + posOf ab.1.val))))) <|
  chain (idx83.map (fun ab => MayWait (c : Thread nD τ) (.dma (csem cc0_scratch5 ab.1.val ab.2.val (sem_inb _ _ ab.1.isLt ab.2.isLt))) () (owedRem c (if ab.2.val < 2 then 48 - (8 * (ab.2.val + 4) + posOf ab.1.val) else 0)))) <|
  R

end Families

/-! ## The piece-by-piece form as a chain of groups -/

set_option maxHeartbeats 4000000 in
/-- The piece-by-piece precondition is the chain of its groups: the conjuncts are the same, up to the evidence
    each carries and to the ring neighbour a chain leads to, evaluated at each chain's number. -/
theorem corePre_eq_chain (fa : Dev nD → AT F) (fb : Dev nD → BT F) (K : GSem nD τ sig → ℕ) (c : Dev nD)
    (fbb : BbT F) (fr : RT F) (fo : OT F) (W : Waits sig Unit) :
    corePre fa fb K c fbb fr fo W
      = allC fa fb K c fbb fr fo (owes (c : Thread nD τ) (owedRem c 48 + tallyAt (barCell (nxt c)) () 1 + tallyAt (barCell (prv c)) () 1) W) := rfl

omit [FloatOps F] in
theorem chain_idx84 (Φ : Fin 8 × Fin 4 → sProp 𝕄) (R : sProp 𝕄) : chain (idx84.map Φ) R = iprop(bigSepL idx84 Φ ∗ R) :=
  (bigSepL_sep_eq_chain Φ R idx84 (by decide)).symm
omit [FloatOps F] in
theorem chain_idx83 (Φ : Fin 8 × Fin 3 → sProp 𝕄) (R : sProp 𝕄) : chain (idx83.map Φ) R = iprop(bigSepL idx83 Φ ∗ R) :=
  (bigSepL_sep_eq_chain Φ R idx83 (by decide)).symm
omit [FloatOps F] in
theorem chain_idxHand (Φ : Fin 4 × Fin 8 → sProp 𝕄) (R : sProp 𝕄) : chain (idxHand.map Φ) R = iprop(bigSepL idxHand Φ ∗ R) :=
  (bigSepL_sep_eq_chain Φ R idxHand (by decide)).symm

omit [FloatOps F] in
/-- A family over the 24 pairs, listed. -/
theorem overAB_L (Φ : (a b : ℕ) → a < 8 → b < 3 → sProp 𝕄) :
    overAB Φ ⊢ bigSepL idx83 (fun ab => Φ ab.1.val ab.2.val ab.1.isLt ab.2.isLt) :=
  Entails.of_eq (bigSep_univ_eq_bigSepL idx83 idx83_univ idx83_nodup _)

omit [FloatOps F] in
theorem bigSepL_append {I : Type} (Φ : I → sProp 𝕄) : ∀ (l₁ l₂ : List I), l₁ ≠ [] → l₂ ≠ [] →
    bigSepL (l₁ ++ l₂) Φ = iprop(bigSepL l₁ Φ ∗ bigSepL l₂ Φ)
  | [], _, h, _ => absurd rfl h
  | [i], [], _, h => absurd rfl h
  | [i], j :: l, _, _ => rfl
  | i :: i' :: l₁, l₂, _, h₂ => by
    show iprop(Φ i ∗ bigSepL ((i' :: l₁) ++ l₂) Φ) = iprop((Φ i ∗ bigSepL (i' :: l₁) Φ) ∗ bigSepL l₂ Φ)
    rw [bigSepL_append Φ (i' :: l₁) l₂ (List.cons_ne_nil _ _) h₂, sep_assoc_eqG]

/-! ## The buffers, piece by piece -/

section Pieces
variable (c : Dev nD)

/-- The scratch at `fr` is its 32 slots at `fr`, in the order of the chains. -/
theorem scratch_L (fr : RT F) :
    (((c : Thread nD τ).loc cc0_scratch0) ↦{fullShare} fr : sProp 𝕄) ⊢ bigSepL idx84 (slotP c fr) :=
  Entails.of_eq ((scratch_split_eq c fullShare fr).trans (bigSep_univ_eq_bigSepL idx84 idx84_univ idx84_nodup _))

/-- The result buffer at `fo` is its 32 blocks at `fo`: the eight of the device's own band, then the handed-over ones. -/
theorem blocks_L (fo : OT F) :
    (((c : Thread nD τ).loc cc0_stg2_0) ↦{fullShare} fo : sProp 𝕄) ⊢ iprop(bigSepL idxOwn (blkP c fo) ∗ bigSepL idxHand (blkP c fo)) :=
  Entails.of_eq ((block_split_chunk_eq c fullShare fo).trans
    ((bigSep_univ_eq_bigSepL (idxOwn ++ idxHand) idxBlk_univ idxBlk_nodup _).trans
      (bigSepL_append _ idxOwn idxHand (by decide) (by decide))))

/-- The own band's eight blocks under the offsets the program computes. -/
theorem own_L (fo : OT F) :
    bigSepL idxOwn (blkP c fo)
      ⊢ iprop(offP c fo (k0_off2 c) (k0_off2_inb c) ∗ offP c fo (k0_off6 c) (k0_off6_inb c) ∗ offP c fo (k0_off10 c) (k0_off10_inb c)
          ∗ offP c fo (k0_off14 c) (k0_off14_inb c) ∗ offP c fo (k0_off4 c) (k0_off4_inb c) ∗ offP c fo (k0_off8 c) (k0_off8_inb c)
          ∗ offP c fo (k0_off12 c) (k0_off12_inb c) ∗ offP c fo (k0_off16 c) (k0_off16_inb c)) := by
  refine Entails.of_eq ?_
  show iprop(blkP c fo (0, 0) ∗ blkP c fo (0, 1) ∗ blkP c fo (0, 2) ∗ blkP c fo (0, 3) ∗ blkP c fo (0, 4) ∗ blkP c fo (0, 5) ∗ blkP c fo (0, 6) ∗ blkP c fo (0, 7)) = _
  have e0 : blkP c fo (0, 0) = offP c fo (k0_off2 c) (k0_off2_inb c) :=
    (oblk_pointsTo_respell c (k0_off2 c) _ (k0_off2_inb c) (rowOff_inb c 0 0 (by decide)) (off2_eq c) fullShare fo).symm
  have e1 : blkP c fo (0, 1) = offP c fo (k0_off6 c) (k0_off6_inb c) :=
    (oblk_pointsTo_respell c (k0_off6 c) _ (k0_off6_inb c) (rowOff_inb c 0 1 (by decide)) (off6_eq c) fullShare fo).symm
  have e2 : blkP c fo (0, 2) = offP c fo (k0_off10 c) (k0_off10_inb c) :=
    (oblk_pointsTo_respell c (k0_off10 c) _ (k0_off10_inb c) (rowOff_inb c 0 2 (by decide)) (off10_eq c) fullShare fo).symm
  have e3 : blkP c fo (0, 3) = offP c fo (k0_off14 c) (k0_off14_inb c) :=
    (oblk_pointsTo_respell c (k0_off14 c) _ (k0_off14_inb c) (rowOff_inb c 0 3 (by decide)) (off14_eq c) fullShare fo).symm
  have e4 : blkP c fo (0, 4) = offP c fo (k0_off4 c) (k0_off4_inb c) :=
    (oblk_pointsTo_respell c (k0_off4 c) _ (k0_off4_inb c) (rowOff_inb c 0 4 (by decide)) (off4_eq c) fullShare fo).symm
  have e5 : blkP c fo (0, 5) = offP c fo (k0_off8 c) (k0_off8_inb c) :=
    (oblk_pointsTo_respell c (k0_off8 c) _ (k0_off8_inb c) (rowOff_inb c 0 5 (by decide)) (off8_eq c) fullShare fo).symm
  have e6 : blkP c fo (0, 6) = offP c fo (k0_off12 c) (k0_off12_inb c) :=
    (oblk_pointsTo_respell c (k0_off12 c) _ (k0_off12_inb c) (rowOff_inb c 0 6 (by decide)) (off12_eq c) fullShare fo).symm
  have e7 : blkP c fo (0, 7) = offP c fo (k0_off16 c) (k0_off16_inb c) :=
    (oblk_pointsTo_respell c (k0_off16 c) _ (k0_off16_inb c) (rowOff_inb c 0 7 (by decide)) (off16_eq c) fullShare fo).symm
  rw [e0, e1, e2, e3, e4, e5, e6, e7]

end Pieces

/-! ## The wait permissions -/

omit [FloatOps F] in
/-- From a persistent assertion, every conjunct of a list it entails. -/
theorem bigSepL_of_persistent {I : Type} (P : sProp 𝕄) [BI.Persistent P] (Q : I → sProp 𝕄) :
    ∀ (l : List I), l ≠ [] → (∀ i ∈ l, P ⊢ Q i) → P ⊢ bigSepL l Q
  | [], h, _ => absurd rfl h
  | [i], _, hQ => hQ i (List.mem_singleton_self i)
  | i :: j :: l, _, hQ =>
    (persistent_entails_left (P := P) (Q := P) .rfl).trans
      (BI.sep_mono (hQ i (List.mem_cons_self ..))
        (bigSepL_of_persistent P Q (j :: l) (List.cons_ne_nil _ _) fun k hk => hQ k (List.mem_cons_of_mem _ hk)))

theorem posOf_le (a : ℕ) (ha : a < 8) : posOf a ≤ 7 := by unfold posOf; omega

theorem mw3_L (c : Dev nD) :
    (levAts L lv : sProp 𝕄) ⊢ bigSepL idx83 (fun ab => MayWait (c : Thread nD τ)
      (.dma (csem cc0_scratch3 ab.1.val ab.2.val (sem_inb _ _ ab.1.isLt ab.2.isLt))) () (owedRem c (48 - (8 * (ab.2.val + 1) + posOf ab.1.val)))) :=
  bigSepL_of_persistent _ _ idx83 (by decide) fun ab _ =>
    mayWait_rsRecv c ab.1.val ab.2.val _ (8 * (ab.2.val + 1) + posOf ab.1.val)
      (by have := posOf_le ab.1.val ab.1.isLt; have := ab.2.isLt; omega) (by omega)

theorem mw5_L (c : Dev nD) :
    (levAts L lv : sProp 𝕄) ⊢ bigSepL idx83 (fun ab => MayWait (c : Thread nD τ)
      (.dma (csem cc0_scratch5 ab.1.val ab.2.val (sem_inb _ _ ab.1.isLt ab.2.isLt))) ()
      (owedRem c (if ab.2.val < 2 then 48 - (8 * (ab.2.val + 4) + posOf ab.1.val) else 0))) :=
  bigSepL_of_persistent _ _ idx83 (by decide) fun ab _ => by
    by_cases hb : ab.2.val < 2
    · rw [if_pos hb]
      exact mayWait_agRecv c ab.1.val ab.2.val _ (8 * (ab.2.val + 4) + posOf ab.1.val)
        (by have := posOf_le ab.1.val ab.1.isLt; omega) (by omega)
    · rw [if_neg hb]
      exact mayWait_agRecv c ab.1.val ab.2.val _ 48 (le_refl _) (by have := ab.2.isLt; omega)

/-! ## The glue -/

section Glue
variable (m : (ℓ : Loc nD τ sig) → Buf (Elt F) ℓ) (ρ : Dev nD → PrngReg)

local macro "give " h:ident : tactic => `(tactic| (isplitl [$h]; · iexact $h))

set_option maxHeartbeats 4000000 in
/-- What the launch hands a device's body is, for some contents of the scratch buffers and of the result buffer, the
    piece-by-piece form its run starts from. -/
theorem pre_glue (K : GSem nD τ sig → ℕ) (c : Dev nD) :
    bodyPre m ρ K c ⊢ iprop(∃ (fbb : BbT F) (fr : RT F) (fo : OT F) (W : Waits sig Unit),
      corePre (xstgA m ρ) (xstgB m ρ) K c fbb fr fo W) := by
  unfold bodyPre ghost
  iintro ⟨⟨⟨⟨Hib, Hibn, Hibp, Hi2, Hi3, Hi4, Hi5, Hit3, Hit5⟩, ⟨Hpb, Hp2, Hp3, Hp4, Hp5⟩,
      ⟨Hrbn, Hrbp, Hr2, Hr3, Hr4, Hr5, Hrt3, Hrt5⟩, ⟨Htbp, Htbn, Htt3, Htt5, Hts2, Hts4⟩⟩,
      Hcb, Hc3, Hc5, #Hlev, ⟨%fr, Hs0⟩, ⟨%fbb, Hs1⟩⟩,
    Ho, ⟨%d0, %g0, %hg0, Ha⟩, ⟨%d1, %g1, %hg1, Hb⟩, ⟨%d2, %g2, %hg2, Hout⟩⟩
  have hx0 : g0 = xstgA m ρ c := by rw [hg0]; unfold Dat.before; rw [if_pos (fetch0_0 t₀)]; rfl
  have hx1 : g1 = xstgB m ρ c := by rw [hg1]; unfold Dat.before; rw [if_pos (fetch0_1 t₀)]; rfl
  subst hx0 hx1
  unfold Dat.owesAt Pipeline.owesWithin
  icases Ho with ⟨%W, %hW, HO⟩
  iexists fbb, fr, g2, W
  rw [corePre_eq_chain]
  unfold allC
  simp only [chain_cons, chain_nil, chain_idx83, chain_idx84, chain_idxHand]
  ihave Hsl := (scratch_L c fr) $$ Hs0
  ihave Hbl := (blocks_L c g2) $$ Hout
  icases Hbl with ⟨Hown, Hhand⟩
  ihave Hown := (own_L c g2) $$ Hown
  icases Hown with ⟨Ho0, Ho1, Ho2, Ho3, Ho4, Ho5, Ho6, Ho7⟩
  ihave Hmwb := (mayWait_bar (F := F) c) $$ Hlev
  ihave Hmw3 := (mw3_L (F := F) c) $$ Hlev
  ihave Hmw5 := (mw5_L (F := F) c) $$ Hlev
  give Ha; give Hb; give Hs1; give Hsl
  give Ho0; give Ho1; give Ho2; give Ho3; give Ho4; give Ho5; give Ho6; give Ho7
  give Hhand
  give Hib; give Hibn; give Hibp
  ihave HL := (overAB_L _) $$ Hi2; give HL; ihave HL := (overAB_L _) $$ Hi3; give HL; ihave HL := (overAB_L _) $$ Hi4; give HL; ihave HL := (overAB_L _) $$ Hi5; give HL; ihave HL := (overAB_L _) $$ Hit3; give HL; ihave HL := (overAB_L _) $$ Hit5; give HL
  give Hpb
  ihave HL := (overAB_L _) $$ Hp2; give HL; ihave HL := (overAB_L _) $$ Hp3; give HL; ihave HL := (overAB_L _) $$ Hp4; give HL; ihave HL := (overAB_L _) $$ Hp5; give HL
  give Hrbn; give Hrbp
  ihave HL := (overAB_L _) $$ Hr2; give HL; ihave HL := (overAB_L _) $$ Hr3; give HL; ihave HL := (overAB_L _) $$ Hr4; give HL; ihave HL := (overAB_L _) $$ Hr5; give HL; ihave HL := (overAB_L _) $$ Hrt3; give HL; ihave HL := (overAB_L _) $$ Hrt5; give HL
  give Htbp; give Htbn
  ihave HL := (overAB_L _) $$ Htt3; give HL; ihave HL := (overAB_L _) $$ Htt5; give HL; ihave HL := (overAB_L _) $$ Hts2; give HL; ihave HL := (overAB_L _) $$ Hts4; give HL
  give Hcb
  ihave HL := (overAB_L _) $$ Hc3; give HL; ihave HL := (overAB_L _) $$ Hc5; give HL
  give Hmwb; give Hmw3; give Hmw5
  iexact HO

end Glue

/-! ## The end of the body: pieces back to whole buffers -/

section Post
variable (c : Dev nD)

/-- The 32 slots, each at contents of its own, are the scratch at some contents. -/
theorem slots_join_L :
    bigSepL idx84 (fun ab => iprop(∃ g : RT F, slotP c g ab)) ⊢ iprop(∃ f : Buf (Elt F) ((c : Thread nD τ).loc cc0_scratch0), ((c : Thread nD τ).loc cc0_scratch0) ↦{fullShare} f) :=
  (Entails.of_eq (bigSep_univ_eq_bigSepL idx84 idx84_univ idx84_nodup _).symm).trans (scratch_join c fullShare)

/-- A buffer held whole at `X` is the staged buffer at `X`. -/
theorem stg_intro (b : Ref sig .tc) (X : b.ty.Contents (Elt F)) :
    (((c : Thread nD τ).loc b) ↦{fullShare} X : sProp 𝕄) ⊢ stg c b X := by
  iintro H
  iexists X
  isplitr
  · ipureintro; rfl
  · iexact H

variable (fa : Dev nD → AT F) (fb : Dev nD → BT F)

omit c in
theorem outBlk_congr {d d' : Dev nD} {a a' : ℕ} {ha : a < 8} {ha' : a' < 8} {x x' : S512x256.Idx}
    (hd : d = d') (hae : a = a') (hx : x = x') : outBlk fa fb d a ha x = outBlk fa fb d' a' ha' x' := by
  subst hd hae hx; rfl

/-- The block of band distance `k`, chain `a` holding the finished block of band `chunk c k` agrees there with the one buffer of
    finished blocks: element `(p, q)` of the block is element `(512 (chunk c k) + p, 256 a + q)` of the buffer. -/
theorem outAll_block (k : Fin 4) (a : Fin 8) (h : ∀ i, rowOff c k.val a.val i + S512x256.size i ≤ S2048x2048.size i) :
    ∀ i ∈ (oblkM (rowOff c k.val a.val) h).view.set,
      oblkBuf (rowOff c k.val a.val) h (outBlk fa fb ⟨chunk c k.val, chunk_lt _ _⟩ a.val a.isLt) i = outAll fa fb i := by
  intro i hi
  obtain ⟨x, -, rfl⟩ := Finset.mem_map.mp hi
  unfold oblkBuf
  rw [View.write_emb_of_mem _ _ (Finset.mem_univ x)]
  obtain ⟨p, q, rfl⟩ : ∃ (p : Fin 512) (q : Fin 256), x = ValueIdx.ix2 p q := ⟨x 0, x 1, ValueIdx.eq_ix2 x⟩
  have h0 : (((oblkM (rowOff c k.val a.val) h).view.emb (ValueIdx.ix2 p q)) 0).val = 512 * chunk c k.val + p.val := by
    show 512 * chunk c k.val + 1 * p.val = _; omega
  have h1 : (((oblkM (rowOff c k.val a.val) h).view.emb (ValueIdx.ix2 p q)) 1).val = 256 * a.val + q.val := by
    show 256 * a.val + 1 * q.val = _; omega
  unfold outAll
  have hp := p.isLt
  have hq := q.isLt
  refine outBlk_congr fa fb (Fin.ext ?_) ?_ ?_
  · show chunk c k.val = (((oblkM (rowOff c k.val a.val) h).view.emb (ValueIdx.ix2 p q)) 0).val / 512
    rw [h0]; omega
  · show a.val = (((oblkM (rowOff c k.val a.val) h).view.emb (ValueIdx.ix2 p q)) 1).val / 256
    rw [h1]; omega
  · refine congrArg₂ ValueIdx.ix2 (Fin.ext ?_) (Fin.ext ?_)
    · show p.val = (((oblkM (rowOff c k.val a.val) h).view.emb (ValueIdx.ix2 p q)) 0).val % 512
      rw [h0]; omega
    · show q.val = (((oblkM (rowOff c k.val a.val) h).view.emb (ValueIdx.ix2 p q)) 1).val % 256
      rw [h1]; omega

/-- The block of band distance `ka.1`, chain `ka.2`, holding that band's finished block. -/
abbrev outP (ka : Fin 4 × Fin 8) : sProp 𝕄 :=
  offP c (oblkBuf (rowOff c ka.1.val ka.2.val) (rowOff_inb c _ _ ka.2.isLt) (outBlk fa fb ⟨chunk c ka.1.val, chunk_lt _ _⟩ ka.2.val ka.2.isLt))
    (rowOff c ka.1.val ka.2.val) (rowOff_inb c _ _ ka.2.isLt)

/-- Holding its band's finished block, a block is held at the one buffer of finished blocks. -/
theorem outP_eq (ka : Fin 4 × Fin 8) : outP c fa fb ka = blkP c (outAll fa fb) ka :=
  pointsTo_congr (outAll_block c fa fb ka.1 ka.2 _)

/-- The 32 blocks in any listed order, each holding its band's finished block, are the result buffer at the one buffer of
    finished blocks. -/
theorem blocks_join_outAll (l : List (Fin 4 × Fin 8)) (hl : (Finset.univ : Finset (Fin 4 × Fin 8)) = l.toFinset) (hn : l.Nodup) :
    bigSepL l (outP c fa fb) ⊢ (((c : Thread nD τ).loc cc0_stg2_0) ↦{fullShare} outAll fa fb : sProp 𝕄) := by
  rw [← bigSep_univ_eq_bigSepL l hl hn, show outP c fa fb = blkP c (outAll fa fb) from funext (outP_eq c fa fb)]
  exact blocks_join_chunk c fullShare (outAll fa fb)

/-- The same, to the staged result. -/
theorem blocks_join_stg (l : List (Fin 4 × Fin 8)) (hl : (Finset.univ : Finset (Fin 4 × Fin 8)) = l.toFinset) (hn : l.Nodup) :
    bigSepL l (outP c fa fb) ⊢ stg c cc0_stg2_0 (outAll fa fb) :=
  (blocks_join_outAll c fa fb l hl hn).trans (stg_intro c cc0_stg2_0 (outAll fa fb))

end Post

/-! ## The end of the body: the piece-by-piece form back to the launch's -/

def idx8 : List (Fin 8) := [0, 1, 2, 3, 4, 5, 6, 7]

omit [FloatOps F] in
theorem chain_idx8 (Φ : Fin 8 → sProp 𝕄) (R : sProp 𝕄) : chain (idx8.map Φ) R = iprop(bigSepL idx8 Φ ∗ R) :=
  (bigSepL_sep_eq_chain Φ R idx8 (by decide)).symm

omit [FloatOps F] in
theorem overAB_R (Φ : (a b : ℕ) → a < 8 → b < 3 → sProp 𝕄) :
    bigSepL idx83 (fun ab => Φ ab.1.val ab.2.val ab.1.isLt ab.2.isLt) ⊢ overAB Φ :=
  Entails.of_eq (bigSep_univ_eq_bigSepL idx83 idx83_univ idx83_nodup _).symm

omit [FloatOps F] in
theorem bigSepL_cons_cons' {I : Type} (i j : I) (l : List I) (Φ : I → sProp 𝕄) :
    bigSepL (i :: j :: l) Φ = iprop(Φ i ∗ bigSepL (j :: l) Φ) := rfl

omit [FloatOps F] in
theorem bigSepL_mono {I : Type} (Φ Ψ : I → sProp 𝕄) (h : ∀ i, Φ i ⊢ Ψ i) : ∀ l : List I, bigSepL l Φ ⊢ bigSepL l Ψ
  | [] => .rfl
  | [i] => h i
  | i :: j :: l => BI.sep_mono (h i) (bigSepL_mono Φ Ψ h (j :: l))

omit [FloatOps F] in
theorem bigSepL_map {I J : Type} (κ : I → J) (Φ : J → sProp 𝕄) : ∀ l : List I, bigSepL (l.map κ) Φ = bigSepL l (fun i => Φ (κ i))
  | [] => rfl
  | [i] => rfl
  | i :: j :: l => by
    show iprop(Φ (κ i) ∗ bigSepL ((j :: l).map κ) Φ) = iprop(Φ (κ i) ∗ bigSepL (j :: l) (fun i => Φ (κ i)))
    rw [bigSepL_map κ Φ (j :: l)]

/-- The device whose finished block travels in all-gather copy `(a, b)` issued by `c` is the one `b` hops back along the
    chain: its band is at ring distance `agShift a b` from `c`. -/
theorem orig_eq_chunk : ∀ (a : Fin 8) (b : Fin 4) (c : Dev nD),
    orig a.val b.val c = ⟨chunk c (agShift a.val b.val), chunk_lt _ _⟩ := by decide

theorem agShift_lt (a b : ℕ) : agShift a b < 4 := by unfold agShift; split <;> omega

section PostBlocks
variable (c : Dev nD) (fa : Dev nD → AT F) (fb : Dev nD → BT F)

/-- The block at `off` holding the finished block that travels in all-gather copy `(a, b)` issued by `c`. -/
abbrev sentP (a b : ℕ) (ha : a < 8) (off : Fin 2 → ℕ) (h : ∀ i, off i + S512x256.size i ≤ S2048x2048.size i) : sProp 𝕄 :=
  offP c (oblkBuf off h (outBlk fa fb (orig a b c) a ha)) off h

/-- Where that block lies at ring distance `agShift a b`, it is the block of that band holding the band's finished block. -/
theorem blk_norm (a b : ℕ) (ha : a < 8) (hb : b < 4) (off : Fin 2 → ℕ) (h : ∀ i, off i + S512x256.size i ≤ S2048x2048.size i)
    (e : off = rowOff c (agShift a b) a) :
    sentP c fa fb a b ha off h = outP c fa fb (⟨agShift a b, agShift_lt a b⟩, ⟨a, ha⟩) := by
  subst e
  have ho : orig a b c = ⟨chunk c (agShift a b), chunk_lt _ _⟩ := orig_eq_chunk ⟨a, ha⟩ ⟨b, hb⟩ c
  show offP c (oblkBuf _ h (outBlk fa fb (orig a b c) a ha)) _ h = _
  rw [ho]

/-- The block the last hop of chain `a` lands in, as it stands after the landing. -/
abbrev lastP (a : ℕ) (ha : a < 8) (fd : OT F) : sProp 𝕄 :=
  offP c ((oblkM (rowOff c (agShift a 3) a) (rowOff_inb c _ a ha)).view.write (Elt F) fd
      ((oblkM (rowOff (sdev a c) (agShift a 2) a) (rowOff_inb _ _ a ha)).view.read (Elt F)
        (oblkBuf (rowOff (sdev a c) (agShift a 2) a) (rowOff_inb _ _ a ha) (outBlk fa fb (orig a 2 (sdev a c)) a ha))) Finset.univ)
    (rowOff c (agShift a 3) a) (rowOff_inb c _ a ha)

theorem last_norm (a : ℕ) (ha : a < 8) (fd : OT F) :
    lastP c fa fb a ha fd = outP c fa fb (⟨agShift a 3, agShift_lt a 3⟩, ⟨a, ha⟩) :=
  (site_fwd_pt c (rowOff c (agShift a 3) a) (rowOff c (agShift a 3) a) (rowOff (sdev a c) (agShift a 2) a)
      (rowOff_inb c _ a ha) (rowOff_inb c _ a ha) (rowOff_inb _ _ a ha) rfl fullShare fd (outBlk fa fb (orig a 2 (sdev a c)) a ha)).trans
    (blk_norm c fa fb a 3 ha (by decide) _ _ rfl)

/-- The bands the blocks of a chain lie in, by all-gather step. -/
def κS (ab : Fin 8 × Fin 3) : Fin 4 × Fin 8 := (⟨agShift ab.1.val ab.2.val, agShift_lt _ _⟩, ab.1)
def κL (a : Fin 8) : Fin 4 × Fin 8 := (⟨agShift a.val 3, agShift_lt _ _⟩, a)

theorem post_univ : (Finset.univ : Finset (Fin 4 × Fin 8)) = (idx83.map κS ++ idx8.map κL).toFinset := by decide
theorem post_nodup : (idx83.map κS ++ idx8.map κL).Nodup := by decide

/-- The eight last-hop blocks are their bands' finished blocks. -/
theorem last_L : bigSepL idx8 (fun a => iprop(∃ fd : OT F, lastP c fa fb a.val a.isLt fd)) ⊢ bigSepL (idx8.map κL) (outP c fa fb) := by
  rw [bigSepL_map]
  refine bigSepL_mono _ _ (fun a => ?_) idx8
  iintro ⟨%fd, H⟩
  iapply (Entails.of_eq (last_norm c fa fb a.val a.isLt fd)) $$ H

end PostBlocks

section PostChain
variable (fa : Dev nD → AT F) (fb : Dev nD → BT F) (K : GSem nD τ sig → ℕ) (c : Dev nD)

/-- What a device holds after its last wait, group after group. -/
def allPost (fbb : BbT F) (W : Waits sig Unit) : sProp 𝕄 :=
  chain [((aM : Memref sig .tc .vmem S2048x1024 .f32).view.loc (c : Thread nD τ) ↦{fullShare} fa c),
     ((bM : Memref sig .tc .vmem S1024x2048 .f32).view.loc (c : Thread nD τ) ↦{fullShare} fb c),
     ((bbM : Memref sig .tc .vmem S1024x2048 .bf16).view.loc (c : Thread nD τ) ↦{fullShare} fbb)] <|
  chain (idx84.map (fun ab => iprop(∃ g : RT F, slotP c g ab))) <|
  chain [sentP c fa fb 0 0 (by decide) (k0_off3 c 0#32) (k0_off3_inb c 0),
     sentP c fa fb 0 1 (by decide) (k0_off3 c 1#32) (k0_off3_inb c 1),
     sentP c fa fb 0 2 (by decide) (k0_off3 c 2#32) (k0_off3_inb c 2),
     sentP c fa fb 1 0 (by decide) (k0_off7 c 0#32) (k0_off7_inb c 0),
     sentP c fa fb 1 1 (by decide) (k0_off7 c 1#32) (k0_off7_inb c 1),
     sentP c fa fb 1 2 (by decide) (k0_off7 c 2#32) (k0_off7_inb c 2),
     sentP c fa fb 2 0 (by decide) (k0_off11 c 0#32) (k0_off11_inb c 0),
     sentP c fa fb 2 1 (by decide) (k0_off11 c 1#32) (k0_off11_inb c 1),
     sentP c fa fb 2 2 (by decide) (k0_off11 c 2#32) (k0_off11_inb c 2),
     sentP c fa fb 3 0 (by decide) (k0_off15 c 0#32) (k0_off15_inb c 0),
     sentP c fa fb 3 1 (by decide) (k0_off15 c 1#32) (k0_off15_inb c 1),
     sentP c fa fb 3 2 (by decide) (k0_off15 c 2#32) (k0_off15_inb c 2),
     sentP c fa fb 4 0 (by decide) (k0_off5 c 0#32) (k0_off5_inb c 0),
     sentP c fa fb 4 1 (by decide) (k0_off5 c 4294967295#32) (k0_off5_inb c 1),
     sentP c fa fb 4 2 (by decide) (k0_off5 c 4294967294#32) (k0_off5_inb c 2),
     sentP c fa fb 5 0 (by decide) (k0_off9 c 0#32) (k0_off9_inb c 0),
     sentP c fa fb 5 1 (by decide) (k0_off9 c 4294967295#32) (k0_off9_inb c 1),
     sentP c fa fb 5 2 (by decide) (k0_off9 c 4294967294#32) (k0_off9_inb c 2),
     sentP c fa fb 6 0 (by decide) (k0_off13 c 0#32) (k0_off13_inb c 0),
     sentP c fa fb 6 1 (by decide) (k0_off13 c 4294967295#32) (k0_off13_inb c 1),
     sentP c fa fb 6 2 (by decide) (k0_off13 c 4294967294#32) (k0_off13_inb c 2),
     sentP c fa fb 7 0 (by decide) (k0_off17 c 0#32) (k0_off17_inb c 0),
     sentP c fa fb 7 1 (by decide) (k0_off17 c 4294967295#32) (k0_off17_inb c 1),
     sentP c fa fb 7 2 (by decide) (k0_off17 c 4294967294#32) (k0_off17_inb c 2)] <|
  chain (idx8.map (fun a => iprop(∃ fd : OT F, lastP c fa fb a.val a.isLt fd))) <|
  chain (idx83.map (fun ab => invP fa fb K (ownC c cc0_scratch2 ab))) <| chain (idx83.map (fun ab => invP fa fb K (ownC c cc0_scratch3 ab))) <|
  chain (idx83.map (fun ab => invP fa fb K (ownC c cc0_scratch4 ab))) <| chain (idx83.map (fun ab => invP fa fb K (ownC c cc0_scratch5 ab))) <|
  chain (idx83.map (fun ab => atPos ER (ownC c cc0_scratch2 ab) 1 ∅ 0)) <| chain (idx83.map (fun ab => atPos ER (ownC c cc0_scratch3 ab) 1 ∅ 0)) <|
  chain (idx83.map (fun ab => atPos ER (ownC c cc0_scratch4 ab) 1 ∅ 0)) <| chain (idx83.map (fun ab => atPos ER (ownC c cc0_scratch5 ab) 1 ∅ 0)) <|
  chain [atPos ER (barCell c) 1 ∅ 0] <|
  owes (c : Thread nD τ) (0 : CellTallies nD τ sig Unit) W

set_option maxHeartbeats 4000000 in
theorem corePost_eq_chain (fbb : BbT F) (W : Waits sig Unit) : corePost fa fb K c fbb W = allPost fa fb K c fbb W := rfl

end PostChain

section PostFamilies
variable (fa : Dev nD → AT F) (fb : Dev nD → BT F) (K : GSem nD τ sig → ℕ) (c : Dev nD)

/-- The invariants of the own cells of one array, as a family over chains and steps. -/
abbrev invF (X : DmaSems sig S8x3) : (a b : ℕ) → a < 8 → b < 3 → sProp 𝕄 :=
  fun a b ha hb => cellInv ER (ringRd fa fb) (K (dcell c (csem X a b (sem_inb a b ha hb)))) (dcell c (csem X a b (sem_inb a b ha hb)))
/-- The owner's position at round 1 of the own cells of one array. -/
abbrev atF (X : DmaSems sig S8x3) : (a b : ℕ) → a < 8 → b < 3 → sProp 𝕄 :=
  fun a b ha hb => atPos ER (dcell c (csem X a b (sem_inb a b ha hb))) 1 ∅ 0

end PostFamilies

section PostGlue
variable (m : (ℓ : Loc nD τ sig) → Buf (Elt F) ℓ) (ρ : Dev nD → PrngReg)

local macro "give " h:ident : tactic => `(tactic| (isplitl [$h]; · iexact $h))

set_option maxHeartbeats 4000000 in
/-- From what a device holds after the last wait of its body, piece by piece, to what the launch wants back: the own
    transfer cells closed, nothing owed, the staged operands as they were, the staged result the one buffer of finished blocks. -/
theorem post_glue (K : GSem nD τ sig → ℕ) (c : Dev nD) (fbb : BbT F) (W : Waits sig Unit) :
    corePost (xstgA m ρ) (xstgB m ρ) K c fbb W ⊢ (|={Set.univ}=> bodyPost m ρ c : sProp 𝕄) := by
  rw [corePost_eq_chain]
  unfold allPost
  simp only [chain_cons, chain_nil, chain_idx83, chain_idx84, chain_idx8]
  iintro ⟨Ha, Hb, Hbb, Hsl, B00, B01, B02, B10, B11, B12, B20, B21, B22, B30, B31, B32, B40, B41, B42, B50, B51, B52, B60, B61, B62, B70, B71, B72, Hlast, I2, I3, I4, I5, A2, A3, A4, A5, -, HO⟩
  ihave Hs0 := (slots_join_L c) $$ Hsl
  ihave B00 := (Entails.of_eq (blk_norm c (xstgA m ρ) (xstgB m ρ) 0 0 _ (by decide) (k0_off3 c 0#32) (k0_off3_inb c 0) (agOff_0_0 c))) $$ B00
  ihave B01 := (Entails.of_eq (blk_norm c (xstgA m ρ) (xstgB m ρ) 0 1 _ (by decide) (k0_off3 c 1#32) (k0_off3_inb c 1) (agOff_0_1 c))) $$ B01
  ihave B02 := (Entails.of_eq (blk_norm c (xstgA m ρ) (xstgB m ρ) 0 2 _ (by decide) (k0_off3 c 2#32) (k0_off3_inb c 2) (agOff_0_2 c))) $$ B02
  ihave B10 := (Entails.of_eq (blk_norm c (xstgA m ρ) (xstgB m ρ) 1 0 _ (by decide) (k0_off7 c 0#32) (k0_off7_inb c 0) (agOff_1_0 c))) $$ B10
  ihave B11 := (Entails.of_eq (blk_norm c (xstgA m ρ) (xstgB m ρ) 1 1 _ (by decide) (k0_off7 c 1#32) (k0_off7_inb c 1) (agOff_1_1 c))) $$ B11
  ihave B12 := (Entails.of_eq (blk_norm c (xstgA m ρ) (xstgB m ρ) 1 2 _ (by decide) (k0_off7 c 2#32) (k0_off7_inb c 2) (agOff_1_2 c))) $$ B12
  ihave B20 := (Entails.of_eq (blk_norm c (xstgA m ρ) (xstgB m ρ) 2 0 _ (by decide) (k0_off11 c 0#32) (k0_off11_inb c 0) (agOff_2_0 c))) $$ B20
  ihave B21 := (Entails.of_eq (blk_norm c (xstgA m ρ) (xstgB m ρ) 2 1 _ (by decide) (k0_off11 c 1#32) (k0_off11_inb c 1) (agOff_2_1 c))) $$ B21
  ihave B22 := (Entails.of_eq (blk_norm c (xstgA m ρ) (xstgB m ρ) 2 2 _ (by decide) (k0_off11 c 2#32) (k0_off11_inb c 2) (agOff_2_2 c))) $$ B22
  ihave B30 := (Entails.of_eq (blk_norm c (xstgA m ρ) (xstgB m ρ) 3 0 _ (by decide) (k0_off15 c 0#32) (k0_off15_inb c 0) (agOff_3_0 c))) $$ B30
  ihave B31 := (Entails.of_eq (blk_norm c (xstgA m ρ) (xstgB m ρ) 3 1 _ (by decide) (k0_off15 c 1#32) (k0_off15_inb c 1) (agOff_3_1 c))) $$ B31
  ihave B32 := (Entails.of_eq (blk_norm c (xstgA m ρ) (xstgB m ρ) 3 2 _ (by decide) (k0_off15 c 2#32) (k0_off15_inb c 2) (agOff_3_2 c))) $$ B32
  ihave B40 := (Entails.of_eq (blk_norm c (xstgA m ρ) (xstgB m ρ) 4 0 _ (by decide) (k0_off5 c 0#32) (k0_off5_inb c 0) (agOff_4_0 c))) $$ B40
  ihave B41 := (Entails.of_eq (blk_norm c (xstgA m ρ) (xstgB m ρ) 4 1 _ (by decide) (k0_off5 c 4294967295#32) (k0_off5_inb c 1) (agOff_4_1 c))) $$ B41
  ihave B42 := (Entails.of_eq (blk_norm c (xstgA m ρ) (xstgB m ρ) 4 2 _ (by decide) (k0_off5 c 4294967294#32) (k0_off5_inb c 2) (agOff_4_2 c))) $$ B42
  ihave B50 := (Entails.of_eq (blk_norm c (xstgA m ρ) (xstgB m ρ) 5 0 _ (by decide) (k0_off9 c 0#32) (k0_off9_inb c 0) (agOff_5_0 c))) $$ B50
  ihave B51 := (Entails.of_eq (blk_norm c (xstgA m ρ) (xstgB m ρ) 5 1 _ (by decide) (k0_off9 c 4294967295#32) (k0_off9_inb c 1) (agOff_5_1 c))) $$ B51
  ihave B52 := (Entails.of_eq (blk_norm c (xstgA m ρ) (xstgB m ρ) 5 2 _ (by decide) (k0_off9 c 4294967294#32) (k0_off9_inb c 2) (agOff_5_2 c))) $$ B52
  ihave B60 := (Entails.of_eq (blk_norm c (xstgA m ρ) (xstgB m ρ) 6 0 _ (by decide) (k0_off13 c 0#32) (k0_off13_inb c 0) (agOff_6_0 c))) $$ B60
  ihave B61 := (Entails.of_eq (blk_norm c (xstgA m ρ) (xstgB m ρ) 6 1 _ (by decide) (k0_off13 c 4294967295#32) (k0_off13_inb c 1) (agOff_6_1 c))) $$ B61
  ihave B62 := (Entails.of_eq (blk_norm c (xstgA m ρ) (xstgB m ρ) 6 2 _ (by decide) (k0_off13 c 4294967294#32) (k0_off13_inb c 2) (agOff_6_2 c))) $$ B62
  ihave B70 := (Entails.of_eq (blk_norm c (xstgA m ρ) (xstgB m ρ) 7 0 _ (by decide) (k0_off17 c 0#32) (k0_off17_inb c 0) (agOff_7_0 c))) $$ B70
  ihave B71 := (Entails.of_eq (blk_norm c (xstgA m ρ) (xstgB m ρ) 7 1 _ (by decide) (k0_off17 c 4294967295#32) (k0_off17_inb c 1) (agOff_7_1 c))) $$ B71
  ihave B72 := (Entails.of_eq (blk_norm c (xstgA m ρ) (xstgB m ρ) 7 2 _ (by decide) (k0_off17 c 4294967294#32) (k0_off17_inb c 2) (agOff_7_2 c))) $$ B72
  ihave Hlast := (last_L c (xstgA m ρ) (xstgB m ρ)) $$ Hlast
  ihave Hout := (blocks_join_stg c (xstgA m ρ) (xstgB m ρ) (idx83.map κS ++ idx8.map κL) post_univ post_nodup) $$ [B00 B01 B02 B10 B11 B12 B20 B21 B22 B30 B31 B32 B40 B41 B42 B50 B51 B52 B60 B61 B62 B70 B71 B72 Hlast]
  · rw [bigSepL_append _ _ _ (by decide) (by decide)]
    isplitr [Hlast]
    · rw [bigSepL_map]
      unfold idx83
      simp only [bigSepL_cons_cons', bigSepL_singleton]
      give B00; give B01; give B02; give B10; give B11; give B12; give B20; give B21; give B22; give B30; give B31; give B32; give B40; give B41; give B42; give B50; give B51; give B52; give B60; give B61; give B62; give B70; give B71
      iexact B72
    · iexact Hlast
  imod (close_to_post (xstgA m ρ) (xstgB m ρ) K c) $$ [Hs0 Hbb I2 I3 I4 I5 A2 A3 A4 A5] with HΦ
  · give Hs0
    isplitl [Hbb]; · iexists fbb; iexact Hbb
    isplitl [I2 I3 I4 I5]
    · isplitl [I2]; · iapply (overAB_R (invF (xstgA m ρ) (xstgB m ρ) K c cc0_scratch2)) $$ I2
      isplitl [I3]; · iapply (overAB_R (invF (xstgA m ρ) (xstgB m ρ) K c cc0_scratch3)) $$ I3
      isplitl [I4]; · iapply (overAB_R (invF (xstgA m ρ) (xstgB m ρ) K c cc0_scratch4)) $$ I4
      iapply (overAB_R (invF (xstgA m ρ) (xstgB m ρ) K c cc0_scratch5)) $$ I5
    · isplitl [A2]; · iapply (overAB_R (atF (F := F) c cc0_scratch2)) $$ A2
      isplitl [A3]; · iapply (overAB_R (atF (F := F) c cc0_scratch3)) $$ A3
      isplitl [A4]; · iapply (overAB_R (atF (F := F) c cc0_scratch4)) $$ A4
      iapply (overAB_R (atF (F := F) c cc0_scratch5)) $$ A5
  imodintro
  unfold bodyPost Dat.owesAt Pipeline.owesWithin
  rw [show (dats m ρ 0 c).owed t₀.succ = 0 from rfl]
  give HΦ
  isplitl [HO]
  · iexists W
    isplitr; · ipureintro; exact fun _ _ => Or.inl trivial
    iexact HO
  isplitl [Ha]; · iapply (stg_intro c cc0_stg0_0 (xstgA m ρ c)) $$ Ha
  isplitl [Hb]; · iapply (stg_intro c cc0_stg1_0 (xstgB m ρ c)) $$ Hb
  iexact Hout

end PostGlue

/-- info: 'Cert.KernelIdeal.P.pre_glue' depends on axioms: [propext, Classical.choice, Quot.sound] -/
#guard_msgs in #print axioms pre_glue

/-- info: 'Cert.KernelIdeal.P.post_glue' depends on axioms: [propext, Classical.choice, Quot.sound] -/
#guard_msgs in #print axioms post_glue

end Cert.KernelIdeal.P

end
-- ==== Proof.Body.lean ====
import proofs.«900901_g7700000000000902_dist_matmul_silu_kshard_i_m2048_n2048_k1024_v7x_i4_bf16_1_alg».proof.Proof.BodyTables
import proofs.«900901_g7700000000000902_dist_matmul_silu_kshard_i_m2048_n2048_k1024_v7x_i4_bf16_1_alg».proof.Proof.Tables
import proofs.«900901_g7700000000000902_dist_matmul_silu_kshard_i_m2048_n2048_k1024_v7x_i4_bf16_1_alg».proof.Proof.TablesFlat
import proofs.«900901_g7700000000000902_dist_matmul_silu_kshard_i_m2048_n2048_k1024_v7x_i4_bf16_1_alg».proof.Proof.Reads
import proofs.«900901_g7700000000000902_dist_matmul_silu_kshard_i_m2048_n2048_k1024_v7x_i4_bf16_1_alg».proof.Proof.SlotLemmas
import proofs.«900901_g7700000000000902_dist_matmul_silu_kshard_i_m2048_n2048_k1024_v7x_i4_bf16_1_alg».proof.Proof.Sites
import proofs.«900901_g7700000000000902_dist_matmul_silu_kshard_i_m2048_n2048_k1024_v7x_i4_bf16_1_alg».proof.Proof.Glue

noncomputable section

namespace Cert.KernelIdeal.P

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

attribute [local sl_rounds] duties_bar duties_rsSend duties_rsRecv duties_agSend duties_agRecv
  amount_bar amount_rsSend amount_rsRecv amount_agSend amount_agRecv
  expect_bar expect_rsSend expect_rsRecv expect_agSend expect_agRecv
  payload_rsSend payload_rsRecv rest_rsSend rest_rsRecv
attribute [local sl_rounds 2000] payload_rsRecv_nxt payload_rsRecv_prv
attribute [local sl_rounds] payload_agSend_0_0 payload_agSend_0_1 payload_agSend_0_2 payload_agSend_1_0 payload_agSend_1_1 payload_agSend_1_2 payload_agSend_2_0 payload_agSend_2_1 payload_agSend_2_2 payload_agSend_3_0 payload_agSend_3_1 payload_agSend_3_2 payload_agSend_4_0 payload_agSend_4_1 payload_agSend_4_2 payload_agSend_5_0 payload_agSend_5_1 payload_agSend_5_2 payload_agSend_6_0 payload_agSend_6_1 payload_agSend_6_2 payload_agSend_7_0 payload_agSend_7_1 payload_agSend_7_2
  payload_agRecv_tgt_0_0 payload_agRecv_tgt_0_1 payload_agRecv_tgt_0_2 payload_agRecv_tgt_1_0 payload_agRecv_tgt_1_1 payload_agRecv_tgt_1_2 payload_agRecv_tgt_2_0 payload_agRecv_tgt_2_1 payload_agRecv_tgt_2_2 payload_agRecv_tgt_3_0 payload_agRecv_tgt_3_1 payload_agRecv_tgt_3_2 payload_agRecv_tgt_4_0 payload_agRecv_tgt_4_1 payload_agRecv_tgt_4_2 payload_agRecv_tgt_5_0 payload_agRecv_tgt_5_1 payload_agRecv_tgt_5_2 payload_agRecv_tgt_6_0 payload_agRecv_tgt_6_1 payload_agRecv_tgt_6_2 payload_agRecv_tgt_7_0 payload_agRecv_tgt_7_1 payload_agRecv_tgt_7_2

theorem bigSep_univ_bar_eq (fa : Dev nD → AT F) (fb : Dev nD → BT F) (c : Dev nD) :
    bigSep (Finset.univ : Finset Bool) (fun d => (ringRd fa fb).payload (barCell c) 0 d)
      = bigSep ((ringRd fa fb).duties (barCell c) 0 \ ∅) (fun d => (ringRd fa fb).payload (barCell c) 0 d) := by
  rw [Finset.sdiff_empty, duties_bar]

abbrev E0 (c : Dev nD) : CellTallies nD τ sig Unit := 0
abbrev E1 (c : Dev nD) : CellTallies nD τ sig Unit := E0 c + tallyAt (dcell (prv c) (csem cc0_scratch5 7 2 inb_S8x3_S1x1_7_2)) () ((oblkM (k0_off17 c 4294967294#32) (k0_off17_inb c 2) : Memref sig .tc .vmem S512x256 .bf16).view.amount (.dma (csem cc0_scratch5 7 2 inb_S8x3_S1x1_7_2)))
abbrev E2 (c : Dev nD) : CellTallies nD τ sig Unit := E1 c + tallyAt (dcell (nxt c) (csem cc0_scratch5 3 2 inb_S8x3_S1x1_3_2)) () ((oblkM (k0_off15 c 2#32) (k0_off15_inb c 2) : Memref sig .tc .vmem S512x256 .bf16).view.amount (.dma (csem cc0_scratch5 3 2 inb_S8x3_S1x1_3_2)))
abbrev E3 (c : Dev nD) : CellTallies nD τ sig Unit := E2 c + tallyAt (dcell (prv c) (csem cc0_scratch5 6 2 inb_S8x3_S1x1_6_2)) () ((oblkM (k0_off13 c 4294967294#32) (k0_off13_inb c 2) : Memref sig .tc .vmem S512x256 .bf16).view.amount (.dma (csem cc0_scratch5 6 2 inb_S8x3_S1x1_6_2)))
abbrev E4 (c : Dev nD) : CellTallies nD τ sig Unit := E3 c + tallyAt (dcell (nxt c) (csem cc0_scratch5 2 2 inb_S8x3_S1x1_2_2)) () ((oblkM (k0_off11 c 2#32) (k0_off11_inb c 2) : Memref sig .tc .vmem S512x256 .bf16).view.amount (.dma (csem cc0_scratch5 2 2 inb_S8x3_S1x1_2_2)))
abbrev E5 (c : Dev nD) : CellTallies nD τ sig Unit := E4 c + tallyAt (dcell (prv c) (csem cc0_scratch5 5 2 inb_S8x3_S1x1_5_2)) () ((oblkM (k0_off9 c 4294967294#32) (k0_off9_inb c 2) : Memref sig .tc .vmem S512x256 .bf16).view.amount (.dma (csem cc0_scratch5 5 2 inb_S8x3_S1x1_5_2)))
abbrev E6 (c : Dev nD) : CellTallies nD τ sig Unit := E5 c + tallyAt (dcell (nxt c) (csem cc0_scratch5 1 2 inb_S8x3_S1x1_1_2)) () ((oblkM (k0_off7 c 2#32) (k0_off7_inb c 2) : Memref sig .tc .vmem S512x256 .bf16).view.amount (.dma (csem cc0_scratch5 1 2 inb_S8x3_S1x1_1_2)))
abbrev E7 (c : Dev nD) : CellTallies nD τ sig Unit := E6 c + tallyAt (dcell (prv c) (csem cc0_scratch5 4 2 inb_S8x3_S1x1_4_2)) () ((oblkM (k0_off5 c 4294967294#32) (k0_off5_inb c 2) : Memref sig .tc .vmem S512x256 .bf16).view.amount (.dma (csem cc0_scratch5 4 2 inb_S8x3_S1x1_4_2)))
abbrev E8 (c : Dev nD) : CellTallies nD τ sig Unit := E7 c + tallyAt (dcell (nxt c) (csem cc0_scratch5 0 2 inb_S8x3_S1x1_0_2)) () ((oblkM (k0_off3 c 2#32) (k0_off3_inb c 2) : Memref sig .tc .vmem S512x256 .bf16).view.amount (.dma (csem cc0_scratch5 0 2 inb_S8x3_S1x1_0_2)))
abbrev E9 (c : Dev nD) : CellTallies nD τ sig Unit := E8 c + tallyAt (dcell (prv c) (csem cc0_scratch5 7 1 inb_S8x3_S1x1_7_1)) () ((oblkM (k0_off17 c 4294967295#32) (k0_off17_inb c 1) : Memref sig .tc .vmem S512x256 .bf16).view.amount (.dma (csem cc0_scratch5 7 1 inb_S8x3_S1x1_7_1)))
abbrev E10 (c : Dev nD) : CellTallies nD τ sig Unit := E9 c + tallyAt (dcell (nxt c) (csem cc0_scratch5 3 1 inb_S8x3_S1x1_3_1)) () ((oblkM (k0_off15 c 1#32) (k0_off15_inb c 1) : Memref sig .tc .vmem S512x256 .bf16).view.amount (.dma (csem cc0_scratch5 3 1 inb_S8x3_S1x1_3_1)))
abbrev E11 (c : Dev nD) : CellTallies nD τ sig Unit := E10 c + tallyAt (dcell (prv c) (csem cc0_scratch5 6 1 inb_S8x3_S1x1_6_1)) () ((oblkM (k0_off13 c 4294967295#32) (k0_off13_inb c 1) : Memref sig .tc .vmem S512x256 .bf16).view.amount (.dma (csem cc0_scratch5 6 1 inb_S8x3_S1x1_6_1)))
abbrev E12 (c : Dev nD) : CellTallies nD τ sig Unit := E11 c + tallyAt (dcell (nxt c) (csem cc0_scratch5 2 1 inb_S8x3_S1x1_2_1)) () ((oblkM (k0_off11 c 1#32) (k0_off11_inb c 1) : Memref sig .tc .vmem S512x256 .bf16).view.amount (.dma (csem cc0_scratch5 2 1 inb_S8x3_S1x1_2_1)))
abbrev E13 (c : Dev nD) : CellTallies nD τ sig Unit := E12 c + tallyAt (dcell (prv c) (csem cc0_scratch5 5 1 inb_S8x3_S1x1_5_1)) () ((oblkM (k0_off9 c 4294967295#32) (k0_off9_inb c 1) : Memref sig .tc .vmem S512x256 .bf16).view.amount (.dma (csem cc0_scratch5 5 1 inb_S8x3_S1x1_5_1)))
abbrev E14 (c : Dev nD) : CellTallies nD τ sig Unit := E13 c + tallyAt (dcell (nxt c) (csem cc0_scratch5 1 1 inb_S8x3_S1x1_1_1)) () ((oblkM (k0_off7 c 1#32) (k0_off7_inb c 1) : Memref sig .tc .vmem S512x256 .bf16).view.amount (.dma (csem cc0_scratch5 1 1 inb_S8x3_S1x1_1_1)))
abbrev E15 (c : Dev nD) : CellTallies nD τ sig Unit := E14 c + tallyAt (dcell (prv c) (csem cc0_scratch5 4 1 inb_S8x3_S1x1_4_1)) () ((oblkM (k0_off5 c 4294967295#32) (k0_off5_inb c 1) : Memref sig .tc .vmem S512x256 .bf16).view.amount (.dma (csem cc0_scratch5 4 1 inb_S8x3_S1x1_4_1)))
abbrev E16 (c : Dev nD) : CellTallies nD τ sig Unit := E15 c + tallyAt (dcell (nxt c) (csem cc0_scratch5 0 1 inb_S8x3_S1x1_0_1)) () ((oblkM (k0_off3 c 1#32) (k0_off3_inb c 1) : Memref sig .tc .vmem S512x256 .bf16).view.amount (.dma (csem cc0_scratch5 0 1 inb_S8x3_S1x1_0_1)))
abbrev E17 (c : Dev nD) : CellTallies nD τ sig Unit := E16 c + tallyAt (dcell (prv c) (csem cc0_scratch5 7 0 inb_S8x3_S1x1_7_0)) () ((oblkM (k0_off17 c 0#32) (k0_off17_inb c 0) : Memref sig .tc .vmem S512x256 .bf16).view.amount (.dma (csem cc0_scratch5 7 0 inb_S8x3_S1x1_7_0)))
abbrev E18 (c : Dev nD) : CellTallies nD τ sig Unit := E17 c + tallyAt (dcell (nxt c) (csem cc0_scratch5 3 0 inb_S8x3_S1x1_3_0)) () ((oblkM (k0_off15 c 0#32) (k0_off15_inb c 0) : Memref sig .tc .vmem S512x256 .bf16).view.amount (.dma (csem cc0_scratch5 3 0 inb_S8x3_S1x1_3_0)))
abbrev E19 (c : Dev nD) : CellTallies nD τ sig Unit := E18 c + tallyAt (dcell (prv c) (csem cc0_scratch5 6 0 inb_S8x3_S1x1_6_0)) () ((oblkM (k0_off13 c 0#32) (k0_off13_inb c 0) : Memref sig .tc .vmem S512x256 .bf16).view.amount (.dma (csem cc0_scratch5 6 0 inb_S8x3_S1x1_6_0)))
abbrev E20 (c : Dev nD) : CellTallies nD τ sig Unit := E19 c + tallyAt (dcell (nxt c) (csem cc0_scratch5 2 0 inb_S8x3_S1x1_2_0)) () ((oblkM (k0_off11 c 0#32) (k0_off11_inb c 0) : Memref sig .tc .vmem S512x256 .bf16).view.amount (.dma (csem cc0_scratch5 2 0 inb_S8x3_S1x1_2_0)))
abbrev E21 (c : Dev nD) : CellTallies nD τ sig Unit := E20 c + tallyAt (dcell (prv c) (csem cc0_scratch5 5 0 inb_S8x3_S1x1_5_0)) () ((oblkM (k0_off9 c 0#32) (k0_off9_inb c 0) : Memref sig .tc .vmem S512x256 .bf16).view.amount (.dma (csem cc0_scratch5 5 0 inb_S8x3_S1x1_5_0)))
abbrev E22 (c : Dev nD) : CellTallies nD τ sig Unit := E21 c + tallyAt (dcell (nxt c) (csem cc0_scratch5 1 0 inb_S8x3_S1x1_1_0)) () ((oblkM (k0_off7 c 0#32) (k0_off7_inb c 0) : Memref sig .tc .vmem S512x256 .bf16).view.amount (.dma (csem cc0_scratch5 1 0 inb_S8x3_S1x1_1_0)))
abbrev E23 (c : Dev nD) : CellTallies nD τ sig Unit := E22 c + tallyAt (dcell (prv c) (csem cc0_scratch5 4 0 inb_S8x3_S1x1_4_0)) () ((oblkM (k0_off5 c 0#32) (k0_off5_inb c 0) : Memref sig .tc .vmem S512x256 .bf16).view.amount (.dma (csem cc0_scratch5 4 0 inb_S8x3_S1x1_4_0)))
abbrev E24 (c : Dev nD) : CellTallies nD τ sig Unit := E23 c + tallyAt (dcell (nxt c) (csem cc0_scratch5 0 0 inb_S8x3_S1x1_0_0)) () ((oblkM (k0_off3 c 0#32) (k0_off3_inb c 0) : Memref sig .tc .vmem S512x256 .bf16).view.amount (.dma (csem cc0_scratch5 0 0 inb_S8x3_S1x1_0_0)))
abbrev E25 (c : Dev nD) : CellTallies nD τ sig Unit := E24 c + tallyAt (dcell (prv c) (csem cc0_scratch3 7 2 inb_S8x3_S1x1_7_2)) () 8192
abbrev E26 (c : Dev nD) : CellTallies nD τ sig Unit := E25 c + tallyAt (dcell (nxt c) (csem cc0_scratch3 3 2 inb_S8x3_S1x1_3_2)) () 8192
abbrev E27 (c : Dev nD) : CellTallies nD τ sig Unit := E26 c + tallyAt (dcell (prv c) (csem cc0_scratch3 6 2 inb_S8x3_S1x1_6_2)) () 8192
abbrev E28 (c : Dev nD) : CellTallies nD τ sig Unit := E27 c + tallyAt (dcell (nxt c) (csem cc0_scratch3 2 2 inb_S8x3_S1x1_2_2)) () 8192
abbrev E29 (c : Dev nD) : CellTallies nD τ sig Unit := E28 c + tallyAt (dcell (prv c) (csem cc0_scratch3 5 2 inb_S8x3_S1x1_5_2)) () 8192
abbrev E30 (c : Dev nD) : CellTallies nD τ sig Unit := E29 c + tallyAt (dcell (nxt c) (csem cc0_scratch3 1 2 inb_S8x3_S1x1_1_2)) () 8192
abbrev E31 (c : Dev nD) : CellTallies nD τ sig Unit := E30 c + tallyAt (dcell (prv c) (csem cc0_scratch3 4 2 inb_S8x3_S1x1_4_2)) () 8192
abbrev E32 (c : Dev nD) : CellTallies nD τ sig Unit := E31 c + tallyAt (dcell (nxt c) (csem cc0_scratch3 0 2 inb_S8x3_S1x1_0_2)) () 8192
abbrev E33 (c : Dev nD) : CellTallies nD τ sig Unit := E32 c + tallyAt (dcell (prv c) (csem cc0_scratch3 7 1 inb_S8x3_S1x1_7_1)) () 8192
abbrev E34 (c : Dev nD) : CellTallies nD τ sig Unit := E33 c + tallyAt (dcell (nxt c) (csem cc0_scratch3 3 1 inb_S8x3_S1x1_3_1)) () 8192
abbrev E35 (c : Dev nD) : CellTallies nD τ sig Unit := E34 c + tallyAt (dcell (prv c) (csem cc0_scratch3 6 1 inb_S8x3_S1x1_6_1)) () 8192
abbrev E36 (c : Dev nD) : CellTallies nD τ sig Unit := E35 c + tallyAt (dcell (nxt c) (csem cc0_scratch3 2 1 inb_S8x3_S1x1_2_1)) () 8192
abbrev E37 (c : Dev nD) : CellTallies nD τ sig Unit := E36 c + tallyAt (dcell (prv c) (csem cc0_scratch3 5 1 inb_S8x3_S1x1_5_1)) () 8192
abbrev E38 (c : Dev nD) : CellTallies nD τ sig Unit := E37 c + tallyAt (dcell (nxt c) (csem cc0_scratch3 1 1 inb_S8x3_S1x1_1_1)) () 8192
abbrev E39 (c : Dev nD) : CellTallies nD τ sig Unit := E38 c + tallyAt (dcell (prv c) (csem cc0_scratch3 4 1 inb_S8x3_S1x1_4_1)) () 8192
abbrev E40 (c : Dev nD) : CellTallies nD τ sig Unit := E39 c + tallyAt (dcell (nxt c) (csem cc0_scratch3 0 1 inb_S8x3_S1x1_0_1)) () 8192
abbrev E41 (c : Dev nD) : CellTallies nD τ sig Unit := E40 c + tallyAt (dcell (prv c) (csem cc0_scratch3 7 0 inb_S8x3_S1x1_7_0)) () 8192
abbrev E42 (c : Dev nD) : CellTallies nD τ sig Unit := E41 c + tallyAt (dcell (nxt c) (csem cc0_scratch3 3 0 inb_S8x3_S1x1_3_0)) () 8192
abbrev E43 (c : Dev nD) : CellTallies nD τ sig Unit := E42 c + tallyAt (dcell (prv c) (csem cc0_scratch3 6 0 inb_S8x3_S1x1_6_0)) () 8192
abbrev E44 (c : Dev nD) : CellTallies nD τ sig Unit := E43 c + tallyAt (dcell (nxt c) (csem cc0_scratch3 2 0 inb_S8x3_S1x1_2_0)) () 8192
abbrev E45 (c : Dev nD) : CellTallies nD τ sig Unit := E44 c + tallyAt (dcell (prv c) (csem cc0_scratch3 5 0 inb_S8x3_S1x1_5_0)) () 8192
abbrev E46 (c : Dev nD) : CellTallies nD τ sig Unit := E45 c + tallyAt (dcell (nxt c) (csem cc0_scratch3 1 0 inb_S8x3_S1x1_1_0)) () 8192
abbrev E47 (c : Dev nD) : CellTallies nD τ sig Unit := E46 c + tallyAt (dcell (prv c) (csem cc0_scratch3 4 0 inb_S8x3_S1x1_4_0)) () 8192
abbrev E48 (c : Dev nD) : CellTallies nD τ sig Unit := E47 c + tallyAt (dcell (nxt c) (csem cc0_scratch3 0 0 inb_S8x3_S1x1_0_0)) () 8192
theorem owedRem_E0 (c : Dev nD) : owedRem c 0 = E0 c := rfl
theorem owedRem_E1 (c : Dev nD) : owedRem c 1 = E1 c := rfl
theorem owedRem_E2 (c : Dev nD) : owedRem c 2 = E2 c := rfl
theorem owedRem_E3 (c : Dev nD) : owedRem c 3 = E3 c := rfl
theorem owedRem_E4 (c : Dev nD) : owedRem c 4 = E4 c := rfl
theorem owedRem_E5 (c : Dev nD) : owedRem c 5 = E5 c := rfl
theorem owedRem_E6 (c : Dev nD) : owedRem c 6 = E6 c := rfl
theorem owedRem_E7 (c : Dev nD) : owedRem c 7 = E7 c := rfl
theorem owedRem_E8 (c : Dev nD) : owedRem c 8 = E8 c := rfl
theorem owedRem_E9 (c : Dev nD) : owedRem c 9 = E9 c := rfl
theorem owedRem_E10 (c : Dev nD) : owedRem c 10 = E10 c := rfl
theorem owedRem_E11 (c : Dev nD) : owedRem c 11 = E11 c := rfl
theorem owedRem_E12 (c : Dev nD) : owedRem c 12 = E12 c := rfl
theorem owedRem_E13 (c : Dev nD) : owedRem c 13 = E13 c := rfl
theorem owedRem_E14 (c : Dev nD) : owedRem c 14 = E14 c := rfl
theorem owedRem_E15 (c : Dev nD) : owedRem c 15 = E15 c := rfl
theorem owedRem_E16 (c : Dev nD) : owedRem c 16 = E16 c := rfl
theorem owedRem_E17 (c : Dev nD) : owedRem c 17 = E17 c := rfl
theorem owedRem_E18 (c : Dev nD) : owedRem c 18 = E18 c := rfl
theorem owedRem_E19 (c : Dev nD) : owedRem c 19 = E19 c := rfl
theorem owedRem_E20 (c : Dev nD) : owedRem c 20 = E20 c := rfl
theorem owedRem_E21 (c : Dev nD) : owedRem c 21 = E21 c := rfl
theorem owedRem_E22 (c : Dev nD) : owedRem c 22 = E22 c := rfl
theorem owedRem_E23 (c : Dev nD) : owedRem c 23 = E23 c := rfl
theorem owedRem_E24 (c : Dev nD) : owedRem c 24 = E24 c := rfl
theorem owedRem_E25 (c : Dev nD) : owedRem c 25 = E25 c := rfl
theorem owedRem_E26 (c : Dev nD) : owedRem c 26 = E26 c := rfl
theorem owedRem_E27 (c : Dev nD) : owedRem c 27 = E27 c := rfl
theorem owedRem_E28 (c : Dev nD) : owedRem c 28 = E28 c := rfl
theorem owedRem_E29 (c : Dev nD) : owedRem c 29 = E29 c := rfl
theorem owedRem_E30 (c : Dev nD) : owedRem c 30 = E30 c := rfl
theorem owedRem_E31 (c : Dev nD) : owedRem c 31 = E31 c := rfl
theorem owedRem_E32 (c : Dev nD) : owedRem c 32 = E32 c := rfl
theorem owedRem_E33 (c : Dev nD) : owedRem c 33 = E33 c := rfl
theorem owedRem_E34 (c : Dev nD) : owedRem c 34 = E34 c := rfl
theorem owedRem_E35 (c : Dev nD) : owedRem c 35 = E35 c := rfl
theorem owedRem_E36 (c : Dev nD) : owedRem c 36 = E36 c := rfl
theorem owedRem_E37 (c : Dev nD) : owedRem c 37 = E37 c := rfl
theorem owedRem_E38 (c : Dev nD) : owedRem c 38 = E38 c := rfl
theorem owedRem_E39 (c : Dev nD) : owedRem c 39 = E39 c := rfl
theorem owedRem_E40 (c : Dev nD) : owedRem c 40 = E40 c := rfl
theorem owedRem_E41 (c : Dev nD) : owedRem c 41 = E41 c := rfl
theorem owedRem_E42 (c : Dev nD) : owedRem c 42 = E42 c := rfl
theorem owedRem_E43 (c : Dev nD) : owedRem c 43 = E43 c := rfl
theorem owedRem_E44 (c : Dev nD) : owedRem c 44 = E44 c := rfl
theorem owedRem_E45 (c : Dev nD) : owedRem c 45 = E45 c := rfl
theorem owedRem_E46 (c : Dev nD) : owedRem c 46 = E46 c := rfl
theorem owedRem_E47 (c : Dev nD) : owedRem c 47 = E47 c := rfl
theorem owedRem_E48 (c : Dev nD) : owedRem c 48 = E48 c := rfl

/-- A conjunct set aside: the same assertion under a name the symbolic run does not read. -/
def Aside (P : sProp 𝕄) : sProp 𝕄 := P
omit [FloatOps F] in
theorem aside_intro (P : sProp 𝕄) : P ⊢ Aside P := Entails.rfl
omit [FloatOps F] in
theorem aside_elim (P : sProp 𝕄) : Aside P ⊢ P := Entails.rfl
attribute [local irreducible] Aside
attribute [local irreducible] chunk nxt prv k0_off1 k0_off2 k0_off3 k0_off4 k0_off5 k0_off6 k0_off7 k0_off8 k0_off9 k0_off10 k0_off11 k0_off12 k0_off13 k0_off14 k0_off15 k0_off16 k0_off17
attribute [local irreducible] SemArray.sem SemArray.squeeze SemArray.slice SemArray.consecutive

set_option maxHeartbeats 2000000000 in
/-- One device's body from its resources piece by piece: the handshake, the 24 reduce-scatter copies, the 24 all-gather
    copies and every wait, each remote copy issued from a block holding the schedule's named contents; what is left at
    the end is handed to `hpost`. -/
theorem core_body (fa : Dev nD → AT F) (fb : Dev nD → BT F) (K : GSem nD τ sig → ℕ) (c : Dev nD)
    (fbb : BbT F) (fr : RT F) (fo : OT F) (W : Waits sig Unit) (Q : PUnit → sProp 𝕄) (Post : sProp 𝕄)
    (hpost : ∀ (fbb' : BbT F) (W' : Waits sig Unit), corePost fa fb K c fbb' W' ⊢ (|={Set.univ}=> Post : sProp 𝕄)) :
    iprop(corePre fa fb K c fbb fr fo W ∗ (Post -∗ Q ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3 cc0_scratch4 cc0_scratch5) Q := by
  unfold corePre
  iintro ⟨⟨Ha, Hb, Hbb, HS00, HS01, HS02, HS03, HS10, HS11, HS12, HS13, HS20, HS21, HS22, HS23, HS30, HS31, HS32, HS33, HS40, HS41, HS42, HS43, HS50, HS51, HS52, HS53, HS60, HS61, HS62, HS63, HS70, HS71, HS72, HS73, HOo0, HOo1, HOo2, HOo3, HOo4, HOo5, HOo6, HOo7, HOh00, HOh01, HOh02, HOh10, HOh11, HOh12, HOh20, HOh21, HOh22, HOh30, HOh31, HOh32, HOh40, HOh41, HOh42, HOh50, HOh51, HOh52, HOh60, HOh61, HOh62, HOh70, HOh71, HOh72, #HIb, #HIbn, #HIbp, #HI200, #HI201, #HI202, #HI210, #HI211, #HI212, #HI220, #HI221, #HI222, #HI230, #HI231, #HI232, #HI240, #HI241, #HI242, #HI250, #HI251, #HI252, #HI260, #HI261, #HI262, #HI270, #HI271, #HI272, #HI300, #HI301, #HI302, #HI310, #HI311, #HI312, #HI320, #HI321, #HI322, #HI330, #HI331, #HI332, #HI340, #HI341, #HI342, #HI350, #HI351, #HI352, #HI360, #HI361, #HI362, #HI370, #HI371, #HI372, #HI400, #HI401, #HI402, #HI410, #HI411, #HI412, #HI420, #HI421, #HI422, #HI430, #HI431, #HI432, #HI440, #HI441, #HI442, #HI450, #HI451, #HI452, #HI460, #HI461, #HI462, #HI470, #HI471, #HI472, #HI500, #HI501, #HI502, #HI510, #HI511, #HI512, #HI520, #HI521, #HI522, #HI530, #HI531, #HI532, #HI540, #HI541, #HI542, #HI550, #HI551, #HI552, #HI560, #HI561, #HI562, #HI570, #HI571, #HI572, #HIt300, #HIt301, #HIt302, #HIt310, #HIt311, #HIt312, #HIt320, #HIt321, #HIt322, #HIt330, #HIt331, #HIt332, #HIt340, #HIt341, #HIt342, #HIt350, #HIt351, #HIt352, #HIt360, #HIt361, #HIt362, #HIt370, #HIt371, #HIt372, #HIt500, #HIt501, #HIt502, #HIt510, #HIt511, #HIt512, #HIt520, #HIt521, #HIt522, #HIt530, #HIt531, #HIt532, #HIt540, #HIt541, #HIt542, #HIt550, #HIt551, #HIt552, #HIt560, #HIt561, #HIt562, #HIt570, #HIt571, #HIt572, Hatb, Hat200, Hat201, Hat202, Hat210, Hat211, Hat212, Hat220, Hat221, Hat222, Hat230, Hat231, Hat232, Hat240, Hat241, Hat242, Hat250, Hat251, Hat252, Hat260, Hat261, Hat262, Hat270, Hat271, Hat272, Hat300, Hat301, Hat302, Hat310, Hat311, Hat312, Hat320, Hat321, Hat322, Hat330, Hat331, Hat332, Hat340, Hat341, Hat342, Hat350, Hat351, Hat352, Hat360, Hat361, Hat362, Hat370, Hat371, Hat372, Hat400, Hat401, Hat402, Hat410, Hat411, Hat412, Hat420, Hat421, Hat422, Hat430, Hat431, Hat432, Hat440, Hat441, Hat442, Hat450, Hat451, Hat452, Hat460, Hat461, Hat462, Hat470, Hat471, Hat472, Hat500, Hat501, Hat502, Hat510, Hat511, Hat512, Hat520, Hat521, Hat522, Hat530, Hat531, Hat532, Hat540, Hat541, Hat542, Hat550, Hat551, Hat552, Hat560, Hat561, Hat562, Hat570, Hat571, Hat572, #Hrbn, #Hrbp, #Hr200, #Hr201, #Hr202, #Hr210, #Hr211, #Hr212, #Hr220, #Hr221, #Hr222, #Hr230, #Hr231, #Hr232, #Hr240, #Hr241, #Hr242, #Hr250, #Hr251, #Hr252, #Hr260, #Hr261, #Hr262, #Hr270, #Hr271, #Hr272, #Hr300, #Hr301, #Hr302, #Hr310, #Hr311, #Hr312, #Hr320, #Hr321, #Hr322, #Hr330, #Hr331, #Hr332, #Hr340, #Hr341, #Hr342, #Hr350, #Hr351, #Hr352, #Hr360, #Hr361, #Hr362, #Hr370, #Hr371, #Hr372, #Hr400, #Hr401, #Hr402, #Hr410, #Hr411, #Hr412, #Hr420, #Hr421, #Hr422, #Hr430, #Hr431, #Hr432, #Hr440, #Hr441, #Hr442, #Hr450, #Hr451, #Hr452, #Hr460, #Hr461, #Hr462, #Hr470, #Hr471, #Hr472, #Hr500, #Hr501, #Hr502, #Hr510, #Hr511, #Hr512, #Hr520, #Hr521, #Hr522, #Hr530, #Hr531, #Hr532, #Hr540, #Hr541, #Hr542, #Hr550, #Hr551, #Hr552, #Hr560, #Hr561, #Hr562, #Hr570, #Hr571, #Hr572, #Hrt300, #Hrt301, #Hrt302, #Hrt310, #Hrt311, #Hrt312, #Hrt320, #Hrt321, #Hrt322, #Hrt330, #Hrt331, #Hrt332, #Hrt340, #Hrt341, #Hrt342, #Hrt350, #Hrt351, #Hrt352, #Hrt360, #Hrt361, #Hrt362, #Hrt370, #Hrt371, #Hrt372, #Hrt500, #Hrt501, #Hrt502, #Hrt510, #Hrt511, #Hrt512, #Hrt520, #Hrt521, #Hrt522, #Hrt530, #Hrt531, #Hrt532, #Hrt540, #Hrt541, #Hrt542, #Hrt550, #Hrt551, #Hrt552, #Hrt560, #Hrt561, #Hrt562, #Hrt570, #Hrt571, #Hrt572, Htbp, Htbn, Htt300, Htt301, Htt302, Htt310, Htt311, Htt312, Htt320, Htt321, Htt322, Htt330, Htt331, Htt332, Htt340, Htt341, Htt342, Htt350, Htt351, Htt352, Htt360, Htt361, Htt362, Htt370, Htt371, Htt372, Htt500, Htt501, Htt502, Htt510, Htt511, Htt512, Htt520, Htt521, Htt522, Htt530, Htt531, Htt532, Htt540, Htt541, Htt542, Htt550, Htt551, Htt552, Htt560, Htt561, Htt562, Htt570, Htt571, Htt572, Hts200, Hts201, Hts202, Hts210, Hts211, Hts212, Hts220, Hts221, Hts222, Hts230, Hts231, Hts232, Hts240, Hts241, Hts242, Hts250, Hts251, Hts252, Hts260, Hts261, Hts262, Hts270, Hts271, Hts272, Hts400, Hts401, Hts402, Hts410, Hts411, Hts412, Hts420, Hts421, Hts422, Hts430, Hts431, Hts432, Hts440, Hts441, Hts442, Hts450, Hts451, Hts452, Hts460, Hts461, Hts462, Hts470, Hts471, Hts472, Hcb, Hc300, Hc301, Hc302, Hc310, Hc311, Hc312, Hc320, Hc321, Hc322, Hc330, Hc331, Hc332, Hc340, Hc341, Hc342, Hc350, Hc351, Hc352, Hc360, Hc361, Hc362, Hc370, Hc371, Hc372, Hc500, Hc501, Hc502, Hc510, Hc511, Hc512, Hc520, Hc521, Hc522, Hc530, Hc531, Hc532, Hc540, Hc541, Hc542, Hc550, Hc551, Hc552, Hc560, Hc561, Hc562, Hc570, Hc571, Hc572, Hmwb, Hmw300, Hmw301, Hmw302, Hmw310, Hmw311, Hmw312, Hmw320, Hmw321, Hmw322, Hmw330, Hmw331, Hmw332, Hmw340, Hmw341, Hmw342, Hmw350, Hmw351, Hmw352, Hmw360, Hmw361, Hmw362, Hmw370, Hmw371, Hmw372, Hmw500, Hmw501, Hmw502, Hmw510, Hmw511, Hmw512, Hmw520, Hmw521, Hmw522, Hmw530, Hmw531, Hmw532, Hmw540, Hmw541, Hmw542, Hmw550, Hmw551, Hmw552, Hmw560, Hmw561, Hmw562, Hmw570, Hmw571, Hmw572, HO⟩, Hk⟩
  ihave Hts200 := (aside_intro _) $$ Hts200
  ihave Hts201 := (aside_intro _) $$ Hts201
  ihave Hts202 := (aside_intro _) $$ Hts202
  ihave Hts210 := (aside_intro _) $$ Hts210
  ihave Hts211 := (aside_intro _) $$ Hts211
  ihave Hts212 := (aside_intro _) $$ Hts212
  ihave Hts220 := (aside_intro _) $$ Hts220
  ihave Hts221 := (aside_intro _) $$ Hts221
  ihave Hts222 := (aside_intro _) $$ Hts222
  ihave Hts230 := (aside_intro _) $$ Hts230
  ihave Hts231 := (aside_intro _) $$ Hts231
  ihave Hts232 := (aside_intro _) $$ Hts232
  ihave Hts240 := (aside_intro _) $$ Hts240
  ihave Hts241 := (aside_intro _) $$ Hts241
  ihave Hts242 := (aside_intro _) $$ Hts242
  ihave Hts250 := (aside_intro _) $$ Hts250
  ihave Hts251 := (aside_intro _) $$ Hts251
  ihave Hts252 := (aside_intro _) $$ Hts252
  ihave Hts260 := (aside_intro _) $$ Hts260
  ihave Hts261 := (aside_intro _) $$ Hts261
  ihave Hts262 := (aside_intro _) $$ Hts262
  ihave Hts270 := (aside_intro _) $$ Hts270
  ihave Hts271 := (aside_intro _) $$ Hts271
  ihave Hts272 := (aside_intro _) $$ Hts272
  ihave Hts400 := (aside_intro _) $$ Hts400
  ihave Hts401 := (aside_intro _) $$ Hts401
  ihave Hts402 := (aside_intro _) $$ Hts402
  ihave Hts410 := (aside_intro _) $$ Hts410
  ihave Hts411 := (aside_intro _) $$ Hts411
  ihave Hts412 := (aside_intro _) $$ Hts412
  ihave Hts420 := (aside_intro _) $$ Hts420
  ihave Hts421 := (aside_intro _) $$ Hts421
  ihave Hts422 := (aside_intro _) $$ Hts422
  ihave Hts430 := (aside_intro _) $$ Hts430
  ihave Hts431 := (aside_intro _) $$ Hts431
  ihave Hts432 := (aside_intro _) $$ Hts432
  ihave Hts440 := (aside_intro _) $$ Hts440
  ihave Hts441 := (aside_intro _) $$ Hts441
  ihave Hts442 := (aside_intro _) $$ Hts442
  ihave Hts450 := (aside_intro _) $$ Hts450
  ihave Hts451 := (aside_intro _) $$ Hts451
  ihave Hts452 := (aside_intro _) $$ Hts452
  ihave Hts460 := (aside_intro _) $$ Hts460
  ihave Hts461 := (aside_intro _) $$ Hts461
  ihave Hts462 := (aside_intro _) $$ Hts462
  ihave Hts470 := (aside_intro _) $$ Hts470
  ihave Hts471 := (aside_intro _) $$ Hts471
  ihave Hts472 := (aside_intro _) $$ Hts472
  ihave Hpay1 := (Entails.of_eq (payload_bar_prv_true_flat fa fb c).symm) $$ [HS01 HOh00 HS02 HOh01 HS03 HOh02 HS11 HOh10 HS12 HOh11 HS13 HOh12 HS21 HOh20 HS22 HOh21 HS23 HOh22 HS31 HOh30 HS32 HOh31 HS33 HOh32]
  · isplitl [HS01]; · iexists _; iexact HS01
    isplitl [HOh00]; · iexists _; iexact HOh00
    isplitr; · iexact Hr300
    isplitr; · iexact Hr500
    isplitl [HS02]; · iexists _; iexact HS02
    isplitl [HOh01]; · iexists _; iexact HOh01
    isplitr; · iexact Hr301
    isplitr; · iexact Hr501
    isplitl [HS03]; · iexists _; iexact HS03
    isplitl [HOh02]; · iexists _; iexact HOh02
    isplitr; · iexact Hr302
    isplitr; · iexact Hr502
    isplitl [HS11]; · iexists _; iexact HS11
    isplitl [HOh10]; · iexists _; iexact HOh10
    isplitr; · iexact Hr310
    isplitr; · iexact Hr510
    isplitl [HS12]; · iexists _; iexact HS12
    isplitl [HOh11]; · iexists _; iexact HOh11
    isplitr; · iexact Hr311
    isplitr; · iexact Hr511
    isplitl [HS13]; · iexists _; iexact HS13
    isplitl [HOh12]; · iexists _; iexact HOh12
    isplitr; · iexact Hr312
    isplitr; · iexact Hr512
    isplitl [HS21]; · iexists _; iexact HS21
    isplitl [HOh20]; · iexists _; iexact HOh20
    isplitr; · iexact Hr320
    isplitr; · iexact Hr520
    isplitl [HS22]; · iexists _; iexact HS22
    isplitl [HOh21]; · iexists _; iexact HOh21
    isplitr; · iexact Hr321
    isplitr; · iexact Hr521
    isplitl [HS23]; · iexists _; iexact HS23
    isplitl [HOh22]; · iexists _; iexact HOh22
    isplitr; · iexact Hr322
    isplitr; · iexact Hr522
    isplitl [HS31]; · iexists _; iexact HS31
    isplitl [HOh30]; · iexists _; iexact HOh30
    isplitr; · iexact Hr330
    isplitr; · iexact Hr530
    isplitl [HS32]; · iexists _; iexact HS32
    isplitl [HOh31]; · iexists _; iexact HOh31
    isplitr; · iexact Hr331
    isplitr; · iexact Hr531
    isplitl [HS33]; · iexists _; iexact HS33
    isplitl [HOh32]; · iexists _; iexact HOh32
    isplitr; · iexact Hr332
    iexact Hr532
  ihave Hpay2 := (Entails.of_eq (payload_bar_nxt_false_flat fa fb c).symm) $$ [HS41 HOh40 HS42 HOh41 HS43 HOh42 HS51 HOh50 HS52 HOh51 HS53 HOh52 HS61 HOh60 HS62 HOh61 HS63 HOh62 HS71 HOh70 HS72 HOh71 HS73 HOh72]
  · isplitl [HS41]; · iexists _; iexact HS41
    isplitl [HOh40]; · iexists _; iexact HOh40
    isplitr; · iexact Hr340
    isplitr; · iexact Hr540
    isplitl [HS42]; · iexists _; iexact HS42
    isplitl [HOh41]; · iexists _; iexact HOh41
    isplitr; · iexact Hr341
    isplitr; · iexact Hr541
    isplitl [HS43]; · iexists _; iexact HS43
    isplitl [HOh42]; · iexists _; iexact HOh42
    isplitr; · iexact Hr342
    isplitr; · iexact Hr542
    isplitl [HS51]; · iexists _; iexact HS51
    isplitl [HOh50]; · iexists _; iexact HOh50
    isplitr; · iexact Hr350
    isplitr; · iexact Hr550
    isplitl [HS52]; · iexists _; iexact HS52
    isplitl [HOh51]; · iexists _; iexact HOh51
    isplitr; · iexact Hr351
    isplitr; · iexact Hr551
    isplitl [HS53]; · iexists _; iexact HS53
    isplitl [HOh52]; · iexists _; iexact HOh52
    isplitr; · iexact Hr352
    isplitr; · iexact Hr552
    isplitl [HS61]; · iexists _; iexact HS61
    isplitl [HOh60]; · iexists _; iexact HOh60
    isplitr; · iexact Hr360
    isplitr; · iexact Hr560
    isplitl [HS62]; · iexists _; iexact HS62
    isplitl [HOh61]; · iexists _; iexact HOh61
    isplitr; · iexact Hr361
    isplitr; · iexact Hr561
    isplitl [HS63]; · iexists _; iexact HS63
    isplitl [HOh62]; · iexists _; iexact HOh62
    isplitr; · iexact Hr362
    isplitr; · iexact Hr562
    isplitl [HS71]; · iexists _; iexact HS71
    isplitl [HOh70]; · iexists _; iexact HOh70
    isplitr; · iexact Hr370
    isplitr; · iexact Hr570
    isplitl [HS72]; · iexists _; iexact HS72
    isplitl [HOh71]; · iexists _; iexact HOh71
    isplitr; · iexact Hr371
    isplitr; · iexact Hr571
    isplitl [HS73]; · iexists _; iexact HS73
    isplitl [HOh72]; · iexists _; iexact HOh72
    isplitr; · iexact Hr372
    iexact Hr572
  ihave HO := (Entails.of_eq (congrArg (fun O => owes (c : Thread nD τ) (O + tallyAt (barCell (nxt c)) () 1 + tallyAt (barCell (prv c)) () 1) W) (show owedRem c 48 = (((((((((((((((((((((((((((((((((((((((((((((((((0 : CellTallies nD τ sig Unit) + tallyAt (dcell (prv c) (csem cc0_scratch5 7 2 inb_S8x3_S1x1_7_2)) () ((oblkM (k0_off17 c 4294967294#32) (k0_off17_inb c 2) : Memref sig .tc .vmem S512x256 .bf16).view.amount (.dma (csem cc0_scratch5 7 2 inb_S8x3_S1x1_7_2)))) + tallyAt (dcell (nxt c) (csem cc0_scratch5 3 2 inb_S8x3_S1x1_3_2)) () ((oblkM (k0_off15 c 2#32) (k0_off15_inb c 2) : Memref sig .tc .vmem S512x256 .bf16).view.amount (.dma (csem cc0_scratch5 3 2 inb_S8x3_S1x1_3_2)))) + tallyAt (dcell (prv c) (csem cc0_scratch5 6 2 inb_S8x3_S1x1_6_2)) () ((oblkM (k0_off13 c 4294967294#32) (k0_off13_inb c 2) : Memref sig .tc .vmem S512x256 .bf16).view.amount (.dma (csem cc0_scratch5 6 2 inb_S8x3_S1x1_6_2)))) + tallyAt (dcell (nxt c) (csem cc0_scratch5 2 2 inb_S8x3_S1x1_2_2)) () ((oblkM (k0_off11 c 2#32) (k0_off11_inb c 2) : Memref sig .tc .vmem S512x256 .bf16).view.amount (.dma (csem cc0_scratch5 2 2 inb_S8x3_S1x1_2_2)))) + tallyAt (dcell (prv c) (csem cc0_scratch5 5 2 inb_S8x3_S1x1_5_2)) () ((oblkM (k0_off9 c 4294967294#32) (k0_off9_inb c 2) : Memref sig .tc .vmem S512x256 .bf16).view.amount (.dma (csem cc0_scratch5 5 2 inb_S8x3_S1x1_5_2)))) + tallyAt (dcell (nxt c) (csem cc0_scratch5 1 2 inb_S8x3_S1x1_1_2)) () ((oblkM (k0_off7 c 2#32) (k0_off7_inb c 2) : Memref sig .tc .vmem S512x256 .bf16).view.amount (.dma (csem cc0_scratch5 1 2 inb_S8x3_S1x1_1_2)))) + tallyAt (dcell (prv c) (csem cc0_scratch5 4 2 inb_S8x3_S1x1_4_2)) () ((oblkM (k0_off5 c 4294967294#32) (k0_off5_inb c 2) : Memref sig .tc .vmem S512x256 .bf16).view.amount (.dma (csem cc0_scratch5 4 2 inb_S8x3_S1x1_4_2)))) + tallyAt (dcell (nxt c) (csem cc0_scratch5 0 2 inb_S8x3_S1x1_0_2)) () ((oblkM (k0_off3 c 2#32) (k0_off3_inb c 2) : Memref sig .tc .vmem S512x256 .bf16).view.amount (.dma (csem cc0_scratch5 0 2 inb_S8x3_S1x1_0_2)))) + tallyAt (dcell (prv c) (csem cc0_scratch5 7 1 inb_S8x3_S1x1_7_1)) () ((oblkM (k0_off17 c 4294967295#32) (k0_off17_inb c 1) : Memref sig .tc .vmem S512x256 .bf16).view.amount (.dma (csem cc0_scratch5 7 1 inb_S8x3_S1x1_7_1)))) + tallyAt (dcell (nxt c) (csem cc0_scratch5 3 1 inb_S8x3_S1x1_3_1)) () ((oblkM (k0_off15 c 1#32) (k0_off15_inb c 1) : Memref sig .tc .vmem S512x256 .bf16).view.amount (.dma (csem cc0_scratch5 3 1 inb_S8x3_S1x1_3_1)))) + tallyAt (dcell (prv c) (csem cc0_scratch5 6 1 inb_S8x3_S1x1_6_1)) () ((oblkM (k0_off13 c 4294967295#32) (k0_off13_inb c 1) : Memref sig .tc .vmem S512x256 .bf16).view.amount (.dma (csem cc0_scratch5 6 1 inb_S8x3_S1x1_6_1)))) + tallyAt (dcell (nxt c) (csem cc0_scratch5 2 1 inb_S8x3_S1x1_2_1)) () ((oblkM (k0_off11 c 1#32) (k0_off11_inb c 1) : Memref sig .tc .vmem S512x256 .bf16).view.amount (.dma (csem cc0_scratch5 2 1 inb_S8x3_S1x1_2_1)))) + tallyAt (dcell (prv c) (csem cc0_scratch5 5 1 inb_S8x3_S1x1_5_1)) () ((oblkM (k0_off9 c 4294967295#32) (k0_off9_inb c 1) : Memref sig .tc .vmem S512x256 .bf16).view.amount (.dma (csem cc0_scratch5 5 1 inb_S8x3_S1x1_5_1)))) + tallyAt (dcell (nxt c) (csem cc0_scratch5 1 1 inb_S8x3_S1x1_1_1)) () ((oblkM (k0_off7 c 1#32) (k0_off7_inb c 1) : Memref sig .tc .vmem S512x256 .bf16).view.amount (.dma (csem cc0_scratch5 1 1 inb_S8x3_S1x1_1_1)))) + tallyAt (dcell (prv c) (csem cc0_scratch5 4 1 inb_S8x3_S1x1_4_1)) () ((oblkM (k0_off5 c 4294967295#32) (k0_off5_inb c 1) : Memref sig .tc .vmem S512x256 .bf16).view.amount (.dma (csem cc0_scratch5 4 1 inb_S8x3_S1x1_4_1)))) + tallyAt (dcell (nxt c) (csem cc0_scratch5 0 1 inb_S8x3_S1x1_0_1)) () ((oblkM (k0_off3 c 1#32) (k0_off3_inb c 1) : Memref sig .tc .vmem S512x256 .bf16).view.amount (.dma (csem cc0_scratch5 0 1 inb_S8x3_S1x1_0_1)))) + tallyAt (dcell (prv c) (csem cc0_scratch5 7 0 inb_S8x3_S1x1_7_0)) () ((oblkM (k0_off17 c 0#32) (k0_off17_inb c 0) : Memref sig .tc .vmem S512x256 .bf16).view.amount (.dma (csem cc0_scratch5 7 0 inb_S8x3_S1x1_7_0)))) + tallyAt (dcell (nxt c) (csem cc0_scratch5 3 0 inb_S8x3_S1x1_3_0)) () ((oblkM (k0_off15 c 0#32) (k0_off15_inb c 0) : Memref sig .tc .vmem S512x256 .bf16).view.amount (.dma (csem cc0_scratch5 3 0 inb_S8x3_S1x1_3_0)))) + tallyAt (dcell (prv c) (csem cc0_scratch5 6 0 inb_S8x3_S1x1_6_0)) () ((oblkM (k0_off13 c 0#32) (k0_off13_inb c 0) : Memref sig .tc .vmem S512x256 .bf16).view.amount (.dma (csem cc0_scratch5 6 0 inb_S8x3_S1x1_6_0)))) + tallyAt (dcell (nxt c) (csem cc0_scratch5 2 0 inb_S8x3_S1x1_2_0)) () ((oblkM (k0_off11 c 0#32) (k0_off11_inb c 0) : Memref sig .tc .vmem S512x256 .bf16).view.amount (.dma (csem cc0_scratch5 2 0 inb_S8x3_S1x1_2_0)))) + tallyAt (dcell (prv c) (csem cc0_scratch5 5 0 inb_S8x3_S1x1_5_0)) () ((oblkM (k0_off9 c 0#32) (k0_off9_inb c 0) : Memref sig .tc .vmem S512x256 .bf16).view.amount (.dma (csem cc0_scratch5 5 0 inb_S8x3_S1x1_5_0)))) + tallyAt (dcell (nxt c) (csem cc0_scratch5 1 0 inb_S8x3_S1x1_1_0)) () ((oblkM (k0_off7 c 0#32) (k0_off7_inb c 0) : Memref sig .tc .vmem S512x256 .bf16).view.amount (.dma (csem cc0_scratch5 1 0 inb_S8x3_S1x1_1_0)))) + tallyAt (dcell (prv c) (csem cc0_scratch5 4 0 inb_S8x3_S1x1_4_0)) () ((oblkM (k0_off5 c 0#32) (k0_off5_inb c 0) : Memref sig .tc .vmem S512x256 .bf16).view.amount (.dma (csem cc0_scratch5 4 0 inb_S8x3_S1x1_4_0)))) + tallyAt (dcell (nxt c) (csem cc0_scratch5 0 0 inb_S8x3_S1x1_0_0)) () ((oblkM (k0_off3 c 0#32) (k0_off3_inb c 0) : Memref sig .tc .vmem S512x256 .bf16).view.amount (.dma (csem cc0_scratch5 0 0 inb_S8x3_S1x1_0_0)))) + tallyAt (dcell (prv c) (csem cc0_scratch3 7 2 inb_S8x3_S1x1_7_2)) () 8192) + tallyAt (dcell (nxt c) (csem cc0_scratch3 3 2 inb_S8x3_S1x1_3_2)) () 8192) + tallyAt (dcell (prv c) (csem cc0_scratch3 6 2 inb_S8x3_S1x1_6_2)) () 8192) + tallyAt (dcell (nxt c) (csem cc0_scratch3 2 2 inb_S8x3_S1x1_2_2)) () 8192) + tallyAt (dcell (prv c) (csem cc0_scratch3 5 2 inb_S8x3_S1x1_5_2)) () 8192) + tallyAt (dcell (nxt c) (csem cc0_scratch3 1 2 inb_S8x3_S1x1_1_2)) () 8192) + tallyAt (dcell (prv c) (csem cc0_scratch3 4 2 inb_S8x3_S1x1_4_2)) () 8192) + tallyAt (dcell (nxt c) (csem cc0_scratch3 0 2 inb_S8x3_S1x1_0_2)) () 8192) + tallyAt (dcell (prv c) (csem cc0_scratch3 7 1 inb_S8x3_S1x1_7_1)) () 8192) + tallyAt (dcell (nxt c) (csem cc0_scratch3 3 1 inb_S8x3_S1x1_3_1)) () 8192) + tallyAt (dcell (prv c) (csem cc0_scratch3 6 1 inb_S8x3_S1x1_6_1)) () 8192) + tallyAt (dcell (nxt c) (csem cc0_scratch3 2 1 inb_S8x3_S1x1_2_1)) () 8192) + tallyAt (dcell (prv c) (csem cc0_scratch3 5 1 inb_S8x3_S1x1_5_1)) () 8192) + tallyAt (dcell (nxt c) (csem cc0_scratch3 1 1 inb_S8x3_S1x1_1_1)) () 8192) + tallyAt (dcell (prv c) (csem cc0_scratch3 4 1 inb_S8x3_S1x1_4_1)) () 8192) + tallyAt (dcell (nxt c) (csem cc0_scratch3 0 1 inb_S8x3_S1x1_0_1)) () 8192) + tallyAt (dcell (prv c) (csem cc0_scratch3 7 0 inb_S8x3_S1x1_7_0)) () 8192) + tallyAt (dcell (nxt c) (csem cc0_scratch3 3 0 inb_S8x3_S1x1_3_0)) () 8192) + tallyAt (dcell (prv c) (csem cc0_scratch3 6 0 inb_S8x3_S1x1_6_0)) () 8192) + tallyAt (dcell (nxt c) (csem cc0_scratch3 2 0 inb_S8x3_S1x1_2_0)) () 8192) + tallyAt (dcell (prv c) (csem cc0_scratch3 5 0 inb_S8x3_S1x1_5_0)) () 8192) + tallyAt (dcell (nxt c) (csem cc0_scratch3 1 0 inb_S8x3_S1x1_1_0)) () 8192) + tallyAt (dcell (prv c) (csem cc0_scratch3 4 0 inb_S8x3_S1x1_4_0)) () 8192) + tallyAt (dcell (nxt c) (csem cc0_scratch3 0 0 inb_S8x3_S1x1_0_0)) () 8192) from rfl))) $$ HO
  ihave Hmwb := (Entails.of_eq (congrArg (fun O => MayWait (c : Thread nD τ) (.reg barS) () O) (owedRem_E48 c))) $$ Hmwb
  ihave Hmw300 := (Entails.of_eq (congrArg (fun O => MayWait (c : Thread nD τ) (.dma (csem cc0_scratch3 0 0 inb_S8x3_S1x1_0_0)) () O) (owedRem_E40 c))) $$ Hmw300
  ihave Hmw301 := (Entails.of_eq (congrArg (fun O => MayWait (c : Thread nD τ) (.dma (csem cc0_scratch3 0 1 inb_S8x3_S1x1_0_1)) () O) (owedRem_E32 c))) $$ Hmw301
  ihave Hmw302 := (Entails.of_eq (congrArg (fun O => MayWait (c : Thread nD τ) (.dma (csem cc0_scratch3 0 2 inb_S8x3_S1x1_0_2)) () O) (owedRem_E24 c))) $$ Hmw302
  ihave Hmw310 := (Entails.of_eq (congrArg (fun O => MayWait (c : Thread nD τ) (.dma (csem cc0_scratch3 1 0 inb_S8x3_S1x1_1_0)) () O) (owedRem_E38 c))) $$ Hmw310
  ihave Hmw311 := (Entails.of_eq (congrArg (fun O => MayWait (c : Thread nD τ) (.dma (csem cc0_scratch3 1 1 inb_S8x3_S1x1_1_1)) () O) (owedRem_E30 c))) $$ Hmw311
  ihave Hmw312 := (Entails.of_eq (congrArg (fun O => MayWait (c : Thread nD τ) (.dma (csem cc0_scratch3 1 2 inb_S8x3_S1x1_1_2)) () O) (owedRem_E22 c))) $$ Hmw312
  ihave Hmw320 := (Entails.of_eq (congrArg (fun O => MayWait (c : Thread nD τ) (.dma (csem cc0_scratch3 2 0 inb_S8x3_S1x1_2_0)) () O) (owedRem_E36 c))) $$ Hmw320
  ihave Hmw321 := (Entails.of_eq (congrArg (fun O => MayWait (c : Thread nD τ) (.dma (csem cc0_scratch3 2 1 inb_S8x3_S1x1_2_1)) () O) (owedRem_E28 c))) $$ Hmw321
  ihave Hmw322 := (Entails.of_eq (congrArg (fun O => MayWait (c : Thread nD τ) (.dma (csem cc0_scratch3 2 2 inb_S8x3_S1x1_2_2)) () O) (owedRem_E20 c))) $$ Hmw322
  ihave Hmw330 := (Entails.of_eq (congrArg (fun O => MayWait (c : Thread nD τ) (.dma (csem cc0_scratch3 3 0 inb_S8x3_S1x1_3_0)) () O) (owedRem_E34 c))) $$ Hmw330
  ihave Hmw331 := (Entails.of_eq (congrArg (fun O => MayWait (c : Thread nD τ) (.dma (csem cc0_scratch3 3 1 inb_S8x3_S1x1_3_1)) () O) (owedRem_E26 c))) $$ Hmw331
  ihave Hmw332 := (Entails.of_eq (congrArg (fun O => MayWait (c : Thread nD τ) (.dma (csem cc0_scratch3 3 2 inb_S8x3_S1x1_3_2)) () O) (owedRem_E18 c))) $$ Hmw332
  ihave Hmw340 := (Entails.of_eq (congrArg (fun O => MayWait (c : Thread nD τ) (.dma (csem cc0_scratch3 4 0 inb_S8x3_S1x1_4_0)) () O) (owedRem_E39 c))) $$ Hmw340
  ihave Hmw341 := (Entails.of_eq (congrArg (fun O => MayWait (c : Thread nD τ) (.dma (csem cc0_scratch3 4 1 inb_S8x3_S1x1_4_1)) () O) (owedRem_E31 c))) $$ Hmw341
  ihave Hmw342 := (Entails.of_eq (congrArg (fun O => MayWait (c : Thread nD τ) (.dma (csem cc0_scratch3 4 2 inb_S8x3_S1x1_4_2)) () O) (owedRem_E23 c))) $$ Hmw342
  ihave Hmw350 := (Entails.of_eq (congrArg (fun O => MayWait (c : Thread nD τ) (.dma (csem cc0_scratch3 5 0 inb_S8x3_S1x1_5_0)) () O) (owedRem_E37 c))) $$ Hmw350
  ihave Hmw351 := (Entails.of_eq (congrArg (fun O => MayWait (c : Thread nD τ) (.dma (csem cc0_scratch3 5 1 inb_S8x3_S1x1_5_1)) () O) (owedRem_E29 c))) $$ Hmw351
  ihave Hmw352 := (Entails.of_eq (congrArg (fun O => MayWait (c : Thread nD τ) (.dma (csem cc0_scratch3 5 2 inb_S8x3_S1x1_5_2)) () O) (owedRem_E21 c))) $$ Hmw352
  ihave Hmw360 := (Entails.of_eq (congrArg (fun O => MayWait (c : Thread nD τ) (.dma (csem cc0_scratch3 6 0 inb_S8x3_S1x1_6_0)) () O) (owedRem_E35 c))) $$ Hmw360
  ihave Hmw361 := (Entails.of_eq (congrArg (fun O => MayWait (c : Thread nD τ) (.dma (csem cc0_scratch3 6 1 inb_S8x3_S1x1_6_1)) () O) (owedRem_E27 c))) $$ Hmw361
  ihave Hmw362 := (Entails.of_eq (congrArg (fun O => MayWait (c : Thread nD τ) (.dma (csem cc0_scratch3 6 2 inb_S8x3_S1x1_6_2)) () O) (owedRem_E19 c))) $$ Hmw362
  ihave Hmw370 := (Entails.of_eq (congrArg (fun O => MayWait (c : Thread nD τ) (.dma (csem cc0_scratch3 7 0 inb_S8x3_S1x1_7_0)) () O) (owedRem_E33 c))) $$ Hmw370
  ihave Hmw371 := (Entails.of_eq (congrArg (fun O => MayWait (c : Thread nD τ) (.dma (csem cc0_scratch3 7 1 inb_S8x3_S1x1_7_1)) () O) (owedRem_E25 c))) $$ Hmw371
  ihave Hmw372 := (Entails.of_eq (congrArg (fun O => MayWait (c : Thread nD τ) (.dma (csem cc0_scratch3 7 2 inb_S8x3_S1x1_7_2)) () O) (owedRem_E17 c))) $$ Hmw372
  ihave Hmw500 := (Entails.of_eq (congrArg (fun O => MayWait (c : Thread nD τ) (.dma (csem cc0_scratch5 0 0 inb_S8x3_S1x1_0_0)) () O) (owedRem_E16 c))) $$ Hmw500
  ihave Hmw501 := (Entails.of_eq (congrArg (fun O => MayWait (c : Thread nD τ) (.dma (csem cc0_scratch5 0 1 inb_S8x3_S1x1_0_1)) () O) (owedRem_E8 c))) $$ Hmw501
  ihave Hmw502 := (Entails.of_eq (congrArg (fun O => MayWait (c : Thread nD τ) (.dma (csem cc0_scratch5 0 2 inb_S8x3_S1x1_0_2)) () O) (owedRem_E0 c))) $$ Hmw502
  ihave Hmw510 := (Entails.of_eq (congrArg (fun O => MayWait (c : Thread nD τ) (.dma (csem cc0_scratch5 1 0 inb_S8x3_S1x1_1_0)) () O) (owedRem_E14 c))) $$ Hmw510
  ihave Hmw511 := (Entails.of_eq (congrArg (fun O => MayWait (c : Thread nD τ) (.dma (csem cc0_scratch5 1 1 inb_S8x3_S1x1_1_1)) () O) (owedRem_E6 c))) $$ Hmw511
  ihave Hmw512 := (Entails.of_eq (congrArg (fun O => MayWait (c : Thread nD τ) (.dma (csem cc0_scratch5 1 2 inb_S8x3_S1x1_1_2)) () O) (owedRem_E0 c))) $$ Hmw512
  ihave Hmw520 := (Entails.of_eq (congrArg (fun O => MayWait (c : Thread nD τ) (.dma (csem cc0_scratch5 2 0 inb_S8x3_S1x1_2_0)) () O) (owedRem_E12 c))) $$ Hmw520
  ihave Hmw521 := (Entails.of_eq (congrArg (fun O => MayWait (c : Thread nD τ) (.dma (csem cc0_scratch5 2 1 inb_S8x3_S1x1_2_1)) () O) (owedRem_E4 c))) $$ Hmw521
  ihave Hmw522 := (Entails.of_eq (congrArg (fun O => MayWait (c : Thread nD τ) (.dma (csem cc0_scratch5 2 2 inb_S8x3_S1x1_2_2)) () O) (owedRem_E0 c))) $$ Hmw522
  ihave Hmw530 := (Entails.of_eq (congrArg (fun O => MayWait (c : Thread nD τ) (.dma (csem cc0_scratch5 3 0 inb_S8x3_S1x1_3_0)) () O) (owedRem_E10 c))) $$ Hmw530
  ihave Hmw531 := (Entails.of_eq (congrArg (fun O => MayWait (c : Thread nD τ) (.dma (csem cc0_scratch5 3 1 inb_S8x3_S1x1_3_1)) () O) (owedRem_E2 c))) $$ Hmw531
  ihave Hmw532 := (Entails.of_eq (congrArg (fun O => MayWait (c : Thread nD τ) (.dma (csem cc0_scratch5 3 2 inb_S8x3_S1x1_3_2)) () O) (owedRem_E0 c))) $$ Hmw532
  ihave Hmw540 := (Entails.of_eq (congrArg (fun O => MayWait (c : Thread nD τ) (.dma (csem cc0_scratch5 4 0 inb_S8x3_S1x1_4_0)) () O) (owedRem_E15 c))) $$ Hmw540
  ihave Hmw541 := (Entails.of_eq (congrArg (fun O => MayWait (c : Thread nD τ) (.dma (csem cc0_scratch5 4 1 inb_S8x3_S1x1_4_1)) () O) (owedRem_E7 c))) $$ Hmw541
  ihave Hmw542 := (Entails.of_eq (congrArg (fun O => MayWait (c : Thread nD τ) (.dma (csem cc0_scratch5 4 2 inb_S8x3_S1x1_4_2)) () O) (owedRem_E0 c))) $$ Hmw542
  ihave Hmw550 := (Entails.of_eq (congrArg (fun O => MayWait (c : Thread nD τ) (.dma (csem cc0_scratch5 5 0 inb_S8x3_S1x1_5_0)) () O) (owedRem_E13 c))) $$ Hmw550
  ihave Hmw551 := (Entails.of_eq (congrArg (fun O => MayWait (c : Thread nD τ) (.dma (csem cc0_scratch5 5 1 inb_S8x3_S1x1_5_1)) () O) (owedRem_E5 c))) $$ Hmw551
  ihave Hmw552 := (Entails.of_eq (congrArg (fun O => MayWait (c : Thread nD τ) (.dma (csem cc0_scratch5 5 2 inb_S8x3_S1x1_5_2)) () O) (owedRem_E0 c))) $$ Hmw552
  ihave Hmw560 := (Entails.of_eq (congrArg (fun O => MayWait (c : Thread nD τ) (.dma (csem cc0_scratch5 6 0 inb_S8x3_S1x1_6_0)) () O) (owedRem_E11 c))) $$ Hmw560
  ihave Hmw561 := (Entails.of_eq (congrArg (fun O => MayWait (c : Thread nD τ) (.dma (csem cc0_scratch5 6 1 inb_S8x3_S1x1_6_1)) () O) (owedRem_E3 c))) $$ Hmw561
  ihave Hmw562 := (Entails.of_eq (congrArg (fun O => MayWait (c : Thread nD τ) (.dma (csem cc0_scratch5 6 2 inb_S8x3_S1x1_6_2)) () O) (owedRem_E0 c))) $$ Hmw562
  ihave Hmw570 := (Entails.of_eq (congrArg (fun O => MayWait (c : Thread nD τ) (.dma (csem cc0_scratch5 7 0 inb_S8x3_S1x1_7_0)) () O) (owedRem_E9 c))) $$ Hmw570
  ihave Hmw571 := (Entails.of_eq (congrArg (fun O => MayWait (c : Thread nD τ) (.dma (csem cc0_scratch5 7 1 inb_S8x3_S1x1_7_1)) () O) (owedRem_E1 c))) $$ Hmw571
  ihave Hmw572 := (Entails.of_eq (congrArg (fun O => MayWait (c : Thread nD τ) (.dma (csem cc0_scratch5 7 2 inb_S8x3_S1x1_7_2)) () O) (owedRem_E0 c))) $$ Hmw572
  ihave HOo0 := (aside_intro _) $$ HOo0
  ihave HOo1 := (aside_intro _) $$ HOo1
  ihave HOo2 := (aside_intro _) $$ HOo2
  ihave HOo3 := (aside_intro _) $$ HOo3
  ihave HOo4 := (aside_intro _) $$ HOo4
  ihave HOo5 := (aside_intro _) $$ HOo5
  ihave HOo6 := (aside_intro _) $$ HOo6
  ihave HOo7 := (aside_intro _) $$ HOo7
  ihave Hat500 := (aside_intro _) $$ Hat500
  ihave Hat501 := (aside_intro _) $$ Hat501
  ihave Hat502 := (aside_intro _) $$ Hat502
  ihave Hat510 := (aside_intro _) $$ Hat510
  ihave Hat511 := (aside_intro _) $$ Hat511
  ihave Hat512 := (aside_intro _) $$ Hat512
  ihave Hat520 := (aside_intro _) $$ Hat520
  ihave Hat521 := (aside_intro _) $$ Hat521
  ihave Hat522 := (aside_intro _) $$ Hat522
  ihave Hat530 := (aside_intro _) $$ Hat530
  ihave Hat531 := (aside_intro _) $$ Hat531
  ihave Hat532 := (aside_intro _) $$ Hat532
  ihave Hat540 := (aside_intro _) $$ Hat540
  ihave Hat541 := (aside_intro _) $$ Hat541
  ihave Hat542 := (aside_intro _) $$ Hat542
  ihave Hat550 := (aside_intro _) $$ Hat550
  ihave Hat551 := (aside_intro _) $$ Hat551
  ihave Hat552 := (aside_intro _) $$ Hat552
  ihave Hat560 := (aside_intro _) $$ Hat560
  ihave Hat561 := (aside_intro _) $$ Hat561
  ihave Hat562 := (aside_intro _) $$ Hat562
  ihave Hat570 := (aside_intro _) $$ Hat570
  ihave Hat571 := (aside_intro _) $$ Hat571
  ihave Hat572 := (aside_intro _) $$ Hat572
  ihave Hat400 := (aside_intro _) $$ Hat400
  ihave Hat401 := (aside_intro _) $$ Hat401
  ihave Hat402 := (aside_intro _) $$ Hat402
  ihave Hat410 := (aside_intro _) $$ Hat410
  ihave Hat411 := (aside_intro _) $$ Hat411
  ihave Hat412 := (aside_intro _) $$ Hat412
  ihave Hat420 := (aside_intro _) $$ Hat420
  ihave Hat421 := (aside_intro _) $$ Hat421
  ihave Hat422 := (aside_intro _) $$ Hat422
  ihave Hat430 := (aside_intro _) $$ Hat430
  ihave Hat431 := (aside_intro _) $$ Hat431
  ihave Hat432 := (aside_intro _) $$ Hat432
  ihave Hat440 := (aside_intro _) $$ Hat440
  ihave Hat441 := (aside_intro _) $$ Hat441
  ihave Hat442 := (aside_intro _) $$ Hat442
  ihave Hat450 := (aside_intro _) $$ Hat450
  ihave Hat451 := (aside_intro _) $$ Hat451
  ihave Hat452 := (aside_intro _) $$ Hat452
  ihave Hat460 := (aside_intro _) $$ Hat460
  ihave Hat461 := (aside_intro _) $$ Hat461
  ihave Hat462 := (aside_intro _) $$ Hat462
  ihave Hat470 := (aside_intro _) $$ Hat470
  ihave Hat471 := (aside_intro _) $$ Hat471
  ihave Hat472 := (aside_intro _) $$ Hat472
  sl_unfold [cc0_body]
  set_option sl_exec.stepHeartbeats 400000 in sl_exec_parts (disch := simp only [sl_canon])
  ihave Hbpay := (Entails.of_eq ((bigSep_univ_bar_eq fa fb c).trans (rest_bar_flat fa fb c))) $$ Hatb_pay1
  icases Hbpay with ⟨⟨%gs00, GS00⟩, ⟨%go00, GO00⟩, #GR300, #GR500, ⟨%gs01, GS01⟩, ⟨%go01, GO01⟩, #GR301, #GR501, ⟨%gs02, GS02⟩, ⟨%go02, GO02⟩, #GR302, #GR502, ⟨%gs10, GS10⟩, ⟨%go10, GO10⟩, #GR310, #GR510, ⟨%gs11, GS11⟩, ⟨%go11, GO11⟩, #GR311, #GR511, ⟨%gs12, GS12⟩, ⟨%go12, GO12⟩, #GR312, #GR512, ⟨%gs20, GS20⟩, ⟨%go20, GO20⟩, #GR320, #GR520, ⟨%gs21, GS21⟩, ⟨%go21, GO21⟩, #GR321, #GR521, ⟨%gs22, GS22⟩, ⟨%go22, GO22⟩, #GR322, #GR522, ⟨%gs30, GS30⟩, ⟨%go30, GO30⟩, #GR330, #GR530, ⟨%gs31, GS31⟩, ⟨%go31, GO31⟩, #GR331, #GR531, ⟨%gs32, GS32⟩, ⟨%go32, GO32⟩, #GR332, #GR532, ⟨%gs40, GS40⟩, ⟨%go40, GO40⟩, #GR340, #GR540, ⟨%gs41, GS41⟩, ⟨%go41, GO41⟩, #GR341, #GR541, ⟨%gs42, GS42⟩, ⟨%go42, GO42⟩, #GR342, #GR542, ⟨%gs50, GS50⟩, ⟨%go50, GO50⟩, #GR350, #GR550, ⟨%gs51, GS51⟩, ⟨%go51, GO51⟩, #GR351, #GR551, ⟨%gs52, GS52⟩, ⟨%go52, GO52⟩, #GR352, #GR552, ⟨%gs60, GS60⟩, ⟨%go60, GO60⟩, #GR360, #GR560, ⟨%gs61, GS61⟩, ⟨%go61, GO61⟩, #GR361, #GR561, ⟨%gs62, GS62⟩, ⟨%go62, GO62⟩, #GR362, #GR562, ⟨%gs70, GS70⟩, ⟨%go70, GO70⟩, #GR370, #GR570, ⟨%gs71, GS71⟩, ⟨%go71, GO71⟩, #GR371, #GR571, ⟨%gs72, GS72⟩, ⟨%go72, GO72⟩, #GR372, #GR572⟩
  ihave GO00 := (aside_intro _) $$ GO00
  ihave GO01 := (aside_intro _) $$ GO01
  ihave GO02 := (aside_intro _) $$ GO02
  ihave GO10 := (aside_intro _) $$ GO10
  ihave GO11 := (aside_intro _) $$ GO11
  ihave GO12 := (aside_intro _) $$ GO12
  ihave GO20 := (aside_intro _) $$ GO20
  ihave GO21 := (aside_intro _) $$ GO21
  ihave GO22 := (aside_intro _) $$ GO22
  ihave GO30 := (aside_intro _) $$ GO30
  ihave GO31 := (aside_intro _) $$ GO31
  ihave GO32 := (aside_intro _) $$ GO32
  ihave GO40 := (aside_intro _) $$ GO40
  ihave GO41 := (aside_intro _) $$ GO41
  ihave GO42 := (aside_intro _) $$ GO42
  ihave GO50 := (aside_intro _) $$ GO50
  ihave GO51 := (aside_intro _) $$ GO51
  ihave GO52 := (aside_intro _) $$ GO52
  ihave GO60 := (aside_intro _) $$ GO60
  ihave GO61 := (aside_intro _) $$ GO61
  ihave GO62 := (aside_intro _) $$ GO62
  ihave GO70 := (aside_intro _) $$ GO70
  ihave GO71 := (aside_intro _) $$ GO71
  ihave GO72 := (aside_intro _) $$ GO72
  ihave Hts200 := (aside_elim _) $$ Hts200
  ihave Hts240 := (aside_elim _) $$ Hts240
  ihave HS00 := (Entails.of_eq (pointsTo_congr (site_rs0 fa fb c 0 (by decide) inb_S8x4x512x256_S1x1x512x256_0_0_0_0 _ _ _ _ rfl (aRead_1 c _ _) (bRead_0 _ _)))) $$ HS00
  ihave HS40 := (Entails.of_eq (pointsTo_congr (site_rs0 fa fb c 4 (by decide) inb_S8x4x512x256_S1x1x512x256_4_0_0_0 _ _ _ _ rfl (aRead_m1 c _ _) (bRead_4 _ _)))) $$ HS40
  set_option sl_exec.stepHeartbeats 400000 in sl_exec_parts (disch := simp only [sl_canon])
  ihave Hts210 := (aside_elim _) $$ Hts210
  ihave Hts250 := (aside_elim _) $$ Hts250
  ihave HS10 := (Entails.of_eq (pointsTo_congr (site_rs0 fa fb c 1 (by decide) inb_S8x4x512x256_S1x1x512x256_1_0_0_0 _ _ _ _ rfl (aRead_1 c _ _) (bRead_1 _ _)))) $$ HS10
  ihave HS50 := (Entails.of_eq (pointsTo_congr (site_rs0 fa fb c 5 (by decide) inb_S8x4x512x256_S1x1x512x256_5_0_0_0 _ _ _ _ rfl (aRead_m1 c _ _) (bRead_5 _ _)))) $$ HS50
  set_option sl_exec.stepHeartbeats 400000 in sl_exec_parts (disch := simp only [sl_canon])
  ihave Hts220 := (aside_elim _) $$ Hts220
  ihave Hts260 := (aside_elim _) $$ Hts260
  ihave HS20 := (Entails.of_eq (pointsTo_congr (site_rs0 fa fb c 2 (by decide) inb_S8x4x512x256_S1x1x512x256_2_0_0_0 _ _ _ _ rfl (aRead_1 c _ _) (bRead_2 _ _)))) $$ HS20
  ihave HS60 := (Entails.of_eq (pointsTo_congr (site_rs0 fa fb c 6 (by decide) inb_S8x4x512x256_S1x1x512x256_6_0_0_0 _ _ _ _ rfl (aRead_m1 c _ _) (bRead_6 _ _)))) $$ HS60
  set_option sl_exec.stepHeartbeats 400000 in sl_exec_parts (disch := simp only [sl_canon])
  ihave Hts230 := (aside_elim _) $$ Hts230
  ihave Hts270 := (aside_elim _) $$ Hts270
  ihave HS30 := (Entails.of_eq (pointsTo_congr (site_rs0 fa fb c 3 (by decide) inb_S8x4x512x256_S1x1x512x256_3_0_0_0 _ _ _ _ rfl (aRead_1 c _ _) (bRead_3 _ _)))) $$ HS30
  ihave HS70 := (Entails.of_eq (pointsTo_congr (site_rs0 fa fb c 7 (by decide) inb_S8x4x512x256_S1x1x512x256_7_0_0_0 _ _ _ _ rfl (aRead_m1 c _ _) (bRead_7 _ _)))) $$ HS70
  set_option sl_exec.stepHeartbeats 400000 in sl_exec_parts (disch := simp only [sl_canon])
  ihave Hts201 := (aside_elim _) $$ Hts201
  ihave Hat300_pay1 := (Entails.of_eq (pointsTo_congr (site_rsK fa fb c 0 (by decide) 0 (by decide) inb_S8x4x512x256_S1x1x512x256_0_0_0_0 inb_S8x4x512x256_S1x1x512x256_0_1_0_0 _ _ _ _ _ _ rfl rfl (aRead_2 c _ _) (bRead_0 _ _) (slot_readback 0 0 inb_S8x4x512x256_S1x1x512x256_0_0_0_0 inb_S8x4x512x256_S1x1x512x256_0_1_0_0 _ _)))) $$ Hat300_pay1
  set_option sl_exec.stepHeartbeats 400000 in sl_exec_parts (disch := simp only [sl_canon])
  ihave Hts241 := (aside_elim _) $$ Hts241
  ihave Hat340_pay1 := (Entails.of_eq (pointsTo_congr (site_rsK fa fb c 4 (by decide) 0 (by decide) inb_S8x4x512x256_S1x1x512x256_4_0_0_0 inb_S8x4x512x256_S1x1x512x256_4_1_0_0 _ _ _ _ _ _ rfl rfl (aRead_m2 c _ _) (bRead_4 _ _) (slot_readback 4 0 inb_S8x4x512x256_S1x1x512x256_4_0_0_0 inb_S8x4x512x256_S1x1x512x256_4_1_0_0 _ _)))) $$ Hat340_pay1
  set_option sl_exec.stepHeartbeats 400000 in sl_exec_parts (disch := simp only [sl_canon])
  ihave Hts211 := (aside_elim _) $$ Hts211
  ihave Hat310_pay1 := (Entails.of_eq (pointsTo_congr (site_rsK fa fb c 1 (by decide) 0 (by decide) inb_S8x4x512x256_S1x1x512x256_1_0_0_0 inb_S8x4x512x256_S1x1x512x256_1_1_0_0 _ _ _ _ _ _ rfl rfl (aRead_2 c _ _) (bRead_1 _ _) (slot_readback 1 0 inb_S8x4x512x256_S1x1x512x256_1_0_0_0 inb_S8x4x512x256_S1x1x512x256_1_1_0_0 _ _)))) $$ Hat310_pay1
  set_option sl_exec.stepHeartbeats 400000 in sl_exec_parts (disch := simp only [sl_canon])
  ihave Hts251 := (aside_elim _) $$ Hts251
  ihave Hat350_pay1 := (Entails.of_eq (pointsTo_congr (site_rsK fa fb c 5 (by decide) 0 (by decide) inb_S8x4x512x256_S1x1x512x256_5_0_0_0 inb_S8x4x512x256_S1x1x512x256_5_1_0_0 _ _ _ _ _ _ rfl rfl (aRead_m2 c _ _) (bRead_5 _ _) (slot_readback 5 0 inb_S8x4x512x256_S1x1x512x256_5_0_0_0 inb_S8x4x512x256_S1x1x512x256_5_1_0_0 _ _)))) $$ Hat350_pay1
  set_option sl_exec.stepHeartbeats 400000 in sl_exec_parts (disch := simp only [sl_canon])
  ihave Hts221 := (aside_elim _) $$ Hts221
  ihave Hat320_pay1 := (Entails.of_eq (pointsTo_congr (site_rsK fa fb c 2 (by decide) 0 (by decide) inb_S8x4x512x256_S1x1x512x256_2_0_0_0 inb_S8x4x512x256_S1x1x512x256_2_1_0_0 _ _ _ _ _ _ rfl rfl (aRead_2 c _ _) (bRead_2 _ _) (slot_readback 2 0 inb_S8x4x512x256_S1x1x512x256_2_0_0_0 inb_S8x4x512x256_S1x1x512x256_2_1_0_0 _ _)))) $$ Hat320_pay1
  set_option sl_exec.stepHeartbeats 400000 in sl_exec_parts (disch := simp only [sl_canon])
  ihave Hts261 := (aside_elim _) $$ Hts261
  ihave Hat360_pay1 := (Entails.of_eq (pointsTo_congr (site_rsK fa fb c 6 (by decide) 0 (by decide) inb_S8x4x512x256_S1x1x512x256_6_0_0_0 inb_S8x4x512x256_S1x1x512x256_6_1_0_0 _ _ _ _ _ _ rfl rfl (aRead_m2 c _ _) (bRead_6 _ _) (slot_readback 6 0 inb_S8x4x512x256_S1x1x512x256_6_0_0_0 inb_S8x4x512x256_S1x1x512x256_6_1_0_0 _ _)))) $$ Hat360_pay1
  set_option sl_exec.stepHeartbeats 400000 in sl_exec_parts (disch := simp only [sl_canon])
  ihave Hts231 := (aside_elim _) $$ Hts231
  ihave Hat330_pay1 := (Entails.of_eq (pointsTo_congr (site_rsK fa fb c 3 (by decide) 0 (by decide) inb_S8x4x512x256_S1x1x512x256_3_0_0_0 inb_S8x4x512x256_S1x1x512x256_3_1_0_0 _ _ _ _ _ _ rfl rfl (aRead_2 c _ _) (bRead_3 _ _) (slot_readback 3 0 inb_S8x4x512x256_S1x1x512x256_3_0_0_0 inb_S8x4x512x256_S1x1x512x256_3_1_0_0 _ _)))) $$ Hat330_pay1
  set_option sl_exec.stepHeartbeats 400000 in sl_exec_parts (disch := simp only [sl_canon])
  ihave Hts271 := (aside_elim _) $$ Hts271
  ihave Hat370_pay1 := (Entails.of_eq (pointsTo_congr (site_rsK fa fb c 7 (by decide) 0 (by decide) inb_S8x4x512x256_S1x1x512x256_7_0_0_0 inb_S8x4x512x256_S1x1x512x256_7_1_0_0 _ _ _ _ _ _ rfl rfl (aRead_m2 c _ _) (bRead_7 _ _) (slot_readback 7 0 inb_S8x4x512x256_S1x1x512x256_7_0_0_0 inb_S8x4x512x256_S1x1x512x256_7_1_0_0 _ _)))) $$ Hat370_pay1
  set_option sl_exec.stepHeartbeats 400000 in sl_exec_parts (disch := simp only [sl_canon])
  ihave Hts202 := (aside_elim _) $$ Hts202
  ihave Hat301_pay1 := (Entails.of_eq (pointsTo_congr (site_rsK fa fb c 0 (by decide) 1 (by decide) inb_S8x4x512x256_S1x1x512x256_0_1_0_0 inb_S8x4x512x256_S1x1x512x256_0_2_0_0 _ _ _ _ _ _ rfl rfl (aRead_3 c _ _) (bRead_0 _ _) (slot_readback 0 1 inb_S8x4x512x256_S1x1x512x256_0_1_0_0 inb_S8x4x512x256_S1x1x512x256_0_2_0_0 _ _)))) $$ Hat301_pay1
  set_option sl_exec.stepHeartbeats 400000 in sl_exec_parts (disch := simp only [sl_canon])
  ihave Hts242 := (aside_elim _) $$ Hts242
  ihave Hat341_pay1 := (Entails.of_eq (pointsTo_congr (site_rsK fa fb c 4 (by decide) 1 (by decide) inb_S8x4x512x256_S1x1x512x256_4_1_0_0 inb_S8x4x512x256_S1x1x512x256_4_2_0_0 _ _ _ _ _ _ rfl rfl (aRead_m3 c _ _) (bRead_4 _ _) (slot_readback 4 1 inb_S8x4x512x256_S1x1x512x256_4_1_0_0 inb_S8x4x512x256_S1x1x512x256_4_2_0_0 _ _)))) $$ Hat341_pay1
  set_option sl_exec.stepHeartbeats 400000 in sl_exec_parts (disch := simp only [sl_canon])
  ihave Hts212 := (aside_elim _) $$ Hts212
  ihave Hat311_pay1 := (Entails.of_eq (pointsTo_congr (site_rsK fa fb c 1 (by decide) 1 (by decide) inb_S8x4x512x256_S1x1x512x256_1_1_0_0 inb_S8x4x512x256_S1x1x512x256_1_2_0_0 _ _ _ _ _ _ rfl rfl (aRead_3 c _ _) (bRead_1 _ _) (slot_readback 1 1 inb_S8x4x512x256_S1x1x512x256_1_1_0_0 inb_S8x4x512x256_S1x1x512x256_1_2_0_0 _ _)))) $$ Hat311_pay1
  set_option sl_exec.stepHeartbeats 400000 in sl_exec_parts (disch := simp only [sl_canon])
  ihave Hts252 := (aside_elim _) $$ Hts252
  ihave Hat351_pay1 := (Entails.of_eq (pointsTo_congr (site_rsK fa fb c 5 (by decide) 1 (by decide) inb_S8x4x512x256_S1x1x512x256_5_1_0_0 inb_S8x4x512x256_S1x1x512x256_5_2_0_0 _ _ _ _ _ _ rfl rfl (aRead_m3 c _ _) (bRead_5 _ _) (slot_readback 5 1 inb_S8x4x512x256_S1x1x512x256_5_1_0_0 inb_S8x4x512x256_S1x1x512x256_5_2_0_0 _ _)))) $$ Hat351_pay1
  set_option sl_exec.stepHeartbeats 400000 in sl_exec_parts (disch := simp only [sl_canon])
  ihave Hts222 := (aside_elim _) $$ Hts222
  ihave Hat321_pay1 := (Entails.of_eq (pointsTo_congr (site_rsK fa fb c 2 (by decide) 1 (by decide) inb_S8x4x512x256_S1x1x512x256_2_1_0_0 inb_S8x4x512x256_S1x1x512x256_2_2_0_0 _ _ _ _ _ _ rfl rfl (aRead_3 c _ _) (bRead_2 _ _) (slot_readback 2 1 inb_S8x4x512x256_S1x1x512x256_2_1_0_0 inb_S8x4x512x256_S1x1x512x256_2_2_0_0 _ _)))) $$ Hat321_pay1
  set_option sl_exec.stepHeartbeats 400000 in sl_exec_parts (disch := simp only [sl_canon])
  ihave Hts262 := (aside_elim _) $$ Hts262
  ihave Hat361_pay1 := (Entails.of_eq (pointsTo_congr (site_rsK fa fb c 6 (by decide) 1 (by decide) inb_S8x4x512x256_S1x1x512x256_6_1_0_0 inb_S8x4x512x256_S1x1x512x256_6_2_0_0 _ _ _ _ _ _ rfl rfl (aRead_m3 c _ _) (bRead_6 _ _) (slot_readback 6 1 inb_S8x4x512x256_S1x1x512x256_6_1_0_0 inb_S8x4x512x256_S1x1x512x256_6_2_0_0 _ _)))) $$ Hat361_pay1
  set_option sl_exec.stepHeartbeats 400000 in sl_exec_parts (disch := simp only [sl_canon])
  ihave Hts232 := (aside_elim _) $$ Hts232
  ihave Hat331_pay1 := (Entails.of_eq (pointsTo_congr (site_rsK fa fb c 3 (by decide) 1 (by decide) inb_S8x4x512x256_S1x1x512x256_3_1_0_0 inb_S8x4x512x256_S1x1x512x256_3_2_0_0 _ _ _ _ _ _ rfl rfl (aRead_3 c _ _) (bRead_3 _ _) (slot_readback 3 1 inb_S8x4x512x256_S1x1x512x256_3_1_0_0 inb_S8x4x512x256_S1x1x512x256_3_2_0_0 _ _)))) $$ Hat331_pay1
  set_option sl_exec.stepHeartbeats 400000 in sl_exec_parts (disch := simp only [sl_canon])
  ihave Hts272 := (aside_elim _) $$ Hts272
  ihave Hat371_pay1 := (Entails.of_eq (pointsTo_congr (site_rsK fa fb c 7 (by decide) 1 (by decide) inb_S8x4x512x256_S1x1x512x256_7_1_0_0 inb_S8x4x512x256_S1x1x512x256_7_2_0_0 _ _ _ _ _ _ rfl rfl (aRead_m3 c _ _) (bRead_7 _ _) (slot_readback 7 1 inb_S8x4x512x256_S1x1x512x256_7_1_0_0 inb_S8x4x512x256_S1x1x512x256_7_2_0_0 _ _)))) $$ Hat371_pay1
  ihave HOo0 := (aside_elim _) $$ HOo0
  set_option sl_exec.stepHeartbeats 400000 in sl_exec_parts (disch := simp only [sl_canon])
  ihave Hts400 := (aside_elim _) $$ Hts400
  ihave GO00 := (aside_elim _) $$ GO00
  ihave HOo0 := (Entails.of_eq (pointsTo_congr (site_out fa fb c 0 (by decide) (k0_off2 c) (k0_off2 c) (k0_off2_inb c) (k0_off2_inb c) rfl _ _ _ _ _ _ rfl rfl (aRead_4 c _ _) (bRead_0 _ _) (slot_readback 0 2 inb_S8x4x512x256_S1x1x512x256_0_2_0_0 inb_S8x4x512x256_S1x1x512x256_0_3_0_0 _ _)))) $$ HOo0
  ihave HOo0 := (Entails.of_eq (oblk_pointsTo_congr c (k0_off2 c) (k0_off3 c 0#32) (k0_off2_inb c) (k0_off3_inb c 0) ((off2_eq c).trans (off3_eq_0 c).symm) fullShare _)) $$ HOo0
  ihave HOo4 := (aside_elim _) $$ HOo4
  set_option sl_exec.stepHeartbeats 400000 in sl_exec_parts (disch := simp only [sl_canon])
  ihave Hts440 := (aside_elim _) $$ Hts440
  ihave GO40 := (aside_elim _) $$ GO40
  ihave HOo4 := (Entails.of_eq (pointsTo_congr (site_out fa fb c 4 (by decide) (k0_off4 c) (k0_off4 c) (k0_off4_inb c) (k0_off4_inb c) rfl _ _ _ _ _ _ rfl rfl (aRead_m4 c _ _) (bRead_4 _ _) (slot_readback 4 2 inb_S8x4x512x256_S1x1x512x256_4_2_0_0 inb_S8x4x512x256_S1x1x512x256_4_3_0_0 _ _)))) $$ HOo4
  ihave HOo4 := (Entails.of_eq (oblk_pointsTo_congr c (k0_off4 c) (k0_off5 c 0#32) (k0_off4_inb c) (k0_off5_inb c 0) ((off4_eq c).trans (off5_eq_0 c).symm) fullShare _)) $$ HOo4
  ihave HOo1 := (aside_elim _) $$ HOo1
  set_option sl_exec.stepHeartbeats 400000 in sl_exec_parts (disch := simp only [sl_canon])
  ihave Hts410 := (aside_elim _) $$ Hts410
  ihave GO10 := (aside_elim _) $$ GO10
  ihave HOo1 := (Entails.of_eq (pointsTo_congr (site_out fa fb c 1 (by decide) (k0_off6 c) (k0_off6 c) (k0_off6_inb c) (k0_off6_inb c) rfl _ _ _ _ _ _ rfl rfl (aRead_4 c _ _) (bRead_1 _ _) (slot_readback 1 2 inb_S8x4x512x256_S1x1x512x256_1_2_0_0 inb_S8x4x512x256_S1x1x512x256_1_3_0_0 _ _)))) $$ HOo1
  ihave HOo1 := (Entails.of_eq (oblk_pointsTo_congr c (k0_off6 c) (k0_off7 c 0#32) (k0_off6_inb c) (k0_off7_inb c 0) ((off6_eq c).trans (off7_eq_0 c).symm) fullShare _)) $$ HOo1
  ihave HOo5 := (aside_elim _) $$ HOo5
  set_option sl_exec.stepHeartbeats 400000 in sl_exec_parts (disch := simp only [sl_canon])
  ihave Hts450 := (aside_elim _) $$ Hts450
  ihave GO50 := (aside_elim _) $$ GO50
  ihave HOo5 := (Entails.of_eq (pointsTo_congr (site_out fa fb c 5 (by decide) (k0_off8 c) (k0_off8 c) (k0_off8_inb c) (k0_off8_inb c) rfl _ _ _ _ _ _ rfl rfl (aRead_m4 c _ _) (bRead_5 _ _) (slot_readback 5 2 inb_S8x4x512x256_S1x1x512x256_5_2_0_0 inb_S8x4x512x256_S1x1x512x256_5_3_0_0 _ _)))) $$ HOo5
  ihave HOo5 := (Entails.of_eq (oblk_pointsTo_congr c (k0_off8 c) (k0_off9 c 0#32) (k0_off8_inb c) (k0_off9_inb c 0) ((off8_eq c).trans (off9_eq_0 c).symm) fullShare _)) $$ HOo5
  ihave HOo2 := (aside_elim _) $$ HOo2
  set_option sl_exec.stepHeartbeats 400000 in sl_exec_parts (disch := simp only [sl_canon])
  ihave Hts420 := (aside_elim _) $$ Hts420
  ihave GO20 := (aside_elim _) $$ GO20
  ihave HOo2 := (Entails.of_eq (pointsTo_congr (site_out fa fb c 2 (by decide) (k0_off10 c) (k0_off10 c) (k0_off10_inb c) (k0_off10_inb c) rfl _ _ _ _ _ _ rfl rfl (aRead_4 c _ _) (bRead_2 _ _) (slot_readback 2 2 inb_S8x4x512x256_S1x1x512x256_2_2_0_0 inb_S8x4x512x256_S1x1x512x256_2_3_0_0 _ _)))) $$ HOo2
  ihave HOo2 := (Entails.of_eq (oblk_pointsTo_congr c (k0_off10 c) (k0_off11 c 0#32) (k0_off10_inb c) (k0_off11_inb c 0) ((off10_eq c).trans (off11_eq_0 c).symm) fullShare _)) $$ HOo2
  ihave HOo6 := (aside_elim _) $$ HOo6
  set_option sl_exec.stepHeartbeats 400000 in sl_exec_parts (disch := simp only [sl_canon])
  ihave Hts460 := (aside_elim _) $$ Hts460
  ihave GO60 := (aside_elim _) $$ GO60
  ihave HOo6 := (Entails.of_eq (pointsTo_congr (site_out fa fb c 6 (by decide) (k0_off12 c) (k0_off12 c) (k0_off12_inb c) (k0_off12_inb c) rfl _ _ _ _ _ _ rfl rfl (aRead_m4 c _ _) (bRead_6 _ _) (slot_readback 6 2 inb_S8x4x512x256_S1x1x512x256_6_2_0_0 inb_S8x4x512x256_S1x1x512x256_6_3_0_0 _ _)))) $$ HOo6
  ihave HOo6 := (Entails.of_eq (oblk_pointsTo_congr c (k0_off12 c) (k0_off13 c 0#32) (k0_off12_inb c) (k0_off13_inb c 0) ((off12_eq c).trans (off13_eq_0 c).symm) fullShare _)) $$ HOo6
  ihave HOo3 := (aside_elim _) $$ HOo3
  set_option sl_exec.stepHeartbeats 400000 in sl_exec_parts (disch := simp only [sl_canon])
  ihave Hts430 := (aside_elim _) $$ Hts430
  ihave GO30 := (aside_elim _) $$ GO30
  ihave HOo3 := (Entails.of_eq (pointsTo_congr (site_out fa fb c 3 (by decide) (k0_off14 c) (k0_off14 c) (k0_off14_inb c) (k0_off14_inb c) rfl _ _ _ _ _ _ rfl rfl (aRead_4 c _ _) (bRead_3 _ _) (slot_readback 3 2 inb_S8x4x512x256_S1x1x512x256_3_2_0_0 inb_S8x4x512x256_S1x1x512x256_3_3_0_0 _ _)))) $$ HOo3
  ihave HOo3 := (Entails.of_eq (oblk_pointsTo_congr c (k0_off14 c) (k0_off15 c 0#32) (k0_off14_inb c) (k0_off15_inb c 0) ((off14_eq c).trans (off15_eq_0 c).symm) fullShare _)) $$ HOo3
  ihave HOo7 := (aside_elim _) $$ HOo7
  set_option sl_exec.stepHeartbeats 400000 in sl_exec_parts (disch := simp only [sl_canon])
  ihave Hts470 := (aside_elim _) $$ Hts470
  ihave GO70 := (aside_elim _) $$ GO70
  ihave HOo7 := (Entails.of_eq (pointsTo_congr (site_out fa fb c 7 (by decide) (k0_off16 c) (k0_off16 c) (k0_off16_inb c) (k0_off16_inb c) rfl _ _ _ _ _ _ rfl rfl (aRead_m4 c _ _) (bRead_7 _ _) (slot_readback 7 2 inb_S8x4x512x256_S1x1x512x256_7_2_0_0 inb_S8x4x512x256_S1x1x512x256_7_3_0_0 _ _)))) $$ HOo7
  ihave HOo7 := (Entails.of_eq (oblk_pointsTo_congr c (k0_off16 c) (k0_off17 c 0#32) (k0_off16_inb c) (k0_off17_inb c 0) ((off16_eq c).trans (off17_eq_0 c).symm) fullShare _)) $$ HOo7
  set_option sl_exec.stepHeartbeats 400000 in sl_exec_parts (disch := simp only [sl_canon])
  ihave Hat500 := (aside_elim _) $$ Hat500
  iapply (Rounds.wp_wait_rest_token 𝒱₀ ER (ringRd (F := F) fa fb) (c : Thread nD τ) none (κ := K (dcell c (csem cc0_scratch5 0 0 inb_S8x3_S1x1_0_0)))
      (wpE_waitDma2_eq 𝒱₀ (c : Thread nD τ) none Set.univ) (Set.mem_univ _) () (R := 0) (m := 0) (T := ∅)
      (by rw [Nat.zero_add, expect_agRecv fa fb c 0 0 _])) $$ [Hc500 HO Hmw500 Hat500]
  · isplitr; · iexact HI500
    isplitl [Hc500]; · iexact Hc500
    isplitl [HO]; · iexact HO
    isplitl [Hmw500]; · iexact Hmw500
    iexact Hat500
  iintro ⟨HO, Hat500, -, Hat500_pay1⟩
  ihave Hat500_pay1 := (Entails.of_eq (rest_agRecv fa fb c 0 0 (by decide) (by decide) _)) $$ Hat500_pay1
  icases Hat500_pay1 with ⟨%fd500, Hat500_pay1⟩
  ihave Hat500_pay1 := (Entails.of_eq (site_fwd_pt c _ (k0_off3 c 1#32) _ _ (k0_off3_inb c 1) _ (agOff_0_1 c).symm fullShare _ _)) $$ Hat500_pay1
  ihave Hts401 := (aside_elim _) $$ Hts401
  ihave GO01 := (aside_elim _) $$ GO01
  set_option sl_exec.stepHeartbeats 400000 in sl_exec_parts (disch := simp only [sl_canon])
  ihave Hat540 := (aside_elim _) $$ Hat540
  iapply (Rounds.wp_wait_rest_token 𝒱₀ ER (ringRd (F := F) fa fb) (c : Thread nD τ) none (κ := K (dcell c (csem cc0_scratch5 4 0 inb_S8x3_S1x1_4_0)))
      (wpE_waitDma2_eq 𝒱₀ (c : Thread nD τ) none Set.univ) (Set.mem_univ _) () (R := 0) (m := 0) (T := ∅)
      (by rw [Nat.zero_add, expect_agRecv fa fb c 4 0 _])) $$ [Hc540 HO Hmw540 Hat540]
  · isplitr; · iexact HI540
    isplitl [Hc540]; · iexact Hc540
    isplitl [HO]; · iexact HO
    isplitl [Hmw540]; · iexact Hmw540
    iexact Hat540
  iintro ⟨HO, Hat540, -, Hat540_pay1⟩
  ihave Hat540_pay1 := (Entails.of_eq (rest_agRecv fa fb c 4 0 (by decide) (by decide) _)) $$ Hat540_pay1
  icases Hat540_pay1 with ⟨%fd540, Hat540_pay1⟩
  ihave Hat540_pay1 := (Entails.of_eq (site_fwd_pt c _ (k0_off5 c 4294967295#32) _ _ (k0_off5_inb c 1) _ (agOff_4_1 c).symm fullShare _ _)) $$ Hat540_pay1
  ihave Hts441 := (aside_elim _) $$ Hts441
  ihave GO41 := (aside_elim _) $$ GO41
  set_option sl_exec.stepHeartbeats 400000 in sl_exec_parts (disch := simp only [sl_canon])
  ihave Hat510 := (aside_elim _) $$ Hat510
  iapply (Rounds.wp_wait_rest_token 𝒱₀ ER (ringRd (F := F) fa fb) (c : Thread nD τ) none (κ := K (dcell c (csem cc0_scratch5 1 0 inb_S8x3_S1x1_1_0)))
      (wpE_waitDma2_eq 𝒱₀ (c : Thread nD τ) none Set.univ) (Set.mem_univ _) () (R := 0) (m := 0) (T := ∅)
      (by rw [Nat.zero_add, expect_agRecv fa fb c 1 0 _])) $$ [Hc510 HO Hmw510 Hat510]
  · isplitr; · iexact HI510
    isplitl [Hc510]; · iexact Hc510
    isplitl [HO]; · iexact HO
    isplitl [Hmw510]; · iexact Hmw510
    iexact Hat510
  iintro ⟨HO, Hat510, -, Hat510_pay1⟩
  ihave Hat510_pay1 := (Entails.of_eq (rest_agRecv fa fb c 1 0 (by decide) (by decide) _)) $$ Hat510_pay1
  icases Hat510_pay1 with ⟨%fd510, Hat510_pay1⟩
  ihave Hat510_pay1 := (Entails.of_eq (site_fwd_pt c _ (k0_off7 c 1#32) _ _ (k0_off7_inb c 1) _ (agOff_1_1 c).symm fullShare _ _)) $$ Hat510_pay1
  ihave Hts411 := (aside_elim _) $$ Hts411
  ihave GO11 := (aside_elim _) $$ GO11
  set_option sl_exec.stepHeartbeats 400000 in sl_exec_parts (disch := simp only [sl_canon])
  ihave Hat550 := (aside_elim _) $$ Hat550
  iapply (Rounds.wp_wait_rest_token 𝒱₀ ER (ringRd (F := F) fa fb) (c : Thread nD τ) none (κ := K (dcell c (csem cc0_scratch5 5 0 inb_S8x3_S1x1_5_0)))
      (wpE_waitDma2_eq 𝒱₀ (c : Thread nD τ) none Set.univ) (Set.mem_univ _) () (R := 0) (m := 0) (T := ∅)
      (by rw [Nat.zero_add, expect_agRecv fa fb c 5 0 _])) $$ [Hc550 HO Hmw550 Hat550]
  · isplitr; · iexact HI550
    isplitl [Hc550]; · iexact Hc550
    isplitl [HO]; · iexact HO
    isplitl [Hmw550]; · iexact Hmw550
    iexact Hat550
  iintro ⟨HO, Hat550, -, Hat550_pay1⟩
  ihave Hat550_pay1 := (Entails.of_eq (rest_agRecv fa fb c 5 0 (by decide) (by decide) _)) $$ Hat550_pay1
  icases Hat550_pay1 with ⟨%fd550, Hat550_pay1⟩
  ihave Hat550_pay1 := (Entails.of_eq (site_fwd_pt c _ (k0_off9 c 4294967295#32) _ _ (k0_off9_inb c 1) _ (agOff_5_1 c).symm fullShare _ _)) $$ Hat550_pay1
  ihave Hts451 := (aside_elim _) $$ Hts451
  ihave GO51 := (aside_elim _) $$ GO51
  set_option sl_exec.stepHeartbeats 400000 in sl_exec_parts (disch := simp only [sl_canon])
  ihave Hat520 := (aside_elim _) $$ Hat520
  iapply (Rounds.wp_wait_rest_token 𝒱₀ ER (ringRd (F := F) fa fb) (c : Thread nD τ) none (κ := K (dcell c (csem cc0_scratch5 2 0 inb_S8x3_S1x1_2_0)))
      (wpE_waitDma2_eq 𝒱₀ (c : Thread nD τ) none Set.univ) (Set.mem_univ _) () (R := 0) (m := 0) (T := ∅)
      (by rw [Nat.zero_add, expect_agRecv fa fb c 2 0 _])) $$ [Hc520 HO Hmw520 Hat520]
  · isplitr; · iexact HI520
    isplitl [Hc520]; · iexact Hc520
    isplitl [HO]; · iexact HO
    isplitl [Hmw520]; · iexact Hmw520
    iexact Hat520
  iintro ⟨HO, Hat520, -, Hat520_pay1⟩
  ihave Hat520_pay1 := (Entails.of_eq (rest_agRecv fa fb c 2 0 (by decide) (by decide) _)) $$ Hat520_pay1
  icases Hat520_pay1 with ⟨%fd520, Hat520_pay1⟩
  ihave Hat520_pay1 := (Entails.of_eq (site_fwd_pt c _ (k0_off11 c 1#32) _ _ (k0_off11_inb c 1) _ (agOff_2_1 c).symm fullShare _ _)) $$ Hat520_pay1
  ihave Hts421 := (aside_elim _) $$ Hts421
  ihave GO21 := (aside_elim _) $$ GO21
  set_option sl_exec.stepHeartbeats 400000 in sl_exec_parts (disch := simp only [sl_canon])
  ihave Hat560 := (aside_elim _) $$ Hat560
  iapply (Rounds.wp_wait_rest_token 𝒱₀ ER (ringRd (F := F) fa fb) (c : Thread nD τ) none (κ := K (dcell c (csem cc0_scratch5 6 0 inb_S8x3_S1x1_6_0)))
      (wpE_waitDma2_eq 𝒱₀ (c : Thread nD τ) none Set.univ) (Set.mem_univ _) () (R := 0) (m := 0) (T := ∅)
      (by rw [Nat.zero_add, expect_agRecv fa fb c 6 0 _])) $$ [Hc560 HO Hmw560 Hat560]
  · isplitr; · iexact HI560
    isplitl [Hc560]; · iexact Hc560
    isplitl [HO]; · iexact HO
    isplitl [Hmw560]; · iexact Hmw560
    iexact Hat560
  iintro ⟨HO, Hat560, -, Hat560_pay1⟩
  ihave Hat560_pay1 := (Entails.of_eq (rest_agRecv fa fb c 6 0 (by decide) (by decide) _)) $$ Hat560_pay1
  icases Hat560_pay1 with ⟨%fd560, Hat560_pay1⟩
  ihave Hat560_pay1 := (Entails.of_eq (site_fwd_pt c _ (k0_off13 c 4294967295#32) _ _ (k0_off13_inb c 1) _ (agOff_6_1 c).symm fullShare _ _)) $$ Hat560_pay1
  ihave Hts461 := (aside_elim _) $$ Hts461
  ihave GO61 := (aside_elim _) $$ GO61
  set_option sl_exec.stepHeartbeats 400000 in sl_exec_parts (disch := simp only [sl_canon])
  ihave Hat530 := (aside_elim _) $$ Hat530
  iapply (Rounds.wp_wait_rest_token 𝒱₀ ER (ringRd (F := F) fa fb) (c : Thread nD τ) none (κ := K (dcell c (csem cc0_scratch5 3 0 inb_S8x3_S1x1_3_0)))
      (wpE_waitDma2_eq 𝒱₀ (c : Thread nD τ) none Set.univ) (Set.mem_univ _) () (R := 0) (m := 0) (T := ∅)
      (by rw [Nat.zero_add, expect_agRecv fa fb c 3 0 _])) $$ [Hc530 HO Hmw530 Hat530]
  · isplitr; · iexact HI530
    isplitl [Hc530]; · iexact Hc530
    isplitl [HO]; · iexact HO
    isplitl [Hmw530]; · iexact Hmw530
    iexact Hat530
  iintro ⟨HO, Hat530, -, Hat530_pay1⟩
  ihave Hat530_pay1 := (Entails.of_eq (rest_agRecv fa fb c 3 0 (by decide) (by decide) _)) $$ Hat530_pay1
  icases Hat530_pay1 with ⟨%fd530, Hat530_pay1⟩
  ihave Hat530_pay1 := (Entails.of_eq (site_fwd_pt c _ (k0_off15 c 1#32) _ _ (k0_off15_inb c 1) _ (agOff_3_1 c).symm fullShare _ _)) $$ Hat530_pay1
  ihave Hts431 := (aside_elim _) $$ Hts431
  ihave GO31 := (aside_elim _) $$ GO31
  set_option sl_exec.stepHeartbeats 400000 in sl_exec_parts (disch := simp only [sl_canon])
  ihave Hat570 := (aside_elim _) $$ Hat570
  iapply (Rounds.wp_wait_rest_token 𝒱₀ ER (ringRd (F := F) fa fb) (c : Thread nD τ) none (κ := K (dcell c (csem cc0_scratch5 7 0 inb_S8x3_S1x1_7_0)))
      (wpE_waitDma2_eq 𝒱₀ (c : Thread nD τ) none Set.univ) (Set.mem_univ _) () (R := 0) (m := 0) (T := ∅)
      (by rw [Nat.zero_add, expect_agRecv fa fb c 7 0 _])) $$ [Hc570 HO Hmw570 Hat570]
  · isplitr; · iexact HI570
    isplitl [Hc570]; · iexact Hc570
    isplitl [HO]; · iexact HO
    isplitl [Hmw570]; · iexact Hmw570
    iexact Hat570
  iintro ⟨HO, Hat570, -, Hat570_pay1⟩
  ihave Hat570_pay1 := (Entails.of_eq (rest_agRecv fa fb c 7 0 (by decide) (by decide) _)) $$ Hat570_pay1
  icases Hat570_pay1 with ⟨%fd570, Hat570_pay1⟩
  ihave Hat570_pay1 := (Entails.of_eq (site_fwd_pt c _ (k0_off17 c 4294967295#32) _ _ (k0_off17_inb c 1) _ (agOff_7_1 c).symm fullShare _ _)) $$ Hat570_pay1
  ihave Hts471 := (aside_elim _) $$ Hts471
  ihave GO71 := (aside_elim _) $$ GO71
  set_option sl_exec.stepHeartbeats 400000 in sl_exec_parts (disch := simp only [sl_canon])
  ihave Hat501 := (aside_elim _) $$ Hat501
  iapply (Rounds.wp_wait_rest_token 𝒱₀ ER (ringRd (F := F) fa fb) (c : Thread nD τ) none (κ := K (dcell c (csem cc0_scratch5 0 1 inb_S8x3_S1x1_0_1)))
      (wpE_waitDma2_eq 𝒱₀ (c : Thread nD τ) none Set.univ) (Set.mem_univ _) () (R := 0) (m := 0) (T := ∅)
      (by rw [Nat.zero_add, expect_agRecv fa fb c 0 1 _])) $$ [Hc501 HO Hmw501 Hat501]
  · isplitr; · iexact HI501
    isplitl [Hc501]; · iexact Hc501
    isplitl [HO]; · iexact HO
    isplitl [Hmw501]; · iexact Hmw501
    iexact Hat501
  iintro ⟨HO, Hat501, -, Hat501_pay1⟩
  ihave Hat501_pay1 := (Entails.of_eq (rest_agRecv fa fb c 0 1 (by decide) (by decide) _)) $$ Hat501_pay1
  icases Hat501_pay1 with ⟨%fd501, Hat501_pay1⟩
  ihave Hat501_pay1 := (Entails.of_eq (site_fwd_pt c _ (k0_off3 c 2#32) _ _ (k0_off3_inb c 2) _ (agOff_0_2 c).symm fullShare _ _)) $$ Hat501_pay1
  ihave Hts402 := (aside_elim _) $$ Hts402
  ihave GO02 := (aside_elim _) $$ GO02
  set_option sl_exec.stepHeartbeats 400000 in sl_exec_parts (disch := simp only [sl_canon])
  ihave Hat541 := (aside_elim _) $$ Hat541
  iapply (Rounds.wp_wait_rest_token 𝒱₀ ER (ringRd (F := F) fa fb) (c : Thread nD τ) none (κ := K (dcell c (csem cc0_scratch5 4 1 inb_S8x3_S1x1_4_1)))
      (wpE_waitDma2_eq 𝒱₀ (c : Thread nD τ) none Set.univ) (Set.mem_univ _) () (R := 0) (m := 0) (T := ∅)
      (by rw [Nat.zero_add, expect_agRecv fa fb c 4 1 _])) $$ [Hc541 HO Hmw541 Hat541]
  · isplitr; · iexact HI541
    isplitl [Hc541]; · iexact Hc541
    isplitl [HO]; · iexact HO
    isplitl [Hmw541]; · iexact Hmw541
    iexact Hat541
  iintro ⟨HO, Hat541, -, Hat541_pay1⟩
  ihave Hat541_pay1 := (Entails.of_eq (rest_agRecv fa fb c 4 1 (by decide) (by decide) _)) $$ Hat541_pay1
  icases Hat541_pay1 with ⟨%fd541, Hat541_pay1⟩
  ihave Hat541_pay1 := (Entails.of_eq (site_fwd_pt c _ (k0_off5 c 4294967294#32) _ _ (k0_off5_inb c 2) _ (agOff_4_2 c).symm fullShare _ _)) $$ Hat541_pay1
  ihave Hts442 := (aside_elim _) $$ Hts442
  ihave GO42 := (aside_elim _) $$ GO42
  set_option sl_exec.stepHeartbeats 400000 in sl_exec_parts (disch := simp only [sl_canon])
  ihave Hat511 := (aside_elim _) $$ Hat511
  iapply (Rounds.wp_wait_rest_token 𝒱₀ ER (ringRd (F := F) fa fb) (c : Thread nD τ) none (κ := K (dcell c (csem cc0_scratch5 1 1 inb_S8x3_S1x1_1_1)))
      (wpE_waitDma2_eq 𝒱₀ (c : Thread nD τ) none Set.univ) (Set.mem_univ _) () (R := 0) (m := 0) (T := ∅)
      (by rw [Nat.zero_add, expect_agRecv fa fb c 1 1 _])) $$ [Hc511 HO Hmw511 Hat511]
  · isplitr; · iexact HI511
    isplitl [Hc511]; · iexact Hc511
    isplitl [HO]; · iexact HO
    isplitl [Hmw511]; · iexact Hmw511
    iexact Hat511
  iintro ⟨HO, Hat511, -, Hat511_pay1⟩
  ihave Hat511_pay1 := (Entails.of_eq (rest_agRecv fa fb c 1 1 (by decide) (by decide) _)) $$ Hat511_pay1
  icases Hat511_pay1 with ⟨%fd511, Hat511_pay1⟩
  ihave Hat511_pay1 := (Entails.of_eq (site_fwd_pt c _ (k0_off7 c 2#32) _ _ (k0_off7_inb c 2) _ (agOff_1_2 c).symm fullShare _ _)) $$ Hat511_pay1
  ihave Hts412 := (aside_elim _) $$ Hts412
  ihave GO12 := (aside_elim _) $$ GO12
  set_option sl_exec.stepHeartbeats 400000 in sl_exec_parts (disch := simp only [sl_canon])
  ihave Hat551 := (aside_elim _) $$ Hat551
  iapply (Rounds.wp_wait_rest_token 𝒱₀ ER (ringRd (F := F) fa fb) (c : Thread nD τ) none (κ := K (dcell c (csem cc0_scratch5 5 1 inb_S8x3_S1x1_5_1)))
      (wpE_waitDma2_eq 𝒱₀ (c : Thread nD τ) none Set.univ) (Set.mem_univ _) () (R := 0) (m := 0) (T := ∅)
      (by rw [Nat.zero_add, expect_agRecv fa fb c 5 1 _])) $$ [Hc551 HO Hmw551 Hat551]
  · isplitr; · iexact HI551
    isplitl [Hc551]; · iexact Hc551
    isplitl [HO]; · iexact HO
    isplitl [Hmw551]; · iexact Hmw551
    iexact Hat551
  iintro ⟨HO, Hat551, -, Hat551_pay1⟩
  ihave Hat551_pay1 := (Entails.of_eq (rest_agRecv fa fb c 5 1 (by decide) (by decide) _)) $$ Hat551_pay1
  icases Hat551_pay1 with ⟨%fd551, Hat551_pay1⟩
  ihave Hat551_pay1 := (Entails.of_eq (site_fwd_pt c _ (k0_off9 c 4294967294#32) _ _ (k0_off9_inb c 2) _ (agOff_5_2 c).symm fullShare _ _)) $$ Hat551_pay1
  ihave Hts452 := (aside_elim _) $$ Hts452
  ihave GO52 := (aside_elim _) $$ GO52
  set_option sl_exec.stepHeartbeats 400000 in sl_exec_parts (disch := simp only [sl_canon])
  ihave Hat521 := (aside_elim _) $$ Hat521
  iapply (Rounds.wp_wait_rest_token 𝒱₀ ER (ringRd (F := F) fa fb) (c : Thread nD τ) none (κ := K (dcell c (csem cc0_scratch5 2 1 inb_S8x3_S1x1_2_1)))
      (wpE_waitDma2_eq 𝒱₀ (c : Thread nD τ) none Set.univ) (Set.mem_univ _) () (R := 0) (m := 0) (T := ∅)
      (by rw [Nat.zero_add, expect_agRecv fa fb c 2 1 _])) $$ [Hc521 HO Hmw521 Hat521]
  · isplitr; · iexact HI521
    isplitl [Hc521]; · iexact Hc521
    isplitl [HO]; · iexact HO
    isplitl [Hmw521]; · iexact Hmw521
    iexact Hat521
  iintro ⟨HO, Hat521, -, Hat521_pay1⟩
  ihave Hat521_pay1 := (Entails.of_eq (rest_agRecv fa fb c 2 1 (by decide) (by decide) _)) $$ Hat521_pay1
  icases Hat521_pay1 with ⟨%fd521, Hat521_pay1⟩
  ihave Hat521_pay1 := (Entails.of_eq (site_fwd_pt c _ (k0_off11 c 2#32) _ _ (k0_off11_inb c 2) _ (agOff_2_2 c).symm fullShare _ _)) $$ Hat521_pay1
  ihave Hts422 := (aside_elim _) $$ Hts422
  ihave GO22 := (aside_elim _) $$ GO22
  set_option sl_exec.stepHeartbeats 400000 in sl_exec_parts (disch := simp only [sl_canon])
  ihave Hat561 := (aside_elim _) $$ Hat561
  iapply (Rounds.wp_wait_rest_token 𝒱₀ ER (ringRd (F := F) fa fb) (c : Thread nD τ) none (κ := K (dcell c (csem cc0_scratch5 6 1 inb_S8x3_S1x1_6_1)))
      (wpE_waitDma2_eq 𝒱₀ (c : Thread nD τ) none Set.univ) (Set.mem_univ _) () (R := 0) (m := 0) (T := ∅)
      (by rw [Nat.zero_add, expect_agRecv fa fb c 6 1 _])) $$ [Hc561 HO Hmw561 Hat561]
  · isplitr; · iexact HI561
    isplitl [Hc561]; · iexact Hc561
    isplitl [HO]; · iexact HO
    isplitl [Hmw561]; · iexact Hmw561
    iexact Hat561
  iintro ⟨HO, Hat561, -, Hat561_pay1⟩
  ihave Hat561_pay1 := (Entails.of_eq (rest_agRecv fa fb c 6 1 (by decide) (by decide) _)) $$ Hat561_pay1
  icases Hat561_pay1 with ⟨%fd561, Hat561_pay1⟩
  ihave Hat561_pay1 := (Entails.of_eq (site_fwd_pt c _ (k0_off13 c 4294967294#32) _ _ (k0_off13_inb c 2) _ (agOff_6_2 c).symm fullShare _ _)) $$ Hat561_pay1
  ihave Hts462 := (aside_elim _) $$ Hts462
  ihave GO62 := (aside_elim _) $$ GO62
  set_option sl_exec.stepHeartbeats 400000 in sl_exec_parts (disch := simp only [sl_canon])
  ihave Hat531 := (aside_elim _) $$ Hat531
  iapply (Rounds.wp_wait_rest_token 𝒱₀ ER (ringRd (F := F) fa fb) (c : Thread nD τ) none (κ := K (dcell c (csem cc0_scratch5 3 1 inb_S8x3_S1x1_3_1)))
      (wpE_waitDma2_eq 𝒱₀ (c : Thread nD τ) none Set.univ) (Set.mem_univ _) () (R := 0) (m := 0) (T := ∅)
      (by rw [Nat.zero_add, expect_agRecv fa fb c 3 1 _])) $$ [Hc531 HO Hmw531 Hat531]
  · isplitr; · iexact HI531
    isplitl [Hc531]; · iexact Hc531
    isplitl [HO]; · iexact HO
    isplitl [Hmw531]; · iexact Hmw531
    iexact Hat531
  iintro ⟨HO, Hat531, -, Hat531_pay1⟩
  ihave Hat531_pay1 := (Entails.of_eq (rest_agRecv fa fb c 3 1 (by decide) (by decide) _)) $$ Hat531_pay1
  icases Hat531_pay1 with ⟨%fd531, Hat531_pay1⟩
  ihave Hat531_pay1 := (Entails.of_eq (site_fwd_pt c _ (k0_off15 c 2#32) _ _ (k0_off15_inb c 2) _ (agOff_3_2 c).symm fullShare _ _)) $$ Hat531_pay1
  ihave Hts432 := (aside_elim _) $$ Hts432
  ihave GO32 := (aside_elim _) $$ GO32
  set_option sl_exec.stepHeartbeats 400000 in sl_exec_parts (disch := simp only [sl_canon])
  ihave Hat571 := (aside_elim _) $$ Hat571
  iapply (Rounds.wp_wait_rest_token 𝒱₀ ER (ringRd (F := F) fa fb) (c : Thread nD τ) none (κ := K (dcell c (csem cc0_scratch5 7 1 inb_S8x3_S1x1_7_1)))
      (wpE_waitDma2_eq 𝒱₀ (c : Thread nD τ) none Set.univ) (Set.mem_univ _) () (R := 0) (m := 0) (T := ∅)
      (by rw [Nat.zero_add, expect_agRecv fa fb c 7 1 _])) $$ [Hc571 HO Hmw571 Hat571]
  · isplitr; · iexact HI571
    isplitl [Hc571]; · iexact Hc571
    isplitl [HO]; · iexact HO
    isplitl [Hmw571]; · iexact Hmw571
    iexact Hat571
  iintro ⟨HO, Hat571, -, Hat571_pay1⟩
  ihave Hat571_pay1 := (Entails.of_eq (rest_agRecv fa fb c 7 1 (by decide) (by decide) _)) $$ Hat571_pay1
  icases Hat571_pay1 with ⟨%fd571, Hat571_pay1⟩
  ihave Hat571_pay1 := (Entails.of_eq (site_fwd_pt c _ (k0_off17 c 4294967294#32) _ _ (k0_off17_inb c 2) _ (agOff_7_2 c).symm fullShare _ _)) $$ Hat571_pay1
  ihave Hts472 := (aside_elim _) $$ Hts472
  ihave GO72 := (aside_elim _) $$ GO72
  set_option sl_exec.stepHeartbeats 400000 in sl_exec_parts (disch := simp only [sl_canon])
  ihave Hat502 := (aside_elim _) $$ Hat502
  iapply (Rounds.wp_wait_rest_token 𝒱₀ ER (ringRd (F := F) fa fb) (c : Thread nD τ) none (κ := K (dcell c (csem cc0_scratch5 0 2 inb_S8x3_S1x1_0_2)))
      (wpE_waitDma2_eq 𝒱₀ (c : Thread nD τ) none Set.univ) (Set.mem_univ _) () (R := 0) (m := 0) (T := ∅)
      (by rw [Nat.zero_add, expect_agRecv fa fb c 0 2 _])) $$ [Hc502 HO Hmw502 Hat502]
  · isplitr; · iexact HI502
    isplitl [Hc502]; · iexact Hc502
    isplitl [HO]; · iexact HO
    isplitl [Hmw502]; · iexact Hmw502
    iexact Hat502
  iintro ⟨HO, Hat502, -, Hat502_pay1⟩
  ihave Hat502_pay1 := (Entails.of_eq (rest_agRecv fa fb c 0 2 (by decide) (by decide) _)) $$ Hat502_pay1
  icases Hat502_pay1 with ⟨%fdL0, Hat502_pay1⟩
  set_option sl_exec.stepHeartbeats 400000 in sl_exec_parts (disch := simp only [sl_canon])
  ihave Hat542 := (aside_elim _) $$ Hat542
  iapply (Rounds.wp_wait_rest_token 𝒱₀ ER (ringRd (F := F) fa fb) (c : Thread nD τ) none (κ := K (dcell c (csem cc0_scratch5 4 2 inb_S8x3_S1x1_4_2)))
      (wpE_waitDma2_eq 𝒱₀ (c : Thread nD τ) none Set.univ) (Set.mem_univ _) () (R := 0) (m := 0) (T := ∅)
      (by rw [Nat.zero_add, expect_agRecv fa fb c 4 2 _])) $$ [Hc542 HO Hmw542 Hat542]
  · isplitr; · iexact HI542
    isplitl [Hc542]; · iexact Hc542
    isplitl [HO]; · iexact HO
    isplitl [Hmw542]; · iexact Hmw542
    iexact Hat542
  iintro ⟨HO, Hat542, -, Hat542_pay1⟩
  ihave Hat542_pay1 := (Entails.of_eq (rest_agRecv fa fb c 4 2 (by decide) (by decide) _)) $$ Hat542_pay1
  icases Hat542_pay1 with ⟨%fdL4, Hat542_pay1⟩
  set_option sl_exec.stepHeartbeats 400000 in sl_exec_parts (disch := simp only [sl_canon])
  ihave Hat512 := (aside_elim _) $$ Hat512
  iapply (Rounds.wp_wait_rest_token 𝒱₀ ER (ringRd (F := F) fa fb) (c : Thread nD τ) none (κ := K (dcell c (csem cc0_scratch5 1 2 inb_S8x3_S1x1_1_2)))
      (wpE_waitDma2_eq 𝒱₀ (c : Thread nD τ) none Set.univ) (Set.mem_univ _) () (R := 0) (m := 0) (T := ∅)
      (by rw [Nat.zero_add, expect_agRecv fa fb c 1 2 _])) $$ [Hc512 HO Hmw512 Hat512]
  · isplitr; · iexact HI512
    isplitl [Hc512]; · iexact Hc512
    isplitl [HO]; · iexact HO
    isplitl [Hmw512]; · iexact Hmw512
    iexact Hat512
  iintro ⟨HO, Hat512, -, Hat512_pay1⟩
  ihave Hat512_pay1 := (Entails.of_eq (rest_agRecv fa fb c 1 2 (by decide) (by decide) _)) $$ Hat512_pay1
  icases Hat512_pay1 with ⟨%fdL1, Hat512_pay1⟩
  set_option sl_exec.stepHeartbeats 400000 in sl_exec_parts (disch := simp only [sl_canon])
  ihave Hat552 := (aside_elim _) $$ Hat552
  iapply (Rounds.wp_wait_rest_token 𝒱₀ ER (ringRd (F := F) fa fb) (c : Thread nD τ) none (κ := K (dcell c (csem cc0_scratch5 5 2 inb_S8x3_S1x1_5_2)))
      (wpE_waitDma2_eq 𝒱₀ (c : Thread nD τ) none Set.univ) (Set.mem_univ _) () (R := 0) (m := 0) (T := ∅)
      (by rw [Nat.zero_add, expect_agRecv fa fb c 5 2 _])) $$ [Hc552 HO Hmw552 Hat552]
  · isplitr; · iexact HI552
    isplitl [Hc552]; · iexact Hc552
    isplitl [HO]; · iexact HO
    isplitl [Hmw552]; · iexact Hmw552
    iexact Hat552
  iintro ⟨HO, Hat552, -, Hat552_pay1⟩
  ihave Hat552_pay1 := (Entails.of_eq (rest_agRecv fa fb c 5 2 (by decide) (by decide) _)) $$ Hat552_pay1
  icases Hat552_pay1 with ⟨%fdL5, Hat552_pay1⟩
  set_option sl_exec.stepHeartbeats 400000 in sl_exec_parts (disch := simp only [sl_canon])
  ihave Hat522 := (aside_elim _) $$ Hat522
  iapply (Rounds.wp_wait_rest_token 𝒱₀ ER (ringRd (F := F) fa fb) (c : Thread nD τ) none (κ := K (dcell c (csem cc0_scratch5 2 2 inb_S8x3_S1x1_2_2)))
      (wpE_waitDma2_eq 𝒱₀ (c : Thread nD τ) none Set.univ) (Set.mem_univ _) () (R := 0) (m := 0) (T := ∅)
      (by rw [Nat.zero_add, expect_agRecv fa fb c 2 2 _])) $$ [Hc522 HO Hmw522 Hat522]
  · isplitr; · iexact HI522
    isplitl [Hc522]; · iexact Hc522
    isplitl [HO]; · iexact HO
    isplitl [Hmw522]; · iexact Hmw522
    iexact Hat522
  iintro ⟨HO, Hat522, -, Hat522_pay1⟩
  ihave Hat522_pay1 := (Entails.of_eq (rest_agRecv fa fb c 2 2 (by decide) (by decide) _)) $$ Hat522_pay1
  icases Hat522_pay1 with ⟨%fdL2, Hat522_pay1⟩
  set_option sl_exec.stepHeartbeats 400000 in sl_exec_parts (disch := simp only [sl_canon])
  ihave Hat562 := (aside_elim _) $$ Hat562
  iapply (Rounds.wp_wait_rest_token 𝒱₀ ER (ringRd (F := F) fa fb) (c : Thread nD τ) none (κ := K (dcell c (csem cc0_scratch5 6 2 inb_S8x3_S1x1_6_2)))
      (wpE_waitDma2_eq 𝒱₀ (c : Thread nD τ) none Set.univ) (Set.mem_univ _) () (R := 0) (m := 0) (T := ∅)
      (by rw [Nat.zero_add, expect_agRecv fa fb c 6 2 _])) $$ [Hc562 HO Hmw562 Hat562]
  · isplitr; · iexact HI562
    isplitl [Hc562]; · iexact Hc562
    isplitl [HO]; · iexact HO
    isplitl [Hmw562]; · iexact Hmw562
    iexact Hat562
  iintro ⟨HO, Hat562, -, Hat562_pay1⟩
  ihave Hat562_pay1 := (Entails.of_eq (rest_agRecv fa fb c 6 2 (by decide) (by decide) _)) $$ Hat562_pay1
  icases Hat562_pay1 with ⟨%fdL6, Hat562_pay1⟩
  set_option sl_exec.stepHeartbeats 400000 in sl_exec_parts (disch := simp only [sl_canon])
  ihave Hat532 := (aside_elim _) $$ Hat532
  iapply (Rounds.wp_wait_rest_token 𝒱₀ ER (ringRd (F := F) fa fb) (c : Thread nD τ) none (κ := K (dcell c (csem cc0_scratch5 3 2 inb_S8x3_S1x1_3_2)))
      (wpE_waitDma2_eq 𝒱₀ (c : Thread nD τ) none Set.univ) (Set.mem_univ _) () (R := 0) (m := 0) (T := ∅)
      (by rw [Nat.zero_add, expect_agRecv fa fb c 3 2 _])) $$ [Hc532 HO Hmw532 Hat532]
  · isplitr; · iexact HI532
    isplitl [Hc532]; · iexact Hc532
    isplitl [HO]; · iexact HO
    isplitl [Hmw532]; · iexact Hmw532
    iexact Hat532
  iintro ⟨HO, Hat532, -, Hat532_pay1⟩
  ihave Hat532_pay1 := (Entails.of_eq (rest_agRecv fa fb c 3 2 (by decide) (by decide) _)) $$ Hat532_pay1
  icases Hat532_pay1 with ⟨%fdL3, Hat532_pay1⟩
  set_option sl_exec.stepHeartbeats 400000 in sl_exec_parts (disch := simp only [sl_canon])
  ihave Hat572 := (aside_elim _) $$ Hat572
  iapply (Rounds.wp_wait_rest_token 𝒱₀ ER (ringRd (F := F) fa fb) (c : Thread nD τ) none (κ := K (dcell c (csem cc0_scratch5 7 2 inb_S8x3_S1x1_7_2)))
      (wpE_waitDma2_eq 𝒱₀ (c : Thread nD τ) none Set.univ) (Set.mem_univ _) () (R := 0) (m := 0) (T := ∅)
      (by rw [Nat.zero_add, expect_agRecv fa fb c 7 2 _])) $$ [Hc572 HO Hmw572 Hat572]
  · isplitr; · iexact HI572
    isplitl [Hc572]; · iexact Hc572
    isplitl [HO]; · iexact HO
    isplitl [Hmw572]; · iexact Hmw572
    iexact Hat572
  iintro ⟨HO, Hat572, -, Hat572_pay1⟩
  ihave Hat572_pay1 := (Entails.of_eq (rest_agRecv fa fb c 7 2 (by decide) (by decide) _)) $$ Hat572_pay1
  icases Hat572_pay1 with ⟨%fdL7, Hat572_pay1⟩
  set_option sl_exec.stepHeartbeats 400000 in sl_exec_parts (disch := simp only [sl_canon])
  ihave Hat400 := (aside_elim _) $$ Hat400
  iapply (Rounds.wp_wait_rest_token 𝒱₀ ER (ringRd (F := F) fa fb) (c : Thread nD τ) none (κ := K (dcell c (csem cc0_scratch4 0 0 inb_S8x3_S1x1_0_0)))
      (wpE_waitDma2_eq 𝒱₀ (c : Thread nD τ) none Set.univ) (Set.mem_univ _) () (R := 0) (m := 0) (T := ∅)
      (by rw [Nat.zero_add, expect_agSend fa fb c 0 0 _])) $$ [HOo0_cred HO Hat400]
  · isplitr; · iexact HI400
    isplitl [HOo0_cred]; · iexact HOo0_cred
    isplitl [HO]; · iexact HO
    isplitr; · rw [MayWait_zero]; iempintro
    iexact Hat400
  iintro ⟨HO, Hat400, -, Hat400_pay1⟩
  ihave Hat400_pay1 := (Entails.of_eq (rest_agSend fa fb c 0 0 (by decide) (by decide) _)) $$ Hat400_pay1
  ihave Hat400_pay1 := (Entails.of_eq (oblk_pointsTo_congr c _ (k0_off3 c 0#32) _ (k0_off3_inb c 0) (agOff_0_0 c).symm fullShare _)) $$ Hat400_pay1
  set_option sl_exec.stepHeartbeats 400000 in sl_exec_parts (disch := simp only [sl_canon])
  ihave Hat440 := (aside_elim _) $$ Hat440
  iapply (Rounds.wp_wait_rest_token 𝒱₀ ER (ringRd (F := F) fa fb) (c : Thread nD τ) none (κ := K (dcell c (csem cc0_scratch4 4 0 inb_S8x3_S1x1_4_0)))
      (wpE_waitDma2_eq 𝒱₀ (c : Thread nD τ) none Set.univ) (Set.mem_univ _) () (R := 0) (m := 0) (T := ∅)
      (by rw [Nat.zero_add, expect_agSend fa fb c 4 0 _])) $$ [HOo4_cred HO Hat440]
  · isplitr; · iexact HI440
    isplitl [HOo4_cred]; · iexact HOo4_cred
    isplitl [HO]; · iexact HO
    isplitr; · rw [MayWait_zero]; iempintro
    iexact Hat440
  iintro ⟨HO, Hat440, -, Hat440_pay1⟩
  ihave Hat440_pay1 := (Entails.of_eq (rest_agSend fa fb c 4 0 (by decide) (by decide) _)) $$ Hat440_pay1
  ihave Hat440_pay1 := (Entails.of_eq (oblk_pointsTo_congr c _ (k0_off5 c 0#32) _ (k0_off5_inb c 0) (agOff_4_0 c).symm fullShare _)) $$ Hat440_pay1
  set_option sl_exec.stepHeartbeats 400000 in sl_exec_parts (disch := simp only [sl_canon])
  ihave Hat410 := (aside_elim _) $$ Hat410
  iapply (Rounds.wp_wait_rest_token 𝒱₀ ER (ringRd (F := F) fa fb) (c : Thread nD τ) none (κ := K (dcell c (csem cc0_scratch4 1 0 inb_S8x3_S1x1_1_0)))
      (wpE_waitDma2_eq 𝒱₀ (c : Thread nD τ) none Set.univ) (Set.mem_univ _) () (R := 0) (m := 0) (T := ∅)
      (by rw [Nat.zero_add, expect_agSend fa fb c 1 0 _])) $$ [HOo1_cred HO Hat410]
  · isplitr; · iexact HI410
    isplitl [HOo1_cred]; · iexact HOo1_cred
    isplitl [HO]; · iexact HO
    isplitr; · rw [MayWait_zero]; iempintro
    iexact Hat410
  iintro ⟨HO, Hat410, -, Hat410_pay1⟩
  ihave Hat410_pay1 := (Entails.of_eq (rest_agSend fa fb c 1 0 (by decide) (by decide) _)) $$ Hat410_pay1
  ihave Hat410_pay1 := (Entails.of_eq (oblk_pointsTo_congr c _ (k0_off7 c 0#32) _ (k0_off7_inb c 0) (agOff_1_0 c).symm fullShare _)) $$ Hat410_pay1
  set_option sl_exec.stepHeartbeats 400000 in sl_exec_parts (disch := simp only [sl_canon])
  ihave Hat450 := (aside_elim _) $$ Hat450
  iapply (Rounds.wp_wait_rest_token 𝒱₀ ER (ringRd (F := F) fa fb) (c : Thread nD τ) none (κ := K (dcell c (csem cc0_scratch4 5 0 inb_S8x3_S1x1_5_0)))
      (wpE_waitDma2_eq 𝒱₀ (c : Thread nD τ) none Set.univ) (Set.mem_univ _) () (R := 0) (m := 0) (T := ∅)
      (by rw [Nat.zero_add, expect_agSend fa fb c 5 0 _])) $$ [HOo5_cred HO Hat450]
  · isplitr; · iexact HI450
    isplitl [HOo5_cred]; · iexact HOo5_cred
    isplitl [HO]; · iexact HO
    isplitr; · rw [MayWait_zero]; iempintro
    iexact Hat450
  iintro ⟨HO, Hat450, -, Hat450_pay1⟩
  ihave Hat450_pay1 := (Entails.of_eq (rest_agSend fa fb c 5 0 (by decide) (by decide) _)) $$ Hat450_pay1
  ihave Hat450_pay1 := (Entails.of_eq (oblk_pointsTo_congr c _ (k0_off9 c 0#32) _ (k0_off9_inb c 0) (agOff_5_0 c).symm fullShare _)) $$ Hat450_pay1
  set_option sl_exec.stepHeartbeats 400000 in sl_exec_parts (disch := simp only [sl_canon])
  ihave Hat420 := (aside_elim _) $$ Hat420
  iapply (Rounds.wp_wait_rest_token 𝒱₀ ER (ringRd (F := F) fa fb) (c : Thread nD τ) none (κ := K (dcell c (csem cc0_scratch4 2 0 inb_S8x3_S1x1_2_0)))
      (wpE_waitDma2_eq 𝒱₀ (c : Thread nD τ) none Set.univ) (Set.mem_univ _) () (R := 0) (m := 0) (T := ∅)
      (by rw [Nat.zero_add, expect_agSend fa fb c 2 0 _])) $$ [HOo2_cred HO Hat420]
  · isplitr; · iexact HI420
    isplitl [HOo2_cred]; · iexact HOo2_cred
    isplitl [HO]; · iexact HO
    isplitr; · rw [MayWait_zero]; iempintro
    iexact Hat420
  iintro ⟨HO, Hat420, -, Hat420_pay1⟩
  ihave Hat420_pay1 := (Entails.of_eq (rest_agSend fa fb c 2 0 (by decide) (by decide) _)) $$ Hat420_pay1
  ihave Hat420_pay1 := (Entails.of_eq (oblk_pointsTo_congr c _ (k0_off11 c 0#32) _ (k0_off11_inb c 0) (agOff_2_0 c).symm fullShare _)) $$ Hat420_pay1
  set_option sl_exec.stepHeartbeats 400000 in sl_exec_parts (disch := simp only [sl_canon])
  ihave Hat460 := (aside_elim _) $$ Hat460
  iapply (Rounds.wp_wait_rest_token 𝒱₀ ER (ringRd (F := F) fa fb) (c : Thread nD τ) none (κ := K (dcell c (csem cc0_scratch4 6 0 inb_S8x3_S1x1_6_0)))
      (wpE_waitDma2_eq 𝒱₀ (c : Thread nD τ) none Set.univ) (Set.mem_univ _) () (R := 0) (m := 0) (T := ∅)
      (by rw [Nat.zero_add, expect_agSend fa fb c 6 0 _])) $$ [HOo6_cred HO Hat460]
  · isplitr; · iexact HI460
    isplitl [HOo6_cred]; · iexact HOo6_cred
    isplitl [HO]; · iexact HO
    isplitr; · rw [MayWait_zero]; iempintro
    iexact Hat460
  iintro ⟨HO, Hat460, -, Hat460_pay1⟩
  ihave Hat460_pay1 := (Entails.of_eq (rest_agSend fa fb c 6 0 (by decide) (by decide) _)) $$ Hat460_pay1
  ihave Hat460_pay1 := (Entails.of_eq (oblk_pointsTo_congr c _ (k0_off13 c 0#32) _ (k0_off13_inb c 0) (agOff_6_0 c).symm fullShare _)) $$ Hat460_pay1
  set_option sl_exec.stepHeartbeats 400000 in sl_exec_parts (disch := simp only [sl_canon])
  ihave Hat430 := (aside_elim _) $$ Hat430
  iapply (Rounds.wp_wait_rest_token 𝒱₀ ER (ringRd (F := F) fa fb) (c : Thread nD τ) none (κ := K (dcell c (csem cc0_scratch4 3 0 inb_S8x3_S1x1_3_0)))
      (wpE_waitDma2_eq 𝒱₀ (c : Thread nD τ) none Set.univ) (Set.mem_univ _) () (R := 0) (m := 0) (T := ∅)
      (by rw [Nat.zero_add, expect_agSend fa fb c 3 0 _])) $$ [HOo3_cred HO Hat430]
  · isplitr; · iexact HI430
    isplitl [HOo3_cred]; · iexact HOo3_cred
    isplitl [HO]; · iexact HO
    isplitr; · rw [MayWait_zero]; iempintro
    iexact Hat430
  iintro ⟨HO, Hat430, -, Hat430_pay1⟩
  ihave Hat430_pay1 := (Entails.of_eq (rest_agSend fa fb c 3 0 (by decide) (by decide) _)) $$ Hat430_pay1
  ihave Hat430_pay1 := (Entails.of_eq (oblk_pointsTo_congr c _ (k0_off15 c 0#32) _ (k0_off15_inb c 0) (agOff_3_0 c).symm fullShare _)) $$ Hat430_pay1
  set_option sl_exec.stepHeartbeats 400000 in sl_exec_parts (disch := simp only [sl_canon])
  ihave Hat470 := (aside_elim _) $$ Hat470
  iapply (Rounds.wp_wait_rest_token 𝒱₀ ER (ringRd (F := F) fa fb) (c : Thread nD τ) none (κ := K (dcell c (csem cc0_scratch4 7 0 inb_S8x3_S1x1_7_0)))
      (wpE_waitDma2_eq 𝒱₀ (c : Thread nD τ) none Set.univ) (Set.mem_univ _) () (R := 0) (m := 0) (T := ∅)
      (by rw [Nat.zero_add, expect_agSend fa fb c 7 0 _])) $$ [HOo7_cred HO Hat470]
  · isplitr; · iexact HI470
    isplitl [HOo7_cred]; · iexact HOo7_cred
    isplitl [HO]; · iexact HO
    isplitr; · rw [MayWait_zero]; iempintro
    iexact Hat470
  iintro ⟨HO, Hat470, -, Hat470_pay1⟩
  ihave Hat470_pay1 := (Entails.of_eq (rest_agSend fa fb c 7 0 (by decide) (by decide) _)) $$ Hat470_pay1
  ihave Hat470_pay1 := (Entails.of_eq (oblk_pointsTo_congr c _ (k0_off17 c 0#32) _ (k0_off17_inb c 0) (agOff_7_0 c).symm fullShare _)) $$ Hat470_pay1
  set_option sl_exec.stepHeartbeats 400000 in sl_exec_parts (disch := simp only [sl_canon])
  ihave Hat401 := (aside_elim _) $$ Hat401
  iapply (Rounds.wp_wait_rest_token 𝒱₀ ER (ringRd (F := F) fa fb) (c : Thread nD τ) none (κ := K (dcell c (csem cc0_scratch4 0 1 inb_S8x3_S1x1_0_1)))
      (wpE_waitDma2_eq 𝒱₀ (c : Thread nD τ) none Set.univ) (Set.mem_univ _) () (R := 0) (m := 0) (T := ∅)
      (by rw [Nat.zero_add, expect_agSend fa fb c 0 1 _])) $$ [Hat500_pay1_cred HO Hat401]
  · isplitr; · iexact HI401
    isplitl [Hat500_pay1_cred]; · iexact Hat500_pay1_cred
    isplitl [HO]; · iexact HO
    isplitr; · rw [MayWait_zero]; iempintro
    iexact Hat401
  iintro ⟨HO, Hat401, -, Hat401_pay1⟩
  ihave Hat401_pay1 := (Entails.of_eq (rest_agSend fa fb c 0 1 (by decide) (by decide) _)) $$ Hat401_pay1
  ihave Hat401_pay1 := (Entails.of_eq (oblk_pointsTo_congr c _ (k0_off3 c 1#32) _ (k0_off3_inb c 1) (agOff_0_1 c).symm fullShare _)) $$ Hat401_pay1
  set_option sl_exec.stepHeartbeats 400000 in sl_exec_parts (disch := simp only [sl_canon])
  ihave Hat441 := (aside_elim _) $$ Hat441
  iapply (Rounds.wp_wait_rest_token 𝒱₀ ER (ringRd (F := F) fa fb) (c : Thread nD τ) none (κ := K (dcell c (csem cc0_scratch4 4 1 inb_S8x3_S1x1_4_1)))
      (wpE_waitDma2_eq 𝒱₀ (c : Thread nD τ) none Set.univ) (Set.mem_univ _) () (R := 0) (m := 0) (T := ∅)
      (by rw [Nat.zero_add, expect_agSend fa fb c 4 1 _])) $$ [Hat540_pay1_cred HO Hat441]
  · isplitr; · iexact HI441
    isplitl [Hat540_pay1_cred]; · iexact Hat540_pay1_cred
    isplitl [HO]; · iexact HO
    isplitr; · rw [MayWait_zero]; iempintro
    iexact Hat441
  iintro ⟨HO, Hat441, -, Hat441_pay1⟩
  ihave Hat441_pay1 := (Entails.of_eq (rest_agSend fa fb c 4 1 (by decide) (by decide) _)) $$ Hat441_pay1
  ihave Hat441_pay1 := (Entails.of_eq (oblk_pointsTo_congr c _ (k0_off5 c 4294967295#32) _ (k0_off5_inb c 1) (agOff_4_1 c).symm fullShare _)) $$ Hat441_pay1
  set_option sl_exec.stepHeartbeats 400000 in sl_exec_parts (disch := simp only [sl_canon])
  ihave Hat411 := (aside_elim _) $$ Hat411
  iapply (Rounds.wp_wait_rest_token 𝒱₀ ER (ringRd (F := F) fa fb) (c : Thread nD τ) none (κ := K (dcell c (csem cc0_scratch4 1 1 inb_S8x3_S1x1_1_1)))
      (wpE_waitDma2_eq 𝒱₀ (c : Thread nD τ) none Set.univ) (Set.mem_univ _) () (R := 0) (m := 0) (T := ∅)
      (by rw [Nat.zero_add, expect_agSend fa fb c 1 1 _])) $$ [Hat510_pay1_cred HO Hat411]
  · isplitr; · iexact HI411
    isplitl [Hat510_pay1_cred]; · iexact Hat510_pay1_cred
    isplitl [HO]; · iexact HO
    isplitr; · rw [MayWait_zero]; iempintro
    iexact Hat411
  iintro ⟨HO, Hat411, -, Hat411_pay1⟩
  ihave Hat411_pay1 := (Entails.of_eq (rest_agSend fa fb c 1 1 (by decide) (by decide) _)) $$ Hat411_pay1
  ihave Hat411_pay1 := (Entails.of_eq (oblk_pointsTo_congr c _ (k0_off7 c 1#32) _ (k0_off7_inb c 1) (agOff_1_1 c).symm fullShare _)) $$ Hat411_pay1
  set_option sl_exec.stepHeartbeats 400000 in sl_exec_parts (disch := simp only [sl_canon])
  ihave Hat451 := (aside_elim _) $$ Hat451
  iapply (Rounds.wp_wait_rest_token 𝒱₀ ER (ringRd (F := F) fa fb) (c : Thread nD τ) none (κ := K (dcell c (csem cc0_scratch4 5 1 inb_S8x3_S1x1_5_1)))
      (wpE_waitDma2_eq 𝒱₀ (c : Thread nD τ) none Set.univ) (Set.mem_univ _) () (R := 0) (m := 0) (T := ∅)
      (by rw [Nat.zero_add, expect_agSend fa fb c 5 1 _])) $$ [Hat550_pay1_cred HO Hat451]
  · isplitr; · iexact HI451
    isplitl [Hat550_pay1_cred]; · iexact Hat550_pay1_cred
    isplitl [HO]; · iexact HO
    isplitr; · rw [MayWait_zero]; iempintro
    iexact Hat451
  iintro ⟨HO, Hat451, -, Hat451_pay1⟩
  ihave Hat451_pay1 := (Entails.of_eq (rest_agSend fa fb c 5 1 (by decide) (by decide) _)) $$ Hat451_pay1
  ihave Hat451_pay1 := (Entails.of_eq (oblk_pointsTo_congr c _ (k0_off9 c 4294967295#32) _ (k0_off9_inb c 1) (agOff_5_1 c).symm fullShare _)) $$ Hat451_pay1
  set_option sl_exec.stepHeartbeats 400000 in sl_exec_parts (disch := simp only [sl_canon])
  ihave Hat421 := (aside_elim _) $$ Hat421
  iapply (Rounds.wp_wait_rest_token 𝒱₀ ER (ringRd (F := F) fa fb) (c : Thread nD τ) none (κ := K (dcell c (csem cc0_scratch4 2 1 inb_S8x3_S1x1_2_1)))
      (wpE_waitDma2_eq 𝒱₀ (c : Thread nD τ) none Set.univ) (Set.mem_univ _) () (R := 0) (m := 0) (T := ∅)
      (by rw [Nat.zero_add, expect_agSend fa fb c 2 1 _])) $$ [Hat520_pay1_cred HO Hat421]
  · isplitr; · iexact HI421
    isplitl [Hat520_pay1_cred]; · iexact Hat520_pay1_cred
    isplitl [HO]; · iexact HO
    isplitr; · rw [MayWait_zero]; iempintro
    iexact Hat421
  iintro ⟨HO, Hat421, -, Hat421_pay1⟩
  ihave Hat421_pay1 := (Entails.of_eq (rest_agSend fa fb c 2 1 (by decide) (by decide) _)) $$ Hat421_pay1
  ihave Hat421_pay1 := (Entails.of_eq (oblk_pointsTo_congr c _ (k0_off11 c 1#32) _ (k0_off11_inb c 1) (agOff_2_1 c).symm fullShare _)) $$ Hat421_pay1
  set_option sl_exec.stepHeartbeats 400000 in sl_exec_parts (disch := simp only [sl_canon])
  ihave Hat461 := (aside_elim _) $$ Hat461
  iapply (Rounds.wp_wait_rest_token 𝒱₀ ER (ringRd (F := F) fa fb) (c : Thread nD τ) none (κ := K (dcell c (csem cc0_scratch4 6 1 inb_S8x3_S1x1_6_1)))
      (wpE_waitDma2_eq 𝒱₀ (c : Thread nD τ) none Set.univ) (Set.mem_univ _) () (R := 0) (m := 0) (T := ∅)
      (by rw [Nat.zero_add, expect_agSend fa fb c 6 1 _])) $$ [Hat560_pay1_cred HO Hat461]
  · isplitr; · iexact HI461
    isplitl [Hat560_pay1_cred]; · iexact Hat560_pay1_cred
    isplitl [HO]; · iexact HO
    isplitr; · rw [MayWait_zero]; iempintro
    iexact Hat461
  iintro ⟨HO, Hat461, -, Hat461_pay1⟩
  ihave Hat461_pay1 := (Entails.of_eq (rest_agSend fa fb c 6 1 (by decide) (by decide) _)) $$ Hat461_pay1
  ihave Hat461_pay1 := (Entails.of_eq (oblk_pointsTo_congr c _ (k0_off13 c 4294967295#32) _ (k0_off13_inb c 1) (agOff_6_1 c).symm fullShare _)) $$ Hat461_pay1
  set_option sl_exec.stepHeartbeats 400000 in sl_exec_parts (disch := simp only [sl_canon])
  ihave Hat431 := (aside_elim _) $$ Hat431
  iapply (Rounds.wp_wait_rest_token 𝒱₀ ER (ringRd (F := F) fa fb) (c : Thread nD τ) none (κ := K (dcell c (csem cc0_scratch4 3 1 inb_S8x3_S1x1_3_1)))
      (wpE_waitDma2_eq 𝒱₀ (c : Thread nD τ) none Set.univ) (Set.mem_univ _) () (R := 0) (m := 0) (T := ∅)
      (by rw [Nat.zero_add, expect_agSend fa fb c 3 1 _])) $$ [Hat530_pay1_cred HO Hat431]
  · isplitr; · iexact HI431
    isplitl [Hat530_pay1_cred]; · iexact Hat530_pay1_cred
    isplitl [HO]; · iexact HO
    isplitr; · rw [MayWait_zero]; iempintro
    iexact Hat431
  iintro ⟨HO, Hat431, -, Hat431_pay1⟩
  ihave Hat431_pay1 := (Entails.of_eq (rest_agSend fa fb c 3 1 (by decide) (by decide) _)) $$ Hat431_pay1
  ihave Hat431_pay1 := (Entails.of_eq (oblk_pointsTo_congr c _ (k0_off15 c 1#32) _ (k0_off15_inb c 1) (agOff_3_1 c).symm fullShare _)) $$ Hat431_pay1
  set_option sl_exec.stepHeartbeats 400000 in sl_exec_parts (disch := simp only [sl_canon])
  ihave Hat471 := (aside_elim _) $$ Hat471
  iapply (Rounds.wp_wait_rest_token 𝒱₀ ER (ringRd (F := F) fa fb) (c : Thread nD τ) none (κ := K (dcell c (csem cc0_scratch4 7 1 inb_S8x3_S1x1_7_1)))
      (wpE_waitDma2_eq 𝒱₀ (c : Thread nD τ) none Set.univ) (Set.mem_univ _) () (R := 0) (m := 0) (T := ∅)
      (by rw [Nat.zero_add, expect_agSend fa fb c 7 1 _])) $$ [Hat570_pay1_cred HO Hat471]
  · isplitr; · iexact HI471
    isplitl [Hat570_pay1_cred]; · iexact Hat570_pay1_cred
    isplitl [HO]; · iexact HO
    isplitr; · rw [MayWait_zero]; iempintro
    iexact Hat471
  iintro ⟨HO, Hat471, -, Hat471_pay1⟩
  ihave Hat471_pay1 := (Entails.of_eq (rest_agSend fa fb c 7 1 (by decide) (by decide) _)) $$ Hat471_pay1
  ihave Hat471_pay1 := (Entails.of_eq (oblk_pointsTo_congr c _ (k0_off17 c 4294967295#32) _ (k0_off17_inb c 1) (agOff_7_1 c).symm fullShare _)) $$ Hat471_pay1
  set_option sl_exec.stepHeartbeats 400000 in sl_exec_parts (disch := simp only [sl_canon])
  ihave Hat402 := (aside_elim _) $$ Hat402
  iapply (Rounds.wp_wait_rest_token 𝒱₀ ER (ringRd (F := F) fa fb) (c : Thread nD τ) none (κ := K (dcell c (csem cc0_scratch4 0 2 inb_S8x3_S1x1_0_2)))
      (wpE_waitDma2_eq 𝒱₀ (c : Thread nD τ) none Set.univ) (Set.mem_univ _) () (R := 0) (m := 0) (T := ∅)
      (by rw [Nat.zero_add, expect_agSend fa fb c 0 2 _])) $$ [Hat501_pay1_cred HO Hat402]
  · isplitr; · iexact HI402
    isplitl [Hat501_pay1_cred]; · iexact Hat501_pay1_cred
    isplitl [HO]; · iexact HO
    isplitr; · rw [MayWait_zero]; iempintro
    iexact Hat402
  iintro ⟨HO, Hat402, -, Hat402_pay1⟩
  ihave Hat402_pay1 := (Entails.of_eq (rest_agSend fa fb c 0 2 (by decide) (by decide) _)) $$ Hat402_pay1
  ihave Hat402_pay1 := (Entails.of_eq (oblk_pointsTo_congr c _ (k0_off3 c 2#32) _ (k0_off3_inb c 2) (agOff_0_2 c).symm fullShare _)) $$ Hat402_pay1
  set_option sl_exec.stepHeartbeats 400000 in sl_exec_parts (disch := simp only [sl_canon])
  ihave Hat442 := (aside_elim _) $$ Hat442
  iapply (Rounds.wp_wait_rest_token 𝒱₀ ER (ringRd (F := F) fa fb) (c : Thread nD τ) none (κ := K (dcell c (csem cc0_scratch4 4 2 inb_S8x3_S1x1_4_2)))
      (wpE_waitDma2_eq 𝒱₀ (c : Thread nD τ) none Set.univ) (Set.mem_univ _) () (R := 0) (m := 0) (T := ∅)
      (by rw [Nat.zero_add, expect_agSend fa fb c 4 2 _])) $$ [Hat541_pay1_cred HO Hat442]
  · isplitr; · iexact HI442
    isplitl [Hat541_pay1_cred]; · iexact Hat541_pay1_cred
    isplitl [HO]; · iexact HO
    isplitr; · rw [MayWait_zero]; iempintro
    iexact Hat442
  iintro ⟨HO, Hat442, -, Hat442_pay1⟩
  ihave Hat442_pay1 := (Entails.of_eq (rest_agSend fa fb c 4 2 (by decide) (by decide) _)) $$ Hat442_pay1
  ihave Hat442_pay1 := (Entails.of_eq (oblk_pointsTo_congr c _ (k0_off5 c 4294967294#32) _ (k0_off5_inb c 2) (agOff_4_2 c).symm fullShare _)) $$ Hat442_pay1
  set_option sl_exec.stepHeartbeats 400000 in sl_exec_parts (disch := simp only [sl_canon])
  ihave Hat412 := (aside_elim _) $$ Hat412
  iapply (Rounds.wp_wait_rest_token 𝒱₀ ER (ringRd (F := F) fa fb) (c : Thread nD τ) none (κ := K (dcell c (csem cc0_scratch4 1 2 inb_S8x3_S1x1_1_2)))
      (wpE_waitDma2_eq 𝒱₀ (c : Thread nD τ) none Set.univ) (Set.mem_univ _) () (R := 0) (m := 0) (T := ∅)
      (by rw [Nat.zero_add, expect_agSend fa fb c 1 2 _])) $$ [Hat511_pay1_cred HO Hat412]
  · isplitr; · iexact HI412
    isplitl [Hat511_pay1_cred]; · iexact Hat511_pay1_cred
    isplitl [HO]; · iexact HO
    isplitr; · rw [MayWait_zero]; iempintro
    iexact Hat412
  iintro ⟨HO, Hat412, -, Hat412_pay1⟩
  ihave Hat412_pay1 := (Entails.of_eq (rest_agSend fa fb c 1 2 (by decide) (by decide) _)) $$ Hat412_pay1
  ihave Hat412_pay1 := (Entails.of_eq (oblk_pointsTo_congr c _ (k0_off7 c 2#32) _ (k0_off7_inb c 2) (agOff_1_2 c).symm fullShare _)) $$ Hat412_pay1
  set_option sl_exec.stepHeartbeats 400000 in sl_exec_parts (disch := simp only [sl_canon])
  ihave Hat452 := (aside_elim _) $$ Hat452
  iapply (Rounds.wp_wait_rest_token 𝒱₀ ER (ringRd (F := F) fa fb) (c : Thread nD τ) none (κ := K (dcell c (csem cc0_scratch4 5 2 inb_S8x3_S1x1_5_2)))
      (wpE_waitDma2_eq 𝒱₀ (c : Thread nD τ) none Set.univ) (Set.mem_univ _) () (R := 0) (m := 0) (T := ∅)
      (by rw [Nat.zero_add, expect_agSend fa fb c 5 2 _])) $$ [Hat551_pay1_cred HO Hat452]
  · isplitr; · iexact HI452
    isplitl [Hat551_pay1_cred]; · iexact Hat551_pay1_cred
    isplitl [HO]; · iexact HO
    isplitr; · rw [MayWait_zero]; iempintro
    iexact Hat452
  iintro ⟨HO, Hat452, -, Hat452_pay1⟩
  ihave Hat452_pay1 := (Entails.of_eq (rest_agSend fa fb c 5 2 (by decide) (by decide) _)) $$ Hat452_pay1
  ihave Hat452_pay1 := (Entails.of_eq (oblk_pointsTo_congr c _ (k0_off9 c 4294967294#32) _ (k0_off9_inb c 2) (agOff_5_2 c).symm fullShare _)) $$ Hat452_pay1
  set_option sl_exec.stepHeartbeats 400000 in sl_exec_parts (disch := simp only [sl_canon])
  ihave Hat422 := (aside_elim _) $$ Hat422
  iapply (Rounds.wp_wait_rest_token 𝒱₀ ER (ringRd (F := F) fa fb) (c : Thread nD τ) none (κ := K (dcell c (csem cc0_scratch4 2 2 inb_S8x3_S1x1_2_2)))
      (wpE_waitDma2_eq 𝒱₀ (c : Thread nD τ) none Set.univ) (Set.mem_univ _) () (R := 0) (m := 0) (T := ∅)
      (by rw [Nat.zero_add, expect_agSend fa fb c 2 2 _])) $$ [Hat521_pay1_cred HO Hat422]
  · isplitr; · iexact HI422
    isplitl [Hat521_pay1_cred]; · iexact Hat521_pay1_cred
    isplitl [HO]; · iexact HO
    isplitr; · rw [MayWait_zero]; iempintro
    iexact Hat422
  iintro ⟨HO, Hat422, -, Hat422_pay1⟩
  ihave Hat422_pay1 := (Entails.of_eq (rest_agSend fa fb c 2 2 (by decide) (by decide) _)) $$ Hat422_pay1
  ihave Hat422_pay1 := (Entails.of_eq (oblk_pointsTo_congr c _ (k0_off11 c 2#32) _ (k0_off11_inb c 2) (agOff_2_2 c).symm fullShare _)) $$ Hat422_pay1
  set_option sl_exec.stepHeartbeats 400000 in sl_exec_parts (disch := simp only [sl_canon])
  ihave Hat462 := (aside_elim _) $$ Hat462
  iapply (Rounds.wp_wait_rest_token 𝒱₀ ER (ringRd (F := F) fa fb) (c : Thread nD τ) none (κ := K (dcell c (csem cc0_scratch4 6 2 inb_S8x3_S1x1_6_2)))
      (wpE_waitDma2_eq 𝒱₀ (c : Thread nD τ) none Set.univ) (Set.mem_univ _) () (R := 0) (m := 0) (T := ∅)
      (by rw [Nat.zero_add, expect_agSend fa fb c 6 2 _])) $$ [Hat561_pay1_cred HO Hat462]
  · isplitr; · iexact HI462
    isplitl [Hat561_pay1_cred]; · iexact Hat561_pay1_cred
    isplitl [HO]; · iexact HO
    isplitr; · rw [MayWait_zero]; iempintro
    iexact Hat462
  iintro ⟨HO, Hat462, -, Hat462_pay1⟩
  ihave Hat462_pay1 := (Entails.of_eq (rest_agSend fa fb c 6 2 (by decide) (by decide) _)) $$ Hat462_pay1
  ihave Hat462_pay1 := (Entails.of_eq (oblk_pointsTo_congr c _ (k0_off13 c 4294967294#32) _ (k0_off13_inb c 2) (agOff_6_2 c).symm fullShare _)) $$ Hat462_pay1
  set_option sl_exec.stepHeartbeats 400000 in sl_exec_parts (disch := simp only [sl_canon])
  ihave Hat432 := (aside_elim _) $$ Hat432
  iapply (Rounds.wp_wait_rest_token 𝒱₀ ER (ringRd (F := F) fa fb) (c : Thread nD τ) none (κ := K (dcell c (csem cc0_scratch4 3 2 inb_S8x3_S1x1_3_2)))
      (wpE_waitDma2_eq 𝒱₀ (c : Thread nD τ) none Set.univ) (Set.mem_univ _) () (R := 0) (m := 0) (T := ∅)
      (by rw [Nat.zero_add, expect_agSend fa fb c 3 2 _])) $$ [Hat531_pay1_cred HO Hat432]
  · isplitr; · iexact HI432
    isplitl [Hat531_pay1_cred]; · iexact Hat531_pay1_cred
    isplitl [HO]; · iexact HO
    isplitr; · rw [MayWait_zero]; iempintro
    iexact Hat432
  iintro ⟨HO, Hat432, -, Hat432_pay1⟩
  ihave Hat432_pay1 := (Entails.of_eq (rest_agSend fa fb c 3 2 (by decide) (by decide) _)) $$ Hat432_pay1
  ihave Hat432_pay1 := (Entails.of_eq (oblk_pointsTo_congr c _ (k0_off15 c 2#32) _ (k0_off15_inb c 2) (agOff_3_2 c).symm fullShare _)) $$ Hat432_pay1
  set_option sl_exec.stepHeartbeats 400000 in sl_exec_parts (disch := simp only [sl_canon])
  ihave Hat472 := (aside_elim _) $$ Hat472
  iapply (Rounds.wp_wait_rest_token 𝒱₀ ER (ringRd (F := F) fa fb) (c : Thread nD τ) none (κ := K (dcell c (csem cc0_scratch4 7 2 inb_S8x3_S1x1_7_2)))
      (wpE_waitDma2_eq 𝒱₀ (c : Thread nD τ) none Set.univ) (Set.mem_univ _) () (R := 0) (m := 0) (T := ∅)
      (by rw [Nat.zero_add, expect_agSend fa fb c 7 2 _])) $$ [Hat571_pay1_cred HO Hat472]
  · isplitr; · iexact HI472
    isplitl [Hat571_pay1_cred]; · iexact Hat571_pay1_cred
    isplitl [HO]; · iexact HO
    isplitr; · rw [MayWait_zero]; iempintro
    iexact Hat472
  iintro ⟨HO, Hat472, -, Hat472_pay1⟩
  ihave Hat472_pay1 := (Entails.of_eq (rest_agSend fa fb c 7 2 (by decide) (by decide) _)) $$ Hat472_pay1
  ihave Hat472_pay1 := (Entails.of_eq (oblk_pointsTo_congr c _ (k0_off17 c 4294967294#32) _ (k0_off17_inb c 2) (agOff_7_2 c).symm fullShare _)) $$ Hat472_pay1
  set_option sl_exec.stepHeartbeats 400000 in sl_exec_parts (disch := simp only [sl_canon])

  imod (hpost _ _) $$ [Ha Hb Hbb Hat200_pay1 Hat201_pay1 Hat202_pay1 Hat302_pay1 Hat210_pay1 Hat211_pay1 Hat212_pay1 Hat312_pay1 Hat220_pay1 Hat221_pay1 Hat222_pay1 Hat322_pay1 Hat230_pay1 Hat231_pay1 Hat232_pay1 Hat332_pay1 Hat240_pay1 Hat241_pay1 Hat242_pay1 Hat342_pay1 Hat250_pay1 Hat251_pay1 Hat252_pay1 Hat352_pay1 Hat260_pay1 Hat261_pay1 Hat262_pay1 Hat362_pay1 Hat270_pay1 Hat271_pay1 Hat272_pay1 Hat372_pay1 Hat400_pay1 Hat401_pay1 Hat402_pay1 Hat410_pay1 Hat411_pay1 Hat412_pay1 Hat420_pay1 Hat421_pay1 Hat422_pay1 Hat430_pay1 Hat431_pay1 Hat432_pay1 Hat440_pay1 Hat441_pay1 Hat442_pay1 Hat450_pay1 Hat451_pay1 Hat452_pay1 Hat460_pay1 Hat461_pay1 Hat462_pay1 Hat470_pay1 Hat471_pay1 Hat472_pay1 Hat502_pay1 Hat512_pay1 Hat522_pay1 Hat532_pay1 Hat542_pay1 Hat552_pay1 Hat562_pay1 Hat572_pay1 Hat200 Hat201 Hat202 Hat210 Hat211 Hat212 Hat220 Hat221 Hat222 Hat230 Hat231 Hat232 Hat240 Hat241 Hat242 Hat250 Hat251 Hat252 Hat260 Hat261 Hat262 Hat270 Hat271 Hat272 Hat300 Hat301 Hat302 Hat310 Hat311 Hat312 Hat320 Hat321 Hat322 Hat330 Hat331 Hat332 Hat340 Hat341 Hat342 Hat350 Hat351 Hat352 Hat360 Hat361 Hat362 Hat370 Hat371 Hat372 Hat400 Hat401 Hat402 Hat410 Hat411 Hat412 Hat420 Hat421 Hat422 Hat430 Hat431 Hat432 Hat440 Hat441 Hat442 Hat450 Hat451 Hat452 Hat460 Hat461 Hat462 Hat470 Hat471 Hat472 Hat500 Hat501 Hat502 Hat510 Hat511 Hat512 Hat520 Hat521 Hat522 Hat530 Hat531 Hat532 Hat540 Hat541 Hat542 Hat550 Hat551 Hat552 Hat560 Hat561 Hat562 Hat570 Hat571 Hat572 Hatb HO] with HP
  · unfold corePost
    isplitl [Ha]; · iexact Ha
    isplitl [Hb]; · iexact Hb
    isplitl [Hbb]; · iexact Hbb
    isplitl [Hat200_pay1]; · iexists _; iexact Hat200_pay1
    isplitl [Hat201_pay1]; · iexists _; iexact Hat201_pay1
    isplitl [Hat202_pay1]; · iexists _; iexact Hat202_pay1
    isplitl [Hat302_pay1]; · iexists _; iexact Hat302_pay1
    isplitl [Hat210_pay1]; · iexists _; iexact Hat210_pay1
    isplitl [Hat211_pay1]; · iexists _; iexact Hat211_pay1
    isplitl [Hat212_pay1]; · iexists _; iexact Hat212_pay1
    isplitl [Hat312_pay1]; · iexists _; iexact Hat312_pay1
    isplitl [Hat220_pay1]; · iexists _; iexact Hat220_pay1
    isplitl [Hat221_pay1]; · iexists _; iexact Hat221_pay1
    isplitl [Hat222_pay1]; · iexists _; iexact Hat222_pay1
    isplitl [Hat322_pay1]; · iexists _; iexact Hat322_pay1
    isplitl [Hat230_pay1]; · iexists _; iexact Hat230_pay1
    isplitl [Hat231_pay1]; · iexists _; iexact Hat231_pay1
    isplitl [Hat232_pay1]; · iexists _; iexact Hat232_pay1
    isplitl [Hat332_pay1]; · iexists _; iexact Hat332_pay1
    isplitl [Hat240_pay1]; · iexists _; iexact Hat240_pay1
    isplitl [Hat241_pay1]; · iexists _; iexact Hat241_pay1
    isplitl [Hat242_pay1]; · iexists _; iexact Hat242_pay1
    isplitl [Hat342_pay1]; · iexists _; iexact Hat342_pay1
    isplitl [Hat250_pay1]; · iexists _; iexact Hat250_pay1
    isplitl [Hat251_pay1]; · iexists _; iexact Hat251_pay1
    isplitl [Hat252_pay1]; · iexists _; iexact Hat252_pay1
    isplitl [Hat352_pay1]; · iexists _; iexact Hat352_pay1
    isplitl [Hat260_pay1]; · iexists _; iexact Hat260_pay1
    isplitl [Hat261_pay1]; · iexists _; iexact Hat261_pay1
    isplitl [Hat262_pay1]; · iexists _; iexact Hat262_pay1
    isplitl [Hat362_pay1]; · iexists _; iexact Hat362_pay1
    isplitl [Hat270_pay1]; · iexists _; iexact Hat270_pay1
    isplitl [Hat271_pay1]; · iexists _; iexact Hat271_pay1
    isplitl [Hat272_pay1]; · iexists _; iexact Hat272_pay1
    isplitl [Hat372_pay1]; · iexists _; iexact Hat372_pay1
    isplitl [Hat400_pay1]; · iexact Hat400_pay1
    isplitl [Hat401_pay1]; · iexact Hat401_pay1
    isplitl [Hat402_pay1]; · iexact Hat402_pay1
    isplitl [Hat410_pay1]; · iexact Hat410_pay1
    isplitl [Hat411_pay1]; · iexact Hat411_pay1
    isplitl [Hat412_pay1]; · iexact Hat412_pay1
    isplitl [Hat420_pay1]; · iexact Hat420_pay1
    isplitl [Hat421_pay1]; · iexact Hat421_pay1
    isplitl [Hat422_pay1]; · iexact Hat422_pay1
    isplitl [Hat430_pay1]; · iexact Hat430_pay1
    isplitl [Hat431_pay1]; · iexact Hat431_pay1
    isplitl [Hat432_pay1]; · iexact Hat432_pay1
    isplitl [Hat440_pay1]; · iexact Hat440_pay1
    isplitl [Hat441_pay1]; · iexact Hat441_pay1
    isplitl [Hat442_pay1]; · iexact Hat442_pay1
    isplitl [Hat450_pay1]; · iexact Hat450_pay1
    isplitl [Hat451_pay1]; · iexact Hat451_pay1
    isplitl [Hat452_pay1]; · iexact Hat452_pay1
    isplitl [Hat460_pay1]; · iexact Hat460_pay1
    isplitl [Hat461_pay1]; · iexact Hat461_pay1
    isplitl [Hat462_pay1]; · iexact Hat462_pay1
    isplitl [Hat470_pay1]; · iexact Hat470_pay1
    isplitl [Hat471_pay1]; · iexact Hat471_pay1
    isplitl [Hat472_pay1]; · iexact Hat472_pay1
    isplitl [Hat502_pay1]; · iexists _; iexact Hat502_pay1
    isplitl [Hat512_pay1]; · iexists _; iexact Hat512_pay1
    isplitl [Hat522_pay1]; · iexists _; iexact Hat522_pay1
    isplitl [Hat532_pay1]; · iexists _; iexact Hat532_pay1
    isplitl [Hat542_pay1]; · iexists _; iexact Hat542_pay1
    isplitl [Hat552_pay1]; · iexists _; iexact Hat552_pay1
    isplitl [Hat562_pay1]; · iexists _; iexact Hat562_pay1
    isplitl [Hat572_pay1]; · iexists _; iexact Hat572_pay1
    isplitr; · iexact HI200
    isplitr; · iexact HI201
    isplitr; · iexact HI202
    isplitr; · iexact HI210
    isplitr; · iexact HI211
    isplitr; · iexact HI212
    isplitr; · iexact HI220
    isplitr; · iexact HI221
    isplitr; · iexact HI222
    isplitr; · iexact HI230
    isplitr; · iexact HI231
    isplitr; · iexact HI232
    isplitr; · iexact HI240
    isplitr; · iexact HI241
    isplitr; · iexact HI242
    isplitr; · iexact HI250
    isplitr; · iexact HI251
    isplitr; · iexact HI252
    isplitr; · iexact HI260
    isplitr; · iexact HI261
    isplitr; · iexact HI262
    isplitr; · iexact HI270
    isplitr; · iexact HI271
    isplitr; · iexact HI272
    isplitr; · iexact HI300
    isplitr; · iexact HI301
    isplitr; · iexact HI302
    isplitr; · iexact HI310
    isplitr; · iexact HI311
    isplitr; · iexact HI312
    isplitr; · iexact HI320
    isplitr; · iexact HI321
    isplitr; · iexact HI322
    isplitr; · iexact HI330
    isplitr; · iexact HI331
    isplitr; · iexact HI332
    isplitr; · iexact HI340
    isplitr; · iexact HI341
    isplitr; · iexact HI342
    isplitr; · iexact HI350
    isplitr; · iexact HI351
    isplitr; · iexact HI352
    isplitr; · iexact HI360
    isplitr; · iexact HI361
    isplitr; · iexact HI362
    isplitr; · iexact HI370
    isplitr; · iexact HI371
    isplitr; · iexact HI372
    isplitr; · iexact HI400
    isplitr; · iexact HI401
    isplitr; · iexact HI402
    isplitr; · iexact HI410
    isplitr; · iexact HI411
    isplitr; · iexact HI412
    isplitr; · iexact HI420
    isplitr; · iexact HI421
    isplitr; · iexact HI422
    isplitr; · iexact HI430
    isplitr; · iexact HI431
    isplitr; · iexact HI432
    isplitr; · iexact HI440
    isplitr; · iexact HI441
    isplitr; · iexact HI442
    isplitr; · iexact HI450
    isplitr; · iexact HI451
    isplitr; · iexact HI452
    isplitr; · iexact HI460
    isplitr; · iexact HI461
    isplitr; · iexact HI462
    isplitr; · iexact HI470
    isplitr; · iexact HI471
    isplitr; · iexact HI472
    isplitr; · iexact HI500
    isplitr; · iexact HI501
    isplitr; · iexact HI502
    isplitr; · iexact HI510
    isplitr; · iexact HI511
    isplitr; · iexact HI512
    isplitr; · iexact HI520
    isplitr; · iexact HI521
    isplitr; · iexact HI522
    isplitr; · iexact HI530
    isplitr; · iexact HI531
    isplitr; · iexact HI532
    isplitr; · iexact HI540
    isplitr; · iexact HI541
    isplitr; · iexact HI542
    isplitr; · iexact HI550
    isplitr; · iexact HI551
    isplitr; · iexact HI552
    isplitr; · iexact HI560
    isplitr; · iexact HI561
    isplitr; · iexact HI562
    isplitr; · iexact HI570
    isplitr; · iexact HI571
    isplitr; · iexact HI572
    isplitl [Hat200]; · iexact Hat200
    isplitl [Hat201]; · iexact Hat201
    isplitl [Hat202]; · iexact Hat202
    isplitl [Hat210]; · iexact Hat210
    isplitl [Hat211]; · iexact Hat211
    isplitl [Hat212]; · iexact Hat212
    isplitl [Hat220]; · iexact Hat220
    isplitl [Hat221]; · iexact Hat221
    isplitl [Hat222]; · iexact Hat222
    isplitl [Hat230]; · iexact Hat230
    isplitl [Hat231]; · iexact Hat231
    isplitl [Hat232]; · iexact Hat232
    isplitl [Hat240]; · iexact Hat240
    isplitl [Hat241]; · iexact Hat241
    isplitl [Hat242]; · iexact Hat242
    isplitl [Hat250]; · iexact Hat250
    isplitl [Hat251]; · iexact Hat251
    isplitl [Hat252]; · iexact Hat252
    isplitl [Hat260]; · iexact Hat260
    isplitl [Hat261]; · iexact Hat261
    isplitl [Hat262]; · iexact Hat262
    isplitl [Hat270]; · iexact Hat270
    isplitl [Hat271]; · iexact Hat271
    isplitl [Hat272]; · iexact Hat272
    isplitl [Hat300]; · iexact Hat300
    isplitl [Hat301]; · iexact Hat301
    isplitl [Hat302]; · iexact Hat302
    isplitl [Hat310]; · iexact Hat310
    isplitl [Hat311]; · iexact Hat311
    isplitl [Hat312]; · iexact Hat312
    isplitl [Hat320]; · iexact Hat320
    isplitl [Hat321]; · iexact Hat321
    isplitl [Hat322]; · iexact Hat322
    isplitl [Hat330]; · iexact Hat330
    isplitl [Hat331]; · iexact Hat331
    isplitl [Hat332]; · iexact Hat332
    isplitl [Hat340]; · iexact Hat340
    isplitl [Hat341]; · iexact Hat341
    isplitl [Hat342]; · iexact Hat342
    isplitl [Hat350]; · iexact Hat350
    isplitl [Hat351]; · iexact Hat351
    isplitl [Hat352]; · iexact Hat352
    isplitl [Hat360]; · iexact Hat360
    isplitl [Hat361]; · iexact Hat361
    isplitl [Hat362]; · iexact Hat362
    isplitl [Hat370]; · iexact Hat370
    isplitl [Hat371]; · iexact Hat371
    isplitl [Hat372]; · iexact Hat372
    isplitl [Hat400]; · iexact Hat400
    isplitl [Hat401]; · iexact Hat401
    isplitl [Hat402]; · iexact Hat402
    isplitl [Hat410]; · iexact Hat410
    isplitl [Hat411]; · iexact Hat411
    isplitl [Hat412]; · iexact Hat412
    isplitl [Hat420]; · iexact Hat420
    isplitl [Hat421]; · iexact Hat421
    isplitl [Hat422]; · iexact Hat422
    isplitl [Hat430]; · iexact Hat430
    isplitl [Hat431]; · iexact Hat431
    isplitl [Hat432]; · iexact Hat432
    isplitl [Hat440]; · iexact Hat440
    isplitl [Hat441]; · iexact Hat441
    isplitl [Hat442]; · iexact Hat442
    isplitl [Hat450]; · iexact Hat450
    isplitl [Hat451]; · iexact Hat451
    isplitl [Hat452]; · iexact Hat452
    isplitl [Hat460]; · iexact Hat460
    isplitl [Hat461]; · iexact Hat461
    isplitl [Hat462]; · iexact Hat462
    isplitl [Hat470]; · iexact Hat470
    isplitl [Hat471]; · iexact Hat471
    isplitl [Hat472]; · iexact Hat472
    isplitl [Hat500]; · iexact Hat500
    isplitl [Hat501]; · iexact Hat501
    isplitl [Hat502]; · iexact Hat502
    isplitl [Hat510]; · iexact Hat510
    isplitl [Hat511]; · iexact Hat511
    isplitl [Hat512]; · iexact Hat512
    isplitl [Hat520]; · iexact Hat520
    isplitl [Hat521]; · iexact Hat521
    isplitl [Hat522]; · iexact Hat522
    isplitl [Hat530]; · iexact Hat530
    isplitl [Hat531]; · iexact Hat531
    isplitl [Hat532]; · iexact Hat532
    isplitl [Hat540]; · iexact Hat540
    isplitl [Hat541]; · iexact Hat541
    isplitl [Hat542]; · iexact Hat542
    isplitl [Hat550]; · iexact Hat550
    isplitl [Hat551]; · iexact Hat551
    isplitl [Hat552]; · iexact Hat552
    isplitl [Hat560]; · iexact Hat560
    isplitl [Hat561]; · iexact Hat561
    isplitl [Hat562]; · iexact Hat562
    isplitl [Hat570]; · iexact Hat570
    isplitl [Hat571]; · iexact Hat571
    isplitl [Hat572]; · iexact Hat572
    isplitl [Hatb]; · iexact Hatb
    iexact HO
  sl_step
  iapply Hk
  iexact HP

/-- One device's body, from the launch's precondition to its postcondition. -/
theorem sound_body (m : (ℓ : Loc nD τ sig) → Buf (Elt F) ℓ) (ρ : Dev nD → PrngReg) : SoundBody (F := F) m ρ := fun K c Kt => by
  iintro ⟨Hpre, Hk⟩
  ihave Hc := (pre_glue m ρ K c) $$ Hpre
  icases Hc with ⟨%fbb, %fr, %fo, %W, Hc⟩
  iapply (core_body (xstgA m ρ) (xstgB m ρ) K c fbb fr fo W Kt (bodyPost m ρ c) (fun fbb' W' => post_glue m ρ K c fbb' W')) $$ [Hc Hk]
  isplitl [Hc] <;> iassumption

/-- info: 'Cert.KernelIdeal.P.sound_body' depends on axioms: [propext, Classical.choice, Quot.sound] -/
#guard_msgs in #print axioms sound_body

end Cert.KernelIdeal.P

end
-- ==== Proof.KBodyTables.lean ====
import proofs.«900901_g7700000000000902_dist_matmul_silu_kshard_i_m2048_n2048_k1024_v7x_i4_bf16_1_alg».proof.Proof.KGhost

noncomputable section

namespace Cert.Kernel.P

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem peel_0 (c : Dev nD) : owedRem c 48 = owedRem c 47 + tallyAt (dcell (nxt c) (csem cc0_scratch3 0 0 inb_S8x3_S1x1_0_0)) () Nrs := rfl
theorem peel_1 (c : Dev nD) : owedRem c 47 = owedRem c 46 + tallyAt (dcell (prv c) (csem cc0_scratch3 4 0 inb_S8x3_S1x1_4_0)) () Nrs := rfl
theorem peel_2 (c : Dev nD) : owedRem c 46 = owedRem c 45 + tallyAt (dcell (nxt c) (csem cc0_scratch3 1 0 inb_S8x3_S1x1_1_0)) () Nrs := rfl
theorem peel_3 (c : Dev nD) : owedRem c 45 = owedRem c 44 + tallyAt (dcell (prv c) (csem cc0_scratch3 5 0 inb_S8x3_S1x1_5_0)) () Nrs := rfl
theorem peel_4 (c : Dev nD) : owedRem c 44 = owedRem c 43 + tallyAt (dcell (nxt c) (csem cc0_scratch3 2 0 inb_S8x3_S1x1_2_0)) () Nrs := rfl
theorem peel_5 (c : Dev nD) : owedRem c 43 = owedRem c 42 + tallyAt (dcell (prv c) (csem cc0_scratch3 6 0 inb_S8x3_S1x1_6_0)) () Nrs := rfl
theorem peel_6 (c : Dev nD) : owedRem c 42 = owedRem c 41 + tallyAt (dcell (nxt c) (csem cc0_scratch3 3 0 inb_S8x3_S1x1_3_0)) () Nrs := rfl
theorem peel_7 (c : Dev nD) : owedRem c 41 = owedRem c 40 + tallyAt (dcell (prv c) (csem cc0_scratch3 7 0 inb_S8x3_S1x1_7_0)) () Nrs := rfl
theorem peel_8 (c : Dev nD) : owedRem c 40 = owedRem c 39 + tallyAt (dcell (nxt c) (csem cc0_scratch3 0 1 inb_S8x3_S1x1_0_1)) () Nrs := rfl
theorem peel_9 (c : Dev nD) : owedRem c 39 = owedRem c 38 + tallyAt (dcell (prv c) (csem cc0_scratch3 4 1 inb_S8x3_S1x1_4_1)) () Nrs := rfl
theorem peel_10 (c : Dev nD) : owedRem c 38 = owedRem c 37 + tallyAt (dcell (nxt c) (csem cc0_scratch3 1 1 inb_S8x3_S1x1_1_1)) () Nrs := rfl
theorem peel_11 (c : Dev nD) : owedRem c 37 = owedRem c 36 + tallyAt (dcell (prv c) (csem cc0_scratch3 5 1 inb_S8x3_S1x1_5_1)) () Nrs := rfl
theorem peel_12 (c : Dev nD) : owedRem c 36 = owedRem c 35 + tallyAt (dcell (nxt c) (csem cc0_scratch3 2 1 inb_S8x3_S1x1_2_1)) () Nrs := rfl
theorem peel_13 (c : Dev nD) : owedRem c 35 = owedRem c 34 + tallyAt (dcell (prv c) (csem cc0_scratch3 6 1 inb_S8x3_S1x1_6_1)) () Nrs := rfl
theorem peel_14 (c : Dev nD) : owedRem c 34 = owedRem c 33 + tallyAt (dcell (nxt c) (csem cc0_scratch3 3 1 inb_S8x3_S1x1_3_1)) () Nrs := rfl
theorem peel_15 (c : Dev nD) : owedRem c 33 = owedRem c 32 + tallyAt (dcell (prv c) (csem cc0_scratch3 7 1 inb_S8x3_S1x1_7_1)) () Nrs := rfl
theorem peel_16 (c : Dev nD) : owedRem c 32 = owedRem c 31 + tallyAt (dcell (nxt c) (csem cc0_scratch3 0 2 inb_S8x3_S1x1_0_2)) () Nrs := rfl
theorem peel_17 (c : Dev nD) : owedRem c 31 = owedRem c 30 + tallyAt (dcell (prv c) (csem cc0_scratch3 4 2 inb_S8x3_S1x1_4_2)) () Nrs := rfl
theorem peel_18 (c : Dev nD) : owedRem c 30 = owedRem c 29 + tallyAt (dcell (nxt c) (csem cc0_scratch3 1 2 inb_S8x3_S1x1_1_2)) () Nrs := rfl
theorem peel_19 (c : Dev nD) : owedRem c 29 = owedRem c 28 + tallyAt (dcell (prv c) (csem cc0_scratch3 5 2 inb_S8x3_S1x1_5_2)) () Nrs := rfl
theorem peel_20 (c : Dev nD) : owedRem c 28 = owedRem c 27 + tallyAt (dcell (nxt c) (csem cc0_scratch3 2 2 inb_S8x3_S1x1_2_2)) () Nrs := rfl
theorem peel_21 (c : Dev nD) : owedRem c 27 = owedRem c 26 + tallyAt (dcell (prv c) (csem cc0_scratch3 6 2 inb_S8x3_S1x1_6_2)) () Nrs := rfl
theorem peel_22 (c : Dev nD) : owedRem c 26 = owedRem c 25 + tallyAt (dcell (nxt c) (csem cc0_scratch3 3 2 inb_S8x3_S1x1_3_2)) () Nrs := rfl
theorem peel_23 (c : Dev nD) : owedRem c 25 = owedRem c 24 + tallyAt (dcell (prv c) (csem cc0_scratch3 7 2 inb_S8x3_S1x1_7_2)) () Nrs := rfl
theorem peel_24 (c : Dev nD) : owedRem c 24 = owedRem c 23 + tallyAt (dcell (nxt c) (csem cc0_scratch5 0 0 inb_S8x3_S1x1_0_0)) () Nag := rfl
theorem peel_25 (c : Dev nD) : owedRem c 23 = owedRem c 22 + tallyAt (dcell (prv c) (csem cc0_scratch5 4 0 inb_S8x3_S1x1_4_0)) () Nag := rfl
theorem peel_26 (c : Dev nD) : owedRem c 22 = owedRem c 21 + tallyAt (dcell (nxt c) (csem cc0_scratch5 1 0 inb_S8x3_S1x1_1_0)) () Nag := rfl
theorem peel_27 (c : Dev nD) : owedRem c 21 = owedRem c 20 + tallyAt (dcell (prv c) (csem cc0_scratch5 5 0 inb_S8x3_S1x1_5_0)) () Nag := rfl
theorem peel_28 (c : Dev nD) : owedRem c 20 = owedRem c 19 + tallyAt (dcell (nxt c) (csem cc0_scratch5 2 0 inb_S8x3_S1x1_2_0)) () Nag := rfl
theorem peel_29 (c : Dev nD) : owedRem c 19 = owedRem c 18 + tallyAt (dcell (prv c) (csem cc0_scratch5 6 0 inb_S8x3_S1x1_6_0)) () Nag := rfl
theorem peel_30 (c : Dev nD) : owedRem c 18 = owedRem c 17 + tallyAt (dcell (nxt c) (csem cc0_scratch5 3 0 inb_S8x3_S1x1_3_0)) () Nag := rfl
theorem peel_31 (c : Dev nD) : owedRem c 17 = owedRem c 16 + tallyAt (dcell (prv c) (csem cc0_scratch5 7 0 inb_S8x3_S1x1_7_0)) () Nag := rfl
theorem peel_32 (c : Dev nD) : owedRem c 16 = owedRem c 15 + tallyAt (dcell (nxt c) (csem cc0_scratch5 0 1 inb_S8x3_S1x1_0_1)) () Nag := rfl
theorem peel_33 (c : Dev nD) : owedRem c 15 = owedRem c 14 + tallyAt (dcell (prv c) (csem cc0_scratch5 4 1 inb_S8x3_S1x1_4_1)) () Nag := rfl
theorem peel_34 (c : Dev nD) : owedRem c 14 = owedRem c 13 + tallyAt (dcell (nxt c) (csem cc0_scratch5 1 1 inb_S8x3_S1x1_1_1)) () Nag := rfl
theorem peel_35 (c : Dev nD) : owedRem c 13 = owedRem c 12 + tallyAt (dcell (prv c) (csem cc0_scratch5 5 1 inb_S8x3_S1x1_5_1)) () Nag := rfl
theorem peel_36 (c : Dev nD) : owedRem c 12 = owedRem c 11 + tallyAt (dcell (nxt c) (csem cc0_scratch5 2 1 inb_S8x3_S1x1_2_1)) () Nag := rfl
theorem peel_37 (c : Dev nD) : owedRem c 11 = owedRem c 10 + tallyAt (dcell (prv c) (csem cc0_scratch5 6 1 inb_S8x3_S1x1_6_1)) () Nag := rfl
theorem peel_38 (c : Dev nD) : owedRem c 10 = owedRem c 9 + tallyAt (dcell (nxt c) (csem cc0_scratch5 3 1 inb_S8x3_S1x1_3_1)) () Nag := rfl
theorem peel_39 (c : Dev nD) : owedRem c 9 = owedRem c 8 + tallyAt (dcell (prv c) (csem cc0_scratch5 7 1 inb_S8x3_S1x1_7_1)) () Nag := rfl
theorem peel_40 (c : Dev nD) : owedRem c 8 = owedRem c 7 + tallyAt (dcell (nxt c) (csem cc0_scratch5 0 2 inb_S8x3_S1x1_0_2)) () Nag := rfl
theorem peel_41 (c : Dev nD) : owedRem c 7 = owedRem c 6 + tallyAt (dcell (prv c) (csem cc0_scratch5 4 2 inb_S8x3_S1x1_4_2)) () Nag := rfl
theorem peel_42 (c : Dev nD) : owedRem c 6 = owedRem c 5 + tallyAt (dcell (nxt c) (csem cc0_scratch5 1 2 inb_S8x3_S1x1_1_2)) () Nag := rfl
theorem peel_43 (c : Dev nD) : owedRem c 5 = owedRem c 4 + tallyAt (dcell (prv c) (csem cc0_scratch5 5 2 inb_S8x3_S1x1_5_2)) () Nag := rfl
theorem peel_44 (c : Dev nD) : owedRem c 4 = owedRem c 3 + tallyAt (dcell (nxt c) (csem cc0_scratch5 2 2 inb_S8x3_S1x1_2_2)) () Nag := rfl
theorem peel_45 (c : Dev nD) : owedRem c 3 = owedRem c 2 + tallyAt (dcell (prv c) (csem cc0_scratch5 6 2 inb_S8x3_S1x1_6_2)) () Nag := rfl
theorem peel_46 (c : Dev nD) : owedRem c 2 = owedRem c 1 + tallyAt (dcell (nxt c) (csem cc0_scratch5 3 2 inb_S8x3_S1x1_3_2)) () Nag := rfl
theorem peel_47 (c : Dev nD) : owedRem c 1 = owedRem c 0 + tallyAt (dcell (prv c) (csem cc0_scratch5 7 2 inb_S8x3_S1x1_7_2)) () Nag := rfl

set_option maxHeartbeats 8000000 in
/-- What the body of device `c` starts from, every piece on its own. -/
def corePre (fa : Dev nD → AT F) (fb : Dev nD → BT F) (K : GSem nD τ sig → ℕ) (c : Dev nD)
    (fbb : BbT F) (fr : RT F) (fo : OT F) (W : Waits sig Unit) : sProp 𝕄 :=
  iprop(((aM : Memref sig .tc .vmem S2048x1024 .f32).view.loc (c : Thread nD τ) ↦{fullShare} fa c)
    ∗ ((bM : Memref sig .tc .vmem S1024x2048 .f32).view.loc (c : Thread nD τ) ↦{fullShare} fb c)
    ∗ ((bbM : Memref sig .tc .vmem S1024x2048 .bf16).view.loc (c : Thread nD τ) ↦{fullShare} fbb)
    ∗ ((slotM 0 0 inb_S8x4x512x256_S1x1x512x256_0_0_0_0 : Memref sig .tc .vmem S512x256 .bf16).view.loc ((c : Dev nD) : Thread nD τ) ↦[(slotM 0 0 inb_S8x4x512x256_S1x1x512x256_0_0_0_0 : Memref sig .tc .vmem S512x256 .bf16).view.set]{fullShare} fr)
    ∗ ((slotM 0 1 inb_S8x4x512x256_S1x1x512x256_0_1_0_0 : Memref sig .tc .vmem S512x256 .bf16).view.loc ((c : Dev nD) : Thread nD τ) ↦[(slotM 0 1 inb_S8x4x512x256_S1x1x512x256_0_1_0_0 : Memref sig .tc .vmem S512x256 .bf16).view.set]{fullShare} fr)
    ∗ ((slotM 0 2 inb_S8x4x512x256_S1x1x512x256_0_2_0_0 : Memref sig .tc .vmem S512x256 .bf16).view.loc ((c : Dev nD) : Thread nD τ) ↦[(slotM 0 2 inb_S8x4x512x256_S1x1x512x256_0_2_0_0 : Memref sig .tc .vmem S512x256 .bf16).view.set]{fullShare} fr)
    ∗ ((slotM 0 3 inb_S8x4x512x256_S1x1x512x256_0_3_0_0 : Memref sig .tc .vmem S512x256 .bf16).view.loc ((c : Dev nD) : Thread nD τ) ↦[(slotM 0 3 inb_S8x4x512x256_S1x1x512x256_0_3_0_0 : Memref sig .tc .vmem S512x256 .bf16).view.set]{fullShare} fr)
    ∗ ((slotM 1 0 inb_S8x4x512x256_S1x1x512x256_1_0_0_0 : Memref sig .tc .vmem S512x256 .bf16).view.loc ((c : Dev nD) : Thread nD τ) ↦[(slotM 1 0 inb_S8x4x512x256_S1x1x512x256_1_0_0_0 : Memref sig .tc .vmem S512x256 .bf16).view.set]{fullShare} fr)
    ∗ ((slotM 1 1 inb_S8x4x512x256_S1x1x512x256_1_1_0_0 : Memref sig .tc .vmem S512x256 .bf16).view.loc ((c : Dev nD) : Thread nD τ) ↦[(slotM 1 1 inb_S8x4x512x256_S1x1x512x256_1_1_0_0 : Memref sig .tc .vmem S512x256 .bf16).view.set]{fullShare} fr)
    ∗ ((slotM 1 2 inb_S8x4x512x256_S1x1x512x256_1_2_0_0 : Memref sig .tc .vmem S512x256 .bf16).view.loc ((c : Dev nD) : Thread nD τ) ↦[(slotM 1 2 inb_S8x4x512x256_S1x1x512x256_1_2_0_0 : Memref sig .tc .vmem S512x256 .bf16).view.set]{fullShare} fr)
    ∗ ((slotM 1 3 inb_S8x4x512x256_S1x1x512x256_1_3_0_0 : Memref sig .tc .vmem S512x256 .bf16).view.loc ((c : Dev nD) : Thread nD τ) ↦[(slotM 1 3 inb_S8x4x512x256_S1x1x512x256_1_3_0_0 : Memref sig .tc .vmem S512x256 .bf16).view.set]{fullShare} fr)
    ∗ ((slotM 2 0 inb_S8x4x512x256_S1x1x512x256_2_0_0_0 : Memref sig .tc .vmem S512x256 .bf16).view.loc ((c : Dev nD) : Thread nD τ) ↦[(slotM 2 0 inb_S8x4x512x256_S1x1x512x256_2_0_0_0 : Memref sig .tc .vmem S512x256 .bf16).view.set]{fullShare} fr)
    ∗ ((slotM 2 1 inb_S8x4x512x256_S1x1x512x256_2_1_0_0 : Memref sig .tc .vmem S512x256 .bf16).view.loc ((c : Dev nD) : Thread nD τ) ↦[(slotM 2 1 inb_S8x4x512x256_S1x1x512x256_2_1_0_0 : Memref sig .tc .vmem S512x256 .bf16).view.set]{fullShare} fr)
    ∗ ((slotM 2 2 inb_S8x4x512x256_S1x1x512x256_2_2_0_0 : Memref sig .tc .vmem S512x256 .bf16).view.loc ((c : Dev nD) : Thread nD τ) ↦[(slotM 2 2 inb_S8x4x512x256_S1x1x512x256_2_2_0_0 : Memref sig .tc .vmem S512x256 .bf16).view.set]{fullShare} fr)
    ∗ ((slotM 2 3 inb_S8x4x512x256_S1x1x512x256_2_3_0_0 : Memref sig .tc .vmem S512x256 .bf16).view.loc ((c : Dev nD) : Thread nD τ) ↦[(slotM 2 3 inb_S8x4x512x256_S1x1x512x256_2_3_0_0 : Memref sig .tc .vmem S512x256 .bf16).view.set]{fullShare} fr)
    ∗ ((slotM 3 0 inb_S8x4x512x256_S1x1x512x256_3_0_0_0 : Memref sig .tc .vmem S512x256 .bf16).view.loc ((c : Dev nD) : Thread nD τ) ↦[(slotM 3 0 inb_S8x4x512x256_S1x1x512x256_3_0_0_0 : Memref sig .tc .vmem S512x256 .bf16).view.set]{fullShare} fr)
    ∗ ((slotM 3 1 inb_S8x4x512x256_S1x1x512x256_3_1_0_0 : Memref sig .tc .vmem S512x256 .bf16).view.loc ((c : Dev nD) : Thread nD τ) ↦[(slotM 3 1 inb_S8x4x512x256_S1x1x512x256_3_1_0_0 : Memref sig .tc .vmem S512x256 .bf16).view.set]{fullShare} fr)
    ∗ ((slotM 3 2 inb_S8x4x512x256_S1x1x512x256_3_2_0_0 : Memref sig .tc .vmem S512x256 .bf16).view.loc ((c : Dev nD) : Thread nD τ) ↦[(slotM 3 2 inb_S8x4x512x256_S1x1x512x256_3_2_0_0 : Memref sig .tc .vmem S512x256 .bf16).view.set]{fullShare} fr)
    ∗ ((slotM 3 3 inb_S8x4x512x256_S1x1x512x256_3_3_0_0 : Memref sig .tc .vmem S512x256 .bf16).view.loc ((c : Dev nD) : Thread nD τ) ↦[(slotM 3 3 inb_S8x4x512x256_S1x1x512x256_3_3_0_0 : Memref sig .tc .vmem S512x256 .bf16).view.set]{fullShare} fr)
    ∗ ((slotM 4 0 inb_S8x4x512x256_S1x1x512x256_4_0_0_0 : Memref sig .tc .vmem S512x256 .bf16).view.loc ((c : Dev nD) : Thread nD τ) ↦[(slotM 4 0 inb_S8x4x512x256_S1x1x512x256_4_0_0_0 : Memref sig .tc .vmem S512x256 .bf16).view.set]{fullShare} fr)
    ∗ ((slotM 4 1 inb_S8x4x512x256_S1x1x512x256_4_1_0_0 : Memref sig .tc .vmem S512x256 .bf16).view.loc ((c : Dev nD) : Thread nD τ) ↦[(slotM 4 1 inb_S8x4x512x256_S1x1x512x256_4_1_0_0 : Memref sig .tc .vmem S512x256 .bf16).view.set]{fullShare} fr)
    ∗ ((slotM 4 2 inb_S8x4x512x256_S1x1x512x256_4_2_0_0 : Memref sig .tc .vmem S512x256 .bf16).view.loc ((c : Dev nD) : Thread nD τ) ↦[(slotM 4 2 inb_S8x4x512x256_S1x1x512x256_4_2_0_0 : Memref sig .tc .vmem S512x256 .bf16).view.set]{fullShare} fr)
    ∗ ((slotM 4 3 inb_S8x4x512x256_S1x1x512x256_4_3_0_0 : Memref sig .tc .vmem S512x256 .bf16).view.loc ((c : Dev nD) : Thread nD τ) ↦[(slotM 4 3 inb_S8x4x512x256_S1x1x512x256_4_3_0_0 : Memref sig .tc .vmem S512x256 .bf16).view.set]{fullShare} fr)
    ∗ ((slotM 5 0 inb_S8x4x512x256_S1x1x512x256_5_0_0_0 : Memref sig .tc .vmem S512x256 .bf16).view.loc ((c : Dev nD) : Thread nD τ) ↦[(slotM 5 0 inb_S8x4x512x256_S1x1x512x256_5_0_0_0 : Memref sig .tc .vmem S512x256 .bf16).view.set]{fullShare} fr)
    ∗ ((slotM 5 1 inb_S8x4x512x256_S1x1x512x256_5_1_0_0 : Memref sig .tc .vmem S512x256 .bf16).view.loc ((c : Dev nD) : Thread nD τ) ↦[(slotM 5 1 inb_S8x4x512x256_S1x1x512x256_5_1_0_0 : Memref sig .tc .vmem S512x256 .bf16).view.set]{fullShare} fr)
    ∗ ((slotM 5 2 inb_S8x4x512x256_S1x1x512x256_5_2_0_0 : Memref sig .tc .vmem S512x256 .bf16).view.loc ((c : Dev nD) : Thread nD τ) ↦[(slotM 5 2 inb_S8x4x512x256_S1x1x512x256_5_2_0_0 : Memref sig .tc .vmem S512x256 .bf16).view.set]{fullShare} fr)
    ∗ ((slotM 5 3 inb_S8x4x512x256_S1x1x512x256_5_3_0_0 : Memref sig .tc .vmem S512x256 .bf16).view.loc ((c : Dev nD) : Thread nD τ) ↦[(slotM 5 3 inb_S8x4x512x256_S1x1x512x256_5_3_0_0 : Memref sig .tc .vmem S512x256 .bf16).view.set]{fullShare} fr)
    ∗ ((slotM 6 0 inb_S8x4x512x256_S1x1x512x256_6_0_0_0 : Memref sig .tc .vmem S512x256 .bf16).view.loc ((c : Dev nD) : Thread nD τ) ↦[(slotM 6 0 inb_S8x4x512x256_S1x1x512x256_6_0_0_0 : Memref sig .tc .vmem S512x256 .bf16).view.set]{fullShare} fr)
    ∗ ((slotM 6 1 inb_S8x4x512x256_S1x1x512x256_6_1_0_0 : Memref sig .tc .vmem S512x256 .bf16).view.loc ((c : Dev nD) : Thread nD τ) ↦[(slotM 6 1 inb_S8x4x512x256_S1x1x512x256_6_1_0_0 : Memref sig .tc .vmem S512x256 .bf16).view.set]{fullShare} fr)
    ∗ ((slotM 6 2 inb_S8x4x512x256_S1x1x512x256_6_2_0_0 : Memref sig .tc .vmem S512x256 .bf16).view.loc ((c : Dev nD) : Thread nD τ) ↦[(slotM 6 2 inb_S8x4x512x256_S1x1x512x256_6_2_0_0 : Memref sig .tc .vmem S512x256 .bf16).view.set]{fullShare} fr)
    ∗ ((slotM 6 3 inb_S8x4x512x256_S1x1x512x256_6_3_0_0 : Memref sig .tc .vmem S512x256 .bf16).view.loc ((c : Dev nD) : Thread nD τ) ↦[(slotM 6 3 inb_S8x4x512x256_S1x1x512x256_6_3_0_0 : Memref sig .tc .vmem S512x256 .bf16).view.set]{fullShare} fr)
    ∗ ((slotM 7 0 inb_S8x4x512x256_S1x1x512x256_7_0_0_0 : Memref sig .tc .vmem S512x256 .bf16).view.loc ((c : Dev nD) : Thread nD τ) ↦[(slotM 7 0 inb_S8x4x512x256_S1x1x512x256_7_0_0_0 : Memref sig .tc .vmem S512x256 .bf16).view.set]{fullShare} fr)
    ∗ ((slotM 7 1 inb_S8x4x512x256_S1x1x512x256_7_1_0_0 : Memref sig .tc .vmem S512x256 .bf16).view.loc ((c : Dev nD) : Thread nD τ) ↦[(slotM 7 1 inb_S8x4x512x256_S1x1x512x256_7_1_0_0 : Memref sig .tc .vmem S512x256 .bf16).view.set]{fullShare} fr)
    ∗ ((slotM 7 2 inb_S8x4x512x256_S1x1x512x256_7_2_0_0 : Memref sig .tc .vmem S512x256 .bf16).view.loc ((c : Dev nD) : Thread nD τ) ↦[(slotM 7 2 inb_S8x4x512x256_S1x1x512x256_7_2_0_0 : Memref sig .tc .vmem S512x256 .bf16).view.set]{fullShare} fr)
    ∗ ((slotM 7 3 inb_S8x4x512x256_S1x1x512x256_7_3_0_0 : Memref sig .tc .vmem S512x256 .bf16).view.loc ((c : Dev nD) : Thread nD τ) ↦[(slotM 7 3 inb_S8x4x512x256_S1x1x512x256_7_3_0_0 : Memref sig .tc .vmem S512x256 .bf16).view.set]{fullShare} fr)
    ∗ ((oblkM (k0_off2 c) (k0_off2_inb c) : Memref sig .tc .vmem S512x256 .bf16).view.loc ((c : Dev nD) : Thread nD τ) ↦[(oblkM (k0_off2 c) (k0_off2_inb c) : Memref sig .tc .vmem S512x256 .bf16).view.set]{fullShare} fo)
    ∗ ((oblkM (k0_off6 c) (k0_off6_inb c) : Memref sig .tc .vmem S512x256 .bf16).view.loc ((c : Dev nD) : Thread nD τ) ↦[(oblkM (k0_off6 c) (k0_off6_inb c) : Memref sig .tc .vmem S512x256 .bf16).view.set]{fullShare} fo)
    ∗ ((oblkM (k0_off10 c) (k0_off10_inb c) : Memref sig .tc .vmem S512x256 .bf16).view.loc ((c : Dev nD) : Thread nD τ) ↦[(oblkM (k0_off10 c) (k0_off10_inb c) : Memref sig .tc .vmem S512x256 .bf16).view.set]{fullShare} fo)
    ∗ ((oblkM (k0_off14 c) (k0_off14_inb c) : Memref sig .tc .vmem S512x256 .bf16).view.loc ((c : Dev nD) : Thread nD τ) ↦[(oblkM (k0_off14 c) (k0_off14_inb c) : Memref sig .tc .vmem S512x256 .bf16).view.set]{fullShare} fo)
    ∗ ((oblkM (k0_off4 c) (k0_off4_inb c) : Memref sig .tc .vmem S512x256 .bf16).view.loc ((c : Dev nD) : Thread nD τ) ↦[(oblkM (k0_off4 c) (k0_off4_inb c) : Memref sig .tc .vmem S512x256 .bf16).view.set]{fullShare} fo)
    ∗ ((oblkM (k0_off8 c) (k0_off8_inb c) : Memref sig .tc .vmem S512x256 .bf16).view.loc ((c : Dev nD) : Thread nD τ) ↦[(oblkM (k0_off8 c) (k0_off8_inb c) : Memref sig .tc .vmem S512x256 .bf16).view.set]{fullShare} fo)
    ∗ ((oblkM (k0_off12 c) (k0_off12_inb c) : Memref sig .tc .vmem S512x256 .bf16).view.loc ((c : Dev nD) : Thread nD τ) ↦[(oblkM (k0_off12 c) (k0_off12_inb c) : Memref sig .tc .vmem S512x256 .bf16).view.set]{fullShare} fo)
    ∗ ((oblkM (k0_off16 c) (k0_off16_inb c) : Memref sig .tc .vmem S512x256 .bf16).view.loc ((c : Dev nD) : Thread nD τ) ↦[(oblkM (k0_off16 c) (k0_off16_inb c) : Memref sig .tc .vmem S512x256 .bf16).view.set]{fullShare} fo)
    ∗ ((oblkM (rowOff c 3 0) (rowOff_inb c 3 0 (by decide)) : Memref sig .tc .vmem S512x256 .bf16).view.loc ((c : Dev nD) : Thread nD τ) ↦[(oblkM (rowOff c 3 0) (rowOff_inb c 3 0 (by decide)) : Memref sig .tc .vmem S512x256 .bf16).view.set]{fullShare} fo)
    ∗ ((oblkM (rowOff c 2 0) (rowOff_inb c 2 0 (by decide)) : Memref sig .tc .vmem S512x256 .bf16).view.loc ((c : Dev nD) : Thread nD τ) ↦[(oblkM (rowOff c 2 0) (rowOff_inb c 2 0 (by decide)) : Memref sig .tc .vmem S512x256 .bf16).view.set]{fullShare} fo)
    ∗ ((oblkM (rowOff c 1 0) (rowOff_inb c 1 0 (by decide)) : Memref sig .tc .vmem S512x256 .bf16).view.loc ((c : Dev nD) : Thread nD τ) ↦[(oblkM (rowOff c 1 0) (rowOff_inb c 1 0 (by decide)) : Memref sig .tc .vmem S512x256 .bf16).view.set]{fullShare} fo)
    ∗ ((oblkM (rowOff c 3 1) (rowOff_inb c 3 1 (by decide)) : Memref sig .tc .vmem S512x256 .bf16).view.loc ((c : Dev nD) : Thread nD τ) ↦[(oblkM (rowOff c 3 1) (rowOff_inb c 3 1 (by decide)) : Memref sig .tc .vmem S512x256 .bf16).view.set]{fullShare} fo)
    ∗ ((oblkM (rowOff c 2 1) (rowOff_inb c 2 1 (by decide)) : Memref sig .tc .vmem S512x256 .bf16).view.loc ((c : Dev nD) : Thread nD τ) ↦[(oblkM (rowOff c 2 1) (rowOff_inb c 2 1 (by decide)) : Memref sig .tc .vmem S512x256 .bf16).view.set]{fullShare} fo)
    ∗ ((oblkM (rowOff c 1 1) (rowOff_inb c 1 1 (by decide)) : Memref sig .tc .vmem S512x256 .bf16).view.loc ((c : Dev nD) : Thread nD τ) ↦[(oblkM (rowOff c 1 1) (rowOff_inb c 1 1 (by decide)) : Memref sig .tc .vmem S512x256 .bf16).view.set]{fullShare} fo)
    ∗ ((oblkM (rowOff c 3 2) (rowOff_inb c 3 2 (by decide)) : Memref sig .tc .vmem S512x256 .bf16).view.loc ((c : Dev nD) : Thread nD τ) ↦[(oblkM (rowOff c 3 2) (rowOff_inb c 3 2 (by decide)) : Memref sig .tc .vmem S512x256 .bf16).view.set]{fullShare} fo)
    ∗ ((oblkM (rowOff c 2 2) (rowOff_inb c 2 2 (by decide)) : Memref sig .tc .vmem S512x256 .bf16).view.loc ((c : Dev nD) : Thread nD τ) ↦[(oblkM (rowOff c 2 2) (rowOff_inb c 2 2 (by decide)) : Memref sig .tc .vmem S512x256 .bf16).view.set]{fullShare} fo)
    ∗ ((oblkM (rowOff c 1 2) (rowOff_inb c 1 2 (by decide)) : Memref sig .tc .vmem S512x256 .bf16).view.loc ((c : Dev nD) : Thread nD τ) ↦[(oblkM (rowOff c 1 2) (rowOff_inb c 1 2 (by decide)) : Memref sig .tc .vmem S512x256 .bf16).view.set]{fullShare} fo)
    ∗ ((oblkM (rowOff c 3 3) (rowOff_inb c 3 3 (by decide)) : Memref sig .tc .vmem S512x256 .bf16).view.loc ((c : Dev nD) : Thread nD τ) ↦[(oblkM (rowOff c 3 3) (rowOff_inb c 3 3 (by decide)) : Memref sig .tc .vmem S512x256 .bf16).view.set]{fullShare} fo)
    ∗ ((oblkM (rowOff c 2 3) (rowOff_inb c 2 3 (by decide)) : Memref sig .tc .vmem S512x256 .bf16).view.loc ((c : Dev nD) : Thread nD τ) ↦[(oblkM (rowOff c 2 3) (rowOff_inb c 2 3 (by decide)) : Memref sig .tc .vmem S512x256 .bf16).view.set]{fullShare} fo)
    ∗ ((oblkM (rowOff c 1 3) (rowOff_inb c 1 3 (by decide)) : Memref sig .tc .vmem S512x256 .bf16).view.loc ((c : Dev nD) : Thread nD τ) ↦[(oblkM (rowOff c 1 3) (rowOff_inb c 1 3 (by decide)) : Memref sig .tc .vmem S512x256 .bf16).view.set]{fullShare} fo)
    ∗ ((oblkM (rowOff c 1 4) (rowOff_inb c 1 4 (by decide)) : Memref sig .tc .vmem S512x256 .bf16).view.loc ((c : Dev nD) : Thread nD τ) ↦[(oblkM (rowOff c 1 4) (rowOff_inb c 1 4 (by decide)) : Memref sig .tc .vmem S512x256 .bf16).view.set]{fullShare} fo)
    ∗ ((oblkM (rowOff c 2 4) (rowOff_inb c 2 4 (by decide)) : Memref sig .tc .vmem S512x256 .bf16).view.loc ((c : Dev nD) : Thread nD τ) ↦[(oblkM (rowOff c 2 4) (rowOff_inb c 2 4 (by decide)) : Memref sig .tc .vmem S512x256 .bf16).view.set]{fullShare} fo)
    ∗ ((oblkM (rowOff c 3 4) (rowOff_inb c 3 4 (by decide)) : Memref sig .tc .vmem S512x256 .bf16).view.loc ((c : Dev nD) : Thread nD τ) ↦[(oblkM (rowOff c 3 4) (rowOff_inb c 3 4 (by decide)) : Memref sig .tc .vmem S512x256 .bf16).view.set]{fullShare} fo)
    ∗ ((oblkM (rowOff c 1 5) (rowOff_inb c 1 5 (by decide)) : Memref sig .tc .vmem S512x256 .bf16).view.loc ((c : Dev nD) : Thread nD τ) ↦[(oblkM (rowOff c 1 5) (rowOff_inb c 1 5 (by decide)) : Memref sig .tc .vmem S512x256 .bf16).view.set]{fullShare} fo)
    ∗ ((oblkM (rowOff c 2 5) (rowOff_inb c 2 5 (by decide)) : Memref sig .tc .vmem S512x256 .bf16).view.loc ((c : Dev nD) : Thread nD τ) ↦[(oblkM (rowOff c 2 5) (rowOff_inb c 2 5 (by decide)) : Memref sig .tc .vmem S512x256 .bf16).view.set]{fullShare} fo)
    ∗ ((oblkM (rowOff c 3 5) (rowOff_inb c 3 5 (by decide)) : Memref sig .tc .vmem S512x256 .bf16).view.loc ((c : Dev nD) : Thread nD τ) ↦[(oblkM (rowOff c 3 5) (rowOff_inb c 3 5 (by decide)) : Memref sig .tc .vmem S512x256 .bf16).view.set]{fullShare} fo)
    ∗ ((oblkM (rowOff c 1 6) (rowOff_inb c 1 6 (by decide)) : Memref sig .tc .vmem S512x256 .bf16).view.loc ((c : Dev nD) : Thread nD τ) ↦[(oblkM (rowOff c 1 6) (rowOff_inb c 1 6 (by decide)) : Memref sig .tc .vmem S512x256 .bf16).view.set]{fullShare} fo)
    ∗ ((oblkM (rowOff c 2 6) (rowOff_inb c 2 6 (by decide)) : Memref sig .tc .vmem S512x256 .bf16).view.loc ((c : Dev nD) : Thread nD τ) ↦[(oblkM (rowOff c 2 6) (rowOff_inb c 2 6 (by decide)) : Memref sig .tc .vmem S512x256 .bf16).view.set]{fullShare} fo)
    ∗ ((oblkM (rowOff c 3 6) (rowOff_inb c 3 6 (by decide)) : Memref sig .tc .vmem S512x256 .bf16).view.loc ((c : Dev nD) : Thread nD τ) ↦[(oblkM (rowOff c 3 6) (rowOff_inb c 3 6 (by decide)) : Memref sig .tc .vmem S512x256 .bf16).view.set]{fullShare} fo)
    ∗ ((oblkM (rowOff c 1 7) (rowOff_inb c 1 7 (by decide)) : Memref sig .tc .vmem S512x256 .bf16).view.loc ((c : Dev nD) : Thread nD τ) ↦[(oblkM (rowOff c 1 7) (rowOff_inb c 1 7 (by decide)) : Memref sig .tc .vmem S512x256 .bf16).view.set]{fullShare} fo)
    ∗ ((oblkM (rowOff c 2 7) (rowOff_inb c 2 7 (by decide)) : Memref sig .tc .vmem S512x256 .bf16).view.loc ((c : Dev nD) : Thread nD τ) ↦[(oblkM (rowOff c 2 7) (rowOff_inb c 2 7 (by decide)) : Memref sig .tc .vmem S512x256 .bf16).view.set]{fullShare} fo)
    ∗ ((oblkM (rowOff c 3 7) (rowOff_inb c 3 7 (by decide)) : Memref sig .tc .vmem S512x256 .bf16).view.loc ((c : Dev nD) : Thread nD τ) ↦[(oblkM (rowOff c 3 7) (rowOff_inb c 3 7 (by decide)) : Memref sig .tc .vmem S512x256 .bf16).view.set]{fullShare} fo)
    ∗ cellInv ER (ringRd (F := F) fa fb) (K (barCell c)) (barCell c)
    ∗ cellInv ER (ringRd (F := F) fa fb) (K (barCell (nxt c))) (barCell (nxt c))
    ∗ cellInv ER (ringRd (F := F) fa fb) (K (barCell (prv c))) (barCell (prv c))
    ∗ cellInv ER (ringRd (F := F) fa fb) (K (dcell (c) (csem cc0_scratch2 0 0 inb_S8x3_S1x1_0_0))) (dcell (c) (csem cc0_scratch2 0 0 inb_S8x3_S1x1_0_0))
    ∗ cellInv ER (ringRd (F := F) fa fb) (K (dcell (c) (csem cc0_scratch2 0 1 inb_S8x3_S1x1_0_1))) (dcell (c) (csem cc0_scratch2 0 1 inb_S8x3_S1x1_0_1))
    ∗ cellInv ER (ringRd (F := F) fa fb) (K (dcell (c) (csem cc0_scratch2 0 2 inb_S8x3_S1x1_0_2))) (dcell (c) (csem cc0_scratch2 0 2 inb_S8x3_S1x1_0_2))
    ∗ cellInv ER (ringRd (F := F) fa fb) (K (dcell (c) (csem cc0_scratch2 1 0 inb_S8x3_S1x1_1_0))) (dcell (c) (csem cc0_scratch2 1 0 inb_S8x3_S1x1_1_0))
    ∗ cellInv ER (ringRd (F := F) fa fb) (K (dcell (c) (csem cc0_scratch2 1 1 inb_S8x3_S1x1_1_1))) (dcell (c) (csem cc0_scratch2 1 1 inb_S8x3_S1x1_1_1))
    ∗ cellInv ER (ringRd (F := F) fa fb) (K (dcell (c) (csem cc0_scratch2 1 2 inb_S8x3_S1x1_1_2))) (dcell (c) (csem cc0_scratch2 1 2 inb_S8x3_S1x1_1_2))
    ∗ cellInv ER (ringRd (F := F) fa fb) (K (dcell (c) (csem cc0_scratch2 2 0 inb_S8x3_S1x1_2_0))) (dcell (c) (csem cc0_scratch2 2 0 inb_S8x3_S1x1_2_0))
    ∗ cellInv ER (ringRd (F := F) fa fb) (K (dcell (c) (csem cc0_scratch2 2 1 inb_S8x3_S1x1_2_1))) (dcell (c) (csem cc0_scratch2 2 1 inb_S8x3_S1x1_2_1))
    ∗ cellInv ER (ringRd (F := F) fa fb) (K (dcell (c) (csem cc0_scratch2 2 2 inb_S8x3_S1x1_2_2))) (dcell (c) (csem cc0_scratch2 2 2 inb_S8x3_S1x1_2_2))
    ∗ cellInv ER (ringRd (F := F) fa fb) (K (dcell (c) (csem cc0_scratch2 3 0 inb_S8x3_S1x1_3_0))) (dcell (c) (csem cc0_scratch2 3 0 inb_S8x3_S1x1_3_0))
    ∗ cellInv ER (ringRd (F := F) fa fb) (K (dcell (c) (csem cc0_scratch2 3 1 inb_S8x3_S1x1_3_1))) (dcell (c) (csem cc0_scratch2 3 1 inb_S8x3_S1x1_3_1))
    ∗ cellInv ER (ringRd (F := F) fa fb) (K (dcell (c) (csem cc0_scratch2 3 2 inb_S8x3_S1x1_3_2))) (dcell (c) (csem cc0_scratch2 3 2 inb_S8x3_S1x1_3_2))
    ∗ cellInv ER (ringRd (F := F) fa fb) (K (dcell (c) (csem cc0_scratch2 4 0 inb_S8x3_S1x1_4_0))) (dcell (c) (csem cc0_scratch2 4 0 inb_S8x3_S1x1_4_0))
    ∗ cellInv ER (ringRd (F := F) fa fb) (K (dcell (c) (csem cc0_scratch2 4 1 inb_S8x3_S1x1_4_1))) (dcell (c) (csem cc0_scratch2 4 1 inb_S8x3_S1x1_4_1))
    ∗ cellInv ER (ringRd (F := F) fa fb) (K (dcell (c) (csem cc0_scratch2 4 2 inb_S8x3_S1x1_4_2))) (dcell (c) (csem cc0_scratch2 4 2 inb_S8x3_S1x1_4_2))
    ∗ cellInv ER (ringRd (F := F) fa fb) (K (dcell (c) (csem cc0_scratch2 5 0 inb_S8x3_S1x1_5_0))) (dcell (c) (csem cc0_scratch2 5 0 inb_S8x3_S1x1_5_0))
    ∗ cellInv ER (ringRd (F := F) fa fb) (K (dcell (c) (csem cc0_scratch2 5 1 inb_S8x3_S1x1_5_1))) (dcell (c) (csem cc0_scratch2 5 1 inb_S8x3_S1x1_5_1))
    ∗ cellInv ER (ringRd (F := F) fa fb) (K (dcell (c) (csem cc0_scratch2 5 2 inb_S8x3_S1x1_5_2))) (dcell (c) (csem cc0_scratch2 5 2 inb_S8x3_S1x1_5_2))
    ∗ cellInv ER (ringRd (F := F) fa fb) (K (dcell (c) (csem cc0_scratch2 6 0 inb_S8x3_S1x1_6_0))) (dcell (c) (csem cc0_scratch2 6 0 inb_S8x3_S1x1_6_0))
    ∗ cellInv ER (ringRd (F := F) fa fb) (K (dcell (c) (csem cc0_scratch2 6 1 inb_S8x3_S1x1_6_1))) (dcell (c) (csem cc0_scratch2 6 1 inb_S8x3_S1x1_6_1))
    ∗ cellInv ER (ringRd (F := F) fa fb) (K (dcell (c) (csem cc0_scratch2 6 2 inb_S8x3_S1x1_6_2))) (dcell (c) (csem cc0_scratch2 6 2 inb_S8x3_S1x1_6_2))
    ∗ cellInv ER (ringRd (F := F) fa fb) (K (dcell (c) (csem cc0_scratch2 7 0 inb_S8x3_S1x1_7_0))) (dcell (c) (csem cc0_scratch2 7 0 inb_S8x3_S1x1_7_0))
    ∗ cellInv ER (ringRd (F := F) fa fb) (K (dcell (c) (csem cc0_scratch2 7 1 inb_S8x3_S1x1_7_1))) (dcell (c) (csem cc0_scratch2 7 1 inb_S8x3_S1x1_7_1))
    ∗ cellInv ER (ringRd (F := F) fa fb) (K (dcell (c) (csem cc0_scratch2 7 2 inb_S8x3_S1x1_7_2))) (dcell (c) (csem cc0_scratch2 7 2 inb_S8x3_S1x1_7_2))
    ∗ cellInv ER (ringRd (F := F) fa fb) (K (dcell (c) (csem cc0_scratch3 0 0 inb_S8x3_S1x1_0_0))) (dcell (c) (csem cc0_scratch3 0 0 inb_S8x3_S1x1_0_0))
    ∗ cellInv ER (ringRd (F := F) fa fb) (K (dcell (c) (csem cc0_scratch3 0 1 inb_S8x3_S1x1_0_1))) (dcell (c) (csem cc0_scratch3 0 1 inb_S8x3_S1x1_0_1))
    ∗ cellInv ER (ringRd (F := F) fa fb) (K (dcell (c) (csem cc0_scratch3 0 2 inb_S8x3_S1x1_0_2))) (dcell (c) (csem cc0_scratch3 0 2 inb_S8x3_S1x1_0_2))
    ∗ cellInv ER (ringRd (F := F) fa fb) (K (dcell (c) (csem cc0_scratch3 1 0 inb_S8x3_S1x1_1_0))) (dcell (c) (csem cc0_scratch3 1 0 inb_S8x3_S1x1_1_0))
    ∗ cellInv ER (ringRd (F := F) fa fb) (K (dcell (c) (csem cc0_scratch3 1 1 inb_S8x3_S1x1_1_1))) (dcell (c) (csem cc0_scratch3 1 1 inb_S8x3_S1x1_1_1))
    ∗ cellInv ER (ringRd (F := F) fa fb) (K (dcell (c) (csem cc0_scratch3 1 2 inb_S8x3_S1x1_1_2))) (dcell (c) (csem cc0_scratch3 1 2 inb_S8x3_S1x1_1_2))
    ∗ cellInv ER (ringRd (F := F) fa fb) (K (dcell (c) (csem cc0_scratch3 2 0 inb_S8x3_S1x1_2_0))) (dcell (c) (csem cc0_scratch3 2 0 inb_S8x3_S1x1_2_0))
    ∗ cellInv ER (ringRd (F := F) fa fb) (K (dcell (c) (csem cc0_scratch3 2 1 inb_S8x3_S1x1_2_1))) (dcell (c) (csem cc0_scratch3 2 1 inb_S8x3_S1x1_2_1))
    ∗ cellInv ER (ringRd (F := F) fa fb) (K (dcell (c) (csem cc0_scratch3 2 2 inb_S8x3_S1x1_2_2))) (dcell (c) (csem cc0_scratch3 2 2 inb_S8x3_S1x1_2_2))
    ∗ cellInv ER (ringRd (F := F) fa fb) (K (dcell (c) (csem cc0_scratch3 3 0 inb_S8x3_S1x1_3_0))) (dcell (c) (csem cc0_scratch3 3 0 inb_S8x3_S1x1_3_0))
    ∗ cellInv ER (ringRd (F := F) fa fb) (K (dcell (c) (csem cc0_scratch3 3 1 inb_S8x3_S1x1_3_1))) (dcell (c) (csem cc0_scratch3 3 1 inb_S8x3_S1x1_3_1))
    ∗ cellInv ER (ringRd (F := F) fa fb) (K (dcell (c) (csem cc0_scratch3 3 2 inb_S8x3_S1x1_3_2))) (dcell (c) (csem cc0_scratch3 3 2 inb_S8x3_S1x1_3_2))
    ∗ cellInv ER (ringRd (F := F) fa fb) (K (dcell (c) (csem cc0_scratch3 4 0 inb_S8x3_S1x1_4_0))) (dcell (c) (csem cc0_scratch3 4 0 inb_S8x3_S1x1_4_0))
    ∗ cellInv ER (ringRd (F := F) fa fb) (K (dcell (c) (csem cc0_scratch3 4 1 inb_S8x3_S1x1_4_1))) (dcell (c) (csem cc0_scratch3 4 1 inb_S8x3_S1x1_4_1))
    ∗ cellInv ER (ringRd (F := F) fa fb) (K (dcell (c) (csem cc0_scratch3 4 2 inb_S8x3_S1x1_4_2))) (dcell (c) (csem cc0_scratch3 4 2 inb_S8x3_S1x1_4_2))
    ∗ cellInv ER (ringRd (F := F) fa fb) (K (dcell (c) (csem cc0_scratch3 5 0 inb_S8x3_S1x1_5_0))) (dcell (c) (csem cc0_scratch3 5 0 inb_S8x3_S1x1_5_0))
    ∗ cellInv ER (ringRd (F := F) fa fb) (K (dcell (c) (csem cc0_scratch3 5 1 inb_S8x3_S1x1_5_1))) (dcell (c) (csem cc0_scratch3 5 1 inb_S8x3_S1x1_5_1))
    ∗ cellInv ER (ringRd (F := F) fa fb) (K (dcell (c) (csem cc0_scratch3 5 2 inb_S8x3_S1x1_5_2))) (dcell (c) (csem cc0_scratch3 5 2 inb_S8x3_S1x1_5_2))
    ∗ cellInv ER (ringRd (F := F) fa fb) (K (dcell (c) (csem cc0_scratch3 6 0 inb_S8x3_S1x1_6_0))) (dcell (c) (csem cc0_scratch3 6 0 inb_S8x3_S1x1_6_0))
    ∗ cellInv ER (ringRd (F := F) fa fb) (K (dcell (c) (csem cc0_scratch3 6 1 inb_S8x3_S1x1_6_1))) (dcell (c) (csem cc0_scratch3 6 1 inb_S8x3_S1x1_6_1))
    ∗ cellInv ER (ringRd (F := F) fa fb) (K (dcell (c) (csem cc0_scratch3 6 2 inb_S8x3_S1x1_6_2))) (dcell (c) (csem cc0_scratch3 6 2 inb_S8x3_S1x1_6_2))
    ∗ cellInv ER (ringRd (F := F) fa fb) (K (dcell (c) (csem cc0_scratch3 7 0 inb_S8x3_S1x1_7_0))) (dcell (c) (csem cc0_scratch3 7 0 inb_S8x3_S1x1_7_0))
    ∗ cellInv ER (ringRd (F := F) fa fb) (K (dcell (c) (csem cc0_scratch3 7 1 inb_S8x3_S1x1_7_1))) (dcell (c) (csem cc0_scratch3 7 1 inb_S8x3_S1x1_7_1))
    ∗ cellInv ER (ringRd (F := F) fa fb) (K (dcell (c) (csem cc0_scratch3 7 2 inb_S8x3_S1x1_7_2))) (dcell (c) (csem cc0_scratch3 7 2 inb_S8x3_S1x1_7_2))
    ∗ cellInv ER (ringRd (F := F) fa fb) (K (dcell (c) (csem cc0_scratch4 0 0 inb_S8x3_S1x1_0_0))) (dcell (c) (csem cc0_scratch4 0 0 inb_S8x3_S1x1_0_0))
    ∗ cellInv ER (ringRd (F := F) fa fb) (K (dcell (c) (csem cc0_scratch4 0 1 inb_S8x3_S1x1_0_1))) (dcell (c) (csem cc0_scratch4 0 1 inb_S8x3_S1x1_0_1))
    ∗ cellInv ER (ringRd (F := F) fa fb) (K (dcell (c) (csem cc0_scratch4 0 2 inb_S8x3_S1x1_0_2))) (dcell (c) (csem cc0_scratch4 0 2 inb_S8x3_S1x1_0_2))
    ∗ cellInv ER (ringRd (F := F) fa fb) (K (dcell (c) (csem cc0_scratch4 1 0 inb_S8x3_S1x1_1_0))) (dcell (c) (csem cc0_scratch4 1 0 inb_S8x3_S1x1_1_0))
    ∗ cellInv ER (ringRd (F := F) fa fb) (K (dcell (c) (csem cc0_scratch4 1 1 inb_S8x3_S1x1_1_1))) (dcell (c) (csem cc0_scratch4 1 1 inb_S8x3_S1x1_1_1))
    ∗ cellInv ER (ringRd (F := F) fa fb) (K (dcell (c) (csem cc0_scratch4 1 2 inb_S8x3_S1x1_1_2))) (dcell (c) (csem cc0_scratch4 1 2 inb_S8x3_S1x1_1_2))
    ∗ cellInv ER (ringRd (F := F) fa fb) (K (dcell (c) (csem cc0_scratch4 2 0 inb_S8x3_S1x1_2_0))) (dcell (c) (csem cc0_scratch4 2 0 inb_S8x3_S1x1_2_0))
    ∗ cellInv ER (ringRd (F := F) fa fb) (K (dcell (c) (csem cc0_scratch4 2 1 inb_S8x3_S1x1_2_1))) (dcell (c) (csem cc0_scratch4 2 1 inb_S8x3_S1x1_2_1))
    ∗ cellInv ER (ringRd (F := F) fa fb) (K (dcell (c) (csem cc0_scratch4 2 2 inb_S8x3_S1x1_2_2))) (dcell (c) (csem cc0_scratch4 2 2 inb_S8x3_S1x1_2_2))
    ∗ cellInv ER (ringRd (F := F) fa fb) (K (dcell (c) (csem cc0_scratch4 3 0 inb_S8x3_S1x1_3_0))) (dcell (c) (csem cc0_scratch4 3 0 inb_S8x3_S1x1_3_0))
    ∗ cellInv ER (ringRd (F := F) fa fb) (K (dcell (c) (csem cc0_scratch4 3 1 inb_S8x3_S1x1_3_1))) (dcell (c) (csem cc0_scratch4 3 1 inb_S8x3_S1x1_3_1))
    ∗ cellInv ER (ringRd (F := F) fa fb) (K (dcell (c) (csem cc0_scratch4 3 2 inb_S8x3_S1x1_3_2))) (dcell (c) (csem cc0_scratch4 3 2 inb_S8x3_S1x1_3_2))
    ∗ cellInv ER (ringRd (F := F) fa fb) (K (dcell (c) (csem cc0_scratch4 4 0 inb_S8x3_S1x1_4_0))) (dcell (c) (csem cc0_scratch4 4 0 inb_S8x3_S1x1_4_0))
    ∗ cellInv ER (ringRd (F := F) fa fb) (K (dcell (c) (csem cc0_scratch4 4 1 inb_S8x3_S1x1_4_1))) (dcell (c) (csem cc0_scratch4 4 1 inb_S8x3_S1x1_4_1))
    ∗ cellInv ER (ringRd (F := F) fa fb) (K (dcell (c) (csem cc0_scratch4 4 2 inb_S8x3_S1x1_4_2))) (dcell (c) (csem cc0_scratch4 4 2 inb_S8x3_S1x1_4_2))
    ∗ cellInv ER (ringRd (F := F) fa fb) (K (dcell (c) (csem cc0_scratch4 5 0 inb_S8x3_S1x1_5_0))) (dcell (c) (csem cc0_scratch4 5 0 inb_S8x3_S1x1_5_0))
    ∗ cellInv ER (ringRd (F := F) fa fb) (K (dcell (c) (csem cc0_scratch4 5 1 inb_S8x3_S1x1_5_1))) (dcell (c) (csem cc0_scratch4 5 1 inb_S8x3_S1x1_5_1))
    ∗ cellInv ER (ringRd (F := F) fa fb) (K (dcell (c) (csem cc0_scratch4 5 2 inb_S8x3_S1x1_5_2))) (dcell (c) (csem cc0_scratch4 5 2 inb_S8x3_S1x1_5_2))
    ∗ cellInv ER (ringRd (F := F) fa fb) (K (dcell (c) (csem cc0_scratch4 6 0 inb_S8x3_S1x1_6_0))) (dcell (c) (csem cc0_scratch4 6 0 inb_S8x3_S1x1_6_0))
    ∗ cellInv ER (ringRd (F := F) fa fb) (K (dcell (c) (csem cc0_scratch4 6 1 inb_S8x3_S1x1_6_1))) (dcell (c) (csem cc0_scratch4 6 1 inb_S8x3_S1x1_6_1))
    ∗ cellInv ER (ringRd (F := F) fa fb) (K (dcell (c) (csem cc0_scratch4 6 2 inb_S8x3_S1x1_6_2))) (dcell (c) (csem cc0_scratch4 6 2 inb_S8x3_S1x1_6_2))
    ∗ cellInv ER (ringRd (F := F) fa fb) (K (dcell (c) (csem cc0_scratch4 7 0 inb_S8x3_S1x1_7_0))) (dcell (c) (csem cc0_scratch4 7 0 inb_S8x3_S1x1_7_0))
    ∗ cellInv ER (ringRd (F := F) fa fb) (K (dcell (c) (csem cc0_scratch4 7 1 inb_S8x3_S1x1_7_1))) (dcell (c) (csem cc0_scratch4 7 1 inb_S8x3_S1x1_7_1))
    ∗ cellInv ER (ringRd (F := F) fa fb) (K (dcell (c) (csem cc0_scratch4 7 2 inb_S8x3_S1x1_7_2))) (dcell (c) (csem cc0_scratch4 7 2 inb_S8x3_S1x1_7_2))
    ∗ cellInv ER (ringRd (F := F) fa fb) (K (dcell (c) (csem cc0_scratch5 0 0 inb_S8x3_S1x1_0_0))) (dcell (c) (csem cc0_scratch5 0 0 inb_S8x3_S1x1_0_0))
    ∗ cellInv ER (ringRd (F := F) fa fb) (K (dcell (c) (csem cc0_scratch5 0 1 inb_S8x3_S1x1_0_1))) (dcell (c) (csem cc0_scratch5 0 1 inb_S8x3_S1x1_0_1))
    ∗ cellInv ER (ringRd (F := F) fa fb) (K (dcell (c) (csem cc0_scratch5 0 2 inb_S8x3_S1x1_0_2))) (dcell (c) (csem cc0_scratch5 0 2 inb_S8x3_S1x1_0_2))
    ∗ cellInv ER (ringRd (F := F) fa fb) (K (dcell (c) (csem cc0_scratch5 1 0 inb_S8x3_S1x1_1_0))) (dcell (c) (csem cc0_scratch5 1 0 inb_S8x3_S1x1_1_0))
    ∗ cellInv ER (ringRd (F := F) fa fb) (K (dcell (c) (csem cc0_scratch5 1 1 inb_S8x3_S1x1_1_1))) (dcell (c) (csem cc0_scratch5 1 1 inb_S8x3_S1x1_1_1))
    ∗ cellInv ER (ringRd (F := F) fa fb) (K (dcell (c) (csem cc0_scratch5 1 2 inb_S8x3_S1x1_1_2))) (dcell (c) (csem cc0_scratch5 1 2 inb_S8x3_S1x1_1_2))
    ∗ cellInv ER (ringRd (F := F) fa fb) (K (dcell (c) (csem cc0_scratch5 2 0 inb_S8x3_S1x1_2_0))) (dcell (c) (csem cc0_scratch5 2 0 inb_S8x3_S1x1_2_0))
    ∗ cellInv ER (ringRd (F := F) fa fb) (K (dcell (c) (csem cc0_scratch5 2 1 inb_S8x3_S1x1_2_1))) (dcell (c) (csem cc0_scratch5 2 1 inb_S8x3_S1x1_2_1))
    ∗ cellInv ER (ringRd (F := F) fa fb) (K (dcell (c) (csem cc0_scratch5 2 2 inb_S8x3_S1x1_2_2))) (dcell (c) (csem cc0_scratch5 2 2 inb_S8x3_S1x1_2_2))
    ∗ cellInv ER (ringRd (F := F) fa fb) (K (dcell (c) (csem cc0_scratch5 3 0 inb_S8x3_S1x1_3_0))) (dcell (c) (csem cc0_scratch5 3 0 inb_S8x3_S1x1_3_0))
    ∗ cellInv ER (ringRd (F := F) fa fb) (K (dcell (c) (csem cc0_scratch5 3 1 inb_S8x3_S1x1_3_1))) (dcell (c) (csem cc0_scratch5 3 1 inb_S8x3_S1x1_3_1))
    ∗ cellInv ER (ringRd (F := F) fa fb) (K (dcell (c) (csem cc0_scratch5 3 2 inb_S8x3_S1x1_3_2))) (dcell (c) (csem cc0_scratch5 3 2 inb_S8x3_S1x1_3_2))
    ∗ cellInv ER (ringRd (F := F) fa fb) (K (dcell (c) (csem cc0_scratch5 4 0 inb_S8x3_S1x1_4_0))) (dcell (c) (csem cc0_scratch5 4 0 inb_S8x3_S1x1_4_0))
    ∗ cellInv ER (ringRd (F := F) fa fb) (K (dcell (c) (csem cc0_scratch5 4 1 inb_S8x3_S1x1_4_1))) (dcell (c) (csem cc0_scratch5 4 1 inb_S8x3_S1x1_4_1))
    ∗ cellInv ER (ringRd (F := F) fa fb) (K (dcell (c) (csem cc0_scratch5 4 2 inb_S8x3_S1x1_4_2))) (dcell (c) (csem cc0_scratch5 4 2 inb_S8x3_S1x1_4_2))
    ∗ cellInv ER (ringRd (F := F) fa fb) (K (dcell (c) (csem cc0_scratch5 5 0 inb_S8x3_S1x1_5_0))) (dcell (c) (csem cc0_scratch5 5 0 inb_S8x3_S1x1_5_0))
    ∗ cellInv ER (ringRd (F := F) fa fb) (K (dcell (c) (csem cc0_scratch5 5 1 inb_S8x3_S1x1_5_1))) (dcell (c) (csem cc0_scratch5 5 1 inb_S8x3_S1x1_5_1))
    ∗ cellInv ER (ringRd (F := F) fa fb) (K (dcell (c) (csem cc0_scratch5 5 2 inb_S8x3_S1x1_5_2))) (dcell (c) (csem cc0_scratch5 5 2 inb_S8x3_S1x1_5_2))
    ∗ cellInv ER (ringRd (F := F) fa fb) (K (dcell (c) (csem cc0_scratch5 6 0 inb_S8x3_S1x1_6_0))) (dcell (c) (csem cc0_scratch5 6 0 inb_S8x3_S1x1_6_0))
    ∗ cellInv ER (ringRd (F := F) fa fb) (K (dcell (c) (csem cc0_scratch5 6 1 inb_S8x3_S1x1_6_1))) (dcell (c) (csem cc0_scratch5 6 1 inb_S8x3_S1x1_6_1))
    ∗ cellInv ER (ringRd (F := F) fa fb) (K (dcell (c) (csem cc0_scratch5 6 2 inb_S8x3_S1x1_6_2))) (dcell (c) (csem cc0_scratch5 6 2 inb_S8x3_S1x1_6_2))
    ∗ cellInv ER (ringRd (F := F) fa fb) (K (dcell (c) (csem cc0_scratch5 7 0 inb_S8x3_S1x1_7_0))) (dcell (c) (csem cc0_scratch5 7 0 inb_S8x3_S1x1_7_0))
    ∗ cellInv ER (ringRd (F := F) fa fb) (K (dcell (c) (csem cc0_scratch5 7 1 inb_S8x3_S1x1_7_1))) (dcell (c) (csem cc0_scratch5 7 1 inb_S8x3_S1x1_7_1))
    ∗ cellInv ER (ringRd (F := F) fa fb) (K (dcell (c) (csem cc0_scratch5 7 2 inb_S8x3_S1x1_7_2))) (dcell (c) (csem cc0_scratch5 7 2 inb_S8x3_S1x1_7_2))
    ∗ cellInv ER (ringRd (F := F) fa fb) (K (dcell (nxt c) (csem cc0_scratch3 0 0 inb_S8x3_S1x1_0_0))) (dcell (nxt c) (csem cc0_scratch3 0 0 inb_S8x3_S1x1_0_0))
    ∗ cellInv ER (ringRd (F := F) fa fb) (K (dcell (nxt c) (csem cc0_scratch3 0 1 inb_S8x3_S1x1_0_1))) (dcell (nxt c) (csem cc0_scratch3 0 1 inb_S8x3_S1x1_0_1))
    ∗ cellInv ER (ringRd (F := F) fa fb) (K (dcell (nxt c) (csem cc0_scratch3 0 2 inb_S8x3_S1x1_0_2))) (dcell (nxt c) (csem cc0_scratch3 0 2 inb_S8x3_S1x1_0_2))
    ∗ cellInv ER (ringRd (F := F) fa fb) (K (dcell (nxt c) (csem cc0_scratch3 1 0 inb_S8x3_S1x1_1_0))) (dcell (nxt c) (csem cc0_scratch3 1 0 inb_S8x3_S1x1_1_0))
    ∗ cellInv ER (ringRd (F := F) fa fb) (K (dcell (nxt c) (csem cc0_scratch3 1 1 inb_S8x3_S1x1_1_1))) (dcell (nxt c) (csem cc0_scratch3 1 1 inb_S8x3_S1x1_1_1))
    ∗ cellInv ER (ringRd (F := F) fa fb) (K (dcell (nxt c) (csem cc0_scratch3 1 2 inb_S8x3_S1x1_1_2))) (dcell (nxt c) (csem cc0_scratch3 1 2 inb_S8x3_S1x1_1_2))
    ∗ cellInv ER (ringRd (F := F) fa fb) (K (dcell (nxt c) (csem cc0_scratch3 2 0 inb_S8x3_S1x1_2_0))) (dcell (nxt c) (csem cc0_scratch3 2 0 inb_S8x3_S1x1_2_0))
    ∗ cellInv ER (ringRd (F := F) fa fb) (K (dcell (nxt c) (csem cc0_scratch3 2 1 inb_S8x3_S1x1_2_1))) (dcell (nxt c) (csem cc0_scratch3 2 1 inb_S8x3_S1x1_2_1))
    ∗ cellInv ER (ringRd (F := F) fa fb) (K (dcell (nxt c) (csem cc0_scratch3 2 2 inb_S8x3_S1x1_2_2))) (dcell (nxt c) (csem cc0_scratch3 2 2 inb_S8x3_S1x1_2_2))
    ∗ cellInv ER (ringRd (F := F) fa fb) (K (dcell (nxt c) (csem cc0_scratch3 3 0 inb_S8x3_S1x1_3_0))) (dcell (nxt c) (csem cc0_scratch3 3 0 inb_S8x3_S1x1_3_0))
    ∗ cellInv ER (ringRd (F := F) fa fb) (K (dcell (nxt c) (csem cc0_scratch3 3 1 inb_S8x3_S1x1_3_1))) (dcell (nxt c) (csem cc0_scratch3 3 1 inb_S8x3_S1x1_3_1))
    ∗ cellInv ER (ringRd (F := F) fa fb) (K (dcell (nxt c) (csem cc0_scratch3 3 2 inb_S8x3_S1x1_3_2))) (dcell (nxt c) (csem cc0_scratch3 3 2 inb_S8x3_S1x1_3_2))
    ∗ cellInv ER (ringRd (F := F) fa fb) (K (dcell (prv c) (csem cc0_scratch3 4 0 inb_S8x3_S1x1_4_0))) (dcell (prv c) (csem cc0_scratch3 4 0 inb_S8x3_S1x1_4_0))
    ∗ cellInv ER (ringRd (F := F) fa fb) (K (dcell (prv c) (csem cc0_scratch3 4 1 inb_S8x3_S1x1_4_1))) (dcell (prv c) (csem cc0_scratch3 4 1 inb_S8x3_S1x1_4_1))
    ∗ cellInv ER (ringRd (F := F) fa fb) (K (dcell (prv c) (csem cc0_scratch3 4 2 inb_S8x3_S1x1_4_2))) (dcell (prv c) (csem cc0_scratch3 4 2 inb_S8x3_S1x1_4_2))
    ∗ cellInv ER (ringRd (F := F) fa fb) (K (dcell (prv c) (csem cc0_scratch3 5 0 inb_S8x3_S1x1_5_0))) (dcell (prv c) (csem cc0_scratch3 5 0 inb_S8x3_S1x1_5_0))
    ∗ cellInv ER (ringRd (F := F) fa fb) (K (dcell (prv c) (csem cc0_scratch3 5 1 inb_S8x3_S1x1_5_1))) (dcell (prv c) (csem cc0_scratch3 5 1 inb_S8x3_S1x1_5_1))
    ∗ cellInv ER (ringRd (F := F) fa fb) (K (dcell (prv c) (csem cc0_scratch3 5 2 inb_S8x3_S1x1_5_2))) (dcell (prv c) (csem cc0_scratch3 5 2 inb_S8x3_S1x1_5_2))
    ∗ cellInv ER (ringRd (F := F) fa fb) (K (dcell (prv c) (csem cc0_scratch3 6 0 inb_S8x3_S1x1_6_0))) (dcell (prv c) (csem cc0_scratch3 6 0 inb_S8x3_S1x1_6_0))
    ∗ cellInv ER (ringRd (F := F) fa fb) (K (dcell (prv c) (csem cc0_scratch3 6 1 inb_S8x3_S1x1_6_1))) (dcell (prv c) (csem cc0_scratch3 6 1 inb_S8x3_S1x1_6_1))
    ∗ cellInv ER (ringRd (F := F) fa fb) (K (dcell (prv c) (csem cc0_scratch3 6 2 inb_S8x3_S1x1_6_2))) (dcell (prv c) (csem cc0_scratch3 6 2 inb_S8x3_S1x1_6_2))
    ∗ cellInv ER (ringRd (F := F) fa fb) (K (dcell (prv c) (csem cc0_scratch3 7 0 inb_S8x3_S1x1_7_0))) (dcell (prv c) (csem cc0_scratch3 7 0 inb_S8x3_S1x1_7_0))
    ∗ cellInv ER (ringRd (F := F) fa fb) (K (dcell (prv c) (csem cc0_scratch3 7 1 inb_S8x3_S1x1_7_1))) (dcell (prv c) (csem cc0_scratch3 7 1 inb_S8x3_S1x1_7_1))
    ∗ cellInv ER (ringRd (F := F) fa fb) (K (dcell (prv c) (csem cc0_scratch3 7 2 inb_S8x3_S1x1_7_2))) (dcell (prv c) (csem cc0_scratch3 7 2 inb_S8x3_S1x1_7_2))
    ∗ cellInv ER (ringRd (F := F) fa fb) (K (dcell (nxt c) (csem cc0_scratch5 0 0 inb_S8x3_S1x1_0_0))) (dcell (nxt c) (csem cc0_scratch5 0 0 inb_S8x3_S1x1_0_0))
    ∗ cellInv ER (ringRd (F := F) fa fb) (K (dcell (nxt c) (csem cc0_scratch5 0 1 inb_S8x3_S1x1_0_1))) (dcell (nxt c) (csem cc0_scratch5 0 1 inb_S8x3_S1x1_0_1))
    ∗ cellInv ER (ringRd (F := F) fa fb) (K (dcell (nxt c) (csem cc0_scratch5 0 2 inb_S8x3_S1x1_0_2))) (dcell (nxt c) (csem cc0_scratch5 0 2 inb_S8x3_S1x1_0_2))
    ∗ cellInv ER (ringRd (F := F) fa fb) (K (dcell (nxt c) (csem cc0_scratch5 1 0 inb_S8x3_S1x1_1_0))) (dcell (nxt c) (csem cc0_scratch5 1 0 inb_S8x3_S1x1_1_0))
    ∗ cellInv ER (ringRd (F := F) fa fb) (K (dcell (nxt c) (csem cc0_scratch5 1 1 inb_S8x3_S1x1_1_1))) (dcell (nxt c) (csem cc0_scratch5 1 1 inb_S8x3_S1x1_1_1))
    ∗ cellInv ER (ringRd (F := F) fa fb) (K (dcell (nxt c) (csem cc0_scratch5 1 2 inb_S8x3_S1x1_1_2))) (dcell (nxt c) (csem cc0_scratch5 1 2 inb_S8x3_S1x1_1_2))
    ∗ cellInv ER (ringRd (F := F) fa fb) (K (dcell (nxt c) (csem cc0_scratch5 2 0 inb_S8x3_S1x1_2_0))) (dcell (nxt c) (csem cc0_scratch5 2 0 inb_S8x3_S1x1_2_0))
    ∗ cellInv ER (ringRd (F := F) fa fb) (K (dcell (nxt c) (csem cc0_scratch5 2 1 inb_S8x3_S1x1_2_1))) (dcell (nxt c) (csem cc0_scratch5 2 1 inb_S8x3_S1x1_2_1))
    ∗ cellInv ER (ringRd (F := F) fa fb) (K (dcell (nxt c) (csem cc0_scratch5 2 2 inb_S8x3_S1x1_2_2))) (dcell (nxt c) (csem cc0_scratch5 2 2 inb_S8x3_S1x1_2_2))
    ∗ cellInv ER (ringRd (F := F) fa fb) (K (dcell (nxt c) (csem cc0_scratch5 3 0 inb_S8x3_S1x1_3_0))) (dcell (nxt c) (csem cc0_scratch5 3 0 inb_S8x3_S1x1_3_0))
    ∗ cellInv ER (ringRd (F := F) fa fb) (K (dcell (nxt c) (csem cc0_scratch5 3 1 inb_S8x3_S1x1_3_1))) (dcell (nxt c) (csem cc0_scratch5 3 1 inb_S8x3_S1x1_3_1))
    ∗ cellInv ER (ringRd (F := F) fa fb) (K (dcell (nxt c) (csem cc0_scratch5 3 2 inb_S8x3_S1x1_3_2))) (dcell (nxt c) (csem cc0_scratch5 3 2 inb_S8x3_S1x1_3_2))
    ∗ cellInv ER (ringRd (F := F) fa fb) (K (dcell (prv c) (csem cc0_scratch5 4 0 inb_S8x3_S1x1_4_0))) (dcell (prv c) (csem cc0_scratch5 4 0 inb_S8x3_S1x1_4_0))
    ∗ cellInv ER (ringRd (F := F) fa fb) (K (dcell (prv c) (csem cc0_scratch5 4 1 inb_S8x3_S1x1_4_1))) (dcell (prv c) (csem cc0_scratch5 4 1 inb_S8x3_S1x1_4_1))
    ∗ cellInv ER (ringRd (F := F) fa fb) (K (dcell (prv c) (csem cc0_scratch5 4 2 inb_S8x3_S1x1_4_2))) (dcell (prv c) (csem cc0_scratch5 4 2 inb_S8x3_S1x1_4_2))
    ∗ cellInv ER (ringRd (F := F) fa fb) (K (dcell (prv c) (csem cc0_scratch5 5 0 inb_S8x3_S1x1_5_0))) (dcell (prv c) (csem cc0_scratch5 5 0 inb_S8x3_S1x1_5_0))
    ∗ cellInv ER (ringRd (F := F) fa fb) (K (dcell (prv c) (csem cc0_scratch5 5 1 inb_S8x3_S1x1_5_1))) (dcell (prv c) (csem cc0_scratch5 5 1 inb_S8x3_S1x1_5_1))
    ∗ cellInv ER (ringRd (F := F) fa fb) (K (dcell (prv c) (csem cc0_scratch5 5 2 inb_S8x3_S1x1_5_2))) (dcell (prv c) (csem cc0_scratch5 5 2 inb_S8x3_S1x1_5_2))
    ∗ cellInv ER (ringRd (F := F) fa fb) (K (dcell (prv c) (csem cc0_scratch5 6 0 inb_S8x3_S1x1_6_0))) (dcell (prv c) (csem cc0_scratch5 6 0 inb_S8x3_S1x1_6_0))
    ∗ cellInv ER (ringRd (F := F) fa fb) (K (dcell (prv c) (csem cc0_scratch5 6 1 inb_S8x3_S1x1_6_1))) (dcell (prv c) (csem cc0_scratch5 6 1 inb_S8x3_S1x1_6_1))
    ∗ cellInv ER (ringRd (F := F) fa fb) (K (dcell (prv c) (csem cc0_scratch5 6 2 inb_S8x3_S1x1_6_2))) (dcell (prv c) (csem cc0_scratch5 6 2 inb_S8x3_S1x1_6_2))
    ∗ cellInv ER (ringRd (F := F) fa fb) (K (dcell (prv c) (csem cc0_scratch5 7 0 inb_S8x3_S1x1_7_0))) (dcell (prv c) (csem cc0_scratch5 7 0 inb_S8x3_S1x1_7_0))
    ∗ cellInv ER (ringRd (F := F) fa fb) (K (dcell (prv c) (csem cc0_scratch5 7 1 inb_S8x3_S1x1_7_1))) (dcell (prv c) (csem cc0_scratch5 7 1 inb_S8x3_S1x1_7_1))
    ∗ cellInv ER (ringRd (F := F) fa fb) (K (dcell (prv c) (csem cc0_scratch5 7 2 inb_S8x3_S1x1_7_2))) (dcell (prv c) (csem cc0_scratch5 7 2 inb_S8x3_S1x1_7_2))
    ∗ atPos ER (barCell c) 0 ∅ 0
    ∗ atPos ER (dcell (c) (csem cc0_scratch2 0 0 inb_S8x3_S1x1_0_0)) 0 ∅ 0
    ∗ atPos ER (dcell (c) (csem cc0_scratch2 0 1 inb_S8x3_S1x1_0_1)) 0 ∅ 0
    ∗ atPos ER (dcell (c) (csem cc0_scratch2 0 2 inb_S8x3_S1x1_0_2)) 0 ∅ 0
    ∗ atPos ER (dcell (c) (csem cc0_scratch2 1 0 inb_S8x3_S1x1_1_0)) 0 ∅ 0
    ∗ atPos ER (dcell (c) (csem cc0_scratch2 1 1 inb_S8x3_S1x1_1_1)) 0 ∅ 0
    ∗ atPos ER (dcell (c) (csem cc0_scratch2 1 2 inb_S8x3_S1x1_1_2)) 0 ∅ 0
    ∗ atPos ER (dcell (c) (csem cc0_scratch2 2 0 inb_S8x3_S1x1_2_0)) 0 ∅ 0
    ∗ atPos ER (dcell (c) (csem cc0_scratch2 2 1 inb_S8x3_S1x1_2_1)) 0 ∅ 0
    ∗ atPos ER (dcell (c) (csem cc0_scratch2 2 2 inb_S8x3_S1x1_2_2)) 0 ∅ 0
    ∗ atPos ER (dcell (c) (csem cc0_scratch2 3 0 inb_S8x3_S1x1_3_0)) 0 ∅ 0
    ∗ atPos ER (dcell (c) (csem cc0_scratch2 3 1 inb_S8x3_S1x1_3_1)) 0 ∅ 0
    ∗ atPos ER (dcell (c) (csem cc0_scratch2 3 2 inb_S8x3_S1x1_3_2)) 0 ∅ 0
    ∗ atPos ER (dcell (c) (csem cc0_scratch2 4 0 inb_S8x3_S1x1_4_0)) 0 ∅ 0
    ∗ atPos ER (dcell (c) (csem cc0_scratch2 4 1 inb_S8x3_S1x1_4_1)) 0 ∅ 0
    ∗ atPos ER (dcell (c) (csem cc0_scratch2 4 2 inb_S8x3_S1x1_4_2)) 0 ∅ 0
    ∗ atPos ER (dcell (c) (csem cc0_scratch2 5 0 inb_S8x3_S1x1_5_0)) 0 ∅ 0
    ∗ atPos ER (dcell (c) (csem cc0_scratch2 5 1 inb_S8x3_S1x1_5_1)) 0 ∅ 0
    ∗ atPos ER (dcell (c) (csem cc0_scratch2 5 2 inb_S8x3_S1x1_5_2)) 0 ∅ 0
    ∗ atPos ER (dcell (c) (csem cc0_scratch2 6 0 inb_S8x3_S1x1_6_0)) 0 ∅ 0
    ∗ atPos ER (dcell (c) (csem cc0_scratch2 6 1 inb_S8x3_S1x1_6_1)) 0 ∅ 0
    ∗ atPos ER (dcell (c) (csem cc0_scratch2 6 2 inb_S8x3_S1x1_6_2)) 0 ∅ 0
    ∗ atPos ER (dcell (c) (csem cc0_scratch2 7 0 inb_S8x3_S1x1_7_0)) 0 ∅ 0
    ∗ atPos ER (dcell (c) (csem cc0_scratch2 7 1 inb_S8x3_S1x1_7_1)) 0 ∅ 0
    ∗ atPos ER (dcell (c) (csem cc0_scratch2 7 2 inb_S8x3_S1x1_7_2)) 0 ∅ 0
    ∗ atPos ER (dcell (c) (csem cc0_scratch3 0 0 inb_S8x3_S1x1_0_0)) 0 ∅ 0
    ∗ atPos ER (dcell (c) (csem cc0_scratch3 0 1 inb_S8x3_S1x1_0_1)) 0 ∅ 0
    ∗ atPos ER (dcell (c) (csem cc0_scratch3 0 2 inb_S8x3_S1x1_0_2)) 0 ∅ 0
    ∗ atPos ER (dcell (c) (csem cc0_scratch3 1 0 inb_S8x3_S1x1_1_0)) 0 ∅ 0
    ∗ atPos ER (dcell (c) (csem cc0_scratch3 1 1 inb_S8x3_S1x1_1_1)) 0 ∅ 0
    ∗ atPos ER (dcell (c) (csem cc0_scratch3 1 2 inb_S8x3_S1x1_1_2)) 0 ∅ 0
    ∗ atPos ER (dcell (c) (csem cc0_scratch3 2 0 inb_S8x3_S1x1_2_0)) 0 ∅ 0
    ∗ atPos ER (dcell (c) (csem cc0_scratch3 2 1 inb_S8x3_S1x1_2_1)) 0 ∅ 0
    ∗ atPos ER (dcell (c) (csem cc0_scratch3 2 2 inb_S8x3_S1x1_2_2)) 0 ∅ 0
    ∗ atPos ER (dcell (c) (csem cc0_scratch3 3 0 inb_S8x3_S1x1_3_0)) 0 ∅ 0
    ∗ atPos ER (dcell (c) (csem cc0_scratch3 3 1 inb_S8x3_S1x1_3_1)) 0 ∅ 0
    ∗ atPos ER (dcell (c) (csem cc0_scratch3 3 2 inb_S8x3_S1x1_3_2)) 0 ∅ 0
    ∗ atPos ER (dcell (c) (csem cc0_scratch3 4 0 inb_S8x3_S1x1_4_0)) 0 ∅ 0
    ∗ atPos ER (dcell (c) (csem cc0_scratch3 4 1 inb_S8x3_S1x1_4_1)) 0 ∅ 0
    ∗ atPos ER (dcell (c) (csem cc0_scratch3 4 2 inb_S8x3_S1x1_4_2)) 0 ∅ 0
    ∗ atPos ER (dcell (c) (csem cc0_scratch3 5 0 inb_S8x3_S1x1_5_0)) 0 ∅ 0
    ∗ atPos ER (dcell (c) (csem cc0_scratch3 5 1 inb_S8x3_S1x1_5_1)) 0 ∅ 0
    ∗ atPos ER (dcell (c) (csem cc0_scratch3 5 2 inb_S8x3_S1x1_5_2)) 0 ∅ 0
    ∗ atPos ER (dcell (c) (csem cc0_scratch3 6 0 inb_S8x3_S1x1_6_0)) 0 ∅ 0
    ∗ atPos ER (dcell (c) (csem cc0_scratch3 6 1 inb_S8x3_S1x1_6_1)) 0 ∅ 0
    ∗ atPos ER (dcell (c) (csem cc0_scratch3 6 2 inb_S8x3_S1x1_6_2)) 0 ∅ 0
    ∗ atPos ER (dcell (c) (csem cc0_scratch3 7 0 inb_S8x3_S1x1_7_0)) 0 ∅ 0
    ∗ atPos ER (dcell (c) (csem cc0_scratch3 7 1 inb_S8x3_S1x1_7_1)) 0 ∅ 0
    ∗ atPos ER (dcell (c) (csem cc0_scratch3 7 2 inb_S8x3_S1x1_7_2)) 0 ∅ 0
    ∗ atPos ER (dcell (c) (csem cc0_scratch4 0 0 inb_S8x3_S1x1_0_0)) 0 ∅ 0
    ∗ atPos ER (dcell (c) (csem cc0_scratch4 0 1 inb_S8x3_S1x1_0_1)) 0 ∅ 0
    ∗ atPos ER (dcell (c) (csem cc0_scratch4 0 2 inb_S8x3_S1x1_0_2)) 0 ∅ 0
    ∗ atPos ER (dcell (c) (csem cc0_scratch4 1 0 inb_S8x3_S1x1_1_0)) 0 ∅ 0
    ∗ atPos ER (dcell (c) (csem cc0_scratch4 1 1 inb_S8x3_S1x1_1_1)) 0 ∅ 0
    ∗ atPos ER (dcell (c) (csem cc0_scratch4 1 2 inb_S8x3_S1x1_1_2)) 0 ∅ 0
    ∗ atPos ER (dcell (c) (csem cc0_scratch4 2 0 inb_S8x3_S1x1_2_0)) 0 ∅ 0
    ∗ atPos ER (dcell (c) (csem cc0_scratch4 2 1 inb_S8x3_S1x1_2_1)) 0 ∅ 0
    ∗ atPos ER (dcell (c) (csem cc0_scratch4 2 2 inb_S8x3_S1x1_2_2)) 0 ∅ 0
    ∗ atPos ER (dcell (c) (csem cc0_scratch4 3 0 inb_S8x3_S1x1_3_0)) 0 ∅ 0
    ∗ atPos ER (dcell (c) (csem cc0_scratch4 3 1 inb_S8x3_S1x1_3_1)) 0 ∅ 0
    ∗ atPos ER (dcell (c) (csem cc0_scratch4 3 2 inb_S8x3_S1x1_3_2)) 0 ∅ 0
    ∗ atPos ER (dcell (c) (csem cc0_scratch4 4 0 inb_S8x3_S1x1_4_0)) 0 ∅ 0
    ∗ atPos ER (dcell (c) (csem cc0_scratch4 4 1 inb_S8x3_S1x1_4_1)) 0 ∅ 0
    ∗ atPos ER (dcell (c) (csem cc0_scratch4 4 2 inb_S8x3_S1x1_4_2)) 0 ∅ 0
    ∗ atPos ER (dcell (c) (csem cc0_scratch4 5 0 inb_S8x3_S1x1_5_0)) 0 ∅ 0
    ∗ atPos ER (dcell (c) (csem cc0_scratch4 5 1 inb_S8x3_S1x1_5_1)) 0 ∅ 0
    ∗ atPos ER (dcell (c) (csem cc0_scratch4 5 2 inb_S8x3_S1x1_5_2)) 0 ∅ 0
    ∗ atPos ER (dcell (c) (csem cc0_scratch4 6 0 inb_S8x3_S1x1_6_0)) 0 ∅ 0
    ∗ atPos ER (dcell (c) (csem cc0_scratch4 6 1 inb_S8x3_S1x1_6_1)) 0 ∅ 0
    ∗ atPos ER (dcell (c) (csem cc0_scratch4 6 2 inb_S8x3_S1x1_6_2)) 0 ∅ 0
    ∗ atPos ER (dcell (c) (csem cc0_scratch4 7 0 inb_S8x3_S1x1_7_0)) 0 ∅ 0
    ∗ atPos ER (dcell (c) (csem cc0_scratch4 7 1 inb_S8x3_S1x1_7_1)) 0 ∅ 0
    ∗ atPos ER (dcell (c) (csem cc0_scratch4 7 2 inb_S8x3_S1x1_7_2)) 0 ∅ 0
    ∗ atPos ER (dcell (c) (csem cc0_scratch5 0 0 inb_S8x3_S1x1_0_0)) 0 ∅ 0
    ∗ atPos ER (dcell (c) (csem cc0_scratch5 0 1 inb_S8x3_S1x1_0_1)) 0 ∅ 0
    ∗ atPos ER (dcell (c) (csem cc0_scratch5 0 2 inb_S8x3_S1x1_0_2)) 0 ∅ 0
    ∗ atPos ER (dcell (c) (csem cc0_scratch5 1 0 inb_S8x3_S1x1_1_0)) 0 ∅ 0
    ∗ atPos ER (dcell (c) (csem cc0_scratch5 1 1 inb_S8x3_S1x1_1_1)) 0 ∅ 0
    ∗ atPos ER (dcell (c) (csem cc0_scratch5 1 2 inb_S8x3_S1x1_1_2)) 0 ∅ 0
    ∗ atPos ER (dcell (c) (csem cc0_scratch5 2 0 inb_S8x3_S1x1_2_0)) 0 ∅ 0
    ∗ atPos ER (dcell (c) (csem cc0_scratch5 2 1 inb_S8x3_S1x1_2_1)) 0 ∅ 0
    ∗ atPos ER (dcell (c) (csem cc0_scratch5 2 2 inb_S8x3_S1x1_2_2)) 0 ∅ 0
    ∗ atPos ER (dcell (c) (csem cc0_scratch5 3 0 inb_S8x3_S1x1_3_0)) 0 ∅ 0
    ∗ atPos ER (dcell (c) (csem cc0_scratch5 3 1 inb_S8x3_S1x1_3_1)) 0 ∅ 0
    ∗ atPos ER (dcell (c) (csem cc0_scratch5 3 2 inb_S8x3_S1x1_3_2)) 0 ∅ 0
    ∗ atPos ER (dcell (c) (csem cc0_scratch5 4 0 inb_S8x3_S1x1_4_0)) 0 ∅ 0
    ∗ atPos ER (dcell (c) (csem cc0_scratch5 4 1 inb_S8x3_S1x1_4_1)) 0 ∅ 0
    ∗ atPos ER (dcell (c) (csem cc0_scratch5 4 2 inb_S8x3_S1x1_4_2)) 0 ∅ 0
    ∗ atPos ER (dcell (c) (csem cc0_scratch5 5 0 inb_S8x3_S1x1_5_0)) 0 ∅ 0
    ∗ atPos ER (dcell (c) (csem cc0_scratch5 5 1 inb_S8x3_S1x1_5_1)) 0 ∅ 0
    ∗ atPos ER (dcell (c) (csem cc0_scratch5 5 2 inb_S8x3_S1x1_5_2)) 0 ∅ 0
    ∗ atPos ER (dcell (c) (csem cc0_scratch5 6 0 inb_S8x3_S1x1_6_0)) 0 ∅ 0
    ∗ atPos ER (dcell (c) (csem cc0_scratch5 6 1 inb_S8x3_S1x1_6_1)) 0 ∅ 0
    ∗ atPos ER (dcell (c) (csem cc0_scratch5 6 2 inb_S8x3_S1x1_6_2)) 0 ∅ 0
    ∗ atPos ER (dcell (c) (csem cc0_scratch5 7 0 inb_S8x3_S1x1_7_0)) 0 ∅ 0
    ∗ atPos ER (dcell (c) (csem cc0_scratch5 7 1 inb_S8x3_S1x1_7_1)) 0 ∅ 0
    ∗ atPos ER (dcell (c) (csem cc0_scratch5 7 2 inb_S8x3_S1x1_7_2)) 0 ∅ 0
    ∗ reached ER (barCell (nxt c)) 0
    ∗ reached ER (barCell (prv c)) 0
    ∗ reached ER (dcell (c) (csem cc0_scratch2 0 0 inb_S8x3_S1x1_0_0)) 0
    ∗ reached ER (dcell (c) (csem cc0_scratch2 0 1 inb_S8x3_S1x1_0_1)) 0
    ∗ reached ER (dcell (c) (csem cc0_scratch2 0 2 inb_S8x3_S1x1_0_2)) 0
    ∗ reached ER (dcell (c) (csem cc0_scratch2 1 0 inb_S8x3_S1x1_1_0)) 0
    ∗ reached ER (dcell (c) (csem cc0_scratch2 1 1 inb_S8x3_S1x1_1_1)) 0
    ∗ reached ER (dcell (c) (csem cc0_scratch2 1 2 inb_S8x3_S1x1_1_2)) 0
    ∗ reached ER (dcell (c) (csem cc0_scratch2 2 0 inb_S8x3_S1x1_2_0)) 0
    ∗ reached ER (dcell (c) (csem cc0_scratch2 2 1 inb_S8x3_S1x1_2_1)) 0
    ∗ reached ER (dcell (c) (csem cc0_scratch2 2 2 inb_S8x3_S1x1_2_2)) 0
    ∗ reached ER (dcell (c) (csem cc0_scratch2 3 0 inb_S8x3_S1x1_3_0)) 0
    ∗ reached ER (dcell (c) (csem cc0_scratch2 3 1 inb_S8x3_S1x1_3_1)) 0
    ∗ reached ER (dcell (c) (csem cc0_scratch2 3 2 inb_S8x3_S1x1_3_2)) 0
    ∗ reached ER (dcell (c) (csem cc0_scratch2 4 0 inb_S8x3_S1x1_4_0)) 0
    ∗ reached ER (dcell (c) (csem cc0_scratch2 4 1 inb_S8x3_S1x1_4_1)) 0
    ∗ reached ER (dcell (c) (csem cc0_scratch2 4 2 inb_S8x3_S1x1_4_2)) 0
    ∗ reached ER (dcell (c) (csem cc0_scratch2 5 0 inb_S8x3_S1x1_5_0)) 0
    ∗ reached ER (dcell (c) (csem cc0_scratch2 5 1 inb_S8x3_S1x1_5_1)) 0
    ∗ reached ER (dcell (c) (csem cc0_scratch2 5 2 inb_S8x3_S1x1_5_2)) 0
    ∗ reached ER (dcell (c) (csem cc0_scratch2 6 0 inb_S8x3_S1x1_6_0)) 0
    ∗ reached ER (dcell (c) (csem cc0_scratch2 6 1 inb_S8x3_S1x1_6_1)) 0
    ∗ reached ER (dcell (c) (csem cc0_scratch2 6 2 inb_S8x3_S1x1_6_2)) 0
    ∗ reached ER (dcell (c) (csem cc0_scratch2 7 0 inb_S8x3_S1x1_7_0)) 0
    ∗ reached ER (dcell (c) (csem cc0_scratch2 7 1 inb_S8x3_S1x1_7_1)) 0
    ∗ reached ER (dcell (c) (csem cc0_scratch2 7 2 inb_S8x3_S1x1_7_2)) 0
    ∗ reached ER (dcell (c) (csem cc0_scratch3 0 0 inb_S8x3_S1x1_0_0)) 0
    ∗ reached ER (dcell (c) (csem cc0_scratch3 0 1 inb_S8x3_S1x1_0_1)) 0
    ∗ reached ER (dcell (c) (csem cc0_scratch3 0 2 inb_S8x3_S1x1_0_2)) 0
    ∗ reached ER (dcell (c) (csem cc0_scratch3 1 0 inb_S8x3_S1x1_1_0)) 0
    ∗ reached ER (dcell (c) (csem cc0_scratch3 1 1 inb_S8x3_S1x1_1_1)) 0
    ∗ reached ER (dcell (c) (csem cc0_scratch3 1 2 inb_S8x3_S1x1_1_2)) 0
    ∗ reached ER (dcell (c) (csem cc0_scratch3 2 0 inb_S8x3_S1x1_2_0)) 0
    ∗ reached ER (dcell (c) (csem cc0_scratch3 2 1 inb_S8x3_S1x1_2_1)) 0
    ∗ reached ER (dcell (c) (csem cc0_scratch3 2 2 inb_S8x3_S1x1_2_2)) 0
    ∗ reached ER (dcell (c) (csem cc0_scratch3 3 0 inb_S8x3_S1x1_3_0)) 0
    ∗ reached ER (dcell (c) (csem cc0_scratch3 3 1 inb_S8x3_S1x1_3_1)) 0
    ∗ reached ER (dcell (c) (csem cc0_scratch3 3 2 inb_S8x3_S1x1_3_2)) 0
    ∗ reached ER (dcell (c) (csem cc0_scratch3 4 0 inb_S8x3_S1x1_4_0)) 0
    ∗ reached ER (dcell (c) (csem cc0_scratch3 4 1 inb_S8x3_S1x1_4_1)) 0
    ∗ reached ER (dcell (c) (csem cc0_scratch3 4 2 inb_S8x3_S1x1_4_2)) 0
    ∗ reached ER (dcell (c) (csem cc0_scratch3 5 0 inb_S8x3_S1x1_5_0)) 0
    ∗ reached ER (dcell (c) (csem cc0_scratch3 5 1 inb_S8x3_S1x1_5_1)) 0
    ∗ reached ER (dcell (c) (csem cc0_scratch3 5 2 inb_S8x3_S1x1_5_2)) 0
    ∗ reached ER (dcell (c) (csem cc0_scratch3 6 0 inb_S8x3_S1x1_6_0)) 0
    ∗ reached ER (dcell (c) (csem cc0_scratch3 6 1 inb_S8x3_S1x1_6_1)) 0
    ∗ reached ER (dcell (c) (csem cc0_scratch3 6 2 inb_S8x3_S1x1_6_2)) 0
    ∗ reached ER (dcell (c) (csem cc0_scratch3 7 0 inb_S8x3_S1x1_7_0)) 0
    ∗ reached ER (dcell (c) (csem cc0_scratch3 7 1 inb_S8x3_S1x1_7_1)) 0
    ∗ reached ER (dcell (c) (csem cc0_scratch3 7 2 inb_S8x3_S1x1_7_2)) 0
    ∗ reached ER (dcell (c) (csem cc0_scratch4 0 0 inb_S8x3_S1x1_0_0)) 0
    ∗ reached ER (dcell (c) (csem cc0_scratch4 0 1 inb_S8x3_S1x1_0_1)) 0
    ∗ reached ER (dcell (c) (csem cc0_scratch4 0 2 inb_S8x3_S1x1_0_2)) 0
    ∗ reached ER (dcell (c) (csem cc0_scratch4 1 0 inb_S8x3_S1x1_1_0)) 0
    ∗ reached ER (dcell (c) (csem cc0_scratch4 1 1 inb_S8x3_S1x1_1_1)) 0
    ∗ reached ER (dcell (c) (csem cc0_scratch4 1 2 inb_S8x3_S1x1_1_2)) 0
    ∗ reached ER (dcell (c) (csem cc0_scratch4 2 0 inb_S8x3_S1x1_2_0)) 0
    ∗ reached ER (dcell (c) (csem cc0_scratch4 2 1 inb_S8x3_S1x1_2_1)) 0
    ∗ reached ER (dcell (c) (csem cc0_scratch4 2 2 inb_S8x3_S1x1_2_2)) 0
    ∗ reached ER (dcell (c) (csem cc0_scratch4 3 0 inb_S8x3_S1x1_3_0)) 0
    ∗ reached ER (dcell (c) (csem cc0_scratch4 3 1 inb_S8x3_S1x1_3_1)) 0
    ∗ reached ER (dcell (c) (csem cc0_scratch4 3 2 inb_S8x3_S1x1_3_2)) 0
    ∗ reached ER (dcell (c) (csem cc0_scratch4 4 0 inb_S8x3_S1x1_4_0)) 0
    ∗ reached ER (dcell (c) (csem cc0_scratch4 4 1 inb_S8x3_S1x1_4_1)) 0
    ∗ reached ER (dcell (c) (csem cc0_scratch4 4 2 inb_S8x3_S1x1_4_2)) 0
    ∗ reached ER (dcell (c) (csem cc0_scratch4 5 0 inb_S8x3_S1x1_5_0)) 0
    ∗ reached ER (dcell (c) (csem cc0_scratch4 5 1 inb_S8x3_S1x1_5_1)) 0
    ∗ reached ER (dcell (c) (csem cc0_scratch4 5 2 inb_S8x3_S1x1_5_2)) 0
    ∗ reached ER (dcell (c) (csem cc0_scratch4 6 0 inb_S8x3_S1x1_6_0)) 0
    ∗ reached ER (dcell (c) (csem cc0_scratch4 6 1 inb_S8x3_S1x1_6_1)) 0
    ∗ reached ER (dcell (c) (csem cc0_scratch4 6 2 inb_S8x3_S1x1_6_2)) 0
    ∗ reached ER (dcell (c) (csem cc0_scratch4 7 0 inb_S8x3_S1x1_7_0)) 0
    ∗ reached ER (dcell (c) (csem cc0_scratch4 7 1 inb_S8x3_S1x1_7_1)) 0
    ∗ reached ER (dcell (c) (csem cc0_scratch4 7 2 inb_S8x3_S1x1_7_2)) 0
    ∗ reached ER (dcell (c) (csem cc0_scratch5 0 0 inb_S8x3_S1x1_0_0)) 0
    ∗ reached ER (dcell (c) (csem cc0_scratch5 0 1 inb_S8x3_S1x1_0_1)) 0
    ∗ reached ER (dcell (c) (csem cc0_scratch5 0 2 inb_S8x3_S1x1_0_2)) 0
    ∗ reached ER (dcell (c) (csem cc0_scratch5 1 0 inb_S8x3_S1x1_1_0)) 0
    ∗ reached ER (dcell (c) (csem cc0_scratch5 1 1 inb_S8x3_S1x1_1_1)) 0
    ∗ reached ER (dcell (c) (csem cc0_scratch5 1 2 inb_S8x3_S1x1_1_2)) 0
    ∗ reached ER (dcell (c) (csem cc0_scratch5 2 0 inb_S8x3_S1x1_2_0)) 0
    ∗ reached ER (dcell (c) (csem cc0_scratch5 2 1 inb_S8x3_S1x1_2_1)) 0
    ∗ reached ER (dcell (c) (csem cc0_scratch5 2 2 inb_S8x3_S1x1_2_2)) 0
    ∗ reached ER (dcell (c) (csem cc0_scratch5 3 0 inb_S8x3_S1x1_3_0)) 0
    ∗ reached ER (dcell (c) (csem cc0_scratch5 3 1 inb_S8x3_S1x1_3_1)) 0
    ∗ reached ER (dcell (c) (csem cc0_scratch5 3 2 inb_S8x3_S1x1_3_2)) 0
    ∗ reached ER (dcell (c) (csem cc0_scratch5 4 0 inb_S8x3_S1x1_4_0)) 0
    ∗ reached ER (dcell (c) (csem cc0_scratch5 4 1 inb_S8x3_S1x1_4_1)) 0
    ∗ reached ER (dcell (c) (csem cc0_scratch5 4 2 inb_S8x3_S1x1_4_2)) 0
    ∗ reached ER (dcell (c) (csem cc0_scratch5 5 0 inb_S8x3_S1x1_5_0)) 0
    ∗ reached ER (dcell (c) (csem cc0_scratch5 5 1 inb_S8x3_S1x1_5_1)) 0
    ∗ reached ER (dcell (c) (csem cc0_scratch5 5 2 inb_S8x3_S1x1_5_2)) 0
    ∗ reached ER (dcell (c) (csem cc0_scratch5 6 0 inb_S8x3_S1x1_6_0)) 0
    ∗ reached ER (dcell (c) (csem cc0_scratch5 6 1 inb_S8x3_S1x1_6_1)) 0
    ∗ reached ER (dcell (c) (csem cc0_scratch5 6 2 inb_S8x3_S1x1_6_2)) 0
    ∗ reached ER (dcell (c) (csem cc0_scratch5 7 0 inb_S8x3_S1x1_7_0)) 0
    ∗ reached ER (dcell (c) (csem cc0_scratch5 7 1 inb_S8x3_S1x1_7_1)) 0
    ∗ reached ER (dcell (c) (csem cc0_scratch5 7 2 inb_S8x3_S1x1_7_2)) 0
    ∗ reached ER (dcell (nxt c) (csem cc0_scratch3 0 0 inb_S8x3_S1x1_0_0)) 0
    ∗ reached ER (dcell (nxt c) (csem cc0_scratch3 0 1 inb_S8x3_S1x1_0_1)) 0
    ∗ reached ER (dcell (nxt c) (csem cc0_scratch3 0 2 inb_S8x3_S1x1_0_2)) 0
    ∗ reached ER (dcell (nxt c) (csem cc0_scratch3 1 0 inb_S8x3_S1x1_1_0)) 0
    ∗ reached ER (dcell (nxt c) (csem cc0_scratch3 1 1 inb_S8x3_S1x1_1_1)) 0
    ∗ reached ER (dcell (nxt c) (csem cc0_scratch3 1 2 inb_S8x3_S1x1_1_2)) 0
    ∗ reached ER (dcell (nxt c) (csem cc0_scratch3 2 0 inb_S8x3_S1x1_2_0)) 0
    ∗ reached ER (dcell (nxt c) (csem cc0_scratch3 2 1 inb_S8x3_S1x1_2_1)) 0
    ∗ reached ER (dcell (nxt c) (csem cc0_scratch3 2 2 inb_S8x3_S1x1_2_2)) 0
    ∗ reached ER (dcell (nxt c) (csem cc0_scratch3 3 0 inb_S8x3_S1x1_3_0)) 0
    ∗ reached ER (dcell (nxt c) (csem cc0_scratch3 3 1 inb_S8x3_S1x1_3_1)) 0
    ∗ reached ER (dcell (nxt c) (csem cc0_scratch3 3 2 inb_S8x3_S1x1_3_2)) 0
    ∗ reached ER (dcell (prv c) (csem cc0_scratch3 4 0 inb_S8x3_S1x1_4_0)) 0
    ∗ reached ER (dcell (prv c) (csem cc0_scratch3 4 1 inb_S8x3_S1x1_4_1)) 0
    ∗ reached ER (dcell (prv c) (csem cc0_scratch3 4 2 inb_S8x3_S1x1_4_2)) 0
    ∗ reached ER (dcell (prv c) (csem cc0_scratch3 5 0 inb_S8x3_S1x1_5_0)) 0
    ∗ reached ER (dcell (prv c) (csem cc0_scratch3 5 1 inb_S8x3_S1x1_5_1)) 0
    ∗ reached ER (dcell (prv c) (csem cc0_scratch3 5 2 inb_S8x3_S1x1_5_2)) 0
    ∗ reached ER (dcell (prv c) (csem cc0_scratch3 6 0 inb_S8x3_S1x1_6_0)) 0
    ∗ reached ER (dcell (prv c) (csem cc0_scratch3 6 1 inb_S8x3_S1x1_6_1)) 0
    ∗ reached ER (dcell (prv c) (csem cc0_scratch3 6 2 inb_S8x3_S1x1_6_2)) 0
    ∗ reached ER (dcell (prv c) (csem cc0_scratch3 7 0 inb_S8x3_S1x1_7_0)) 0
    ∗ reached ER (dcell (prv c) (csem cc0_scratch3 7 1 inb_S8x3_S1x1_7_1)) 0
    ∗ reached ER (dcell (prv c) (csem cc0_scratch3 7 2 inb_S8x3_S1x1_7_2)) 0
    ∗ reached ER (dcell (nxt c) (csem cc0_scratch5 0 0 inb_S8x3_S1x1_0_0)) 0
    ∗ reached ER (dcell (nxt c) (csem cc0_scratch5 0 1 inb_S8x3_S1x1_0_1)) 0
    ∗ reached ER (dcell (nxt c) (csem cc0_scratch5 0 2 inb_S8x3_S1x1_0_2)) 0
    ∗ reached ER (dcell (nxt c) (csem cc0_scratch5 1 0 inb_S8x3_S1x1_1_0)) 0
    ∗ reached ER (dcell (nxt c) (csem cc0_scratch5 1 1 inb_S8x3_S1x1_1_1)) 0
    ∗ reached ER (dcell (nxt c) (csem cc0_scratch5 1 2 inb_S8x3_S1x1_1_2)) 0
    ∗ reached ER (dcell (nxt c) (csem cc0_scratch5 2 0 inb_S8x3_S1x1_2_0)) 0
    ∗ reached ER (dcell (nxt c) (csem cc0_scratch5 2 1 inb_S8x3_S1x1_2_1)) 0
    ∗ reached ER (dcell (nxt c) (csem cc0_scratch5 2 2 inb_S8x3_S1x1_2_2)) 0
    ∗ reached ER (dcell (nxt c) (csem cc0_scratch5 3 0 inb_S8x3_S1x1_3_0)) 0
    ∗ reached ER (dcell (nxt c) (csem cc0_scratch5 3 1 inb_S8x3_S1x1_3_1)) 0
    ∗ reached ER (dcell (nxt c) (csem cc0_scratch5 3 2 inb_S8x3_S1x1_3_2)) 0
    ∗ reached ER (dcell (prv c) (csem cc0_scratch5 4 0 inb_S8x3_S1x1_4_0)) 0
    ∗ reached ER (dcell (prv c) (csem cc0_scratch5 4 1 inb_S8x3_S1x1_4_1)) 0
    ∗ reached ER (dcell (prv c) (csem cc0_scratch5 4 2 inb_S8x3_S1x1_4_2)) 0
    ∗ reached ER (dcell (prv c) (csem cc0_scratch5 5 0 inb_S8x3_S1x1_5_0)) 0
    ∗ reached ER (dcell (prv c) (csem cc0_scratch5 5 1 inb_S8x3_S1x1_5_1)) 0
    ∗ reached ER (dcell (prv c) (csem cc0_scratch5 5 2 inb_S8x3_S1x1_5_2)) 0
    ∗ reached ER (dcell (prv c) (csem cc0_scratch5 6 0 inb_S8x3_S1x1_6_0)) 0
    ∗ reached ER (dcell (prv c) (csem cc0_scratch5 6 1 inb_S8x3_S1x1_6_1)) 0
    ∗ reached ER (dcell (prv c) (csem cc0_scratch5 6 2 inb_S8x3_S1x1_6_2)) 0
    ∗ reached ER (dcell (prv c) (csem cc0_scratch5 7 0 inb_S8x3_S1x1_7_0)) 0
    ∗ reached ER (dcell (prv c) (csem cc0_scratch5 7 1 inb_S8x3_S1x1_7_1)) 0
    ∗ reached ER (dcell (prv c) (csem cc0_scratch5 7 2 inb_S8x3_S1x1_7_2)) 0
    ∗ dutyTok ER (barCell (prv c)) 0 true
    ∗ dutyTok ER (barCell (nxt c)) 0 false
    ∗ dutyTok ER (dcell (nxt c) (csem cc0_scratch3 0 0 inb_S8x3_S1x1_0_0)) 0 false
    ∗ dutyTok ER (dcell (nxt c) (csem cc0_scratch3 0 1 inb_S8x3_S1x1_0_1)) 0 false
    ∗ dutyTok ER (dcell (nxt c) (csem cc0_scratch3 0 2 inb_S8x3_S1x1_0_2)) 0 false
    ∗ dutyTok ER (dcell (nxt c) (csem cc0_scratch3 1 0 inb_S8x3_S1x1_1_0)) 0 false
    ∗ dutyTok ER (dcell (nxt c) (csem cc0_scratch3 1 1 inb_S8x3_S1x1_1_1)) 0 false
    ∗ dutyTok ER (dcell (nxt c) (csem cc0_scratch3 1 2 inb_S8x3_S1x1_1_2)) 0 false
    ∗ dutyTok ER (dcell (nxt c) (csem cc0_scratch3 2 0 inb_S8x3_S1x1_2_0)) 0 false
    ∗ dutyTok ER (dcell (nxt c) (csem cc0_scratch3 2 1 inb_S8x3_S1x1_2_1)) 0 false
    ∗ dutyTok ER (dcell (nxt c) (csem cc0_scratch3 2 2 inb_S8x3_S1x1_2_2)) 0 false
    ∗ dutyTok ER (dcell (nxt c) (csem cc0_scratch3 3 0 inb_S8x3_S1x1_3_0)) 0 false
    ∗ dutyTok ER (dcell (nxt c) (csem cc0_scratch3 3 1 inb_S8x3_S1x1_3_1)) 0 false
    ∗ dutyTok ER (dcell (nxt c) (csem cc0_scratch3 3 2 inb_S8x3_S1x1_3_2)) 0 false
    ∗ dutyTok ER (dcell (prv c) (csem cc0_scratch3 4 0 inb_S8x3_S1x1_4_0)) 0 false
    ∗ dutyTok ER (dcell (prv c) (csem cc0_scratch3 4 1 inb_S8x3_S1x1_4_1)) 0 false
    ∗ dutyTok ER (dcell (prv c) (csem cc0_scratch3 4 2 inb_S8x3_S1x1_4_2)) 0 false
    ∗ dutyTok ER (dcell (prv c) (csem cc0_scratch3 5 0 inb_S8x3_S1x1_5_0)) 0 false
    ∗ dutyTok ER (dcell (prv c) (csem cc0_scratch3 5 1 inb_S8x3_S1x1_5_1)) 0 false
    ∗ dutyTok ER (dcell (prv c) (csem cc0_scratch3 5 2 inb_S8x3_S1x1_5_2)) 0 false
    ∗ dutyTok ER (dcell (prv c) (csem cc0_scratch3 6 0 inb_S8x3_S1x1_6_0)) 0 false
    ∗ dutyTok ER (dcell (prv c) (csem cc0_scratch3 6 1 inb_S8x3_S1x1_6_1)) 0 false
    ∗ dutyTok ER (dcell (prv c) (csem cc0_scratch3 6 2 inb_S8x3_S1x1_6_2)) 0 false
    ∗ dutyTok ER (dcell (prv c) (csem cc0_scratch3 7 0 inb_S8x3_S1x1_7_0)) 0 false
    ∗ dutyTok ER (dcell (prv c) (csem cc0_scratch3 7 1 inb_S8x3_S1x1_7_1)) 0 false
    ∗ dutyTok ER (dcell (prv c) (csem cc0_scratch3 7 2 inb_S8x3_S1x1_7_2)) 0 false
    ∗ dutyTok ER (dcell (nxt c) (csem cc0_scratch5 0 0 inb_S8x3_S1x1_0_0)) 0 false
    ∗ dutyTok ER (dcell (nxt c) (csem cc0_scratch5 0 1 inb_S8x3_S1x1_0_1)) 0 false
    ∗ dutyTok ER (dcell (nxt c) (csem cc0_scratch5 0 2 inb_S8x3_S1x1_0_2)) 0 false
    ∗ dutyTok ER (dcell (nxt c) (csem cc0_scratch5 1 0 inb_S8x3_S1x1_1_0)) 0 false
    ∗ dutyTok ER (dcell (nxt c) (csem cc0_scratch5 1 1 inb_S8x3_S1x1_1_1)) 0 false
    ∗ dutyTok ER (dcell (nxt c) (csem cc0_scratch5 1 2 inb_S8x3_S1x1_1_2)) 0 false
    ∗ dutyTok ER (dcell (nxt c) (csem cc0_scratch5 2 0 inb_S8x3_S1x1_2_0)) 0 false
    ∗ dutyTok ER (dcell (nxt c) (csem cc0_scratch5 2 1 inb_S8x3_S1x1_2_1)) 0 false
    ∗ dutyTok ER (dcell (nxt c) (csem cc0_scratch5 2 2 inb_S8x3_S1x1_2_2)) 0 false
    ∗ dutyTok ER (dcell (nxt c) (csem cc0_scratch5 3 0 inb_S8x3_S1x1_3_0)) 0 false
    ∗ dutyTok ER (dcell (nxt c) (csem cc0_scratch5 3 1 inb_S8x3_S1x1_3_1)) 0 false
    ∗ dutyTok ER (dcell (nxt c) (csem cc0_scratch5 3 2 inb_S8x3_S1x1_3_2)) 0 false
    ∗ dutyTok ER (dcell (prv c) (csem cc0_scratch5 4 0 inb_S8x3_S1x1_4_0)) 0 false
    ∗ dutyTok ER (dcell (prv c) (csem cc0_scratch5 4 1 inb_S8x3_S1x1_4_1)) 0 false
    ∗ dutyTok ER (dcell (prv c) (csem cc0_scratch5 4 2 inb_S8x3_S1x1_4_2)) 0 false
    ∗ dutyTok ER (dcell (prv c) (csem cc0_scratch5 5 0 inb_S8x3_S1x1_5_0)) 0 false
    ∗ dutyTok ER (dcell (prv c) (csem cc0_scratch5 5 1 inb_S8x3_S1x1_5_1)) 0 false
    ∗ dutyTok ER (dcell (prv c) (csem cc0_scratch5 5 2 inb_S8x3_S1x1_5_2)) 0 false
    ∗ dutyTok ER (dcell (prv c) (csem cc0_scratch5 6 0 inb_S8x3_S1x1_6_0)) 0 false
    ∗ dutyTok ER (dcell (prv c) (csem cc0_scratch5 6 1 inb_S8x3_S1x1_6_1)) 0 false
    ∗ dutyTok ER (dcell (prv c) (csem cc0_scratch5 6 2 inb_S8x3_S1x1_6_2)) 0 false
    ∗ dutyTok ER (dcell (prv c) (csem cc0_scratch5 7 0 inb_S8x3_S1x1_7_0)) 0 false
    ∗ dutyTok ER (dcell (prv c) (csem cc0_scratch5 7 1 inb_S8x3_S1x1_7_1)) 0 false
    ∗ dutyTok ER (dcell (prv c) (csem cc0_scratch5 7 2 inb_S8x3_S1x1_7_2)) 0 false
    ∗ dutyTok ER (dcell (c) (csem cc0_scratch2 0 0 inb_S8x3_S1x1_0_0)) 0 false
    ∗ dutyTok ER (dcell (c) (csem cc0_scratch2 0 1 inb_S8x3_S1x1_0_1)) 0 false
    ∗ dutyTok ER (dcell (c) (csem cc0_scratch2 0 2 inb_S8x3_S1x1_0_2)) 0 false
    ∗ dutyTok ER (dcell (c) (csem cc0_scratch2 1 0 inb_S8x3_S1x1_1_0)) 0 false
    ∗ dutyTok ER (dcell (c) (csem cc0_scratch2 1 1 inb_S8x3_S1x1_1_1)) 0 false
    ∗ dutyTok ER (dcell (c) (csem cc0_scratch2 1 2 inb_S8x3_S1x1_1_2)) 0 false
    ∗ dutyTok ER (dcell (c) (csem cc0_scratch2 2 0 inb_S8x3_S1x1_2_0)) 0 false
    ∗ dutyTok ER (dcell (c) (csem cc0_scratch2 2 1 inb_S8x3_S1x1_2_1)) 0 false
    ∗ dutyTok ER (dcell (c) (csem cc0_scratch2 2 2 inb_S8x3_S1x1_2_2)) 0 false
    ∗ dutyTok ER (dcell (c) (csem cc0_scratch2 3 0 inb_S8x3_S1x1_3_0)) 0 false
    ∗ dutyTok ER (dcell (c) (csem cc0_scratch2 3 1 inb_S8x3_S1x1_3_1)) 0 false
    ∗ dutyTok ER (dcell (c) (csem cc0_scratch2 3 2 inb_S8x3_S1x1_3_2)) 0 false
    ∗ dutyTok ER (dcell (c) (csem cc0_scratch2 4 0 inb_S8x3_S1x1_4_0)) 0 false
    ∗ dutyTok ER (dcell (c) (csem cc0_scratch2 4 1 inb_S8x3_S1x1_4_1)) 0 false
    ∗ dutyTok ER (dcell (c) (csem cc0_scratch2 4 2 inb_S8x3_S1x1_4_2)) 0 false
    ∗ dutyTok ER (dcell (c) (csem cc0_scratch2 5 0 inb_S8x3_S1x1_5_0)) 0 false
    ∗ dutyTok ER (dcell (c) (csem cc0_scratch2 5 1 inb_S8x3_S1x1_5_1)) 0 false
    ∗ dutyTok ER (dcell (c) (csem cc0_scratch2 5 2 inb_S8x3_S1x1_5_2)) 0 false
    ∗ dutyTok ER (dcell (c) (csem cc0_scratch2 6 0 inb_S8x3_S1x1_6_0)) 0 false
    ∗ dutyTok ER (dcell (c) (csem cc0_scratch2 6 1 inb_S8x3_S1x1_6_1)) 0 false
    ∗ dutyTok ER (dcell (c) (csem cc0_scratch2 6 2 inb_S8x3_S1x1_6_2)) 0 false
    ∗ dutyTok ER (dcell (c) (csem cc0_scratch2 7 0 inb_S8x3_S1x1_7_0)) 0 false
    ∗ dutyTok ER (dcell (c) (csem cc0_scratch2 7 1 inb_S8x3_S1x1_7_1)) 0 false
    ∗ dutyTok ER (dcell (c) (csem cc0_scratch2 7 2 inb_S8x3_S1x1_7_2)) 0 false
    ∗ dutyTok ER (dcell (c) (csem cc0_scratch4 0 0 inb_S8x3_S1x1_0_0)) 0 false
    ∗ dutyTok ER (dcell (c) (csem cc0_scratch4 0 1 inb_S8x3_S1x1_0_1)) 0 false
    ∗ dutyTok ER (dcell (c) (csem cc0_scratch4 0 2 inb_S8x3_S1x1_0_2)) 0 false
    ∗ dutyTok ER (dcell (c) (csem cc0_scratch4 1 0 inb_S8x3_S1x1_1_0)) 0 false
    ∗ dutyTok ER (dcell (c) (csem cc0_scratch4 1 1 inb_S8x3_S1x1_1_1)) 0 false
    ∗ dutyTok ER (dcell (c) (csem cc0_scratch4 1 2 inb_S8x3_S1x1_1_2)) 0 false
    ∗ dutyTok ER (dcell (c) (csem cc0_scratch4 2 0 inb_S8x3_S1x1_2_0)) 0 false
    ∗ dutyTok ER (dcell (c) (csem cc0_scratch4 2 1 inb_S8x3_S1x1_2_1)) 0 false
    ∗ dutyTok ER (dcell (c) (csem cc0_scratch4 2 2 inb_S8x3_S1x1_2_2)) 0 false
    ∗ dutyTok ER (dcell (c) (csem cc0_scratch4 3 0 inb_S8x3_S1x1_3_0)) 0 false
    ∗ dutyTok ER (dcell (c) (csem cc0_scratch4 3 1 inb_S8x3_S1x1_3_1)) 0 false
    ∗ dutyTok ER (dcell (c) (csem cc0_scratch4 3 2 inb_S8x3_S1x1_3_2)) 0 false
    ∗ dutyTok ER (dcell (c) (csem cc0_scratch4 4 0 inb_S8x3_S1x1_4_0)) 0 false
    ∗ dutyTok ER (dcell (c) (csem cc0_scratch4 4 1 inb_S8x3_S1x1_4_1)) 0 false
    ∗ dutyTok ER (dcell (c) (csem cc0_scratch4 4 2 inb_S8x3_S1x1_4_2)) 0 false
    ∗ dutyTok ER (dcell (c) (csem cc0_scratch4 5 0 inb_S8x3_S1x1_5_0)) 0 false
    ∗ dutyTok ER (dcell (c) (csem cc0_scratch4 5 1 inb_S8x3_S1x1_5_1)) 0 false
    ∗ dutyTok ER (dcell (c) (csem cc0_scratch4 5 2 inb_S8x3_S1x1_5_2)) 0 false
    ∗ dutyTok ER (dcell (c) (csem cc0_scratch4 6 0 inb_S8x3_S1x1_6_0)) 0 false
    ∗ dutyTok ER (dcell (c) (csem cc0_scratch4 6 1 inb_S8x3_S1x1_6_1)) 0 false
    ∗ dutyTok ER (dcell (c) (csem cc0_scratch4 6 2 inb_S8x3_S1x1_6_2)) 0 false
    ∗ dutyTok ER (dcell (c) (csem cc0_scratch4 7 0 inb_S8x3_S1x1_7_0)) 0 false
    ∗ dutyTok ER (dcell (c) (csem cc0_scratch4 7 1 inb_S8x3_S1x1_7_1)) 0 false
    ∗ dutyTok ER (dcell (c) (csem cc0_scratch4 7 2 inb_S8x3_S1x1_7_2)) 0 false
    ∗ cred (tallyAt (barCell c) () 2)
    ∗ cred (tallyAt (dcell (c) (csem cc0_scratch3 0 0 inb_S8x3_S1x1_0_0)) () Nrs)
    ∗ cred (tallyAt (dcell (c) (csem cc0_scratch3 0 1 inb_S8x3_S1x1_0_1)) () Nrs)
    ∗ cred (tallyAt (dcell (c) (csem cc0_scratch3 0 2 inb_S8x3_S1x1_0_2)) () Nrs)
    ∗ cred (tallyAt (dcell (c) (csem cc0_scratch3 1 0 inb_S8x3_S1x1_1_0)) () Nrs)
    ∗ cred (tallyAt (dcell (c) (csem cc0_scratch3 1 1 inb_S8x3_S1x1_1_1)) () Nrs)
    ∗ cred (tallyAt (dcell (c) (csem cc0_scratch3 1 2 inb_S8x3_S1x1_1_2)) () Nrs)
    ∗ cred (tallyAt (dcell (c) (csem cc0_scratch3 2 0 inb_S8x3_S1x1_2_0)) () Nrs)
    ∗ cred (tallyAt (dcell (c) (csem cc0_scratch3 2 1 inb_S8x3_S1x1_2_1)) () Nrs)
    ∗ cred (tallyAt (dcell (c) (csem cc0_scratch3 2 2 inb_S8x3_S1x1_2_2)) () Nrs)
    ∗ cred (tallyAt (dcell (c) (csem cc0_scratch3 3 0 inb_S8x3_S1x1_3_0)) () Nrs)
    ∗ cred (tallyAt (dcell (c) (csem cc0_scratch3 3 1 inb_S8x3_S1x1_3_1)) () Nrs)
    ∗ cred (tallyAt (dcell (c) (csem cc0_scratch3 3 2 inb_S8x3_S1x1_3_2)) () Nrs)
    ∗ cred (tallyAt (dcell (c) (csem cc0_scratch3 4 0 inb_S8x3_S1x1_4_0)) () Nrs)
    ∗ cred (tallyAt (dcell (c) (csem cc0_scratch3 4 1 inb_S8x3_S1x1_4_1)) () Nrs)
    ∗ cred (tallyAt (dcell (c) (csem cc0_scratch3 4 2 inb_S8x3_S1x1_4_2)) () Nrs)
    ∗ cred (tallyAt (dcell (c) (csem cc0_scratch3 5 0 inb_S8x3_S1x1_5_0)) () Nrs)
    ∗ cred (tallyAt (dcell (c) (csem cc0_scratch3 5 1 inb_S8x3_S1x1_5_1)) () Nrs)
    ∗ cred (tallyAt (dcell (c) (csem cc0_scratch3 5 2 inb_S8x3_S1x1_5_2)) () Nrs)
    ∗ cred (tallyAt (dcell (c) (csem cc0_scratch3 6 0 inb_S8x3_S1x1_6_0)) () Nrs)
    ∗ cred (tallyAt (dcell (c) (csem cc0_scratch3 6 1 inb_S8x3_S1x1_6_1)) () Nrs)
    ∗ cred (tallyAt (dcell (c) (csem cc0_scratch3 6 2 inb_S8x3_S1x1_6_2)) () Nrs)
    ∗ cred (tallyAt (dcell (c) (csem cc0_scratch3 7 0 inb_S8x3_S1x1_7_0)) () Nrs)
    ∗ cred (tallyAt (dcell (c) (csem cc0_scratch3 7 1 inb_S8x3_S1x1_7_1)) () Nrs)
    ∗ cred (tallyAt (dcell (c) (csem cc0_scratch3 7 2 inb_S8x3_S1x1_7_2)) () Nrs)
    ∗ cred (tallyAt (dcell (c) (csem cc0_scratch5 0 0 inb_S8x3_S1x1_0_0)) () Nag)
    ∗ cred (tallyAt (dcell (c) (csem cc0_scratch5 0 1 inb_S8x3_S1x1_0_1)) () Nag)
    ∗ cred (tallyAt (dcell (c) (csem cc0_scratch5 0 2 inb_S8x3_S1x1_0_2)) () Nag)
    ∗ cred (tallyAt (dcell (c) (csem cc0_scratch5 1 0 inb_S8x3_S1x1_1_0)) () Nag)
    ∗ cred (tallyAt (dcell (c) (csem cc0_scratch5 1 1 inb_S8x3_S1x1_1_1)) () Nag)
    ∗ cred (tallyAt (dcell (c) (csem cc0_scratch5 1 2 inb_S8x3_S1x1_1_2)) () Nag)
    ∗ cred (tallyAt (dcell (c) (csem cc0_scratch5 2 0 inb_S8x3_S1x1_2_0)) () Nag)
    ∗ cred (tallyAt (dcell (c) (csem cc0_scratch5 2 1 inb_S8x3_S1x1_2_1)) () Nag)
    ∗ cred (tallyAt (dcell (c) (csem cc0_scratch5 2 2 inb_S8x3_S1x1_2_2)) () Nag)
    ∗ cred (tallyAt (dcell (c) (csem cc0_scratch5 3 0 inb_S8x3_S1x1_3_0)) () Nag)
    ∗ cred (tallyAt (dcell (c) (csem cc0_scratch5 3 1 inb_S8x3_S1x1_3_1)) () Nag)
    ∗ cred (tallyAt (dcell (c) (csem cc0_scratch5 3 2 inb_S8x3_S1x1_3_2)) () Nag)
    ∗ cred (tallyAt (dcell (c) (csem cc0_scratch5 4 0 inb_S8x3_S1x1_4_0)) () Nag)
    ∗ cred (tallyAt (dcell (c) (csem cc0_scratch5 4 1 inb_S8x3_S1x1_4_1)) () Nag)
    ∗ cred (tallyAt (dcell (c) (csem cc0_scratch5 4 2 inb_S8x3_S1x1_4_2)) () Nag)
    ∗ cred (tallyAt (dcell (c) (csem cc0_scratch5 5 0 inb_S8x3_S1x1_5_0)) () Nag)
    ∗ cred (tallyAt (dcell (c) (csem cc0_scratch5 5 1 inb_S8x3_S1x1_5_1)) () Nag)
    ∗ cred (tallyAt (dcell (c) (csem cc0_scratch5 5 2 inb_S8x3_S1x1_5_2)) () Nag)
    ∗ cred (tallyAt (dcell (c) (csem cc0_scratch5 6 0 inb_S8x3_S1x1_6_0)) () Nag)
    ∗ cred (tallyAt (dcell (c) (csem cc0_scratch5 6 1 inb_S8x3_S1x1_6_1)) () Nag)
    ∗ cred (tallyAt (dcell (c) (csem cc0_scratch5 6 2 inb_S8x3_S1x1_6_2)) () Nag)
    ∗ cred (tallyAt (dcell (c) (csem cc0_scratch5 7 0 inb_S8x3_S1x1_7_0)) () Nag)
    ∗ cred (tallyAt (dcell (c) (csem cc0_scratch5 7 1 inb_S8x3_S1x1_7_1)) () Nag)
    ∗ cred (tallyAt (dcell (c) (csem cc0_scratch5 7 2 inb_S8x3_S1x1_7_2)) () Nag)
    ∗ MayWait (c : Thread nD τ) (.reg barS) () (owedRem c 48)
    ∗ MayWait (c : Thread nD τ) (.dma (csem cc0_scratch3 0 0 inb_S8x3_S1x1_0_0)) () (owedRem c 40)
    ∗ MayWait (c : Thread nD τ) (.dma (csem cc0_scratch3 0 1 inb_S8x3_S1x1_0_1)) () (owedRem c 32)
    ∗ MayWait (c : Thread nD τ) (.dma (csem cc0_scratch3 0 2 inb_S8x3_S1x1_0_2)) () (owedRem c 24)
    ∗ MayWait (c : Thread nD τ) (.dma (csem cc0_scratch3 1 0 inb_S8x3_S1x1_1_0)) () (owedRem c 38)
    ∗ MayWait (c : Thread nD τ) (.dma (csem cc0_scratch3 1 1 inb_S8x3_S1x1_1_1)) () (owedRem c 30)
    ∗ MayWait (c : Thread nD τ) (.dma (csem cc0_scratch3 1 2 inb_S8x3_S1x1_1_2)) () (owedRem c 22)
    ∗ MayWait (c : Thread nD τ) (.dma (csem cc0_scratch3 2 0 inb_S8x3_S1x1_2_0)) () (owedRem c 36)
    ∗ MayWait (c : Thread nD τ) (.dma (csem cc0_scratch3 2 1 inb_S8x3_S1x1_2_1)) () (owedRem c 28)
    ∗ MayWait (c : Thread nD τ) (.dma (csem cc0_scratch3 2 2 inb_S8x3_S1x1_2_2)) () (owedRem c 20)
    ∗ MayWait (c : Thread nD τ) (.dma (csem cc0_scratch3 3 0 inb_S8x3_S1x1_3_0)) () (owedRem c 34)
    ∗ MayWait (c : Thread nD τ) (.dma (csem cc0_scratch3 3 1 inb_S8x3_S1x1_3_1)) () (owedRem c 26)
    ∗ MayWait (c : Thread nD τ) (.dma (csem cc0_scratch3 3 2 inb_S8x3_S1x1_3_2)) () (owedRem c 18)
    ∗ MayWait (c : Thread nD τ) (.dma (csem cc0_scratch3 4 0 inb_S8x3_S1x1_4_0)) () (owedRem c 39)
    ∗ MayWait (c : Thread nD τ) (.dma (csem cc0_scratch3 4 1 inb_S8x3_S1x1_4_1)) () (owedRem c 31)
    ∗ MayWait (c : Thread nD τ) (.dma (csem cc0_scratch3 4 2 inb_S8x3_S1x1_4_2)) () (owedRem c 23)
    ∗ MayWait (c : Thread nD τ) (.dma (csem cc0_scratch3 5 0 inb_S8x3_S1x1_5_0)) () (owedRem c 37)
    ∗ MayWait (c : Thread nD τ) (.dma (csem cc0_scratch3 5 1 inb_S8x3_S1x1_5_1)) () (owedRem c 29)
    ∗ MayWait (c : Thread nD τ) (.dma (csem cc0_scratch3 5 2 inb_S8x3_S1x1_5_2)) () (owedRem c 21)
    ∗ MayWait (c : Thread nD τ) (.dma (csem cc0_scratch3 6 0 inb_S8x3_S1x1_6_0)) () (owedRem c 35)
    ∗ MayWait (c : Thread nD τ) (.dma (csem cc0_scratch3 6 1 inb_S8x3_S1x1_6_1)) () (owedRem c 27)
    ∗ MayWait (c : Thread nD τ) (.dma (csem cc0_scratch3 6 2 inb_S8x3_S1x1_6_2)) () (owedRem c 19)
    ∗ MayWait (c : Thread nD τ) (.dma (csem cc0_scratch3 7 0 inb_S8x3_S1x1_7_0)) () (owedRem c 33)
    ∗ MayWait (c : Thread nD τ) (.dma (csem cc0_scratch3 7 1 inb_S8x3_S1x1_7_1)) () (owedRem c 25)
    ∗ MayWait (c : Thread nD τ) (.dma (csem cc0_scratch3 7 2 inb_S8x3_S1x1_7_2)) () (owedRem c 17)
    ∗ MayWait (c : Thread nD τ) (.dma (csem cc0_scratch5 0 0 inb_S8x3_S1x1_0_0)) () (owedRem c 16)
    ∗ MayWait (c : Thread nD τ) (.dma (csem cc0_scratch5 0 1 inb_S8x3_S1x1_0_1)) () (owedRem c 8)
    ∗ MayWait (c : Thread nD τ) (.dma (csem cc0_scratch5 0 2 inb_S8x3_S1x1_0_2)) () (owedRem c 0)
    ∗ MayWait (c : Thread nD τ) (.dma (csem cc0_scratch5 1 0 inb_S8x3_S1x1_1_0)) () (owedRem c 14)
    ∗ MayWait (c : Thread nD τ) (.dma (csem cc0_scratch5 1 1 inb_S8x3_S1x1_1_1)) () (owedRem c 6)
    ∗ MayWait (c : Thread nD τ) (.dma (csem cc0_scratch5 1 2 inb_S8x3_S1x1_1_2)) () (owedRem c 0)
    ∗ MayWait (c : Thread nD τ) (.dma (csem cc0_scratch5 2 0 inb_S8x3_S1x1_2_0)) () (owedRem c 12)
    ∗ MayWait (c : Thread nD τ) (.dma (csem cc0_scratch5 2 1 inb_S8x3_S1x1_2_1)) () (owedRem c 4)
    ∗ MayWait (c : Thread nD τ) (.dma (csem cc0_scratch5 2 2 inb_S8x3_S1x1_2_2)) () (owedRem c 0)
    ∗ MayWait (c : Thread nD τ) (.dma (csem cc0_scratch5 3 0 inb_S8x3_S1x1_3_0)) () (owedRem c 10)
    ∗ MayWait (c : Thread nD τ) (.dma (csem cc0_scratch5 3 1 inb_S8x3_S1x1_3_1)) () (owedRem c 2)
    ∗ MayWait (c : Thread nD τ) (.dma (csem cc0_scratch5 3 2 inb_S8x3_S1x1_3_2)) () (owedRem c 0)
    ∗ MayWait (c : Thread nD τ) (.dma (csem cc0_scratch5 4 0 inb_S8x3_S1x1_4_0)) () (owedRem c 15)
    ∗ MayWait (c : Thread nD τ) (.dma (csem cc0_scratch5 4 1 inb_S8x3_S1x1_4_1)) () (owedRem c 7)
    ∗ MayWait (c : Thread nD τ) (.dma (csem cc0_scratch5 4 2 inb_S8x3_S1x1_4_2)) () (owedRem c 0)
    ∗ MayWait (c : Thread nD τ) (.dma (csem cc0_scratch5 5 0 inb_S8x3_S1x1_5_0)) () (owedRem c 13)
    ∗ MayWait (c : Thread nD τ) (.dma (csem cc0_scratch5 5 1 inb_S8x3_S1x1_5_1)) () (owedRem c 5)
    ∗ MayWait (c : Thread nD τ) (.dma (csem cc0_scratch5 5 2 inb_S8x3_S1x1_5_2)) () (owedRem c 0)
    ∗ MayWait (c : Thread nD τ) (.dma (csem cc0_scratch5 6 0 inb_S8x3_S1x1_6_0)) () (owedRem c 11)
    ∗ MayWait (c : Thread nD τ) (.dma (csem cc0_scratch5 6 1 inb_S8x3_S1x1_6_1)) () (owedRem c 3)
    ∗ MayWait (c : Thread nD τ) (.dma (csem cc0_scratch5 6 2 inb_S8x3_S1x1_6_2)) () (owedRem c 0)
    ∗ MayWait (c : Thread nD τ) (.dma (csem cc0_scratch5 7 0 inb_S8x3_S1x1_7_0)) () (owedRem c 9)
    ∗ MayWait (c : Thread nD τ) (.dma (csem cc0_scratch5 7 1 inb_S8x3_S1x1_7_1)) () (owedRem c 1)
    ∗ MayWait (c : Thread nD τ) (.dma (csem cc0_scratch5 7 2 inb_S8x3_S1x1_7_2)) () (owedRem c 0)
    ∗ owes (c : Thread nD τ) (owedRem c 48 + tallyAt (barCell (nxt c)) () 1 + tallyAt (barCell (prv c)) () 1) W)

end Cert.Kernel.P

end
-- ==== Proof.KTablesLit.lean ====
import proofs.«900901_g7700000000000902_dist_matmul_silu_kshard_i_m2048_n2048_k1024_v7x_i4_bf16_1_alg».proof.Proof.KTables

/-!
The schedule's tables at the literal cells of the program, with each block of the result buffer at the offsets the
program computes for it: chain `a`'s copy at step `b` moves the block at `k0_offN c w` (`N` and `w` by the chain and the
step), whose closed form is `rowOff c (agShift a b) a`.
-/

noncomputable section

namespace Cert.Kernel.P

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Lit
variable (fa : Dev nD → AT F) (fb : Dev nD → BT F) (c : Dev nD)

/-! ## The program's offsets in closed form -/

theorem agOff_0_0 : k0_off3 c 0#32 = rowOff c (agShift 0 0) 0 := (off3_eq_0 c).trans rfl
theorem agOff_0_1 : k0_off3 c 1#32 = rowOff c (agShift 0 1) 0 := (off3_eq_1 c).trans rfl
theorem agOff_0_2 : k0_off3 c 2#32 = rowOff c (agShift 0 2) 0 := (off3_eq_2 c).trans rfl
theorem agOff_1_0 : k0_off7 c 0#32 = rowOff c (agShift 1 0) 1 := (off7_eq_0 c).trans rfl
theorem agOff_1_1 : k0_off7 c 1#32 = rowOff c (agShift 1 1) 1 := (off7_eq_1 c).trans rfl
theorem agOff_1_2 : k0_off7 c 2#32 = rowOff c (agShift 1 2) 1 := (off7_eq_2 c).trans rfl
theorem agOff_2_0 : k0_off11 c 0#32 = rowOff c (agShift 2 0) 2 := (off11_eq_0 c).trans rfl
theorem agOff_2_1 : k0_off11 c 1#32 = rowOff c (agShift 2 1) 2 := (off11_eq_1 c).trans rfl
theorem agOff_2_2 : k0_off11 c 2#32 = rowOff c (agShift 2 2) 2 := (off11_eq_2 c).trans rfl
theorem agOff_3_0 : k0_off15 c 0#32 = rowOff c (agShift 3 0) 3 := (off15_eq_0 c).trans rfl
theorem agOff_3_1 : k0_off15 c 1#32 = rowOff c (agShift 3 1) 3 := (off15_eq_1 c).trans rfl
theorem agOff_3_2 : k0_off15 c 2#32 = rowOff c (agShift 3 2) 3 := (off15_eq_2 c).trans rfl
theorem agOff_4_0 : k0_off5 c 0#32 = rowOff c (agShift 4 0) 4 := (off5_eq_0 c).trans rfl
theorem agOff_4_1 : k0_off5 c 4294967295#32 = rowOff c (agShift 4 1) 4 := (off5_eq_m1 c).trans rfl
theorem agOff_4_2 : k0_off5 c 4294967294#32 = rowOff c (agShift 4 2) 4 := (off5_eq_m2 c).trans rfl
theorem agOff_5_0 : k0_off9 c 0#32 = rowOff c (agShift 5 0) 5 := (off9_eq_0 c).trans rfl
theorem agOff_5_1 : k0_off9 c 4294967295#32 = rowOff c (agShift 5 1) 5 := (off9_eq_m1 c).trans rfl
theorem agOff_5_2 : k0_off9 c 4294967294#32 = rowOff c (agShift 5 2) 5 := (off9_eq_m2 c).trans rfl
theorem agOff_6_0 : k0_off13 c 0#32 = rowOff c (agShift 6 0) 6 := (off13_eq_0 c).trans rfl
theorem agOff_6_1 : k0_off13 c 4294967295#32 = rowOff c (agShift 6 1) 6 := (off13_eq_m1 c).trans rfl
theorem agOff_6_2 : k0_off13 c 4294967294#32 = rowOff c (agShift 6 2) 6 := (off13_eq_m2 c).trans rfl
theorem agOff_7_0 : k0_off17 c 0#32 = rowOff c (agShift 7 0) 7 := (off17_eq_0 c).trans rfl
theorem agOff_7_1 : k0_off17 c 4294967295#32 = rowOff c (agShift 7 1) 7 := (off17_eq_m1 c).trans rfl
theorem agOff_7_2 : k0_off17 c 4294967294#32 = rowOff c (agShift 7 2) 7 := (off17_eq_m2 c).trans rfl

/-! ## A device's own all-gather send cells -/

theorem payload_agSend_0_0 (h) (d : Bool) :
    (ringRd fa fb).payload (dcell c (csem cc0_scratch4 0 0 h)) 0 d =
      ((oblkM (k0_off3 c 0#32) (k0_off3_inb c 0) : Memref sig .tc .vmem S512x256 .bf16).view.loc (c : Thread nD τ)
        ↦[(oblkM (k0_off3 c 0#32) (k0_off3_inb c 0) : Memref sig .tc .vmem S512x256 .bf16).view.set]{fullShare}
          oblkBuf (k0_off3 c 0#32) (k0_off3_inb c 0) (outBlk fa fb (orig 0 0 c) 0 (by decide)) : sProp 𝕄) :=
  payload_agSend_at fa fb c 0 0 (by decide) (by decide) h d _ _ (agOff_0_0 c)
theorem payload_agSend_0_1 (h) (d : Bool) :
    (ringRd fa fb).payload (dcell c (csem cc0_scratch4 0 1 h)) 0 d =
      ((oblkM (k0_off3 c 1#32) (k0_off3_inb c 1) : Memref sig .tc .vmem S512x256 .bf16).view.loc (c : Thread nD τ)
        ↦[(oblkM (k0_off3 c 1#32) (k0_off3_inb c 1) : Memref sig .tc .vmem S512x256 .bf16).view.set]{fullShare}
          oblkBuf (k0_off3 c 1#32) (k0_off3_inb c 1) (outBlk fa fb (orig 0 1 c) 0 (by decide)) : sProp 𝕄) :=
  payload_agSend_at fa fb c 0 1 (by decide) (by decide) h d _ _ (agOff_0_1 c)
theorem payload_agSend_0_2 (h) (d : Bool) :
    (ringRd fa fb).payload (dcell c (csem cc0_scratch4 0 2 h)) 0 d =
      ((oblkM (k0_off3 c 2#32) (k0_off3_inb c 2) : Memref sig .tc .vmem S512x256 .bf16).view.loc (c : Thread nD τ)
        ↦[(oblkM (k0_off3 c 2#32) (k0_off3_inb c 2) : Memref sig .tc .vmem S512x256 .bf16).view.set]{fullShare}
          oblkBuf (k0_off3 c 2#32) (k0_off3_inb c 2) (outBlk fa fb (orig 0 2 c) 0 (by decide)) : sProp 𝕄) :=
  payload_agSend_at fa fb c 0 2 (by decide) (by decide) h d _ _ (agOff_0_2 c)
theorem payload_agSend_1_0 (h) (d : Bool) :
    (ringRd fa fb).payload (dcell c (csem cc0_scratch4 1 0 h)) 0 d =
      ((oblkM (k0_off7 c 0#32) (k0_off7_inb c 0) : Memref sig .tc .vmem S512x256 .bf16).view.loc (c : Thread nD τ)
        ↦[(oblkM (k0_off7 c 0#32) (k0_off7_inb c 0) : Memref sig .tc .vmem S512x256 .bf16).view.set]{fullShare}
          oblkBuf (k0_off7 c 0#32) (k0_off7_inb c 0) (outBlk fa fb (orig 1 0 c) 1 (by decide)) : sProp 𝕄) :=
  payload_agSend_at fa fb c 1 0 (by decide) (by decide) h d _ _ (agOff_1_0 c)
theorem payload_agSend_1_1 (h) (d : Bool) :
    (ringRd fa fb).payload (dcell c (csem cc0_scratch4 1 1 h)) 0 d =
      ((oblkM (k0_off7 c 1#32) (k0_off7_inb c 1) : Memref sig .tc .vmem S512x256 .bf16).view.loc (c : Thread nD τ)
        ↦[(oblkM (k0_off7 c 1#32) (k0_off7_inb c 1) : Memref sig .tc .vmem S512x256 .bf16).view.set]{fullShare}
          oblkBuf (k0_off7 c 1#32) (k0_off7_inb c 1) (outBlk fa fb (orig 1 1 c) 1 (by decide)) : sProp 𝕄) :=
  payload_agSend_at fa fb c 1 1 (by decide) (by decide) h d _ _ (agOff_1_1 c)
theorem payload_agSend_1_2 (h) (d : Bool) :
    (ringRd fa fb).payload (dcell c (csem cc0_scratch4 1 2 h)) 0 d =
      ((oblkM (k0_off7 c 2#32) (k0_off7_inb c 2) : Memref sig .tc .vmem S512x256 .bf16).view.loc (c : Thread nD τ)
        ↦[(oblkM (k0_off7 c 2#32) (k0_off7_inb c 2) : Memref sig .tc .vmem S512x256 .bf16).view.set]{fullShare}
          oblkBuf (k0_off7 c 2#32) (k0_off7_inb c 2) (outBlk fa fb (orig 1 2 c) 1 (by decide)) : sProp 𝕄) :=
  payload_agSend_at fa fb c 1 2 (by decide) (by decide) h d _ _ (agOff_1_2 c)
theorem payload_agSend_2_0 (h) (d : Bool) :
    (ringRd fa fb).payload (dcell c (csem cc0_scratch4 2 0 h)) 0 d =
      ((oblkM (k0_off11 c 0#32) (k0_off11_inb c 0) : Memref sig .tc .vmem S512x256 .bf16).view.loc (c : Thread nD τ)
        ↦[(oblkM (k0_off11 c 0#32) (k0_off11_inb c 0) : Memref sig .tc .vmem S512x256 .bf16).view.set]{fullShare}
          oblkBuf (k0_off11 c 0#32) (k0_off11_inb c 0) (outBlk fa fb (orig 2 0 c) 2 (by decide)) : sProp 𝕄) :=
  payload_agSend_at fa fb c 2 0 (by decide) (by decide) h d _ _ (agOff_2_0 c)
theorem payload_agSend_2_1 (h) (d : Bool) :
    (ringRd fa fb).payload (dcell c (csem cc0_scratch4 2 1 h)) 0 d =
      ((oblkM (k0_off11 c 1#32) (k0_off11_inb c 1) : Memref sig .tc .vmem S512x256 .bf16).view.loc (c : Thread nD τ)
        ↦[(oblkM (k0_off11 c 1#32) (k0_off11_inb c 1) : Memref sig .tc .vmem S512x256 .bf16).view.set]{fullShare}
          oblkBuf (k0_off11 c 1#32) (k0_off11_inb c 1) (outBlk fa fb (orig 2 1 c) 2 (by decide)) : sProp 𝕄) :=
  payload_agSend_at fa fb c 2 1 (by decide) (by decide) h d _ _ (agOff_2_1 c)
theorem payload_agSend_2_2 (h) (d : Bool) :
    (ringRd fa fb).payload (dcell c (csem cc0_scratch4 2 2 h)) 0 d =
      ((oblkM (k0_off11 c 2#32) (k0_off11_inb c 2) : Memref sig .tc .vmem S512x256 .bf16).view.loc (c : Thread nD τ)
        ↦[(oblkM (k0_off11 c 2#32) (k0_off11_inb c 2) : Memref sig .tc .vmem S512x256 .bf16).view.set]{fullShare}
          oblkBuf (k0_off11 c 2#32) (k0_off11_inb c 2) (outBlk fa fb (orig 2 2 c) 2 (by decide)) : sProp 𝕄) :=
  payload_agSend_at fa fb c 2 2 (by decide) (by decide) h d _ _ (agOff_2_2 c)
theorem payload_agSend_3_0 (h) (d : Bool) :
    (ringRd fa fb).payload (dcell c (csem cc0_scratch4 3 0 h)) 0 d =
      ((oblkM (k0_off15 c 0#32) (k0_off15_inb c 0) : Memref sig .tc .vmem S512x256 .bf16).view.loc (c : Thread nD τ)
        ↦[(oblkM (k0_off15 c 0#32) (k0_off15_inb c 0) : Memref sig .tc .vmem S512x256 .bf16).view.set]{fullShare}
          oblkBuf (k0_off15 c 0#32) (k0_off15_inb c 0) (outBlk fa fb (orig 3 0 c) 3 (by decide)) : sProp 𝕄) :=
  payload_agSend_at fa fb c 3 0 (by decide) (by decide) h d _ _ (agOff_3_0 c)
theorem payload_agSend_3_1 (h) (d : Bool) :
    (ringRd fa fb).payload (dcell c (csem cc0_scratch4 3 1 h)) 0 d =
      ((oblkM (k0_off15 c 1#32) (k0_off15_inb c 1) : Memref sig .tc .vmem S512x256 .bf16).view.loc (c : Thread nD τ)
        ↦[(oblkM (k0_off15 c 1#32) (k0_off15_inb c 1) : Memref sig .tc .vmem S512x256 .bf16).view.set]{fullShare}
          oblkBuf (k0_off15 c 1#32) (k0_off15_inb c 1) (outBlk fa fb (orig 3 1 c) 3 (by decide)) : sProp 𝕄) :=
  payload_agSend_at fa fb c 3 1 (by decide) (by decide) h d _ _ (agOff_3_1 c)
theorem payload_agSend_3_2 (h) (d : Bool) :
    (ringRd fa fb).payload (dcell c (csem cc0_scratch4 3 2 h)) 0 d =
      ((oblkM (k0_off15 c 2#32) (k0_off15_inb c 2) : Memref sig .tc .vmem S512x256 .bf16).view.loc (c : Thread nD τ)
        ↦[(oblkM (k0_off15 c 2#32) (k0_off15_inb c 2) : Memref sig .tc .vmem S512x256 .bf16).view.set]{fullShare}
          oblkBuf (k0_off15 c 2#32) (k0_off15_inb c 2) (outBlk fa fb (orig 3 2 c) 3 (by decide)) : sProp 𝕄) :=
  payload_agSend_at fa fb c 3 2 (by decide) (by decide) h d _ _ (agOff_3_2 c)
theorem payload_agSend_4_0 (h) (d : Bool) :
    (ringRd fa fb).payload (dcell c (csem cc0_scratch4 4 0 h)) 0 d =
      ((oblkM (k0_off5 c 0#32) (k0_off5_inb c 0) : Memref sig .tc .vmem S512x256 .bf16).view.loc (c : Thread nD τ)
        ↦[(oblkM (k0_off5 c 0#32) (k0_off5_inb c 0) : Memref sig .tc .vmem S512x256 .bf16).view.set]{fullShare}
          oblkBuf (k0_off5 c 0#32) (k0_off5_inb c 0) (outBlk fa fb (orig 4 0 c) 4 (by decide)) : sProp 𝕄) :=
  payload_agSend_at fa fb c 4 0 (by decide) (by decide) h d _ _ (agOff_4_0 c)
theorem payload_agSend_4_1 (h) (d : Bool) :
    (ringRd fa fb).payload (dcell c (csem cc0_scratch4 4 1 h)) 0 d =
      ((oblkM (k0_off5 c 4294967295#32) (k0_off5_inb c 1) : Memref sig .tc .vmem S512x256 .bf16).view.loc (c : Thread nD τ)
        ↦[(oblkM (k0_off5 c 4294967295#32) (k0_off5_inb c 1) : Memref sig .tc .vmem S512x256 .bf16).view.set]{fullShare}
          oblkBuf (k0_off5 c 4294967295#32) (k0_off5_inb c 1) (outBlk fa fb (orig 4 1 c) 4 (by decide)) : sProp 𝕄) :=
  payload_agSend_at fa fb c 4 1 (by decide) (by decide) h d _ _ (agOff_4_1 c)
theorem payload_agSend_4_2 (h) (d : Bool) :
    (ringRd fa fb).payload (dcell c (csem cc0_scratch4 4 2 h)) 0 d =
      ((oblkM (k0_off5 c 4294967294#32) (k0_off5_inb c 2) : Memref sig .tc .vmem S512x256 .bf16).view.loc (c : Thread nD τ)
        ↦[(oblkM (k0_off5 c 4294967294#32) (k0_off5_inb c 2) : Memref sig .tc .vmem S512x256 .bf16).view.set]{fullShare}
          oblkBuf (k0_off5 c 4294967294#32) (k0_off5_inb c 2) (outBlk fa fb (orig 4 2 c) 4 (by decide)) : sProp 𝕄) :=
  payload_agSend_at fa fb c 4 2 (by decide) (by decide) h d _ _ (agOff_4_2 c)
theorem payload_agSend_5_0 (h) (d : Bool) :
    (ringRd fa fb).payload (dcell c (csem cc0_scratch4 5 0 h)) 0 d =
      ((oblkM (k0_off9 c 0#32) (k0_off9_inb c 0) : Memref sig .tc .vmem S512x256 .bf16).view.loc (c : Thread nD τ)
        ↦[(oblkM (k0_off9 c 0#32) (k0_off9_inb c 0) : Memref sig .tc .vmem S512x256 .bf16).view.set]{fullShare}
          oblkBuf (k0_off9 c 0#32) (k0_off9_inb c 0) (outBlk fa fb (orig 5 0 c) 5 (by decide)) : sProp 𝕄) :=
  payload_agSend_at fa fb c 5 0 (by decide) (by decide) h d _ _ (agOff_5_0 c)
theorem payload_agSend_5_1 (h) (d : Bool) :
    (ringRd fa fb).payload (dcell c (csem cc0_scratch4 5 1 h)) 0 d =
      ((oblkM (k0_off9 c 4294967295#32) (k0_off9_inb c 1) : Memref sig .tc .vmem S512x256 .bf16).view.loc (c : Thread nD τ)
        ↦[(oblkM (k0_off9 c 4294967295#32) (k0_off9_inb c 1) : Memref sig .tc .vmem S512x256 .bf16).view.set]{fullShare}
          oblkBuf (k0_off9 c 4294967295#32) (k0_off9_inb c 1) (outBlk fa fb (orig 5 1 c) 5 (by decide)) : sProp 𝕄) :=
  payload_agSend_at fa fb c 5 1 (by decide) (by decide) h d _ _ (agOff_5_1 c)
theorem payload_agSend_5_2 (h) (d : Bool) :
    (ringRd fa fb).payload (dcell c (csem cc0_scratch4 5 2 h)) 0 d =
      ((oblkM (k0_off9 c 4294967294#32) (k0_off9_inb c 2) : Memref sig .tc .vmem S512x256 .bf16).view.loc (c : Thread nD τ)
        ↦[(oblkM (k0_off9 c 4294967294#32) (k0_off9_inb c 2) : Memref sig .tc .vmem S512x256 .bf16).view.set]{fullShare}
          oblkBuf (k0_off9 c 4294967294#32) (k0_off9_inb c 2) (outBlk fa fb (orig 5 2 c) 5 (by decide)) : sProp 𝕄) :=
  payload_agSend_at fa fb c 5 2 (by decide) (by decide) h d _ _ (agOff_5_2 c)
theorem payload_agSend_6_0 (h) (d : Bool) :
    (ringRd fa fb).payload (dcell c (csem cc0_scratch4 6 0 h)) 0 d =
      ((oblkM (k0_off13 c 0#32) (k0_off13_inb c 0) : Memref sig .tc .vmem S512x256 .bf16).view.loc (c : Thread nD τ)
        ↦[(oblkM (k0_off13 c 0#32) (k0_off13_inb c 0) : Memref sig .tc .vmem S512x256 .bf16).view.set]{fullShare}
          oblkBuf (k0_off13 c 0#32) (k0_off13_inb c 0) (outBlk fa fb (orig 6 0 c) 6 (by decide)) : sProp 𝕄) :=
  payload_agSend_at fa fb c 6 0 (by decide) (by decide) h d _ _ (agOff_6_0 c)
theorem payload_agSend_6_1 (h) (d : Bool) :
    (ringRd fa fb).payload (dcell c (csem cc0_scratch4 6 1 h)) 0 d =
      ((oblkM (k0_off13 c 4294967295#32) (k0_off13_inb c 1) : Memref sig .tc .vmem S512x256 .bf16).view.loc (c : Thread nD τ)
        ↦[(oblkM (k0_off13 c 4294967295#32) (k0_off13_inb c 1) : Memref sig .tc .vmem S512x256 .bf16).view.set]{fullShare}
          oblkBuf (k0_off13 c 4294967295#32) (k0_off13_inb c 1) (outBlk fa fb (orig 6 1 c) 6 (by decide)) : sProp 𝕄) :=
  payload_agSend_at fa fb c 6 1 (by decide) (by decide) h d _ _ (agOff_6_1 c)
theorem payload_agSend_6_2 (h) (d : Bool) :
    (ringRd fa fb).payload (dcell c (csem cc0_scratch4 6 2 h)) 0 d =
      ((oblkM (k0_off13 c 4294967294#32) (k0_off13_inb c 2) : Memref sig .tc .vmem S512x256 .bf16).view.loc (c : Thread nD τ)
        ↦[(oblkM (k0_off13 c 4294967294#32) (k0_off13_inb c 2) : Memref sig .tc .vmem S512x256 .bf16).view.set]{fullShare}
          oblkBuf (k0_off13 c 4294967294#32) (k0_off13_inb c 2) (outBlk fa fb (orig 6 2 c) 6 (by decide)) : sProp 𝕄) :=
  payload_agSend_at fa fb c 6 2 (by decide) (by decide) h d _ _ (agOff_6_2 c)
theorem payload_agSend_7_0 (h) (d : Bool) :
    (ringRd fa fb).payload (dcell c (csem cc0_scratch4 7 0 h)) 0 d =
      ((oblkM (k0_off17 c 0#32) (k0_off17_inb c 0) : Memref sig .tc .vmem S512x256 .bf16).view.loc (c : Thread nD τ)
        ↦[(oblkM (k0_off17 c 0#32) (k0_off17_inb c 0) : Memref sig .tc .vmem S512x256 .bf16).view.set]{fullShare}
          oblkBuf (k0_off17 c 0#32) (k0_off17_inb c 0) (outBlk fa fb (orig 7 0 c) 7 (by decide)) : sProp 𝕄) :=
  payload_agSend_at fa fb c 7 0 (by decide) (by decide) h d _ _ (agOff_7_0 c)
theorem payload_agSend_7_1 (h) (d : Bool) :
    (ringRd fa fb).payload (dcell c (csem cc0_scratch4 7 1 h)) 0 d =
      ((oblkM (k0_off17 c 4294967295#32) (k0_off17_inb c 1) : Memref sig .tc .vmem S512x256 .bf16).view.loc (c : Thread nD τ)
        ↦[(oblkM (k0_off17 c 4294967295#32) (k0_off17_inb c 1) : Memref sig .tc .vmem S512x256 .bf16).view.set]{fullShare}
          oblkBuf (k0_off17 c 4294967295#32) (k0_off17_inb c 1) (outBlk fa fb (orig 7 1 c) 7 (by decide)) : sProp 𝕄) :=
  payload_agSend_at fa fb c 7 1 (by decide) (by decide) h d _ _ (agOff_7_1 c)
theorem payload_agSend_7_2 (h) (d : Bool) :
    (ringRd fa fb).payload (dcell c (csem cc0_scratch4 7 2 h)) 0 d =
      ((oblkM (k0_off17 c 4294967294#32) (k0_off17_inb c 2) : Memref sig .tc .vmem S512x256 .bf16).view.loc (c : Thread nD τ)
        ↦[(oblkM (k0_off17 c 4294967294#32) (k0_off17_inb c 2) : Memref sig .tc .vmem S512x256 .bf16).view.set]{fullShare}
          oblkBuf (k0_off17 c 4294967294#32) (k0_off17_inb c 2) (outBlk fa fb (orig 7 2 c) 7 (by decide)) : sProp 𝕄) :=
  payload_agSend_at fa fb c 7 2 (by decide) (by decide) h d _ _ (agOff_7_2 c)

/-! ## The target's all-gather receive cells, in the sending device's terms -/

theorem payload_agRecv_tgt_0_0 (h) (d : Bool) :
    (ringRd fa fb).payload (dcell (nxt c) (csem cc0_scratch5 0 0 h)) 0 d =
      (iprop(∃ fd : Buf (Elt F) ((oblkM (k0_off3 c 0#32) (k0_off3_inb c 0) : Memref sig .tc .vmem S512x256 .bf16).view.loc (nxt c : Thread nD τ)),
        (oblkM (k0_off3 c 0#32) (k0_off3_inb c 0) : Memref sig .tc .vmem S512x256 .bf16).view.loc (nxt c : Thread nD τ)
          ↦[(oblkM (k0_off3 c 0#32) (k0_off3_inb c 0) : Memref sig .tc .vmem S512x256 .bf16).view.set]{fullShare}
            ((oblkM (k0_off3 c 0#32) (k0_off3_inb c 0) : Memref sig .tc .vmem S512x256 .bf16).view.write (Elt F) fd
              ((oblkM (k0_off3 c 0#32) (k0_off3_inb c 0) : Memref sig .tc .vmem S512x256 .bf16).view.read (Elt F)
                (oblkBuf (k0_off3 c 0#32) (k0_off3_inb c 0) (outBlk fa fb (orig 0 0 (c)) 0 (by decide)))) Finset.univ)) : sProp 𝕄) :=
  payload_agRecv_nxt_at fa fb c 0 0 (by decide) (by decide) (by decide) h d _ _ (agOff_0_0 c)
theorem payload_agRecv_tgt_0_1 (h) (d : Bool) :
    (ringRd fa fb).payload (dcell (nxt c) (csem cc0_scratch5 0 1 h)) 0 d =
      (iprop(∃ fd : Buf (Elt F) ((oblkM (k0_off3 c 1#32) (k0_off3_inb c 1) : Memref sig .tc .vmem S512x256 .bf16).view.loc (nxt c : Thread nD τ)),
        (oblkM (k0_off3 c 1#32) (k0_off3_inb c 1) : Memref sig .tc .vmem S512x256 .bf16).view.loc (nxt c : Thread nD τ)
          ↦[(oblkM (k0_off3 c 1#32) (k0_off3_inb c 1) : Memref sig .tc .vmem S512x256 .bf16).view.set]{fullShare}
            ((oblkM (k0_off3 c 1#32) (k0_off3_inb c 1) : Memref sig .tc .vmem S512x256 .bf16).view.write (Elt F) fd
              ((oblkM (k0_off3 c 1#32) (k0_off3_inb c 1) : Memref sig .tc .vmem S512x256 .bf16).view.read (Elt F)
                (oblkBuf (k0_off3 c 1#32) (k0_off3_inb c 1) (outBlk fa fb (orig 0 1 (c)) 0 (by decide)))) Finset.univ)) : sProp 𝕄) :=
  payload_agRecv_nxt_at fa fb c 0 1 (by decide) (by decide) (by decide) h d _ _ (agOff_0_1 c)
theorem payload_agRecv_tgt_0_2 (h) (d : Bool) :
    (ringRd fa fb).payload (dcell (nxt c) (csem cc0_scratch5 0 2 h)) 0 d =
      (iprop(∃ fd : Buf (Elt F) ((oblkM (k0_off3 c 2#32) (k0_off3_inb c 2) : Memref sig .tc .vmem S512x256 .bf16).view.loc (nxt c : Thread nD τ)),
        (oblkM (k0_off3 c 2#32) (k0_off3_inb c 2) : Memref sig .tc .vmem S512x256 .bf16).view.loc (nxt c : Thread nD τ)
          ↦[(oblkM (k0_off3 c 2#32) (k0_off3_inb c 2) : Memref sig .tc .vmem S512x256 .bf16).view.set]{fullShare}
            ((oblkM (k0_off3 c 2#32) (k0_off3_inb c 2) : Memref sig .tc .vmem S512x256 .bf16).view.write (Elt F) fd
              ((oblkM (k0_off3 c 2#32) (k0_off3_inb c 2) : Memref sig .tc .vmem S512x256 .bf16).view.read (Elt F)
                (oblkBuf (k0_off3 c 2#32) (k0_off3_inb c 2) (outBlk fa fb (orig 0 2 (c)) 0 (by decide)))) Finset.univ)) : sProp 𝕄) :=
  payload_agRecv_nxt_at fa fb c 0 2 (by decide) (by decide) (by decide) h d _ _ (agOff_0_2 c)
theorem payload_agRecv_tgt_1_0 (h) (d : Bool) :
    (ringRd fa fb).payload (dcell (nxt c) (csem cc0_scratch5 1 0 h)) 0 d =
      (iprop(∃ fd : Buf (Elt F) ((oblkM (k0_off7 c 0#32) (k0_off7_inb c 0) : Memref sig .tc .vmem S512x256 .bf16).view.loc (nxt c : Thread nD τ)),
        (oblkM (k0_off7 c 0#32) (k0_off7_inb c 0) : Memref sig .tc .vmem S512x256 .bf16).view.loc (nxt c : Thread nD τ)
          ↦[(oblkM (k0_off7 c 0#32) (k0_off7_inb c 0) : Memref sig .tc .vmem S512x256 .bf16).view.set]{fullShare}
            ((oblkM (k0_off7 c 0#32) (k0_off7_inb c 0) : Memref sig .tc .vmem S512x256 .bf16).view.write (Elt F) fd
              ((oblkM (k0_off7 c 0#32) (k0_off7_inb c 0) : Memref sig .tc .vmem S512x256 .bf16).view.read (Elt F)
                (oblkBuf (k0_off7 c 0#32) (k0_off7_inb c 0) (outBlk fa fb (orig 1 0 (c)) 1 (by decide)))) Finset.univ)) : sProp 𝕄) :=
  payload_agRecv_nxt_at fa fb c 1 0 (by decide) (by decide) (by decide) h d _ _ (agOff_1_0 c)
theorem payload_agRecv_tgt_1_1 (h) (d : Bool) :
    (ringRd fa fb).payload (dcell (nxt c) (csem cc0_scratch5 1 1 h)) 0 d =
      (iprop(∃ fd : Buf (Elt F) ((oblkM (k0_off7 c 1#32) (k0_off7_inb c 1) : Memref sig .tc .vmem S512x256 .bf16).view.loc (nxt c : Thread nD τ)),
        (oblkM (k0_off7 c 1#32) (k0_off7_inb c 1) : Memref sig .tc .vmem S512x256 .bf16).view.loc (nxt c : Thread nD τ)
          ↦[(oblkM (k0_off7 c 1#32) (k0_off7_inb c 1) : Memref sig .tc .vmem S512x256 .bf16).view.set]{fullShare}
            ((oblkM (k0_off7 c 1#32) (k0_off7_inb c 1) : Memref sig .tc .vmem S512x256 .bf16).view.write (Elt F) fd
              ((oblkM (k0_off7 c 1#32) (k0_off7_inb c 1) : Memref sig .tc .vmem S512x256 .bf16).view.read (Elt F)
                (oblkBuf (k0_off7 c 1#32) (k0_off7_inb c 1) (outBlk fa fb (orig 1 1 (c)) 1 (by decide)))) Finset.univ)) : sProp 𝕄) :=
  payload_agRecv_nxt_at fa fb c 1 1 (by decide) (by decide) (by decide) h d _ _ (agOff_1_1 c)
theorem payload_agRecv_tgt_1_2 (h) (d : Bool) :
    (ringRd fa fb).payload (dcell (nxt c) (csem cc0_scratch5 1 2 h)) 0 d =
      (iprop(∃ fd : Buf (Elt F) ((oblkM (k0_off7 c 2#32) (k0_off7_inb c 2) : Memref sig .tc .vmem S512x256 .bf16).view.loc (nxt c : Thread nD τ)),
        (oblkM (k0_off7 c 2#32) (k0_off7_inb c 2) : Memref sig .tc .vmem S512x256 .bf16).view.loc (nxt c : Thread nD τ)
          ↦[(oblkM (k0_off7 c 2#32) (k0_off7_inb c 2) : Memref sig .tc .vmem S512x256 .bf16).view.set]{fullShare}
            ((oblkM (k0_off7 c 2#32) (k0_off7_inb c 2) : Memref sig .tc .vmem S512x256 .bf16).view.write (Elt F) fd
              ((oblkM (k0_off7 c 2#32) (k0_off7_inb c 2) : Memref sig .tc .vmem S512x256 .bf16).view.read (Elt F)
                (oblkBuf (k0_off7 c 2#32) (k0_off7_inb c 2) (outBlk fa fb (orig 1 2 (c)) 1 (by decide)))) Finset.univ)) : sProp 𝕄) :=
  payload_agRecv_nxt_at fa fb c 1 2 (by decide) (by decide) (by decide) h d _ _ (agOff_1_2 c)
theorem payload_agRecv_tgt_2_0 (h) (d : Bool) :
    (ringRd fa fb).payload (dcell (nxt c) (csem cc0_scratch5 2 0 h)) 0 d =
      (iprop(∃ fd : Buf (Elt F) ((oblkM (k0_off11 c 0#32) (k0_off11_inb c 0) : Memref sig .tc .vmem S512x256 .bf16).view.loc (nxt c : Thread nD τ)),
        (oblkM (k0_off11 c 0#32) (k0_off11_inb c 0) : Memref sig .tc .vmem S512x256 .bf16).view.loc (nxt c : Thread nD τ)
          ↦[(oblkM (k0_off11 c 0#32) (k0_off11_inb c 0) : Memref sig .tc .vmem S512x256 .bf16).view.set]{fullShare}
            ((oblkM (k0_off11 c 0#32) (k0_off11_inb c 0) : Memref sig .tc .vmem S512x256 .bf16).view.write (Elt F) fd
              ((oblkM (k0_off11 c 0#32) (k0_off11_inb c 0) : Memref sig .tc .vmem S512x256 .bf16).view.read (Elt F)
                (oblkBuf (k0_off11 c 0#32) (k0_off11_inb c 0) (outBlk fa fb (orig 2 0 (c)) 2 (by decide)))) Finset.univ)) : sProp 𝕄) :=
  payload_agRecv_nxt_at fa fb c 2 0 (by decide) (by decide) (by decide) h d _ _ (agOff_2_0 c)
theorem payload_agRecv_tgt_2_1 (h) (d : Bool) :
    (ringRd fa fb).payload (dcell (nxt c) (csem cc0_scratch5 2 1 h)) 0 d =
      (iprop(∃ fd : Buf (Elt F) ((oblkM (k0_off11 c 1#32) (k0_off11_inb c 1) : Memref sig .tc .vmem S512x256 .bf16).view.loc (nxt c : Thread nD τ)),
        (oblkM (k0_off11 c 1#32) (k0_off11_inb c 1) : Memref sig .tc .vmem S512x256 .bf16).view.loc (nxt c : Thread nD τ)
          ↦[(oblkM (k0_off11 c 1#32) (k0_off11_inb c 1) : Memref sig .tc .vmem S512x256 .bf16).view.set]{fullShare}
            ((oblkM (k0_off11 c 1#32) (k0_off11_inb c 1) : Memref sig .tc .vmem S512x256 .bf16).view.write (Elt F) fd
              ((oblkM (k0_off11 c 1#32) (k0_off11_inb c 1) : Memref sig .tc .vmem S512x256 .bf16).view.read (Elt F)
                (oblkBuf (k0_off11 c 1#32) (k0_off11_inb c 1) (outBlk fa fb (orig 2 1 (c)) 2 (by decide)))) Finset.univ)) : sProp 𝕄) :=
  payload_agRecv_nxt_at fa fb c 2 1 (by decide) (by decide) (by decide) h d _ _ (agOff_2_1 c)
theorem payload_agRecv_tgt_2_2 (h) (d : Bool) :
    (ringRd fa fb).payload (dcell (nxt c) (csem cc0_scratch5 2 2 h)) 0 d =
      (iprop(∃ fd : Buf (Elt F) ((oblkM (k0_off11 c 2#32) (k0_off11_inb c 2) : Memref sig .tc .vmem S512x256 .bf16).view.loc (nxt c : Thread nD τ)),
        (oblkM (k0_off11 c 2#32) (k0_off11_inb c 2) : Memref sig .tc .vmem S512x256 .bf16).view.loc (nxt c : Thread nD τ)
          ↦[(oblkM (k0_off11 c 2#32) (k0_off11_inb c 2) : Memref sig .tc .vmem S512x256 .bf16).view.set]{fullShare}
            ((oblkM (k0_off11 c 2#32) (k0_off11_inb c 2) : Memref sig .tc .vmem S512x256 .bf16).view.write (Elt F) fd
              ((oblkM (k0_off11 c 2#32) (k0_off11_inb c 2) : Memref sig .tc .vmem S512x256 .bf16).view.read (Elt F)
                (oblkBuf (k0_off11 c 2#32) (k0_off11_inb c 2) (outBlk fa fb (orig 2 2 (c)) 2 (by decide)))) Finset.univ)) : sProp 𝕄) :=
  payload_agRecv_nxt_at fa fb c 2 2 (by decide) (by decide) (by decide) h d _ _ (agOff_2_2 c)
theorem payload_agRecv_tgt_3_0 (h) (d : Bool) :
    (ringRd fa fb).payload (dcell (nxt c) (csem cc0_scratch5 3 0 h)) 0 d =
      (iprop(∃ fd : Buf (Elt F) ((oblkM (k0_off15 c 0#32) (k0_off15_inb c 0) : Memref sig .tc .vmem S512x256 .bf16).view.loc (nxt c : Thread nD τ)),
        (oblkM (k0_off15 c 0#32) (k0_off15_inb c 0) : Memref sig .tc .vmem S512x256 .bf16).view.loc (nxt c : Thread nD τ)
          ↦[(oblkM (k0_off15 c 0#32) (k0_off15_inb c 0) : Memref sig .tc .vmem S512x256 .bf16).view.set]{fullShare}
            ((oblkM (k0_off15 c 0#32) (k0_off15_inb c 0) : Memref sig .tc .vmem S512x256 .bf16).view.write (Elt F) fd
              ((oblkM (k0_off15 c 0#32) (k0_off15_inb c 0) : Memref sig .tc .vmem S512x256 .bf16).view.read (Elt F)
                (oblkBuf (k0_off15 c 0#32) (k0_off15_inb c 0) (outBlk fa fb (orig 3 0 (c)) 3 (by decide)))) Finset.univ)) : sProp 𝕄) :=
  payload_agRecv_nxt_at fa fb c 3 0 (by decide) (by decide) (by decide) h d _ _ (agOff_3_0 c)
theorem payload_agRecv_tgt_3_1 (h) (d : Bool) :
    (ringRd fa fb).payload (dcell (nxt c) (csem cc0_scratch5 3 1 h)) 0 d =
      (iprop(∃ fd : Buf (Elt F) ((oblkM (k0_off15 c 1#32) (k0_off15_inb c 1) : Memref sig .tc .vmem S512x256 .bf16).view.loc (nxt c : Thread nD τ)),
        (oblkM (k0_off15 c 1#32) (k0_off15_inb c 1) : Memref sig .tc .vmem S512x256 .bf16).view.loc (nxt c : Thread nD τ)
          ↦[(oblkM (k0_off15 c 1#32) (k0_off15_inb c 1) : Memref sig .tc .vmem S512x256 .bf16).view.set]{fullShare}
            ((oblkM (k0_off15 c 1#32) (k0_off15_inb c 1) : Memref sig .tc .vmem S512x256 .bf16).view.write (Elt F) fd
              ((oblkM (k0_off15 c 1#32) (k0_off15_inb c 1) : Memref sig .tc .vmem S512x256 .bf16).view.read (Elt F)
                (oblkBuf (k0_off15 c 1#32) (k0_off15_inb c 1) (outBlk fa fb (orig 3 1 (c)) 3 (by decide)))) Finset.univ)) : sProp 𝕄) :=
  payload_agRecv_nxt_at fa fb c 3 1 (by decide) (by decide) (by decide) h d _ _ (agOff_3_1 c)
theorem payload_agRecv_tgt_3_2 (h) (d : Bool) :
    (ringRd fa fb).payload (dcell (nxt c) (csem cc0_scratch5 3 2 h)) 0 d =
      (iprop(∃ fd : Buf (Elt F) ((oblkM (k0_off15 c 2#32) (k0_off15_inb c 2) : Memref sig .tc .vmem S512x256 .bf16).view.loc (nxt c : Thread nD τ)),
        (oblkM (k0_off15 c 2#32) (k0_off15_inb c 2) : Memref sig .tc .vmem S512x256 .bf16).view.loc (nxt c : Thread nD τ)
          ↦[(oblkM (k0_off15 c 2#32) (k0_off15_inb c 2) : Memref sig .tc .vmem S512x256 .bf16).view.set]{fullShare}
            ((oblkM (k0_off15 c 2#32) (k0_off15_inb c 2) : Memref sig .tc .vmem S512x256 .bf16).view.write (Elt F) fd
              ((oblkM (k0_off15 c 2#32) (k0_off15_inb c 2) : Memref sig .tc .vmem S512x256 .bf16).view.read (Elt F)
                (oblkBuf (k0_off15 c 2#32) (k0_off15_inb c 2) (outBlk fa fb (orig 3 2 (c)) 3 (by decide)))) Finset.univ)) : sProp 𝕄) :=
  payload_agRecv_nxt_at fa fb c 3 2 (by decide) (by decide) (by decide) h d _ _ (agOff_3_2 c)
theorem payload_agRecv_tgt_4_0 (h) (d : Bool) :
    (ringRd fa fb).payload (dcell (prv c) (csem cc0_scratch5 4 0 h)) 0 d =
      (iprop(∃ fd : Buf (Elt F) ((oblkM (k0_off5 c 0#32) (k0_off5_inb c 0) : Memref sig .tc .vmem S512x256 .bf16).view.loc (prv c : Thread nD τ)),
        (oblkM (k0_off5 c 0#32) (k0_off5_inb c 0) : Memref sig .tc .vmem S512x256 .bf16).view.loc (prv c : Thread nD τ)
          ↦[(oblkM (k0_off5 c 0#32) (k0_off5_inb c 0) : Memref sig .tc .vmem S512x256 .bf16).view.set]{fullShare}
            ((oblkM (k0_off5 c 0#32) (k0_off5_inb c 0) : Memref sig .tc .vmem S512x256 .bf16).view.write (Elt F) fd
              ((oblkM (k0_off5 c 0#32) (k0_off5_inb c 0) : Memref sig .tc .vmem S512x256 .bf16).view.read (Elt F)
                (oblkBuf (k0_off5 c 0#32) (k0_off5_inb c 0) (outBlk fa fb (orig 4 0 (c)) 4 (by decide)))) Finset.univ)) : sProp 𝕄) :=
  payload_agRecv_prv_at fa fb c 4 0 (by decide) (by decide) (by decide) h d _ _ (agOff_4_0 c)
theorem payload_agRecv_tgt_4_1 (h) (d : Bool) :
    (ringRd fa fb).payload (dcell (prv c) (csem cc0_scratch5 4 1 h)) 0 d =
      (iprop(∃ fd : Buf (Elt F) ((oblkM (k0_off5 c 4294967295#32) (k0_off5_inb c 1) : Memref sig .tc .vmem S512x256 .bf16).view.loc (prv c : Thread nD τ)),
        (oblkM (k0_off5 c 4294967295#32) (k0_off5_inb c 1) : Memref sig .tc .vmem S512x256 .bf16).view.loc (prv c : Thread nD τ)
          ↦[(oblkM (k0_off5 c 4294967295#32) (k0_off5_inb c 1) : Memref sig .tc .vmem S512x256 .bf16).view.set]{fullShare}
            ((oblkM (k0_off5 c 4294967295#32) (k0_off5_inb c 1) : Memref sig .tc .vmem S512x256 .bf16).view.write (Elt F) fd
              ((oblkM (k0_off5 c 4294967295#32) (k0_off5_inb c 1) : Memref sig .tc .vmem S512x256 .bf16).view.read (Elt F)
                (oblkBuf (k0_off5 c 4294967295#32) (k0_off5_inb c 1) (outBlk fa fb (orig 4 1 (c)) 4 (by decide)))) Finset.univ)) : sProp 𝕄) :=
  payload_agRecv_prv_at fa fb c 4 1 (by decide) (by decide) (by decide) h d _ _ (agOff_4_1 c)
theorem payload_agRecv_tgt_4_2 (h) (d : Bool) :
    (ringRd fa fb).payload (dcell (prv c) (csem cc0_scratch5 4 2 h)) 0 d =
      (iprop(∃ fd : Buf (Elt F) ((oblkM (k0_off5 c 4294967294#32) (k0_off5_inb c 2) : Memref sig .tc .vmem S512x256 .bf16).view.loc (prv c : Thread nD τ)),
        (oblkM (k0_off5 c 4294967294#32) (k0_off5_inb c 2) : Memref sig .tc .vmem S512x256 .bf16).view.loc (prv c : Thread nD τ)
          ↦[(oblkM (k0_off5 c 4294967294#32) (k0_off5_inb c 2) : Memref sig .tc .vmem S512x256 .bf16).view.set]{fullShare}
            ((oblkM (k0_off5 c 4294967294#32) (k0_off5_inb c 2) : Memref sig .tc .vmem S512x256 .bf16).view.write (Elt F) fd
              ((oblkM (k0_off5 c 4294967294#32) (k0_off5_inb c 2) : Memref sig .tc .vmem S512x256 .bf16).view.read (Elt F)
                (oblkBuf (k0_off5 c 4294967294#32) (k0_off5_inb c 2) (outBlk fa fb (orig 4 2 (c)) 4 (by decide)))) Finset.univ)) : sProp 𝕄) :=
  payload_agRecv_prv_at fa fb c 4 2 (by decide) (by decide) (by decide) h d _ _ (agOff_4_2 c)
theorem payload_agRecv_tgt_5_0 (h) (d : Bool) :
    (ringRd fa fb).payload (dcell (prv c) (csem cc0_scratch5 5 0 h)) 0 d =
      (iprop(∃ fd : Buf (Elt F) ((oblkM (k0_off9 c 0#32) (k0_off9_inb c 0) : Memref sig .tc .vmem S512x256 .bf16).view.loc (prv c : Thread nD τ)),
        (oblkM (k0_off9 c 0#32) (k0_off9_inb c 0) : Memref sig .tc .vmem S512x256 .bf16).view.loc (prv c : Thread nD τ)
          ↦[(oblkM (k0_off9 c 0#32) (k0_off9_inb c 0) : Memref sig .tc .vmem S512x256 .bf16).view.set]{fullShare}
            ((oblkM (k0_off9 c 0#32) (k0_off9_inb c 0) : Memref sig .tc .vmem S512x256 .bf16).view.write (Elt F) fd
              ((oblkM (k0_off9 c 0#32) (k0_off9_inb c 0) : Memref sig .tc .vmem S512x256 .bf16).view.read (Elt F)
                (oblkBuf (k0_off9 c 0#32) (k0_off9_inb c 0) (outBlk fa fb (orig 5 0 (c)) 5 (by decide)))) Finset.univ)) : sProp 𝕄) :=
  payload_agRecv_prv_at fa fb c 5 0 (by decide) (by decide) (by decide) h d _ _ (agOff_5_0 c)
theorem payload_agRecv_tgt_5_1 (h) (d : Bool) :
    (ringRd fa fb).payload (dcell (prv c) (csem cc0_scratch5 5 1 h)) 0 d =
      (iprop(∃ fd : Buf (Elt F) ((oblkM (k0_off9 c 4294967295#32) (k0_off9_inb c 1) : Memref sig .tc .vmem S512x256 .bf16).view.loc (prv c : Thread nD τ)),
        (oblkM (k0_off9 c 4294967295#32) (k0_off9_inb c 1) : Memref sig .tc .vmem S512x256 .bf16).view.loc (prv c : Thread nD τ)
          ↦[(oblkM (k0_off9 c 4294967295#32) (k0_off9_inb c 1) : Memref sig .tc .vmem S512x256 .bf16).view.set]{fullShare}
            ((oblkM (k0_off9 c 4294967295#32) (k0_off9_inb c 1) : Memref sig .tc .vmem S512x256 .bf16).view.write (Elt F) fd
              ((oblkM (k0_off9 c 4294967295#32) (k0_off9_inb c 1) : Memref sig .tc .vmem S512x256 .bf16).view.read (Elt F)
                (oblkBuf (k0_off9 c 4294967295#32) (k0_off9_inb c 1) (outBlk fa fb (orig 5 1 (c)) 5 (by decide)))) Finset.univ)) : sProp 𝕄) :=
  payload_agRecv_prv_at fa fb c 5 1 (by decide) (by decide) (by decide) h d _ _ (agOff_5_1 c)
theorem payload_agRecv_tgt_5_2 (h) (d : Bool) :
    (ringRd fa fb).payload (dcell (prv c) (csem cc0_scratch5 5 2 h)) 0 d =
      (iprop(∃ fd : Buf (Elt F) ((oblkM (k0_off9 c 4294967294#32) (k0_off9_inb c 2) : Memref sig .tc .vmem S512x256 .bf16).view.loc (prv c : Thread nD τ)),
        (oblkM (k0_off9 c 4294967294#32) (k0_off9_inb c 2) : Memref sig .tc .vmem S512x256 .bf16).view.loc (prv c : Thread nD τ)
          ↦[(oblkM (k0_off9 c 4294967294#32) (k0_off9_inb c 2) : Memref sig .tc .vmem S512x256 .bf16).view.set]{fullShare}
            ((oblkM (k0_off9 c 4294967294#32) (k0_off9_inb c 2) : Memref sig .tc .vmem S512x256 .bf16).view.write (Elt F) fd
              ((oblkM (k0_off9 c 4294967294#32) (k0_off9_inb c 2) : Memref sig .tc .vmem S512x256 .bf16).view.read (Elt F)
                (oblkBuf (k0_off9 c 4294967294#32) (k0_off9_inb c 2) (outBlk fa fb (orig 5 2 (c)) 5 (by decide)))) Finset.univ)) : sProp 𝕄) :=
  payload_agRecv_prv_at fa fb c 5 2 (by decide) (by decide) (by decide) h d _ _ (agOff_5_2 c)
theorem payload_agRecv_tgt_6_0 (h) (d : Bool) :
    (ringRd fa fb).payload (dcell (prv c) (csem cc0_scratch5 6 0 h)) 0 d =
      (iprop(∃ fd : Buf (Elt F) ((oblkM (k0_off13 c 0#32) (k0_off13_inb c 0) : Memref sig .tc .vmem S512x256 .bf16).view.loc (prv c : Thread nD τ)),
        (oblkM (k0_off13 c 0#32) (k0_off13_inb c 0) : Memref sig .tc .vmem S512x256 .bf16).view.loc (prv c : Thread nD τ)
          ↦[(oblkM (k0_off13 c 0#32) (k0_off13_inb c 0) : Memref sig .tc .vmem S512x256 .bf16).view.set]{fullShare}
            ((oblkM (k0_off13 c 0#32) (k0_off13_inb c 0) : Memref sig .tc .vmem S512x256 .bf16).view.write (Elt F) fd
              ((oblkM (k0_off13 c 0#32) (k0_off13_inb c 0) : Memref sig .tc .vmem S512x256 .bf16).view.read (Elt F)
                (oblkBuf (k0_off13 c 0#32) (k0_off13_inb c 0) (outBlk fa fb (orig 6 0 (c)) 6 (by decide)))) Finset.univ)) : sProp 𝕄) :=
  payload_agRecv_prv_at fa fb c 6 0 (by decide) (by decide) (by decide) h d _ _ (agOff_6_0 c)
theorem payload_agRecv_tgt_6_1 (h) (d : Bool) :
    (ringRd fa fb).payload (dcell (prv c) (csem cc0_scratch5 6 1 h)) 0 d =
      (iprop(∃ fd : Buf (Elt F) ((oblkM (k0_off13 c 4294967295#32) (k0_off13_inb c 1) : Memref sig .tc .vmem S512x256 .bf16).view.loc (prv c : Thread nD τ)),
        (oblkM (k0_off13 c 4294967295#32) (k0_off13_inb c 1) : Memref sig .tc .vmem S512x256 .bf16).view.loc (prv c : Thread nD τ)
          ↦[(oblkM (k0_off13 c 4294967295#32) (k0_off13_inb c 1) : Memref sig .tc .vmem S512x256 .bf16).view.set]{fullShare}
            ((oblkM (k0_off13 c 4294967295#32) (k0_off13_inb c 1) : Memref sig .tc .vmem S512x256 .bf16).view.write (Elt F) fd
              ((oblkM (k0_off13 c 4294967295#32) (k0_off13_inb c 1) : Memref sig .tc .vmem S512x256 .bf16).view.read (Elt F)
                (oblkBuf (k0_off13 c 4294967295#32) (k0_off13_inb c 1) (outBlk fa fb (orig 6 1 (c)) 6 (by decide)))) Finset.univ)) : sProp 𝕄) :=
  payload_agRecv_prv_at fa fb c 6 1 (by decide) (by decide) (by decide) h d _ _ (agOff_6_1 c)
theorem payload_agRecv_tgt_6_2 (h) (d : Bool) :
    (ringRd fa fb).payload (dcell (prv c) (csem cc0_scratch5 6 2 h)) 0 d =
      (iprop(∃ fd : Buf (Elt F) ((oblkM (k0_off13 c 4294967294#32) (k0_off13_inb c 2) : Memref sig .tc .vmem S512x256 .bf16).view.loc (prv c : Thread nD τ)),
        (oblkM (k0_off13 c 4294967294#32) (k0_off13_inb c 2) : Memref sig .tc .vmem S512x256 .bf16).view.loc (prv c : Thread nD τ)
          ↦[(oblkM (k0_off13 c 4294967294#32) (k0_off13_inb c 2) : Memref sig .tc .vmem S512x256 .bf16).view.set]{fullShare}
            ((oblkM (k0_off13 c 4294967294#32) (k0_off13_inb c 2) : Memref sig .tc .vmem S512x256 .bf16).view.write (Elt F) fd
              ((oblkM (k0_off13 c 4294967294#32) (k0_off13_inb c 2) : Memref sig .tc .vmem S512x256 .bf16).view.read (Elt F)
                (oblkBuf (k0_off13 c 4294967294#32) (k0_off13_inb c 2) (outBlk fa fb (orig 6 2 (c)) 6 (by decide)))) Finset.univ)) : sProp 𝕄) :=
  payload_agRecv_prv_at fa fb c 6 2 (by decide) (by decide) (by decide) h d _ _ (agOff_6_2 c)
theorem payload_agRecv_tgt_7_0 (h) (d : Bool) :
    (ringRd fa fb).payload (dcell (prv c) (csem cc0_scratch5 7 0 h)) 0 d =
      (iprop(∃ fd : Buf (Elt F) ((oblkM (k0_off17 c 0#32) (k0_off17_inb c 0) : Memref sig .tc .vmem S512x256 .bf16).view.loc (prv c : Thread nD τ)),
        (oblkM (k0_off17 c 0#32) (k0_off17_inb c 0) : Memref sig .tc .vmem S512x256 .bf16).view.loc (prv c : Thread nD τ)
          ↦[(oblkM (k0_off17 c 0#32) (k0_off17_inb c 0) : Memref sig .tc .vmem S512x256 .bf16).view.set]{fullShare}
            ((oblkM (k0_off17 c 0#32) (k0_off17_inb c 0) : Memref sig .tc .vmem S512x256 .bf16).view.write (Elt F) fd
              ((oblkM (k0_off17 c 0#32) (k0_off17_inb c 0) : Memref sig .tc .vmem S512x256 .bf16).view.read (Elt F)
                (oblkBuf (k0_off17 c 0#32) (k0_off17_inb c 0) (outBlk fa fb (orig 7 0 (c)) 7 (by decide)))) Finset.univ)) : sProp 𝕄) :=
  payload_agRecv_prv_at fa fb c 7 0 (by decide) (by decide) (by decide) h d _ _ (agOff_7_0 c)
theorem payload_agRecv_tgt_7_1 (h) (d : Bool) :
    (ringRd fa fb).payload (dcell (prv c) (csem cc0_scratch5 7 1 h)) 0 d =
      (iprop(∃ fd : Buf (Elt F) ((oblkM (k0_off17 c 4294967295#32) (k0_off17_inb c 1) : Memref sig .tc .vmem S512x256 .bf16).view.loc (prv c : Thread nD τ)),
        (oblkM (k0_off17 c 4294967295#32) (k0_off17_inb c 1) : Memref sig .tc .vmem S512x256 .bf16).view.loc (prv c : Thread nD τ)
          ↦[(oblkM (k0_off17 c 4294967295#32) (k0_off17_inb c 1) : Memref sig .tc .vmem S512x256 .bf16).view.set]{fullShare}
            ((oblkM (k0_off17 c 4294967295#32) (k0_off17_inb c 1) : Memref sig .tc .vmem S512x256 .bf16).view.write (Elt F) fd
              ((oblkM (k0_off17 c 4294967295#32) (k0_off17_inb c 1) : Memref sig .tc .vmem S512x256 .bf16).view.read (Elt F)
                (oblkBuf (k0_off17 c 4294967295#32) (k0_off17_inb c 1) (outBlk fa fb (orig 7 1 (c)) 7 (by decide)))) Finset.univ)) : sProp 𝕄) :=
  payload_agRecv_prv_at fa fb c 7 1 (by decide) (by decide) (by decide) h d _ _ (agOff_7_1 c)
theorem payload_agRecv_tgt_7_2 (h) (d : Bool) :
    (ringRd fa fb).payload (dcell (prv c) (csem cc0_scratch5 7 2 h)) 0 d =
      (iprop(∃ fd : Buf (Elt F) ((oblkM (k0_off17 c 4294967294#32) (k0_off17_inb c 2) : Memref sig .tc .vmem S512x256 .bf16).view.loc (prv c : Thread nD τ)),
        (oblkM (k0_off17 c 4294967294#32) (k0_off17_inb c 2) : Memref sig .tc .vmem S512x256 .bf16).view.loc (prv c : Thread nD τ)
          ↦[(oblkM (k0_off17 c 4294967294#32) (k0_off17_inb c 2) : Memref sig .tc .vmem S512x256 .bf16).view.set]{fullShare}
            ((oblkM (k0_off17 c 4294967294#32) (k0_off17_inb c 2) : Memref sig .tc .vmem S512x256 .bf16).view.write (Elt F) fd
              ((oblkM (k0_off17 c 4294967294#32) (k0_off17_inb c 2) : Memref sig .tc .vmem S512x256 .bf16).view.read (Elt F)
                (oblkBuf (k0_off17 c 4294967294#32) (k0_off17_inb c 2) (outBlk fa fb (orig 7 2 (c)) 7 (by decide)))) Finset.univ)) : sProp 𝕄) :=
  payload_agRecv_prv_at fa fb c 7 2 (by decide) (by decide) (by decide) h d _ _ (agOff_7_2 c)

/-! ## A device's own all-gather receive cells, the landing block at the offsets of the chain's next copy -/

theorem payload_agRecv_own_0_0 (h) (d : Bool) :
    (ringRd fa fb).payload (dcell c (csem cc0_scratch5 0 0 h)) 0 d =
      (iprop(∃ fd : Buf (Elt F) ((oblkM (k0_off3 c 1#32) (k0_off3_inb c 1) : Memref sig .tc .vmem S512x256 .bf16).view.loc (c : Thread nD τ)),
        (oblkM (k0_off3 c 1#32) (k0_off3_inb c 1) : Memref sig .tc .vmem S512x256 .bf16).view.loc (c : Thread nD τ)
          ↦[(oblkM (k0_off3 c 1#32) (k0_off3_inb c 1) : Memref sig .tc .vmem S512x256 .bf16).view.set]{fullShare}
            ((oblkM (k0_off3 c 1#32) (k0_off3_inb c 1) : Memref sig .tc .vmem S512x256 .bf16).view.write (Elt F) fd
              ((oblkM (rowOff (sdev 0 c) (agShift 0 0) 0) (rowOff_inb _ _ 0 (by decide)) : Memref sig .tc .vmem S512x256 .bf16).view.read (Elt F)
                (oblkBuf (rowOff (sdev 0 c) (agShift 0 0) 0) (rowOff_inb _ _ 0 (by decide)) (outBlk fa fb (orig 0 0 (sdev 0 c)) 0 (by decide)))) Finset.univ)) : sProp 𝕄) :=
  payload_agRecv_at fa fb c 0 0 (by decide) (by decide) h d _ _ (agOff_0_1 c)
theorem payload_agRecv_own_0_1 (h) (d : Bool) :
    (ringRd fa fb).payload (dcell c (csem cc0_scratch5 0 1 h)) 0 d =
      (iprop(∃ fd : Buf (Elt F) ((oblkM (k0_off3 c 2#32) (k0_off3_inb c 2) : Memref sig .tc .vmem S512x256 .bf16).view.loc (c : Thread nD τ)),
        (oblkM (k0_off3 c 2#32) (k0_off3_inb c 2) : Memref sig .tc .vmem S512x256 .bf16).view.loc (c : Thread nD τ)
          ↦[(oblkM (k0_off3 c 2#32) (k0_off3_inb c 2) : Memref sig .tc .vmem S512x256 .bf16).view.set]{fullShare}
            ((oblkM (k0_off3 c 2#32) (k0_off3_inb c 2) : Memref sig .tc .vmem S512x256 .bf16).view.write (Elt F) fd
              ((oblkM (rowOff (sdev 0 c) (agShift 0 1) 0) (rowOff_inb _ _ 0 (by decide)) : Memref sig .tc .vmem S512x256 .bf16).view.read (Elt F)
                (oblkBuf (rowOff (sdev 0 c) (agShift 0 1) 0) (rowOff_inb _ _ 0 (by decide)) (outBlk fa fb (orig 0 1 (sdev 0 c)) 0 (by decide)))) Finset.univ)) : sProp 𝕄) :=
  payload_agRecv_at fa fb c 0 1 (by decide) (by decide) h d _ _ (agOff_0_2 c)
theorem payload_agRecv_own_1_0 (h) (d : Bool) :
    (ringRd fa fb).payload (dcell c (csem cc0_scratch5 1 0 h)) 0 d =
      (iprop(∃ fd : Buf (Elt F) ((oblkM (k0_off7 c 1#32) (k0_off7_inb c 1) : Memref sig .tc .vmem S512x256 .bf16).view.loc (c : Thread nD τ)),
        (oblkM (k0_off7 c 1#32) (k0_off7_inb c 1) : Memref sig .tc .vmem S512x256 .bf16).view.loc (c : Thread nD τ)
          ↦[(oblkM (k0_off7 c 1#32) (k0_off7_inb c 1) : Memref sig .tc .vmem S512x256 .bf16).view.set]{fullShare}
            ((oblkM (k0_off7 c 1#32) (k0_off7_inb c 1) : Memref sig .tc .vmem S512x256 .bf16).view.write (Elt F) fd
              ((oblkM (rowOff (sdev 1 c) (agShift 1 0) 1) (rowOff_inb _ _ 1 (by decide)) : Memref sig .tc .vmem S512x256 .bf16).view.read (Elt F)
                (oblkBuf (rowOff (sdev 1 c) (agShift 1 0) 1) (rowOff_inb _ _ 1 (by decide)) (outBlk fa fb (orig 1 0 (sdev 1 c)) 1 (by decide)))) Finset.univ)) : sProp 𝕄) :=
  payload_agRecv_at fa fb c 1 0 (by decide) (by decide) h d _ _ (agOff_1_1 c)
theorem payload_agRecv_own_1_1 (h) (d : Bool) :
    (ringRd fa fb).payload (dcell c (csem cc0_scratch5 1 1 h)) 0 d =
      (iprop(∃ fd : Buf (Elt F) ((oblkM (k0_off7 c 2#32) (k0_off7_inb c 2) : Memref sig .tc .vmem S512x256 .bf16).view.loc (c : Thread nD τ)),
        (oblkM (k0_off7 c 2#32) (k0_off7_inb c 2) : Memref sig .tc .vmem S512x256 .bf16).view.loc (c : Thread nD τ)
          ↦[(oblkM (k0_off7 c 2#32) (k0_off7_inb c 2) : Memref sig .tc .vmem S512x256 .bf16).view.set]{fullShare}
            ((oblkM (k0_off7 c 2#32) (k0_off7_inb c 2) : Memref sig .tc .vmem S512x256 .bf16).view.write (Elt F) fd
              ((oblkM (rowOff (sdev 1 c) (agShift 1 1) 1) (rowOff_inb _ _ 1 (by decide)) : Memref sig .tc .vmem S512x256 .bf16).view.read (Elt F)
                (oblkBuf (rowOff (sdev 1 c) (agShift 1 1) 1) (rowOff_inb _ _ 1 (by decide)) (outBlk fa fb (orig 1 1 (sdev 1 c)) 1 (by decide)))) Finset.univ)) : sProp 𝕄) :=
  payload_agRecv_at fa fb c 1 1 (by decide) (by decide) h d _ _ (agOff_1_2 c)
theorem payload_agRecv_own_2_0 (h) (d : Bool) :
    (ringRd fa fb).payload (dcell c (csem cc0_scratch5 2 0 h)) 0 d =
      (iprop(∃ fd : Buf (Elt F) ((oblkM (k0_off11 c 1#32) (k0_off11_inb c 1) : Memref sig .tc .vmem S512x256 .bf16).view.loc (c : Thread nD τ)),
        (oblkM (k0_off11 c 1#32) (k0_off11_inb c 1) : Memref sig .tc .vmem S512x256 .bf16).view.loc (c : Thread nD τ)
          ↦[(oblkM (k0_off11 c 1#32) (k0_off11_inb c 1) : Memref sig .tc .vmem S512x256 .bf16).view.set]{fullShare}
            ((oblkM (k0_off11 c 1#32) (k0_off11_inb c 1) : Memref sig .tc .vmem S512x256 .bf16).view.write (Elt F) fd
              ((oblkM (rowOff (sdev 2 c) (agShift 2 0) 2) (rowOff_inb _ _ 2 (by decide)) : Memref sig .tc .vmem S512x256 .bf16).view.read (Elt F)
                (oblkBuf (rowOff (sdev 2 c) (agShift 2 0) 2) (rowOff_inb _ _ 2 (by decide)) (outBlk fa fb (orig 2 0 (sdev 2 c)) 2 (by decide)))) Finset.univ)) : sProp 𝕄) :=
  payload_agRecv_at fa fb c 2 0 (by decide) (by decide) h d _ _ (agOff_2_1 c)
theorem payload_agRecv_own_2_1 (h) (d : Bool) :
    (ringRd fa fb).payload (dcell c (csem cc0_scratch5 2 1 h)) 0 d =
      (iprop(∃ fd : Buf (Elt F) ((oblkM (k0_off11 c 2#32) (k0_off11_inb c 2) : Memref sig .tc .vmem S512x256 .bf16).view.loc (c : Thread nD τ)),
        (oblkM (k0_off11 c 2#32) (k0_off11_inb c 2) : Memref sig .tc .vmem S512x256 .bf16).view.loc (c : Thread nD τ)
          ↦[(oblkM (k0_off11 c 2#32) (k0_off11_inb c 2) : Memref sig .tc .vmem S512x256 .bf16).view.set]{fullShare}
            ((oblkM (k0_off11 c 2#32) (k0_off11_inb c 2) : Memref sig .tc .vmem S512x256 .bf16).view.write (Elt F) fd
              ((oblkM (rowOff (sdev 2 c) (agShift 2 1) 2) (rowOff_inb _ _ 2 (by decide)) : Memref sig .tc .vmem S512x256 .bf16).view.read (Elt F)
                (oblkBuf (rowOff (sdev 2 c) (agShift 2 1) 2) (rowOff_inb _ _ 2 (by decide)) (outBlk fa fb (orig 2 1 (sdev 2 c)) 2 (by decide)))) Finset.univ)) : sProp 𝕄) :=
  payload_agRecv_at fa fb c 2 1 (by decide) (by decide) h d _ _ (agOff_2_2 c)
theorem payload_agRecv_own_3_0 (h) (d : Bool) :
    (ringRd fa fb).payload (dcell c (csem cc0_scratch5 3 0 h)) 0 d =
      (iprop(∃ fd : Buf (Elt F) ((oblkM (k0_off15 c 1#32) (k0_off15_inb c 1) : Memref sig .tc .vmem S512x256 .bf16).view.loc (c : Thread nD τ)),
        (oblkM (k0_off15 c 1#32) (k0_off15_inb c 1) : Memref sig .tc .vmem S512x256 .bf16).view.loc (c : Thread nD τ)
          ↦[(oblkM (k0_off15 c 1#32) (k0_off15_inb c 1) : Memref sig .tc .vmem S512x256 .bf16).view.set]{fullShare}
            ((oblkM (k0_off15 c 1#32) (k0_off15_inb c 1) : Memref sig .tc .vmem S512x256 .bf16).view.write (Elt F) fd
              ((oblkM (rowOff (sdev 3 c) (agShift 3 0) 3) (rowOff_inb _ _ 3 (by decide)) : Memref sig .tc .vmem S512x256 .bf16).view.read (Elt F)
                (oblkBuf (rowOff (sdev 3 c) (agShift 3 0) 3) (rowOff_inb _ _ 3 (by decide)) (outBlk fa fb (orig 3 0 (sdev 3 c)) 3 (by decide)))) Finset.univ)) : sProp 𝕄) :=
  payload_agRecv_at fa fb c 3 0 (by decide) (by decide) h d _ _ (agOff_3_1 c)
theorem payload_agRecv_own_3_1 (h) (d : Bool) :
    (ringRd fa fb).payload (dcell c (csem cc0_scratch5 3 1 h)) 0 d =
      (iprop(∃ fd : Buf (Elt F) ((oblkM (k0_off15 c 2#32) (k0_off15_inb c 2) : Memref sig .tc .vmem S512x256 .bf16).view.loc (c : Thread nD τ)),
        (oblkM (k0_off15 c 2#32) (k0_off15_inb c 2) : Memref sig .tc .vmem S512x256 .bf16).view.loc (c : Thread nD τ)
          ↦[(oblkM (k0_off15 c 2#32) (k0_off15_inb c 2) : Memref sig .tc .vmem S512x256 .bf16).view.set]{fullShare}
            ((oblkM (k0_off15 c 2#32) (k0_off15_inb c 2) : Memref sig .tc .vmem S512x256 .bf16).view.write (Elt F) fd
              ((oblkM (rowOff (sdev 3 c) (agShift 3 1) 3) (rowOff_inb _ _ 3 (by decide)) : Memref sig .tc .vmem S512x256 .bf16).view.read (Elt F)
                (oblkBuf (rowOff (sdev 3 c) (agShift 3 1) 3) (rowOff_inb _ _ 3 (by decide)) (outBlk fa fb (orig 3 1 (sdev 3 c)) 3 (by decide)))) Finset.univ)) : sProp 𝕄) :=
  payload_agRecv_at fa fb c 3 1 (by decide) (by decide) h d _ _ (agOff_3_2 c)
theorem payload_agRecv_own_4_0 (h) (d : Bool) :
    (ringRd fa fb).payload (dcell c (csem cc0_scratch5 4 0 h)) 0 d =
      (iprop(∃ fd : Buf (Elt F) ((oblkM (k0_off5 c 4294967295#32) (k0_off5_inb c 1) : Memref sig .tc .vmem S512x256 .bf16).view.loc (c : Thread nD τ)),
        (oblkM (k0_off5 c 4294967295#32) (k0_off5_inb c 1) : Memref sig .tc .vmem S512x256 .bf16).view.loc (c : Thread nD τ)
          ↦[(oblkM (k0_off5 c 4294967295#32) (k0_off5_inb c 1) : Memref sig .tc .vmem S512x256 .bf16).view.set]{fullShare}
            ((oblkM (k0_off5 c 4294967295#32) (k0_off5_inb c 1) : Memref sig .tc .vmem S512x256 .bf16).view.write (Elt F) fd
              ((oblkM (rowOff (sdev 4 c) (agShift 4 0) 4) (rowOff_inb _ _ 4 (by decide)) : Memref sig .tc .vmem S512x256 .bf16).view.read (Elt F)
                (oblkBuf (rowOff (sdev 4 c) (agShift 4 0) 4) (rowOff_inb _ _ 4 (by decide)) (outBlk fa fb (orig 4 0 (sdev 4 c)) 4 (by decide)))) Finset.univ)) : sProp 𝕄) :=
  payload_agRecv_at fa fb c 4 0 (by decide) (by decide) h d _ _ (agOff_4_1 c)
theorem payload_agRecv_own_4_1 (h) (d : Bool) :
    (ringRd fa fb).payload (dcell c (csem cc0_scratch5 4 1 h)) 0 d =
      (iprop(∃ fd : Buf (Elt F) ((oblkM (k0_off5 c 4294967294#32) (k0_off5_inb c 2) : Memref sig .tc .vmem S512x256 .bf16).view.loc (c : Thread nD τ)),
        (oblkM (k0_off5 c 4294967294#32) (k0_off5_inb c 2) : Memref sig .tc .vmem S512x256 .bf16).view.loc (c : Thread nD τ)
          ↦[(oblkM (k0_off5 c 4294967294#32) (k0_off5_inb c 2) : Memref sig .tc .vmem S512x256 .bf16).view.set]{fullShare}
            ((oblkM (k0_off5 c 4294967294#32) (k0_off5_inb c 2) : Memref sig .tc .vmem S512x256 .bf16).view.write (Elt F) fd
              ((oblkM (rowOff (sdev 4 c) (agShift 4 1) 4) (rowOff_inb _ _ 4 (by decide)) : Memref sig .tc .vmem S512x256 .bf16).view.read (Elt F)
                (oblkBuf (rowOff (sdev 4 c) (agShift 4 1) 4) (rowOff_inb _ _ 4 (by decide)) (outBlk fa fb (orig 4 1 (sdev 4 c)) 4 (by decide)))) Finset.univ)) : sProp 𝕄) :=
  payload_agRecv_at fa fb c 4 1 (by decide) (by decide) h d _ _ (agOff_4_2 c)
theorem payload_agRecv_own_5_0 (h) (d : Bool) :
    (ringRd fa fb).payload (dcell c (csem cc0_scratch5 5 0 h)) 0 d =
      (iprop(∃ fd : Buf (Elt F) ((oblkM (k0_off9 c 4294967295#32) (k0_off9_inb c 1) : Memref sig .tc .vmem S512x256 .bf16).view.loc (c : Thread nD τ)),
        (oblkM (k0_off9 c 4294967295#32) (k0_off9_inb c 1) : Memref sig .tc .vmem S512x256 .bf16).view.loc (c : Thread nD τ)
          ↦[(oblkM (k0_off9 c 4294967295#32) (k0_off9_inb c 1) : Memref sig .tc .vmem S512x256 .bf16).view.set]{fullShare}
            ((oblkM (k0_off9 c 4294967295#32) (k0_off9_inb c 1) : Memref sig .tc .vmem S512x256 .bf16).view.write (Elt F) fd
              ((oblkM (rowOff (sdev 5 c) (agShift 5 0) 5) (rowOff_inb _ _ 5 (by decide)) : Memref sig .tc .vmem S512x256 .bf16).view.read (Elt F)
                (oblkBuf (rowOff (sdev 5 c) (agShift 5 0) 5) (rowOff_inb _ _ 5 (by decide)) (outBlk fa fb (orig 5 0 (sdev 5 c)) 5 (by decide)))) Finset.univ)) : sProp 𝕄) :=
  payload_agRecv_at fa fb c 5 0 (by decide) (by decide) h d _ _ (agOff_5_1 c)
theorem payload_agRecv_own_5_1 (h) (d : Bool) :
    (ringRd fa fb).payload (dcell c (csem cc0_scratch5 5 1 h)) 0 d =
      (iprop(∃ fd : Buf (Elt F) ((oblkM (k0_off9 c 4294967294#32) (k0_off9_inb c 2) : Memref sig .tc .vmem S512x256 .bf16).view.loc (c : Thread nD τ)),
        (oblkM (k0_off9 c 4294967294#32) (k0_off9_inb c 2) : Memref sig .tc .vmem S512x256 .bf16).view.loc (c : Thread nD τ)
          ↦[(oblkM (k0_off9 c 4294967294#32) (k0_off9_inb c 2) : Memref sig .tc .vmem S512x256 .bf16).view.set]{fullShare}
            ((oblkM (k0_off9 c 4294967294#32) (k0_off9_inb c 2) : Memref sig .tc .vmem S512x256 .bf16).view.write (Elt F) fd
              ((oblkM (rowOff (sdev 5 c) (agShift 5 1) 5) (rowOff_inb _ _ 5 (by decide)) : Memref sig .tc .vmem S512x256 .bf16).view.read (Elt F)
                (oblkBuf (rowOff (sdev 5 c) (agShift 5 1) 5) (rowOff_inb _ _ 5 (by decide)) (outBlk fa fb (orig 5 1 (sdev 5 c)) 5 (by decide)))) Finset.univ)) : sProp 𝕄) :=
  payload_agRecv_at fa fb c 5 1 (by decide) (by decide) h d _ _ (agOff_5_2 c)
theorem payload_agRecv_own_6_0 (h) (d : Bool) :
    (ringRd fa fb).payload (dcell c (csem cc0_scratch5 6 0 h)) 0 d =
      (iprop(∃ fd : Buf (Elt F) ((oblkM (k0_off13 c 4294967295#32) (k0_off13_inb c 1) : Memref sig .tc .vmem S512x256 .bf16).view.loc (c : Thread nD τ)),
        (oblkM (k0_off13 c 4294967295#32) (k0_off13_inb c 1) : Memref sig .tc .vmem S512x256 .bf16).view.loc (c : Thread nD τ)
          ↦[(oblkM (k0_off13 c 4294967295#32) (k0_off13_inb c 1) : Memref sig .tc .vmem S512x256 .bf16).view.set]{fullShare}
            ((oblkM (k0_off13 c 4294967295#32) (k0_off13_inb c 1) : Memref sig .tc .vmem S512x256 .bf16).view.write (Elt F) fd
              ((oblkM (rowOff (sdev 6 c) (agShift 6 0) 6) (rowOff_inb _ _ 6 (by decide)) : Memref sig .tc .vmem S512x256 .bf16).view.read (Elt F)
                (oblkBuf (rowOff (sdev 6 c) (agShift 6 0) 6) (rowOff_inb _ _ 6 (by decide)) (outBlk fa fb (orig 6 0 (sdev 6 c)) 6 (by decide)))) Finset.univ)) : sProp 𝕄) :=
  payload_agRecv_at fa fb c 6 0 (by decide) (by decide) h d _ _ (agOff_6_1 c)
theorem payload_agRecv_own_6_1 (h) (d : Bool) :
    (ringRd fa fb).payload (dcell c (csem cc0_scratch5 6 1 h)) 0 d =
      (iprop(∃ fd : Buf (Elt F) ((oblkM (k0_off13 c 4294967294#32) (k0_off13_inb c 2) : Memref sig .tc .vmem S512x256 .bf16).view.loc (c : Thread nD τ)),
        (oblkM (k0_off13 c 4294967294#32) (k0_off13_inb c 2) : Memref sig .tc .vmem S512x256 .bf16).view.loc (c : Thread nD τ)
          ↦[(oblkM (k0_off13 c 4294967294#32) (k0_off13_inb c 2) : Memref sig .tc .vmem S512x256 .bf16).view.set]{fullShare}
            ((oblkM (k0_off13 c 4294967294#32) (k0_off13_inb c 2) : Memref sig .tc .vmem S512x256 .bf16).view.write (Elt F) fd
              ((oblkM (rowOff (sdev 6 c) (agShift 6 1) 6) (rowOff_inb _ _ 6 (by decide)) : Memref sig .tc .vmem S512x256 .bf16).view.read (Elt F)
                (oblkBuf (rowOff (sdev 6 c) (agShift 6 1) 6) (rowOff_inb _ _ 6 (by decide)) (outBlk fa fb (orig 6 1 (sdev 6 c)) 6 (by decide)))) Finset.univ)) : sProp 𝕄) :=
  payload_agRecv_at fa fb c 6 1 (by decide) (by decide) h d _ _ (agOff_6_2 c)
theorem payload_agRecv_own_7_0 (h) (d : Bool) :
    (ringRd fa fb).payload (dcell c (csem cc0_scratch5 7 0 h)) 0 d =
      (iprop(∃ fd : Buf (Elt F) ((oblkM (k0_off17 c 4294967295#32) (k0_off17_inb c 1) : Memref sig .tc .vmem S512x256 .bf16).view.loc (c : Thread nD τ)),
        (oblkM (k0_off17 c 4294967295#32) (k0_off17_inb c 1) : Memref sig .tc .vmem S512x256 .bf16).view.loc (c : Thread nD τ)
          ↦[(oblkM (k0_off17 c 4294967295#32) (k0_off17_inb c 1) : Memref sig .tc .vmem S512x256 .bf16).view.set]{fullShare}
            ((oblkM (k0_off17 c 4294967295#32) (k0_off17_inb c 1) : Memref sig .tc .vmem S512x256 .bf16).view.write (Elt F) fd
              ((oblkM (rowOff (sdev 7 c) (agShift 7 0) 7) (rowOff_inb _ _ 7 (by decide)) : Memref sig .tc .vmem S512x256 .bf16).view.read (Elt F)
                (oblkBuf (rowOff (sdev 7 c) (agShift 7 0) 7) (rowOff_inb _ _ 7 (by decide)) (outBlk fa fb (orig 7 0 (sdev 7 c)) 7 (by decide)))) Finset.univ)) : sProp 𝕄) :=
  payload_agRecv_at fa fb c 7 0 (by decide) (by decide) h d _ _ (agOff_7_1 c)
theorem payload_agRecv_own_7_1 (h) (d : Bool) :
    (ringRd fa fb).payload (dcell c (csem cc0_scratch5 7 1 h)) 0 d =
      (iprop(∃ fd : Buf (Elt F) ((oblkM (k0_off17 c 4294967294#32) (k0_off17_inb c 2) : Memref sig .tc .vmem S512x256 .bf16).view.loc (c : Thread nD τ)),
        (oblkM (k0_off17 c 4294967294#32) (k0_off17_inb c 2) : Memref sig .tc .vmem S512x256 .bf16).view.loc (c : Thread nD τ)
          ↦[(oblkM (k0_off17 c 4294967294#32) (k0_off17_inb c 2) : Memref sig .tc .vmem S512x256 .bf16).view.set]{fullShare}
            ((oblkM (k0_off17 c 4294967294#32) (k0_off17_inb c 2) : Memref sig .tc .vmem S512x256 .bf16).view.write (Elt F) fd
              ((oblkM (rowOff (sdev 7 c) (agShift 7 1) 7) (rowOff_inb _ _ 7 (by decide)) : Memref sig .tc .vmem S512x256 .bf16).view.read (Elt F)
                (oblkBuf (rowOff (sdev 7 c) (agShift 7 1) 7) (rowOff_inb _ _ 7 (by decide)) (outBlk fa fb (orig 7 1 (sdev 7 c)) 7 (by decide)))) Finset.univ)) : sProp 𝕄) :=
  payload_agRecv_at fa fb c 7 1 (by decide) (by decide) h d _ _ (agOff_7_2 c)

/-! ## The barrier cell: what the two neighbours hand over, leaf by leaf -/

theorem barPay_true_lit :
    barPay (F := F) c true =
      (iprop(((∃ f : Buf (Elt F) ((slotM 0 1 inb_S8x4x512x256_S1x1x512x256_0_1_0_0 : Memref sig .tc .vmem S512x256 .bf16).view.loc (nxt c : Thread nD τ)), (slotM 0 1 inb_S8x4x512x256_S1x1x512x256_0_1_0_0 : Memref sig .tc .vmem S512x256 .bf16).view.loc (nxt c : Thread nD τ) ↦[(slotM 0 1 inb_S8x4x512x256_S1x1x512x256_0_1_0_0 : Memref sig .tc .vmem S512x256 .bf16).view.set]{fullShare} f)
      ∗ (∃ f : Buf (Elt F) ((oblkM (k0_off3 c 0#32) (k0_off3_inb c 0) : Memref sig .tc .vmem S512x256 .bf16).view.loc (nxt c : Thread nD τ)), (oblkM (k0_off3 c 0#32) (k0_off3_inb c 0) : Memref sig .tc .vmem S512x256 .bf16).view.loc (nxt c : Thread nD τ) ↦[(oblkM (k0_off3 c 0#32) (k0_off3_inb c 0) : Memref sig .tc .vmem S512x256 .bf16).view.set]{fullShare} f)
      ∗ reached ER (dcell (nxt c) (csem cc0_scratch3 0 0 inb_S8x3_S1x1_0_0)) 0
      ∗ reached ER (dcell (nxt c) (csem cc0_scratch5 0 0 inb_S8x3_S1x1_0_0)) 0)
      ∗ ((∃ f : Buf (Elt F) ((slotM 0 2 inb_S8x4x512x256_S1x1x512x256_0_2_0_0 : Memref sig .tc .vmem S512x256 .bf16).view.loc (nxt c : Thread nD τ)), (slotM 0 2 inb_S8x4x512x256_S1x1x512x256_0_2_0_0 : Memref sig .tc .vmem S512x256 .bf16).view.loc (nxt c : Thread nD τ) ↦[(slotM 0 2 inb_S8x4x512x256_S1x1x512x256_0_2_0_0 : Memref sig .tc .vmem S512x256 .bf16).view.set]{fullShare} f)
      ∗ (∃ f : Buf (Elt F) ((oblkM (k0_off3 c 1#32) (k0_off3_inb c 1) : Memref sig .tc .vmem S512x256 .bf16).view.loc (nxt c : Thread nD τ)), (oblkM (k0_off3 c 1#32) (k0_off3_inb c 1) : Memref sig .tc .vmem S512x256 .bf16).view.loc (nxt c : Thread nD τ) ↦[(oblkM (k0_off3 c 1#32) (k0_off3_inb c 1) : Memref sig .tc .vmem S512x256 .bf16).view.set]{fullShare} f)
      ∗ reached ER (dcell (nxt c) (csem cc0_scratch3 0 1 inb_S8x3_S1x1_0_1)) 0
      ∗ reached ER (dcell (nxt c) (csem cc0_scratch5 0 1 inb_S8x3_S1x1_0_1)) 0)
      ∗ ((∃ f : Buf (Elt F) ((slotM 0 3 inb_S8x4x512x256_S1x1x512x256_0_3_0_0 : Memref sig .tc .vmem S512x256 .bf16).view.loc (nxt c : Thread nD τ)), (slotM 0 3 inb_S8x4x512x256_S1x1x512x256_0_3_0_0 : Memref sig .tc .vmem S512x256 .bf16).view.loc (nxt c : Thread nD τ) ↦[(slotM 0 3 inb_S8x4x512x256_S1x1x512x256_0_3_0_0 : Memref sig .tc .vmem S512x256 .bf16).view.set]{fullShare} f)
      ∗ (∃ f : Buf (Elt F) ((oblkM (k0_off3 c 2#32) (k0_off3_inb c 2) : Memref sig .tc .vmem S512x256 .bf16).view.loc (nxt c : Thread nD τ)), (oblkM (k0_off3 c 2#32) (k0_off3_inb c 2) : Memref sig .tc .vmem S512x256 .bf16).view.loc (nxt c : Thread nD τ) ↦[(oblkM (k0_off3 c 2#32) (k0_off3_inb c 2) : Memref sig .tc .vmem S512x256 .bf16).view.set]{fullShare} f)
      ∗ reached ER (dcell (nxt c) (csem cc0_scratch3 0 2 inb_S8x3_S1x1_0_2)) 0
      ∗ reached ER (dcell (nxt c) (csem cc0_scratch5 0 2 inb_S8x3_S1x1_0_2)) 0)
      ∗ ((∃ f : Buf (Elt F) ((slotM 1 1 inb_S8x4x512x256_S1x1x512x256_1_1_0_0 : Memref sig .tc .vmem S512x256 .bf16).view.loc (nxt c : Thread nD τ)), (slotM 1 1 inb_S8x4x512x256_S1x1x512x256_1_1_0_0 : Memref sig .tc .vmem S512x256 .bf16).view.loc (nxt c : Thread nD τ) ↦[(slotM 1 1 inb_S8x4x512x256_S1x1x512x256_1_1_0_0 : Memref sig .tc .vmem S512x256 .bf16).view.set]{fullShare} f)
      ∗ (∃ f : Buf (Elt F) ((oblkM (k0_off7 c 0#32) (k0_off7_inb c 0) : Memref sig .tc .vmem S512x256 .bf16).view.loc (nxt c : Thread nD τ)), (oblkM (k0_off7 c 0#32) (k0_off7_inb c 0) : Memref sig .tc .vmem S512x256 .bf16).view.loc (nxt c : Thread nD τ) ↦[(oblkM (k0_off7 c 0#32) (k0_off7_inb c 0) : Memref sig .tc .vmem S512x256 .bf16).view.set]{fullShare} f)
      ∗ reached ER (dcell (nxt c) (csem cc0_scratch3 1 0 inb_S8x3_S1x1_1_0)) 0
      ∗ reached ER (dcell (nxt c) (csem cc0_scratch5 1 0 inb_S8x3_S1x1_1_0)) 0)
      ∗ ((∃ f : Buf (Elt F) ((slotM 1 2 inb_S8x4x512x256_S1x1x512x256_1_2_0_0 : Memref sig .tc .vmem S512x256 .bf16).view.loc (nxt c : Thread nD τ)), (slotM 1 2 inb_S8x4x512x256_S1x1x512x256_1_2_0_0 : Memref sig .tc .vmem S512x256 .bf16).view.loc (nxt c : Thread nD τ) ↦[(slotM 1 2 inb_S8x4x512x256_S1x1x512x256_1_2_0_0 : Memref sig .tc .vmem S512x256 .bf16).view.set]{fullShare} f)
      ∗ (∃ f : Buf (Elt F) ((oblkM (k0_off7 c 1#32) (k0_off7_inb c 1) : Memref sig .tc .vmem S512x256 .bf16).view.loc (nxt c : Thread nD τ)), (oblkM (k0_off7 c 1#32) (k0_off7_inb c 1) : Memref sig .tc .vmem S512x256 .bf16).view.loc (nxt c : Thread nD τ) ↦[(oblkM (k0_off7 c 1#32) (k0_off7_inb c 1) : Memref sig .tc .vmem S512x256 .bf16).view.set]{fullShare} f)
      ∗ reached ER (dcell (nxt c) (csem cc0_scratch3 1 1 inb_S8x3_S1x1_1_1)) 0
      ∗ reached ER (dcell (nxt c) (csem cc0_scratch5 1 1 inb_S8x3_S1x1_1_1)) 0)
      ∗ ((∃ f : Buf (Elt F) ((slotM 1 3 inb_S8x4x512x256_S1x1x512x256_1_3_0_0 : Memref sig .tc .vmem S512x256 .bf16).view.loc (nxt c : Thread nD τ)), (slotM 1 3 inb_S8x4x512x256_S1x1x512x256_1_3_0_0 : Memref sig .tc .vmem S512x256 .bf16).view.loc (nxt c : Thread nD τ) ↦[(slotM 1 3 inb_S8x4x512x256_S1x1x512x256_1_3_0_0 : Memref sig .tc .vmem S512x256 .bf16).view.set]{fullShare} f)
      ∗ (∃ f : Buf (Elt F) ((oblkM (k0_off7 c 2#32) (k0_off7_inb c 2) : Memref sig .tc .vmem S512x256 .bf16).view.loc (nxt c : Thread nD τ)), (oblkM (k0_off7 c 2#32) (k0_off7_inb c 2) : Memref sig .tc .vmem S512x256 .bf16).view.loc (nxt c : Thread nD τ) ↦[(oblkM (k0_off7 c 2#32) (k0_off7_inb c 2) : Memref sig .tc .vmem S512x256 .bf16).view.set]{fullShare} f)
      ∗ reached ER (dcell (nxt c) (csem cc0_scratch3 1 2 inb_S8x3_S1x1_1_2)) 0
      ∗ reached ER (dcell (nxt c) (csem cc0_scratch5 1 2 inb_S8x3_S1x1_1_2)) 0)
      ∗ ((∃ f : Buf (Elt F) ((slotM 2 1 inb_S8x4x512x256_S1x1x512x256_2_1_0_0 : Memref sig .tc .vmem S512x256 .bf16).view.loc (nxt c : Thread nD τ)), (slotM 2 1 inb_S8x4x512x256_S1x1x512x256_2_1_0_0 : Memref sig .tc .vmem S512x256 .bf16).view.loc (nxt c : Thread nD τ) ↦[(slotM 2 1 inb_S8x4x512x256_S1x1x512x256_2_1_0_0 : Memref sig .tc .vmem S512x256 .bf16).view.set]{fullShare} f)
      ∗ (∃ f : Buf (Elt F) ((oblkM (k0_off11 c 0#32) (k0_off11_inb c 0) : Memref sig .tc .vmem S512x256 .bf16).view.loc (nxt c : Thread nD τ)), (oblkM (k0_off11 c 0#32) (k0_off11_inb c 0) : Memref sig .tc .vmem S512x256 .bf16).view.loc (nxt c : Thread nD τ) ↦[(oblkM (k0_off11 c 0#32) (k0_off11_inb c 0) : Memref sig .tc .vmem S512x256 .bf16).view.set]{fullShare} f)
      ∗ reached ER (dcell (nxt c) (csem cc0_scratch3 2 0 inb_S8x3_S1x1_2_0)) 0
      ∗ reached ER (dcell (nxt c) (csem cc0_scratch5 2 0 inb_S8x3_S1x1_2_0)) 0)
      ∗ ((∃ f : Buf (Elt F) ((slotM 2 2 inb_S8x4x512x256_S1x1x512x256_2_2_0_0 : Memref sig .tc .vmem S512x256 .bf16).view.loc (nxt c : Thread nD τ)), (slotM 2 2 inb_S8x4x512x256_S1x1x512x256_2_2_0_0 : Memref sig .tc .vmem S512x256 .bf16).view.loc (nxt c : Thread nD τ) ↦[(slotM 2 2 inb_S8x4x512x256_S1x1x512x256_2_2_0_0 : Memref sig .tc .vmem S512x256 .bf16).view.set]{fullShare} f)
      ∗ (∃ f : Buf (Elt F) ((oblkM (k0_off11 c 1#32) (k0_off11_inb c 1) : Memref sig .tc .vmem S512x256 .bf16).view.loc (nxt c : Thread nD τ)), (oblkM (k0_off11 c 1#32) (k0_off11_inb c 1) : Memref sig .tc .vmem S512x256 .bf16).view.loc (nxt c : Thread nD τ) ↦[(oblkM (k0_off11 c 1#32) (k0_off11_inb c 1) : Memref sig .tc .vmem S512x256 .bf16).view.set]{fullShare} f)
      ∗ reached ER (dcell (nxt c) (csem cc0_scratch3 2 1 inb_S8x3_S1x1_2_1)) 0
      ∗ reached ER (dcell (nxt c) (csem cc0_scratch5 2 1 inb_S8x3_S1x1_2_1)) 0)
      ∗ ((∃ f : Buf (Elt F) ((slotM 2 3 inb_S8x4x512x256_S1x1x512x256_2_3_0_0 : Memref sig .tc .vmem S512x256 .bf16).view.loc (nxt c : Thread nD τ)), (slotM 2 3 inb_S8x4x512x256_S1x1x512x256_2_3_0_0 : Memref sig .tc .vmem S512x256 .bf16).view.loc (nxt c : Thread nD τ) ↦[(slotM 2 3 inb_S8x4x512x256_S1x1x512x256_2_3_0_0 : Memref sig .tc .vmem S512x256 .bf16).view.set]{fullShare} f)
      ∗ (∃ f : Buf (Elt F) ((oblkM (k0_off11 c 2#32) (k0_off11_inb c 2) : Memref sig .tc .vmem S512x256 .bf16).view.loc (nxt c : Thread nD τ)), (oblkM (k0_off11 c 2#32) (k0_off11_inb c 2) : Memref sig .tc .vmem S512x256 .bf16).view.loc (nxt c : Thread nD τ) ↦[(oblkM (k0_off11 c 2#32) (k0_off11_inb c 2) : Memref sig .tc .vmem S512x256 .bf16).view.set]{fullShare} f)
      ∗ reached ER (dcell (nxt c) (csem cc0_scratch3 2 2 inb_S8x3_S1x1_2_2)) 0
      ∗ reached ER (dcell (nxt c) (csem cc0_scratch5 2 2 inb_S8x3_S1x1_2_2)) 0)
      ∗ ((∃ f : Buf (Elt F) ((slotM 3 1 inb_S8x4x512x256_S1x1x512x256_3_1_0_0 : Memref sig .tc .vmem S512x256 .bf16).view.loc (nxt c : Thread nD τ)), (slotM 3 1 inb_S8x4x512x256_S1x1x512x256_3_1_0_0 : Memref sig .tc .vmem S512x256 .bf16).view.loc (nxt c : Thread nD τ) ↦[(slotM 3 1 inb_S8x4x512x256_S1x1x512x256_3_1_0_0 : Memref sig .tc .vmem S512x256 .bf16).view.set]{fullShare} f)
      ∗ (∃ f : Buf (Elt F) ((oblkM (k0_off15 c 0#32) (k0_off15_inb c 0) : Memref sig .tc .vmem S512x256 .bf16).view.loc (nxt c : Thread nD τ)), (oblkM (k0_off15 c 0#32) (k0_off15_inb c 0) : Memref sig .tc .vmem S512x256 .bf16).view.loc (nxt c : Thread nD τ) ↦[(oblkM (k0_off15 c 0#32) (k0_off15_inb c 0) : Memref sig .tc .vmem S512x256 .bf16).view.set]{fullShare} f)
      ∗ reached ER (dcell (nxt c) (csem cc0_scratch3 3 0 inb_S8x3_S1x1_3_0)) 0
      ∗ reached ER (dcell (nxt c) (csem cc0_scratch5 3 0 inb_S8x3_S1x1_3_0)) 0)
      ∗ ((∃ f : Buf (Elt F) ((slotM 3 2 inb_S8x4x512x256_S1x1x512x256_3_2_0_0 : Memref sig .tc .vmem S512x256 .bf16).view.loc (nxt c : Thread nD τ)), (slotM 3 2 inb_S8x4x512x256_S1x1x512x256_3_2_0_0 : Memref sig .tc .vmem S512x256 .bf16).view.loc (nxt c : Thread nD τ) ↦[(slotM 3 2 inb_S8x4x512x256_S1x1x512x256_3_2_0_0 : Memref sig .tc .vmem S512x256 .bf16).view.set]{fullShare} f)
      ∗ (∃ f : Buf (Elt F) ((oblkM (k0_off15 c 1#32) (k0_off15_inb c 1) : Memref sig .tc .vmem S512x256 .bf16).view.loc (nxt c : Thread nD τ)), (oblkM (k0_off15 c 1#32) (k0_off15_inb c 1) : Memref sig .tc .vmem S512x256 .bf16).view.loc (nxt c : Thread nD τ) ↦[(oblkM (k0_off15 c 1#32) (k0_off15_inb c 1) : Memref sig .tc .vmem S512x256 .bf16).view.set]{fullShare} f)
      ∗ reached ER (dcell (nxt c) (csem cc0_scratch3 3 1 inb_S8x3_S1x1_3_1)) 0
      ∗ reached ER (dcell (nxt c) (csem cc0_scratch5 3 1 inb_S8x3_S1x1_3_1)) 0)
      ∗ ((∃ f : Buf (Elt F) ((slotM 3 3 inb_S8x4x512x256_S1x1x512x256_3_3_0_0 : Memref sig .tc .vmem S512x256 .bf16).view.loc (nxt c : Thread nD τ)), (slotM 3 3 inb_S8x4x512x256_S1x1x512x256_3_3_0_0 : Memref sig .tc .vmem S512x256 .bf16).view.loc (nxt c : Thread nD τ) ↦[(slotM 3 3 inb_S8x4x512x256_S1x1x512x256_3_3_0_0 : Memref sig .tc .vmem S512x256 .bf16).view.set]{fullShare} f)
      ∗ (∃ f : Buf (Elt F) ((oblkM (k0_off15 c 2#32) (k0_off15_inb c 2) : Memref sig .tc .vmem S512x256 .bf16).view.loc (nxt c : Thread nD τ)), (oblkM (k0_off15 c 2#32) (k0_off15_inb c 2) : Memref sig .tc .vmem S512x256 .bf16).view.loc (nxt c : Thread nD τ) ↦[(oblkM (k0_off15 c 2#32) (k0_off15_inb c 2) : Memref sig .tc .vmem S512x256 .bf16).view.set]{fullShare} f)
      ∗ reached ER (dcell (nxt c) (csem cc0_scratch3 3 2 inb_S8x3_S1x1_3_2)) 0
      ∗ reached ER (dcell (nxt c) (csem cc0_scratch5 3 2 inb_S8x3_S1x1_3_2)) 0)) : sProp 𝕄) := by
  unfold barPay
  rw [bigSep_univ_eq_bigSepL ([(0, 0), (0, 1), (0, 2), (1, 0), (1, 1), (1, 2), (2, 0), (2, 1), (2, 2), (3, 0), (3, 1), (3, 2)] : List (Fin 4 × Fin 3)) (by decide) (by decide)]
  exact
    (sep_congr (barLeaf_congr _ (nxt c) rfl _ 0 (by rfl) _ 0 (by rfl) _ (k0_off3 c 0#32) (agOff_0_0 c).symm _ _ _ _ _ _ _ _)
    (sep_congr (barLeaf_congr _ (nxt c) rfl _ 0 (by rfl) _ 1 (by rfl) _ (k0_off3 c 1#32) (agOff_0_1 c).symm _ _ _ _ _ _ _ _)
    (sep_congr (barLeaf_congr _ (nxt c) rfl _ 0 (by rfl) _ 2 (by rfl) _ (k0_off3 c 2#32) (agOff_0_2 c).symm _ _ _ _ _ _ _ _)
    (sep_congr (barLeaf_congr _ (nxt c) rfl _ 1 (by rfl) _ 0 (by rfl) _ (k0_off7 c 0#32) (agOff_1_0 c).symm _ _ _ _ _ _ _ _)
    (sep_congr (barLeaf_congr _ (nxt c) rfl _ 1 (by rfl) _ 1 (by rfl) _ (k0_off7 c 1#32) (agOff_1_1 c).symm _ _ _ _ _ _ _ _)
    (sep_congr (barLeaf_congr _ (nxt c) rfl _ 1 (by rfl) _ 2 (by rfl) _ (k0_off7 c 2#32) (agOff_1_2 c).symm _ _ _ _ _ _ _ _)
    (sep_congr (barLeaf_congr _ (nxt c) rfl _ 2 (by rfl) _ 0 (by rfl) _ (k0_off11 c 0#32) (agOff_2_0 c).symm _ _ _ _ _ _ _ _)
    (sep_congr (barLeaf_congr _ (nxt c) rfl _ 2 (by rfl) _ 1 (by rfl) _ (k0_off11 c 1#32) (agOff_2_1 c).symm _ _ _ _ _ _ _ _)
    (sep_congr (barLeaf_congr _ (nxt c) rfl _ 2 (by rfl) _ 2 (by rfl) _ (k0_off11 c 2#32) (agOff_2_2 c).symm _ _ _ _ _ _ _ _)
    (sep_congr (barLeaf_congr _ (nxt c) rfl _ 3 (by rfl) _ 0 (by rfl) _ (k0_off15 c 0#32) (agOff_3_0 c).symm _ _ _ _ _ _ _ _)
    (sep_congr (barLeaf_congr _ (nxt c) rfl _ 3 (by rfl) _ 1 (by rfl) _ (k0_off15 c 1#32) (agOff_3_1 c).symm _ _ _ _ _ _ _ _)
    (barLeaf_congr _ (nxt c) rfl _ 3 (by rfl) _ 2 (by rfl) _ (k0_off15 c 2#32) (agOff_3_2 c).symm _ _ _ _ _ _ _ _))))))))))))

theorem barPay_false_lit :
    barPay (F := F) c false =
      (iprop(((∃ f : Buf (Elt F) ((slotM 4 1 inb_S8x4x512x256_S1x1x512x256_4_1_0_0 : Memref sig .tc .vmem S512x256 .bf16).view.loc (prv c : Thread nD τ)), (slotM 4 1 inb_S8x4x512x256_S1x1x512x256_4_1_0_0 : Memref sig .tc .vmem S512x256 .bf16).view.loc (prv c : Thread nD τ) ↦[(slotM 4 1 inb_S8x4x512x256_S1x1x512x256_4_1_0_0 : Memref sig .tc .vmem S512x256 .bf16).view.set]{fullShare} f)
      ∗ (∃ f : Buf (Elt F) ((oblkM (k0_off5 c 0#32) (k0_off5_inb c 0) : Memref sig .tc .vmem S512x256 .bf16).view.loc (prv c : Thread nD τ)), (oblkM (k0_off5 c 0#32) (k0_off5_inb c 0) : Memref sig .tc .vmem S512x256 .bf16).view.loc (prv c : Thread nD τ) ↦[(oblkM (k0_off5 c 0#32) (k0_off5_inb c 0) : Memref sig .tc .vmem S512x256 .bf16).view.set]{fullShare} f)
      ∗ reached ER (dcell (prv c) (csem cc0_scratch3 4 0 inb_S8x3_S1x1_4_0)) 0
      ∗ reached ER (dcell (prv c) (csem cc0_scratch5 4 0 inb_S8x3_S1x1_4_0)) 0)
      ∗ ((∃ f : Buf (Elt F) ((slotM 4 2 inb_S8x4x512x256_S1x1x512x256_4_2_0_0 : Memref sig .tc .vmem S512x256 .bf16).view.loc (prv c : Thread nD τ)), (slotM 4 2 inb_S8x4x512x256_S1x1x512x256_4_2_0_0 : Memref sig .tc .vmem S512x256 .bf16).view.loc (prv c : Thread nD τ) ↦[(slotM 4 2 inb_S8x4x512x256_S1x1x512x256_4_2_0_0 : Memref sig .tc .vmem S512x256 .bf16).view.set]{fullShare} f)
      ∗ (∃ f : Buf (Elt F) ((oblkM (k0_off5 c 4294967295#32) (k0_off5_inb c 1) : Memref sig .tc .vmem S512x256 .bf16).view.loc (prv c : Thread nD τ)), (oblkM (k0_off5 c 4294967295#32) (k0_off5_inb c 1) : Memref sig .tc .vmem S512x256 .bf16).view.loc (prv c : Thread nD τ) ↦[(oblkM (k0_off5 c 4294967295#32) (k0_off5_inb c 1) : Memref sig .tc .vmem S512x256 .bf16).view.set]{fullShare} f)
      ∗ reached ER (dcell (prv c) (csem cc0_scratch3 4 1 inb_S8x3_S1x1_4_1)) 0
      ∗ reached ER (dcell (prv c) (csem cc0_scratch5 4 1 inb_S8x3_S1x1_4_1)) 0)
      ∗ ((∃ f : Buf (Elt F) ((slotM 4 3 inb_S8x4x512x256_S1x1x512x256_4_3_0_0 : Memref sig .tc .vmem S512x256 .bf16).view.loc (prv c : Thread nD τ)), (slotM 4 3 inb_S8x4x512x256_S1x1x512x256_4_3_0_0 : Memref sig .tc .vmem S512x256 .bf16).view.loc (prv c : Thread nD τ) ↦[(slotM 4 3 inb_S8x4x512x256_S1x1x512x256_4_3_0_0 : Memref sig .tc .vmem S512x256 .bf16).view.set]{fullShare} f)
      ∗ (∃ f : Buf (Elt F) ((oblkM (k0_off5 c 4294967294#32) (k0_off5_inb c 2) : Memref sig .tc .vmem S512x256 .bf16).view.loc (prv c : Thread nD τ)), (oblkM (k0_off5 c 4294967294#32) (k0_off5_inb c 2) : Memref sig .tc .vmem S512x256 .bf16).view.loc (prv c : Thread nD τ) ↦[(oblkM (k0_off5 c 4294967294#32) (k0_off5_inb c 2) : Memref sig .tc .vmem S512x256 .bf16).view.set]{fullShare} f)
      ∗ reached ER (dcell (prv c) (csem cc0_scratch3 4 2 inb_S8x3_S1x1_4_2)) 0
      ∗ reached ER (dcell (prv c) (csem cc0_scratch5 4 2 inb_S8x3_S1x1_4_2)) 0)
      ∗ ((∃ f : Buf (Elt F) ((slotM 5 1 inb_S8x4x512x256_S1x1x512x256_5_1_0_0 : Memref sig .tc .vmem S512x256 .bf16).view.loc (prv c : Thread nD τ)), (slotM 5 1 inb_S8x4x512x256_S1x1x512x256_5_1_0_0 : Memref sig .tc .vmem S512x256 .bf16).view.loc (prv c : Thread nD τ) ↦[(slotM 5 1 inb_S8x4x512x256_S1x1x512x256_5_1_0_0 : Memref sig .tc .vmem S512x256 .bf16).view.set]{fullShare} f)
      ∗ (∃ f : Buf (Elt F) ((oblkM (k0_off9 c 0#32) (k0_off9_inb c 0) : Memref sig .tc .vmem S512x256 .bf16).view.loc (prv c : Thread nD τ)), (oblkM (k0_off9 c 0#32) (k0_off9_inb c 0) : Memref sig .tc .vmem S512x256 .bf16).view.loc (prv c : Thread nD τ) ↦[(oblkM (k0_off9 c 0#32) (k0_off9_inb c 0) : Memref sig .tc .vmem S512x256 .bf16).view.set]{fullShare} f)
      ∗ reached ER (dcell (prv c) (csem cc0_scratch3 5 0 inb_S8x3_S1x1_5_0)) 0
      ∗ reached ER (dcell (prv c) (csem cc0_scratch5 5 0 inb_S8x3_S1x1_5_0)) 0)
      ∗ ((∃ f : Buf (Elt F) ((slotM 5 2 inb_S8x4x512x256_S1x1x512x256_5_2_0_0 : Memref sig .tc .vmem S512x256 .bf16).view.loc (prv c : Thread nD τ)), (slotM 5 2 inb_S8x4x512x256_S1x1x512x256_5_2_0_0 : Memref sig .tc .vmem S512x256 .bf16).view.loc (prv c : Thread nD τ) ↦[(slotM 5 2 inb_S8x4x512x256_S1x1x512x256_5_2_0_0 : Memref sig .tc .vmem S512x256 .bf16).view.set]{fullShare} f)
      ∗ (∃ f : Buf (Elt F) ((oblkM (k0_off9 c 4294967295#32) (k0_off9_inb c 1) : Memref sig .tc .vmem S512x256 .bf16).view.loc (prv c : Thread nD τ)), (oblkM (k0_off9 c 4294967295#32) (k0_off9_inb c 1) : Memref sig .tc .vmem S512x256 .bf16).view.loc (prv c : Thread nD τ) ↦[(oblkM (k0_off9 c 4294967295#32) (k0_off9_inb c 1) : Memref sig .tc .vmem S512x256 .bf16).view.set]{fullShare} f)
      ∗ reached ER (dcell (prv c) (csem cc0_scratch3 5 1 inb_S8x3_S1x1_5_1)) 0
      ∗ reached ER (dcell (prv c) (csem cc0_scratch5 5 1 inb_S8x3_S1x1_5_1)) 0)
      ∗ ((∃ f : Buf (Elt F) ((slotM 5 3 inb_S8x4x512x256_S1x1x512x256_5_3_0_0 : Memref sig .tc .vmem S512x256 .bf16).view.loc (prv c : Thread nD τ)), (slotM 5 3 inb_S8x4x512x256_S1x1x512x256_5_3_0_0 : Memref sig .tc .vmem S512x256 .bf16).view.loc (prv c : Thread nD τ) ↦[(slotM 5 3 inb_S8x4x512x256_S1x1x512x256_5_3_0_0 : Memref sig .tc .vmem S512x256 .bf16).view.set]{fullShare} f)
      ∗ (∃ f : Buf (Elt F) ((oblkM (k0_off9 c 4294967294#32) (k0_off9_inb c 2) : Memref sig .tc .vmem S512x256 .bf16).view.loc (prv c : Thread nD τ)), (oblkM (k0_off9 c 4294967294#32) (k0_off9_inb c 2) : Memref sig .tc .vmem S512x256 .bf16).view.loc (prv c : Thread nD τ) ↦[(oblkM (k0_off9 c 4294967294#32) (k0_off9_inb c 2) : Memref sig .tc .vmem S512x256 .bf16).view.set]{fullShare} f)
      ∗ reached ER (dcell (prv c) (csem cc0_scratch3 5 2 inb_S8x3_S1x1_5_2)) 0
      ∗ reached ER (dcell (prv c) (csem cc0_scratch5 5 2 inb_S8x3_S1x1_5_2)) 0)
      ∗ ((∃ f : Buf (Elt F) ((slotM 6 1 inb_S8x4x512x256_S1x1x512x256_6_1_0_0 : Memref sig .tc .vmem S512x256 .bf16).view.loc (prv c : Thread nD τ)), (slotM 6 1 inb_S8x4x512x256_S1x1x512x256_6_1_0_0 : Memref sig .tc .vmem S512x256 .bf16).view.loc (prv c : Thread nD τ) ↦[(slotM 6 1 inb_S8x4x512x256_S1x1x512x256_6_1_0_0 : Memref sig .tc .vmem S512x256 .bf16).view.set]{fullShare} f)
      ∗ (∃ f : Buf (Elt F) ((oblkM (k0_off13 c 0#32) (k0_off13_inb c 0) : Memref sig .tc .vmem S512x256 .bf16).view.loc (prv c : Thread nD τ)), (oblkM (k0_off13 c 0#32) (k0_off13_inb c 0) : Memref sig .tc .vmem S512x256 .bf16).view.loc (prv c : Thread nD τ) ↦[(oblkM (k0_off13 c 0#32) (k0_off13_inb c 0) : Memref sig .tc .vmem S512x256 .bf16).view.set]{fullShare} f)
      ∗ reached ER (dcell (prv c) (csem cc0_scratch3 6 0 inb_S8x3_S1x1_6_0)) 0
      ∗ reached ER (dcell (prv c) (csem cc0_scratch5 6 0 inb_S8x3_S1x1_6_0)) 0)
      ∗ ((∃ f : Buf (Elt F) ((slotM 6 2 inb_S8x4x512x256_S1x1x512x256_6_2_0_0 : Memref sig .tc .vmem S512x256 .bf16).view.loc (prv c : Thread nD τ)), (slotM 6 2 inb_S8x4x512x256_S1x1x512x256_6_2_0_0 : Memref sig .tc .vmem S512x256 .bf16).view.loc (prv c : Thread nD τ) ↦[(slotM 6 2 inb_S8x4x512x256_S1x1x512x256_6_2_0_0 : Memref sig .tc .vmem S512x256 .bf16).view.set]{fullShare} f)
      ∗ (∃ f : Buf (Elt F) ((oblkM (k0_off13 c 4294967295#32) (k0_off13_inb c 1) : Memref sig .tc .vmem S512x256 .bf16).view.loc (prv c : Thread nD τ)), (oblkM (k0_off13 c 4294967295#32) (k0_off13_inb c 1) : Memref sig .tc .vmem S512x256 .bf16).view.loc (prv c : Thread nD τ) ↦[(oblkM (k0_off13 c 4294967295#32) (k0_off13_inb c 1) : Memref sig .tc .vmem S512x256 .bf16).view.set]{fullShare} f)
      ∗ reached ER (dcell (prv c) (csem cc0_scratch3 6 1 inb_S8x3_S1x1_6_1)) 0
      ∗ reached ER (dcell (prv c) (csem cc0_scratch5 6 1 inb_S8x3_S1x1_6_1)) 0)
      ∗ ((∃ f : Buf (Elt F) ((slotM 6 3 inb_S8x4x512x256_S1x1x512x256_6_3_0_0 : Memref sig .tc .vmem S512x256 .bf16).view.loc (prv c : Thread nD τ)), (slotM 6 3 inb_S8x4x512x256_S1x1x512x256_6_3_0_0 : Memref sig .tc .vmem S512x256 .bf16).view.loc (prv c : Thread nD τ) ↦[(slotM 6 3 inb_S8x4x512x256_S1x1x512x256_6_3_0_0 : Memref sig .tc .vmem S512x256 .bf16).view.set]{fullShare} f)
      ∗ (∃ f : Buf (Elt F) ((oblkM (k0_off13 c 4294967294#32) (k0_off13_inb c 2) : Memref sig .tc .vmem S512x256 .bf16).view.loc (prv c : Thread nD τ)), (oblkM (k0_off13 c 4294967294#32) (k0_off13_inb c 2) : Memref sig .tc .vmem S512x256 .bf16).view.loc (prv c : Thread nD τ) ↦[(oblkM (k0_off13 c 4294967294#32) (k0_off13_inb c 2) : Memref sig .tc .vmem S512x256 .bf16).view.set]{fullShare} f)
      ∗ reached ER (dcell (prv c) (csem cc0_scratch3 6 2 inb_S8x3_S1x1_6_2)) 0
      ∗ reached ER (dcell (prv c) (csem cc0_scratch5 6 2 inb_S8x3_S1x1_6_2)) 0)
      ∗ ((∃ f : Buf (Elt F) ((slotM 7 1 inb_S8x4x512x256_S1x1x512x256_7_1_0_0 : Memref sig .tc .vmem S512x256 .bf16).view.loc (prv c : Thread nD τ)), (slotM 7 1 inb_S8x4x512x256_S1x1x512x256_7_1_0_0 : Memref sig .tc .vmem S512x256 .bf16).view.loc (prv c : Thread nD τ) ↦[(slotM 7 1 inb_S8x4x512x256_S1x1x512x256_7_1_0_0 : Memref sig .tc .vmem S512x256 .bf16).view.set]{fullShare} f)
      ∗ (∃ f : Buf (Elt F) ((oblkM (k0_off17 c 0#32) (k0_off17_inb c 0) : Memref sig .tc .vmem S512x256 .bf16).view.loc (prv c : Thread nD τ)), (oblkM (k0_off17 c 0#32) (k0_off17_inb c 0) : Memref sig .tc .vmem S512x256 .bf16).view.loc (prv c : Thread nD τ) ↦[(oblkM (k0_off17 c 0#32) (k0_off17_inb c 0) : Memref sig .tc .vmem S512x256 .bf16).view.set]{fullShare} f)
      ∗ reached ER (dcell (prv c) (csem cc0_scratch3 7 0 inb_S8x3_S1x1_7_0)) 0
      ∗ reached ER (dcell (prv c) (csem cc0_scratch5 7 0 inb_S8x3_S1x1_7_0)) 0)
      ∗ ((∃ f : Buf (Elt F) ((slotM 7 2 inb_S8x4x512x256_S1x1x512x256_7_2_0_0 : Memref sig .tc .vmem S512x256 .bf16).view.loc (prv c : Thread nD τ)), (slotM 7 2 inb_S8x4x512x256_S1x1x512x256_7_2_0_0 : Memref sig .tc .vmem S512x256 .bf16).view.loc (prv c : Thread nD τ) ↦[(slotM 7 2 inb_S8x4x512x256_S1x1x512x256_7_2_0_0 : Memref sig .tc .vmem S512x256 .bf16).view.set]{fullShare} f)
      ∗ (∃ f : Buf (Elt F) ((oblkM (k0_off17 c 4294967295#32) (k0_off17_inb c 1) : Memref sig .tc .vmem S512x256 .bf16).view.loc (prv c : Thread nD τ)), (oblkM (k0_off17 c 4294967295#32) (k0_off17_inb c 1) : Memref sig .tc .vmem S512x256 .bf16).view.loc (prv c : Thread nD τ) ↦[(oblkM (k0_off17 c 4294967295#32) (k0_off17_inb c 1) : Memref sig .tc .vmem S512x256 .bf16).view.set]{fullShare} f)
      ∗ reached ER (dcell (prv c) (csem cc0_scratch3 7 1 inb_S8x3_S1x1_7_1)) 0
      ∗ reached ER (dcell (prv c) (csem cc0_scratch5 7 1 inb_S8x3_S1x1_7_1)) 0)
      ∗ ((∃ f : Buf (Elt F) ((slotM 7 3 inb_S8x4x512x256_S1x1x512x256_7_3_0_0 : Memref sig .tc .vmem S512x256 .bf16).view.loc (prv c : Thread nD τ)), (slotM 7 3 inb_S8x4x512x256_S1x1x512x256_7_3_0_0 : Memref sig .tc .vmem S512x256 .bf16).view.loc (prv c : Thread nD τ) ↦[(slotM 7 3 inb_S8x4x512x256_S1x1x512x256_7_3_0_0 : Memref sig .tc .vmem S512x256 .bf16).view.set]{fullShare} f)
      ∗ (∃ f : Buf (Elt F) ((oblkM (k0_off17 c 4294967294#32) (k0_off17_inb c 2) : Memref sig .tc .vmem S512x256 .bf16).view.loc (prv c : Thread nD τ)), (oblkM (k0_off17 c 4294967294#32) (k0_off17_inb c 2) : Memref sig .tc .vmem S512x256 .bf16).view.loc (prv c : Thread nD τ) ↦[(oblkM (k0_off17 c 4294967294#32) (k0_off17_inb c 2) : Memref sig .tc .vmem S512x256 .bf16).view.set]{fullShare} f)
      ∗ reached ER (dcell (prv c) (csem cc0_scratch3 7 2 inb_S8x3_S1x1_7_2)) 0
      ∗ reached ER (dcell (prv c) (csem cc0_scratch5 7 2 inb_S8x3_S1x1_7_2)) 0)) : sProp 𝕄) := by
  unfold barPay
  rw [bigSep_univ_eq_bigSepL ([(0, 0), (0, 1), (0, 2), (1, 0), (1, 1), (1, 2), (2, 0), (2, 1), (2, 2), (3, 0), (3, 1), (3, 2)] : List (Fin 4 × Fin 3)) (by decide) (by decide)]
  exact
    (sep_congr (barLeaf_congr _ (prv c) rfl _ 4 (by rfl) _ 0 (by rfl) _ (k0_off5 c 0#32) (agOff_4_0 c).symm _ _ _ _ _ _ _ _)
    (sep_congr (barLeaf_congr _ (prv c) rfl _ 4 (by rfl) _ 1 (by rfl) _ (k0_off5 c 4294967295#32) (agOff_4_1 c).symm _ _ _ _ _ _ _ _)
    (sep_congr (barLeaf_congr _ (prv c) rfl _ 4 (by rfl) _ 2 (by rfl) _ (k0_off5 c 4294967294#32) (agOff_4_2 c).symm _ _ _ _ _ _ _ _)
    (sep_congr (barLeaf_congr _ (prv c) rfl _ 5 (by rfl) _ 0 (by rfl) _ (k0_off9 c 0#32) (agOff_5_0 c).symm _ _ _ _ _ _ _ _)
    (sep_congr (barLeaf_congr _ (prv c) rfl _ 5 (by rfl) _ 1 (by rfl) _ (k0_off9 c 4294967295#32) (agOff_5_1 c).symm _ _ _ _ _ _ _ _)
    (sep_congr (barLeaf_congr _ (prv c) rfl _ 5 (by rfl) _ 2 (by rfl) _ (k0_off9 c 4294967294#32) (agOff_5_2 c).symm _ _ _ _ _ _ _ _)
    (sep_congr (barLeaf_congr _ (prv c) rfl _ 6 (by rfl) _ 0 (by rfl) _ (k0_off13 c 0#32) (agOff_6_0 c).symm _ _ _ _ _ _ _ _)
    (sep_congr (barLeaf_congr _ (prv c) rfl _ 6 (by rfl) _ 1 (by rfl) _ (k0_off13 c 4294967295#32) (agOff_6_1 c).symm _ _ _ _ _ _ _ _)
    (sep_congr (barLeaf_congr _ (prv c) rfl _ 6 (by rfl) _ 2 (by rfl) _ (k0_off13 c 4294967294#32) (agOff_6_2 c).symm _ _ _ _ _ _ _ _)
    (sep_congr (barLeaf_congr _ (prv c) rfl _ 7 (by rfl) _ 0 (by rfl) _ (k0_off17 c 0#32) (agOff_7_0 c).symm _ _ _ _ _ _ _ _)
    (sep_congr (barLeaf_congr _ (prv c) rfl _ 7 (by rfl) _ 1 (by rfl) _ (k0_off17 c 4294967295#32) (agOff_7_1 c).symm _ _ _ _ _ _ _ _)
    (barLeaf_congr _ (prv c) rfl _ 7 (by rfl) _ 2 (by rfl) _ (k0_off17 c 4294967294#32) (agOff_7_2 c).symm _ _ _ _ _ _ _ _))))))))))))

/-- What a wait on the barrier cell returns. -/
theorem rest_bar_lit :
    bigSep ((ringRd fa fb).duties (barCell c) 0 \ ∅) (fun d => (ringRd fa fb).payload (barCell c) 0 d) =
      (iprop((((∃ f : Buf (Elt F) ((slotM 0 1 inb_S8x4x512x256_S1x1x512x256_0_1_0_0 : Memref sig .tc .vmem S512x256 .bf16).view.loc (nxt c : Thread nD τ)), (slotM 0 1 inb_S8x4x512x256_S1x1x512x256_0_1_0_0 : Memref sig .tc .vmem S512x256 .bf16).view.loc (nxt c : Thread nD τ) ↦[(slotM 0 1 inb_S8x4x512x256_S1x1x512x256_0_1_0_0 : Memref sig .tc .vmem S512x256 .bf16).view.set]{fullShare} f)
      ∗ (∃ f : Buf (Elt F) ((oblkM (k0_off3 c 0#32) (k0_off3_inb c 0) : Memref sig .tc .vmem S512x256 .bf16).view.loc (nxt c : Thread nD τ)), (oblkM (k0_off3 c 0#32) (k0_off3_inb c 0) : Memref sig .tc .vmem S512x256 .bf16).view.loc (nxt c : Thread nD τ) ↦[(oblkM (k0_off3 c 0#32) (k0_off3_inb c 0) : Memref sig .tc .vmem S512x256 .bf16).view.set]{fullShare} f)
      ∗ reached ER (dcell (nxt c) (csem cc0_scratch3 0 0 inb_S8x3_S1x1_0_0)) 0
      ∗ reached ER (dcell (nxt c) (csem cc0_scratch5 0 0 inb_S8x3_S1x1_0_0)) 0)
      ∗ ((∃ f : Buf (Elt F) ((slotM 0 2 inb_S8x4x512x256_S1x1x512x256_0_2_0_0 : Memref sig .tc .vmem S512x256 .bf16).view.loc (nxt c : Thread nD τ)), (slotM 0 2 inb_S8x4x512x256_S1x1x512x256_0_2_0_0 : Memref sig .tc .vmem S512x256 .bf16).view.loc (nxt c : Thread nD τ) ↦[(slotM 0 2 inb_S8x4x512x256_S1x1x512x256_0_2_0_0 : Memref sig .tc .vmem S512x256 .bf16).view.set]{fullShare} f)
      ∗ (∃ f : Buf (Elt F) ((oblkM (k0_off3 c 1#32) (k0_off3_inb c 1) : Memref sig .tc .vmem S512x256 .bf16).view.loc (nxt c : Thread nD τ)), (oblkM (k0_off3 c 1#32) (k0_off3_inb c 1) : Memref sig .tc .vmem S512x256 .bf16).view.loc (nxt c : Thread nD τ) ↦[(oblkM (k0_off3 c 1#32) (k0_off3_inb c 1) : Memref sig .tc .vmem S512x256 .bf16).view.set]{fullShare} f)
      ∗ reached ER (dcell (nxt c) (csem cc0_scratch3 0 1 inb_S8x3_S1x1_0_1)) 0
      ∗ reached ER (dcell (nxt c) (csem cc0_scratch5 0 1 inb_S8x3_S1x1_0_1)) 0)
      ∗ ((∃ f : Buf (Elt F) ((slotM 0 3 inb_S8x4x512x256_S1x1x512x256_0_3_0_0 : Memref sig .tc .vmem S512x256 .bf16).view.loc (nxt c : Thread nD τ)), (slotM 0 3 inb_S8x4x512x256_S1x1x512x256_0_3_0_0 : Memref sig .tc .vmem S512x256 .bf16).view.loc (nxt c : Thread nD τ) ↦[(slotM 0 3 inb_S8x4x512x256_S1x1x512x256_0_3_0_0 : Memref sig .tc .vmem S512x256 .bf16).view.set]{fullShare} f)
      ∗ (∃ f : Buf (Elt F) ((oblkM (k0_off3 c 2#32) (k0_off3_inb c 2) : Memref sig .tc .vmem S512x256 .bf16).view.loc (nxt c : Thread nD τ)), (oblkM (k0_off3 c 2#32) (k0_off3_inb c 2) : Memref sig .tc .vmem S512x256 .bf16).view.loc (nxt c : Thread nD τ) ↦[(oblkM (k0_off3 c 2#32) (k0_off3_inb c 2) : Memref sig .tc .vmem S512x256 .bf16).view.set]{fullShare} f)
      ∗ reached ER (dcell (nxt c) (csem cc0_scratch3 0 2 inb_S8x3_S1x1_0_2)) 0
      ∗ reached ER (dcell (nxt c) (csem cc0_scratch5 0 2 inb_S8x3_S1x1_0_2)) 0)
      ∗ ((∃ f : Buf (Elt F) ((slotM 1 1 inb_S8x4x512x256_S1x1x512x256_1_1_0_0 : Memref sig .tc .vmem S512x256 .bf16).view.loc (nxt c : Thread nD τ)), (slotM 1 1 inb_S8x4x512x256_S1x1x512x256_1_1_0_0 : Memref sig .tc .vmem S512x256 .bf16).view.loc (nxt c : Thread nD τ) ↦[(slotM 1 1 inb_S8x4x512x256_S1x1x512x256_1_1_0_0 : Memref sig .tc .vmem S512x256 .bf16).view.set]{fullShare} f)
      ∗ (∃ f : Buf (Elt F) ((oblkM (k0_off7 c 0#32) (k0_off7_inb c 0) : Memref sig .tc .vmem S512x256 .bf16).view.loc (nxt c : Thread nD τ)), (oblkM (k0_off7 c 0#32) (k0_off7_inb c 0) : Memref sig .tc .vmem S512x256 .bf16).view.loc (nxt c : Thread nD τ) ↦[(oblkM (k0_off7 c 0#32) (k0_off7_inb c 0) : Memref sig .tc .vmem S512x256 .bf16).view.set]{fullShare} f)
      ∗ reached ER (dcell (nxt c) (csem cc0_scratch3 1 0 inb_S8x3_S1x1_1_0)) 0
      ∗ reached ER (dcell (nxt c) (csem cc0_scratch5 1 0 inb_S8x3_S1x1_1_0)) 0)
      ∗ ((∃ f : Buf (Elt F) ((slotM 1 2 inb_S8x4x512x256_S1x1x512x256_1_2_0_0 : Memref sig .tc .vmem S512x256 .bf16).view.loc (nxt c : Thread nD τ)), (slotM 1 2 inb_S8x4x512x256_S1x1x512x256_1_2_0_0 : Memref sig .tc .vmem S512x256 .bf16).view.loc (nxt c : Thread nD τ) ↦[(slotM 1 2 inb_S8x4x512x256_S1x1x512x256_1_2_0_0 : Memref sig .tc .vmem S512x256 .bf16).view.set]{fullShare} f)
      ∗ (∃ f : Buf (Elt F) ((oblkM (k0_off7 c 1#32) (k0_off7_inb c 1) : Memref sig .tc .vmem S512x256 .bf16).view.loc (nxt c : Thread nD τ)), (oblkM (k0_off7 c 1#32) (k0_off7_inb c 1) : Memref sig .tc .vmem S512x256 .bf16).view.loc (nxt c : Thread nD τ) ↦[(oblkM (k0_off7 c 1#32) (k0_off7_inb c 1) : Memref sig .tc .vmem S512x256 .bf16).view.set]{fullShare} f)
      ∗ reached ER (dcell (nxt c) (csem cc0_scratch3 1 1 inb_S8x3_S1x1_1_1)) 0
      ∗ reached ER (dcell (nxt c) (csem cc0_scratch5 1 1 inb_S8x3_S1x1_1_1)) 0)
      ∗ ((∃ f : Buf (Elt F) ((slotM 1 3 inb_S8x4x512x256_S1x1x512x256_1_3_0_0 : Memref sig .tc .vmem S512x256 .bf16).view.loc (nxt c : Thread nD τ)), (slotM 1 3 inb_S8x4x512x256_S1x1x512x256_1_3_0_0 : Memref sig .tc .vmem S512x256 .bf16).view.loc (nxt c : Thread nD τ) ↦[(slotM 1 3 inb_S8x4x512x256_S1x1x512x256_1_3_0_0 : Memref sig .tc .vmem S512x256 .bf16).view.set]{fullShare} f)
      ∗ (∃ f : Buf (Elt F) ((oblkM (k0_off7 c 2#32) (k0_off7_inb c 2) : Memref sig .tc .vmem S512x256 .bf16).view.loc (nxt c : Thread nD τ)), (oblkM (k0_off7 c 2#32) (k0_off7_inb c 2) : Memref sig .tc .vmem S512x256 .bf16).view.loc (nxt c : Thread nD τ) ↦[(oblkM (k0_off7 c 2#32) (k0_off7_inb c 2) : Memref sig .tc .vmem S512x256 .bf16).view.set]{fullShare} f)
      ∗ reached ER (dcell (nxt c) (csem cc0_scratch3 1 2 inb_S8x3_S1x1_1_2)) 0
      ∗ reached ER (dcell (nxt c) (csem cc0_scratch5 1 2 inb_S8x3_S1x1_1_2)) 0)
      ∗ ((∃ f : Buf (Elt F) ((slotM 2 1 inb_S8x4x512x256_S1x1x512x256_2_1_0_0 : Memref sig .tc .vmem S512x256 .bf16).view.loc (nxt c : Thread nD τ)), (slotM 2 1 inb_S8x4x512x256_S1x1x512x256_2_1_0_0 : Memref sig .tc .vmem S512x256 .bf16).view.loc (nxt c : Thread nD τ) ↦[(slotM 2 1 inb_S8x4x512x256_S1x1x512x256_2_1_0_0 : Memref sig .tc .vmem S512x256 .bf16).view.set]{fullShare} f)
      ∗ (∃ f : Buf (Elt F) ((oblkM (k0_off11 c 0#32) (k0_off11_inb c 0) : Memref sig .tc .vmem S512x256 .bf16).view.loc (nxt c : Thread nD τ)), (oblkM (k0_off11 c 0#32) (k0_off11_inb c 0) : Memref sig .tc .vmem S512x256 .bf16).view.loc (nxt c : Thread nD τ) ↦[(oblkM (k0_off11 c 0#32) (k0_off11_inb c 0) : Memref sig .tc .vmem S512x256 .bf16).view.set]{fullShare} f)
      ∗ reached ER (dcell (nxt c) (csem cc0_scratch3 2 0 inb_S8x3_S1x1_2_0)) 0
      ∗ reached ER (dcell (nxt c) (csem cc0_scratch5 2 0 inb_S8x3_S1x1_2_0)) 0)
      ∗ ((∃ f : Buf (Elt F) ((slotM 2 2 inb_S8x4x512x256_S1x1x512x256_2_2_0_0 : Memref sig .tc .vmem S512x256 .bf16).view.loc (nxt c : Thread nD τ)), (slotM 2 2 inb_S8x4x512x256_S1x1x512x256_2_2_0_0 : Memref sig .tc .vmem S512x256 .bf16).view.loc (nxt c : Thread nD τ) ↦[(slotM 2 2 inb_S8x4x512x256_S1x1x512x256_2_2_0_0 : Memref sig .tc .vmem S512x256 .bf16).view.set]{fullShare} f)
      ∗ (∃ f : Buf (Elt F) ((oblkM (k0_off11 c 1#32) (k0_off11_inb c 1) : Memref sig .tc .vmem S512x256 .bf16).view.loc (nxt c : Thread nD τ)), (oblkM (k0_off11 c 1#32) (k0_off11_inb c 1) : Memref sig .tc .vmem S512x256 .bf16).view.loc (nxt c : Thread nD τ) ↦[(oblkM (k0_off11 c 1#32) (k0_off11_inb c 1) : Memref sig .tc .vmem S512x256 .bf16).view.set]{fullShare} f)
      ∗ reached ER (dcell (nxt c) (csem cc0_scratch3 2 1 inb_S8x3_S1x1_2_1)) 0
      ∗ reached ER (dcell (nxt c) (csem cc0_scratch5 2 1 inb_S8x3_S1x1_2_1)) 0)
      ∗ ((∃ f : Buf (Elt F) ((slotM 2 3 inb_S8x4x512x256_S1x1x512x256_2_3_0_0 : Memref sig .tc .vmem S512x256 .bf16).view.loc (nxt c : Thread nD τ)), (slotM 2 3 inb_S8x4x512x256_S1x1x512x256_2_3_0_0 : Memref sig .tc .vmem S512x256 .bf16).view.loc (nxt c : Thread nD τ) ↦[(slotM 2 3 inb_S8x4x512x256_S1x1x512x256_2_3_0_0 : Memref sig .tc .vmem S512x256 .bf16).view.set]{fullShare} f)
      ∗ (∃ f : Buf (Elt F) ((oblkM (k0_off11 c 2#32) (k0_off11_inb c 2) : Memref sig .tc .vmem S512x256 .bf16).view.loc (nxt c : Thread nD τ)), (oblkM (k0_off11 c 2#32) (k0_off11_inb c 2) : Memref sig .tc .vmem S512x256 .bf16).view.loc (nxt c : Thread nD τ) ↦[(oblkM (k0_off11 c 2#32) (k0_off11_inb c 2) : Memref sig .tc .vmem S512x256 .bf16).view.set]{fullShare} f)
      ∗ reached ER (dcell (nxt c) (csem cc0_scratch3 2 2 inb_S8x3_S1x1_2_2)) 0
      ∗ reached ER (dcell (nxt c) (csem cc0_scratch5 2 2 inb_S8x3_S1x1_2_2)) 0)
      ∗ ((∃ f : Buf (Elt F) ((slotM 3 1 inb_S8x4x512x256_S1x1x512x256_3_1_0_0 : Memref sig .tc .vmem S512x256 .bf16).view.loc (nxt c : Thread nD τ)), (slotM 3 1 inb_S8x4x512x256_S1x1x512x256_3_1_0_0 : Memref sig .tc .vmem S512x256 .bf16).view.loc (nxt c : Thread nD τ) ↦[(slotM 3 1 inb_S8x4x512x256_S1x1x512x256_3_1_0_0 : Memref sig .tc .vmem S512x256 .bf16).view.set]{fullShare} f)
      ∗ (∃ f : Buf (Elt F) ((oblkM (k0_off15 c 0#32) (k0_off15_inb c 0) : Memref sig .tc .vmem S512x256 .bf16).view.loc (nxt c : Thread nD τ)), (oblkM (k0_off15 c 0#32) (k0_off15_inb c 0) : Memref sig .tc .vmem S512x256 .bf16).view.loc (nxt c : Thread nD τ) ↦[(oblkM (k0_off15 c 0#32) (k0_off15_inb c 0) : Memref sig .tc .vmem S512x256 .bf16).view.set]{fullShare} f)
      ∗ reached ER (dcell (nxt c) (csem cc0_scratch3 3 0 inb_S8x3_S1x1_3_0)) 0
      ∗ reached ER (dcell (nxt c) (csem cc0_scratch5 3 0 inb_S8x3_S1x1_3_0)) 0)
      ∗ ((∃ f : Buf (Elt F) ((slotM 3 2 inb_S8x4x512x256_S1x1x512x256_3_2_0_0 : Memref sig .tc .vmem S512x256 .bf16).view.loc (nxt c : Thread nD τ)), (slotM 3 2 inb_S8x4x512x256_S1x1x512x256_3_2_0_0 : Memref sig .tc .vmem S512x256 .bf16).view.loc (nxt c : Thread nD τ) ↦[(slotM 3 2 inb_S8x4x512x256_S1x1x512x256_3_2_0_0 : Memref sig .tc .vmem S512x256 .bf16).view.set]{fullShare} f)
      ∗ (∃ f : Buf (Elt F) ((oblkM (k0_off15 c 1#32) (k0_off15_inb c 1) : Memref sig .tc .vmem S512x256 .bf16).view.loc (nxt c : Thread nD τ)), (oblkM (k0_off15 c 1#32) (k0_off15_inb c 1) : Memref sig .tc .vmem S512x256 .bf16).view.loc (nxt c : Thread nD τ) ↦[(oblkM (k0_off15 c 1#32) (k0_off15_inb c 1) : Memref sig .tc .vmem S512x256 .bf16).view.set]{fullShare} f)
      ∗ reached ER (dcell (nxt c) (csem cc0_scratch3 3 1 inb_S8x3_S1x1_3_1)) 0
      ∗ reached ER (dcell (nxt c) (csem cc0_scratch5 3 1 inb_S8x3_S1x1_3_1)) 0)
      ∗ ((∃ f : Buf (Elt F) ((slotM 3 3 inb_S8x4x512x256_S1x1x512x256_3_3_0_0 : Memref sig .tc .vmem S512x256 .bf16).view.loc (nxt c : Thread nD τ)), (slotM 3 3 inb_S8x4x512x256_S1x1x512x256_3_3_0_0 : Memref sig .tc .vmem S512x256 .bf16).view.loc (nxt c : Thread nD τ) ↦[(slotM 3 3 inb_S8x4x512x256_S1x1x512x256_3_3_0_0 : Memref sig .tc .vmem S512x256 .bf16).view.set]{fullShare} f)
      ∗ (∃ f : Buf (Elt F) ((oblkM (k0_off15 c 2#32) (k0_off15_inb c 2) : Memref sig .tc .vmem S512x256 .bf16).view.loc (nxt c : Thread nD τ)), (oblkM (k0_off15 c 2#32) (k0_off15_inb c 2) : Memref sig .tc .vmem S512x256 .bf16).view.loc (nxt c : Thread nD τ) ↦[(oblkM (k0_off15 c 2#32) (k0_off15_inb c 2) : Memref sig .tc .vmem S512x256 .bf16).view.set]{fullShare} f)
      ∗ reached ER (dcell (nxt c) (csem cc0_scratch3 3 2 inb_S8x3_S1x1_3_2)) 0
      ∗ reached ER (dcell (nxt c) (csem cc0_scratch5 3 2 inb_S8x3_S1x1_3_2)) 0))
      ∗ (((∃ f : Buf (Elt F) ((slotM 4 1 inb_S8x4x512x256_S1x1x512x256_4_1_0_0 : Memref sig .tc .vmem S512x256 .bf16).view.loc (prv c : Thread nD τ)), (slotM 4 1 inb_S8x4x512x256_S1x1x512x256_4_1_0_0 : Memref sig .tc .vmem S512x256 .bf16).view.loc (prv c : Thread nD τ) ↦[(slotM 4 1 inb_S8x4x512x256_S1x1x512x256_4_1_0_0 : Memref sig .tc .vmem S512x256 .bf16).view.set]{fullShare} f)
      ∗ (∃ f : Buf (Elt F) ((oblkM (k0_off5 c 0#32) (k0_off5_inb c 0) : Memref sig .tc .vmem S512x256 .bf16).view.loc (prv c : Thread nD τ)), (oblkM (k0_off5 c 0#32) (k0_off5_inb c 0) : Memref sig .tc .vmem S512x256 .bf16).view.loc (prv c : Thread nD τ) ↦[(oblkM (k0_off5 c 0#32) (k0_off5_inb c 0) : Memref sig .tc .vmem S512x256 .bf16).view.set]{fullShare} f)
      ∗ reached ER (dcell (prv c) (csem cc0_scratch3 4 0 inb_S8x3_S1x1_4_0)) 0
      ∗ reached ER (dcell (prv c) (csem cc0_scratch5 4 0 inb_S8x3_S1x1_4_0)) 0)
      ∗ ((∃ f : Buf (Elt F) ((slotM 4 2 inb_S8x4x512x256_S1x1x512x256_4_2_0_0 : Memref sig .tc .vmem S512x256 .bf16).view.loc (prv c : Thread nD τ)), (slotM 4 2 inb_S8x4x512x256_S1x1x512x256_4_2_0_0 : Memref sig .tc .vmem S512x256 .bf16).view.loc (prv c : Thread nD τ) ↦[(slotM 4 2 inb_S8x4x512x256_S1x1x512x256_4_2_0_0 : Memref sig .tc .vmem S512x256 .bf16).view.set]{fullShare} f)
      ∗ (∃ f : Buf (Elt F) ((oblkM (k0_off5 c 4294967295#32) (k0_off5_inb c 1) : Memref sig .tc .vmem S512x256 .bf16).view.loc (prv c : Thread nD τ)), (oblkM (k0_off5 c 4294967295#32) (k0_off5_inb c 1) : Memref sig .tc .vmem S512x256 .bf16).view.loc (prv c : Thread nD τ) ↦[(oblkM (k0_off5 c 4294967295#32) (k0_off5_inb c 1) : Memref sig .tc .vmem S512x256 .bf16).view.set]{fullShare} f)
      ∗ reached ER (dcell (prv c) (csem cc0_scratch3 4 1 inb_S8x3_S1x1_4_1)) 0
      ∗ reached ER (dcell (prv c) (csem cc0_scratch5 4 1 inb_S8x3_S1x1_4_1)) 0)
      ∗ ((∃ f : Buf (Elt F) ((slotM 4 3 inb_S8x4x512x256_S1x1x512x256_4_3_0_0 : Memref sig .tc .vmem S512x256 .bf16).view.loc (prv c : Thread nD τ)), (slotM 4 3 inb_S8x4x512x256_S1x1x512x256_4_3_0_0 : Memref sig .tc .vmem S512x256 .bf16).view.loc (prv c : Thread nD τ) ↦[(slotM 4 3 inb_S8x4x512x256_S1x1x512x256_4_3_0_0 : Memref sig .tc .vmem S512x256 .bf16).view.set]{fullShare} f)
      ∗ (∃ f : Buf (Elt F) ((oblkM (k0_off5 c 4294967294#32) (k0_off5_inb c 2) : Memref sig .tc .vmem S512x256 .bf16).view.loc (prv c : Thread nD τ)), (oblkM (k0_off5 c 4294967294#32) (k0_off5_inb c 2) : Memref sig .tc .vmem S512x256 .bf16).view.loc (prv c : Thread nD τ) ↦[(oblkM (k0_off5 c 4294967294#32) (k0_off5_inb c 2) : Memref sig .tc .vmem S512x256 .bf16).view.set]{fullShare} f)
      ∗ reached ER (dcell (prv c) (csem cc0_scratch3 4 2 inb_S8x3_S1x1_4_2)) 0
      ∗ reached ER (dcell (prv c) (csem cc0_scratch5 4 2 inb_S8x3_S1x1_4_2)) 0)
      ∗ ((∃ f : Buf (Elt F) ((slotM 5 1 inb_S8x4x512x256_S1x1x512x256_5_1_0_0 : Memref sig .tc .vmem S512x256 .bf16).view.loc (prv c : Thread nD τ)), (slotM 5 1 inb_S8x4x512x256_S1x1x512x256_5_1_0_0 : Memref sig .tc .vmem S512x256 .bf16).view.loc (prv c : Thread nD τ) ↦[(slotM 5 1 inb_S8x4x512x256_S1x1x512x256_5_1_0_0 : Memref sig .tc .vmem S512x256 .bf16).view.set]{fullShare} f)
      ∗ (∃ f : Buf (Elt F) ((oblkM (k0_off9 c 0#32) (k0_off9_inb c 0) : Memref sig .tc .vmem S512x256 .bf16).view.loc (prv c : Thread nD τ)), (oblkM (k0_off9 c 0#32) (k0_off9_inb c 0) : Memref sig .tc .vmem S512x256 .bf16).view.loc (prv c : Thread nD τ) ↦[(oblkM (k0_off9 c 0#32) (k0_off9_inb c 0) : Memref sig .tc .vmem S512x256 .bf16).view.set]{fullShare} f)
      ∗ reached ER (dcell (prv c) (csem cc0_scratch3 5 0 inb_S8x3_S1x1_5_0)) 0
      ∗ reached ER (dcell (prv c) (csem cc0_scratch5 5 0 inb_S8x3_S1x1_5_0)) 0)
      ∗ ((∃ f : Buf (Elt F) ((slotM 5 2 inb_S8x4x512x256_S1x1x512x256_5_2_0_0 : Memref sig .tc .vmem S512x256 .bf16).view.loc (prv c : Thread nD τ)), (slotM 5 2 inb_S8x4x512x256_S1x1x512x256_5_2_0_0 : Memref sig .tc .vmem S512x256 .bf16).view.loc (prv c : Thread nD τ) ↦[(slotM 5 2 inb_S8x4x512x256_S1x1x512x256_5_2_0_0 : Memref sig .tc .vmem S512x256 .bf16).view.set]{fullShare} f)
      ∗ (∃ f : Buf (Elt F) ((oblkM (k0_off9 c 4294967295#32) (k0_off9_inb c 1) : Memref sig .tc .vmem S512x256 .bf16).view.loc (prv c : Thread nD τ)), (oblkM (k0_off9 c 4294967295#32) (k0_off9_inb c 1) : Memref sig .tc .vmem S512x256 .bf16).view.loc (prv c : Thread nD τ) ↦[(oblkM (k0_off9 c 4294967295#32) (k0_off9_inb c 1) : Memref sig .tc .vmem S512x256 .bf16).view.set]{fullShare} f)
      ∗ reached ER (dcell (prv c) (csem cc0_scratch3 5 1 inb_S8x3_S1x1_5_1)) 0
      ∗ reached ER (dcell (prv c) (csem cc0_scratch5 5 1 inb_S8x3_S1x1_5_1)) 0)
      ∗ ((∃ f : Buf (Elt F) ((slotM 5 3 inb_S8x4x512x256_S1x1x512x256_5_3_0_0 : Memref sig .tc .vmem S512x256 .bf16).view.loc (prv c : Thread nD τ)), (slotM 5 3 inb_S8x4x512x256_S1x1x512x256_5_3_0_0 : Memref sig .tc .vmem S512x256 .bf16).view.loc (prv c : Thread nD τ) ↦[(slotM 5 3 inb_S8x4x512x256_S1x1x512x256_5_3_0_0 : Memref sig .tc .vmem S512x256 .bf16).view.set]{fullShare} f)
      ∗ (∃ f : Buf (Elt F) ((oblkM (k0_off9 c 4294967294#32) (k0_off9_inb c 2) : Memref sig .tc .vmem S512x256 .bf16).view.loc (prv c : Thread nD τ)), (oblkM (k0_off9 c 4294967294#32) (k0_off9_inb c 2) : Memref sig .tc .vmem S512x256 .bf16).view.loc (prv c : Thread nD τ) ↦[(oblkM (k0_off9 c 4294967294#32) (k0_off9_inb c 2) : Memref sig .tc .vmem S512x256 .bf16).view.set]{fullShare} f)
      ∗ reached ER (dcell (prv c) (csem cc0_scratch3 5 2 inb_S8x3_S1x1_5_2)) 0
      ∗ reached ER (dcell (prv c) (csem cc0_scratch5 5 2 inb_S8x3_S1x1_5_2)) 0)
      ∗ ((∃ f : Buf (Elt F) ((slotM 6 1 inb_S8x4x512x256_S1x1x512x256_6_1_0_0 : Memref sig .tc .vmem S512x256 .bf16).view.loc (prv c : Thread nD τ)), (slotM 6 1 inb_S8x4x512x256_S1x1x512x256_6_1_0_0 : Memref sig .tc .vmem S512x256 .bf16).view.loc (prv c : Thread nD τ) ↦[(slotM 6 1 inb_S8x4x512x256_S1x1x512x256_6_1_0_0 : Memref sig .tc .vmem S512x256 .bf16).view.set]{fullShare} f)
      ∗ (∃ f : Buf (Elt F) ((oblkM (k0_off13 c 0#32) (k0_off13_inb c 0) : Memref sig .tc .vmem S512x256 .bf16).view.loc (prv c : Thread nD τ)), (oblkM (k0_off13 c 0#32) (k0_off13_inb c 0) : Memref sig .tc .vmem S512x256 .bf16).view.loc (prv c : Thread nD τ) ↦[(oblkM (k0_off13 c 0#32) (k0_off13_inb c 0) : Memref sig .tc .vmem S512x256 .bf16).view.set]{fullShare} f)
      ∗ reached ER (dcell (prv c) (csem cc0_scratch3 6 0 inb_S8x3_S1x1_6_0)) 0
      ∗ reached ER (dcell (prv c) (csem cc0_scratch5 6 0 inb_S8x3_S1x1_6_0)) 0)
      ∗ ((∃ f : Buf (Elt F) ((slotM 6 2 inb_S8x4x512x256_S1x1x512x256_6_2_0_0 : Memref sig .tc .vmem S512x256 .bf16).view.loc (prv c : Thread nD τ)), (slotM 6 2 inb_S8x4x512x256_S1x1x512x256_6_2_0_0 : Memref sig .tc .vmem S512x256 .bf16).view.loc (prv c : Thread nD τ) ↦[(slotM 6 2 inb_S8x4x512x256_S1x1x512x256_6_2_0_0 : Memref sig .tc .vmem S512x256 .bf16).view.set]{fullShare} f)
      ∗ (∃ f : Buf (Elt F) ((oblkM (k0_off13 c 4294967295#32) (k0_off13_inb c 1) : Memref sig .tc .vmem S512x256 .bf16).view.loc (prv c : Thread nD τ)), (oblkM (k0_off13 c 4294967295#32) (k0_off13_inb c 1) : Memref sig .tc .vmem S512x256 .bf16).view.loc (prv c : Thread nD τ) ↦[(oblkM (k0_off13 c 4294967295#32) (k0_off13_inb c 1) : Memref sig .tc .vmem S512x256 .bf16).view.set]{fullShare} f)
      ∗ reached ER (dcell (prv c) (csem cc0_scratch3 6 1 inb_S8x3_S1x1_6_1)) 0
      ∗ reached ER (dcell (prv c) (csem cc0_scratch5 6 1 inb_S8x3_S1x1_6_1)) 0)
      ∗ ((∃ f : Buf (Elt F) ((slotM 6 3 inb_S8x4x512x256_S1x1x512x256_6_3_0_0 : Memref sig .tc .vmem S512x256 .bf16).view.loc (prv c : Thread nD τ)), (slotM 6 3 inb_S8x4x512x256_S1x1x512x256_6_3_0_0 : Memref sig .tc .vmem S512x256 .bf16).view.loc (prv c : Thread nD τ) ↦[(slotM 6 3 inb_S8x4x512x256_S1x1x512x256_6_3_0_0 : Memref sig .tc .vmem S512x256 .bf16).view.set]{fullShare} f)
      ∗ (∃ f : Buf (Elt F) ((oblkM (k0_off13 c 4294967294#32) (k0_off13_inb c 2) : Memref sig .tc .vmem S512x256 .bf16).view.loc (prv c : Thread nD τ)), (oblkM (k0_off13 c 4294967294#32) (k0_off13_inb c 2) : Memref sig .tc .vmem S512x256 .bf16).view.loc (prv c : Thread nD τ) ↦[(oblkM (k0_off13 c 4294967294#32) (k0_off13_inb c 2) : Memref sig .tc .vmem S512x256 .bf16).view.set]{fullShare} f)
      ∗ reached ER (dcell (prv c) (csem cc0_scratch3 6 2 inb_S8x3_S1x1_6_2)) 0
      ∗ reached ER (dcell (prv c) (csem cc0_scratch5 6 2 inb_S8x3_S1x1_6_2)) 0)
      ∗ ((∃ f : Buf (Elt F) ((slotM 7 1 inb_S8x4x512x256_S1x1x512x256_7_1_0_0 : Memref sig .tc .vmem S512x256 .bf16).view.loc (prv c : Thread nD τ)), (slotM 7 1 inb_S8x4x512x256_S1x1x512x256_7_1_0_0 : Memref sig .tc .vmem S512x256 .bf16).view.loc (prv c : Thread nD τ) ↦[(slotM 7 1 inb_S8x4x512x256_S1x1x512x256_7_1_0_0 : Memref sig .tc .vmem S512x256 .bf16).view.set]{fullShare} f)
      ∗ (∃ f : Buf (Elt F) ((oblkM (k0_off17 c 0#32) (k0_off17_inb c 0) : Memref sig .tc .vmem S512x256 .bf16).view.loc (prv c : Thread nD τ)), (oblkM (k0_off17 c 0#32) (k0_off17_inb c 0) : Memref sig .tc .vmem S512x256 .bf16).view.loc (prv c : Thread nD τ) ↦[(oblkM (k0_off17 c 0#32) (k0_off17_inb c 0) : Memref sig .tc .vmem S512x256 .bf16).view.set]{fullShare} f)
      ∗ reached ER (dcell (prv c) (csem cc0_scratch3 7 0 inb_S8x3_S1x1_7_0)) 0
      ∗ reached ER (dcell (prv c) (csem cc0_scratch5 7 0 inb_S8x3_S1x1_7_0)) 0)
      ∗ ((∃ f : Buf (Elt F) ((slotM 7 2 inb_S8x4x512x256_S1x1x512x256_7_2_0_0 : Memref sig .tc .vmem S512x256 .bf16).view.loc (prv c : Thread nD τ)), (slotM 7 2 inb_S8x4x512x256_S1x1x512x256_7_2_0_0 : Memref sig .tc .vmem S512x256 .bf16).view.loc (prv c : Thread nD τ) ↦[(slotM 7 2 inb_S8x4x512x256_S1x1x512x256_7_2_0_0 : Memref sig .tc .vmem S512x256 .bf16).view.set]{fullShare} f)
      ∗ (∃ f : Buf (Elt F) ((oblkM (k0_off17 c 4294967295#32) (k0_off17_inb c 1) : Memref sig .tc .vmem S512x256 .bf16).view.loc (prv c : Thread nD τ)), (oblkM (k0_off17 c 4294967295#32) (k0_off17_inb c 1) : Memref sig .tc .vmem S512x256 .bf16).view.loc (prv c : Thread nD τ) ↦[(oblkM (k0_off17 c 4294967295#32) (k0_off17_inb c 1) : Memref sig .tc .vmem S512x256 .bf16).view.set]{fullShare} f)
      ∗ reached ER (dcell (prv c) (csem cc0_scratch3 7 1 inb_S8x3_S1x1_7_1)) 0
      ∗ reached ER (dcell (prv c) (csem cc0_scratch5 7 1 inb_S8x3_S1x1_7_1)) 0)
      ∗ ((∃ f : Buf (Elt F) ((slotM 7 3 inb_S8x4x512x256_S1x1x512x256_7_3_0_0 : Memref sig .tc .vmem S512x256 .bf16).view.loc (prv c : Thread nD τ)), (slotM 7 3 inb_S8x4x512x256_S1x1x512x256_7_3_0_0 : Memref sig .tc .vmem S512x256 .bf16).view.loc (prv c : Thread nD τ) ↦[(slotM 7 3 inb_S8x4x512x256_S1x1x512x256_7_3_0_0 : Memref sig .tc .vmem S512x256 .bf16).view.set]{fullShare} f)
      ∗ (∃ f : Buf (Elt F) ((oblkM (k0_off17 c 4294967294#32) (k0_off17_inb c 2) : Memref sig .tc .vmem S512x256 .bf16).view.loc (prv c : Thread nD τ)), (oblkM (k0_off17 c 4294967294#32) (k0_off17_inb c 2) : Memref sig .tc .vmem S512x256 .bf16).view.loc (prv c : Thread nD τ) ↦[(oblkM (k0_off17 c 4294967294#32) (k0_off17_inb c 2) : Memref sig .tc .vmem S512x256 .bf16).view.set]{fullShare} f)
      ∗ reached ER (dcell (prv c) (csem cc0_scratch3 7 2 inb_S8x3_S1x1_7_2)) 0
      ∗ reached ER (dcell (prv c) (csem cc0_scratch5 7 2 inb_S8x3_S1x1_7_2)) 0))) : sProp 𝕄) := by
  rw [rest_bar fa fb c, barPay_true_lit c, barPay_false_lit c]

/-- The unit this device pays into its neighbour's barrier cell, in this device's terms. -/
theorem payload_bar_prv_true_lit :
    (ringRd fa fb).payload (barCell (prv c)) 0 true =
      (iprop(((∃ f : Buf (Elt F) ((slotM 0 1 inb_S8x4x512x256_S1x1x512x256_0_1_0_0 : Memref sig .tc .vmem S512x256 .bf16).view.loc (c : Thread nD τ)), (slotM 0 1 inb_S8x4x512x256_S1x1x512x256_0_1_0_0 : Memref sig .tc .vmem S512x256 .bf16).view.loc (c : Thread nD τ) ↦[(slotM 0 1 inb_S8x4x512x256_S1x1x512x256_0_1_0_0 : Memref sig .tc .vmem S512x256 .bf16).view.set]{fullShare} f)
      ∗ (∃ f : Buf (Elt F) ((oblkM (rowOff c 3 0) (rowOff_inb c 3 0 (by decide)) : Memref sig .tc .vmem S512x256 .bf16).view.loc (c : Thread nD τ)), (oblkM (rowOff c 3 0) (rowOff_inb c 3 0 (by decide)) : Memref sig .tc .vmem S512x256 .bf16).view.loc (c : Thread nD τ) ↦[(oblkM (rowOff c 3 0) (rowOff_inb c 3 0 (by decide)) : Memref sig .tc .vmem S512x256 .bf16).view.set]{fullShare} f)
      ∗ reached ER (dcell (c) (csem cc0_scratch3 0 0 inb_S8x3_S1x1_0_0)) 0
      ∗ reached ER (dcell (c) (csem cc0_scratch5 0 0 inb_S8x3_S1x1_0_0)) 0)
      ∗ ((∃ f : Buf (Elt F) ((slotM 0 2 inb_S8x4x512x256_S1x1x512x256_0_2_0_0 : Memref sig .tc .vmem S512x256 .bf16).view.loc (c : Thread nD τ)), (slotM 0 2 inb_S8x4x512x256_S1x1x512x256_0_2_0_0 : Memref sig .tc .vmem S512x256 .bf16).view.loc (c : Thread nD τ) ↦[(slotM 0 2 inb_S8x4x512x256_S1x1x512x256_0_2_0_0 : Memref sig .tc .vmem S512x256 .bf16).view.set]{fullShare} f)
      ∗ (∃ f : Buf (Elt F) ((oblkM (rowOff c 2 0) (rowOff_inb c 2 0 (by decide)) : Memref sig .tc .vmem S512x256 .bf16).view.loc (c : Thread nD τ)), (oblkM (rowOff c 2 0) (rowOff_inb c 2 0 (by decide)) : Memref sig .tc .vmem S512x256 .bf16).view.loc (c : Thread nD τ) ↦[(oblkM (rowOff c 2 0) (rowOff_inb c 2 0 (by decide)) : Memref sig .tc .vmem S512x256 .bf16).view.set]{fullShare} f)
      ∗ reached ER (dcell (c) (csem cc0_scratch3 0 1 inb_S8x3_S1x1_0_1)) 0
      ∗ reached ER (dcell (c) (csem cc0_scratch5 0 1 inb_S8x3_S1x1_0_1)) 0)
      ∗ ((∃ f : Buf (Elt F) ((slotM 0 3 inb_S8x4x512x256_S1x1x512x256_0_3_0_0 : Memref sig .tc .vmem S512x256 .bf16).view.loc (c : Thread nD τ)), (slotM 0 3 inb_S8x4x512x256_S1x1x512x256_0_3_0_0 : Memref sig .tc .vmem S512x256 .bf16).view.loc (c : Thread nD τ) ↦[(slotM 0 3 inb_S8x4x512x256_S1x1x512x256_0_3_0_0 : Memref sig .tc .vmem S512x256 .bf16).view.set]{fullShare} f)
      ∗ (∃ f : Buf (Elt F) ((oblkM (rowOff c 1 0) (rowOff_inb c 1 0 (by decide)) : Memref sig .tc .vmem S512x256 .bf16).view.loc (c : Thread nD τ)), (oblkM (rowOff c 1 0) (rowOff_inb c 1 0 (by decide)) : Memref sig .tc .vmem S512x256 .bf16).view.loc (c : Thread nD τ) ↦[(oblkM (rowOff c 1 0) (rowOff_inb c 1 0 (by decide)) : Memref sig .tc .vmem S512x256 .bf16).view.set]{fullShare} f)
      ∗ reached ER (dcell (c) (csem cc0_scratch3 0 2 inb_S8x3_S1x1_0_2)) 0
      ∗ reached ER (dcell (c) (csem cc0_scratch5 0 2 inb_S8x3_S1x1_0_2)) 0)
      ∗ ((∃ f : Buf (Elt F) ((slotM 1 1 inb_S8x4x512x256_S1x1x512x256_1_1_0_0 : Memref sig .tc .vmem S512x256 .bf16).view.loc (c : Thread nD τ)), (slotM 1 1 inb_S8x4x512x256_S1x1x512x256_1_1_0_0 : Memref sig .tc .vmem S512x256 .bf16).view.loc (c : Thread nD τ) ↦[(slotM 1 1 inb_S8x4x512x256_S1x1x512x256_1_1_0_0 : Memref sig .tc .vmem S512x256 .bf16).view.set]{fullShare} f)
      ∗ (∃ f : Buf (Elt F) ((oblkM (rowOff c 3 1) (rowOff_inb c 3 1 (by decide)) : Memref sig .tc .vmem S512x256 .bf16).view.loc (c : Thread nD τ)), (oblkM (rowOff c 3 1) (rowOff_inb c 3 1 (by decide)) : Memref sig .tc .vmem S512x256 .bf16).view.loc (c : Thread nD τ) ↦[(oblkM (rowOff c 3 1) (rowOff_inb c 3 1 (by decide)) : Memref sig .tc .vmem S512x256 .bf16).view.set]{fullShare} f)
      ∗ reached ER (dcell (c) (csem cc0_scratch3 1 0 inb_S8x3_S1x1_1_0)) 0
      ∗ reached ER (dcell (c) (csem cc0_scratch5 1 0 inb_S8x3_S1x1_1_0)) 0)
      ∗ ((∃ f : Buf (Elt F) ((slotM 1 2 inb_S8x4x512x256_S1x1x512x256_1_2_0_0 : Memref sig .tc .vmem S512x256 .bf16).view.loc (c : Thread nD τ)), (slotM 1 2 inb_S8x4x512x256_S1x1x512x256_1_2_0_0 : Memref sig .tc .vmem S512x256 .bf16).view.loc (c : Thread nD τ) ↦[(slotM 1 2 inb_S8x4x512x256_S1x1x512x256_1_2_0_0 : Memref sig .tc .vmem S512x256 .bf16).view.set]{fullShare} f)
      ∗ (∃ f : Buf (Elt F) ((oblkM (rowOff c 2 1) (rowOff_inb c 2 1 (by decide)) : Memref sig .tc .vmem S512x256 .bf16).view.loc (c : Thread nD τ)), (oblkM (rowOff c 2 1) (rowOff_inb c 2 1 (by decide)) : Memref sig .tc .vmem S512x256 .bf16).view.loc (c : Thread nD τ) ↦[(oblkM (rowOff c 2 1) (rowOff_inb c 2 1 (by decide)) : Memref sig .tc .vmem S512x256 .bf16).view.set]{fullShare} f)
      ∗ reached ER (dcell (c) (csem cc0_scratch3 1 1 inb_S8x3_S1x1_1_1)) 0
      ∗ reached ER (dcell (c) (csem cc0_scratch5 1 1 inb_S8x3_S1x1_1_1)) 0)
      ∗ ((∃ f : Buf (Elt F) ((slotM 1 3 inb_S8x4x512x256_S1x1x512x256_1_3_0_0 : Memref sig .tc .vmem S512x256 .bf16).view.loc (c : Thread nD τ)), (slotM 1 3 inb_S8x4x512x256_S1x1x512x256_1_3_0_0 : Memref sig .tc .vmem S512x256 .bf16).view.loc (c : Thread nD τ) ↦[(slotM 1 3 inb_S8x4x512x256_S1x1x512x256_1_3_0_0 : Memref sig .tc .vmem S512x256 .bf16).view.set]{fullShare} f)
      ∗ (∃ f : Buf (Elt F) ((oblkM (rowOff c 1 1) (rowOff_inb c 1 1 (by decide)) : Memref sig .tc .vmem S512x256 .bf16).view.loc (c : Thread nD τ)), (oblkM (rowOff c 1 1) (rowOff_inb c 1 1 (by decide)) : Memref sig .tc .vmem S512x256 .bf16).view.loc (c : Thread nD τ) ↦[(oblkM (rowOff c 1 1) (rowOff_inb c 1 1 (by decide)) : Memref sig .tc .vmem S512x256 .bf16).view.set]{fullShare} f)
      ∗ reached ER (dcell (c) (csem cc0_scratch3 1 2 inb_S8x3_S1x1_1_2)) 0
      ∗ reached ER (dcell (c) (csem cc0_scratch5 1 2 inb_S8x3_S1x1_1_2)) 0)
      ∗ ((∃ f : Buf (Elt F) ((slotM 2 1 inb_S8x4x512x256_S1x1x512x256_2_1_0_0 : Memref sig .tc .vmem S512x256 .bf16).view.loc (c : Thread nD τ)), (slotM 2 1 inb_S8x4x512x256_S1x1x512x256_2_1_0_0 : Memref sig .tc .vmem S512x256 .bf16).view.loc (c : Thread nD τ) ↦[(slotM 2 1 inb_S8x4x512x256_S1x1x512x256_2_1_0_0 : Memref sig .tc .vmem S512x256 .bf16).view.set]{fullShare} f)
      ∗ (∃ f : Buf (Elt F) ((oblkM (rowOff c 3 2) (rowOff_inb c 3 2 (by decide)) : Memref sig .tc .vmem S512x256 .bf16).view.loc (c : Thread nD τ)), (oblkM (rowOff c 3 2) (rowOff_inb c 3 2 (by decide)) : Memref sig .tc .vmem S512x256 .bf16).view.loc (c : Thread nD τ) ↦[(oblkM (rowOff c 3 2) (rowOff_inb c 3 2 (by decide)) : Memref sig .tc .vmem S512x256 .bf16).view.set]{fullShare} f)
      ∗ reached ER (dcell (c) (csem cc0_scratch3 2 0 inb_S8x3_S1x1_2_0)) 0
      ∗ reached ER (dcell (c) (csem cc0_scratch5 2 0 inb_S8x3_S1x1_2_0)) 0)
      ∗ ((∃ f : Buf (Elt F) ((slotM 2 2 inb_S8x4x512x256_S1x1x512x256_2_2_0_0 : Memref sig .tc .vmem S512x256 .bf16).view.loc (c : Thread nD τ)), (slotM 2 2 inb_S8x4x512x256_S1x1x512x256_2_2_0_0 : Memref sig .tc .vmem S512x256 .bf16).view.loc (c : Thread nD τ) ↦[(slotM 2 2 inb_S8x4x512x256_S1x1x512x256_2_2_0_0 : Memref sig .tc .vmem S512x256 .bf16).view.set]{fullShare} f)
      ∗ (∃ f : Buf (Elt F) ((oblkM (rowOff c 2 2) (rowOff_inb c 2 2 (by decide)) : Memref sig .tc .vmem S512x256 .bf16).view.loc (c : Thread nD τ)), (oblkM (rowOff c 2 2) (rowOff_inb c 2 2 (by decide)) : Memref sig .tc .vmem S512x256 .bf16).view.loc (c : Thread nD τ) ↦[(oblkM (rowOff c 2 2) (rowOff_inb c 2 2 (by decide)) : Memref sig .tc .vmem S512x256 .bf16).view.set]{fullShare} f)
      ∗ reached ER (dcell (c) (csem cc0_scratch3 2 1 inb_S8x3_S1x1_2_1)) 0
      ∗ reached ER (dcell (c) (csem cc0_scratch5 2 1 inb_S8x3_S1x1_2_1)) 0)
      ∗ ((∃ f : Buf (Elt F) ((slotM 2 3 inb_S8x4x512x256_S1x1x512x256_2_3_0_0 : Memref sig .tc .vmem S512x256 .bf16).view.loc (c : Thread nD τ)), (slotM 2 3 inb_S8x4x512x256_S1x1x512x256_2_3_0_0 : Memref sig .tc .vmem S512x256 .bf16).view.loc (c : Thread nD τ) ↦[(slotM 2 3 inb_S8x4x512x256_S1x1x512x256_2_3_0_0 : Memref sig .tc .vmem S512x256 .bf16).view.set]{fullShare} f)
      ∗ (∃ f : Buf (Elt F) ((oblkM (rowOff c 1 2) (rowOff_inb c 1 2 (by decide)) : Memref sig .tc .vmem S512x256 .bf16).view.loc (c : Thread nD τ)), (oblkM (rowOff c 1 2) (rowOff_inb c 1 2 (by decide)) : Memref sig .tc .vmem S512x256 .bf16).view.loc (c : Thread nD τ) ↦[(oblkM (rowOff c 1 2) (rowOff_inb c 1 2 (by decide)) : Memref sig .tc .vmem S512x256 .bf16).view.set]{fullShare} f)
      ∗ reached ER (dcell (c) (csem cc0_scratch3 2 2 inb_S8x3_S1x1_2_2)) 0
      ∗ reached ER (dcell (c) (csem cc0_scratch5 2 2 inb_S8x3_S1x1_2_2)) 0)
      ∗ ((∃ f : Buf (Elt F) ((slotM 3 1 inb_S8x4x512x256_S1x1x512x256_3_1_0_0 : Memref sig .tc .vmem S512x256 .bf16).view.loc (c : Thread nD τ)), (slotM 3 1 inb_S8x4x512x256_S1x1x512x256_3_1_0_0 : Memref sig .tc .vmem S512x256 .bf16).view.loc (c : Thread nD τ) ↦[(slotM 3 1 inb_S8x4x512x256_S1x1x512x256_3_1_0_0 : Memref sig .tc .vmem S512x256 .bf16).view.set]{fullShare} f)
      ∗ (∃ f : Buf (Elt F) ((oblkM (rowOff c 3 3) (rowOff_inb c 3 3 (by decide)) : Memref sig .tc .vmem S512x256 .bf16).view.loc (c : Thread nD τ)), (oblkM (rowOff c 3 3) (rowOff_inb c 3 3 (by decide)) : Memref sig .tc .vmem S512x256 .bf16).view.loc (c : Thread nD τ) ↦[(oblkM (rowOff c 3 3) (rowOff_inb c 3 3 (by decide)) : Memref sig .tc .vmem S512x256 .bf16).view.set]{fullShare} f)
      ∗ reached ER (dcell (c) (csem cc0_scratch3 3 0 inb_S8x3_S1x1_3_0)) 0
      ∗ reached ER (dcell (c) (csem cc0_scratch5 3 0 inb_S8x3_S1x1_3_0)) 0)
      ∗ ((∃ f : Buf (Elt F) ((slotM 3 2 inb_S8x4x512x256_S1x1x512x256_3_2_0_0 : Memref sig .tc .vmem S512x256 .bf16).view.loc (c : Thread nD τ)), (slotM 3 2 inb_S8x4x512x256_S1x1x512x256_3_2_0_0 : Memref sig .tc .vmem S512x256 .bf16).view.loc (c : Thread nD τ) ↦[(slotM 3 2 inb_S8x4x512x256_S1x1x512x256_3_2_0_0 : Memref sig .tc .vmem S512x256 .bf16).view.set]{fullShare} f)
      ∗ (∃ f : Buf (Elt F) ((oblkM (rowOff c 2 3) (rowOff_inb c 2 3 (by decide)) : Memref sig .tc .vmem S512x256 .bf16).view.loc (c : Thread nD τ)), (oblkM (rowOff c 2 3) (rowOff_inb c 2 3 (by decide)) : Memref sig .tc .vmem S512x256 .bf16).view.loc (c : Thread nD τ) ↦[(oblkM (rowOff c 2 3) (rowOff_inb c 2 3 (by decide)) : Memref sig .tc .vmem S512x256 .bf16).view.set]{fullShare} f)
      ∗ reached ER (dcell (c) (csem cc0_scratch3 3 1 inb_S8x3_S1x1_3_1)) 0
      ∗ reached ER (dcell (c) (csem cc0_scratch5 3 1 inb_S8x3_S1x1_3_1)) 0)
      ∗ ((∃ f : Buf (Elt F) ((slotM 3 3 inb_S8x4x512x256_S1x1x512x256_3_3_0_0 : Memref sig .tc .vmem S512x256 .bf16).view.loc (c : Thread nD τ)), (slotM 3 3 inb_S8x4x512x256_S1x1x512x256_3_3_0_0 : Memref sig .tc .vmem S512x256 .bf16).view.loc (c : Thread nD τ) ↦[(slotM 3 3 inb_S8x4x512x256_S1x1x512x256_3_3_0_0 : Memref sig .tc .vmem S512x256 .bf16).view.set]{fullShare} f)
      ∗ (∃ f : Buf (Elt F) ((oblkM (rowOff c 1 3) (rowOff_inb c 1 3 (by decide)) : Memref sig .tc .vmem S512x256 .bf16).view.loc (c : Thread nD τ)), (oblkM (rowOff c 1 3) (rowOff_inb c 1 3 (by decide)) : Memref sig .tc .vmem S512x256 .bf16).view.loc (c : Thread nD τ) ↦[(oblkM (rowOff c 1 3) (rowOff_inb c 1 3 (by decide)) : Memref sig .tc .vmem S512x256 .bf16).view.set]{fullShare} f)
      ∗ reached ER (dcell (c) (csem cc0_scratch3 3 2 inb_S8x3_S1x1_3_2)) 0
      ∗ reached ER (dcell (c) (csem cc0_scratch5 3 2 inb_S8x3_S1x1_3_2)) 0)) : sProp 𝕄) := by
  rw [payload_bar]
  unfold barPay
  rw [bigSep_univ_eq_bigSepL ([(0, 0), (0, 1), (0, 2), (1, 0), (1, 1), (1, 2), (2, 0), (2, 1), (2, 2), (3, 0), (3, 1), (3, 2)] : List (Fin 4 × Fin 3)) (by decide) (by decide)]
  exact
    (sep_congr (barLeaf_congr _ (c) (nxt_prv c) _ 0 (by rfl) _ 0 (by rfl) _ (rowOff c 3 0) (rowOff_prv_pay c 0 0 (by decide) (by decide)) _ _ _ _ _ _ _ _)
    (sep_congr (barLeaf_congr _ (c) (nxt_prv c) _ 0 (by rfl) _ 1 (by rfl) _ (rowOff c 2 0) (rowOff_prv_pay c 0 1 (by decide) (by decide)) _ _ _ _ _ _ _ _)
    (sep_congr (barLeaf_congr _ (c) (nxt_prv c) _ 0 (by rfl) _ 2 (by rfl) _ (rowOff c 1 0) (rowOff_prv_pay c 0 2 (by decide) (by decide)) _ _ _ _ _ _ _ _)
    (sep_congr (barLeaf_congr _ (c) (nxt_prv c) _ 1 (by rfl) _ 0 (by rfl) _ (rowOff c 3 1) (rowOff_prv_pay c 1 0 (by decide) (by decide)) _ _ _ _ _ _ _ _)
    (sep_congr (barLeaf_congr _ (c) (nxt_prv c) _ 1 (by rfl) _ 1 (by rfl) _ (rowOff c 2 1) (rowOff_prv_pay c 1 1 (by decide) (by decide)) _ _ _ _ _ _ _ _)
    (sep_congr (barLeaf_congr _ (c) (nxt_prv c) _ 1 (by rfl) _ 2 (by rfl) _ (rowOff c 1 1) (rowOff_prv_pay c 1 2 (by decide) (by decide)) _ _ _ _ _ _ _ _)
    (sep_congr (barLeaf_congr _ (c) (nxt_prv c) _ 2 (by rfl) _ 0 (by rfl) _ (rowOff c 3 2) (rowOff_prv_pay c 2 0 (by decide) (by decide)) _ _ _ _ _ _ _ _)
    (sep_congr (barLeaf_congr _ (c) (nxt_prv c) _ 2 (by rfl) _ 1 (by rfl) _ (rowOff c 2 2) (rowOff_prv_pay c 2 1 (by decide) (by decide)) _ _ _ _ _ _ _ _)
    (sep_congr (barLeaf_congr _ (c) (nxt_prv c) _ 2 (by rfl) _ 2 (by rfl) _ (rowOff c 1 2) (rowOff_prv_pay c 2 2 (by decide) (by decide)) _ _ _ _ _ _ _ _)
    (sep_congr (barLeaf_congr _ (c) (nxt_prv c) _ 3 (by rfl) _ 0 (by rfl) _ (rowOff c 3 3) (rowOff_prv_pay c 3 0 (by decide) (by decide)) _ _ _ _ _ _ _ _)
    (sep_congr (barLeaf_congr _ (c) (nxt_prv c) _ 3 (by rfl) _ 1 (by rfl) _ (rowOff c 2 3) (rowOff_prv_pay c 3 1 (by decide) (by decide)) _ _ _ _ _ _ _ _)
    (barLeaf_congr _ (c) (nxt_prv c) _ 3 (by rfl) _ 2 (by rfl) _ (rowOff c 1 3) (rowOff_prv_pay c 3 2 (by decide) (by decide)) _ _ _ _ _ _ _ _))))))))))))

/-- The unit this device pays into its neighbour's barrier cell, in this device's terms. -/
theorem payload_bar_nxt_false_lit :
    (ringRd fa fb).payload (barCell (nxt c)) 0 false =
      (iprop(((∃ f : Buf (Elt F) ((slotM 4 1 inb_S8x4x512x256_S1x1x512x256_4_1_0_0 : Memref sig .tc .vmem S512x256 .bf16).view.loc (c : Thread nD τ)), (slotM 4 1 inb_S8x4x512x256_S1x1x512x256_4_1_0_0 : Memref sig .tc .vmem S512x256 .bf16).view.loc (c : Thread nD τ) ↦[(slotM 4 1 inb_S8x4x512x256_S1x1x512x256_4_1_0_0 : Memref sig .tc .vmem S512x256 .bf16).view.set]{fullShare} f)
      ∗ (∃ f : Buf (Elt F) ((oblkM (rowOff c 1 4) (rowOff_inb c 1 4 (by decide)) : Memref sig .tc .vmem S512x256 .bf16).view.loc (c : Thread nD τ)), (oblkM (rowOff c 1 4) (rowOff_inb c 1 4 (by decide)) : Memref sig .tc .vmem S512x256 .bf16).view.loc (c : Thread nD τ) ↦[(oblkM (rowOff c 1 4) (rowOff_inb c 1 4 (by decide)) : Memref sig .tc .vmem S512x256 .bf16).view.set]{fullShare} f)
      ∗ reached ER (dcell (c) (csem cc0_scratch3 4 0 inb_S8x3_S1x1_4_0)) 0
      ∗ reached ER (dcell (c) (csem cc0_scratch5 4 0 inb_S8x3_S1x1_4_0)) 0)
      ∗ ((∃ f : Buf (Elt F) ((slotM 4 2 inb_S8x4x512x256_S1x1x512x256_4_2_0_0 : Memref sig .tc .vmem S512x256 .bf16).view.loc (c : Thread nD τ)), (slotM 4 2 inb_S8x4x512x256_S1x1x512x256_4_2_0_0 : Memref sig .tc .vmem S512x256 .bf16).view.loc (c : Thread nD τ) ↦[(slotM 4 2 inb_S8x4x512x256_S1x1x512x256_4_2_0_0 : Memref sig .tc .vmem S512x256 .bf16).view.set]{fullShare} f)
      ∗ (∃ f : Buf (Elt F) ((oblkM (rowOff c 2 4) (rowOff_inb c 2 4 (by decide)) : Memref sig .tc .vmem S512x256 .bf16).view.loc (c : Thread nD τ)), (oblkM (rowOff c 2 4) (rowOff_inb c 2 4 (by decide)) : Memref sig .tc .vmem S512x256 .bf16).view.loc (c : Thread nD τ) ↦[(oblkM (rowOff c 2 4) (rowOff_inb c 2 4 (by decide)) : Memref sig .tc .vmem S512x256 .bf16).view.set]{fullShare} f)
      ∗ reached ER (dcell (c) (csem cc0_scratch3 4 1 inb_S8x3_S1x1_4_1)) 0
      ∗ reached ER (dcell (c) (csem cc0_scratch5 4 1 inb_S8x3_S1x1_4_1)) 0)
      ∗ ((∃ f : Buf (Elt F) ((slotM 4 3 inb_S8x4x512x256_S1x1x512x256_4_3_0_0 : Memref sig .tc .vmem S512x256 .bf16).view.loc (c : Thread nD τ)), (slotM 4 3 inb_S8x4x512x256_S1x1x512x256_4_3_0_0 : Memref sig .tc .vmem S512x256 .bf16).view.loc (c : Thread nD τ) ↦[(slotM 4 3 inb_S8x4x512x256_S1x1x512x256_4_3_0_0 : Memref sig .tc .vmem S512x256 .bf16).view.set]{fullShare} f)
      ∗ (∃ f : Buf (Elt F) ((oblkM (rowOff c 3 4) (rowOff_inb c 3 4 (by decide)) : Memref sig .tc .vmem S512x256 .bf16).view.loc (c : Thread nD τ)), (oblkM (rowOff c 3 4) (rowOff_inb c 3 4 (by decide)) : Memref sig .tc .vmem S512x256 .bf16).view.loc (c : Thread nD τ) ↦[(oblkM (rowOff c 3 4) (rowOff_inb c 3 4 (by decide)) : Memref sig .tc .vmem S512x256 .bf16).view.set]{fullShare} f)
      ∗ reached ER (dcell (c) (csem cc0_scratch3 4 2 inb_S8x3_S1x1_4_2)) 0
      ∗ reached ER (dcell (c) (csem cc0_scratch5 4 2 inb_S8x3_S1x1_4_2)) 0)
      ∗ ((∃ f : Buf (Elt F) ((slotM 5 1 inb_S8x4x512x256_S1x1x512x256_5_1_0_0 : Memref sig .tc .vmem S512x256 .bf16).view.loc (c : Thread nD τ)), (slotM 5 1 inb_S8x4x512x256_S1x1x512x256_5_1_0_0 : Memref sig .tc .vmem S512x256 .bf16).view.loc (c : Thread nD τ) ↦[(slotM 5 1 inb_S8x4x512x256_S1x1x512x256_5_1_0_0 : Memref sig .tc .vmem S512x256 .bf16).view.set]{fullShare} f)
      ∗ (∃ f : Buf (Elt F) ((oblkM (rowOff c 1 5) (rowOff_inb c 1 5 (by decide)) : Memref sig .tc .vmem S512x256 .bf16).view.loc (c : Thread nD τ)), (oblkM (rowOff c 1 5) (rowOff_inb c 1 5 (by decide)) : Memref sig .tc .vmem S512x256 .bf16).view.loc (c : Thread nD τ) ↦[(oblkM (rowOff c 1 5) (rowOff_inb c 1 5 (by decide)) : Memref sig .tc .vmem S512x256 .bf16).view.set]{fullShare} f)
      ∗ reached ER (dcell (c) (csem cc0_scratch3 5 0 inb_S8x3_S1x1_5_0)) 0
      ∗ reached ER (dcell (c) (csem cc0_scratch5 5 0 inb_S8x3_S1x1_5_0)) 0)
      ∗ ((∃ f : Buf (Elt F) ((slotM 5 2 inb_S8x4x512x256_S1x1x512x256_5_2_0_0 : Memref sig .tc .vmem S512x256 .bf16).view.loc (c : Thread nD τ)), (slotM 5 2 inb_S8x4x512x256_S1x1x512x256_5_2_0_0 : Memref sig .tc .vmem S512x256 .bf16).view.loc (c : Thread nD τ) ↦[(slotM 5 2 inb_S8x4x512x256_S1x1x512x256_5_2_0_0 : Memref sig .tc .vmem S512x256 .bf16).view.set]{fullShare} f)
      ∗ (∃ f : Buf (Elt F) ((oblkM (rowOff c 2 5) (rowOff_inb c 2 5 (by decide)) : Memref sig .tc .vmem S512x256 .bf16).view.loc (c : Thread nD τ)), (oblkM (rowOff c 2 5) (rowOff_inb c 2 5 (by decide)) : Memref sig .tc .vmem S512x256 .bf16).view.loc (c : Thread nD τ) ↦[(oblkM (rowOff c 2 5) (rowOff_inb c 2 5 (by decide)) : Memref sig .tc .vmem S512x256 .bf16).view.set]{fullShare} f)
      ∗ reached ER (dcell (c) (csem cc0_scratch3 5 1 inb_S8x3_S1x1_5_1)) 0
      ∗ reached ER (dcell (c) (csem cc0_scratch5 5 1 inb_S8x3_S1x1_5_1)) 0)
      ∗ ((∃ f : Buf (Elt F) ((slotM 5 3 inb_S8x4x512x256_S1x1x512x256_5_3_0_0 : Memref sig .tc .vmem S512x256 .bf16).view.loc (c : Thread nD τ)), (slotM 5 3 inb_S8x4x512x256_S1x1x512x256_5_3_0_0 : Memref sig .tc .vmem S512x256 .bf16).view.loc (c : Thread nD τ) ↦[(slotM 5 3 inb_S8x4x512x256_S1x1x512x256_5_3_0_0 : Memref sig .tc .vmem S512x256 .bf16).view.set]{fullShare} f)
      ∗ (∃ f : Buf (Elt F) ((oblkM (rowOff c 3 5) (rowOff_inb c 3 5 (by decide)) : Memref sig .tc .vmem S512x256 .bf16).view.loc (c : Thread nD τ)), (oblkM (rowOff c 3 5) (rowOff_inb c 3 5 (by decide)) : Memref sig .tc .vmem S512x256 .bf16).view.loc (c : Thread nD τ) ↦[(oblkM (rowOff c 3 5) (rowOff_inb c 3 5 (by decide)) : Memref sig .tc .vmem S512x256 .bf16).view.set]{fullShare} f)
      ∗ reached ER (dcell (c) (csem cc0_scratch3 5 2 inb_S8x3_S1x1_5_2)) 0
      ∗ reached ER (dcell (c) (csem cc0_scratch5 5 2 inb_S8x3_S1x1_5_2)) 0)
      ∗ ((∃ f : Buf (Elt F) ((slotM 6 1 inb_S8x4x512x256_S1x1x512x256_6_1_0_0 : Memref sig .tc .vmem S512x256 .bf16).view.loc (c : Thread nD τ)), (slotM 6 1 inb_S8x4x512x256_S1x1x512x256_6_1_0_0 : Memref sig .tc .vmem S512x256 .bf16).view.loc (c : Thread nD τ) ↦[(slotM 6 1 inb_S8x4x512x256_S1x1x512x256_6_1_0_0 : Memref sig .tc .vmem S512x256 .bf16).view.set]{fullShare} f)
      ∗ (∃ f : Buf (Elt F) ((oblkM (rowOff c 1 6) (rowOff_inb c 1 6 (by decide)) : Memref sig .tc .vmem S512x256 .bf16).view.loc (c : Thread nD τ)), (oblkM (rowOff c 1 6) (rowOff_inb c 1 6 (by decide)) : Memref sig .tc .vmem S512x256 .bf16).view.loc (c : Thread nD τ) ↦[(oblkM (rowOff c 1 6) (rowOff_inb c 1 6 (by decide)) : Memref sig .tc .vmem S512x256 .bf16).view.set]{fullShare} f)
      ∗ reached ER (dcell (c) (csem cc0_scratch3 6 0 inb_S8x3_S1x1_6_0)) 0
      ∗ reached ER (dcell (c) (csem cc0_scratch5 6 0 inb_S8x3_S1x1_6_0)) 0)
      ∗ ((∃ f : Buf (Elt F) ((slotM 6 2 inb_S8x4x512x256_S1x1x512x256_6_2_0_0 : Memref sig .tc .vmem S512x256 .bf16).view.loc (c : Thread nD τ)), (slotM 6 2 inb_S8x4x512x256_S1x1x512x256_6_2_0_0 : Memref sig .tc .vmem S512x256 .bf16).view.loc (c : Thread nD τ) ↦[(slotM 6 2 inb_S8x4x512x256_S1x1x512x256_6_2_0_0 : Memref sig .tc .vmem S512x256 .bf16).view.set]{fullShare} f)
      ∗ (∃ f : Buf (Elt F) ((oblkM (rowOff c 2 6) (rowOff_inb c 2 6 (by decide)) : Memref sig .tc .vmem S512x256 .bf16).view.loc (c : Thread nD τ)), (oblkM (rowOff c 2 6) (rowOff_inb c 2 6 (by decide)) : Memref sig .tc .vmem S512x256 .bf16).view.loc (c : Thread nD τ) ↦[(oblkM (rowOff c 2 6) (rowOff_inb c 2 6 (by decide)) : Memref sig .tc .vmem S512x256 .bf16).view.set]{fullShare} f)
      ∗ reached ER (dcell (c) (csem cc0_scratch3 6 1 inb_S8x3_S1x1_6_1)) 0
      ∗ reached ER (dcell (c) (csem cc0_scratch5 6 1 inb_S8x3_S1x1_6_1)) 0)
      ∗ ((∃ f : Buf (Elt F) ((slotM 6 3 inb_S8x4x512x256_S1x1x512x256_6_3_0_0 : Memref sig .tc .vmem S512x256 .bf16).view.loc (c : Thread nD τ)), (slotM 6 3 inb_S8x4x512x256_S1x1x512x256_6_3_0_0 : Memref sig .tc .vmem S512x256 .bf16).view.loc (c : Thread nD τ) ↦[(slotM 6 3 inb_S8x4x512x256_S1x1x512x256_6_3_0_0 : Memref sig .tc .vmem S512x256 .bf16).view.set]{fullShare} f)
      ∗ (∃ f : Buf (Elt F) ((oblkM (rowOff c 3 6) (rowOff_inb c 3 6 (by decide)) : Memref sig .tc .vmem S512x256 .bf16).view.loc (c : Thread nD τ)), (oblkM (rowOff c 3 6) (rowOff_inb c 3 6 (by decide)) : Memref sig .tc .vmem S512x256 .bf16).view.loc (c : Thread nD τ) ↦[(oblkM (rowOff c 3 6) (rowOff_inb c 3 6 (by decide)) : Memref sig .tc .vmem S512x256 .bf16).view.set]{fullShare} f)
      ∗ reached ER (dcell (c) (csem cc0_scratch3 6 2 inb_S8x3_S1x1_6_2)) 0
      ∗ reached ER (dcell (c) (csem cc0_scratch5 6 2 inb_S8x3_S1x1_6_2)) 0)
      ∗ ((∃ f : Buf (Elt F) ((slotM 7 1 inb_S8x4x512x256_S1x1x512x256_7_1_0_0 : Memref sig .tc .vmem S512x256 .bf16).view.loc (c : Thread nD τ)), (slotM 7 1 inb_S8x4x512x256_S1x1x512x256_7_1_0_0 : Memref sig .tc .vmem S512x256 .bf16).view.loc (c : Thread nD τ) ↦[(slotM 7 1 inb_S8x4x512x256_S1x1x512x256_7_1_0_0 : Memref sig .tc .vmem S512x256 .bf16).view.set]{fullShare} f)
      ∗ (∃ f : Buf (Elt F) ((oblkM (rowOff c 1 7) (rowOff_inb c 1 7 (by decide)) : Memref sig .tc .vmem S512x256 .bf16).view.loc (c : Thread nD τ)), (oblkM (rowOff c 1 7) (rowOff_inb c 1 7 (by decide)) : Memref sig .tc .vmem S512x256 .bf16).view.loc (c : Thread nD τ) ↦[(oblkM (rowOff c 1 7) (rowOff_inb c 1 7 (by decide)) : Memref sig .tc .vmem S512x256 .bf16).view.set]{fullShare} f)
      ∗ reached ER (dcell (c) (csem cc0_scratch3 7 0 inb_S8x3_S1x1_7_0)) 0
      ∗ reached ER (dcell (c) (csem cc0_scratch5 7 0 inb_S8x3_S1x1_7_0)) 0)
      ∗ ((∃ f : Buf (Elt F) ((slotM 7 2 inb_S8x4x512x256_S1x1x512x256_7_2_0_0 : Memref sig .tc .vmem S512x256 .bf16).view.loc (c : Thread nD τ)), (slotM 7 2 inb_S8x4x512x256_S1x1x512x256_7_2_0_0 : Memref sig .tc .vmem S512x256 .bf16).view.loc (c : Thread nD τ) ↦[(slotM 7 2 inb_S8x4x512x256_S1x1x512x256_7_2_0_0 : Memref sig .tc .vmem S512x256 .bf16).view.set]{fullShare} f)
      ∗ (∃ f : Buf (Elt F) ((oblkM (rowOff c 2 7) (rowOff_inb c 2 7 (by decide)) : Memref sig .tc .vmem S512x256 .bf16).view.loc (c : Thread nD τ)), (oblkM (rowOff c 2 7) (rowOff_inb c 2 7 (by decide)) : Memref sig .tc .vmem S512x256 .bf16).view.loc (c : Thread nD τ) ↦[(oblkM (rowOff c 2 7) (rowOff_inb c 2 7 (by decide)) : Memref sig .tc .vmem S512x256 .bf16).view.set]{fullShare} f)
      ∗ reached ER (dcell (c) (csem cc0_scratch3 7 1 inb_S8x3_S1x1_7_1)) 0
      ∗ reached ER (dcell (c) (csem cc0_scratch5 7 1 inb_S8x3_S1x1_7_1)) 0)
      ∗ ((∃ f : Buf (Elt F) ((slotM 7 3 inb_S8x4x512x256_S1x1x512x256_7_3_0_0 : Memref sig .tc .vmem S512x256 .bf16).view.loc (c : Thread nD τ)), (slotM 7 3 inb_S8x4x512x256_S1x1x512x256_7_3_0_0 : Memref sig .tc .vmem S512x256 .bf16).view.loc (c : Thread nD τ) ↦[(slotM 7 3 inb_S8x4x512x256_S1x1x512x256_7_3_0_0 : Memref sig .tc .vmem S512x256 .bf16).view.set]{fullShare} f)
      ∗ (∃ f : Buf (Elt F) ((oblkM (rowOff c 3 7) (rowOff_inb c 3 7 (by decide)) : Memref sig .tc .vmem S512x256 .bf16).view.loc (c : Thread nD τ)), (oblkM (rowOff c 3 7) (rowOff_inb c 3 7 (by decide)) : Memref sig .tc .vmem S512x256 .bf16).view.loc (c : Thread nD τ) ↦[(oblkM (rowOff c 3 7) (rowOff_inb c 3 7 (by decide)) : Memref sig .tc .vmem S512x256 .bf16).view.set]{fullShare} f)
      ∗ reached ER (dcell (c) (csem cc0_scratch3 7 2 inb_S8x3_S1x1_7_2)) 0
      ∗ reached ER (dcell (c) (csem cc0_scratch5 7 2 inb_S8x3_S1x1_7_2)) 0)) : sProp 𝕄) := by
  rw [payload_bar]
  unfold barPay
  rw [bigSep_univ_eq_bigSepL ([(0, 0), (0, 1), (0, 2), (1, 0), (1, 1), (1, 2), (2, 0), (2, 1), (2, 2), (3, 0), (3, 1), (3, 2)] : List (Fin 4 × Fin 3)) (by decide) (by decide)]
  exact
    (sep_congr (barLeaf_congr _ (c) (prv_nxt c) _ 4 (by rfl) _ 0 (by rfl) _ (rowOff c 1 4) (rowOff_nxt_pay c 4 0 (by decide) (by decide)) _ _ _ _ _ _ _ _)
    (sep_congr (barLeaf_congr _ (c) (prv_nxt c) _ 4 (by rfl) _ 1 (by rfl) _ (rowOff c 2 4) (rowOff_nxt_pay c 4 1 (by decide) (by decide)) _ _ _ _ _ _ _ _)
    (sep_congr (barLeaf_congr _ (c) (prv_nxt c) _ 4 (by rfl) _ 2 (by rfl) _ (rowOff c 3 4) (rowOff_nxt_pay c 4 2 (by decide) (by decide)) _ _ _ _ _ _ _ _)
    (sep_congr (barLeaf_congr _ (c) (prv_nxt c) _ 5 (by rfl) _ 0 (by rfl) _ (rowOff c 1 5) (rowOff_nxt_pay c 5 0 (by decide) (by decide)) _ _ _ _ _ _ _ _)
    (sep_congr (barLeaf_congr _ (c) (prv_nxt c) _ 5 (by rfl) _ 1 (by rfl) _ (rowOff c 2 5) (rowOff_nxt_pay c 5 1 (by decide) (by decide)) _ _ _ _ _ _ _ _)
    (sep_congr (barLeaf_congr _ (c) (prv_nxt c) _ 5 (by rfl) _ 2 (by rfl) _ (rowOff c 3 5) (rowOff_nxt_pay c 5 2 (by decide) (by decide)) _ _ _ _ _ _ _ _)
    (sep_congr (barLeaf_congr _ (c) (prv_nxt c) _ 6 (by rfl) _ 0 (by rfl) _ (rowOff c 1 6) (rowOff_nxt_pay c 6 0 (by decide) (by decide)) _ _ _ _ _ _ _ _)
    (sep_congr (barLeaf_congr _ (c) (prv_nxt c) _ 6 (by rfl) _ 1 (by rfl) _ (rowOff c 2 6) (rowOff_nxt_pay c 6 1 (by decide) (by decide)) _ _ _ _ _ _ _ _)
    (sep_congr (barLeaf_congr _ (c) (prv_nxt c) _ 6 (by rfl) _ 2 (by rfl) _ (rowOff c 3 6) (rowOff_nxt_pay c 6 2 (by decide) (by decide)) _ _ _ _ _ _ _ _)
    (sep_congr (barLeaf_congr _ (c) (prv_nxt c) _ 7 (by rfl) _ 0 (by rfl) _ (rowOff c 1 7) (rowOff_nxt_pay c 7 0 (by decide) (by decide)) _ _ _ _ _ _ _ _)
    (sep_congr (barLeaf_congr _ (c) (prv_nxt c) _ 7 (by rfl) _ 1 (by rfl) _ (rowOff c 2 7) (rowOff_nxt_pay c 7 1 (by decide) (by decide)) _ _ _ _ _ _ _ _)
    (barLeaf_congr _ (c) (prv_nxt c) _ 7 (by rfl) _ 2 (by rfl) _ (rowOff c 3 7) (rowOff_nxt_pay c 7 2 (by decide) (by decide)) _ _ _ _ _ _ _ _))))))))))))

end Lit

end Cert.Kernel.P

end
-- ==== Proof.KSepFlat.lean ====
import proofs.«900901_g7700000000000902_dist_matmul_silu_kshard_i_m2048_n2048_k1024_v7x_i4_bf16_1_alg».proof.Proof.KProto

/-!
Separating conjunction is associative as an equation between assertions: a chain of groups of assertions is the
chain of their members.
-/

noncomputable section

namespace Cert.Kernel.P

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.Sem

variable {F : FTy → Type} [FloatOps F]

local notation "𝕄" => MT nD τ sig Unit (Elt F) ℕ UU ℕ

theorem sep_assoc_eq (P Q R : sProp 𝕄) : iprop((P ∗ Q) ∗ R) = iprop(P ∗ Q ∗ R) :=
  equiv_iff.mp ⟨Idealize.SL.BI.sep_assoc, Idealize.SL.BI.sep_assoc'⟩

end Cert.Kernel.P

end
-- ==== Proof.KTablesFlat.lean ====
import proofs.«900901_g7700000000000902_dist_matmul_silu_kshard_i_m2048_n2048_k1024_v7x_i4_bf16_1_alg».proof.Proof.KTablesLit
import proofs.«900901_g7700000000000902_dist_matmul_silu_kshard_i_m2048_n2048_k1024_v7x_i4_bf16_1_alg».proof.Proof.KSepFlat

/-!
The barrier cell's payloads at the literal cells of the program as one chain each: the four assertions of every chain
and step (the landing slot, the landing block, and that the two receive cells have reached round 0) are members of one
right-nested chain, by associativity.
-/

noncomputable section

namespace Cert.Kernel.P

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Flat
variable (fa : Dev nD → AT F) (fb : Dev nD → BT F) (c : Dev nD)

/-- What a wait on the barrier cell returns, leaf by leaf: the next device's 48, then the previous device's. -/
theorem rest_bar_flat :
    bigSep ((ringRd fa fb).duties (barCell c) 0 \ ∅) (fun d => (ringRd fa fb).payload (barCell c) 0 d) =
      (iprop((∃ f : Buf (Elt F) ((slotM 0 1 inb_S8x4x512x256_S1x1x512x256_0_1_0_0 : Memref sig .tc .vmem S512x256 .bf16).view.loc (nxt c : Thread nD τ)), (slotM 0 1 inb_S8x4x512x256_S1x1x512x256_0_1_0_0 : Memref sig .tc .vmem S512x256 .bf16).view.loc (nxt c : Thread nD τ) ↦[(slotM 0 1 inb_S8x4x512x256_S1x1x512x256_0_1_0_0 : Memref sig .tc .vmem S512x256 .bf16).view.set]{fullShare} f)
      ∗ (∃ f : Buf (Elt F) ((oblkM (k0_off3 c 0#32) (k0_off3_inb c 0) : Memref sig .tc .vmem S512x256 .bf16).view.loc (nxt c : Thread nD τ)), (oblkM (k0_off3 c 0#32) (k0_off3_inb c 0) : Memref sig .tc .vmem S512x256 .bf16).view.loc (nxt c : Thread nD τ) ↦[(oblkM (k0_off3 c 0#32) (k0_off3_inb c 0) : Memref sig .tc .vmem S512x256 .bf16).view.set]{fullShare} f)
      ∗ reached ER (dcell (nxt c) (csem cc0_scratch3 0 0 inb_S8x3_S1x1_0_0)) 0
      ∗ reached ER (dcell (nxt c) (csem cc0_scratch5 0 0 inb_S8x3_S1x1_0_0)) 0
      ∗ (∃ f : Buf (Elt F) ((slotM 0 2 inb_S8x4x512x256_S1x1x512x256_0_2_0_0 : Memref sig .tc .vmem S512x256 .bf16).view.loc (nxt c : Thread nD τ)), (slotM 0 2 inb_S8x4x512x256_S1x1x512x256_0_2_0_0 : Memref sig .tc .vmem S512x256 .bf16).view.loc (nxt c : Thread nD τ) ↦[(slotM 0 2 inb_S8x4x512x256_S1x1x512x256_0_2_0_0 : Memref sig .tc .vmem S512x256 .bf16).view.set]{fullShare} f)
      ∗ (∃ f : Buf (Elt F) ((oblkM (k0_off3 c 1#32) (k0_off3_inb c 1) : Memref sig .tc .vmem S512x256 .bf16).view.loc (nxt c : Thread nD τ)), (oblkM (k0_off3 c 1#32) (k0_off3_inb c 1) : Memref sig .tc .vmem S512x256 .bf16).view.loc (nxt c : Thread nD τ) ↦[(oblkM (k0_off3 c 1#32) (k0_off3_inb c 1) : Memref sig .tc .vmem S512x256 .bf16).view.set]{fullShare} f)
      ∗ reached ER (dcell (nxt c) (csem cc0_scratch3 0 1 inb_S8x3_S1x1_0_1)) 0
      ∗ reached ER (dcell (nxt c) (csem cc0_scratch5 0 1 inb_S8x3_S1x1_0_1)) 0
      ∗ (∃ f : Buf (Elt F) ((slotM 0 3 inb_S8x4x512x256_S1x1x512x256_0_3_0_0 : Memref sig .tc .vmem S512x256 .bf16).view.loc (nxt c : Thread nD τ)), (slotM 0 3 inb_S8x4x512x256_S1x1x512x256_0_3_0_0 : Memref sig .tc .vmem S512x256 .bf16).view.loc (nxt c : Thread nD τ) ↦[(slotM 0 3 inb_S8x4x512x256_S1x1x512x256_0_3_0_0 : Memref sig .tc .vmem S512x256 .bf16).view.set]{fullShare} f)
      ∗ (∃ f : Buf (Elt F) ((oblkM (k0_off3 c 2#32) (k0_off3_inb c 2) : Memref sig .tc .vmem S512x256 .bf16).view.loc (nxt c : Thread nD τ)), (oblkM (k0_off3 c 2#32) (k0_off3_inb c 2) : Memref sig .tc .vmem S512x256 .bf16).view.loc (nxt c : Thread nD τ) ↦[(oblkM (k0_off3 c 2#32) (k0_off3_inb c 2) : Memref sig .tc .vmem S512x256 .bf16).view.set]{fullShare} f)
      ∗ reached ER (dcell (nxt c) (csem cc0_scratch3 0 2 inb_S8x3_S1x1_0_2)) 0
      ∗ reached ER (dcell (nxt c) (csem cc0_scratch5 0 2 inb_S8x3_S1x1_0_2)) 0
      ∗ (∃ f : Buf (Elt F) ((slotM 1 1 inb_S8x4x512x256_S1x1x512x256_1_1_0_0 : Memref sig .tc .vmem S512x256 .bf16).view.loc (nxt c : Thread nD τ)), (slotM 1 1 inb_S8x4x512x256_S1x1x512x256_1_1_0_0 : Memref sig .tc .vmem S512x256 .bf16).view.loc (nxt c : Thread nD τ) ↦[(slotM 1 1 inb_S8x4x512x256_S1x1x512x256_1_1_0_0 : Memref sig .tc .vmem S512x256 .bf16).view.set]{fullShare} f)
      ∗ (∃ f : Buf (Elt F) ((oblkM (k0_off7 c 0#32) (k0_off7_inb c 0) : Memref sig .tc .vmem S512x256 .bf16).view.loc (nxt c : Thread nD τ)), (oblkM (k0_off7 c 0#32) (k0_off7_inb c 0) : Memref sig .tc .vmem S512x256 .bf16).view.loc (nxt c : Thread nD τ) ↦[(oblkM (k0_off7 c 0#32) (k0_off7_inb c 0) : Memref sig .tc .vmem S512x256 .bf16).view.set]{fullShare} f)
      ∗ reached ER (dcell (nxt c) (csem cc0_scratch3 1 0 inb_S8x3_S1x1_1_0)) 0
      ∗ reached ER (dcell (nxt c) (csem cc0_scratch5 1 0 inb_S8x3_S1x1_1_0)) 0
      ∗ (∃ f : Buf (Elt F) ((slotM 1 2 inb_S8x4x512x256_S1x1x512x256_1_2_0_0 : Memref sig .tc .vmem S512x256 .bf16).view.loc (nxt c : Thread nD τ)), (slotM 1 2 inb_S8x4x512x256_S1x1x512x256_1_2_0_0 : Memref sig .tc .vmem S512x256 .bf16).view.loc (nxt c : Thread nD τ) ↦[(slotM 1 2 inb_S8x4x512x256_S1x1x512x256_1_2_0_0 : Memref sig .tc .vmem S512x256 .bf16).view.set]{fullShare} f)
      ∗ (∃ f : Buf (Elt F) ((oblkM (k0_off7 c 1#32) (k0_off7_inb c 1) : Memref sig .tc .vmem S512x256 .bf16).view.loc (nxt c : Thread nD τ)), (oblkM (k0_off7 c 1#32) (k0_off7_inb c 1) : Memref sig .tc .vmem S512x256 .bf16).view.loc (nxt c : Thread nD τ) ↦[(oblkM (k0_off7 c 1#32) (k0_off7_inb c 1) : Memref sig .tc .vmem S512x256 .bf16).view.set]{fullShare} f)
      ∗ reached ER (dcell (nxt c) (csem cc0_scratch3 1 1 inb_S8x3_S1x1_1_1)) 0
      ∗ reached ER (dcell (nxt c) (csem cc0_scratch5 1 1 inb_S8x3_S1x1_1_1)) 0
      ∗ (∃ f : Buf (Elt F) ((slotM 1 3 inb_S8x4x512x256_S1x1x512x256_1_3_0_0 : Memref sig .tc .vmem S512x256 .bf16).view.loc (nxt c : Thread nD τ)), (slotM 1 3 inb_S8x4x512x256_S1x1x512x256_1_3_0_0 : Memref sig .tc .vmem S512x256 .bf16).view.loc (nxt c : Thread nD τ) ↦[(slotM 1 3 inb_S8x4x512x256_S1x1x512x256_1_3_0_0 : Memref sig .tc .vmem S512x256 .bf16).view.set]{fullShare} f)
      ∗ (∃ f : Buf (Elt F) ((oblkM (k0_off7 c 2#32) (k0_off7_inb c 2) : Memref sig .tc .vmem S512x256 .bf16).view.loc (nxt c : Thread nD τ)), (oblkM (k0_off7 c 2#32) (k0_off7_inb c 2) : Memref sig .tc .vmem S512x256 .bf16).view.loc (nxt c : Thread nD τ) ↦[(oblkM (k0_off7 c 2#32) (k0_off7_inb c 2) : Memref sig .tc .vmem S512x256 .bf16).view.set]{fullShare} f)
      ∗ reached ER (dcell (nxt c) (csem cc0_scratch3 1 2 inb_S8x3_S1x1_1_2)) 0
      ∗ reached ER (dcell (nxt c) (csem cc0_scratch5 1 2 inb_S8x3_S1x1_1_2)) 0
      ∗ (∃ f : Buf (Elt F) ((slotM 2 1 inb_S8x4x512x256_S1x1x512x256_2_1_0_0 : Memref sig .tc .vmem S512x256 .bf16).view.loc (nxt c : Thread nD τ)), (slotM 2 1 inb_S8x4x512x256_S1x1x512x256_2_1_0_0 : Memref sig .tc .vmem S512x256 .bf16).view.loc (nxt c : Thread nD τ) ↦[(slotM 2 1 inb_S8x4x512x256_S1x1x512x256_2_1_0_0 : Memref sig .tc .vmem S512x256 .bf16).view.set]{fullShare} f)
      ∗ (∃ f : Buf (Elt F) ((oblkM (k0_off11 c 0#32) (k0_off11_inb c 0) : Memref sig .tc .vmem S512x256 .bf16).view.loc (nxt c : Thread nD τ)), (oblkM (k0_off11 c 0#32) (k0_off11_inb c 0) : Memref sig .tc .vmem S512x256 .bf16).view.loc (nxt c : Thread nD τ) ↦[(oblkM (k0_off11 c 0#32) (k0_off11_inb c 0) : Memref sig .tc .vmem S512x256 .bf16).view.set]{fullShare} f)
      ∗ reached ER (dcell (nxt c) (csem cc0_scratch3 2 0 inb_S8x3_S1x1_2_0)) 0
      ∗ reached ER (dcell (nxt c) (csem cc0_scratch5 2 0 inb_S8x3_S1x1_2_0)) 0
      ∗ (∃ f : Buf (Elt F) ((slotM 2 2 inb_S8x4x512x256_S1x1x512x256_2_2_0_0 : Memref sig .tc .vmem S512x256 .bf16).view.loc (nxt c : Thread nD τ)), (slotM 2 2 inb_S8x4x512x256_S1x1x512x256_2_2_0_0 : Memref sig .tc .vmem S512x256 .bf16).view.loc (nxt c : Thread nD τ) ↦[(slotM 2 2 inb_S8x4x512x256_S1x1x512x256_2_2_0_0 : Memref sig .tc .vmem S512x256 .bf16).view.set]{fullShare} f)
      ∗ (∃ f : Buf (Elt F) ((oblkM (k0_off11 c 1#32) (k0_off11_inb c 1) : Memref sig .tc .vmem S512x256 .bf16).view.loc (nxt c : Thread nD τ)), (oblkM (k0_off11 c 1#32) (k0_off11_inb c 1) : Memref sig .tc .vmem S512x256 .bf16).view.loc (nxt c : Thread nD τ) ↦[(oblkM (k0_off11 c 1#32) (k0_off11_inb c 1) : Memref sig .tc .vmem S512x256 .bf16).view.set]{fullShare} f)
      ∗ reached ER (dcell (nxt c) (csem cc0_scratch3 2 1 inb_S8x3_S1x1_2_1)) 0
      ∗ reached ER (dcell (nxt c) (csem cc0_scratch5 2 1 inb_S8x3_S1x1_2_1)) 0
      ∗ (∃ f : Buf (Elt F) ((slotM 2 3 inb_S8x4x512x256_S1x1x512x256_2_3_0_0 : Memref sig .tc .vmem S512x256 .bf16).view.loc (nxt c : Thread nD τ)), (slotM 2 3 inb_S8x4x512x256_S1x1x512x256_2_3_0_0 : Memref sig .tc .vmem S512x256 .bf16).view.loc (nxt c : Thread nD τ) ↦[(slotM 2 3 inb_S8x4x512x256_S1x1x512x256_2_3_0_0 : Memref sig .tc .vmem S512x256 .bf16).view.set]{fullShare} f)
      ∗ (∃ f : Buf (Elt F) ((oblkM (k0_off11 c 2#32) (k0_off11_inb c 2) : Memref sig .tc .vmem S512x256 .bf16).view.loc (nxt c : Thread nD τ)), (oblkM (k0_off11 c 2#32) (k0_off11_inb c 2) : Memref sig .tc .vmem S512x256 .bf16).view.loc (nxt c : Thread nD τ) ↦[(oblkM (k0_off11 c 2#32) (k0_off11_inb c 2) : Memref sig .tc .vmem S512x256 .bf16).view.set]{fullShare} f)
      ∗ reached ER (dcell (nxt c) (csem cc0_scratch3 2 2 inb_S8x3_S1x1_2_2)) 0
      ∗ reached ER (dcell (nxt c) (csem cc0_scratch5 2 2 inb_S8x3_S1x1_2_2)) 0
      ∗ (∃ f : Buf (Elt F) ((slotM 3 1 inb_S8x4x512x256_S1x1x512x256_3_1_0_0 : Memref sig .tc .vmem S512x256 .bf16).view.loc (nxt c : Thread nD τ)), (slotM 3 1 inb_S8x4x512x256_S1x1x512x256_3_1_0_0 : Memref sig .tc .vmem S512x256 .bf16).view.loc (nxt c : Thread nD τ) ↦[(slotM 3 1 inb_S8x4x512x256_S1x1x512x256_3_1_0_0 : Memref sig .tc .vmem S512x256 .bf16).view.set]{fullShare} f)
      ∗ (∃ f : Buf (Elt F) ((oblkM (k0_off15 c 0#32) (k0_off15_inb c 0) : Memref sig .tc .vmem S512x256 .bf16).view.loc (nxt c : Thread nD τ)), (oblkM (k0_off15 c 0#32) (k0_off15_inb c 0) : Memref sig .tc .vmem S512x256 .bf16).view.loc (nxt c : Thread nD τ) ↦[(oblkM (k0_off15 c 0#32) (k0_off15_inb c 0) : Memref sig .tc .vmem S512x256 .bf16).view.set]{fullShare} f)
      ∗ reached ER (dcell (nxt c) (csem cc0_scratch3 3 0 inb_S8x3_S1x1_3_0)) 0
      ∗ reached ER (dcell (nxt c) (csem cc0_scratch5 3 0 inb_S8x3_S1x1_3_0)) 0
      ∗ (∃ f : Buf (Elt F) ((slotM 3 2 inb_S8x4x512x256_S1x1x512x256_3_2_0_0 : Memref sig .tc .vmem S512x256 .bf16).view.loc (nxt c : Thread nD τ)), (slotM 3 2 inb_S8x4x512x256_S1x1x512x256_3_2_0_0 : Memref sig .tc .vmem S512x256 .bf16).view.loc (nxt c : Thread nD τ) ↦[(slotM 3 2 inb_S8x4x512x256_S1x1x512x256_3_2_0_0 : Memref sig .tc .vmem S512x256 .bf16).view.set]{fullShare} f)
      ∗ (∃ f : Buf (Elt F) ((oblkM (k0_off15 c 1#32) (k0_off15_inb c 1) : Memref sig .tc .vmem S512x256 .bf16).view.loc (nxt c : Thread nD τ)), (oblkM (k0_off15 c 1#32) (k0_off15_inb c 1) : Memref sig .tc .vmem S512x256 .bf16).view.loc (nxt c : Thread nD τ) ↦[(oblkM (k0_off15 c 1#32) (k0_off15_inb c 1) : Memref sig .tc .vmem S512x256 .bf16).view.set]{fullShare} f)
      ∗ reached ER (dcell (nxt c) (csem cc0_scratch3 3 1 inb_S8x3_S1x1_3_1)) 0
      ∗ reached ER (dcell (nxt c) (csem cc0_scratch5 3 1 inb_S8x3_S1x1_3_1)) 0
      ∗ (∃ f : Buf (Elt F) ((slotM 3 3 inb_S8x4x512x256_S1x1x512x256_3_3_0_0 : Memref sig .tc .vmem S512x256 .bf16).view.loc (nxt c : Thread nD τ)), (slotM 3 3 inb_S8x4x512x256_S1x1x512x256_3_3_0_0 : Memref sig .tc .vmem S512x256 .bf16).view.loc (nxt c : Thread nD τ) ↦[(slotM 3 3 inb_S8x4x512x256_S1x1x512x256_3_3_0_0 : Memref sig .tc .vmem S512x256 .bf16).view.set]{fullShare} f)
      ∗ (∃ f : Buf (Elt F) ((oblkM (k0_off15 c 2#32) (k0_off15_inb c 2) : Memref sig .tc .vmem S512x256 .bf16).view.loc (nxt c : Thread nD τ)), (oblkM (k0_off15 c 2#32) (k0_off15_inb c 2) : Memref sig .tc .vmem S512x256 .bf16).view.loc (nxt c : Thread nD τ) ↦[(oblkM (k0_off15 c 2#32) (k0_off15_inb c 2) : Memref sig .tc .vmem S512x256 .bf16).view.set]{fullShare} f)
      ∗ reached ER (dcell (nxt c) (csem cc0_scratch3 3 2 inb_S8x3_S1x1_3_2)) 0
      ∗ reached ER (dcell (nxt c) (csem cc0_scratch5 3 2 inb_S8x3_S1x1_3_2)) 0
      ∗ (∃ f : Buf (Elt F) ((slotM 4 1 inb_S8x4x512x256_S1x1x512x256_4_1_0_0 : Memref sig .tc .vmem S512x256 .bf16).view.loc (prv c : Thread nD τ)), (slotM 4 1 inb_S8x4x512x256_S1x1x512x256_4_1_0_0 : Memref sig .tc .vmem S512x256 .bf16).view.loc (prv c : Thread nD τ) ↦[(slotM 4 1 inb_S8x4x512x256_S1x1x512x256_4_1_0_0 : Memref sig .tc .vmem S512x256 .bf16).view.set]{fullShare} f)
      ∗ (∃ f : Buf (Elt F) ((oblkM (k0_off5 c 0#32) (k0_off5_inb c 0) : Memref sig .tc .vmem S512x256 .bf16).view.loc (prv c : Thread nD τ)), (oblkM (k0_off5 c 0#32) (k0_off5_inb c 0) : Memref sig .tc .vmem S512x256 .bf16).view.loc (prv c : Thread nD τ) ↦[(oblkM (k0_off5 c 0#32) (k0_off5_inb c 0) : Memref sig .tc .vmem S512x256 .bf16).view.set]{fullShare} f)
      ∗ reached ER (dcell (prv c) (csem cc0_scratch3 4 0 inb_S8x3_S1x1_4_0)) 0
      ∗ reached ER (dcell (prv c) (csem cc0_scratch5 4 0 inb_S8x3_S1x1_4_0)) 0
      ∗ (∃ f : Buf (Elt F) ((slotM 4 2 inb_S8x4x512x256_S1x1x512x256_4_2_0_0 : Memref sig .tc .vmem S512x256 .bf16).view.loc (prv c : Thread nD τ)), (slotM 4 2 inb_S8x4x512x256_S1x1x512x256_4_2_0_0 : Memref sig .tc .vmem S512x256 .bf16).view.loc (prv c : Thread nD τ) ↦[(slotM 4 2 inb_S8x4x512x256_S1x1x512x256_4_2_0_0 : Memref sig .tc .vmem S512x256 .bf16).view.set]{fullShare} f)
      ∗ (∃ f : Buf (Elt F) ((oblkM (k0_off5 c 4294967295#32) (k0_off5_inb c 1) : Memref sig .tc .vmem S512x256 .bf16).view.loc (prv c : Thread nD τ)), (oblkM (k0_off5 c 4294967295#32) (k0_off5_inb c 1) : Memref sig .tc .vmem S512x256 .bf16).view.loc (prv c : Thread nD τ) ↦[(oblkM (k0_off5 c 4294967295#32) (k0_off5_inb c 1) : Memref sig .tc .vmem S512x256 .bf16).view.set]{fullShare} f)
      ∗ reached ER (dcell (prv c) (csem cc0_scratch3 4 1 inb_S8x3_S1x1_4_1)) 0
      ∗ reached ER (dcell (prv c) (csem cc0_scratch5 4 1 inb_S8x3_S1x1_4_1)) 0
      ∗ (∃ f : Buf (Elt F) ((slotM 4 3 inb_S8x4x512x256_S1x1x512x256_4_3_0_0 : Memref sig .tc .vmem S512x256 .bf16).view.loc (prv c : Thread nD τ)), (slotM 4 3 inb_S8x4x512x256_S1x1x512x256_4_3_0_0 : Memref sig .tc .vmem S512x256 .bf16).view.loc (prv c : Thread nD τ) ↦[(slotM 4 3 inb_S8x4x512x256_S1x1x512x256_4_3_0_0 : Memref sig .tc .vmem S512x256 .bf16).view.set]{fullShare} f)
      ∗ (∃ f : Buf (Elt F) ((oblkM (k0_off5 c 4294967294#32) (k0_off5_inb c 2) : Memref sig .tc .vmem S512x256 .bf16).view.loc (prv c : Thread nD τ)), (oblkM (k0_off5 c 4294967294#32) (k0_off5_inb c 2) : Memref sig .tc .vmem S512x256 .bf16).view.loc (prv c : Thread nD τ) ↦[(oblkM (k0_off5 c 4294967294#32) (k0_off5_inb c 2) : Memref sig .tc .vmem S512x256 .bf16).view.set]{fullShare} f)
      ∗ reached ER (dcell (prv c) (csem cc0_scratch3 4 2 inb_S8x3_S1x1_4_2)) 0
      ∗ reached ER (dcell (prv c) (csem cc0_scratch5 4 2 inb_S8x3_S1x1_4_2)) 0
      ∗ (∃ f : Buf (Elt F) ((slotM 5 1 inb_S8x4x512x256_S1x1x512x256_5_1_0_0 : Memref sig .tc .vmem S512x256 .bf16).view.loc (prv c : Thread nD τ)), (slotM 5 1 inb_S8x4x512x256_S1x1x512x256_5_1_0_0 : Memref sig .tc .vmem S512x256 .bf16).view.loc (prv c : Thread nD τ) ↦[(slotM 5 1 inb_S8x4x512x256_S1x1x512x256_5_1_0_0 : Memref sig .tc .vmem S512x256 .bf16).view.set]{fullShare} f)
      ∗ (∃ f : Buf (Elt F) ((oblkM (k0_off9 c 0#32) (k0_off9_inb c 0) : Memref sig .tc .vmem S512x256 .bf16).view.loc (prv c : Thread nD τ)), (oblkM (k0_off9 c 0#32) (k0_off9_inb c 0) : Memref sig .tc .vmem S512x256 .bf16).view.loc (prv c : Thread nD τ) ↦[(oblkM (k0_off9 c 0#32) (k0_off9_inb c 0) : Memref sig .tc .vmem S512x256 .bf16).view.set]{fullShare} f)
      ∗ reached ER (dcell (prv c) (csem cc0_scratch3 5 0 inb_S8x3_S1x1_5_0)) 0
      ∗ reached ER (dcell (prv c) (csem cc0_scratch5 5 0 inb_S8x3_S1x1_5_0)) 0
      ∗ (∃ f : Buf (Elt F) ((slotM 5 2 inb_S8x4x512x256_S1x1x512x256_5_2_0_0 : Memref sig .tc .vmem S512x256 .bf16).view.loc (prv c : Thread nD τ)), (slotM 5 2 inb_S8x4x512x256_S1x1x512x256_5_2_0_0 : Memref sig .tc .vmem S512x256 .bf16).view.loc (prv c : Thread nD τ) ↦[(slotM 5 2 inb_S8x4x512x256_S1x1x512x256_5_2_0_0 : Memref sig .tc .vmem S512x256 .bf16).view.set]{fullShare} f)
      ∗ (∃ f : Buf (Elt F) ((oblkM (k0_off9 c 4294967295#32) (k0_off9_inb c 1) : Memref sig .tc .vmem S512x256 .bf16).view.loc (prv c : Thread nD τ)), (oblkM (k0_off9 c 4294967295#32) (k0_off9_inb c 1) : Memref sig .tc .vmem S512x256 .bf16).view.loc (prv c : Thread nD τ) ↦[(oblkM (k0_off9 c 4294967295#32) (k0_off9_inb c 1) : Memref sig .tc .vmem S512x256 .bf16).view.set]{fullShare} f)
      ∗ reached ER (dcell (prv c) (csem cc0_scratch3 5 1 inb_S8x3_S1x1_5_1)) 0
      ∗ reached ER (dcell (prv c) (csem cc0_scratch5 5 1 inb_S8x3_S1x1_5_1)) 0
      ∗ (∃ f : Buf (Elt F) ((slotM 5 3 inb_S8x4x512x256_S1x1x512x256_5_3_0_0 : Memref sig .tc .vmem S512x256 .bf16).view.loc (prv c : Thread nD τ)), (slotM 5 3 inb_S8x4x512x256_S1x1x512x256_5_3_0_0 : Memref sig .tc .vmem S512x256 .bf16).view.loc (prv c : Thread nD τ) ↦[(slotM 5 3 inb_S8x4x512x256_S1x1x512x256_5_3_0_0 : Memref sig .tc .vmem S512x256 .bf16).view.set]{fullShare} f)
      ∗ (∃ f : Buf (Elt F) ((oblkM (k0_off9 c 4294967294#32) (k0_off9_inb c 2) : Memref sig .tc .vmem S512x256 .bf16).view.loc (prv c : Thread nD τ)), (oblkM (k0_off9 c 4294967294#32) (k0_off9_inb c 2) : Memref sig .tc .vmem S512x256 .bf16).view.loc (prv c : Thread nD τ) ↦[(oblkM (k0_off9 c 4294967294#32) (k0_off9_inb c 2) : Memref sig .tc .vmem S512x256 .bf16).view.set]{fullShare} f)
      ∗ reached ER (dcell (prv c) (csem cc0_scratch3 5 2 inb_S8x3_S1x1_5_2)) 0
      ∗ reached ER (dcell (prv c) (csem cc0_scratch5 5 2 inb_S8x3_S1x1_5_2)) 0
      ∗ (∃ f : Buf (Elt F) ((slotM 6 1 inb_S8x4x512x256_S1x1x512x256_6_1_0_0 : Memref sig .tc .vmem S512x256 .bf16).view.loc (prv c : Thread nD τ)), (slotM 6 1 inb_S8x4x512x256_S1x1x512x256_6_1_0_0 : Memref sig .tc .vmem S512x256 .bf16).view.loc (prv c : Thread nD τ) ↦[(slotM 6 1 inb_S8x4x512x256_S1x1x512x256_6_1_0_0 : Memref sig .tc .vmem S512x256 .bf16).view.set]{fullShare} f)
      ∗ (∃ f : Buf (Elt F) ((oblkM (k0_off13 c 0#32) (k0_off13_inb c 0) : Memref sig .tc .vmem S512x256 .bf16).view.loc (prv c : Thread nD τ)), (oblkM (k0_off13 c 0#32) (k0_off13_inb c 0) : Memref sig .tc .vmem S512x256 .bf16).view.loc (prv c : Thread nD τ) ↦[(oblkM (k0_off13 c 0#32) (k0_off13_inb c 0) : Memref sig .tc .vmem S512x256 .bf16).view.set]{fullShare} f)
      ∗ reached ER (dcell (prv c) (csem cc0_scratch3 6 0 inb_S8x3_S1x1_6_0)) 0
      ∗ reached ER (dcell (prv c) (csem cc0_scratch5 6 0 inb_S8x3_S1x1_6_0)) 0
      ∗ (∃ f : Buf (Elt F) ((slotM 6 2 inb_S8x4x512x256_S1x1x512x256_6_2_0_0 : Memref sig .tc .vmem S512x256 .bf16).view.loc (prv c : Thread nD τ)), (slotM 6 2 inb_S8x4x512x256_S1x1x512x256_6_2_0_0 : Memref sig .tc .vmem S512x256 .bf16).view.loc (prv c : Thread nD τ) ↦[(slotM 6 2 inb_S8x4x512x256_S1x1x512x256_6_2_0_0 : Memref sig .tc .vmem S512x256 .bf16).view.set]{fullShare} f)
      ∗ (∃ f : Buf (Elt F) ((oblkM (k0_off13 c 4294967295#32) (k0_off13_inb c 1) : Memref sig .tc .vmem S512x256 .bf16).view.loc (prv c : Thread nD τ)), (oblkM (k0_off13 c 4294967295#32) (k0_off13_inb c 1) : Memref sig .tc .vmem S512x256 .bf16).view.loc (prv c : Thread nD τ) ↦[(oblkM (k0_off13 c 4294967295#32) (k0_off13_inb c 1) : Memref sig .tc .vmem S512x256 .bf16).view.set]{fullShare} f)
      ∗ reached ER (dcell (prv c) (csem cc0_scratch3 6 1 inb_S8x3_S1x1_6_1)) 0
      ∗ reached ER (dcell (prv c) (csem cc0_scratch5 6 1 inb_S8x3_S1x1_6_1)) 0
      ∗ (∃ f : Buf (Elt F) ((slotM 6 3 inb_S8x4x512x256_S1x1x512x256_6_3_0_0 : Memref sig .tc .vmem S512x256 .bf16).view.loc (prv c : Thread nD τ)), (slotM 6 3 inb_S8x4x512x256_S1x1x512x256_6_3_0_0 : Memref sig .tc .vmem S512x256 .bf16).view.loc (prv c : Thread nD τ) ↦[(slotM 6 3 inb_S8x4x512x256_S1x1x512x256_6_3_0_0 : Memref sig .tc .vmem S512x256 .bf16).view.set]{fullShare} f)
      ∗ (∃ f : Buf (Elt F) ((oblkM (k0_off13 c 4294967294#32) (k0_off13_inb c 2) : Memref sig .tc .vmem S512x256 .bf16).view.loc (prv c : Thread nD τ)), (oblkM (k0_off13 c 4294967294#32) (k0_off13_inb c 2) : Memref sig .tc .vmem S512x256 .bf16).view.loc (prv c : Thread nD τ) ↦[(oblkM (k0_off13 c 4294967294#32) (k0_off13_inb c 2) : Memref sig .tc .vmem S512x256 .bf16).view.set]{fullShare} f)
      ∗ reached ER (dcell (prv c) (csem cc0_scratch3 6 2 inb_S8x3_S1x1_6_2)) 0
      ∗ reached ER (dcell (prv c) (csem cc0_scratch5 6 2 inb_S8x3_S1x1_6_2)) 0
      ∗ (∃ f : Buf (Elt F) ((slotM 7 1 inb_S8x4x512x256_S1x1x512x256_7_1_0_0 : Memref sig .tc .vmem S512x256 .bf16).view.loc (prv c : Thread nD τ)), (slotM 7 1 inb_S8x4x512x256_S1x1x512x256_7_1_0_0 : Memref sig .tc .vmem S512x256 .bf16).view.loc (prv c : Thread nD τ) ↦[(slotM 7 1 inb_S8x4x512x256_S1x1x512x256_7_1_0_0 : Memref sig .tc .vmem S512x256 .bf16).view.set]{fullShare} f)
      ∗ (∃ f : Buf (Elt F) ((oblkM (k0_off17 c 0#32) (k0_off17_inb c 0) : Memref sig .tc .vmem S512x256 .bf16).view.loc (prv c : Thread nD τ)), (oblkM (k0_off17 c 0#32) (k0_off17_inb c 0) : Memref sig .tc .vmem S512x256 .bf16).view.loc (prv c : Thread nD τ) ↦[(oblkM (k0_off17 c 0#32) (k0_off17_inb c 0) : Memref sig .tc .vmem S512x256 .bf16).view.set]{fullShare} f)
      ∗ reached ER (dcell (prv c) (csem cc0_scratch3 7 0 inb_S8x3_S1x1_7_0)) 0
      ∗ reached ER (dcell (prv c) (csem cc0_scratch5 7 0 inb_S8x3_S1x1_7_0)) 0
      ∗ (∃ f : Buf (Elt F) ((slotM 7 2 inb_S8x4x512x256_S1x1x512x256_7_2_0_0 : Memref sig .tc .vmem S512x256 .bf16).view.loc (prv c : Thread nD τ)), (slotM 7 2 inb_S8x4x512x256_S1x1x512x256_7_2_0_0 : Memref sig .tc .vmem S512x256 .bf16).view.loc (prv c : Thread nD τ) ↦[(slotM 7 2 inb_S8x4x512x256_S1x1x512x256_7_2_0_0 : Memref sig .tc .vmem S512x256 .bf16).view.set]{fullShare} f)
      ∗ (∃ f : Buf (Elt F) ((oblkM (k0_off17 c 4294967295#32) (k0_off17_inb c 1) : Memref sig .tc .vmem S512x256 .bf16).view.loc (prv c : Thread nD τ)), (oblkM (k0_off17 c 4294967295#32) (k0_off17_inb c 1) : Memref sig .tc .vmem S512x256 .bf16).view.loc (prv c : Thread nD τ) ↦[(oblkM (k0_off17 c 4294967295#32) (k0_off17_inb c 1) : Memref sig .tc .vmem S512x256 .bf16).view.set]{fullShare} f)
      ∗ reached ER (dcell (prv c) (csem cc0_scratch3 7 1 inb_S8x3_S1x1_7_1)) 0
      ∗ reached ER (dcell (prv c) (csem cc0_scratch5 7 1 inb_S8x3_S1x1_7_1)) 0
      ∗ (∃ f : Buf (Elt F) ((slotM 7 3 inb_S8x4x512x256_S1x1x512x256_7_3_0_0 : Memref sig .tc .vmem S512x256 .bf16).view.loc (prv c : Thread nD τ)), (slotM 7 3 inb_S8x4x512x256_S1x1x512x256_7_3_0_0 : Memref sig .tc .vmem S512x256 .bf16).view.loc (prv c : Thread nD τ) ↦[(slotM 7 3 inb_S8x4x512x256_S1x1x512x256_7_3_0_0 : Memref sig .tc .vmem S512x256 .bf16).view.set]{fullShare} f)
      ∗ (∃ f : Buf (Elt F) ((oblkM (k0_off17 c 4294967294#32) (k0_off17_inb c 2) : Memref sig .tc .vmem S512x256 .bf16).view.loc (prv c : Thread nD τ)), (oblkM (k0_off17 c 4294967294#32) (k0_off17_inb c 2) : Memref sig .tc .vmem S512x256 .bf16).view.loc (prv c : Thread nD τ) ↦[(oblkM (k0_off17 c 4294967294#32) (k0_off17_inb c 2) : Memref sig .tc .vmem S512x256 .bf16).view.set]{fullShare} f)
      ∗ reached ER (dcell (prv c) (csem cc0_scratch3 7 2 inb_S8x3_S1x1_7_2)) 0
      ∗ reached ER (dcell (prv c) (csem cc0_scratch5 7 2 inb_S8x3_S1x1_7_2)) 0) : sProp 𝕄) := by
  rw [rest_bar_lit fa fb c]; simp only [sep_assoc_eq]

/-- The unit this device pays into its neighbour's barrier cell, leaf by leaf. -/
theorem payload_bar_prv_true_flat :
    (ringRd fa fb).payload (barCell (prv c)) 0 true =
      (iprop((∃ f : Buf (Elt F) ((slotM 0 1 inb_S8x4x512x256_S1x1x512x256_0_1_0_0 : Memref sig .tc .vmem S512x256 .bf16).view.loc (c : Thread nD τ)), (slotM 0 1 inb_S8x4x512x256_S1x1x512x256_0_1_0_0 : Memref sig .tc .vmem S512x256 .bf16).view.loc (c : Thread nD τ) ↦[(slotM 0 1 inb_S8x4x512x256_S1x1x512x256_0_1_0_0 : Memref sig .tc .vmem S512x256 .bf16).view.set]{fullShare} f)
      ∗ (∃ f : Buf (Elt F) ((oblkM (rowOff c 3 0) (rowOff_inb c 3 0 (by decide)) : Memref sig .tc .vmem S512x256 .bf16).view.loc (c : Thread nD τ)), (oblkM (rowOff c 3 0) (rowOff_inb c 3 0 (by decide)) : Memref sig .tc .vmem S512x256 .bf16).view.loc (c : Thread nD τ) ↦[(oblkM (rowOff c 3 0) (rowOff_inb c 3 0 (by decide)) : Memref sig .tc .vmem S512x256 .bf16).view.set]{fullShare} f)
      ∗ reached ER (dcell (c) (csem cc0_scratch3 0 0 inb_S8x3_S1x1_0_0)) 0
      ∗ reached ER (dcell (c) (csem cc0_scratch5 0 0 inb_S8x3_S1x1_0_0)) 0
      ∗ (∃ f : Buf (Elt F) ((slotM 0 2 inb_S8x4x512x256_S1x1x512x256_0_2_0_0 : Memref sig .tc .vmem S512x256 .bf16).view.loc (c : Thread nD τ)), (slotM 0 2 inb_S8x4x512x256_S1x1x512x256_0_2_0_0 : Memref sig .tc .vmem S512x256 .bf16).view.loc (c : Thread nD τ) ↦[(slotM 0 2 inb_S8x4x512x256_S1x1x512x256_0_2_0_0 : Memref sig .tc .vmem S512x256 .bf16).view.set]{fullShare} f)
      ∗ (∃ f : Buf (Elt F) ((oblkM (rowOff c 2 0) (rowOff_inb c 2 0 (by decide)) : Memref sig .tc .vmem S512x256 .bf16).view.loc (c : Thread nD τ)), (oblkM (rowOff c 2 0) (rowOff_inb c 2 0 (by decide)) : Memref sig .tc .vmem S512x256 .bf16).view.loc (c : Thread nD τ) ↦[(oblkM (rowOff c 2 0) (rowOff_inb c 2 0 (by decide)) : Memref sig .tc .vmem S512x256 .bf16).view.set]{fullShare} f)
      ∗ reached ER (dcell (c) (csem cc0_scratch3 0 1 inb_S8x3_S1x1_0_1)) 0
      ∗ reached ER (dcell (c) (csem cc0_scratch5 0 1 inb_S8x3_S1x1_0_1)) 0
      ∗ (∃ f : Buf (Elt F) ((slotM 0 3 inb_S8x4x512x256_S1x1x512x256_0_3_0_0 : Memref sig .tc .vmem S512x256 .bf16).view.loc (c : Thread nD τ)), (slotM 0 3 inb_S8x4x512x256_S1x1x512x256_0_3_0_0 : Memref sig .tc .vmem S512x256 .bf16).view.loc (c : Thread nD τ) ↦[(slotM 0 3 inb_S8x4x512x256_S1x1x512x256_0_3_0_0 : Memref sig .tc .vmem S512x256 .bf16).view.set]{fullShare} f)
      ∗ (∃ f : Buf (Elt F) ((oblkM (rowOff c 1 0) (rowOff_inb c 1 0 (by decide)) : Memref sig .tc .vmem S512x256 .bf16).view.loc (c : Thread nD τ)), (oblkM (rowOff c 1 0) (rowOff_inb c 1 0 (by decide)) : Memref sig .tc .vmem S512x256 .bf16).view.loc (c : Thread nD τ) ↦[(oblkM (rowOff c 1 0) (rowOff_inb c 1 0 (by decide)) : Memref sig .tc .vmem S512x256 .bf16).view.set]{fullShare} f)
      ∗ reached ER (dcell (c) (csem cc0_scratch3 0 2 inb_S8x3_S1x1_0_2)) 0
      ∗ reached ER (dcell (c) (csem cc0_scratch5 0 2 inb_S8x3_S1x1_0_2)) 0
      ∗ (∃ f : Buf (Elt F) ((slotM 1 1 inb_S8x4x512x256_S1x1x512x256_1_1_0_0 : Memref sig .tc .vmem S512x256 .bf16).view.loc (c : Thread nD τ)), (slotM 1 1 inb_S8x4x512x256_S1x1x512x256_1_1_0_0 : Memref sig .tc .vmem S512x256 .bf16).view.loc (c : Thread nD τ) ↦[(slotM 1 1 inb_S8x4x512x256_S1x1x512x256_1_1_0_0 : Memref sig .tc .vmem S512x256 .bf16).view.set]{fullShare} f)
      ∗ (∃ f : Buf (Elt F) ((oblkM (rowOff c 3 1) (rowOff_inb c 3 1 (by decide)) : Memref sig .tc .vmem S512x256 .bf16).view.loc (c : Thread nD τ)), (oblkM (rowOff c 3 1) (rowOff_inb c 3 1 (by decide)) : Memref sig .tc .vmem S512x256 .bf16).view.loc (c : Thread nD τ) ↦[(oblkM (rowOff c 3 1) (rowOff_inb c 3 1 (by decide)) : Memref sig .tc .vmem S512x256 .bf16).view.set]{fullShare} f)
      ∗ reached ER (dcell (c) (csem cc0_scratch3 1 0 inb_S8x3_S1x1_1_0)) 0
      ∗ reached ER (dcell (c) (csem cc0_scratch5 1 0 inb_S8x3_S1x1_1_0)) 0
      ∗ (∃ f : Buf (Elt F) ((slotM 1 2 inb_S8x4x512x256_S1x1x512x256_1_2_0_0 : Memref sig .tc .vmem S512x256 .bf16).view.loc (c : Thread nD τ)), (slotM 1 2 inb_S8x4x512x256_S1x1x512x256_1_2_0_0 : Memref sig .tc .vmem S512x256 .bf16).view.loc (c : Thread nD τ) ↦[(slotM 1 2 inb_S8x4x512x256_S1x1x512x256_1_2_0_0 : Memref sig .tc .vmem S512x256 .bf16).view.set]{fullShare} f)
      ∗ (∃ f : Buf (Elt F) ((oblkM (rowOff c 2 1) (rowOff_inb c 2 1 (by decide)) : Memref sig .tc .vmem S512x256 .bf16).view.loc (c : Thread nD τ)), (oblkM (rowOff c 2 1) (rowOff_inb c 2 1 (by decide)) : Memref sig .tc .vmem S512x256 .bf16).view.loc (c : Thread nD τ) ↦[(oblkM (rowOff c 2 1) (rowOff_inb c 2 1 (by decide)) : Memref sig .tc .vmem S512x256 .bf16).view.set]{fullShare} f)
      ∗ reached ER (dcell (c) (csem cc0_scratch3 1 1 inb_S8x3_S1x1_1_1)) 0
      ∗ reached ER (dcell (c) (csem cc0_scratch5 1 1 inb_S8x3_S1x1_1_1)) 0
      ∗ (∃ f : Buf (Elt F) ((slotM 1 3 inb_S8x4x512x256_S1x1x512x256_1_3_0_0 : Memref sig .tc .vmem S512x256 .bf16).view.loc (c : Thread nD τ)), (slotM 1 3 inb_S8x4x512x256_S1x1x512x256_1_3_0_0 : Memref sig .tc .vmem S512x256 .bf16).view.loc (c : Thread nD τ) ↦[(slotM 1 3 inb_S8x4x512x256_S1x1x512x256_1_3_0_0 : Memref sig .tc .vmem S512x256 .bf16).view.set]{fullShare} f)
      ∗ (∃ f : Buf (Elt F) ((oblkM (rowOff c 1 1) (rowOff_inb c 1 1 (by decide)) : Memref sig .tc .vmem S512x256 .bf16).view.loc (c : Thread nD τ)), (oblkM (rowOff c 1 1) (rowOff_inb c 1 1 (by decide)) : Memref sig .tc .vmem S512x256 .bf16).view.loc (c : Thread nD τ) ↦[(oblkM (rowOff c 1 1) (rowOff_inb c 1 1 (by decide)) : Memref sig .tc .vmem S512x256 .bf16).view.set]{fullShare} f)
      ∗ reached ER (dcell (c) (csem cc0_scratch3 1 2 inb_S8x3_S1x1_1_2)) 0
      ∗ reached ER (dcell (c) (csem cc0_scratch5 1 2 inb_S8x3_S1x1_1_2)) 0
      ∗ (∃ f : Buf (Elt F) ((slotM 2 1 inb_S8x4x512x256_S1x1x512x256_2_1_0_0 : Memref sig .tc .vmem S512x256 .bf16).view.loc (c : Thread nD τ)), (slotM 2 1 inb_S8x4x512x256_S1x1x512x256_2_1_0_0 : Memref sig .tc .vmem S512x256 .bf16).view.loc (c : Thread nD τ) ↦[(slotM 2 1 inb_S8x4x512x256_S1x1x512x256_2_1_0_0 : Memref sig .tc .vmem S512x256 .bf16).view.set]{fullShare} f)
      ∗ (∃ f : Buf (Elt F) ((oblkM (rowOff c 3 2) (rowOff_inb c 3 2 (by decide)) : Memref sig .tc .vmem S512x256 .bf16).view.loc (c : Thread nD τ)), (oblkM (rowOff c 3 2) (rowOff_inb c 3 2 (by decide)) : Memref sig .tc .vmem S512x256 .bf16).view.loc (c : Thread nD τ) ↦[(oblkM (rowOff c 3 2) (rowOff_inb c 3 2 (by decide)) : Memref sig .tc .vmem S512x256 .bf16).view.set]{fullShare} f)
      ∗ reached ER (dcell (c) (csem cc0_scratch3 2 0 inb_S8x3_S1x1_2_0)) 0
      ∗ reached ER (dcell (c) (csem cc0_scratch5 2 0 inb_S8x3_S1x1_2_0)) 0
      ∗ (∃ f : Buf (Elt F) ((slotM 2 2 inb_S8x4x512x256_S1x1x512x256_2_2_0_0 : Memref sig .tc .vmem S512x256 .bf16).view.loc (c : Thread nD τ)), (slotM 2 2 inb_S8x4x512x256_S1x1x512x256_2_2_0_0 : Memref sig .tc .vmem S512x256 .bf16).view.loc (c : Thread nD τ) ↦[(slotM 2 2 inb_S8x4x512x256_S1x1x512x256_2_2_0_0 : Memref sig .tc .vmem S512x256 .bf16).view.set]{fullShare} f)
      ∗ (∃ f : Buf (Elt F) ((oblkM (rowOff c 2 2) (rowOff_inb c 2 2 (by decide)) : Memref sig .tc .vmem S512x256 .bf16).view.loc (c : Thread nD τ)), (oblkM (rowOff c 2 2) (rowOff_inb c 2 2 (by decide)) : Memref sig .tc .vmem S512x256 .bf16).view.loc (c : Thread nD τ) ↦[(oblkM (rowOff c 2 2) (rowOff_inb c 2 2 (by decide)) : Memref sig .tc .vmem S512x256 .bf16).view.set]{fullShare} f)
      ∗ reached ER (dcell (c) (csem cc0_scratch3 2 1 inb_S8x3_S1x1_2_1)) 0
      ∗ reached ER (dcell (c) (csem cc0_scratch5 2 1 inb_S8x3_S1x1_2_1)) 0
      ∗ (∃ f : Buf (Elt F) ((slotM 2 3 inb_S8x4x512x256_S1x1x512x256_2_3_0_0 : Memref sig .tc .vmem S512x256 .bf16).view.loc (c : Thread nD τ)), (slotM 2 3 inb_S8x4x512x256_S1x1x512x256_2_3_0_0 : Memref sig .tc .vmem S512x256 .bf16).view.loc (c : Thread nD τ) ↦[(slotM 2 3 inb_S8x4x512x256_S1x1x512x256_2_3_0_0 : Memref sig .tc .vmem S512x256 .bf16).view.set]{fullShare} f)
      ∗ (∃ f : Buf (Elt F) ((oblkM (rowOff c 1 2) (rowOff_inb c 1 2 (by decide)) : Memref sig .tc .vmem S512x256 .bf16).view.loc (c : Thread nD τ)), (oblkM (rowOff c 1 2) (rowOff_inb c 1 2 (by decide)) : Memref sig .tc .vmem S512x256 .bf16).view.loc (c : Thread nD τ) ↦[(oblkM (rowOff c 1 2) (rowOff_inb c 1 2 (by decide)) : Memref sig .tc .vmem S512x256 .bf16).view.set]{fullShare} f)
      ∗ reached ER (dcell (c) (csem cc0_scratch3 2 2 inb_S8x3_S1x1_2_2)) 0
      ∗ reached ER (dcell (c) (csem cc0_scratch5 2 2 inb_S8x3_S1x1_2_2)) 0
      ∗ (∃ f : Buf (Elt F) ((slotM 3 1 inb_S8x4x512x256_S1x1x512x256_3_1_0_0 : Memref sig .tc .vmem S512x256 .bf16).view.loc (c : Thread nD τ)), (slotM 3 1 inb_S8x4x512x256_S1x1x512x256_3_1_0_0 : Memref sig .tc .vmem S512x256 .bf16).view.loc (c : Thread nD τ) ↦[(slotM 3 1 inb_S8x4x512x256_S1x1x512x256_3_1_0_0 : Memref sig .tc .vmem S512x256 .bf16).view.set]{fullShare} f)
      ∗ (∃ f : Buf (Elt F) ((oblkM (rowOff c 3 3) (rowOff_inb c 3 3 (by decide)) : Memref sig .tc .vmem S512x256 .bf16).view.loc (c : Thread nD τ)), (oblkM (rowOff c 3 3) (rowOff_inb c 3 3 (by decide)) : Memref sig .tc .vmem S512x256 .bf16).view.loc (c : Thread nD τ) ↦[(oblkM (rowOff c 3 3) (rowOff_inb c 3 3 (by decide)) : Memref sig .tc .vmem S512x256 .bf16).view.set]{fullShare} f)
      ∗ reached ER (dcell (c) (csem cc0_scratch3 3 0 inb_S8x3_S1x1_3_0)) 0
      ∗ reached ER (dcell (c) (csem cc0_scratch5 3 0 inb_S8x3_S1x1_3_0)) 0
      ∗ (∃ f : Buf (Elt F) ((slotM 3 2 inb_S8x4x512x256_S1x1x512x256_3_2_0_0 : Memref sig .tc .vmem S512x256 .bf16).view.loc (c : Thread nD τ)), (slotM 3 2 inb_S8x4x512x256_S1x1x512x256_3_2_0_0 : Memref sig .tc .vmem S512x256 .bf16).view.loc (c : Thread nD τ) ↦[(slotM 3 2 inb_S8x4x512x256_S1x1x512x256_3_2_0_0 : Memref sig .tc .vmem S512x256 .bf16).view.set]{fullShare} f)
      ∗ (∃ f : Buf (Elt F) ((oblkM (rowOff c 2 3) (rowOff_inb c 2 3 (by decide)) : Memref sig .tc .vmem S512x256 .bf16).view.loc (c : Thread nD τ)), (oblkM (rowOff c 2 3) (rowOff_inb c 2 3 (by decide)) : Memref sig .tc .vmem S512x256 .bf16).view.loc (c : Thread nD τ) ↦[(oblkM (rowOff c 2 3) (rowOff_inb c 2 3 (by decide)) : Memref sig .tc .vmem S512x256 .bf16).view.set]{fullShare} f)
      ∗ reached ER (dcell (c) (csem cc0_scratch3 3 1 inb_S8x3_S1x1_3_1)) 0
      ∗ reached ER (dcell (c) (csem cc0_scratch5 3 1 inb_S8x3_S1x1_3_1)) 0
      ∗ (∃ f : Buf (Elt F) ((slotM 3 3 inb_S8x4x512x256_S1x1x512x256_3_3_0_0 : Memref sig .tc .vmem S512x256 .bf16).view.loc (c : Thread nD τ)), (slotM 3 3 inb_S8x4x512x256_S1x1x512x256_3_3_0_0 : Memref sig .tc .vmem S512x256 .bf16).view.loc (c : Thread nD τ) ↦[(slotM 3 3 inb_S8x4x512x256_S1x1x512x256_3_3_0_0 : Memref sig .tc .vmem S512x256 .bf16).view.set]{fullShare} f)
      ∗ (∃ f : Buf (Elt F) ((oblkM (rowOff c 1 3) (rowOff_inb c 1 3 (by decide)) : Memref sig .tc .vmem S512x256 .bf16).view.loc (c : Thread nD τ)), (oblkM (rowOff c 1 3) (rowOff_inb c 1 3 (by decide)) : Memref sig .tc .vmem S512x256 .bf16).view.loc (c : Thread nD τ) ↦[(oblkM (rowOff c 1 3) (rowOff_inb c 1 3 (by decide)) : Memref sig .tc .vmem S512x256 .bf16).view.set]{fullShare} f)
      ∗ reached ER (dcell (c) (csem cc0_scratch3 3 2 inb_S8x3_S1x1_3_2)) 0
      ∗ reached ER (dcell (c) (csem cc0_scratch5 3 2 inb_S8x3_S1x1_3_2)) 0) : sProp 𝕄) := by
  rw [payload_bar_prv_true_lit fa fb c]; simp only [sep_assoc_eq]

/-- The unit this device pays into its neighbour's barrier cell, leaf by leaf. -/
theorem payload_bar_nxt_false_flat :
    (ringRd fa fb).payload (barCell (nxt c)) 0 false =
      (iprop((∃ f : Buf (Elt F) ((slotM 4 1 inb_S8x4x512x256_S1x1x512x256_4_1_0_0 : Memref sig .tc .vmem S512x256 .bf16).view.loc (c : Thread nD τ)), (slotM 4 1 inb_S8x4x512x256_S1x1x512x256_4_1_0_0 : Memref sig .tc .vmem S512x256 .bf16).view.loc (c : Thread nD τ) ↦[(slotM 4 1 inb_S8x4x512x256_S1x1x512x256_4_1_0_0 : Memref sig .tc .vmem S512x256 .bf16).view.set]{fullShare} f)
      ∗ (∃ f : Buf (Elt F) ((oblkM (rowOff c 1 4) (rowOff_inb c 1 4 (by decide)) : Memref sig .tc .vmem S512x256 .bf16).view.loc (c : Thread nD τ)), (oblkM (rowOff c 1 4) (rowOff_inb c 1 4 (by decide)) : Memref sig .tc .vmem S512x256 .bf16).view.loc (c : Thread nD τ) ↦[(oblkM (rowOff c 1 4) (rowOff_inb c 1 4 (by decide)) : Memref sig .tc .vmem S512x256 .bf16).view.set]{fullShare} f)
      ∗ reached ER (dcell (c) (csem cc0_scratch3 4 0 inb_S8x3_S1x1_4_0)) 0
      ∗ reached ER (dcell (c) (csem cc0_scratch5 4 0 inb_S8x3_S1x1_4_0)) 0
      ∗ (∃ f : Buf (Elt F) ((slotM 4 2 inb_S8x4x512x256_S1x1x512x256_4_2_0_0 : Memref sig .tc .vmem S512x256 .bf16).view.loc (c : Thread nD τ)), (slotM 4 2 inb_S8x4x512x256_S1x1x512x256_4_2_0_0 : Memref sig .tc .vmem S512x256 .bf16).view.loc (c : Thread nD τ) ↦[(slotM 4 2 inb_S8x4x512x256_S1x1x512x256_4_2_0_0 : Memref sig .tc .vmem S512x256 .bf16).view.set]{fullShare} f)
      ∗ (∃ f : Buf (Elt F) ((oblkM (rowOff c 2 4) (rowOff_inb c 2 4 (by decide)) : Memref sig .tc .vmem S512x256 .bf16).view.loc (c : Thread nD τ)), (oblkM (rowOff c 2 4) (rowOff_inb c 2 4 (by decide)) : Memref sig .tc .vmem S512x256 .bf16).view.loc (c : Thread nD τ) ↦[(oblkM (rowOff c 2 4) (rowOff_inb c 2 4 (by decide)) : Memref sig .tc .vmem S512x256 .bf16).view.set]{fullShare} f)
      ∗ reached ER (dcell (c) (csem cc0_scratch3 4 1 inb_S8x3_S1x1_4_1)) 0
      ∗ reached ER (dcell (c) (csem cc0_scratch5 4 1 inb_S8x3_S1x1_4_1)) 0
      ∗ (∃ f : Buf (Elt F) ((slotM 4 3 inb_S8x4x512x256_S1x1x512x256_4_3_0_0 : Memref sig .tc .vmem S512x256 .bf16).view.loc (c : Thread nD τ)), (slotM 4 3 inb_S8x4x512x256_S1x1x512x256_4_3_0_0 : Memref sig .tc .vmem S512x256 .bf16).view.loc (c : Thread nD τ) ↦[(slotM 4 3 inb_S8x4x512x256_S1x1x512x256_4_3_0_0 : Memref sig .tc .vmem S512x256 .bf16).view.set]{fullShare} f)
      ∗ (∃ f : Buf (Elt F) ((oblkM (rowOff c 3 4) (rowOff_inb c 3 4 (by decide)) : Memref sig .tc .vmem S512x256 .bf16).view.loc (c : Thread nD τ)), (oblkM (rowOff c 3 4) (rowOff_inb c 3 4 (by decide)) : Memref sig .tc .vmem S512x256 .bf16).view.loc (c : Thread nD τ) ↦[(oblkM (rowOff c 3 4) (rowOff_inb c 3 4 (by decide)) : Memref sig .tc .vmem S512x256 .bf16).view.set]{fullShare} f)
      ∗ reached ER (dcell (c) (csem cc0_scratch3 4 2 inb_S8x3_S1x1_4_2)) 0
      ∗ reached ER (dcell (c) (csem cc0_scratch5 4 2 inb_S8x3_S1x1_4_2)) 0
      ∗ (∃ f : Buf (Elt F) ((slotM 5 1 inb_S8x4x512x256_S1x1x512x256_5_1_0_0 : Memref sig .tc .vmem S512x256 .bf16).view.loc (c : Thread nD τ)), (slotM 5 1 inb_S8x4x512x256_S1x1x512x256_5_1_0_0 : Memref sig .tc .vmem S512x256 .bf16).view.loc (c : Thread nD τ) ↦[(slotM 5 1 inb_S8x4x512x256_S1x1x512x256_5_1_0_0 : Memref sig .tc .vmem S512x256 .bf16).view.set]{fullShare} f)
      ∗ (∃ f : Buf (Elt F) ((oblkM (rowOff c 1 5) (rowOff_inb c 1 5 (by decide)) : Memref sig .tc .vmem S512x256 .bf16).view.loc (c : Thread nD τ)), (oblkM (rowOff c 1 5) (rowOff_inb c 1 5 (by decide)) : Memref sig .tc .vmem S512x256 .bf16).view.loc (c : Thread nD τ) ↦[(oblkM (rowOff c 1 5) (rowOff_inb c 1 5 (by decide)) : Memref sig .tc .vmem S512x256 .bf16).view.set]{fullShare} f)
      ∗ reached ER (dcell (c) (csem cc0_scratch3 5 0 inb_S8x3_S1x1_5_0)) 0
      ∗ reached ER (dcell (c) (csem cc0_scratch5 5 0 inb_S8x3_S1x1_5_0)) 0
      ∗ (∃ f : Buf (Elt F) ((slotM 5 2 inb_S8x4x512x256_S1x1x512x256_5_2_0_0 : Memref sig .tc .vmem S512x256 .bf16).view.loc (c : Thread nD τ)), (slotM 5 2 inb_S8x4x512x256_S1x1x512x256_5_2_0_0 : Memref sig .tc .vmem S512x256 .bf16).view.loc (c : Thread nD τ) ↦[(slotM 5 2 inb_S8x4x512x256_S1x1x512x256_5_2_0_0 : Memref sig .tc .vmem S512x256 .bf16).view.set]{fullShare} f)
      ∗ (∃ f : Buf (Elt F) ((oblkM (rowOff c 2 5) (rowOff_inb c 2 5 (by decide)) : Memref sig .tc .vmem S512x256 .bf16).view.loc (c : Thread nD τ)), (oblkM (rowOff c 2 5) (rowOff_inb c 2 5 (by decide)) : Memref sig .tc .vmem S512x256 .bf16).view.loc (c : Thread nD τ) ↦[(oblkM (rowOff c 2 5) (rowOff_inb c 2 5 (by decide)) : Memref sig .tc .vmem S512x256 .bf16).view.set]{fullShare} f)
      ∗ reached ER (dcell (c) (csem cc0_scratch3 5 1 inb_S8x3_S1x1_5_1)) 0
      ∗ reached ER (dcell (c) (csem cc0_scratch5 5 1 inb_S8x3_S1x1_5_1)) 0
      ∗ (∃ f : Buf (Elt F) ((slotM 5 3 inb_S8x4x512x256_S1x1x512x256_5_3_0_0 : Memref sig .tc .vmem S512x256 .bf16).view.loc (c : Thread nD τ)), (slotM 5 3 inb_S8x4x512x256_S1x1x512x256_5_3_0_0 : Memref sig .tc .vmem S512x256 .bf16).view.loc (c : Thread nD τ) ↦[(slotM 5 3 inb_S8x4x512x256_S1x1x512x256_5_3_0_0 : Memref sig .tc .vmem S512x256 .bf16).view.set]{fullShare} f)
      ∗ (∃ f : Buf (Elt F) ((oblkM (rowOff c 3 5) (rowOff_inb c 3 5 (by decide)) : Memref sig .tc .vmem S512x256 .bf16).view.loc (c : Thread nD τ)), (oblkM (rowOff c 3 5) (rowOff_inb c 3 5 (by decide)) : Memref sig .tc .vmem S512x256 .bf16).view.loc (c : Thread nD τ) ↦[(oblkM (rowOff c 3 5) (rowOff_inb c 3 5 (by decide)) : Memref sig .tc .vmem S512x256 .bf16).view.set]{fullShare} f)
      ∗ reached ER (dcell (c) (csem cc0_scratch3 5 2 inb_S8x3_S1x1_5_2)) 0
      ∗ reached ER (dcell (c) (csem cc0_scratch5 5 2 inb_S8x3_S1x1_5_2)) 0
      ∗ (∃ f : Buf (Elt F) ((slotM 6 1 inb_S8x4x512x256_S1x1x512x256_6_1_0_0 : Memref sig .tc .vmem S512x256 .bf16).view.loc (c : Thread nD τ)), (slotM 6 1 inb_S8x4x512x256_S1x1x512x256_6_1_0_0 : Memref sig .tc .vmem S512x256 .bf16).view.loc (c : Thread nD τ) ↦[(slotM 6 1 inb_S8x4x512x256_S1x1x512x256_6_1_0_0 : Memref sig .tc .vmem S512x256 .bf16).view.set]{fullShare} f)
      ∗ (∃ f : Buf (Elt F) ((oblkM (rowOff c 1 6) (rowOff_inb c 1 6 (by decide)) : Memref sig .tc .vmem S512x256 .bf16).view.loc (c : Thread nD τ)), (oblkM (rowOff c 1 6) (rowOff_inb c 1 6 (by decide)) : Memref sig .tc .vmem S512x256 .bf16).view.loc (c : Thread nD τ) ↦[(oblkM (rowOff c 1 6) (rowOff_inb c 1 6 (by decide)) : Memref sig .tc .vmem S512x256 .bf16).view.set]{fullShare} f)
      ∗ reached ER (dcell (c) (csem cc0_scratch3 6 0 inb_S8x3_S1x1_6_0)) 0
      ∗ reached ER (dcell (c) (csem cc0_scratch5 6 0 inb_S8x3_S1x1_6_0)) 0
      ∗ (∃ f : Buf (Elt F) ((slotM 6 2 inb_S8x4x512x256_S1x1x512x256_6_2_0_0 : Memref sig .tc .vmem S512x256 .bf16).view.loc (c : Thread nD τ)), (slotM 6 2 inb_S8x4x512x256_S1x1x512x256_6_2_0_0 : Memref sig .tc .vmem S512x256 .bf16).view.loc (c : Thread nD τ) ↦[(slotM 6 2 inb_S8x4x512x256_S1x1x512x256_6_2_0_0 : Memref sig .tc .vmem S512x256 .bf16).view.set]{fullShare} f)
      ∗ (∃ f : Buf (Elt F) ((oblkM (rowOff c 2 6) (rowOff_inb c 2 6 (by decide)) : Memref sig .tc .vmem S512x256 .bf16).view.loc (c : Thread nD τ)), (oblkM (rowOff c 2 6) (rowOff_inb c 2 6 (by decide)) : Memref sig .tc .vmem S512x256 .bf16).view.loc (c : Thread nD τ) ↦[(oblkM (rowOff c 2 6) (rowOff_inb c 2 6 (by decide)) : Memref sig .tc .vmem S512x256 .bf16).view.set]{fullShare} f)
      ∗ reached ER (dcell (c) (csem cc0_scratch3 6 1 inb_S8x3_S1x1_6_1)) 0
      ∗ reached ER (dcell (c) (csem cc0_scratch5 6 1 inb_S8x3_S1x1_6_1)) 0
      ∗ (∃ f : Buf (Elt F) ((slotM 6 3 inb_S8x4x512x256_S1x1x512x256_6_3_0_0 : Memref sig .tc .vmem S512x256 .bf16).view.loc (c : Thread nD τ)), (slotM 6 3 inb_S8x4x512x256_S1x1x512x256_6_3_0_0 : Memref sig .tc .vmem S512x256 .bf16).view.loc (c : Thread nD τ) ↦[(slotM 6 3 inb_S8x4x512x256_S1x1x512x256_6_3_0_0 : Memref sig .tc .vmem S512x256 .bf16).view.set]{fullShare} f)
      ∗ (∃ f : Buf (Elt F) ((oblkM (rowOff c 3 6) (rowOff_inb c 3 6 (by decide)) : Memref sig .tc .vmem S512x256 .bf16).view.loc (c : Thread nD τ)), (oblkM (rowOff c 3 6) (rowOff_inb c 3 6 (by decide)) : Memref sig .tc .vmem S512x256 .bf16).view.loc (c : Thread nD τ) ↦[(oblkM (rowOff c 3 6) (rowOff_inb c 3 6 (by decide)) : Memref sig .tc .vmem S512x256 .bf16).view.set]{fullShare} f)
      ∗ reached ER (dcell (c) (csem cc0_scratch3 6 2 inb_S8x3_S1x1_6_2)) 0
      ∗ reached ER (dcell (c) (csem cc0_scratch5 6 2 inb_S8x3_S1x1_6_2)) 0
      ∗ (∃ f : Buf (Elt F) ((slotM 7 1 inb_S8x4x512x256_S1x1x512x256_7_1_0_0 : Memref sig .tc .vmem S512x256 .bf16).view.loc (c : Thread nD τ)), (slotM 7 1 inb_S8x4x512x256_S1x1x512x256_7_1_0_0 : Memref sig .tc .vmem S512x256 .bf16).view.loc (c : Thread nD τ) ↦[(slotM 7 1 inb_S8x4x512x256_S1x1x512x256_7_1_0_0 : Memref sig .tc .vmem S512x256 .bf16).view.set]{fullShare} f)
      ∗ (∃ f : Buf (Elt F) ((oblkM (rowOff c 1 7) (rowOff_inb c 1 7 (by decide)) : Memref sig .tc .vmem S512x256 .bf16).view.loc (c : Thread nD τ)), (oblkM (rowOff c 1 7) (rowOff_inb c 1 7 (by decide)) : Memref sig .tc .vmem S512x256 .bf16).view.loc (c : Thread nD τ) ↦[(oblkM (rowOff c 1 7) (rowOff_inb c 1 7 (by decide)) : Memref sig .tc .vmem S512x256 .bf16).view.set]{fullShare} f)
      ∗ reached ER (dcell (c) (csem cc0_scratch3 7 0 inb_S8x3_S1x1_7_0)) 0
      ∗ reached ER (dcell (c) (csem cc0_scratch5 7 0 inb_S8x3_S1x1_7_0)) 0
      ∗ (∃ f : Buf (Elt F) ((slotM 7 2 inb_S8x4x512x256_S1x1x512x256_7_2_0_0 : Memref sig .tc .vmem S512x256 .bf16).view.loc (c : Thread nD τ)), (slotM 7 2 inb_S8x4x512x256_S1x1x512x256_7_2_0_0 : Memref sig .tc .vmem S512x256 .bf16).view.loc (c : Thread nD τ) ↦[(slotM 7 2 inb_S8x4x512x256_S1x1x512x256_7_2_0_0 : Memref sig .tc .vmem S512x256 .bf16).view.set]{fullShare} f)
      ∗ (∃ f : Buf (Elt F) ((oblkM (rowOff c 2 7) (rowOff_inb c 2 7 (by decide)) : Memref sig .tc .vmem S512x256 .bf16).view.loc (c : Thread nD τ)), (oblkM (rowOff c 2 7) (rowOff_inb c 2 7 (by decide)) : Memref sig .tc .vmem S512x256 .bf16).view.loc (c : Thread nD τ) ↦[(oblkM (rowOff c 2 7) (rowOff_inb c 2 7 (by decide)) : Memref sig .tc .vmem S512x256 .bf16).view.set]{fullShare} f)
      ∗ reached ER (dcell (c) (csem cc0_scratch3 7 1 inb_S8x3_S1x1_7_1)) 0
      ∗ reached ER (dcell (c) (csem cc0_scratch5 7 1 inb_S8x3_S1x1_7_1)) 0
      ∗ (∃ f : Buf (Elt F) ((slotM 7 3 inb_S8x4x512x256_S1x1x512x256_7_3_0_0 : Memref sig .tc .vmem S512x256 .bf16).view.loc (c : Thread nD τ)), (slotM 7 3 inb_S8x4x512x256_S1x1x512x256_7_3_0_0 : Memref sig .tc .vmem S512x256 .bf16).view.loc (c : Thread nD τ) ↦[(slotM 7 3 inb_S8x4x512x256_S1x1x512x256_7_3_0_0 : Memref sig .tc .vmem S512x256 .bf16).view.set]{fullShare} f)
      ∗ (∃ f : Buf (Elt F) ((oblkM (rowOff c 3 7) (rowOff_inb c 3 7 (by decide)) : Memref sig .tc .vmem S512x256 .bf16).view.loc (c : Thread nD τ)), (oblkM (rowOff c 3 7) (rowOff_inb c 3 7 (by decide)) : Memref sig .tc .vmem S512x256 .bf16).view.loc (c : Thread nD τ) ↦[(oblkM (rowOff c 3 7) (rowOff_inb c 3 7 (by decide)) : Memref sig .tc .vmem S512x256 .bf16).view.set]{fullShare} f)
      ∗ reached ER (dcell (c) (csem cc0_scratch3 7 2 inb_S8x3_S1x1_7_2)) 0
      ∗ reached ER (dcell (c) (csem cc0_scratch5 7 2 inb_S8x3_S1x1_7_2)) 0) : sProp 𝕄) := by
  rw [payload_bar_nxt_false_lit fa fb c]; simp only [sep_assoc_eq]

end Flat

end Cert.Kernel.P

end
-- ==== Proof.KReads.lean ====
import proofs.«900901_g7700000000000902_dist_matmul_silu_kshard_i_m2048_n2048_k1024_v7x_i4_bf16_1_alg».proof.Proof.KProto
import Idealize.ShloMosaic.Lib.Pipeline.Value

/-!
What a device reads from its staged operands, named.

The left operand's staging buffer is read 512 rows at a time, at the row offset a chain of integer
operations computes from the device's position and a word `w`: the rows of band `(c - w) mod 4`. At
the closed form of that offset the load is the named row band `aRows`.

The right operand is narrowed once to the transport format and kept in a scratch buffer; a load of 256
of its columns then reads the columns of the narrowed block, `bCols`.
-/

noncomputable section

namespace Cert.Kernel.P

open Cert.Kernel Cert.Kernel.Gen Idealize.ShloMosaic

variable {F : FTy → Type} [FloatOps F]

/-! ## The row bands of the left operand -/

/-- The rows read at the word `1#32` are band `chunk c 3`. -/
theorem aRead_1 (c : Dev nD) (fa : AT F) (h : ∀ a, k0_off1 c 1#32 a + S512x1024.size a ≤ S2048x1024.size a) :
    View.readAt (Elt F) aM.view (Rect.unit (s := S2048x1024) (k0_off1 c 1#32) S512x1024.size h).toLoadRect fa
      = aRows fa (chunk c 3) (chunk_lt _ _) :=
  View.readAt_unit_congr aM.view (off1_eq_1 c) h _ fa
/-- The rows read at the word `4294967295#32` are band `chunk c 1`. -/
theorem aRead_m1 (c : Dev nD) (fa : AT F) (h : ∀ a, k0_off1 c 4294967295#32 a + S512x1024.size a ≤ S2048x1024.size a) :
    View.readAt (Elt F) aM.view (Rect.unit (s := S2048x1024) (k0_off1 c 4294967295#32) S512x1024.size h).toLoadRect fa
      = aRows fa (chunk c 1) (chunk_lt _ _) :=
  View.readAt_unit_congr aM.view (off1_eq_m1 c) h _ fa
/-- The rows read at the word `2#32` are band `chunk c 2`. -/
theorem aRead_2 (c : Dev nD) (fa : AT F) (h : ∀ a, k0_off1 c 2#32 a + S512x1024.size a ≤ S2048x1024.size a) :
    View.readAt (Elt F) aM.view (Rect.unit (s := S2048x1024) (k0_off1 c 2#32) S512x1024.size h).toLoadRect fa
      = aRows fa (chunk c 2) (chunk_lt _ _) :=
  View.readAt_unit_congr aM.view (off1_eq_2 c) h _ fa
/-- The rows read at the word `4294967294#32` are band `chunk c 2`. -/
theorem aRead_m2 (c : Dev nD) (fa : AT F) (h : ∀ a, k0_off1 c 4294967294#32 a + S512x1024.size a ≤ S2048x1024.size a) :
    View.readAt (Elt F) aM.view (Rect.unit (s := S2048x1024) (k0_off1 c 4294967294#32) S512x1024.size h).toLoadRect fa
      = aRows fa (chunk c 2) (chunk_lt _ _) :=
  View.readAt_unit_congr aM.view (off1_eq_m2 c) h _ fa
/-- The rows read at the word `3#32` are band `chunk c 1`. -/
theorem aRead_3 (c : Dev nD) (fa : AT F) (h : ∀ a, k0_off1 c 3#32 a + S512x1024.size a ≤ S2048x1024.size a) :
    View.readAt (Elt F) aM.view (Rect.unit (s := S2048x1024) (k0_off1 c 3#32) S512x1024.size h).toLoadRect fa
      = aRows fa (chunk c 1) (chunk_lt _ _) :=
  View.readAt_unit_congr aM.view (off1_eq_3 c) h _ fa
/-- The rows read at the word `4294967293#32` are band `chunk c 3`. -/
theorem aRead_m3 (c : Dev nD) (fa : AT F) (h : ∀ a, k0_off1 c 4294967293#32 a + S512x1024.size a ≤ S2048x1024.size a) :
    View.readAt (Elt F) aM.view (Rect.unit (s := S2048x1024) (k0_off1 c 4294967293#32) S512x1024.size h).toLoadRect fa
      = aRows fa (chunk c 3) (chunk_lt _ _) :=
  View.readAt_unit_congr aM.view (off1_eq_m3 c) h _ fa
/-- The rows read at the word `4#32` are band `chunk c 0`. -/
theorem aRead_4 (c : Dev nD) (fa : AT F) (h : ∀ a, k0_off1 c 4#32 a + S512x1024.size a ≤ S2048x1024.size a) :
    View.readAt (Elt F) aM.view (Rect.unit (s := S2048x1024) (k0_off1 c 4#32) S512x1024.size h).toLoadRect fa
      = aRows fa (chunk c 0) (chunk_lt _ _) :=
  View.readAt_unit_congr aM.view (off1_eq_4 c) h _ fa
/-- The rows read at the word `4294967292#32` are band `chunk c 0`. -/
theorem aRead_m4 (c : Dev nD) (fa : AT F) (h : ∀ a, k0_off1 c 4294967292#32 a + S512x1024.size a ≤ S2048x1024.size a) :
    View.readAt (Elt F) aM.view (Rect.unit (s := S2048x1024) (k0_off1 c 4294967292#32) S512x1024.size h).toLoadRect fa
      = aRows fa (chunk c 0) (chunk_lt _ _) :=
  View.readAt_unit_congr aM.view (off1_eq_m4 c) h _ fa

/-! ## The right operand -/

/-- A load of the whole staging buffer of the right operand reads its contents. -/
theorem readAt_whole_b (fb : BT F) :
    View.readAt (Elt F) bM.view (Rect.unit (s := S1024x2048) ![0, 0] S1024x2048.size inb_S1024x2048_S1024x2048_0_0).toLoadRect fb = fb :=
  Memref.readAt_unit_zero (Elt F) cc0_stg1_0 (by funext a; fin_cases a <;> rfl) _ fb

/-- The one piece the narrowing leaves in the scratch copy: the whole buffer, holding the narrowed block. -/
abbrev bPiece (fb : BT F) : View.Piece (Elt F) S1024x2048 .bf16 :=
  ⟨Rect.unit (s := S1024x2048) ![0, 0] S1024x2048.size inb_S1024x2048_S1024x2048_0_0,
    k0_pay1 (View.readAt (Elt F) bM.view (Rect.unit (s := S1024x2048) ![0, 0] S1024x2048.size inb_S1024x2048_S1024x2048_0_0).toLoadRect fb)⟩

/-- The scratch copy after the one whole-buffer store holds the narrowed block, whatever it held before. -/
theorem writes_bPiece (fb : BT F) (g : BbT F) : bbM.view.writes (Elt F) g [bPiece fb] = bBf fb := by
  rw [View.writes_singleton, readAt_whole_b]
  exact Memref.write_access_unit_zero_univ (Elt F) cc0_scratch1 (by funext a; fin_cases a <;> rfl) _ g (k0_pay1 fb)

/-- A load of any box from the scratch copy after that store reads the narrowed block there. -/
theorem readCov_bPiece (fb : BT F) (B : LoadRect S1024x2048) :
    bbM.view.readCov [bPiece fb] B = bbM.view.readAt (Elt F) B (bBf fb) := by
  unfold View.readCov
  rw [writes_bPiece]

/-- Columns `256 a … 256 a + 255` of the scratch copy, with the column offset written as the product. -/
theorem bRead (a : ℕ) (ha : a < 8) (fb : BT F)
    (hcol : ∀ i, (![0, 256 * a] : Fin 2 → ℕ) i + S1024x256.size i ≤ S1024x2048.size i) :
    bbM.view.readCov [bPiece fb] (Rect.unit (s := S1024x2048) ![0, 256 * a] S1024x256.size hcol).toLoadRect = bCols fb a ha :=
  readCov_bPiece fb _

theorem bRead_0 (fb : BT F) (hcol : ∀ i, (![0, 0] : Fin 2 → ℕ) i + S1024x256.size i ≤ S1024x2048.size i) :
    bbM.view.readCov [⟨Rect.unit (s := S1024x2048) ![0, 0] S1024x2048.size inb_S1024x2048_S1024x2048_0_0,
        k0_pay1 (View.readAt (Elt F) bM.view (Rect.unit (s := S1024x2048) ![0, 0] S1024x2048.size inb_S1024x2048_S1024x2048_0_0).toLoadRect fb)⟩]
      (Rect.unit (s := S1024x2048) ![0, 0] S1024x256.size hcol).toLoadRect = bCols fb 0 (by decide) :=
  bRead 0 (by decide) fb hcol
theorem bRead_1 (fb : BT F) (hcol : ∀ i, (![0, 256] : Fin 2 → ℕ) i + S1024x256.size i ≤ S1024x2048.size i) :
    bbM.view.readCov [⟨Rect.unit (s := S1024x2048) ![0, 0] S1024x2048.size inb_S1024x2048_S1024x2048_0_0,
        k0_pay1 (View.readAt (Elt F) bM.view (Rect.unit (s := S1024x2048) ![0, 0] S1024x2048.size inb_S1024x2048_S1024x2048_0_0).toLoadRect fb)⟩]
      (Rect.unit (s := S1024x2048) ![0, 256] S1024x256.size hcol).toLoadRect = bCols fb 1 (by decide) :=
  bRead 1 (by decide) fb hcol
theorem bRead_2 (fb : BT F) (hcol : ∀ i, (![0, 512] : Fin 2 → ℕ) i + S1024x256.size i ≤ S1024x2048.size i) :
    bbM.view.readCov [⟨Rect.unit (s := S1024x2048) ![0, 0] S1024x2048.size inb_S1024x2048_S1024x2048_0_0,
        k0_pay1 (View.readAt (Elt F) bM.view (Rect.unit (s := S1024x2048) ![0, 0] S1024x2048.size inb_S1024x2048_S1024x2048_0_0).toLoadRect fb)⟩]
      (Rect.unit (s := S1024x2048) ![0, 512] S1024x256.size hcol).toLoadRect = bCols fb 2 (by decide) :=
  bRead 2 (by decide) fb hcol
theorem bRead_3 (fb : BT F) (hcol : ∀ i, (![0, 768] : Fin 2 → ℕ) i + S1024x256.size i ≤ S1024x2048.size i) :
    bbM.view.readCov [⟨Rect.unit (s := S1024x2048) ![0, 0] S1024x2048.size inb_S1024x2048_S1024x2048_0_0,
        k0_pay1 (View.readAt (Elt F) bM.view (Rect.unit (s := S1024x2048) ![0, 0] S1024x2048.size inb_S1024x2048_S1024x2048_0_0).toLoadRect fb)⟩]
      (Rect.unit (s := S1024x2048) ![0, 768] S1024x256.size hcol).toLoadRect = bCols fb 3 (by decide) :=
  bRead 3 (by decide) fb hcol
theorem bRead_4 (fb : BT F) (hcol : ∀ i, (![0, 1024] : Fin 2 → ℕ) i + S1024x256.size i ≤ S1024x2048.size i) :
    bbM.view.readCov [⟨Rect.unit (s := S1024x2048) ![0, 0] S1024x2048.size inb_S1024x2048_S1024x2048_0_0,
        k0_pay1 (View.readAt (Elt F) bM.view (Rect.unit (s := S1024x2048) ![0, 0] S1024x2048.size inb_S1024x2048_S1024x2048_0_0).toLoadRect fb)⟩]
      (Rect.unit (s := S1024x2048) ![0, 1024] S1024x256.size hcol).toLoadRect = bCols fb 4 (by decide) :=
  bRead 4 (by decide) fb hcol
theorem bRead_5 (fb : BT F) (hcol : ∀ i, (![0, 1280] : Fin 2 → ℕ) i + S1024x256.size i ≤ S1024x2048.size i) :
    bbM.view.readCov [⟨Rect.unit (s := S1024x2048) ![0, 0] S1024x2048.size inb_S1024x2048_S1024x2048_0_0,
        k0_pay1 (View.readAt (Elt F) bM.view (Rect.unit (s := S1024x2048) ![0, 0] S1024x2048.size inb_S1024x2048_S1024x2048_0_0).toLoadRect fb)⟩]
      (Rect.unit (s := S1024x2048) ![0, 1280] S1024x256.size hcol).toLoadRect = bCols fb 5 (by decide) :=
  bRead 5 (by decide) fb hcol
theorem bRead_6 (fb : BT F) (hcol : ∀ i, (![0, 1536] : Fin 2 → ℕ) i + S1024x256.size i ≤ S1024x2048.size i) :
    bbM.view.readCov [⟨Rect.unit (s := S1024x2048) ![0, 0] S1024x2048.size inb_S1024x2048_S1024x2048_0_0,
        k0_pay1 (View.readAt (Elt F) bM.view (Rect.unit (s := S1024x2048) ![0, 0] S1024x2048.size inb_S1024x2048_S1024x2048_0_0).toLoadRect fb)⟩]
      (Rect.unit (s := S1024x2048) ![0, 1536] S1024x256.size hcol).toLoadRect = bCols fb 6 (by decide) :=
  bRead 6 (by decide) fb hcol
theorem bRead_7 (fb : BT F) (hcol : ∀ i, (![0, 1792] : Fin 2 → ℕ) i + S1024x256.size i ≤ S1024x2048.size i) :
    bbM.view.readCov [⟨Rect.unit (s := S1024x2048) ![0, 0] S1024x2048.size inb_S1024x2048_S1024x2048_0_0,
        k0_pay1 (View.readAt (Elt F) bM.view (Rect.unit (s := S1024x2048) ![0, 0] S1024x2048.size inb_S1024x2048_S1024x2048_0_0).toLoadRect fb)⟩]
      (Rect.unit (s := S1024x2048) ![0, 1792] S1024x256.size hcol).toLoadRect = bCols fb 7 (by decide) :=
  bRead 7 (by decide) fb hcol

/-- info: 'Cert.Kernel.P.aRead_1' depends on axioms: [propext, Classical.choice, Quot.sound] -/
#guard_msgs in #print axioms aRead_1

/-- info: 'Cert.Kernel.P.bRead_3' depends on axioms: [propext, Classical.choice, Quot.sound] -/
#guard_msgs in #print axioms bRead_3

end Cert.Kernel.P

end
-- ==== Proof.KSites.lean ====
import proofs.«900901_g7700000000000902_dist_matmul_silu_kshard_i_m2048_n2048_k1024_v7x_i4_bf16_1_alg».proof.Proof.KProto
import proofs.«900901_g7700000000000902_dist_matmul_silu_kshard_i_m2048_n2048_k1024_v7x_i4_bf16_1_alg».proof.Proof.KReads
import proofs.«900901_g7700000000000902_dist_matmul_silu_kshard_i_m2048_n2048_k1024_v7x_i4_bf16_1_alg».proof.Proof.KSlotLemmas

/-!
What a slot or a block of the result holds just before it is sent, named by the schedule's values.

A store of the reduce-scatter writes, through the slot's rectangle of the whole scratch, a payload that is a
function of the rows read from the left operand, the columns read from the narrowed right operand and, after the
first step, the block that landed from the neighbour. Written out, the payload of the first step is the narrowed
partial product, the payload of a later step is the narrowed sum of the landed block and the partial product, and
the payload of the last step, stored into the result, is `silu` of that sum. With the operands and the landed
block named, the stored contents agree, on the slot's or block's own elements, with the schedule's `sent` and
`outBlk`.
-/

noncomputable section

namespace Cert.Kernel.P

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.Sem

variable {F : FTy → Type} [FloatOps F]

local notation "𝕄" => MT nD τ sig Unit (Elt F) ℕ UU ℕ

section Sites
variable (fa : Dev nD → AT F) (fb : Dev nD → BT F)

/-! ## The schedule's values, unfolded one step -/

theorem sent_zero (c : Dev nD) (a : ℕ) (ha : a < 8) :
    sent fa fb 0 c a ha = toBlk (mm (aRows (fa c) (chunk c (rsShift a 0)) (chunk_lt _ _)) (bCols (fb c) a ha)) := rfl

theorem sent_succ (b : ℕ) (c : Dev nD) (a : ℕ) (ha : a < 8) :
    sent fa fb (b + 1) c a ha
      = toBlk (accum (mm (aRows (fa c) (chunk c (rsShift a (b + 1))) (chunk_lt _ _)) (bCols (fb c) a ha))
          (sent fa fb b (sdev a c) a ha)) := rfl

theorem outBlk_eq (c : Dev nD) (a : ℕ) (ha : a < 8) :
    outBlk fa fb c a ha
      = siluBlk (accum (mm (aRows (fa c) (chunk c (rsShift a 3)) (chunk_lt _ _)) (bCols (fb c) a ha))
          (sent fa fb 2 (sdev a c) a ha)) := rfl

/-! ## The first store of a chain -/

/-- Slot `(a, 0)` after the first store holds the narrowed partial product of the chain's first row band. -/
theorem site_rs0 (c : Dev nD) (a : ℕ) (ha : a < 8) (h : ∀ i, (![a, 0, 0, 0] : Fin 4 → Nat) i + S1x1x512x256.size i ≤ S8x4x512x256.size i) (f : RT F)
    (P : FVec F S1x1x512x256 .bf16) (A : Vec F S512x1024 .f32) (V : Vec F S1024x256 .bf16)
    (hP : P = shapeCast S1x1x512x256 (toBlk (mm A V)) shapeCasts_S512x256_S1x1x512x256)
    (hA : A = aRows (fa c) (chunk c (rsShift a 0)) (chunk_lt _ _)) (hV : V = bCols (fb c) a ha) :
    ∀ i ∈ (slotM a 0 h).view.set,
      View.write (Elt F) (rsM.access (Rect.unit (s := S8x4x512x256) ![a, 0, 0, 0] S1x1x512x256.size h)) f P Finset.univ i
        = slotBuf a 0 h (sent fa fb 0 c a ha) i := by
  subst hP hA hV
  exact slot_store_eq a 0 h f _

/-! ## An accumulating store -/

/-- Slot `(a, b + 1)` after the store of step `b + 1` holds the narrowed sum of what landed and the step's partial product. -/
theorem site_rsK (c : Dev nD) (a : ℕ) (ha : a < 8) (b : ℕ) (hb : b < 2) (h : ∀ i, (![a, b, 0, 0] : Fin 4 → Nat) i + S1x1x512x256.size i ≤ S8x4x512x256.size i) (h' : ∀ i, (![a, b + 1, 0, 0] : Fin 4 → Nat) i + S1x1x512x256.size i ≤ S8x4x512x256.size i)
    (g : RT F) (P : FVec F S1x1x512x256 .bf16) (ps : FVec F S512x256 .f32) (Lv : Vec F S1x1x512x256 .bf16)
    (A : Vec F S512x1024 .f32) (V : Vec F S1024x256 .bf16)
    (hP : P = shapeCast S1x1x512x256 (toBlk (accum ps (shapeCast S512x256 Lv shapeCasts_S1x1x512x256_S512x256))) shapeCasts_S512x256_S1x1x512x256)
    (hps : ps = mm A V)
    (hA : A = aRows (fa c) (chunk c (rsShift a (b + 1))) (chunk_lt _ _)) (hV : V = bCols (fb c) a ha)
    (hL : Lv = shapeCast S1x1x512x256 (sent fa fb b (sdev a c) a ha) shapeCasts_S512x256_S1x1x512x256) :
    ∀ i ∈ (slotM a (b + 1) h').view.set,
      View.write (Elt F) (rsM.access (Rect.unit (s := S8x4x512x256) ![a, b + 1, 0, 0] S1x1x512x256.size h')) g P Finset.univ i
        = slotBuf a (b + 1) h' (sent fa fb (b + 1) c a ha) i := by
  subst hP hps hA hV hL
  rw [shapeCast_shapeCast, sent_succ]
  exact slot_store_eq a (b + 1) h' g _

/-! ## The finishing store -/

/-- The result block after the finishing store holds `silu` of the completed sum. -/
theorem site_out (c : Dev nD) (a : ℕ) (ha : a < 8) (off off' : Fin 2 → ℕ) (h : ∀ i, off i + S512x256.size i ≤ S2048x2048.size i) (h' : ∀ i, off' i + S512x256.size i ≤ S2048x2048.size i)
    (heq : off = off') (g : OT F) (P : FVec F S512x256 .bf16) (ps : FVec F S512x256 .f32) (Lv : Vec F S1x1x512x256 .bf16)
    (A : Vec F S512x1024 .f32) (V : Vec F S1024x256 .bf16)
    (hP : P = siluBlk (accum ps (shapeCast S512x256 Lv shapeCasts_S1x1x512x256_S512x256)))
    (hps : ps = mm A V)
    (hA : A = aRows (fa c) (chunk c (rsShift a 3)) (chunk_lt _ _)) (hV : V = bCols (fb c) a ha)
    (hL : Lv = shapeCast S1x1x512x256 (sent fa fb 2 (sdev a c) a ha) shapeCasts_S512x256_S1x1x512x256) :
    ∀ i ∈ (oblkM off' h').view.set,
      View.write (Elt F) (oM.access (Rect.unit (s := S2048x2048) off S512x256.size h)) g P Finset.univ i
        = oblkBuf off' h' (outBlk fa fb c a ha) i := by
  subst heq hP hps hA hV hL
  rw [shapeCast_shapeCast, outBlk_eq]
  exact oblk_store_eq off h g _

end Sites

/-! ## Forwarding in the all-gather -/

/-- A block that landed from a block holding `v` holds `v`, at whatever spelling of its offsets. -/
theorem site_fwd (off off' offS : Fin 2 → ℕ) (h : ∀ i, off i + S512x256.size i ≤ S2048x2048.size i) (h' : ∀ i, off' i + S512x256.size i ≤ S2048x2048.size i) (hS : ∀ i, offS i + S512x256.size i ≤ S2048x2048.size i)
    (heq : off = off') (fd : OT F) (v : Blk F) :
    ∀ i ∈ (oblkM off' h').view.set,
      (oblkM off h).view.write (Elt F) fd ((oblkM offS hS).view.read (Elt F) (oblkBuf offS hS v)) Finset.univ i
        = oblkBuf off' h' v i := by
  subst heq
  exact oblk_fwd off offS h hS fd v

/-! ## The same, as equalities of assertions

Contents that agree on the block's own elements give one assertion; with equal offsets the block's location and
element set are the same too. -/

section SitesPt
variable (fa : Dev nD → AT F) (fb : Dev nD → BT F)

theorem site_out_pt (c : Dev nD) (a : ℕ) (ha : a < 8) (off off' : Fin 2 → ℕ) (h : ∀ i, off i + S512x256.size i ≤ S2048x2048.size i) (h' : ∀ i, off' i + S512x256.size i ≤ S2048x2048.size i)
    (heq : off = off') (q : PosShare TreeShare) (g : OT F) (P : FVec F S512x256 .bf16) (ps : FVec F S512x256 .f32) (Lv : Vec F S1x1x512x256 .bf16)
    (A : Vec F S512x1024 .f32) (V : Vec F S1024x256 .bf16)
    (hP : P = siluBlk (accum ps (shapeCast S512x256 Lv shapeCasts_S1x1x512x256_S512x256)))
    (hps : ps = mm A V)
    (hA : A = aRows (fa c) (chunk c (rsShift a 3)) (chunk_lt _ _)) (hV : V = bCols (fb c) a ha)
    (hL : Lv = shapeCast S1x1x512x256 (sent fa fb 2 (sdev a c) a ha) shapeCasts_S512x256_S1x1x512x256) :
    ((oblkM off h).view.loc (c : Thread nD τ) ↦[(oblkM off h).view.set]{q}
        View.write (Elt F) (oM.access (Rect.unit (s := S2048x2048) off S512x256.size h)) g P Finset.univ : sProp 𝕄)
      = ((oblkM off' h').view.loc (c : Thread nD τ) ↦[(oblkM off' h').view.set]{q} oblkBuf off' h' (outBlk fa fb c a ha) : sProp 𝕄) := by
  subst heq
  exact pointsTo_congr (site_out fa fb c a ha off off h h rfl g P ps Lv A V hP hps hA hV hL)

end SitesPt

theorem site_fwd_pt (c : Dev nD) (off off' offS : Fin 2 → ℕ) (h : ∀ i, off i + S512x256.size i ≤ S2048x2048.size i) (h' : ∀ i, off' i + S512x256.size i ≤ S2048x2048.size i) (hS : ∀ i, offS i + S512x256.size i ≤ S2048x2048.size i)
    (heq : off = off') (q : PosShare TreeShare) (fd : OT F) (v : Blk F) :
    ((oblkM off h).view.loc (c : Thread nD τ) ↦[(oblkM off h).view.set]{q}
        (oblkM off h).view.write (Elt F) fd ((oblkM offS hS).view.read (Elt F) (oblkBuf offS hS v)) Finset.univ : sProp 𝕄)
      = ((oblkM off' h').view.loc (c : Thread nD τ) ↦[(oblkM off' h').view.set]{q} oblkBuf off' h' v : sProp 𝕄) := by
  subst heq
  exact pointsTo_congr (oblk_fwd off offS h hS fd v)

/-- info: 'Cert.Kernel.P.site_rsK' depends on axioms: [propext, Classical.choice, Quot.sound] -/
#guard_msgs in #print axioms site_rsK

/-- info: 'Cert.Kernel.P.site_out_pt' depends on axioms: [propext, Classical.choice, Quot.sound] -/
#guard_msgs in #print axioms site_out_pt

end Cert.Kernel.P

end
-- ==== Proof.KSplit.lean ====
/-
  A buffer held whole is the same as its pieces held one by one.

  The 8 × 4 × 512 × 256 scratch is the disjoint union of its 32 slots: slot (a, b) is the set of elements whose first two
  coordinates are a and b, so two slots with different numbers share no element, and every element lies in the slot named by
  its first two coordinates. The 2048 × 2048 result buffer is the disjoint union of its 32 blocks of 512 rows and 256 columns:
  the block at (512 r, 256 a) holds the elements with row in [512 r, 512 r + 512) and column in [256 a, 256 a + 256), and
  element (i, j) lies in the block with r = ⌊i / 512⌋, a = ⌊j / 256⌋. The four bands of rows may be numbered in any order
  (a bijection ρ of the four numbers); a device numbers them by ring distance, band (c + k) mod 4 at distance k.
  A points-to over a disjoint union of element sets is the separating conjunction of the points-tos over the sets; pieces held
  at different contents are joined by contents that agree with each piece on its own set.
-/
import proofs.«900901_g7700000000000902_dist_matmul_silu_kshard_i_m2048_n2048_k1024_v7x_i4_bf16_1_alg».proof.Proof.KProto
import Idealize.ShloMosaic.Rules.PointsTo
import Idealize.ShloMosaic.Lib.Pipeline.Value

noncomputable section

namespace Cert.Kernel.P

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The 32 slots partition the scratch -/

/-- A slot's elements are those of its rectangle: first coordinate `a`, second `b`. -/
theorem slot_set_eq (a b : ℕ) (h : ∀ i, (![a, b, 0, 0] : Fin 4 → Nat) i + S1x1x512x256.size i ≤ S8x4x512x256.size i) :
    (slotM a b h).view.set = (Rect.unit (s := S8x4x512x256) ![a, b, 0, 0] S1x1x512x256.size h).set := by
  exact (View.set_reshape _ _).trans (View.set_slice_whole _ _)

theorem slot_sets_disjoint (a b a' b' : ℕ) (h : ∀ i, (![a, b, 0, 0] : Fin 4 → Nat) i + S1x1x512x256.size i ≤ S8x4x512x256.size i) (h' : ∀ i, (![a', b', 0, 0] : Fin 4 → Nat) i + S1x1x512x256.size i ≤ S8x4x512x256.size i) (hne : a ≠ a' ∨ b ≠ b') :
    Disjoint (slotM a b h).view.set (slotM a' b' h').view.set := by
  rw [slot_set_eq, slot_set_eq]
  rcases hne with hne | hne
  · exact Rect.unit_disjoint 0 (by show a + 1 ≤ a' ∨ a' + 1 ≤ a; omega)
  · exact Rect.unit_disjoint 1 (by show b + 1 ≤ b' ∨ b' + 1 ≤ b; omega)

theorem slot_sets_cover (c : Dev nD) :
    ((Finset.univ : Finset (Fin 8 × Fin 4)).biUnion
        (fun ab => (slotM ab.1.val ab.2.val (slot_inb _ _ ab.1.isLt ab.2.isLt)).view.set)
      : Finset (Idx ((c : Thread nD τ).loc cc0_scratch0))) = Finset.univ := by
  ext (i : S8x4x512x256.Idx)
  simp only [Finset.mem_biUnion, Finset.mem_univ, true_and, iff_true]
  refine ⟨(⟨(i 0).val, (i 0).isLt⟩, ⟨(i 1).val, (i 1).isLt⟩), ?_⟩
  rw [slot_set_eq, Rect.mem_set_unit]
  intro a
  have h2 := (i 2).isLt
  have h3 := (i 3).isLt
  fin_cases a
  · show (i 0).val ≤ (i 0).val ∧ (i 0).val < (i 0).val + 1; omega
  · show (i 1).val ≤ (i 1).val ∧ (i 1).val < (i 1).val + 1; omega
  · show 0 ≤ (i 2).val ∧ (i 2).val < 0 + 512; exact ⟨Nat.zero_le _, by simpa using h2⟩
  · show 0 ≤ (i 3).val ∧ (i 3).val < 0 + 256; exact ⟨Nat.zero_le _, by simpa using h3⟩

/-- The whole scratch is its 32 slots, each held at the same contents. -/
theorem scratch_split_eq (c : Dev nD) (q : PosShare TreeShare) (f : Buf (Elt F) ((c : Thread nD τ).loc cc0_scratch0)) :
    (((c : Thread nD τ).loc cc0_scratch0) ↦{q} f : sProp 𝕄)
      = bigSep (Finset.univ : Finset (Fin 8 × Fin 4)) fun ab =>
          ((slotM ab.1.val ab.2.val (slot_inb _ _ ab.1.isLt ab.2.isLt)).view.loc (c : Thread nD τ)
            ↦[(slotM ab.1.val ab.2.val (slot_inb _ _ ab.1.isLt ab.2.isLt)).view.set]{q} f) := by
  rw [← pointsTo_biUnion (ℓ := (c : Thread nD τ).loc cc0_scratch0) (q := q) (f := f) (Finset.univ : Finset (Fin 8 × Fin 4))
    (fun ab => (slotM ab.1.val ab.2.val (slot_inb _ _ ab.1.isLt ab.2.isLt)).view.set)
    (fun t _ t' _ hne => slot_sets_disjoint _ _ _ _ _ _ (by
      by_contra hcon
      rw [not_or, not_not, not_not] at hcon
      exact hne (Prod.ext (Fin.ext hcon.1) (Fin.ext hcon.2))))]
  rw [slot_sets_cover c]

theorem scratch_split (c : Dev nD) (q : PosShare TreeShare) (f : Buf (Elt F) ((c : Thread nD τ).loc cc0_scratch0)) :
    (((c : Thread nD τ).loc cc0_scratch0) ↦{q} f : sProp 𝕄)
      ⊣⊢ bigSep (Finset.univ : Finset (Fin 8 × Fin 4)) fun ab =>
          ((slotM ab.1.val ab.2.val (slot_inb _ _ ab.1.isLt ab.2.isLt)).view.loc (c : Thread nD τ) ↦[(slotM ab.1.val ab.2.val (slot_inb _ _ ab.1.isLt ab.2.isLt)).view.set]{q} f) :=
  BiEntails.of_eq (scratch_split_eq c q f)

/-! ## Pieces held at different contents -/

/-- A separating conjunction of existentials is an existential over a choice of witnesses. -/
theorem bigSep_exists_choice {T α : Type} [DecidableEq T] [Nonempty α] (S : Finset T) (P : T → α → sProp 𝕄) :
    bigSep S (fun t => iprop(∃ g, P t g)) ⊢ iprop(∃ fs : T → α, bigSep S (fun t => P t (fs t))) := by
  induction S using Finset.induction_on with
  | empty =>
    iintro -
    iexists fun _ => Classical.arbitrary α
    rw [bigSep_empty]; iempintro
  | insert t S ht ih =>
    rw [bigSep_insert ht]
    refine (show iprop((∃ g, P t g) ∗ bigSep S (fun t => iprop(∃ g, P t g))) ⊢ _ from ?_)
    iintro ⟨Ht, HS⟩
    icases Ht with ⟨%g, Ht⟩
    ihave H := ih $$ HS
    icases H with ⟨%fs, HS⟩
    iexists Function.update fs t g
    have e1 : P t (Function.update fs t g t) = P t g := by rw [Function.update_self]
    have e2 : bigSep S (fun t' => P t' (Function.update fs t g t')) = bigSep S (fun t' => P t' (fs t')) :=
      bigSep_congr fun t' ht' => by rw [Function.update_of_ne (show t' ≠ t from fun e => ht (e ▸ ht'))]
    have step : iprop(P t g ∗ bigSep S (fun t' => P t' (fs t')))
        ⊢ bigSep (insert t S) (fun t' => P t' (Function.update fs t g t')) := by
      rw [bigSep_insert ht, e1, e2]; exact .rfl
    iapply step
    isplitl [Ht]; · iexact Ht
    iexact HS

/-- The 32 slots, each held at contents of its own, are the whole scratch held at contents that agree with each on its slot. -/
theorem scratch_join_at (c : Dev nD) (q : PosShare TreeShare) (fs : Fin 8 × Fin 4 → Buf (Elt F) ((c : Thread nD τ).loc cc0_scratch0)) :
    (bigSep (Finset.univ : Finset (Fin 8 × Fin 4)) fun ab =>
        ((slotM ab.1.val ab.2.val (slot_inb _ _ ab.1.isLt ab.2.isLt)).view.loc (c : Thread nD τ) ↦[(slotM ab.1.val ab.2.val (slot_inb _ _ ab.1.isLt ab.2.isLt)).view.set]{q} fs ab) : sProp 𝕄)
      ⊢ iprop(∃ f, ⌜∀ ab : Fin 8 × Fin 4, ∀ i ∈ (slotM ab.1.val ab.2.val (slot_inb _ _ ab.1.isLt ab.2.isLt)).view.set, f i = fs ab i⌝
          ∗ (((c : Thread nD τ).loc cc0_scratch0) ↦{q} f)) := by
  have key := pointsTo_biUnion_join (Ix := Unit) (Val := Elt F) (Name := ℕ) (U := UU) (Lvl := ℕ)
      (ℓ := (c : Thread nD τ).loc cc0_scratch0) (q := q) (Finset.univ : Finset (Fin 8 × Fin 4))
      (fun ab => (slotM ab.1.val ab.2.val (slot_inb _ _ ab.1.isLt ab.2.isLt)).view.set) fs (fs (0, 0))
      (fun t _ t' _ hne => slot_sets_disjoint _ _ _ _ _ _ (by
        by_contra hcon
        rw [not_or, not_not, not_not] at hcon
        exact hne (Prod.ext (Fin.ext hcon.1) (Fin.ext hcon.2))))
  rw [slot_sets_cover c] at key
  refine key.trans ?_
  iintro ⟨%g, %hg, H⟩
  iexists g
  isplitr
  · ipureintro; exact fun ab => hg ab (Finset.mem_univ _)
  · iexact H

/-- The 32 slots, each held at some contents, are the whole scratch held at some contents. -/
theorem scratch_join (c : Dev nD) (q : PosShare TreeShare) :
    (bigSep (Finset.univ : Finset (Fin 8 × Fin 4)) fun ab =>
        iprop(∃ g : Buf (Elt F) ((c : Thread nD τ).loc cc0_scratch0),
          (slotM ab.1.val ab.2.val (slot_inb _ _ ab.1.isLt ab.2.isLt)).view.loc (c : Thread nD τ) ↦[(slotM ab.1.val ab.2.val (slot_inb _ _ ab.1.isLt ab.2.isLt)).view.set]{q} g) : sProp 𝕄)
      ⊢ iprop(∃ f, ((c : Thread nD τ).loc cc0_scratch0) ↦{q} f) := by
  refine (bigSep_exists_choice Finset.univ fun (ab : Fin 8 × Fin 4) (g : Buf (Elt F) ((c : Thread nD τ).loc cc0_scratch0)) =>
    ((slotM ab.1.val ab.2.val (slot_inb _ _ ab.1.isLt ab.2.isLt)).view.loc (c : Thread nD τ) ↦[(slotM ab.1.val ab.2.val (slot_inb _ _ ab.1.isLt ab.2.isLt)).view.set]{q} g : sProp 𝕄)).trans ?_
  iintro ⟨%fs, H⟩
  ihave H := (scratch_join_at c q fs) $$ H
  icases H with ⟨%f, -, H⟩
  iexists f
  iexact H

/-! ## The 32 blocks partition the result buffer -/

/-- A block's elements are those of its rectangle. -/
theorem oblk_set_eq (off : Fin 2 → ℕ) (h : ∀ i, off i + S512x256.size i ≤ S2048x2048.size i) :
    (oblkM off h).view.set = (Rect.unit (s := S2048x2048) off S512x256.size h).set :=
  View.set_slice_whole _ _

theorem oblk_sets_disjoint (r a r' a' : ℕ) (h : ∀ i, (![512 * r, 256 * a] : Fin 2 → ℕ) i + S512x256.size i ≤ S2048x2048.size i)
    (h' : ∀ i, (![512 * r', 256 * a'] : Fin 2 → ℕ) i + S512x256.size i ≤ S2048x2048.size i) (hne : r ≠ r' ∨ a ≠ a') :
    Disjoint (oblkM ![512 * r, 256 * a] h).view.set (oblkM ![512 * r', 256 * a'] h').view.set := by
  rw [oblk_set_eq, oblk_set_eq]
  rcases hne with hne | hne
  · exact Rect.unit_disjoint 0 (by show 512 * r + 512 ≤ 512 * r' ∨ 512 * r' + 512 ≤ 512 * r; omega)
  · exact Rect.unit_disjoint 1 (by show 256 * a + 256 ≤ 256 * a' ∨ 256 * a' + 256 ≤ 256 * a; omega)

section Bands
/-! The four bands of rows in any order: `ρ` numbers them, each once. -/
variable (ρ : Fin 4 → ℕ) (hρ : ∀ k, ρ k < 4) (hinj : Function.Injective ρ) (hsurj : ∀ r, r < 4 → ∃ k, ρ k = r)

include hsurj in
theorem oblk_sets_cover (c : Dev nD) :
    ((Finset.univ : Finset (Fin 4 × Fin 8)).biUnion (fun ka => (oblkM ![512 * ρ ka.1, 256 * ka.2.val] (oblk_inb _ _ (hρ ka.1) ka.2.isLt)).view.set)
      : Finset (Idx ((c : Thread nD τ).loc cc0_stg2_0))) = Finset.univ := by
  ext (i : S2048x2048.Idx)
  simp only [Finset.mem_biUnion, Finset.mem_univ, true_and, iff_true]
  have h0 : (i 0).val < 2048 := (i 0).isLt
  have h1 : (i 1).val < 2048 := (i 1).isLt
  obtain ⟨k, hk⟩ := hsurj ((i 0).val / 512) (by omega)
  refine ⟨(k, ⟨(i 1).val / 256, by omega⟩), ?_⟩
  rw [oblk_set_eq, Rect.mem_set_unit]
  intro a
  fin_cases a
  · show 512 * ρ k ≤ (i 0).val ∧ (i 0).val < 512 * ρ k + 512
    rw [hk]; omega
  · show 256 * ((i 1).val / 256) ≤ (i 1).val ∧ (i 1).val < 256 * ((i 1).val / 256) + 256
    omega

include hinj hsurj in
/-- The whole result buffer is its 32 blocks, each held at the same contents. -/
theorem block_split_eq_of (c : Dev nD) (q : PosShare TreeShare) (G : Buf (Elt F) ((c : Thread nD τ).loc cc0_stg2_0)) :
    (((c : Thread nD τ).loc cc0_stg2_0) ↦{q} G : sProp 𝕄)
      = bigSep (Finset.univ : Finset (Fin 4 × Fin 8)) fun ka =>
          ((oblkM ![512 * ρ ka.1, 256 * ka.2.val] (oblk_inb _ _ (hρ ka.1) ka.2.isLt)).view.loc (c : Thread nD τ) ↦[(oblkM ![512 * ρ ka.1, 256 * ka.2.val] (oblk_inb _ _ (hρ ka.1) ka.2.isLt)).view.set]{q} G) := by
  rw [← pointsTo_biUnion (ℓ := (c : Thread nD τ).loc cc0_stg2_0) (q := q) (f := G) (Finset.univ : Finset (Fin 4 × Fin 8))
    (fun ka => (oblkM ![512 * ρ ka.1, 256 * ka.2.val] (oblk_inb _ _ (hρ ka.1) ka.2.isLt)).view.set)
    (fun t _ t' _ hne => oblk_sets_disjoint _ _ _ _ _ _ (by
      by_contra hcon
      rw [not_or, not_not, not_not] at hcon
      exact hne (Prod.ext (hinj hcon.1) (Fin.ext hcon.2))))]
  rw [oblk_sets_cover ρ hρ hsurj c]

include hinj in
/-- The 32 blocks, each held at contents of its own, are the whole result buffer held at contents that agree with each on its block. -/
theorem blocks_join_at_of (c : Dev nD) (q : PosShare TreeShare) (fs : Fin 4 × Fin 8 → Buf (Elt F) ((c : Thread nD τ).loc cc0_stg2_0)) :
    (bigSep (Finset.univ : Finset (Fin 4 × Fin 8)) fun ka =>
        ((oblkM ![512 * ρ ka.1, 256 * ka.2.val] (oblk_inb _ _ (hρ ka.1) ka.2.isLt)).view.loc (c : Thread nD τ) ↦[(oblkM ![512 * ρ ka.1, 256 * ka.2.val] (oblk_inb _ _ (hρ ka.1) ka.2.isLt)).view.set]{q} fs ka) : sProp 𝕄)
      ⊢ iprop(∃ f, ⌜∀ ka : Fin 4 × Fin 8, ∀ i ∈ (oblkM ![512 * ρ ka.1, 256 * ka.2.val] (oblk_inb _ _ (hρ ka.1) ka.2.isLt)).view.set, f i = fs ka i⌝
          ∗ (((c : Thread nD τ).loc cc0_stg2_0)
              ↦[(Finset.univ : Finset (Fin 4 × Fin 8)).biUnion fun ka => (oblkM ![512 * ρ ka.1, 256 * ka.2.val] (oblk_inb _ _ (hρ ka.1) ka.2.isLt)).view.set]{q} f)) := by
  have key := pointsTo_biUnion_join (Ix := Unit) (Val := Elt F) (Name := ℕ) (U := UU) (Lvl := ℕ)
      (ℓ := (c : Thread nD τ).loc cc0_stg2_0) (q := q) (Finset.univ : Finset (Fin 4 × Fin 8))
      (fun ka => (oblkM ![512 * ρ ka.1, 256 * ka.2.val] (oblk_inb _ _ (hρ ka.1) ka.2.isLt)).view.set) fs (fs (0, 0))
      (fun t _ t' _ hne => oblk_sets_disjoint _ _ _ _ _ _ (by
        by_contra hcon
        rw [not_or, not_not, not_not] at hcon
        exact hne (Prod.ext (hinj hcon.1) (Fin.ext hcon.2))))
  refine key.trans ?_
  iintro ⟨%g, %hg, H⟩
  iexists g
  isplitr
  · ipureintro; exact fun ka => hg ka (Finset.mem_univ _)
  · iexact H

end Bands

section Bands'
variable (ρ : Fin 4 → ℕ) (hρ : ∀ k, ρ k < 4) (hinj : Function.Injective ρ) (hsurj : ∀ r, r < 4 → ∃ k, ρ k = r)

include hinj hsurj in
/-- The 32 blocks, each held at some contents, are the whole result buffer held at some contents. -/
theorem blocks_join_ex_of (c : Dev nD) (q : PosShare TreeShare) :
    (bigSep (Finset.univ : Finset (Fin 4 × Fin 8)) fun ka =>
        iprop(∃ g : Buf (Elt F) ((c : Thread nD τ).loc cc0_stg2_0),
          (oblkM ![512 * ρ ka.1, 256 * ka.2.val] (oblk_inb _ _ (hρ ka.1) ka.2.isLt)).view.loc (c : Thread nD τ) ↦[(oblkM ![512 * ρ ka.1, 256 * ka.2.val] (oblk_inb _ _ (hρ ka.1) ka.2.isLt)).view.set]{q} g) : sProp 𝕄)
      ⊢ iprop(∃ f, ((c : Thread nD τ).loc cc0_stg2_0) ↦{q} f) := by
  refine (bigSep_exists_choice Finset.univ fun (ka : Fin 4 × Fin 8) (g : Buf (Elt F) ((c : Thread nD τ).loc cc0_stg2_0)) =>
    ((oblkM ![512 * ρ ka.1, 256 * ka.2.val] (oblk_inb _ _ (hρ ka.1) ka.2.isLt)).view.loc (c : Thread nD τ) ↦[(oblkM ![512 * ρ ka.1, 256 * ka.2.val] (oblk_inb _ _ (hρ ka.1) ka.2.isLt)).view.set]{q} g : sProp 𝕄)).trans ?_
  have key := fun fs => blocks_join_at_of (F := F) ρ hρ hinj c q fs
  simp only [oblk_sets_cover ρ hρ hsurj c] at key
  iintro ⟨%fs, H⟩
  ihave H := (key fs) $$ H
  icases H with ⟨%f, -, H⟩
  iexists f
  iexact H

end Bands'

/-! ### The bands in their own order -/

theorem block_split_eq (c : Dev nD) (q : PosShare TreeShare) (G : Buf (Elt F) ((c : Thread nD τ).loc cc0_stg2_0)) :
    (((c : Thread nD τ).loc cc0_stg2_0) ↦{q} G : sProp 𝕄)
      = bigSep (Finset.univ : Finset (Fin 4 × Fin 8)) fun ra =>
          ((oblkM ![512 * ra.1.val, 256 * ra.2.val] (oblk_inb _ _ ra.1.isLt ra.2.isLt)).view.loc (c : Thread nD τ) ↦[(oblkM ![512 * ra.1.val, 256 * ra.2.val] (oblk_inb _ _ ra.1.isLt ra.2.isLt)).view.set]{q} G) :=
  block_split_eq_of (fun k : Fin 4 => k.val) (fun k => k.isLt) Fin.val_injective (fun r hr => ⟨⟨r, hr⟩, rfl⟩) c q G

theorem block_split (c : Dev nD) (q : PosShare TreeShare) (G : Buf (Elt F) ((c : Thread nD τ).loc cc0_stg2_0)) :
    (((c : Thread nD τ).loc cc0_stg2_0) ↦{q} G : sProp 𝕄)
      ⊣⊢ bigSep (Finset.univ : Finset (Fin 4 × Fin 8)) fun ra =>
          ((oblkM ![512 * ra.1.val, 256 * ra.2.val] (oblk_inb _ _ ra.1.isLt ra.2.isLt)).view.loc (c : Thread nD τ) ↦[(oblkM ![512 * ra.1.val, 256 * ra.2.val] (oblk_inb _ _ ra.1.isLt ra.2.isLt)).view.set]{q} G) :=
  BiEntails.of_eq (block_split_eq c q G)

/-- The 32 blocks, all held at one `G`, are the whole result buffer held at `G`. -/
theorem blocks_join (c : Dev nD) (q : PosShare TreeShare) (G : Buf (Elt F) ((c : Thread nD τ).loc cc0_stg2_0)) :
    (bigSep (Finset.univ : Finset (Fin 4 × Fin 8)) fun ra =>
        ((oblkM ![512 * ra.1.val, 256 * ra.2.val] (oblk_inb _ _ ra.1.isLt ra.2.isLt)).view.loc (c : Thread nD τ) ↦[(oblkM ![512 * ra.1.val, 256 * ra.2.val] (oblk_inb _ _ ra.1.isLt ra.2.isLt)).view.set]{q} G) : sProp 𝕄)
      ⊢ (((c : Thread nD τ).loc cc0_stg2_0) ↦{q} G) :=
  Entails.of_eq (block_split_eq c q G).symm

theorem blocks_join_ex (c : Dev nD) (q : PosShare TreeShare) :
    (bigSep (Finset.univ : Finset (Fin 4 × Fin 8)) fun ra =>
        iprop(∃ g : Buf (Elt F) ((c : Thread nD τ).loc cc0_stg2_0),
          (oblkM ![512 * ra.1.val, 256 * ra.2.val] (oblk_inb _ _ ra.1.isLt ra.2.isLt)).view.loc (c : Thread nD τ) ↦[(oblkM ![512 * ra.1.val, 256 * ra.2.val] (oblk_inb _ _ ra.1.isLt ra.2.isLt)).view.set]{q} g) : sProp 𝕄)
      ⊢ iprop(∃ f, ((c : Thread nD τ).loc cc0_stg2_0) ↦{q} f) :=
  blocks_join_ex_of (fun k : Fin 4 => k.val) (fun k => k.isLt) Fin.val_injective (fun r hr => ⟨⟨r, hr⟩, rfl⟩) c q

/-! ### The bands as a device counts them: band `(c + k) mod 4` at distance `k` -/

/-- At one device the four distances reach all four bands. -/
theorem chunk_surj (c : Dev nD) : ∀ r, r < 4 → ∃ k : Fin 4, chunk c k.val = r := by
  revert c; decide

theorem block_split_chunk_eq (c : Dev nD) (q : PosShare TreeShare) (G : Buf (Elt F) ((c : Thread nD τ).loc cc0_stg2_0)) :
    (((c : Thread nD τ).loc cc0_stg2_0) ↦{q} G : sProp 𝕄)
      = bigSep (Finset.univ : Finset (Fin 4 × Fin 8)) fun ka =>
          ((oblkM (rowOff c ka.1.val ka.2.val) (rowOff_inb c _ _ ka.2.isLt)).view.loc (c : Thread nD τ) ↦[(oblkM (rowOff c ka.1.val ka.2.val) (rowOff_inb c _ _ ka.2.isLt)).view.set]{q} G) :=
  block_split_eq_of (fun k : Fin 4 => chunk c k.val) (fun k => chunk_lt c k.val) (fun j k h => chunk_inj c j k h) (chunk_surj c) c q G

theorem block_split_chunk (c : Dev nD) (q : PosShare TreeShare) (G : Buf (Elt F) ((c : Thread nD τ).loc cc0_stg2_0)) :
    (((c : Thread nD τ).loc cc0_stg2_0) ↦{q} G : sProp 𝕄)
      ⊣⊢ bigSep (Finset.univ : Finset (Fin 4 × Fin 8)) fun ka =>
          ((oblkM (rowOff c ka.1.val ka.2.val) (rowOff_inb c _ _ ka.2.isLt)).view.loc (c : Thread nD τ) ↦[(oblkM (rowOff c ka.1.val ka.2.val) (rowOff_inb c _ _ ka.2.isLt)).view.set]{q} G) :=
  BiEntails.of_eq (block_split_chunk_eq c q G)

theorem blocks_join_chunk (c : Dev nD) (q : PosShare TreeShare) (G : Buf (Elt F) ((c : Thread nD τ).loc cc0_stg2_0)) :
    (bigSep (Finset.univ : Finset (Fin 4 × Fin 8)) fun ka =>
        ((oblkM (rowOff c ka.1.val ka.2.val) (rowOff_inb c _ _ ka.2.isLt)).view.loc (c : Thread nD τ) ↦[(oblkM (rowOff c ka.1.val ka.2.val) (rowOff_inb c _ _ ka.2.isLt)).view.set]{q} G) : sProp 𝕄)
      ⊢ (((c : Thread nD τ).loc cc0_stg2_0) ↦{q} G) :=
  Entails.of_eq (block_split_chunk_eq c q G).symm

theorem blocks_join_chunk_ex (c : Dev nD) (q : PosShare TreeShare) :
    (bigSep (Finset.univ : Finset (Fin 4 × Fin 8)) fun ka =>
        iprop(∃ g : Buf (Elt F) ((c : Thread nD τ).loc cc0_stg2_0),
          (oblkM (rowOff c ka.1.val ka.2.val) (rowOff_inb c _ _ ka.2.isLt)).view.loc (c : Thread nD τ) ↦[(oblkM (rowOff c ka.1.val ka.2.val) (rowOff_inb c _ _ ka.2.isLt)).view.set]{q} g) : sProp 𝕄)
      ⊢ iprop(∃ f, ((c : Thread nD τ).loc cc0_stg2_0) ↦{q} f) :=
  blocks_join_ex_of (fun k : Fin 4 => chunk c k.val) (fun k => chunk_lt c k.val) (fun j k h => chunk_inj c j k h) (chunk_surj c) c q

/-! ## Equal offsets, one assertion -/

theorem oblk_pointsTo_respell (c : Dev nD) (off off' : Fin 2 → ℕ) (h : ∀ i, off i + S512x256.size i ≤ S2048x2048.size i) (h' : ∀ i, off' i + S512x256.size i ≤ S2048x2048.size i) (heq : off = off') (q : PosShare TreeShare) (g : OT F) :
    ((oblkM off h).view.loc (c : Thread nD τ) ↦[(oblkM off h).view.set]{q} g : sProp 𝕄)
      = ((oblkM off' h').view.loc (c : Thread nD τ) ↦[(oblkM off' h').view.set]{q} g : sProp 𝕄) := by
  subst heq; rfl

/-! ## Separating conjunctions over pairs, written out in lexicographic order -/

omit [FloatOps F] in
theorem bigSep_8x4 (Φ : Fin 8 × Fin 4 → sProp 𝕄) :
    bigSep Finset.univ Φ
      = iprop(Φ (0, 0) ∗ Φ (0, 1) ∗ Φ (0, 2) ∗ Φ (0, 3) ∗ Φ (1, 0) ∗ Φ (1, 1) ∗ Φ (1, 2) ∗ Φ (1, 3) ∗ Φ (2, 0) ∗ Φ (2, 1) ∗ Φ (2, 2) ∗ Φ (2, 3) ∗ Φ (3, 0) ∗ Φ (3, 1) ∗ Φ (3, 2) ∗ Φ (3, 3) ∗ Φ (4, 0) ∗ Φ (4, 1) ∗ Φ (4, 2) ∗ Φ (4, 3) ∗ Φ (5, 0) ∗ Φ (5, 1) ∗ Φ (5, 2) ∗ Φ (5, 3) ∗ Φ (6, 0) ∗ Φ (6, 1) ∗ Φ (6, 2) ∗ Φ (6, 3) ∗ Φ (7, 0) ∗ Φ (7, 1) ∗ Φ (7, 2) ∗ Φ (7, 3)) :=
  bigSep_univ_eq_bigSepL [(0, 0), (0, 1), (0, 2), (0, 3), (1, 0), (1, 1), (1, 2), (1, 3), (2, 0), (2, 1), (2, 2), (2, 3), (3, 0), (3, 1), (3, 2), (3, 3), (4, 0), (4, 1), (4, 2), (4, 3), (5, 0), (5, 1), (5, 2), (5, 3), (6, 0), (6, 1), (6, 2), (6, 3), (7, 0), (7, 1), (7, 2), (7, 3)] (by decide) (by decide) Φ

omit [FloatOps F] in
theorem bigSep_4x8 (Φ : Fin 4 × Fin 8 → sProp 𝕄) :
    bigSep Finset.univ Φ
      = iprop(Φ (0, 0) ∗ Φ (0, 1) ∗ Φ (0, 2) ∗ Φ (0, 3) ∗ Φ (0, 4) ∗ Φ (0, 5) ∗ Φ (0, 6) ∗ Φ (0, 7) ∗ Φ (1, 0) ∗ Φ (1, 1) ∗ Φ (1, 2) ∗ Φ (1, 3) ∗ Φ (1, 4) ∗ Φ (1, 5) ∗ Φ (1, 6) ∗ Φ (1, 7) ∗ Φ (2, 0) ∗ Φ (2, 1) ∗ Φ (2, 2) ∗ Φ (2, 3) ∗ Φ (2, 4) ∗ Φ (2, 5) ∗ Φ (2, 6) ∗ Φ (2, 7) ∗ Φ (3, 0) ∗ Φ (3, 1) ∗ Φ (3, 2) ∗ Φ (3, 3) ∗ Φ (3, 4) ∗ Φ (3, 5) ∗ Φ (3, 6) ∗ Φ (3, 7)) :=
  bigSep_univ_eq_bigSepL [(0, 0), (0, 1), (0, 2), (0, 3), (0, 4), (0, 5), (0, 6), (0, 7), (1, 0), (1, 1), (1, 2), (1, 3), (1, 4), (1, 5), (1, 6), (1, 7), (2, 0), (2, 1), (2, 2), (2, 3), (2, 4), (2, 5), (2, 6), (2, 7), (3, 0), (3, 1), (3, 2), (3, 3), (3, 4), (3, 5), (3, 6), (3, 7)] (by decide) (by decide) Φ

omit [FloatOps F] in
theorem bigSep_8x3 (Φ : Fin 8 × Fin 3 → sProp 𝕄) :
    bigSep Finset.univ Φ
      = iprop(Φ (0, 0) ∗ Φ (0, 1) ∗ Φ (0, 2) ∗ Φ (1, 0) ∗ Φ (1, 1) ∗ Φ (1, 2) ∗ Φ (2, 0) ∗ Φ (2, 1) ∗ Φ (2, 2) ∗ Φ (3, 0) ∗ Φ (3, 1) ∗ Φ (3, 2) ∗ Φ (4, 0) ∗ Φ (4, 1) ∗ Φ (4, 2) ∗ Φ (5, 0) ∗ Φ (5, 1) ∗ Φ (5, 2) ∗ Φ (6, 0) ∗ Φ (6, 1) ∗ Φ (6, 2) ∗ Φ (7, 0) ∗ Φ (7, 1) ∗ Φ (7, 2)) :=
  bigSep_univ_eq_bigSepL [(0, 0), (0, 1), (0, 2), (1, 0), (1, 1), (1, 2), (2, 0), (2, 1), (2, 2), (3, 0), (3, 1), (3, 2), (4, 0), (4, 1), (4, 2), (5, 0), (5, 1), (5, 2), (6, 0), (6, 1), (6, 2), (7, 0), (7, 1), (7, 2)] (by decide) (by decide) Φ

omit [FloatOps F] in
theorem bigSep_4x3 (Φ : Fin 4 × Fin 3 → sProp 𝕄) :
    bigSep Finset.univ Φ
      = iprop(Φ (0, 0) ∗ Φ (0, 1) ∗ Φ (0, 2) ∗ Φ (1, 0) ∗ Φ (1, 1) ∗ Φ (1, 2) ∗ Φ (2, 0) ∗ Φ (2, 1) ∗ Φ (2, 2) ∗ Φ (3, 0) ∗ Φ (3, 1) ∗ Φ (3, 2)) :=
  bigSep_univ_eq_bigSepL [(0, 0), (0, 1), (0, 2), (1, 0), (1, 1), (1, 2), (2, 0), (2, 1), (2, 2), (3, 0), (3, 1), (3, 2)] (by decide) (by decide) Φ

/-- info: 'Cert.Kernel.P.scratch_split_eq' depends on axioms: [propext, Classical.choice, Quot.sound] -/
#guard_msgs in #print axioms scratch_split_eq

/-- info: 'Cert.Kernel.P.blocks_join_chunk' depends on axioms: [propext, Classical.choice, Quot.sound] -/
#guard_msgs in #print axioms blocks_join_chunk

end Cert.Kernel.P
end
-- ==== Proof.KClose.lean ====
/-
  The end of a device's body: its own transfer cells are closed and their counters read zero.

  Every cell of the ring's schedule has exactly one round, round 0, and no cell is without units. After the body's last wait on a
  cell its owner stands at round 1 of it, having taken and consumed nothing of that round; from round 1 on no round has a duty, so
  nothing can land on the cell any more. The owner may then close the cell: behind the cell's invariant the round state against
  the owner's position says the counter is zero, and the counter is what the owner keeps. Done for one cell, then for the 24 cells
  of an array of transfer semaphores at once, then for the four arrays: the 96 counters a device hands back at zero.
-/
import proofs.«900901_g7700000000000902_dist_matmul_silu_kshard_i_m2048_n2048_k1024_v7x_i4_bf16_1_alg».proof.Proof.KTables
import proofs.«900901_g7700000000000902_dist_matmul_silu_kshard_i_m2048_n2048_k1024_v7x_i4_bf16_1_alg».proof.Proof.KGhost

noncomputable section

namespace Cert.Kernel.P

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Close
variable (fa : Dev nD → AT F) (fb : Dev nD → BT F)

/-- Every cell of the schedule has the one round 0 and none is without units: a cell whose owner stands at round 1, having
    taken and consumed nothing of it, closes, and its counter reads zero. -/
theorem close_cell (g : GSem nD τ sig) (κ : ℕ) :
    iprop(cellInv ER (ringRd fa fb) κ g ∗ atPos ER g 1 ∅ 0) ⊢ (|={Set.univ}=> semVal g 0 : sProp 𝕄) :=
  Rounds.cell_close ER (ringRd fa fb) (Set.mem_univ κ) (fun h => h) (R := 1) (duties_later fa fb g)

/-- The 24 cells of one array of transfer semaphores, closed together. -/
theorem close_array (K : GSem nD τ sig → ℕ) (c : Dev nD) (arr : DmaSems sig S8x3) :
    iprop(overAB (fun a b ha hb => cellInv ER (ringRd fa fb) (K (dcell c (csem arr a b (sem_inb a b ha hb)))) (dcell c (csem arr a b (sem_inb a b ha hb))))
        ∗ overAB (fun a b ha hb => atPos ER (dcell c (csem arr a b (sem_inb a b ha hb))) 1 ∅ 0))
      ⊢ (|={Set.univ}=> overAB (fun a b ha hb => semVal (dcell c (csem arr a b (sem_inb a b ha hb))) 0) : sProp 𝕄) := by
  unfold overAB
  rw [← bigSep_sep']
  exact (bigSep_mono fun ab _ => close_cell fa fb _ _).trans (bigSep_fupd _ _)

/-- The four arrays: device `c`'s own 96 transfer cells, closed together. -/
theorem close_all (K : GSem nD τ sig → ℕ) (c : Dev nD) :
    iprop((overAB (fun a b ha hb => cellInv ER (ringRd fa fb) (K (dcell c (csem cc0_scratch2 a b (sem_inb a b ha hb)))) (dcell c (csem cc0_scratch2 a b (sem_inb a b ha hb))))
          ∗ overAB (fun a b ha hb => cellInv ER (ringRd fa fb) (K (dcell c (csem cc0_scratch3 a b (sem_inb a b ha hb)))) (dcell c (csem cc0_scratch3 a b (sem_inb a b ha hb))))
          ∗ overAB (fun a b ha hb => cellInv ER (ringRd fa fb) (K (dcell c (csem cc0_scratch4 a b (sem_inb a b ha hb)))) (dcell c (csem cc0_scratch4 a b (sem_inb a b ha hb))))
          ∗ overAB (fun a b ha hb => cellInv ER (ringRd fa fb) (K (dcell c (csem cc0_scratch5 a b (sem_inb a b ha hb)))) (dcell c (csem cc0_scratch5 a b (sem_inb a b ha hb)))))
        ∗ (overAB (fun a b ha hb => atPos ER (dcell c (csem cc0_scratch2 a b (sem_inb a b ha hb))) 1 ∅ 0)
          ∗ overAB (fun a b ha hb => atPos ER (dcell c (csem cc0_scratch3 a b (sem_inb a b ha hb))) 1 ∅ 0)
          ∗ overAB (fun a b ha hb => atPos ER (dcell c (csem cc0_scratch4 a b (sem_inb a b ha hb))) 1 ∅ 0)
          ∗ overAB (fun a b ha hb => atPos ER (dcell c (csem cc0_scratch5 a b (sem_inb a b ha hb))) 1 ∅ 0)))
      ⊢ (|={Set.univ}=> iprop(overAB (fun a b ha hb => semVal (dcell c (csem cc0_scratch2 a b (sem_inb a b ha hb))) 0)
          ∗ overAB (fun a b ha hb => semVal (dcell c (csem cc0_scratch3 a b (sem_inb a b ha hb))) 0)
          ∗ overAB (fun a b ha hb => semVal (dcell c (csem cc0_scratch4 a b (sem_inb a b ha hb))) 0)
          ∗ overAB (fun a b ha hb => semVal (dcell c (csem cc0_scratch5 a b (sem_inb a b ha hb))) 0)) : sProp 𝕄) := by
  iintro ⟨⟨I2, I3, I4, I5⟩, ⟨A2, A3, A4, A5⟩⟩
  imod (close_array fa fb K c cc0_scratch2) $$ [I2 A2] with S2
  · isplitl [I2] <;> iassumption
  imod (close_array fa fb K c cc0_scratch3) $$ [I3 A3] with S3
  · isplitl [I3] <;> iassumption
  imod (close_array fa fb K c cc0_scratch4) $$ [I4 A4] with S4
  · isplitl [I4] <;> iassumption
  imod (close_array fa fb K c cc0_scratch5) $$ [I5 A5] with S5
  · isplitl [I5] <;> iassumption
  imodintro
  isplitl [S2]; · iexact S2
  isplitl [S3]; · iexact S3
  isplitl [S4]; · iexact S4
  iexact S5

/-- With the two scratch buffers held at anything: what a device hands back after its body. -/
theorem close_to_post (K : GSem nD τ sig → ℕ) (c : Dev nD) :
    iprop((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)
        ∗ (overAB (fun a b ha hb => cellInv ER (ringRd fa fb) (K (dcell c (csem cc0_scratch2 a b (sem_inb a b ha hb)))) (dcell c (csem cc0_scratch2 a b (sem_inb a b ha hb))))
          ∗ overAB (fun a b ha hb => cellInv ER (ringRd fa fb) (K (dcell c (csem cc0_scratch3 a b (sem_inb a b ha hb)))) (dcell c (csem cc0_scratch3 a b (sem_inb a b ha hb))))
          ∗ overAB (fun a b ha hb => cellInv ER (ringRd fa fb) (K (dcell c (csem cc0_scratch4 a b (sem_inb a b ha hb)))) (dcell c (csem cc0_scratch4 a b (sem_inb a b ha hb))))
          ∗ overAB (fun a b ha hb => cellInv ER (ringRd fa fb) (K (dcell c (csem cc0_scratch5 a b (sem_inb a b ha hb)))) (dcell c (csem cc0_scratch5 a b (sem_inb a b ha hb)))))
        ∗ (overAB (fun a b ha hb => atPos ER (dcell c (csem cc0_scratch2 a b (sem_inb a b ha hb))) 1 ∅ 0)
          ∗ overAB (fun a b ha hb => atPos ER (dcell c (csem cc0_scratch3 a b (sem_inb a b ha hb))) 1 ∅ 0)
          ∗ overAB (fun a b ha hb => atPos ER (dcell c (csem cc0_scratch4 a b (sem_inb a b ha hb))) 1 ∅ 0)
          ∗ overAB (fun a b ha hb => atPos ER (dcell c (csem cc0_scratch5 a b (sem_inb a b ha hb))) 1 ∅ 0)))
      ⊢ (|={Set.univ}=> Φ₁ (F := F) c : sProp 𝕄) := by
  iintro ⟨H0, H1, HI, HA⟩
  imod (close_all fa fb K c) $$ [HI HA] with HS
  · isplitl [HI] <;> iassumption
  imodintro
  unfold Φ₁
  isplitl [H0]; · iexact H0
  isplitl [H1]; · iexact H1
  iexact HS

end Close

/-- info: 'Cert.Kernel.P.close_to_post' depends on axioms: [propext, Classical.choice, Quot.sound] -/
#guard_msgs in #print axioms close_to_post

end Cert.Kernel.P
end
-- ==== Proof.KPostTables.lean ====
import proofs.«900901_g7700000000000902_dist_matmul_silu_kshard_i_m2048_n2048_k1024_v7x_i4_bf16_1_alg».proof.Proof.KGhost

noncomputable section

namespace Cert.Kernel.P

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

set_option maxHeartbeats 8000000 in
/-- What device `c` holds after the last wait of its body, every piece on its own. -/
def corePost (fa : Dev nD → AT F) (fb : Dev nD → BT F) (K : GSem nD τ sig → ℕ) (c : Dev nD)
    (fbb : BbT F) (W : Waits sig Unit) : sProp 𝕄 :=
  iprop(((aM : Memref sig .tc .vmem S2048x1024 .f32).view.loc (c : Thread nD τ) ↦{fullShare} fa c)
    ∗ ((bM : Memref sig .tc .vmem S1024x2048 .f32).view.loc (c : Thread nD τ) ↦{fullShare} fb c)
    ∗ ((bbM : Memref sig .tc .vmem S1024x2048 .bf16).view.loc (c : Thread nD τ) ↦{fullShare} fbb)
    ∗ (∃ g : RT F, ((slotM 0 0 inb_S8x4x512x256_S1x1x512x256_0_0_0_0 : Memref sig .tc .vmem S512x256 .bf16).view.loc ((c : Dev nD) : Thread nD τ) ↦[(slotM 0 0 inb_S8x4x512x256_S1x1x512x256_0_0_0_0 : Memref sig .tc .vmem S512x256 .bf16).view.set]{fullShare} g))
    ∗ (∃ g : RT F, ((slotM 0 1 inb_S8x4x512x256_S1x1x512x256_0_1_0_0 : Memref sig .tc .vmem S512x256 .bf16).view.loc ((c : Dev nD) : Thread nD τ) ↦[(slotM 0 1 inb_S8x4x512x256_S1x1x512x256_0_1_0_0 : Memref sig .tc .vmem S512x256 .bf16).view.set]{fullShare} g))
    ∗ (∃ g : RT F, ((slotM 0 2 inb_S8x4x512x256_S1x1x512x256_0_2_0_0 : Memref sig .tc .vmem S512x256 .bf16).view.loc ((c : Dev nD) : Thread nD τ) ↦[(slotM 0 2 inb_S8x4x512x256_S1x1x512x256_0_2_0_0 : Memref sig .tc .vmem S512x256 .bf16).view.set]{fullShare} g))
    ∗ (∃ g : RT F, ((slotM 0 3 inb_S8x4x512x256_S1x1x512x256_0_3_0_0 : Memref sig .tc .vmem S512x256 .bf16).view.loc ((c : Dev nD) : Thread nD τ) ↦[(slotM 0 3 inb_S8x4x512x256_S1x1x512x256_0_3_0_0 : Memref sig .tc .vmem S512x256 .bf16).view.set]{fullShare} g))
    ∗ (∃ g : RT F, ((slotM 1 0 inb_S8x4x512x256_S1x1x512x256_1_0_0_0 : Memref sig .tc .vmem S512x256 .bf16).view.loc ((c : Dev nD) : Thread nD τ) ↦[(slotM 1 0 inb_S8x4x512x256_S1x1x512x256_1_0_0_0 : Memref sig .tc .vmem S512x256 .bf16).view.set]{fullShare} g))
    ∗ (∃ g : RT F, ((slotM 1 1 inb_S8x4x512x256_S1x1x512x256_1_1_0_0 : Memref sig .tc .vmem S512x256 .bf16).view.loc ((c : Dev nD) : Thread nD τ) ↦[(slotM 1 1 inb_S8x4x512x256_S1x1x512x256_1_1_0_0 : Memref sig .tc .vmem S512x256 .bf16).view.set]{fullShare} g))
    ∗ (∃ g : RT F, ((slotM 1 2 inb_S8x4x512x256_S1x1x512x256_1_2_0_0 : Memref sig .tc .vmem S512x256 .bf16).view.loc ((c : Dev nD) : Thread nD τ) ↦[(slotM 1 2 inb_S8x4x512x256_S1x1x512x256_1_2_0_0 : Memref sig .tc .vmem S512x256 .bf16).view.set]{fullShare} g))
    ∗ (∃ g : RT F, ((slotM 1 3 inb_S8x4x512x256_S1x1x512x256_1_3_0_0 : Memref sig .tc .vmem S512x256 .bf16).view.loc ((c : Dev nD) : Thread nD τ) ↦[(slotM 1 3 inb_S8x4x512x256_S1x1x512x256_1_3_0_0 : Memref sig .tc .vmem S512x256 .bf16).view.set]{fullShare} g))
    ∗ (∃ g : RT F, ((slotM 2 0 inb_S8x4x512x256_S1x1x512x256_2_0_0_0 : Memref sig .tc .vmem S512x256 .bf16).view.loc ((c : Dev nD) : Thread nD τ) ↦[(slotM 2 0 inb_S8x4x512x256_S1x1x512x256_2_0_0_0 : Memref sig .tc .vmem S512x256 .bf16).view.set]{fullShare} g))
    ∗ (∃ g : RT F, ((slotM 2 1 inb_S8x4x512x256_S1x1x512x256_2_1_0_0 : Memref sig .tc .vmem S512x256 .bf16).view.loc ((c : Dev nD) : Thread nD τ) ↦[(slotM 2 1 inb_S8x4x512x256_S1x1x512x256_2_1_0_0 : Memref sig .tc .vmem S512x256 .bf16).view.set]{fullShare} g))
    ∗ (∃ g : RT F, ((slotM 2 2 inb_S8x4x512x256_S1x1x512x256_2_2_0_0 : Memref sig .tc .vmem S512x256 .bf16).view.loc ((c : Dev nD) : Thread nD τ) ↦[(slotM 2 2 inb_S8x4x512x256_S1x1x512x256_2_2_0_0 : Memref sig .tc .vmem S512x256 .bf16).view.set]{fullShare} g))
    ∗ (∃ g : RT F, ((slotM 2 3 inb_S8x4x512x256_S1x1x512x256_2_3_0_0 : Memref sig .tc .vmem S512x256 .bf16).view.loc ((c : Dev nD) : Thread nD τ) ↦[(slotM 2 3 inb_S8x4x512x256_S1x1x512x256_2_3_0_0 : Memref sig .tc .vmem S512x256 .bf16).view.set]{fullShare} g))
    ∗ (∃ g : RT F, ((slotM 3 0 inb_S8x4x512x256_S1x1x512x256_3_0_0_0 : Memref sig .tc .vmem S512x256 .bf16).view.loc ((c : Dev nD) : Thread nD τ) ↦[(slotM 3 0 inb_S8x4x512x256_S1x1x512x256_3_0_0_0 : Memref sig .tc .vmem S512x256 .bf16).view.set]{fullShare} g))
    ∗ (∃ g : RT F, ((slotM 3 1 inb_S8x4x512x256_S1x1x512x256_3_1_0_0 : Memref sig .tc .vmem S512x256 .bf16).view.loc ((c : Dev nD) : Thread nD τ) ↦[(slotM 3 1 inb_S8x4x512x256_S1x1x512x256_3_1_0_0 : Memref sig .tc .vmem S512x256 .bf16).view.set]{fullShare} g))
    ∗ (∃ g : RT F, ((slotM 3 2 inb_S8x4x512x256_S1x1x512x256_3_2_0_0 : Memref sig .tc .vmem S512x256 .bf16).view.loc ((c : Dev nD) : Thread nD τ) ↦[(slotM 3 2 inb_S8x4x512x256_S1x1x512x256_3_2_0_0 : Memref sig .tc .vmem S512x256 .bf16).view.set]{fullShare} g))
    ∗ (∃ g : RT F, ((slotM 3 3 inb_S8x4x512x256_S1x1x512x256_3_3_0_0 : Memref sig .tc .vmem S512x256 .bf16).view.loc ((c : Dev nD) : Thread nD τ) ↦[(slotM 3 3 inb_S8x4x512x256_S1x1x512x256_3_3_0_0 : Memref sig .tc .vmem S512x256 .bf16).view.set]{fullShare} g))
    ∗ (∃ g : RT F, ((slotM 4 0 inb_S8x4x512x256_S1x1x512x256_4_0_0_0 : Memref sig .tc .vmem S512x256 .bf16).view.loc ((c : Dev nD) : Thread nD τ) ↦[(slotM 4 0 inb_S8x4x512x256_S1x1x512x256_4_0_0_0 : Memref sig .tc .vmem S512x256 .bf16).view.set]{fullShare} g))
    ∗ (∃ g : RT F, ((slotM 4 1 inb_S8x4x512x256_S1x1x512x256_4_1_0_0 : Memref sig .tc .vmem S512x256 .bf16).view.loc ((c : Dev nD) : Thread nD τ) ↦[(slotM 4 1 inb_S8x4x512x256_S1x1x512x256_4_1_0_0 : Memref sig .tc .vmem S512x256 .bf16).view.set]{fullShare} g))
    ∗ (∃ g : RT F, ((slotM 4 2 inb_S8x4x512x256_S1x1x512x256_4_2_0_0 : Memref sig .tc .vmem S512x256 .bf16).view.loc ((c : Dev nD) : Thread nD τ) ↦[(slotM 4 2 inb_S8x4x512x256_S1x1x512x256_4_2_0_0 : Memref sig .tc .vmem S512x256 .bf16).view.set]{fullShare} g))
    ∗ (∃ g : RT F, ((slotM 4 3 inb_S8x4x512x256_S1x1x512x256_4_3_0_0 : Memref sig .tc .vmem S512x256 .bf16).view.loc ((c : Dev nD) : Thread nD τ) ↦[(slotM 4 3 inb_S8x4x512x256_S1x1x512x256_4_3_0_0 : Memref sig .tc .vmem S512x256 .bf16).view.set]{fullShare} g))
    ∗ (∃ g : RT F, ((slotM 5 0 inb_S8x4x512x256_S1x1x512x256_5_0_0_0 : Memref sig .tc .vmem S512x256 .bf16).view.loc ((c : Dev nD) : Thread nD τ) ↦[(slotM 5 0 inb_S8x4x512x256_S1x1x512x256_5_0_0_0 : Memref sig .tc .vmem S512x256 .bf16).view.set]{fullShare} g))
    ∗ (∃ g : RT F, ((slotM 5 1 inb_S8x4x512x256_S1x1x512x256_5_1_0_0 : Memref sig .tc .vmem S512x256 .bf16).view.loc ((c : Dev nD) : Thread nD τ) ↦[(slotM 5 1 inb_S8x4x512x256_S1x1x512x256_5_1_0_0 : Memref sig .tc .vmem S512x256 .bf16).view.set]{fullShare} g))
    ∗ (∃ g : RT F, ((slotM 5 2 inb_S8x4x512x256_S1x1x512x256_5_2_0_0 : Memref sig .tc .vmem S512x256 .bf16).view.loc ((c : Dev nD) : Thread nD τ) ↦[(slotM 5 2 inb_S8x4x512x256_S1x1x512x256_5_2_0_0 : Memref sig .tc .vmem S512x256 .bf16).view.set]{fullShare} g))
    ∗ (∃ g : RT F, ((slotM 5 3 inb_S8x4x512x256_S1x1x512x256_5_3_0_0 : Memref sig .tc .vmem S512x256 .bf16).view.loc ((c : Dev nD) : Thread nD τ) ↦[(slotM 5 3 inb_S8x4x512x256_S1x1x512x256_5_3_0_0 : Memref sig .tc .vmem S512x256 .bf16).view.set]{fullShare} g))
    ∗ (∃ g : RT F, ((slotM 6 0 inb_S8x4x512x256_S1x1x512x256_6_0_0_0 : Memref sig .tc .vmem S512x256 .bf16).view.loc ((c : Dev nD) : Thread nD τ) ↦[(slotM 6 0 inb_S8x4x512x256_S1x1x512x256_6_0_0_0 : Memref sig .tc .vmem S512x256 .bf16).view.set]{fullShare} g))
    ∗ (∃ g : RT F, ((slotM 6 1 inb_S8x4x512x256_S1x1x512x256_6_1_0_0 : Memref sig .tc .vmem S512x256 .bf16).view.loc ((c : Dev nD) : Thread nD τ) ↦[(slotM 6 1 inb_S8x4x512x256_S1x1x512x256_6_1_0_0 : Memref sig .tc .vmem S512x256 .bf16).view.set]{fullShare} g))
    ∗ (∃ g : RT F, ((slotM 6 2 inb_S8x4x512x256_S1x1x512x256_6_2_0_0 : Memref sig .tc .vmem S512x256 .bf16).view.loc ((c : Dev nD) : Thread nD τ) ↦[(slotM 6 2 inb_S8x4x512x256_S1x1x512x256_6_2_0_0 : Memref sig .tc .vmem S512x256 .bf16).view.set]{fullShare} g))
    ∗ (∃ g : RT F, ((slotM 6 3 inb_S8x4x512x256_S1x1x512x256_6_3_0_0 : Memref sig .tc .vmem S512x256 .bf16).view.loc ((c : Dev nD) : Thread nD τ) ↦[(slotM 6 3 inb_S8x4x512x256_S1x1x512x256_6_3_0_0 : Memref sig .tc .vmem S512x256 .bf16).view.set]{fullShare} g))
    ∗ (∃ g : RT F, ((slotM 7 0 inb_S8x4x512x256_S1x1x512x256_7_0_0_0 : Memref sig .tc .vmem S512x256 .bf16).view.loc ((c : Dev nD) : Thread nD τ) ↦[(slotM 7 0 inb_S8x4x512x256_S1x1x512x256_7_0_0_0 : Memref sig .tc .vmem S512x256 .bf16).view.set]{fullShare} g))
    ∗ (∃ g : RT F, ((slotM 7 1 inb_S8x4x512x256_S1x1x512x256_7_1_0_0 : Memref sig .tc .vmem S512x256 .bf16).view.loc ((c : Dev nD) : Thread nD τ) ↦[(slotM 7 1 inb_S8x4x512x256_S1x1x512x256_7_1_0_0 : Memref sig .tc .vmem S512x256 .bf16).view.set]{fullShare} g))
    ∗ (∃ g : RT F, ((slotM 7 2 inb_S8x4x512x256_S1x1x512x256_7_2_0_0 : Memref sig .tc .vmem S512x256 .bf16).view.loc ((c : Dev nD) : Thread nD τ) ↦[(slotM 7 2 inb_S8x4x512x256_S1x1x512x256_7_2_0_0 : Memref sig .tc .vmem S512x256 .bf16).view.set]{fullShare} g))
    ∗ (∃ g : RT F, ((slotM 7 3 inb_S8x4x512x256_S1x1x512x256_7_3_0_0 : Memref sig .tc .vmem S512x256 .bf16).view.loc ((c : Dev nD) : Thread nD τ) ↦[(slotM 7 3 inb_S8x4x512x256_S1x1x512x256_7_3_0_0 : Memref sig .tc .vmem S512x256 .bf16).view.set]{fullShare} g))
    ∗ ((oblkM (k0_off3 c 0#32) (k0_off3_inb c 0) : Memref sig .tc .vmem S512x256 .bf16).view.loc ((c : Dev nD) : Thread nD τ) ↦[(oblkM (k0_off3 c 0#32) (k0_off3_inb c 0) : Memref sig .tc .vmem S512x256 .bf16).view.set]{fullShare} (oblkBuf (k0_off3 c 0#32) (k0_off3_inb c 0) (outBlk fa fb (orig 0 0 c) 0 (by decide))))
    ∗ ((oblkM (k0_off3 c 1#32) (k0_off3_inb c 1) : Memref sig .tc .vmem S512x256 .bf16).view.loc ((c : Dev nD) : Thread nD τ) ↦[(oblkM (k0_off3 c 1#32) (k0_off3_inb c 1) : Memref sig .tc .vmem S512x256 .bf16).view.set]{fullShare} (oblkBuf (k0_off3 c 1#32) (k0_off3_inb c 1) (outBlk fa fb (orig 0 1 c) 0 (by decide))))
    ∗ ((oblkM (k0_off3 c 2#32) (k0_off3_inb c 2) : Memref sig .tc .vmem S512x256 .bf16).view.loc ((c : Dev nD) : Thread nD τ) ↦[(oblkM (k0_off3 c 2#32) (k0_off3_inb c 2) : Memref sig .tc .vmem S512x256 .bf16).view.set]{fullShare} (oblkBuf (k0_off3 c 2#32) (k0_off3_inb c 2) (outBlk fa fb (orig 0 2 c) 0 (by decide))))
    ∗ ((oblkM (k0_off7 c 0#32) (k0_off7_inb c 0) : Memref sig .tc .vmem S512x256 .bf16).view.loc ((c : Dev nD) : Thread nD τ) ↦[(oblkM (k0_off7 c 0#32) (k0_off7_inb c 0) : Memref sig .tc .vmem S512x256 .bf16).view.set]{fullShare} (oblkBuf (k0_off7 c 0#32) (k0_off7_inb c 0) (outBlk fa fb (orig 1 0 c) 1 (by decide))))
    ∗ ((oblkM (k0_off7 c 1#32) (k0_off7_inb c 1) : Memref sig .tc .vmem S512x256 .bf16).view.loc ((c : Dev nD) : Thread nD τ) ↦[(oblkM (k0_off7 c 1#32) (k0_off7_inb c 1) : Memref sig .tc .vmem S512x256 .bf16).view.set]{fullShare} (oblkBuf (k0_off7 c 1#32) (k0_off7_inb c 1) (outBlk fa fb (orig 1 1 c) 1 (by decide))))
    ∗ ((oblkM (k0_off7 c 2#32) (k0_off7_inb c 2) : Memref sig .tc .vmem S512x256 .bf16).view.loc ((c : Dev nD) : Thread nD τ) ↦[(oblkM (k0_off7 c 2#32) (k0_off7_inb c 2) : Memref sig .tc .vmem S512x256 .bf16).view.set]{fullShare} (oblkBuf (k0_off7 c 2#32) (k0_off7_inb c 2) (outBlk fa fb (orig 1 2 c) 1 (by decide))))
    ∗ ((oblkM (k0_off11 c 0#32) (k0_off11_inb c 0) : Memref sig .tc .vmem S512x256 .bf16).view.loc ((c : Dev nD) : Thread nD τ) ↦[(oblkM (k0_off11 c 0#32) (k0_off11_inb c 0) : Memref sig .tc .vmem S512x256 .bf16).view.set]{fullShare} (oblkBuf (k0_off11 c 0#32) (k0_off11_inb c 0) (outBlk fa fb (orig 2 0 c) 2 (by decide))))
    ∗ ((oblkM (k0_off11 c 1#32) (k0_off11_inb c 1) : Memref sig .tc .vmem S512x256 .bf16).view.loc ((c : Dev nD) : Thread nD τ) ↦[(oblkM (k0_off11 c 1#32) (k0_off11_inb c 1) : Memref sig .tc .vmem S512x256 .bf16).view.set]{fullShare} (oblkBuf (k0_off11 c 1#32) (k0_off11_inb c 1) (outBlk fa fb (orig 2 1 c) 2 (by decide))))
    ∗ ((oblkM (k0_off11 c 2#32) (k0_off11_inb c 2) : Memref sig .tc .vmem S512x256 .bf16).view.loc ((c : Dev nD) : Thread nD τ) ↦[(oblkM (k0_off11 c 2#32) (k0_off11_inb c 2) : Memref sig .tc .vmem S512x256 .bf16).view.set]{fullShare} (oblkBuf (k0_off11 c 2#32) (k0_off11_inb c 2) (outBlk fa fb (orig 2 2 c) 2 (by decide))))
    ∗ ((oblkM (k0_off15 c 0#32) (k0_off15_inb c 0) : Memref sig .tc .vmem S512x256 .bf16).view.loc ((c : Dev nD) : Thread nD τ) ↦[(oblkM (k0_off15 c 0#32) (k0_off15_inb c 0) : Memref sig .tc .vmem S512x256 .bf16).view.set]{fullShare} (oblkBuf (k0_off15 c 0#32) (k0_off15_inb c 0) (outBlk fa fb (orig 3 0 c) 3 (by decide))))
    ∗ ((oblkM (k0_off15 c 1#32) (k0_off15_inb c 1) : Memref sig .tc .vmem S512x256 .bf16).view.loc ((c : Dev nD) : Thread nD τ) ↦[(oblkM (k0_off15 c 1#32) (k0_off15_inb c 1) : Memref sig .tc .vmem S512x256 .bf16).view.set]{fullShare} (oblkBuf (k0_off15 c 1#32) (k0_off15_inb c 1) (outBlk fa fb (orig 3 1 c) 3 (by decide))))
    ∗ ((oblkM (k0_off15 c 2#32) (k0_off15_inb c 2) : Memref sig .tc .vmem S512x256 .bf16).view.loc ((c : Dev nD) : Thread nD τ) ↦[(oblkM (k0_off15 c 2#32) (k0_off15_inb c 2) : Memref sig .tc .vmem S512x256 .bf16).view.set]{fullShare} (oblkBuf (k0_off15 c 2#32) (k0_off15_inb c 2) (outBlk fa fb (orig 3 2 c) 3 (by decide))))
    ∗ ((oblkM (k0_off5 c 0#32) (k0_off5_inb c 0) : Memref sig .tc .vmem S512x256 .bf16).view.loc ((c : Dev nD) : Thread nD τ) ↦[(oblkM (k0_off5 c 0#32) (k0_off5_inb c 0) : Memref sig .tc .vmem S512x256 .bf16).view.set]{fullShare} (oblkBuf (k0_off5 c 0#32) (k0_off5_inb c 0) (outBlk fa fb (orig 4 0 c) 4 (by decide))))
    ∗ ((oblkM (k0_off5 c 4294967295#32) (k0_off5_inb c 1) : Memref sig .tc .vmem S512x256 .bf16).view.loc ((c : Dev nD) : Thread nD τ) ↦[(oblkM (k0_off5 c 4294967295#32) (k0_off5_inb c 1) : Memref sig .tc .vmem S512x256 .bf16).view.set]{fullShare} (oblkBuf (k0_off5 c 4294967295#32) (k0_off5_inb c 1) (outBlk fa fb (orig 4 1 c) 4 (by decide))))
    ∗ ((oblkM (k0_off5 c 4294967294#32) (k0_off5_inb c 2) : Memref sig .tc .vmem S512x256 .bf16).view.loc ((c : Dev nD) : Thread nD τ) ↦[(oblkM (k0_off5 c 4294967294#32) (k0_off5_inb c 2) : Memref sig .tc .vmem S512x256 .bf16).view.set]{fullShare} (oblkBuf (k0_off5 c 4294967294#32) (k0_off5_inb c 2) (outBlk fa fb (orig 4 2 c) 4 (by decide))))
    ∗ ((oblkM (k0_off9 c 0#32) (k0_off9_inb c 0) : Memref sig .tc .vmem S512x256 .bf16).view.loc ((c : Dev nD) : Thread nD τ) ↦[(oblkM (k0_off9 c 0#32) (k0_off9_inb c 0) : Memref sig .tc .vmem S512x256 .bf16).view.set]{fullShare} (oblkBuf (k0_off9 c 0#32) (k0_off9_inb c 0) (outBlk fa fb (orig 5 0 c) 5 (by decide))))
    ∗ ((oblkM (k0_off9 c 4294967295#32) (k0_off9_inb c 1) : Memref sig .tc .vmem S512x256 .bf16).view.loc ((c : Dev nD) : Thread nD τ) ↦[(oblkM (k0_off9 c 4294967295#32) (k0_off9_inb c 1) : Memref sig .tc .vmem S512x256 .bf16).view.set]{fullShare} (oblkBuf (k0_off9 c 4294967295#32) (k0_off9_inb c 1) (outBlk fa fb (orig 5 1 c) 5 (by decide))))
    ∗ ((oblkM (k0_off9 c 4294967294#32) (k0_off9_inb c 2) : Memref sig .tc .vmem S512x256 .bf16).view.loc ((c : Dev nD) : Thread nD τ) ↦[(oblkM (k0_off9 c 4294967294#32) (k0_off9_inb c 2) : Memref sig .tc .vmem S512x256 .bf16).view.set]{fullShare} (oblkBuf (k0_off9 c 4294967294#32) (k0_off9_inb c 2) (outBlk fa fb (orig 5 2 c) 5 (by decide))))
    ∗ ((oblkM (k0_off13 c 0#32) (k0_off13_inb c 0) : Memref sig .tc .vmem S512x256 .bf16).view.loc ((c : Dev nD) : Thread nD τ) ↦[(oblkM (k0_off13 c 0#32) (k0_off13_inb c 0) : Memref sig .tc .vmem S512x256 .bf16).view.set]{fullShare} (oblkBuf (k0_off13 c 0#32) (k0_off13_inb c 0) (outBlk fa fb (orig 6 0 c) 6 (by decide))))
    ∗ ((oblkM (k0_off13 c 4294967295#32) (k0_off13_inb c 1) : Memref sig .tc .vmem S512x256 .bf16).view.loc ((c : Dev nD) : Thread nD τ) ↦[(oblkM (k0_off13 c 4294967295#32) (k0_off13_inb c 1) : Memref sig .tc .vmem S512x256 .bf16).view.set]{fullShare} (oblkBuf (k0_off13 c 4294967295#32) (k0_off13_inb c 1) (outBlk fa fb (orig 6 1 c) 6 (by decide))))
    ∗ ((oblkM (k0_off13 c 4294967294#32) (k0_off13_inb c 2) : Memref sig .tc .vmem S512x256 .bf16).view.loc ((c : Dev nD) : Thread nD τ) ↦[(oblkM (k0_off13 c 4294967294#32) (k0_off13_inb c 2) : Memref sig .tc .vmem S512x256 .bf16).view.set]{fullShare} (oblkBuf (k0_off13 c 4294967294#32) (k0_off13_inb c 2) (outBlk fa fb (orig 6 2 c) 6 (by decide))))
    ∗ ((oblkM (k0_off17 c 0#32) (k0_off17_inb c 0) : Memref sig .tc .vmem S512x256 .bf16).view.loc ((c : Dev nD) : Thread nD τ) ↦[(oblkM (k0_off17 c 0#32) (k0_off17_inb c 0) : Memref sig .tc .vmem S512x256 .bf16).view.set]{fullShare} (oblkBuf (k0_off17 c 0#32) (k0_off17_inb c 0) (outBlk fa fb (orig 7 0 c) 7 (by decide))))
    ∗ ((oblkM (k0_off17 c 4294967295#32) (k0_off17_inb c 1) : Memref sig .tc .vmem S512x256 .bf16).view.loc ((c : Dev nD) : Thread nD τ) ↦[(oblkM (k0_off17 c 4294967295#32) (k0_off17_inb c 1) : Memref sig .tc .vmem S512x256 .bf16).view.set]{fullShare} (oblkBuf (k0_off17 c 4294967295#32) (k0_off17_inb c 1) (outBlk fa fb (orig 7 1 c) 7 (by decide))))
    ∗ ((oblkM (k0_off17 c 4294967294#32) (k0_off17_inb c 2) : Memref sig .tc .vmem S512x256 .bf16).view.loc ((c : Dev nD) : Thread nD τ) ↦[(oblkM (k0_off17 c 4294967294#32) (k0_off17_inb c 2) : Memref sig .tc .vmem S512x256 .bf16).view.set]{fullShare} (oblkBuf (k0_off17 c 4294967294#32) (k0_off17_inb c 2) (outBlk fa fb (orig 7 2 c) 7 (by decide))))
    ∗ (∃ fd : OT F, ((oblkM (rowOff c (agShift 0 3) 0) (rowOff_inb c (agShift 0 3) 0 (by decide)) : Memref sig .tc .vmem S512x256 .bf16).view.loc ((c : Dev nD) : Thread nD τ) ↦[(oblkM (rowOff c (agShift 0 3) 0) (rowOff_inb c (agShift 0 3) 0 (by decide)) : Memref sig .tc .vmem S512x256 .bf16).view.set]{fullShare} ((oblkM (rowOff c (agShift 0 3) 0) (rowOff_inb c (agShift 0 3) 0 (by decide)) : Memref sig .tc .vmem S512x256 .bf16).view.write (Elt F) fd ((oblkM (rowOff (sdev 0 c) (agShift 0 2) 0) (rowOff_inb (sdev 0 c) (agShift 0 2) 0 (by decide)) : Memref sig .tc .vmem S512x256 .bf16).view.read (Elt F) (oblkBuf (rowOff (sdev 0 c) (agShift 0 2) 0) (rowOff_inb (sdev 0 c) (agShift 0 2) 0 (by decide)) (outBlk fa fb (orig 0 2 (sdev 0 c)) 0 (by decide)))) Finset.univ)))
    ∗ (∃ fd : OT F, ((oblkM (rowOff c (agShift 1 3) 1) (rowOff_inb c (agShift 1 3) 1 (by decide)) : Memref sig .tc .vmem S512x256 .bf16).view.loc ((c : Dev nD) : Thread nD τ) ↦[(oblkM (rowOff c (agShift 1 3) 1) (rowOff_inb c (agShift 1 3) 1 (by decide)) : Memref sig .tc .vmem S512x256 .bf16).view.set]{fullShare} ((oblkM (rowOff c (agShift 1 3) 1) (rowOff_inb c (agShift 1 3) 1 (by decide)) : Memref sig .tc .vmem S512x256 .bf16).view.write (Elt F) fd ((oblkM (rowOff (sdev 1 c) (agShift 1 2) 1) (rowOff_inb (sdev 1 c) (agShift 1 2) 1 (by decide)) : Memref sig .tc .vmem S512x256 .bf16).view.read (Elt F) (oblkBuf (rowOff (sdev 1 c) (agShift 1 2) 1) (rowOff_inb (sdev 1 c) (agShift 1 2) 1 (by decide)) (outBlk fa fb (orig 1 2 (sdev 1 c)) 1 (by decide)))) Finset.univ)))
    ∗ (∃ fd : OT F, ((oblkM (rowOff c (agShift 2 3) 2) (rowOff_inb c (agShift 2 3) 2 (by decide)) : Memref sig .tc .vmem S512x256 .bf16).view.loc ((c : Dev nD) : Thread nD τ) ↦[(oblkM (rowOff c (agShift 2 3) 2) (rowOff_inb c (agShift 2 3) 2 (by decide)) : Memref sig .tc .vmem S512x256 .bf16).view.set]{fullShare} ((oblkM (rowOff c (agShift 2 3) 2) (rowOff_inb c (agShift 2 3) 2 (by decide)) : Memref sig .tc .vmem S512x256 .bf16).view.write (Elt F) fd ((oblkM (rowOff (sdev 2 c) (agShift 2 2) 2) (rowOff_inb (sdev 2 c) (agShift 2 2) 2 (by decide)) : Memref sig .tc .vmem S512x256 .bf16).view.read (Elt F) (oblkBuf (rowOff (sdev 2 c) (agShift 2 2) 2) (rowOff_inb (sdev 2 c) (agShift 2 2) 2 (by decide)) (outBlk fa fb (orig 2 2 (sdev 2 c)) 2 (by decide)))) Finset.univ)))
    ∗ (∃ fd : OT F, ((oblkM (rowOff c (agShift 3 3) 3) (rowOff_inb c (agShift 3 3) 3 (by decide)) : Memref sig .tc .vmem S512x256 .bf16).view.loc ((c : Dev nD) : Thread nD τ) ↦[(oblkM (rowOff c (agShift 3 3) 3) (rowOff_inb c (agShift 3 3) 3 (by decide)) : Memref sig .tc .vmem S512x256 .bf16).view.set]{fullShare} ((oblkM (rowOff c (agShift 3 3) 3) (rowOff_inb c (agShift 3 3) 3 (by decide)) : Memref sig .tc .vmem S512x256 .bf16).view.write (Elt F) fd ((oblkM (rowOff (sdev 3 c) (agShift 3 2) 3) (rowOff_inb (sdev 3 c) (agShift 3 2) 3 (by decide)) : Memref sig .tc .vmem S512x256 .bf16).view.read (Elt F) (oblkBuf (rowOff (sdev 3 c) (agShift 3 2) 3) (rowOff_inb (sdev 3 c) (agShift 3 2) 3 (by decide)) (outBlk fa fb (orig 3 2 (sdev 3 c)) 3 (by decide)))) Finset.univ)))
    ∗ (∃ fd : OT F, ((oblkM (rowOff c (agShift 4 3) 4) (rowOff_inb c (agShift 4 3) 4 (by decide)) : Memref sig .tc .vmem S512x256 .bf16).view.loc ((c : Dev nD) : Thread nD τ) ↦[(oblkM (rowOff c (agShift 4 3) 4) (rowOff_inb c (agShift 4 3) 4 (by decide)) : Memref sig .tc .vmem S512x256 .bf16).view.set]{fullShare} ((oblkM (rowOff c (agShift 4 3) 4) (rowOff_inb c (agShift 4 3) 4 (by decide)) : Memref sig .tc .vmem S512x256 .bf16).view.write (Elt F) fd ((oblkM (rowOff (sdev 4 c) (agShift 4 2) 4) (rowOff_inb (sdev 4 c) (agShift 4 2) 4 (by decide)) : Memref sig .tc .vmem S512x256 .bf16).view.read (Elt F) (oblkBuf (rowOff (sdev 4 c) (agShift 4 2) 4) (rowOff_inb (sdev 4 c) (agShift 4 2) 4 (by decide)) (outBlk fa fb (orig 4 2 (sdev 4 c)) 4 (by decide)))) Finset.univ)))
    ∗ (∃ fd : OT F, ((oblkM (rowOff c (agShift 5 3) 5) (rowOff_inb c (agShift 5 3) 5 (by decide)) : Memref sig .tc .vmem S512x256 .bf16).view.loc ((c : Dev nD) : Thread nD τ) ↦[(oblkM (rowOff c (agShift 5 3) 5) (rowOff_inb c (agShift 5 3) 5 (by decide)) : Memref sig .tc .vmem S512x256 .bf16).view.set]{fullShare} ((oblkM (rowOff c (agShift 5 3) 5) (rowOff_inb c (agShift 5 3) 5 (by decide)) : Memref sig .tc .vmem S512x256 .bf16).view.write (Elt F) fd ((oblkM (rowOff (sdev 5 c) (agShift 5 2) 5) (rowOff_inb (sdev 5 c) (agShift 5 2) 5 (by decide)) : Memref sig .tc .vmem S512x256 .bf16).view.read (Elt F) (oblkBuf (rowOff (sdev 5 c) (agShift 5 2) 5) (rowOff_inb (sdev 5 c) (agShift 5 2) 5 (by decide)) (outBlk fa fb (orig 5 2 (sdev 5 c)) 5 (by decide)))) Finset.univ)))
    ∗ (∃ fd : OT F, ((oblkM (rowOff c (agShift 6 3) 6) (rowOff_inb c (agShift 6 3) 6 (by decide)) : Memref sig .tc .vmem S512x256 .bf16).view.loc ((c : Dev nD) : Thread nD τ) ↦[(oblkM (rowOff c (agShift 6 3) 6) (rowOff_inb c (agShift 6 3) 6 (by decide)) : Memref sig .tc .vmem S512x256 .bf16).view.set]{fullShare} ((oblkM (rowOff c (agShift 6 3) 6) (rowOff_inb c (agShift 6 3) 6 (by decide)) : Memref sig .tc .vmem S512x256 .bf16).view.write (Elt F) fd ((oblkM (rowOff (sdev 6 c) (agShift 6 2) 6) (rowOff_inb (sdev 6 c) (agShift 6 2) 6 (by decide)) : Memref sig .tc .vmem S512x256 .bf16).view.read (Elt F) (oblkBuf (rowOff (sdev 6 c) (agShift 6 2) 6) (rowOff_inb (sdev 6 c) (agShift 6 2) 6 (by decide)) (outBlk fa fb (orig 6 2 (sdev 6 c)) 6 (by decide)))) Finset.univ)))
    ∗ (∃ fd : OT F, ((oblkM (rowOff c (agShift 7 3) 7) (rowOff_inb c (agShift 7 3) 7 (by decide)) : Memref sig .tc .vmem S512x256 .bf16).view.loc ((c : Dev nD) : Thread nD τ) ↦[(oblkM (rowOff c (agShift 7 3) 7) (rowOff_inb c (agShift 7 3) 7 (by decide)) : Memref sig .tc .vmem S512x256 .bf16).view.set]{fullShare} ((oblkM (rowOff c (agShift 7 3) 7) (rowOff_inb c (agShift 7 3) 7 (by decide)) : Memref sig .tc .vmem S512x256 .bf16).view.write (Elt F) fd ((oblkM (rowOff (sdev 7 c) (agShift 7 2) 7) (rowOff_inb (sdev 7 c) (agShift 7 2) 7 (by decide)) : Memref sig .tc .vmem S512x256 .bf16).view.read (Elt F) (oblkBuf (rowOff (sdev 7 c) (agShift 7 2) 7) (rowOff_inb (sdev 7 c) (agShift 7 2) 7 (by decide)) (outBlk fa fb (orig 7 2 (sdev 7 c)) 7 (by decide)))) Finset.univ)))
    ∗ cellInv ER (ringRd (F := F) fa fb) (K (dcell (c) (csem cc0_scratch2 0 0 inb_S8x3_S1x1_0_0))) (dcell (c) (csem cc0_scratch2 0 0 inb_S8x3_S1x1_0_0))
    ∗ cellInv ER (ringRd (F := F) fa fb) (K (dcell (c) (csem cc0_scratch2 0 1 inb_S8x3_S1x1_0_1))) (dcell (c) (csem cc0_scratch2 0 1 inb_S8x3_S1x1_0_1))
    ∗ cellInv ER (ringRd (F := F) fa fb) (K (dcell (c) (csem cc0_scratch2 0 2 inb_S8x3_S1x1_0_2))) (dcell (c) (csem cc0_scratch2 0 2 inb_S8x3_S1x1_0_2))
    ∗ cellInv ER (ringRd (F := F) fa fb) (K (dcell (c) (csem cc0_scratch2 1 0 inb_S8x3_S1x1_1_0))) (dcell (c) (csem cc0_scratch2 1 0 inb_S8x3_S1x1_1_0))
    ∗ cellInv ER (ringRd (F := F) fa fb) (K (dcell (c) (csem cc0_scratch2 1 1 inb_S8x3_S1x1_1_1))) (dcell (c) (csem cc0_scratch2 1 1 inb_S8x3_S1x1_1_1))
    ∗ cellInv ER (ringRd (F := F) fa fb) (K (dcell (c) (csem cc0_scratch2 1 2 inb_S8x3_S1x1_1_2))) (dcell (c) (csem cc0_scratch2 1 2 inb_S8x3_S1x1_1_2))
    ∗ cellInv ER (ringRd (F := F) fa fb) (K (dcell (c) (csem cc0_scratch2 2 0 inb_S8x3_S1x1_2_0))) (dcell (c) (csem cc0_scratch2 2 0 inb_S8x3_S1x1_2_0))
    ∗ cellInv ER (ringRd (F := F) fa fb) (K (dcell (c) (csem cc0_scratch2 2 1 inb_S8x3_S1x1_2_1))) (dcell (c) (csem cc0_scratch2 2 1 inb_S8x3_S1x1_2_1))
    ∗ cellInv ER (ringRd (F := F) fa fb) (K (dcell (c) (csem cc0_scratch2 2 2 inb_S8x3_S1x1_2_2))) (dcell (c) (csem cc0_scratch2 2 2 inb_S8x3_S1x1_2_2))
    ∗ cellInv ER (ringRd (F := F) fa fb) (K (dcell (c) (csem cc0_scratch2 3 0 inb_S8x3_S1x1_3_0))) (dcell (c) (csem cc0_scratch2 3 0 inb_S8x3_S1x1_3_0))
    ∗ cellInv ER (ringRd (F := F) fa fb) (K (dcell (c) (csem cc0_scratch2 3 1 inb_S8x3_S1x1_3_1))) (dcell (c) (csem cc0_scratch2 3 1 inb_S8x3_S1x1_3_1))
    ∗ cellInv ER (ringRd (F := F) fa fb) (K (dcell (c) (csem cc0_scratch2 3 2 inb_S8x3_S1x1_3_2))) (dcell (c) (csem cc0_scratch2 3 2 inb_S8x3_S1x1_3_2))
    ∗ cellInv ER (ringRd (F := F) fa fb) (K (dcell (c) (csem cc0_scratch2 4 0 inb_S8x3_S1x1_4_0))) (dcell (c) (csem cc0_scratch2 4 0 inb_S8x3_S1x1_4_0))
    ∗ cellInv ER (ringRd (F := F) fa fb) (K (dcell (c) (csem cc0_scratch2 4 1 inb_S8x3_S1x1_4_1))) (dcell (c) (csem cc0_scratch2 4 1 inb_S8x3_S1x1_4_1))
    ∗ cellInv ER (ringRd (F := F) fa fb) (K (dcell (c) (csem cc0_scratch2 4 2 inb_S8x3_S1x1_4_2))) (dcell (c) (csem cc0_scratch2 4 2 inb_S8x3_S1x1_4_2))
    ∗ cellInv ER (ringRd (F := F) fa fb) (K (dcell (c) (csem cc0_scratch2 5 0 inb_S8x3_S1x1_5_0))) (dcell (c) (csem cc0_scratch2 5 0 inb_S8x3_S1x1_5_0))
    ∗ cellInv ER (ringRd (F := F) fa fb) (K (dcell (c) (csem cc0_scratch2 5 1 inb_S8x3_S1x1_5_1))) (dcell (c) (csem cc0_scratch2 5 1 inb_S8x3_S1x1_5_1))
    ∗ cellInv ER (ringRd (F := F) fa fb) (K (dcell (c) (csem cc0_scratch2 5 2 inb_S8x3_S1x1_5_2))) (dcell (c) (csem cc0_scratch2 5 2 inb_S8x3_S1x1_5_2))
    ∗ cellInv ER (ringRd (F := F) fa fb) (K (dcell (c) (csem cc0_scratch2 6 0 inb_S8x3_S1x1_6_0))) (dcell (c) (csem cc0_scratch2 6 0 inb_S8x3_S1x1_6_0))
    ∗ cellInv ER (ringRd (F := F) fa fb) (K (dcell (c) (csem cc0_scratch2 6 1 inb_S8x3_S1x1_6_1))) (dcell (c) (csem cc0_scratch2 6 1 inb_S8x3_S1x1_6_1))
    ∗ cellInv ER (ringRd (F := F) fa fb) (K (dcell (c) (csem cc0_scratch2 6 2 inb_S8x3_S1x1_6_2))) (dcell (c) (csem cc0_scratch2 6 2 inb_S8x3_S1x1_6_2))
    ∗ cellInv ER (ringRd (F := F) fa fb) (K (dcell (c) (csem cc0_scratch2 7 0 inb_S8x3_S1x1_7_0))) (dcell (c) (csem cc0_scratch2 7 0 inb_S8x3_S1x1_7_0))
    ∗ cellInv ER (ringRd (F := F) fa fb) (K (dcell (c) (csem cc0_scratch2 7 1 inb_S8x3_S1x1_7_1))) (dcell (c) (csem cc0_scratch2 7 1 inb_S8x3_S1x1_7_1))
    ∗ cellInv ER (ringRd (F := F) fa fb) (K (dcell (c) (csem cc0_scratch2 7 2 inb_S8x3_S1x1_7_2))) (dcell (c) (csem cc0_scratch2 7 2 inb_S8x3_S1x1_7_2))
    ∗ cellInv ER (ringRd (F := F) fa fb) (K (dcell (c) (csem cc0_scratch3 0 0 inb_S8x3_S1x1_0_0))) (dcell (c) (csem cc0_scratch3 0 0 inb_S8x3_S1x1_0_0))
    ∗ cellInv ER (ringRd (F := F) fa fb) (K (dcell (c) (csem cc0_scratch3 0 1 inb_S8x3_S1x1_0_1))) (dcell (c) (csem cc0_scratch3 0 1 inb_S8x3_S1x1_0_1))
    ∗ cellInv ER (ringRd (F := F) fa fb) (K (dcell (c) (csem cc0_scratch3 0 2 inb_S8x3_S1x1_0_2))) (dcell (c) (csem cc0_scratch3 0 2 inb_S8x3_S1x1_0_2))
    ∗ cellInv ER (ringRd (F := F) fa fb) (K (dcell (c) (csem cc0_scratch3 1 0 inb_S8x3_S1x1_1_0))) (dcell (c) (csem cc0_scratch3 1 0 inb_S8x3_S1x1_1_0))
    ∗ cellInv ER (ringRd (F := F) fa fb) (K (dcell (c) (csem cc0_scratch3 1 1 inb_S8x3_S1x1_1_1))) (dcell (c) (csem cc0_scratch3 1 1 inb_S8x3_S1x1_1_1))
    ∗ cellInv ER (ringRd (F := F) fa fb) (K (dcell (c) (csem cc0_scratch3 1 2 inb_S8x3_S1x1_1_2))) (dcell (c) (csem cc0_scratch3 1 2 inb_S8x3_S1x1_1_2))
    ∗ cellInv ER (ringRd (F := F) fa fb) (K (dcell (c) (csem cc0_scratch3 2 0 inb_S8x3_S1x1_2_0))) (dcell (c) (csem cc0_scratch3 2 0 inb_S8x3_S1x1_2_0))
    ∗ cellInv ER (ringRd (F := F) fa fb) (K (dcell (c) (csem cc0_scratch3 2 1 inb_S8x3_S1x1_2_1))) (dcell (c) (csem cc0_scratch3 2 1 inb_S8x3_S1x1_2_1))
    ∗ cellInv ER (ringRd (F := F) fa fb) (K (dcell (c) (csem cc0_scratch3 2 2 inb_S8x3_S1x1_2_2))) (dcell (c) (csem cc0_scratch3 2 2 inb_S8x3_S1x1_2_2))
    ∗ cellInv ER (ringRd (F := F) fa fb) (K (dcell (c) (csem cc0_scratch3 3 0 inb_S8x3_S1x1_3_0))) (dcell (c) (csem cc0_scratch3 3 0 inb_S8x3_S1x1_3_0))
    ∗ cellInv ER (ringRd (F := F) fa fb) (K (dcell (c) (csem cc0_scratch3 3 1 inb_S8x3_S1x1_3_1))) (dcell (c) (csem cc0_scratch3 3 1 inb_S8x3_S1x1_3_1))
    ∗ cellInv ER (ringRd (F := F) fa fb) (K (dcell (c) (csem cc0_scratch3 3 2 inb_S8x3_S1x1_3_2))) (dcell (c) (csem cc0_scratch3 3 2 inb_S8x3_S1x1_3_2))
    ∗ cellInv ER (ringRd (F := F) fa fb) (K (dcell (c) (csem cc0_scratch3 4 0 inb_S8x3_S1x1_4_0))) (dcell (c) (csem cc0_scratch3 4 0 inb_S8x3_S1x1_4_0))
    ∗ cellInv ER (ringRd (F := F) fa fb) (K (dcell (c) (csem cc0_scratch3 4 1 inb_S8x3_S1x1_4_1))) (dcell (c) (csem cc0_scratch3 4 1 inb_S8x3_S1x1_4_1))
    ∗ cellInv ER (ringRd (F := F) fa fb) (K (dcell (c) (csem cc0_scratch3 4 2 inb_S8x3_S1x1_4_2))) (dcell (c) (csem cc0_scratch3 4 2 inb_S8x3_S1x1_4_2))
    ∗ cellInv ER (ringRd (F := F) fa fb) (K (dcell (c) (csem cc0_scratch3 5 0 inb_S8x3_S1x1_5_0))) (dcell (c) (csem cc0_scratch3 5 0 inb_S8x3_S1x1_5_0))
    ∗ cellInv ER (ringRd (F := F) fa fb) (K (dcell (c) (csem cc0_scratch3 5 1 inb_S8x3_S1x1_5_1))) (dcell (c) (csem cc0_scratch3 5 1 inb_S8x3_S1x1_5_1))
    ∗ cellInv ER (ringRd (F := F) fa fb) (K (dcell (c) (csem cc0_scratch3 5 2 inb_S8x3_S1x1_5_2))) (dcell (c) (csem cc0_scratch3 5 2 inb_S8x3_S1x1_5_2))
    ∗ cellInv ER (ringRd (F := F) fa fb) (K (dcell (c) (csem cc0_scratch3 6 0 inb_S8x3_S1x1_6_0))) (dcell (c) (csem cc0_scratch3 6 0 inb_S8x3_S1x1_6_0))
    ∗ cellInv ER (ringRd (F := F) fa fb) (K (dcell (c) (csem cc0_scratch3 6 1 inb_S8x3_S1x1_6_1))) (dcell (c) (csem cc0_scratch3 6 1 inb_S8x3_S1x1_6_1))
    ∗ cellInv ER (ringRd (F := F) fa fb) (K (dcell (c) (csem cc0_scratch3 6 2 inb_S8x3_S1x1_6_2))) (dcell (c) (csem cc0_scratch3 6 2 inb_S8x3_S1x1_6_2))
    ∗ cellInv ER (ringRd (F := F) fa fb) (K (dcell (c) (csem cc0_scratch3 7 0 inb_S8x3_S1x1_7_0))) (dcell (c) (csem cc0_scratch3 7 0 inb_S8x3_S1x1_7_0))
    ∗ cellInv ER (ringRd (F := F) fa fb) (K (dcell (c) (csem cc0_scratch3 7 1 inb_S8x3_S1x1_7_1))) (dcell (c) (csem cc0_scratch3 7 1 inb_S8x3_S1x1_7_1))
    ∗ cellInv ER (ringRd (F := F) fa fb) (K (dcell (c) (csem cc0_scratch3 7 2 inb_S8x3_S1x1_7_2))) (dcell (c) (csem cc0_scratch3 7 2 inb_S8x3_S1x1_7_2))
    ∗ cellInv ER (ringRd (F := F) fa fb) (K (dcell (c) (csem cc0_scratch4 0 0 inb_S8x3_S1x1_0_0))) (dcell (c) (csem cc0_scratch4 0 0 inb_S8x3_S1x1_0_0))
    ∗ cellInv ER (ringRd (F := F) fa fb) (K (dcell (c) (csem cc0_scratch4 0 1 inb_S8x3_S1x1_0_1))) (dcell (c) (csem cc0_scratch4 0 1 inb_S8x3_S1x1_0_1))
    ∗ cellInv ER (ringRd (F := F) fa fb) (K (dcell (c) (csem cc0_scratch4 0 2 inb_S8x3_S1x1_0_2))) (dcell (c) (csem cc0_scratch4 0 2 inb_S8x3_S1x1_0_2))
    ∗ cellInv ER (ringRd (F := F) fa fb) (K (dcell (c) (csem cc0_scratch4 1 0 inb_S8x3_S1x1_1_0))) (dcell (c) (csem cc0_scratch4 1 0 inb_S8x3_S1x1_1_0))
    ∗ cellInv ER (ringRd (F := F) fa fb) (K (dcell (c) (csem cc0_scratch4 1 1 inb_S8x3_S1x1_1_1))) (dcell (c) (csem cc0_scratch4 1 1 inb_S8x3_S1x1_1_1))
    ∗ cellInv ER (ringRd (F := F) fa fb) (K (dcell (c) (csem cc0_scratch4 1 2 inb_S8x3_S1x1_1_2))) (dcell (c) (csem cc0_scratch4 1 2 inb_S8x3_S1x1_1_2))
    ∗ cellInv ER (ringRd (F := F) fa fb) (K (dcell (c) (csem cc0_scratch4 2 0 inb_S8x3_S1x1_2_0))) (dcell (c) (csem cc0_scratch4 2 0 inb_S8x3_S1x1_2_0))
    ∗ cellInv ER (ringRd (F := F) fa fb) (K (dcell (c) (csem cc0_scratch4 2 1 inb_S8x3_S1x1_2_1))) (dcell (c) (csem cc0_scratch4 2 1 inb_S8x3_S1x1_2_1))
    ∗ cellInv ER (ringRd (F := F) fa fb) (K (dcell (c) (csem cc0_scratch4 2 2 inb_S8x3_S1x1_2_2))) (dcell (c) (csem cc0_scratch4 2 2 inb_S8x3_S1x1_2_2))
    ∗ cellInv ER (ringRd (F := F) fa fb) (K (dcell (c) (csem cc0_scratch4 3 0 inb_S8x3_S1x1_3_0))) (dcell (c) (csem cc0_scratch4 3 0 inb_S8x3_S1x1_3_0))
    ∗ cellInv ER (ringRd (F := F) fa fb) (K (dcell (c) (csem cc0_scratch4 3 1 inb_S8x3_S1x1_3_1))) (dcell (c) (csem cc0_scratch4 3 1 inb_S8x3_S1x1_3_1))
    ∗ cellInv ER (ringRd (F := F) fa fb) (K (dcell (c) (csem cc0_scratch4 3 2 inb_S8x3_S1x1_3_2))) (dcell (c) (csem cc0_scratch4 3 2 inb_S8x3_S1x1_3_2))
    ∗ cellInv ER (ringRd (F := F) fa fb) (K (dcell (c) (csem cc0_scratch4 4 0 inb_S8x3_S1x1_4_0))) (dcell (c) (csem cc0_scratch4 4 0 inb_S8x3_S1x1_4_0))
    ∗ cellInv ER (ringRd (F := F) fa fb) (K (dcell (c) (csem cc0_scratch4 4 1 inb_S8x3_S1x1_4_1))) (dcell (c) (csem cc0_scratch4 4 1 inb_S8x3_S1x1_4_1))
    ∗ cellInv ER (ringRd (F := F) fa fb) (K (dcell (c) (csem cc0_scratch4 4 2 inb_S8x3_S1x1_4_2))) (dcell (c) (csem cc0_scratch4 4 2 inb_S8x3_S1x1_4_2))
    ∗ cellInv ER (ringRd (F := F) fa fb) (K (dcell (c) (csem cc0_scratch4 5 0 inb_S8x3_S1x1_5_0))) (dcell (c) (csem cc0_scratch4 5 0 inb_S8x3_S1x1_5_0))
    ∗ cellInv ER (ringRd (F := F) fa fb) (K (dcell (c) (csem cc0_scratch4 5 1 inb_S8x3_S1x1_5_1))) (dcell (c) (csem cc0_scratch4 5 1 inb_S8x3_S1x1_5_1))
    ∗ cellInv ER (ringRd (F := F) fa fb) (K (dcell (c) (csem cc0_scratch4 5 2 inb_S8x3_S1x1_5_2))) (dcell (c) (csem cc0_scratch4 5 2 inb_S8x3_S1x1_5_2))
    ∗ cellInv ER (ringRd (F := F) fa fb) (K (dcell (c) (csem cc0_scratch4 6 0 inb_S8x3_S1x1_6_0))) (dcell (c) (csem cc0_scratch4 6 0 inb_S8x3_S1x1_6_0))
    ∗ cellInv ER (ringRd (F := F) fa fb) (K (dcell (c) (csem cc0_scratch4 6 1 inb_S8x3_S1x1_6_1))) (dcell (c) (csem cc0_scratch4 6 1 inb_S8x3_S1x1_6_1))
    ∗ cellInv ER (ringRd (F := F) fa fb) (K (dcell (c) (csem cc0_scratch4 6 2 inb_S8x3_S1x1_6_2))) (dcell (c) (csem cc0_scratch4 6 2 inb_S8x3_S1x1_6_2))
    ∗ cellInv ER (ringRd (F := F) fa fb) (K (dcell (c) (csem cc0_scratch4 7 0 inb_S8x3_S1x1_7_0))) (dcell (c) (csem cc0_scratch4 7 0 inb_S8x3_S1x1_7_0))
    ∗ cellInv ER (ringRd (F := F) fa fb) (K (dcell (c) (csem cc0_scratch4 7 1 inb_S8x3_S1x1_7_1))) (dcell (c) (csem cc0_scratch4 7 1 inb_S8x3_S1x1_7_1))
    ∗ cellInv ER (ringRd (F := F) fa fb) (K (dcell (c) (csem cc0_scratch4 7 2 inb_S8x3_S1x1_7_2))) (dcell (c) (csem cc0_scratch4 7 2 inb_S8x3_S1x1_7_2))
    ∗ cellInv ER (ringRd (F := F) fa fb) (K (dcell (c) (csem cc0_scratch5 0 0 inb_S8x3_S1x1_0_0))) (dcell (c) (csem cc0_scratch5 0 0 inb_S8x3_S1x1_0_0))
    ∗ cellInv ER (ringRd (F := F) fa fb) (K (dcell (c) (csem cc0_scratch5 0 1 inb_S8x3_S1x1_0_1))) (dcell (c) (csem cc0_scratch5 0 1 inb_S8x3_S1x1_0_1))
    ∗ cellInv ER (ringRd (F := F) fa fb) (K (dcell (c) (csem cc0_scratch5 0 2 inb_S8x3_S1x1_0_2))) (dcell (c) (csem cc0_scratch5 0 2 inb_S8x3_S1x1_0_2))
    ∗ cellInv ER (ringRd (F := F) fa fb) (K (dcell (c) (csem cc0_scratch5 1 0 inb_S8x3_S1x1_1_0))) (dcell (c) (csem cc0_scratch5 1 0 inb_S8x3_S1x1_1_0))
    ∗ cellInv ER (ringRd (F := F) fa fb) (K (dcell (c) (csem cc0_scratch5 1 1 inb_S8x3_S1x1_1_1))) (dcell (c) (csem cc0_scratch5 1 1 inb_S8x3_S1x1_1_1))
    ∗ cellInv ER (ringRd (F := F) fa fb) (K (dcell (c) (csem cc0_scratch5 1 2 inb_S8x3_S1x1_1_2))) (dcell (c) (csem cc0_scratch5 1 2 inb_S8x3_S1x1_1_2))
    ∗ cellInv ER (ringRd (F := F) fa fb) (K (dcell (c) (csem cc0_scratch5 2 0 inb_S8x3_S1x1_2_0))) (dcell (c) (csem cc0_scratch5 2 0 inb_S8x3_S1x1_2_0))
    ∗ cellInv ER (ringRd (F := F) fa fb) (K (dcell (c) (csem cc0_scratch5 2 1 inb_S8x3_S1x1_2_1))) (dcell (c) (csem cc0_scratch5 2 1 inb_S8x3_S1x1_2_1))
    ∗ cellInv ER (ringRd (F := F) fa fb) (K (dcell (c) (csem cc0_scratch5 2 2 inb_S8x3_S1x1_2_2))) (dcell (c) (csem cc0_scratch5 2 2 inb_S8x3_S1x1_2_2))
    ∗ cellInv ER (ringRd (F := F) fa fb) (K (dcell (c) (csem cc0_scratch5 3 0 inb_S8x3_S1x1_3_0))) (dcell (c) (csem cc0_scratch5 3 0 inb_S8x3_S1x1_3_0))
    ∗ cellInv ER (ringRd (F := F) fa fb) (K (dcell (c) (csem cc0_scratch5 3 1 inb_S8x3_S1x1_3_1))) (dcell (c) (csem cc0_scratch5 3 1 inb_S8x3_S1x1_3_1))
    ∗ cellInv ER (ringRd (F := F) fa fb) (K (dcell (c) (csem cc0_scratch5 3 2 inb_S8x3_S1x1_3_2))) (dcell (c) (csem cc0_scratch5 3 2 inb_S8x3_S1x1_3_2))
    ∗ cellInv ER (ringRd (F := F) fa fb) (K (dcell (c) (csem cc0_scratch5 4 0 inb_S8x3_S1x1_4_0))) (dcell (c) (csem cc0_scratch5 4 0 inb_S8x3_S1x1_4_0))
    ∗ cellInv ER (ringRd (F := F) fa fb) (K (dcell (c) (csem cc0_scratch5 4 1 inb_S8x3_S1x1_4_1))) (dcell (c) (csem cc0_scratch5 4 1 inb_S8x3_S1x1_4_1))
    ∗ cellInv ER (ringRd (F := F) fa fb) (K (dcell (c) (csem cc0_scratch5 4 2 inb_S8x3_S1x1_4_2))) (dcell (c) (csem cc0_scratch5 4 2 inb_S8x3_S1x1_4_2))
    ∗ cellInv ER (ringRd (F := F) fa fb) (K (dcell (c) (csem cc0_scratch5 5 0 inb_S8x3_S1x1_5_0))) (dcell (c) (csem cc0_scratch5 5 0 inb_S8x3_S1x1_5_0))
    ∗ cellInv ER (ringRd (F := F) fa fb) (K (dcell (c) (csem cc0_scratch5 5 1 inb_S8x3_S1x1_5_1))) (dcell (c) (csem cc0_scratch5 5 1 inb_S8x3_S1x1_5_1))
    ∗ cellInv ER (ringRd (F := F) fa fb) (K (dcell (c) (csem cc0_scratch5 5 2 inb_S8x3_S1x1_5_2))) (dcell (c) (csem cc0_scratch5 5 2 inb_S8x3_S1x1_5_2))
    ∗ cellInv ER (ringRd (F := F) fa fb) (K (dcell (c) (csem cc0_scratch5 6 0 inb_S8x3_S1x1_6_0))) (dcell (c) (csem cc0_scratch5 6 0 inb_S8x3_S1x1_6_0))
    ∗ cellInv ER (ringRd (F := F) fa fb) (K (dcell (c) (csem cc0_scratch5 6 1 inb_S8x3_S1x1_6_1))) (dcell (c) (csem cc0_scratch5 6 1 inb_S8x3_S1x1_6_1))
    ∗ cellInv ER (ringRd (F := F) fa fb) (K (dcell (c) (csem cc0_scratch5 6 2 inb_S8x3_S1x1_6_2))) (dcell (c) (csem cc0_scratch5 6 2 inb_S8x3_S1x1_6_2))
    ∗ cellInv ER (ringRd (F := F) fa fb) (K (dcell (c) (csem cc0_scratch5 7 0 inb_S8x3_S1x1_7_0))) (dcell (c) (csem cc0_scratch5 7 0 inb_S8x3_S1x1_7_0))
    ∗ cellInv ER (ringRd (F := F) fa fb) (K (dcell (c) (csem cc0_scratch5 7 1 inb_S8x3_S1x1_7_1))) (dcell (c) (csem cc0_scratch5 7 1 inb_S8x3_S1x1_7_1))
    ∗ cellInv ER (ringRd (F := F) fa fb) (K (dcell (c) (csem cc0_scratch5 7 2 inb_S8x3_S1x1_7_2))) (dcell (c) (csem cc0_scratch5 7 2 inb_S8x3_S1x1_7_2))
    ∗ atPos ER (dcell (c) (csem cc0_scratch2 0 0 inb_S8x3_S1x1_0_0)) 1 ∅ 0
    ∗ atPos ER (dcell (c) (csem cc0_scratch2 0 1 inb_S8x3_S1x1_0_1)) 1 ∅ 0
    ∗ atPos ER (dcell (c) (csem cc0_scratch2 0 2 inb_S8x3_S1x1_0_2)) 1 ∅ 0
    ∗ atPos ER (dcell (c) (csem cc0_scratch2 1 0 inb_S8x3_S1x1_1_0)) 1 ∅ 0
    ∗ atPos ER (dcell (c) (csem cc0_scratch2 1 1 inb_S8x3_S1x1_1_1)) 1 ∅ 0
    ∗ atPos ER (dcell (c) (csem cc0_scratch2 1 2 inb_S8x3_S1x1_1_2)) 1 ∅ 0
    ∗ atPos ER (dcell (c) (csem cc0_scratch2 2 0 inb_S8x3_S1x1_2_0)) 1 ∅ 0
    ∗ atPos ER (dcell (c) (csem cc0_scratch2 2 1 inb_S8x3_S1x1_2_1)) 1 ∅ 0
    ∗ atPos ER (dcell (c) (csem cc0_scratch2 2 2 inb_S8x3_S1x1_2_2)) 1 ∅ 0
    ∗ atPos ER (dcell (c) (csem cc0_scratch2 3 0 inb_S8x3_S1x1_3_0)) 1 ∅ 0
    ∗ atPos ER (dcell (c) (csem cc0_scratch2 3 1 inb_S8x3_S1x1_3_1)) 1 ∅ 0
    ∗ atPos ER (dcell (c) (csem cc0_scratch2 3 2 inb_S8x3_S1x1_3_2)) 1 ∅ 0
    ∗ atPos ER (dcell (c) (csem cc0_scratch2 4 0 inb_S8x3_S1x1_4_0)) 1 ∅ 0
    ∗ atPos ER (dcell (c) (csem cc0_scratch2 4 1 inb_S8x3_S1x1_4_1)) 1 ∅ 0
    ∗ atPos ER (dcell (c) (csem cc0_scratch2 4 2 inb_S8x3_S1x1_4_2)) 1 ∅ 0
    ∗ atPos ER (dcell (c) (csem cc0_scratch2 5 0 inb_S8x3_S1x1_5_0)) 1 ∅ 0
    ∗ atPos ER (dcell (c) (csem cc0_scratch2 5 1 inb_S8x3_S1x1_5_1)) 1 ∅ 0
    ∗ atPos ER (dcell (c) (csem cc0_scratch2 5 2 inb_S8x3_S1x1_5_2)) 1 ∅ 0
    ∗ atPos ER (dcell (c) (csem cc0_scratch2 6 0 inb_S8x3_S1x1_6_0)) 1 ∅ 0
    ∗ atPos ER (dcell (c) (csem cc0_scratch2 6 1 inb_S8x3_S1x1_6_1)) 1 ∅ 0
    ∗ atPos ER (dcell (c) (csem cc0_scratch2 6 2 inb_S8x3_S1x1_6_2)) 1 ∅ 0
    ∗ atPos ER (dcell (c) (csem cc0_scratch2 7 0 inb_S8x3_S1x1_7_0)) 1 ∅ 0
    ∗ atPos ER (dcell (c) (csem cc0_scratch2 7 1 inb_S8x3_S1x1_7_1)) 1 ∅ 0
    ∗ atPos ER (dcell (c) (csem cc0_scratch2 7 2 inb_S8x3_S1x1_7_2)) 1 ∅ 0
    ∗ atPos ER (dcell (c) (csem cc0_scratch3 0 0 inb_S8x3_S1x1_0_0)) 1 ∅ 0
    ∗ atPos ER (dcell (c) (csem cc0_scratch3 0 1 inb_S8x3_S1x1_0_1)) 1 ∅ 0
    ∗ atPos ER (dcell (c) (csem cc0_scratch3 0 2 inb_S8x3_S1x1_0_2)) 1 ∅ 0
    ∗ atPos ER (dcell (c) (csem cc0_scratch3 1 0 inb_S8x3_S1x1_1_0)) 1 ∅ 0
    ∗ atPos ER (dcell (c) (csem cc0_scratch3 1 1 inb_S8x3_S1x1_1_1)) 1 ∅ 0
    ∗ atPos ER (dcell (c) (csem cc0_scratch3 1 2 inb_S8x3_S1x1_1_2)) 1 ∅ 0
    ∗ atPos ER (dcell (c) (csem cc0_scratch3 2 0 inb_S8x3_S1x1_2_0)) 1 ∅ 0
    ∗ atPos ER (dcell (c) (csem cc0_scratch3 2 1 inb_S8x3_S1x1_2_1)) 1 ∅ 0
    ∗ atPos ER (dcell (c) (csem cc0_scratch3 2 2 inb_S8x3_S1x1_2_2)) 1 ∅ 0
    ∗ atPos ER (dcell (c) (csem cc0_scratch3 3 0 inb_S8x3_S1x1_3_0)) 1 ∅ 0
    ∗ atPos ER (dcell (c) (csem cc0_scratch3 3 1 inb_S8x3_S1x1_3_1)) 1 ∅ 0
    ∗ atPos ER (dcell (c) (csem cc0_scratch3 3 2 inb_S8x3_S1x1_3_2)) 1 ∅ 0
    ∗ atPos ER (dcell (c) (csem cc0_scratch3 4 0 inb_S8x3_S1x1_4_0)) 1 ∅ 0
    ∗ atPos ER (dcell (c) (csem cc0_scratch3 4 1 inb_S8x3_S1x1_4_1)) 1 ∅ 0
    ∗ atPos ER (dcell (c) (csem cc0_scratch3 4 2 inb_S8x3_S1x1_4_2)) 1 ∅ 0
    ∗ atPos ER (dcell (c) (csem cc0_scratch3 5 0 inb_S8x3_S1x1_5_0)) 1 ∅ 0
    ∗ atPos ER (dcell (c) (csem cc0_scratch3 5 1 inb_S8x3_S1x1_5_1)) 1 ∅ 0
    ∗ atPos ER (dcell (c) (csem cc0_scratch3 5 2 inb_S8x3_S1x1_5_2)) 1 ∅ 0
    ∗ atPos ER (dcell (c) (csem cc0_scratch3 6 0 inb_S8x3_S1x1_6_0)) 1 ∅ 0
    ∗ atPos ER (dcell (c) (csem cc0_scratch3 6 1 inb_S8x3_S1x1_6_1)) 1 ∅ 0
    ∗ atPos ER (dcell (c) (csem cc0_scratch3 6 2 inb_S8x3_S1x1_6_2)) 1 ∅ 0
    ∗ atPos ER (dcell (c) (csem cc0_scratch3 7 0 inb_S8x3_S1x1_7_0)) 1 ∅ 0
    ∗ atPos ER (dcell (c) (csem cc0_scratch3 7 1 inb_S8x3_S1x1_7_1)) 1 ∅ 0
    ∗ atPos ER (dcell (c) (csem cc0_scratch3 7 2 inb_S8x3_S1x1_7_2)) 1 ∅ 0
    ∗ atPos ER (dcell (c) (csem cc0_scratch4 0 0 inb_S8x3_S1x1_0_0)) 1 ∅ 0
    ∗ atPos ER (dcell (c) (csem cc0_scratch4 0 1 inb_S8x3_S1x1_0_1)) 1 ∅ 0
    ∗ atPos ER (dcell (c) (csem cc0_scratch4 0 2 inb_S8x3_S1x1_0_2)) 1 ∅ 0
    ∗ atPos ER (dcell (c) (csem cc0_scratch4 1 0 inb_S8x3_S1x1_1_0)) 1 ∅ 0
    ∗ atPos ER (dcell (c) (csem cc0_scratch4 1 1 inb_S8x3_S1x1_1_1)) 1 ∅ 0
    ∗ atPos ER (dcell (c) (csem cc0_scratch4 1 2 inb_S8x3_S1x1_1_2)) 1 ∅ 0
    ∗ atPos ER (dcell (c) (csem cc0_scratch4 2 0 inb_S8x3_S1x1_2_0)) 1 ∅ 0
    ∗ atPos ER (dcell (c) (csem cc0_scratch4 2 1 inb_S8x3_S1x1_2_1)) 1 ∅ 0
    ∗ atPos ER (dcell (c) (csem cc0_scratch4 2 2 inb_S8x3_S1x1_2_2)) 1 ∅ 0
    ∗ atPos ER (dcell (c) (csem cc0_scratch4 3 0 inb_S8x3_S1x1_3_0)) 1 ∅ 0
    ∗ atPos ER (dcell (c) (csem cc0_scratch4 3 1 inb_S8x3_S1x1_3_1)) 1 ∅ 0
    ∗ atPos ER (dcell (c) (csem cc0_scratch4 3 2 inb_S8x3_S1x1_3_2)) 1 ∅ 0
    ∗ atPos ER (dcell (c) (csem cc0_scratch4 4 0 inb_S8x3_S1x1_4_0)) 1 ∅ 0
    ∗ atPos ER (dcell (c) (csem cc0_scratch4 4 1 inb_S8x3_S1x1_4_1)) 1 ∅ 0
    ∗ atPos ER (dcell (c) (csem cc0_scratch4 4 2 inb_S8x3_S1x1_4_2)) 1 ∅ 0
    ∗ atPos ER (dcell (c) (csem cc0_scratch4 5 0 inb_S8x3_S1x1_5_0)) 1 ∅ 0
    ∗ atPos ER (dcell (c) (csem cc0_scratch4 5 1 inb_S8x3_S1x1_5_1)) 1 ∅ 0
    ∗ atPos ER (dcell (c) (csem cc0_scratch4 5 2 inb_S8x3_S1x1_5_2)) 1 ∅ 0
    ∗ atPos ER (dcell (c) (csem cc0_scratch4 6 0 inb_S8x3_S1x1_6_0)) 1 ∅ 0
    ∗ atPos ER (dcell (c) (csem cc0_scratch4 6 1 inb_S8x3_S1x1_6_1)) 1 ∅ 0
    ∗ atPos ER (dcell (c) (csem cc0_scratch4 6 2 inb_S8x3_S1x1_6_2)) 1 ∅ 0
    ∗ atPos ER (dcell (c) (csem cc0_scratch4 7 0 inb_S8x3_S1x1_7_0)) 1 ∅ 0
    ∗ atPos ER (dcell (c) (csem cc0_scratch4 7 1 inb_S8x3_S1x1_7_1)) 1 ∅ 0
    ∗ atPos ER (dcell (c) (csem cc0_scratch4 7 2 inb_S8x3_S1x1_7_2)) 1 ∅ 0
    ∗ atPos ER (dcell (c) (csem cc0_scratch5 0 0 inb_S8x3_S1x1_0_0)) 1 ∅ 0
    ∗ atPos ER (dcell (c) (csem cc0_scratch5 0 1 inb_S8x3_S1x1_0_1)) 1 ∅ 0
    ∗ atPos ER (dcell (c) (csem cc0_scratch5 0 2 inb_S8x3_S1x1_0_2)) 1 ∅ 0
    ∗ atPos ER (dcell (c) (csem cc0_scratch5 1 0 inb_S8x3_S1x1_1_0)) 1 ∅ 0
    ∗ atPos ER (dcell (c) (csem cc0_scratch5 1 1 inb_S8x3_S1x1_1_1)) 1 ∅ 0
    ∗ atPos ER (dcell (c) (csem cc0_scratch5 1 2 inb_S8x3_S1x1_1_2)) 1 ∅ 0
    ∗ atPos ER (dcell (c) (csem cc0_scratch5 2 0 inb_S8x3_S1x1_2_0)) 1 ∅ 0
    ∗ atPos ER (dcell (c) (csem cc0_scratch5 2 1 inb_S8x3_S1x1_2_1)) 1 ∅ 0
    ∗ atPos ER (dcell (c) (csem cc0_scratch5 2 2 inb_S8x3_S1x1_2_2)) 1 ∅ 0
    ∗ atPos ER (dcell (c) (csem cc0_scratch5 3 0 inb_S8x3_S1x1_3_0)) 1 ∅ 0
    ∗ atPos ER (dcell (c) (csem cc0_scratch5 3 1 inb_S8x3_S1x1_3_1)) 1 ∅ 0
    ∗ atPos ER (dcell (c) (csem cc0_scratch5 3 2 inb_S8x3_S1x1_3_2)) 1 ∅ 0
    ∗ atPos ER (dcell (c) (csem cc0_scratch5 4 0 inb_S8x3_S1x1_4_0)) 1 ∅ 0
    ∗ atPos ER (dcell (c) (csem cc0_scratch5 4 1 inb_S8x3_S1x1_4_1)) 1 ∅ 0
    ∗ atPos ER (dcell (c) (csem cc0_scratch5 4 2 inb_S8x3_S1x1_4_2)) 1 ∅ 0
    ∗ atPos ER (dcell (c) (csem cc0_scratch5 5 0 inb_S8x3_S1x1_5_0)) 1 ∅ 0
    ∗ atPos ER (dcell (c) (csem cc0_scratch5 5 1 inb_S8x3_S1x1_5_1)) 1 ∅ 0
    ∗ atPos ER (dcell (c) (csem cc0_scratch5 5 2 inb_S8x3_S1x1_5_2)) 1 ∅ 0
    ∗ atPos ER (dcell (c) (csem cc0_scratch5 6 0 inb_S8x3_S1x1_6_0)) 1 ∅ 0
    ∗ atPos ER (dcell (c) (csem cc0_scratch5 6 1 inb_S8x3_S1x1_6_1)) 1 ∅ 0
    ∗ atPos ER (dcell (c) (csem cc0_scratch5 6 2 inb_S8x3_S1x1_6_2)) 1 ∅ 0
    ∗ atPos ER (dcell (c) (csem cc0_scratch5 7 0 inb_S8x3_S1x1_7_0)) 1 ∅ 0
    ∗ atPos ER (dcell (c) (csem cc0_scratch5 7 1 inb_S8x3_S1x1_7_1)) 1 ∅ 0
    ∗ atPos ER (dcell (c) (csem cc0_scratch5 7 2 inb_S8x3_S1x1_7_2)) 1 ∅ 0
    ∗ atPos ER (barCell c) 1 ∅ 0
    ∗ owes (c : Thread nD τ) (0 : CellTallies nD τ sig Unit) W)

end Cert.Kernel.P

end
-- ==== Proof.KGlue.lean ====
import proofs.«900901_g7700000000000902_dist_matmul_silu_kshard_i_m2048_n2048_k1024_v7x_i4_bf16_1_alg».proof.Proof.KGhost
import proofs.«900901_g7700000000000902_dist_matmul_silu_kshard_i_m2048_n2048_k1024_v7x_i4_bf16_1_alg».proof.Proof.KBodyTables
import proofs.«900901_g7700000000000902_dist_matmul_silu_kshard_i_m2048_n2048_k1024_v7x_i4_bf16_1_alg».proof.Proof.KSplit
import proofs.«900901_g7700000000000902_dist_matmul_silu_kshard_i_m2048_n2048_k1024_v7x_i4_bf16_1_alg».proof.Proof.KLaunch
import proofs.«900901_g7700000000000902_dist_matmul_silu_kshard_i_m2048_n2048_k1024_v7x_i4_bf16_1_alg».proof.Proof.KSites
import proofs.«900901_g7700000000000902_dist_matmul_silu_kshard_i_m2048_n2048_k1024_v7x_i4_bf16_1_alg».proof.Proof.KTablesLit
import proofs.«900901_g7700000000000902_dist_matmul_silu_kshard_i_m2048_n2048_k1024_v7x_i4_bf16_1_alg».proof.Proof.KClose
import proofs.«900901_g7700000000000902_dist_matmul_silu_kshard_i_m2048_n2048_k1024_v7x_i4_bf16_1_alg».proof.Proof.KPostTables

/-!
The glue between the launch's form of a body's precondition and the piece-by-piece form a run of the body starts from.

The launch hands a device the ring's ghost state family by family (a conjunction over the 24 pairs of a chain and a step
for each kind of cell), its buffers whole, and the level facts. A run wants every conjunct on its own: the scratch as its
32 slots, the result buffer as its 32 blocks of 512 rows and 256 columns (the eight of the device's own band under the
offsets the program computes, the others by ring distance), each family as its 24 members, and one wait permission for
every wait of the body, drawn from the persistent level facts. The two forms hold the same conjuncts; the proof lists
each group in the order of the piece-by-piece form and hands the groups over one after another.

The way back, after the body's last wait: the 32 slots, at whatever they hold, are the scratch at some contents; each of
the 32 blocks of the result holds the finished block of its band (an own block, a forwarded one, or the landing of the
last hop, which holds what the sender's block held), so together they are the one buffer of finished blocks; the 96 own
transfer cells, their owner at round 1 of each, close with their counters at zero.
-/

noncomputable section

namespace Cert.Kernel.P

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Chains of separating conjuncts -/

/-- The conjuncts of a list in order, then `R`: `x₁ ∗ x₂ ∗ … ∗ xₙ ∗ R`. -/
def chain : List (sProp 𝕄) → sProp 𝕄 → sProp 𝕄
  | [], R => R
  | x :: l, R => iprop(x ∗ chain l R)

omit [FloatOps F] in
theorem chain_nil (R : sProp 𝕄) : chain [] R = R := rfl
omit [FloatOps F] in
theorem chain_cons (x : sProp 𝕄) (l : List (sProp 𝕄)) (R : sProp 𝕄) : chain (x :: l) R = iprop(x ∗ chain l R) := rfl

omit [FloatOps F] in
theorem chain_append (l₁ l₂ : List (sProp 𝕄)) (R : sProp 𝕄) : chain (l₁ ++ l₂) R = chain l₁ (chain l₂ R) := by
  induction l₁ with
  | nil => rfl
  | cons x l ih => rw [List.cons_append, chain_cons, chain_cons, ih]

omit [FloatOps F] in
theorem sep_assoc_eqG (P Q R : sProp 𝕄) : iprop((P ∗ Q) ∗ R) = iprop(P ∗ Q ∗ R) :=
  Entails.antisymm (BI.sep_assoc) (BI.sep_assoc')

omit [FloatOps F] in
/-- A listed conjunction followed by `R` is the chain of its conjuncts ending in `R`. -/
theorem bigSepL_sep_eq_chain {I : Type} (Φ : I → sProp 𝕄) (R : sProp 𝕄) :
    ∀ (l : List I), l ≠ [] → iprop(bigSepL l Φ ∗ R) = chain (l.map Φ) R
  | [], h => absurd rfl h
  | [i], _ => rfl
  | i :: j :: l, _ => by
    show iprop((Φ i ∗ bigSepL (j :: l) Φ) ∗ R) = iprop(Φ i ∗ chain ((j :: l).map Φ) R)
    rw [sep_assoc_eqG, bigSepL_sep_eq_chain Φ R (j :: l) (List.cons_ne_nil _ _)]

/-! ## Index lists -/

def idx84 : List (Fin 8 × Fin 4) := [(0, 0), (0, 1), (0, 2), (0, 3), (1, 0), (1, 1), (1, 2), (1, 3), (2, 0), (2, 1), (2, 2), (2, 3), (3, 0), (3, 1), (3, 2), (3, 3), (4, 0), (4, 1), (4, 2), (4, 3), (5, 0), (5, 1), (5, 2), (5, 3), (6, 0), (6, 1), (6, 2), (6, 3), (7, 0), (7, 1), (7, 2), (7, 3)]
def idx83 : List (Fin 8 × Fin 3) := [(0, 0), (0, 1), (0, 2), (1, 0), (1, 1), (1, 2), (2, 0), (2, 1), (2, 2), (3, 0), (3, 1), (3, 2), (4, 0), (4, 1), (4, 2), (5, 0), (5, 1), (5, 2), (6, 0), (6, 1), (6, 2), (7, 0), (7, 1), (7, 2)]
/-- The handed-over blocks in the order of the chains: chains 0–3 at distances 3, 2, 1, chains 4–7 at distances 1, 2, 3. -/
def idxHand : List (Fin 4 × Fin 8) := [(3, 0), (2, 0), (1, 0), (3, 1), (2, 1), (1, 1), (3, 2), (2, 2), (1, 2), (3, 3), (2, 3), (1, 3), (1, 4), (2, 4), (3, 4), (1, 5), (2, 5), (3, 5), (1, 6), (2, 6), (3, 6), (1, 7), (2, 7), (3, 7)]
def idxOwn : List (Fin 4 × Fin 8) := [(0, 0), (0, 1), (0, 2), (0, 3), (0, 4), (0, 5), (0, 6), (0, 7)]

theorem idx84_univ : (Finset.univ : Finset (Fin 8 × Fin 4)) = idx84.toFinset := by decide
theorem idx83_univ : (Finset.univ : Finset (Fin 8 × Fin 3)) = idx83.toFinset := by decide
theorem idxBlk_univ : (Finset.univ : Finset (Fin 4 × Fin 8)) = (idxOwn ++ idxHand).toFinset := by decide
theorem idx84_nodup : idx84.Nodup := by decide
theorem idx83_nodup : idx83.Nodup := by decide
theorem idxBlk_nodup : (idxOwn ++ idxHand).Nodup := by decide

/-- Place of chain `a` in the order 0, 4, 1, 5, 2, 6, 3, 7 of the copies of a step. -/
def posOf (a : ℕ) : ℕ := 2 * (a % 4) + a / 4

section Families
variable (fa : Dev nD → AT F) (fb : Dev nD → BT F) (K : GSem nD τ sig → ℕ) (c : Dev nD)

/-- Slot `ab` of the scratch at contents `fr`. -/
abbrev slotP (fr : RT F) (ab : Fin 8 × Fin 4) : sProp 𝕄 :=
  ((slotM ab.1.val ab.2.val (slot_inb _ _ ab.1.isLt ab.2.isLt)).view.loc (c : Thread nD τ)
    ↦[(slotM ab.1.val ab.2.val (slot_inb _ _ ab.1.isLt ab.2.isLt)).view.set]{fullShare} fr)
/-- The block of the result at offsets `off`, at contents `fo`. -/
abbrev offP (fo : OT F) (off : Fin 2 → ℕ) (h : ∀ i, off i + S512x256.size i ≤ S2048x2048.size i) : sProp 𝕄 :=
  ((oblkM off h).view.loc (c : Thread nD τ) ↦[(oblkM off h).view.set]{fullShare} fo)
/-- The block of band distance `ka.1`, chain `ka.2`. -/
abbrev blkP (fo : OT F) (ka : Fin 4 × Fin 8) : sProp 𝕄 :=
  offP c fo (rowOff c ka.1.val ka.2.val) (rowOff_inb c _ _ ka.2.isLt)

/-- Own cell `(a, b)` of array `k`. -/
abbrev ownC (X : DmaSems sig S8x3) (ab : Fin 8 × Fin 3) : GSem nD τ sig := dcell c (csem X ab.1.val ab.2.val (sem_inb _ _ ab.1.isLt ab.2.isLt))
/-- The cell `(a, b)` of array `X` on the device chain `a` leads to. -/
abbrev tgtC (X : DmaSems sig S8x3) (ab : Fin 8 × Fin 3) : GSem nD τ sig := dcell (tdev ab.1.val c) (csem X ab.1.val ab.2.val (sem_inb _ _ ab.1.isLt ab.2.isLt))

abbrev invP (g : GSem nD τ sig) : sProp 𝕄 := cellInv ER (ringRd fa fb) (K g) g

/-- The body's starting resources, group after group, ending in `R`. -/
def allC (fbb : BbT F) (fr : RT F) (fo : OT F) (R : sProp 𝕄) : sProp 𝕄 :=
  chain [((aM : Memref sig .tc .vmem S2048x1024 .f32).view.loc (c : Thread nD τ) ↦{fullShare} fa c),
     ((bM : Memref sig .tc .vmem S1024x2048 .f32).view.loc (c : Thread nD τ) ↦{fullShare} fb c),
     ((bbM : Memref sig .tc .vmem S1024x2048 .bf16).view.loc (c : Thread nD τ) ↦{fullShare} fbb)] <|
  chain (idx84.map (slotP c fr)) <|
  chain [offP c fo (k0_off2 c) (k0_off2_inb c), offP c fo (k0_off6 c) (k0_off6_inb c), offP c fo (k0_off10 c) (k0_off10_inb c), offP c fo (k0_off14 c) (k0_off14_inb c), offP c fo (k0_off4 c) (k0_off4_inb c), offP c fo (k0_off8 c) (k0_off8_inb c), offP c fo (k0_off12 c) (k0_off12_inb c), offP c fo (k0_off16 c) (k0_off16_inb c)] <|
  chain (idxHand.map (blkP c fo)) <|
  chain [invP fa fb K (barCell c), invP fa fb K (barCell (nxt c)), invP fa fb K (barCell (prv c))] <|
  chain (idx83.map (fun ab => invP fa fb K (ownC c cc0_scratch2 ab))) <| chain (idx83.map (fun ab => invP fa fb K (ownC c cc0_scratch3 ab))) <|
  chain (idx83.map (fun ab => invP fa fb K (ownC c cc0_scratch4 ab))) <| chain (idx83.map (fun ab => invP fa fb K (ownC c cc0_scratch5 ab))) <|
  chain (idx83.map (fun ab => invP fa fb K (tgtC c cc0_scratch3 ab))) <| chain (idx83.map (fun ab => invP fa fb K (tgtC c cc0_scratch5 ab))) <|
  chain [atPos ER (barCell c) 0 ∅ 0] <|
  chain (idx83.map (fun ab => atPos ER (ownC c cc0_scratch2 ab) 0 ∅ 0)) <| chain (idx83.map (fun ab => atPos ER (ownC c cc0_scratch3 ab) 0 ∅ 0)) <|
  chain (idx83.map (fun ab => atPos ER (ownC c cc0_scratch4 ab) 0 ∅ 0)) <| chain (idx83.map (fun ab => atPos ER (ownC c cc0_scratch5 ab) 0 ∅ 0)) <|
  chain [reached ER (barCell (nxt c)) 0, reached ER (barCell (prv c)) 0] <|
  chain (idx83.map (fun ab => reached ER (ownC c cc0_scratch2 ab) 0)) <| chain (idx83.map (fun ab => reached ER (ownC c cc0_scratch3 ab) 0)) <|
  chain (idx83.map (fun ab => reached ER (ownC c cc0_scratch4 ab) 0)) <| chain (idx83.map (fun ab => reached ER (ownC c cc0_scratch5 ab) 0)) <|
  chain (idx83.map (fun ab => reached ER (tgtC c cc0_scratch3 ab) 0)) <| chain (idx83.map (fun ab => reached ER (tgtC c cc0_scratch5 ab) 0)) <|
  chain [dutyTok ER (barCell (prv c)) 0 true, dutyTok ER (barCell (nxt c)) 0 false] <|
  chain (idx83.map (fun ab => dutyTok ER (tgtC c cc0_scratch3 ab) 0 false)) <| chain (idx83.map (fun ab => dutyTok ER (tgtC c cc0_scratch5 ab) 0 false)) <|
  chain (idx83.map (fun ab => dutyTok ER (ownC c cc0_scratch2 ab) 0 false)) <| chain (idx83.map (fun ab => dutyTok ER (ownC c cc0_scratch4 ab) 0 false)) <|
  chain [cred (tallyAt (barCell c) () 2)] <|
  chain (idx83.map (fun ab => cred (tallyAt (ownC c cc0_scratch3 ab) () Nrs))) <| chain (idx83.map (fun ab => cred (tallyAt (ownC c cc0_scratch5 ab) () Nag))) <|
  chain [MayWait (c : Thread nD τ) (.reg barS) () (owedRem c 48)] <|
  chain (idx83.map (fun ab => MayWait (c : Thread nD τ) (.dma (csem cc0_scratch3 ab.1.val ab.2.val (sem_inb _ _ ab.1.isLt ab.2.isLt))) () (owedRem c (48 - (8 * (ab.2.val + 1) + posOf ab.1.val))))) <|
  chain (idx83.map (fun ab => MayWait (c : Thread nD τ) (.dma (csem cc0_scratch5 ab.1.val ab.2.val (sem_inb _ _ ab.1.isLt ab.2.isLt))) () (owedRem c (if ab.2.val < 2 then 48 - (8 * (ab.2.val + 4) + posOf ab.1.val) else 0)))) <|
  R

end Families

/-! ## The piece-by-piece form as a chain of groups -/

set_option maxHeartbeats 4000000 in
/-- The piece-by-piece precondition is the chain of its groups: the conjuncts are the same, up to the evidence
    each carries and to the ring neighbour a chain leads to, evaluated at each chain's number. -/
theorem corePre_eq_chain (fa : Dev nD → AT F) (fb : Dev nD → BT F) (K : GSem nD τ sig → ℕ) (c : Dev nD)
    (fbb : BbT F) (fr : RT F) (fo : OT F) (W : Waits sig Unit) :
    corePre fa fb K c fbb fr fo W
      = allC fa fb K c fbb fr fo (owes (c : Thread nD τ) (owedRem c 48 + tallyAt (barCell (nxt c)) () 1 + tallyAt (barCell (prv c)) () 1) W) := rfl

omit [FloatOps F] in
theorem chain_idx84 (Φ : Fin 8 × Fin 4 → sProp 𝕄) (R : sProp 𝕄) : chain (idx84.map Φ) R = iprop(bigSepL idx84 Φ ∗ R) :=
  (bigSepL_sep_eq_chain Φ R idx84 (by decide)).symm
omit [FloatOps F] in
theorem chain_idx83 (Φ : Fin 8 × Fin 3 → sProp 𝕄) (R : sProp 𝕄) : chain (idx83.map Φ) R = iprop(bigSepL idx83 Φ ∗ R) :=
  (bigSepL_sep_eq_chain Φ R idx83 (by decide)).symm
omit [FloatOps F] in
theorem chain_idxHand (Φ : Fin 4 × Fin 8 → sProp 𝕄) (R : sProp 𝕄) : chain (idxHand.map Φ) R = iprop(bigSepL idxHand Φ ∗ R) :=
  (bigSepL_sep_eq_chain Φ R idxHand (by decide)).symm

omit [FloatOps F] in
/-- A family over the 24 pairs, listed. -/
theorem overAB_L (Φ : (a b : ℕ) → a < 8 → b < 3 → sProp 𝕄) :
    overAB Φ ⊢ bigSepL idx83 (fun ab => Φ ab.1.val ab.2.val ab.1.isLt ab.2.isLt) :=
  Entails.of_eq (bigSep_univ_eq_bigSepL idx83 idx83_univ idx83_nodup _)

omit [FloatOps F] in
theorem bigSepL_append {I : Type} (Φ : I → sProp 𝕄) : ∀ (l₁ l₂ : List I), l₁ ≠ [] → l₂ ≠ [] →
    bigSepL (l₁ ++ l₂) Φ = iprop(bigSepL l₁ Φ ∗ bigSepL l₂ Φ)
  | [], _, h, _ => absurd rfl h
  | [i], [], _, h => absurd rfl h
  | [i], j :: l, _, _ => rfl
  | i :: i' :: l₁, l₂, _, h₂ => by
    show iprop(Φ i ∗ bigSepL ((i' :: l₁) ++ l₂) Φ) = iprop((Φ i ∗ bigSepL (i' :: l₁) Φ) ∗ bigSepL l₂ Φ)
    rw [bigSepL_append Φ (i' :: l₁) l₂ (List.cons_ne_nil _ _) h₂, sep_assoc_eqG]

/-! ## The buffers, piece by piece -/

section Pieces
variable (c : Dev nD)

/-- The scratch at `fr` is its 32 slots at `fr`, in the order of the chains. -/
theorem scratch_L (fr : RT F) :
    (((c : Thread nD τ).loc cc0_scratch0) ↦{fullShare} fr : sProp 𝕄) ⊢ bigSepL idx84 (slotP c fr) :=
  Entails.of_eq ((scratch_split_eq c fullShare fr).trans (bigSep_univ_eq_bigSepL idx84 idx84_univ idx84_nodup _))

/-- The result buffer at `fo` is its 32 blocks at `fo`: the eight of the device's own band, then the handed-over ones. -/
theorem blocks_L (fo : OT F) :
    (((c : Thread nD τ).loc cc0_stg2_0) ↦{fullShare} fo : sProp 𝕄) ⊢ iprop(bigSepL idxOwn (blkP c fo) ∗ bigSepL idxHand (blkP c fo)) :=
  Entails.of_eq ((block_split_chunk_eq c fullShare fo).trans
    ((bigSep_univ_eq_bigSepL (idxOwn ++ idxHand) idxBlk_univ idxBlk_nodup _).trans
      (bigSepL_append _ idxOwn idxHand (by decide) (by decide))))

/-- The own band's eight blocks under the offsets the program computes. -/
theorem own_L (fo : OT F) :
    bigSepL idxOwn (blkP c fo)
      ⊢ iprop(offP c fo (k0_off2 c) (k0_off2_inb c) ∗ offP c fo (k0_off6 c) (k0_off6_inb c) ∗ offP c fo (k0_off10 c) (k0_off10_inb c)
          ∗ offP c fo (k0_off14 c) (k0_off14_inb c) ∗ offP c fo (k0_off4 c) (k0_off4_inb c) ∗ offP c fo (k0_off8 c) (k0_off8_inb c)
          ∗ offP c fo (k0_off12 c) (k0_off12_inb c) ∗ offP c fo (k0_off16 c) (k0_off16_inb c)) := by
  refine Entails.of_eq ?_
  show iprop(blkP c fo (0, 0) ∗ blkP c fo (0, 1) ∗ blkP c fo (0, 2) ∗ blkP c fo (0, 3) ∗ blkP c fo (0, 4) ∗ blkP c fo (0, 5) ∗ blkP c fo (0, 6) ∗ blkP c fo (0, 7)) = _
  have e0 : blkP c fo (0, 0) = offP c fo (k0_off2 c) (k0_off2_inb c) :=
    (oblk_pointsTo_respell c (k0_off2 c) _ (k0_off2_inb c) (rowOff_inb c 0 0 (by decide)) (off2_eq c) fullShare fo).symm
  have e1 : blkP c fo (0, 1) = offP c fo (k0_off6 c) (k0_off6_inb c) :=
    (oblk_pointsTo_respell c (k0_off6 c) _ (k0_off6_inb c) (rowOff_inb c 0 1 (by decide)) (off6_eq c) fullShare fo).symm
  have e2 : blkP c fo (0, 2) = offP c fo (k0_off10 c) (k0_off10_inb c) :=
    (oblk_pointsTo_respell c (k0_off10 c) _ (k0_off10_inb c) (rowOff_inb c 0 2 (by decide)) (off10_eq c) fullShare fo).symm
  have e3 : blkP c fo (0, 3) = offP c fo (k0_off14 c) (k0_off14_inb c) :=
    (oblk_pointsTo_respell c (k0_off14 c) _ (k0_off14_inb c) (rowOff_inb c 0 3 (by decide)) (off14_eq c) fullShare fo).symm
  have e4 : blkP c fo (0, 4) = offP c fo (k0_off4 c) (k0_off4_inb c) :=
    (oblk_pointsTo_respell c (k0_off4 c) _ (k0_off4_inb c) (rowOff_inb c 0 4 (by decide)) (off4_eq c) fullShare fo).symm
  have e5 : blkP c fo (0, 5) = offP c fo (k0_off8 c) (k0_off8_inb c) :=
    (oblk_pointsTo_respell c (k0_off8 c) _ (k0_off8_inb c) (rowOff_inb c 0 5 (by decide)) (off8_eq c) fullShare fo).symm
  have e6 : blkP c fo (0, 6) = offP c fo (k0_off12 c) (k0_off12_inb c) :=
    (oblk_pointsTo_respell c (k0_off12 c) _ (k0_off12_inb c) (rowOff_inb c 0 6 (by decide)) (off12_eq c) fullShare fo).symm
  have e7 : blkP c fo (0, 7) = offP c fo (k0_off16 c) (k0_off16_inb c) :=
    (oblk_pointsTo_respell c (k0_off16 c) _ (k0_off16_inb c) (rowOff_inb c 0 7 (by decide)) (off16_eq c) fullShare fo).symm
  rw [e0, e1, e2, e3, e4, e5, e6, e7]

end Pieces

/-! ## The wait permissions -/

omit [FloatOps F] in
/-- From a persistent assertion, every conjunct of a list it entails. -/
theorem bigSepL_of_persistent {I : Type} (P : sProp 𝕄) [BI.Persistent P] (Q : I → sProp 𝕄) :
    ∀ (l : List I), l ≠ [] → (∀ i ∈ l, P ⊢ Q i) → P ⊢ bigSepL l Q
  | [], h, _ => absurd rfl h
  | [i], _, hQ => hQ i (List.mem_singleton_self i)
  | i :: j :: l, _, hQ =>
    (persistent_entails_left (P := P) (Q := P) .rfl).trans
      (BI.sep_mono (hQ i (List.mem_cons_self ..))
        (bigSepL_of_persistent P Q (j :: l) (List.cons_ne_nil _ _) fun k hk => hQ k (List.mem_cons_of_mem _ hk)))

theorem posOf_le (a : ℕ) (ha : a < 8) : posOf a ≤ 7 := by unfold posOf; omega

theorem mw3_L (c : Dev nD) :
    (levAts L lv : sProp 𝕄) ⊢ bigSepL idx83 (fun ab => MayWait (c : Thread nD τ)
      (.dma (csem cc0_scratch3 ab.1.val ab.2.val (sem_inb _ _ ab.1.isLt ab.2.isLt))) () (owedRem c (48 - (8 * (ab.2.val + 1) + posOf ab.1.val)))) :=
  bigSepL_of_persistent _ _ idx83 (by decide) fun ab _ =>
    mayWait_rsRecv c ab.1.val ab.2.val _ (8 * (ab.2.val + 1) + posOf ab.1.val)
      (by have := posOf_le ab.1.val ab.1.isLt; have := ab.2.isLt; omega) (by omega)

theorem mw5_L (c : Dev nD) :
    (levAts L lv : sProp 𝕄) ⊢ bigSepL idx83 (fun ab => MayWait (c : Thread nD τ)
      (.dma (csem cc0_scratch5 ab.1.val ab.2.val (sem_inb _ _ ab.1.isLt ab.2.isLt))) ()
      (owedRem c (if ab.2.val < 2 then 48 - (8 * (ab.2.val + 4) + posOf ab.1.val) else 0))) :=
  bigSepL_of_persistent _ _ idx83 (by decide) fun ab _ => by
    by_cases hb : ab.2.val < 2
    · rw [if_pos hb]
      exact mayWait_agRecv c ab.1.val ab.2.val _ (8 * (ab.2.val + 4) + posOf ab.1.val)
        (by have := posOf_le ab.1.val ab.1.isLt; omega) (by omega)
    · rw [if_neg hb]
      exact mayWait_agRecv c ab.1.val ab.2.val _ 48 (le_refl _) (by have := ab.2.isLt; omega)

/-! ## The glue -/

section Glue
variable (m : (ℓ : Loc nD τ sig) → Buf (Elt F) ℓ) (ρ : Dev nD → PrngReg)

local macro "give " h:ident : tactic => `(tactic| (isplitl [$h]; · iexact $h))

set_option maxHeartbeats 4000000 in
/-- What the launch hands a device's body is, for some contents of the scratch buffers and of the result buffer, the
    piece-by-piece form its run starts from. -/
theorem pre_glue (K : GSem nD τ sig → ℕ) (c : Dev nD) :
    bodyPre m ρ K c ⊢ iprop(∃ (fbb : BbT F) (fr : RT F) (fo : OT F) (W : Waits sig Unit),
      corePre (xstgA m ρ) (xstgB m ρ) K c fbb fr fo W) := by
  unfold bodyPre ghost
  iintro ⟨⟨⟨⟨Hib, Hibn, Hibp, Hi2, Hi3, Hi4, Hi5, Hit3, Hit5⟩, ⟨Hpb, Hp2, Hp3, Hp4, Hp5⟩,
      ⟨Hrbn, Hrbp, Hr2, Hr3, Hr4, Hr5, Hrt3, Hrt5⟩, ⟨Htbp, Htbn, Htt3, Htt5, Hts2, Hts4⟩⟩,
      Hcb, Hc3, Hc5, #Hlev, ⟨%fr, Hs0⟩, ⟨%fbb, Hs1⟩⟩,
    Ho, ⟨%d0, %g0, %hg0, Ha⟩, ⟨%d1, %g1, %hg1, Hb⟩, ⟨%d2, %g2, %hg2, Hout⟩⟩
  have hx0 : g0 = xstgA m ρ c := by rw [hg0]; unfold Dat.before; rw [if_pos (fetch0_0 t₀)]; rfl
  have hx1 : g1 = xstgB m ρ c := by rw [hg1]; unfold Dat.before; rw [if_pos (fetch0_1 t₀)]; rfl
  subst hx0 hx1
  unfold Dat.owesAt Pipeline.owesWithin
  icases Ho with ⟨%W, %hW, HO⟩
  iexists fbb, fr, g2, W
  rw [corePre_eq_chain]
  unfold allC
  simp only [chain_cons, chain_nil, chain_idx83, chain_idx84, chain_idxHand]
  ihave Hsl := (scratch_L c fr) $$ Hs0
  ihave Hbl := (blocks_L c g2) $$ Hout
  icases Hbl with ⟨Hown, Hhand⟩
  ihave Hown := (own_L c g2) $$ Hown
  icases Hown with ⟨Ho0, Ho1, Ho2, Ho3, Ho4, Ho5, Ho6, Ho7⟩
  ihave Hmwb := (mayWait_bar (F := F) c) $$ Hlev
  ihave Hmw3 := (mw3_L (F := F) c) $$ Hlev
  ihave Hmw5 := (mw5_L (F := F) c) $$ Hlev
  give Ha; give Hb; give Hs1; give Hsl
  give Ho0; give Ho1; give Ho2; give Ho3; give Ho4; give Ho5; give Ho6; give Ho7
  give Hhand
  give Hib; give Hibn; give Hibp
  ihave HL := (overAB_L _) $$ Hi2; give HL; ihave HL := (overAB_L _) $$ Hi3; give HL; ihave HL := (overAB_L _) $$ Hi4; give HL; ihave HL := (overAB_L _) $$ Hi5; give HL; ihave HL := (overAB_L _) $$ Hit3; give HL; ihave HL := (overAB_L _) $$ Hit5; give HL
  give Hpb
  ihave HL := (overAB_L _) $$ Hp2; give HL; ihave HL := (overAB_L _) $$ Hp3; give HL; ihave HL := (overAB_L _) $$ Hp4; give HL; ihave HL := (overAB_L _) $$ Hp5; give HL
  give Hrbn; give Hrbp
  ihave HL := (overAB_L _) $$ Hr2; give HL; ihave HL := (overAB_L _) $$ Hr3; give HL; ihave HL := (overAB_L _) $$ Hr4; give HL; ihave HL := (overAB_L _) $$ Hr5; give HL; ihave HL := (overAB_L _) $$ Hrt3; give HL; ihave HL := (overAB_L _) $$ Hrt5; give HL
  give Htbp; give Htbn
  ihave HL := (overAB_L _) $$ Htt3; give HL; ihave HL := (overAB_L _) $$ Htt5; give HL; ihave HL := (overAB_L _) $$ Hts2; give HL; ihave HL := (overAB_L _) $$ Hts4; give HL
  give Hcb
  ihave HL := (overAB_L _) $$ Hc3; give HL; ihave HL := (overAB_L _) $$ Hc5; give HL
  give Hmwb; give Hmw3; give Hmw5
  iexact HO

end Glue

/-! ## The end of the body: pieces back to whole buffers -/

section Post
variable (c : Dev nD)

/-- The 32 slots, each at contents of its own, are the scratch at some contents. -/
theorem slots_join_L :
    bigSepL idx84 (fun ab => iprop(∃ g : RT F, slotP c g ab)) ⊢ iprop(∃ f : Buf (Elt F) ((c : Thread nD τ).loc cc0_scratch0), ((c : Thread nD τ).loc cc0_scratch0) ↦{fullShare} f) :=
  (Entails.of_eq (bigSep_univ_eq_bigSepL idx84 idx84_univ idx84_nodup _).symm).trans (scratch_join c fullShare)

/-- A buffer held whole at `X` is the staged buffer at `X`. -/
theorem stg_intro (b : Ref sig .tc) (X : b.ty.Contents (Elt F)) :
    (((c : Thread nD τ).loc b) ↦{fullShare} X : sProp 𝕄) ⊢ stg c b X := by
  iintro H
  iexists X
  isplitr
  · ipureintro; rfl
  · iexact H

variable (fa : Dev nD → AT F) (fb : Dev nD → BT F)

omit c in
theorem outBlk_congr {d d' : Dev nD} {a a' : ℕ} {ha : a < 8} {ha' : a' < 8} {x x' : S512x256.Idx}
    (hd : d = d') (hae : a = a') (hx : x = x') : outBlk fa fb d a ha x = outBlk fa fb d' a' ha' x' := by
  subst hd hae hx; rfl

/-- The block of band distance `k`, chain `a` holding the finished block of band `chunk c k` agrees there with the one buffer of
    finished blocks: element `(p, q)` of the block is element `(512 (chunk c k) + p, 256 a + q)` of the buffer. -/
theorem outAll_block (k : Fin 4) (a : Fin 8) (h : ∀ i, rowOff c k.val a.val i + S512x256.size i ≤ S2048x2048.size i) :
    ∀ i ∈ (oblkM (rowOff c k.val a.val) h).view.set,
      oblkBuf (rowOff c k.val a.val) h (outBlk fa fb ⟨chunk c k.val, chunk_lt _ _⟩ a.val a.isLt) i = outAll fa fb i := by
  intro i hi
  obtain ⟨x, -, rfl⟩ := Finset.mem_map.mp hi
  unfold oblkBuf
  rw [View.write_emb_of_mem _ _ (Finset.mem_univ x)]
  obtain ⟨p, q, rfl⟩ : ∃ (p : Fin 512) (q : Fin 256), x = ValueIdx.ix2 p q := ⟨x 0, x 1, ValueIdx.eq_ix2 x⟩
  have h0 : (((oblkM (rowOff c k.val a.val) h).view.emb (ValueIdx.ix2 p q)) 0).val = 512 * chunk c k.val + p.val := by
    show 512 * chunk c k.val + 1 * p.val = _; omega
  have h1 : (((oblkM (rowOff c k.val a.val) h).view.emb (ValueIdx.ix2 p q)) 1).val = 256 * a.val + q.val := by
    show 256 * a.val + 1 * q.val = _; omega
  unfold outAll
  have hp := p.isLt
  have hq := q.isLt
  refine outBlk_congr fa fb (Fin.ext ?_) ?_ ?_
  · show chunk c k.val = (((oblkM (rowOff c k.val a.val) h).view.emb (ValueIdx.ix2 p q)) 0).val / 512
    rw [h0]; omega
  · show a.val = (((oblkM (rowOff c k.val a.val) h).view.emb (ValueIdx.ix2 p q)) 1).val / 256
    rw [h1]; omega
  · refine congrArg₂ ValueIdx.ix2 (Fin.ext ?_) (Fin.ext ?_)
    · show p.val = (((oblkM (rowOff c k.val a.val) h).view.emb (ValueIdx.ix2 p q)) 0).val % 512
      rw [h0]; omega
    · show q.val = (((oblkM (rowOff c k.val a.val) h).view.emb (ValueIdx.ix2 p q)) 1).val % 256
      rw [h1]; omega

/-- The block of band distance `ka.1`, chain `ka.2`, holding that band's finished block. -/
abbrev outP (ka : Fin 4 × Fin 8) : sProp 𝕄 :=
  offP c (oblkBuf (rowOff c ka.1.val ka.2.val) (rowOff_inb c _ _ ka.2.isLt) (outBlk fa fb ⟨chunk c ka.1.val, chunk_lt _ _⟩ ka.2.val ka.2.isLt))
    (rowOff c ka.1.val ka.2.val) (rowOff_inb c _ _ ka.2.isLt)

/-- Holding its band's finished block, a block is held at the one buffer of finished blocks. -/
theorem outP_eq (ka : Fin 4 × Fin 8) : outP c fa fb ka = blkP c (outAll fa fb) ka :=
  pointsTo_congr (outAll_block c fa fb ka.1 ka.2 _)

/-- The 32 blocks in any listed order, each holding its band's finished block, are the result buffer at the one buffer of
    finished blocks. -/
theorem blocks_join_outAll (l : List (Fin 4 × Fin 8)) (hl : (Finset.univ : Finset (Fin 4 × Fin 8)) = l.toFinset) (hn : l.Nodup) :
    bigSepL l (outP c fa fb) ⊢ (((c : Thread nD τ).loc cc0_stg2_0) ↦{fullShare} outAll fa fb : sProp 𝕄) := by
  rw [← bigSep_univ_eq_bigSepL l hl hn, show outP c fa fb = blkP c (outAll fa fb) from funext (outP_eq c fa fb)]
  exact blocks_join_chunk c fullShare (outAll fa fb)

/-- The same, to the staged result. -/
theorem blocks_join_stg (l : List (Fin 4 × Fin 8)) (hl : (Finset.univ : Finset (Fin 4 × Fin 8)) = l.toFinset) (hn : l.Nodup) :
    bigSepL l (outP c fa fb) ⊢ stg c cc0_stg2_0 (outAll fa fb) :=
  (blocks_join_outAll c fa fb l hl hn).trans (stg_intro c cc0_stg2_0 (outAll fa fb))

end Post

/-! ## The end of the body: the piece-by-piece form back to the launch's -/

def idx8 : List (Fin 8) := [0, 1, 2, 3, 4, 5, 6, 7]

omit [FloatOps F] in
theorem chain_idx8 (Φ : Fin 8 → sProp 𝕄) (R : sProp 𝕄) : chain (idx8.map Φ) R = iprop(bigSepL idx8 Φ ∗ R) :=
  (bigSepL_sep_eq_chain Φ R idx8 (by decide)).symm

omit [FloatOps F] in
theorem overAB_R (Φ : (a b : ℕ) → a < 8 → b < 3 → sProp 𝕄) :
    bigSepL idx83 (fun ab => Φ ab.1.val ab.2.val ab.1.isLt ab.2.isLt) ⊢ overAB Φ :=
  Entails.of_eq (bigSep_univ_eq_bigSepL idx83 idx83_univ idx83_nodup _).symm

omit [FloatOps F] in
theorem bigSepL_cons_cons' {I : Type} (i j : I) (l : List I) (Φ : I → sProp 𝕄) :
    bigSepL (i :: j :: l) Φ = iprop(Φ i ∗ bigSepL (j :: l) Φ) := rfl

omit [FloatOps F] in
theorem bigSepL_mono {I : Type} (Φ Ψ : I → sProp 𝕄) (h : ∀ i, Φ i ⊢ Ψ i) : ∀ l : List I, bigSepL l Φ ⊢ bigSepL l Ψ
  | [] => .rfl
  | [i] => h i
  | i :: j :: l => BI.sep_mono (h i) (bigSepL_mono Φ Ψ h (j :: l))

omit [FloatOps F] in
theorem bigSepL_map {I J : Type} (κ : I → J) (Φ : J → sProp 𝕄) : ∀ l : List I, bigSepL (l.map κ) Φ = bigSepL l (fun i => Φ (κ i))
  | [] => rfl
  | [i] => rfl
  | i :: j :: l => by
    show iprop(Φ (κ i) ∗ bigSepL ((j :: l).map κ) Φ) = iprop(Φ (κ i) ∗ bigSepL (j :: l) (fun i => Φ (κ i)))
    rw [bigSepL_map κ Φ (j :: l)]

/-- The device whose finished block travels in all-gather copy `(a, b)` issued by `c` is the one `b` hops back along the
    chain: its band is at ring distance `agShift a b` from `c`. -/
theorem orig_eq_chunk : ∀ (a : Fin 8) (b : Fin 4) (c : Dev nD),
    orig a.val b.val c = ⟨chunk c (agShift a.val b.val), chunk_lt _ _⟩ := by decide

theorem agShift_lt (a b : ℕ) : agShift a b < 4 := by unfold agShift; split <;> omega

section PostBlocks
variable (c : Dev nD) (fa : Dev nD → AT F) (fb : Dev nD → BT F)

/-- The block at `off` holding the finished block that travels in all-gather copy `(a, b)` issued by `c`. -/
abbrev sentP (a b : ℕ) (ha : a < 8) (off : Fin 2 → ℕ) (h : ∀ i, off i + S512x256.size i ≤ S2048x2048.size i) : sProp 𝕄 :=
  offP c (oblkBuf off h (outBlk fa fb (orig a b c) a ha)) off h

/-- Where that block lies at ring distance `agShift a b`, it is the block of that band holding the band's finished block. -/
theorem blk_norm (a b : ℕ) (ha : a < 8) (hb : b < 4) (off : Fin 2 → ℕ) (h : ∀ i, off i + S512x256.size i ≤ S2048x2048.size i)
    (e : off = rowOff c (agShift a b) a) :
    sentP c fa fb a b ha off h = outP c fa fb (⟨agShift a b, agShift_lt a b⟩, ⟨a, ha⟩) := by
  subst e
  have ho : orig a b c = ⟨chunk c (agShift a b), chunk_lt _ _⟩ := orig_eq_chunk ⟨a, ha⟩ ⟨b, hb⟩ c
  show offP c (oblkBuf _ h (outBlk fa fb (orig a b c) a ha)) _ h = _
  rw [ho]

/-- The block the last hop of chain `a` lands in, as it stands after the landing. -/
abbrev lastP (a : ℕ) (ha : a < 8) (fd : OT F) : sProp 𝕄 :=
  offP c ((oblkM (rowOff c (agShift a 3) a) (rowOff_inb c _ a ha)).view.write (Elt F) fd
      ((oblkM (rowOff (sdev a c) (agShift a 2) a) (rowOff_inb _ _ a ha)).view.read (Elt F)
        (oblkBuf (rowOff (sdev a c) (agShift a 2) a) (rowOff_inb _ _ a ha) (outBlk fa fb (orig a 2 (sdev a c)) a ha))) Finset.univ)
    (rowOff c (agShift a 3) a) (rowOff_inb c _ a ha)

theorem last_norm (a : ℕ) (ha : a < 8) (fd : OT F) :
    lastP c fa fb a ha fd = outP c fa fb (⟨agShift a 3, agShift_lt a 3⟩, ⟨a, ha⟩) :=
  (site_fwd_pt c (rowOff c (agShift a 3) a) (rowOff c (agShift a 3) a) (rowOff (sdev a c) (agShift a 2) a)
      (rowOff_inb c _ a ha) (rowOff_inb c _ a ha) (rowOff_inb _ _ a ha) rfl fullShare fd (outBlk fa fb (orig a 2 (sdev a c)) a ha)).trans
    (blk_norm c fa fb a 3 ha (by decide) _ _ rfl)

/-- The bands the blocks of a chain lie in, by all-gather step. -/
def κS (ab : Fin 8 × Fin 3) : Fin 4 × Fin 8 := (⟨agShift ab.1.val ab.2.val, agShift_lt _ _⟩, ab.1)
def κL (a : Fin 8) : Fin 4 × Fin 8 := (⟨agShift a.val 3, agShift_lt _ _⟩, a)

theorem post_univ : (Finset.univ : Finset (Fin 4 × Fin 8)) = (idx83.map κS ++ idx8.map κL).toFinset := by decide
theorem post_nodup : (idx83.map κS ++ idx8.map κL).Nodup := by decide

/-- The eight last-hop blocks are their bands' finished blocks. -/
theorem last_L : bigSepL idx8 (fun a => iprop(∃ fd : OT F, lastP c fa fb a.val a.isLt fd)) ⊢ bigSepL (idx8.map κL) (outP c fa fb) := by
  rw [bigSepL_map]
  refine bigSepL_mono _ _ (fun a => ?_) idx8
  iintro ⟨%fd, H⟩
  iapply (Entails.of_eq (last_norm c fa fb a.val a.isLt fd)) $$ H

end PostBlocks

section PostChain
variable (fa : Dev nD → AT F) (fb : Dev nD → BT F) (K : GSem nD τ sig → ℕ) (c : Dev nD)

/-- What a device holds after its last wait, group after group. -/
def allPost (fbb : BbT F) (W : Waits sig Unit) : sProp 𝕄 :=
  chain [((aM : Memref sig .tc .vmem S2048x1024 .f32).view.loc (c : Thread nD τ) ↦{fullShare} fa c),
     ((bM : Memref sig .tc .vmem S1024x2048 .f32).view.loc (c : Thread nD τ) ↦{fullShare} fb c),
     ((bbM : Memref sig .tc .vmem S1024x2048 .bf16).view.loc (c : Thread nD τ) ↦{fullShare} fbb)] <|
  chain (idx84.map (fun ab => iprop(∃ g : RT F, slotP c g ab))) <|
  chain [sentP c fa fb 0 0 (by decide) (k0_off3 c 0#32) (k0_off3_inb c 0),
     sentP c fa fb 0 1 (by decide) (k0_off3 c 1#32) (k0_off3_inb c 1),
     sentP c fa fb 0 2 (by decide) (k0_off3 c 2#32) (k0_off3_inb c 2),
     sentP c fa fb 1 0 (by decide) (k0_off7 c 0#32) (k0_off7_inb c 0),
     sentP c fa fb 1 1 (by decide) (k0_off7 c 1#32) (k0_off7_inb c 1),
     sentP c fa fb 1 2 (by decide) (k0_off7 c 2#32) (k0_off7_inb c 2),
     sentP c fa fb 2 0 (by decide) (k0_off11 c 0#32) (k0_off11_inb c 0),
     sentP c fa fb 2 1 (by decide) (k0_off11 c 1#32) (k0_off11_inb c 1),
     sentP c fa fb 2 2 (by decide) (k0_off11 c 2#32) (k0_off11_inb c 2),
     sentP c fa fb 3 0 (by decide) (k0_off15 c 0#32) (k0_off15_inb c 0),
     sentP c fa fb 3 1 (by decide) (k0_off15 c 1#32) (k0_off15_inb c 1),
     sentP c fa fb 3 2 (by decide) (k0_off15 c 2#32) (k0_off15_inb c 2),
     sentP c fa fb 4 0 (by decide) (k0_off5 c 0#32) (k0_off5_inb c 0),
     sentP c fa fb 4 1 (by decide) (k0_off5 c 4294967295#32) (k0_off5_inb c 1),
     sentP c fa fb 4 2 (by decide) (k0_off5 c 4294967294#32) (k0_off5_inb c 2),
     sentP c fa fb 5 0 (by decide) (k0_off9 c 0#32) (k0_off9_inb c 0),
     sentP c fa fb 5 1 (by decide) (k0_off9 c 4294967295#32) (k0_off9_inb c 1),
     sentP c fa fb 5 2 (by decide) (k0_off9 c 4294967294#32) (k0_off9_inb c 2),
     sentP c fa fb 6 0 (by decide) (k0_off13 c 0#32) (k0_off13_inb c 0),
     sentP c fa fb 6 1 (by decide) (k0_off13 c 4294967295#32) (k0_off13_inb c 1),
     sentP c fa fb 6 2 (by decide) (k0_off13 c 4294967294#32) (k0_off13_inb c 2),
     sentP c fa fb 7 0 (by decide) (k0_off17 c 0#32) (k0_off17_inb c 0),
     sentP c fa fb 7 1 (by decide) (k0_off17 c 4294967295#32) (k0_off17_inb c 1),
     sentP c fa fb 7 2 (by decide) (k0_off17 c 4294967294#32) (k0_off17_inb c 2)] <|
  chain (idx8.map (fun a => iprop(∃ fd : OT F, lastP c fa fb a.val a.isLt fd))) <|
  chain (idx83.map (fun ab => invP fa fb K (ownC c cc0_scratch2 ab))) <| chain (idx83.map (fun ab => invP fa fb K (ownC c cc0_scratch3 ab))) <|
  chain (idx83.map (fun ab => invP fa fb K (ownC c cc0_scratch4 ab))) <| chain (idx83.map (fun ab => invP fa fb K (ownC c cc0_scratch5 ab))) <|
  chain (idx83.map (fun ab => atPos ER (ownC c cc0_scratch2 ab) 1 ∅ 0)) <| chain (idx83.map (fun ab => atPos ER (ownC c cc0_scratch3 ab) 1 ∅ 0)) <|
  chain (idx83.map (fun ab => atPos ER (ownC c cc0_scratch4 ab) 1 ∅ 0)) <| chain (idx83.map (fun ab => atPos ER (ownC c cc0_scratch5 ab) 1 ∅ 0)) <|
  chain [atPos ER (barCell c) 1 ∅ 0] <|
  owes (c : Thread nD τ) (0 : CellTallies nD τ sig Unit) W

set_option maxHeartbeats 4000000 in
theorem corePost_eq_chain (fbb : BbT F) (W : Waits sig Unit) : corePost fa fb K c fbb W = allPost fa fb K c fbb W := rfl

end PostChain

section PostFamilies
variable (fa : Dev nD → AT F) (fb : Dev nD → BT F) (K : GSem nD τ sig → ℕ) (c : Dev nD)

/-- The invariants of the own cells of one array, as a family over chains and steps. -/
abbrev invF (X : DmaSems sig S8x3) : (a b : ℕ) → a < 8 → b < 3 → sProp 𝕄 :=
  fun a b ha hb => cellInv ER (ringRd fa fb) (K (dcell c (csem X a b (sem_inb a b ha hb)))) (dcell c (csem X a b (sem_inb a b ha hb)))
/-- The owner's position at round 1 of the own cells of one array. -/
abbrev atF (X : DmaSems sig S8x3) : (a b : ℕ) → a < 8 → b < 3 → sProp 𝕄 :=
  fun a b ha hb => atPos ER (dcell c (csem X a b (sem_inb a b ha hb))) 1 ∅ 0

end PostFamilies

section PostGlue
variable (m : (ℓ : Loc nD τ sig) → Buf (Elt F) ℓ) (ρ : Dev nD → PrngReg)

local macro "give " h:ident : tactic => `(tactic| (isplitl [$h]; · iexact $h))

set_option maxHeartbeats 4000000 in
/-- From what a device holds after the last wait of its body, piece by piece, to what the launch wants back: the own
    transfer cells closed, nothing owed, the staged operands as they were, the staged result the one buffer of finished blocks. -/
theorem post_glue (K : GSem nD τ sig → ℕ) (c : Dev nD) (fbb : BbT F) (W : Waits sig Unit) :
    corePost (xstgA m ρ) (xstgB m ρ) K c fbb W ⊢ (|={Set.univ}=> bodyPost m ρ c : sProp 𝕄) := by
  rw [corePost_eq_chain]
  unfold allPost
  simp only [chain_cons, chain_nil, chain_idx83, chain_idx84, chain_idx8]
  iintro ⟨Ha, Hb, Hbb, Hsl, B00, B01, B02, B10, B11, B12, B20, B21, B22, B30, B31, B32, B40, B41, B42, B50, B51, B52, B60, B61, B62, B70, B71, B72, Hlast, I2, I3, I4, I5, A2, A3, A4, A5, -, HO⟩
  ihave Hs0 := (slots_join_L c) $$ Hsl
  ihave B00 := (Entails.of_eq (blk_norm c (xstgA m ρ) (xstgB m ρ) 0 0 _ (by decide) (k0_off3 c 0#32) (k0_off3_inb c 0) (agOff_0_0 c))) $$ B00
  ihave B01 := (Entails.of_eq (blk_norm c (xstgA m ρ) (xstgB m ρ) 0 1 _ (by decide) (k0_off3 c 1#32) (k0_off3_inb c 1) (agOff_0_1 c))) $$ B01
  ihave B02 := (Entails.of_eq (blk_norm c (xstgA m ρ) (xstgB m ρ) 0 2 _ (by decide) (k0_off3 c 2#32) (k0_off3_inb c 2) (agOff_0_2 c))) $$ B02
  ihave B10 := (Entails.of_eq (blk_norm c (xstgA m ρ) (xstgB m ρ) 1 0 _ (by decide) (k0_off7 c 0#32) (k0_off7_inb c 0) (agOff_1_0 c))) $$ B10
  ihave B11 := (Entails.of_eq (blk_norm c (xstgA m ρ) (xstgB m ρ) 1 1 _ (by decide) (k0_off7 c 1#32) (k0_off7_inb c 1) (agOff_1_1 c))) $$ B11
  ihave B12 := (Entails.of_eq (blk_norm c (xstgA m ρ) (xstgB m ρ) 1 2 _ (by decide) (k0_off7 c 2#32) (k0_off7_inb c 2) (agOff_1_2 c))) $$ B12
  ihave B20 := (Entails.of_eq (blk_norm c (xstgA m ρ) (xstgB m ρ) 2 0 _ (by decide) (k0_off11 c 0#32) (k0_off11_inb c 0) (agOff_2_0 c))) $$ B20
  ihave B21 := (Entails.of_eq (blk_norm c (xstgA m ρ) (xstgB m ρ) 2 1 _ (by decide) (k0_off11 c 1#32) (k0_off11_inb c 1) (agOff_2_1 c))) $$ B21
  ihave B22 := (Entails.of_eq (blk_norm c (xstgA m ρ) (xstgB m ρ) 2 2 _ (by decide) (k0_off11 c 2#32) (k0_off11_inb c 2) (agOff_2_2 c))) $$ B22
  ihave B30 := (Entails.of_eq (blk_norm c (xstgA m ρ) (xstgB m ρ) 3 0 _ (by decide) (k0_off15 c 0#32) (k0_off15_inb c 0) (agOff_3_0 c))) $$ B30
  ihave B31 := (Entails.of_eq (blk_norm c (xstgA m ρ) (xstgB m ρ) 3 1 _ (by decide) (k0_off15 c 1#32) (k0_off15_inb c 1) (agOff_3_1 c))) $$ B31
  ihave B32 := (Entails.of_eq (blk_norm c (xstgA m ρ) (xstgB m ρ) 3 2 _ (by decide) (k0_off15 c 2#32) (k0_off15_inb c 2) (agOff_3_2 c))) $$ B32
  ihave B40 := (Entails.of_eq (blk_norm c (xstgA m ρ) (xstgB m ρ) 4 0 _ (by decide) (k0_off5 c 0#32) (k0_off5_inb c 0) (agOff_4_0 c))) $$ B40
  ihave B41 := (Entails.of_eq (blk_norm c (xstgA m ρ) (xstgB m ρ) 4 1 _ (by decide) (k0_off5 c 4294967295#32) (k0_off5_inb c 1) (agOff_4_1 c))) $$ B41
  ihave B42 := (Entails.of_eq (blk_norm c (xstgA m ρ) (xstgB m ρ) 4 2 _ (by decide) (k0_off5 c 4294967294#32) (k0_off5_inb c 2) (agOff_4_2 c))) $$ B42
  ihave B50 := (Entails.of_eq (blk_norm c (xstgA m ρ) (xstgB m ρ) 5 0 _ (by decide) (k0_off9 c 0#32) (k0_off9_inb c 0) (agOff_5_0 c))) $$ B50
  ihave B51 := (Entails.of_eq (blk_norm c (xstgA m ρ) (xstgB m ρ) 5 1 _ (by decide) (k0_off9 c 4294967295#32) (k0_off9_inb c 1) (agOff_5_1 c))) $$ B51
  ihave B52 := (Entails.of_eq (blk_norm c (xstgA m ρ) (xstgB m ρ) 5 2 _ (by decide) (k0_off9 c 4294967294#32) (k0_off9_inb c 2) (agOff_5_2 c))) $$ B52
  ihave B60 := (Entails.of_eq (blk_norm c (xstgA m ρ) (xstgB m ρ) 6 0 _ (by decide) (k0_off13 c 0#32) (k0_off13_inb c 0) (agOff_6_0 c))) $$ B60
  ihave B61 := (Entails.of_eq (blk_norm c (xstgA m ρ) (xstgB m ρ) 6 1 _ (by decide) (k0_off13 c 4294967295#32) (k0_off13_inb c 1) (agOff_6_1 c))) $$ B61
  ihave B62 := (Entails.of_eq (blk_norm c (xstgA m ρ) (xstgB m ρ) 6 2 _ (by decide) (k0_off13 c 4294967294#32) (k0_off13_inb c 2) (agOff_6_2 c))) $$ B62
  ihave B70 := (Entails.of_eq (blk_norm c (xstgA m ρ) (xstgB m ρ) 7 0 _ (by decide) (k0_off17 c 0#32) (k0_off17_inb c 0) (agOff_7_0 c))) $$ B70
  ihave B71 := (Entails.of_eq (blk_norm c (xstgA m ρ) (xstgB m ρ) 7 1 _ (by decide) (k0_off17 c 4294967295#32) (k0_off17_inb c 1) (agOff_7_1 c))) $$ B71
  ihave B72 := (Entails.of_eq (blk_norm c (xstgA m ρ) (xstgB m ρ) 7 2 _ (by decide) (k0_off17 c 4294967294#32) (k0_off17_inb c 2) (agOff_7_2 c))) $$ B72
  ihave Hlast := (last_L c (xstgA m ρ) (xstgB m ρ)) $$ Hlast
  ihave Hout := (blocks_join_stg c (xstgA m ρ) (xstgB m ρ) (idx83.map κS ++ idx8.map κL) post_univ post_nodup) $$ [B00 B01 B02 B10 B11 B12 B20 B21 B22 B30 B31 B32 B40 B41 B42 B50 B51 B52 B60 B61 B62 B70 B71 B72 Hlast]
  · rw [bigSepL_append _ _ _ (by decide) (by decide)]
    isplitr [Hlast]
    · rw [bigSepL_map]
      unfold idx83
      simp only [bigSepL_cons_cons', bigSepL_singleton]
      give B00; give B01; give B02; give B10; give B11; give B12; give B20; give B21; give B22; give B30; give B31; give B32; give B40; give B41; give B42; give B50; give B51; give B52; give B60; give B61; give B62; give B70; give B71
      iexact B72
    · iexact Hlast
  imod (close_to_post (xstgA m ρ) (xstgB m ρ) K c) $$ [Hs0 Hbb I2 I3 I4 I5 A2 A3 A4 A5] with HΦ
  · give Hs0
    isplitl [Hbb]; · iexists fbb; iexact Hbb
    isplitl [I2 I3 I4 I5]
    · isplitl [I2]; · iapply (overAB_R (invF (xstgA m ρ) (xstgB m ρ) K c cc0_scratch2)) $$ I2
      isplitl [I3]; · iapply (overAB_R (invF (xstgA m ρ) (xstgB m ρ) K c cc0_scratch3)) $$ I3
      isplitl [I4]; · iapply (overAB_R (invF (xstgA m ρ) (xstgB m ρ) K c cc0_scratch4)) $$ I4
      iapply (overAB_R (invF (xstgA m ρ) (xstgB m ρ) K c cc0_scratch5)) $$ I5
    · isplitl [A2]; · iapply (overAB_R (atF (F := F) c cc0_scratch2)) $$ A2
      isplitl [A3]; · iapply (overAB_R (atF (F := F) c cc0_scratch3)) $$ A3
      isplitl [A4]; · iapply (overAB_R (atF (F := F) c cc0_scratch4)) $$ A4
      iapply (overAB_R (atF (F := F) c cc0_scratch5)) $$ A5
  imodintro
  unfold bodyPost Dat.owesAt Pipeline.owesWithin
  rw [show (dats m ρ 0 c).owed t₀.succ = 0 from rfl]
  give HΦ
  isplitl [HO]
  · iexists W
    isplitr; · ipureintro; exact fun _ _ => Or.inl trivial
    iexact HO
  isplitl [Ha]; · iapply (stg_intro c cc0_stg0_0 (xstgA m ρ c)) $$ Ha
  isplitl [Hb]; · iapply (stg_intro c cc0_stg1_0 (xstgB m ρ c)) $$ Hb
  iexact Hout

end PostGlue

/-- info: 'Cert.Kernel.P.pre_glue' depends on axioms: [propext, Classical.choice, Quot.sound] -/
#guard_msgs in #print axioms pre_glue

/-- info: 'Cert.Kernel.P.post_glue' depends on axioms: [propext, Classical.choice, Quot.sound] -/
#guard_msgs in #print axioms post_glue

end Cert.Kernel.P

end
-- ==== Proof.KBody.lean ====
import proofs.«900901_g7700000000000902_dist_matmul_silu_kshard_i_m2048_n2048_k1024_v7x_i4_bf16_1_alg».proof.Proof.KBodyTables
import proofs.«900901_g7700000000000902_dist_matmul_silu_kshard_i_m2048_n2048_k1024_v7x_i4_bf16_1_alg».proof.Proof.KTables
import proofs.«900901_g7700000000000902_dist_matmul_silu_kshard_i_m2048_n2048_k1024_v7x_i4_bf16_1_alg».proof.Proof.KTablesFlat
import proofs.«900901_g7700000000000902_dist_matmul_silu_kshard_i_m2048_n2048_k1024_v7x_i4_bf16_1_alg».proof.Proof.KReads
import proofs.«900901_g7700000000000902_dist_matmul_silu_kshard_i_m2048_n2048_k1024_v7x_i4_bf16_1_alg».proof.Proof.KSlotLemmas
import proofs.«900901_g7700000000000902_dist_matmul_silu_kshard_i_m2048_n2048_k1024_v7x_i4_bf16_1_alg».proof.Proof.KSites
import proofs.«900901_g7700000000000902_dist_matmul_silu_kshard_i_m2048_n2048_k1024_v7x_i4_bf16_1_alg».proof.Proof.KGlue

noncomputable section

namespace Cert.Kernel.P

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

attribute [local sl_rounds] duties_bar duties_rsSend duties_rsRecv duties_agSend duties_agRecv
  amount_bar amount_rsSend amount_rsRecv amount_agSend amount_agRecv
  expect_bar expect_rsSend expect_rsRecv expect_agSend expect_agRecv
  payload_rsSend payload_rsRecv rest_rsSend rest_rsRecv
attribute [local sl_rounds 2000] payload_rsRecv_nxt payload_rsRecv_prv
attribute [local sl_rounds] payload_agSend_0_0 payload_agSend_0_1 payload_agSend_0_2 payload_agSend_1_0 payload_agSend_1_1 payload_agSend_1_2 payload_agSend_2_0 payload_agSend_2_1 payload_agSend_2_2 payload_agSend_3_0 payload_agSend_3_1 payload_agSend_3_2 payload_agSend_4_0 payload_agSend_4_1 payload_agSend_4_2 payload_agSend_5_0 payload_agSend_5_1 payload_agSend_5_2 payload_agSend_6_0 payload_agSend_6_1 payload_agSend_6_2 payload_agSend_7_0 payload_agSend_7_1 payload_agSend_7_2
  payload_agRecv_tgt_0_0 payload_agRecv_tgt_0_1 payload_agRecv_tgt_0_2 payload_agRecv_tgt_1_0 payload_agRecv_tgt_1_1 payload_agRecv_tgt_1_2 payload_agRecv_tgt_2_0 payload_agRecv_tgt_2_1 payload_agRecv_tgt_2_2 payload_agRecv_tgt_3_0 payload_agRecv_tgt_3_1 payload_agRecv_tgt_3_2 payload_agRecv_tgt_4_0 payload_agRecv_tgt_4_1 payload_agRecv_tgt_4_2 payload_agRecv_tgt_5_0 payload_agRecv_tgt_5_1 payload_agRecv_tgt_5_2 payload_agRecv_tgt_6_0 payload_agRecv_tgt_6_1 payload_agRecv_tgt_6_2 payload_agRecv_tgt_7_0 payload_agRecv_tgt_7_1 payload_agRecv_tgt_7_2

theorem bigSep_univ_bar_eq (fa : Dev nD → AT F) (fb : Dev nD → BT F) (c : Dev nD) :
    bigSep (Finset.univ : Finset Bool) (fun d => (ringRd fa fb).payload (barCell c) 0 d)
      = bigSep ((ringRd fa fb).duties (barCell c) 0 \ ∅) (fun d => (ringRd fa fb).payload (barCell c) 0 d) := by
  rw [Finset.sdiff_empty, duties_bar]

abbrev E0 (c : Dev nD) : CellTallies nD τ sig Unit := 0
abbrev E1 (c : Dev nD) : CellTallies nD τ sig Unit := E0 c + tallyAt (dcell (prv c) (csem cc0_scratch5 7 2 inb_S8x3_S1x1_7_2)) () ((oblkM (k0_off17 c 4294967294#32) (k0_off17_inb c 2) : Memref sig .tc .vmem S512x256 .bf16).view.amount (.dma (csem cc0_scratch5 7 2 inb_S8x3_S1x1_7_2)))
abbrev E2 (c : Dev nD) : CellTallies nD τ sig Unit := E1 c + tallyAt (dcell (nxt c) (csem cc0_scratch5 3 2 inb_S8x3_S1x1_3_2)) () ((oblkM (k0_off15 c 2#32) (k0_off15_inb c 2) : Memref sig .tc .vmem S512x256 .bf16).view.amount (.dma (csem cc0_scratch5 3 2 inb_S8x3_S1x1_3_2)))
abbrev E3 (c : Dev nD) : CellTallies nD τ sig Unit := E2 c + tallyAt (dcell (prv c) (csem cc0_scratch5 6 2 inb_S8x3_S1x1_6_2)) () ((oblkM (k0_off13 c 4294967294#32) (k0_off13_inb c 2) : Memref sig .tc .vmem S512x256 .bf16).view.amount (.dma (csem cc0_scratch5 6 2 inb_S8x3_S1x1_6_2)))
abbrev E4 (c : Dev nD) : CellTallies nD τ sig Unit := E3 c + tallyAt (dcell (nxt c) (csem cc0_scratch5 2 2 inb_S8x3_S1x1_2_2)) () ((oblkM (k0_off11 c 2#32) (k0_off11_inb c 2) : Memref sig .tc .vmem S512x256 .bf16).view.amount (.dma (csem cc0_scratch5 2 2 inb_S8x3_S1x1_2_2)))
abbrev E5 (c : Dev nD) : CellTallies nD τ sig Unit := E4 c + tallyAt (dcell (prv c) (csem cc0_scratch5 5 2 inb_S8x3_S1x1_5_2)) () ((oblkM (k0_off9 c 4294967294#32) (k0_off9_inb c 2) : Memref sig .tc .vmem S512x256 .bf16).view.amount (.dma (csem cc0_scratch5 5 2 inb_S8x3_S1x1_5_2)))
abbrev E6 (c : Dev nD) : CellTallies nD τ sig Unit := E5 c + tallyAt (dcell (nxt c) (csem cc0_scratch5 1 2 inb_S8x3_S1x1_1_2)) () ((oblkM (k0_off7 c 2#32) (k0_off7_inb c 2) : Memref sig .tc .vmem S512x256 .bf16).view.amount (.dma (csem cc0_scratch5 1 2 inb_S8x3_S1x1_1_2)))
abbrev E7 (c : Dev nD) : CellTallies nD τ sig Unit := E6 c + tallyAt (dcell (prv c) (csem cc0_scratch5 4 2 inb_S8x3_S1x1_4_2)) () ((oblkM (k0_off5 c 4294967294#32) (k0_off5_inb c 2) : Memref sig .tc .vmem S512x256 .bf16).view.amount (.dma (csem cc0_scratch5 4 2 inb_S8x3_S1x1_4_2)))
abbrev E8 (c : Dev nD) : CellTallies nD τ sig Unit := E7 c + tallyAt (dcell (nxt c) (csem cc0_scratch5 0 2 inb_S8x3_S1x1_0_2)) () ((oblkM (k0_off3 c 2#32) (k0_off3_inb c 2) : Memref sig .tc .vmem S512x256 .bf16).view.amount (.dma (csem cc0_scratch5 0 2 inb_S8x3_S1x1_0_2)))
abbrev E9 (c : Dev nD) : CellTallies nD τ sig Unit := E8 c + tallyAt (dcell (prv c) (csem cc0_scratch5 7 1 inb_S8x3_S1x1_7_1)) () ((oblkM (k0_off17 c 4294967295#32) (k0_off17_inb c 1) : Memref sig .tc .vmem S512x256 .bf16).view.amount (.dma (csem cc0_scratch5 7 1 inb_S8x3_S1x1_7_1)))
abbrev E10 (c : Dev nD) : CellTallies nD τ sig Unit := E9 c + tallyAt (dcell (nxt c) (csem cc0_scratch5 3 1 inb_S8x3_S1x1_3_1)) () ((oblkM (k0_off15 c 1#32) (k0_off15_inb c 1) : Memref sig .tc .vmem S512x256 .bf16).view.amount (.dma (csem cc0_scratch5 3 1 inb_S8x3_S1x1_3_1)))
abbrev E11 (c : Dev nD) : CellTallies nD τ sig Unit := E10 c + tallyAt (dcell (prv c) (csem cc0_scratch5 6 1 inb_S8x3_S1x1_6_1)) () ((oblkM (k0_off13 c 4294967295#32) (k0_off13_inb c 1) : Memref sig .tc .vmem S512x256 .bf16).view.amount (.dma (csem cc0_scratch5 6 1 inb_S8x3_S1x1_6_1)))
abbrev E12 (c : Dev nD) : CellTallies nD τ sig Unit := E11 c + tallyAt (dcell (nxt c) (csem cc0_scratch5 2 1 inb_S8x3_S1x1_2_1)) () ((oblkM (k0_off11 c 1#32) (k0_off11_inb c 1) : Memref sig .tc .vmem S512x256 .bf16).view.amount (.dma (csem cc0_scratch5 2 1 inb_S8x3_S1x1_2_1)))
abbrev E13 (c : Dev nD) : CellTallies nD τ sig Unit := E12 c + tallyAt (dcell (prv c) (csem cc0_scratch5 5 1 inb_S8x3_S1x1_5_1)) () ((oblkM (k0_off9 c 4294967295#32) (k0_off9_inb c 1) : Memref sig .tc .vmem S512x256 .bf16).view.amount (.dma (csem cc0_scratch5 5 1 inb_S8x3_S1x1_5_1)))
abbrev E14 (c : Dev nD) : CellTallies nD τ sig Unit := E13 c + tallyAt (dcell (nxt c) (csem cc0_scratch5 1 1 inb_S8x3_S1x1_1_1)) () ((oblkM (k0_off7 c 1#32) (k0_off7_inb c 1) : Memref sig .tc .vmem S512x256 .bf16).view.amount (.dma (csem cc0_scratch5 1 1 inb_S8x3_S1x1_1_1)))
abbrev E15 (c : Dev nD) : CellTallies nD τ sig Unit := E14 c + tallyAt (dcell (prv c) (csem cc0_scratch5 4 1 inb_S8x3_S1x1_4_1)) () ((oblkM (k0_off5 c 4294967295#32) (k0_off5_inb c 1) : Memref sig .tc .vmem S512x256 .bf16).view.amount (.dma (csem cc0_scratch5 4 1 inb_S8x3_S1x1_4_1)))
abbrev E16 (c : Dev nD) : CellTallies nD τ sig Unit := E15 c + tallyAt (dcell (nxt c) (csem cc0_scratch5 0 1 inb_S8x3_S1x1_0_1)) () ((oblkM (k0_off3 c 1#32) (k0_off3_inb c 1) : Memref sig .tc .vmem S512x256 .bf16).view.amount (.dma (csem cc0_scratch5 0 1 inb_S8x3_S1x1_0_1)))
abbrev E17 (c : Dev nD) : CellTallies nD τ sig Unit := E16 c + tallyAt (dcell (prv c) (csem cc0_scratch5 7 0 inb_S8x3_S1x1_7_0)) () ((oblkM (k0_off17 c 0#32) (k0_off17_inb c 0) : Memref sig .tc .vmem S512x256 .bf16).view.amount (.dma (csem cc0_scratch5 7 0 inb_S8x3_S1x1_7_0)))
abbrev E18 (c : Dev nD) : CellTallies nD τ sig Unit := E17 c + tallyAt (dcell (nxt c) (csem cc0_scratch5 3 0 inb_S8x3_S1x1_3_0)) () ((oblkM (k0_off15 c 0#32) (k0_off15_inb c 0) : Memref sig .tc .vmem S512x256 .bf16).view.amount (.dma (csem cc0_scratch5 3 0 inb_S8x3_S1x1_3_0)))
abbrev E19 (c : Dev nD) : CellTallies nD τ sig Unit := E18 c + tallyAt (dcell (prv c) (csem cc0_scratch5 6 0 inb_S8x3_S1x1_6_0)) () ((oblkM (k0_off13 c 0#32) (k0_off13_inb c 0) : Memref sig .tc .vmem S512x256 .bf16).view.amount (.dma (csem cc0_scratch5 6 0 inb_S8x3_S1x1_6_0)))
abbrev E20 (c : Dev nD) : CellTallies nD τ sig Unit := E19 c + tallyAt (dcell (nxt c) (csem cc0_scratch5 2 0 inb_S8x3_S1x1_2_0)) () ((oblkM (k0_off11 c 0#32) (k0_off11_inb c 0) : Memref sig .tc .vmem S512x256 .bf16).view.amount (.dma (csem cc0_scratch5 2 0 inb_S8x3_S1x1_2_0)))
abbrev E21 (c : Dev nD) : CellTallies nD τ sig Unit := E20 c + tallyAt (dcell (prv c) (csem cc0_scratch5 5 0 inb_S8x3_S1x1_5_0)) () ((oblkM (k0_off9 c 0#32) (k0_off9_inb c 0) : Memref sig .tc .vmem S512x256 .bf16).view.amount (.dma (csem cc0_scratch5 5 0 inb_S8x3_S1x1_5_0)))
abbrev E22 (c : Dev nD) : CellTallies nD τ sig Unit := E21 c + tallyAt (dcell (nxt c) (csem cc0_scratch5 1 0 inb_S8x3_S1x1_1_0)) () ((oblkM (k0_off7 c 0#32) (k0_off7_inb c 0) : Memref sig .tc .vmem S512x256 .bf16).view.amount (.dma (csem cc0_scratch5 1 0 inb_S8x3_S1x1_1_0)))
abbrev E23 (c : Dev nD) : CellTallies nD τ sig Unit := E22 c + tallyAt (dcell (prv c) (csem cc0_scratch5 4 0 inb_S8x3_S1x1_4_0)) () ((oblkM (k0_off5 c 0#32) (k0_off5_inb c 0) : Memref sig .tc .vmem S512x256 .bf16).view.amount (.dma (csem cc0_scratch5 4 0 inb_S8x3_S1x1_4_0)))
abbrev E24 (c : Dev nD) : CellTallies nD τ sig Unit := E23 c + tallyAt (dcell (nxt c) (csem cc0_scratch5 0 0 inb_S8x3_S1x1_0_0)) () ((oblkM (k0_off3 c 0#32) (k0_off3_inb c 0) : Memref sig .tc .vmem S512x256 .bf16).view.amount (.dma (csem cc0_scratch5 0 0 inb_S8x3_S1x1_0_0)))
abbrev E25 (c : Dev nD) : CellTallies nD τ sig Unit := E24 c + tallyAt (dcell (prv c) (csem cc0_scratch3 7 2 inb_S8x3_S1x1_7_2)) () 8192
abbrev E26 (c : Dev nD) : CellTallies nD τ sig Unit := E25 c + tallyAt (dcell (nxt c) (csem cc0_scratch3 3 2 inb_S8x3_S1x1_3_2)) () 8192
abbrev E27 (c : Dev nD) : CellTallies nD τ sig Unit := E26 c + tallyAt (dcell (prv c) (csem cc0_scratch3 6 2 inb_S8x3_S1x1_6_2)) () 8192
abbrev E28 (c : Dev nD) : CellTallies nD τ sig Unit := E27 c + tallyAt (dcell (nxt c) (csem cc0_scratch3 2 2 inb_S8x3_S1x1_2_2)) () 8192
abbrev E29 (c : Dev nD) : CellTallies nD τ sig Unit := E28 c + tallyAt (dcell (prv c) (csem cc0_scratch3 5 2 inb_S8x3_S1x1_5_2)) () 8192
abbrev E30 (c : Dev nD) : CellTallies nD τ sig Unit := E29 c + tallyAt (dcell (nxt c) (csem cc0_scratch3 1 2 inb_S8x3_S1x1_1_2)) () 8192
abbrev E31 (c : Dev nD) : CellTallies nD τ sig Unit := E30 c + tallyAt (dcell (prv c) (csem cc0_scratch3 4 2 inb_S8x3_S1x1_4_2)) () 8192
abbrev E32 (c : Dev nD) : CellTallies nD τ sig Unit := E31 c + tallyAt (dcell (nxt c) (csem cc0_scratch3 0 2 inb_S8x3_S1x1_0_2)) () 8192
abbrev E33 (c : Dev nD) : CellTallies nD τ sig Unit := E32 c + tallyAt (dcell (prv c) (csem cc0_scratch3 7 1 inb_S8x3_S1x1_7_1)) () 8192
abbrev E34 (c : Dev nD) : CellTallies nD τ sig Unit := E33 c + tallyAt (dcell (nxt c) (csem cc0_scratch3 3 1 inb_S8x3_S1x1_3_1)) () 8192
abbrev E35 (c : Dev nD) : CellTallies nD τ sig Unit := E34 c + tallyAt (dcell (prv c) (csem cc0_scratch3 6 1 inb_S8x3_S1x1_6_1)) () 8192
abbrev E36 (c : Dev nD) : CellTallies nD τ sig Unit := E35 c + tallyAt (dcell (nxt c) (csem cc0_scratch3 2 1 inb_S8x3_S1x1_2_1)) () 8192
abbrev E37 (c : Dev nD) : CellTallies nD τ sig Unit := E36 c + tallyAt (dcell (prv c) (csem cc0_scratch3 5 1 inb_S8x3_S1x1_5_1)) () 8192
abbrev E38 (c : Dev nD) : CellTallies nD τ sig Unit := E37 c + tallyAt (dcell (nxt c) (csem cc0_scratch3 1 1 inb_S8x3_S1x1_1_1)) () 8192
abbrev E39 (c : Dev nD) : CellTallies nD τ sig Unit := E38 c + tallyAt (dcell (prv c) (csem cc0_scratch3 4 1 inb_S8x3_S1x1_4_1)) () 8192
abbrev E40 (c : Dev nD) : CellTallies nD τ sig Unit := E39 c + tallyAt (dcell (nxt c) (csem cc0_scratch3 0 1 inb_S8x3_S1x1_0_1)) () 8192
abbrev E41 (c : Dev nD) : CellTallies nD τ sig Unit := E40 c + tallyAt (dcell (prv c) (csem cc0_scratch3 7 0 inb_S8x3_S1x1_7_0)) () 8192
abbrev E42 (c : Dev nD) : CellTallies nD τ sig Unit := E41 c + tallyAt (dcell (nxt c) (csem cc0_scratch3 3 0 inb_S8x3_S1x1_3_0)) () 8192
abbrev E43 (c : Dev nD) : CellTallies nD τ sig Unit := E42 c + tallyAt (dcell (prv c) (csem cc0_scratch3 6 0 inb_S8x3_S1x1_6_0)) () 8192
abbrev E44 (c : Dev nD) : CellTallies nD τ sig Unit := E43 c + tallyAt (dcell (nxt c) (csem cc0_scratch3 2 0 inb_S8x3_S1x1_2_0)) () 8192
abbrev E45 (c : Dev nD) : CellTallies nD τ sig Unit := E44 c + tallyAt (dcell (prv c) (csem cc0_scratch3 5 0 inb_S8x3_S1x1_5_0)) () 8192
abbrev E46 (c : Dev nD) : CellTallies nD τ sig Unit := E45 c + tallyAt (dcell (nxt c) (csem cc0_scratch3 1 0 inb_S8x3_S1x1_1_0)) () 8192
abbrev E47 (c : Dev nD) : CellTallies nD τ sig Unit := E46 c + tallyAt (dcell (prv c) (csem cc0_scratch3 4 0 inb_S8x3_S1x1_4_0)) () 8192
abbrev E48 (c : Dev nD) : CellTallies nD τ sig Unit := E47 c + tallyAt (dcell (nxt c) (csem cc0_scratch3 0 0 inb_S8x3_S1x1_0_0)) () 8192
theorem owedRem_E0 (c : Dev nD) : owedRem c 0 = E0 c := rfl
theorem owedRem_E1 (c : Dev nD) : owedRem c 1 = E1 c := rfl
theorem owedRem_E2 (c : Dev nD) : owedRem c 2 = E2 c := rfl
theorem owedRem_E3 (c : Dev nD) : owedRem c 3 = E3 c := rfl
theorem owedRem_E4 (c : Dev nD) : owedRem c 4 = E4 c := rfl
theorem owedRem_E5 (c : Dev nD) : owedRem c 5 = E5 c := rfl
theorem owedRem_E6 (c : Dev nD) : owedRem c 6 = E6 c := rfl
theorem owedRem_E7 (c : Dev nD) : owedRem c 7 = E7 c := rfl
theorem owedRem_E8 (c : Dev nD) : owedRem c 8 = E8 c := rfl
theorem owedRem_E9 (c : Dev nD) : owedRem c 9 = E9 c := rfl
theorem owedRem_E10 (c : Dev nD) : owedRem c 10 = E10 c := rfl
theorem owedRem_E11 (c : Dev nD) : owedRem c 11 = E11 c := rfl
theorem owedRem_E12 (c : Dev nD) : owedRem c 12 = E12 c := rfl
theorem owedRem_E13 (c : Dev nD) : owedRem c 13 = E13 c := rfl
theorem owedRem_E14 (c : Dev nD) : owedRem c 14 = E14 c := rfl
theorem owedRem_E15 (c : Dev nD) : owedRem c 15 = E15 c := rfl
theorem owedRem_E16 (c : Dev nD) : owedRem c 16 = E16 c := rfl
theorem owedRem_E17 (c : Dev nD) : owedRem c 17 = E17 c := rfl
theorem owedRem_E18 (c : Dev nD) : owedRem c 18 = E18 c := rfl
theorem owedRem_E19 (c : Dev nD) : owedRem c 19 = E19 c := rfl
theorem owedRem_E20 (c : Dev nD) : owedRem c 20 = E20 c := rfl
theorem owedRem_E21 (c : Dev nD) : owedRem c 21 = E21 c := rfl
theorem owedRem_E22 (c : Dev nD) : owedRem c 22 = E22 c := rfl
theorem owedRem_E23 (c : Dev nD) : owedRem c 23 = E23 c := rfl
theorem owedRem_E24 (c : Dev nD) : owedRem c 24 = E24 c := rfl
theorem owedRem_E25 (c : Dev nD) : owedRem c 25 = E25 c := rfl
theorem owedRem_E26 (c : Dev nD) : owedRem c 26 = E26 c := rfl
theorem owedRem_E27 (c : Dev nD) : owedRem c 27 = E27 c := rfl
theorem owedRem_E28 (c : Dev nD) : owedRem c 28 = E28 c := rfl
theorem owedRem_E29 (c : Dev nD) : owedRem c 29 = E29 c := rfl
theorem owedRem_E30 (c : Dev nD) : owedRem c 30 = E30 c := rfl
theorem owedRem_E31 (c : Dev nD) : owedRem c 31 = E31 c := rfl
theorem owedRem_E32 (c : Dev nD) : owedRem c 32 = E32 c := rfl
theorem owedRem_E33 (c : Dev nD) : owedRem c 33 = E33 c := rfl
theorem owedRem_E34 (c : Dev nD) : owedRem c 34 = E34 c := rfl
theorem owedRem_E35 (c : Dev nD) : owedRem c 35 = E35 c := rfl
theorem owedRem_E36 (c : Dev nD) : owedRem c 36 = E36 c := rfl
theorem owedRem_E37 (c : Dev nD) : owedRem c 37 = E37 c := rfl
theorem owedRem_E38 (c : Dev nD) : owedRem c 38 = E38 c := rfl
theorem owedRem_E39 (c : Dev nD) : owedRem c 39 = E39 c := rfl
theorem owedRem_E40 (c : Dev nD) : owedRem c 40 = E40 c := rfl
theorem owedRem_E41 (c : Dev nD) : owedRem c 41 = E41 c := rfl
theorem owedRem_E42 (c : Dev nD) : owedRem c 42 = E42 c := rfl
theorem owedRem_E43 (c : Dev nD) : owedRem c 43 = E43 c := rfl
theorem owedRem_E44 (c : Dev nD) : owedRem c 44 = E44 c := rfl
theorem owedRem_E45 (c : Dev nD) : owedRem c 45 = E45 c := rfl
theorem owedRem_E46 (c : Dev nD) : owedRem c 46 = E46 c := rfl
theorem owedRem_E47 (c : Dev nD) : owedRem c 47 = E47 c := rfl
theorem owedRem_E48 (c : Dev nD) : owedRem c 48 = E48 c := rfl

/-- A conjunct set aside: the same assertion under a name the symbolic run does not read. -/
def Aside (P : sProp 𝕄) : sProp 𝕄 := P
omit [FloatOps F] in
theorem aside_intro (P : sProp 𝕄) : P ⊢ Aside P := Entails.rfl
omit [FloatOps F] in
theorem aside_elim (P : sProp 𝕄) : Aside P ⊢ P := Entails.rfl
attribute [local irreducible] Aside
attribute [local irreducible] chunk nxt prv k0_off1 k0_off2 k0_off3 k0_off4 k0_off5 k0_off6 k0_off7 k0_off8 k0_off9 k0_off10 k0_off11 k0_off12 k0_off13 k0_off14 k0_off15 k0_off16 k0_off17
attribute [local irreducible] SemArray.sem SemArray.squeeze SemArray.slice SemArray.consecutive

set_option maxHeartbeats 2000000000 in
/-- One device's body from its resources piece by piece: the handshake, the 24 reduce-scatter copies, the 24 all-gather
    copies and every wait, each remote copy issued from a block holding the schedule's named contents; what is left at
    the end is handed to `hpost`. -/
theorem core_body (fa : Dev nD → AT F) (fb : Dev nD → BT F) (K : GSem nD τ sig → ℕ) (c : Dev nD)
    (fbb : BbT F) (fr : RT F) (fo : OT F) (W : Waits sig Unit) (Q : PUnit → sProp 𝕄) (Post : sProp 𝕄)
    (hpost : ∀ (fbb' : BbT F) (W' : Waits sig Unit), corePost fa fb K c fbb' W' ⊢ (|={Set.univ}=> Post : sProp 𝕄)) :
    iprop(corePre fa fb K c fbb fr fo W ∗ (Post -∗ Q ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3 cc0_scratch4 cc0_scratch5) Q := by
  unfold corePre
  iintro ⟨⟨Ha, Hb, Hbb, HS00, HS01, HS02, HS03, HS10, HS11, HS12, HS13, HS20, HS21, HS22, HS23, HS30, HS31, HS32, HS33, HS40, HS41, HS42, HS43, HS50, HS51, HS52, HS53, HS60, HS61, HS62, HS63, HS70, HS71, HS72, HS73, HOo0, HOo1, HOo2, HOo3, HOo4, HOo5, HOo6, HOo7, HOh00, HOh01, HOh02, HOh10, HOh11, HOh12, HOh20, HOh21, HOh22, HOh30, HOh31, HOh32, HOh40, HOh41, HOh42, HOh50, HOh51, HOh52, HOh60, HOh61, HOh62, HOh70, HOh71, HOh72, #HIb, #HIbn, #HIbp, #HI200, #HI201, #HI202, #HI210, #HI211, #HI212, #HI220, #HI221, #HI222, #HI230, #HI231, #HI232, #HI240, #HI241, #HI242, #HI250, #HI251, #HI252, #HI260, #HI261, #HI262, #HI270, #HI271, #HI272, #HI300, #HI301, #HI302, #HI310, #HI311, #HI312, #HI320, #HI321, #HI322, #HI330, #HI331, #HI332, #HI340, #HI341, #HI342, #HI350, #HI351, #HI352, #HI360, #HI361, #HI362, #HI370, #HI371, #HI372, #HI400, #HI401, #HI402, #HI410, #HI411, #HI412, #HI420, #HI421, #HI422, #HI430, #HI431, #HI432, #HI440, #HI441, #HI442, #HI450, #HI451, #HI452, #HI460, #HI461, #HI462, #HI470, #HI471, #HI472, #HI500, #HI501, #HI502, #HI510, #HI511, #HI512, #HI520, #HI521, #HI522, #HI530, #HI531, #HI532, #HI540, #HI541, #HI542, #HI550, #HI551, #HI552, #HI560, #HI561, #HI562, #HI570, #HI571, #HI572, #HIt300, #HIt301, #HIt302, #HIt310, #HIt311, #HIt312, #HIt320, #HIt321, #HIt322, #HIt330, #HIt331, #HIt332, #HIt340, #HIt341, #HIt342, #HIt350, #HIt351, #HIt352, #HIt360, #HIt361, #HIt362, #HIt370, #HIt371, #HIt372, #HIt500, #HIt501, #HIt502, #HIt510, #HIt511, #HIt512, #HIt520, #HIt521, #HIt522, #HIt530, #HIt531, #HIt532, #HIt540, #HIt541, #HIt542, #HIt550, #HIt551, #HIt552, #HIt560, #HIt561, #HIt562, #HIt570, #HIt571, #HIt572, Hatb, Hat200, Hat201, Hat202, Hat210, Hat211, Hat212, Hat220, Hat221, Hat222, Hat230, Hat231, Hat232, Hat240, Hat241, Hat242, Hat250, Hat251, Hat252, Hat260, Hat261, Hat262, Hat270, Hat271, Hat272, Hat300, Hat301, Hat302, Hat310, Hat311, Hat312, Hat320, Hat321, Hat322, Hat330, Hat331, Hat332, Hat340, Hat341, Hat342, Hat350, Hat351, Hat352, Hat360, Hat361, Hat362, Hat370, Hat371, Hat372, Hat400, Hat401, Hat402, Hat410, Hat411, Hat412, Hat420, Hat421, Hat422, Hat430, Hat431, Hat432, Hat440, Hat441, Hat442, Hat450, Hat451, Hat452, Hat460, Hat461, Hat462, Hat470, Hat471, Hat472, Hat500, Hat501, Hat502, Hat510, Hat511, Hat512, Hat520, Hat521, Hat522, Hat530, Hat531, Hat532, Hat540, Hat541, Hat542, Hat550, Hat551, Hat552, Hat560, Hat561, Hat562, Hat570, Hat571, Hat572, #Hrbn, #Hrbp, #Hr200, #Hr201, #Hr202, #Hr210, #Hr211, #Hr212, #Hr220, #Hr221, #Hr222, #Hr230, #Hr231, #Hr232, #Hr240, #Hr241, #Hr242, #Hr250, #Hr251, #Hr252, #Hr260, #Hr261, #Hr262, #Hr270, #Hr271, #Hr272, #Hr300, #Hr301, #Hr302, #Hr310, #Hr311, #Hr312, #Hr320, #Hr321, #Hr322, #Hr330, #Hr331, #Hr332, #Hr340, #Hr341, #Hr342, #Hr350, #Hr351, #Hr352, #Hr360, #Hr361, #Hr362, #Hr370, #Hr371, #Hr372, #Hr400, #Hr401, #Hr402, #Hr410, #Hr411, #Hr412, #Hr420, #Hr421, #Hr422, #Hr430, #Hr431, #Hr432, #Hr440, #Hr441, #Hr442, #Hr450, #Hr451, #Hr452, #Hr460, #Hr461, #Hr462, #Hr470, #Hr471, #Hr472, #Hr500, #Hr501, #Hr502, #Hr510, #Hr511, #Hr512, #Hr520, #Hr521, #Hr522, #Hr530, #Hr531, #Hr532, #Hr540, #Hr541, #Hr542, #Hr550, #Hr551, #Hr552, #Hr560, #Hr561, #Hr562, #Hr570, #Hr571, #Hr572, #Hrt300, #Hrt301, #Hrt302, #Hrt310, #Hrt311, #Hrt312, #Hrt320, #Hrt321, #Hrt322, #Hrt330, #Hrt331, #Hrt332, #Hrt340, #Hrt341, #Hrt342, #Hrt350, #Hrt351, #Hrt352, #Hrt360, #Hrt361, #Hrt362, #Hrt370, #Hrt371, #Hrt372, #Hrt500, #Hrt501, #Hrt502, #Hrt510, #Hrt511, #Hrt512, #Hrt520, #Hrt521, #Hrt522, #Hrt530, #Hrt531, #Hrt532, #Hrt540, #Hrt541, #Hrt542, #Hrt550, #Hrt551, #Hrt552, #Hrt560, #Hrt561, #Hrt562, #Hrt570, #Hrt571, #Hrt572, Htbp, Htbn, Htt300, Htt301, Htt302, Htt310, Htt311, Htt312, Htt320, Htt321, Htt322, Htt330, Htt331, Htt332, Htt340, Htt341, Htt342, Htt350, Htt351, Htt352, Htt360, Htt361, Htt362, Htt370, Htt371, Htt372, Htt500, Htt501, Htt502, Htt510, Htt511, Htt512, Htt520, Htt521, Htt522, Htt530, Htt531, Htt532, Htt540, Htt541, Htt542, Htt550, Htt551, Htt552, Htt560, Htt561, Htt562, Htt570, Htt571, Htt572, Hts200, Hts201, Hts202, Hts210, Hts211, Hts212, Hts220, Hts221, Hts222, Hts230, Hts231, Hts232, Hts240, Hts241, Hts242, Hts250, Hts251, Hts252, Hts260, Hts261, Hts262, Hts270, Hts271, Hts272, Hts400, Hts401, Hts402, Hts410, Hts411, Hts412, Hts420, Hts421, Hts422, Hts430, Hts431, Hts432, Hts440, Hts441, Hts442, Hts450, Hts451, Hts452, Hts460, Hts461, Hts462, Hts470, Hts471, Hts472, Hcb, Hc300, Hc301, Hc302, Hc310, Hc311, Hc312, Hc320, Hc321, Hc322, Hc330, Hc331, Hc332, Hc340, Hc341, Hc342, Hc350, Hc351, Hc352, Hc360, Hc361, Hc362, Hc370, Hc371, Hc372, Hc500, Hc501, Hc502, Hc510, Hc511, Hc512, Hc520, Hc521, Hc522, Hc530, Hc531, Hc532, Hc540, Hc541, Hc542, Hc550, Hc551, Hc552, Hc560, Hc561, Hc562, Hc570, Hc571, Hc572, Hmwb, Hmw300, Hmw301, Hmw302, Hmw310, Hmw311, Hmw312, Hmw320, Hmw321, Hmw322, Hmw330, Hmw331, Hmw332, Hmw340, Hmw341, Hmw342, Hmw350, Hmw351, Hmw352, Hmw360, Hmw361, Hmw362, Hmw370, Hmw371, Hmw372, Hmw500, Hmw501, Hmw502, Hmw510, Hmw511, Hmw512, Hmw520, Hmw521, Hmw522, Hmw530, Hmw531, Hmw532, Hmw540, Hmw541, Hmw542, Hmw550, Hmw551, Hmw552, Hmw560, Hmw561, Hmw562, Hmw570, Hmw571, Hmw572, HO⟩, Hk⟩
  ihave Hts200 := (aside_intro _) $$ Hts200
  ihave Hts201 := (aside_intro _) $$ Hts201
  ihave Hts202 := (aside_intro _) $$ Hts202
  ihave Hts210 := (aside_intro _) $$ Hts210
  ihave Hts211 := (aside_intro _) $$ Hts211
  ihave Hts212 := (aside_intro _) $$ Hts212
  ihave Hts220 := (aside_intro _) $$ Hts220
  ihave Hts221 := (aside_intro _) $$ Hts221
  ihave Hts222 := (aside_intro _) $$ Hts222
  ihave Hts230 := (aside_intro _) $$ Hts230
  ihave Hts231 := (aside_intro _) $$ Hts231
  ihave Hts232 := (aside_intro _) $$ Hts232
  ihave Hts240 := (aside_intro _) $$ Hts240
  ihave Hts241 := (aside_intro _) $$ Hts241
  ihave Hts242 := (aside_intro _) $$ Hts242
  ihave Hts250 := (aside_intro _) $$ Hts250
  ihave Hts251 := (aside_intro _) $$ Hts251
  ihave Hts252 := (aside_intro _) $$ Hts252
  ihave Hts260 := (aside_intro _) $$ Hts260
  ihave Hts261 := (aside_intro _) $$ Hts261
  ihave Hts262 := (aside_intro _) $$ Hts262
  ihave Hts270 := (aside_intro _) $$ Hts270
  ihave Hts271 := (aside_intro _) $$ Hts271
  ihave Hts272 := (aside_intro _) $$ Hts272
  ihave Hts400 := (aside_intro _) $$ Hts400
  ihave Hts401 := (aside_intro _) $$ Hts401
  ihave Hts402 := (aside_intro _) $$ Hts402
  ihave Hts410 := (aside_intro _) $$ Hts410
  ihave Hts411 := (aside_intro _) $$ Hts411
  ihave Hts412 := (aside_intro _) $$ Hts412
  ihave Hts420 := (aside_intro _) $$ Hts420
  ihave Hts421 := (aside_intro _) $$ Hts421
  ihave Hts422 := (aside_intro _) $$ Hts422
  ihave Hts430 := (aside_intro _) $$ Hts430
  ihave Hts431 := (aside_intro _) $$ Hts431
  ihave Hts432 := (aside_intro _) $$ Hts432
  ihave Hts440 := (aside_intro _) $$ Hts440
  ihave Hts441 := (aside_intro _) $$ Hts441
  ihave Hts442 := (aside_intro _) $$ Hts442
  ihave Hts450 := (aside_intro _) $$ Hts450
  ihave Hts451 := (aside_intro _) $$ Hts451
  ihave Hts452 := (aside_intro _) $$ Hts452
  ihave Hts460 := (aside_intro _) $$ Hts460
  ihave Hts461 := (aside_intro _) $$ Hts461
  ihave Hts462 := (aside_intro _) $$ Hts462
  ihave Hts470 := (aside_intro _) $$ Hts470
  ihave Hts471 := (aside_intro _) $$ Hts471
  ihave Hts472 := (aside_intro _) $$ Hts472
  ihave Hpay1 := (Entails.of_eq (payload_bar_prv_true_flat fa fb c).symm) $$ [HS01 HOh00 HS02 HOh01 HS03 HOh02 HS11 HOh10 HS12 HOh11 HS13 HOh12 HS21 HOh20 HS22 HOh21 HS23 HOh22 HS31 HOh30 HS32 HOh31 HS33 HOh32]
  · isplitl [HS01]; · iexists _; iexact HS01
    isplitl [HOh00]; · iexists _; iexact HOh00
    isplitr; · iexact Hr300
    isplitr; · iexact Hr500
    isplitl [HS02]; · iexists _; iexact HS02
    isplitl [HOh01]; · iexists _; iexact HOh01
    isplitr; · iexact Hr301
    isplitr; · iexact Hr501
    isplitl [HS03]; · iexists _; iexact HS03
    isplitl [HOh02]; · iexists _; iexact HOh02
    isplitr; · iexact Hr302
    isplitr; · iexact Hr502
    isplitl [HS11]; · iexists _; iexact HS11
    isplitl [HOh10]; · iexists _; iexact HOh10
    isplitr; · iexact Hr310
    isplitr; · iexact Hr510
    isplitl [HS12]; · iexists _; iexact HS12
    isplitl [HOh11]; · iexists _; iexact HOh11
    isplitr; · iexact Hr311
    isplitr; · iexact Hr511
    isplitl [HS13]; · iexists _; iexact HS13
    isplitl [HOh12]; · iexists _; iexact HOh12
    isplitr; · iexact Hr312
    isplitr; · iexact Hr512
    isplitl [HS21]; · iexists _; iexact HS21
    isplitl [HOh20]; · iexists _; iexact HOh20
    isplitr; · iexact Hr320
    isplitr; · iexact Hr520
    isplitl [HS22]; · iexists _; iexact HS22
    isplitl [HOh21]; · iexists _; iexact HOh21
    isplitr; · iexact Hr321
    isplitr; · iexact Hr521
    isplitl [HS23]; · iexists _; iexact HS23
    isplitl [HOh22]; · iexists _; iexact HOh22
    isplitr; · iexact Hr322
    isplitr; · iexact Hr522
    isplitl [HS31]; · iexists _; iexact HS31
    isplitl [HOh30]; · iexists _; iexact HOh30
    isplitr; · iexact Hr330
    isplitr; · iexact Hr530
    isplitl [HS32]; · iexists _; iexact HS32
    isplitl [HOh31]; · iexists _; iexact HOh31
    isplitr; · iexact Hr331
    isplitr; · iexact Hr531
    isplitl [HS33]; · iexists _; iexact HS33
    isplitl [HOh32]; · iexists _; iexact HOh32
    isplitr; · iexact Hr332
    iexact Hr532
  ihave Hpay2 := (Entails.of_eq (payload_bar_nxt_false_flat fa fb c).symm) $$ [HS41 HOh40 HS42 HOh41 HS43 HOh42 HS51 HOh50 HS52 HOh51 HS53 HOh52 HS61 HOh60 HS62 HOh61 HS63 HOh62 HS71 HOh70 HS72 HOh71 HS73 HOh72]
  · isplitl [HS41]; · iexists _; iexact HS41
    isplitl [HOh40]; · iexists _; iexact HOh40
    isplitr; · iexact Hr340
    isplitr; · iexact Hr540
    isplitl [HS42]; · iexists _; iexact HS42
    isplitl [HOh41]; · iexists _; iexact HOh41
    isplitr; · iexact Hr341
    isplitr; · iexact Hr541
    isplitl [HS43]; · iexists _; iexact HS43
    isplitl [HOh42]; · iexists _; iexact HOh42
    isplitr; · iexact Hr342
    isplitr; · iexact Hr542
    isplitl [HS51]; · iexists _; iexact HS51
    isplitl [HOh50]; · iexists _; iexact HOh50
    isplitr; · iexact Hr350
    isplitr; · iexact Hr550
    isplitl [HS52]; · iexists _; iexact HS52
    isplitl [HOh51]; · iexists _; iexact HOh51
    isplitr; · iexact Hr351
    isplitr; · iexact Hr551
    isplitl [HS53]; · iexists _; iexact HS53
    isplitl [HOh52]; · iexists _; iexact HOh52
    isplitr; · iexact Hr352
    isplitr; · iexact Hr552
    isplitl [HS61]; · iexists _; iexact HS61
    isplitl [HOh60]; · iexists _; iexact HOh60
    isplitr; · iexact Hr360
    isplitr; · iexact Hr560
    isplitl [HS62]; · iexists _; iexact HS62
    isplitl [HOh61]; · iexists _; iexact HOh61
    isplitr; · iexact Hr361
    isplitr; · iexact Hr561
    isplitl [HS63]; · iexists _; iexact HS63
    isplitl [HOh62]; · iexists _; iexact HOh62
    isplitr; · iexact Hr362
    isplitr; · iexact Hr562
    isplitl [HS71]; · iexists _; iexact HS71
    isplitl [HOh70]; · iexists _; iexact HOh70
    isplitr; · iexact Hr370
    isplitr; · iexact Hr570
    isplitl [HS72]; · iexists _; iexact HS72
    isplitl [HOh71]; · iexists _; iexact HOh71
    isplitr; · iexact Hr371
    isplitr; · iexact Hr571
    isplitl [HS73]; · iexists _; iexact HS73
    isplitl [HOh72]; · iexists _; iexact HOh72
    isplitr; · iexact Hr372
    iexact Hr572
  ihave HO := (Entails.of_eq (congrArg (fun O => owes (c : Thread nD τ) (O + tallyAt (barCell (nxt c)) () 1 + tallyAt (barCell (prv c)) () 1) W) (show owedRem c 48 = (((((((((((((((((((((((((((((((((((((((((((((((((0 : CellTallies nD τ sig Unit) + tallyAt (dcell (prv c) (csem cc0_scratch5 7 2 inb_S8x3_S1x1_7_2)) () ((oblkM (k0_off17 c 4294967294#32) (k0_off17_inb c 2) : Memref sig .tc .vmem S512x256 .bf16).view.amount (.dma (csem cc0_scratch5 7 2 inb_S8x3_S1x1_7_2)))) + tallyAt (dcell (nxt c) (csem cc0_scratch5 3 2 inb_S8x3_S1x1_3_2)) () ((oblkM (k0_off15 c 2#32) (k0_off15_inb c 2) : Memref sig .tc .vmem S512x256 .bf16).view.amount (.dma (csem cc0_scratch5 3 2 inb_S8x3_S1x1_3_2)))) + tallyAt (dcell (prv c) (csem cc0_scratch5 6 2 inb_S8x3_S1x1_6_2)) () ((oblkM (k0_off13 c 4294967294#32) (k0_off13_inb c 2) : Memref sig .tc .vmem S512x256 .bf16).view.amount (.dma (csem cc0_scratch5 6 2 inb_S8x3_S1x1_6_2)))) + tallyAt (dcell (nxt c) (csem cc0_scratch5 2 2 inb_S8x3_S1x1_2_2)) () ((oblkM (k0_off11 c 2#32) (k0_off11_inb c 2) : Memref sig .tc .vmem S512x256 .bf16).view.amount (.dma (csem cc0_scratch5 2 2 inb_S8x3_S1x1_2_2)))) + tallyAt (dcell (prv c) (csem cc0_scratch5 5 2 inb_S8x3_S1x1_5_2)) () ((oblkM (k0_off9 c 4294967294#32) (k0_off9_inb c 2) : Memref sig .tc .vmem S512x256 .bf16).view.amount (.dma (csem cc0_scratch5 5 2 inb_S8x3_S1x1_5_2)))) + tallyAt (dcell (nxt c) (csem cc0_scratch5 1 2 inb_S8x3_S1x1_1_2)) () ((oblkM (k0_off7 c 2#32) (k0_off7_inb c 2) : Memref sig .tc .vmem S512x256 .bf16).view.amount (.dma (csem cc0_scratch5 1 2 inb_S8x3_S1x1_1_2)))) + tallyAt (dcell (prv c) (csem cc0_scratch5 4 2 inb_S8x3_S1x1_4_2)) () ((oblkM (k0_off5 c 4294967294#32) (k0_off5_inb c 2) : Memref sig .tc .vmem S512x256 .bf16).view.amount (.dma (csem cc0_scratch5 4 2 inb_S8x3_S1x1_4_2)))) + tallyAt (dcell (nxt c) (csem cc0_scratch5 0 2 inb_S8x3_S1x1_0_2)) () ((oblkM (k0_off3 c 2#32) (k0_off3_inb c 2) : Memref sig .tc .vmem S512x256 .bf16).view.amount (.dma (csem cc0_scratch5 0 2 inb_S8x3_S1x1_0_2)))) + tallyAt (dcell (prv c) (csem cc0_scratch5 7 1 inb_S8x3_S1x1_7_1)) () ((oblkM (k0_off17 c 4294967295#32) (k0_off17_inb c 1) : Memref sig .tc .vmem S512x256 .bf16).view.amount (.dma (csem cc0_scratch5 7 1 inb_S8x3_S1x1_7_1)))) + tallyAt (dcell (nxt c) (csem cc0_scratch5 3 1 inb_S8x3_S1x1_3_1)) () ((oblkM (k0_off15 c 1#32) (k0_off15_inb c 1) : Memref sig .tc .vmem S512x256 .bf16).view.amount (.dma (csem cc0_scratch5 3 1 inb_S8x3_S1x1_3_1)))) + tallyAt (dcell (prv c) (csem cc0_scratch5 6 1 inb_S8x3_S1x1_6_1)) () ((oblkM (k0_off13 c 4294967295#32) (k0_off13_inb c 1) : Memref sig .tc .vmem S512x256 .bf16).view.amount (.dma (csem cc0_scratch5 6 1 inb_S8x3_S1x1_6_1)))) + tallyAt (dcell (nxt c) (csem cc0_scratch5 2 1 inb_S8x3_S1x1_2_1)) () ((oblkM (k0_off11 c 1#32) (k0_off11_inb c 1) : Memref sig .tc .vmem S512x256 .bf16).view.amount (.dma (csem cc0_scratch5 2 1 inb_S8x3_S1x1_2_1)))) + tallyAt (dcell (prv c) (csem cc0_scratch5 5 1 inb_S8x3_S1x1_5_1)) () ((oblkM (k0_off9 c 4294967295#32) (k0_off9_inb c 1) : Memref sig .tc .vmem S512x256 .bf16).view.amount (.dma (csem cc0_scratch5 5 1 inb_S8x3_S1x1_5_1)))) + tallyAt (dcell (nxt c) (csem cc0_scratch5 1 1 inb_S8x3_S1x1_1_1)) () ((oblkM (k0_off7 c 1#32) (k0_off7_inb c 1) : Memref sig .tc .vmem S512x256 .bf16).view.amount (.dma (csem cc0_scratch5 1 1 inb_S8x3_S1x1_1_1)))) + tallyAt (dcell (prv c) (csem cc0_scratch5 4 1 inb_S8x3_S1x1_4_1)) () ((oblkM (k0_off5 c 4294967295#32) (k0_off5_inb c 1) : Memref sig .tc .vmem S512x256 .bf16).view.amount (.dma (csem cc0_scratch5 4 1 inb_S8x3_S1x1_4_1)))) + tallyAt (dcell (nxt c) (csem cc0_scratch5 0 1 inb_S8x3_S1x1_0_1)) () ((oblkM (k0_off3 c 1#32) (k0_off3_inb c 1) : Memref sig .tc .vmem S512x256 .bf16).view.amount (.dma (csem cc0_scratch5 0 1 inb_S8x3_S1x1_0_1)))) + tallyAt (dcell (prv c) (csem cc0_scratch5 7 0 inb_S8x3_S1x1_7_0)) () ((oblkM (k0_off17 c 0#32) (k0_off17_inb c 0) : Memref sig .tc .vmem S512x256 .bf16).view.amount (.dma (csem cc0_scratch5 7 0 inb_S8x3_S1x1_7_0)))) + tallyAt (dcell (nxt c) (csem cc0_scratch5 3 0 inb_S8x3_S1x1_3_0)) () ((oblkM (k0_off15 c 0#32) (k0_off15_inb c 0) : Memref sig .tc .vmem S512x256 .bf16).view.amount (.dma (csem cc0_scratch5 3 0 inb_S8x3_S1x1_3_0)))) + tallyAt (dcell (prv c) (csem cc0_scratch5 6 0 inb_S8x3_S1x1_6_0)) () ((oblkM (k0_off13 c 0#32) (k0_off13_inb c 0) : Memref sig .tc .vmem S512x256 .bf16).view.amount (.dma (csem cc0_scratch5 6 0 inb_S8x3_S1x1_6_0)))) + tallyAt (dcell (nxt c) (csem cc0_scratch5 2 0 inb_S8x3_S1x1_2_0)) () ((oblkM (k0_off11 c 0#32) (k0_off11_inb c 0) : Memref sig .tc .vmem S512x256 .bf16).view.amount (.dma (csem cc0_scratch5 2 0 inb_S8x3_S1x1_2_0)))) + tallyAt (dcell (prv c) (csem cc0_scratch5 5 0 inb_S8x3_S1x1_5_0)) () ((oblkM (k0_off9 c 0#32) (k0_off9_inb c 0) : Memref sig .tc .vmem S512x256 .bf16).view.amount (.dma (csem cc0_scratch5 5 0 inb_S8x3_S1x1_5_0)))) + tallyAt (dcell (nxt c) (csem cc0_scratch5 1 0 inb_S8x3_S1x1_1_0)) () ((oblkM (k0_off7 c 0#32) (k0_off7_inb c 0) : Memref sig .tc .vmem S512x256 .bf16).view.amount (.dma (csem cc0_scratch5 1 0 inb_S8x3_S1x1_1_0)))) + tallyAt (dcell (prv c) (csem cc0_scratch5 4 0 inb_S8x3_S1x1_4_0)) () ((oblkM (k0_off5 c 0#32) (k0_off5_inb c 0) : Memref sig .tc .vmem S512x256 .bf16).view.amount (.dma (csem cc0_scratch5 4 0 inb_S8x3_S1x1_4_0)))) + tallyAt (dcell (nxt c) (csem cc0_scratch5 0 0 inb_S8x3_S1x1_0_0)) () ((oblkM (k0_off3 c 0#32) (k0_off3_inb c 0) : Memref sig .tc .vmem S512x256 .bf16).view.amount (.dma (csem cc0_scratch5 0 0 inb_S8x3_S1x1_0_0)))) + tallyAt (dcell (prv c) (csem cc0_scratch3 7 2 inb_S8x3_S1x1_7_2)) () 8192) + tallyAt (dcell (nxt c) (csem cc0_scratch3 3 2 inb_S8x3_S1x1_3_2)) () 8192) + tallyAt (dcell (prv c) (csem cc0_scratch3 6 2 inb_S8x3_S1x1_6_2)) () 8192) + tallyAt (dcell (nxt c) (csem cc0_scratch3 2 2 inb_S8x3_S1x1_2_2)) () 8192) + tallyAt (dcell (prv c) (csem cc0_scratch3 5 2 inb_S8x3_S1x1_5_2)) () 8192) + tallyAt (dcell (nxt c) (csem cc0_scratch3 1 2 inb_S8x3_S1x1_1_2)) () 8192) + tallyAt (dcell (prv c) (csem cc0_scratch3 4 2 inb_S8x3_S1x1_4_2)) () 8192) + tallyAt (dcell (nxt c) (csem cc0_scratch3 0 2 inb_S8x3_S1x1_0_2)) () 8192) + tallyAt (dcell (prv c) (csem cc0_scratch3 7 1 inb_S8x3_S1x1_7_1)) () 8192) + tallyAt (dcell (nxt c) (csem cc0_scratch3 3 1 inb_S8x3_S1x1_3_1)) () 8192) + tallyAt (dcell (prv c) (csem cc0_scratch3 6 1 inb_S8x3_S1x1_6_1)) () 8192) + tallyAt (dcell (nxt c) (csem cc0_scratch3 2 1 inb_S8x3_S1x1_2_1)) () 8192) + tallyAt (dcell (prv c) (csem cc0_scratch3 5 1 inb_S8x3_S1x1_5_1)) () 8192) + tallyAt (dcell (nxt c) (csem cc0_scratch3 1 1 inb_S8x3_S1x1_1_1)) () 8192) + tallyAt (dcell (prv c) (csem cc0_scratch3 4 1 inb_S8x3_S1x1_4_1)) () 8192) + tallyAt (dcell (nxt c) (csem cc0_scratch3 0 1 inb_S8x3_S1x1_0_1)) () 8192) + tallyAt (dcell (prv c) (csem cc0_scratch3 7 0 inb_S8x3_S1x1_7_0)) () 8192) + tallyAt (dcell (nxt c) (csem cc0_scratch3 3 0 inb_S8x3_S1x1_3_0)) () 8192) + tallyAt (dcell (prv c) (csem cc0_scratch3 6 0 inb_S8x3_S1x1_6_0)) () 8192) + tallyAt (dcell (nxt c) (csem cc0_scratch3 2 0 inb_S8x3_S1x1_2_0)) () 8192) + tallyAt (dcell (prv c) (csem cc0_scratch3 5 0 inb_S8x3_S1x1_5_0)) () 8192) + tallyAt (dcell (nxt c) (csem cc0_scratch3 1 0 inb_S8x3_S1x1_1_0)) () 8192) + tallyAt (dcell (prv c) (csem cc0_scratch3 4 0 inb_S8x3_S1x1_4_0)) () 8192) + tallyAt (dcell (nxt c) (csem cc0_scratch3 0 0 inb_S8x3_S1x1_0_0)) () 8192) from rfl))) $$ HO
  ihave Hmwb := (Entails.of_eq (congrArg (fun O => MayWait (c : Thread nD τ) (.reg barS) () O) (owedRem_E48 c))) $$ Hmwb
  ihave Hmw300 := (Entails.of_eq (congrArg (fun O => MayWait (c : Thread nD τ) (.dma (csem cc0_scratch3 0 0 inb_S8x3_S1x1_0_0)) () O) (owedRem_E40 c))) $$ Hmw300
  ihave Hmw301 := (Entails.of_eq (congrArg (fun O => MayWait (c : Thread nD τ) (.dma (csem cc0_scratch3 0 1 inb_S8x3_S1x1_0_1)) () O) (owedRem_E32 c))) $$ Hmw301
  ihave Hmw302 := (Entails.of_eq (congrArg (fun O => MayWait (c : Thread nD τ) (.dma (csem cc0_scratch3 0 2 inb_S8x3_S1x1_0_2)) () O) (owedRem_E24 c))) $$ Hmw302
  ihave Hmw310 := (Entails.of_eq (congrArg (fun O => MayWait (c : Thread nD τ) (.dma (csem cc0_scratch3 1 0 inb_S8x3_S1x1_1_0)) () O) (owedRem_E38 c))) $$ Hmw310
  ihave Hmw311 := (Entails.of_eq (congrArg (fun O => MayWait (c : Thread nD τ) (.dma (csem cc0_scratch3 1 1 inb_S8x3_S1x1_1_1)) () O) (owedRem_E30 c))) $$ Hmw311
  ihave Hmw312 := (Entails.of_eq (congrArg (fun O => MayWait (c : Thread nD τ) (.dma (csem cc0_scratch3 1 2 inb_S8x3_S1x1_1_2)) () O) (owedRem_E22 c))) $$ Hmw312
  ihave Hmw320 := (Entails.of_eq (congrArg (fun O => MayWait (c : Thread nD τ) (.dma (csem cc0_scratch3 2 0 inb_S8x3_S1x1_2_0)) () O) (owedRem_E36 c))) $$ Hmw320
  ihave Hmw321 := (Entails.of_eq (congrArg (fun O => MayWait (c : Thread nD τ) (.dma (csem cc0_scratch3 2 1 inb_S8x3_S1x1_2_1)) () O) (owedRem_E28 c))) $$ Hmw321
  ihave Hmw322 := (Entails.of_eq (congrArg (fun O => MayWait (c : Thread nD τ) (.dma (csem cc0_scratch3 2 2 inb_S8x3_S1x1_2_2)) () O) (owedRem_E20 c))) $$ Hmw322
  ihave Hmw330 := (Entails.of_eq (congrArg (fun O => MayWait (c : Thread nD τ) (.dma (csem cc0_scratch3 3 0 inb_S8x3_S1x1_3_0)) () O) (owedRem_E34 c))) $$ Hmw330
  ihave Hmw331 := (Entails.of_eq (congrArg (fun O => MayWait (c : Thread nD τ) (.dma (csem cc0_scratch3 3 1 inb_S8x3_S1x1_3_1)) () O) (owedRem_E26 c))) $$ Hmw331
  ihave Hmw332 := (Entails.of_eq (congrArg (fun O => MayWait (c : Thread nD τ) (.dma (csem cc0_scratch3 3 2 inb_S8x3_S1x1_3_2)) () O) (owedRem_E18 c))) $$ Hmw332
  ihave Hmw340 := (Entails.of_eq (congrArg (fun O => MayWait (c : Thread nD τ) (.dma (csem cc0_scratch3 4 0 inb_S8x3_S1x1_4_0)) () O) (owedRem_E39 c))) $$ Hmw340
  ihave Hmw341 := (Entails.of_eq (congrArg (fun O => MayWait (c : Thread nD τ) (.dma (csem cc0_scratch3 4 1 inb_S8x3_S1x1_4_1)) () O) (owedRem_E31 c))) $$ Hmw341
  ihave Hmw342 := (Entails.of_eq (congrArg (fun O => MayWait (c : Thread nD τ) (.dma (csem cc0_scratch3 4 2 inb_S8x3_S1x1_4_2)) () O) (owedRem_E23 c))) $$ Hmw342
  ihave Hmw350 := (Entails.of_eq (congrArg (fun O => MayWait (c : Thread nD τ) (.dma (csem cc0_scratch3 5 0 inb_S8x3_S1x1_5_0)) () O) (owedRem_E37 c))) $$ Hmw350
  ihave Hmw351 := (Entails.of_eq (congrArg (fun O => MayWait (c : Thread nD τ) (.dma (csem cc0_scratch3 5 1 inb_S8x3_S1x1_5_1)) () O) (owedRem_E29 c))) $$ Hmw351
  ihave Hmw352 := (Entails.of_eq (congrArg (fun O => MayWait (c : Thread nD τ) (.dma (csem cc0_scratch3 5 2 inb_S8x3_S1x1_5_2)) () O) (owedRem_E21 c))) $$ Hmw352
  ihave Hmw360 := (Entails.of_eq (congrArg (fun O => MayWait (c : Thread nD τ) (.dma (csem cc0_scratch3 6 0 inb_S8x3_S1x1_6_0)) () O) (owedRem_E35 c))) $$ Hmw360
  ihave Hmw361 := (Entails.of_eq (congrArg (fun O => MayWait (c : Thread nD τ) (.dma (csem cc0_scratch3 6 1 inb_S8x3_S1x1_6_1)) () O) (owedRem_E27 c))) $$ Hmw361
  ihave Hmw362 := (Entails.of_eq (congrArg (fun O => MayWait (c : Thread nD τ) (.dma (csem cc0_scratch3 6 2 inb_S8x3_S1x1_6_2)) () O) (owedRem_E19 c))) $$ Hmw362
  ihave Hmw370 := (Entails.of_eq (congrArg (fun O => MayWait (c : Thread nD τ) (.dma (csem cc0_scratch3 7 0 inb_S8x3_S1x1_7_0)) () O) (owedRem_E33 c))) $$ Hmw370
  ihave Hmw371 := (Entails.of_eq (congrArg (fun O => MayWait (c : Thread nD τ) (.dma (csem cc0_scratch3 7 1 inb_S8x3_S1x1_7_1)) () O) (owedRem_E25 c))) $$ Hmw371
  ihave Hmw372 := (Entails.of_eq (congrArg (fun O => MayWait (c : Thread nD τ) (.dma (csem cc0_scratch3 7 2 inb_S8x3_S1x1_7_2)) () O) (owedRem_E17 c))) $$ Hmw372
  ihave Hmw500 := (Entails.of_eq (congrArg (fun O => MayWait (c : Thread nD τ) (.dma (csem cc0_scratch5 0 0 inb_S8x3_S1x1_0_0)) () O) (owedRem_E16 c))) $$ Hmw500
  ihave Hmw501 := (Entails.of_eq (congrArg (fun O => MayWait (c : Thread nD τ) (.dma (csem cc0_scratch5 0 1 inb_S8x3_S1x1_0_1)) () O) (owedRem_E8 c))) $$ Hmw501
  ihave Hmw502 := (Entails.of_eq (congrArg (fun O => MayWait (c : Thread nD τ) (.dma (csem cc0_scratch5 0 2 inb_S8x3_S1x1_0_2)) () O) (owedRem_E0 c))) $$ Hmw502
  ihave Hmw510 := (Entails.of_eq (congrArg (fun O => MayWait (c : Thread nD τ) (.dma (csem cc0_scratch5 1 0 inb_S8x3_S1x1_1_0)) () O) (owedRem_E14 c))) $$ Hmw510
  ihave Hmw511 := (Entails.of_eq (congrArg (fun O => MayWait (c : Thread nD τ) (.dma (csem cc0_scratch5 1 1 inb_S8x3_S1x1_1_1)) () O) (owedRem_E6 c))) $$ Hmw511
  ihave Hmw512 := (Entails.of_eq (congrArg (fun O => MayWait (c : Thread nD τ) (.dma (csem cc0_scratch5 1 2 inb_S8x3_S1x1_1_2)) () O) (owedRem_E0 c))) $$ Hmw512
  ihave Hmw520 := (Entails.of_eq (congrArg (fun O => MayWait (c : Thread nD τ) (.dma (csem cc0_scratch5 2 0 inb_S8x3_S1x1_2_0)) () O) (owedRem_E12 c))) $$ Hmw520
  ihave Hmw521 := (Entails.of_eq (congrArg (fun O => MayWait (c : Thread nD τ) (.dma (csem cc0_scratch5 2 1 inb_S8x3_S1x1_2_1)) () O) (owedRem_E4 c))) $$ Hmw521
  ihave Hmw522 := (Entails.of_eq (congrArg (fun O => MayWait (c : Thread nD τ) (.dma (csem cc0_scratch5 2 2 inb_S8x3_S1x1_2_2)) () O) (owedRem_E0 c))) $$ Hmw522
  ihave Hmw530 := (Entails.of_eq (congrArg (fun O => MayWait (c : Thread nD τ) (.dma (csem cc0_scratch5 3 0 inb_S8x3_S1x1_3_0)) () O) (owedRem_E10 c))) $$ Hmw530
  ihave Hmw531 := (Entails.of_eq (congrArg (fun O => MayWait (c : Thread nD τ) (.dma (csem cc0_scratch5 3 1 inb_S8x3_S1x1_3_1)) () O) (owedRem_E2 c))) $$ Hmw531
  ihave Hmw532 := (Entails.of_eq (congrArg (fun O => MayWait (c : Thread nD τ) (.dma (csem cc0_scratch5 3 2 inb_S8x3_S1x1_3_2)) () O) (owedRem_E0 c))) $$ Hmw532
  ihave Hmw540 := (Entails.of_eq (congrArg (fun O => MayWait (c : Thread nD τ) (.dma (csem cc0_scratch5 4 0 inb_S8x3_S1x1_4_0)) () O) (owedRem_E15 c))) $$ Hmw540
  ihave Hmw541 := (Entails.of_eq (congrArg (fun O => MayWait (c : Thread nD τ) (.dma (csem cc0_scratch5 4 1 inb_S8x3_S1x1_4_1)) () O) (owedRem_E7 c))) $$ Hmw541
  ihave Hmw542 := (Entails.of_eq (congrArg (fun O => MayWait (c : Thread nD τ) (.dma (csem cc0_scratch5 4 2 inb_S8x3_S1x1_4_2)) () O) (owedRem_E0 c))) $$ Hmw542
  ihave Hmw550 := (Entails.of_eq (congrArg (fun O => MayWait (c : Thread nD τ) (.dma (csem cc0_scratch5 5 0 inb_S8x3_S1x1_5_0)) () O) (owedRem_E13 c))) $$ Hmw550
  ihave Hmw551 := (Entails.of_eq (congrArg (fun O => MayWait (c : Thread nD τ) (.dma (csem cc0_scratch5 5 1 inb_S8x3_S1x1_5_1)) () O) (owedRem_E5 c))) $$ Hmw551
  ihave Hmw552 := (Entails.of_eq (congrArg (fun O => MayWait (c : Thread nD τ) (.dma (csem cc0_scratch5 5 2 inb_S8x3_S1x1_5_2)) () O) (owedRem_E0 c))) $$ Hmw552
  ihave Hmw560 := (Entails.of_eq (congrArg (fun O => MayWait (c : Thread nD τ) (.dma (csem cc0_scratch5 6 0 inb_S8x3_S1x1_6_0)) () O) (owedRem_E11 c))) $$ Hmw560
  ihave Hmw561 := (Entails.of_eq (congrArg (fun O => MayWait (c : Thread nD τ) (.dma (csem cc0_scratch5 6 1 inb_S8x3_S1x1_6_1)) () O) (owedRem_E3 c))) $$ Hmw561
  ihave Hmw562 := (Entails.of_eq (congrArg (fun O => MayWait (c : Thread nD τ) (.dma (csem cc0_scratch5 6 2 inb_S8x3_S1x1_6_2)) () O) (owedRem_E0 c))) $$ Hmw562
  ihave Hmw570 := (Entails.of_eq (congrArg (fun O => MayWait (c : Thread nD τ) (.dma (csem cc0_scratch5 7 0 inb_S8x3_S1x1_7_0)) () O) (owedRem_E9 c))) $$ Hmw570
  ihave Hmw571 := (Entails.of_eq (congrArg (fun O => MayWait (c : Thread nD τ) (.dma (csem cc0_scratch5 7 1 inb_S8x3_S1x1_7_1)) () O) (owedRem_E1 c))) $$ Hmw571
  ihave Hmw572 := (Entails.of_eq (congrArg (fun O => MayWait (c : Thread nD τ) (.dma (csem cc0_scratch5 7 2 inb_S8x3_S1x1_7_2)) () O) (owedRem_E0 c))) $$ Hmw572
  ihave HOo0 := (aside_intro _) $$ HOo0
  ihave HOo1 := (aside_intro _) $$ HOo1
  ihave HOo2 := (aside_intro _) $$ HOo2
  ihave HOo3 := (aside_intro _) $$ HOo3
  ihave HOo4 := (aside_intro _) $$ HOo4
  ihave HOo5 := (aside_intro _) $$ HOo5
  ihave HOo6 := (aside_intro _) $$ HOo6
  ihave HOo7 := (aside_intro _) $$ HOo7
  ihave Hat500 := (aside_intro _) $$ Hat500
  ihave Hat501 := (aside_intro _) $$ Hat501
  ihave Hat502 := (aside_intro _) $$ Hat502
  ihave Hat510 := (aside_intro _) $$ Hat510
  ihave Hat511 := (aside_intro _) $$ Hat511
  ihave Hat512 := (aside_intro _) $$ Hat512
  ihave Hat520 := (aside_intro _) $$ Hat520
  ihave Hat521 := (aside_intro _) $$ Hat521
  ihave Hat522 := (aside_intro _) $$ Hat522
  ihave Hat530 := (aside_intro _) $$ Hat530
  ihave Hat531 := (aside_intro _) $$ Hat531
  ihave Hat532 := (aside_intro _) $$ Hat532
  ihave Hat540 := (aside_intro _) $$ Hat540
  ihave Hat541 := (aside_intro _) $$ Hat541
  ihave Hat542 := (aside_intro _) $$ Hat542
  ihave Hat550 := (aside_intro _) $$ Hat550
  ihave Hat551 := (aside_intro _) $$ Hat551
  ihave Hat552 := (aside_intro _) $$ Hat552
  ihave Hat560 := (aside_intro _) $$ Hat560
  ihave Hat561 := (aside_intro _) $$ Hat561
  ihave Hat562 := (aside_intro _) $$ Hat562
  ihave Hat570 := (aside_intro _) $$ Hat570
  ihave Hat571 := (aside_intro _) $$ Hat571
  ihave Hat572 := (aside_intro _) $$ Hat572
  ihave Hat400 := (aside_intro _) $$ Hat400
  ihave Hat401 := (aside_intro _) $$ Hat401
  ihave Hat402 := (aside_intro _) $$ Hat402
  ihave Hat410 := (aside_intro _) $$ Hat410
  ihave Hat411 := (aside_intro _) $$ Hat411
  ihave Hat412 := (aside_intro _) $$ Hat412
  ihave Hat420 := (aside_intro _) $$ Hat420
  ihave Hat421 := (aside_intro _) $$ Hat421
  ihave Hat422 := (aside_intro _) $$ Hat422
  ihave Hat430 := (aside_intro _) $$ Hat430
  ihave Hat431 := (aside_intro _) $$ Hat431
  ihave Hat432 := (aside_intro _) $$ Hat432
  ihave Hat440 := (aside_intro _) $$ Hat440
  ihave Hat441 := (aside_intro _) $$ Hat441
  ihave Hat442 := (aside_intro _) $$ Hat442
  ihave Hat450 := (aside_intro _) $$ Hat450
  ihave Hat451 := (aside_intro _) $$ Hat451
  ihave Hat452 := (aside_intro _) $$ Hat452
  ihave Hat460 := (aside_intro _) $$ Hat460
  ihave Hat461 := (aside_intro _) $$ Hat461
  ihave Hat462 := (aside_intro _) $$ Hat462
  ihave Hat470 := (aside_intro _) $$ Hat470
  ihave Hat471 := (aside_intro _) $$ Hat471
  ihave Hat472 := (aside_intro _) $$ Hat472
  sl_unfold [cc0_body]
  set_option sl_exec.stepHeartbeats 400000 in sl_exec_parts (disch := simp only [sl_canon])
  ihave Hbpay := (Entails.of_eq ((bigSep_univ_bar_eq fa fb c).trans (rest_bar_flat fa fb c))) $$ Hatb_pay1
  icases Hbpay with ⟨⟨%gs00, GS00⟩, ⟨%go00, GO00⟩, #GR300, #GR500, ⟨%gs01, GS01⟩, ⟨%go01, GO01⟩, #GR301, #GR501, ⟨%gs02, GS02⟩, ⟨%go02, GO02⟩, #GR302, #GR502, ⟨%gs10, GS10⟩, ⟨%go10, GO10⟩, #GR310, #GR510, ⟨%gs11, GS11⟩, ⟨%go11, GO11⟩, #GR311, #GR511, ⟨%gs12, GS12⟩, ⟨%go12, GO12⟩, #GR312, #GR512, ⟨%gs20, GS20⟩, ⟨%go20, GO20⟩, #GR320, #GR520, ⟨%gs21, GS21⟩, ⟨%go21, GO21⟩, #GR321, #GR521, ⟨%gs22, GS22⟩, ⟨%go22, GO22⟩, #GR322, #GR522, ⟨%gs30, GS30⟩, ⟨%go30, GO30⟩, #GR330, #GR530, ⟨%gs31, GS31⟩, ⟨%go31, GO31⟩, #GR331, #GR531, ⟨%gs32, GS32⟩, ⟨%go32, GO32⟩, #GR332, #GR532, ⟨%gs40, GS40⟩, ⟨%go40, GO40⟩, #GR340, #GR540, ⟨%gs41, GS41⟩, ⟨%go41, GO41⟩, #GR341, #GR541, ⟨%gs42, GS42⟩, ⟨%go42, GO42⟩, #GR342, #GR542, ⟨%gs50, GS50⟩, ⟨%go50, GO50⟩, #GR350, #GR550, ⟨%gs51, GS51⟩, ⟨%go51, GO51⟩, #GR351, #GR551, ⟨%gs52, GS52⟩, ⟨%go52, GO52⟩, #GR352, #GR552, ⟨%gs60, GS60⟩, ⟨%go60, GO60⟩, #GR360, #GR560, ⟨%gs61, GS61⟩, ⟨%go61, GO61⟩, #GR361, #GR561, ⟨%gs62, GS62⟩, ⟨%go62, GO62⟩, #GR362, #GR562, ⟨%gs70, GS70⟩, ⟨%go70, GO70⟩, #GR370, #GR570, ⟨%gs71, GS71⟩, ⟨%go71, GO71⟩, #GR371, #GR571, ⟨%gs72, GS72⟩, ⟨%go72, GO72⟩, #GR372, #GR572⟩
  ihave GO00 := (aside_intro _) $$ GO00
  ihave GO01 := (aside_intro _) $$ GO01
  ihave GO02 := (aside_intro _) $$ GO02
  ihave GO10 := (aside_intro _) $$ GO10
  ihave GO11 := (aside_intro _) $$ GO11
  ihave GO12 := (aside_intro _) $$ GO12
  ihave GO20 := (aside_intro _) $$ GO20
  ihave GO21 := (aside_intro _) $$ GO21
  ihave GO22 := (aside_intro _) $$ GO22
  ihave GO30 := (aside_intro _) $$ GO30
  ihave GO31 := (aside_intro _) $$ GO31
  ihave GO32 := (aside_intro _) $$ GO32
  ihave GO40 := (aside_intro _) $$ GO40
  ihave GO41 := (aside_intro _) $$ GO41
  ihave GO42 := (aside_intro _) $$ GO42
  ihave GO50 := (aside_intro _) $$ GO50
  ihave GO51 := (aside_intro _) $$ GO51
  ihave GO52 := (aside_intro _) $$ GO52
  ihave GO60 := (aside_intro _) $$ GO60
  ihave GO61 := (aside_intro _) $$ GO61
  ihave GO62 := (aside_intro _) $$ GO62
  ihave GO70 := (aside_intro _) $$ GO70
  ihave GO71 := (aside_intro _) $$ GO71
  ihave GO72 := (aside_intro _) $$ GO72
  ihave Hts200 := (aside_elim _) $$ Hts200
  ihave Hts240 := (aside_elim _) $$ Hts240
  ihave HS00 := (Entails.of_eq (pointsTo_congr (site_rs0 fa fb c 0 (by decide) inb_S8x4x512x256_S1x1x512x256_0_0_0_0 _ _ _ _ rfl (aRead_1 c _ _) (bRead_0 _ _)))) $$ HS00
  ihave HS40 := (Entails.of_eq (pointsTo_congr (site_rs0 fa fb c 4 (by decide) inb_S8x4x512x256_S1x1x512x256_4_0_0_0 _ _ _ _ rfl (aRead_m1 c _ _) (bRead_4 _ _)))) $$ HS40
  set_option sl_exec.stepHeartbeats 400000 in sl_exec_parts (disch := simp only [sl_canon])
  ihave Hts210 := (aside_elim _) $$ Hts210
  ihave Hts250 := (aside_elim _) $$ Hts250
  ihave HS10 := (Entails.of_eq (pointsTo_congr (site_rs0 fa fb c 1 (by decide) inb_S8x4x512x256_S1x1x512x256_1_0_0_0 _ _ _ _ rfl (aRead_1 c _ _) (bRead_1 _ _)))) $$ HS10
  ihave HS50 := (Entails.of_eq (pointsTo_congr (site_rs0 fa fb c 5 (by decide) inb_S8x4x512x256_S1x1x512x256_5_0_0_0 _ _ _ _ rfl (aRead_m1 c _ _) (bRead_5 _ _)))) $$ HS50
  set_option sl_exec.stepHeartbeats 400000 in sl_exec_parts (disch := simp only [sl_canon])
  ihave Hts220 := (aside_elim _) $$ Hts220
  ihave Hts260 := (aside_elim _) $$ Hts260
  ihave HS20 := (Entails.of_eq (pointsTo_congr (site_rs0 fa fb c 2 (by decide) inb_S8x4x512x256_S1x1x512x256_2_0_0_0 _ _ _ _ rfl (aRead_1 c _ _) (bRead_2 _ _)))) $$ HS20
  ihave HS60 := (Entails.of_eq (pointsTo_congr (site_rs0 fa fb c 6 (by decide) inb_S8x4x512x256_S1x1x512x256_6_0_0_0 _ _ _ _ rfl (aRead_m1 c _ _) (bRead_6 _ _)))) $$ HS60
  set_option sl_exec.stepHeartbeats 400000 in sl_exec_parts (disch := simp only [sl_canon])
  ihave Hts230 := (aside_elim _) $$ Hts230
  ihave Hts270 := (aside_elim _) $$ Hts270
  ihave HS30 := (Entails.of_eq (pointsTo_congr (site_rs0 fa fb c 3 (by decide) inb_S8x4x512x256_S1x1x512x256_3_0_0_0 _ _ _ _ rfl (aRead_1 c _ _) (bRead_3 _ _)))) $$ HS30
  ihave HS70 := (Entails.of_eq (pointsTo_congr (site_rs0 fa fb c 7 (by decide) inb_S8x4x512x256_S1x1x512x256_7_0_0_0 _ _ _ _ rfl (aRead_m1 c _ _) (bRead_7 _ _)))) $$ HS70
  set_option sl_exec.stepHeartbeats 400000 in sl_exec_parts (disch := simp only [sl_canon])
  ihave Hts201 := (aside_elim _) $$ Hts201
  ihave Hat300_pay1 := (Entails.of_eq (pointsTo_congr (site_rsK fa fb c 0 (by decide) 0 (by decide) inb_S8x4x512x256_S1x1x512x256_0_0_0_0 inb_S8x4x512x256_S1x1x512x256_0_1_0_0 _ _ _ _ _ _ rfl rfl (aRead_2 c _ _) (bRead_0 _ _) (slot_readback 0 0 inb_S8x4x512x256_S1x1x512x256_0_0_0_0 inb_S8x4x512x256_S1x1x512x256_0_1_0_0 _ _)))) $$ Hat300_pay1
  set_option sl_exec.stepHeartbeats 400000 in sl_exec_parts (disch := simp only [sl_canon])
  ihave Hts241 := (aside_elim _) $$ Hts241
  ihave Hat340_pay1 := (Entails.of_eq (pointsTo_congr (site_rsK fa fb c 4 (by decide) 0 (by decide) inb_S8x4x512x256_S1x1x512x256_4_0_0_0 inb_S8x4x512x256_S1x1x512x256_4_1_0_0 _ _ _ _ _ _ rfl rfl (aRead_m2 c _ _) (bRead_4 _ _) (slot_readback 4 0 inb_S8x4x512x256_S1x1x512x256_4_0_0_0 inb_S8x4x512x256_S1x1x512x256_4_1_0_0 _ _)))) $$ Hat340_pay1
  set_option sl_exec.stepHeartbeats 400000 in sl_exec_parts (disch := simp only [sl_canon])
  ihave Hts211 := (aside_elim _) $$ Hts211
  ihave Hat310_pay1 := (Entails.of_eq (pointsTo_congr (site_rsK fa fb c 1 (by decide) 0 (by decide) inb_S8x4x512x256_S1x1x512x256_1_0_0_0 inb_S8x4x512x256_S1x1x512x256_1_1_0_0 _ _ _ _ _ _ rfl rfl (aRead_2 c _ _) (bRead_1 _ _) (slot_readback 1 0 inb_S8x4x512x256_S1x1x512x256_1_0_0_0 inb_S8x4x512x256_S1x1x512x256_1_1_0_0 _ _)))) $$ Hat310_pay1
  set_option sl_exec.stepHeartbeats 400000 in sl_exec_parts (disch := simp only [sl_canon])
  ihave Hts251 := (aside_elim _) $$ Hts251
  ihave Hat350_pay1 := (Entails.of_eq (pointsTo_congr (site_rsK fa fb c 5 (by decide) 0 (by decide) inb_S8x4x512x256_S1x1x512x256_5_0_0_0 inb_S8x4x512x256_S1x1x512x256_5_1_0_0 _ _ _ _ _ _ rfl rfl (aRead_m2 c _ _) (bRead_5 _ _) (slot_readback 5 0 inb_S8x4x512x256_S1x1x512x256_5_0_0_0 inb_S8x4x512x256_S1x1x512x256_5_1_0_0 _ _)))) $$ Hat350_pay1
  set_option sl_exec.stepHeartbeats 400000 in sl_exec_parts (disch := simp only [sl_canon])
  ihave Hts221 := (aside_elim _) $$ Hts221
  ihave Hat320_pay1 := (Entails.of_eq (pointsTo_congr (site_rsK fa fb c 2 (by decide) 0 (by decide) inb_S8x4x512x256_S1x1x512x256_2_0_0_0 inb_S8x4x512x256_S1x1x512x256_2_1_0_0 _ _ _ _ _ _ rfl rfl (aRead_2 c _ _) (bRead_2 _ _) (slot_readback 2 0 inb_S8x4x512x256_S1x1x512x256_2_0_0_0 inb_S8x4x512x256_S1x1x512x256_2_1_0_0 _ _)))) $$ Hat320_pay1
  set_option sl_exec.stepHeartbeats 400000 in sl_exec_parts (disch := simp only [sl_canon])
  ihave Hts261 := (aside_elim _) $$ Hts261
  ihave Hat360_pay1 := (Entails.of_eq (pointsTo_congr (site_rsK fa fb c 6 (by decide) 0 (by decide) inb_S8x4x512x256_S1x1x512x256_6_0_0_0 inb_S8x4x512x256_S1x1x512x256_6_1_0_0 _ _ _ _ _ _ rfl rfl (aRead_m2 c _ _) (bRead_6 _ _) (slot_readback 6 0 inb_S8x4x512x256_S1x1x512x256_6_0_0_0 inb_S8x4x512x256_S1x1x512x256_6_1_0_0 _ _)))) $$ Hat360_pay1
  set_option sl_exec.stepHeartbeats 400000 in sl_exec_parts (disch := simp only [sl_canon])
  ihave Hts231 := (aside_elim _) $$ Hts231
  ihave Hat330_pay1 := (Entails.of_eq (pointsTo_congr (site_rsK fa fb c 3 (by decide) 0 (by decide) inb_S8x4x512x256_S1x1x512x256_3_0_0_0 inb_S8x4x512x256_S1x1x512x256_3_1_0_0 _ _ _ _ _ _ rfl rfl (aRead_2 c _ _) (bRead_3 _ _) (slot_readback 3 0 inb_S8x4x512x256_S1x1x512x256_3_0_0_0 inb_S8x4x512x256_S1x1x512x256_3_1_0_0 _ _)))) $$ Hat330_pay1
  set_option sl_exec.stepHeartbeats 400000 in sl_exec_parts (disch := simp only [sl_canon])
  ihave Hts271 := (aside_elim _) $$ Hts271
  ihave Hat370_pay1 := (Entails.of_eq (pointsTo_congr (site_rsK fa fb c 7 (by decide) 0 (by decide) inb_S8x4x512x256_S1x1x512x256_7_0_0_0 inb_S8x4x512x256_S1x1x512x256_7_1_0_0 _ _ _ _ _ _ rfl rfl (aRead_m2 c _ _) (bRead_7 _ _) (slot_readback 7 0 inb_S8x4x512x256_S1x1x512x256_7_0_0_0 inb_S8x4x512x256_S1x1x512x256_7_1_0_0 _ _)))) $$ Hat370_pay1
  set_option sl_exec.stepHeartbeats 400000 in sl_exec_parts (disch := simp only [sl_canon])
  ihave Hts202 := (aside_elim _) $$ Hts202
  ihave Hat301_pay1 := (Entails.of_eq (pointsTo_congr (site_rsK fa fb c 0 (by decide) 1 (by decide) inb_S8x4x512x256_S1x1x512x256_0_1_0_0 inb_S8x4x512x256_S1x1x512x256_0_2_0_0 _ _ _ _ _ _ rfl rfl (aRead_3 c _ _) (bRead_0 _ _) (slot_readback 0 1 inb_S8x4x512x256_S1x1x512x256_0_1_0_0 inb_S8x4x512x256_S1x1x512x256_0_2_0_0 _ _)))) $$ Hat301_pay1
  set_option sl_exec.stepHeartbeats 400000 in sl_exec_parts (disch := simp only [sl_canon])
  ihave Hts242 := (aside_elim _) $$ Hts242
  ihave Hat341_pay1 := (Entails.of_eq (pointsTo_congr (site_rsK fa fb c 4 (by decide) 1 (by decide) inb_S8x4x512x256_S1x1x512x256_4_1_0_0 inb_S8x4x512x256_S1x1x512x256_4_2_0_0 _ _ _ _ _ _ rfl rfl (aRead_m3 c _ _) (bRead_4 _ _) (slot_readback 4 1 inb_S8x4x512x256_S1x1x512x256_4_1_0_0 inb_S8x4x512x256_S1x1x512x256_4_2_0_0 _ _)))) $$ Hat341_pay1
  set_option sl_exec.stepHeartbeats 400000 in sl_exec_parts (disch := simp only [sl_canon])
  ihave Hts212 := (aside_elim _) $$ Hts212
  ihave Hat311_pay1 := (Entails.of_eq (pointsTo_congr (site_rsK fa fb c 1 (by decide) 1 (by decide) inb_S8x4x512x256_S1x1x512x256_1_1_0_0 inb_S8x4x512x256_S1x1x512x256_1_2_0_0 _ _ _ _ _ _ rfl rfl (aRead_3 c _ _) (bRead_1 _ _) (slot_readback 1 1 inb_S8x4x512x256_S1x1x512x256_1_1_0_0 inb_S8x4x512x256_S1x1x512x256_1_2_0_0 _ _)))) $$ Hat311_pay1
  set_option sl_exec.stepHeartbeats 400000 in sl_exec_parts (disch := simp only [sl_canon])
  ihave Hts252 := (aside_elim _) $$ Hts252
  ihave Hat351_pay1 := (Entails.of_eq (pointsTo_congr (site_rsK fa fb c 5 (by decide) 1 (by decide) inb_S8x4x512x256_S1x1x512x256_5_1_0_0 inb_S8x4x512x256_S1x1x512x256_5_2_0_0 _ _ _ _ _ _ rfl rfl (aRead_m3 c _ _) (bRead_5 _ _) (slot_readback 5 1 inb_S8x4x512x256_S1x1x512x256_5_1_0_0 inb_S8x4x512x256_S1x1x512x256_5_2_0_0 _ _)))) $$ Hat351_pay1
  set_option sl_exec.stepHeartbeats 400000 in sl_exec_parts (disch := simp only [sl_canon])
  ihave Hts222 := (aside_elim _) $$ Hts222
  ihave Hat321_pay1 := (Entails.of_eq (pointsTo_congr (site_rsK fa fb c 2 (by decide) 1 (by decide) inb_S8x4x512x256_S1x1x512x256_2_1_0_0 inb_S8x4x512x256_S1x1x512x256_2_2_0_0 _ _ _ _ _ _ rfl rfl (aRead_3 c _ _) (bRead_2 _ _) (slot_readback 2 1 inb_S8x4x512x256_S1x1x512x256_2_1_0_0 inb_S8x4x512x256_S1x1x512x256_2_2_0_0 _ _)))) $$ Hat321_pay1
  set_option sl_exec.stepHeartbeats 400000 in sl_exec_parts (disch := simp only [sl_canon])
  ihave Hts262 := (aside_elim _) $$ Hts262
  ihave Hat361_pay1 := (Entails.of_eq (pointsTo_congr (site_rsK fa fb c 6 (by decide) 1 (by decide) inb_S8x4x512x256_S1x1x512x256_6_1_0_0 inb_S8x4x512x256_S1x1x512x256_6_2_0_0 _ _ _ _ _ _ rfl rfl (aRead_m3 c _ _) (bRead_6 _ _) (slot_readback 6 1 inb_S8x4x512x256_S1x1x512x256_6_1_0_0 inb_S8x4x512x256_S1x1x512x256_6_2_0_0 _ _)))) $$ Hat361_pay1
  set_option sl_exec.stepHeartbeats 400000 in sl_exec_parts (disch := simp only [sl_canon])
  ihave Hts232 := (aside_elim _) $$ Hts232
  ihave Hat331_pay1 := (Entails.of_eq (pointsTo_congr (site_rsK fa fb c 3 (by decide) 1 (by decide) inb_S8x4x512x256_S1x1x512x256_3_1_0_0 inb_S8x4x512x256_S1x1x512x256_3_2_0_0 _ _ _ _ _ _ rfl rfl (aRead_3 c _ _) (bRead_3 _ _) (slot_readback 3 1 inb_S8x4x512x256_S1x1x512x256_3_1_0_0 inb_S8x4x512x256_S1x1x512x256_3_2_0_0 _ _)))) $$ Hat331_pay1
  set_option sl_exec.stepHeartbeats 400000 in sl_exec_parts (disch := simp only [sl_canon])
  ihave Hts272 := (aside_elim _) $$ Hts272
  ihave Hat371_pay1 := (Entails.of_eq (pointsTo_congr (site_rsK fa fb c 7 (by decide) 1 (by decide) inb_S8x4x512x256_S1x1x512x256_7_1_0_0 inb_S8x4x512x256_S1x1x512x256_7_2_0_0 _ _ _ _ _ _ rfl rfl (aRead_m3 c _ _) (bRead_7 _ _) (slot_readback 7 1 inb_S8x4x512x256_S1x1x512x256_7_1_0_0 inb_S8x4x512x256_S1x1x512x256_7_2_0_0 _ _)))) $$ Hat371_pay1
  ihave HOo0 := (aside_elim _) $$ HOo0
  set_option sl_exec.stepHeartbeats 400000 in sl_exec_parts (disch := simp only [sl_canon])
  ihave Hts400 := (aside_elim _) $$ Hts400
  ihave GO00 := (aside_elim _) $$ GO00
  ihave HOo0 := (Entails.of_eq (pointsTo_congr (site_out fa fb c 0 (by decide) (k0_off2 c) (k0_off2 c) (k0_off2_inb c) (k0_off2_inb c) rfl _ _ _ _ _ _ rfl rfl (aRead_4 c _ _) (bRead_0 _ _) (slot_readback 0 2 inb_S8x4x512x256_S1x1x512x256_0_2_0_0 inb_S8x4x512x256_S1x1x512x256_0_3_0_0 _ _)))) $$ HOo0
  ihave HOo0 := (Entails.of_eq (oblk_pointsTo_congr c (k0_off2 c) (k0_off3 c 0#32) (k0_off2_inb c) (k0_off3_inb c 0) ((off2_eq c).trans (off3_eq_0 c).symm) fullShare _)) $$ HOo0
  ihave HOo4 := (aside_elim _) $$ HOo4
  set_option sl_exec.stepHeartbeats 400000 in sl_exec_parts (disch := simp only [sl_canon])
  ihave Hts440 := (aside_elim _) $$ Hts440
  ihave GO40 := (aside_elim _) $$ GO40
  ihave HOo4 := (Entails.of_eq (pointsTo_congr (site_out fa fb c 4 (by decide) (k0_off4 c) (k0_off4 c) (k0_off4_inb c) (k0_off4_inb c) rfl _ _ _ _ _ _ rfl rfl (aRead_m4 c _ _) (bRead_4 _ _) (slot_readback 4 2 inb_S8x4x512x256_S1x1x512x256_4_2_0_0 inb_S8x4x512x256_S1x1x512x256_4_3_0_0 _ _)))) $$ HOo4
  ihave HOo4 := (Entails.of_eq (oblk_pointsTo_congr c (k0_off4 c) (k0_off5 c 0#32) (k0_off4_inb c) (k0_off5_inb c 0) ((off4_eq c).trans (off5_eq_0 c).symm) fullShare _)) $$ HOo4
  ihave HOo1 := (aside_elim _) $$ HOo1
  set_option sl_exec.stepHeartbeats 400000 in sl_exec_parts (disch := simp only [sl_canon])
  ihave Hts410 := (aside_elim _) $$ Hts410
  ihave GO10 := (aside_elim _) $$ GO10
  ihave HOo1 := (Entails.of_eq (pointsTo_congr (site_out fa fb c 1 (by decide) (k0_off6 c) (k0_off6 c) (k0_off6_inb c) (k0_off6_inb c) rfl _ _ _ _ _ _ rfl rfl (aRead_4 c _ _) (bRead_1 _ _) (slot_readback 1 2 inb_S8x4x512x256_S1x1x512x256_1_2_0_0 inb_S8x4x512x256_S1x1x512x256_1_3_0_0 _ _)))) $$ HOo1
  ihave HOo1 := (Entails.of_eq (oblk_pointsTo_congr c (k0_off6 c) (k0_off7 c 0#32) (k0_off6_inb c) (k0_off7_inb c 0) ((off6_eq c).trans (off7_eq_0 c).symm) fullShare _)) $$ HOo1
  ihave HOo5 := (aside_elim _) $$ HOo5
  set_option sl_exec.stepHeartbeats 400000 in sl_exec_parts (disch := simp only [sl_canon])
  ihave Hts450 := (aside_elim _) $$ Hts450
  ihave GO50 := (aside_elim _) $$ GO50
  ihave HOo5 := (Entails.of_eq (pointsTo_congr (site_out fa fb c 5 (by decide) (k0_off8 c) (k0_off8 c) (k0_off8_inb c) (k0_off8_inb c) rfl _ _ _ _ _ _ rfl rfl (aRead_m4 c _ _) (bRead_5 _ _) (slot_readback 5 2 inb_S8x4x512x256_S1x1x512x256_5_2_0_0 inb_S8x4x512x256_S1x1x512x256_5_3_0_0 _ _)))) $$ HOo5
  ihave HOo5 := (Entails.of_eq (oblk_pointsTo_congr c (k0_off8 c) (k0_off9 c 0#32) (k0_off8_inb c) (k0_off9_inb c 0) ((off8_eq c).trans (off9_eq_0 c).symm) fullShare _)) $$ HOo5
  ihave HOo2 := (aside_elim _) $$ HOo2
  set_option sl_exec.stepHeartbeats 400000 in sl_exec_parts (disch := simp only [sl_canon])
  ihave Hts420 := (aside_elim _) $$ Hts420
  ihave GO20 := (aside_elim _) $$ GO20
  ihave HOo2 := (Entails.of_eq (pointsTo_congr (site_out fa fb c 2 (by decide) (k0_off10 c) (k0_off10 c) (k0_off10_inb c) (k0_off10_inb c) rfl _ _ _ _ _ _ rfl rfl (aRead_4 c _ _) (bRead_2 _ _) (slot_readback 2 2 inb_S8x4x512x256_S1x1x512x256_2_2_0_0 inb_S8x4x512x256_S1x1x512x256_2_3_0_0 _ _)))) $$ HOo2
  ihave HOo2 := (Entails.of_eq (oblk_pointsTo_congr c (k0_off10 c) (k0_off11 c 0#32) (k0_off10_inb c) (k0_off11_inb c 0) ((off10_eq c).trans (off11_eq_0 c).symm) fullShare _)) $$ HOo2
  ihave HOo6 := (aside_elim _) $$ HOo6
  set_option sl_exec.stepHeartbeats 400000 in sl_exec_parts (disch := simp only [sl_canon])
  ihave Hts460 := (aside_elim _) $$ Hts460
  ihave GO60 := (aside_elim _) $$ GO60
  ihave HOo6 := (Entails.of_eq (pointsTo_congr (site_out fa fb c 6 (by decide) (k0_off12 c) (k0_off12 c) (k0_off12_inb c) (k0_off12_inb c) rfl _ _ _ _ _ _ rfl rfl (aRead_m4 c _ _) (bRead_6 _ _) (slot_readback 6 2 inb_S8x4x512x256_S1x1x512x256_6_2_0_0 inb_S8x4x512x256_S1x1x512x256_6_3_0_0 _ _)))) $$ HOo6
  ihave HOo6 := (Entails.of_eq (oblk_pointsTo_congr c (k0_off12 c) (k0_off13 c 0#32) (k0_off12_inb c) (k0_off13_inb c 0) ((off12_eq c).trans (off13_eq_0 c).symm) fullShare _)) $$ HOo6
  ihave HOo3 := (aside_elim _) $$ HOo3
  set_option sl_exec.stepHeartbeats 400000 in sl_exec_parts (disch := simp only [sl_canon])
  ihave Hts430 := (aside_elim _) $$ Hts430
  ihave GO30 := (aside_elim _) $$ GO30
  ihave HOo3 := (Entails.of_eq (pointsTo_congr (site_out fa fb c 3 (by decide) (k0_off14 c) (k0_off14 c) (k0_off14_inb c) (k0_off14_inb c) rfl _ _ _ _ _ _ rfl rfl (aRead_4 c _ _) (bRead_3 _ _) (slot_readback 3 2 inb_S8x4x512x256_S1x1x512x256_3_2_0_0 inb_S8x4x512x256_S1x1x512x256_3_3_0_0 _ _)))) $$ HOo3
  ihave HOo3 := (Entails.of_eq (oblk_pointsTo_congr c (k0_off14 c) (k0_off15 c 0#32) (k0_off14_inb c) (k0_off15_inb c 0) ((off14_eq c).trans (off15_eq_0 c).symm) fullShare _)) $$ HOo3
  ihave HOo7 := (aside_elim _) $$ HOo7
  set_option sl_exec.stepHeartbeats 400000 in sl_exec_parts (disch := simp only [sl_canon])
  ihave Hts470 := (aside_elim _) $$ Hts470
  ihave GO70 := (aside_elim _) $$ GO70
  ihave HOo7 := (Entails.of_eq (pointsTo_congr (site_out fa fb c 7 (by decide) (k0_off16 c) (k0_off16 c) (k0_off16_inb c) (k0_off16_inb c) rfl _ _ _ _ _ _ rfl rfl (aRead_m4 c _ _) (bRead_7 _ _) (slot_readback 7 2 inb_S8x4x512x256_S1x1x512x256_7_2_0_0 inb_S8x4x512x256_S1x1x512x256_7_3_0_0 _ _)))) $$ HOo7
  ihave HOo7 := (Entails.of_eq (oblk_pointsTo_congr c (k0_off16 c) (k0_off17 c 0#32) (k0_off16_inb c) (k0_off17_inb c 0) ((off16_eq c).trans (off17_eq_0 c).symm) fullShare _)) $$ HOo7
  set_option sl_exec.stepHeartbeats 400000 in sl_exec_parts (disch := simp only [sl_canon])
  ihave Hat500 := (aside_elim _) $$ Hat500
  iapply (Rounds.wp_wait_rest_token 𝒱₀ ER (ringRd (F := F) fa fb) (c : Thread nD τ) none (κ := K (dcell c (csem cc0_scratch5 0 0 inb_S8x3_S1x1_0_0)))
      (wpE_waitDma2_eq 𝒱₀ (c : Thread nD τ) none Set.univ) (Set.mem_univ _) () (R := 0) (m := 0) (T := ∅)
      (by rw [Nat.zero_add, expect_agRecv fa fb c 0 0 _])) $$ [Hc500 HO Hmw500 Hat500]
  · isplitr; · iexact HI500
    isplitl [Hc500]; · iexact Hc500
    isplitl [HO]; · iexact HO
    isplitl [Hmw500]; · iexact Hmw500
    iexact Hat500
  iintro ⟨HO, Hat500, -, Hat500_pay1⟩
  ihave Hat500_pay1 := (Entails.of_eq (rest_agRecv fa fb c 0 0 (by decide) (by decide) _)) $$ Hat500_pay1
  icases Hat500_pay1 with ⟨%fd500, Hat500_pay1⟩
  ihave Hat500_pay1 := (Entails.of_eq (site_fwd_pt c _ (k0_off3 c 1#32) _ _ (k0_off3_inb c 1) _ (agOff_0_1 c).symm fullShare _ _)) $$ Hat500_pay1
  ihave Hts401 := (aside_elim _) $$ Hts401
  ihave GO01 := (aside_elim _) $$ GO01
  set_option sl_exec.stepHeartbeats 400000 in sl_exec_parts (disch := simp only [sl_canon])
  ihave Hat540 := (aside_elim _) $$ Hat540
  iapply (Rounds.wp_wait_rest_token 𝒱₀ ER (ringRd (F := F) fa fb) (c : Thread nD τ) none (κ := K (dcell c (csem cc0_scratch5 4 0 inb_S8x3_S1x1_4_0)))
      (wpE_waitDma2_eq 𝒱₀ (c : Thread nD τ) none Set.univ) (Set.mem_univ _) () (R := 0) (m := 0) (T := ∅)
      (by rw [Nat.zero_add, expect_agRecv fa fb c 4 0 _])) $$ [Hc540 HO Hmw540 Hat540]
  · isplitr; · iexact HI540
    isplitl [Hc540]; · iexact Hc540
    isplitl [HO]; · iexact HO
    isplitl [Hmw540]; · iexact Hmw540
    iexact Hat540
  iintro ⟨HO, Hat540, -, Hat540_pay1⟩
  ihave Hat540_pay1 := (Entails.of_eq (rest_agRecv fa fb c 4 0 (by decide) (by decide) _)) $$ Hat540_pay1
  icases Hat540_pay1 with ⟨%fd540, Hat540_pay1⟩
  ihave Hat540_pay1 := (Entails.of_eq (site_fwd_pt c _ (k0_off5 c 4294967295#32) _ _ (k0_off5_inb c 1) _ (agOff_4_1 c).symm fullShare _ _)) $$ Hat540_pay1
  ihave Hts441 := (aside_elim _) $$ Hts441
  ihave GO41 := (aside_elim _) $$ GO41
  set_option sl_exec.stepHeartbeats 400000 in sl_exec_parts (disch := simp only [sl_canon])
  ihave Hat510 := (aside_elim _) $$ Hat510
  iapply (Rounds.wp_wait_rest_token 𝒱₀ ER (ringRd (F := F) fa fb) (c : Thread nD τ) none (κ := K (dcell c (csem cc0_scratch5 1 0 inb_S8x3_S1x1_1_0)))
      (wpE_waitDma2_eq 𝒱₀ (c : Thread nD τ) none Set.univ) (Set.mem_univ _) () (R := 0) (m := 0) (T := ∅)
      (by rw [Nat.zero_add, expect_agRecv fa fb c 1 0 _])) $$ [Hc510 HO Hmw510 Hat510]
  · isplitr; · iexact HI510
    isplitl [Hc510]; · iexact Hc510
    isplitl [HO]; · iexact HO
    isplitl [Hmw510]; · iexact Hmw510
    iexact Hat510
  iintro ⟨HO, Hat510, -, Hat510_pay1⟩
  ihave Hat510_pay1 := (Entails.of_eq (rest_agRecv fa fb c 1 0 (by decide) (by decide) _)) $$ Hat510_pay1
  icases Hat510_pay1 with ⟨%fd510, Hat510_pay1⟩
  ihave Hat510_pay1 := (Entails.of_eq (site_fwd_pt c _ (k0_off7 c 1#32) _ _ (k0_off7_inb c 1) _ (agOff_1_1 c).symm fullShare _ _)) $$ Hat510_pay1
  ihave Hts411 := (aside_elim _) $$ Hts411
  ihave GO11 := (aside_elim _) $$ GO11
  set_option sl_exec.stepHeartbeats 400000 in sl_exec_parts (disch := simp only [sl_canon])
  ihave Hat550 := (aside_elim _) $$ Hat550
  iapply (Rounds.wp_wait_rest_token 𝒱₀ ER (ringRd (F := F) fa fb) (c : Thread nD τ) none (κ := K (dcell c (csem cc0_scratch5 5 0 inb_S8x3_S1x1_5_0)))
      (wpE_waitDma2_eq 𝒱₀ (c : Thread nD τ) none Set.univ) (Set.mem_univ _) () (R := 0) (m := 0) (T := ∅)
      (by rw [Nat.zero_add, expect_agRecv fa fb c 5 0 _])) $$ [Hc550 HO Hmw550 Hat550]
  · isplitr; · iexact HI550
    isplitl [Hc550]; · iexact Hc550
    isplitl [HO]; · iexact HO
    isplitl [Hmw550]; · iexact Hmw550
    iexact Hat550
  iintro ⟨HO, Hat550, -, Hat550_pay1⟩
  ihave Hat550_pay1 := (Entails.of_eq (rest_agRecv fa fb c 5 0 (by decide) (by decide) _)) $$ Hat550_pay1
  icases Hat550_pay1 with ⟨%fd550, Hat550_pay1⟩
  ihave Hat550_pay1 := (Entails.of_eq (site_fwd_pt c _ (k0_off9 c 4294967295#32) _ _ (k0_off9_inb c 1) _ (agOff_5_1 c).symm fullShare _ _)) $$ Hat550_pay1
  ihave Hts451 := (aside_elim _) $$ Hts451
  ihave GO51 := (aside_elim _) $$ GO51
  set_option sl_exec.stepHeartbeats 400000 in sl_exec_parts (disch := simp only [sl_canon])
  ihave Hat520 := (aside_elim _) $$ Hat520
  iapply (Rounds.wp_wait_rest_token 𝒱₀ ER (ringRd (F := F) fa fb) (c : Thread nD τ) none (κ := K (dcell c (csem cc0_scratch5 2 0 inb_S8x3_S1x1_2_0)))
      (wpE_waitDma2_eq 𝒱₀ (c : Thread nD τ) none Set.univ) (Set.mem_univ _) () (R := 0) (m := 0) (T := ∅)
      (by rw [Nat.zero_add, expect_agRecv fa fb c 2 0 _])) $$ [Hc520 HO Hmw520 Hat520]
  · isplitr; · iexact HI520
    isplitl [Hc520]; · iexact Hc520
    isplitl [HO]; · iexact HO
    isplitl [Hmw520]; · iexact Hmw520
    iexact Hat520
  iintro ⟨HO, Hat520, -, Hat520_pay1⟩
  ihave Hat520_pay1 := (Entails.of_eq (rest_agRecv fa fb c 2 0 (by decide) (by decide) _)) $$ Hat520_pay1
  icases Hat520_pay1 with ⟨%fd520, Hat520_pay1⟩
  ihave Hat520_pay1 := (Entails.of_eq (site_fwd_pt c _ (k0_off11 c 1#32) _ _ (k0_off11_inb c 1) _ (agOff_2_1 c).symm fullShare _ _)) $$ Hat520_pay1
  ihave Hts421 := (aside_elim _) $$ Hts421
  ihave GO21 := (aside_elim _) $$ GO21
  set_option sl_exec.stepHeartbeats 400000 in sl_exec_parts (disch := simp only [sl_canon])
  ihave Hat560 := (aside_elim _) $$ Hat560
  iapply (Rounds.wp_wait_rest_token 𝒱₀ ER (ringRd (F := F) fa fb) (c : Thread nD τ) none (κ := K (dcell c (csem cc0_scratch5 6 0 inb_S8x3_S1x1_6_0)))
      (wpE_waitDma2_eq 𝒱₀ (c : Thread nD τ) none Set.univ) (Set.mem_univ _) () (R := 0) (m := 0) (T := ∅)
      (by rw [Nat.zero_add, expect_agRecv fa fb c 6 0 _])) $$ [Hc560 HO Hmw560 Hat560]
  · isplitr; · iexact HI560
    isplitl [Hc560]; · iexact Hc560
    isplitl [HO]; · iexact HO
    isplitl [Hmw560]; · iexact Hmw560
    iexact Hat560
  iintro ⟨HO, Hat560, -, Hat560_pay1⟩
  ihave Hat560_pay1 := (Entails.of_eq (rest_agRecv fa fb c 6 0 (by decide) (by decide) _)) $$ Hat560_pay1
  icases Hat560_pay1 with ⟨%fd560, Hat560_pay1⟩
  ihave Hat560_pay1 := (Entails.of_eq (site_fwd_pt c _ (k0_off13 c 4294967295#32) _ _ (k0_off13_inb c 1) _ (agOff_6_1 c).symm fullShare _ _)) $$ Hat560_pay1
  ihave Hts461 := (aside_elim _) $$ Hts461
  ihave GO61 := (aside_elim _) $$ GO61
  set_option sl_exec.stepHeartbeats 400000 in sl_exec_parts (disch := simp only [sl_canon])
  ihave Hat530 := (aside_elim _) $$ Hat530
  iapply (Rounds.wp_wait_rest_token 𝒱₀ ER (ringRd (F := F) fa fb) (c : Thread nD τ) none (κ := K (dcell c (csem cc0_scratch5 3 0 inb_S8x3_S1x1_3_0)))
      (wpE_waitDma2_eq 𝒱₀ (c : Thread nD τ) none Set.univ) (Set.mem_univ _) () (R := 0) (m := 0) (T := ∅)
      (by rw [Nat.zero_add, expect_agRecv fa fb c 3 0 _])) $$ [Hc530 HO Hmw530 Hat530]
  · isplitr; · iexact HI530
    isplitl [Hc530]; · iexact Hc530
    isplitl [HO]; · iexact HO
    isplitl [Hmw530]; · iexact Hmw530
    iexact Hat530
  iintro ⟨HO, Hat530, -, Hat530_pay1⟩
  ihave Hat530_pay1 := (Entails.of_eq (rest_agRecv fa fb c 3 0 (by decide) (by decide) _)) $$ Hat530_pay1
  icases Hat530_pay1 with ⟨%fd530, Hat530_pay1⟩
  ihave Hat530_pay1 := (Entails.of_eq (site_fwd_pt c _ (k0_off15 c 1#32) _ _ (k0_off15_inb c 1) _ (agOff_3_1 c).symm fullShare _ _)) $$ Hat530_pay1
  ihave Hts431 := (aside_elim _) $$ Hts431
  ihave GO31 := (aside_elim _) $$ GO31
  set_option sl_exec.stepHeartbeats 400000 in sl_exec_parts (disch := simp only [sl_canon])
  ihave Hat570 := (aside_elim _) $$ Hat570
  iapply (Rounds.wp_wait_rest_token 𝒱₀ ER (ringRd (F := F) fa fb) (c : Thread nD τ) none (κ := K (dcell c (csem cc0_scratch5 7 0 inb_S8x3_S1x1_7_0)))
      (wpE_waitDma2_eq 𝒱₀ (c : Thread nD τ) none Set.univ) (Set.mem_univ _) () (R := 0) (m := 0) (T := ∅)
      (by rw [Nat.zero_add, expect_agRecv fa fb c 7 0 _])) $$ [Hc570 HO Hmw570 Hat570]
  · isplitr; · iexact HI570
    isplitl [Hc570]; · iexact Hc570
    isplitl [HO]; · iexact HO
    isplitl [Hmw570]; · iexact Hmw570
    iexact Hat570
  iintro ⟨HO, Hat570, -, Hat570_pay1⟩
  ihave Hat570_pay1 := (Entails.of_eq (rest_agRecv fa fb c 7 0 (by decide) (by decide) _)) $$ Hat570_pay1
  icases Hat570_pay1 with ⟨%fd570, Hat570_pay1⟩
  ihave Hat570_pay1 := (Entails.of_eq (site_fwd_pt c _ (k0_off17 c 4294967295#32) _ _ (k0_off17_inb c 1) _ (agOff_7_1 c).symm fullShare _ _)) $$ Hat570_pay1
  ihave Hts471 := (aside_elim _) $$ Hts471
  ihave GO71 := (aside_elim _) $$ GO71
  set_option sl_exec.stepHeartbeats 400000 in sl_exec_parts (disch := simp only [sl_canon])
  ihave Hat501 := (aside_elim _) $$ Hat501
  iapply (Rounds.wp_wait_rest_token 𝒱₀ ER (ringRd (F := F) fa fb) (c : Thread nD τ) none (κ := K (dcell c (csem cc0_scratch5 0 1 inb_S8x3_S1x1_0_1)))
      (wpE_waitDma2_eq 𝒱₀ (c : Thread nD τ) none Set.univ) (Set.mem_univ _) () (R := 0) (m := 0) (T := ∅)
      (by rw [Nat.zero_add, expect_agRecv fa fb c 0 1 _])) $$ [Hc501 HO Hmw501 Hat501]
  · isplitr; · iexact HI501
    isplitl [Hc501]; · iexact Hc501
    isplitl [HO]; · iexact HO
    isplitl [Hmw501]; · iexact Hmw501
    iexact Hat501
  iintro ⟨HO, Hat501, -, Hat501_pay1⟩
  ihave Hat501_pay1 := (Entails.of_eq (rest_agRecv fa fb c 0 1 (by decide) (by decide) _)) $$ Hat501_pay1
  icases Hat501_pay1 with ⟨%fd501, Hat501_pay1⟩
  ihave Hat501_pay1 := (Entails.of_eq (site_fwd_pt c _ (k0_off3 c 2#32) _ _ (k0_off3_inb c 2) _ (agOff_0_2 c).symm fullShare _ _)) $$ Hat501_pay1
  ihave Hts402 := (aside_elim _) $$ Hts402
  ihave GO02 := (aside_elim _) $$ GO02
  set_option sl_exec.stepHeartbeats 400000 in sl_exec_parts (disch := simp only [sl_canon])
  ihave Hat541 := (aside_elim _) $$ Hat541
  iapply (Rounds.wp_wait_rest_token 𝒱₀ ER (ringRd (F := F) fa fb) (c : Thread nD τ) none (κ := K (dcell c (csem cc0_scratch5 4 1 inb_S8x3_S1x1_4_1)))
      (wpE_waitDma2_eq 𝒱₀ (c : Thread nD τ) none Set.univ) (Set.mem_univ _) () (R := 0) (m := 0) (T := ∅)
      (by rw [Nat.zero_add, expect_agRecv fa fb c 4 1 _])) $$ [Hc541 HO Hmw541 Hat541]
  · isplitr; · iexact HI541
    isplitl [Hc541]; · iexact Hc541
    isplitl [HO]; · iexact HO
    isplitl [Hmw541]; · iexact Hmw541
    iexact Hat541
  iintro ⟨HO, Hat541, -, Hat541_pay1⟩
  ihave Hat541_pay1 := (Entails.of_eq (rest_agRecv fa fb c 4 1 (by decide) (by decide) _)) $$ Hat541_pay1
  icases Hat541_pay1 with ⟨%fd541, Hat541_pay1⟩
  ihave Hat541_pay1 := (Entails.of_eq (site_fwd_pt c _ (k0_off5 c 4294967294#32) _ _ (k0_off5_inb c 2) _ (agOff_4_2 c).symm fullShare _ _)) $$ Hat541_pay1
  ihave Hts442 := (aside_elim _) $$ Hts442
  ihave GO42 := (aside_elim _) $$ GO42
  set_option sl_exec.stepHeartbeats 400000 in sl_exec_parts (disch := simp only [sl_canon])
  ihave Hat511 := (aside_elim _) $$ Hat511
  iapply (Rounds.wp_wait_rest_token 𝒱₀ ER (ringRd (F := F) fa fb) (c : Thread nD τ) none (κ := K (dcell c (csem cc0_scratch5 1 1 inb_S8x3_S1x1_1_1)))
      (wpE_waitDma2_eq 𝒱₀ (c : Thread nD τ) none Set.univ) (Set.mem_univ _) () (R := 0) (m := 0) (T := ∅)
      (by rw [Nat.zero_add, expect_agRecv fa fb c 1 1 _])) $$ [Hc511 HO Hmw511 Hat511]
  · isplitr; · iexact HI511
    isplitl [Hc511]; · iexact Hc511
    isplitl [HO]; · iexact HO
    isplitl [Hmw511]; · iexact Hmw511
    iexact Hat511
  iintro ⟨HO, Hat511, -, Hat511_pay1⟩
  ihave Hat511_pay1 := (Entails.of_eq (rest_agRecv fa fb c 1 1 (by decide) (by decide) _)) $$ Hat511_pay1
  icases Hat511_pay1 with ⟨%fd511, Hat511_pay1⟩
  ihave Hat511_pay1 := (Entails.of_eq (site_fwd_pt c _ (k0_off7 c 2#32) _ _ (k0_off7_inb c 2) _ (agOff_1_2 c).symm fullShare _ _)) $$ Hat511_pay1
  ihave Hts412 := (aside_elim _) $$ Hts412
  ihave GO12 := (aside_elim _) $$ GO12
  set_option sl_exec.stepHeartbeats 400000 in sl_exec_parts (disch := simp only [sl_canon])
  ihave Hat551 := (aside_elim _) $$ Hat551
  iapply (Rounds.wp_wait_rest_token 𝒱₀ ER (ringRd (F := F) fa fb) (c : Thread nD τ) none (κ := K (dcell c (csem cc0_scratch5 5 1 inb_S8x3_S1x1_5_1)))
      (wpE_waitDma2_eq 𝒱₀ (c : Thread nD τ) none Set.univ) (Set.mem_univ _) () (R := 0) (m := 0) (T := ∅)
      (by rw [Nat.zero_add, expect_agRecv fa fb c 5 1 _])) $$ [Hc551 HO Hmw551 Hat551]
  · isplitr; · iexact HI551
    isplitl [Hc551]; · iexact Hc551
    isplitl [HO]; · iexact HO
    isplitl [Hmw551]; · iexact Hmw551
    iexact Hat551
  iintro ⟨HO, Hat551, -, Hat551_pay1⟩
  ihave Hat551_pay1 := (Entails.of_eq (rest_agRecv fa fb c 5 1 (by decide) (by decide) _)) $$ Hat551_pay1
  icases Hat551_pay1 with ⟨%fd551, Hat551_pay1⟩
  ihave Hat551_pay1 := (Entails.of_eq (site_fwd_pt c _ (k0_off9 c 4294967294#32) _ _ (k0_off9_inb c 2) _ (agOff_5_2 c).symm fullShare _ _)) $$ Hat551_pay1
  ihave Hts452 := (aside_elim _) $$ Hts452
  ihave GO52 := (aside_elim _) $$ GO52
  set_option sl_exec.stepHeartbeats 400000 in sl_exec_parts (disch := simp only [sl_canon])
  ihave Hat521 := (aside_elim _) $$ Hat521
  iapply (Rounds.wp_wait_rest_token 𝒱₀ ER (ringRd (F := F) fa fb) (c : Thread nD τ) none (κ := K (dcell c (csem cc0_scratch5 2 1 inb_S8x3_S1x1_2_1)))
      (wpE_waitDma2_eq 𝒱₀ (c : Thread nD τ) none Set.univ) (Set.mem_univ _) () (R := 0) (m := 0) (T := ∅)
      (by rw [Nat.zero_add, expect_agRecv fa fb c 2 1 _])) $$ [Hc521 HO Hmw521 Hat521]
  · isplitr; · iexact HI521
    isplitl [Hc521]; · iexact Hc521
    isplitl [HO]; · iexact HO
    isplitl [Hmw521]; · iexact Hmw521
    iexact Hat521
  iintro ⟨HO, Hat521, -, Hat521_pay1⟩
  ihave Hat521_pay1 := (Entails.of_eq (rest_agRecv fa fb c 2 1 (by decide) (by decide) _)) $$ Hat521_pay1
  icases Hat521_pay1 with ⟨%fd521, Hat521_pay1⟩
  ihave Hat521_pay1 := (Entails.of_eq (site_fwd_pt c _ (k0_off11 c 2#32) _ _ (k0_off11_inb c 2) _ (agOff_2_2 c).symm fullShare _ _)) $$ Hat521_pay1
  ihave Hts422 := (aside_elim _) $$ Hts422
  ihave GO22 := (aside_elim _) $$ GO22
  set_option sl_exec.stepHeartbeats 400000 in sl_exec_parts (disch := simp only [sl_canon])
  ihave Hat561 := (aside_elim _) $$ Hat561
  iapply (Rounds.wp_wait_rest_token 𝒱₀ ER (ringRd (F := F) fa fb) (c : Thread nD τ) none (κ := K (dcell c (csem cc0_scratch5 6 1 inb_S8x3_S1x1_6_1)))
      (wpE_waitDma2_eq 𝒱₀ (c : Thread nD τ) none Set.univ) (Set.mem_univ _) () (R := 0) (m := 0) (T := ∅)
      (by rw [Nat.zero_add, expect_agRecv fa fb c 6 1 _])) $$ [Hc561 HO Hmw561 Hat561]
  · isplitr; · iexact HI561
    isplitl [Hc561]; · iexact Hc561
    isplitl [HO]; · iexact HO
    isplitl [Hmw561]; · iexact Hmw561
    iexact Hat561
  iintro ⟨HO, Hat561, -, Hat561_pay1⟩
  ihave Hat561_pay1 := (Entails.of_eq (rest_agRecv fa fb c 6 1 (by decide) (by decide) _)) $$ Hat561_pay1
  icases Hat561_pay1 with ⟨%fd561, Hat561_pay1⟩
  ihave Hat561_pay1 := (Entails.of_eq (site_fwd_pt c _ (k0_off13 c 4294967294#32) _ _ (k0_off13_inb c 2) _ (agOff_6_2 c).symm fullShare _ _)) $$ Hat561_pay1
  ihave Hts462 := (aside_elim _) $$ Hts462
  ihave GO62 := (aside_elim _) $$ GO62
  set_option sl_exec.stepHeartbeats 400000 in sl_exec_parts (disch := simp only [sl_canon])
  ihave Hat531 := (aside_elim _) $$ Hat531
  iapply (Rounds.wp_wait_rest_token 𝒱₀ ER (ringRd (F := F) fa fb) (c : Thread nD τ) none (κ := K (dcell c (csem cc0_scratch5 3 1 inb_S8x3_S1x1_3_1)))
      (wpE_waitDma2_eq 𝒱₀ (c : Thread nD τ) none Set.univ) (Set.mem_univ _) () (R := 0) (m := 0) (T := ∅)
      (by rw [Nat.zero_add, expect_agRecv fa fb c 3 1 _])) $$ [Hc531 HO Hmw531 Hat531]
  · isplitr; · iexact HI531
    isplitl [Hc531]; · iexact Hc531
    isplitl [HO]; · iexact HO
    isplitl [Hmw531]; · iexact Hmw531
    iexact Hat531
  iintro ⟨HO, Hat531, -, Hat531_pay1⟩
  ihave Hat531_pay1 := (Entails.of_eq (rest_agRecv fa fb c 3 1 (by decide) (by decide) _)) $$ Hat531_pay1
  icases Hat531_pay1 with ⟨%fd531, Hat531_pay1⟩
  ihave Hat531_pay1 := (Entails.of_eq (site_fwd_pt c _ (k0_off15 c 2#32) _ _ (k0_off15_inb c 2) _ (agOff_3_2 c).symm fullShare _ _)) $$ Hat531_pay1
  ihave Hts432 := (aside_elim _) $$ Hts432
  ihave GO32 := (aside_elim _) $$ GO32
  set_option sl_exec.stepHeartbeats 400000 in sl_exec_parts (disch := simp only [sl_canon])
  ihave Hat571 := (aside_elim _) $$ Hat571
  iapply (Rounds.wp_wait_rest_token 𝒱₀ ER (ringRd (F := F) fa fb) (c : Thread nD τ) none (κ := K (dcell c (csem cc0_scratch5 7 1 inb_S8x3_S1x1_7_1)))
      (wpE_waitDma2_eq 𝒱₀ (c : Thread nD τ) none Set.univ) (Set.mem_univ _) () (R := 0) (m := 0) (T := ∅)
      (by rw [Nat.zero_add, expect_agRecv fa fb c 7 1 _])) $$ [Hc571 HO Hmw571 Hat571]
  · isplitr; · iexact HI571
    isplitl [Hc571]; · iexact Hc571
    isplitl [HO]; · iexact HO
    isplitl [Hmw571]; · iexact Hmw571
    iexact Hat571
  iintro ⟨HO, Hat571, -, Hat571_pay1⟩
  ihave Hat571_pay1 := (Entails.of_eq (rest_agRecv fa fb c 7 1 (by decide) (by decide) _)) $$ Hat571_pay1
  icases Hat571_pay1 with ⟨%fd571, Hat571_pay1⟩
  ihave Hat571_pay1 := (Entails.of_eq (site_fwd_pt c _ (k0_off17 c 4294967294#32) _ _ (k0_off17_inb c 2) _ (agOff_7_2 c).symm fullShare _ _)) $$ Hat571_pay1
  ihave Hts472 := (aside_elim _) $$ Hts472
  ihave GO72 := (aside_elim _) $$ GO72
  set_option sl_exec.stepHeartbeats 400000 in sl_exec_parts (disch := simp only [sl_canon])
  ihave Hat502 := (aside_elim _) $$ Hat502
  iapply (Rounds.wp_wait_rest_token 𝒱₀ ER (ringRd (F := F) fa fb) (c : Thread nD τ) none (κ := K (dcell c (csem cc0_scratch5 0 2 inb_S8x3_S1x1_0_2)))
      (wpE_waitDma2_eq 𝒱₀ (c : Thread nD τ) none Set.univ) (Set.mem_univ _) () (R := 0) (m := 0) (T := ∅)
      (by rw [Nat.zero_add, expect_agRecv fa fb c 0 2 _])) $$ [Hc502 HO Hmw502 Hat502]
  · isplitr; · iexact HI502
    isplitl [Hc502]; · iexact Hc502
    isplitl [HO]; · iexact HO
    isplitl [Hmw502]; · iexact Hmw502
    iexact Hat502
  iintro ⟨HO, Hat502, -, Hat502_pay1⟩
  ihave Hat502_pay1 := (Entails.of_eq (rest_agRecv fa fb c 0 2 (by decide) (by decide) _)) $$ Hat502_pay1
  icases Hat502_pay1 with ⟨%fdL0, Hat502_pay1⟩
  set_option sl_exec.stepHeartbeats 400000 in sl_exec_parts (disch := simp only [sl_canon])
  ihave Hat542 := (aside_elim _) $$ Hat542
  iapply (Rounds.wp_wait_rest_token 𝒱₀ ER (ringRd (F := F) fa fb) (c : Thread nD τ) none (κ := K (dcell c (csem cc0_scratch5 4 2 inb_S8x3_S1x1_4_2)))
      (wpE_waitDma2_eq 𝒱₀ (c : Thread nD τ) none Set.univ) (Set.mem_univ _) () (R := 0) (m := 0) (T := ∅)
      (by rw [Nat.zero_add, expect_agRecv fa fb c 4 2 _])) $$ [Hc542 HO Hmw542 Hat542]
  · isplitr; · iexact HI542
    isplitl [Hc542]; · iexact Hc542
    isplitl [HO]; · iexact HO
    isplitl [Hmw542]; · iexact Hmw542
    iexact Hat542
  iintro ⟨HO, Hat542, -, Hat542_pay1⟩
  ihave Hat542_pay1 := (Entails.of_eq (rest_agRecv fa fb c 4 2 (by decide) (by decide) _)) $$ Hat542_pay1
  icases Hat542_pay1 with ⟨%fdL4, Hat542_pay1⟩
  set_option sl_exec.stepHeartbeats 400000 in sl_exec_parts (disch := simp only [sl_canon])
  ihave Hat512 := (aside_elim _) $$ Hat512
  iapply (Rounds.wp_wait_rest_token 𝒱₀ ER (ringRd (F := F) fa fb) (c : Thread nD τ) none (κ := K (dcell c (csem cc0_scratch5 1 2 inb_S8x3_S1x1_1_2)))
      (wpE_waitDma2_eq 𝒱₀ (c : Thread nD τ) none Set.univ) (Set.mem_univ _) () (R := 0) (m := 0) (T := ∅)
      (by rw [Nat.zero_add, expect_agRecv fa fb c 1 2 _])) $$ [Hc512 HO Hmw512 Hat512]
  · isplitr; · iexact HI512
    isplitl [Hc512]; · iexact Hc512
    isplitl [HO]; · iexact HO
    isplitl [Hmw512]; · iexact Hmw512
    iexact Hat512
  iintro ⟨HO, Hat512, -, Hat512_pay1⟩
  ihave Hat512_pay1 := (Entails.of_eq (rest_agRecv fa fb c 1 2 (by decide) (by decide) _)) $$ Hat512_pay1
  icases Hat512_pay1 with ⟨%fdL1, Hat512_pay1⟩
  set_option sl_exec.stepHeartbeats 400000 in sl_exec_parts (disch := simp only [sl_canon])
  ihave Hat552 := (aside_elim _) $$ Hat552
  iapply (Rounds.wp_wait_rest_token 𝒱₀ ER (ringRd (F := F) fa fb) (c : Thread nD τ) none (κ := K (dcell c (csem cc0_scratch5 5 2 inb_S8x3_S1x1_5_2)))
      (wpE_waitDma2_eq 𝒱₀ (c : Thread nD τ) none Set.univ) (Set.mem_univ _) () (R := 0) (m := 0) (T := ∅)
      (by rw [Nat.zero_add, expect_agRecv fa fb c 5 2 _])) $$ [Hc552 HO Hmw552 Hat552]
  · isplitr; · iexact HI552
    isplitl [Hc552]; · iexact Hc552
    isplitl [HO]; · iexact HO
    isplitl [Hmw552]; · iexact Hmw552
    iexact Hat552
  iintro ⟨HO, Hat552, -, Hat552_pay1⟩
  ihave Hat552_pay1 := (Entails.of_eq (rest_agRecv fa fb c 5 2 (by decide) (by decide) _)) $$ Hat552_pay1
  icases Hat552_pay1 with ⟨%fdL5, Hat552_pay1⟩
  set_option sl_exec.stepHeartbeats 400000 in sl_exec_parts (disch := simp only [sl_canon])
  ihave Hat522 := (aside_elim _) $$ Hat522
  iapply (Rounds.wp_wait_rest_token 𝒱₀ ER (ringRd (F := F) fa fb) (c : Thread nD τ) none (κ := K (dcell c (csem cc0_scratch5 2 2 inb_S8x3_S1x1_2_2)))
      (wpE_waitDma2_eq 𝒱₀ (c : Thread nD τ) none Set.univ) (Set.mem_univ _) () (R := 0) (m := 0) (T := ∅)
      (by rw [Nat.zero_add, expect_agRecv fa fb c 2 2 _])) $$ [Hc522 HO Hmw522 Hat522]
  · isplitr; · iexact HI522
    isplitl [Hc522]; · iexact Hc522
    isplitl [HO]; · iexact HO
    isplitl [Hmw522]; · iexact Hmw522
    iexact Hat522
  iintro ⟨HO, Hat522, -, Hat522_pay1⟩
  ihave Hat522_pay1 := (Entails.of_eq (rest_agRecv fa fb c 2 2 (by decide) (by decide) _)) $$ Hat522_pay1
  icases Hat522_pay1 with ⟨%fdL2, Hat522_pay1⟩
  set_option sl_exec.stepHeartbeats 400000 in sl_exec_parts (disch := simp only [sl_canon])
  ihave Hat562 := (aside_elim _) $$ Hat562
  iapply (Rounds.wp_wait_rest_token 𝒱₀ ER (ringRd (F := F) fa fb) (c : Thread nD τ) none (κ := K (dcell c (csem cc0_scratch5 6 2 inb_S8x3_S1x1_6_2)))
      (wpE_waitDma2_eq 𝒱₀ (c : Thread nD τ) none Set.univ) (Set.mem_univ _) () (R := 0) (m := 0) (T := ∅)
      (by rw [Nat.zero_add, expect_agRecv fa fb c 6 2 _])) $$ [Hc562 HO Hmw562 Hat562]
  · isplitr; · iexact HI562
    isplitl [Hc562]; · iexact Hc562
    isplitl [HO]; · iexact HO
    isplitl [Hmw562]; · iexact Hmw562
    iexact Hat562
  iintro ⟨HO, Hat562, -, Hat562_pay1⟩
  ihave Hat562_pay1 := (Entails.of_eq (rest_agRecv fa fb c 6 2 (by decide) (by decide) _)) $$ Hat562_pay1
  icases Hat562_pay1 with ⟨%fdL6, Hat562_pay1⟩
  set_option sl_exec.stepHeartbeats 400000 in sl_exec_parts (disch := simp only [sl_canon])
  ihave Hat532 := (aside_elim _) $$ Hat532
  iapply (Rounds.wp_wait_rest_token 𝒱₀ ER (ringRd (F := F) fa fb) (c : Thread nD τ) none (κ := K (dcell c (csem cc0_scratch5 3 2 inb_S8x3_S1x1_3_2)))
      (wpE_waitDma2_eq 𝒱₀ (c : Thread nD τ) none Set.univ) (Set.mem_univ _) () (R := 0) (m := 0) (T := ∅)
      (by rw [Nat.zero_add, expect_agRecv fa fb c 3 2 _])) $$ [Hc532 HO Hmw532 Hat532]
  · isplitr; · iexact HI532
    isplitl [Hc532]; · iexact Hc532
    isplitl [HO]; · iexact HO
    isplitl [Hmw532]; · iexact Hmw532
    iexact Hat532
  iintro ⟨HO, Hat532, -, Hat532_pay1⟩
  ihave Hat532_pay1 := (Entails.of_eq (rest_agRecv fa fb c 3 2 (by decide) (by decide) _)) $$ Hat532_pay1
  icases Hat532_pay1 with ⟨%fdL3, Hat532_pay1⟩
  set_option sl_exec.stepHeartbeats 400000 in sl_exec_parts (disch := simp only [sl_canon])
  ihave Hat572 := (aside_elim _) $$ Hat572
  iapply (Rounds.wp_wait_rest_token 𝒱₀ ER (ringRd (F := F) fa fb) (c : Thread nD τ) none (κ := K (dcell c (csem cc0_scratch5 7 2 inb_S8x3_S1x1_7_2)))
      (wpE_waitDma2_eq 𝒱₀ (c : Thread nD τ) none Set.univ) (Set.mem_univ _) () (R := 0) (m := 0) (T := ∅)
      (by rw [Nat.zero_add, expect_agRecv fa fb c 7 2 _])) $$ [Hc572 HO Hmw572 Hat572]
  · isplitr; · iexact HI572
    isplitl [Hc572]; · iexact Hc572
    isplitl [HO]; · iexact HO
    isplitl [Hmw572]; · iexact Hmw572
    iexact Hat572
  iintro ⟨HO, Hat572, -, Hat572_pay1⟩
  ihave Hat572_pay1 := (Entails.of_eq (rest_agRecv fa fb c 7 2 (by decide) (by decide) _)) $$ Hat572_pay1
  icases Hat572_pay1 with ⟨%fdL7, Hat572_pay1⟩
  set_option sl_exec.stepHeartbeats 400000 in sl_exec_parts (disch := simp only [sl_canon])
  ihave Hat400 := (aside_elim _) $$ Hat400
  iapply (Rounds.wp_wait_rest_token 𝒱₀ ER (ringRd (F := F) fa fb) (c : Thread nD τ) none (κ := K (dcell c (csem cc0_scratch4 0 0 inb_S8x3_S1x1_0_0)))
      (wpE_waitDma2_eq 𝒱₀ (c : Thread nD τ) none Set.univ) (Set.mem_univ _) () (R := 0) (m := 0) (T := ∅)
      (by rw [Nat.zero_add, expect_agSend fa fb c 0 0 _])) $$ [HOo0_cred HO Hat400]
  · isplitr; · iexact HI400
    isplitl [HOo0_cred]; · iexact HOo0_cred
    isplitl [HO]; · iexact HO
    isplitr; · rw [MayWait_zero]; iempintro
    iexact Hat400
  iintro ⟨HO, Hat400, -, Hat400_pay1⟩
  ihave Hat400_pay1 := (Entails.of_eq (rest_agSend fa fb c 0 0 (by decide) (by decide) _)) $$ Hat400_pay1
  ihave Hat400_pay1 := (Entails.of_eq (oblk_pointsTo_congr c _ (k0_off3 c 0#32) _ (k0_off3_inb c 0) (agOff_0_0 c).symm fullShare _)) $$ Hat400_pay1
  set_option sl_exec.stepHeartbeats 400000 in sl_exec_parts (disch := simp only [sl_canon])
  ihave Hat440 := (aside_elim _) $$ Hat440
  iapply (Rounds.wp_wait_rest_token 𝒱₀ ER (ringRd (F := F) fa fb) (c : Thread nD τ) none (κ := K (dcell c (csem cc0_scratch4 4 0 inb_S8x3_S1x1_4_0)))
      (wpE_waitDma2_eq 𝒱₀ (c : Thread nD τ) none Set.univ) (Set.mem_univ _) () (R := 0) (m := 0) (T := ∅)
      (by rw [Nat.zero_add, expect_agSend fa fb c 4 0 _])) $$ [HOo4_cred HO Hat440]
  · isplitr; · iexact HI440
    isplitl [HOo4_cred]; · iexact HOo4_cred
    isplitl [HO]; · iexact HO
    isplitr; · rw [MayWait_zero]; iempintro
    iexact Hat440
  iintro ⟨HO, Hat440, -, Hat440_pay1⟩
  ihave Hat440_pay1 := (Entails.of_eq (rest_agSend fa fb c 4 0 (by decide) (by decide) _)) $$ Hat440_pay1
  ihave Hat440_pay1 := (Entails.of_eq (oblk_pointsTo_congr c _ (k0_off5 c 0#32) _ (k0_off5_inb c 0) (agOff_4_0 c).symm fullShare _)) $$ Hat440_pay1
  set_option sl_exec.stepHeartbeats 400000 in sl_exec_parts (disch := simp only [sl_canon])
  ihave Hat410 := (aside_elim _) $$ Hat410
  iapply (Rounds.wp_wait_rest_token 𝒱₀ ER (ringRd (F := F) fa fb) (c : Thread nD τ) none (κ := K (dcell c (csem cc0_scratch4 1 0 inb_S8x3_S1x1_1_0)))
      (wpE_waitDma2_eq 𝒱₀ (c : Thread nD τ) none Set.univ) (Set.mem_univ _) () (R := 0) (m := 0) (T := ∅)
      (by rw [Nat.zero_add, expect_agSend fa fb c 1 0 _])) $$ [HOo1_cred HO Hat410]
  · isplitr; · iexact HI410
    isplitl [HOo1_cred]; · iexact HOo1_cred
    isplitl [HO]; · iexact HO
    isplitr; · rw [MayWait_zero]; iempintro
    iexact Hat410
  iintro ⟨HO, Hat410, -, Hat410_pay1⟩
  ihave Hat410_pay1 := (Entails.of_eq (rest_agSend fa fb c 1 0 (by decide) (by decide) _)) $$ Hat410_pay1
  ihave Hat410_pay1 := (Entails.of_eq (oblk_pointsTo_congr c _ (k0_off7 c 0#32) _ (k0_off7_inb c 0) (agOff_1_0 c).symm fullShare _)) $$ Hat410_pay1
  set_option sl_exec.stepHeartbeats 400000 in sl_exec_parts (disch := simp only [sl_canon])
  ihave Hat450 := (aside_elim _) $$ Hat450
  iapply (Rounds.wp_wait_rest_token 𝒱₀ ER (ringRd (F := F) fa fb) (c : Thread nD τ) none (κ := K (dcell c (csem cc0_scratch4 5 0 inb_S8x3_S1x1_5_0)))
      (wpE_waitDma2_eq 𝒱₀ (c : Thread nD τ) none Set.univ) (Set.mem_univ _) () (R := 0) (m := 0) (T := ∅)
      (by rw [Nat.zero_add, expect_agSend fa fb c 5 0 _])) $$ [HOo5_cred HO Hat450]
  · isplitr; · iexact HI450
    isplitl [HOo5_cred]; · iexact HOo5_cred
    isplitl [HO]; · iexact HO
    isplitr; · rw [MayWait_zero]; iempintro
    iexact Hat450
  iintro ⟨HO, Hat450, -, Hat450_pay1⟩
  ihave Hat450_pay1 := (Entails.of_eq (rest_agSend fa fb c 5 0 (by decide) (by decide) _)) $$ Hat450_pay1
  ihave Hat450_pay1 := (Entails.of_eq (oblk_pointsTo_congr c _ (k0_off9 c 0#32) _ (k0_off9_inb c 0) (agOff_5_0 c).symm fullShare _)) $$ Hat450_pay1
  set_option sl_exec.stepHeartbeats 400000 in sl_exec_parts (disch := simp only [sl_canon])
  ihave Hat420 := (aside_elim _) $$ Hat420
  iapply (Rounds.wp_wait_rest_token 𝒱₀ ER (ringRd (F := F) fa fb) (c : Thread nD τ) none (κ := K (dcell c (csem cc0_scratch4 2 0 inb_S8x3_S1x1_2_0)))
      (wpE_waitDma2_eq 𝒱₀ (c : Thread nD τ) none Set.univ) (Set.mem_univ _) () (R := 0) (m := 0) (T := ∅)
      (by rw [Nat.zero_add, expect_agSend fa fb c 2 0 _])) $$ [HOo2_cred HO Hat420]
  · isplitr; · iexact HI420
    isplitl [HOo2_cred]; · iexact HOo2_cred
    isplitl [HO]; · iexact HO
    isplitr; · rw [MayWait_zero]; iempintro
    iexact Hat420
  iintro ⟨HO, Hat420, -, Hat420_pay1⟩
  ihave Hat420_pay1 := (Entails.of_eq (rest_agSend fa fb c 2 0 (by decide) (by decide) _)) $$ Hat420_pay1
  ihave Hat420_pay1 := (Entails.of_eq (oblk_pointsTo_congr c _ (k0_off11 c 0#32) _ (k0_off11_inb c 0) (agOff_2_0 c).symm fullShare _)) $$ Hat420_pay1
  set_option sl_exec.stepHeartbeats 400000 in sl_exec_parts (disch := simp only [sl_canon])
  ihave Hat460 := (aside_elim _) $$ Hat460
  iapply (Rounds.wp_wait_rest_token 𝒱₀ ER (ringRd (F := F) fa fb) (c : Thread nD τ) none (κ := K (dcell c (csem cc0_scratch4 6 0 inb_S8x3_S1x1_6_0)))
      (wpE_waitDma2_eq 𝒱₀ (c : Thread nD τ) none Set.univ) (Set.mem_univ _) () (R := 0) (m := 0) (T := ∅)
      (by rw [Nat.zero_add, expect_agSend fa fb c 6 0 _])) $$ [HOo6_cred HO Hat460]
  · isplitr; · iexact HI460
    isplitl [HOo6_cred]; · iexact HOo6_cred
    isplitl [HO]; · iexact HO
    isplitr; · rw [MayWait_zero]; iempintro
    iexact Hat460
  iintro ⟨HO, Hat460, -, Hat460_pay1⟩
  ihave Hat460_pay1 := (Entails.of_eq (rest_agSend fa fb c 6 0 (by decide) (by decide) _)) $$ Hat460_pay1
  ihave Hat460_pay1 := (Entails.of_eq (oblk_pointsTo_congr c _ (k0_off13 c 0#32) _ (k0_off13_inb c 0) (agOff_6_0 c).symm fullShare _)) $$ Hat460_pay1
  set_option sl_exec.stepHeartbeats 400000 in sl_exec_parts (disch := simp only [sl_canon])
  ihave Hat430 := (aside_elim _) $$ Hat430
  iapply (Rounds.wp_wait_rest_token 𝒱₀ ER (ringRd (F := F) fa fb) (c : Thread nD τ) none (κ := K (dcell c (csem cc0_scratch4 3 0 inb_S8x3_S1x1_3_0)))
      (wpE_waitDma2_eq 𝒱₀ (c : Thread nD τ) none Set.univ) (Set.mem_univ _) () (R := 0) (m := 0) (T := ∅)
      (by rw [Nat.zero_add, expect_agSend fa fb c 3 0 _])) $$ [HOo3_cred HO Hat430]
  · isplitr; · iexact HI430
    isplitl [HOo3_cred]; · iexact HOo3_cred
    isplitl [HO]; · iexact HO
    isplitr; · rw [MayWait_zero]; iempintro
    iexact Hat430
  iintro ⟨HO, Hat430, -, Hat430_pay1⟩
  ihave Hat430_pay1 := (Entails.of_eq (rest_agSend fa fb c 3 0 (by decide) (by decide) _)) $$ Hat430_pay1
  ihave Hat430_pay1 := (Entails.of_eq (oblk_pointsTo_congr c _ (k0_off15 c 0#32) _ (k0_off15_inb c 0) (agOff_3_0 c).symm fullShare _)) $$ Hat430_pay1
  set_option sl_exec.stepHeartbeats 400000 in sl_exec_parts (disch := simp only [sl_canon])
  ihave Hat470 := (aside_elim _) $$ Hat470
  iapply (Rounds.wp_wait_rest_token 𝒱₀ ER (ringRd (F := F) fa fb) (c : Thread nD τ) none (κ := K (dcell c (csem cc0_scratch4 7 0 inb_S8x3_S1x1_7_0)))
      (wpE_waitDma2_eq 𝒱₀ (c : Thread nD τ) none Set.univ) (Set.mem_univ _) () (R := 0) (m := 0) (T := ∅)
      (by rw [Nat.zero_add, expect_agSend fa fb c 7 0 _])) $$ [HOo7_cred HO Hat470]
  · isplitr; · iexact HI470
    isplitl [HOo7_cred]; · iexact HOo7_cred
    isplitl [HO]; · iexact HO
    isplitr; · rw [MayWait_zero]; iempintro
    iexact Hat470
  iintro ⟨HO, Hat470, -, Hat470_pay1⟩
  ihave Hat470_pay1 := (Entails.of_eq (rest_agSend fa fb c 7 0 (by decide) (by decide) _)) $$ Hat470_pay1
  ihave Hat470_pay1 := (Entails.of_eq (oblk_pointsTo_congr c _ (k0_off17 c 0#32) _ (k0_off17_inb c 0) (agOff_7_0 c).symm fullShare _)) $$ Hat470_pay1
  set_option sl_exec.stepHeartbeats 400000 in sl_exec_parts (disch := simp only [sl_canon])
  ihave Hat401 := (aside_elim _) $$ Hat401
  iapply (Rounds.wp_wait_rest_token 𝒱₀ ER (ringRd (F := F) fa fb) (c : Thread nD τ) none (κ := K (dcell c (csem cc0_scratch4 0 1 inb_S8x3_S1x1_0_1)))
      (wpE_waitDma2_eq 𝒱₀ (c : Thread nD τ) none Set.univ) (Set.mem_univ _) () (R := 0) (m := 0) (T := ∅)
      (by rw [Nat.zero_add, expect_agSend fa fb c 0 1 _])) $$ [Hat500_pay1_cred HO Hat401]
  · isplitr; · iexact HI401
    isplitl [Hat500_pay1_cred]; · iexact Hat500_pay1_cred
    isplitl [HO]; · iexact HO
    isplitr; · rw [MayWait_zero]; iempintro
    iexact Hat401
  iintro ⟨HO, Hat401, -, Hat401_pay1⟩
  ihave Hat401_pay1 := (Entails.of_eq (rest_agSend fa fb c 0 1 (by decide) (by decide) _)) $$ Hat401_pay1
  ihave Hat401_pay1 := (Entails.of_eq (oblk_pointsTo_congr c _ (k0_off3 c 1#32) _ (k0_off3_inb c 1) (agOff_0_1 c).symm fullShare _)) $$ Hat401_pay1
  set_option sl_exec.stepHeartbeats 400000 in sl_exec_parts (disch := simp only [sl_canon])
  ihave Hat441 := (aside_elim _) $$ Hat441
  iapply (Rounds.wp_wait_rest_token 𝒱₀ ER (ringRd (F := F) fa fb) (c : Thread nD τ) none (κ := K (dcell c (csem cc0_scratch4 4 1 inb_S8x3_S1x1_4_1)))
      (wpE_waitDma2_eq 𝒱₀ (c : Thread nD τ) none Set.univ) (Set.mem_univ _) () (R := 0) (m := 0) (T := ∅)
      (by rw [Nat.zero_add, expect_agSend fa fb c 4 1 _])) $$ [Hat540_pay1_cred HO Hat441]
  · isplitr; · iexact HI441
    isplitl [Hat540_pay1_cred]; · iexact Hat540_pay1_cred
    isplitl [HO]; · iexact HO
    isplitr; · rw [MayWait_zero]; iempintro
    iexact Hat441
  iintro ⟨HO, Hat441, -, Hat441_pay1⟩
  ihave Hat441_pay1 := (Entails.of_eq (rest_agSend fa fb c 4 1 (by decide) (by decide) _)) $$ Hat441_pay1
  ihave Hat441_pay1 := (Entails.of_eq (oblk_pointsTo_congr c _ (k0_off5 c 4294967295#32) _ (k0_off5_inb c 1) (agOff_4_1 c).symm fullShare _)) $$ Hat441_pay1
  set_option sl_exec.stepHeartbeats 400000 in sl_exec_parts (disch := simp only [sl_canon])
  ihave Hat411 := (aside_elim _) $$ Hat411
  iapply (Rounds.wp_wait_rest_token 𝒱₀ ER (ringRd (F := F) fa fb) (c : Thread nD τ) none (κ := K (dcell c (csem cc0_scratch4 1 1 inb_S8x3_S1x1_1_1)))
      (wpE_waitDma2_eq 𝒱₀ (c : Thread nD τ) none Set.univ) (Set.mem_univ _) () (R := 0) (m := 0) (T := ∅)
      (by rw [Nat.zero_add, expect_agSend fa fb c 1 1 _])) $$ [Hat510_pay1_cred HO Hat411]
  · isplitr; · iexact HI411
    isplitl [Hat510_pay1_cred]; · iexact Hat510_pay1_cred
    isplitl [HO]; · iexact HO
    isplitr; · rw [MayWait_zero]; iempintro
    iexact Hat411
  iintro ⟨HO, Hat411, -, Hat411_pay1⟩
  ihave Hat411_pay1 := (Entails.of_eq (rest_agSend fa fb c 1 1 (by decide) (by decide) _)) $$ Hat411_pay1
  ihave Hat411_pay1 := (Entails.of_eq (oblk_pointsTo_congr c _ (k0_off7 c 1#32) _ (k0_off7_inb c 1) (agOff_1_1 c).symm fullShare _)) $$ Hat411_pay1
  set_option sl_exec.stepHeartbeats 400000 in sl_exec_parts (disch := simp only [sl_canon])
  ihave Hat451 := (aside_elim _) $$ Hat451
  iapply (Rounds.wp_wait_rest_token 𝒱₀ ER (ringRd (F := F) fa fb) (c : Thread nD τ) none (κ := K (dcell c (csem cc0_scratch4 5 1 inb_S8x3_S1x1_5_1)))
      (wpE_waitDma2_eq 𝒱₀ (c : Thread nD τ) none Set.univ) (Set.mem_univ _) () (R := 0) (m := 0) (T := ∅)
      (by rw [Nat.zero_add, expect_agSend fa fb c 5 1 _])) $$ [Hat550_pay1_cred HO Hat451]
  · isplitr; · iexact HI451
    isplitl [Hat550_pay1_cred]; · iexact Hat550_pay1_cred
    isplitl [HO]; · iexact HO
    isplitr; · rw [MayWait_zero]; iempintro
    iexact Hat451
  iintro ⟨HO, Hat451, -, Hat451_pay1⟩
  ihave Hat451_pay1 := (Entails.of_eq (rest_agSend fa fb c 5 1 (by decide) (by decide) _)) $$ Hat451_pay1
  ihave Hat451_pay1 := (Entails.of_eq (oblk_pointsTo_congr c _ (k0_off9 c 4294967295#32) _ (k0_off9_inb c 1) (agOff_5_1 c).symm fullShare _)) $$ Hat451_pay1
  set_option sl_exec.stepHeartbeats 400000 in sl_exec_parts (disch := simp only [sl_canon])
  ihave Hat421 := (aside_elim _) $$ Hat421
  iapply (Rounds.wp_wait_rest_token 𝒱₀ ER (ringRd (F := F) fa fb) (c : Thread nD τ) none (κ := K (dcell c (csem cc0_scratch4 2 1 inb_S8x3_S1x1_2_1)))
      (wpE_waitDma2_eq 𝒱₀ (c : Thread nD τ) none Set.univ) (Set.mem_univ _) () (R := 0) (m := 0) (T := ∅)
      (by rw [Nat.zero_add, expect_agSend fa fb c 2 1 _])) $$ [Hat520_pay1_cred HO Hat421]
  · isplitr; · iexact HI421
    isplitl [Hat520_pay1_cred]; · iexact Hat520_pay1_cred
    isplitl [HO]; · iexact HO
    isplitr; · rw [MayWait_zero]; iempintro
    iexact Hat421
  iintro ⟨HO, Hat421, -, Hat421_pay1⟩
  ihave Hat421_pay1 := (Entails.of_eq (rest_agSend fa fb c 2 1 (by decide) (by decide) _)) $$ Hat421_pay1
  ihave Hat421_pay1 := (Entails.of_eq (oblk_pointsTo_congr c _ (k0_off11 c 1#32) _ (k0_off11_inb c 1) (agOff_2_1 c).symm fullShare _)) $$ Hat421_pay1
  set_option sl_exec.stepHeartbeats 400000 in sl_exec_parts (disch := simp only [sl_canon])
  ihave Hat461 := (aside_elim _) $$ Hat461
  iapply (Rounds.wp_wait_rest_token 𝒱₀ ER (ringRd (F := F) fa fb) (c : Thread nD τ) none (κ := K (dcell c (csem cc0_scratch4 6 1 inb_S8x3_S1x1_6_1)))
      (wpE_waitDma2_eq 𝒱₀ (c : Thread nD τ) none Set.univ) (Set.mem_univ _) () (R := 0) (m := 0) (T := ∅)
      (by rw [Nat.zero_add, expect_agSend fa fb c 6 1 _])) $$ [Hat560_pay1_cred HO Hat461]
  · isplitr; · iexact HI461
    isplitl [Hat560_pay1_cred]; · iexact Hat560_pay1_cred
    isplitl [HO]; · iexact HO
    isplitr; · rw [MayWait_zero]; iempintro
    iexact Hat461
  iintro ⟨HO, Hat461, -, Hat461_pay1⟩
  ihave Hat461_pay1 := (Entails.of_eq (rest_agSend fa fb c 6 1 (by decide) (by decide) _)) $$ Hat461_pay1
  ihave Hat461_pay1 := (Entails.of_eq (oblk_pointsTo_congr c _ (k0_off13 c 4294967295#32) _ (k0_off13_inb c 1) (agOff_6_1 c).symm fullShare _)) $$ Hat461_pay1
  set_option sl_exec.stepHeartbeats 400000 in sl_exec_parts (disch := simp only [sl_canon])
  ihave Hat431 := (aside_elim _) $$ Hat431
  iapply (Rounds.wp_wait_rest_token 𝒱₀ ER (ringRd (F := F) fa fb) (c : Thread nD τ) none (κ := K (dcell c (csem cc0_scratch4 3 1 inb_S8x3_S1x1_3_1)))
      (wpE_waitDma2_eq 𝒱₀ (c : Thread nD τ) none Set.univ) (Set.mem_univ _) () (R := 0) (m := 0) (T := ∅)
      (by rw [Nat.zero_add, expect_agSend fa fb c 3 1 _])) $$ [Hat530_pay1_cred HO Hat431]
  · isplitr; · iexact HI431
    isplitl [Hat530_pay1_cred]; · iexact Hat530_pay1_cred
    isplitl [HO]; · iexact HO
    isplitr; · rw [MayWait_zero]; iempintro
    iexact Hat431
  iintro ⟨HO, Hat431, -, Hat431_pay1⟩
  ihave Hat431_pay1 := (Entails.of_eq (rest_agSend fa fb c 3 1 (by decide) (by decide) _)) $$ Hat431_pay1
  ihave Hat431_pay1 := (Entails.of_eq (oblk_pointsTo_congr c _ (k0_off15 c 1#32) _ (k0_off15_inb c 1) (agOff_3_1 c).symm fullShare _)) $$ Hat431_pay1
  set_option sl_exec.stepHeartbeats 400000 in sl_exec_parts (disch := simp only [sl_canon])
  ihave Hat471 := (aside_elim _) $$ Hat471
  iapply (Rounds.wp_wait_rest_token 𝒱₀ ER (ringRd (F := F) fa fb) (c : Thread nD τ) none (κ := K (dcell c (csem cc0_scratch4 7 1 inb_S8x3_S1x1_7_1)))
      (wpE_waitDma2_eq 𝒱₀ (c : Thread nD τ) none Set.univ) (Set.mem_univ _) () (R := 0) (m := 0) (T := ∅)
      (by rw [Nat.zero_add, expect_agSend fa fb c 7 1 _])) $$ [Hat570_pay1_cred HO Hat471]
  · isplitr; · iexact HI471
    isplitl [Hat570_pay1_cred]; · iexact Hat570_pay1_cred
    isplitl [HO]; · iexact HO
    isplitr; · rw [MayWait_zero]; iempintro
    iexact Hat471
  iintro ⟨HO, Hat471, -, Hat471_pay1⟩
  ihave Hat471_pay1 := (Entails.of_eq (rest_agSend fa fb c 7 1 (by decide) (by decide) _)) $$ Hat471_pay1
  ihave Hat471_pay1 := (Entails.of_eq (oblk_pointsTo_congr c _ (k0_off17 c 4294967295#32) _ (k0_off17_inb c 1) (agOff_7_1 c).symm fullShare _)) $$ Hat471_pay1
  set_option sl_exec.stepHeartbeats 400000 in sl_exec_parts (disch := simp only [sl_canon])
  ihave Hat402 := (aside_elim _) $$ Hat402
  iapply (Rounds.wp_wait_rest_token 𝒱₀ ER (ringRd (F := F) fa fb) (c : Thread nD τ) none (κ := K (dcell c (csem cc0_scratch4 0 2 inb_S8x3_S1x1_0_2)))
      (wpE_waitDma2_eq 𝒱₀ (c : Thread nD τ) none Set.univ) (Set.mem_univ _) () (R := 0) (m := 0) (T := ∅)
      (by rw [Nat.zero_add, expect_agSend fa fb c 0 2 _])) $$ [Hat501_pay1_cred HO Hat402]
  · isplitr; · iexact HI402
    isplitl [Hat501_pay1_cred]; · iexact Hat501_pay1_cred
    isplitl [HO]; · iexact HO
    isplitr; · rw [MayWait_zero]; iempintro
    iexact Hat402
  iintro ⟨HO, Hat402, -, Hat402_pay1⟩
  ihave Hat402_pay1 := (Entails.of_eq (rest_agSend fa fb c 0 2 (by decide) (by decide) _)) $$ Hat402_pay1
  ihave Hat402_pay1 := (Entails.of_eq (oblk_pointsTo_congr c _ (k0_off3 c 2#32) _ (k0_off3_inb c 2) (agOff_0_2 c).symm fullShare _)) $$ Hat402_pay1
  set_option sl_exec.stepHeartbeats 400000 in sl_exec_parts (disch := simp only [sl_canon])
  ihave Hat442 := (aside_elim _) $$ Hat442
  iapply (Rounds.wp_wait_rest_token 𝒱₀ ER (ringRd (F := F) fa fb) (c : Thread nD τ) none (κ := K (dcell c (csem cc0_scratch4 4 2 inb_S8x3_S1x1_4_2)))
      (wpE_waitDma2_eq 𝒱₀ (c : Thread nD τ) none Set.univ) (Set.mem_univ _) () (R := 0) (m := 0) (T := ∅)
      (by rw [Nat.zero_add, expect_agSend fa fb c 4 2 _])) $$ [Hat541_pay1_cred HO Hat442]
  · isplitr; · iexact HI442
    isplitl [Hat541_pay1_cred]; · iexact Hat541_pay1_cred
    isplitl [HO]; · iexact HO
    isplitr; · rw [MayWait_zero]; iempintro
    iexact Hat442
  iintro ⟨HO, Hat442, -, Hat442_pay1⟩
  ihave Hat442_pay1 := (Entails.of_eq (rest_agSend fa fb c 4 2 (by decide) (by decide) _)) $$ Hat442_pay1
  ihave Hat442_pay1 := (Entails.of_eq (oblk_pointsTo_congr c _ (k0_off5 c 4294967294#32) _ (k0_off5_inb c 2) (agOff_4_2 c).symm fullShare _)) $$ Hat442_pay1
  set_option sl_exec.stepHeartbeats 400000 in sl_exec_parts (disch := simp only [sl_canon])
  ihave Hat412 := (aside_elim _) $$ Hat412
  iapply (Rounds.wp_wait_rest_token 𝒱₀ ER (ringRd (F := F) fa fb) (c : Thread nD τ) none (κ := K (dcell c (csem cc0_scratch4 1 2 inb_S8x3_S1x1_1_2)))
      (wpE_waitDma2_eq 𝒱₀ (c : Thread nD τ) none Set.univ) (Set.mem_univ _) () (R := 0) (m := 0) (T := ∅)
      (by rw [Nat.zero_add, expect_agSend fa fb c 1 2 _])) $$ [Hat511_pay1_cred HO Hat412]
  · isplitr; · iexact HI412
    isplitl [Hat511_pay1_cred]; · iexact Hat511_pay1_cred
    isplitl [HO]; · iexact HO
    isplitr; · rw [MayWait_zero]; iempintro
    iexact Hat412
  iintro ⟨HO, Hat412, -, Hat412_pay1⟩
  ihave Hat412_pay1 := (Entails.of_eq (rest_agSend fa fb c 1 2 (by decide) (by decide) _)) $$ Hat412_pay1
  ihave Hat412_pay1 := (Entails.of_eq (oblk_pointsTo_congr c _ (k0_off7 c 2#32) _ (k0_off7_inb c 2) (agOff_1_2 c).symm fullShare _)) $$ Hat412_pay1
  set_option sl_exec.stepHeartbeats 400000 in sl_exec_parts (disch := simp only [sl_canon])
  ihave Hat452 := (aside_elim _) $$ Hat452
  iapply (Rounds.wp_wait_rest_token 𝒱₀ ER (ringRd (F := F) fa fb) (c : Thread nD τ) none (κ := K (dcell c (csem cc0_scratch4 5 2 inb_S8x3_S1x1_5_2)))
      (wpE_waitDma2_eq 𝒱₀ (c : Thread nD τ) none Set.univ) (Set.mem_univ _) () (R := 0) (m := 0) (T := ∅)
      (by rw [Nat.zero_add, expect_agSend fa fb c 5 2 _])) $$ [Hat551_pay1_cred HO Hat452]
  · isplitr; · iexact HI452
    isplitl [Hat551_pay1_cred]; · iexact Hat551_pay1_cred
    isplitl [HO]; · iexact HO
    isplitr; · rw [MayWait_zero]; iempintro
    iexact Hat452
  iintro ⟨HO, Hat452, -, Hat452_pay1⟩
  ihave Hat452_pay1 := (Entails.of_eq (rest_agSend fa fb c 5 2 (by decide) (by decide) _)) $$ Hat452_pay1
  ihave Hat452_pay1 := (Entails.of_eq (oblk_pointsTo_congr c _ (k0_off9 c 4294967294#32) _ (k0_off9_inb c 2) (agOff_5_2 c).symm fullShare _)) $$ Hat452_pay1
  set_option sl_exec.stepHeartbeats 400000 in sl_exec_parts (disch := simp only [sl_canon])
  ihave Hat422 := (aside_elim _) $$ Hat422
  iapply (Rounds.wp_wait_rest_token 𝒱₀ ER (ringRd (F := F) fa fb) (c : Thread nD τ) none (κ := K (dcell c (csem cc0_scratch4 2 2 inb_S8x3_S1x1_2_2)))
      (wpE_waitDma2_eq 𝒱₀ (c : Thread nD τ) none Set.univ) (Set.mem_univ _) () (R := 0) (m := 0) (T := ∅)
      (by rw [Nat.zero_add, expect_agSend fa fb c 2 2 _])) $$ [Hat521_pay1_cred HO Hat422]
  · isplitr; · iexact HI422
    isplitl [Hat521_pay1_cred]; · iexact Hat521_pay1_cred
    isplitl [HO]; · iexact HO
    isplitr; · rw [MayWait_zero]; iempintro
    iexact Hat422
  iintro ⟨HO, Hat422, -, Hat422_pay1⟩
  ihave Hat422_pay1 := (Entails.of_eq (rest_agSend fa fb c 2 2 (by decide) (by decide) _)) $$ Hat422_pay1
  ihave Hat422_pay1 := (Entails.of_eq (oblk_pointsTo_congr c _ (k0_off11 c 2#32) _ (k0_off11_inb c 2) (agOff_2_2 c).symm fullShare _)) $$ Hat422_pay1
  set_option sl_exec.stepHeartbeats 400000 in sl_exec_parts (disch := simp only [sl_canon])
  ihave Hat462 := (aside_elim _) $$ Hat462
  iapply (Rounds.wp_wait_rest_token 𝒱₀ ER (ringRd (F := F) fa fb) (c : Thread nD τ) none (κ := K (dcell c (csem cc0_scratch4 6 2 inb_S8x3_S1x1_6_2)))
      (wpE_waitDma2_eq 𝒱₀ (c : Thread nD τ) none Set.univ) (Set.mem_univ _) () (R := 0) (m := 0) (T := ∅)
      (by rw [Nat.zero_add, expect_agSend fa fb c 6 2 _])) $$ [Hat561_pay1_cred HO Hat462]
  · isplitr; · iexact HI462
    isplitl [Hat561_pay1_cred]; · iexact Hat561_pay1_cred
    isplitl [HO]; · iexact HO
    isplitr; · rw [MayWait_zero]; iempintro
    iexact Hat462
  iintro ⟨HO, Hat462, -, Hat462_pay1⟩
  ihave Hat462_pay1 := (Entails.of_eq (rest_agSend fa fb c 6 2 (by decide) (by decide) _)) $$ Hat462_pay1
  ihave Hat462_pay1 := (Entails.of_eq (oblk_pointsTo_congr c _ (k0_off13 c 4294967294#32) _ (k0_off13_inb c 2) (agOff_6_2 c).symm fullShare _)) $$ Hat462_pay1
  set_option sl_exec.stepHeartbeats 400000 in sl_exec_parts (disch := simp only [sl_canon])
  ihave Hat432 := (aside_elim _) $$ Hat432
  iapply (Rounds.wp_wait_rest_token 𝒱₀ ER (ringRd (F := F) fa fb) (c : Thread nD τ) none (κ := K (dcell c (csem cc0_scratch4 3 2 inb_S8x3_S1x1_3_2)))
      (wpE_waitDma2_eq 𝒱₀ (c : Thread nD τ) none Set.univ) (Set.mem_univ _) () (R := 0) (m := 0) (T := ∅)
      (by rw [Nat.zero_add, expect_agSend fa fb c 3 2 _])) $$ [Hat531_pay1_cred HO Hat432]
  · isplitr; · iexact HI432
    isplitl [Hat531_pay1_cred]; · iexact Hat531_pay1_cred
    isplitl [HO]; · iexact HO
    isplitr; · rw [MayWait_zero]; iempintro
    iexact Hat432
  iintro ⟨HO, Hat432, -, Hat432_pay1⟩
  ihave Hat432_pay1 := (Entails.of_eq (rest_agSend fa fb c 3 2 (by decide) (by decide) _)) $$ Hat432_pay1
  ihave Hat432_pay1 := (Entails.of_eq (oblk_pointsTo_congr c _ (k0_off15 c 2#32) _ (k0_off15_inb c 2) (agOff_3_2 c).symm fullShare _)) $$ Hat432_pay1
  set_option sl_exec.stepHeartbeats 400000 in sl_exec_parts (disch := simp only [sl_canon])
  ihave Hat472 := (aside_elim _) $$ Hat472
  iapply (Rounds.wp_wait_rest_token 𝒱₀ ER (ringRd (F := F) fa fb) (c : Thread nD τ) none (κ := K (dcell c (csem cc0_scratch4 7 2 inb_S8x3_S1x1_7_2)))
      (wpE_waitDma2_eq 𝒱₀ (c : Thread nD τ) none Set.univ) (Set.mem_univ _) () (R := 0) (m := 0) (T := ∅)
      (by rw [Nat.zero_add, expect_agSend fa fb c 7 2 _])) $$ [Hat571_pay1_cred HO Hat472]
  · isplitr; · iexact HI472
    isplitl [Hat571_pay1_cred]; · iexact Hat571_pay1_cred
    isplitl [HO]; · iexact HO
    isplitr; · rw [MayWait_zero]; iempintro
    iexact Hat472
  iintro ⟨HO, Hat472, -, Hat472_pay1⟩
  ihave Hat472_pay1 := (Entails.of_eq (rest_agSend fa fb c 7 2 (by decide) (by decide) _)) $$ Hat472_pay1
  ihave Hat472_pay1 := (Entails.of_eq (oblk_pointsTo_congr c _ (k0_off17 c 4294967294#32) _ (k0_off17_inb c 2) (agOff_7_2 c).symm fullShare _)) $$ Hat472_pay1
  set_option sl_exec.stepHeartbeats 400000 in sl_exec_parts (disch := simp only [sl_canon])

  imod (hpost _ _) $$ [Ha Hb Hbb Hat200_pay1 Hat201_pay1 Hat202_pay1 Hat302_pay1 Hat210_pay1 Hat211_pay1 Hat212_pay1 Hat312_pay1 Hat220_pay1 Hat221_pay1 Hat222_pay1 Hat322_pay1 Hat230_pay1 Hat231_pay1 Hat232_pay1 Hat332_pay1 Hat240_pay1 Hat241_pay1 Hat242_pay1 Hat342_pay1 Hat250_pay1 Hat251_pay1 Hat252_pay1 Hat352_pay1 Hat260_pay1 Hat261_pay1 Hat262_pay1 Hat362_pay1 Hat270_pay1 Hat271_pay1 Hat272_pay1 Hat372_pay1 Hat400_pay1 Hat401_pay1 Hat402_pay1 Hat410_pay1 Hat411_pay1 Hat412_pay1 Hat420_pay1 Hat421_pay1 Hat422_pay1 Hat430_pay1 Hat431_pay1 Hat432_pay1 Hat440_pay1 Hat441_pay1 Hat442_pay1 Hat450_pay1 Hat451_pay1 Hat452_pay1 Hat460_pay1 Hat461_pay1 Hat462_pay1 Hat470_pay1 Hat471_pay1 Hat472_pay1 Hat502_pay1 Hat512_pay1 Hat522_pay1 Hat532_pay1 Hat542_pay1 Hat552_pay1 Hat562_pay1 Hat572_pay1 Hat200 Hat201 Hat202 Hat210 Hat211 Hat212 Hat220 Hat221 Hat222 Hat230 Hat231 Hat232 Hat240 Hat241 Hat242 Hat250 Hat251 Hat252 Hat260 Hat261 Hat262 Hat270 Hat271 Hat272 Hat300 Hat301 Hat302 Hat310 Hat311 Hat312 Hat320 Hat321 Hat322 Hat330 Hat331 Hat332 Hat340 Hat341 Hat342 Hat350 Hat351 Hat352 Hat360 Hat361 Hat362 Hat370 Hat371 Hat372 Hat400 Hat401 Hat402 Hat410 Hat411 Hat412 Hat420 Hat421 Hat422 Hat430 Hat431 Hat432 Hat440 Hat441 Hat442 Hat450 Hat451 Hat452 Hat460 Hat461 Hat462 Hat470 Hat471 Hat472 Hat500 Hat501 Hat502 Hat510 Hat511 Hat512 Hat520 Hat521 Hat522 Hat530 Hat531 Hat532 Hat540 Hat541 Hat542 Hat550 Hat551 Hat552 Hat560 Hat561 Hat562 Hat570 Hat571 Hat572 Hatb HO] with HP
  · unfold corePost
    isplitl [Ha]; · iexact Ha
    isplitl [Hb]; · iexact Hb
    isplitl [Hbb]; · iexact Hbb
    isplitl [Hat200_pay1]; · iexists _; iexact Hat200_pay1
    isplitl [Hat201_pay1]; · iexists _; iexact Hat201_pay1
    isplitl [Hat202_pay1]; · iexists _; iexact Hat202_pay1
    isplitl [Hat302_pay1]; · iexists _; iexact Hat302_pay1
    isplitl [Hat210_pay1]; · iexists _; iexact Hat210_pay1
    isplitl [Hat211_pay1]; · iexists _; iexact Hat211_pay1
    isplitl [Hat212_pay1]; · iexists _; iexact Hat212_pay1
    isplitl [Hat312_pay1]; · iexists _; iexact Hat312_pay1
    isplitl [Hat220_pay1]; · iexists _; iexact Hat220_pay1
    isplitl [Hat221_pay1]; · iexists _; iexact Hat221_pay1
    isplitl [Hat222_pay1]; · iexists _; iexact Hat222_pay1
    isplitl [Hat322_pay1]; · iexists _; iexact Hat322_pay1
    isplitl [Hat230_pay1]; · iexists _; iexact Hat230_pay1
    isplitl [Hat231_pay1]; · iexists _; iexact Hat231_pay1
    isplitl [Hat232_pay1]; · iexists _; iexact Hat232_pay1
    isplitl [Hat332_pay1]; · iexists _; iexact Hat332_pay1
    isplitl [Hat240_pay1]; · iexists _; iexact Hat240_pay1
    isplitl [Hat241_pay1]; · iexists _; iexact Hat241_pay1
    isplitl [Hat242_pay1]; · iexists _; iexact Hat242_pay1
    isplitl [Hat342_pay1]; · iexists _; iexact Hat342_pay1
    isplitl [Hat250_pay1]; · iexists _; iexact Hat250_pay1
    isplitl [Hat251_pay1]; · iexists _; iexact Hat251_pay1
    isplitl [Hat252_pay1]; · iexists _; iexact Hat252_pay1
    isplitl [Hat352_pay1]; · iexists _; iexact Hat352_pay1
    isplitl [Hat260_pay1]; · iexists _; iexact Hat260_pay1
    isplitl [Hat261_pay1]; · iexists _; iexact Hat261_pay1
    isplitl [Hat262_pay1]; · iexists _; iexact Hat262_pay1
    isplitl [Hat362_pay1]; · iexists _; iexact Hat362_pay1
    isplitl [Hat270_pay1]; · iexists _; iexact Hat270_pay1
    isplitl [Hat271_pay1]; · iexists _; iexact Hat271_pay1
    isplitl [Hat272_pay1]; · iexists _; iexact Hat272_pay1
    isplitl [Hat372_pay1]; · iexists _; iexact Hat372_pay1
    isplitl [Hat400_pay1]; · iexact Hat400_pay1
    isplitl [Hat401_pay1]; · iexact Hat401_pay1
    isplitl [Hat402_pay1]; · iexact Hat402_pay1
    isplitl [Hat410_pay1]; · iexact Hat410_pay1
    isplitl [Hat411_pay1]; · iexact Hat411_pay1
    isplitl [Hat412_pay1]; · iexact Hat412_pay1
    isplitl [Hat420_pay1]; · iexact Hat420_pay1
    isplitl [Hat421_pay1]; · iexact Hat421_pay1
    isplitl [Hat422_pay1]; · iexact Hat422_pay1
    isplitl [Hat430_pay1]; · iexact Hat430_pay1
    isplitl [Hat431_pay1]; · iexact Hat431_pay1
    isplitl [Hat432_pay1]; · iexact Hat432_pay1
    isplitl [Hat440_pay1]; · iexact Hat440_pay1
    isplitl [Hat441_pay1]; · iexact Hat441_pay1
    isplitl [Hat442_pay1]; · iexact Hat442_pay1
    isplitl [Hat450_pay1]; · iexact Hat450_pay1
    isplitl [Hat451_pay1]; · iexact Hat451_pay1
    isplitl [Hat452_pay1]; · iexact Hat452_pay1
    isplitl [Hat460_pay1]; · iexact Hat460_pay1
    isplitl [Hat461_pay1]; · iexact Hat461_pay1
    isplitl [Hat462_pay1]; · iexact Hat462_pay1
    isplitl [Hat470_pay1]; · iexact Hat470_pay1
    isplitl [Hat471_pay1]; · iexact Hat471_pay1
    isplitl [Hat472_pay1]; · iexact Hat472_pay1
    isplitl [Hat502_pay1]; · iexists _; iexact Hat502_pay1
    isplitl [Hat512_pay1]; · iexists _; iexact Hat512_pay1
    isplitl [Hat522_pay1]; · iexists _; iexact Hat522_pay1
    isplitl [Hat532_pay1]; · iexists _; iexact Hat532_pay1
    isplitl [Hat542_pay1]; · iexists _; iexact Hat542_pay1
    isplitl [Hat552_pay1]; · iexists _; iexact Hat552_pay1
    isplitl [Hat562_pay1]; · iexists _; iexact Hat562_pay1
    isplitl [Hat572_pay1]; · iexists _; iexact Hat572_pay1
    isplitr; · iexact HI200
    isplitr; · iexact HI201
    isplitr; · iexact HI202
    isplitr; · iexact HI210
    isplitr; · iexact HI211
    isplitr; · iexact HI212
    isplitr; · iexact HI220
    isplitr; · iexact HI221
    isplitr; · iexact HI222
    isplitr; · iexact HI230
    isplitr; · iexact HI231
    isplitr; · iexact HI232
    isplitr; · iexact HI240
    isplitr; · iexact HI241
    isplitr; · iexact HI242
    isplitr; · iexact HI250
    isplitr; · iexact HI251
    isplitr; · iexact HI252
    isplitr; · iexact HI260
    isplitr; · iexact HI261
    isplitr; · iexact HI262
    isplitr; · iexact HI270
    isplitr; · iexact HI271
    isplitr; · iexact HI272
    isplitr; · iexact HI300
    isplitr; · iexact HI301
    isplitr; · iexact HI302
    isplitr; · iexact HI310
    isplitr; · iexact HI311
    isplitr; · iexact HI312
    isplitr; · iexact HI320
    isplitr; · iexact HI321
    isplitr; · iexact HI322
    isplitr; · iexact HI330
    isplitr; · iexact HI331
    isplitr; · iexact HI332
    isplitr; · iexact HI340
    isplitr; · iexact HI341
    isplitr; · iexact HI342
    isplitr; · iexact HI350
    isplitr; · iexact HI351
    isplitr; · iexact HI352
    isplitr; · iexact HI360
    isplitr; · iexact HI361
    isplitr; · iexact HI362
    isplitr; · iexact HI370
    isplitr; · iexact HI371
    isplitr; · iexact HI372
    isplitr; · iexact HI400
    isplitr; · iexact HI401
    isplitr; · iexact HI402
    isplitr; · iexact HI410
    isplitr; · iexact HI411
    isplitr; · iexact HI412
    isplitr; · iexact HI420
    isplitr; · iexact HI421
    isplitr; · iexact HI422
    isplitr; · iexact HI430
    isplitr; · iexact HI431
    isplitr; · iexact HI432
    isplitr; · iexact HI440
    isplitr; · iexact HI441
    isplitr; · iexact HI442
    isplitr; · iexact HI450
    isplitr; · iexact HI451
    isplitr; · iexact HI452
    isplitr; · iexact HI460
    isplitr; · iexact HI461
    isplitr; · iexact HI462
    isplitr; · iexact HI470
    isplitr; · iexact HI471
    isplitr; · iexact HI472
    isplitr; · iexact HI500
    isplitr; · iexact HI501
    isplitr; · iexact HI502
    isplitr; · iexact HI510
    isplitr; · iexact HI511
    isplitr; · iexact HI512
    isplitr; · iexact HI520
    isplitr; · iexact HI521
    isplitr; · iexact HI522
    isplitr; · iexact HI530
    isplitr; · iexact HI531
    isplitr; · iexact HI532
    isplitr; · iexact HI540
    isplitr; · iexact HI541
    isplitr; · iexact HI542
    isplitr; · iexact HI550
    isplitr; · iexact HI551
    isplitr; · iexact HI552
    isplitr; · iexact HI560
    isplitr; · iexact HI561
    isplitr; · iexact HI562
    isplitr; · iexact HI570
    isplitr; · iexact HI571
    isplitr; · iexact HI572
    isplitl [Hat200]; · iexact Hat200
    isplitl [Hat201]; · iexact Hat201
    isplitl [Hat202]; · iexact Hat202
    isplitl [Hat210]; · iexact Hat210
    isplitl [Hat211]; · iexact Hat211
    isplitl [Hat212]; · iexact Hat212
    isplitl [Hat220]; · iexact Hat220
    isplitl [Hat221]; · iexact Hat221
    isplitl [Hat222]; · iexact Hat222
    isplitl [Hat230]; · iexact Hat230
    isplitl [Hat231]; · iexact Hat231
    isplitl [Hat232]; · iexact Hat232
    isplitl [Hat240]; · iexact Hat240
    isplitl [Hat241]; · iexact Hat241
    isplitl [Hat242]; · iexact Hat242
    isplitl [Hat250]; · iexact Hat250
    isplitl [Hat251]; · iexact Hat251
    isplitl [Hat252]; · iexact Hat252
    isplitl [Hat260]; · iexact Hat260
    isplitl [Hat261]; · iexact Hat261
    isplitl [Hat262]; · iexact Hat262
    isplitl [Hat270]; · iexact Hat270
    isplitl [Hat271]; · iexact Hat271
    isplitl [Hat272]; · iexact Hat272
    isplitl [Hat300]; · iexact Hat300
    isplitl [Hat301]; · iexact Hat301
    isplitl [Hat302]; · iexact Hat302
    isplitl [Hat310]; · iexact Hat310
    isplitl [Hat311]; · iexact Hat311
    isplitl [Hat312]; · iexact Hat312
    isplitl [Hat320]; · iexact Hat320
    isplitl [Hat321]; · iexact Hat321
    isplitl [Hat322]; · iexact Hat322
    isplitl [Hat330]; · iexact Hat330
    isplitl [Hat331]; · iexact Hat331
    isplitl [Hat332]; · iexact Hat332
    isplitl [Hat340]; · iexact Hat340
    isplitl [Hat341]; · iexact Hat341
    isplitl [Hat342]; · iexact Hat342
    isplitl [Hat350]; · iexact Hat350
    isplitl [Hat351]; · iexact Hat351
    isplitl [Hat352]; · iexact Hat352
    isplitl [Hat360]; · iexact Hat360
    isplitl [Hat361]; · iexact Hat361
    isplitl [Hat362]; · iexact Hat362
    isplitl [Hat370]; · iexact Hat370
    isplitl [Hat371]; · iexact Hat371
    isplitl [Hat372]; · iexact Hat372
    isplitl [Hat400]; · iexact Hat400
    isplitl [Hat401]; · iexact Hat401
    isplitl [Hat402]; · iexact Hat402
    isplitl [Hat410]; · iexact Hat410
    isplitl [Hat411]; · iexact Hat411
    isplitl [Hat412]; · iexact Hat412
    isplitl [Hat420]; · iexact Hat420
    isplitl [Hat421]; · iexact Hat421
    isplitl [Hat422]; · iexact Hat422
    isplitl [Hat430]; · iexact Hat430
    isplitl [Hat431]; · iexact Hat431
    isplitl [Hat432]; · iexact Hat432
    isplitl [Hat440]; · iexact Hat440
    isplitl [Hat441]; · iexact Hat441
    isplitl [Hat442]; · iexact Hat442
    isplitl [Hat450]; · iexact Hat450
    isplitl [Hat451]; · iexact Hat451
    isplitl [Hat452]; · iexact Hat452
    isplitl [Hat460]; · iexact Hat460
    isplitl [Hat461]; · iexact Hat461
    isplitl [Hat462]; · iexact Hat462
    isplitl [Hat470]; · iexact Hat470
    isplitl [Hat471]; · iexact Hat471
    isplitl [Hat472]; · iexact Hat472
    isplitl [Hat500]; · iexact Hat500
    isplitl [Hat501]; · iexact Hat501
    isplitl [Hat502]; · iexact Hat502
    isplitl [Hat510]; · iexact Hat510
    isplitl [Hat511]; · iexact Hat511
    isplitl [Hat512]; · iexact Hat512
    isplitl [Hat520]; · iexact Hat520
    isplitl [Hat521]; · iexact Hat521
    isplitl [Hat522]; · iexact Hat522
    isplitl [Hat530]; · iexact Hat530
    isplitl [Hat531]; · iexact Hat531
    isplitl [Hat532]; · iexact Hat532
    isplitl [Hat540]; · iexact Hat540
    isplitl [Hat541]; · iexact Hat541
    isplitl [Hat542]; · iexact Hat542
    isplitl [Hat550]; · iexact Hat550
    isplitl [Hat551]; · iexact Hat551
    isplitl [Hat552]; · iexact Hat552
    isplitl [Hat560]; · iexact Hat560
    isplitl [Hat561]; · iexact Hat561
    isplitl [Hat562]; · iexact Hat562
    isplitl [Hat570]; · iexact Hat570
    isplitl [Hat571]; · iexact Hat571
    isplitl [Hat572]; · iexact Hat572
    isplitl [Hatb]; · iexact Hatb
    iexact HO
  sl_step
  iapply Hk
  iexact HP

/-- One device's body, from the launch's precondition to its postcondition. -/
theorem sound_body (m : (ℓ : Loc nD τ sig) → Buf (Elt F) ℓ) (ρ : Dev nD → PrngReg) : SoundBody (F := F) m ρ := fun K c Kt => by
  iintro ⟨Hpre, Hk⟩
  ihave Hc := (pre_glue m ρ K c) $$ Hpre
  icases Hc with ⟨%fbb, %fr, %fo, %W, Hc⟩
  iapply (core_body (xstgA m ρ) (xstgB m ρ) K c fbb fr fo W Kt (bodyPost m ρ c) (fun fbb' W' => post_glue m ρ K c fbb' W')) $$ [Hc Hk]
  isplitl [Hc] <;> iassumption

/-- info: 'Cert.Kernel.P.sound_body' depends on axioms: [propext, Classical.choice, Quot.sound] -/
#guard_msgs in #print axioms sound_body

end Cert.Kernel.P

end
-- ==== Proof.lean ====
/-
  A k-sharded matrix product with silu, on four devices, against silu(A · B) on one.

  Device c holds the column block A_c = A[:, 1024 c … 1024 c + 1023] and the row block B_c = B[1024 c … 1024 c + 1023, :] of
  A : 2048 × 4096 and B : 4096 × 2048, so that A · B = ∑_c A_c · B_c. The result is cut in 4 bands of 512 rows and 8 slices of
  256 columns. After a handshake of each device with its two ring neighbours, the partial products are reduce-scattered along
  eight chains around the ring, four in each direction: at each of three steps a device adds its own partial product for the
  band passing through to the block it received and sends the sum on, so that band c, complete, ends on device c. That device
  applies z ↦ z · (1 / (1 + e^(0 − z))) to it, and an all-gather along the same chains copies every finished block to every device.

  Claimed: the program as printed and its reading at the ideal values each run from any memory satisfying the precondition,
  every semaphore at zero, and leave each device's two argument blocks unchanged; so does the reference, on its one device and
  whole arrays; and at the ideal values, where a float is an extended real, every operation exact and a change of format the
  identity, from memories where each device's blocks are its blocks of the reference's arrays, every device's result array ends
  as the reference's result z / (1 + e^(−z)) of z = A · B. The sum over the four devices is the sum over the 4096 summands cut in
  four, because addition of extended reals commutes and associates; the two spellings of silu agree at every extended real, so
  the finiteness precondition is not used.

  The run of the four devices rests on one device's body, proved once at a symbolic device for any float values, and on the
  launch that deals every cell's invariant, position and duty tokens to the devices; the reference's run is read off its
  operations one at a time.
-/
import proofs.«900901_g7700000000000902_dist_matmul_silu_kshard_i_m2048_n2048_k1024_v7x_i4_bf16_1_alg».proof.Defs
import proofs.«900901_g7700000000000902_dist_matmul_silu_kshard_i_m2048_n2048_k1024_v7x_i4_bf16_1_alg».proof.Proof.Gen.Kernel
import proofs.«900901_g7700000000000902_dist_matmul_silu_kshard_i_m2048_n2048_k1024_v7x_i4_bf16_1_alg».proof.Proof.Gen.Kernel.Skeleton
import proofs.«900901_g7700000000000902_dist_matmul_silu_kshard_i_m2048_n2048_k1024_v7x_i4_bf16_1_alg».proof.Proof.Gen.Kernel.Launch
import proofs.«900901_g7700000000000902_dist_matmul_silu_kshard_i_m2048_n2048_k1024_v7x_i4_bf16_1_alg».proof.Proof.Gen.Kernel.Points
import proofs.«900901_g7700000000000902_dist_matmul_silu_kshard_i_m2048_n2048_k1024_v7x_i4_bf16_1_alg».proof.Proof.Gen.Kernel.Frame
import proofs.«900901_g7700000000000902_dist_matmul_silu_kshard_i_m2048_n2048_k1024_v7x_i4_bf16_1_alg».proof.Proof.Gen.KernelIdeal
import proofs.«900901_g7700000000000902_dist_matmul_silu_kshard_i_m2048_n2048_k1024_v7x_i4_bf16_1_alg».proof.Proof.Gen.KernelIdeal.Skeleton
import proofs.«900901_g7700000000000902_dist_matmul_silu_kshard_i_m2048_n2048_k1024_v7x_i4_bf16_1_alg».proof.Proof.Gen.KernelIdeal.Launch
import proofs.«900901_g7700000000000902_dist_matmul_silu_kshard_i_m2048_n2048_k1024_v7x_i4_bf16_1_alg».proof.Proof.Gen.KernelIdeal.Points
import proofs.«900901_g7700000000000902_dist_matmul_silu_kshard_i_m2048_n2048_k1024_v7x_i4_bf16_1_alg».proof.Proof.Gen.KernelIdeal.Frame
import proofs.«900901_g7700000000000902_dist_matmul_silu_kshard_i_m2048_n2048_k1024_v7x_i4_bf16_1_alg».proof.Proof.Gen.ReferenceIdeal
import proofs.«900901_g7700000000000902_dist_matmul_silu_kshard_i_m2048_n2048_k1024_v7x_i4_bf16_1_alg».proof.Proof.Gen.Pre_finite_inputs_Kernel
import proofs.«900901_g7700000000000902_dist_matmul_silu_kshard_i_m2048_n2048_k1024_v7x_i4_bf16_1_alg».proof.Proof.Gen.Pre_finite_inputs_ReferenceIdeal
import Idealize.ShloMosaic.Adequacy
import Idealize.ShloMosaic.Init
import proofs.«900901_g7700000000000902_dist_matmul_silu_kshard_i_m2048_n2048_k1024_v7x_i4_bf16_1_alg».proof.Proof.RefSide
import proofs.«900901_g7700000000000902_dist_matmul_silu_kshard_i_m2048_n2048_k1024_v7x_i4_bf16_1_alg».proof.Proof.Final
import proofs.«900901_g7700000000000902_dist_matmul_silu_kshard_i_m2048_n2048_k1024_v7x_i4_bf16_1_alg».proof.Proof.KFinal
import proofs.«900901_g7700000000000902_dist_matmul_silu_kshard_i_m2048_n2048_k1024_v7x_i4_bf16_1_alg».proof.Proof.Body
import proofs.«900901_g7700000000000902_dist_matmul_silu_kshard_i_m2048_n2048_k1024_v7x_i4_bf16_1_alg».proof.Proof.KBody

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    Cert.Kernel.Final.frame_k (fun m ρ => Cert.Kernel.P.sound_body m ρ),
    Cert.KernelIdeal.Final.frame_ki (fun m ρ => Cert.KernelIdeal.P.sound_body m ρ),
    Cert.ReferenceIdeal.RefSide.frame_ri,
    trivial,
    Cert.KernelIdeal.Final.algebraic_ki (fun m ρ => Cert.KernelIdeal.P.sound_body m ρ)⟩

end Cert.Proof

end
